-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384 : Shape := ⟨1, ![16384]⟩
abbrev S32 : Shape := ⟨1, ![32]⟩
abbrev S786432x128 : Shape := ⟨2, ![786432, 128]⟩
abbrev S3x128 : Shape := ⟨2, ![3, 128]⟩
abbrev S30x128 : Shape := ⟨2, ![30, 128]⟩
abbrev S30 : Shape := ⟨1, ![30]⟩
abbrev S1x32 : Shape := ⟨2, ![1, 32]⟩
abbrev S_ : Shape := ⟨0, ![]⟩
abbrev S16384x1 : Shape := ⟨2, ![16384, 1]⟩

class Facts : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x32_0_1 : S16384x1.BroadcastsInDim S16384x32 (![0, 1] : Fin 2 → Fin S16384x32.rank)
  bcast_S_S786432x128 : S_.BroadcastsInDim S786432x128 (![] : Fin 0 → Fin S786432x128.rank)
  reducesTo_S786432x128_S_d0_1 : S786432x128.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S30x128 : S_.BroadcastsInDim S30x128 (![] : Fin 0 → Fin S30x128.rank)
  reducesTo_S30x128_S_d0_1 : S30x128.ReducesTo [0, 1] S_
  bcast_S_S30 : S_.BroadcastsInDim S30 (![] : Fin 0 → Fin S30.rank)
  reducesTo_S30_S_d0 : S30.ReducesTo [0] S_
  bcast_S_S16384x32 : S_.BroadcastsInDim S16384x32 (![] : Fin 0 → Fin S16384x32.rank)
  reducesTo_S16384x32_S_d0_1 : S16384x32.ReducesTo [0, 1] S_

variable [Facts]

def fn_part2 {F : FTy → Type} [FloatOps F] (main_arg6 : FVec F S30 .f32) (main_v21 : IVec S16384x32 32) (main_v35 : IVec S_ 1) : IVec S_ 1 :=
  let main_v36 : FVec F S30 .f32 := Host.absf main_arg6
  let main_cst_10 : FVec F S_ .f32 := constant S_ .f32 0x7F800000#32
  let main_v37 : FVec F S30 .f32 := broadcastInDim S30 ![] bcast_S_S30 main_cst_10
  let main_v38 : IVec S30 1 := cmpf .olt main_v36 main_v37
  let main_c_11 : IVec S_ 1 := constantI S_ 1 1#1
  let main_v39 : IVec S_ 1 := (fun x v => Host.reduce IntOp.andi x v reducesTo_S30_S_d0 h_S_) main_v38 main_c_11
  let main_v40 : IVec S_ 1 := andi main_v35 main_v39
  let main_c_12 : IVec S_ 32 := constantI S_ 32 0#32
  let main_v41 : IVec S16384x32 32 := broadcastInDim S16384x32 ![] bcast_S_S16384x32 main_c_12
  let main_v42 : IVec S16384x32 1 := cmpi .sge main_v21 main_v41
  let main_c_13 : IVec S_ 32 := constantI S_ 32 786432#32
  let main_v43 : IVec S16384x32 32 := broadcastInDim S16384x32 ![] bcast_S_S16384x32 main_c_13
  let main_v44 : IVec S16384x32 1 := cmpi .slt main_v21 main_v43
  let main_v45 : IVec S16384x32 1 := andi main_v42 main_v44
  let main_c_14 : IVec S_ 1 := constantI S_ 1 1#1
  let main_v46 : IVec S_ 1 := (fun x v => Host.reduce IntOp.andi x v reducesTo_S16384x32_S_d0_1 h_S_) main_v45 main_c_14
  let main_v47 : IVec S_ 1 := andi main_v40 main_v46
  main_v47

def fn_part1 {F : FTy → Type} [FloatOps F] (main_arg3 : FVec F S786432x128 .f32) (main_arg4 : FVec F S3x128 .f32) (main_arg5 : FVec F S30x128 .f32) (main_arg6 : FVec F S30 .f32) (main_v2 : IVec S16384x32 32) (main_v17 : IVec S16384x1 32) (main_c_4 : IVec S_ 32) : IVec S_ 1 :=
  let main_v18 : IVec S16384x1 32 := broadcastInDim S16384x1 ![] bcast_S_S16384x1 main_c_4
  let main_v19 : IVec S16384x1 32 := muli main_v17 main_v18
  let main_v20 : IVec S16384x32 32 := broadcastInDim S16384x32 ![0, 1] bcast_S16384x1_S16384x32_0_1 main_v19
  let main_v21 : IVec S16384x32 32 := addi main_v20 main_v2
  let main_v22 : FVec F S786432x128 .f32 := Host.absf main_arg3
  let main_cst : FVec F S_ .f32 := constant S_ .f32 0x7F800000#32
  let main_v23 : FVec F S786432x128 .f32 := broadcastInDim S786432x128 ![] bcast_S_S786432x128 main_cst
  let main_v24 : IVec S786432x128 1 := cmpf .olt main_v22 main_v23
  let main_c_5 : IVec S_ 1 := constantI S_ 1 1#1
  let main_v25 : IVec S_ 1 := (fun x v => Host.reduce IntOp.andi x v reducesTo_S786432x128_S_d0_1 h_S_) main_v24 main_c_5
  let main_v26 : FVec F S3x128 .f32 := Host.absf main_arg4
  let main_cst_6 : FVec F S_ .f32 := constant S_ .f32 0x7F800000#32
  let main_v27 : FVec F S3x128 .f32 := broadcastInDim S3x128 ![] bcast_S_S3x128 main_cst_6
  let main_v28 : IVec S3x128 1 := cmpf .olt main_v26 main_v27
  let main_c_7 : IVec S_ 1 := constantI S_ 1 1#1
  let main_v29 : IVec S_ 1 := (fun x v => Host.reduce IntOp.andi x v reducesTo_S3x128_S_d0_1 h_S_) main_v28 main_c_7
  let main_v30 : IVec S_ 1 := andi main_v25 main_v29
  let main_v31 : FVec F S30x128 .f32 := Host.absf main_arg5
  let main_cst_8 : FVec F S_ .f32 := constant S_ .f32 0x7F800000#32
  let main_v32 : FVec F S30x128 .f32 := broadcastInDim S30x128 ![] bcast_S_S30x128 main_cst_8
  let main_v33 : IVec S30x128 1 := cmpf .olt main_v31 main_v32
  let main_c_9 : IVec S_ 1 := constantI S_ 1 1#1
  let main_v34 : IVec S_ 1 := (fun x v => Host.reduce IntOp.andi x v reducesTo_S30x128_S_d0_1 h_S_) main_v33 main_c_9
  let main_v35 : IVec S_ 1 := andi main_v30 main_v34
  fn_part2 (F := F) main_arg6 main_v21 main_v35

def fn {F : FTy → Type} [FloatOps F] (main_arg0 : IVec S16384x32 32) (main_arg1 : IVec S16384 32) (main_arg2 : IVec S32 32) (main_arg3 : FVec F S786432x128 .f32) (main_arg4 : FVec F S3x128 .f32) (main_arg5 : FVec F S30x128 .f32) (main_arg6 : FVec F S30 .f32) : IVec S_ 1 :=
  let main_v0 : IVec S1x32 32 := broadcastInDim S1x32 ![1] bcast_S32_S1x32_1 main_arg2
  let main_v1 : IVec S16384x32 32 := broadcastInDim S16384x32 ![0, 1] bcast_S1x32_S16384x32_0_1 main_v0
  let main_v2 : IVec S16384x32 32 := addi main_arg0 main_v1
  let main_c : IVec S_ 32 := constantI S_ 32 10#32
  let main_v3 : IVec S16384 32 := broadcastInDim S16384 ![] bcast_S_S16384 main_c
  let main_v4 : IVec S16384 32 := Host.divsi main_arg1 main_v3
  let main_c_0 : IVec S_ 32 := constantI S_ 32 10#32
  let main_v5 : IVec S16384 32 := broadcastInDim S16384 ![] bcast_S_S16384 main_c_0
  let main_v6 : IVec S16384 32 := Host.remsi main_arg1 main_v5
  let main_v7 : IVec S16384 32 := signi main_arg1
  let main_c_1 : IVec S_ 32 := constantI S_ 32 10#32
  let main_v8 : IVec S_ 32 := signi main_c_1
  let main_v9 : IVec S16384 32 := broadcastInDim S16384 ![] bcast_S_S16384 main_v8
  let main_v10 : IVec S16384 1 := cmpi .ne main_v7 main_v9
  let main_c_2 : IVec S_ 32 := constantI S_ 32 0#32
  let main_v11 : IVec S16384 32 := broadcastInDim S16384 ![] bcast_S_S16384 main_c_2
  let main_v12 : IVec S16384 1 := cmpi .ne main_v6 main_v11
  let main_v13 : IVec S16384 1 := andi main_v10 main_v12
  let main_c_3 : IVec S_ 32 := constantI S_ 32 1#32
  let main_v14 : IVec S16384 32 := broadcastInDim S16384 ![] bcast_S_S16384 main_c_3
  let main_v15 : IVec S16384 32 := subi main_v4 main_v14
  let main_v16 : IVec S16384 32 := select main_v13 main_v15 main_v4
  let main_v17 : IVec S16384x1 32 := broadcastInDim S16384x1 ![0] bcast_S16384_S16384x1_0 main_v16
  let main_c_4 : IVec S_ 32 := constantI S_ 32 262144#32
  fn_part1 (F := F) main_arg3 main_arg4 main_arg5 main_arg6 main_v2 main_v17 main_c_4
-- ==== Kernel.lean ====
abbrev S16384x32 : Shape := ⟨2, ![16384, 32]⟩
abbrev S16384 : Shape := ⟨1, ![16384]⟩
abbrev S32 : Shape := ⟨1, ![32]⟩
abbrev S786432x128 : Shape := ⟨2, ![786432, 128]⟩
abbrev S3x128 : Shape := ⟨2, ![3, 128]⟩
abbrev S30x128 : Shape := ⟨2, ![30, 128]⟩
abbrev S30 : Shape := ⟨1, ![30]⟩
abbrev S1x32 : Shape := ⟨2, ![1, 32]⟩
abbrev S_ : Shape := ⟨0, ![]⟩
abbrev S16384x1 : Shape := ⟨2, ![16384, 1]⟩
abbrev S16384x128 : Shape := ⟨2, ![16384, 128]⟩
abbrev S16384x1x128 : Shape := ⟨3, ![16384, 1, 128]⟩
abbrev S16384x1x1 : Shape := ⟨3, ![16384, 1, 1]⟩
abbrev S786432x1x128 : Shape := ⟨3, ![786432, 1, 128]⟩
abbrev S2048x32 : Shape := ⟨2, ![2048, 32]⟩
abbrev S65536 : Shape := ⟨1, ![65536]⟩
abbrev S2048x1x128 : Shape := ⟨3, ![2048, 1, 128]⟩
abbrev S2048x1x1 : Shape := ⟨3, ![2048, 1, 1]⟩
abbrev S1x1x128 : Shape := ⟨3, ![1, 1, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 125
  | .vmem => 88
  | .smem => 8
  | _ => 0

abbrev bufTy : (tb : Table) → Fin (tcTables nBuf tb) → BufTy
  | .hbm, ⟨0, _⟩ => ⟨S16384x32, .i32⟩
  | .hbm, ⟨1, _⟩ => ⟨S16384, .i32⟩
  | .hbm, ⟨2, _⟩ => ⟨S32, .i32⟩
  | .hbm, ⟨3, _⟩ => ⟨S786432x128, .f32⟩
  | .hbm, ⟨4, _⟩ => ⟨S3x128, .f32⟩
  | .hbm, ⟨5, _⟩ => ⟨S30x128, .f32⟩
  | .hbm, ⟨6, _⟩ => ⟨S30, .f32⟩
  | .hbm, ⟨7, _⟩ => ⟨S1x32, .i32⟩
  | .hbm, ⟨8, _⟩ => ⟨S16384x32, .i32⟩
  | .hbm, ⟨9, _⟩ => ⟨S16384x32, .i32⟩
  | .hbm, ⟨10, _⟩ => ⟨S_, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S_, .i32⟩
  | .hbm, ⟨30, _⟩ => ⟨S16384x1, .i32⟩
  | .hbm, ⟨31, _⟩ => ⟨S16384x1, .i32⟩
  | .hbm, ⟨32, _⟩ => ⟨S16384x32, .i32⟩
  | .hbm, ⟨33, _⟩ => ⟨S16384x32, .i32⟩
  | .hbm, ⟨34, _⟩ => ⟨S_, .i32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S16384, .i32⟩
  | .hbm, ⟨43, _⟩ => ⟨S16384, .i32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S16384x128, .f32⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S_, .i32⟩
  | .hbm, ⟨65, _⟩ => ⟨S16384, .i32⟩
  | .hbm, ⟨66, _⟩ => ⟨S16384, .i32⟩
  | .hbm, ⟨67, _⟩ => ⟨S16384, .i32⟩
  | .hbm, ⟨68, _⟩ => ⟨S16384x1, .i32⟩
  | .hbm, ⟨69, _⟩ => ⟨S16384x128, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S16384, .f32⟩
  | .hbm, ⟨79, _⟩ => ⟨S16384x1x128, .f32⟩
  | .hbm, ⟨80, _⟩ => ⟨S16384x1x128, .f32⟩
  | .hbm, ⟨81, _⟩ => ⟨S16384x1x1, .f32⟩
  | .hbm, ⟨82, _⟩ => ⟨S786432x1x128, .f32⟩
  | .hbm, ⟨83, _⟩ => ⟨S2048x32, .i32⟩
  | .hbm, ⟨84, _⟩ => ⟨S2048x1x128, .f32⟩
  | .hbm, ⟨85, _⟩ => ⟨S2048x1x128, .f32⟩
  | .hbm, ⟨86, _⟩ => ⟨S2048x1x1, .f32⟩
  | .hbm, ⟨87, _⟩ => ⟨S2048x1x1, .f32⟩
  | .hbm, ⟨88, _⟩ => ⟨S2048x32, .i32⟩
  | .hbm, ⟨89, _⟩ => ⟨S2048x1x128, .f32⟩
  | .hbm, ⟨90, _⟩ => ⟨S2048x1x128, .f32⟩
  | .hbm, ⟨91, _⟩ => ⟨S2048x1x1, .f32⟩
  | .hbm, ⟨92, _⟩ => ⟨S2048x1x1, .f32⟩
  | .hbm, ⟨93, _⟩ => ⟨S2048x32, .i32⟩
  | .hbm, ⟨94, _⟩ => ⟨S2048x1x128, .f32⟩
  | .hbm, ⟨95, _⟩ => ⟨S2048x1x128, .f32⟩
  | .hbm, ⟨96, _⟩ => ⟨S2048x1x1, .f32⟩
  | .hbm, ⟨97, _⟩ => ⟨S2048x1x1, .f32⟩
  | .hbm, ⟨98, _⟩ => ⟨S2048x32, .i32⟩
  | .hbm, ⟨99, _⟩ => ⟨S2048x1x128, .f32⟩
  | .hbm, ⟨100, _⟩ => ⟨S2048x1x128, .f32⟩
  | .hbm, ⟨101, _⟩ => ⟨S2048x1x1, .f32⟩
  | .hbm, ⟨102, _⟩ => ⟨S2048x1x1, .f32⟩
  | .hbm, ⟨103, _⟩ => ⟨S2048x32, .i32⟩
  | .hbm, ⟨104, _⟩ => ⟨S2048x1x128, .f32⟩
  | .hbm, ⟨105, _⟩ => ⟨S2048x1x128, .f32⟩
  | .hbm, ⟨106, _⟩ => ⟨S2048x1x1, .f32⟩
  | .hbm, ⟨107, _⟩ => ⟨S2048x1x1, .f32⟩
  | .hbm, ⟨108, _⟩ => ⟨S2048x32, .i32⟩
  | .hbm, ⟨109, _⟩ => ⟨S2048x1x128, .f32⟩
  | .hbm, ⟨110, _⟩ => ⟨S2048x1x128, .f32⟩
  | .hbm, ⟨111, _⟩ => ⟨S2048x1x1, .f32⟩
  | .hbm, ⟨112, _⟩ => ⟨S2048x1x1, .f32⟩
  | .hbm, ⟨113, _⟩ => ⟨S2048x32, .i32⟩
  | .hbm, ⟨114, _⟩ => ⟨S2048x1x128, .f32⟩
  | .hbm, ⟨115, _⟩ => ⟨S2048x1x128, .f32⟩
  | .hbm, ⟨116, _⟩ => ⟨S2048x1x1, .f32⟩
  | .hbm, ⟨117, _⟩ => ⟨S2048x1x1, .f32⟩
  | .hbm, ⟨118, _⟩ => ⟨S2048x32, .i32⟩
  | .hbm, ⟨119, _⟩ => ⟨S2048x1x128, .f32⟩
  | .hbm, ⟨120, _⟩ => ⟨S2048x1x128, .f32⟩
  | .hbm, ⟨121, _⟩ => ⟨S2048x1x1, .f32⟩
  | .hbm, ⟨122, _⟩ => ⟨S2048x1x1, .f32⟩
  | .hbm, ⟨123, _⟩ => ⟨S16384x1x1, .f32⟩
  | .hbm, ⟨124, _⟩ => ⟨S16384x1, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x1, .f32⟩
  | .local _ .vmem, ⟨29, _⟩ => ⟨S1x1x1, .f32⟩
  | .local _ .vmem, ⟨30, _⟩ => ⟨S1x1x1, .f32⟩
  | .local _ .vmem, ⟨31, _⟩ => ⟨S1x1x1, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x1, .f32⟩
  | .local _ .vmem, ⟨40, _⟩ => ⟨S1x1x1, .f32⟩
  | .local _ .vmem, ⟨41, _⟩ => ⟨S1x1x1, .f32⟩
  | .local _ .vmem, ⟨42, _⟩ => ⟨S1x1x1, .f32⟩
  | .local _ .vmem, ⟨43, _⟩ => ⟨S1x1x128, .f32⟩
  | .local _ .vmem, ⟨44, _⟩ => ⟨S1x1x128, .f32⟩
  | .local _ .vmem, ⟨45, _⟩ => ⟨S1x1x128, .f32⟩
  | .local _ .vmem, ⟨46, _⟩ => ⟨S1x1x128, .f32⟩
  | .local _ .vmem, ⟨47, _⟩ => ⟨S1x1x128, .f32⟩
  | .local _ .vmem, ⟨48, _⟩ => ⟨S1x1x128, .f32⟩
  | .local _ .vmem, ⟨49, _⟩ => ⟨S1x1x128, .f32⟩
  | .local _ .vmem, ⟨50, _⟩ => ⟨S1x1x1, .f32⟩
  | .local _ .vmem, ⟨51, _⟩ => ⟨S1x1x1, .f32⟩
  | .local _ .vmem, ⟨52, _⟩ => ⟨S1x1x1, .f32⟩
  | .local _ .vmem, ⟨53, _⟩ => ⟨S1x1x1, .f32⟩
  | .local _ .vmem, ⟨54, _⟩ => ⟨S1x1x128, .f32⟩
  | .local _ .vmem, ⟨55, _⟩ => ⟨S1x1x128, .f32⟩
  | .local _ .vmem, ⟨56, _⟩ => ⟨S1x1x128, .f32⟩
  | .local _ .vmem, ⟨57, _⟩ => ⟨S1x1x128, .f32⟩
  | .local _ .vmem, ⟨58, _⟩ => ⟨S1x1x128, .f32⟩
  | .local _ .vmem, ⟨59, _⟩ => ⟨S1x1x128, .f32⟩
  | .local _ .vmem, ⟨60, _⟩ => ⟨S1x1x128, .f32⟩
  | .local _ .vmem, ⟨61, _⟩ => ⟨S1x1x1, .f32⟩
  | .local _ .vmem, ⟨62, _⟩ => ⟨S1x1x1, .f32⟩
  | .local _ .vmem, ⟨63, _⟩ => ⟨S1x1x1, .f32⟩
  | .local _ .vmem, ⟨64, _⟩ => ⟨S1x1x1, .f32⟩
  | .local _ .vmem, ⟨65, _⟩ => ⟨S1x1x128, .f32⟩
  | .local _ .vmem, ⟨66, _⟩ => ⟨S1x1x128, .f32⟩
  | .local _ .vmem, ⟨67, _⟩ => ⟨S1x1x128, .f32⟩
  | .local _ .vmem, ⟨68, _⟩ => ⟨S1x1x128, .f32⟩
  | .local _ .vmem, ⟨69, _⟩ => ⟨S1x1x128, .f32⟩
  | .local _ .vmem, ⟨70, _⟩ => ⟨S1x1x128, .f32⟩
  | .local _ .vmem, ⟨71, _⟩ => ⟨S1x1x128, .f32⟩
  | .local _ .vmem, ⟨72, _⟩ => ⟨S1x1x1, .f32⟩
  | .local _ .vmem, ⟨73, _⟩ => ⟨S1x1x1, .f32⟩
  | .local _ .vmem, ⟨74, _⟩ => ⟨S1x1x1, .f32⟩
  | .local _ .vmem, ⟨75, _⟩ => ⟨S1x1x1, .f32⟩
  | .local _ .vmem, ⟨76, _⟩ => ⟨S1x1x128, .f32⟩
  | .local _ .vmem, ⟨77, _⟩ => ⟨S1x1x128, .f32⟩
  | .local _ .vmem, ⟨78, _⟩ => ⟨S1x1x128, .f32⟩
  | .local _ .vmem, ⟨79, _⟩ => ⟨S1x1x128, .f32⟩
  | .local _ .vmem, ⟨80, _⟩ => ⟨S1x1x128, .f32⟩
  | .local _ .vmem, ⟨81, _⟩ => ⟨S1x1x128, .f32⟩
  | .local _ .vmem, ⟨82, _⟩ => ⟨S1x1x128, .f32⟩
  | .local _ .vmem, ⟨83, _⟩ => ⟨S1x1x1, .f32⟩
  | .local _ .vmem, ⟨84, _⟩ => ⟨S1x1x1, .f32⟩
  | .local _ .vmem, ⟨85, _⟩ => ⟨S1x1x1, .f32⟩
  | .local _ .vmem, ⟨86, _⟩ => ⟨S1x1x1, .f32⟩
  | .local _ .vmem, ⟨87, _⟩ => ⟨S1x1x128, .f32⟩
  | .local _ .smem, ⟨0, _⟩ => ⟨S65536, .i32⟩
  | .local _ .smem, ⟨1, _⟩ => ⟨S65536, .i32⟩
  | .local _ .smem, ⟨2, _⟩ => ⟨S65536, .i32⟩
  | .local _ .smem, ⟨3, _⟩ => ⟨S65536, .i32⟩
  | .local _ .smem, ⟨4, _⟩ => ⟨S65536, .i32⟩
  | .local _ .smem, ⟨5, _⟩ => ⟨S65536, .i32⟩
  | .local _ .smem, ⟨6, _⟩ => ⟨S65536, .i32⟩
  | .local _ .smem, ⟨7, _⟩ => ⟨S65536, .i32⟩
  | _, _ => ⟨S16384x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v9 : Ref sig .tc := ⟨.hbm, 51, rfl⟩
abbrev main_c_2 : Ref sig .tc := ⟨.hbm, 52, rfl⟩
abbrev main_v10 : Ref sig .tc := ⟨.hbm, 53, rfl⟩
abbrev main_v11 : Ref sig .tc := ⟨.hbm, 54, rfl⟩
abbrev main_c_3 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_c_4 : Ref sig .tc := ⟨.hbm, 61, rfl⟩
abbrev main_v17 : Ref sig .tc := ⟨.hbm, 62, rfl⟩
abbrev main_v18 : Ref sig .tc := ⟨.hbm, 63, rfl⟩
abbrev main_c_5 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_c_6 : Ref sig .tc := ⟨.hbm, 70, rfl⟩
abbrev main_v24 : Ref sig .tc := ⟨.hbm, 71, rfl⟩
abbrev main_v25 : Ref sig .tc := ⟨.hbm, 72, rfl⟩
abbrev main_c_7 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v36 : Ref sig .tc := ⟨.smem, 0, rfl⟩
abbrev main_v42 : Ref sig .tc := ⟨.smem, 1, rfl⟩
abbrev main_v48 : Ref sig .tc := ⟨.smem, 2, rfl⟩
abbrev main_v54 : Ref sig .tc := ⟨.smem, 3, rfl⟩
abbrev main_v60 : Ref sig .tc := ⟨.smem, 4, rfl⟩
abbrev main_v66 : Ref sig .tc := ⟨.smem, 5, rfl⟩
abbrev main_v72 : Ref sig .tc := ⟨.smem, 6, rfl⟩
abbrev main_v78 : Ref sig .tc := ⟨.smem, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_scratch0 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc4_scratch0 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg3_1 : Ref sig .tc := ⟨.vmem, 62, rfl⟩
abbrev cc5_stg4_0 : Ref sig .tc := ⟨.vmem, 63, rfl⟩
abbrev cc5_stg4_1 : Ref sig .tc := ⟨.vmem, 64, rfl⟩
abbrev cc5_scratch0 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg3_1 : Ref sig .tc := ⟨.vmem, 73, rfl⟩
abbrev cc6_stg4_0 : Ref sig .tc := ⟨.vmem, 74, rfl⟩
abbrev cc6_stg4_1 : Ref sig .tc := ⟨.vmem, 75, rfl⟩
abbrev cc6_scratch0 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg3_1 : Ref sig .tc := ⟨.vmem, 84, rfl⟩
abbrev cc7_stg4_0 : Ref sig .tc := ⟨.vmem, 85, rfl⟩
abbrev cc7_stg4_1 : Ref sig .tc := ⟨.vmem, 86, rfl⟩
abbrev cc7_scratch0 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem3_1 : DmaSem sig := 67
abbrev cc6_sem4_0 : DmaSem sig := 68
abbrev cc6_sem4_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc7_sem3_0 : DmaSem sig := 76
abbrev cc7_sem3_1 : DmaSem sig := 77
abbrev cc7_sem4_0 : DmaSem sig := 78
abbrev cc7_sem4_1 : DmaSem sig := 79

abbrev nD : Nat := 1
abbrev τ : Topo := Topo.v7x

variable {F : FTy → Type} [FloatOps F]

abbrev grid0 : Pipeline.Grid := ⟨2, ![2048, 32], ![false, false]⟩

abbrev pre0 : Pipeline.Prefetch sig := ⟨1, ![main_v36.idx], fun | 0 => main_v36.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def k0_cond2 (i : grid0.Coords) : BitVec 1 :=
  let arg1 : BitVec 32 := BitVec.ofNat 32 (i 1).val
  let c31_i32 : BitVec 32 := 31#32
  let v10 : BitVec 1 := Scalar.cmpi .eq arg1 c31_i32
  let v11 : BitVec 32 := Scalar.extui v10
  let c0_i32_9 : BitVec 32 := 0#32
  let v12 : BitVec 1 := Scalar.cmpi .ne v11 c0_i32_9
  v12

def cc0_transform_0 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2048, 32], ![false, false]⟩

abbrev pre1 : Pipeline.Prefetch sig := ⟨1, ![main_v42.idx], fun | 0 => main_v42.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def k1_cond2 (i : grid1.Coords) : BitVec 1 :=
  let arg1 : BitVec 32 := BitVec.ofNat 32 (i 1).val
  let c31_i32 : BitVec 32 := 31#32
  let v10 : BitVec 1 := Scalar.cmpi .eq arg1 c31_i32
  let v11 : BitVec 32 := Scalar.extui v10
  let c0_i32_9 : BitVec 32 := 0#32
  let v12 : BitVec 1 := Scalar.cmpi .ne v11 c0_i32_9
  v12

def cc1_transform_0 (k1_off1_inb : ∀ i : grid1.Coords, ∀ a, (k1_off1 i) a + S1.size a ≤ S65536.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k1_off1_inb i)) numel1_S1
  let c0_i32 : BitVec 32 := 0#32
  let c0_i32_0 : BitVec 32 := 0#32
  let c0_i32_1 : BitVec 32 := 0#32
  ![v3.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2048, 32], ![false, false]⟩

abbrev pre2 : Pipeline.Prefetch sig := ⟨1, ![main_v48.idx], fun | 0 => main_v48.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def k2_cond2 (i : grid2.Coords) : BitVec 1 :=
  let arg1 : BitVec 32 := BitVec.ofNat 32 (i 1).val
  let c31_i32 : BitVec 32 := 31#32
  let v10 : BitVec 1 := Scalar.cmpi .eq arg1 c31_i32
  let v11 : BitVec 32 := Scalar.extui v10
  let c0_i32_9 : BitVec 32 := 0#32
  let v12 : BitVec 1 := Scalar.cmpi .ne v11 c0_i32_9
  v12

def cc2_transform_0 (k2_off1_inb : ∀ i : grid2.Coords, ∀ a, (k2_off1 i) a + S1.size a ≤ S65536.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k2_off1_inb i)) numel1_S1
  let c0_i32 : BitVec 32 := 0#32
  let c0_i32_0 : BitVec 32 := 0#32
  let c0_i32_1 : BitVec 32 := 0#32
  ![v3.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![2048, 32], ![false, false]⟩

abbrev pre3 : Pipeline.Prefetch sig := ⟨1, ![main_v54.idx], fun | 0 => main_v54.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def k3_cond2 (i : grid3.Coords) : BitVec 1 :=
  let arg1 : BitVec 32 := BitVec.ofNat 32 (i 1).val
  let c31_i32 : BitVec 32 := 31#32
  let v10 : BitVec 1 := Scalar.cmpi .eq arg1 c31_i32
  let v11 : BitVec 32 := Scalar.extui v10
  let c0_i32_9 : BitVec 32 := 0#32
  let v12 : BitVec 1 := Scalar.cmpi .ne v11 c0_i32_9
  v12

def cc3_transform_0 (k3_off1_inb : ∀ i : grid3.Coords, ∀ a, (k3_off1 i) a + S1.size a ≤ S65536.size a) (numel1_S1 : S1.numel = 1) (pf : pre3.Contents (Elt F)) (i : grid3.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k3_off1_inb i)) numel1_S1
  let c0_i32 : BitVec 32 := 0#32
  let c0_i32_0 : BitVec 32 := 0#32
  let c0_i32_1 : BitVec 32 := 0#32
  ![v3.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x1x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![2048, 32], ![false, false]⟩

abbrev pre4 : Pipeline.Prefetch sig := ⟨1, ![main_v60.idx], fun | 0 => main_v60.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def k4_cond2 (i : grid4.Coords) : BitVec 1 :=
  let arg1 : BitVec 32 := BitVec.ofNat 32 (i 1).val
  let c31_i32 : BitVec 32 := 31#32
  let v10 : BitVec 1 := Scalar.cmpi .eq arg1 c31_i32
  let v11 : BitVec 32 := Scalar.extui v10
  let c0_i32_9 : BitVec 32 := 0#32
  let v12 : BitVec 1 := Scalar.cmpi .ne v11 c0_i32_9
  v12

def cc4_transform_0 (k4_off1_inb : ∀ i : grid4.Coords, ∀ a, (k4_off1 i) a + S1.size a ≤ S65536.size a) (numel1_S1 : S1.numel = 1) (pf : pre4.Contents (Elt F)) (i : grid4.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k4_off1_inb i)) numel1_S1
  let c0_i32 : BitVec 32 := 0#32
  let c0_i32_0 : BitVec 32 := 0#32
  let c0_i32_1 : BitVec 32 := 0#32
  ![v3.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x1x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x1x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![2048, 32], ![false, false]⟩

abbrev pre5 : Pipeline.Prefetch sig := ⟨1, ![main_v66.idx], fun | 0 => main_v66.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def k5_cond2 (i : grid5.Coords) : BitVec 1 :=
  let arg1 : BitVec 32 := BitVec.ofNat 32 (i 1).val
  let c31_i32 : BitVec 32 := 31#32
  let v10 : BitVec 1 := Scalar.cmpi .eq arg1 c31_i32
  let v11 : BitVec 32 := Scalar.extui v10
  let c0_i32_9 : BitVec 32 := 0#32
  let v12 : BitVec 1 := Scalar.cmpi .ne v11 c0_i32_9
  v12

def cc5_transform_0 (k5_off1_inb : ∀ i : grid5.Coords, ∀ a, (k5_off1 i) a + S1.size a ≤ S65536.size a) (numel1_S1 : S1.numel = 1) (pf : pre5.Contents (Elt F)) (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k5_off1_inb i)) numel1_S1
  let c0_i32 : BitVec 32 := 0#32
  let c0_i32_0 : BitVec 32 := 0#32
  let c0_i32_1 : BitVec 32 := 0#32
  ![v3.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x1x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1x1x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev grid6 : Pipeline.Grid := ⟨2, ![2048, 32], ![false, false]⟩

abbrev pre6 : Pipeline.Prefetch sig := ⟨1, ![main_v72.idx], fun | 0 => main_v72.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def k6_cond2 (i : grid6.Coords) : BitVec 1 :=
  let arg1 : BitVec 32 := BitVec.ofNat 32 (i 1).val
  let c31_i32 : BitVec 32 := 31#32
  let v10 : BitVec 1 := Scalar.cmpi .eq arg1 c31_i32
  let v11 : BitVec 32 := Scalar.extui v10
  let c0_i32_9 : BitVec 32 := 0#32
  let v12 : BitVec 1 := Scalar.cmpi .ne v11 c0_i32_9
  v12

def cc6_transform_0 (k6_off1_inb : ∀ i : grid6.Coords, ∀ a, (k6_off1 i) a + S1.size a ≤ S65536.size a) (numel1_S1 : S1.numel = 1) (pf : pre6.Contents (Elt F)) (i : grid6.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k6_off1_inb i)) numel1_S1
  let c0_i32 : BitVec 32 := 0#32
  let c0_i32_0 : BitVec 32 := 0#32
  let c0_i32_1 : BitVec 32 := 0#32
  ![v3.toNat, c0_i32.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x1x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1x1x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S1x1x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev grid7 : Pipeline.Grid := ⟨2, ![2048, 32], ![false, false]⟩

abbrev pre7 : Pipeline.Prefetch sig := ⟨1, ![main_v78.idx], fun | 0 => main_v78.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def k7_cond2 (i : grid7.Coords) : BitVec 1 :=
  let arg1 : BitVec 32 := BitVec.ofNat 32 (i 1).val
  let c31_i32 : BitVec 32 := 31#32
  let v10 : BitVec 1 := Scalar.cmpi .eq arg1 c31_i32
  let v11 : BitVec 32 := Scalar.extui v10
  let c0_i32_9 : BitVec 32 := 0#32
  let v12 : BitVec 1 := Scalar.cmpi .ne v11 c0_i32_9
  v12

def cc7_transform_0 (k7_off1_inb : ∀ i : grid7.Coords, ∀ a, (k7_off1 i) a + S1.size a ≤ S65536.size a) (numel1_S1 : S1.numel = 1) (pf : pre7.Contents (Elt F)) (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k7_off1_inb i)) numel1_S1
  let c0_i32 : BitVec 32 := 0#32
  let c0_i32_0 : BitVec 32 := 0#32
  let c0_i32_1 : BitVec 32 := 0#32
  ![v3.toNat, c0_i32.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x1x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x1x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x1x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 2 → Memref sig .tc .vmem S1x1x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

class Facts₀ : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x32_0_1 : S16384x1.BroadcastsInDim S16384x32 (![0, 1] : Fin 2 → Fin S16384x32.rank)
  shapeCasts_S16384x128_S16384x1x128 : S16384x128.ShapeCasts S16384x1x128
  shapeCasts_S16384_S16384x1x1 : S16384.ShapeCasts S16384x1x1
  shapeCasts_S786432x128_S786432x1x128 : S786432x128.ShapeCasts S786432x1x128
  slices_S16384x32_S2048x32_0_0 : S16384x32.Slices ![0, 0] S2048x32
  shapeCasts_S2048x32_S65536 : S2048x32.ShapeCasts S65536
  slices_S16384x1x128_S2048x1x128_0_0_0 : S16384x1x128.Slices ![0, 0, 0] S2048x1x128
  slices_S16384x1x1_S2048x1x1_0_0_0 : S16384x1x1.Slices ![0, 0, 0] S2048x1x1
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  reduces_S1x1x128_S1x1 : S1x1x128.Reduces [2] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  slices_S16384x32_S2048x32_2048_0 : S16384x32.Slices ![2048, 0] S2048x32
  slices_S16384x1x128_S2048x1x128_2048_0_0 : S16384x1x128.Slices ![2048, 0, 0] S2048x1x128
  slices_S16384x1x1_S2048x1x1_2048_0_0 : S16384x1x1.Slices ![2048, 0, 0] S2048x1x1
  slices_S16384x32_S2048x32_4096_0 : S16384x32.Slices ![4096, 0] S2048x32
  slices_S16384x1x128_S2048x1x128_4096_0_0 : S16384x1x128.Slices ![4096, 0, 0] S2048x1x128
  slices_S16384x1x1_S2048x1x1_4096_0_0 : S16384x1x1.Slices ![4096, 0, 0] S2048x1x1
  slices_S16384x32_S2048x32_6144_0 : S16384x32.Slices ![6144, 0] S2048x32
  slices_S16384x1x128_S2048x1x128_6144_0_0 : S16384x1x128.Slices ![6144, 0, 0] S2048x1x128
  slices_S16384x1x1_S2048x1x1_6144_0_0 : S16384x1x1.Slices ![6144, 0, 0] S2048x1x1
  slices_S16384x32_S2048x32_8192_0 : S16384x32.Slices ![8192, 0] S2048x32
  slices_S16384x1x128_S2048x1x128_8192_0_0 : S16384x1x128.Slices ![8192, 0, 0] S2048x1x128
  slices_S16384x1x1_S2048x1x1_8192_0_0 : S16384x1x1.Slices ![8192, 0, 0] S2048x1x1
  slices_S16384x32_S2048x32_10240_0 : S16384x32.Slices ![10240, 0] S2048x32
  slices_S16384x1x128_S2048x1x128_10240_0_0 : S16384x1x128.Slices ![10240, 0, 0] S2048x1x128
  slices_S16384x1x1_S2048x1x1_10240_0_0 : S16384x1x1.Slices ![10240, 0, 0] S2048x1x1
  slices_S16384x32_S2048x32_12288_0 : S16384x32.Slices ![12288, 0] S2048x32
  slices_S16384x1x128_S2048x1x128_12288_0_0 : S16384x1x128.Slices ![12288, 0, 0] S2048x1x128
  slices_S16384x1x1_S2048x1x1_12288_0_0 : S16384x1x1.Slices ![12288, 0, 0] S2048x1x1
  slices_S16384x32_S2048x32_14336_0 : S16384x32.Slices ![14336, 0] S2048x32
  slices_S16384x1x128_S2048x1x128_14336_0_0 : S16384x1x128.Slices ![14336, 0, 0] S2048x1x128
  slices_S16384x1x1_S2048x1x1_14336_0_0 : S16384x1x1.Slices ![14336, 0, 0] S2048x1x1
  concatenates_S2048x1x1_S2048x1x1_S2048x1x1_S2048x1x1_S2048x1x1_S2048x1x1_S2048x1x1_S2048x1x1_S16384x1x1_d0 : Shape.Concatenates [S2048x1x1, S2048x1x1, S2048x1x1, S2048x1x1, S2048x1x1, S2048x1x1, S2048x1x1, S2048x1x1] S16384x1x1 0
  shapeCasts_S16384x1x1_S16384x1 : S16384x1x1.ShapeCasts S16384x1
  gather_S3x128_S16384x1_S16384x128_1_0_n_n_0_1_1128_wf : GatherDims.WF S3x128 S16384x1 S16384x128 [1] [0] [] [0] [] 1 ![1, 128]
  gather_S30x128_S16384x1_S16384x128_1_0_n_n_0_1_1128_wf : GatherDims.WF S30x128 S16384x1 S16384x128 [1] [0] [] [0] [] 1 ![1, 128]
  gather_S30_S16384x1_S16384_n_0_n_n_0_1_1_wf : GatherDims.WF S30 S16384x1 S16384 [] [0] [] [0] [] 1 ![1]
  hrank0 : 0 < grid0.rank
  k0_off1_inb : ∀ i : grid0.Coords, ∀ a, (k0_off1 i) a + S1.size a ≤ S65536.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2048x1x128.size a
  hwx0_1 : ∀ i : grid0.Coords, EltTy.bits .f32 = 32 ∨ (Rect.block (s := S2048x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2048x1x128.size a
  hwx0_2 : ∀ i : grid0.Coords, EltTy.bits .f32 = 32 ∨ (Rect.block (s := S2048x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2048x1x1.size a
  hwx0_3 : ∀ i : grid0.Coords, EltTy.bits .f32 = 32 ∨ (Rect.block (s := S2048x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2048x1x1.size a
  hwx0_4 : ∀ i : grid0.Coords, EltTy.bits .f32 = 32 ∨ (Rect.block (s := S2048x1x1) S1x1x1.size (cc0_transform_4 i) (hinb0_4 i)).WholeWords (EltTy.packing .f32)
  hrank1 : 0 < grid1.rank
  k1_off1_inb : ∀ i : grid1.Coords, ∀ a, (k1_off1 i) a + S1.size a ≤ S65536.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S2048x1x128.size a
  hwx1_1 : ∀ i : grid1.Coords, EltTy.bits .f32 = 32 ∨ (Rect.block (s := S2048x1x128) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S2048x1x128.size a
  hwx1_2 : ∀ i : grid1.Coords, EltTy.bits .f32 = 32 ∨ (Rect.block (s := S2048x1x128) S1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2048x1x1.size a
  hwx1_3 : ∀ i : grid1.Coords, EltTy.bits .f32 = 32 ∨ (Rect.block (s := S2048x1x1) S1x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2048x1x1.size a
  hwx1_4 : ∀ i : grid1.Coords, EltTy.bits .f32 = 32 ∨ (Rect.block (s := S2048x1x1) S1x1x1.size (cc1_transform_4 i) (hinb1_4 i)).WholeWords (EltTy.packing .f32)
  hrank2 : 0 < grid2.rank
  k2_off1_inb : ∀ i : grid2.Coords, ∀ a, (k2_off1 i) a + S1.size a ≤ S65536.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x128.size a ≤ S2048x1x128.size a
  hwx2_1 : ∀ i : grid2.Coords, EltTy.bits .f32 = 32 ∨ (Rect.block (s := S2048x1x128) S1x1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S2048x1x128.size a
  hwx2_2 : ∀ i : grid2.Coords, EltTy.bits .f32 = 32 ∨ (Rect.block (s := S2048x1x128) S1x1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1.size a ≤ S2048x1x1.size a
  hwx2_3 : ∀ i : grid2.Coords, EltTy.bits .f32 = 32 ∨ (Rect.block (s := S2048x1x1) S1x1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1.size a ≤ S2048x1x1.size a
  hwx2_4 : ∀ i : grid2.Coords, EltTy.bits .f32 = 32 ∨ (Rect.block (s := S2048x1x1) S1x1x1.size (cc2_transform_4 i) (hinb2_4 i)).WholeWords (EltTy.packing .f32)
  hrank3 : 0 < grid3.rank
  k3_off1_inb : ∀ i : grid3.Coords, ∀ a, (k3_off1 i) a + S1.size a ≤ S65536.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x128.size a ≤ S2048x1x128.size a
  hwx3_1 : ∀ i : grid3.Coords, EltTy.bits .f32 = 32 ∨ (Rect.block (s := S2048x1x128) S1x1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x128.size a ≤ S2048x1x128.size a
  hwx3_2 : ∀ i : grid3.Coords, EltTy.bits .f32 = 32 ∨ (Rect.block (s := S2048x1x128) S1x1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x1.size a ≤ S2048x1x1.size a
  hwx3_3 : ∀ i : grid3.Coords, EltTy.bits .f32 = 32 ∨ (Rect.block (s := S2048x1x1) S1x1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x1.size a ≤ S2048x1x1.size a
  hwx3_4 : ∀ i : grid3.Coords, EltTy.bits .f32 = 32 ∨ (Rect.block (s := S2048x1x1) S1x1x1.size (cc3_transform_4 i) (hinb3_4 i)).WholeWords (EltTy.packing .f32)
  hrank4 : 0 < grid4.rank
  k4_off1_inb : ∀ i : grid4.Coords, ∀ a, (k4_off1 i) a + S1.size a ≤ S65536.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x128.size a ≤ S2048x1x128.size a
  hwx4_1 : ∀ i : grid4.Coords, EltTy.bits .f32 = 32 ∨ (Rect.block (s := S2048x1x128) S1x1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x128.size a ≤ S2048x1x128.size a
  hwx4_2 : ∀ i : grid4.Coords, EltTy.bits .f32 = 32 ∨ (Rect.block (s := S2048x1x128) S1x1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x1.size a ≤ S2048x1x1.size a
  hwx4_3 : ∀ i : grid4.Coords, EltTy.bits .f32 = 32 ∨ (Rect.block (s := S2048x1x1) S1x1x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x1.size a ≤ S2048x1x1.size a
  hwx4_4 : ∀ i : grid4.Coords, EltTy.bits .f32 = 32 ∨ (Rect.block (s := S2048x1x1) S1x1x1.size (cc4_transform_4 i) (hinb4_4 i)).WholeWords (EltTy.packing .f32)
  hrank5 : 0 < grid5.rank
  k5_off1_inb : ∀ i : grid5.Coords, ∀ a, (k5_off1 i) a + S1.size a ≤ S65536.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x128.size a ≤ S2048x1x128.size a
  hwx5_1 : ∀ i : grid5.Coords, EltTy.bits .f32 = 32 ∨ (Rect.block (s := S2048x1x128) S1x1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x128.size a ≤ S2048x1x128.size a
  hwx5_2 : ∀ i : grid5.Coords, EltTy.bits .f32 = 32 ∨ (Rect.block (s := S2048x1x128) S1x1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1x1.size a ≤ S2048x1x1.size a
  hwx5_3 : ∀ i : grid5.Coords, EltTy.bits .f32 = 32 ∨ (Rect.block (s := S2048x1x1) S1x1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1x1.size a ≤ S2048x1x1.size a
  hwx5_4 : ∀ i : grid5.Coords, EltTy.bits .f32 = 32 ∨ (Rect.block (s := S2048x1x1) S1x1x1.size (cc5_transform_4 i) (hinb5_4 i)).WholeWords (EltTy.packing .f32)
  hrank6 : 0 < grid6.rank
  k6_off1_inb : ∀ i : grid6.Coords, ∀ a, (k6_off1 i) a + S1.size a ≤ S65536.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1x128.size a ≤ S2048x1x128.size a
  hwx6_1 : ∀ i : grid6.Coords, EltTy.bits .f32 = 32 ∨ (Rect.block (s := S2048x1x128) S1x1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1x128.size a ≤ S2048x1x128.size a
  hwx6_2 : ∀ i : grid6.Coords, EltTy.bits .f32 = 32 ∨ (Rect.block (s := S2048x1x128) S1x1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x1x1.size a ≤ S2048x1x1.size a
  hwx6_3 : ∀ i : grid6.Coords, EltTy.bits .f32 = 32 ∨ (Rect.block (s := S2048x1x1) S1x1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1x1.size a ≤ S2048x1x1.size a
  hwx6_4 : ∀ i : grid6.Coords, EltTy.bits .f32 = 32 ∨ (Rect.block (s := S2048x1x1) S1x1x1.size (cc6_transform_4 i) (hinb6_4 i)).WholeWords (EltTy.packing .f32)
  hrank7 : 0 < grid7.rank
  k7_off1_inb : ∀ i : grid7.Coords, ∀ a, (k7_off1 i) a + S1.size a ≤ S65536.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1x128.size a ≤ S2048x1x128.size a
  hwx7_1 : ∀ i : grid7.Coords, EltTy.bits .f32 = 32 ∨ (Rect.block (s := S2048x1x128) S1x1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x1x128.size a ≤ S2048x1x128.size a
  hwx7_2 : ∀ i : grid7.Coords, EltTy.bits .f32 = 32 ∨ (Rect.block (s := S2048x1x128) S1x1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x1x1.size a ≤ S2048x1x1.size a
  hwx7_3 : ∀ i : grid7.Coords, EltTy.bits .f32 = 32 ∨ (Rect.block (s := S2048x1x1) S1x1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x1x1.size a ≤ S2048x1x1.size a
  hwx7_4 : ∀ i : grid7.Coords, EltTy.bits .f32 = 32 ∨ (Rect.block (s := S2048x1x1) S1x1x1.size (cc7_transform_4 i) (hinb7_4 i)).WholeWords (EltTy.packing .f32)

variable [Facts₀]

def gather_S3x128_S16384x1_S16384x128_1_0_n_n_0_1_1128 : GatherDims S3x128 S16384x1 S16384x128 where
  offsetDims := [1]
  collapsedSliceDims := [0]
  operandBatchingDims := []
  startIndicesBatchingDims := []
  startIndexMap := [0]
  indexVectorDim := 1
  sliceSizes := ![1, 128]
  wf := gather_S3x128_S16384x1_S16384x128_1_0_n_n_0_1_1128_wf
def gather_S30x128_S16384x1_S16384x128_1_0_n_n_0_1_1128 : GatherDims S30x128 S16384x1 S16384x128 where
  offsetDims := [1]
  collapsedSliceDims := [0]
  operandBatchingDims := []
  startIndicesBatchingDims := []
  startIndexMap := [0]
  indexVectorDim := 1
  sliceSizes := ![1, 128]
  wf := gather_S30x128_S16384x1_S16384x128_1_0_n_n_0_1_1128_wf
def gather_S30_S16384x1_S16384_n_0_n_n_0_1_1 : GatherDims S30 S16384x1 S16384 where
  offsetDims := []
  collapsedSliceDims := [0]
  operandBatchingDims := []
  startIndicesBatchingDims := []
  startIndexMap := [0]
  indexVectorDim := 1
  sliceSizes := ![1]
  wf := gather_S30_S16384x1_S16384_n_0_n_n_0_1_1_wf

abbrev spec0_0 : Pipeline.WinSpec sig grid0.rank :=
  Pipeline.WinSpec.ofSpec (Memref.whole main_v34) S1x1x128.size reads0_0 false false 2 stage0_0 sem0_0 nbuf0_0 hstage0_0

abbrev spec0_1 : Pipeline.WinSpec sig grid0.rank :=
  Pipeline.WinSpec.ofSpec (Memref.whole main_v37) S1x1x128.size reads0_1 false false 2 stage0_1 sem0_1 nbuf0_1 hstage0_1

abbrev spec0_2 : Pipeline.WinSpec sig grid0.rank :=
  Pipeline.WinSpec.ofSpec (Memref.whole main_v38) S1x1x128.size reads0_2 false false 2 stage0_2 sem0_2 nbuf0_2 hstage0_2

abbrev spec0_3 : Pipeline.WinSpec sig grid0.rank :=
  Pipeline.WinSpec.ofSpec (Memref.whole main_v39) S1x1x1.size reads0_3 false false 2 stage0_3 sem0_3 nbuf0_3 hstage0_3

abbrev spec0_4 : Pipeline.WinSpec sig grid0.rank :=
  Pipeline.WinSpec.ofSpec (Memref.whole main_v40) S1x1x1.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x128.size a ≤ S786432x1x128.size a), EltTy.bits .f32 = 32 ∨ (Rect.block (s := S786432x1x128) S1x1x128.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | ⟨_ + 5, h⟩ => absurd h (Nat.not_lt.2 (Nat.le_add_left _ _))
abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev spec1_0 : Pipeline.WinSpec sig grid1.rank :=
  Pipeline.WinSpec.ofSpec (Memref.whole main_v34) S1x1x128.size reads1_0 false false 2 stage1_0 sem1_0 nbuf1_0 hstage1_0

abbrev spec1_1 : Pipeline.WinSpec sig grid1.rank :=
  Pipeline.WinSpec.ofSpec (Memref.whole main_v43) S1x1x128.size reads1_1 false false 2 stage1_1 sem1_1 nbuf1_1 hstage1_1

abbrev spec1_2 : Pipeline.WinSpec sig grid1.rank :=
  Pipeline.WinSpec.ofSpec (Memref.whole main_v44) S1x1x128.size reads1_2 false false 2 stage1_2 sem1_2 nbuf1_2 hstage1_2

abbrev spec1_3 : Pipeline.WinSpec sig grid1.rank :=
  Pipeline.WinSpec.ofSpec (Memref.whole main_v45) S1x1x1.size reads1_3 false false 2 stage1_3 sem1_3 nbuf1_3 hstage1_3

abbrev spec1_4 : Pipeline.WinSpec sig grid1.rank :=
  Pipeline.WinSpec.ofSpec (Memref.whole main_v46) S1x1x1.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 | 2 => cc1_transform_2 | 3 => cc1_transform_3 | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | 2 => hreads1_2 | 3 => hreads1_3 | 4 => hreads1_4 | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x128.size a ≤ S786432x1x128.size a), EltTy.bits .f32 = 32 ∨ (Rect.block (s := S786432x1x128) S1x1x128.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | 2 => hinb1_2 | 3 => hinb1_3 | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | 2 => hwx1_2 | 3 => hwx1_3 | 4 => hwx1_4 | ⟨_ + 5, h⟩ => absurd h (Nat.not_lt.2 (Nat.le_add_left _ _))
abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev spec2_0 : Pipeline.WinSpec sig grid2.rank :=
  Pipeline.WinSpec.ofSpec (Memref.whole main_v34) S1x1x128.size reads2_0 false false 2 stage2_0 sem2_0 nbuf2_0 hstage2_0

abbrev spec2_1 : Pipeline.WinSpec sig grid2.rank :=
  Pipeline.WinSpec.ofSpec (Memref.whole main_v49) S1x1x128.size reads2_1 false false 2 stage2_1 sem2_1 nbuf2_1 hstage2_1

abbrev spec2_2 : Pipeline.WinSpec sig grid2.rank :=
  Pipeline.WinSpec.ofSpec (Memref.whole main_v50) S1x1x128.size reads2_2 false false 2 stage2_2 sem2_2 nbuf2_2 hstage2_2

abbrev spec2_3 : Pipeline.WinSpec sig grid2.rank :=
  Pipeline.WinSpec.ofSpec (Memref.whole main_v51) S1x1x1.size reads2_3 false false 2 stage2_3 sem2_3 nbuf2_3 hstage2_3

abbrev spec2_4 : Pipeline.WinSpec sig grid2.rank :=
  Pipeline.WinSpec.ofSpec (Memref.whole main_v52) S1x1x1.size reads2_4 true false 2 stage2_4 sem2_4 nbuf2_4 hstage2_4

abbrev spec2 : Fin 5 → Pipeline.WinSpec sig grid2.rank := fun | 0 => spec2_0 | 1 => spec2_1 | 2 => spec2_2 | 3 => spec2_3 | 4 => spec2_4 | ⟨_ + 5, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | ⟨_ + 5, h⟩ => absurd h (Nat.not_lt.2 (Nat.le_add_left _ _))
abbrev ix2 (pf : pre2.Contents (Elt F)) : (w : Fin 5) → grid2.Coords → Fin (spec2 w).shape.rank → Nat := fun | 0 => cc2_transform_0 k2_off1_inb numel1_S1 pf | 1 => cc2_transform_1 | 2 => cc2_transform_2 | 3 => cc2_transform_3 | 4 => cc2_transform_4 | ⟨_ + 5, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | 2 => hreads2_2 | 3 => hreads2_3 | 4 => hreads2_4 | ⟨_ + 5, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x128.size a ≤ S786432x1x128.size a), EltTy.bits .f32 = 32 ∨ (Rect.block (s := S786432x1x128) S1x1x128.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | 2 => hinb2_2 | 3 => hinb2_3 | 4 => hinb2_4 | ⟨_ + 5, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | 2 => hwx2_2 | 3 => hwx2_3 | 4 => hwx2_4 | ⟨_ + 5, h⟩ => absurd h (Nat.not_lt.2 (Nat.le_add_left _ _))
abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev spec3_0 : Pipeline.WinSpec sig grid3.rank :=
  Pipeline.WinSpec.ofSpec (Memref.whole main_v34) S1x1x128.size reads3_0 false false 2 stage3_0 sem3_0 nbuf3_0 hstage3_0

abbrev spec3_1 : Pipeline.WinSpec sig grid3.rank :=
  Pipeline.WinSpec.ofSpec (Memref.whole main_v55) S1x1x128.size reads3_1 false false 2 stage3_1 sem3_1 nbuf3_1 hstage3_1

abbrev spec3_2 : Pipeline.WinSpec sig grid3.rank :=
  Pipeline.WinSpec.ofSpec (Memref.whole main_v56) S1x1x128.size reads3_2 false false 2 stage3_2 sem3_2 nbuf3_2 hstage3_2

abbrev spec3_3 : Pipeline.WinSpec sig grid3.rank :=
  Pipeline.WinSpec.ofSpec (Memref.whole main_v57) S1x1x1.size reads3_3 false false 2 stage3_3 sem3_3 nbuf3_3 hstage3_3

abbrev spec3_4 : Pipeline.WinSpec sig grid3.rank :=
  Pipeline.WinSpec.ofSpec (Memref.whole main_v58) S1x1x1.size reads3_4 true false 2 stage3_4 sem3_4 nbuf3_4 hstage3_4

abbrev spec3 : Fin 5 → Pipeline.WinSpec sig grid3.rank := fun | 0 => spec3_0 | 1 => spec3_1 | 2 => spec3_2 | 3 => spec3_3 | 4 => spec3_4 | ⟨_ + 5, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | ⟨_ + 5, h⟩ => absurd h (Nat.not_lt.2 (Nat.le_add_left _ _))
abbrev ix3 (pf : pre3.Contents (Elt F)) : (w : Fin 5) → grid3.Coords → Fin (spec3 w).shape.rank → Nat := fun | 0 => cc3_transform_0 k3_off1_inb numel1_S1 pf | 1 => cc3_transform_1 | 2 => cc3_transform_2 | 3 => cc3_transform_3 | 4 => cc3_transform_4 | ⟨_ + 5, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | 2 => hreads3_2 | 3 => hreads3_3 | 4 => hreads3_4 | ⟨_ + 5, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S786432x1x128.size a), EltTy.bits .f32 = 32 ∨ (Rect.block (s := S786432x1x128) S1x1x128.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | 2 => hinb3_2 | 3 => hinb3_3 | 4 => hinb3_4 | ⟨_ + 5, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | 2 => hwx3_2 | 3 => hwx3_3 | 4 => hwx3_4 | ⟨_ + 5, h⟩ => absurd h (Nat.not_lt.2 (Nat.le_add_left _ _))
abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev spec4_0 : Pipeline.WinSpec sig grid4.rank :=
  Pipeline.WinSpec.ofSpec (Memref.whole main_v34) S1x1x128.size reads4_0 false false 2 stage4_0 sem4_0 nbuf4_0 hstage4_0

abbrev spec4_1 : Pipeline.WinSpec sig grid4.rank :=
  Pipeline.WinSpec.ofSpec (Memref.whole main_v61) S1x1x128.size reads4_1 false false 2 stage4_1 sem4_1 nbuf4_1 hstage4_1

abbrev spec4_2 : Pipeline.WinSpec sig grid4.rank :=
  Pipeline.WinSpec.ofSpec (Memref.whole main_v62) S1x1x128.size reads4_2 false false 2 stage4_2 sem4_2 nbuf4_2 hstage4_2

abbrev spec4_3 : Pipeline.WinSpec sig grid4.rank :=
  Pipeline.WinSpec.ofSpec (Memref.whole main_v63) S1x1x1.size reads4_3 false false 2 stage4_3 sem4_3 nbuf4_3 hstage4_3

abbrev spec4_4 : Pipeline.WinSpec sig grid4.rank :=
  Pipeline.WinSpec.ofSpec (Memref.whole main_v64) S1x1x1.size reads4_4 true false 2 stage4_4 sem4_4 nbuf4_4 hstage4_4

abbrev spec4 : Fin 5 → Pipeline.WinSpec sig grid4.rank := fun | 0 => spec4_0 | 1 => spec4_1 | 2 => spec4_2 | 3 => spec4_3 | 4 => spec4_4 | ⟨_ + 5, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | 4 => nbuf4_4 | ⟨_ + 5, h⟩ => absurd h (Nat.not_lt.2 (Nat.le_add_left _ _))
abbrev ix4 (pf : pre4.Contents (Elt F)) : (w : Fin 5) → grid4.Coords → Fin (spec4 w).shape.rank → Nat := fun | 0 => cc4_transform_0 k4_off1_inb numel1_S1 pf | 1 => cc4_transform_1 | 2 => cc4_transform_2 | 3 => cc4_transform_3 | 4 => cc4_transform_4 | ⟨_ + 5, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 | 2 => hreads4_2 | 3 => hreads4_3 | 4 => hreads4_4 | ⟨_ + 5, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x128.size a ≤ S786432x1x128.size a), EltTy.bits .f32 = 32 ∨ (Rect.block (s := S786432x1x128) S1x1x128.size (cc4_transform_0 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok i).elim fun h _ => h a | 1 => hinb4_1 | 2 => hinb4_2 | 3 => hinb4_3 | 4 => hinb4_4 | ⟨_ + 5, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok i).elim fun _ h => h | 1 => hwx4_1 | 2 => hwx4_2 | 3 => hwx4_3 | 4 => hwx4_4 | ⟨_ + 5, h⟩ => absurd h (Nat.not_lt.2 (Nat.le_add_left _ _))
abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev spec5_0 : Pipeline.WinSpec sig grid5.rank :=
  Pipeline.WinSpec.ofSpec (Memref.whole main_v34) S1x1x128.size reads5_0 false false 2 stage5_0 sem5_0 nbuf5_0 hstage5_0

abbrev spec5_1 : Pipeline.WinSpec sig grid5.rank :=
  Pipeline.WinSpec.ofSpec (Memref.whole main_v67) S1x1x128.size reads5_1 false false 2 stage5_1 sem5_1 nbuf5_1 hstage5_1

abbrev spec5_2 : Pipeline.WinSpec sig grid5.rank :=
  Pipeline.WinSpec.ofSpec (Memref.whole main_v68) S1x1x128.size reads5_2 false false 2 stage5_2 sem5_2 nbuf5_2 hstage5_2

abbrev spec5_3 : Pipeline.WinSpec sig grid5.rank :=
  Pipeline.WinSpec.ofSpec (Memref.whole main_v69) S1x1x1.size reads5_3 false false 2 stage5_3 sem5_3 nbuf5_3 hstage5_3

abbrev spec5_4 : Pipeline.WinSpec sig grid5.rank :=
  Pipeline.WinSpec.ofSpec (Memref.whole main_v70) S1x1x1.size reads5_4 true false 2 stage5_4 sem5_4 nbuf5_4 hstage5_4

abbrev spec5 : Fin 5 → Pipeline.WinSpec sig grid5.rank := fun | 0 => spec5_0 | 1 => spec5_1 | 2 => spec5_2 | 3 => spec5_3 | 4 => spec5_4 | ⟨_ + 5, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | 3 => nbuf5_3 | 4 => nbuf5_4 | ⟨_ + 5, h⟩ => absurd h (Nat.not_lt.2 (Nat.le_add_left _ _))
abbrev ix5 (pf : pre5.Contents (Elt F)) : (w : Fin 5) → grid5.Coords → Fin (spec5 w).shape.rank → Nat := fun | 0 => cc5_transform_0 k5_off1_inb numel1_S1 pf | 1 => cc5_transform_1 | 2 => cc5_transform_2 | 3 => cc5_transform_3 | 4 => cc5_transform_4 | ⟨_ + 5, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 | 2 => hreads5_2 | 3 => hreads5_3 | 4 => hreads5_4 | ⟨_ + 5, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x128.size a ≤ S786432x1x128.size a), EltTy.bits .f32 = 32 ∨ (Rect.block (s := S786432x1x128) S1x1x128.size (cc5_transform_0 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok i).elim fun h _ => h a | 1 => hinb5_1 | 2 => hinb5_2 | 3 => hinb5_3 | 4 => hinb5_4 | ⟨_ + 5, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok i).elim fun _ h => h | 1 => hwx5_1 | 2 => hwx5_2 | 3 => hwx5_3 | 4 => hwx5_4 | ⟨_ + 5, h⟩ => absurd h (Nat.not_lt.2 (Nat.le_add_left _ _))
abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev spec6_0 : Pipeline.WinSpec sig grid6.rank :=
  Pipeline.WinSpec.ofSpec (Memref.whole main_v34) S1x1x128.size reads6_0 false false 2 stage6_0 sem6_0 nbuf6_0 hstage6_0

abbrev spec6_1 : Pipeline.WinSpec sig grid6.rank :=
  Pipeline.WinSpec.ofSpec (Memref.whole main_v73) S1x1x128.size reads6_1 false false 2 stage6_1 sem6_1 nbuf6_1 hstage6_1

abbrev spec6_2 : Pipeline.WinSpec sig grid6.rank :=
  Pipeline.WinSpec.ofSpec (Memref.whole main_v74) S1x1x128.size reads6_2 false false 2 stage6_2 sem6_2 nbuf6_2 hstage6_2

abbrev spec6_3 : Pipeline.WinSpec sig grid6.rank :=
  Pipeline.WinSpec.ofSpec (Memref.whole main_v75) S1x1x1.size reads6_3 false false 2 stage6_3 sem6_3 nbuf6_3 hstage6_3

abbrev spec6_4 : Pipeline.WinSpec sig grid6.rank :=
  Pipeline.WinSpec.ofSpec (Memref.whole main_v76) S1x1x1.size reads6_4 true false 2 stage6_4 sem6_4 nbuf6_4 hstage6_4

abbrev spec6 : Fin 5 → Pipeline.WinSpec sig grid6.rank := fun | 0 => spec6_0 | 1 => spec6_1 | 2 => spec6_2 | 3 => spec6_3 | 4 => spec6_4 | ⟨_ + 5, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | 3 => nbuf6_3 | 4 => nbuf6_4 | ⟨_ + 5, h⟩ => absurd h (Nat.not_lt.2 (Nat.le_add_left _ _))
abbrev ix6 (pf : pre6.Contents (Elt F)) : (w : Fin 5) → grid6.Coords → Fin (spec6 w).shape.rank → Nat := fun | 0 => cc6_transform_0 k6_off1_inb numel1_S1 pf | 1 => cc6_transform_1 | 2 => cc6_transform_2 | 3 => cc6_transform_3 | 4 => cc6_transform_4 | ⟨_ + 5, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 | 2 => hreads6_2 | 3 => hreads6_3 | 4 => hreads6_4 | ⟨_ + 5, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S786432x1x128.size a), EltTy.bits .f32 = 32 ∨ (Rect.block (s := S786432x1x128) S1x1x128.size (cc6_transform_0 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok i).elim fun h _ => h a | 1 => hinb6_1 | 2 => hinb6_2 | 3 => hinb6_3 | 4 => hinb6_4 | ⟨_ + 5, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok i).elim fun _ h => h | 1 => hwx6_1 | 2 => hwx6_2 | 3 => hwx6_3 | 4 => hwx6_4 | ⟨_ + 5, h⟩ => absurd h (Nat.not_lt.2 (Nat.le_add_left _ _))
abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

abbrev spec7_0 : Pipeline.WinSpec sig grid7.rank :=
  Pipeline.WinSpec.ofSpec (Memref.whole main_v34) S1x1x128.size reads7_0 false false 2 stage7_0 sem7_0 nbuf7_0 hstage7_0

abbrev spec7_1 : Pipeline.WinSpec sig grid7.rank :=
  Pipeline.WinSpec.ofSpec (Memref.whole main_v79) S1x1x128.size reads7_1 false false 2 stage7_1 sem7_1 nbuf7_1 hstage7_1

abbrev spec7_2 : Pipeline.WinSpec sig grid7.rank :=
  Pipeline.WinSpec.ofSpec (Memref.whole main_v80) S1x1x128.size reads7_2 false false 2 stage7_2 sem7_2 nbuf7_2 hstage7_2

abbrev spec7_3 : Pipeline.WinSpec sig grid7.rank :=
  Pipeline.WinSpec.ofSpec (Memref.whole main_v81) S1x1x1.size reads7_3 false false 2 stage7_3 sem7_3 nbuf7_3 hstage7_3

abbrev spec7_4 : Pipeline.WinSpec sig grid7.rank :=
  Pipeline.WinSpec.ofSpec (Memref.whole main_v82) S1x1x1.size reads7_4 true false 2 stage7_4 sem7_4 nbuf7_4 hstage7_4

abbrev spec7 : Fin 5 → Pipeline.WinSpec sig grid7.rank := fun | 0 => spec7_0 | 1 => spec7_1 | 2 => spec7_2 | 3 => spec7_3 | 4 => spec7_4 | ⟨_ + 5, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | 3 => nbuf7_3 | 4 => nbuf7_4 | ⟨_ + 5, h⟩ => absurd h (Nat.not_lt.2 (Nat.le_add_left _ _))
abbrev ix7 (pf : pre7.Contents (Elt F)) : (w : Fin 5) → grid7.Coords → Fin (spec7 w).shape.rank → Nat := fun | 0 => cc7_transform_0 k7_off1_inb numel1_S1 pf | 1 => cc7_transform_1 | 2 => cc7_transform_2 | 3 => cc7_transform_3 | 4 => cc7_transform_4 | ⟨_ + 5, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 | 2 => hreads7_2 | 3 => hreads7_3 | 4 => hreads7_4 | ⟨_ + 5, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x128.size a ≤ S786432x1x128.size a), EltTy.bits .f32 = 32 ∨ (Rect.block (s := S786432x1x128) S1x1x128.size (cc7_transform_0 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok i).elim fun h _ => h a | 1 => hinb7_1 | 2 => hinb7_2 | 3 => hinb7_3 | 4 => hinb7_4 | ⟨_ + 5, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok i).elim fun _ h => h | 1 => hwx7_1 | 2 => hwx7_2 | 3 => hwx7_3 | 4 => hwx7_4 | ⟨_ + 5, h⟩ => absurd h (Nat.not_lt.2 (Nat.le_add_left _ _))
abbrev idle7 : Fin 5 → grid7.Coords → Bool := fun | 0 => fun _ => false | 1 => fun _ => false | 2 => fun _ => false | 3 => fun _ => false | 4 => fun i => !(k7_cond2 i == 1#1) | ⟨_ + 5, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole

variable [Facts]
-- ==== ReferenceIdeal.lean ====
abbrev S16384x32 : Shape := ⟨2, ![16384, 32]⟩
abbrev S16384 : Shape := ⟨1, ![16384]⟩
abbrev S32 : Shape := ⟨1, ![32]⟩
abbrev S786432x128 : Shape := ⟨2, ![786432, 128]⟩
abbrev S3x128 : Shape := ⟨2, ![3, 128]⟩
abbrev S30x128 : Shape := ⟨2, ![30, 128]⟩
abbrev S30 : Shape := ⟨1, ![30]⟩
abbrev S1x32 : Shape := ⟨2, ![1, 32]⟩
abbrev S_ : Shape := ⟨0, ![]⟩
abbrev S16384x1 : Shape := ⟨2, ![16384, 1]⟩
abbrev S16384x32x1 : Shape := ⟨3, ![16384, 32, 1]⟩
abbrev S1 : Shape := ⟨1, ![1]⟩
abbrev S1x1x1 : Shape := ⟨3, ![1, 1, 1]⟩
abbrev S16384x32x128 : Shape := ⟨3, ![16384, 32, 128]⟩
abbrev S16384x128 : Shape := ⟨2, ![16384, 128]⟩

abbrev nBuf : Space → Nat
  | .hbm => 119
  | .vmem => 0
  | .smem => 0
  | _ => 0

abbrev bufTy : (tb : Table) → Fin (tcTables nBuf tb) → BufTy
  | .hbm, ⟨0, _⟩ => ⟨S16384x32, .i32⟩
  | .hbm, ⟨1, _⟩ => ⟨S16384, .i32⟩
  | .hbm, ⟨2, _⟩ => ⟨S32, .i32⟩
  | .hbm, ⟨3, _⟩ => ⟨S786432x128, .f32⟩
  | .hbm, ⟨4, _⟩ => ⟨S3x128, .f32⟩
  | .hbm, ⟨5, _⟩ => ⟨S30x128, .f32⟩
  | .hbm, ⟨6, _⟩ => ⟨S30, .f32⟩
  | .hbm, ⟨7, _⟩ => ⟨S1x32, .i32⟩
  | .hbm, ⟨8, _⟩ => ⟨S16384x32, .i32⟩
  | .hbm, ⟨9, _⟩ => ⟨S16384x32, .i32⟩
  | .hbm, ⟨10, _⟩ => ⟨S_, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S_, .i32⟩
  | .hbm, ⟨30, _⟩ => ⟨S16384x1, .i32⟩
  | .hbm, ⟨31, _⟩ => ⟨S16384x1, .i32⟩
  | .hbm, ⟨32, _⟩ => ⟨S16384x32, .i32⟩
  | .hbm, ⟨33, _⟩ => ⟨S16384x32, .i32⟩
  | .hbm, ⟨34, _⟩ => ⟨S_, .i32⟩
  | .hbm, ⟨35, _⟩ => ⟨S16384x32, .i32⟩
  | .hbm, ⟨36, _⟩ => ⟨S16384x32, .i1⟩
  | .hbm, ⟨37, _⟩ => ⟨S_, .i32⟩
  | .hbm, ⟨38, _⟩ => ⟨S16384x32, .i32⟩
  | .hbm, ⟨39, _⟩ => ⟨S16384x32, .i32⟩
  | .hbm, ⟨40, _⟩ => ⟨S16384x32, .i32⟩
  | .hbm, ⟨41, _⟩ => ⟨S16384x32x1, .i32⟩
  | .hbm, ⟨42, _⟩ => ⟨S1, .i32⟩
  | .hbm, ⟨43, _⟩ => ⟨S_, .i32⟩
  | .hbm, ⟨44, _⟩ => ⟨S16384x32x1, .i32⟩
  | .hbm, ⟨45, _⟩ => ⟨S16384x32x1, .i1⟩
  | .hbm, ⟨46, _⟩ => ⟨S1x1x1, .i32⟩
  | .hbm, ⟨47, _⟩ => ⟨S16384x32x1, .i32⟩
  | .hbm, ⟨48, _⟩ => ⟨S16384x32x1, .i1⟩
  | .hbm, ⟨49, _⟩ => ⟨S16384x32x1, .i1⟩
  | .hbm, ⟨50, _⟩ => ⟨S_, .i1⟩
  | .hbm, ⟨51, _⟩ => ⟨S16384x32, .i1⟩
  | .hbm, ⟨52, _⟩ => ⟨S16384x32x128, .f32⟩
  | .hbm, ⟨53, _⟩ => ⟨S16384x32x128, .i1⟩
  | .hbm, ⟨54, _⟩ => ⟨S_, .f32⟩
  | .hbm, ⟨55, _⟩ => ⟨S16384x32x128, .f32⟩
  | .hbm, ⟨56, _⟩ => ⟨S16384x32x128, .f32⟩
  | .hbm, ⟨57, _⟩ => ⟨S_, .f32⟩
  | .hbm, ⟨58, _⟩ => ⟨S16384x128, .f32⟩
  | .hbm, ⟨59, _⟩ => ⟨S_, .i32⟩
  | .hbm, ⟨60, _⟩ => ⟨S16384, .i32⟩
  | .hbm, ⟨61, _⟩ => ⟨S16384, .i1⟩
  | .hbm, ⟨62, _⟩ => ⟨S_, .i32⟩
  | .hbm, ⟨63, _⟩ => ⟨S16384, .i32⟩
  | .hbm, ⟨64, _⟩ => ⟨S16384, .i32⟩
  | .hbm, ⟨65, _⟩ => ⟨S16384, .i32⟩
  | .hbm, ⟨66, _⟩ => ⟨S16384x1, .i32⟩
  | .hbm, ⟨67, _⟩ => ⟨S16384x128, .f32⟩
  | .hbm, ⟨68, _⟩ => ⟨S16384x128, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S16384x128, .f32⟩
  | .hbm, ⟨73, _⟩ => ⟨S16384x128, .f32⟩
  | .hbm, ⟨74, _⟩ => ⟨S_, .f32⟩
  | .hbm, ⟨75, _⟩ => ⟨S16384x128, .f32⟩
  | .hbm, ⟨76, _⟩ => ⟨S16384x128, .f32⟩
  | .hbm, ⟨77, _⟩ => ⟨S_, .i32⟩
  | .hbm, ⟨78, _⟩ => ⟨S_, .i32⟩
  | .hbm, ⟨79, _⟩ => ⟨S16384, .i32⟩
  | .hbm, ⟨80, _⟩ => ⟨S16384, .i32⟩
  | .hbm, ⟨81, _⟩ => ⟨S16384, .i32⟩
  | .hbm, ⟨82, _⟩ => ⟨S_, .i32⟩
  | .hbm, ⟨83, _⟩ => ⟨S16384, .i32⟩
  | .hbm, ⟨84, _⟩ => ⟨S16384, .i1⟩
  | .hbm, ⟨85, _⟩ => ⟨S16384, .i32⟩
  | .hbm, ⟨86, _⟩ => ⟨S16384, .i32⟩
  | .hbm, ⟨87, _⟩ => ⟨S_, .i32⟩
  | .hbm, ⟨88, _⟩ => ⟨S16384, .i32⟩
  | .hbm, ⟨89, _⟩ => ⟨S16384, .i1⟩
  | .hbm, ⟨90, _⟩ => ⟨S16384, .i1⟩
  | .hbm, ⟨91, _⟩ => ⟨S_, .i32⟩
  | .hbm, ⟨92, _⟩ => ⟨S16384, .i32⟩
  | .hbm, ⟨93, _⟩ => ⟨S16384, .i32⟩
  | .hbm, ⟨94, _⟩ => ⟨S16384, .i32⟩
  | .hbm, ⟨95, _⟩ => ⟨S_, .i32⟩
  | .hbm, ⟨96, _⟩ => ⟨S16384, .i32⟩
  | .hbm, ⟨97, _⟩ => ⟨S16384, .i1⟩
  | .hbm, ⟨98, _⟩ => ⟨S_, .i32⟩
  | .hbm, ⟨99, _⟩ => ⟨S16384, .i32⟩
  | .hbm, ⟨100, _⟩ => ⟨S16384, .i32⟩
  | .hbm, ⟨101, _⟩ => ⟨S16384, .i32⟩
  | .hbm, ⟨102, _⟩ => ⟨S16384x1, .i32⟩
  | .hbm, ⟨103, _⟩ => ⟨S16384x128, .f32⟩
  | .hbm, ⟨104, _⟩ => ⟨S16384x128, .f32⟩
  | .hbm, ⟨105, _⟩ => ⟨S_, .f32⟩
  | .hbm, ⟨106, _⟩ => ⟨S16384, .f32⟩
  | .hbm, ⟨107, _⟩ => ⟨S16384x1, .f32⟩
  | .hbm, ⟨108, _⟩ => ⟨S_, .i32⟩
  | .hbm, ⟨109, _⟩ => ⟨S16384, .i32⟩
  | .hbm, ⟨110, _⟩ => ⟨S16384, .i1⟩
  | .hbm, ⟨111, _⟩ => ⟨S_, .i32⟩
  | .hbm, ⟨112, _⟩ => ⟨S16384, .i32⟩
  | .hbm, ⟨113, _⟩ => ⟨S16384, .i32⟩
  | .hbm, ⟨114, _⟩ => ⟨S16384, .i32⟩
  | .hbm, ⟨115, _⟩ => ⟨S16384x1, .i32⟩
  | .hbm, ⟨116, _⟩ => ⟨S16384, .f32⟩
  | .hbm, ⟨117, _⟩ => ⟨S16384x1, .f32⟩
  | .hbm, ⟨118, _⟩ => ⟨S16384x1, .f32⟩
  | _, _ => ⟨S16384x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v9 : Ref sig .tc := ⟨.hbm, 56, rfl⟩
abbrev main_cst : Ref sig .tc := ⟨.hbm, 57, rfl⟩
abbrev main_v10 : Ref sig .tc := ⟨.hbm, 58, rfl⟩
abbrev main_c_1 : Ref sig .tc := ⟨.hbm, 59, rfl⟩
abbrev main_v11 : Ref sig .tc := ⟨.hbm, 60, rfl⟩
abbrev main_v12 : Ref sig .tc := ⟨.hbm, 61, rfl⟩
abbrev main_c_2 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_cst_3 : Ref sig .tc := ⟨.hbm, 69, rfl⟩
abbrev main_cst_4 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v19 : Ref sig .tc := ⟨.hbm, 76, rfl⟩
abbrev main_c_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v20 : Ref sig .tc := ⟨.hbm, 94, rfl⟩
abbrev main_c_6 : Ref sig .tc := ⟨.hbm, 95, rfl⟩
abbrev main_v21 : Ref sig .tc := ⟨.hbm, 96, rfl⟩
abbrev main_v22 : Ref sig .tc := ⟨.hbm, 97, rfl⟩
abbrev main_c_7 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_cst_8 : Ref sig .tc := ⟨.hbm, 105, rfl⟩
abbrev main_v29 : Ref sig .tc := ⟨.hbm, 106, rfl⟩
abbrev main_v30 : Ref sig .tc := ⟨.hbm, 107, rfl⟩
abbrev main_c_9 : Ref sig .tc := ⟨.hbm, 108, rfl⟩
abbrev main_v31 : Ref sig .tc := ⟨.hbm, 109, rfl⟩
abbrev main_v32 : Ref sig .tc := ⟨.hbm, 110, rfl⟩
abbrev main_c_10 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x32_0_1 : S16384x1.BroadcastsInDim S16384x32 (![0, 1] : Fin 2 → Fin S16384x32.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S1_S1x1x1_2 : S1.BroadcastsInDim S1x1x1 (![2] : Fin 1 → Fin S1x1x1.rank)
  bcast_S1x1x1_S16384x32x1_0_1_2 : S1x1x1.BroadcastsInDim S16384x32x1 (![0, 1, 2] : Fin 3 → Fin S16384x32x1.rank)
  reducesTo_S16384x32x1_S16384x32_d2 : S16384x32x1.ReducesTo [2] S16384x32
  h_S_ : 0 < S_.numel
  bcast_S16384x32_S16384x32x128_0_1 : S16384x32.BroadcastsInDim S16384x32x128 (![0, 1] : Fin 2 → Fin S16384x32x128.rank)
  bcast_S_S16384x32x128 : S_.BroadcastsInDim S16384x32x128 (![] : Fin 0 → Fin S16384x32x128.rank)
  reducesTo_S16384x32x128_S16384x128_d1 : S16384x32x128.ReducesTo [1] S16384x128
  bcast_S_S16384x128 : S_.BroadcastsInDim S16384x128 (![] : Fin 0 → Fin S16384x128.rank)
  reducesTo_S16384x128_S16384_d1 : S16384x128.ReducesTo [1] S16384
  gather_S786432x128_S16384x32x1_S16384x32x128_2_0_n_n_0_2_1128_wf : GatherDims.WF S786432x128 S16384x32x1 S16384x32x128 [2] [0] [] [0] [] 2 ![1, 128]
  gather_S3x128_S16384x1_S16384x128_1_0_n_n_0_1_1128_wf : GatherDims.WF S3x128 S16384x1 S16384x128 [1] [0] [] [0] [] 1 ![1, 128]
  gather_S30x128_S16384x1_S16384x128_1_0_n_n_0_1_1128_wf : GatherDims.WF S30x128 S16384x1 S16384x128 [1] [0] [] [0] [] 1 ![1, 128]
  gather_S30_S16384x1_S16384_n_0_n_n_0_1_1_wf : GatherDims.WF S30 S16384x1 S16384 [] [0] [] [0] [] 1 ![1]

variable [Facts₀]

def gather_S786432x128_S16384x32x1_S16384x32x128_2_0_n_n_0_2_1128 : GatherDims S786432x128 S16384x32x1 S16384x32x128 where
  offsetDims := [2]
  collapsedSliceDims := [0]
  operandBatchingDims := []
  startIndicesBatchingDims := []
  startIndexMap := [0]
  indexVectorDim := 2
  sliceSizes := ![1, 128]
  wf := gather_S786432x128_S16384x32x1_S16384x32x128_2_0_n_n_0_2_1128_wf
def gather_S3x128_S16384x1_S16384x128_1_0_n_n_0_1_1128 : GatherDims S3x128 S16384x1 S16384x128 where
  offsetDims := [1]
  collapsedSliceDims := [0]
  operandBatchingDims := []
  startIndicesBatchingDims := []
  startIndexMap := [0]
  indexVectorDim := 1
  sliceSizes := ![1, 128]
  wf := gather_S3x128_S16384x1_S16384x128_1_0_n_n_0_1_1128_wf
def gather_S30x128_S16384x1_S16384x128_1_0_n_n_0_1_1128 : GatherDims S30x128 S16384x1 S16384x128 where
  offsetDims := [1]
  collapsedSliceDims := [0]
  operandBatchingDims := []
  startIndicesBatchingDims := []
  startIndexMap := [0]
  indexVectorDim := 1
  sliceSizes := ![1, 128]
  wf := gather_S30x128_S16384x1_S16384x128_1_0_n_n_0_1_1128_wf
def gather_S30_S16384x1_S16384_n_0_n_n_0_1_1 : GatherDims S30 S16384x1 S16384 where
  offsetDims := []
  collapsedSliceDims := [0]
  operandBatchingDims := []
  startIndicesBatchingDims := []
  startIndexMap := [0]
  indexVectorDim := 1
  sliceSizes := ![1]
  wf := gather_S30_S16384x1_S16384_n_0_n_n_0_1_1_wf

class Facts : Prop extends Facts₀ where

variable [Facts]
-- ==== Proof.Spec.lean ====
/-
  The function both programs compute, stated once over the argument arrays, and the integer chain they share.

  A sample `b` of the batch has 32 feature words; row `gidx[b, f]` of the embedding table is gathered for each,
  the 32 rows are summed lane by lane, the phase bias row is added, the sum is clipped to [0, 1], multiplied lane by
  lane with the sample's head weights, summed over the 128 lanes, and the head's bias is added:

      out[b, 0] = (Σ_l  min 1 (max 0 ((Σ_f emb[gidx[b, f], l]) + pa[b, l])) · w[b, l]) + bias[b].

  `gidx = floor(ply / 10) · 262144 + (feature_indices + feature_offsets)` in 32-bit words, and the three small
  selections (`pa`, `w`, `bias`) are host gathers at `floor(ply / 10)` and `floor(ply / 1)` with the usual
  wrap of a negative index; both programs compute all four by the same operations, which are spelled here once.
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

abbrev S16384x32 : Shape := ⟨2, ![16384, 32]⟩
abbrev S16384 : Shape := ⟨1, ![16384]⟩
abbrev S32 : Shape := ⟨1, ![32]⟩
abbrev S786432x128 : Shape := ⟨2, ![786432, 128]⟩
abbrev S3x128 : Shape := ⟨2, ![3, 128]⟩
abbrev S30x128 : Shape := ⟨2, ![30, 128]⟩
abbrev S30 : Shape := ⟨1, ![30]⟩
abbrev S1x32 : Shape := ⟨2, ![1, 32]⟩
abbrev S_ : Shape := ⟨0, ![]⟩
abbrev S16384x1 : Shape := ⟨2, ![16384, 1]⟩
abbrev S16384x128 : Shape := ⟨2, ![16384, 128]⟩

theorem bcast_S32_S1x32_1 : S32.BroadcastsInDim S1x32 (![1] : Fin 1 → Fin S1x32.rank) := by decide
theorem bcast_S1x32_S16384x32_0_1 : S1x32.BroadcastsInDim S16384x32 (![0, 1] : Fin 2 → Fin S16384x32.rank) := by decide
theorem bcast_S_S16384 : S_.BroadcastsInDim S16384 (![] : Fin 0 → Fin S16384.rank) := by decide
theorem bcast_S16384_S16384x1_0 : S16384.BroadcastsInDim S16384x1 (![0] : Fin 1 → Fin S16384x1.rank) := by decide
theorem bcast_S_S16384x1 : S_.BroadcastsInDim S16384x1 (![] : Fin 0 → Fin S16384x1.rank) := by decide
theorem bcast_S16384x1_S16384x32_0_1 : S16384x1.BroadcastsInDim S16384x32 (![0, 1] : Fin 2 → Fin S16384x32.rank) := by decide
theorem bcast_S_S16384x128 : S_.BroadcastsInDim S16384x128 (![] : Fin 0 → Fin S16384x128.rank) := by decide
theorem gatherPa_wf : GatherDims.WF S3x128 S16384x1 S16384x128 [1] [0] [] [0] [] 1 ![1, 128] := by decide
theorem gatherW_wf : GatherDims.WF S30x128 S16384x1 S16384x128 [1] [0] [] [0] [] 1 ![1, 128] := by decide
theorem gatherB_wf : GatherDims.WF S30 S16384x1 S16384 [] [0] [] [0] [] 1 ![1] := by decide

/-- Row selection out of the 3-row phase-bias table. -/
def gatherPa : GatherDims S3x128 S16384x1 S16384x128 where
  offsetDims := [1]
  collapsedSliceDims := [0]
  operandBatchingDims := []
  startIndicesBatchingDims := []
  startIndexMap := [0]
  indexVectorDim := 1
  sliceSizes := ![1, 128]
  wf := gatherPa_wf
/-- Row selection out of the 30-row head-weight table. -/
def gatherW : GatherDims S30x128 S16384x1 S16384x128 where
  offsetDims := [1]
  collapsedSliceDims := [0]
  operandBatchingDims := []
  startIndicesBatchingDims := []
  startIndexMap := [0]
  indexVectorDim := 1
  sliceSizes := ![1, 128]
  wf := gatherW_wf
/-- Entry selection out of the 30 head biases. -/
def gatherB : GatherDims S30 S16384x1 S16384 where
  offsetDims := []
  collapsedSliceDims := [0]
  operandBatchingDims := []
  startIndicesBatchingDims := []
  startIndexMap := [0]
  indexVectorDim := 1
  sliceSizes := ![1]
  wf := gatherB_wf

/-- Floor division of each word of `x` by the scalar word `d`, as jnp lowers `x // d`: the truncating quotient, less one where
    the signs differ and the remainder is not zero. -/
def floorDiv (x : IVec S16384 32) (d : IVec S_ 32) : IVec S16384 32 :=
  let v0 : IVec S_ 32 := id d
  let v1 : IVec S16384 32 := broadcastInDim S16384 ![] bcast_S_S16384 v0
  let v2 : IVec S16384 32 := Host.divsi x v1
  let v3 : IVec S16384 32 := signi x
  let v4 : IVec S_ 32 := signi v0
  let v5 : IVec S16384 32 := broadcastInDim S16384 ![] bcast_S_S16384 v4
  let v6 : IVec S16384 1 := cmpi .ne v3 v5
  let v7 : IVec S16384 32 := broadcastInDim S16384 ![] bcast_S_S16384 v0
  let v8 : IVec S16384 32 := Host.remsi x v7
  let c : IVec S_ 32 := constantI S_ 32 0#32
  let v9 : IVec S16384 32 := broadcastInDim S16384 ![] bcast_S_S16384 c
  let v10 : IVec S16384 1 := cmpi .ne v8 v9
  let v11 : IVec S16384 1 := andi v6 v10
  let c_0 : IVec S_ 32 := constantI S_ 32 1#32
  let v12 : IVec S16384 32 := broadcastInDim S16384 ![] bcast_S_S16384 c_0
  let v13 : IVec S16384 32 := subi v2 v12
  select v11 v13 v2

/-- The table row each (sample, feature) pair gathers: `floor(ply / 10) · 262144 + (feature_indices + feature_offsets)`. -/
def gidxOf (a0 : IVec S16384x32 32) (a1 : IVec S16384 32) (a2 : IVec S32 32) : IVec S16384x32 32 :=
  let v0 : IVec S1x32 32 := broadcastInDim S1x32 ![1] bcast_S32_S1x32_1 a2
  let v1 : IVec S16384x32 32 := broadcastInDim S16384x32 ![0, 1] bcast_S1x32_S16384x32_0_1 v0
  let v2 : IVec S16384x32 32 := addi a0 v1
  let c : IVec S_ 32 := constantI S_ 32 10#32
  let v3 : IVec S16384 32 := floorDiv a1 c
  let v4 : IVec S16384x1 32 := broadcastInDim S16384x1 ![0] bcast_S16384_S16384x1_0 v3
  let c_0 : IVec S_ 32 := constantI S_ 32 262144#32
  let v5 : IVec S16384x1 32 := broadcastInDim S16384x1 ![] bcast_S_S16384x1 c_0
  let v6 : IVec S16384x1 32 := muli v4 v5
  let v7 : IVec S16384x32 32 := broadcastInDim S16384x32 ![0, 1] bcast_S16384x1_S16384x32_0_1 v6
  addi v7 v2

/-- A signed row number made a gather's start index: `n` added where it is negative, then a column. -/
def wrapIdx (n : BitVec 32) (x : IVec S16384 32) : IVec S16384x1 32 :=
  let c : IVec S_ 32 := constantI S_ 32 0#32
  let v0 : IVec S16384 32 := broadcastInDim S16384 ![] bcast_S_S16384 c
  let v1 : IVec S16384 1 := cmpi .slt x v0
  let c_0 : IVec S_ 32 := constantI S_ 32 n
  let v2 : IVec S16384 32 := broadcastInDim S16384 ![] bcast_S_S16384 c_0
  let v3 : IVec S16384 32 := addi x v2
  let v4 : IVec S16384 32 := select v1 v3 x
  broadcastInDim S16384x1 ![0] bcast_S16384_S16384x1_0 v4

variable {F : FTy → Type} [FloatOps F]

/-- Each sample's phase-bias row, `pa_bias[floor(ply / 10)]`. -/
def paSelOf (a1 : IVec S16384 32) (a4 : FVec F S3x128 .f32) : FVec F S16384x128 .f32 :=
  Host.gather gatherPa a4 (wrapIdx 3#32 (floorDiv a1 (constantI S_ 32 10#32)))
/-- Each sample's head weights, `w_out[floor(ply / 1)]`. -/
def wSelOf (a1 : IVec S16384 32) (a5 : FVec F S30x128 .f32) : FVec F S16384x128 .f32 :=
  Host.gather gatherW a5 (wrapIdx 30#32 (floorDiv a1 (constantI S_ 32 1#32)))
/-- Each sample's head bias, `b_out[floor(ply / 1)]`. -/
def bSelOf (a1 : IVec S16384 32) (a6 : FVec F S30 .f32) : FVec F S16384 .f32 :=
  Host.gather gatherB a6 (wrapIdx 30#32 (floorDiv a1 (constantI S_ 32 1#32)))

/-- Every gathered row number lies inside the embedding table (read as a signed word it is in [0, 786432), so its
    unsigned reading is below 786432). -/
def InRange (gidx : IVec S16384x32 32) : Prop :=
  ∀ (b : Fin 16384) (f : Fin 32), (gidx (ix2 b f)).toNat < 786432

/-- A gathered word as a row of the embedding table (reduced into range, which changes nothing under `InRange`). -/
def rowOf (gidx : IVec S16384x32 32) (b : Fin 16384) (f : Fin 32) : Fin 786432 :=
  ⟨(gidx (ix2 b f)).toNat % 786432, Nat.mod_lt _ (by decide)⟩

/-- The lane-wise sum of a sample's 32 gathered rows. -/
def embSum (gidx : IVec S16384x32 32) (emb : FVec Ideal S786432x128 .f32) : FVec Ideal S16384x128 .f32 :=
  fun i => ∑ f : Fin 32, emb (ix2 (rowOf gidx ⟨(i 0).val, idx2_lt0 i⟩ f) ⟨(i 1).val, idx2_lt1 i⟩)

/-- The clipped activation times the head weights, lane by lane. -/
def weighted (gidx : IVec S16384x32 32) (emb : FVec Ideal S786432x128 .f32) (pa w : FVec Ideal S16384x128 .f32) :
    FVec Ideal S16384x128 .f32 :=
  mulf (minimumf (broadcastInDim S16384x128 ![] bcast_S_S16384x128 (constant (F := Ideal) S_ .f32 0x3F800000#32))
    (maximumf (broadcastInDim S16384x128 ![] bcast_S_S16384x128 (constant (F := Ideal) S_ .f32 0x00000000#32)) (addf (embSum gidx emb) pa))) w

/-- THE RESULT: each sample's weighted lanes summed, plus its head bias. -/
def G (gidx : IVec S16384x32 32) (emb : FVec Ideal S786432x128 .f32) (pa w : FVec Ideal S16384x128 .f32)
    (bs : FVec Ideal S16384 .f32) : FVec Ideal S16384x1 .f32 :=
  fun i => (∑ l : Fin 128, weighted gidx emb pa w (ix2 ⟨(i 0).val, idx2_lt0 i⟩ l)) + bs (ix1 ⟨(i 0).val, idx2_lt0 i⟩)

end Cert.Spec

end
-- ==== Proof.PreRange.lean ====
/-
  The precondition, read back as a range fact on the gathered row numbers.

  The precondition is a conjunction of one-bit words: four "every float is finite" tests and, last, the reduction by
  `and`, over both axes, of the array whose entry at (sample b, feature f) is

      (0 ≤ gidx[b, f]) and (gidx[b, f] < 786432),        both comparisons signed,

  where gidx = floor(ply / 10) · 262144 + (feature_indices + feature_offsets) is computed by the very chain of word
  operations that `Cert.Spec.gidxOf` spells (floor division as quotient, remainder, signs, compare, select; the
  constants broadcast the same way), so the two arrays are equal by unfolding. A conjunction of bits is 1 only if each
  bit is 1; a reduction by `and` that is 1 met only 1s; a signed comparison bit that is 1 says the signed readings
  compare; and a 32-bit word whose signed reading is nonnegative has its unsigned reading equal to it. Hence every
  gathered row number, read unsigned, is below 786432.
-/
import proofs.«402893_j78554951844377_2_alg».proof.Proof.Spec
import proofs.«402893_j78554951844377_2_alg».proof.Proof.Gen.Pre_finite_inputs
import Idealize.ShloMosaic.Lib.ReduceAll
import Idealize.ShloMosaic.Lib.Affine

namespace Cert.PreRange

open Idealize.ShloMosaic Idealize.ShloMosaic.ValueIdx

/-- The scalar shape has exactly one index (a function out of the empty set of axes). -/
instance : Subsingleton Cert.Spec.S_.Idx := ⟨fun a b => funext fun d => d.elim0⟩

/-- A 32-bit word whose signed reading lies in [0, 786432) has its unsigned reading below 786432: the signed reading
    of a word is its unsigned reading when that is below 2³¹ and 2³² less otherwise, and the second case would make
    it negative. -/
theorem toNat_lt_of_toInt (x : BitVec 32) (h0 : (0#32 : BitVec 32).toInt ≤ x.toInt)
    (h1 : x.toInt < (786432#32 : BitVec 32).toInt) : x.toNat < 786432 := by
  have e0 : (0#32 : BitVec 32).toInt = 0 := by decide
  have e1 : (786432#32 : BitVec 32).toInt = 786432 := by decide
  rw [e0] at h0
  rw [e1] at h1
  rw [BitVec.toInt_eq_toNat_cond] at h0 h1
  have hx := x.isLt
  by_cases hc : 2 * x.toNat < 2 ^ 32
  · rw [if_pos hc] at h1; omega
  · rw [if_neg hc] at h0; omega

/-- Under the precondition every gathered row number lies inside the embedding table. The precondition's last
    conjunct is the `and` over all (sample, feature) pairs of "0 ≤ gidx and gidx < 786432" (signed), on the same
    array `gidxOf` names; read at one pair it bounds that entry's signed reading, hence its unsigned one. -/
theorem inRange_of_pre {F : FTy → Type} [FloatOps F] (a0 : IVec Cert.Spec.S16384x32 32) (a1 : IVec Cert.Spec.S16384 32) (a2 : IVec Cert.Spec.S32 32) (a3 : FVec F Cert.Spec.S786432x128 .f32) (a4 : FVec F Cert.Spec.S3x128 .f32) (a5 : FVec F Cert.Spec.S30x128 .f32) (a6 : FVec F Cert.Spec.S30 .f32)
    (h : Cert.Pre_finite_inputs.fn (F := F) a0 a1 a2 a3 a4 a5 a6 = fun _ => 1#1) : Cert.Spec.InRange (Cert.Spec.gidxOf a0 a1 a2) := by
  intro b f
  -- the precondition's one word, as the conjunction it is
  have h0 := congrFun h ValueIdx.ix0
  dsimp only [Cert.Pre_finite_inputs.fn, Cert.Pre_finite_inputs.fn_part1, Cert.Pre_finite_inputs.fn_part2] at h0
  -- its last conjunct: the reduction by `and` of the range test is 1 …
  have h1 := (IntOp.andi_eq_one.1 h0).2
  -- … so the range test is 1 at (b, f) …
  have h2 := Host.reduce_andi_all _ _ _ _ _ h1 (ix2 b f)
  -- … and both of its comparisons are.
  have h3 := IntOp.andi_eq_one.1 h2
  -- the compared array is `gidxOf a0 a1 a2` (the same chain of operations), the bounds the broadcast constants 0 and 786432
  have hge : (0#32 : BitVec 32).toInt ≤ (Cert.Spec.gidxOf a0 a1 a2 (ix2 b f)).toInt := IntOp.cmpi_sge.1 h3.1
  have hlt : (Cert.Spec.gidxOf a0 a1 a2 (ix2 b f)).toInt < (786432#32 : BitVec 32).toInt := IntOp.cmpi_slt.1 h3.2
  exact toNat_lt_of_toInt _ hge hlt

end Cert.PreRange
-- ==== Proof.R0Run.lean ====
import proofs.«402893_j78554951844377_2_alg».proof.Proof.Gen.KernelIdeal.Launch
import proofs.«402893_j78554951844377_2_alg».proof.Proof.Gen.KernelIdeal.Skeleton
import Idealize.ShloMosaic.Lib.Pipeline.Value
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 0: the kernel body at one grid point

The body keeps a running lane-wise sum in its scratch: at the first feature of a sample it clears the scratch, at every
feature it adds the gathered row, and at the last feature it also stores the sample's result
`(Σ_l min 1 (max 0 (sum + bias)) · weights) + head bias` into the result block. Three cases of the two conditions are
met on the grid (first feature, a middle one, the last one); in each the body runs to its end and leaves the scratch
(and, in the last, the result block) at the stated payload of what it was handed. -/

/-- The body's first condition: the feature coordinate is 0. -/
abbrev cond0_0 (i : grid0.Coords) : Prop := (Scalar.cmpi .ne (Scalar.extui (Scalar.cmpi .eq (BitVec.ofNat 32 (i 1).val) 0#32)) 0#32) = 1#1
/-- The body's second condition: the feature coordinate is 31. -/
abbrev cond0_1 (i : grid0.Coords) : Prop := k0_cond2 i = 1#1

/-- The whole-block rectangle starts at zero on every axis. -/
theorem hz128 : (![0, 0, 0] : Fin S1x1x128.rank → Nat) = fun _ => 0 := by
  funext a; match a with | ⟨0, _⟩ => rfl | ⟨1, _⟩ => rfl | ⟨2, _⟩ => rfl
theorem hz1 : (![0, 0, 0] : Fin S1x1x1.rank → Nat) = fun _ => 0 := by
  funext a; match a with | ⟨0, _⟩ => rfl | ⟨1, _⟩ => rfl | ⟨2, _⟩ => rfl

set_option maxHeartbeats 1000000 in
/-- A MIDDLE feature (neither condition holds): the scratch at `acc` ends at `acc + row`. -/
theorem run0_B (c : Dev nD) (i : grid0.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond0_0 i) (hc1 : ¬cond0_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k0_pay2 acc x3)) -∗ K ⟨⟩))
      ⊢ wp frame (wpE (defs₀ (F := F)) Variants.none c none) E (cc0__gather_kernel i arg2 harg2 arg3 harg3 arg4 harg4 arg5 harg5 arg6 harg6 arg7 harg7 arg8 harg8) K := by
  simp only [cc0__gather_kernel_eq_skeleton]; unfold cc0__gather_kernel_skel
  unfold owns
  iintro ⟨⟨%f3, %hf3, H3⟩, ⟨%f8, %hf8, H8⟩, Hk⟩
  obtain rfl := harg3.eq_unread hf3; obtain rfl := harg8.eq_unread hf8
  sl_exec (disch := first | exact hc0 | exact hc1)
  sl_step
  iapply Hk
  isplitl [H3]
  · iexists _; isplitr; · ipureintro; exact harg3.read_unread _
    iexact H3
  iexists _; isplitr
  swap; · iexact H8
  ipureintro
  rw [View.read_writes_eq_canon _ _ _ (fun y => ⟨_, List.mem_singleton_self _, View.mem_set_unit_zero hz128 inb_S1x1x128_S1x1x128_0_0_0 y⟩),
    View.canon_unit_zero hz128]
  simp only [View.readAt_eq_ld, harg8.read_unread, harg3.read_unread, View.ld_unit_zero (S := S1x1x128) hz128]

set_option maxHeartbeats 1000000 in
/-- The FIRST feature (the first condition holds, the second does not): whatever the scratch held, it ends at
    `0 + row`. -/
theorem run0_A (c : Dev nD) (i : grid0.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond0_0 i) (hc1 : ¬cond0_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k0_pay2 (k0_pay1 (F := F)) x3)) -∗ K ⟨⟩))
      ⊢ wp frame (wpE (defs₀ (F := F)) Variants.none c none) E (cc0__gather_kernel i arg2 harg2 arg3 harg3 arg4 harg4 arg5 harg5 arg6 harg6 arg7 harg7 arg8 harg8) K := by
  simp only [cc0__gather_kernel_eq_skeleton]; unfold cc0__gather_kernel_skel
  unfold owns
  iintro ⟨⟨%f3, %hf3, H3⟩, ⟨%d8, %f8, -, H8⟩, Hk⟩
  obtain rfl := harg3.eq_unread hf3
  sl_exec (disch := first | exact hc0 | exact hc1)
  sl_step
  iapply Hk
  isplitl [H3]
  · iexists _; isplitr; · ipureintro; exact harg3.read_unread _
    iexact H3
  iexists _; isplitr
  swap; · iexact H8
  ipureintro
  sl_unfold_run_names
  rw [View.read_writes_eq_canon _ _ _ (fun y => ⟨_, List.mem_cons_self, View.mem_set_unit_zero hz128 inb_S1x1x128_S1x1x128_0_0_0 y⟩),
    View.canon_cons_unit_zero hz128]
  simp only [View.readAt_eq_ld, harg3.read_unread, View.ld_unit_zero (S := S1x1x128) hz128, View.readCov_unit_zero (S := S1x1x128) _ hz128]

set_option maxHeartbeats 1000000 in
/-- The LAST feature (the second condition holds, the first does not): the scratch at `acc` ends at `acc + row`, and
    the result block, whatever it held, ends at the sample's result computed from that sum, the bias row, the weight
    row and the head bias. -/
theorem run0_C (c : Dev nD) (i : grid0.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond0_0 i) (hc1 : cond0_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k0_pay3 (k0_pay2 acc x3) x4 x5 x6)
            ∗ owns (c : Thread nD τ) arg8 fullShare (k0_pay2 acc x3)) -∗ K ⟨⟩))
      ⊢ wp frame (wpE (defs₀ (F := F)) Variants.none c none) E (cc0__gather_kernel i arg2 harg2 arg3 harg3 arg4 harg4 arg5 harg5 arg6 harg6 arg7 harg7 arg8 harg8) K := by
  simp only [cc0__gather_kernel_eq_skeleton]; unfold cc0__gather_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5
  obtain rfl := harg6.eq_unread hf6; obtain rfl := harg8.eq_unread hf8
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_run_names
    rw [View.read_writes_eq_canon _ _ _ (fun y => ⟨_, List.mem_singleton_self _, View.mem_set_unit_zero hz1 inb_S1x1x1_S1x1x1_0_0_0 y⟩),
      View.canon_unit_zero hz1]
    simp only [View.readAt_eq_ld, harg3.read_unread, harg4.read_unread, harg5.read_unread, harg6.read_unread, harg8.read_unread,
      View.ld_unit_zero (S := S1x1x128) hz128, View.ld_unit_zero (S := S1x1x1) hz1, View.readCov_unit_zero (S := S1x1x128) _ hz128]
  iexists _; isplitr
  swap; · iexact H8
  ipureintro
  sl_unfold_run_names
  rw [View.read_writes_eq_canon _ _ _ (fun y => ⟨_, List.mem_singleton_self _, View.mem_set_unit_zero hz128 inb_S1x1x128_S1x1x128_0_0_0 y⟩),
    View.canon_unit_zero hz128]
  simp only [View.readAt_eq_ld, harg8.read_unread, harg3.read_unread, View.ld_unit_zero (S := S1x1x128) hz128]

end Cert.KernelIdeal.Hand

end
-- ==== Proof.R0Base.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R0Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 0: the pipeline at the table the region reads, its blocks and staging buffers

Everything here is stated at a PARAMETER `V`: the contents of the core's buffers when the region is entered. The
region's prefetched table is read off `V`; under the side condition that every word of it names a row of the embedding
table (`Ok0`) the pipeline is pinned at it, and each window's block at a grid point is a restriction of its array. -/

variable (V : (c : Dev nD) → (b : Ref sig .tc) → Buf (Elt F) ((c : Thread nD τ).loc b))

/-- The table's contents when the region is entered (one device). -/
def tbl0 : pre0.Contents (Elt F) := fun j => V (0 : Dev nD) (pre0.ref j)
/-- On every device the table holds those contents (there is one device). -/
theorem V_pre0 (c : Dev nD) (j : Fin 1) : V c (pre0.ref j) = tbl0 V j := by
  obtain rfl : c = 0 := Subsingleton.elim _ _; rfl
/-- Every block the table names lies inside the embedding table. -/
abbrev Ok0 : Prop := ok0 (F := F) (tbl0 V)
/-- The table as admissible contents, and the pipeline pinned at it. -/
abbrev adm0 (hO : Ok0 V) : (pcfg0 (F := F)).Adm := ⟨tbl0 V, hO⟩
abbrev cfgM0 (hO : Ok0 V) : Pipeline.Cfg sig Λ₀ := cfg0 (adm0 V hO)

/-- Window `w`'s block at point `t`, read off its array as the region finds it. -/
def iblk0 (hO : Ok0 V) (c : Dev nD) (w : Fin (cfgM0 V hO).W) (t : Fin (cfgM0 V hO).N) :
    (((cfgM0 V hO).win w).xblock ((cfgM0 V hO).grid.coords t)).Idx → Elt F ((cfgM0 V hO).win w).elt :=
  (((cfgM0 V hO).win w).blk t).view.read (Elt F) (V c (Pipeline.arrRef spec0 w))

/-- An input window's current staging buffer holds its block at every point, fetched there or not, for any proof
    data whose array is `V`'s and whose body leaves the block in place. -/
theorem before0_0_of (hO : Ok0 V) {c : Dev nD} (dat : Dat τ (Elt F) Unit ℕ (UR sig nD τ) ℕ (cfgM0 V hO) c) (hA : dat.A 0 = V c (Pipeline.arrRef spec0 0))
    (hafter : ∀ t, dat.after 0 t = iblk0 V hO c 0 t) (t : Fin (cfgM0 V hO).N) (d) : dat.before 0 t d = iblk0 V hO c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hO : Ok0 V) {c : Dev nD} (dat : Dat τ (Elt F) Unit ℕ (UR sig nD τ) ℕ (cfgM0 V hO) c) (hA : dat.A 1 = V c (Pipeline.arrRef spec0 1))
    (hafter : ∀ t, dat.after 1 t = iblk0 V hO c 1 t) (t : Fin (cfgM0 V hO).N) (d) : dat.before 1 t d = iblk0 V hO c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hO : Ok0 V) {c : Dev nD} (dat : Dat τ (Elt F) Unit ℕ (UR sig nD τ) ℕ (cfgM0 V hO) c) (hA : dat.A 2 = V c (Pipeline.arrRef spec0 2))
    (hafter : ∀ t, dat.after 2 t = iblk0 V hO c 2 t) (t : Fin (cfgM0 V hO).N) (d) : dat.before 2 t d = iblk0 V hO c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hO : Ok0 V) {c : Dev nD} (dat : Dat τ (Elt F) Unit ℕ (UR sig nD τ) ℕ (cfgM0 V hO) c) (hA : dat.A 3 = V c (Pipeline.arrRef spec0 3))
    (hafter : ∀ t, dat.after 3 t = iblk0 V hO c 3 t) (t : Fin (cfgM0 V hO).N) (d) : dat.before 3 t d = iblk0 V hO c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it, and its wholeness. -/
abbrev ms0_0 (hO : Ok0 V) (t : Fin (cfgM0 V hO).N) : Memref sig .tc .vmem S1x1x128 .f32 := spec0_0.stage ((cfgM0 V hO).slots t 0)
abbrev hs0_0 (hO : Ok0 V) (t : Fin (cfgM0 V hO).N) : (ms0_0 V hO t).IsWhole := hstage0_0 (((cfgM0 V hO).slots t 0).cast nbuf0_0)
abbrev ms0_1 (hO : Ok0 V) (t : Fin (cfgM0 V hO).N) : Memref sig .tc .vmem S1x1x128 .f32 := spec0_1.stage ((cfgM0 V hO).slots t 1)
abbrev hs0_1 (hO : Ok0 V) (t : Fin (cfgM0 V hO).N) : (ms0_1 V hO t).IsWhole := hstage0_1 (((cfgM0 V hO).slots t 1).cast nbuf0_1)
abbrev ms0_2 (hO : Ok0 V) (t : Fin (cfgM0 V hO).N) : Memref sig .tc .vmem S1x1x128 .f32 := spec0_2.stage ((cfgM0 V hO).slots t 2)
abbrev hs0_2 (hO : Ok0 V) (t : Fin (cfgM0 V hO).N) : (ms0_2 V hO t).IsWhole := hstage0_2 (((cfgM0 V hO).slots t 2).cast nbuf0_2)
abbrev ms0_3 (hO : Ok0 V) (t : Fin (cfgM0 V hO).N) : Memref sig .tc .vmem S1x1x1 .f32 := spec0_3.stage ((cfgM0 V hO).slots t 3)
abbrev hs0_3 (hO : Ok0 V) (t : Fin (cfgM0 V hO).N) : (ms0_3 V hO t).IsWhole := hstage0_3 (((cfgM0 V hO).slots t 3).cast nbuf0_3)
abbrev ms0_4 (hO : Ok0 V) (t : Fin (cfgM0 V hO).N) : Memref sig .tc .vmem S1x1x1 .f32 := spec0_4.stage ((cfgM0 V hO).slots t 4)
abbrev hs0_4 (hO : Ok0 V) (t : Fin (cfgM0 V hO).N) : (ms0_4 V hO t).IsWhole := hstage0_4 (((cfgM0 V hO).slots t 4).cast nbuf0_4)
/-- The scratch operand: a whole scoped buffer of the kernel's own. -/
abbrev scM0 : Memref sig .tc .vmem S1x1x128 .f32 := Memref.whole cc0_scratch0
/-- The table as the body is handed it. -/
abbrev tbM0 : Memref sig .tc .smem S65536 .i32 := Memref.whole main_v36

/-- The kernel body at point `t`, on what the pipeline calls it with. -/
abbrev bodyAt0 (a : (pcfg0 (F := F)).Adm) (t : Fin (cfg0 a).N) : Prog (TpuEff nD τ sig (Elt F) Λ₀ .tc) PUnit :=
  cc0__gather_kernel (grid0.coords t) (Memref.whole main_v36) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-- Off the last feature the result window is idle: the body stores nothing into it. -/
theorem idleAt0_4 (a : (pcfg0 (F := F)).Adm) (i : grid0.Coords) (h : ¬cond0_1 i) : (cfg0 a).idle 4 i = true := by
  show (!(k0_cond2 i == 1#1)) = true
  simp only [Bool.not_eq_true', beq_eq_false_iff_ne, ne_eq]; exact h
/-- On the last feature it is live. -/
theorem liveAt0_4 (a : (pcfg0 (F := F)).Adm) (i : grid0.Coords) (h : cond0_1 i) : (cfg0 a).idle 4 i = false := by
  show (!(k0_cond2 i == 1#1)) = false
  simp only [Bool.not_eq_false', beq_iff_eq]; exact h
/-- The input windows are never idle. -/
theorem liveAt0_0 (a : (pcfg0 (F := F)).Adm) (i : grid0.Coords) : (cfg0 a).idle 0 i = false := rfl
theorem liveAt0_1 (a : (pcfg0 (F := F)).Adm) (i : grid0.Coords) : (cfg0 a).idle 1 i = false := rfl
theorem liveAt0_2 (a : (pcfg0 (F := F)).Adm) (i : grid0.Coords) : (cfg0 a).idle 2 i = false := rfl
theorem liveAt0_3 (a : (pcfg0 (F := F)).Adm) (i : grid0.Coords) : (cfg0 a).idle 3 i = false := rfl

end Cert.KernelIdeal.Hand

end
-- ==== Proof.OkTables.lean ====
/-
  The prefetched row table of tile 0, read by window 0's index map, and the pipeline's side condition on it.

  Tile 0's grid is 2048 samples × 32 features. At grid point i = (i₀, i₁) the index map of window 0 (the embedding
  table, cut into blocks of one row) loads ONE word of the prefetched table, the word at flat position
  32·i₀ + i₁ (the position is computed in 32-bit words, and 32·i₀ + i₁ < 65536 does not wrap), and names the block
  (that word read unsigned, 0, 0). So the index map is a closed form in that word (`transform0_eq`), and its block
  lies inside the [786432, 1, 128] array as soon as the word is below 786432: then (w + 1)·1 ≤ 786432, and on the
  other two axes the one block (0 + 1)·1 ≤ 1, (0 + 1)·128 ≤ 128 is the whole extent; the element type is a word wide,
  so the transfer ends are word-exact. That is the side condition `ok0` (`ok0_of`).

  The table's contents `pf` stay a variable throughout: nothing here depends on what the words are.
-/
import proofs.«402893_j78554951844377_2_alg».proof.Proof.Gen.KernelIdeal
import Idealize.ShloMosaic.Lib.ValueIdx

namespace Cert.KernelIdeal.Hand

open Cert.KernelIdeal Cert.KernelIdeal.Gen Idealize.ShloMosaic Idealize.ShloMosaic.ValueIdx

variable {F : FTy → Type} [FloatOps F]

/-! ## Tile 0 -/

/-- The flat position 32·i₀ + i₁ of grid point (i₀, i₁), i₀ < 2048 and i₁ < 32, is a position of the 65536-word table. -/
theorem pos_lt0 (i : grid0.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword0 (pf : pre0.Contents (Elt F)) (i : grid0.Coords) : BitVec 32 :=
  pf 0 (ValueIdx.ix1 ⟨32 * (i 0).val + (i 1).val, pos_lt0 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform0_eq (pf : pre0.Contents (Elt F)) (i : grid0.Coords) :
    cc0_transform_0 k0_off1_inb numel1_S1 pf i = ![(tword0 pf i).toNat, 0, 0] := by
  have hoff : (k0_off1 i) 0 = 32 * (i 0).val + (i 1).val := congrFun (k0_off1_eq i) 0
  have hidx : (Rect.unit (s := S65536) (k0_off1 i) S1.size (k0_off1_inb i)).emb (Shape.Idx.first (numel1_S1.symm ▸ Nat.one_pos))
      = ValueIdx.ix1 ⟨32 * (i 0).val + (i 1).val, pos_lt0 i⟩ := by
    funext a
    match a with
    | ⟨0, _⟩ =>
      apply Fin.ext
      show (k0_off1 i) 0 + 1 * 0 = 32 * (i 0).val + (i 1).val
      omega
  show ![(pf 0 ((Rect.unit (s := S65536) (k0_off1 i) S1.size (k0_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok0_of (pf : pre0.Contents (Elt F)) (h : ∀ i : grid0.Coords, (tword0 pf i).toNat < 786432) : ok0 pf := by
  intro i
  refine ⟨fun a => ?_, Or.inl rfl⟩
  rw [transform0_eq pf i]
  have hi := h i
  match a with
  | ⟨0, _⟩ =>
    show ((tword0 pf i).toNat + 1) * 1 ≤ 786432
    omega
  | ⟨1, _⟩ => show (0 + 1) * 1 ≤ 1; omega
  | ⟨2, _⟩ => show (0 + 1) * 128 ≤ 128; omega

end Cert.KernelIdeal.Hand
-- ==== Proof.KHost.lean ====
/-
  The host side of the kernel program, read at an index.

  Between its eight kernel regions the program runs whole-array operations only. Before the first region they compute,
  from the arguments, the array of gathered row numbers and the three per-sample selections (phase-bias row, head
  weights, head bias), by the very operations `Cert.Spec` spells, and put a unit axis into the selections and into
  the embedding table; before region `k` they cut the rows `[2048 k, 2048 k + 2048)` out of each and flatten the cut
  of the row numbers into the region's prefetched table. This module says what these arrays hold:

  * at any contents `W` of the buffers, a stretch's result is the composite of its operations on what `W` holds at the
    stretch's inputs;
  * chained from the launch contents, `main_v8`, `main_v16`, `main_v23`, `main_v30` are `Spec.gidxOf`, `Spec.paSelOf`,
    `Spec.wSelOf`, `Spec.bSelOf` of the arguments (no stretch writes an argument);
  * tile 0's five operands, entry by entry: a reshape keeps row-major positions and a cut along the leading axis shifts
    the leading coordinate, nothing else happens to them.

  The program's own index maps are called `ix0 … ix7` in its namespace, so the coordinates-to-index functions are
  written with their namespace, `ValueIdx.ix1`, `ValueIdx.ix2`, `ValueIdx.ix3`.
-/
import proofs.«402893_j78554951844377_2_alg».proof.Proof.Gen.KernelIdeal.Regions
import proofs.«402893_j78554951844377_2_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 1396

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]
variable (m : (ℓ : Loc nD τ sig) → Buf (Elt F) ℓ) (outs : Outs (F := F))

/-! ## Layout operations read at an index -/

section Layout
variable {α : Type}

/-- A rank-3 array cut along its leading axis from `o` reads, at `(j, b, e)`, the source at `(k, b, e)` with `k = o + j`:
    the offsets on the other two axes are zero. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ValueIdx.ix3 j b e) = X (ValueIdx.ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, b]` array cast to `[a, 1, b]` reads, at `(i, u, j)`, the operand at `(i, j)`: the two row-major positions are
    `(i · 1 + u) · b + j` and `i · b + j`, and `u = 0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ValueIdx.ix3 i u j) = x (ValueIdx.ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1, 1]` reads, at `(i, u, v)`, the operand at `i`. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ValueIdx.ix3 i u v) = x (ValueIdx.ix1 i) :=
  shapeCast_apply x h _ _ (by
    have hu : u.val = 0 := by omega
    have hv : v.val = 0 := by omega
    rw [Shape.rowMajor_val_three, Shape.rowMajor_val_one]
    show i.val = (i.val * 1 + u.val) * 1 + v.val
    omega)

/-- An `[a, b]` array flattened to `[N]` reads, at `j`, the operand at `(i, e)` whenever `j = i · b + e`. -/
theorem shapeCast_ab_flat_apply {a b N : ℕ} (x : (⟨2, ![a, b]⟩ : Shape).Idx → α)
    (h : (⟨2, ![a, b]⟩ : Shape).ShapeCasts ⟨1, ![N]⟩) (j : Fin N) (i : Fin a) (e : Fin b)
    (hj : j.val = i.val * b + e.val) :
    shapeCast ⟨1, ![N]⟩ x h (ValueIdx.ix1 j) = x (ValueIdx.ix2 i e) :=
  shapeCast_apply x h _ _ (by
    rw [Shape.rowMajor_val_two, Shape.rowMajor_val_one]
    show i.val * b + e.val = j.val
    exact hj.symm)

end Layout

/-! ## The integer chain at any contents

Each stretch is a list of whole-array operations; read at its result reference, from any contents `W` of the buffers, it
is the composite of its operations applied to what `W` holds at the stretch's inputs. The composites are the functions
of `Cert.Spec`. -/

section Stretches
variable (W : Valuation τ sig (Elt F))

/-- The first stretch leaves `feature_indices + feature_offsets` (the offsets broadcast along the batch) in `main_v2`. -/
theorem ops0_v2 :
    (StableHlo.after hostOps0 W main_v2 : IVec Spec.S16384x32 32)
      = addi (W main_arg0) (broadcastInDim Spec.S16384x32 ![0, 1] Spec.bcast_S1x32_S16384x32_0_1
          (broadcastInDim Spec.S1x32 ![1] Spec.bcast_S32_S1x32_1 (W main_arg2))) := by
  dsimp only [hostOps0]; open StableHlo in after_results_simp

/-- … and the divisor 10 in `main_c`. -/
theorem ops0_c : (StableHlo.after hostOps0 W main_c : IVec Spec.S_ 32) = constantI Spec.S_ 32 10#32 := by
  dsimp only [hostOps0]; open StableHlo in after_results_simp

/-- The first call of `floor_divide` leaves in `main_v3` the floor quotient of `main_arg1` by the scalar in `main_c`. -/
theorem ops0_1_v3 :
    (StableHlo.after hostOps0_1 W main_v3 : IVec Spec.S16384 32) = Spec.floorDiv (W main_arg1) (W main_c) := by
  dsimp only [hostOps0_1]; open StableHlo in after_results_simp; rfl

/-- The third stretch scales the quotient by 262144, broadcasts it along the features and adds `main_v2`. -/
theorem ops0_2_v8 :
    (StableHlo.after hostOps0_2 W main_v8 : IVec Spec.S16384x32 32)
      = addi (broadcastInDim Spec.S16384x32 ![0, 1] Spec.bcast_S16384x1_S16384x32_0_1
          (muli (broadcastInDim Spec.S16384x1 ![0] Spec.bcast_S16384_S16384x1_0 (W main_v3))
            (broadcastInDim Spec.S16384x1 ![] Spec.bcast_S_S16384x1 (constantI Spec.S_ 32 262144#32)))) (W main_v2) := by
  dsimp only [hostOps0_2]; open StableHlo in after_results_simp

/-- … and leaves the divisor 1 in `main_c_1`. -/
theorem ops0_2_c1 : (StableHlo.after hostOps0_2 W main_c_1 : IVec Spec.S_ 32) = constantI Spec.S_ 32 1#32 := by
  dsimp only [hostOps0_2]; open StableHlo in after_results_simp

/-- The second call of `floor_divide` leaves in `main_v9` the floor quotient of `main_arg1` by the scalar in `main_c_1`. -/
theorem ops0_3_v9 :
    (StableHlo.after hostOps0_3 W main_v9 : IVec Spec.S16384 32) = Spec.floorDiv (W main_arg1) (W main_c_1) := by
  dsimp only [hostOps0_3]; open StableHlo in after_results_simp; rfl

end Stretches

/-! ## The selections and the reshapes at any contents

The long stretch before the first region wraps the two quotients into row numbers of the small tables (a negative
quotient has the table's length added), gathers, and puts the unit axes in. The kernel regions take the three
selections as `[16384, 1, 128]`, `[16384, 1, 128]`, `[16384, 1, 1]` and the embedding table as `[786432, 1, 128]`: a
row-major position does not see a unit axis, so each reads at `(r, 0, l)` what its operand holds at `(r, l)`. -/

section Stretches
variable (W : Valuation τ sig (Elt F))

/-- The long stretch gathers, for each sample, the row of the 3-row table `main_arg4` at the wrapped quotient in `main_v3`. -/
theorem ops0_4_v16 :
    (StableHlo.after hostOps0_4 W main_v16 : FVec F Spec.S16384x128 .f32)
      = Host.gather Spec.gatherPa (W main_arg4) (Spec.wrapIdx 3#32 (W main_v3)) := by
  dsimp only [hostOps0_4]; open StableHlo in after_results_simp; rfl

/-- … the row of the 30-row table `main_arg5` at the wrapped quotient in `main_v9`. -/
theorem ops0_4_v23 :
    (StableHlo.after hostOps0_4 W main_v23 : FVec F Spec.S16384x128 .f32)
      = Host.gather Spec.gatherW (W main_arg5) (Spec.wrapIdx 30#32 (W main_v9)) := by
  dsimp only [hostOps0_4]; open StableHlo in after_results_simp; rfl

/-- … and the entry of the 30 biases `main_arg6` at the same wrapped quotient. -/
theorem ops0_4_v30 :
    (StableHlo.after hostOps0_4 W main_v30 : FVec F Spec.S16384 .f32)
      = Host.gather Spec.gatherB (W main_arg6) (Spec.wrapIdx 30#32 (W main_v9)) := by
  dsimp only [hostOps0_4]; open StableHlo in after_results_simp; rfl

/-- The phase-bias rows with the unit axis in, read through the reshape. -/
theorem ops0_4_v31_read (R : Fin 16384) (u : Fin 1) (l : Fin 128) :
    StableHlo.after hostOps0_4 W main_v31 (ValueIdx.ix3 R u l) = StableHlo.after hostOps0_4 W main_v16 (ValueIdx.ix2 R l) := by
  dsimp only [hostOps0_4]; open StableHlo in after_results_simp
  exact shapeCast_ab_a1b_apply _ _ R u l

/-- The head weights with the unit axis in, read through the reshape. -/
theorem ops0_4_v32_read (R : Fin 16384) (u : Fin 1) (l : Fin 128) :
    StableHlo.after hostOps0_4 W main_v32 (ValueIdx.ix3 R u l) = StableHlo.after hostOps0_4 W main_v23 (ValueIdx.ix2 R l) := by
  dsimp only [hostOps0_4]; open StableHlo in after_results_simp
  exact shapeCast_ab_a1b_apply _ _ R u l

/-- The head biases with the two unit axes in, read through the reshape. -/
theorem ops0_4_v33_read (R : Fin 16384) (u v : Fin 1) :
    StableHlo.after hostOps0_4 W main_v33 (ValueIdx.ix3 R u v) = StableHlo.after hostOps0_4 W main_v30 (ValueIdx.ix1 R) := by
  dsimp only [hostOps0_4]; open StableHlo in after_results_simp
  exact shapeCast_a_a11_apply _ _ R u v

/-- The embedding table with the unit axis in, read through the reshape: the argument itself. -/
theorem ops0_4_v34_read (ρ : Fin 786432) (u : Fin 1) (l : Fin 128) :
    StableHlo.after hostOps0_4 W main_v34 (ValueIdx.ix3 ρ u l) = W main_arg3 (ValueIdx.ix2 ρ l) := by
  dsimp only [hostOps0_4]; open StableHlo in after_results_simp
  exact shapeCast_ab_a1b_apply _ _ ρ u l

end Stretches

/-! ## The gathered row numbers before the first kernel region

`V5 m c` is what core `c`'s buffers hold once the five leading stretches have run from the launch contents `m`. No
stretch writes an argument, so the arguments are read at `m`; chaining the integer composites gives the two
floor quotients and the array of gathered row numbers of `Cert.Spec`. -/

/-- A reference none of the first four stretches writes holds its launch contents before the fifth. -/
theorem V4_launch (c : Dev nD) (r : Ref sig .tc) (h0 : r ∉ hostOps0_W) (h1 : r ∉ hostOps0_1_W) (h2 : r ∉ hostOps0_2_W)
    (h3 : r ∉ hostOps0_3_W) : V4 m c r = m ((c : Thread nD τ).loc r) :=
  (V4_of m c r h3).trans <| (V3_of m c r h2).trans <| (V2_of m c r h1).trans <| V1_of m c r h0

/-- After the first stretch: the shifted feature indices. -/
theorem V1_v2 (c : Dev nD) :
    (V1 m c main_v2 : IVec Spec.S16384x32 32)
      = addi (m ((c : Thread nD τ).loc main_arg0)) (broadcastInDim Spec.S16384x32 ![0, 1] Spec.bcast_S1x32_S16384x32_0_1
          (broadcastInDim Spec.S1x32 ![1] Spec.bcast_S32_S1x32_1 (m ((c : Thread nD τ).loc main_arg2)))) :=
  ops0_v2 (V0 m c)

/-- After the second stretch: `floor(ply / 10)`. -/
theorem V2_v3 (c : Dev nD) :
    (V2 m c main_v3 : IVec Spec.S16384 32)
      = Spec.floorDiv (m ((c : Thread nD τ).loc main_arg1)) (constantI Spec.S_ 32 10#32) := by
  refine (ops0_1_v3 (V1 m c)).trans ?_
  rw [V1_of m c main_arg1 (by decide), show V1 m c main_c = _ from ops0_c (V0 m c)]

/-- After the third stretch: the gathered row numbers. -/
theorem V3_v8 (c : Dev nD) :
    V3 m c main_v8 = Spec.gidxOf (m ((c : Thread nD τ).loc main_arg0)) (m ((c : Thread nD τ).loc main_arg1))
      (m ((c : Thread nD τ).loc main_arg2)) := by
  refine (ops0_2_v8 (V2 m c)).trans ?_
  rw [V2_v3, V2_of m c main_v2 (by decide), V1_v2]
  rfl

/-- After the fourth stretch: `floor(ply / 1)`. -/
theorem V4_v9 (c : Dev nD) :
    (V4 m c main_v9 : IVec Spec.S16384 32)
      = Spec.floorDiv (m ((c : Thread nD τ).loc main_arg1)) (constantI Spec.S_ 32 1#32) := by
  refine (ops0_3_v9 (V3 m c)).trans ?_
  rw [V3_of m c main_arg1 (by decide), V2_of m c main_arg1 (by decide), V1_of m c main_arg1 (by decide),
    show V3 m c main_c_1 = _ from ops0_2_c1 (V2 m c)]

/-- The gathered row numbers, `floor(ply / 10) · 262144 + (feature_indices + feature_offsets)`. -/
theorem V5_gidx (c : Dev nD) :
    V5 m c main_v8 = Spec.gidxOf (m ((c : Thread nD τ).loc main_arg0)) (m ((c : Thread nD τ).loc main_arg1))
      (m ((c : Thread nD τ).loc main_arg2)) :=
  (V5_of m c main_v8 (by decide)).trans <| (V4_of m c main_v8 (by decide)).trans <| V3_v8 m c

/-! ## The float arrays before the first kernel region

The three selections are the gathers of `Cert.Spec` at the two quotients; with the unit axes in, they and the embedding
table are read at `(r, 0, l)`. -/

/-- Each sample's phase-bias row. -/
theorem V5_pa (c : Dev nD) :
    V5 m c main_v16 = Spec.paSelOf (m ((c : Thread nD τ).loc main_arg1)) (m ((c : Thread nD τ).loc main_arg4)) := by
  refine (ops0_4_v16 (V4 m c)).trans ?_
  rw [V4_launch m c main_arg4 (by decide) (by decide) (by decide) (by decide),
    V4_of m c main_v3 (by decide), V3_of m c main_v3 (by decide), V2_v3]
  rfl

/-- Each sample's head weights. -/
theorem V5_w (c : Dev nD) :
    V5 m c main_v23 = Spec.wSelOf (m ((c : Thread nD τ).loc main_arg1)) (m ((c : Thread nD τ).loc main_arg5)) := by
  refine (ops0_4_v23 (V4 m c)).trans ?_
  rw [V4_launch m c main_arg5 (by decide) (by decide) (by decide) (by decide), V4_v9]
  rfl

/-- Each sample's head bias. -/
theorem V5_b (c : Dev nD) :
    V5 m c main_v30 = Spec.bSelOf (m ((c : Thread nD τ).loc main_arg1)) (m ((c : Thread nD τ).loc main_arg6)) := by
  refine (ops0_4_v30 (V4 m c)).trans ?_
  rw [V4_launch m c main_arg6 (by decide) (by decide) (by decide) (by decide), V4_v9]
  rfl

/-- The phase-bias rows with the unit axis put in. -/
theorem V5_pa_apply (c : Dev nD) (R : Fin 16384) (l : Fin 128) :
    V5 m c main_v31 (ValueIdx.ix3 R 0 l)
      = Spec.paSelOf (m ((c : Thread nD τ).loc main_arg1)) (m ((c : Thread nD τ).loc main_arg4)) (ValueIdx.ix2 R l) :=
  (ops0_4_v31_read (V4 m c) R 0 l).trans (congrFun (V5_pa m c) _)

/-- The head weights with the unit axis put in. -/
theorem V5_w_apply (c : Dev nD) (R : Fin 16384) (l : Fin 128) :
    V5 m c main_v32 (ValueIdx.ix3 R 0 l)
      = Spec.wSelOf (m ((c : Thread nD τ).loc main_arg1)) (m ((c : Thread nD τ).loc main_arg5)) (ValueIdx.ix2 R l) :=
  (ops0_4_v32_read (V4 m c) R 0 l).trans (congrFun (V5_w m c) _)

/-- The head biases with the two unit axes put in. -/
theorem V5_b_apply (c : Dev nD) (R : Fin 16384) :
    V5 m c main_v33 (ValueIdx.ix3 R 0 0)
      = Spec.bSelOf (m ((c : Thread nD τ).loc main_arg1)) (m ((c : Thread nD τ).loc main_arg6)) (ValueIdx.ix1 R) :=
  (ops0_4_v33_read (V4 m c) R 0 0).trans (congrFun (V5_b m c) _)

/-- The embedding table with the unit axis put in. -/
theorem V5_emb_apply (c : Dev nD) (ρ : Fin 786432) (l : Fin 128) :
    V5 m c main_v34 (ValueIdx.ix3 ρ 0 l) = m ((c : Thread nD τ).loc main_arg3) (ValueIdx.ix2 ρ l) :=
  (ops0_4_v34_read (V4 m c) ρ 0 l).trans
    (congrFun (V4_launch m c main_arg3 (by decide) (by decide) (by decide) (by decide)) _)

/-! ## Tile 0

Tile 0 (samples `2048 · 0 + r`, `r < 2048`) is entered at `V5 m c`: the stretch `hostOps0_4` cuts the
tile's rows out of the four host arrays (offset `2048 · 0` on the leading axis) and flattens the rows of gathered
indices into the tile's prefetched table, entry `j` of which is therefore row `j / 32`, feature `j % 32`. -/

section Tile0

/-- The arrays written before the first region are, at tile 0's entry, what they were at `V5 m c`: no region and no
    stretch in between writes them. -/
theorem ent0_of (c : Dev nD) (r : Ref sig .tc) : V5 m c r = V5 m c r :=
  rfl

section Stretch
variable (W : Valuation τ sig (Elt F))

/-- The tile's table: the rows `[2048 · 0, 2048 · 0 + 2048)` of `main_v8`, flattened. -/
theorem tbl0_read (j : Fin 65536) :
    StableHlo.after hostOps0_4 W main_v36 (ValueIdx.ix1 j)
      = StableHlo.after hostOps0_4 W main_v8
          (ValueIdx.ix2 (⟨2048 * 0 + j.val / 32, by omega⟩ : Fin 16384) (⟨j.val % 32, by omega⟩ : Fin 32)) := by
  dsimp only [hostOps0_4]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 0 + j.val / 32 = _ + j.val / 32; omega)

/-- The tile's phase-bias rows: the rows `[2048 · 0, 2048 · 0 + 2048)` of `main_v31`. -/
theorem pa0_read (r : Fin 2048) (l : Fin 128) :
    StableHlo.after hostOps0_4 W main_v37 (ValueIdx.ix3 r 0 l)
      = StableHlo.after hostOps0_4 W main_v31 (ValueIdx.ix3 (⟨2048 * 0 + r.val, by omega⟩ : Fin 16384) 0 l) := by
  dsimp only [hostOps0_4]; open StableHlo in after_results_simp
  exact slice3_axis0_apply _ _ _ r 0 l _ (by show 2048 * 0 + r.val = _ + r.val; omega)

/-- The tile's head weights: the same rows of `main_v32`. -/
theorem w0_read (r : Fin 2048) (l : Fin 128) :
    StableHlo.after hostOps0_4 W main_v38 (ValueIdx.ix3 r 0 l)
      = StableHlo.after hostOps0_4 W main_v32 (ValueIdx.ix3 (⟨2048 * 0 + r.val, by omega⟩ : Fin 16384) 0 l) := by
  dsimp only [hostOps0_4]; open StableHlo in after_results_simp
  exact slice3_axis0_apply _ _ _ r 0 l _ (by show 2048 * 0 + r.val = _ + r.val; omega)

/-- The tile's head biases: the same rows of `main_v33`. -/
theorem b0_read (r : Fin 2048) :
    StableHlo.after hostOps0_4 W main_v39 (ValueIdx.ix3 r 0 0)
      = StableHlo.after hostOps0_4 W main_v33 (ValueIdx.ix3 (⟨2048 * 0 + r.val, by omega⟩ : Fin 16384) 0 0) := by
  dsimp only [hostOps0_4]; open StableHlo in after_results_simp
  exact slice3_axis0_apply _ _ _ r 0 0 _ (by show 2048 * 0 + r.val = _ + r.val; omega)

end Stretch

/-- Entry `j` of tile 0's prefetched table is the gathered row number of sample `2048 · 0 + j / 32`, feature `j % 32`. -/
theorem tbl0_apply (c : Dev nD) (j : Fin 65536) :
    V5 m c main_v36 (ValueIdx.ix1 j)
      = Spec.gidxOf (m ((c : Thread nD τ).loc main_arg0)) (m ((c : Thread nD τ).loc main_arg1))
          (m ((c : Thread nD τ).loc main_arg2))
          (ValueIdx.ix2 (⟨2048 * 0 + j.val / 32, by omega⟩ : Fin 16384) (⟨j.val % 32, by omega⟩ : Fin 32)) :=
  (tbl0_read (V4 m c) j).trans <| (congrFun (ent0_of m c main_v8) _).trans <| congrFun (V5_gidx m c) _

/-- The embedding table as tile 0 sees it: row `ρ`, lane `l` of the argument. -/
theorem emb0_apply (c : Dev nD) (ρ : Fin 786432) (l : Fin 128) :
    V5 m c main_v34 (ValueIdx.ix3 ρ 0 l) = m ((c : Thread nD τ).loc main_arg3) (ValueIdx.ix2 ρ l) :=
  (congrFun (ent0_of m c main_v34) _).trans <| V5_emb_apply m c ρ l

/-- Row `r` of tile 0's phase-bias operand is sample `2048 · 0 + r`'s phase-bias row. -/
theorem pa0_apply (c : Dev nD) (r : Fin 2048) (l : Fin 128) :
    V5 m c main_v37 (ValueIdx.ix3 r 0 l)
      = Spec.paSelOf (m ((c : Thread nD τ).loc main_arg1)) (m ((c : Thread nD τ).loc main_arg4))
          (ValueIdx.ix2 (⟨2048 * 0 + r.val, by omega⟩ : Fin 16384) l) :=
  (pa0_read (V4 m c) r l).trans <| (congrFun (ent0_of m c main_v31) _).trans <| V5_pa_apply m c _ l

/-- Row `r` of tile 0's head-weight operand is sample `2048 · 0 + r`'s head weights. -/
theorem w0_apply (c : Dev nD) (r : Fin 2048) (l : Fin 128) :
    V5 m c main_v38 (ValueIdx.ix3 r 0 l)
      = Spec.wSelOf (m ((c : Thread nD τ).loc main_arg1)) (m ((c : Thread nD τ).loc main_arg5))
          (ValueIdx.ix2 (⟨2048 * 0 + r.val, by omega⟩ : Fin 16384) l) :=
  (w0_read (V4 m c) r l).trans <| (congrFun (ent0_of m c main_v32) _).trans <| V5_w_apply m c _ l

/-- Entry `r` of tile 0's head-bias operand is sample `2048 · 0 + r`'s head bias. -/
theorem b0_apply (c : Dev nD) (r : Fin 2048) :
    V5 m c main_v39 (ValueIdx.ix3 r 0 0)
      = Spec.bSelOf (m ((c : Thread nD τ).loc main_arg1)) (m ((c : Thread nD τ).loc main_arg6))
          (ValueIdx.ix1 (⟨2048 * 0 + r.val, by omega⟩ : Fin 16384)) :=
  (b0_read (V4 m c) r).trans <| (congrFun (ent0_of m c main_v33) _).trans <| V5_b_apply m c _

end Tile0

end Cert.KernelIdeal.Hand
-- ==== Proof.TileLib.lean ====
/-
  Small facts shared by the eight tiles: indices built from equal coordinates are equal, and the launch contents read as
  what the kernel regions leave.
-/
import proofs.«402893_j78554951844377_2_alg».proof.Proof.Gen.KernelIdeal.Regions
import Idealize.ShloMosaic.Lib.ValueIdx

noncomputable section

namespace Cert.KernelIdeal.Hand

open Idealize.ShloMosaic Idealize.ShloMosaic.TcCoe
open Cert.KernelIdeal Cert.KernelIdeal.Gen

/-- Two rank-2 indices with the same coordinates are equal. -/
theorem ix2_congr {n0 n1 : ℕ} {a a' : Fin n0} {b b' : Fin n1} (ha : a.val = a'.val) (hb : b.val = b'.val) :
    ValueIdx.ix2 a b = ValueIdx.ix2 a' b' := by
  cases Fin.ext ha; cases Fin.ext hb; rfl

/-- Two rank-3 indices with the same leading coordinate (and the same two others) are equal. -/
theorem ix3_congr {n0 n1 n2 : ℕ} {a a' : Fin n0} (ha : a.val = a'.val) (u : Fin n1) (l : Fin n2) :
    ValueIdx.ix3 a u l = ValueIdx.ix3 a' u l := by
  cases Fin.ext ha; rfl

variable {F : FTy → Type} [FloatOps F]

/-- The launch contents read as a family of "what the kernel regions leave": every reference, at every item, holds what
    memory `m` held at launch. A tile's entry valuation can be stated at this family; that the host arrays the tile reads
    are the same at any family is not claimed here — it is what the lemmas reading those arrays prove, at every family. -/
abbrev outsL (m : (ℓ : Loc nD τ sig) → Buf (Elt F) ℓ) : Outs (F := F) :=
  fun _ r c => m ((c : Thread nD τ).loc r)

end Cert.KernelIdeal.Hand

end
-- ==== Proof.R0Ok.lean ====
/-
  Tile 0: the table the region reads, and the pipeline's side condition on it from the range fact.

  Region 0 is entered with the buffers at the valuation after the first five host stretches. Its prefetched table then
  holds, at flat position `32·i₀ + i₁`, the gathered row number of sample `2048·0 + i₀`, feature `i₁`. When every gathered
  row number is below 786432 (the range fact), every word of the table is, which is the side condition under which the
  pipeline is pinned at the table.
-/
import proofs.«402893_j78554951844377_2_alg».proof.Proof.Gen.KernelIdeal.Regions
import proofs.«402893_j78554951844377_2_alg».proof.Proof.Spec
import proofs.«402893_j78554951844377_2_alg».proof.Proof.R0Base
import proofs.«402893_j78554951844377_2_alg».proof.Proof.OkTables
import proofs.«402893_j78554951844377_2_alg».proof.Proof.KHost
import proofs.«402893_j78554951844377_2_alg».proof.Proof.TileLib
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]

/-- The buffers when region 0 is entered: the valuation after the first five host stretches. -/
abbrev V0in (m : (ℓ : Loc nD τ sig) → Buf (Elt F) ℓ) : (c : Dev nD) → (b : Ref sig .tc) → Buf (Elt F) ((c : Thread nD τ).loc b) :=
  fun c b => V5 m c b

variable (m : (ℓ : Loc nD τ sig) → Buf (Elt F) ℓ)

/-- The table word read at grid point `(i₀, i₁)` is the gathered row number of sample `2048·0 + i₀`, feature `i₁`: the
    word sits at flat position `32·i₀ + i₁`, whose quotient and remainder by 32 are `i₀` and `i₁`. -/
theorem tword0_V0in (c : Dev nD) (i : grid0.Coords) :
    tword0 (tbl0 (V0in m)) i
      = Spec.gidxOf (m ((c : Thread nD τ).loc main_arg0)) (m ((c : Thread nD τ).loc main_arg1)) (m ((c : Thread nD τ).loc main_arg2))
          (ValueIdx.ix2 (⟨2048 * 0 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V0in m 0 main_v36 (ValueIdx.ix1 ⟨32 * (i 0).val + (i 1).val, pos_lt0 i⟩) = _
  refine (tbl0_apply m 0 ⟨32 * (i 0).val + (i 1).val, pos_lt0 i⟩).trans ?_
  exact congrArg _ (ix2_congr (by show 2048 * 0 + (32 * (i 0).val + (i 1).val) / 32 = 2048 * 0 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok0_of_inRange (c : Dev nD)
    (hin : Spec.InRange (Spec.gidxOf (m ((c : Thread nD τ).loc main_arg0)) (m ((c : Thread nD τ).loc main_arg1)) (m ((c : Thread nD τ).loc main_arg2)))) :
    Ok0 (V0in m) :=
  ok0_of (tbl0 (V0in m)) fun i => by rw [tword0_V0in m c i]; exact hin _ _

end Cert.KernelIdeal.Hand

end
-- ==== Proof.R0Grid.lean ====
import proofs.«402893_j78554951844377_2_alg».proof.Proof.R0Run
import Idealize.ShloMosaic.Lib.Pipeline.Kit
import Mathlib.Data.Fin.VecNotation

noncomputable section

namespace Cert.KernelIdeal.Hand

open Cert.KernelIdeal Cert.KernelIdeal.Gen
open Idealize.ShloMosaic
open Idealize.ShloMosaic.Pipeline (Cfg Window)

variable {F : FTy → Type} [FloatOps F]

/-! # Tile 0: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride0_0 : grid0.stride 0 = 32 := by decide
/-- The feature coordinate changes at every point. -/
theorem stride0_1 : grid0.stride 1 = 1 := by decide

/-- The sample coordinate of point `t` is `t / 32`: the quotient is below 2048, so reducing it modulo the
    axis's bound changes nothing. -/
theorem coords0_val0 (t : Fin grid0.N) : ((grid0.coords t) 0).val = t.val / 32 := by
  have ht : t.val < 65536 := N_0 ▸ t.isLt
  show t.val / grid0.stride 0 % 2048 = t.val / 32
  rw [stride0_0]; omega

/-- The feature coordinate of point `t` is `t % 32`. -/
theorem coords0_val1 (t : Fin grid0.N) : ((grid0.coords t) 1).val = t.val % 32 := by
  show t.val / grid0.stride 1 % 32 = t.val % 32
  rw [stride0_1, Nat.div_one]

/-- The first condition holds exactly at feature 0: checked at each of the 32 values of the coordinate. -/
theorem cond0_0_iff (i : grid0.Coords) : cond0_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond0_1_iff (i : grid0.Coords) : cond0_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond0_0_first (t : Fin grid0.N) (h : t.val = 0) : cond0_0 (grid0.coords t) := by
  rw [cond0_0_iff, coords0_val1, h]

/-- No feature is both the first and the last. -/
theorem not_both0 (i : grid0.Coords) : cond0_0 i → cond0_1 i → False := by
  rw [cond0_0_iff, cond0_1_iff]; omega

/-- A sample number, made a 32-bit word and read back, is itself. -/
private theorem toNat_ofNat_sample (t : Fin grid0.N) : (BitVec.ofNat 32 ((grid0.coords t) 0).val).toNat = t.val / 32 := by
  have ht : t.val < 65536 := N_0 ▸ t.isLt
  rw [coords0_val0, BitVec.toNat_ofNat, Nat.mod_eq_of_lt (by omega)]

/-- Window 1's block at point `t` is the one of sample `t / 32`. -/
theorem index0_1 (a : (pcfg0 (F := F)).Adm) (t : Fin (cfg0 a).N) : ((cfg0 a).win 1).index t = ![t.val / 32, 0, 0] := by
  show (![(BitVec.ofNat 32 ((grid0.coords t) 0).val).toNat, (0#32).toNat, (0#32).toNat] : Fin 3 → ℕ) = _
  rw [toNat_ofNat_sample]; rfl
/-- Window 2's block at point `t` is the one of sample `t / 32`. -/
theorem index0_2 (a : (pcfg0 (F := F)).Adm) (t : Fin (cfg0 a).N) : ((cfg0 a).win 2).index t = ![t.val / 32, 0, 0] := by
  show (![(BitVec.ofNat 32 ((grid0.coords t) 0).val).toNat, (0#32).toNat, (0#32).toNat] : Fin 3 → ℕ) = _
  rw [toNat_ofNat_sample]; rfl
/-- Window 3's block at point `t` is the one of sample `t / 32`. -/
theorem index0_3 (a : (pcfg0 (F := F)).Adm) (t : Fin (cfg0 a).N) : ((cfg0 a).win 3).index t = ![t.val / 32, 0, 0] := by
  show (![(BitVec.ofNat 32 ((grid0.coords t) 0).val).toNat, (0#32).toNat, (0#32).toNat] : Fin 3 → ℕ) = _
  rw [toNat_ofNat_sample]; rfl
/-- The output window's block at point `t` is the one of sample `t / 32`. -/
theorem index0_4 (a : (pcfg0 (F := F)).Adm) (t : Fin (cfg0 a).N) : ((cfg0 a).win 4).index t = ![t.val / 32, 0, 0] := by
  show (![(BitVec.ofNat 32 ((grid0.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush0_4_iff (a : (pcfg0 (F := F)).Adm) (t : Fin (cfg0 a).N) : ((cfg0 a).win 4).flush t = true ↔ t.val % 32 = 31 := by
  have hN : (cfg0 a).N = 65536 := N_0
  have ht : t.val < 65536 := hN ▸ t.isLt
  have hout : ((cfg0 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index0_4, index0_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg0 a).N := Nat.lt_of_lt_of_eq (by omega : t.val + 1 < 65536) hN.symm
      refine Or.inr ⟨hlt, ?_⟩
      rw [index0_4, index0_4]
      have hne' : (t.val + 1) / 32 ≠ t.val / 32 := by omega
      exact (vec3_ne_iff _ _).mpr hne'

/-- At a sample's last feature the output block is written back. -/
theorem flush0_4 (a : (pcfg0 (F := F)).Adm) (t : Fin (cfg0 a).N) (h : cond0_1 (grid0.coords t)) : ((cfg0 a).win 4).flush t = true := by
  rw [flush0_4_iff, ← coords0_val1]; exact (cond0_1_iff _).mp h

/-- At any other feature the output block stays. -/
theorem noFlush0_4 (a : (pcfg0 (F := F)).Adm) (t : Fin (cfg0 a).N) (h : ¬cond0_1 (grid0.coords t)) : ((cfg0 a).win 4).flush t = false := by
  rw [← Bool.not_eq_true, flush0_4_iff, ← coords0_val1]; exact fun e => h ((cond0_1_iff _).mpr e)

end Cert.KernelIdeal.Hand

end
-- ==== Proof.R0Acc.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R0Base
import proofs.«402893_j78554951844377_2_alg».proof.Proof.R0Grid
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 0: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow0 (hO : Ok0 V) (c : Dev nD) (t : Fin (cfgM0 V hO).N) : Vec F S1x1x128 .f32 := iblk0 V hO c 0 t
abbrev xpa0 (hO : Ok0 V) (c : Dev nD) (t : Fin (cfgM0 V hO).N) : Vec F S1x1x128 .f32 := iblk0 V hO c 1 t
abbrev xw0 (hO : Ok0 V) (c : Dev nD) (t : Fin (cfgM0 V hO).N) : Vec F S1x1x128 .f32 := iblk0 V hO c 2 t
abbrev xb0 (hO : Ok0 V) (c : Dev nD) (t : Fin (cfgM0 V hO).N) : Vec F S1x1x1 .f32 := iblk0 V hO c 3 t

/-- THE ACCUMULATION: the scratch after the body at position `n`. -/
def accAt0 (hO : Ok0 V) (c : Dev nD) : (n : ℕ) → n < (cfgM0 V hO).N → Vec F S1x1x128 .f32
  | 0, hn => k0_pay2 (k0_pay1 (F := F)) (xrow0 V hO c ⟨0, hn⟩)
  | n + 1, hn =>
    if cond0_0 (grid0.coords ⟨n + 1, hn⟩) then k0_pay2 (k0_pay1 (F := F)) (xrow0 V hO c ⟨n + 1, hn⟩)
    else k0_pay2 (accAt0 hO c n (Nat.lt_of_succ_lt hn)) (xrow0 V hO c ⟨n + 1, hn⟩)

/-- At a sample's first feature the scratch restarts from zero. -/
theorem accAt0_A (hO : Ok0 V) (c : Dev nD) (t : Fin (cfgM0 V hO).N) (h0 : cond0_0 (grid0.coords t)) :
    accAt0 V hO c t.val t.isLt = k0_pay2 (k0_pay1 (F := F)) (xrow0 V hO c t) := by
  obtain ⟨n, hn⟩ := t
  cases n with
  | zero => rfl
  | succ n => exact if_pos h0

/-- Elsewhere it adds the row to what the point before left. -/
theorem accAt0_B (hO : Ok0 V) (c : Dev nD) (t : Fin (cfgM0 V hO).N) (h0 : ¬cond0_0 (grid0.coords t)) (hz : t.val ≠ 0) :
    accAt0 V hO c t.val t.isLt = k0_pay2 (accAt0 V hO c (t.val - 1) (by omega)) (xrow0 V hO c t) := by
  obtain ⟨n, hn⟩ := t
  cases n with
  | zero => exact absurd rfl hz
  | succ n => exact if_neg h0

/-- The sample's result as the body computes it at a point (read at the last feature). -/
def outAt0 (hO : Ok0 V) (c : Dev nD) (t : Fin (cfgM0 V hO).N) : Vec F S1x1x1 .f32 :=
  k0_pay3 (accAt0 V hO c t.val t.isLt) (xpa0 V hO c t) (xw0 V hO c t) (xb0 V hO c t)

/-- What rides along unread: the other scoped buffers, the generator register, the table. -/
def Rest0 (c : Dev nD) : sProp 𝕄 :=
  iprop(Pipeline.scopedRestBut (Ix := Unit) (Name := ℕ) (U := UR sig nD τ) (Lvl := ℕ) (Val := Elt F) spec0 c [cc0_scratch0]
    ∗ (∃ r, prngReg c r) ∗ Pipeline.prefHeld (Ix := Unit) (Name := ℕ) (U := UR sig nD τ) (Lvl := ℕ) pre0 c (fun _ => fullShare) (tbl0 V))

/-- The region invariant before position `n`: the scratch at anything before the first point, afterwards at what
    the point before left. -/
def PhiS0 (hO : Ok0 V) (c : Dev nD) : (n : ℕ) → n ≤ (cfgM0 V hO).N → sProp 𝕄
  | 0, _ => iprop((∃ d, owns (c : Thread nD τ) scM0 fullShare d) ∗ Rest0 V c)
  | n + 1, hn => iprop(owns (c : Thread nD τ) scM0 fullShare (accAt0 V hO c n hn) ∗ Rest0 V c)

theorem PhiS0_zero (hO : Ok0 V) (c : Dev nD) (n : ℕ) (h : n ≤ (cfgM0 V hO).N) (hz : n = 0) :
    PhiS0 V hO c n h = iprop((∃ d, owns (c : Thread nD τ) scM0 fullShare d) ∗ Rest0 V c) := by
  subst hz; rfl
theorem PhiS0_succ (hO : Ok0 V) (c : Dev nD) (n : ℕ) (hn : n < (cfgM0 V hO).N) :
    PhiS0 V hO c (n + 1) hn = iprop(owns (c : Thread nD τ) scM0 fullShare (accAt0 V hO c n hn) ∗ Rest0 V c) := rfl
theorem PhiS0_pos (hO : Ok0 V) (c : Dev nD) (n : ℕ) (h : n ≤ (cfgM0 V hO).N) (hz : n ≠ 0) :
    PhiS0 V hO c n h = iprop(owns (c : Thread nD τ) scM0 fullShare (accAt0 V hO c (n - 1) (by omega)) ∗ Rest0 V c) := by
  cases n with
  | zero => exact absurd rfl hz
  | succ n => rfl

/-- The proof data of the tile's pipeline on core `c`: the arrays as the region finds them; after the body each input's
    buffer at its block and the result's at `outAt0`; the invariant `PhiS0`; nothing owed; full shares. -/
def dat0 (hO : Ok0 V) (c : Dev nD) : Dat τ (Elt F) Unit ℕ (UR sig nD τ) ℕ (cfgM0 V hO) c where
  A w := V c (Pipeline.arrRef spec0 w)
  after w t := match w with
    | ⟨0, _⟩ => iblk0 V hO c 0 t
    | ⟨1, _⟩ => iblk0 V hO c 1 t
    | ⟨2, _⟩ => iblk0 V hO c 2 t
    | ⟨3, _⟩ => iblk0 V hO c 3 t
    | ⟨4, _⟩ => outAt0 V hO c t
  Φ t := PhiS0 V hO c t.val (Nat.le_of_lt_succ t.isLt)
  q _ := fullShare
  owed _ := 0

theorem A_eq0 (hO : Ok0 V) (c : Dev nD) (w : Fin (cfgM0 V hO).W) : (dat0 V hO c).A w = V c (Pipeline.arrRef spec0 w) := by
  dsimp only [dat0]
theorem PhiS0_castSucc (hO : Ok0 V) (c : Dev nD) (t : Fin (cfgM0 V hO).N) :
    (dat0 V hO c).Φ t.castSucc = PhiS0 V hO c t.val (Nat.le_of_lt t.isLt) := by
  dsimp only [dat0]; simp only [Fin.coe_castSucc]
theorem after0_0 (hO : Ok0 V) (c : Dev nD) (t : Fin (cfgM0 V hO).N) : (dat0 V hO c).after 0 t = iblk0 V hO c 0 t := by dsimp only [dat0]; try rfl
theorem after0_1 (hO : Ok0 V) (c : Dev nD) (t : Fin (cfgM0 V hO).N) : (dat0 V hO c).after 1 t = iblk0 V hO c 1 t := by dsimp only [dat0]; try rfl
theorem after0_2 (hO : Ok0 V) (c : Dev nD) (t : Fin (cfgM0 V hO).N) : (dat0 V hO c).after 2 t = iblk0 V hO c 2 t := by dsimp only [dat0]; try rfl
theorem after0_3 (hO : Ok0 V) (c : Dev nD) (t : Fin (cfgM0 V hO).N) : (dat0 V hO c).after 3 t = iblk0 V hO c 3 t := by dsimp only [dat0]; try rfl
theorem after0_4 (hO : Ok0 V) (c : Dev nD) (t : Fin (cfgM0 V hO).N) : (dat0 V hO c).after 4 t = outAt0 V hO c t := by dsimp only [dat0]; try rfl

theorem before0_0 (hO : Ok0 V) (c : Dev nD) (t : Fin (cfgM0 V hO).N) (d) : (dat0 V hO c).before 0 t d = iblk0 V hO c 0 t :=
  before0_0_of V hO (dat0 V hO c) (A_eq0 V hO c 0) (after0_0 V hO c) t d
theorem before0_1 (hO : Ok0 V) (c : Dev nD) (t : Fin (cfgM0 V hO).N) (d) : (dat0 V hO c).before 1 t d = iblk0 V hO c 1 t :=
  before0_1_of V hO (dat0 V hO c) (A_eq0 V hO c 1) (after0_1 V hO c) t d
theorem before0_2 (hO : Ok0 V) (c : Dev nD) (t : Fin (cfgM0 V hO).N) (d) : (dat0 V hO c).before 2 t d = iblk0 V hO c 2 t :=
  before0_2_of V hO (dat0 V hO c) (A_eq0 V hO c 2) (after0_2 V hO c) t d
theorem before0_3 (hO : Ok0 V) (c : Dev nD) (t : Fin (cfgM0 V hO).N) (d) : (dat0 V hO c).before 3 t d = iblk0 V hO c 3 t :=
  before0_3_of V hO (dat0 V hO c) (A_eq0 V hO c 3) (after0_3 V hO c) t d

/-- What the body is called with at point `t`, the windows one by one, -/
def bodyPre0 (hO : Ok0 V) (c : Dev nD) (t : Fin (cfgM0 V hO).N) : sProp 𝕄 :=
  iprop((dat0 V hO c).Φ t.castSucc ∗ (dat0 V hO c).owesAt () t.castSucc
    ∗ (∃ d, owns (c : Thread nD τ) (ms0_0 V hO t) fullShare ((dat0 V hO c).before 0 t d))
    ∗ (∃ d, owns (c : Thread nD τ) (ms0_1 V hO t) fullShare ((dat0 V hO c).before 1 t d))
    ∗ (∃ d, owns (c : Thread nD τ) (ms0_2 V hO t) fullShare ((dat0 V hO c).before 2 t d))
    ∗ (∃ d, owns (c : Thread nD τ) (ms0_3 V hO t) fullShare ((dat0 V hO c).before 3 t d))
    ∗ (∃ d, owns (c : Thread nD τ) (ms0_4 V hO t) fullShare ((dat0 V hO c).before 4 t d)))

/-- and what it returns. -/
def bodyPost0 (hO : Ok0 V) (c : Dev nD) (t : Fin (cfgM0 V hO).N) : sProp 𝕄 :=
  iprop((dat0 V hO c).Φ t.succ ∗ (dat0 V hO c).owesAt () t.succ
    ∗ (dat0 V hO c).leavesExact 0 t
    ∗ (dat0 V hO c).leavesExact 1 t
    ∗ (dat0 V hO c).leavesExact 2 t
    ∗ (dat0 V hO c).leavesExact 3 t
    ∗ (dat0 V hO c).leavesExact 4 t)

/-- The windows' idle flags at a point, stated at the pinned configuration. -/
theorem liveAtM0_0 (hO : Ok0 V) (t : Fin (cfgM0 V hO).N) : (cfgM0 V hO).idle 0 ((cfgM0 V hO).grid.coords t) = false := rfl
theorem liveAtM0_1 (hO : Ok0 V) (t : Fin (cfgM0 V hO).N) : (cfgM0 V hO).idle 1 ((cfgM0 V hO).grid.coords t) = false := rfl
theorem liveAtM0_2 (hO : Ok0 V) (t : Fin (cfgM0 V hO).N) : (cfgM0 V hO).idle 2 ((cfgM0 V hO).grid.coords t) = false := rfl
theorem liveAtM0_3 (hO : Ok0 V) (t : Fin (cfgM0 V hO).N) : (cfgM0 V hO).idle 3 ((cfgM0 V hO).grid.coords t) = false := rfl
theorem idleAtM0_4 (hO : Ok0 V) (t : Fin (cfgM0 V hO).N) (h : ¬cond0_1 (grid0.coords t)) :
    (cfgM0 V hO).idle 4 ((cfgM0 V hO).grid.coords t) = true := idleAt0_4 (adm0 V hO) (grid0.coords t) h
theorem liveAtM0_4 (hO : Ok0 V) (t : Fin (cfgM0 V hO).N) (h : cond0_1 (grid0.coords t)) :
    (cfgM0 V hO).idle 4 ((cfgM0 V hO).grid.coords t) = false := liveAt0_4 (adm0 V hO) (grid0.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body0 (hO : Ok0 V) (c : Dev nD) (t : Fin (cfgM0 V hO).N) :
    bodyPre0 V hO c t ⊢ wp frame (wpE (defs₀ (F := F)) Variants.none c none) Set.univ (bodyAt0 (adm0 V hO) t) (fun _ => bodyPost0 V hO c t) := by
  unfold bodyPre0 bodyPost0 bodyAt0
  simp only [before0_0, before0_1, before0_2, before0_3]
  rw [show (dat0 V hO c).owesAt () t.succ = (dat0 V hO c).owesAt () t.castSucc from rfl]
  rw [show (dat0 V hO c).Φ t.succ = PhiS0 V hO c (t.val + 1) t.isLt from rfl, PhiS0_succ]
  rw [show (dat0 V hO c).leavesExact 0 t = owns (c : Thread nD τ) (ms0_0 V hO t) fullShare ((dat0 V hO c).after 0 t) from by
    unfold Dat.leavesExact; rw [liveAtM0_0 V hO t]; try rfl]
  rw [after0_0]
  rw [show (dat0 V hO c).leavesExact 1 t = owns (c : Thread nD τ) (ms0_1 V hO t) fullShare ((dat0 V hO c).after 1 t) from by
    unfold Dat.leavesExact; rw [liveAtM0_1 V hO t]; try rfl]
  rw [after0_1]
  rw [show (dat0 V hO c).leavesExact 2 t = owns (c : Thread nD τ) (ms0_2 V hO t) fullShare ((dat0 V hO c).after 2 t) from by
    unfold Dat.leavesExact; rw [liveAtM0_2 V hO t]; try rfl]
  rw [after0_2]
  rw [show (dat0 V hO c).leavesExact 3 t = owns (c : Thread nD τ) (ms0_3 V hO t) fullShare ((dat0 V hO c).after 3 t) from by
    unfold Dat.leavesExact; rw [liveAtM0_3 V hO t]; try rfl]
  rw [after0_3]
  rw [PhiS0_castSucc]
  by_cases h0 : cond0_0 (grid0.coords t)
  · by_cases h1 : cond0_1 (grid0.coords t)
    · exact absurd h1 (fun h => not_both0 _ h0 h)
    · rw [Dat.leavesExact_idle (dat0 V hO c) 4 t (idleAtM0_4 V hO t h1) (noFlush0_4 (adm0 V hO) t h1)]
      rw [accAt0_A V hO c t h0]
      by_cases hz : t.val = 0
      · rw [PhiS0_zero V hO c _ _ hz]
        iintro ⟨⟨HS, HR⟩, Ho, ⟨%d0, H0⟩, ⟨%d1, H1⟩, ⟨%d2, H2⟩, ⟨%d3, H3⟩, ⟨%d4, H4⟩⟩
        iapply (run0_A c (grid0.coords t) _ _ _ _ _ _ _ _ _ _ _ _ _ _ h0 h1 (xrow0 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS0_pos V hO c _ _ hz]
        iintro ⟨⟨HS, HR⟩, Ho, ⟨%d0, H0⟩, ⟨%d1, H1⟩, ⟨%d2, H2⟩, ⟨%d3, H3⟩, ⟨%d4, H4⟩⟩
        iapply (run0_A c (grid0.coords t) _ _ _ _ _ _ _ _ _ _ _ _ _ _ h0 h1 (xrow0 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond0_0_first t hz)
    rw [PhiS0_pos V hO c _ _ hz, accAt0_B V hO c t h0 hz]
    by_cases h1 : cond0_1 (grid0.coords t)
    · rw [show (dat0 V hO c).leavesExact 4 t = owns (c : Thread nD τ) (ms0_4 V hO t) fullShare ((dat0 V hO c).after 4 t) from by
        unfold Dat.leavesExact; rw [liveAtM0_4 V hO t h1]; try rfl]
      rw [after0_4]
      unfold outAt0
      rw [accAt0_B V hO c t h0 hz]
      iintro ⟨⟨HS, HR⟩, Ho, ⟨%d0, H0⟩, ⟨%d1, H1⟩, ⟨%d2, H2⟩, ⟨%d3, H3⟩, ⟨%d4, H4⟩⟩
      iapply (run0_C c (grid0.coords t) _ _ _ _ _ _ _ _ _ _ _ _ _ _ h0 h1 (xrow0 V hO c t) (xpa0 V hO c t) (xw0 V hO c t) (xb0 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat0 V hO c) 4 t (idleAtM0_4 V hO t h1) (noFlush0_4 (adm0 V hO) t h1)]
      iintro ⟨⟨HS, HR⟩, Ho, ⟨%d0, H0⟩, ⟨%d1, H1⟩, ⟨%d2, H2⟩, ⟨%d3, H3⟩, ⟨%d4, H4⟩⟩
      iapply (run0_B c (grid0.coords t) _ _ _ _ _ _ _ _ _ _ _ _ _ _ h0 h1 (xrow0 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (hO : Ok0 V) (c : Dev nD) :
    BodyObligation (dat0 (F := F) V hO c) (defs₀ (F := F)) Variants.none () Set.univ := fun t => by
  rw [bigSep_W0, bigSep_W0]
  exact sound_body0 V hO c t

end Cert.KernelIdeal.Hand

end
-- ==== Proof.R0Val.lean ====
import proofs.«402893_j78554951844377_2_alg».proof.Proof.R0Acc
import proofs.«402893_j78554951844377_2_alg».proof.Proof.R0Grid
import proofs.«402893_j78554951844377_2_alg».proof.Proof.OkTables
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 0: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt0 (t : Fin grid0.N) : t.val / 32 < 2048 := by
  have ht : t.val < 65536 := N_0 ▸ t.isLt
  omega

/-- The last feature of sample `r` is a point of the grid. -/
theorem lastPt_lt0 (r : ℕ) (hr : r < 2048) : 32 * r + 31 < grid0.N := by rw [N_0]; omega

/-- Under the side condition every word the index map of window 0 reads names a row of the embedding table. -/
theorem tword0_lt (pf : pre0.Contents (Elt F)) (h : ok0 pf) (i : grid0.Coords) : (tword0 pf i).toNat < 786432 := by
  obtain ⟨hb, -⟩ := h i
  have h0 := hb 0
  rw [transform0_eq pf i] at h0
  have h0' : ((tword0 pf i).toNat + 1) * 1 ≤ 786432 := h0
  omega

/-- Window 0's block at point `t` is the row the table's word names. -/
theorem index0_0 (a : (pcfg0 (F := F)).Adm) (t : Fin (cfg0 a).N) :
    ((cfg0 a).win 0).index t = ![(tword0 a.1 (grid0.coords t)).toNat, 0, 0] :=
  transform0_eq a.1 (grid0.coords t)

/-- Lane `l` of window 0's block sits in the embedding table at (the named row, 0, l). -/
theorem emb0_0 (a : (pcfg0 (F := F)).Adm) (t : Fin (cfg0 a).N) (l : Fin 128) :
    (((cfg0 a).win 0).blk t).view.emb (ValueIdx.ix3 (0 : Fin 1) (0 : Fin 1) l)
      = ValueIdx.ix3 (⟨(tword0 a.1 (grid0.coords t)).toNat, tword0_lt a.1 a.2 (grid0.coords t)⟩ : Fin 786432) (0 : Fin 1) l := by
  funext d; apply Fin.ext
  match d with
  | ⟨0, _⟩ => show ((cfg0 a).win 0).index t (0 : Fin 3) * 1 + 1 * 0 = (tword0 a.1 (grid0.coords t)).toNat; rw [index0_0]; show (tword0 a.1 (grid0.coords t)).toNat * 1 + 1 * 0 = _; omega
  | ⟨1, _⟩ => show ((cfg0 a).win 0).index t (1 : Fin 3) * 1 + 1 * 0 = 0; rw [index0_0]; rfl
  | ⟨2, _⟩ => show ((cfg0 a).win 0).index t (2 : Fin 3) * 128 + 1 * l.val = l.val; rw [index0_0]; show 0 * 128 + 1 * l.val = l.val; omega

/-- Lane `l` of window 1's block sits in its array at (sample, 0, l). -/
theorem emb0_1 (a : (pcfg0 (F := F)).Adm) (t : Fin (cfg0 a).N) (l : Fin 128) :
    (((cfg0 a).win 1).blk t).view.emb (ValueIdx.ix3 (0 : Fin 1) (0 : Fin 1) l)
      = ValueIdx.ix3 (⟨t.val / 32, sample_lt0 t⟩ : Fin 2048) (0 : Fin 1) l := by
  funext d; apply Fin.ext
  match d with
  | ⟨0, _⟩ => show ((cfg0 a).win 1).index t (0 : Fin 3) * 1 + 1 * 0 = t.val / 32; rw [index0_1]; show t.val / 32 * 1 + 1 * 0 = _; omega
  | ⟨1, _⟩ => show ((cfg0 a).win 1).index t (1 : Fin 3) * 1 + 1 * 0 = 0; rw [index0_1]; rfl
  | ⟨2, _⟩ => show ((cfg0 a).win 1).index t (2 : Fin 3) * 128 + 1 * l.val = l.val; rw [index0_1]; show 0 * 128 + 1 * l.val = l.val; omega

/-- Lane `l` of window 2's block sits in its array at (sample, 0, l). -/
theorem emb0_2 (a : (pcfg0 (F := F)).Adm) (t : Fin (cfg0 a).N) (l : Fin 128) :
    (((cfg0 a).win 2).blk t).view.emb (ValueIdx.ix3 (0 : Fin 1) (0 : Fin 1) l)
      = ValueIdx.ix3 (⟨t.val / 32, sample_lt0 t⟩ : Fin 2048) (0 : Fin 1) l := by
  funext d; apply Fin.ext
  match d with
  | ⟨0, _⟩ => show ((cfg0 a).win 2).index t (0 : Fin 3) * 1 + 1 * 0 = t.val / 32; rw [index0_2]; show t.val / 32 * 1 + 1 * 0 = _; omega
  | ⟨1, _⟩ => show ((cfg0 a).win 2).index t (1 : Fin 3) * 1 + 1 * 0 = 0; rw [index0_2]; rfl
  | ⟨2, _⟩ => show ((cfg0 a).win 2).index t (2 : Fin 3) * 128 + 1 * l.val = l.val; rw [index0_2]; show 0 * 128 + 1 * l.val = l.val; omega

/-- The one element of window 3's block sits in its array at (sample, 0, 0). -/
theorem emb0_3 (a : (pcfg0 (F := F)).Adm) (t : Fin (cfg0 a).N) :
    (((cfg0 a).win 3).blk t).view.emb (ValueIdx.ix3 (0 : Fin 1) (0 : Fin 1) (0 : Fin 1))
      = ValueIdx.ix3 (⟨t.val / 32, sample_lt0 t⟩ : Fin 2048) (0 : Fin 1) (0 : Fin 1) := by
  funext d; apply Fin.ext
  match d with
  | ⟨0, _⟩ => show ((cfg0 a).win 3).index t (0 : Fin 3) * 1 + 1 * 0 = t.val / 32; rw [index0_3]; show t.val / 32 * 1 + 1 * 0 = _; omega
  | ⟨1, _⟩ => show ((cfg0 a).win 3).index t (1 : Fin 3) * 1 + 1 * 0 = 0; rw [index0_3]; rfl
  | ⟨2, _⟩ => show ((cfg0 a).win 3).index t (2 : Fin 3) * 1 + 1 * 0 = 0; rw [index0_3]; rfl

/-- The one element of the result window's block sits in the result array at (sample, 0, 0). -/
theorem emb0_4 (a : (pcfg0 (F := F)).Adm) (t : Fin (cfg0 a).N) :
    (((cfg0 a).win 4).blk t).view.emb (ValueIdx.ix3 (0 : Fin 1) (0 : Fin 1) (0 : Fin 1))
      = ValueIdx.ix3 (⟨t.val / 32, sample_lt0 t⟩ : Fin 2048) (0 : Fin 1) (0 : Fin 1) := by
  funext d; apply Fin.ext
  match d with
  | ⟨0, _⟩ => show ((cfg0 a).win 4).index t (0 : Fin 3) * 1 + 1 * 0 = t.val / 32; rw [index0_4]; show t.val / 32 * 1 + 1 * 0 = _; omega
  | ⟨1, _⟩ => show ((cfg0 a).win 4).index t (1 : Fin 3) * 1 + 1 * 0 = 0; rw [index0_4]; rfl
  | ⟨2, _⟩ => show ((cfg0 a).win 4).index t (2 : Fin 3) * 1 + 1 * 0 = 0; rw [index0_4]; rfl

section AtTable

variable (V : (c : Dev nD) → (b : Ref sig .tc) → Buf (Elt F) ((c : Thread nD τ).loc b))

/-! ## The input blocks at coordinates -/

/-- The row of the embedding table gathered at point `t`: the table's word there. -/
abbrev rho0 (t : Fin grid0.N) : ℕ := (tword0 (tbl0 V) (grid0.coords t)).toNat

/-- It is a row of the table, under the side condition. -/
theorem rho0_lt (hO : Ok0 V) (t : Fin grid0.N) : rho0 V t < 786432 := tword0_lt (tbl0 V) hO (grid0.coords t)

/-- Lane `l` of the gathered row at point `t` is the embedding table at (the named row, 0, l). -/
theorem xrow0_apply (hO : Ok0 V) (c : Dev nD) (t : Fin (cfgM0 V hO).N) (l : Fin 128) :
    xrow0 V hO c t (ValueIdx.ix3 (0 : Fin 1) (0 : Fin 1) l)
      = V c main_v34 (ValueIdx.ix3 (⟨rho0 V t, rho0_lt V hO t⟩ : Fin 786432) (0 : Fin 1) l) := by
  show V c main_v34 ((((cfgM0 V hO).win 0).blk t).view.emb (ValueIdx.ix3 (0 : Fin 1) (0 : Fin 1) l)) = _
  exact congrArg (V c main_v34) (emb0_0 (adm0 V hO) t l)

/-- Lane `l` of the phase-bias block at point `t` is its array at (sample, 0, l). -/
theorem xpa0_apply (hO : Ok0 V) (c : Dev nD) (t : Fin (cfgM0 V hO).N) (l : Fin 128) :
    xpa0 V hO c t (ValueIdx.ix3 (0 : Fin 1) (0 : Fin 1) l)
      = V c main_v37 (ValueIdx.ix3 (⟨t.val / 32, sample_lt0 t⟩ : Fin 2048) (0 : Fin 1) l) := by
  show V c main_v37 ((((cfgM0 V hO).win 1).blk t).view.emb (ValueIdx.ix3 (0 : Fin 1) (0 : Fin 1) l)) = _
  exact congrArg (V c main_v37) (emb0_1 (adm0 V hO) t l)

/-- Lane `l` of the head-weight block at point `t` is its array at (sample, 0, l). -/
theorem xw0_apply (hO : Ok0 V) (c : Dev nD) (t : Fin (cfgM0 V hO).N) (l : Fin 128) :
    xw0 V hO c t (ValueIdx.ix3 (0 : Fin 1) (0 : Fin 1) l)
      = V c main_v38 (ValueIdx.ix3 (⟨t.val / 32, sample_lt0 t⟩ : Fin 2048) (0 : Fin 1) l) := by
  show V c main_v38 ((((cfgM0 V hO).win 2).blk t).view.emb (ValueIdx.ix3 (0 : Fin 1) (0 : Fin 1) l)) = _
  exact congrArg (V c main_v38) (emb0_2 (adm0 V hO) t l)

/-- The head-bias block at point `t` is its array at (sample, 0, 0). -/
theorem xb0_apply (hO : Ok0 V) (c : Dev nD) (t : Fin (cfgM0 V hO).N) :
    xb0 V hO c t (ValueIdx.ix3 (0 : Fin 1) (0 : Fin 1) (0 : Fin 1))
      = V c main_v39 (ValueIdx.ix3 (⟨t.val / 32, sample_lt0 t⟩ : Fin 2048) (0 : Fin 1) (0 : Fin 1)) := by
  show V c main_v39 ((((cfgM0 V hO).win 3).blk t).view.emb (ValueIdx.ix3 (0 : Fin 1) (0 : Fin 1) (0 : Fin 1))) = _
  exact congrArg (V c main_v39) (emb0_3 (adm0 V hO) t)

/-! ## The arrays after the run -/

/-- An input's array is never written: it ends as the region found it. -/
theorem arrAt0_in (hO : Ok0 V) (c : Dev nD) (w : Fin 5) (hw : w ≠ 4) :
    (dat0 V hO c).arrAt w (cfgM0 V hO).N = V c (Pipeline.arrRef spec0 w) := by
  have hin : ((cfgM0 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat0 V hO c).arrAt_in w hin _).trans (A_eq0 V hO c w)

/-- THE RESULT ARRAY of the tile: row `r` holds what the body left in the result block at sample `r`'s last feature. -/
def tileRes0 (hO : Ok0 V) (c : Dev nD) : Buf (Elt F) ((c : Thread nD τ).loc main_v40) :=
  fun (i : S2048x1x1.Idx) => outAt0 V hO c ⟨32 * (i 0).val + 31, lastPt_lt0 (i 0).val (i 0).isLt⟩ (ValueIdx.ix3 (0 : Fin 1) (0 : Fin 1) (0 : Fin 1))

theorem tileRes0_apply (hO : Ok0 V) (c : Dev nD) (r : Fin 2048) :
    tileRes0 V hO c (ValueIdx.ix3 r (0 : Fin 1) (0 : Fin 1))
      = outAt0 V hO c ⟨32 * r.val + 31, lastPt_lt0 r.val r.isLt⟩ (ValueIdx.ix3 (0 : Fin 1) (0 : Fin 1) (0 : Fin 1)) := rfl

/-- The result block read at two names of one point. -/
theorem outAt0_congr (hO : Ok0 V) (c : Dev nD) {t t' : Fin (cfgM0 V hO).N} (h : t.val = t'.val) (j : S1x1x1.Idx) :
    outAt0 V hO c t j = outAt0 V hO c t' j := by
  obtain rfl : t = t' := Fin.ext h
  rfl

/-- What a write-back writes is the written row of `tileRes0`: the point is its sample's last feature `32 (t / 32) + 31`,
    and the block's one element is the row's. -/
theorem flushed0_4_eq (hO : Ok0 V) (c : Dev nD) (t : Fin (cfgM0 V hO).N) (hf : ((cfgM0 V hO).win 4).flush t = true) :
    (dat0 V hO c).flushed 4 t = (((cfgM0 V hO).win 4).blk t).view.read (Elt F) (tileRes0 V hO c) := by
  have h31 : t.val % 32 = 31 := (flush0_4_iff (adm0 V hO) t).mp hf
  show ((cfgM0 V hO).win 4).cut (grid0.coords t) ((dat0 V hO c).after 4 t) = _
  rw [after0_4]
  funext j
  have hj : (((cfgM0 V hO).win 4).xinj (grid0.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM0 V hO).win 4).blk t).view.emb j : S2048x1x1.Idx) (0 : Fin 3)).val + 31 := by
    have h : (j (0 : Fin 3)).val < 1 := (j (0 : Fin 3)).isLt
    show t.val = 32 * (((cfgM0 V hO).win 4).index t (0 : Fin 3) * 1 + 1 * (j (0 : Fin 3)).val) + 31
    rw [index0_4]
    show t.val = 32 * (t.val / 32 * 1 + 1 * (j (0 : Fin 3)).val) + 31
    omega
  show outAt0 V hO c t (((cfgM0 V hO).win 4).xinj (grid0.coords t) j) = tileRes0 V hO c ((((cfgM0 V hO).win 4).blk t).view.emb j)
  rw [hj]
  exact outAt0_congr V hO c hv _

/-- Every row of the result array is some write-back's block: row `r` is the block of point `32 r + 31`. -/
theorem cover0_4 (hO : Ok0 V) (i : S2048x1x1.Idx) :
    ∃ t : Fin (cfgM0 V hO).N, ((cfgM0 V hO).win 4).flush t = true ∧ i ∈ (((cfgM0 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt0 _ h0⟩, (flush0_4_iff (adm0 V hO) _).mpr (by show (32 * (i 0).val + 31) % 32 = 31; omega), ?_⟩
  have he : (((cfgM0 V hO).win 4).blk ⟨32 * (i 0).val + 31, lastPt_lt0 _ h0⟩).view.emb (ValueIdx.ix3 (0 : Fin 1) (0 : Fin 1) (0 : Fin 1)) = i := by
    refine (emb0_4 (adm0 V hO) ⟨32 * (i 0).val + 31, lastPt_lt0 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM0 V hO).win 4).blk ⟨32 * (i 0).val + 31, lastPt_lt0 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes0`. -/
theorem arrAt0_4 (hO : Ok0 V) (c : Dev nD) : (dat0 V hO c).arrAt 4 (cfgM0 V hO).N = tileRes0 V hO c :=
  (dat0 V hO c).arrAt_eq_of_cover 4 (tileRes0 V hO c) (fun t hf => flushed0_4_eq V hO c t hf) (fun i => cover0_4 V hO i)

end AtTable

end Cert.KernelIdeal.Hand

end
-- ==== Proof.Family.lean ====
/-
  The two families the several-region records are stated over, assembled from their eight components.

  A region's record is typed over the whole family of admissible table contents and the whole family of proof data,
  indexed by the pipeline's number. Each family is a match on the number's literal, as the program's own family of
  pipelines is, so that at a numeral the family IS its component by unfolding: the pinned configuration of pipeline K at
  the assembled contents is the printed configuration at the K-th contents, and the K-th proof data keep their fields.
-/
import proofs.«402893_j78554951844377_2_alg».proof.Proof.Gen.KernelIdeal.Launch
import Idealize.ShloMosaic.Lib.Pipeline.Regions

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

/-- The family of admissible table contents with the given eight components. -/
def admOf (a0 : (pcfg0 (F := F)).Adm) (a1 : (pcfg1 (F := F)).Adm) (a2 : (pcfg2 (F := F)).Adm) (a3 : (pcfg3 (F := F)).Adm) (a4 : (pcfg4 (F := F)).Adm) (a5 : (pcfg5 (F := F)).Adm) (a6 : (pcfg6 (F := F)).Adm) (a7 : (pcfg7 (F := F)).Adm) :
    (p : Fin 8) → (pcfgs (F := F) p).Adm
  | ⟨0, _⟩ => a0
  | ⟨1, _⟩ => a1
  | ⟨2, _⟩ => a2
  | ⟨3, _⟩ => a3
  | ⟨4, _⟩ => a4
  | ⟨5, _⟩ => a5
  | ⟨6, _⟩ => a6
  | ⟨7, _⟩ => a7

/-- The family of proof data with the given eight components, each over its printed configuration at its contents. -/
def pdatsOf (a0 : (pcfg0 (F := F)).Adm) (a1 : (pcfg1 (F := F)).Adm) (a2 : (pcfg2 (F := F)).Adm) (a3 : (pcfg3 (F := F)).Adm) (a4 : (pcfg4 (F := F)).Adm) (a5 : (pcfg5 (F := F)).Adm) (a6 : (pcfg6 (F := F)).Adm) (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    (p : Fin 8) → (c : Dev nD) → Dat τ (Elt F) Unit ℕ (UR sig nD τ) ℕ (Pipeline.pin (pcfgs (F := F)) (admOf a0 a1 a2 a3 a4 a5 a6 a7) p) c
  | ⟨0, _⟩ => d0
  | ⟨1, _⟩ => d1
  | ⟨2, _⟩ => d2
  | ⟨3, _⟩ => d3
  | ⟨4, _⟩ => d4
  | ⟨5, _⟩ => d5
  | ⟨6, _⟩ => d6
  | ⟨7, _⟩ => d7

/-! ## At a numeral a family is its component -/

section
variable (a0 : (pcfg0 (F := F)).Adm) (a1 : (pcfg1 (F := F)).Adm) (a2 : (pcfg2 (F := F)).Adm) (a3 : (pcfg3 (F := F)).Adm) (a4 : (pcfg4 (F := F)).Adm) (a5 : (pcfg5 (F := F)).Adm) (a6 : (pcfg6 (F := F)).Adm) (a7 : (pcfg7 (F := F)).Adm)

theorem admOf_0 : admOf a0 a1 a2 a3 a4 a5 a6 a7 0 = a0 := rfl
theorem admOf_1 : admOf a0 a1 a2 a3 a4 a5 a6 a7 1 = a1 := rfl
theorem admOf_2 : admOf a0 a1 a2 a3 a4 a5 a6 a7 2 = a2 := rfl
theorem admOf_3 : admOf a0 a1 a2 a3 a4 a5 a6 a7 3 = a3 := rfl
theorem admOf_4 : admOf a0 a1 a2 a3 a4 a5 a6 a7 4 = a4 := rfl
theorem admOf_5 : admOf a0 a1 a2 a3 a4 a5 a6 a7 5 = a5 := rfl
theorem admOf_6 : admOf a0 a1 a2 a3 a4 a5 a6 a7 6 = a6 := rfl
theorem admOf_7 : admOf a0 a1 a2 a3 a4 a5 a6 a7 7 = a7 := rfl

variable (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c)

theorem pdatsOf_0 (c : Dev nD) : pdatsOf a0 a1 a2 a3 a4 a5 a6 a7 d0 d1 d2 d3 d4 d5 d6 d7 0 c = d0 c := rfl
theorem pdatsOf_1 (c : Dev nD) : pdatsOf a0 a1 a2 a3 a4 a5 a6 a7 d0 d1 d2 d3 d4 d5 d6 d7 1 c = d1 c := rfl
theorem pdatsOf_2 (c : Dev nD) : pdatsOf a0 a1 a2 a3 a4 a5 a6 a7 d0 d1 d2 d3 d4 d5 d6 d7 2 c = d2 c := rfl
theorem pdatsOf_3 (c : Dev nD) : pdatsOf a0 a1 a2 a3 a4 a5 a6 a7 d0 d1 d2 d3 d4 d5 d6 d7 3 c = d3 c := rfl
theorem pdatsOf_4 (c : Dev nD) : pdatsOf a0 a1 a2 a3 a4 a5 a6 a7 d0 d1 d2 d3 d4 d5 d6 d7 4 c = d4 c := rfl
theorem pdatsOf_5 (c : Dev nD) : pdatsOf a0 a1 a2 a3 a4 a5 a6 a7 d0 d1 d2 d3 d4 d5 d6 d7 5 c = d5 c := rfl
theorem pdatsOf_6 (c : Dev nD) : pdatsOf a0 a1 a2 a3 a4 a5 a6 a7 d0 d1 d2 d3 d4 d5 d6 d7 6 c = d6 c := rfl
theorem pdatsOf_7 (c : Dev nD) : pdatsOf a0 a1 a2 a3 a4 a5 a6 a7 d0 d1 d2 d3 d4 d5 d6 d7 7 c = d7 c := rfl

/-- The components' fields are the family's: the entry contents of pipeline 0's arrays, for one. -/
example (c : Dev nD) : (pdatsOf a0 a1 a2 a3 a4 a5 a6 a7 d0 d1 d2 d3 d4 d5 d6 d7 0 c).A = (d0 c).A := rfl

end

end Cert.KernelIdeal.Hand

end
-- ==== Proof.Glue.lean ====
/-
  The launch of the several-region program, with the choices that do not depend on what the regions compute made once.

  The run's resource algebra is the machine's with one copy of the rounds algebra as the user component, no level
  indices, no launch dues and no ghost resources per core. The launch element is the initial rounds state over the
  pinned pipelines' staging cells and launch tokens; owning it is owning its embedding, and the per-core ghost resources
  are all `emp`. Between two items every core carries, beside the held buffers, its generator register at some value and
  a tally that owes nothing at some wait set: the launch deals exactly that (each core keeps its register and its zero
  tally, and drops the rest), every host stretch and every region hands it on, and at the end it still owes nothing.
  GIVEN the eight regions' records against that rest state, the conditional run and the conditional frame follow for any
  admissible contents of the tables, any proof data and any contents the regions leave.
-/
import proofs.«402893_j78554951844377_2_alg».proof.Proof.RunCond

-- the launch kit's enumerations over the program's references recurse past the default depth
set_option maxRecDepth 1396

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

/-- What every core carries between two items beside the held buffers: its generator register at some value, and a
    tally that owes nothing at some wait set. -/
abbrev Rr (c : Dev nD) : sProp 𝕄 :=
  iprop((∃ r, prngReg c r) ∗ ∃ W, owes (c : Thread nD τ) (0 : CellTallies nD τ sig Unit) W)

/-- The launch element — the initial rounds state over the pinned pipelines' cells and launch tokens — is owned through
    its embedding, beside per-core ghost resources that are all `emp`. -/
theorem glue_hu0 (a : (p : Fin 8) → (pcfgs (F := F) p).Adm) :
    (ownU (initOf (Pipeline.cells (Pipeline.pin (pcfgs (F := F)) a) (cellOf_inj a)) (Pipeline.launchToks (Pipeline.pin (pcfgs (F := F)) a) (cellOf_inj a))) : sProp 𝕄)
      ⊢ |={Set.univ}=> iprop(BI.own ((emb₁ : Emb (UR sig nD τ) 𝕄) (initOf (Pipeline.cells (Pipeline.pin (pcfgs (F := F)) a) (cellOf_inj a)) (Pipeline.launchToks (Pipeline.pin (pcfgs (F := F)) a) (cellOf_inj a))))
        ∗ bigSep Finset.univ (fun _ : Dev nD => (BI.emp : sProp 𝕄))) := by
  iintro Hu; imodintro
  isplitl [Hu]
  · iapply (show (ownU (initOf (Pipeline.cells (Pipeline.pin (pcfgs (F := F)) a) (cellOf_inj a)) (Pipeline.launchToks (Pipeline.pin (pcfgs (F := F)) a) (cellOf_inj a))) : sProp 𝕄)
        ⊢ BI.own (emb₁ (initOf (Pipeline.cells (Pipeline.pin (pcfgs (F := F)) a) (cellOf_inj a)) (Pipeline.launchToks (Pipeline.pin (pcfgs (F := F)) a) (cellOf_inj a)))) from .rfl)
    iexact Hu
  iapply (show (BI.emp : sProp 𝕄) ⊢ bigSep Finset.univ (fun _ : Dev nD => (BI.emp : sProp 𝕄)) from by rw [BI.bigSep_emp_const])
  iempintro

/-- The launch makes the rest state on every core: each core keeps its register and its zero tally at the empty wait
    set, and drops what else the launch deals it. -/
theorem glue_hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
        ∗ levAts (fun _ : GSem nD τ sig => (∅ : Finset Unit)) (fun _ _ => (0 : ℕ)))
      ⊢ (|={Set.univ}=> bigSep Finset.univ (fun c : Dev nD => Rr (F := F) c) : sProp 𝕄) := by
  refine Pipeline.initEach _ _ fun c => ?_
  iintro ⟨⟨-, HO, -, Hp, -⟩, -⟩
  imodintro
  isplitl [Hp]; · iexists _; iexact Hp
  iexists ∅; iexact HO

/-- At the end the rest state owes nothing. -/
theorem glue_hE8 (c : Dev nD) :
    Rr (F := F) c ⊢ (iprop(∃ W, owes (c : Thread nD τ) (0 : CellTallies nD τ sig Unit) W) : sProp 𝕄) := by
  iintro ⟨-, H⟩
  iexact H

variable (m : (ℓ : Loc nD τ sig) → Buf (Elt F) ℓ)

-- the launch theorem's implicit arguments are found by unifying its hypotheses with these, which takes unfolding plain
-- definitions in a metavariable's type
set_option backward.isDefEq.respectTransparency.types false in
/-- THE RUN FROM THE REGIONS' RECORDS. Given, per region, a segment record entered from the thread state before it and
    left at the one after it, each beside the rest state `Rr`: every weakly fair execution of @main from memory `m` with
    zero counters terminates, and every final memory holds, on every core and in every unscoped buffer, the last
    valuation. -/
theorem run_of_regs (ρ : Dev nD → PrngReg) (outs : Outs (F := F)) (a : (p : Fin 8) → (pcfgs (F := F) p).Adm)
    (pdats : (p : Fin 8) → (c : Dev nD) → Dat τ (Elt F) Unit ℕ (UR sig nD τ) ℕ (Pipeline.pin (pcfgs (F := F)) a p) c)
    (R0 : RegionSeg (pcfgs (F := F)) a pdats () defs₀ Variants.none (fun _ => ∅) (fun _ _ => 0) 0)
    (hpre0 : ∀ c : Dev nD, iprop(StableHlo.held (c : Thread nD τ) (Pipeline.ucRefs τ sig) (V5 m c) ∗ Rr c) ⊢ R0.pre c)
    (hpost0 : ∀ c : Dev nD, R0.post c ⊢ iprop(StableHlo.held (c : Thread nD τ) (Pipeline.ucRefs τ sig) (V6 m outs c) ∗ Rr c))
    (R1 : RegionSeg (pcfgs (F := F)) a pdats () defs₀ Variants.none (fun _ => ∅) (fun _ _ => 0) 1)
    (hpre1 : ∀ c : Dev nD, iprop(StableHlo.held (c : Thread nD τ) (Pipeline.ucRefs τ sig) (V7 m outs c) ∗ Rr c) ⊢ R1.pre c)
    (hpost1 : ∀ c : Dev nD, R1.post c ⊢ iprop(StableHlo.held (c : Thread nD τ) (Pipeline.ucRefs τ sig) (V8 m outs c) ∗ Rr c))
    (R2 : RegionSeg (pcfgs (F := F)) a pdats () defs₀ Variants.none (fun _ => ∅) (fun _ _ => 0) 2)
    (hpre2 : ∀ c : Dev nD, iprop(StableHlo.held (c : Thread nD τ) (Pipeline.ucRefs τ sig) (V9 m outs c) ∗ Rr c) ⊢ R2.pre c)
    (hpost2 : ∀ c : Dev nD, R2.post c ⊢ iprop(StableHlo.held (c : Thread nD τ) (Pipeline.ucRefs τ sig) (V10 m outs c) ∗ Rr c))
    (R3 : RegionSeg (pcfgs (F := F)) a pdats () defs₀ Variants.none (fun _ => ∅) (fun _ _ => 0) 3)
    (hpre3 : ∀ c : Dev nD, iprop(StableHlo.held (c : Thread nD τ) (Pipeline.ucRefs τ sig) (V11 m outs c) ∗ Rr c) ⊢ R3.pre c)
    (hpost3 : ∀ c : Dev nD, R3.post c ⊢ iprop(StableHlo.held (c : Thread nD τ) (Pipeline.ucRefs τ sig) (V12 m outs c) ∗ Rr c))
    (R4 : RegionSeg (pcfgs (F := F)) a pdats () defs₀ Variants.none (fun _ => ∅) (fun _ _ => 0) 4)
    (hpre4 : ∀ c : Dev nD, iprop(StableHlo.held (c : Thread nD τ) (Pipeline.ucRefs τ sig) (V13 m outs c) ∗ Rr c) ⊢ R4.pre c)
    (hpost4 : ∀ c : Dev nD, R4.post c ⊢ iprop(StableHlo.held (c : Thread nD τ) (Pipeline.ucRefs τ sig) (V14 m outs c) ∗ Rr c))
    (R5 : RegionSeg (pcfgs (F := F)) a pdats () defs₀ Variants.none (fun _ => ∅) (fun _ _ => 0) 5)
    (hpre5 : ∀ c : Dev nD, iprop(StableHlo.held (c : Thread nD τ) (Pipeline.ucRefs τ sig) (V15 m outs c) ∗ Rr c) ⊢ R5.pre c)
    (hpost5 : ∀ c : Dev nD, R5.post c ⊢ iprop(StableHlo.held (c : Thread nD τ) (Pipeline.ucRefs τ sig) (V16 m outs c) ∗ Rr c))
    (R6 : RegionSeg (pcfgs (F := F)) a pdats () defs₀ Variants.none (fun _ => ∅) (fun _ _ => 0) 6)
    (hpre6 : ∀ c : Dev nD, iprop(StableHlo.held (c : Thread nD τ) (Pipeline.ucRefs τ sig) (V17 m outs c) ∗ Rr c) ⊢ R6.pre c)
    (hpost6 : ∀ c : Dev nD, R6.post c ⊢ iprop(StableHlo.held (c : Thread nD τ) (Pipeline.ucRefs τ sig) (V18 m outs c) ∗ Rr c))
    (R7 : RegionSeg (pcfgs (F := F)) a pdats () defs₀ Variants.none (fun _ => ∅) (fun _ _ => 0) 7)
    (hpre7 : ∀ c : Dev nD, iprop(StableHlo.held (c : Thread nD τ) (Pipeline.ucRefs τ sig) (V19 m outs c) ∗ Rr c) ⊢ R7.pre c)
    (hpost7 : ∀ c : Dev nD, R7.post c ⊢ iprop(StableHlo.held (c : Thread nD τ) (Pipeline.ucRefs τ sig) (V20 m outs c) ∗ Rr c)) :
    θ_run defs (onTc (τ := τ) (main (F := F))) ⟨m, fun _ => 0, ρ⟩ (fun r => ∀ c : Dev nD, ∀ b ∈ Pipeline.ucRefs τ sig,
      r.2.mem (((c.tc : Thread nD τ)).1, b) = V21 m outs c b) :=
  run_cond m emb₁ () Variants.none (fun _ => ∅) (fun _ _ => 0) (fun _ _ => rfl) ρ outs a pdats 0 (fun _ => BI.emp)
    (initOf (Pipeline.cells (Pipeline.pin (pcfgs (F := F)) a) (cellOf_inj a)) (Pipeline.launchToks (Pipeline.pin (pcfgs (F := F)) a) (cellOf_inj a)))
    (glue_hu0 a) (fun _ c => Rr c) (glue_hE0 ρ) glue_hE8 R0 hpre0 hpost0 R1 hpre1 hpost1 R2 hpre2 hpost2 R3 hpre3 hpost3 R4 hpre4 hpost4 R5 hpre5 hpost5 R6 hpre6 hpost6 R7 hpre7 hpost7

set_option backward.isDefEq.respectTransparency.types false in
/-- THE FRAME FROM THE REGIONS' RECORDS. Under the same hypotheses every final memory holds each of the seven argument
    arrays as launched. -/
theorem frame_of_regs (ρ : Dev nD → PrngReg) (outs : Outs (F := F)) (a : (p : Fin 8) → (pcfgs (F := F) p).Adm)
    (pdats : (p : Fin 8) → (c : Dev nD) → Dat τ (Elt F) Unit ℕ (UR sig nD τ) ℕ (Pipeline.pin (pcfgs (F := F)) a p) c)
    (R0 : RegionSeg (pcfgs (F := F)) a pdats () defs₀ Variants.none (fun _ => ∅) (fun _ _ => 0) 0)
    (hpre0 : ∀ c : Dev nD, iprop(StableHlo.held (c : Thread nD τ) (Pipeline.ucRefs τ sig) (V5 m c) ∗ Rr c) ⊢ R0.pre c)
    (hpost0 : ∀ c : Dev nD, R0.post c ⊢ iprop(StableHlo.held (c : Thread nD τ) (Pipeline.ucRefs τ sig) (V6 m outs c) ∗ Rr c))
    (R1 : RegionSeg (pcfgs (F := F)) a pdats () defs₀ Variants.none (fun _ => ∅) (fun _ _ => 0) 1)
    (hpre1 : ∀ c : Dev nD, iprop(StableHlo.held (c : Thread nD τ) (Pipeline.ucRefs τ sig) (V7 m outs c) ∗ Rr c) ⊢ R1.pre c)
    (hpost1 : ∀ c : Dev nD, R1.post c ⊢ iprop(StableHlo.held (c : Thread nD τ) (Pipeline.ucRefs τ sig) (V8 m outs c) ∗ Rr c))
    (R2 : RegionSeg (pcfgs (F := F)) a pdats () defs₀ Variants.none (fun _ => ∅) (fun _ _ => 0) 2)
    (hpre2 : ∀ c : Dev nD, iprop(StableHlo.held (c : Thread nD τ) (Pipeline.ucRefs τ sig) (V9 m outs c) ∗ Rr c) ⊢ R2.pre c)
    (hpost2 : ∀ c : Dev nD, R2.post c ⊢ iprop(StableHlo.held (c : Thread nD τ) (Pipeline.ucRefs τ sig) (V10 m outs c) ∗ Rr c))
    (R3 : RegionSeg (pcfgs (F := F)) a pdats () defs₀ Variants.none (fun _ => ∅) (fun _ _ => 0) 3)
    (hpre3 : ∀ c : Dev nD, iprop(StableHlo.held (c : Thread nD τ) (Pipeline.ucRefs τ sig) (V11 m outs c) ∗ Rr c) ⊢ R3.pre c)
    (hpost3 : ∀ c : Dev nD, R3.post c ⊢ iprop(StableHlo.held (c : Thread nD τ) (Pipeline.ucRefs τ sig) (V12 m outs c) ∗ Rr c))
    (R4 : RegionSeg (pcfgs (F := F)) a pdats () defs₀ Variants.none (fun _ => ∅) (fun _ _ => 0) 4)
    (hpre4 : ∀ c : Dev nD, iprop(StableHlo.held (c : Thread nD τ) (Pipeline.ucRefs τ sig) (V13 m outs c) ∗ Rr c) ⊢ R4.pre c)
    (hpost4 : ∀ c : Dev nD, R4.post c ⊢ iprop(StableHlo.held (c : Thread nD τ) (Pipeline.ucRefs τ sig) (V14 m outs c) ∗ Rr c))
    (R5 : RegionSeg (pcfgs (F := F)) a pdats () defs₀ Variants.none (fun _ => ∅) (fun _ _ => 0) 5)
    (hpre5 : ∀ c : Dev nD, iprop(StableHlo.held (c : Thread nD τ) (Pipeline.ucRefs τ sig) (V15 m outs c) ∗ Rr c) ⊢ R5.pre c)
    (hpost5 : ∀ c : Dev nD, R5.post c ⊢ iprop(StableHlo.held (c : Thread nD τ) (Pipeline.ucRefs τ sig) (V16 m outs c) ∗ Rr c))
    (R6 : RegionSeg (pcfgs (F := F)) a pdats () defs₀ Variants.none (fun _ => ∅) (fun _ _ => 0) 6)
    (hpre6 : ∀ c : Dev nD, iprop(StableHlo.held (c : Thread nD τ) (Pipeline.ucRefs τ sig) (V17 m outs c) ∗ Rr c) ⊢ R6.pre c)
    (hpost6 : ∀ c : Dev nD, R6.post c ⊢ iprop(StableHlo.held (c : Thread nD τ) (Pipeline.ucRefs τ sig) (V18 m outs c) ∗ Rr c))
    (R7 : RegionSeg (pcfgs (F := F)) a pdats () defs₀ Variants.none (fun _ => ∅) (fun _ _ => 0) 7)
    (hpre7 : ∀ c : Dev nD, iprop(StableHlo.held (c : Thread nD τ) (Pipeline.ucRefs τ sig) (V19 m outs c) ∗ Rr c) ⊢ R7.pre c)
    (hpost7 : ∀ c : Dev nD, R7.post c ⊢ iprop(StableHlo.held (c : Thread nD τ) (Pipeline.ucRefs τ sig) (V20 m outs c) ∗ Rr c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m emb₁ () Variants.none (fun _ => ∅) (fun _ _ => 0) (fun _ _ => rfl) ρ outs a pdats 0 (fun _ => BI.emp)
    (initOf (Pipeline.cells (Pipeline.pin (pcfgs (F := F)) a) (cellOf_inj a)) (Pipeline.launchToks (Pipeline.pin (pcfgs (F := F)) a) (cellOf_inj a)))
    (glue_hu0 a) (fun _ c => Rr c) (glue_hE0 ρ) glue_hE8 R0 hpre0 hpost0 R1 hpre1 hpost1 R2 hpre2 hpost2 R3 hpre3 hpost3 R4 hpre4 hpost4 R5 hpre5 hpost5 R6 hpre6 hpost6 R7 hpre7 hpost7

end Cert.KernelIdeal.Hand

end
-- ==== Proof.R0Seg.lean ====
/-
  Tile 0's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 0's admissible contents and
  proof data is ten small facts (`Pinned0`); they hold of tile 0's own (`pinned_dat0`) and so of any family whose
  component 0 is tile 0's (`Pinned0.of_eq`).
-/
import proofs.«402893_j78554951844377_2_alg».proof.Proof.R0Acc
import proofs.«402893_j78554951844377_2_alg».proof.Proof.Family
import proofs.«402893_j78554951844377_2_alg».proof.Proof.Glue
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 0's contents and proof data -/

variable (Vin : (c : Dev nD) → (b : Ref sig .tc) → Buf (Elt F) ((c : Thread nD τ).loc b))

/-- The scratch operand owned whole at some contents is its buffer held at some contents. -/
theorem scratch0_eq (c : Dev nD) :
    (iprop(∃ d, owns (c : Thread nD τ) scM0 fullShare d) : sProp 𝕄)
      = iprop(∃ f : Buf (Elt F) ((c : Thread nD τ).loc cc0_scratch0), ((c : Thread nD τ).loc cc0_scratch0) ↦{fullShare} f) := by
  simp only [scM0, owns_whole]; try rfl

/-- What the record needs of pipeline 0's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned0 (Vx : Dev nD → Valuation τ sig (Elt F)) (a0 : (pcfgs (F := F) 0).Adm)
    (d0 : (c : Dev nD) → Dat τ (Elt F) Unit ℕ (UR sig nD τ) ℕ ((pcfgs (F := F) 0).at a0) c) : Prop where
  tbl : a0.1 = tbl0 Vin
  q : ∀ (c : Dev nD) w, (d0 c).q w = fullShare
  A : ∀ (c : Dev nD) w, (d0 c).A w = Vin c (Pipeline.arrRef spec0 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM0 fullShare d) ∗ Rest0 Vin c) : sProp 𝕄) ⊢ (d0 c).Φ 0
  phiOut : ∀ c : Dev nD, (d0 c).Φ (Fin.last _) ⊢ (iprop((∃ d, owns (c : Thread nD τ) scM0 fullShare d) ∗ Rest0 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 0).at a0).N = Vx c (Pipeline.arrRef spec0 w)

set_option maxHeartbeats 400000 in
/-- Tile 0's own contents and proof data have them: each field by unfolding the proof data; the last stage of the
    invariant is a later one (the grid has 65536 points), so it holds the scratch at the last point's contents. -/
theorem pinned_dat0 (hO : Ok0 Vin) (Vx : Dev nD → Valuation τ sig (Elt F))
    (hF : ∀ c w, (dat0 Vin hO c).arrAt w (cfgM0 Vin hO).N = Vx c (Pipeline.arrRef spec0 w)) :
    Pinned0 Vin Vx (adm0 Vin hO) (dat0 Vin hO) where
  tbl := rfl
  q c w := rfl
  A c w := A_eq0 Vin hO c w
  owed c t := rfl
  body c := (body_obligation0 Vin hO c).loose
  phiIn c := by
    rw [show (dat0 Vin hO c).Φ 0 = PhiS0 Vin hO c ((0 : Fin ((cfgM0 Vin hO).N + 1)).val) (Nat.le_of_lt_succ (0 : Fin ((cfgM0 Vin hO).N + 1)).isLt) from rfl,
      PhiS0_zero Vin hO c _ _ (Fin.val_zero _)]
  phiOut c := by
    have hN : (Fin.last (cfgM0 Vin hO).N).val ≠ 0 := by
      rw [Fin.val_last, show (cfgM0 Vin hO).N = grid0.N from rfl, N_0]; decide
    show PhiS0 Vin hO c (Fin.last (cfgM0 Vin hO).N).val (Nat.le_of_lt_succ (Fin.last (cfgM0 Vin hO).N).isLt) ⊢ _
    rw [PhiS0_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 0's. -/
theorem Pinned0.of_eq (hO : Ok0 Vin) {Vx : Dev nD → Valuation τ sig (Elt F)} {a0 : (pcfgs (F := F) 0).Adm}
    {d0 : (c : Dev nD) → Dat τ (Elt F) Unit ℕ (UR sig nD τ) ℕ ((pcfgs (F := F) 0).at a0) c}
    (ha : a0 = adm0 Vin hO) (hd : ∀ c, HEq (d0 c) (dat0 Vin hO c)) (h : Pinned0 Vin Vx (adm0 Vin hO) (dat0 Vin hO)) :
    Pinned0 Vin Vx a0 d0 := by
  subst ha
  obtain rfl : d0 = dat0 Vin hO := funext fun c => eq_of_heq (hd c)
  exact h

/-! ## The record -/

set_option backward.isDefEq.respectTransparency.types false in
set_option maxHeartbeats 1600000 in
/-- Tile 0's region over ANY family of pipelines whose component 0 is tile 0's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg0G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok0 Vin) (ha : a 0 = adm0 Vin hO) (hd : ∀ c, HEq (pdats 0 c) (dat0 Vin hO c))
    (hag : ∀ c w, V c (Proc.devRef .tc (Pipeline.arrRef spec0 w)) = Vin c (Pipeline.arrRef spec0 w))
    (hagT : ∀ c j, V c (Proc.devRef .tc (pre0.ref j)) = Vin c (pre0.ref j))
    (hF : ∀ c w, (dat0 Vin hO c).arrAt w (cfgM0 Vin hO).N = Vx c (Pipeline.arrRef spec0 w))
    (hrest : ∀ c b, b ∉ Finset.univ.image (Pipeline.arrRef spec0) → Vx c b = V c b) :
    Pipeline.RegionSeg (pcfgs (F := F)) a pdats () defs₀ Variants.none (fun _ => ∅) (fun _ _ => 0) 0 :=
  have hp : Pinned0 Vin Vx (a 0) (pdats 0) := Pinned0.of_eq Vin hO ha hd (pinned_dat0 Vin hO Vx hF)
  have htbl : ∀ c, (fun k => V c (Proc.devRef .tc ((pcfgs (F := F) 0).pre.ref k))) = (a 0).1 := fun c => by
    rw [hp.tbl]; funext k; exact (hagT c k).trans (V_pre0 Vin c k)
  { win := (launch0 (F := F)).win.to₀
    block_pos := (launch0 (F := F)).block_pos
    stage_whole := (launch0 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 0 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre0 c (fun _ => fullShare) (tbl0 Vin))
    Z := fun c => Pipeline.unscopedRestP (Ix := Unit) (Name := ℕ) (U := UR sig nD τ) (Lvl := ℕ) pre0 spec0 c (fun b => V c b)
    hentry := fun c => by
      rw [Pipeline.ownSems0_none]
      have hsplit := Pipeline.arrays_of_unscopedBufs (p := 0) (pcfgs (F := F)) a pdats (launch0 (F := F)).win (launch0 (F := F)).arr_whole c
        ((pdats 0 c).share_full (hp.q c)) (fun b => V c b) (fun w => (hp.A c w).trans (hag c w).symm)
      rw [Pipeline.unscopedBufs_held, Pipeline.unscopedRest_split (launch0 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 0).spec c : sProp 𝕄) = _ from scopedRest0_split c, hp.tbl]
      refine BIBase.Entails.trans ?_ (hp.phiIn c)
      rw [scratch0_eq]
      unfold Rest0
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 0).spec c : sProp 𝕄) = _ from scopedRest0_split c]
      refine BIBase.Entails.trans (hp.phiOut c) ?_
      rw [scratch0_eq]
      unfold Rest0
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 0) (pcfgs (F := F)) a (Ix := Unit) (Name := ℕ) (U := UR sig nD τ) (Lvl := ℕ)
        (launch0 (F := F)).win (launch0 (F := F)).arr_whole c pdats ((pdats 0 c).share_full (hp.q c))
        (fun b => V c b) (fun b => Vx c b) ((pdats 0 c).arrAt · (Pipeline.pin (pcfgs (F := F)) a 0).N) (hp.fin c) (hrest c)
      rw [Pipeline.unscopedBufs_held, Pipeline.unscopedRest_split (launch0 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 0's record over the assembled families, tile 0's components in slot 0. -/
def reg0 (hO : Ok0 Vin) (V Vx : Dev nD → Valuation τ sig (Elt F))
    (hag : ∀ c w, V c (Proc.devRef .tc (Pipeline.arrRef spec0 w)) = Vin c (Pipeline.arrRef spec0 w))
    (hagT : ∀ c j, V c (Proc.devRef .tc (pre0.ref j)) = Vin c (pre0.ref j))
    (hF : ∀ c w, (dat0 Vin hO c).arrAt w (cfgM0 Vin hO).N = Vx c (Pipeline.arrRef spec0 w))
    (hrest : ∀ c b, b ∉ Finset.univ.image (Pipeline.arrRef spec0) → Vx c b = V c b)
    (a1 : (pcfg1 (F := F)).Adm)
    (a2 : (pcfg2 (F := F)).Adm)
    (a3 : (pcfg3 (F := F)).Adm)
    (a4 : (pcfg4 (F := F)).Adm)
    (a5 : (pcfg5 (F := F)).Adm)
    (a6 : (pcfg6 (F := F)).Adm)
    (a7 : (pcfg7 (F := F)).Adm)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf (adm0 Vin hO) a1 a2 a3 a4 a5 a6 a7)
      (pdatsOf (adm0 Vin hO) a1 a2 a3 a4 a5 a6 a7 (dat0 Vin hO) d1 d2 d3 d4 d5 d6 d7) () defs₀ Variants.none (fun _ => ∅) (fun _ _ => 0) 0 :=
  reg0G Vin V Vx _ _ hO rfl (fun _ => HEq.rfl) hag hagT hF hrest

/-- The thread state the record is entered from, -/
theorem reg0_pre (hO : Ok0 Vin) (V Vx : Dev nD → Valuation τ sig (Elt F)) (hag) (hagT) (hF) (hrest) (a1) (a2) (a3) (a4) (a5) (a6) (a7) (d1) (d2) (d3) (d4) (d5) (d6) (d7) (c : Dev nD) :
    (reg0 Vin hO V Vx hag hagT hF hrest a1 a2 a3 a4 a5 a6 a7 d1 d2 d3 d4 d5 d6 d7).pre c
      = iprop(StableHlo.held (c : Thread nD τ) (Pipeline.ucRefs τ sig) (V c) ∗ Rr (F := F) c) := rfl
/-- and the one it leaves. -/
theorem reg0_post (hO : Ok0 Vin) (V Vx : Dev nD → Valuation τ sig (Elt F)) (hag) (hagT) (hF) (hrest) (a1) (a2) (a3) (a4) (a5) (a6) (a7) (d1) (d2) (d3) (d4) (d5) (d6) (d7) (c : Dev nD) :
    (reg0 Vin hO V Vx hag hagT hF hrest a1 a2 a3 a4 a5 a6 a7 d1 d2 d3 d4 d5 d6 d7).post c
      = iprop(StableHlo.held (c : Thread nD τ) (Pipeline.ucRefs τ sig) (Vx c) ∗ Rr (F := F) c) := rfl

end Cert.KernelIdeal.Hand

end
-- ==== Proof.R1Run.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R0Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 1: the kernel body at one grid point

Tile 1's kernel function is tile 0's (the same body, the same payloads and conditions under other names), so its three
runs are tile 0's. -/

/-- The body's first condition: the feature coordinate is 0. -/
abbrev cond1_0 (i : grid1.Coords) : Prop := (Scalar.cmpi .ne (Scalar.extui (Scalar.cmpi .eq (BitVec.ofNat 32 (i 1).val) 0#32)) 0#32) = 1#1
/-- The body's second condition: the feature coordinate is 31. -/
abbrev cond1_1 (i : grid1.Coords) : Prop := k1_cond2 i = 1#1

/-- A MIDDLE feature: the scratch at `acc` ends at `acc + row`. -/
theorem run1_B (c : Dev nD) (i : grid1.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond1_0 i) (hc1 : ¬cond1_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k1_pay2 acc x3)) -∗ K ⟨⟩))
      ⊢ wp frame (wpE (defs₀ (F := F)) Variants.none c none) E (cc1__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run1_A (c : Dev nD) (i : grid1.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond1_0 i) (hc1 : ¬cond1_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k1_pay2 (k1_pay1 (F := F)) x3)) -∗ K ⟨⟩))
      ⊢ wp frame (wpE (defs₀ (F := F)) Variants.none c none) E (cc1__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run1_C (c : Dev nD) (i : grid1.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond1_0 i) (hc1 : cond1_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k1_pay3 (k1_pay2 acc x3) x4 x5 x6)
            ∗ owns (c : Thread nD τ) arg8 fullShare (k1_pay2 acc x3)) -∗ K ⟨⟩))
      ⊢ wp frame (wpE (defs₀ (F := F)) Variants.none c none) E (cc1__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.KernelIdeal.Hand

end
-- ==== Proof.R1Base.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R1Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 1: the pipeline at the table the region reads, its blocks and staging buffers

Everything here is stated at a PARAMETER `V`: the contents of the core's buffers when the region is entered. The
region's prefetched table is read off `V`; under the side condition that every word of it names a row of the embedding
table (`Ok1`) the pipeline is pinned at it, and each window's block at a grid point is a restriction of its array. -/

variable (V : (c : Dev nD) → (b : Ref sig .tc) → Buf (Elt F) ((c : Thread nD τ).loc b))

/-- The table's contents when the region is entered (one device). -/
def tbl1 : pre1.Contents (Elt F) := fun j => V (0 : Dev nD) (pre1.ref j)
/-- On every device the table holds those contents (there is one device). -/
theorem V_pre1 (c : Dev nD) (j : Fin 1) : V c (pre1.ref j) = tbl1 V j := by
  obtain rfl : c = 0 := Subsingleton.elim _ _; rfl
/-- Every block the table names lies inside the embedding table. -/
abbrev Ok1 : Prop := ok1 (F := F) (tbl1 V)
/-- The table as admissible contents, and the pipeline pinned at it. -/
abbrev adm1 (hO : Ok1 V) : (pcfg1 (F := F)).Adm := ⟨tbl1 V, hO⟩
abbrev cfgM1 (hO : Ok1 V) : Pipeline.Cfg sig Λ₀ := cfg1 (adm1 V hO)

/-- Window `w`'s block at point `t`, read off its array as the region finds it. -/
def iblk1 (hO : Ok1 V) (c : Dev nD) (w : Fin (cfgM1 V hO).W) (t : Fin (cfgM1 V hO).N) :
    (((cfgM1 V hO).win w).xblock ((cfgM1 V hO).grid.coords t)).Idx → Elt F ((cfgM1 V hO).win w).elt :=
  (((cfgM1 V hO).win w).blk t).view.read (Elt F) (V c (Pipeline.arrRef spec1 w))

/-- An input window's current staging buffer holds its block at every point, fetched there or not, for any proof
    data whose array is `V`'s and whose body leaves the block in place. -/
theorem before1_0_of (hO : Ok1 V) {c : Dev nD} (dat : Dat τ (Elt F) Unit ℕ (UR sig nD τ) ℕ (cfgM1 V hO) c) (hA : dat.A 0 = V c (Pipeline.arrRef spec1 0))
    (hafter : ∀ t, dat.after 0 t = iblk1 V hO c 0 t) (t : Fin (cfgM1 V hO).N) (d) : dat.before 0 t d = iblk1 V hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hO : Ok1 V) {c : Dev nD} (dat : Dat τ (Elt F) Unit ℕ (UR sig nD τ) ℕ (cfgM1 V hO) c) (hA : dat.A 1 = V c (Pipeline.arrRef spec1 1))
    (hafter : ∀ t, dat.after 1 t = iblk1 V hO c 1 t) (t : Fin (cfgM1 V hO).N) (d) : dat.before 1 t d = iblk1 V hO c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hO : Ok1 V) {c : Dev nD} (dat : Dat τ (Elt F) Unit ℕ (UR sig nD τ) ℕ (cfgM1 V hO) c) (hA : dat.A 2 = V c (Pipeline.arrRef spec1 2))
    (hafter : ∀ t, dat.after 2 t = iblk1 V hO c 2 t) (t : Fin (cfgM1 V hO).N) (d) : dat.before 2 t d = iblk1 V hO c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hO : Ok1 V) {c : Dev nD} (dat : Dat τ (Elt F) Unit ℕ (UR sig nD τ) ℕ (cfgM1 V hO) c) (hA : dat.A 3 = V c (Pipeline.arrRef spec1 3))
    (hafter : ∀ t, dat.after 3 t = iblk1 V hO c 3 t) (t : Fin (cfgM1 V hO).N) (d) : dat.before 3 t d = iblk1 V hO c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev ms1_0 (hO : Ok1 V) (t : Fin (cfgM1 V hO).N) : Memref sig .tc .vmem S1x1x128 .f32 := spec1_0.stage ((cfgM1 V hO).slots t 0)
abbrev hs1_0 (hO : Ok1 V) (t : Fin (cfgM1 V hO).N) : (ms1_0 V hO t).IsWhole := hstage1_0 (((cfgM1 V hO).slots t 0).cast nbuf1_0)
abbrev ms1_1 (hO : Ok1 V) (t : Fin (cfgM1 V hO).N) : Memref sig .tc .vmem S1x1x128 .f32 := spec1_1.stage ((cfgM1 V hO).slots t 1)
abbrev hs1_1 (hO : Ok1 V) (t : Fin (cfgM1 V hO).N) : (ms1_1 V hO t).IsWhole := hstage1_1 (((cfgM1 V hO).slots t 1).cast nbuf1_1)
abbrev ms1_2 (hO : Ok1 V) (t : Fin (cfgM1 V hO).N) : Memref sig .tc .vmem S1x1x128 .f32 := spec1_2.stage ((cfgM1 V hO).slots t 2)
abbrev hs1_2 (hO : Ok1 V) (t : Fin (cfgM1 V hO).N) : (ms1_2 V hO t).IsWhole := hstage1_2 (((cfgM1 V hO).slots t 2).cast nbuf1_2)
abbrev ms1_3 (hO : Ok1 V) (t : Fin (cfgM1 V hO).N) : Memref sig .tc .vmem S1x1x1 .f32 := spec1_3.stage ((cfgM1 V hO).slots t 3)
abbrev hs1_3 (hO : Ok1 V) (t : Fin (cfgM1 V hO).N) : (ms1_3 V hO t).IsWhole := hstage1_3 (((cfgM1 V hO).slots t 3).cast nbuf1_3)
abbrev ms1_4 (hO : Ok1 V) (t : Fin (cfgM1 V hO).N) : Memref sig .tc .vmem S1x1x1 .f32 := spec1_4.stage ((cfgM1 V hO).slots t 4)
abbrev hs1_4 (hO : Ok1 V) (t : Fin (cfgM1 V hO).N) : (ms1_4 V hO t).IsWhole := hstage1_4 (((cfgM1 V hO).slots t 4).cast nbuf1_4)
/-- The scratch operand: a whole scoped buffer of the kernel's own. -/
abbrev scM1 : Memref sig .tc .vmem S1x1x128 .f32 := Memref.whole cc1_scratch0
/-- The table as the body is handed it. -/
abbrev tbM1 : Memref sig .tc .smem S65536 .i32 := Memref.whole main_v42

/-- The kernel body at point `t`, on what the pipeline calls it with. -/
abbrev bodyAt1 (a : (pcfg1 (F := F)).Adm) (t : Fin (cfg1 a).N) : Prog (TpuEff nD τ sig (Elt F) Λ₀ .tc) PUnit :=
  cc1__gather_kernel (grid1.coords t) (Memref.whole main_v42) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (Memref.whole cc1_scratch0) (Memref.isWhole_whole _)

/-- Off the last feature the result window is idle: the body stores nothing into it. -/
theorem idleAt1_4 (a : (pcfg1 (F := F)).Adm) (i : grid1.Coords) (h : ¬cond1_1 i) : (cfg1 a).idle 4 i = true := by
  show (!(k1_cond2 i == 1#1)) = true
  simp only [Bool.not_eq_true', beq_eq_false_iff_ne, ne_eq]; exact h
/-- On the last feature it is live. -/
theorem liveAt1_4 (a : (pcfg1 (F := F)).Adm) (i : grid1.Coords) (h : cond1_1 i) : (cfg1 a).idle 4 i = false := by
  show (!(k1_cond2 i == 1#1)) = false
  simp only [Bool.not_eq_false', beq_iff_eq]; exact h
/-- The input windows are never idle. -/
theorem liveAt1_0 (a : (pcfg1 (F := F)).Adm) (i : grid1.Coords) : (cfg1 a).idle 0 i = false := rfl
theorem liveAt1_1 (a : (pcfg1 (F := F)).Adm) (i : grid1.Coords) : (cfg1 a).idle 1 i = false := rfl
theorem liveAt1_2 (a : (pcfg1 (F := F)).Adm) (i : grid1.Coords) : (cfg1 a).idle 2 i = false := rfl
theorem liveAt1_3 (a : (pcfg1 (F := F)).Adm) (i : grid1.Coords) : (cfg1 a).idle 3 i = false := rfl

end Cert.KernelIdeal.Hand

end
-- ==== Proof.OkTablesT.lean ====
/-
  The prefetched row tables of tiles 1 to 7: each tile's grid, table, index map and side condition are
  tile 0's with the tile's own names, and each section below is tile 0's text with those names (the argument is
  the same: the index map reads the table word at flat position 32·i₀ + i₁ and names the block (word, 0, 0), which
  lies inside the [786432, 1, 128] array when the word is below 786432).
-/
import proofs.«402893_j78554951844377_2_alg».proof.Proof.Gen.KernelIdeal
import Idealize.ShloMosaic.Lib.ValueIdx

namespace Cert.KernelIdeal.Hand

open Cert.KernelIdeal Cert.KernelIdeal.Gen Idealize.ShloMosaic Idealize.ShloMosaic.ValueIdx

variable {F : FTy → Type} [FloatOps F]

/-! ## Tile 1 -/

/-- The flat position 32·i₀ + i₁ of grid point (i₀, i₁), i₀ < 2048 and i₁ < 32, is a position of the 65536-word table. -/
theorem pos_lt1 (i : grid1.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword1 (pf : pre1.Contents (Elt F)) (i : grid1.Coords) : BitVec 32 :=
  pf 0 (ValueIdx.ix1 ⟨32 * (i 0).val + (i 1).val, pos_lt1 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform1_eq (pf : pre1.Contents (Elt F)) (i : grid1.Coords) :
    cc1_transform_0 k1_off1_inb numel1_S1 pf i = ![(tword1 pf i).toNat, 0, 0] := by
  have hoff : (k1_off1 i) 0 = 32 * (i 0).val + (i 1).val := congrFun (k1_off1_eq i) 0
  have hidx : (Rect.unit (s := S65536) (k1_off1 i) S1.size (k1_off1_inb i)).emb (Shape.Idx.first (numel1_S1.symm ▸ Nat.one_pos))
      = ValueIdx.ix1 ⟨32 * (i 0).val + (i 1).val, pos_lt1 i⟩ := by
    funext a
    match a with
    | ⟨0, _⟩ =>
      apply Fin.ext
      show (k1_off1 i) 0 + 1 * 0 = 32 * (i 0).val + (i 1).val
      omega
  show ![(pf 0 ((Rect.unit (s := S65536) (k1_off1 i) S1.size (k1_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok1_of (pf : pre1.Contents (Elt F)) (h : ∀ i : grid1.Coords, (tword1 pf i).toNat < 786432) : ok1 pf := by
  intro i
  refine ⟨fun a => ?_, Or.inl rfl⟩
  rw [transform1_eq pf i]
  have hi := h i
  match a with
  | ⟨0, _⟩ =>
    show ((tword1 pf i).toNat + 1) * 1 ≤ 786432
    omega
  | ⟨1, _⟩ => show (0 + 1) * 1 ≤ 1; omega
  | ⟨2, _⟩ => show (0 + 1) * 128 ≤ 128; omega

/-! ## Tile 2 -/

/-- The flat position 32·i₀ + i₁ of grid point (i₀, i₁), i₀ < 2048 and i₁ < 32, is a position of the 65536-word table. -/
theorem pos_lt2 (i : grid2.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword2 (pf : pre2.Contents (Elt F)) (i : grid2.Coords) : BitVec 32 :=
  pf 0 (ValueIdx.ix1 ⟨32 * (i 0).val + (i 1).val, pos_lt2 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform2_eq (pf : pre2.Contents (Elt F)) (i : grid2.Coords) :
    cc2_transform_0 k2_off1_inb numel1_S1 pf i = ![(tword2 pf i).toNat, 0, 0] := by
  have hoff : (k2_off1 i) 0 = 32 * (i 0).val + (i 1).val := congrFun (k2_off1_eq i) 0
  have hidx : (Rect.unit (s := S65536) (k2_off1 i) S1.size (k2_off1_inb i)).emb (Shape.Idx.first (numel1_S1.symm ▸ Nat.one_pos))
      = ValueIdx.ix1 ⟨32 * (i 0).val + (i 1).val, pos_lt2 i⟩ := by
    funext a
    match a with
    | ⟨0, _⟩ =>
      apply Fin.ext
      show (k2_off1 i) 0 + 1 * 0 = 32 * (i 0).val + (i 1).val
      omega
  show ![(pf 0 ((Rect.unit (s := S65536) (k2_off1 i) S1.size (k2_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok2_of (pf : pre2.Contents (Elt F)) (h : ∀ i : grid2.Coords, (tword2 pf i).toNat < 786432) : ok2 pf := by
  intro i
  refine ⟨fun a => ?_, Or.inl rfl⟩
  rw [transform2_eq pf i]
  have hi := h i
  match a with
  | ⟨0, _⟩ =>
    show ((tword2 pf i).toNat + 1) * 1 ≤ 786432
    omega
  | ⟨1, _⟩ => show (0 + 1) * 1 ≤ 1; omega
  | ⟨2, _⟩ => show (0 + 1) * 128 ≤ 128; omega

/-! ## Tile 3 -/

/-- The flat position 32·i₀ + i₁ of grid point (i₀, i₁), i₀ < 2048 and i₁ < 32, is a position of the 65536-word table. -/
theorem pos_lt3 (i : grid3.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword3 (pf : pre3.Contents (Elt F)) (i : grid3.Coords) : BitVec 32 :=
  pf 0 (ValueIdx.ix1 ⟨32 * (i 0).val + (i 1).val, pos_lt3 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform3_eq (pf : pre3.Contents (Elt F)) (i : grid3.Coords) :
    cc3_transform_0 k3_off1_inb numel1_S1 pf i = ![(tword3 pf i).toNat, 0, 0] := by
  have hoff : (k3_off1 i) 0 = 32 * (i 0).val + (i 1).val := congrFun (k3_off1_eq i) 0
  have hidx : (Rect.unit (s := S65536) (k3_off1 i) S1.size (k3_off1_inb i)).emb (Shape.Idx.first (numel1_S1.symm ▸ Nat.one_pos))
      = ValueIdx.ix1 ⟨32 * (i 0).val + (i 1).val, pos_lt3 i⟩ := by
    funext a
    match a with
    | ⟨0, _⟩ =>
      apply Fin.ext
      show (k3_off1 i) 0 + 1 * 0 = 32 * (i 0).val + (i 1).val
      omega
  show ![(pf 0 ((Rect.unit (s := S65536) (k3_off1 i) S1.size (k3_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok3_of (pf : pre3.Contents (Elt F)) (h : ∀ i : grid3.Coords, (tword3 pf i).toNat < 786432) : ok3 pf := by
  intro i
  refine ⟨fun a => ?_, Or.inl rfl⟩
  rw [transform3_eq pf i]
  have hi := h i
  match a with
  | ⟨0, _⟩ =>
    show ((tword3 pf i).toNat + 1) * 1 ≤ 786432
    omega
  | ⟨1, _⟩ => show (0 + 1) * 1 ≤ 1; omega
  | ⟨2, _⟩ => show (0 + 1) * 128 ≤ 128; omega

/-! ## Tile 4 -/

/-- The flat position 32·i₀ + i₁ of grid point (i₀, i₁), i₀ < 2048 and i₁ < 32, is a position of the 65536-word table. -/
theorem pos_lt4 (i : grid4.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword4 (pf : pre4.Contents (Elt F)) (i : grid4.Coords) : BitVec 32 :=
  pf 0 (ValueIdx.ix1 ⟨32 * (i 0).val + (i 1).val, pos_lt4 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform4_eq (pf : pre4.Contents (Elt F)) (i : grid4.Coords) :
    cc4_transform_0 k4_off1_inb numel1_S1 pf i = ![(tword4 pf i).toNat, 0, 0] := by
  have hoff : (k4_off1 i) 0 = 32 * (i 0).val + (i 1).val := congrFun (k4_off1_eq i) 0
  have hidx : (Rect.unit (s := S65536) (k4_off1 i) S1.size (k4_off1_inb i)).emb (Shape.Idx.first (numel1_S1.symm ▸ Nat.one_pos))
      = ValueIdx.ix1 ⟨32 * (i 0).val + (i 1).val, pos_lt4 i⟩ := by
    funext a
    match a with
    | ⟨0, _⟩ =>
      apply Fin.ext
      show (k4_off1 i) 0 + 1 * 0 = 32 * (i 0).val + (i 1).val
      omega
  show ![(pf 0 ((Rect.unit (s := S65536) (k4_off1 i) S1.size (k4_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok4_of (pf : pre4.Contents (Elt F)) (h : ∀ i : grid4.Coords, (tword4 pf i).toNat < 786432) : ok4 pf := by
  intro i
  refine ⟨fun a => ?_, Or.inl rfl⟩
  rw [transform4_eq pf i]
  have hi := h i
  match a with
  | ⟨0, _⟩ =>
    show ((tword4 pf i).toNat + 1) * 1 ≤ 786432
    omega
  | ⟨1, _⟩ => show (0 + 1) * 1 ≤ 1; omega
  | ⟨2, _⟩ => show (0 + 1) * 128 ≤ 128; omega

/-! ## Tile 5 -/

/-- The flat position 32·i₀ + i₁ of grid point (i₀, i₁), i₀ < 2048 and i₁ < 32, is a position of the 65536-word table. -/
theorem pos_lt5 (i : grid5.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword5 (pf : pre5.Contents (Elt F)) (i : grid5.Coords) : BitVec 32 :=
  pf 0 (ValueIdx.ix1 ⟨32 * (i 0).val + (i 1).val, pos_lt5 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform5_eq (pf : pre5.Contents (Elt F)) (i : grid5.Coords) :
    cc5_transform_0 k5_off1_inb numel1_S1 pf i = ![(tword5 pf i).toNat, 0, 0] := by
  have hoff : (k5_off1 i) 0 = 32 * (i 0).val + (i 1).val := congrFun (k5_off1_eq i) 0
  have hidx : (Rect.unit (s := S65536) (k5_off1 i) S1.size (k5_off1_inb i)).emb (Shape.Idx.first (numel1_S1.symm ▸ Nat.one_pos))
      = ValueIdx.ix1 ⟨32 * (i 0).val + (i 1).val, pos_lt5 i⟩ := by
    funext a
    match a with
    | ⟨0, _⟩ =>
      apply Fin.ext
      show (k5_off1 i) 0 + 1 * 0 = 32 * (i 0).val + (i 1).val
      omega
  show ![(pf 0 ((Rect.unit (s := S65536) (k5_off1 i) S1.size (k5_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok5_of (pf : pre5.Contents (Elt F)) (h : ∀ i : grid5.Coords, (tword5 pf i).toNat < 786432) : ok5 pf := by
  intro i
  refine ⟨fun a => ?_, Or.inl rfl⟩
  rw [transform5_eq pf i]
  have hi := h i
  match a with
  | ⟨0, _⟩ =>
    show ((tword5 pf i).toNat + 1) * 1 ≤ 786432
    omega
  | ⟨1, _⟩ => show (0 + 1) * 1 ≤ 1; omega
  | ⟨2, _⟩ => show (0 + 1) * 128 ≤ 128; omega

/-! ## Tile 6 -/

/-- The flat position 32·i₀ + i₁ of grid point (i₀, i₁), i₀ < 2048 and i₁ < 32, is a position of the 65536-word table. -/
theorem pos_lt6 (i : grid6.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword6 (pf : pre6.Contents (Elt F)) (i : grid6.Coords) : BitVec 32 :=
  pf 0 (ValueIdx.ix1 ⟨32 * (i 0).val + (i 1).val, pos_lt6 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform6_eq (pf : pre6.Contents (Elt F)) (i : grid6.Coords) :
    cc6_transform_0 k6_off1_inb numel1_S1 pf i = ![(tword6 pf i).toNat, 0, 0] := by
  have hoff : (k6_off1 i) 0 = 32 * (i 0).val + (i 1).val := congrFun (k6_off1_eq i) 0
  have hidx : (Rect.unit (s := S65536) (k6_off1 i) S1.size (k6_off1_inb i)).emb (Shape.Idx.first (numel1_S1.symm ▸ Nat.one_pos))
      = ValueIdx.ix1 ⟨32 * (i 0).val + (i 1).val, pos_lt6 i⟩ := by
    funext a
    match a with
    | ⟨0, _⟩ =>
      apply Fin.ext
      show (k6_off1 i) 0 + 1 * 0 = 32 * (i 0).val + (i 1).val
      omega
  show ![(pf 0 ((Rect.unit (s := S65536) (k6_off1 i) S1.size (k6_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok6_of (pf : pre6.Contents (Elt F)) (h : ∀ i : grid6.Coords, (tword6 pf i).toNat < 786432) : ok6 pf := by
  intro i
  refine ⟨fun a => ?_, Or.inl rfl⟩
  rw [transform6_eq pf i]
  have hi := h i
  match a with
  | ⟨0, _⟩ =>
    show ((tword6 pf i).toNat + 1) * 1 ≤ 786432
    omega
  | ⟨1, _⟩ => show (0 + 1) * 1 ≤ 1; omega
  | ⟨2, _⟩ => show (0 + 1) * 128 ≤ 128; omega

/-! ## Tile 7 -/

/-- The flat position 32·i₀ + i₁ of grid point (i₀, i₁), i₀ < 2048 and i₁ < 32, is a position of the 65536-word table. -/
theorem pos_lt7 (i : grid7.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword7 (pf : pre7.Contents (Elt F)) (i : grid7.Coords) : BitVec 32 :=
  pf 0 (ValueIdx.ix1 ⟨32 * (i 0).val + (i 1).val, pos_lt7 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform7_eq (pf : pre7.Contents (Elt F)) (i : grid7.Coords) :
    cc7_transform_0 k7_off1_inb numel1_S1 pf i = ![(tword7 pf i).toNat, 0, 0] := by
  have hoff : (k7_off1 i) 0 = 32 * (i 0).val + (i 1).val := congrFun (k7_off1_eq i) 0
  have hidx : (Rect.unit (s := S65536) (k7_off1 i) S1.size (k7_off1_inb i)).emb (Shape.Idx.first (numel1_S1.symm ▸ Nat.one_pos))
      = ValueIdx.ix1 ⟨32 * (i 0).val + (i 1).val, pos_lt7 i⟩ := by
    funext a
    match a with
    | ⟨0, _⟩ =>
      apply Fin.ext
      show (k7_off1 i) 0 + 1 * 0 = 32 * (i 0).val + (i 1).val
      omega
  show ![(pf 0 ((Rect.unit (s := S65536) (k7_off1 i) S1.size (k7_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok7_of (pf : pre7.Contents (Elt F)) (h : ∀ i : grid7.Coords, (tword7 pf i).toNat < 786432) : ok7 pf := by
  intro i
  refine ⟨fun a => ?_, Or.inl rfl⟩
  rw [transform7_eq pf i]
  have hi := h i
  match a with
  | ⟨0, _⟩ =>
    show ((tword7 pf i).toNat + 1) * 1 ≤ 786432
    omega
  | ⟨1, _⟩ => show (0 + 1) * 1 ≤ 1; omega
  | ⟨2, _⟩ => show (0 + 1) * 128 ≤ 128; omega

end Cert.KernelIdeal.Hand
-- ==== Proof.KHostT1.lean ====
/-
  Tile 1's five operands, entry by entry: what proof/Proof/KHost.lean says of tile 0, for the rows
  `[2048 · 1, 2048 · 1 + 2048)`. The arrays the tile's stretch reads were written before the first kernel region, and
  neither a region (each writes its own result array only) nor an earlier tile's stretch (each writes its own cuts
  only) touches them since.
-/
import proofs.«402893_j78554951844377_2_alg».proof.Proof.Gen.KernelIdeal.Regions
import proofs.«402893_j78554951844377_2_alg».proof.Proof.Spec
import proofs.«402893_j78554951844377_2_alg».proof.Proof.KHost
import Idealize.ShloMosaic.Lib.StableHlo.Run
import Idealize.ShloMosaic.Lib.Pipeline.Value
import Idealize.ShloMosaic.Lib.ValueLayout
import Idealize.ShloMosaic.Lib.ValueIdx

set_option maxRecDepth 1396

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]
variable (m : (ℓ : Loc nD τ sig) → Buf (Elt F) ℓ) (outs : Outs (F := F))

/-! ## Tile 1

Tile 1 (samples `2048 · 1 + r`, `r < 2048`) is entered at `V7 m outs c`: the stretch `hostOps1` cuts the
tile's rows out of the four host arrays (offset `2048 · 1` on the leading axis) and flattens the rows of gathered
indices into the tile's prefetched table, entry `j` of which is therefore row `j / 32`, feature `j % 32`. -/

section Tile1

/-- The arrays written before the first region are, at tile 1's entry, what they were at `V5 m c`: no region and no
    stretch in between writes them. -/
theorem ent1_of (c : Dev nD) (r : Ref sig .tc)
    (h6 : r ∉ ([main_v40] : List (Ref sig .tc))) (h7 : r ∉ hostOps1_W) :
    V7 m outs c r = V5 m c r :=
  (V7_of m outs c r h7).trans <|
    V6_of m outs c r h6

section Stretch
variable (W : Valuation τ sig (Elt F))

/-- The tile's table: the rows `[2048 · 1, 2048 · 1 + 2048)` of `main_v8`, flattened. -/
theorem tbl1_read (j : Fin 65536) :
    StableHlo.after hostOps1 W main_v42 (ValueIdx.ix1 j)
      = StableHlo.after hostOps1 W main_v8
          (ValueIdx.ix2 (⟨2048 * 1 + j.val / 32, by omega⟩ : Fin 16384) (⟨j.val % 32, by omega⟩ : Fin 32)) := by
  dsimp only [hostOps1]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 1 + j.val / 32 = _ + j.val / 32; omega)

/-- The tile's phase-bias rows: the rows `[2048 · 1, 2048 · 1 + 2048)` of `main_v31`. -/
theorem pa1_read (r : Fin 2048) (l : Fin 128) :
    StableHlo.after hostOps1 W main_v43 (ValueIdx.ix3 r 0 l)
      = StableHlo.after hostOps1 W main_v31 (ValueIdx.ix3 (⟨2048 * 1 + r.val, by omega⟩ : Fin 16384) 0 l) := by
  dsimp only [hostOps1]; open StableHlo in after_results_simp
  exact slice3_axis0_apply _ _ _ r 0 l _ (by show 2048 * 1 + r.val = _ + r.val; omega)

/-- The tile's head weights: the same rows of `main_v32`. -/
theorem w1_read (r : Fin 2048) (l : Fin 128) :
    StableHlo.after hostOps1 W main_v44 (ValueIdx.ix3 r 0 l)
      = StableHlo.after hostOps1 W main_v32 (ValueIdx.ix3 (⟨2048 * 1 + r.val, by omega⟩ : Fin 16384) 0 l) := by
  dsimp only [hostOps1]; open StableHlo in after_results_simp
  exact slice3_axis0_apply _ _ _ r 0 l _ (by show 2048 * 1 + r.val = _ + r.val; omega)

/-- The tile's head biases: the same rows of `main_v33`. -/
theorem b1_read (r : Fin 2048) :
    StableHlo.after hostOps1 W main_v45 (ValueIdx.ix3 r 0 0)
      = StableHlo.after hostOps1 W main_v33 (ValueIdx.ix3 (⟨2048 * 1 + r.val, by omega⟩ : Fin 16384) 0 0) := by
  dsimp only [hostOps1]; open StableHlo in after_results_simp
  exact slice3_axis0_apply _ _ _ r 0 0 _ (by show 2048 * 1 + r.val = _ + r.val; omega)

end Stretch

/-- Entry `j` of tile 1's prefetched table is the gathered row number of sample `2048 · 1 + j / 32`, feature `j % 32`. -/
theorem tbl1_apply (c : Dev nD) (j : Fin 65536) :
    V7 m outs c main_v42 (ValueIdx.ix1 j)
      = Spec.gidxOf (m ((c : Thread nD τ).loc main_arg0)) (m ((c : Thread nD τ).loc main_arg1))
          (m ((c : Thread nD τ).loc main_arg2))
          (ValueIdx.ix2 (⟨2048 * 1 + j.val / 32, by omega⟩ : Fin 16384) (⟨j.val % 32, by omega⟩ : Fin 32)) :=
  (tbl1_read (V6 m outs c) j).trans <| (congrFun (ent1_of m outs c main_v8 (by decide) (by decide)) _).trans <| congrFun (V5_gidx m c) _

/-- The embedding table as tile 1 sees it: row `ρ`, lane `l` of the argument. -/
theorem emb1_apply (c : Dev nD) (ρ : Fin 786432) (l : Fin 128) :
    V7 m outs c main_v34 (ValueIdx.ix3 ρ 0 l) = m ((c : Thread nD τ).loc main_arg3) (ValueIdx.ix2 ρ l) :=
  (congrFun (ent1_of m outs c main_v34 (by decide) (by decide)) _).trans <| V5_emb_apply m c ρ l

/-- Row `r` of tile 1's phase-bias operand is sample `2048 · 1 + r`'s phase-bias row. -/
theorem pa1_apply (c : Dev nD) (r : Fin 2048) (l : Fin 128) :
    V7 m outs c main_v43 (ValueIdx.ix3 r 0 l)
      = Spec.paSelOf (m ((c : Thread nD τ).loc main_arg1)) (m ((c : Thread nD τ).loc main_arg4))
          (ValueIdx.ix2 (⟨2048 * 1 + r.val, by omega⟩ : Fin 16384) l) :=
  (pa1_read (V6 m outs c) r l).trans <| (congrFun (ent1_of m outs c main_v31 (by decide) (by decide)) _).trans <| V5_pa_apply m c _ l

/-- Row `r` of tile 1's head-weight operand is sample `2048 · 1 + r`'s head weights. -/
theorem w1_apply (c : Dev nD) (r : Fin 2048) (l : Fin 128) :
    V7 m outs c main_v44 (ValueIdx.ix3 r 0 l)
      = Spec.wSelOf (m ((c : Thread nD τ).loc main_arg1)) (m ((c : Thread nD τ).loc main_arg5))
          (ValueIdx.ix2 (⟨2048 * 1 + r.val, by omega⟩ : Fin 16384) l) :=
  (w1_read (V6 m outs c) r l).trans <| (congrFun (ent1_of m outs c main_v32 (by decide) (by decide)) _).trans <| V5_w_apply m c _ l

/-- Entry `r` of tile 1's head-bias operand is sample `2048 · 1 + r`'s head bias. -/
theorem b1_apply (c : Dev nD) (r : Fin 2048) :
    V7 m outs c main_v45 (ValueIdx.ix3 r 0 0)
      = Spec.bSelOf (m ((c : Thread nD τ).loc main_arg1)) (m ((c : Thread nD τ).loc main_arg6))
          (ValueIdx.ix1 (⟨2048 * 1 + r.val, by omega⟩ : Fin 16384)) :=
  (b1_read (V6 m outs c) r).trans <| (congrFun (ent1_of m outs c main_v33 (by decide) (by decide)) _).trans <| V5_b_apply m c _

end Tile1

end Cert.KernelIdeal.Hand
-- ==== Proof.R1Ok.lean ====
/-
  Tile 1: the table the region reads, and the pipeline's side condition on it from the range fact.

  Region 1 is entered with the buffers at the valuation after the host stretch that cuts tile 1's operands. Its prefetched table then
  holds, at flat position `32·i₀ + i₁`, the gathered row number of sample `2048·1 + i₀`, feature `i₁`. When every gathered
  row number is below 786432 (the range fact), every word of the table is, which is the side condition under which the
  pipeline is pinned at the table.
-/
import proofs.«402893_j78554951844377_2_alg».proof.Proof.Gen.KernelIdeal.Regions
import proofs.«402893_j78554951844377_2_alg».proof.Proof.Spec
import proofs.«402893_j78554951844377_2_alg».proof.Proof.R1Base
import proofs.«402893_j78554951844377_2_alg».proof.Proof.OkTablesT
import proofs.«402893_j78554951844377_2_alg».proof.Proof.KHostT1
import proofs.«402893_j78554951844377_2_alg».proof.Proof.TileLib
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]

/-- The buffers when region 1 is entered: the valuation after the host stretch that cuts tile 1's operands. -/
abbrev V1in (m : (ℓ : Loc nD τ sig) → Buf (Elt F) ℓ) : (c : Dev nD) → (b : Ref sig .tc) → Buf (Elt F) ((c : Thread nD τ).loc b) :=
  fun c b => V7 m (outsL m) c b

variable (m : (ℓ : Loc nD τ sig) → Buf (Elt F) ℓ)

/-- The table word read at grid point `(i₀, i₁)` is the gathered row number of sample `2048·1 + i₀`, feature `i₁`: the
    word sits at flat position `32·i₀ + i₁`, whose quotient and remainder by 32 are `i₀` and `i₁`. -/
theorem tword1_V1in (c : Dev nD) (i : grid1.Coords) :
    tword1 (tbl1 (V1in m)) i
      = Spec.gidxOf (m ((c : Thread nD τ).loc main_arg0)) (m ((c : Thread nD τ).loc main_arg1)) (m ((c : Thread nD τ).loc main_arg2))
          (ValueIdx.ix2 (⟨2048 * 1 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V1in m 0 main_v42 (ValueIdx.ix1 ⟨32 * (i 0).val + (i 1).val, pos_lt1 i⟩) = _
  refine (tbl1_apply m (outsL m) 0 ⟨32 * (i 0).val + (i 1).val, pos_lt1 i⟩).trans ?_
  exact congrArg _ (ix2_congr (by show 2048 * 1 + (32 * (i 0).val + (i 1).val) / 32 = 2048 * 1 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok1_of_inRange (c : Dev nD)
    (hin : Spec.InRange (Spec.gidxOf (m ((c : Thread nD τ).loc main_arg0)) (m ((c : Thread nD τ).loc main_arg1)) (m ((c : Thread nD τ).loc main_arg2)))) :
    Ok1 (V1in m) :=
  ok1_of (tbl1 (V1in m)) fun i => by rw [tword1_V1in m c i]; exact hin _ _

end Cert.KernelIdeal.Hand

end
-- ==== Proof.R1Grid.lean ====
import proofs.«402893_j78554951844377_2_alg».proof.Proof.R1Run
import Idealize.ShloMosaic.Lib.Pipeline.Kit
import Mathlib.Data.Fin.VecNotation

noncomputable section

namespace Cert.KernelIdeal.Hand

open Cert.KernelIdeal Cert.KernelIdeal.Gen
open Idealize.ShloMosaic
open Idealize.ShloMosaic.Pipeline (Cfg Window)

variable {F : FTy → Type} [FloatOps F]

/-! # Tile 1: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride1_0 : grid1.stride 0 = 32 := by decide
/-- The feature coordinate changes at every point. -/
theorem stride1_1 : grid1.stride 1 = 1 := by decide

/-- The sample coordinate of point `t` is `t / 32`: the quotient is below 2048, so reducing it modulo the
    axis's bound changes nothing. -/
theorem coords1_val0 (t : Fin grid1.N) : ((grid1.coords t) 0).val = t.val / 32 := by
  have ht : t.val < 65536 := N_1 ▸ t.isLt
  show t.val / grid1.stride 0 % 2048 = t.val / 32
  rw [stride1_0]; omega

/-- The feature coordinate of point `t` is `t % 32`. -/
theorem coords1_val1 (t : Fin grid1.N) : ((grid1.coords t) 1).val = t.val % 32 := by
  show t.val / grid1.stride 1 % 32 = t.val % 32
  rw [stride1_1, Nat.div_one]

/-- The first condition holds exactly at feature 0: checked at each of the 32 values of the coordinate. -/
theorem cond1_0_iff (i : grid1.Coords) : cond1_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond1_1_iff (i : grid1.Coords) : cond1_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond1_0_first (t : Fin grid1.N) (h : t.val = 0) : cond1_0 (grid1.coords t) := by
  rw [cond1_0_iff, coords1_val1, h]

/-- No feature is both the first and the last. -/
theorem not_both1 (i : grid1.Coords) : cond1_0 i → cond1_1 i → False := by
  rw [cond1_0_iff, cond1_1_iff]; omega

/-- A sample number, made a 32-bit word and read back, is itself. -/
private theorem toNat_ofNat_sample (t : Fin grid1.N) : (BitVec.ofNat 32 ((grid1.coords t) 0).val).toNat = t.val / 32 := by
  have ht : t.val < 65536 := N_1 ▸ t.isLt
  rw [coords1_val0, BitVec.toNat_ofNat, Nat.mod_eq_of_lt (by omega)]

/-- Window 1's block at point `t` is the one of sample `t / 32`. -/
theorem index1_1 (a : (pcfg1 (F := F)).Adm) (t : Fin (cfg1 a).N) : ((cfg1 a).win 1).index t = ![t.val / 32, 0, 0] := by
  show (![(BitVec.ofNat 32 ((grid1.coords t) 0).val).toNat, (0#32).toNat, (0#32).toNat] : Fin 3 → ℕ) = _
  rw [toNat_ofNat_sample]; rfl
/-- Window 2's block at point `t` is the one of sample `t / 32`. -/
theorem index1_2 (a : (pcfg1 (F := F)).Adm) (t : Fin (cfg1 a).N) : ((cfg1 a).win 2).index t = ![t.val / 32, 0, 0] := by
  show (![(BitVec.ofNat 32 ((grid1.coords t) 0).val).toNat, (0#32).toNat, (0#32).toNat] : Fin 3 → ℕ) = _
  rw [toNat_ofNat_sample]; rfl
/-- Window 3's block at point `t` is the one of sample `t / 32`. -/
theorem index1_3 (a : (pcfg1 (F := F)).Adm) (t : Fin (cfg1 a).N) : ((cfg1 a).win 3).index t = ![t.val / 32, 0, 0] := by
  show (![(BitVec.ofNat 32 ((grid1.coords t) 0).val).toNat, (0#32).toNat, (0#32).toNat] : Fin 3 → ℕ) = _
  rw [toNat_ofNat_sample]; rfl
/-- The output window's block at point `t` is the one of sample `t / 32`. -/
theorem index1_4 (a : (pcfg1 (F := F)).Adm) (t : Fin (cfg1 a).N) : ((cfg1 a).win 4).index t = ![t.val / 32, 0, 0] := by
  show (![(BitVec.ofNat 32 ((grid1.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush1_4_iff (a : (pcfg1 (F := F)).Adm) (t : Fin (cfg1 a).N) : ((cfg1 a).win 4).flush t = true ↔ t.val % 32 = 31 := by
  have hN : (cfg1 a).N = 65536 := N_1
  have ht : t.val < 65536 := hN ▸ t.isLt
  have hout : ((cfg1 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index1_4, index1_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg1 a).N := Nat.lt_of_lt_of_eq (by omega : t.val + 1 < 65536) hN.symm
      refine Or.inr ⟨hlt, ?_⟩
      rw [index1_4, index1_4]
      have hne' : (t.val + 1) / 32 ≠ t.val / 32 := by omega
      exact (vec3_ne_iff _ _).mpr hne'

/-- At a sample's last feature the output block is written back. -/
theorem flush1_4 (a : (pcfg1 (F := F)).Adm) (t : Fin (cfg1 a).N) (h : cond1_1 (grid1.coords t)) : ((cfg1 a).win 4).flush t = true := by
  rw [flush1_4_iff, ← coords1_val1]; exact (cond1_1_iff _).mp h

/-- At any other feature the output block stays. -/
theorem noFlush1_4 (a : (pcfg1 (F := F)).Adm) (t : Fin (cfg1 a).N) (h : ¬cond1_1 (grid1.coords t)) : ((cfg1 a).win 4).flush t = false := by
  rw [← Bool.not_eq_true, flush1_4_iff, ← coords1_val1]; exact fun e => h ((cond1_1_iff _).mpr e)

end Cert.KernelIdeal.Hand

end
-- ==== Proof.R1Acc.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R1Base
import proofs.«402893_j78554951844377_2_alg».proof.Proof.R1Grid
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 1: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow1 (hO : Ok1 V) (c : Dev nD) (t : Fin (cfgM1 V hO).N) : Vec F S1x1x128 .f32 := iblk1 V hO c 0 t
abbrev xpa1 (hO : Ok1 V) (c : Dev nD) (t : Fin (cfgM1 V hO).N) : Vec F S1x1x128 .f32 := iblk1 V hO c 1 t
abbrev xw1 (hO : Ok1 V) (c : Dev nD) (t : Fin (cfgM1 V hO).N) : Vec F S1x1x128 .f32 := iblk1 V hO c 2 t
abbrev xb1 (hO : Ok1 V) (c : Dev nD) (t : Fin (cfgM1 V hO).N) : Vec F S1x1x1 .f32 := iblk1 V hO c 3 t

/-- THE ACCUMULATION: the scratch after the body at position `n`. -/
def accAt1 (hO : Ok1 V) (c : Dev nD) : (n : ℕ) → n < (cfgM1 V hO).N → Vec F S1x1x128 .f32
  | 0, hn => k1_pay2 (k1_pay1 (F := F)) (xrow1 V hO c ⟨0, hn⟩)
  | n + 1, hn =>
    if cond1_0 (grid1.coords ⟨n + 1, hn⟩) then k1_pay2 (k1_pay1 (F := F)) (xrow1 V hO c ⟨n + 1, hn⟩)
    else k1_pay2 (accAt1 hO c n (Nat.lt_of_succ_lt hn)) (xrow1 V hO c ⟨n + 1, hn⟩)

/-- At a sample's first feature the scratch restarts from zero. -/
theorem accAt1_A (hO : Ok1 V) (c : Dev nD) (t : Fin (cfgM1 V hO).N) (h0 : cond1_0 (grid1.coords t)) :
    accAt1 V hO c t.val t.isLt = k1_pay2 (k1_pay1 (F := F)) (xrow1 V hO c t) := by
  obtain ⟨n, hn⟩ := t
  cases n with
  | zero => rfl
  | succ n => exact if_pos h0

/-- Elsewhere it adds the row to what the point before left. -/
theorem accAt1_B (hO : Ok1 V) (c : Dev nD) (t : Fin (cfgM1 V hO).N) (h0 : ¬cond1_0 (grid1.coords t)) (hz : t.val ≠ 0) :
    accAt1 V hO c t.val t.isLt = k1_pay2 (accAt1 V hO c (t.val - 1) (by omega)) (xrow1 V hO c t) := by
  obtain ⟨n, hn⟩ := t
  cases n with
  | zero => exact absurd rfl hz
  | succ n => exact if_neg h0

/-- The sample's result as the body computes it at a point (read at the last feature). -/
def outAt1 (hO : Ok1 V) (c : Dev nD) (t : Fin (cfgM1 V hO).N) : Vec F S1x1x1 .f32 :=
  k1_pay3 (accAt1 V hO c t.val t.isLt) (xpa1 V hO c t) (xw1 V hO c t) (xb1 V hO c t)

/-- What rides along unread: the other scoped buffers, the generator register, the table. -/
def Rest1 (c : Dev nD) : sProp 𝕄 :=
  iprop(Pipeline.scopedRestBut (Ix := Unit) (Name := ℕ) (U := UR sig nD τ) (Lvl := ℕ) (Val := Elt F) spec1 c [cc1_scratch0]
    ∗ (∃ r, prngReg c r) ∗ Pipeline.prefHeld (Ix := Unit) (Name := ℕ) (U := UR sig nD τ) (Lvl := ℕ) pre1 c (fun _ => fullShare) (tbl1 V))

/-- The region invariant before position `n`: the scratch at anything before the first point, afterwards at what
    the point before left. -/
def PhiS1 (hO : Ok1 V) (c : Dev nD) : (n : ℕ) → n ≤ (cfgM1 V hO).N → sProp 𝕄
  | 0, _ => iprop((∃ d, owns (c : Thread nD τ) scM1 fullShare d) ∗ Rest1 V c)
  | n + 1, hn => iprop(owns (c : Thread nD τ) scM1 fullShare (accAt1 V hO c n hn) ∗ Rest1 V c)

theorem PhiS1_zero (hO : Ok1 V) (c : Dev nD) (n : ℕ) (h : n ≤ (cfgM1 V hO).N) (hz : n = 0) :
    PhiS1 V hO c n h = iprop((∃ d, owns (c : Thread nD τ) scM1 fullShare d) ∗ Rest1 V c) := by
  subst hz; rfl
theorem PhiS1_succ (hO : Ok1 V) (c : Dev nD) (n : ℕ) (hn : n < (cfgM1 V hO).N) :
    PhiS1 V hO c (n + 1) hn = iprop(owns (c : Thread nD τ) scM1 fullShare (accAt1 V hO c n hn) ∗ Rest1 V c) := rfl
theorem PhiS1_pos (hO : Ok1 V) (c : Dev nD) (n : ℕ) (h : n ≤ (cfgM1 V hO).N) (hz : n ≠ 0) :
    PhiS1 V hO c n h = iprop(owns (c : Thread nD τ) scM1 fullShare (accAt1 V hO c (n - 1) (by omega)) ∗ Rest1 V c) := by
  cases n with
  | zero => exact absurd rfl hz
  | succ n => rfl

/-- The proof data of the tile's pipeline on core `c`: the arrays as the region finds them; after the body each input's
    buffer at its block and the result's at `outAt1`; the invariant `PhiS1`; nothing owed; full shares. -/
def dat1 (hO : Ok1 V) (c : Dev nD) : Dat τ (Elt F) Unit ℕ (UR sig nD τ) ℕ (cfgM1 V hO) c where
  A w := V c (Pipeline.arrRef spec1 w)
  after w t := match w with
    | ⟨0, _⟩ => iblk1 V hO c 0 t
    | ⟨1, _⟩ => iblk1 V hO c 1 t
    | ⟨2, _⟩ => iblk1 V hO c 2 t
    | ⟨3, _⟩ => iblk1 V hO c 3 t
    | ⟨4, _⟩ => outAt1 V hO c t
  Φ t := PhiS1 V hO c t.val (Nat.le_of_lt_succ t.isLt)
  q _ := fullShare
  owed _ := 0

theorem A_eq1 (hO : Ok1 V) (c : Dev nD) (w : Fin (cfgM1 V hO).W) : (dat1 V hO c).A w = V c (Pipeline.arrRef spec1 w) := by
  dsimp only [dat1]
theorem PhiS1_castSucc (hO : Ok1 V) (c : Dev nD) (t : Fin (cfgM1 V hO).N) :
    (dat1 V hO c).Φ t.castSucc = PhiS1 V hO c t.val (Nat.le_of_lt t.isLt) := by
  dsimp only [dat1]; simp only [Fin.coe_castSucc]
theorem after1_0 (hO : Ok1 V) (c : Dev nD) (t : Fin (cfgM1 V hO).N) : (dat1 V hO c).after 0 t = iblk1 V hO c 0 t := by dsimp only [dat1]; try rfl
theorem after1_1 (hO : Ok1 V) (c : Dev nD) (t : Fin (cfgM1 V hO).N) : (dat1 V hO c).after 1 t = iblk1 V hO c 1 t := by dsimp only [dat1]; try rfl
theorem after1_2 (hO : Ok1 V) (c : Dev nD) (t : Fin (cfgM1 V hO).N) : (dat1 V hO c).after 2 t = iblk1 V hO c 2 t := by dsimp only [dat1]; try rfl
theorem after1_3 (hO : Ok1 V) (c : Dev nD) (t : Fin (cfgM1 V hO).N) : (dat1 V hO c).after 3 t = iblk1 V hO c 3 t := by dsimp only [dat1]; try rfl
theorem after1_4 (hO : Ok1 V) (c : Dev nD) (t : Fin (cfgM1 V hO).N) : (dat1 V hO c).after 4 t = outAt1 V hO c t := by dsimp only [dat1]; try rfl

theorem before1_0 (hO : Ok1 V) (c : Dev nD) (t : Fin (cfgM1 V hO).N) (d) : (dat1 V hO c).before 0 t d = iblk1 V hO c 0 t :=
  before1_0_of V hO (dat1 V hO c) (A_eq1 V hO c 0) (after1_0 V hO c) t d
theorem before1_1 (hO : Ok1 V) (c : Dev nD) (t : Fin (cfgM1 V hO).N) (d) : (dat1 V hO c).before 1 t d = iblk1 V hO c 1 t :=
  before1_1_of V hO (dat1 V hO c) (A_eq1 V hO c 1) (after1_1 V hO c) t d
theorem before1_2 (hO : Ok1 V) (c : Dev nD) (t : Fin (cfgM1 V hO).N) (d) : (dat1 V hO c).before 2 t d = iblk1 V hO c 2 t :=
  before1_2_of V hO (dat1 V hO c) (A_eq1 V hO c 2) (after1_2 V hO c) t d
theorem before1_3 (hO : Ok1 V) (c : Dev nD) (t : Fin (cfgM1 V hO).N) (d) : (dat1 V hO c).before 3 t d = iblk1 V hO c 3 t :=
  before1_3_of V hO (dat1 V hO c) (A_eq1 V hO c 3) (after1_3 V hO c) t d

/-- What the body is called with at point `t`, the windows one by one, -/
def bodyPre1 (hO : Ok1 V) (c : Dev nD) (t : Fin (cfgM1 V hO).N) : sProp 𝕄 :=
  iprop((dat1 V hO c).Φ t.castSucc ∗ (dat1 V hO c).owesAt () t.castSucc
    ∗ (∃ d, owns (c : Thread nD τ) (ms1_0 V hO t) fullShare ((dat1 V hO c).before 0 t d))
    ∗ (∃ d, owns (c : Thread nD τ) (ms1_1 V hO t) fullShare ((dat1 V hO c).before 1 t d))
    ∗ (∃ d, owns (c : Thread nD τ) (ms1_2 V hO t) fullShare ((dat1 V hO c).before 2 t d))
    ∗ (∃ d, owns (c : Thread nD τ) (ms1_3 V hO t) fullShare ((dat1 V hO c).before 3 t d))
    ∗ (∃ d, owns (c : Thread nD τ) (ms1_4 V hO t) fullShare ((dat1 V hO c).before 4 t d)))

/-- and what it returns. -/
def bodyPost1 (hO : Ok1 V) (c : Dev nD) (t : Fin (cfgM1 V hO).N) : sProp 𝕄 :=
  iprop((dat1 V hO c).Φ t.succ ∗ (dat1 V hO c).owesAt () t.succ
    ∗ (dat1 V hO c).leavesExact 0 t
    ∗ (dat1 V hO c).leavesExact 1 t
    ∗ (dat1 V hO c).leavesExact 2 t
    ∗ (dat1 V hO c).leavesExact 3 t
    ∗ (dat1 V hO c).leavesExact 4 t)

/-- The windows' idle flags at a point, stated at the pinned configuration. -/
theorem liveAtM1_0 (hO : Ok1 V) (t : Fin (cfgM1 V hO).N) : (cfgM1 V hO).idle 0 ((cfgM1 V hO).grid.coords t) = false := rfl
theorem liveAtM1_1 (hO : Ok1 V) (t : Fin (cfgM1 V hO).N) : (cfgM1 V hO).idle 1 ((cfgM1 V hO).grid.coords t) = false := rfl
theorem liveAtM1_2 (hO : Ok1 V) (t : Fin (cfgM1 V hO).N) : (cfgM1 V hO).idle 2 ((cfgM1 V hO).grid.coords t) = false := rfl
theorem liveAtM1_3 (hO : Ok1 V) (t : Fin (cfgM1 V hO).N) : (cfgM1 V hO).idle 3 ((cfgM1 V hO).grid.coords t) = false := rfl
theorem idleAtM1_4 (hO : Ok1 V) (t : Fin (cfgM1 V hO).N) (h : ¬cond1_1 (grid1.coords t)) :
    (cfgM1 V hO).idle 4 ((cfgM1 V hO).grid.coords t) = true := idleAt1_4 (adm1 V hO) (grid1.coords t) h
theorem liveAtM1_4 (hO : Ok1 V) (t : Fin (cfgM1 V hO).N) (h : cond1_1 (grid1.coords t)) :
    (cfgM1 V hO).idle 4 ((cfgM1 V hO).grid.coords t) = false := liveAt1_4 (adm1 V hO) (grid1.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body1 (hO : Ok1 V) (c : Dev nD) (t : Fin (cfgM1 V hO).N) :
    bodyPre1 V hO c t ⊢ wp frame (wpE (defs₀ (F := F)) Variants.none c none) Set.univ (bodyAt1 (adm1 V hO) t) (fun _ => bodyPost1 V hO c t) := by
  unfold bodyPre1 bodyPost1 bodyAt1
  simp only [before1_0, before1_1, before1_2, before1_3]
  rw [show (dat1 V hO c).owesAt () t.succ = (dat1 V hO c).owesAt () t.castSucc from rfl]
  rw [show (dat1 V hO c).Φ t.succ = PhiS1 V hO c (t.val + 1) t.isLt from rfl, PhiS1_succ]
  rw [show (dat1 V hO c).leavesExact 0 t = owns (c : Thread nD τ) (ms1_0 V hO t) fullShare ((dat1 V hO c).after 0 t) from by
    unfold Dat.leavesExact; rw [liveAtM1_0 V hO t]; try rfl]
  rw [after1_0]
  rw [show (dat1 V hO c).leavesExact 1 t = owns (c : Thread nD τ) (ms1_1 V hO t) fullShare ((dat1 V hO c).after 1 t) from by
    unfold Dat.leavesExact; rw [liveAtM1_1 V hO t]; try rfl]
  rw [after1_1]
  rw [show (dat1 V hO c).leavesExact 2 t = owns (c : Thread nD τ) (ms1_2 V hO t) fullShare ((dat1 V hO c).after 2 t) from by
    unfold Dat.leavesExact; rw [liveAtM1_2 V hO t]; try rfl]
  rw [after1_2]
  rw [show (dat1 V hO c).leavesExact 3 t = owns (c : Thread nD τ) (ms1_3 V hO t) fullShare ((dat1 V hO c).after 3 t) from by
    unfold Dat.leavesExact; rw [liveAtM1_3 V hO t]; try rfl]
  rw [after1_3]
  rw [PhiS1_castSucc]
  by_cases h0 : cond1_0 (grid1.coords t)
  · by_cases h1 : cond1_1 (grid1.coords t)
    · exact absurd h1 (fun h => not_both1 _ h0 h)
    · rw [Dat.leavesExact_idle (dat1 V hO c) 4 t (idleAtM1_4 V hO t h1) (noFlush1_4 (adm1 V hO) t h1)]
      rw [accAt1_A V hO c t h0]
      by_cases hz : t.val = 0
      · rw [PhiS1_zero V hO c _ _ hz]
        iintro ⟨⟨HS, HR⟩, Ho, ⟨%d0, H0⟩, ⟨%d1, H1⟩, ⟨%d2, H2⟩, ⟨%d3, H3⟩, ⟨%d4, H4⟩⟩
        iapply (run1_A c (grid1.coords t) _ _ _ _ _ _ _ _ _ _ _ _ _ _ h0 h1 (xrow1 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS1_pos V hO c _ _ hz]
        iintro ⟨⟨HS, HR⟩, Ho, ⟨%d0, H0⟩, ⟨%d1, H1⟩, ⟨%d2, H2⟩, ⟨%d3, H3⟩, ⟨%d4, H4⟩⟩
        iapply (run1_A c (grid1.coords t) _ _ _ _ _ _ _ _ _ _ _ _ _ _ h0 h1 (xrow1 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond1_0_first t hz)
    rw [PhiS1_pos V hO c _ _ hz, accAt1_B V hO c t h0 hz]
    by_cases h1 : cond1_1 (grid1.coords t)
    · rw [show (dat1 V hO c).leavesExact 4 t = owns (c : Thread nD τ) (ms1_4 V hO t) fullShare ((dat1 V hO c).after 4 t) from by
        unfold Dat.leavesExact; rw [liveAtM1_4 V hO t h1]; try rfl]
      rw [after1_4]
      unfold outAt1
      rw [accAt1_B V hO c t h0 hz]
      iintro ⟨⟨HS, HR⟩, Ho, ⟨%d0, H0⟩, ⟨%d1, H1⟩, ⟨%d2, H2⟩, ⟨%d3, H3⟩, ⟨%d4, H4⟩⟩
      iapply (run1_C c (grid1.coords t) _ _ _ _ _ _ _ _ _ _ _ _ _ _ h0 h1 (xrow1 V hO c t) (xpa1 V hO c t) (xw1 V hO c t) (xb1 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat1 V hO c) 4 t (idleAtM1_4 V hO t h1) (noFlush1_4 (adm1 V hO) t h1)]
      iintro ⟨⟨HS, HR⟩, Ho, ⟨%d0, H0⟩, ⟨%d1, H1⟩, ⟨%d2, H2⟩, ⟨%d3, H3⟩, ⟨%d4, H4⟩⟩
      iapply (run1_B c (grid1.coords t) _ _ _ _ _ _ _ _ _ _ _ _ _ _ h0 h1 (xrow1 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (hO : Ok1 V) (c : Dev nD) :
    BodyObligation (dat1 (F := F) V hO c) (defs₀ (F := F)) Variants.none () Set.univ := fun t => by
  rw [bigSep_W1, bigSep_W1]
  exact sound_body1 V hO c t

end Cert.KernelIdeal.Hand

end
-- ==== Proof.R1Val.lean ====
import proofs.«402893_j78554951844377_2_alg».proof.Proof.R1Acc
import proofs.«402893_j78554951844377_2_alg».proof.Proof.R1Grid
import proofs.«402893_j78554951844377_2_alg».proof.Proof.OkTablesT
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 1: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt1 (t : Fin grid1.N) : t.val / 32 < 2048 := by
  have ht : t.val < 65536 := N_1 ▸ t.isLt
  omega

/-- The last feature of sample `r` is a point of the grid. -/
theorem lastPt_lt1 (r : ℕ) (hr : r < 2048) : 32 * r + 31 < grid1.N := by rw [N_1]; omega

/-- Under the side condition every word the index map of window 0 reads names a row of the embedding table. -/
theorem tword1_lt (pf : pre1.Contents (Elt F)) (h : ok1 pf) (i : grid1.Coords) : (tword1 pf i).toNat < 786432 := by
  obtain ⟨hb, -⟩ := h i
  have h0 := hb 0
  rw [transform1_eq pf i] at h0
  have h0' : ((tword1 pf i).toNat + 1) * 1 ≤ 786432 := h0
  omega

/-- Window 0's block at point `t` is the row the table's word names. -/
theorem index1_0 (a : (pcfg1 (F := F)).Adm) (t : Fin (cfg1 a).N) :
    ((cfg1 a).win 0).index t = ![(tword1 a.1 (grid1.coords t)).toNat, 0, 0] :=
  transform1_eq a.1 (grid1.coords t)

/-- Lane `l` of window 0's block sits in the embedding table at (the named row, 0, l). -/
theorem emb1_0 (a : (pcfg1 (F := F)).Adm) (t : Fin (cfg1 a).N) (l : Fin 128) :
    (((cfg1 a).win 0).blk t).view.emb (ValueIdx.ix3 (0 : Fin 1) (0 : Fin 1) l)
      = ValueIdx.ix3 (⟨(tword1 a.1 (grid1.coords t)).toNat, tword1_lt a.1 a.2 (grid1.coords t)⟩ : Fin 786432) (0 : Fin 1) l := by
  funext d; apply Fin.ext
  match d with
  | ⟨0, _⟩ => show ((cfg1 a).win 0).index t (0 : Fin 3) * 1 + 1 * 0 = (tword1 a.1 (grid1.coords t)).toNat; rw [index1_0]; show (tword1 a.1 (grid1.coords t)).toNat * 1 + 1 * 0 = _; omega
  | ⟨1, _⟩ => show ((cfg1 a).win 0).index t (1 : Fin 3) * 1 + 1 * 0 = 0; rw [index1_0]; rfl
  | ⟨2, _⟩ => show ((cfg1 a).win 0).index t (2 : Fin 3) * 128 + 1 * l.val = l.val; rw [index1_0]; show 0 * 128 + 1 * l.val = l.val; omega

/-- Lane `l` of window 1's block sits in its array at (sample, 0, l). -/
theorem emb1_1 (a : (pcfg1 (F := F)).Adm) (t : Fin (cfg1 a).N) (l : Fin 128) :
    (((cfg1 a).win 1).blk t).view.emb (ValueIdx.ix3 (0 : Fin 1) (0 : Fin 1) l)
      = ValueIdx.ix3 (⟨t.val / 32, sample_lt1 t⟩ : Fin 2048) (0 : Fin 1) l := by
  funext d; apply Fin.ext
  match d with
  | ⟨0, _⟩ => show ((cfg1 a).win 1).index t (0 : Fin 3) * 1 + 1 * 0 = t.val / 32; rw [index1_1]; show t.val / 32 * 1 + 1 * 0 = _; omega
  | ⟨1, _⟩ => show ((cfg1 a).win 1).index t (1 : Fin 3) * 1 + 1 * 0 = 0; rw [index1_1]; rfl
  | ⟨2, _⟩ => show ((cfg1 a).win 1).index t (2 : Fin 3) * 128 + 1 * l.val = l.val; rw [index1_1]; show 0 * 128 + 1 * l.val = l.val; omega

/-- Lane `l` of window 2's block sits in its array at (sample, 0, l). -/
theorem emb1_2 (a : (pcfg1 (F := F)).Adm) (t : Fin (cfg1 a).N) (l : Fin 128) :
    (((cfg1 a).win 2).blk t).view.emb (ValueIdx.ix3 (0 : Fin 1) (0 : Fin 1) l)
      = ValueIdx.ix3 (⟨t.val / 32, sample_lt1 t⟩ : Fin 2048) (0 : Fin 1) l := by
  funext d; apply Fin.ext
  match d with
  | ⟨0, _⟩ => show ((cfg1 a).win 2).index t (0 : Fin 3) * 1 + 1 * 0 = t.val / 32; rw [index1_2]; show t.val / 32 * 1 + 1 * 0 = _; omega
  | ⟨1, _⟩ => show ((cfg1 a).win 2).index t (1 : Fin 3) * 1 + 1 * 0 = 0; rw [index1_2]; rfl
  | ⟨2, _⟩ => show ((cfg1 a).win 2).index t (2 : Fin 3) * 128 + 1 * l.val = l.val; rw [index1_2]; show 0 * 128 + 1 * l.val = l.val; omega

/-- The one element of window 3's block sits in its array at (sample, 0, 0). -/
theorem emb1_3 (a : (pcfg1 (F := F)).Adm) (t : Fin (cfg1 a).N) :
    (((cfg1 a).win 3).blk t).view.emb (ValueIdx.ix3 (0 : Fin 1) (0 : Fin 1) (0 : Fin 1))
      = ValueIdx.ix3 (⟨t.val / 32, sample_lt1 t⟩ : Fin 2048) (0 : Fin 1) (0 : Fin 1) := by
  funext d; apply Fin.ext
  match d with
  | ⟨0, _⟩ => show ((cfg1 a).win 3).index t (0 : Fin 3) * 1 + 1 * 0 = t.val / 32; rw [index1_3]; show t.val / 32 * 1 + 1 * 0 = _; omega
  | ⟨1, _⟩ => show ((cfg1 a).win 3).index t (1 : Fin 3) * 1 + 1 * 0 = 0; rw [index1_3]; rfl
  | ⟨2, _⟩ => show ((cfg1 a).win 3).index t (2 : Fin 3) * 1 + 1 * 0 = 0; rw [index1_3]; rfl

/-- The one element of the result window's block sits in the result array at (sample, 0, 0). -/
theorem emb1_4 (a : (pcfg1 (F := F)).Adm) (t : Fin (cfg1 a).N) :
    (((cfg1 a).win 4).blk t).view.emb (ValueIdx.ix3 (0 : Fin 1) (0 : Fin 1) (0 : Fin 1))
      = ValueIdx.ix3 (⟨t.val / 32, sample_lt1 t⟩ : Fin 2048) (0 : Fin 1) (0 : Fin 1) := by
  funext d; apply Fin.ext
  match d with
  | ⟨0, _⟩ => show ((cfg1 a).win 4).index t (0 : Fin 3) * 1 + 1 * 0 = t.val / 32; rw [index1_4]; show t.val / 32 * 1 + 1 * 0 = _; omega
  | ⟨1, _⟩ => show ((cfg1 a).win 4).index t (1 : Fin 3) * 1 + 1 * 0 = 0; rw [index1_4]; rfl
  | ⟨2, _⟩ => show ((cfg1 a).win 4).index t (2 : Fin 3) * 1 + 1 * 0 = 0; rw [index1_4]; rfl

section AtTable

variable (V : (c : Dev nD) → (b : Ref sig .tc) → Buf (Elt F) ((c : Thread nD τ).loc b))

/-! ## The input blocks at coordinates -/

/-- The row of the embedding table gathered at point `t`: the table's word there. -/
abbrev rho1 (t : Fin grid1.N) : ℕ := (tword1 (tbl1 V) (grid1.coords t)).toNat

/-- It is a row of the table, under the side condition. -/
theorem rho1_lt (hO : Ok1 V) (t : Fin grid1.N) : rho1 V t < 786432 := tword1_lt (tbl1 V) hO (grid1.coords t)

/-- Lane `l` of the gathered row at point `t` is the embedding table at (the named row, 0, l). -/
theorem xrow1_apply (hO : Ok1 V) (c : Dev nD) (t : Fin (cfgM1 V hO).N) (l : Fin 128) :
    xrow1 V hO c t (ValueIdx.ix3 (0 : Fin 1) (0 : Fin 1) l)
      = V c main_v34 (ValueIdx.ix3 (⟨rho1 V t, rho1_lt V hO t⟩ : Fin 786432) (0 : Fin 1) l) := by
  show V c main_v34 ((((cfgM1 V hO).win 0).blk t).view.emb (ValueIdx.ix3 (0 : Fin 1) (0 : Fin 1) l)) = _
  exact congrArg (V c main_v34) (emb1_0 (adm1 V hO) t l)

/-- Lane `l` of the phase-bias block at point `t` is its array at (sample, 0, l). -/
theorem xpa1_apply (hO : Ok1 V) (c : Dev nD) (t : Fin (cfgM1 V hO).N) (l : Fin 128) :
    xpa1 V hO c t (ValueIdx.ix3 (0 : Fin 1) (0 : Fin 1) l)
      = V c main_v43 (ValueIdx.ix3 (⟨t.val / 32, sample_lt1 t⟩ : Fin 2048) (0 : Fin 1) l) := by
  show V c main_v43 ((((cfgM1 V hO).win 1).blk t).view.emb (ValueIdx.ix3 (0 : Fin 1) (0 : Fin 1) l)) = _
  exact congrArg (V c main_v43) (emb1_1 (adm1 V hO) t l)

/-- Lane `l` of the head-weight block at point `t` is its array at (sample, 0, l). -/
theorem xw1_apply (hO : Ok1 V) (c : Dev nD) (t : Fin (cfgM1 V hO).N) (l : Fin 128) :
    xw1 V hO c t (ValueIdx.ix3 (0 : Fin 1) (0 : Fin 1) l)
      = V c main_v44 (ValueIdx.ix3 (⟨t.val / 32, sample_lt1 t⟩ : Fin 2048) (0 : Fin 1) l) := by
  show V c main_v44 ((((cfgM1 V hO).win 2).blk t).view.emb (ValueIdx.ix3 (0 : Fin 1) (0 : Fin 1) l)) = _
  exact congrArg (V c main_v44) (emb1_2 (adm1 V hO) t l)

/-- The head-bias block at point `t` is its array at (sample, 0, 0). -/
theorem xb1_apply (hO : Ok1 V) (c : Dev nD) (t : Fin (cfgM1 V hO).N) :
    xb1 V hO c t (ValueIdx.ix3 (0 : Fin 1) (0 : Fin 1) (0 : Fin 1))
      = V c main_v45 (ValueIdx.ix3 (⟨t.val / 32, sample_lt1 t⟩ : Fin 2048) (0 : Fin 1) (0 : Fin 1)) := by
  show V c main_v45 ((((cfgM1 V hO).win 3).blk t).view.emb (ValueIdx.ix3 (0 : Fin 1) (0 : Fin 1) (0 : Fin 1))) = _
  exact congrArg (V c main_v45) (emb1_3 (adm1 V hO) t)

/-! ## The arrays after the run -/

/-- An input's array is never written: it ends as the region found it. -/
theorem arrAt1_in (hO : Ok1 V) (c : Dev nD) (w : Fin 5) (hw : w ≠ 4) :
    (dat1 V hO c).arrAt w (cfgM1 V hO).N = V c (Pipeline.arrRef spec1 w) := by
  have hin : ((cfgM1 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat1 V hO c).arrAt_in w hin _).trans (A_eq1 V hO c w)

/-- THE RESULT ARRAY of the tile: row `r` holds what the body left in the result block at sample `r`'s last feature. -/
def tileRes1 (hO : Ok1 V) (c : Dev nD) : Buf (Elt F) ((c : Thread nD τ).loc main_v46) :=
  fun (i : S2048x1x1.Idx) => outAt1 V hO c ⟨32 * (i 0).val + 31, lastPt_lt1 (i 0).val (i 0).isLt⟩ (ValueIdx.ix3 (0 : Fin 1) (0 : Fin 1) (0 : Fin 1))

theorem tileRes1_apply (hO : Ok1 V) (c : Dev nD) (r : Fin 2048) :
    tileRes1 V hO c (ValueIdx.ix3 r (0 : Fin 1) (0 : Fin 1))
      = outAt1 V hO c ⟨32 * r.val + 31, lastPt_lt1 r.val r.isLt⟩ (ValueIdx.ix3 (0 : Fin 1) (0 : Fin 1) (0 : Fin 1)) := rfl

/-- The result block read at two names of one point. -/
theorem outAt1_congr (hO : Ok1 V) (c : Dev nD) {t t' : Fin (cfgM1 V hO).N} (h : t.val = t'.val) (j : S1x1x1.Idx) :
    outAt1 V hO c t j = outAt1 V hO c t' j := by
  obtain rfl : t = t' := Fin.ext h
  rfl

/-- What a write-back writes is the written row of `tileRes1`: the point is its sample's last feature `32 (t / 32) + 31`,
    and the block's one element is the row's. -/
theorem flushed1_4_eq (hO : Ok1 V) (c : Dev nD) (t : Fin (cfgM1 V hO).N) (hf : ((cfgM1 V hO).win 4).flush t = true) :
    (dat1 V hO c).flushed 4 t = (((cfgM1 V hO).win 4).blk t).view.read (Elt F) (tileRes1 V hO c) := by
  have h31 : t.val % 32 = 31 := (flush1_4_iff (adm1 V hO) t).mp hf
  show ((cfgM1 V hO).win 4).cut (grid1.coords t) ((dat1 V hO c).after 4 t) = _
  rw [after1_4]
  funext j
  have hj : (((cfgM1 V hO).win 4).xinj (grid1.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM1 V hO).win 4).blk t).view.emb j : S2048x1x1.Idx) (0 : Fin 3)).val + 31 := by
    have h : (j (0 : Fin 3)).val < 1 := (j (0 : Fin 3)).isLt
    show t.val = 32 * (((cfgM1 V hO).win 4).index t (0 : Fin 3) * 1 + 1 * (j (0 : Fin 3)).val) + 31
    rw [index1_4]
    show t.val = 32 * (t.val / 32 * 1 + 1 * (j (0 : Fin 3)).val) + 31
    omega
  show outAt1 V hO c t (((cfgM1 V hO).win 4).xinj (grid1.coords t) j) = tileRes1 V hO c ((((cfgM1 V hO).win 4).blk t).view.emb j)
  rw [hj]
  exact outAt1_congr V hO c hv _

/-- Every row of the result array is some write-back's block: row `r` is the block of point `32 r + 31`. -/
theorem cover1_4 (hO : Ok1 V) (i : S2048x1x1.Idx) :
    ∃ t : Fin (cfgM1 V hO).N, ((cfgM1 V hO).win 4).flush t = true ∧ i ∈ (((cfgM1 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt1 _ h0⟩, (flush1_4_iff (adm1 V hO) _).mpr (by show (32 * (i 0).val + 31) % 32 = 31; omega), ?_⟩
  have he : (((cfgM1 V hO).win 4).blk ⟨32 * (i 0).val + 31, lastPt_lt1 _ h0⟩).view.emb (ValueIdx.ix3 (0 : Fin 1) (0 : Fin 1) (0 : Fin 1)) = i := by
    refine (emb1_4 (adm1 V hO) ⟨32 * (i 0).val + 31, lastPt_lt1 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM1 V hO).win 4).blk ⟨32 * (i 0).val + 31, lastPt_lt1 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes1`. -/
theorem arrAt1_4 (hO : Ok1 V) (c : Dev nD) : (dat1 V hO c).arrAt 4 (cfgM1 V hO).N = tileRes1 V hO c :=
  (dat1 V hO c).arrAt_eq_of_cover 4 (tileRes1 V hO c) (fun t hf => flushed1_4_eq V hO c t hf) (fun i => cover1_4 V hO i)

end AtTable

end Cert.KernelIdeal.Hand

end
-- ==== Proof.R1Seg.lean ====
/-
  Tile 1's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 1's admissible contents and
  proof data is ten small facts (`Pinned1`); they hold of tile 1's own (`pinned_dat1`) and so of any family whose
  component 1 is tile 1's (`Pinned1.of_eq`).
-/
import proofs.«402893_j78554951844377_2_alg».proof.Proof.R1Acc
import proofs.«402893_j78554951844377_2_alg».proof.Proof.Family
import proofs.«402893_j78554951844377_2_alg».proof.Proof.Glue
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 1's contents and proof data -/

variable (Vin : (c : Dev nD) → (b : Ref sig .tc) → Buf (Elt F) ((c : Thread nD τ).loc b))

/-- The scratch operand owned whole at some contents is its buffer held at some contents. -/
theorem scratch1_eq (c : Dev nD) :
    (iprop(∃ d, owns (c : Thread nD τ) scM1 fullShare d) : sProp 𝕄)
      = iprop(∃ f : Buf (Elt F) ((c : Thread nD τ).loc cc1_scratch0), ((c : Thread nD τ).loc cc1_scratch0) ↦{fullShare} f) := by
  simp only [scM1, owns_whole]; try rfl

/-- What the record needs of pipeline 1's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned1 (Vx : Dev nD → Valuation τ sig (Elt F)) (a0 : (pcfgs (F := F) 1).Adm)
    (d0 : (c : Dev nD) → Dat τ (Elt F) Unit ℕ (UR sig nD τ) ℕ ((pcfgs (F := F) 1).at a0) c) : Prop where
  tbl : a0.1 = tbl1 Vin
  q : ∀ (c : Dev nD) w, (d0 c).q w = fullShare
  A : ∀ (c : Dev nD) w, (d0 c).A w = Vin c (Pipeline.arrRef spec1 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM1 fullShare d) ∗ Rest1 Vin c) : sProp 𝕄) ⊢ (d0 c).Φ 0
  phiOut : ∀ c : Dev nD, (d0 c).Φ (Fin.last _) ⊢ (iprop((∃ d, owns (c : Thread nD τ) scM1 fullShare d) ∗ Rest1 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 1).at a0).N = Vx c (Pipeline.arrRef spec1 w)

set_option maxHeartbeats 400000 in
/-- Tile 1's own contents and proof data have them: each field by unfolding the proof data; the last stage of the
    invariant is a later one (the grid has 65536 points), so it holds the scratch at the last point's contents. -/
theorem pinned_dat1 (hO : Ok1 Vin) (Vx : Dev nD → Valuation τ sig (Elt F))
    (hF : ∀ c w, (dat1 Vin hO c).arrAt w (cfgM1 Vin hO).N = Vx c (Pipeline.arrRef spec1 w)) :
    Pinned1 Vin Vx (adm1 Vin hO) (dat1 Vin hO) where
  tbl := rfl
  q c w := rfl
  A c w := A_eq1 Vin hO c w
  owed c t := rfl
  body c := (body_obligation1 Vin hO c).loose
  phiIn c := by
    rw [show (dat1 Vin hO c).Φ 0 = PhiS1 Vin hO c ((0 : Fin ((cfgM1 Vin hO).N + 1)).val) (Nat.le_of_lt_succ (0 : Fin ((cfgM1 Vin hO).N + 1)).isLt) from rfl,
      PhiS1_zero Vin hO c _ _ (Fin.val_zero _)]
  phiOut c := by
    have hN : (Fin.last (cfgM1 Vin hO).N).val ≠ 0 := by
      rw [Fin.val_last, show (cfgM1 Vin hO).N = grid1.N from rfl, N_1]; decide
    show PhiS1 Vin hO c (Fin.last (cfgM1 Vin hO).N).val (Nat.le_of_lt_succ (Fin.last (cfgM1 Vin hO).N).isLt) ⊢ _
    rw [PhiS1_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 1's. -/
theorem Pinned1.of_eq (hO : Ok1 Vin) {Vx : Dev nD → Valuation τ sig (Elt F)} {a0 : (pcfgs (F := F) 1).Adm}
    {d0 : (c : Dev nD) → Dat τ (Elt F) Unit ℕ (UR sig nD τ) ℕ ((pcfgs (F := F) 1).at a0) c}
    (ha : a0 = adm1 Vin hO) (hd : ∀ c, HEq (d0 c) (dat1 Vin hO c)) (h : Pinned1 Vin Vx (adm1 Vin hO) (dat1 Vin hO)) :
    Pinned1 Vin Vx a0 d0 := by
  subst ha
  obtain rfl : d0 = dat1 Vin hO := funext fun c => eq_of_heq (hd c)
  exact h

/-! ## The record -/

set_option backward.isDefEq.respectTransparency.types false in
set_option maxHeartbeats 1600000 in
/-- Tile 1's region over ANY family of pipelines whose component 1 is tile 1's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg1G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok1 Vin) (ha : a 1 = adm1 Vin hO) (hd : ∀ c, HEq (pdats 1 c) (dat1 Vin hO c))
    (hag : ∀ c w, V c (Proc.devRef .tc (Pipeline.arrRef spec1 w)) = Vin c (Pipeline.arrRef spec1 w))
    (hagT : ∀ c j, V c (Proc.devRef .tc (pre1.ref j)) = Vin c (pre1.ref j))
    (hF : ∀ c w, (dat1 Vin hO c).arrAt w (cfgM1 Vin hO).N = Vx c (Pipeline.arrRef spec1 w))
    (hrest : ∀ c b, b ∉ Finset.univ.image (Pipeline.arrRef spec1) → Vx c b = V c b) :
    Pipeline.RegionSeg (pcfgs (F := F)) a pdats () defs₀ Variants.none (fun _ => ∅) (fun _ _ => 0) 1 :=
  have hp : Pinned1 Vin Vx (a 1) (pdats 1) := Pinned1.of_eq Vin hO ha hd (pinned_dat1 Vin hO Vx hF)
  have htbl : ∀ c, (fun k => V c (Proc.devRef .tc ((pcfgs (F := F) 1).pre.ref k))) = (a 1).1 := fun c => by
    rw [hp.tbl]; funext k; exact (hagT c k).trans (V_pre1 Vin c k)
  { win := (launch1 (F := F)).win.to₀
    block_pos := (launch1 (F := F)).block_pos
    stage_whole := (launch1 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 1 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre1 c (fun _ => fullShare) (tbl1 Vin))
    Z := fun c => Pipeline.unscopedRestP (Ix := Unit) (Name := ℕ) (U := UR sig nD τ) (Lvl := ℕ) pre1 spec1 c (fun b => V c b)
    hentry := fun c => by
      rw [Pipeline.ownSems0_none]
      have hsplit := Pipeline.arrays_of_unscopedBufs (p := 1) (pcfgs (F := F)) a pdats (launch1 (F := F)).win (launch1 (F := F)).arr_whole c
        ((pdats 1 c).share_full (hp.q c)) (fun b => V c b) (fun w => (hp.A c w).trans (hag c w).symm)
      rw [Pipeline.unscopedBufs_held, Pipeline.unscopedRest_split (launch1 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 1).spec c : sProp 𝕄) = _ from scopedRest1_split c, hp.tbl]
      refine BIBase.Entails.trans ?_ (hp.phiIn c)
      rw [scratch1_eq]
      unfold Rest1
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 1).spec c : sProp 𝕄) = _ from scopedRest1_split c]
      refine BIBase.Entails.trans (hp.phiOut c) ?_
      rw [scratch1_eq]
      unfold Rest1
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 1) (pcfgs (F := F)) a (Ix := Unit) (Name := ℕ) (U := UR sig nD τ) (Lvl := ℕ)
        (launch1 (F := F)).win (launch1 (F := F)).arr_whole c pdats ((pdats 1 c).share_full (hp.q c))
        (fun b => V c b) (fun b => Vx c b) ((pdats 1 c).arrAt · (Pipeline.pin (pcfgs (F := F)) a 1).N) (hp.fin c) (hrest c)
      rw [Pipeline.unscopedBufs_held, Pipeline.unscopedRest_split (launch1 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 1's record over the assembled families, tile 1's components in slot 1. -/
def reg1 (hO : Ok1 Vin) (V Vx : Dev nD → Valuation τ sig (Elt F))
    (hag : ∀ c w, V c (Proc.devRef .tc (Pipeline.arrRef spec1 w)) = Vin c (Pipeline.arrRef spec1 w))
    (hagT : ∀ c j, V c (Proc.devRef .tc (pre1.ref j)) = Vin c (pre1.ref j))
    (hF : ∀ c w, (dat1 Vin hO c).arrAt w (cfgM1 Vin hO).N = Vx c (Pipeline.arrRef spec1 w))
    (hrest : ∀ c b, b ∉ Finset.univ.image (Pipeline.arrRef spec1) → Vx c b = V c b)
    (a0 : (pcfg0 (F := F)).Adm)
    (a2 : (pcfg2 (F := F)).Adm)
    (a3 : (pcfg3 (F := F)).Adm)
    (a4 : (pcfg4 (F := F)).Adm)
    (a5 : (pcfg5 (F := F)).Adm)
    (a6 : (pcfg6 (F := F)).Adm)
    (a7 : (pcfg7 (F := F)).Adm)
    (d0 : (c : Dev nD) → Dat τ (Elt F) Unit ℕ (UR sig nD τ) ℕ (cfg0 a0) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 (adm1 Vin hO) a2 a3 a4 a5 a6 a7)
      (pdatsOf a0 (adm1 Vin hO) a2 a3 a4 a5 a6 a7 d0 (dat1 Vin hO) d2 d3 d4 d5 d6 d7) () defs₀ Variants.none (fun _ => ∅) (fun _ _ => 0) 1 :=
  reg1G Vin V Vx _ _ hO rfl (fun _ => HEq.rfl) hag hagT hF hrest

/-- The thread state the record is entered from, -/
theorem reg1_pre (hO : Ok1 Vin) (V Vx : Dev nD → Valuation τ sig (Elt F)) (hag) (hagT) (hF) (hrest) (a0) (a2) (a3) (a4) (a5) (a6) (a7) (d0) (d2) (d3) (d4) (d5) (d6) (d7) (c : Dev nD) :
    (reg1 Vin hO V Vx hag hagT hF hrest a0 a2 a3 a4 a5 a6 a7 d0 d2 d3 d4 d5 d6 d7).pre c
      = iprop(StableHlo.held (c : Thread nD τ) (Pipeline.ucRefs τ sig) (V c) ∗ Rr (F := F) c) := rfl
/-- and the one it leaves. -/
theorem reg1_post (hO : Ok1 Vin) (V Vx : Dev nD → Valuation τ sig (Elt F)) (hag) (hagT) (hF) (hrest) (a0) (a2) (a3) (a4) (a5) (a6) (a7) (d0) (d2) (d3) (d4) (d5) (d6) (d7) (c : Dev nD) :
    (reg1 Vin hO V Vx hag hagT hF hrest a0 a2 a3 a4 a5 a6 a7 d0 d2 d3 d4 d5 d6 d7).post c
      = iprop(StableHlo.held (c : Thread nD τ) (Pipeline.ucRefs τ sig) (Vx c) ∗ Rr (F := F) c) := rfl

end Cert.KernelIdeal.Hand

end
-- ==== Proof.R1Agree.lean ====
import proofs.«402893_j78554951844377_2_alg».proof.Proof.KHostT1
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

/-! # Tile 1: what the region reads does not depend on what earlier regions left

The table, the embedding table, the three slices and the (not yet written) result array of tile 1 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree1_tbl : V7 m outs c main_v42 = V7 m outs' c main_v42 := by
  funext (j : S65536.Idx)
  obtain ⟨a, rfl⟩ : ∃ a : Fin 65536, j = ValueIdx.ix1 a := ⟨j 0, ValueIdx.eq_ix1 j⟩
  rw [tbl1_apply m outs c, tbl1_apply m outs' c]

theorem agree1_emb : V7 m outs c main_v34 = V7 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb1_apply m outs c, emb1_apply m outs' c]

theorem agree1_pa : V7 m outs c main_v43 = V7 m outs' c main_v43 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa1_apply m outs c, pa1_apply m outs' c]

theorem agree1_w : V7 m outs c main_v44 = V7 m outs' c main_v44 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w1_apply m outs c, w1_apply m outs' c]

theorem agree1_b : V7 m outs c main_v45 = V7 m outs' c main_v45 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b1_apply m outs c, b1_apply m outs' c]

/-- The result array has not been written when the region is entered: it holds its launch contents. -/
theorem entry1_out : V7 m outs c main_v46 = V5 m c main_v46 :=
  (V7_of m outs c main_v46 (by decide)).trans (V6_of m outs c main_v46 (by decide))

theorem agree1_out : V7 m outs c main_v46 = V7 m outs' c main_v46 :=
  (entry1_out m outs c).trans (entry1_out m outs' c).symm

end Cert.KernelIdeal.Hand

end
-- ==== Proof.R2Run.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R0Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 2: the kernel body at one grid point

Tile 2's kernel function is tile 0's (the same body, the same payloads and conditions under other names), so its three
runs are tile 0's. -/

/-- The body's first condition: the feature coordinate is 0. -/
abbrev cond2_0 (i : grid2.Coords) : Prop := (Scalar.cmpi .ne (Scalar.extui (Scalar.cmpi .eq (BitVec.ofNat 32 (i 1).val) 0#32)) 0#32) = 1#1
/-- The body's second condition: the feature coordinate is 31. -/
abbrev cond2_1 (i : grid2.Coords) : Prop := k2_cond2 i = 1#1

/-- A MIDDLE feature: the scratch at `acc` ends at `acc + row`. -/
theorem run2_B (c : Dev nD) (i : grid2.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond2_0 i) (hc1 : ¬cond2_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k2_pay2 acc x3)) -∗ K ⟨⟩))
      ⊢ wp frame (wpE (defs₀ (F := F)) Variants.none c none) E (cc2__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run2_A (c : Dev nD) (i : grid2.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond2_0 i) (hc1 : ¬cond2_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k2_pay2 (k2_pay1 (F := F)) x3)) -∗ K ⟨⟩))
      ⊢ wp frame (wpE (defs₀ (F := F)) Variants.none c none) E (cc2__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run2_C (c : Dev nD) (i : grid2.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond2_0 i) (hc1 : cond2_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k2_pay3 (k2_pay2 acc x3) x4 x5 x6)
            ∗ owns (c : Thread nD τ) arg8 fullShare (k2_pay2 acc x3)) -∗ K ⟨⟩))
      ⊢ wp frame (wpE (defs₀ (F := F)) Variants.none c none) E (cc2__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.KernelIdeal.Hand

end
-- ==== Proof.R2Base.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R2Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 2: the pipeline at the table the region reads, its blocks and staging buffers

Everything here is stated at a PARAMETER `V`: the contents of the core's buffers when the region is entered. The
region's prefetched table is read off `V`; under the side condition that every word of it names a row of the embedding
table (`Ok2`) the pipeline is pinned at it, and each window's block at a grid point is a restriction of its array. -/

variable (V : (c : Dev nD) → (b : Ref sig .tc) → Buf (Elt F) ((c : Thread nD τ).loc b))

/-- The table's contents when the region is entered (one device). -/
def tbl2 : pre2.Contents (Elt F) := fun j => V (0 : Dev nD) (pre2.ref j)
/-- On every device the table holds those contents (there is one device). -/
theorem V_pre2 (c : Dev nD) (j : Fin 1) : V c (pre2.ref j) = tbl2 V j := by
  obtain rfl : c = 0 := Subsingleton.elim _ _; rfl
/-- Every block the table names lies inside the embedding table. -/
abbrev Ok2 : Prop := ok2 (F := F) (tbl2 V)
/-- The table as admissible contents, and the pipeline pinned at it. -/
abbrev adm2 (hO : Ok2 V) : (pcfg2 (F := F)).Adm := ⟨tbl2 V, hO⟩
abbrev cfgM2 (hO : Ok2 V) : Pipeline.Cfg sig Λ₀ := cfg2 (adm2 V hO)

/-- Window `w`'s block at point `t`, read off its array as the region finds it. -/
def iblk2 (hO : Ok2 V) (c : Dev nD) (w : Fin (cfgM2 V hO).W) (t : Fin (cfgM2 V hO).N) :
    (((cfgM2 V hO).win w).xblock ((cfgM2 V hO).grid.coords t)).Idx → Elt F ((cfgM2 V hO).win w).elt :=
  (((cfgM2 V hO).win w).blk t).view.read (Elt F) (V c (Pipeline.arrRef spec2 w))

/-- An input window's current staging buffer holds its block at every point, fetched there or not, for any proof
    data whose array is `V`'s and whose body leaves the block in place. -/
theorem before2_0_of (hO : Ok2 V) {c : Dev nD} (dat : Dat τ (Elt F) Unit ℕ (UR sig nD τ) ℕ (cfgM2 V hO) c) (hA : dat.A 0 = V c (Pipeline.arrRef spec2 0))
    (hafter : ∀ t, dat.after 0 t = iblk2 V hO c 0 t) (t : Fin (cfgM2 V hO).N) (d) : dat.before 0 t d = iblk2 V hO c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (hO : Ok2 V) {c : Dev nD} (dat : Dat τ (Elt F) Unit ℕ (UR sig nD τ) ℕ (cfgM2 V hO) c) (hA : dat.A 1 = V c (Pipeline.arrRef spec2 1))
    (hafter : ∀ t, dat.after 1 t = iblk2 V hO c 1 t) (t : Fin (cfgM2 V hO).N) (d) : dat.before 1 t d = iblk2 V hO c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of (hO : Ok2 V) {c : Dev nD} (dat : Dat τ (Elt F) Unit ℕ (UR sig nD τ) ℕ (cfgM2 V hO) c) (hA : dat.A 2 = V c (Pipeline.arrRef spec2 2))
    (hafter : ∀ t, dat.after 2 t = iblk2 V hO c 2 t) (t : Fin (cfgM2 V hO).N) (d) : dat.before 2 t d = iblk2 V hO c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of (hO : Ok2 V) {c : Dev nD} (dat : Dat τ (Elt F) Unit ℕ (UR sig nD τ) ℕ (cfgM2 V hO) c) (hA : dat.A 3 = V c (Pipeline.arrRef spec2 3))
    (hafter : ∀ t, dat.after 3 t = iblk2 V hO c 3 t) (t : Fin (cfgM2 V hO).N) (d) : dat.before 3 t d = iblk2 V hO c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, as the pipeline passes it, and its wholeness. -/
abbrev ms2_0 (hO : Ok2 V) (t : Fin (cfgM2 V hO).N) : Memref sig .tc .vmem S1x1x128 .f32 := spec2_0.stage ((cfgM2 V hO).slots t 0)
abbrev hs2_0 (hO : Ok2 V) (t : Fin (cfgM2 V hO).N) : (ms2_0 V hO t).IsWhole := hstage2_0 (((cfgM2 V hO).slots t 0).cast nbuf2_0)
abbrev ms2_1 (hO : Ok2 V) (t : Fin (cfgM2 V hO).N) : Memref sig .tc .vmem S1x1x128 .f32 := spec2_1.stage ((cfgM2 V hO).slots t 1)
abbrev hs2_1 (hO : Ok2 V) (t : Fin (cfgM2 V hO).N) : (ms2_1 V hO t).IsWhole := hstage2_1 (((cfgM2 V hO).slots t 1).cast nbuf2_1)
abbrev ms2_2 (hO : Ok2 V) (t : Fin (cfgM2 V hO).N) : Memref sig .tc .vmem S1x1x128 .f32 := spec2_2.stage ((cfgM2 V hO).slots t 2)
abbrev hs2_2 (hO : Ok2 V) (t : Fin (cfgM2 V hO).N) : (ms2_2 V hO t).IsWhole := hstage2_2 (((cfgM2 V hO).slots t 2).cast nbuf2_2)
abbrev ms2_3 (hO : Ok2 V) (t : Fin (cfgM2 V hO).N) : Memref sig .tc .vmem S1x1x1 .f32 := spec2_3.stage ((cfgM2 V hO).slots t 3)
abbrev hs2_3 (hO : Ok2 V) (t : Fin (cfgM2 V hO).N) : (ms2_3 V hO t).IsWhole := hstage2_3 (((cfgM2 V hO).slots t 3).cast nbuf2_3)
abbrev ms2_4 (hO : Ok2 V) (t : Fin (cfgM2 V hO).N) : Memref sig .tc .vmem S1x1x1 .f32 := spec2_4.stage ((cfgM2 V hO).slots t 4)
abbrev hs2_4 (hO : Ok2 V) (t : Fin (cfgM2 V hO).N) : (ms2_4 V hO t).IsWhole := hstage2_4 (((cfgM2 V hO).slots t 4).cast nbuf2_4)
/-- The scratch operand: a whole scoped buffer of the kernel's own. -/
abbrev scM2 : Memref sig .tc .vmem S1x1x128 .f32 := Memref.whole cc2_scratch0
/-- The table as the body is handed it. -/
abbrev tbM2 : Memref sig .tc .smem S65536 .i32 := Memref.whole main_v48

/-- The kernel body at point `t`, on what the pipeline calls it with. -/
abbrev bodyAt2 (a : (pcfg2 (F := F)).Adm) (t : Fin (cfg2 a).N) : Prog (TpuEff nD τ sig (Elt F) Λ₀ .tc) PUnit :=
  cc2__gather_kernel (grid2.coords t) (Memref.whole main_v48) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (Memref.whole cc2_scratch0) (Memref.isWhole_whole _)

/-- Off the last feature the result window is idle: the body stores nothing into it. -/
theorem idleAt2_4 (a : (pcfg2 (F := F)).Adm) (i : grid2.Coords) (h : ¬cond2_1 i) : (cfg2 a).idle 4 i = true := by
  show (!(k2_cond2 i == 1#1)) = true
  simp only [Bool.not_eq_true', beq_eq_false_iff_ne, ne_eq]; exact h
/-- On the last feature it is live. -/
theorem liveAt2_4 (a : (pcfg2 (F := F)).Adm) (i : grid2.Coords) (h : cond2_1 i) : (cfg2 a).idle 4 i = false := by
  show (!(k2_cond2 i == 1#1)) = false
  simp only [Bool.not_eq_false', beq_iff_eq]; exact h
/-- The input windows are never idle. -/
theorem liveAt2_0 (a : (pcfg2 (F := F)).Adm) (i : grid2.Coords) : (cfg2 a).idle 0 i = false := rfl
theorem liveAt2_1 (a : (pcfg2 (F := F)).Adm) (i : grid2.Coords) : (cfg2 a).idle 1 i = false := rfl
theorem liveAt2_2 (a : (pcfg2 (F := F)).Adm) (i : grid2.Coords) : (cfg2 a).idle 2 i = false := rfl
theorem liveAt2_3 (a : (pcfg2 (F := F)).Adm) (i : grid2.Coords) : (cfg2 a).idle 3 i = false := rfl

end Cert.KernelIdeal.Hand

end
-- ==== Proof.KHostT2.lean ====
/-
  Tile 2's five operands, entry by entry: what proof/Proof/KHost.lean says of tile 0, for the rows
  `[2048 · 2, 2048 · 2 + 2048)`. The arrays the tile's stretch reads were written before the first kernel region, and
  neither a region (each writes its own result array only) nor an earlier tile's stretch (each writes its own cuts
  only) touches them since.
-/
import proofs.«402893_j78554951844377_2_alg».proof.Proof.Gen.KernelIdeal.Regions
import proofs.«402893_j78554951844377_2_alg».proof.Proof.Spec
import proofs.«402893_j78554951844377_2_alg».proof.Proof.KHost
import Idealize.ShloMosaic.Lib.StableHlo.Run
import Idealize.ShloMosaic.Lib.Pipeline.Value
import Idealize.ShloMosaic.Lib.ValueLayout
import Idealize.ShloMosaic.Lib.ValueIdx

set_option maxRecDepth 1396

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]
variable (m : (ℓ : Loc nD τ sig) → Buf (Elt F) ℓ) (outs : Outs (F := F))

/-! ## Tile 2

Tile 2 (samples `2048 · 2 + r`, `r < 2048`) is entered at `V9 m outs c`: the stretch `hostOps2` cuts the
tile's rows out of the four host arrays (offset `2048 · 2` on the leading axis) and flattens the rows of gathered
indices into the tile's prefetched table, entry `j` of which is therefore row `j / 32`, feature `j % 32`. -/

section Tile2

/-- The arrays written before the first region are, at tile 2's entry, what they were at `V5 m c`: no region and no
    stretch in between writes them. -/
theorem ent2_of (c : Dev nD) (r : Ref sig .tc)
    (h6 : r ∉ ([main_v40] : List (Ref sig .tc))) (h7 : r ∉ hostOps1_W) (h8 : r ∉ ([main_v46] : List (Ref sig .tc)))
    (h9 : r ∉ hostOps2_W) :
    V9 m outs c r = V5 m c r :=
  (V9_of m outs c r h9).trans <|
    (V8_of m outs c r h8).trans <|
    (V7_of m outs c r h7).trans <|
    V6_of m outs c r h6

section Stretch
variable (W : Valuation τ sig (Elt F))

/-- The tile's table: the rows `[2048 · 2, 2048 · 2 + 2048)` of `main_v8`, flattened. -/
theorem tbl2_read (j : Fin 65536) :
    StableHlo.after hostOps2 W main_v48 (ValueIdx.ix1 j)
      = StableHlo.after hostOps2 W main_v8
          (ValueIdx.ix2 (⟨2048 * 2 + j.val / 32, by omega⟩ : Fin 16384) (⟨j.val % 32, by omega⟩ : Fin 32)) := by
  dsimp only [hostOps2]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 2 + j.val / 32 = _ + j.val / 32; omega)

/-- The tile's phase-bias rows: the rows `[2048 · 2, 2048 · 2 + 2048)` of `main_v31`. -/
theorem pa2_read (r : Fin 2048) (l : Fin 128) :
    StableHlo.after hostOps2 W main_v49 (ValueIdx.ix3 r 0 l)
      = StableHlo.after hostOps2 W main_v31 (ValueIdx.ix3 (⟨2048 * 2 + r.val, by omega⟩ : Fin 16384) 0 l) := by
  dsimp only [hostOps2]; open StableHlo in after_results_simp
  exact slice3_axis0_apply _ _ _ r 0 l _ (by show 2048 * 2 + r.val = _ + r.val; omega)

/-- The tile's head weights: the same rows of `main_v32`. -/
theorem w2_read (r : Fin 2048) (l : Fin 128) :
    StableHlo.after hostOps2 W main_v50 (ValueIdx.ix3 r 0 l)
      = StableHlo.after hostOps2 W main_v32 (ValueIdx.ix3 (⟨2048 * 2 + r.val, by omega⟩ : Fin 16384) 0 l) := by
  dsimp only [hostOps2]; open StableHlo in after_results_simp
  exact slice3_axis0_apply _ _ _ r 0 l _ (by show 2048 * 2 + r.val = _ + r.val; omega)

/-- The tile's head biases: the same rows of `main_v33`. -/
theorem b2_read (r : Fin 2048) :
    StableHlo.after hostOps2 W main_v51 (ValueIdx.ix3 r 0 0)
      = StableHlo.after hostOps2 W main_v33 (ValueIdx.ix3 (⟨2048 * 2 + r.val, by omega⟩ : Fin 16384) 0 0) := by
  dsimp only [hostOps2]; open StableHlo in after_results_simp
  exact slice3_axis0_apply _ _ _ r 0 0 _ (by show 2048 * 2 + r.val = _ + r.val; omega)

end Stretch

/-- Entry `j` of tile 2's prefetched table is the gathered row number of sample `2048 · 2 + j / 32`, feature `j % 32`. -/
theorem tbl2_apply (c : Dev nD) (j : Fin 65536) :
    V9 m outs c main_v48 (ValueIdx.ix1 j)
      = Spec.gidxOf (m ((c : Thread nD τ).loc main_arg0)) (m ((c : Thread nD τ).loc main_arg1))
          (m ((c : Thread nD τ).loc main_arg2))
          (ValueIdx.ix2 (⟨2048 * 2 + j.val / 32, by omega⟩ : Fin 16384) (⟨j.val % 32, by omega⟩ : Fin 32)) :=
  (tbl2_read (V8 m outs c) j).trans <| (congrFun (ent2_of m outs c main_v8 (by decide) (by decide) (by decide) (by decide)) _).trans <| congrFun (V5_gidx m c) _

/-- The embedding table as tile 2 sees it: row `ρ`, lane `l` of the argument. -/
theorem emb2_apply (c : Dev nD) (ρ : Fin 786432) (l : Fin 128) :
    V9 m outs c main_v34 (ValueIdx.ix3 ρ 0 l) = m ((c : Thread nD τ).loc main_arg3) (ValueIdx.ix2 ρ l) :=
  (congrFun (ent2_of m outs c main_v34 (by decide) (by decide) (by decide) (by decide)) _).trans <| V5_emb_apply m c ρ l

/-- Row `r` of tile 2's phase-bias operand is sample `2048 · 2 + r`'s phase-bias row. -/
theorem pa2_apply (c : Dev nD) (r : Fin 2048) (l : Fin 128) :
    V9 m outs c main_v49 (ValueIdx.ix3 r 0 l)
      = Spec.paSelOf (m ((c : Thread nD τ).loc main_arg1)) (m ((c : Thread nD τ).loc main_arg4))
          (ValueIdx.ix2 (⟨2048 * 2 + r.val, by omega⟩ : Fin 16384) l) :=
  (pa2_read (V8 m outs c) r l).trans <| (congrFun (ent2_of m outs c main_v31 (by decide) (by decide) (by decide) (by decide)) _).trans <| V5_pa_apply m c _ l

/-- Row `r` of tile 2's head-weight operand is sample `2048 · 2 + r`'s head weights. -/
theorem w2_apply (c : Dev nD) (r : Fin 2048) (l : Fin 128) :
    V9 m outs c main_v50 (ValueIdx.ix3 r 0 l)
      = Spec.wSelOf (m ((c : Thread nD τ).loc main_arg1)) (m ((c : Thread nD τ).loc main_arg5))
          (ValueIdx.ix2 (⟨2048 * 2 + r.val, by omega⟩ : Fin 16384) l) :=
  (w2_read (V8 m outs c) r l).trans <| (congrFun (ent2_of m outs c main_v32 (by decide) (by decide) (by decide) (by decide)) _).trans <| V5_w_apply m c _ l

/-- Entry `r` of tile 2's head-bias operand is sample `2048 · 2 + r`'s head bias. -/
theorem b2_apply (c : Dev nD) (r : Fin 2048) :
    V9 m outs c main_v51 (ValueIdx.ix3 r 0 0)
      = Spec.bSelOf (m ((c : Thread nD τ).loc main_arg1)) (m ((c : Thread nD τ).loc main_arg6))
          (ValueIdx.ix1 (⟨2048 * 2 + r.val, by omega⟩ : Fin 16384)) :=
  (b2_read (V8 m outs c) r).trans <| (congrFun (ent2_of m outs c main_v33 (by decide) (by decide) (by decide) (by decide)) _).trans <| V5_b_apply m c _

end Tile2

end Cert.KernelIdeal.Hand
-- ==== Proof.R2Ok.lean ====
/-
  Tile 2: the table the region reads, and the pipeline's side condition on it from the range fact.

  Region 2 is entered with the buffers at the valuation after the host stretch that cuts tile 2's operands. Its prefetched table then
  holds, at flat position `32·i₀ + i₁`, the gathered row number of sample `2048·2 + i₀`, feature `i₁`. When every gathered
  row number is below 786432 (the range fact), every word of the table is, which is the side condition under which the
  pipeline is pinned at the table.
-/
import proofs.«402893_j78554951844377_2_alg».proof.Proof.Gen.KernelIdeal.Regions
import proofs.«402893_j78554951844377_2_alg».proof.Proof.Spec
import proofs.«402893_j78554951844377_2_alg».proof.Proof.R2Base
import proofs.«402893_j78554951844377_2_alg».proof.Proof.OkTablesT
import proofs.«402893_j78554951844377_2_alg».proof.Proof.KHostT2
import proofs.«402893_j78554951844377_2_alg».proof.Proof.TileLib
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]

/-- The buffers when region 2 is entered: the valuation after the host stretch that cuts tile 2's operands. -/
abbrev V2in (m : (ℓ : Loc nD τ sig) → Buf (Elt F) ℓ) : (c : Dev nD) → (b : Ref sig .tc) → Buf (Elt F) ((c : Thread nD τ).loc b) :=
  fun c b => V9 m (outsL m) c b

variable (m : (ℓ : Loc nD τ sig) → Buf (Elt F) ℓ)

/-- The table word read at grid point `(i₀, i₁)` is the gathered row number of sample `2048·2 + i₀`, feature `i₁`: the
    word sits at flat position `32·i₀ + i₁`, whose quotient and remainder by 32 are `i₀` and `i₁`. -/
theorem tword2_V2in (c : Dev nD) (i : grid2.Coords) :
    tword2 (tbl2 (V2in m)) i
      = Spec.gidxOf (m ((c : Thread nD τ).loc main_arg0)) (m ((c : Thread nD τ).loc main_arg1)) (m ((c : Thread nD τ).loc main_arg2))
          (ValueIdx.ix2 (⟨2048 * 2 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V2in m 0 main_v48 (ValueIdx.ix1 ⟨32 * (i 0).val + (i 1).val, pos_lt2 i⟩) = _
  refine (tbl2_apply m (outsL m) 0 ⟨32 * (i 0).val + (i 1).val, pos_lt2 i⟩).trans ?_
  exact congrArg _ (ix2_congr (by show 2048 * 2 + (32 * (i 0).val + (i 1).val) / 32 = 2048 * 2 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok2_of_inRange (c : Dev nD)
    (hin : Spec.InRange (Spec.gidxOf (m ((c : Thread nD τ).loc main_arg0)) (m ((c : Thread nD τ).loc main_arg1)) (m ((c : Thread nD τ).loc main_arg2)))) :
    Ok2 (V2in m) :=
  ok2_of (tbl2 (V2in m)) fun i => by rw [tword2_V2in m c i]; exact hin _ _

end Cert.KernelIdeal.Hand

end
-- ==== Proof.R2Grid.lean ====
import proofs.«402893_j78554951844377_2_alg».proof.Proof.R2Run
import Idealize.ShloMosaic.Lib.Pipeline.Kit
import Mathlib.Data.Fin.VecNotation

noncomputable section

namespace Cert.KernelIdeal.Hand

open Cert.KernelIdeal Cert.KernelIdeal.Gen
open Idealize.ShloMosaic
open Idealize.ShloMosaic.Pipeline (Cfg Window)

variable {F : FTy → Type} [FloatOps F]

/-! # Tile 2: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride2_0 : grid2.stride 0 = 32 := by decide
/-- The feature coordinate changes at every point. -/
theorem stride2_1 : grid2.stride 1 = 1 := by decide

/-- The sample coordinate of point `t` is `t / 32`: the quotient is below 2048, so reducing it modulo the
    axis's bound changes nothing. -/
theorem coords2_val0 (t : Fin grid2.N) : ((grid2.coords t) 0).val = t.val / 32 := by
  have ht : t.val < 65536 := N_2 ▸ t.isLt
  show t.val / grid2.stride 0 % 2048 = t.val / 32
  rw [stride2_0]; omega

/-- The feature coordinate of point `t` is `t % 32`. -/
theorem coords2_val1 (t : Fin grid2.N) : ((grid2.coords t) 1).val = t.val % 32 := by
  show t.val / grid2.stride 1 % 32 = t.val % 32
  rw [stride2_1, Nat.div_one]

/-- The first condition holds exactly at feature 0: checked at each of the 32 values of the coordinate. -/
theorem cond2_0_iff (i : grid2.Coords) : cond2_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond2_1_iff (i : grid2.Coords) : cond2_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond2_0_first (t : Fin grid2.N) (h : t.val = 0) : cond2_0 (grid2.coords t) := by
  rw [cond2_0_iff, coords2_val1, h]

/-- No feature is both the first and the last. -/
theorem not_both2 (i : grid2.Coords) : cond2_0 i → cond2_1 i → False := by
  rw [cond2_0_iff, cond2_1_iff]; omega

/-- A sample number, made a 32-bit word and read back, is itself. -/
private theorem toNat_ofNat_sample (t : Fin grid2.N) : (BitVec.ofNat 32 ((grid2.coords t) 0).val).toNat = t.val / 32 := by
  have ht : t.val < 65536 := N_2 ▸ t.isLt
  rw [coords2_val0, BitVec.toNat_ofNat, Nat.mod_eq_of_lt (by omega)]

/-- Window 1's block at point `t` is the one of sample `t / 32`. -/
theorem index2_1 (a : (pcfg2 (F := F)).Adm) (t : Fin (cfg2 a).N) : ((cfg2 a).win 1).index t = ![t.val / 32, 0, 0] := by
  show (![(BitVec.ofNat 32 ((grid2.coords t) 0).val).toNat, (0#32).toNat, (0#32).toNat] : Fin 3 → ℕ) = _
  rw [toNat_ofNat_sample]; rfl
/-- Window 2's block at point `t` is the one of sample `t / 32`. -/
theorem index2_2 (a : (pcfg2 (F := F)).Adm) (t : Fin (cfg2 a).N) : ((cfg2 a).win 2).index t = ![t.val / 32, 0, 0] := by
  show (![(BitVec.ofNat 32 ((grid2.coords t) 0).val).toNat, (0#32).toNat, (0#32).toNat] : Fin 3 → ℕ) = _
  rw [toNat_ofNat_sample]; rfl
/-- Window 3's block at point `t` is the one of sample `t / 32`. -/
theorem index2_3 (a : (pcfg2 (F := F)).Adm) (t : Fin (cfg2 a).N) : ((cfg2 a).win 3).index t = ![t.val / 32, 0, 0] := by
  show (![(BitVec.ofNat 32 ((grid2.coords t) 0).val).toNat, (0#32).toNat, (0#32).toNat] : Fin 3 → ℕ) = _
  rw [toNat_ofNat_sample]; rfl
/-- The output window's block at point `t` is the one of sample `t / 32`. -/
theorem index2_4 (a : (pcfg2 (F := F)).Adm) (t : Fin (cfg2 a).N) : ((cfg2 a).win 4).index t = ![t.val / 32, 0, 0] := by
  show (![(BitVec.ofNat 32 ((grid2.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush2_4_iff (a : (pcfg2 (F := F)).Adm) (t : Fin (cfg2 a).N) : ((cfg2 a).win 4).flush t = true ↔ t.val % 32 = 31 := by
  have hN : (cfg2 a).N = 65536 := N_2
  have ht : t.val < 65536 := hN ▸ t.isLt
  have hout : ((cfg2 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index2_4, index2_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg2 a).N := Nat.lt_of_lt_of_eq (by omega : t.val + 1 < 65536) hN.symm
      refine Or.inr ⟨hlt, ?_⟩
      rw [index2_4, index2_4]
      have hne' : (t.val + 1) / 32 ≠ t.val / 32 := by omega
      exact (vec3_ne_iff _ _).mpr hne'

/-- At a sample's last feature the output block is written back. -/
theorem flush2_4 (a : (pcfg2 (F := F)).Adm) (t : Fin (cfg2 a).N) (h : cond2_1 (grid2.coords t)) : ((cfg2 a).win 4).flush t = true := by
  rw [flush2_4_iff, ← coords2_val1]; exact (cond2_1_iff _).mp h

/-- At any other feature the output block stays. -/
theorem noFlush2_4 (a : (pcfg2 (F := F)).Adm) (t : Fin (cfg2 a).N) (h : ¬cond2_1 (grid2.coords t)) : ((cfg2 a).win 4).flush t = false := by
  rw [← Bool.not_eq_true, flush2_4_iff, ← coords2_val1]; exact fun e => h ((cond2_1_iff _).mpr e)

end Cert.KernelIdeal.Hand

end
-- ==== Proof.R2Acc.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R2Base
import proofs.«402893_j78554951844377_2_alg».proof.Proof.R2Grid
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 2: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow2 (hO : Ok2 V) (c : Dev nD) (t : Fin (cfgM2 V hO).N) : Vec F S1x1x128 .f32 := iblk2 V hO c 0 t
abbrev xpa2 (hO : Ok2 V) (c : Dev nD) (t : Fin (cfgM2 V hO).N) : Vec F S1x1x128 .f32 := iblk2 V hO c 1 t
abbrev xw2 (hO : Ok2 V) (c : Dev nD) (t : Fin (cfgM2 V hO).N) : Vec F S1x1x128 .f32 := iblk2 V hO c 2 t
abbrev xb2 (hO : Ok2 V) (c : Dev nD) (t : Fin (cfgM2 V hO).N) : Vec F S1x1x1 .f32 := iblk2 V hO c 3 t

/-- THE ACCUMULATION: the scratch after the body at position `n`. -/
def accAt2 (hO : Ok2 V) (c : Dev nD) : (n : ℕ) → n < (cfgM2 V hO).N → Vec F S1x1x128 .f32
  | 0, hn => k2_pay2 (k2_pay1 (F := F)) (xrow2 V hO c ⟨0, hn⟩)
  | n + 1, hn =>
    if cond2_0 (grid2.coords ⟨n + 1, hn⟩) then k2_pay2 (k2_pay1 (F := F)) (xrow2 V hO c ⟨n + 1, hn⟩)
    else k2_pay2 (accAt2 hO c n (Nat.lt_of_succ_lt hn)) (xrow2 V hO c ⟨n + 1, hn⟩)

/-- At a sample's first feature the scratch restarts from zero. -/
theorem accAt2_A (hO : Ok2 V) (c : Dev nD) (t : Fin (cfgM2 V hO).N) (h0 : cond2_0 (grid2.coords t)) :
    accAt2 V hO c t.val t.isLt = k2_pay2 (k2_pay1 (F := F)) (xrow2 V hO c t) := by
  obtain ⟨n, hn⟩ := t
  cases n with
  | zero => rfl
  | succ n => exact if_pos h0

/-- Elsewhere it adds the row to what the point before left. -/
theorem accAt2_B (hO : Ok2 V) (c : Dev nD) (t : Fin (cfgM2 V hO).N) (h0 : ¬cond2_0 (grid2.coords t)) (hz : t.val ≠ 0) :
    accAt2 V hO c t.val t.isLt = k2_pay2 (accAt2 V hO c (t.val - 1) (by omega)) (xrow2 V hO c t) := by
  obtain ⟨n, hn⟩ := t
  cases n with
  | zero => exact absurd rfl hz
  | succ n => exact if_neg h0

/-- The sample's result as the body computes it at a point (read at the last feature). -/
def outAt2 (hO : Ok2 V) (c : Dev nD) (t : Fin (cfgM2 V hO).N) : Vec F S1x1x1 .f32 :=
  k2_pay3 (accAt2 V hO c t.val t.isLt) (xpa2 V hO c t) (xw2 V hO c t) (xb2 V hO c t)

/-- What rides along unread: the other scoped buffers, the generator register, the table. -/
def Rest2 (c : Dev nD) : sProp 𝕄 :=
  iprop(Pipeline.scopedRestBut (Ix := Unit) (Name := ℕ) (U := UR sig nD τ) (Lvl := ℕ) (Val := Elt F) spec2 c [cc2_scratch0]
    ∗ (∃ r, prngReg c r) ∗ Pipeline.prefHeld (Ix := Unit) (Name := ℕ) (U := UR sig nD τ) (Lvl := ℕ) pre2 c (fun _ => fullShare) (tbl2 V))

/-- The region invariant before position `n`: the scratch at anything before the first point, afterwards at what
    the point before left. -/
def PhiS2 (hO : Ok2 V) (c : Dev nD) : (n : ℕ) → n ≤ (cfgM2 V hO).N → sProp 𝕄
  | 0, _ => iprop((∃ d, owns (c : Thread nD τ) scM2 fullShare d) ∗ Rest2 V c)
  | n + 1, hn => iprop(owns (c : Thread nD τ) scM2 fullShare (accAt2 V hO c n hn) ∗ Rest2 V c)

theorem PhiS2_zero (hO : Ok2 V) (c : Dev nD) (n : ℕ) (h : n ≤ (cfgM2 V hO).N) (hz : n = 0) :
    PhiS2 V hO c n h = iprop((∃ d, owns (c : Thread nD τ) scM2 fullShare d) ∗ Rest2 V c) := by
  subst hz; rfl
theorem PhiS2_succ (hO : Ok2 V) (c : Dev nD) (n : ℕ) (hn : n < (cfgM2 V hO).N) :
    PhiS2 V hO c (n + 1) hn = iprop(owns (c : Thread nD τ) scM2 fullShare (accAt2 V hO c n hn) ∗ Rest2 V c) := rfl
theorem PhiS2_pos (hO : Ok2 V) (c : Dev nD) (n : ℕ) (h : n ≤ (cfgM2 V hO).N) (hz : n ≠ 0) :
    PhiS2 V hO c n h = iprop(owns (c : Thread nD τ) scM2 fullShare (accAt2 V hO c (n - 1) (by omega)) ∗ Rest2 V c) := by
  cases n with
  | zero => exact absurd rfl hz
  | succ n => rfl

/-- The proof data of the tile's pipeline on core `c`: the arrays as the region finds them; after the body each input's
    buffer at its block and the result's at `outAt2`; the invariant `PhiS2`; nothing owed; full shares. -/
def dat2 (hO : Ok2 V) (c : Dev nD) : Dat τ (Elt F) Unit ℕ (UR sig nD τ) ℕ (cfgM2 V hO) c where
  A w := V c (Pipeline.arrRef spec2 w)
  after w t := match w with
    | ⟨0, _⟩ => iblk2 V hO c 0 t
    | ⟨1, _⟩ => iblk2 V hO c 1 t
    | ⟨2, _⟩ => iblk2 V hO c 2 t
    | ⟨3, _⟩ => iblk2 V hO c 3 t
    | ⟨4, _⟩ => outAt2 V hO c t
  Φ t := PhiS2 V hO c t.val (Nat.le_of_lt_succ t.isLt)
  q _ := fullShare
  owed _ := 0

theorem A_eq2 (hO : Ok2 V) (c : Dev nD) (w : Fin (cfgM2 V hO).W) : (dat2 V hO c).A w = V c (Pipeline.arrRef spec2 w) := by
  dsimp only [dat2]
theorem PhiS2_castSucc (hO : Ok2 V) (c : Dev nD) (t : Fin (cfgM2 V hO).N) :
    (dat2 V hO c).Φ t.castSucc = PhiS2 V hO c t.val (Nat.le_of_lt t.isLt) := by
  dsimp only [dat2]; simp only [Fin.coe_castSucc]
theorem after2_0 (hO : Ok2 V) (c : Dev nD) (t : Fin (cfgM2 V hO).N) : (dat2 V hO c).after 0 t = iblk2 V hO c 0 t := by dsimp only [dat2]; try rfl
theorem after2_1 (hO : Ok2 V) (c : Dev nD) (t : Fin (cfgM2 V hO).N) : (dat2 V hO c).after 1 t = iblk2 V hO c 1 t := by dsimp only [dat2]; try rfl
theorem after2_2 (hO : Ok2 V) (c : Dev nD) (t : Fin (cfgM2 V hO).N) : (dat2 V hO c).after 2 t = iblk2 V hO c 2 t := by dsimp only [dat2]; try rfl
theorem after2_3 (hO : Ok2 V) (c : Dev nD) (t : Fin (cfgM2 V hO).N) : (dat2 V hO c).after 3 t = iblk2 V hO c 3 t := by dsimp only [dat2]; try rfl
theorem after2_4 (hO : Ok2 V) (c : Dev nD) (t : Fin (cfgM2 V hO).N) : (dat2 V hO c).after 4 t = outAt2 V hO c t := by dsimp only [dat2]; try rfl

theorem before2_0 (hO : Ok2 V) (c : Dev nD) (t : Fin (cfgM2 V hO).N) (d) : (dat2 V hO c).before 0 t d = iblk2 V hO c 0 t :=
  before2_0_of V hO (dat2 V hO c) (A_eq2 V hO c 0) (after2_0 V hO c) t d
theorem before2_1 (hO : Ok2 V) (c : Dev nD) (t : Fin (cfgM2 V hO).N) (d) : (dat2 V hO c).before 1 t d = iblk2 V hO c 1 t :=
  before2_1_of V hO (dat2 V hO c) (A_eq2 V hO c 1) (after2_1 V hO c) t d
theorem before2_2 (hO : Ok2 V) (c : Dev nD) (t : Fin (cfgM2 V hO).N) (d) : (dat2 V hO c).before 2 t d = iblk2 V hO c 2 t :=
  before2_2_of V hO (dat2 V hO c) (A_eq2 V hO c 2) (after2_2 V hO c) t d
theorem before2_3 (hO : Ok2 V) (c : Dev nD) (t : Fin (cfgM2 V hO).N) (d) : (dat2 V hO c).before 3 t d = iblk2 V hO c 3 t :=
  before2_3_of V hO (dat2 V hO c) (A_eq2 V hO c 3) (after2_3 V hO c) t d

/-- What the body is called with at point `t`, the windows one by one, -/
def bodyPre2 (hO : Ok2 V) (c : Dev nD) (t : Fin (cfgM2 V hO).N) : sProp 𝕄 :=
  iprop((dat2 V hO c).Φ t.castSucc ∗ (dat2 V hO c).owesAt () t.castSucc
    ∗ (∃ d, owns (c : Thread nD τ) (ms2_0 V hO t) fullShare ((dat2 V hO c).before 0 t d))
    ∗ (∃ d, owns (c : Thread nD τ) (ms2_1 V hO t) fullShare ((dat2 V hO c).before 1 t d))
    ∗ (∃ d, owns (c : Thread nD τ) (ms2_2 V hO t) fullShare ((dat2 V hO c).before 2 t d))
    ∗ (∃ d, owns (c : Thread nD τ) (ms2_3 V hO t) fullShare ((dat2 V hO c).before 3 t d))
    ∗ (∃ d, owns (c : Thread nD τ) (ms2_4 V hO t) fullShare ((dat2 V hO c).before 4 t d)))

/-- and what it returns. -/
def bodyPost2 (hO : Ok2 V) (c : Dev nD) (t : Fin (cfgM2 V hO).N) : sProp 𝕄 :=
  iprop((dat2 V hO c).Φ t.succ ∗ (dat2 V hO c).owesAt () t.succ
    ∗ (dat2 V hO c).leavesExact 0 t
    ∗ (dat2 V hO c).leavesExact 1 t
    ∗ (dat2 V hO c).leavesExact 2 t
    ∗ (dat2 V hO c).leavesExact 3 t
    ∗ (dat2 V hO c).leavesExact 4 t)

/-- The windows' idle flags at a point, stated at the pinned configuration. -/
theorem liveAtM2_0 (hO : Ok2 V) (t : Fin (cfgM2 V hO).N) : (cfgM2 V hO).idle 0 ((cfgM2 V hO).grid.coords t) = false := rfl
theorem liveAtM2_1 (hO : Ok2 V) (t : Fin (cfgM2 V hO).N) : (cfgM2 V hO).idle 1 ((cfgM2 V hO).grid.coords t) = false := rfl
theorem liveAtM2_2 (hO : Ok2 V) (t : Fin (cfgM2 V hO).N) : (cfgM2 V hO).idle 2 ((cfgM2 V hO).grid.coords t) = false := rfl
theorem liveAtM2_3 (hO : Ok2 V) (t : Fin (cfgM2 V hO).N) : (cfgM2 V hO).idle 3 ((cfgM2 V hO).grid.coords t) = false := rfl
theorem idleAtM2_4 (hO : Ok2 V) (t : Fin (cfgM2 V hO).N) (h : ¬cond2_1 (grid2.coords t)) :
    (cfgM2 V hO).idle 4 ((cfgM2 V hO).grid.coords t) = true := idleAt2_4 (adm2 V hO) (grid2.coords t) h
theorem liveAtM2_4 (hO : Ok2 V) (t : Fin (cfgM2 V hO).N) (h : cond2_1 (grid2.coords t)) :
    (cfgM2 V hO).idle 4 ((cfgM2 V hO).grid.coords t) = false := liveAt2_4 (adm2 V hO) (grid2.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body2 (hO : Ok2 V) (c : Dev nD) (t : Fin (cfgM2 V hO).N) :
    bodyPre2 V hO c t ⊢ wp frame (wpE (defs₀ (F := F)) Variants.none c none) Set.univ (bodyAt2 (adm2 V hO) t) (fun _ => bodyPost2 V hO c t) := by
  unfold bodyPre2 bodyPost2 bodyAt2
  simp only [before2_0, before2_1, before2_2, before2_3]
  rw [show (dat2 V hO c).owesAt () t.succ = (dat2 V hO c).owesAt () t.castSucc from rfl]
  rw [show (dat2 V hO c).Φ t.succ = PhiS2 V hO c (t.val + 1) t.isLt from rfl, PhiS2_succ]
  rw [show (dat2 V hO c).leavesExact 0 t = owns (c : Thread nD τ) (ms2_0 V hO t) fullShare ((dat2 V hO c).after 0 t) from by
    unfold Dat.leavesExact; rw [liveAtM2_0 V hO t]; try rfl]
  rw [after2_0]
  rw [show (dat2 V hO c).leavesExact 1 t = owns (c : Thread nD τ) (ms2_1 V hO t) fullShare ((dat2 V hO c).after 1 t) from by
    unfold Dat.leavesExact; rw [liveAtM2_1 V hO t]; try rfl]
  rw [after2_1]
  rw [show (dat2 V hO c).leavesExact 2 t = owns (c : Thread nD τ) (ms2_2 V hO t) fullShare ((dat2 V hO c).after 2 t) from by
    unfold Dat.leavesExact; rw [liveAtM2_2 V hO t]; try rfl]
  rw [after2_2]
  rw [show (dat2 V hO c).leavesExact 3 t = owns (c : Thread nD τ) (ms2_3 V hO t) fullShare ((dat2 V hO c).after 3 t) from by
    unfold Dat.leavesExact; rw [liveAtM2_3 V hO t]; try rfl]
  rw [after2_3]
  rw [PhiS2_castSucc]
  by_cases h0 : cond2_0 (grid2.coords t)
  · by_cases h1 : cond2_1 (grid2.coords t)
    · exact absurd h1 (fun h => not_both2 _ h0 h)
    · rw [Dat.leavesExact_idle (dat2 V hO c) 4 t (idleAtM2_4 V hO t h1) (noFlush2_4 (adm2 V hO) t h1)]
      rw [accAt2_A V hO c t h0]
      by_cases hz : t.val = 0
      · rw [PhiS2_zero V hO c _ _ hz]
        iintro ⟨⟨HS, HR⟩, Ho, ⟨%d0, H0⟩, ⟨%d1, H1⟩, ⟨%d2, H2⟩, ⟨%d3, H3⟩, ⟨%d4, H4⟩⟩
        iapply (run2_A c (grid2.coords t) _ _ _ _ _ _ _ _ _ _ _ _ _ _ h0 h1 (xrow2 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS2_pos V hO c _ _ hz]
        iintro ⟨⟨HS, HR⟩, Ho, ⟨%d0, H0⟩, ⟨%d1, H1⟩, ⟨%d2, H2⟩, ⟨%d3, H3⟩, ⟨%d4, H4⟩⟩
        iapply (run2_A c (grid2.coords t) _ _ _ _ _ _ _ _ _ _ _ _ _ _ h0 h1 (xrow2 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond2_0_first t hz)
    rw [PhiS2_pos V hO c _ _ hz, accAt2_B V hO c t h0 hz]
    by_cases h1 : cond2_1 (grid2.coords t)
    · rw [show (dat2 V hO c).leavesExact 4 t = owns (c : Thread nD τ) (ms2_4 V hO t) fullShare ((dat2 V hO c).after 4 t) from by
        unfold Dat.leavesExact; rw [liveAtM2_4 V hO t h1]; try rfl]
      rw [after2_4]
      unfold outAt2
      rw [accAt2_B V hO c t h0 hz]
      iintro ⟨⟨HS, HR⟩, Ho, ⟨%d0, H0⟩, ⟨%d1, H1⟩, ⟨%d2, H2⟩, ⟨%d3, H3⟩, ⟨%d4, H4⟩⟩
      iapply (run2_C c (grid2.coords t) _ _ _ _ _ _ _ _ _ _ _ _ _ _ h0 h1 (xrow2 V hO c t) (xpa2 V hO c t) (xw2 V hO c t) (xb2 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat2 V hO c) 4 t (idleAtM2_4 V hO t h1) (noFlush2_4 (adm2 V hO) t h1)]
      iintro ⟨⟨HS, HR⟩, Ho, ⟨%d0, H0⟩, ⟨%d1, H1⟩, ⟨%d2, H2⟩, ⟨%d3, H3⟩, ⟨%d4, H4⟩⟩
      iapply (run2_B c (grid2.coords t) _ _ _ _ _ _ _ _ _ _ _ _ _ _ h0 h1 (xrow2 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (hO : Ok2 V) (c : Dev nD) :
    BodyObligation (dat2 (F := F) V hO c) (defs₀ (F := F)) Variants.none () Set.univ := fun t => by
  rw [bigSep_W2, bigSep_W2]
  exact sound_body2 V hO c t

end Cert.KernelIdeal.Hand

end
-- ==== Proof.R2Val.lean ====
import proofs.«402893_j78554951844377_2_alg».proof.Proof.R2Acc
import proofs.«402893_j78554951844377_2_alg».proof.Proof.R2Grid
import proofs.«402893_j78554951844377_2_alg».proof.Proof.OkTablesT
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 2: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt2 (t : Fin grid2.N) : t.val / 32 < 2048 := by
  have ht : t.val < 65536 := N_2 ▸ t.isLt
  omega

/-- The last feature of sample `r` is a point of the grid. -/
theorem lastPt_lt2 (r : ℕ) (hr : r < 2048) : 32 * r + 31 < grid2.N := by rw [N_2]; omega

/-- Under the side condition every word the index map of window 0 reads names a row of the embedding table. -/
theorem tword2_lt (pf : pre2.Contents (Elt F)) (h : ok2 pf) (i : grid2.Coords) : (tword2 pf i).toNat < 786432 := by
  obtain ⟨hb, -⟩ := h i
  have h0 := hb 0
  rw [transform2_eq pf i] at h0
  have h0' : ((tword2 pf i).toNat + 1) * 1 ≤ 786432 := h0
  omega

/-- Window 0's block at point `t` is the row the table's word names. -/
theorem index2_0 (a : (pcfg2 (F := F)).Adm) (t : Fin (cfg2 a).N) :
    ((cfg2 a).win 0).index t = ![(tword2 a.1 (grid2.coords t)).toNat, 0, 0] :=
  transform2_eq a.1 (grid2.coords t)

/-- Lane `l` of window 0's block sits in the embedding table at (the named row, 0, l). -/
theorem emb2_0 (a : (pcfg2 (F := F)).Adm) (t : Fin (cfg2 a).N) (l : Fin 128) :
    (((cfg2 a).win 0).blk t).view.emb (ValueIdx.ix3 (0 : Fin 1) (0 : Fin 1) l)
      = ValueIdx.ix3 (⟨(tword2 a.1 (grid2.coords t)).toNat, tword2_lt a.1 a.2 (grid2.coords t)⟩ : Fin 786432) (0 : Fin 1) l := by
  funext d; apply Fin.ext
  match d with
  | ⟨0, _⟩ => show ((cfg2 a).win 0).index t (0 : Fin 3) * 1 + 1 * 0 = (tword2 a.1 (grid2.coords t)).toNat; rw [index2_0]; show (tword2 a.1 (grid2.coords t)).toNat * 1 + 1 * 0 = _; omega
  | ⟨1, _⟩ => show ((cfg2 a).win 0).index t (1 : Fin 3) * 1 + 1 * 0 = 0; rw [index2_0]; rfl
  | ⟨2, _⟩ => show ((cfg2 a).win 0).index t (2 : Fin 3) * 128 + 1 * l.val = l.val; rw [index2_0]; show 0 * 128 + 1 * l.val = l.val; omega

/-- Lane `l` of window 1's block sits in its array at (sample, 0, l). -/
theorem emb2_1 (a : (pcfg2 (F := F)).Adm) (t : Fin (cfg2 a).N) (l : Fin 128) :
    (((cfg2 a).win 1).blk t).view.emb (ValueIdx.ix3 (0 : Fin 1) (0 : Fin 1) l)
      = ValueIdx.ix3 (⟨t.val / 32, sample_lt2 t⟩ : Fin 2048) (0 : Fin 1) l := by
  funext d; apply Fin.ext
  match d with
  | ⟨0, _⟩ => show ((cfg2 a).win 1).index t (0 : Fin 3) * 1 + 1 * 0 = t.val / 32; rw [index2_1]; show t.val / 32 * 1 + 1 * 0 = _; omega
  | ⟨1, _⟩ => show ((cfg2 a).win 1).index t (1 : Fin 3) * 1 + 1 * 0 = 0; rw [index2_1]; rfl
  | ⟨2, _⟩ => show ((cfg2 a).win 1).index t (2 : Fin 3) * 128 + 1 * l.val = l.val; rw [index2_1]; show 0 * 128 + 1 * l.val = l.val; omega

/-- Lane `l` of window 2's block sits in its array at (sample, 0, l). -/
theorem emb2_2 (a : (pcfg2 (F := F)).Adm) (t : Fin (cfg2 a).N) (l : Fin 128) :
    (((cfg2 a).win 2).blk t).view.emb (ValueIdx.ix3 (0 : Fin 1) (0 : Fin 1) l)
      = ValueIdx.ix3 (⟨t.val / 32, sample_lt2 t⟩ : Fin 2048) (0 : Fin 1) l := by
  funext d; apply Fin.ext
  match d with
  | ⟨0, _⟩ => show ((cfg2 a).win 2).index t (0 : Fin 3) * 1 + 1 * 0 = t.val / 32; rw [index2_2]; show t.val / 32 * 1 + 1 * 0 = _; omega
  | ⟨1, _⟩ => show ((cfg2 a).win 2).index t (1 : Fin 3) * 1 + 1 * 0 = 0; rw [index2_2]; rfl
  | ⟨2, _⟩ => show ((cfg2 a).win 2).index t (2 : Fin 3) * 128 + 1 * l.val = l.val; rw [index2_2]; show 0 * 128 + 1 * l.val = l.val; omega

/-- The one element of window 3's block sits in its array at (sample, 0, 0). -/
theorem emb2_3 (a : (pcfg2 (F := F)).Adm) (t : Fin (cfg2 a).N) :
    (((cfg2 a).win 3).blk t).view.emb (ValueIdx.ix3 (0 : Fin 1) (0 : Fin 1) (0 : Fin 1))
      = ValueIdx.ix3 (⟨t.val / 32, sample_lt2 t⟩ : Fin 2048) (0 : Fin 1) (0 : Fin 1) := by
  funext d; apply Fin.ext
  match d with
  | ⟨0, _⟩ => show ((cfg2 a).win 3).index t (0 : Fin 3) * 1 + 1 * 0 = t.val / 32; rw [index2_3]; show t.val / 32 * 1 + 1 * 0 = _; omega
  | ⟨1, _⟩ => show ((cfg2 a).win 3).index t (1 : Fin 3) * 1 + 1 * 0 = 0; rw [index2_3]; rfl
  | ⟨2, _⟩ => show ((cfg2 a).win 3).index t (2 : Fin 3) * 1 + 1 * 0 = 0; rw [index2_3]; rfl

/-- The one element of the result window's block sits in the result array at (sample, 0, 0). -/
theorem emb2_4 (a : (pcfg2 (F := F)).Adm) (t : Fin (cfg2 a).N) :
    (((cfg2 a).win 4).blk t).view.emb (ValueIdx.ix3 (0 : Fin 1) (0 : Fin 1) (0 : Fin 1))
      = ValueIdx.ix3 (⟨t.val / 32, sample_lt2 t⟩ : Fin 2048) (0 : Fin 1) (0 : Fin 1) := by
  funext d; apply Fin.ext
  match d with
  | ⟨0, _⟩ => show ((cfg2 a).win 4).index t (0 : Fin 3) * 1 + 1 * 0 = t.val / 32; rw [index2_4]; show t.val / 32 * 1 + 1 * 0 = _; omega
  | ⟨1, _⟩ => show ((cfg2 a).win 4).index t (1 : Fin 3) * 1 + 1 * 0 = 0; rw [index2_4]; rfl
  | ⟨2, _⟩ => show ((cfg2 a).win 4).index t (2 : Fin 3) * 1 + 1 * 0 = 0; rw [index2_4]; rfl

section AtTable

variable (V : (c : Dev nD) → (b : Ref sig .tc) → Buf (Elt F) ((c : Thread nD τ).loc b))

/-! ## The input blocks at coordinates -/

/-- The row of the embedding table gathered at point `t`: the table's word there. -/
abbrev rho2 (t : Fin grid2.N) : ℕ := (tword2 (tbl2 V) (grid2.coords t)).toNat

/-- It is a row of the table, under the side condition. -/
theorem rho2_lt (hO : Ok2 V) (t : Fin grid2.N) : rho2 V t < 786432 := tword2_lt (tbl2 V) hO (grid2.coords t)

/-- Lane `l` of the gathered row at point `t` is the embedding table at (the named row, 0, l). -/
theorem xrow2_apply (hO : Ok2 V) (c : Dev nD) (t : Fin (cfgM2 V hO).N) (l : Fin 128) :
    xrow2 V hO c t (ValueIdx.ix3 (0 : Fin 1) (0 : Fin 1) l)
      = V c main_v34 (ValueIdx.ix3 (⟨rho2 V t, rho2_lt V hO t⟩ : Fin 786432) (0 : Fin 1) l) := by
  show V c main_v34 ((((cfgM2 V hO).win 0).blk t).view.emb (ValueIdx.ix3 (0 : Fin 1) (0 : Fin 1) l)) = _
  exact congrArg (V c main_v34) (emb2_0 (adm2 V hO) t l)

/-- Lane `l` of the phase-bias block at point `t` is its array at (sample, 0, l). -/
theorem xpa2_apply (hO : Ok2 V) (c : Dev nD) (t : Fin (cfgM2 V hO).N) (l : Fin 128) :
    xpa2 V hO c t (ValueIdx.ix3 (0 : Fin 1) (0 : Fin 1) l)
      = V c main_v49 (ValueIdx.ix3 (⟨t.val / 32, sample_lt2 t⟩ : Fin 2048) (0 : Fin 1) l) := by
  show V c main_v49 ((((cfgM2 V hO).win 1).blk t).view.emb (ValueIdx.ix3 (0 : Fin 1) (0 : Fin 1) l)) = _
  exact congrArg (V c main_v49) (emb2_1 (adm2 V hO) t l)

/-- Lane `l` of the head-weight block at point `t` is its array at (sample, 0, l). -/
theorem xw2_apply (hO : Ok2 V) (c : Dev nD) (t : Fin (cfgM2 V hO).N) (l : Fin 128) :
    xw2 V hO c t (ValueIdx.ix3 (0 : Fin 1) (0 : Fin 1) l)
      = V c main_v50 (ValueIdx.ix3 (⟨t.val / 32, sample_lt2 t⟩ : Fin 2048) (0 : Fin 1) l) := by
  show V c main_v50 ((((cfgM2 V hO).win 2).blk t).view.emb (ValueIdx.ix3 (0 : Fin 1) (0 : Fin 1) l)) = _
  exact congrArg (V c main_v50) (emb2_2 (adm2 V hO) t l)

/-- The head-bias block at point `t` is its array at (sample, 0, 0). -/
theorem xb2_apply (hO : Ok2 V) (c : Dev nD) (t : Fin (cfgM2 V hO).N) :
    xb2 V hO c t (ValueIdx.ix3 (0 : Fin 1) (0 : Fin 1) (0 : Fin 1))
      = V c main_v51 (ValueIdx.ix3 (⟨t.val / 32, sample_lt2 t⟩ : Fin 2048) (0 : Fin 1) (0 : Fin 1)) := by
  show V c main_v51 ((((cfgM2 V hO).win 3).blk t).view.emb (ValueIdx.ix3 (0 : Fin 1) (0 : Fin 1) (0 : Fin 1))) = _
  exact congrArg (V c main_v51) (emb2_3 (adm2 V hO) t)

/-! ## The arrays after the run -/

/-- An input's array is never written: it ends as the region found it. -/
theorem arrAt2_in (hO : Ok2 V) (c : Dev nD) (w : Fin 5) (hw : w ≠ 4) :
    (dat2 V hO c).arrAt w (cfgM2 V hO).N = V c (Pipeline.arrRef spec2 w) := by
  have hin : ((cfgM2 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat2 V hO c).arrAt_in w hin _).trans (A_eq2 V hO c w)

/-- THE RESULT ARRAY of the tile: row `r` holds what the body left in the result block at sample `r`'s last feature. -/
def tileRes2 (hO : Ok2 V) (c : Dev nD) : Buf (Elt F) ((c : Thread nD τ).loc main_v52) :=
  fun (i : S2048x1x1.Idx) => outAt2 V hO c ⟨32 * (i 0).val + 31, lastPt_lt2 (i 0).val (i 0).isLt⟩ (ValueIdx.ix3 (0 : Fin 1) (0 : Fin 1) (0 : Fin 1))

theorem tileRes2_apply (hO : Ok2 V) (c : Dev nD) (r : Fin 2048) :
    tileRes2 V hO c (ValueIdx.ix3 r (0 : Fin 1) (0 : Fin 1))
      = outAt2 V hO c ⟨32 * r.val + 31, lastPt_lt2 r.val r.isLt⟩ (ValueIdx.ix3 (0 : Fin 1) (0 : Fin 1) (0 : Fin 1)) := rfl

/-- The result block read at two names of one point. -/
theorem outAt2_congr (hO : Ok2 V) (c : Dev nD) {t t' : Fin (cfgM2 V hO).N} (h : t.val = t'.val) (j : S1x1x1.Idx) :
    outAt2 V hO c t j = outAt2 V hO c t' j := by
  obtain rfl : t = t' := Fin.ext h
  rfl

/-- What a write-back writes is the written row of `tileRes2`: the point is its sample's last feature `32 (t / 32) + 31`,
    and the block's one element is the row's. -/
theorem flushed2_4_eq (hO : Ok2 V) (c : Dev nD) (t : Fin (cfgM2 V hO).N) (hf : ((cfgM2 V hO).win 4).flush t = true) :
    (dat2 V hO c).flushed 4 t = (((cfgM2 V hO).win 4).blk t).view.read (Elt F) (tileRes2 V hO c) := by
  have h31 : t.val % 32 = 31 := (flush2_4_iff (adm2 V hO) t).mp hf
  show ((cfgM2 V hO).win 4).cut (grid2.coords t) ((dat2 V hO c).after 4 t) = _
  rw [after2_4]
  funext j
  have hj : (((cfgM2 V hO).win 4).xinj (grid2.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM2 V hO).win 4).blk t).view.emb j : S2048x1x1.Idx) (0 : Fin 3)).val + 31 := by
    have h : (j (0 : Fin 3)).val < 1 := (j (0 : Fin 3)).isLt
    show t.val = 32 * (((cfgM2 V hO).win 4).index t (0 : Fin 3) * 1 + 1 * (j (0 : Fin 3)).val) + 31
    rw [index2_4]
    show t.val = 32 * (t.val / 32 * 1 + 1 * (j (0 : Fin 3)).val) + 31
    omega
  show outAt2 V hO c t (((cfgM2 V hO).win 4).xinj (grid2.coords t) j) = tileRes2 V hO c ((((cfgM2 V hO).win 4).blk t).view.emb j)
  rw [hj]
  exact outAt2_congr V hO c hv _

/-- Every row of the result array is some write-back's block: row `r` is the block of point `32 r + 31`. -/
theorem cover2_4 (hO : Ok2 V) (i : S2048x1x1.Idx) :
    ∃ t : Fin (cfgM2 V hO).N, ((cfgM2 V hO).win 4).flush t = true ∧ i ∈ (((cfgM2 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt2 _ h0⟩, (flush2_4_iff (adm2 V hO) _).mpr (by show (32 * (i 0).val + 31) % 32 = 31; omega), ?_⟩
  have he : (((cfgM2 V hO).win 4).blk ⟨32 * (i 0).val + 31, lastPt_lt2 _ h0⟩).view.emb (ValueIdx.ix3 (0 : Fin 1) (0 : Fin 1) (0 : Fin 1)) = i := by
    refine (emb2_4 (adm2 V hO) ⟨32 * (i 0).val + 31, lastPt_lt2 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM2 V hO).win 4).blk ⟨32 * (i 0).val + 31, lastPt_lt2 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes2`. -/
theorem arrAt2_4 (hO : Ok2 V) (c : Dev nD) : (dat2 V hO c).arrAt 4 (cfgM2 V hO).N = tileRes2 V hO c :=
  (dat2 V hO c).arrAt_eq_of_cover 4 (tileRes2 V hO c) (fun t hf => flushed2_4_eq V hO c t hf) (fun i => cover2_4 V hO i)

end AtTable

end Cert.KernelIdeal.Hand

end
-- ==== Proof.R2Seg.lean ====
/-
  Tile 2's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 2's admissible contents and
  proof data is ten small facts (`Pinned2`); they hold of tile 2's own (`pinned_dat2`) and so of any family whose
  component 2 is tile 2's (`Pinned2.of_eq`).
-/
import proofs.«402893_j78554951844377_2_alg».proof.Proof.R2Acc
import proofs.«402893_j78554951844377_2_alg».proof.Proof.Family
import proofs.«402893_j78554951844377_2_alg».proof.Proof.Glue
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 2's contents and proof data -/

variable (Vin : (c : Dev nD) → (b : Ref sig .tc) → Buf (Elt F) ((c : Thread nD τ).loc b))

/-- The scratch operand owned whole at some contents is its buffer held at some contents. -/
theorem scratch2_eq (c : Dev nD) :
    (iprop(∃ d, owns (c : Thread nD τ) scM2 fullShare d) : sProp 𝕄)
      = iprop(∃ f : Buf (Elt F) ((c : Thread nD τ).loc cc2_scratch0), ((c : Thread nD τ).loc cc2_scratch0) ↦{fullShare} f) := by
  simp only [scM2, owns_whole]; try rfl

/-- What the record needs of pipeline 2's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned2 (Vx : Dev nD → Valuation τ sig (Elt F)) (a0 : (pcfgs (F := F) 2).Adm)
    (d0 : (c : Dev nD) → Dat τ (Elt F) Unit ℕ (UR sig nD τ) ℕ ((pcfgs (F := F) 2).at a0) c) : Prop where
  tbl : a0.1 = tbl2 Vin
  q : ∀ (c : Dev nD) w, (d0 c).q w = fullShare
  A : ∀ (c : Dev nD) w, (d0 c).A w = Vin c (Pipeline.arrRef spec2 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM2 fullShare d) ∗ Rest2 Vin c) : sProp 𝕄) ⊢ (d0 c).Φ 0
  phiOut : ∀ c : Dev nD, (d0 c).Φ (Fin.last _) ⊢ (iprop((∃ d, owns (c : Thread nD τ) scM2 fullShare d) ∗ Rest2 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 2).at a0).N = Vx c (Pipeline.arrRef spec2 w)

set_option maxHeartbeats 400000 in
/-- Tile 2's own contents and proof data have them: each field by unfolding the proof data; the last stage of the
    invariant is a later one (the grid has 65536 points), so it holds the scratch at the last point's contents. -/
theorem pinned_dat2 (hO : Ok2 Vin) (Vx : Dev nD → Valuation τ sig (Elt F))
    (hF : ∀ c w, (dat2 Vin hO c).arrAt w (cfgM2 Vin hO).N = Vx c (Pipeline.arrRef spec2 w)) :
    Pinned2 Vin Vx (adm2 Vin hO) (dat2 Vin hO) where
  tbl := rfl
  q c w := rfl
  A c w := A_eq2 Vin hO c w
  owed c t := rfl
  body c := (body_obligation2 Vin hO c).loose
  phiIn c := by
    rw [show (dat2 Vin hO c).Φ 0 = PhiS2 Vin hO c ((0 : Fin ((cfgM2 Vin hO).N + 1)).val) (Nat.le_of_lt_succ (0 : Fin ((cfgM2 Vin hO).N + 1)).isLt) from rfl,
      PhiS2_zero Vin hO c _ _ (Fin.val_zero _)]
  phiOut c := by
    have hN : (Fin.last (cfgM2 Vin hO).N).val ≠ 0 := by
      rw [Fin.val_last, show (cfgM2 Vin hO).N = grid2.N from rfl, N_2]; decide
    show PhiS2 Vin hO c (Fin.last (cfgM2 Vin hO).N).val (Nat.le_of_lt_succ (Fin.last (cfgM2 Vin hO).N).isLt) ⊢ _
    rw [PhiS2_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 2's. -/
theorem Pinned2.of_eq (hO : Ok2 Vin) {Vx : Dev nD → Valuation τ sig (Elt F)} {a0 : (pcfgs (F := F) 2).Adm}
    {d0 : (c : Dev nD) → Dat τ (Elt F) Unit ℕ (UR sig nD τ) ℕ ((pcfgs (F := F) 2).at a0) c}
    (ha : a0 = adm2 Vin hO) (hd : ∀ c, HEq (d0 c) (dat2 Vin hO c)) (h : Pinned2 Vin Vx (adm2 Vin hO) (dat2 Vin hO)) :
    Pinned2 Vin Vx a0 d0 := by
  subst ha
  obtain rfl : d0 = dat2 Vin hO := funext fun c => eq_of_heq (hd c)
  exact h

/-! ## The record -/

set_option backward.isDefEq.respectTransparency.types false in
set_option maxHeartbeats 1600000 in
/-- Tile 2's region over ANY family of pipelines whose component 2 is tile 2's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg2G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok2 Vin) (ha : a 2 = adm2 Vin hO) (hd : ∀ c, HEq (pdats 2 c) (dat2 Vin hO c))
    (hag : ∀ c w, V c (Proc.devRef .tc (Pipeline.arrRef spec2 w)) = Vin c (Pipeline.arrRef spec2 w))
    (hagT : ∀ c j, V c (Proc.devRef .tc (pre2.ref j)) = Vin c (pre2.ref j))
    (hF : ∀ c w, (dat2 Vin hO c).arrAt w (cfgM2 Vin hO).N = Vx c (Pipeline.arrRef spec2 w))
    (hrest : ∀ c b, b ∉ Finset.univ.image (Pipeline.arrRef spec2) → Vx c b = V c b) :
    Pipeline.RegionSeg (pcfgs (F := F)) a pdats () defs₀ Variants.none (fun _ => ∅) (fun _ _ => 0) 2 :=
  have hp : Pinned2 Vin Vx (a 2) (pdats 2) := Pinned2.of_eq Vin hO ha hd (pinned_dat2 Vin hO Vx hF)
  have htbl : ∀ c, (fun k => V c (Proc.devRef .tc ((pcfgs (F := F) 2).pre.ref k))) = (a 2).1 := fun c => by
    rw [hp.tbl]; funext k; exact (hagT c k).trans (V_pre2 Vin c k)
  { win := (launch2 (F := F)).win.to₀
    block_pos := (launch2 (F := F)).block_pos
    stage_whole := (launch2 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 2 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre2 c (fun _ => fullShare) (tbl2 Vin))
    Z := fun c => Pipeline.unscopedRestP (Ix := Unit) (Name := ℕ) (U := UR sig nD τ) (Lvl := ℕ) pre2 spec2 c (fun b => V c b)
    hentry := fun c => by
      rw [Pipeline.ownSems0_none]
      have hsplit := Pipeline.arrays_of_unscopedBufs (p := 2) (pcfgs (F := F)) a pdats (launch2 (F := F)).win (launch2 (F := F)).arr_whole c
        ((pdats 2 c).share_full (hp.q c)) (fun b => V c b) (fun w => (hp.A c w).trans (hag c w).symm)
      rw [Pipeline.unscopedBufs_held, Pipeline.unscopedRest_split (launch2 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 2).spec c : sProp 𝕄) = _ from scopedRest2_split c, hp.tbl]
      refine BIBase.Entails.trans ?_ (hp.phiIn c)
      rw [scratch2_eq]
      unfold Rest2
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 2).spec c : sProp 𝕄) = _ from scopedRest2_split c]
      refine BIBase.Entails.trans (hp.phiOut c) ?_
      rw [scratch2_eq]
      unfold Rest2
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 2) (pcfgs (F := F)) a (Ix := Unit) (Name := ℕ) (U := UR sig nD τ) (Lvl := ℕ)
        (launch2 (F := F)).win (launch2 (F := F)).arr_whole c pdats ((pdats 2 c).share_full (hp.q c))
        (fun b => V c b) (fun b => Vx c b) ((pdats 2 c).arrAt · (Pipeline.pin (pcfgs (F := F)) a 2).N) (hp.fin c) (hrest c)
      rw [Pipeline.unscopedBufs_held, Pipeline.unscopedRest_split (launch2 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 2's record over the assembled families, tile 2's components in slot 2. -/
def reg2 (hO : Ok2 Vin) (V Vx : Dev nD → Valuation τ sig (Elt F))
    (hag : ∀ c w, V c (Proc.devRef .tc (Pipeline.arrRef spec2 w)) = Vin c (Pipeline.arrRef spec2 w))
    (hagT : ∀ c j, V c (Proc.devRef .tc (pre2.ref j)) = Vin c (pre2.ref j))
    (hF : ∀ c w, (dat2 Vin hO c).arrAt w (cfgM2 Vin hO).N = Vx c (Pipeline.arrRef spec2 w))
    (hrest : ∀ c b, b ∉ Finset.univ.image (Pipeline.arrRef spec2) → Vx c b = V c b)
    (a0 : (pcfg0 (F := F)).Adm)
    (a1 : (pcfg1 (F := F)).Adm)
    (a3 : (pcfg3 (F := F)).Adm)
    (a4 : (pcfg4 (F := F)).Adm)
    (a5 : (pcfg5 (F := F)).Adm)
    (a6 : (pcfg6 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 a1 (adm2 Vin hO) a3 a4 a5 a6 a7)
      (pdatsOf a0 a1 (adm2 Vin hO) a3 a4 a5 a6 a7 d0 d1 (dat2 Vin hO) d3 d4 d5 d6 d7) () defs₀ Variants.none (fun _ => ∅) (fun _ _ => 0) 2 :=
  reg2G Vin V Vx _ _ hO rfl (fun _ => HEq.rfl) hag hagT hF hrest

/-- The thread state the record is entered from, -/
theorem reg2_pre (hO : Ok2 Vin) (V Vx : Dev nD → Valuation τ sig (Elt F)) (hag) (hagT) (hF) (hrest) (a0) (a1) (a3) (a4) (a5) (a6) (a7) (d0) (d1) (d3) (d4) (d5) (d6) (d7) (c : Dev nD) :
    (reg2 Vin hO V Vx hag hagT hF hrest a0 a1 a3 a4 a5 a6 a7 d0 d1 d3 d4 d5 d6 d7).pre c
      = iprop(StableHlo.held (c : Thread nD τ) (Pipeline.ucRefs τ sig) (V c) ∗ Rr (F := F) c) := rfl
/-- and the one it leaves. -/
theorem reg2_post (hO : Ok2 Vin) (V Vx : Dev nD → Valuation τ sig (Elt F)) (hag) (hagT) (hF) (hrest) (a0) (a1) (a3) (a4) (a5) (a6) (a7) (d0) (d1) (d3) (d4) (d5) (d6) (d7) (c : Dev nD) :
    (reg2 Vin hO V Vx hag hagT hF hrest a0 a1 a3 a4 a5 a6 a7 d0 d1 d3 d4 d5 d6 d7).post c
      = iprop(StableHlo.held (c : Thread nD τ) (Pipeline.ucRefs τ sig) (Vx c) ∗ Rr (F := F) c) := rfl

end Cert.KernelIdeal.Hand

end
-- ==== Proof.R2Agree.lean ====
import proofs.«402893_j78554951844377_2_alg».proof.Proof.KHostT2
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

/-! # Tile 2: what the region reads does not depend on what earlier regions left

The table, the embedding table, the three slices and the (not yet written) result array of tile 2 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree2_tbl : V9 m outs c main_v48 = V9 m outs' c main_v48 := by
  funext (j : S65536.Idx)
  obtain ⟨a, rfl⟩ : ∃ a : Fin 65536, j = ValueIdx.ix1 a := ⟨j 0, ValueIdx.eq_ix1 j⟩
  rw [tbl2_apply m outs c, tbl2_apply m outs' c]

theorem agree2_emb : V9 m outs c main_v34 = V9 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb2_apply m outs c, emb2_apply m outs' c]

theorem agree2_pa : V9 m outs c main_v49 = V9 m outs' c main_v49 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa2_apply m outs c, pa2_apply m outs' c]

theorem agree2_w : V9 m outs c main_v50 = V9 m outs' c main_v50 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w2_apply m outs c, w2_apply m outs' c]

theorem agree2_b : V9 m outs c main_v51 = V9 m outs' c main_v51 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b2_apply m outs c, b2_apply m outs' c]

/-- The result array has not been written when the region is entered: it holds its launch contents. -/
theorem entry2_out : V9 m outs c main_v52 = V5 m c main_v52 :=
  (V9_of m outs c main_v52 (by decide)).trans ((V8_of m outs c main_v52 (by decide)).trans ((V7_of m outs c main_v52 (by decide)).trans (V6_of m outs c main_v52 (by decide))))

theorem agree2_out : V9 m outs c main_v52 = V9 m outs' c main_v52 :=
  (entry2_out m outs c).trans (entry2_out m outs' c).symm

end Cert.KernelIdeal.Hand

end
-- ==== Proof.R3Run.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R0Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 3: the kernel body at one grid point

Tile 3's kernel function is tile 0's (the same body, the same payloads and conditions under other names), so its three
runs are tile 0's. -/

/-- The body's first condition: the feature coordinate is 0. -/
abbrev cond3_0 (i : grid3.Coords) : Prop := (Scalar.cmpi .ne (Scalar.extui (Scalar.cmpi .eq (BitVec.ofNat 32 (i 1).val) 0#32)) 0#32) = 1#1
/-- The body's second condition: the feature coordinate is 31. -/
abbrev cond3_1 (i : grid3.Coords) : Prop := k3_cond2 i = 1#1

/-- A MIDDLE feature: the scratch at `acc` ends at `acc + row`. -/
theorem run3_B (c : Dev nD) (i : grid3.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond3_0 i) (hc1 : ¬cond3_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k3_pay2 acc x3)) -∗ K ⟨⟩))
      ⊢ wp frame (wpE (defs₀ (F := F)) Variants.none c none) E (cc3__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run3_A (c : Dev nD) (i : grid3.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond3_0 i) (hc1 : ¬cond3_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k3_pay2 (k3_pay1 (F := F)) x3)) -∗ K ⟨⟩))
      ⊢ wp frame (wpE (defs₀ (F := F)) Variants.none c none) E (cc3__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run3_C (c : Dev nD) (i : grid3.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond3_0 i) (hc1 : cond3_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k3_pay3 (k3_pay2 acc x3) x4 x5 x6)
            ∗ owns (c : Thread nD τ) arg8 fullShare (k3_pay2 acc x3)) -∗ K ⟨⟩))
      ⊢ wp frame (wpE (defs₀ (F := F)) Variants.none c none) E (cc3__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.KernelIdeal.Hand

end
-- ==== Proof.R3Base.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R3Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 3: the pipeline at the table the region reads, its blocks and staging buffers

Everything here is stated at a PARAMETER `V`: the contents of the core's buffers when the region is entered. The
region's prefetched table is read off `V`; under the side condition that every word of it names a row of the embedding
table (`Ok3`) the pipeline is pinned at it, and each window's block at a grid point is a restriction of its array. -/

variable (V : (c : Dev nD) → (b : Ref sig .tc) → Buf (Elt F) ((c : Thread nD τ).loc b))

/-- The table's contents when the region is entered (one device). -/
def tbl3 : pre3.Contents (Elt F) := fun j => V (0 : Dev nD) (pre3.ref j)
/-- On every device the table holds those contents (there is one device). -/
theorem V_pre3 (c : Dev nD) (j : Fin 1) : V c (pre3.ref j) = tbl3 V j := by
  obtain rfl : c = 0 := Subsingleton.elim _ _; rfl
/-- Every block the table names lies inside the embedding table. -/
abbrev Ok3 : Prop := ok3 (F := F) (tbl3 V)
/-- The table as admissible contents, and the pipeline pinned at it. -/
abbrev adm3 (hO : Ok3 V) : (pcfg3 (F := F)).Adm := ⟨tbl3 V, hO⟩
abbrev cfgM3 (hO : Ok3 V) : Pipeline.Cfg sig Λ₀ := cfg3 (adm3 V hO)

/-- Window `w`'s block at point `t`, read off its array as the region finds it. -/
def iblk3 (hO : Ok3 V) (c : Dev nD) (w : Fin (cfgM3 V hO).W) (t : Fin (cfgM3 V hO).N) :
    (((cfgM3 V hO).win w).xblock ((cfgM3 V hO).grid.coords t)).Idx → Elt F ((cfgM3 V hO).win w).elt :=
  (((cfgM3 V hO).win w).blk t).view.read (Elt F) (V c (Pipeline.arrRef spec3 w))

/-- An input window's current staging buffer holds its block at every point, fetched there or not, for any proof
    data whose array is `V`'s and whose body leaves the block in place. -/
theorem before3_0_of (hO : Ok3 V) {c : Dev nD} (dat : Dat τ (Elt F) Unit ℕ (UR sig nD τ) ℕ (cfgM3 V hO) c) (hA : dat.A 0 = V c (Pipeline.arrRef spec3 0))
    (hafter : ∀ t, dat.after 0 t = iblk3 V hO c 0 t) (t : Fin (cfgM3 V hO).N) (d) : dat.before 0 t d = iblk3 V hO c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (hO : Ok3 V) {c : Dev nD} (dat : Dat τ (Elt F) Unit ℕ (UR sig nD τ) ℕ (cfgM3 V hO) c) (hA : dat.A 1 = V c (Pipeline.arrRef spec3 1))
    (hafter : ∀ t, dat.after 1 t = iblk3 V hO c 1 t) (t : Fin (cfgM3 V hO).N) (d) : dat.before 1 t d = iblk3 V hO c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of (hO : Ok3 V) {c : Dev nD} (dat : Dat τ (Elt F) Unit ℕ (UR sig nD τ) ℕ (cfgM3 V hO) c) (hA : dat.A 2 = V c (Pipeline.arrRef spec3 2))
    (hafter : ∀ t, dat.after 2 t = iblk3 V hO c 2 t) (t : Fin (cfgM3 V hO).N) (d) : dat.before 2 t d = iblk3 V hO c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of (hO : Ok3 V) {c : Dev nD} (dat : Dat τ (Elt F) Unit ℕ (UR sig nD τ) ℕ (cfgM3 V hO) c) (hA : dat.A 3 = V c (Pipeline.arrRef spec3 3))
    (hafter : ∀ t, dat.after 3 t = iblk3 V hO c 3 t) (t : Fin (cfgM3 V hO).N) (d) : dat.before 3 t d = iblk3 V hO c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Each window's current staging memref at point `t`, as the pipeline passes it, and its wholeness. -/
abbrev ms3_0 (hO : Ok3 V) (t : Fin (cfgM3 V hO).N) : Memref sig .tc .vmem S1x1x128 .f32 := spec3_0.stage ((cfgM3 V hO).slots t 0)
abbrev hs3_0 (hO : Ok3 V) (t : Fin (cfgM3 V hO).N) : (ms3_0 V hO t).IsWhole := hstage3_0 (((cfgM3 V hO).slots t 0).cast nbuf3_0)
abbrev ms3_1 (hO : Ok3 V) (t : Fin (cfgM3 V hO).N) : Memref sig .tc .vmem S1x1x128 .f32 := spec3_1.stage ((cfgM3 V hO).slots t 1)
abbrev hs3_1 (hO : Ok3 V) (t : Fin (cfgM3 V hO).N) : (ms3_1 V hO t).IsWhole := hstage3_1 (((cfgM3 V hO).slots t 1).cast nbuf3_1)
abbrev ms3_2 (hO : Ok3 V) (t : Fin (cfgM3 V hO).N) : Memref sig .tc .vmem S1x1x128 .f32 := spec3_2.stage ((cfgM3 V hO).slots t 2)
abbrev hs3_2 (hO : Ok3 V) (t : Fin (cfgM3 V hO).N) : (ms3_2 V hO t).IsWhole := hstage3_2 (((cfgM3 V hO).slots t 2).cast nbuf3_2)
abbrev ms3_3 (hO : Ok3 V) (t : Fin (cfgM3 V hO).N) : Memref sig .tc .vmem S1x1x1 .f32 := spec3_3.stage ((cfgM3 V hO).slots t 3)
abbrev hs3_3 (hO : Ok3 V) (t : Fin (cfgM3 V hO).N) : (ms3_3 V hO t).IsWhole := hstage3_3 (((cfgM3 V hO).slots t 3).cast nbuf3_3)
abbrev ms3_4 (hO : Ok3 V) (t : Fin (cfgM3 V hO).N) : Memref sig .tc .vmem S1x1x1 .f32 := spec3_4.stage ((cfgM3 V hO).slots t 4)
abbrev hs3_4 (hO : Ok3 V) (t : Fin (cfgM3 V hO).N) : (ms3_4 V hO t).IsWhole := hstage3_4 (((cfgM3 V hO).slots t 4).cast nbuf3_4)
/-- The scratch operand: a whole scoped buffer of the kernel's own. -/
abbrev scM3 : Memref sig .tc .vmem S1x1x128 .f32 := Memref.whole cc3_scratch0
/-- The table as the body is handed it. -/
abbrev tbM3 : Memref sig .tc .smem S65536 .i32 := Memref.whole main_v54

/-- The kernel body at point `t`, on what the pipeline calls it with. -/
abbrev bodyAt3 (a : (pcfg3 (F := F)).Adm) (t : Fin (cfg3 a).N) : Prog (TpuEff nD τ sig (Elt F) Λ₀ .tc) PUnit :=
  cc3__gather_kernel (grid3.coords t) (Memref.whole main_v54) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (Memref.whole cc3_scratch0) (Memref.isWhole_whole _)

/-- Off the last feature the result window is idle: the body stores nothing into it. -/
theorem idleAt3_4 (a : (pcfg3 (F := F)).Adm) (i : grid3.Coords) (h : ¬cond3_1 i) : (cfg3 a).idle 4 i = true := by
  show (!(k3_cond2 i == 1#1)) = true
  simp only [Bool.not_eq_true', beq_eq_false_iff_ne, ne_eq]; exact h
/-- On the last feature it is live. -/
theorem liveAt3_4 (a : (pcfg3 (F := F)).Adm) (i : grid3.Coords) (h : cond3_1 i) : (cfg3 a).idle 4 i = false := by
  show (!(k3_cond2 i == 1#1)) = false
  simp only [Bool.not_eq_false', beq_iff_eq]; exact h
/-- The input windows are never idle. -/
theorem liveAt3_0 (a : (pcfg3 (F := F)).Adm) (i : grid3.Coords) : (cfg3 a).idle 0 i = false := rfl
theorem liveAt3_1 (a : (pcfg3 (F := F)).Adm) (i : grid3.Coords) : (cfg3 a).idle 1 i = false := rfl
theorem liveAt3_2 (a : (pcfg3 (F := F)).Adm) (i : grid3.Coords) : (cfg3 a).idle 2 i = false := rfl
theorem liveAt3_3 (a : (pcfg3 (F := F)).Adm) (i : grid3.Coords) : (cfg3 a).idle 3 i = false := rfl

end Cert.KernelIdeal.Hand

end
-- ==== Proof.KHostT3.lean ====
/-
  Tile 3's five operands, entry by entry: what proof/Proof/KHost.lean says of tile 0, for the rows
  `[2048 · 3, 2048 · 3 + 2048)`. The arrays the tile's stretch reads were written before the first kernel region, and
  neither a region (each writes its own result array only) nor an earlier tile's stretch (each writes its own cuts
  only) touches them since.
-/
import proofs.«402893_j78554951844377_2_alg».proof.Proof.Gen.KernelIdeal.Regions
import proofs.«402893_j78554951844377_2_alg».proof.Proof.Spec
import proofs.«402893_j78554951844377_2_alg».proof.Proof.KHost
import Idealize.ShloMosaic.Lib.StableHlo.Run
import Idealize.ShloMosaic.Lib.Pipeline.Value
import Idealize.ShloMosaic.Lib.ValueLayout
import Idealize.ShloMosaic.Lib.ValueIdx

set_option maxRecDepth 1396

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]
variable (m : (ℓ : Loc nD τ sig) → Buf (Elt F) ℓ) (outs : Outs (F := F))

/-! ## Tile 3

Tile 3 (samples `2048 · 3 + r`, `r < 2048`) is entered at `V11 m outs c`: the stretch `hostOps3` cuts the
tile's rows out of the four host arrays (offset `2048 · 3` on the leading axis) and flattens the rows of gathered
indices into the tile's prefetched table, entry `j` of which is therefore row `j / 32`, feature `j % 32`. -/

section Tile3

/-- The arrays written before the first region are, at tile 3's entry, what they were at `V5 m c`: no region and no
    stretch in between writes them. -/
theorem ent3_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W) :
    V11 m outs c r = V5 m c r :=
  (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 3, 2048 · 3 + 2048)` of `main_v8`, flattened. -/
theorem tbl3_read (j : Fin 65536) :
    StableHlo.after hostOps3 W main_v54 (ValueIdx.ix1 j)
      = StableHlo.after hostOps3 W main_v8
          (ValueIdx.ix2 (⟨2048 * 3 + j.val / 32, by omega⟩ : Fin 16384) (⟨j.val % 32, by omega⟩ : Fin 32)) := by
  dsimp only [hostOps3]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 3 + j.val / 32 = _ + j.val / 32; omega)

/-- The tile's phase-bias rows: the rows `[2048 · 3, 2048 · 3 + 2048)` of `main_v31`. -/
theorem pa3_read (r : Fin 2048) (l : Fin 128) :
    StableHlo.after hostOps3 W main_v55 (ValueIdx.ix3 r 0 l)
      = StableHlo.after hostOps3 W main_v31 (ValueIdx.ix3 (⟨2048 * 3 + r.val, by omega⟩ : Fin 16384) 0 l) := by
  dsimp only [hostOps3]; open StableHlo in after_results_simp
  exact slice3_axis0_apply _ _ _ r 0 l _ (by show 2048 * 3 + r.val = _ + r.val; omega)

/-- The tile's head weights: the same rows of `main_v32`. -/
theorem w3_read (r : Fin 2048) (l : Fin 128) :
    StableHlo.after hostOps3 W main_v56 (ValueIdx.ix3 r 0 l)
      = StableHlo.after hostOps3 W main_v32 (ValueIdx.ix3 (⟨2048 * 3 + r.val, by omega⟩ : Fin 16384) 0 l) := by
  dsimp only [hostOps3]; open StableHlo in after_results_simp
  exact slice3_axis0_apply _ _ _ r 0 l _ (by show 2048 * 3 + r.val = _ + r.val; omega)

/-- The tile's head biases: the same rows of `main_v33`. -/
theorem b3_read (r : Fin 2048) :
    StableHlo.after hostOps3 W main_v57 (ValueIdx.ix3 r 0 0)
      = StableHlo.after hostOps3 W main_v33 (ValueIdx.ix3 (⟨2048 * 3 + r.val, by omega⟩ : Fin 16384) 0 0) := by
  dsimp only [hostOps3]; open StableHlo in after_results_simp
  exact slice3_axis0_apply _ _ _ r 0 0 _ (by show 2048 * 3 + r.val = _ + r.val; omega)

end Stretch

/-- Entry `j` of tile 3's prefetched table is the gathered row number of sample `2048 · 3 + j / 32`, feature `j % 32`. -/
theorem tbl3_apply (c : Dev nD) (j : Fin 65536) :
    V11 m outs c main_v54 (ValueIdx.ix1 j)
      = Spec.gidxOf (m ((c : Thread nD τ).loc main_arg0)) (m ((c : Thread nD τ).loc main_arg1))
          (m ((c : Thread nD τ).loc main_arg2))
          (ValueIdx.ix2 (⟨2048 * 3 + j.val / 32, by omega⟩ : Fin 16384) (⟨j.val % 32, by omega⟩ : Fin 32)) :=
  (tbl3_read (V10 m outs c) j).trans <| (congrFun (ent3_of m outs c main_v8 (by decide) (by decide) (by decide) (by decide) (by decide) (by decide)) _).trans <| congrFun (V5_gidx m c) _

/-- The embedding table as tile 3 sees it: row `ρ`, lane `l` of the argument. -/
theorem emb3_apply (c : Dev nD) (ρ : Fin 786432) (l : Fin 128) :
    V11 m outs c main_v34 (ValueIdx.ix3 ρ 0 l) = m ((c : Thread nD τ).loc main_arg3) (ValueIdx.ix2 ρ l) :=
  (congrFun (ent3_of m outs c main_v34 (by decide) (by decide) (by decide) (by decide) (by decide) (by decide)) _).trans <| V5_emb_apply m c ρ l

/-- Row `r` of tile 3's phase-bias operand is sample `2048 · 3 + r`'s phase-bias row. -/
theorem pa3_apply (c : Dev nD) (r : Fin 2048) (l : Fin 128) :
    V11 m outs c main_v55 (ValueIdx.ix3 r 0 l)
      = Spec.paSelOf (m ((c : Thread nD τ).loc main_arg1)) (m ((c : Thread nD τ).loc main_arg4))
          (ValueIdx.ix2 (⟨2048 * 3 + r.val, by omega⟩ : Fin 16384) l) :=
  (pa3_read (V10 m outs c) r l).trans <| (congrFun (ent3_of m outs c main_v31 (by decide) (by decide) (by decide) (by decide) (by decide) (by decide)) _).trans <| V5_pa_apply m c _ l

/-- Row `r` of tile 3's head-weight operand is sample `2048 · 3 + r`'s head weights. -/
theorem w3_apply (c : Dev nD) (r : Fin 2048) (l : Fin 128) :
    V11 m outs c main_v56 (ValueIdx.ix3 r 0 l)
      = Spec.wSelOf (m ((c : Thread nD τ).loc main_arg1)) (m ((c : Thread nD τ).loc main_arg5))
          (ValueIdx.ix2 (⟨2048 * 3 + r.val, by omega⟩ : Fin 16384) l) :=
  (w3_read (V10 m outs c) r l).trans <| (congrFun (ent3_of m outs c main_v32 (by decide) (by decide) (by decide) (by decide) (by decide) (by decide)) _).trans <| V5_w_apply m c _ l

/-- Entry `r` of tile 3's head-bias operand is sample `2048 · 3 + r`'s head bias. -/
theorem b3_apply (c : Dev nD) (r : Fin 2048) :
    V11 m outs c main_v57 (ValueIdx.ix3 r 0 0)
      = Spec.bSelOf (m ((c : Thread nD τ).loc main_arg1)) (m ((c : Thread nD τ).loc main_arg6))
          (ValueIdx.ix1 (⟨2048 * 3 + r.val, by omega⟩ : Fin 16384)) :=
  (b3_read (V10 m outs c) r).trans <| (congrFun (ent3_of m outs c main_v33 (by decide) (by decide) (by decide) (by decide) (by decide) (by decide)) _).trans <| V5_b_apply m c _

end Tile3

end Cert.KernelIdeal.Hand
-- ==== Proof.R3Ok.lean ====
/-
  Tile 3: the table the region reads, and the pipeline's side condition on it from the range fact.

  Region 3 is entered with the buffers at the valuation after the host stretch that cuts tile 3's operands. Its prefetched table then
  holds, at flat position `32·i₀ + i₁`, the gathered row number of sample `2048·3 + i₀`, feature `i₁`. When every gathered
  row number is below 786432 (the range fact), every word of the table is, which is the side condition under which the
  pipeline is pinned at the table.
-/
import proofs.«402893_j78554951844377_2_alg».proof.Proof.Gen.KernelIdeal.Regions
import proofs.«402893_j78554951844377_2_alg».proof.Proof.Spec
import proofs.«402893_j78554951844377_2_alg».proof.Proof.R3Base
import proofs.«402893_j78554951844377_2_alg».proof.Proof.OkTablesT
import proofs.«402893_j78554951844377_2_alg».proof.Proof.KHostT3
import proofs.«402893_j78554951844377_2_alg».proof.Proof.TileLib
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]

/-- The buffers when region 3 is entered: the valuation after the host stretch that cuts tile 3's operands. -/
abbrev V3in (m : (ℓ : Loc nD τ sig) → Buf (Elt F) ℓ) : (c : Dev nD) → (b : Ref sig .tc) → Buf (Elt F) ((c : Thread nD τ).loc b) :=
  fun c b => V11 m (outsL m) c b

variable (m : (ℓ : Loc nD τ sig) → Buf (Elt F) ℓ)

/-- The table word read at grid point `(i₀, i₁)` is the gathered row number of sample `2048·3 + i₀`, feature `i₁`: the
    word sits at flat position `32·i₀ + i₁`, whose quotient and remainder by 32 are `i₀` and `i₁`. -/
theorem tword3_V3in (c : Dev nD) (i : grid3.Coords) :
    tword3 (tbl3 (V3in m)) i
      = Spec.gidxOf (m ((c : Thread nD τ).loc main_arg0)) (m ((c : Thread nD τ).loc main_arg1)) (m ((c : Thread nD τ).loc main_arg2))
          (ValueIdx.ix2 (⟨2048 * 3 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V3in m 0 main_v54 (ValueIdx.ix1 ⟨32 * (i 0).val + (i 1).val, pos_lt3 i⟩) = _
  refine (tbl3_apply m (outsL m) 0 ⟨32 * (i 0).val + (i 1).val, pos_lt3 i⟩).trans ?_
  exact congrArg _ (ix2_congr (by show 2048 * 3 + (32 * (i 0).val + (i 1).val) / 32 = 2048 * 3 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok3_of_inRange (c : Dev nD)
    (hin : Spec.InRange (Spec.gidxOf (m ((c : Thread nD τ).loc main_arg0)) (m ((c : Thread nD τ).loc main_arg1)) (m ((c : Thread nD τ).loc main_arg2)))) :
    Ok3 (V3in m) :=
  ok3_of (tbl3 (V3in m)) fun i => by rw [tword3_V3in m c i]; exact hin _ _

end Cert.KernelIdeal.Hand

end
-- ==== Proof.R3Grid.lean ====
import proofs.«402893_j78554951844377_2_alg».proof.Proof.R3Run
import Idealize.ShloMosaic.Lib.Pipeline.Kit
import Mathlib.Data.Fin.VecNotation

noncomputable section

namespace Cert.KernelIdeal.Hand

open Cert.KernelIdeal Cert.KernelIdeal.Gen
open Idealize.ShloMosaic
open Idealize.ShloMosaic.Pipeline (Cfg Window)

variable {F : FTy → Type} [FloatOps F]

/-! # Tile 3: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride3_0 : grid3.stride 0 = 32 := by decide
/-- The feature coordinate changes at every point. -/
theorem stride3_1 : grid3.stride 1 = 1 := by decide

/-- The sample coordinate of point `t` is `t / 32`: the quotient is below 2048, so reducing it modulo the
    axis's bound changes nothing. -/
theorem coords3_val0 (t : Fin grid3.N) : ((grid3.coords t) 0).val = t.val / 32 := by
  have ht : t.val < 65536 := N_3 ▸ t.isLt
  show t.val / grid3.stride 0 % 2048 = t.val / 32
  rw [stride3_0]; omega

/-- The feature coordinate of point `t` is `t % 32`. -/
theorem coords3_val1 (t : Fin grid3.N) : ((grid3.coords t) 1).val = t.val % 32 := by
  show t.val / grid3.stride 1 % 32 = t.val % 32
  rw [stride3_1, Nat.div_one]

/-- The first condition holds exactly at feature 0: checked at each of the 32 values of the coordinate. -/
theorem cond3_0_iff (i : grid3.Coords) : cond3_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond3_1_iff (i : grid3.Coords) : cond3_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond3_0_first (t : Fin grid3.N) (h : t.val = 0) : cond3_0 (grid3.coords t) := by
  rw [cond3_0_iff, coords3_val1, h]

/-- No feature is both the first and the last. -/
theorem not_both3 (i : grid3.Coords) : cond3_0 i → cond3_1 i → False := by
  rw [cond3_0_iff, cond3_1_iff]; omega

/-- A sample number, made a 32-bit word and read back, is itself. -/
private theorem toNat_ofNat_sample (t : Fin grid3.N) : (BitVec.ofNat 32 ((grid3.coords t) 0).val).toNat = t.val / 32 := by
  have ht : t.val < 65536 := N_3 ▸ t.isLt
  rw [coords3_val0, BitVec.toNat_ofNat, Nat.mod_eq_of_lt (by omega)]

/-- Window 1's block at point `t` is the one of sample `t / 32`. -/
theorem index3_1 (a : (pcfg3 (F := F)).Adm) (t : Fin (cfg3 a).N) : ((cfg3 a).win 1).index t = ![t.val / 32, 0, 0] := by
  show (![(BitVec.ofNat 32 ((grid3.coords t) 0).val).toNat, (0#32).toNat, (0#32).toNat] : Fin 3 → ℕ) = _
  rw [toNat_ofNat_sample]; rfl
/-- Window 2's block at point `t` is the one of sample `t / 32`. -/
theorem index3_2 (a : (pcfg3 (F := F)).Adm) (t : Fin (cfg3 a).N) : ((cfg3 a).win 2).index t = ![t.val / 32, 0, 0] := by
  show (![(BitVec.ofNat 32 ((grid3.coords t) 0).val).toNat, (0#32).toNat, (0#32).toNat] : Fin 3 → ℕ) = _
  rw [toNat_ofNat_sample]; rfl
/-- Window 3's block at point `t` is the one of sample `t / 32`. -/
theorem index3_3 (a : (pcfg3 (F := F)).Adm) (t : Fin (cfg3 a).N) : ((cfg3 a).win 3).index t = ![t.val / 32, 0, 0] := by
  show (![(BitVec.ofNat 32 ((grid3.coords t) 0).val).toNat, (0#32).toNat, (0#32).toNat] : Fin 3 → ℕ) = _
  rw [toNat_ofNat_sample]; rfl
/-- The output window's block at point `t` is the one of sample `t / 32`. -/
theorem index3_4 (a : (pcfg3 (F := F)).Adm) (t : Fin (cfg3 a).N) : ((cfg3 a).win 4).index t = ![t.val / 32, 0, 0] := by
  show (![(BitVec.ofNat 32 ((grid3.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush3_4_iff (a : (pcfg3 (F := F)).Adm) (t : Fin (cfg3 a).N) : ((cfg3 a).win 4).flush t = true ↔ t.val % 32 = 31 := by
  have hN : (cfg3 a).N = 65536 := N_3
  have ht : t.val < 65536 := hN ▸ t.isLt
  have hout : ((cfg3 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index3_4, index3_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg3 a).N := Nat.lt_of_lt_of_eq (by omega : t.val + 1 < 65536) hN.symm
      refine Or.inr ⟨hlt, ?_⟩
      rw [index3_4, index3_4]
      have hne' : (t.val + 1) / 32 ≠ t.val / 32 := by omega
      exact (vec3_ne_iff _ _).mpr hne'

/-- At a sample's last feature the output block is written back. -/
theorem flush3_4 (a : (pcfg3 (F := F)).Adm) (t : Fin (cfg3 a).N) (h : cond3_1 (grid3.coords t)) : ((cfg3 a).win 4).flush t = true := by
  rw [flush3_4_iff, ← coords3_val1]; exact (cond3_1_iff _).mp h

/-- At any other feature the output block stays. -/
theorem noFlush3_4 (a : (pcfg3 (F := F)).Adm) (t : Fin (cfg3 a).N) (h : ¬cond3_1 (grid3.coords t)) : ((cfg3 a).win 4).flush t = false := by
  rw [← Bool.not_eq_true, flush3_4_iff, ← coords3_val1]; exact fun e => h ((cond3_1_iff _).mpr e)

end Cert.KernelIdeal.Hand

end
-- ==== Proof.R3Acc.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R3Base
import proofs.«402893_j78554951844377_2_alg».proof.Proof.R3Grid
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 3: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow3 (hO : Ok3 V) (c : Dev nD) (t : Fin (cfgM3 V hO).N) : Vec F S1x1x128 .f32 := iblk3 V hO c 0 t
abbrev xpa3 (hO : Ok3 V) (c : Dev nD) (t : Fin (cfgM3 V hO).N) : Vec F S1x1x128 .f32 := iblk3 V hO c 1 t
abbrev xw3 (hO : Ok3 V) (c : Dev nD) (t : Fin (cfgM3 V hO).N) : Vec F S1x1x128 .f32 := iblk3 V hO c 2 t
abbrev xb3 (hO : Ok3 V) (c : Dev nD) (t : Fin (cfgM3 V hO).N) : Vec F S1x1x1 .f32 := iblk3 V hO c 3 t

/-- THE ACCUMULATION: the scratch after the body at position `n`. -/
def accAt3 (hO : Ok3 V) (c : Dev nD) : (n : ℕ) → n < (cfgM3 V hO).N → Vec F S1x1x128 .f32
  | 0, hn => k3_pay2 (k3_pay1 (F := F)) (xrow3 V hO c ⟨0, hn⟩)
  | n + 1, hn =>
    if cond3_0 (grid3.coords ⟨n + 1, hn⟩) then k3_pay2 (k3_pay1 (F := F)) (xrow3 V hO c ⟨n + 1, hn⟩)
    else k3_pay2 (accAt3 hO c n (Nat.lt_of_succ_lt hn)) (xrow3 V hO c ⟨n + 1, hn⟩)

/-- At a sample's first feature the scratch restarts from zero. -/
theorem accAt3_A (hO : Ok3 V) (c : Dev nD) (t : Fin (cfgM3 V hO).N) (h0 : cond3_0 (grid3.coords t)) :
    accAt3 V hO c t.val t.isLt = k3_pay2 (k3_pay1 (F := F)) (xrow3 V hO c t) := by
  obtain ⟨n, hn⟩ := t
  cases n with
  | zero => rfl
  | succ n => exact if_pos h0

/-- Elsewhere it adds the row to what the point before left. -/
theorem accAt3_B (hO : Ok3 V) (c : Dev nD) (t : Fin (cfgM3 V hO).N) (h0 : ¬cond3_0 (grid3.coords t)) (hz : t.val ≠ 0) :
    accAt3 V hO c t.val t.isLt = k3_pay2 (accAt3 V hO c (t.val - 1) (by omega)) (xrow3 V hO c t) := by
  obtain ⟨n, hn⟩ := t
  cases n with
  | zero => exact absurd rfl hz
  | succ n => exact if_neg h0

/-- The sample's result as the body computes it at a point (read at the last feature). -/
def outAt3 (hO : Ok3 V) (c : Dev nD) (t : Fin (cfgM3 V hO).N) : Vec F S1x1x1 .f32 :=
  k3_pay3 (accAt3 V hO c t.val t.isLt) (xpa3 V hO c t) (xw3 V hO c t) (xb3 V hO c t)

/-- What rides along unread: the other scoped buffers, the generator register, the table. -/
def Rest3 (c : Dev nD) : sProp 𝕄 :=
  iprop(Pipeline.scopedRestBut (Ix := Unit) (Name := ℕ) (U := UR sig nD τ) (Lvl := ℕ) (Val := Elt F) spec3 c [cc3_scratch0]
    ∗ (∃ r, prngReg c r) ∗ Pipeline.prefHeld (Ix := Unit) (Name := ℕ) (U := UR sig nD τ) (Lvl := ℕ) pre3 c (fun _ => fullShare) (tbl3 V))

/-- The region invariant before position `n`: the scratch at anything before the first point, afterwards at what
    the point before left. -/
def PhiS3 (hO : Ok3 V) (c : Dev nD) : (n : ℕ) → n ≤ (cfgM3 V hO).N → sProp 𝕄
  | 0, _ => iprop((∃ d, owns (c : Thread nD τ) scM3 fullShare d) ∗ Rest3 V c)
  | n + 1, hn => iprop(owns (c : Thread nD τ) scM3 fullShare (accAt3 V hO c n hn) ∗ Rest3 V c)

theorem PhiS3_zero (hO : Ok3 V) (c : Dev nD) (n : ℕ) (h : n ≤ (cfgM3 V hO).N) (hz : n = 0) :
    PhiS3 V hO c n h = iprop((∃ d, owns (c : Thread nD τ) scM3 fullShare d) ∗ Rest3 V c) := by
  subst hz; rfl
theorem PhiS3_succ (hO : Ok3 V) (c : Dev nD) (n : ℕ) (hn : n < (cfgM3 V hO).N) :
    PhiS3 V hO c (n + 1) hn = iprop(owns (c : Thread nD τ) scM3 fullShare (accAt3 V hO c n hn) ∗ Rest3 V c) := rfl
theorem PhiS3_pos (hO : Ok3 V) (c : Dev nD) (n : ℕ) (h : n ≤ (cfgM3 V hO).N) (hz : n ≠ 0) :
    PhiS3 V hO c n h = iprop(owns (c : Thread nD τ) scM3 fullShare (accAt3 V hO c (n - 1) (by omega)) ∗ Rest3 V c) := by
  cases n with
  | zero => exact absurd rfl hz
  | succ n => rfl

/-- The proof data of the tile's pipeline on core `c`: the arrays as the region finds them; after the body each input's
    buffer at its block and the result's at `outAt3`; the invariant `PhiS3`; nothing owed; full shares. -/
def dat3 (hO : Ok3 V) (c : Dev nD) : Dat τ (Elt F) Unit ℕ (UR sig nD τ) ℕ (cfgM3 V hO) c where
  A w := V c (Pipeline.arrRef spec3 w)
  after w t := match w with
    | ⟨0, _⟩ => iblk3 V hO c 0 t
    | ⟨1, _⟩ => iblk3 V hO c 1 t
    | ⟨2, _⟩ => iblk3 V hO c 2 t
    | ⟨3, _⟩ => iblk3 V hO c 3 t
    | ⟨4, _⟩ => outAt3 V hO c t
  Φ t := PhiS3 V hO c t.val (Nat.le_of_lt_succ t.isLt)
  q _ := fullShare
  owed _ := 0

theorem A_eq3 (hO : Ok3 V) (c : Dev nD) (w : Fin (cfgM3 V hO).W) : (dat3 V hO c).A w = V c (Pipeline.arrRef spec3 w) := by
  dsimp only [dat3]
theorem PhiS3_castSucc (hO : Ok3 V) (c : Dev nD) (t : Fin (cfgM3 V hO).N) :
    (dat3 V hO c).Φ t.castSucc = PhiS3 V hO c t.val (Nat.le_of_lt t.isLt) := by
  dsimp only [dat3]; simp only [Fin.coe_castSucc]
theorem after3_0 (hO : Ok3 V) (c : Dev nD) (t : Fin (cfgM3 V hO).N) : (dat3 V hO c).after 0 t = iblk3 V hO c 0 t := by dsimp only [dat3]; try rfl
theorem after3_1 (hO : Ok3 V) (c : Dev nD) (t : Fin (cfgM3 V hO).N) : (dat3 V hO c).after 1 t = iblk3 V hO c 1 t := by dsimp only [dat3]; try rfl
theorem after3_2 (hO : Ok3 V) (c : Dev nD) (t : Fin (cfgM3 V hO).N) : (dat3 V hO c).after 2 t = iblk3 V hO c 2 t := by dsimp only [dat3]; try rfl
theorem after3_3 (hO : Ok3 V) (c : Dev nD) (t : Fin (cfgM3 V hO).N) : (dat3 V hO c).after 3 t = iblk3 V hO c 3 t := by dsimp only [dat3]; try rfl
theorem after3_4 (hO : Ok3 V) (c : Dev nD) (t : Fin (cfgM3 V hO).N) : (dat3 V hO c).after 4 t = outAt3 V hO c t := by dsimp only [dat3]; try rfl

theorem before3_0 (hO : Ok3 V) (c : Dev nD) (t : Fin (cfgM3 V hO).N) (d) : (dat3 V hO c).before 0 t d = iblk3 V hO c 0 t :=
  before3_0_of V hO (dat3 V hO c) (A_eq3 V hO c 0) (after3_0 V hO c) t d
theorem before3_1 (hO : Ok3 V) (c : Dev nD) (t : Fin (cfgM3 V hO).N) (d) : (dat3 V hO c).before 1 t d = iblk3 V hO c 1 t :=
  before3_1_of V hO (dat3 V hO c) (A_eq3 V hO c 1) (after3_1 V hO c) t d
theorem before3_2 (hO : Ok3 V) (c : Dev nD) (t : Fin (cfgM3 V hO).N) (d) : (dat3 V hO c).before 2 t d = iblk3 V hO c 2 t :=
  before3_2_of V hO (dat3 V hO c) (A_eq3 V hO c 2) (after3_2 V hO c) t d
theorem before3_3 (hO : Ok3 V) (c : Dev nD) (t : Fin (cfgM3 V hO).N) (d) : (dat3 V hO c).before 3 t d = iblk3 V hO c 3 t :=
  before3_3_of V hO (dat3 V hO c) (A_eq3 V hO c 3) (after3_3 V hO c) t d

/-- What the body is called with at point `t`, the windows one by one, -/
def bodyPre3 (hO : Ok3 V) (c : Dev nD) (t : Fin (cfgM3 V hO).N) : sProp 𝕄 :=
  iprop((dat3 V hO c).Φ t.castSucc ∗ (dat3 V hO c).owesAt () t.castSucc
    ∗ (∃ d, owns (c : Thread nD τ) (ms3_0 V hO t) fullShare ((dat3 V hO c).before 0 t d))
    ∗ (∃ d, owns (c : Thread nD τ) (ms3_1 V hO t) fullShare ((dat3 V hO c).before 1 t d))
    ∗ (∃ d, owns (c : Thread nD τ) (ms3_2 V hO t) fullShare ((dat3 V hO c).before 2 t d))
    ∗ (∃ d, owns (c : Thread nD τ) (ms3_3 V hO t) fullShare ((dat3 V hO c).before 3 t d))
    ∗ (∃ d, owns (c : Thread nD τ) (ms3_4 V hO t) fullShare ((dat3 V hO c).before 4 t d)))

/-- and what it returns. -/
def bodyPost3 (hO : Ok3 V) (c : Dev nD) (t : Fin (cfgM3 V hO).N) : sProp 𝕄 :=
  iprop((dat3 V hO c).Φ t.succ ∗ (dat3 V hO c).owesAt () t.succ
    ∗ (dat3 V hO c).leavesExact 0 t
    ∗ (dat3 V hO c).leavesExact 1 t
    ∗ (dat3 V hO c).leavesExact 2 t
    ∗ (dat3 V hO c).leavesExact 3 t
    ∗ (dat3 V hO c).leavesExact 4 t)

/-- The windows' idle flags at a point, stated at the pinned configuration. -/
theorem liveAtM3_0 (hO : Ok3 V) (t : Fin (cfgM3 V hO).N) : (cfgM3 V hO).idle 0 ((cfgM3 V hO).grid.coords t) = false := rfl
theorem liveAtM3_1 (hO : Ok3 V) (t : Fin (cfgM3 V hO).N) : (cfgM3 V hO).idle 1 ((cfgM3 V hO).grid.coords t) = false := rfl
theorem liveAtM3_2 (hO : Ok3 V) (t : Fin (cfgM3 V hO).N) : (cfgM3 V hO).idle 2 ((cfgM3 V hO).grid.coords t) = false := rfl
theorem liveAtM3_3 (hO : Ok3 V) (t : Fin (cfgM3 V hO).N) : (cfgM3 V hO).idle 3 ((cfgM3 V hO).grid.coords t) = false := rfl
theorem idleAtM3_4 (hO : Ok3 V) (t : Fin (cfgM3 V hO).N) (h : ¬cond3_1 (grid3.coords t)) :
    (cfgM3 V hO).idle 4 ((cfgM3 V hO).grid.coords t) = true := idleAt3_4 (adm3 V hO) (grid3.coords t) h
theorem liveAtM3_4 (hO : Ok3 V) (t : Fin (cfgM3 V hO).N) (h : cond3_1 (grid3.coords t)) :
    (cfgM3 V hO).idle 4 ((cfgM3 V hO).grid.coords t) = false := liveAt3_4 (adm3 V hO) (grid3.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body3 (hO : Ok3 V) (c : Dev nD) (t : Fin (cfgM3 V hO).N) :
    bodyPre3 V hO c t ⊢ wp frame (wpE (defs₀ (F := F)) Variants.none c none) Set.univ (bodyAt3 (adm3 V hO) t) (fun _ => bodyPost3 V hO c t) := by
  unfold bodyPre3 bodyPost3 bodyAt3
  simp only [before3_0, before3_1, before3_2, before3_3]
  rw [show (dat3 V hO c).owesAt () t.succ = (dat3 V hO c).owesAt () t.castSucc from rfl]
  rw [show (dat3 V hO c).Φ t.succ = PhiS3 V hO c (t.val + 1) t.isLt from rfl, PhiS3_succ]
  rw [show (dat3 V hO c).leavesExact 0 t = owns (c : Thread nD τ) (ms3_0 V hO t) fullShare ((dat3 V hO c).after 0 t) from by
    unfold Dat.leavesExact; rw [liveAtM3_0 V hO t]; try rfl]
  rw [after3_0]
  rw [show (dat3 V hO c).leavesExact 1 t = owns (c : Thread nD τ) (ms3_1 V hO t) fullShare ((dat3 V hO c).after 1 t) from by
    unfold Dat.leavesExact; rw [liveAtM3_1 V hO t]; try rfl]
  rw [after3_1]
  rw [show (dat3 V hO c).leavesExact 2 t = owns (c : Thread nD τ) (ms3_2 V hO t) fullShare ((dat3 V hO c).after 2 t) from by
    unfold Dat.leavesExact; rw [liveAtM3_2 V hO t]; try rfl]
  rw [after3_2]
  rw [show (dat3 V hO c).leavesExact 3 t = owns (c : Thread nD τ) (ms3_3 V hO t) fullShare ((dat3 V hO c).after 3 t) from by
    unfold Dat.leavesExact; rw [liveAtM3_3 V hO t]; try rfl]
  rw [after3_3]
  rw [PhiS3_castSucc]
  by_cases h0 : cond3_0 (grid3.coords t)
  · by_cases h1 : cond3_1 (grid3.coords t)
    · exact absurd h1 (fun h => not_both3 _ h0 h)
    · rw [Dat.leavesExact_idle (dat3 V hO c) 4 t (idleAtM3_4 V hO t h1) (noFlush3_4 (adm3 V hO) t h1)]
      rw [accAt3_A V hO c t h0]
      by_cases hz : t.val = 0
      · rw [PhiS3_zero V hO c _ _ hz]
        iintro ⟨⟨HS, HR⟩, Ho, ⟨%d0, H0⟩, ⟨%d1, H1⟩, ⟨%d2, H2⟩, ⟨%d3, H3⟩, ⟨%d4, H4⟩⟩
        iapply (run3_A c (grid3.coords t) _ _ _ _ _ _ _ _ _ _ _ _ _ _ h0 h1 (xrow3 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS3_pos V hO c _ _ hz]
        iintro ⟨⟨HS, HR⟩, Ho, ⟨%d0, H0⟩, ⟨%d1, H1⟩, ⟨%d2, H2⟩, ⟨%d3, H3⟩, ⟨%d4, H4⟩⟩
        iapply (run3_A c (grid3.coords t) _ _ _ _ _ _ _ _ _ _ _ _ _ _ h0 h1 (xrow3 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond3_0_first t hz)
    rw [PhiS3_pos V hO c _ _ hz, accAt3_B V hO c t h0 hz]
    by_cases h1 : cond3_1 (grid3.coords t)
    · rw [show (dat3 V hO c).leavesExact 4 t = owns (c : Thread nD τ) (ms3_4 V hO t) fullShare ((dat3 V hO c).after 4 t) from by
        unfold Dat.leavesExact; rw [liveAtM3_4 V hO t h1]; try rfl]
      rw [after3_4]
      unfold outAt3
      rw [accAt3_B V hO c t h0 hz]
      iintro ⟨⟨HS, HR⟩, Ho, ⟨%d0, H0⟩, ⟨%d1, H1⟩, ⟨%d2, H2⟩, ⟨%d3, H3⟩, ⟨%d4, H4⟩⟩
      iapply (run3_C c (grid3.coords t) _ _ _ _ _ _ _ _ _ _ _ _ _ _ h0 h1 (xrow3 V hO c t) (xpa3 V hO c t) (xw3 V hO c t) (xb3 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat3 V hO c) 4 t (idleAtM3_4 V hO t h1) (noFlush3_4 (adm3 V hO) t h1)]
      iintro ⟨⟨HS, HR⟩, Ho, ⟨%d0, H0⟩, ⟨%d1, H1⟩, ⟨%d2, H2⟩, ⟨%d3, H3⟩, ⟨%d4, H4⟩⟩
      iapply (run3_B c (grid3.coords t) _ _ _ _ _ _ _ _ _ _ _ _ _ _ h0 h1 (xrow3 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (hO : Ok3 V) (c : Dev nD) :
    BodyObligation (dat3 (F := F) V hO c) (defs₀ (F := F)) Variants.none () Set.univ := fun t => by
  rw [bigSep_W3, bigSep_W3]
  exact sound_body3 V hO c t

end Cert.KernelIdeal.Hand

end
-- ==== Proof.R3Val.lean ====
import proofs.«402893_j78554951844377_2_alg».proof.Proof.R3Acc
import proofs.«402893_j78554951844377_2_alg».proof.Proof.R3Grid
import proofs.«402893_j78554951844377_2_alg».proof.Proof.OkTablesT
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 3: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt3 (t : Fin grid3.N) : t.val / 32 < 2048 := by
  have ht : t.val < 65536 := N_3 ▸ t.isLt
  omega

/-- The last feature of sample `r` is a point of the grid. -/
theorem lastPt_lt3 (r : ℕ) (hr : r < 2048) : 32 * r + 31 < grid3.N := by rw [N_3]; omega

/-- Under the side condition every word the index map of window 0 reads names a row of the embedding table. -/
theorem tword3_lt (pf : pre3.Contents (Elt F)) (h : ok3 pf) (i : grid3.Coords) : (tword3 pf i).toNat < 786432 := by
  obtain ⟨hb, -⟩ := h i
  have h0 := hb 0
  rw [transform3_eq pf i] at h0
  have h0' : ((tword3 pf i).toNat + 1) * 1 ≤ 786432 := h0
  omega

/-- Window 0's block at point `t` is the row the table's word names. -/
theorem index3_0 (a : (pcfg3 (F := F)).Adm) (t : Fin (cfg3 a).N) :
    ((cfg3 a).win 0).index t = ![(tword3 a.1 (grid3.coords t)).toNat, 0, 0] :=
  transform3_eq a.1 (grid3.coords t)

/-- Lane `l` of window 0's block sits in the embedding table at (the named row, 0, l). -/
theorem emb3_0 (a : (pcfg3 (F := F)).Adm) (t : Fin (cfg3 a).N) (l : Fin 128) :
    (((cfg3 a).win 0).blk t).view.emb (ValueIdx.ix3 (0 : Fin 1) (0 : Fin 1) l)
      = ValueIdx.ix3 (⟨(tword3 a.1 (grid3.coords t)).toNat, tword3_lt a.1 a.2 (grid3.coords t)⟩ : Fin 786432) (0 : Fin 1) l := by
  funext d; apply Fin.ext
  match d with
  | ⟨0, _⟩ => show ((cfg3 a).win 0).index t (0 : Fin 3) * 1 + 1 * 0 = (tword3 a.1 (grid3.coords t)).toNat; rw [index3_0]; show (tword3 a.1 (grid3.coords t)).toNat * 1 + 1 * 0 = _; omega
  | ⟨1, _⟩ => show ((cfg3 a).win 0).index t (1 : Fin 3) * 1 + 1 * 0 = 0; rw [index3_0]; rfl
  | ⟨2, _⟩ => show ((cfg3 a).win 0).index t (2 : Fin 3) * 128 + 1 * l.val = l.val; rw [index3_0]; show 0 * 128 + 1 * l.val = l.val; omega

/-- Lane `l` of window 1's block sits in its array at (sample, 0, l). -/
theorem emb3_1 (a : (pcfg3 (F := F)).Adm) (t : Fin (cfg3 a).N) (l : Fin 128) :
    (((cfg3 a).win 1).blk t).view.emb (ValueIdx.ix3 (0 : Fin 1) (0 : Fin 1) l)
      = ValueIdx.ix3 (⟨t.val / 32, sample_lt3 t⟩ : Fin 2048) (0 : Fin 1) l := by
  funext d; apply Fin.ext
  match d with
  | ⟨0, _⟩ => show ((cfg3 a).win 1).index t (0 : Fin 3) * 1 + 1 * 0 = t.val / 32; rw [index3_1]; show t.val / 32 * 1 + 1 * 0 = _; omega
  | ⟨1, _⟩ => show ((cfg3 a).win 1).index t (1 : Fin 3) * 1 + 1 * 0 = 0; rw [index3_1]; rfl
  | ⟨2, _⟩ => show ((cfg3 a).win 1).index t (2 : Fin 3) * 128 + 1 * l.val = l.val; rw [index3_1]; show 0 * 128 + 1 * l.val = l.val; omega

/-- Lane `l` of window 2's block sits in its array at (sample, 0, l). -/
theorem emb3_2 (a : (pcfg3 (F := F)).Adm) (t : Fin (cfg3 a).N) (l : Fin 128) :
    (((cfg3 a).win 2).blk t).view.emb (ValueIdx.ix3 (0 : Fin 1) (0 : Fin 1) l)
      = ValueIdx.ix3 (⟨t.val / 32, sample_lt3 t⟩ : Fin 2048) (0 : Fin 1) l := by
  funext d; apply Fin.ext
  match d with
  | ⟨0, _⟩ => show ((cfg3 a).win 2).index t (0 : Fin 3) * 1 + 1 * 0 = t.val / 32; rw [index3_2]; show t.val / 32 * 1 + 1 * 0 = _; omega
  | ⟨1, _⟩ => show ((cfg3 a).win 2).index t (1 : Fin 3) * 1 + 1 * 0 = 0; rw [index3_2]; rfl
  | ⟨2, _⟩ => show ((cfg3 a).win 2).index t (2 : Fin 3) * 128 + 1 * l.val = l.val; rw [index3_2]; show 0 * 128 + 1 * l.val = l.val; omega

/-- The one element of window 3's block sits in its array at (sample, 0, 0). -/
theorem emb3_3 (a : (pcfg3 (F := F)).Adm) (t : Fin (cfg3 a).N) :
    (((cfg3 a).win 3).blk t).view.emb (ValueIdx.ix3 (0 : Fin 1) (0 : Fin 1) (0 : Fin 1))
      = ValueIdx.ix3 (⟨t.val / 32, sample_lt3 t⟩ : Fin 2048) (0 : Fin 1) (0 : Fin 1) := by
  funext d; apply Fin.ext
  match d with
  | ⟨0, _⟩ => show ((cfg3 a).win 3).index t (0 : Fin 3) * 1 + 1 * 0 = t.val / 32; rw [index3_3]; show t.val / 32 * 1 + 1 * 0 = _; omega
  | ⟨1, _⟩ => show ((cfg3 a).win 3).index t (1 : Fin 3) * 1 + 1 * 0 = 0; rw [index3_3]; rfl
  | ⟨2, _⟩ => show ((cfg3 a).win 3).index t (2 : Fin 3) * 1 + 1 * 0 = 0; rw [index3_3]; rfl

/-- The one element of the result window's block sits in the result array at (sample, 0, 0). -/
theorem emb3_4 (a : (pcfg3 (F := F)).Adm) (t : Fin (cfg3 a).N) :
    (((cfg3 a).win 4).blk t).view.emb (ValueIdx.ix3 (0 : Fin 1) (0 : Fin 1) (0 : Fin 1))
      = ValueIdx.ix3 (⟨t.val / 32, sample_lt3 t⟩ : Fin 2048) (0 : Fin 1) (0 : Fin 1) := by
  funext d; apply Fin.ext
  match d with
  | ⟨0, _⟩ => show ((cfg3 a).win 4).index t (0 : Fin 3) * 1 + 1 * 0 = t.val / 32; rw [index3_4]; show t.val / 32 * 1 + 1 * 0 = _; omega
  | ⟨1, _⟩ => show ((cfg3 a).win 4).index t (1 : Fin 3) * 1 + 1 * 0 = 0; rw [index3_4]; rfl
  | ⟨2, _⟩ => show ((cfg3 a).win 4).index t (2 : Fin 3) * 1 + 1 * 0 = 0; rw [index3_4]; rfl

section AtTable

variable (V : (c : Dev nD) → (b : Ref sig .tc) → Buf (Elt F) ((c : Thread nD τ).loc b))

/-! ## The input blocks at coordinates -/

/-- The row of the embedding table gathered at point `t`: the table's word there. -/
abbrev rho3 (t : Fin grid3.N) : ℕ := (tword3 (tbl3 V) (grid3.coords t)).toNat

/-- It is a row of the table, under the side condition. -/
theorem rho3_lt (hO : Ok3 V) (t : Fin grid3.N) : rho3 V t < 786432 := tword3_lt (tbl3 V) hO (grid3.coords t)

/-- Lane `l` of the gathered row at point `t` is the embedding table at (the named row, 0, l). -/
theorem xrow3_apply (hO : Ok3 V) (c : Dev nD) (t : Fin (cfgM3 V hO).N) (l : Fin 128) :
    xrow3 V hO c t (ValueIdx.ix3 (0 : Fin 1) (0 : Fin 1) l)
      = V c main_v34 (ValueIdx.ix3 (⟨rho3 V t, rho3_lt V hO t⟩ : Fin 786432) (0 : Fin 1) l) := by
  show V c main_v34 ((((cfgM3 V hO).win 0).blk t).view.emb (ValueIdx.ix3 (0 : Fin 1) (0 : Fin 1) l)) = _
  exact congrArg (V c main_v34) (emb3_0 (adm3 V hO) t l)

/-- Lane `l` of the phase-bias block at point `t` is its array at (sample, 0, l). -/
theorem xpa3_apply (hO : Ok3 V) (c : Dev nD) (t : Fin (cfgM3 V hO).N) (l : Fin 128) :
    xpa3 V hO c t (ValueIdx.ix3 (0 : Fin 1) (0 : Fin 1) l)
      = V c main_v55 (ValueIdx.ix3 (⟨t.val / 32, sample_lt3 t⟩ : Fin 2048) (0 : Fin 1) l) := by
  show V c main_v55 ((((cfgM3 V hO).win 1).blk t).view.emb (ValueIdx.ix3 (0 : Fin 1) (0 : Fin 1) l)) = _
  exact congrArg (V c main_v55) (emb3_1 (adm3 V hO) t l)

/-- Lane `l` of the head-weight block at point `t` is its array at (sample, 0, l). -/
theorem xw3_apply (hO : Ok3 V) (c : Dev nD) (t : Fin (cfgM3 V hO).N) (l : Fin 128) :
    xw3 V hO c t (ValueIdx.ix3 (0 : Fin 1) (0 : Fin 1) l)
      = V c main_v56 (ValueIdx.ix3 (⟨t.val / 32, sample_lt3 t⟩ : Fin 2048) (0 : Fin 1) l) := by
  show V c main_v56 ((((cfgM3 V hO).win 2).blk t).view.emb (ValueIdx.ix3 (0 : Fin 1) (0 : Fin 1) l)) = _
  exact congrArg (V c main_v56) (emb3_2 (adm3 V hO) t l)

/-- The head-bias block at point `t` is its array at (sample, 0, 0). -/
theorem xb3_apply (hO : Ok3 V) (c : Dev nD) (t : Fin (cfgM3 V hO).N) :
    xb3 V hO c t (ValueIdx.ix3 (0 : Fin 1) (0 : Fin 1) (0 : Fin 1))
      = V c main_v57 (ValueIdx.ix3 (⟨t.val / 32, sample_lt3 t⟩ : Fin 2048) (0 : Fin 1) (0 : Fin 1)) := by
  show V c main_v57 ((((cfgM3 V hO).win 3).blk t).view.emb (ValueIdx.ix3 (0 : Fin 1) (0 : Fin 1) (0 : Fin 1))) = _
  exact congrArg (V c main_v57) (emb3_3 (adm3 V hO) t)

/-! ## The arrays after the run -/

/-- An input's array is never written: it ends as the region found it. -/
theorem arrAt3_in (hO : Ok3 V) (c : Dev nD) (w : Fin 5) (hw : w ≠ 4) :
    (dat3 V hO c).arrAt w (cfgM3 V hO).N = V c (Pipeline.arrRef spec3 w) := by
  have hin : ((cfgM3 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat3 V hO c).arrAt_in w hin _).trans (A_eq3 V hO c w)

/-- THE RESULT ARRAY of the tile: row `r` holds what the body left in the result block at sample `r`'s last feature. -/
def tileRes3 (hO : Ok3 V) (c : Dev nD) : Buf (Elt F) ((c : Thread nD τ).loc main_v58) :=
  fun (i : S2048x1x1.Idx) => outAt3 V hO c ⟨32 * (i 0).val + 31, lastPt_lt3 (i 0).val (i 0).isLt⟩ (ValueIdx.ix3 (0 : Fin 1) (0 : Fin 1) (0 : Fin 1))

theorem tileRes3_apply (hO : Ok3 V) (c : Dev nD) (r : Fin 2048) :
    tileRes3 V hO c (ValueIdx.ix3 r (0 : Fin 1) (0 : Fin 1))
      = outAt3 V hO c ⟨32 * r.val + 31, lastPt_lt3 r.val r.isLt⟩ (ValueIdx.ix3 (0 : Fin 1) (0 : Fin 1) (0 : Fin 1)) := rfl

/-- The result block read at two names of one point. -/
theorem outAt3_congr (hO : Ok3 V) (c : Dev nD) {t t' : Fin (cfgM3 V hO).N} (h : t.val = t'.val) (j : S1x1x1.Idx) :
    outAt3 V hO c t j = outAt3 V hO c t' j := by
  obtain rfl : t = t' := Fin.ext h
  rfl

/-- What a write-back writes is the written row of `tileRes3`: the point is its sample's last feature `32 (t / 32) + 31`,
    and the block's one element is the row's. -/
theorem flushed3_4_eq (hO : Ok3 V) (c : Dev nD) (t : Fin (cfgM3 V hO).N) (hf : ((cfgM3 V hO).win 4).flush t = true) :
    (dat3 V hO c).flushed 4 t = (((cfgM3 V hO).win 4).blk t).view.read (Elt F) (tileRes3 V hO c) := by
  have h31 : t.val % 32 = 31 := (flush3_4_iff (adm3 V hO) t).mp hf
  show ((cfgM3 V hO).win 4).cut (grid3.coords t) ((dat3 V hO c).after 4 t) = _
  rw [after3_4]
  funext j
  have hj : (((cfgM3 V hO).win 4).xinj (grid3.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM3 V hO).win 4).blk t).view.emb j : S2048x1x1.Idx) (0 : Fin 3)).val + 31 := by
    have h : (j (0 : Fin 3)).val < 1 := (j (0 : Fin 3)).isLt
    show t.val = 32 * (((cfgM3 V hO).win 4).index t (0 : Fin 3) * 1 + 1 * (j (0 : Fin 3)).val) + 31
    rw [index3_4]
    show t.val = 32 * (t.val / 32 * 1 + 1 * (j (0 : Fin 3)).val) + 31
    omega
  show outAt3 V hO c t (((cfgM3 V hO).win 4).xinj (grid3.coords t) j) = tileRes3 V hO c ((((cfgM3 V hO).win 4).blk t).view.emb j)
  rw [hj]
  exact outAt3_congr V hO c hv _

/-- Every row of the result array is some write-back's block: row `r` is the block of point `32 r + 31`. -/
theorem cover3_4 (hO : Ok3 V) (i : S2048x1x1.Idx) :
    ∃ t : Fin (cfgM3 V hO).N, ((cfgM3 V hO).win 4).flush t = true ∧ i ∈ (((cfgM3 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt3 _ h0⟩, (flush3_4_iff (adm3 V hO) _).mpr (by show (32 * (i 0).val + 31) % 32 = 31; omega), ?_⟩
  have he : (((cfgM3 V hO).win 4).blk ⟨32 * (i 0).val + 31, lastPt_lt3 _ h0⟩).view.emb (ValueIdx.ix3 (0 : Fin 1) (0 : Fin 1) (0 : Fin 1)) = i := by
    refine (emb3_4 (adm3 V hO) ⟨32 * (i 0).val + 31, lastPt_lt3 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM3 V hO).win 4).blk ⟨32 * (i 0).val + 31, lastPt_lt3 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes3`. -/
theorem arrAt3_4 (hO : Ok3 V) (c : Dev nD) : (dat3 V hO c).arrAt 4 (cfgM3 V hO).N = tileRes3 V hO c :=
  (dat3 V hO c).arrAt_eq_of_cover 4 (tileRes3 V hO c) (fun t hf => flushed3_4_eq V hO c t hf) (fun i => cover3_4 V hO i)

end AtTable

end Cert.KernelIdeal.Hand

end
-- ==== Proof.R3Seg.lean ====
/-
  Tile 3's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 3's admissible contents and
  proof data is ten small facts (`Pinned3`); they hold of tile 3's own (`pinned_dat3`) and so of any family whose
  component 3 is tile 3's (`Pinned3.of_eq`).
-/
import proofs.«402893_j78554951844377_2_alg».proof.Proof.R3Acc
import proofs.«402893_j78554951844377_2_alg».proof.Proof.Family
import proofs.«402893_j78554951844377_2_alg».proof.Proof.Glue
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 3's contents and proof data -/

variable (Vin : (c : Dev nD) → (b : Ref sig .tc) → Buf (Elt F) ((c : Thread nD τ).loc b))

/-- The scratch operand owned whole at some contents is its buffer held at some contents. -/
theorem scratch3_eq (c : Dev nD) :
    (iprop(∃ d, owns (c : Thread nD τ) scM3 fullShare d) : sProp 𝕄)
      = iprop(∃ f : Buf (Elt F) ((c : Thread nD τ).loc cc3_scratch0), ((c : Thread nD τ).loc cc3_scratch0) ↦{fullShare} f) := by
  simp only [scM3, owns_whole]; try rfl

/-- What the record needs of pipeline 3's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned3 (Vx : Dev nD → Valuation τ sig (Elt F)) (a0 : (pcfgs (F := F) 3).Adm)
    (d0 : (c : Dev nD) → Dat τ (Elt F) Unit ℕ (UR sig nD τ) ℕ ((pcfgs (F := F) 3).at a0) c) : Prop where
  tbl : a0.1 = tbl3 Vin
  q : ∀ (c : Dev nD) w, (d0 c).q w = fullShare
  A : ∀ (c : Dev nD) w, (d0 c).A w = Vin c (Pipeline.arrRef spec3 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM3 fullShare d) ∗ Rest3 Vin c) : sProp 𝕄) ⊢ (d0 c).Φ 0
  phiOut : ∀ c : Dev nD, (d0 c).Φ (Fin.last _) ⊢ (iprop((∃ d, owns (c : Thread nD τ) scM3 fullShare d) ∗ Rest3 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 3).at a0).N = Vx c (Pipeline.arrRef spec3 w)

set_option maxHeartbeats 400000 in
/-- Tile 3's own contents and proof data have them: each field by unfolding the proof data; the last stage of the
    invariant is a later one (the grid has 65536 points), so it holds the scratch at the last point's contents. -/
theorem pinned_dat3 (hO : Ok3 Vin) (Vx : Dev nD → Valuation τ sig (Elt F))
    (hF : ∀ c w, (dat3 Vin hO c).arrAt w (cfgM3 Vin hO).N = Vx c (Pipeline.arrRef spec3 w)) :
    Pinned3 Vin Vx (adm3 Vin hO) (dat3 Vin hO) where
  tbl := rfl
  q c w := rfl
  A c w := A_eq3 Vin hO c w
  owed c t := rfl
  body c := (body_obligation3 Vin hO c).loose
  phiIn c := by
    rw [show (dat3 Vin hO c).Φ 0 = PhiS3 Vin hO c ((0 : Fin ((cfgM3 Vin hO).N + 1)).val) (Nat.le_of_lt_succ (0 : Fin ((cfgM3 Vin hO).N + 1)).isLt) from rfl,
      PhiS3_zero Vin hO c _ _ (Fin.val_zero _)]
  phiOut c := by
    have hN : (Fin.last (cfgM3 Vin hO).N).val ≠ 0 := by
      rw [Fin.val_last, show (cfgM3 Vin hO).N = grid3.N from rfl, N_3]; decide
    show PhiS3 Vin hO c (Fin.last (cfgM3 Vin hO).N).val (Nat.le_of_lt_succ (Fin.last (cfgM3 Vin hO).N).isLt) ⊢ _
    rw [PhiS3_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 3's. -/
theorem Pinned3.of_eq (hO : Ok3 Vin) {Vx : Dev nD → Valuation τ sig (Elt F)} {a0 : (pcfgs (F := F) 3).Adm}
    {d0 : (c : Dev nD) → Dat τ (Elt F) Unit ℕ (UR sig nD τ) ℕ ((pcfgs (F := F) 3).at a0) c}
    (ha : a0 = adm3 Vin hO) (hd : ∀ c, HEq (d0 c) (dat3 Vin hO c)) (h : Pinned3 Vin Vx (adm3 Vin hO) (dat3 Vin hO)) :
    Pinned3 Vin Vx a0 d0 := by
  subst ha
  obtain rfl : d0 = dat3 Vin hO := funext fun c => eq_of_heq (hd c)
  exact h

/-! ## The record -/

set_option backward.isDefEq.respectTransparency.types false in
set_option maxHeartbeats 1600000 in
/-- Tile 3's region over ANY family of pipelines whose component 3 is tile 3's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg3G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok3 Vin) (ha : a 3 = adm3 Vin hO) (hd : ∀ c, HEq (pdats 3 c) (dat3 Vin hO c))
    (hag : ∀ c w, V c (Proc.devRef .tc (Pipeline.arrRef spec3 w)) = Vin c (Pipeline.arrRef spec3 w))
    (hagT : ∀ c j, V c (Proc.devRef .tc (pre3.ref j)) = Vin c (pre3.ref j))
    (hF : ∀ c w, (dat3 Vin hO c).arrAt w (cfgM3 Vin hO).N = Vx c (Pipeline.arrRef spec3 w))
    (hrest : ∀ c b, b ∉ Finset.univ.image (Pipeline.arrRef spec3) → Vx c b = V c b) :
    Pipeline.RegionSeg (pcfgs (F := F)) a pdats () defs₀ Variants.none (fun _ => ∅) (fun _ _ => 0) 3 :=
  have hp : Pinned3 Vin Vx (a 3) (pdats 3) := Pinned3.of_eq Vin hO ha hd (pinned_dat3 Vin hO Vx hF)
  have htbl : ∀ c, (fun k => V c (Proc.devRef .tc ((pcfgs (F := F) 3).pre.ref k))) = (a 3).1 := fun c => by
    rw [hp.tbl]; funext k; exact (hagT c k).trans (V_pre3 Vin c k)
  { win := (launch3 (F := F)).win.to₀
    block_pos := (launch3 (F := F)).block_pos
    stage_whole := (launch3 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 3 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre3 c (fun _ => fullShare) (tbl3 Vin))
    Z := fun c => Pipeline.unscopedRestP (Ix := Unit) (Name := ℕ) (U := UR sig nD τ) (Lvl := ℕ) pre3 spec3 c (fun b => V c b)
    hentry := fun c => by
      rw [Pipeline.ownSems0_none]
      have hsplit := Pipeline.arrays_of_unscopedBufs (p := 3) (pcfgs (F := F)) a pdats (launch3 (F := F)).win (launch3 (F := F)).arr_whole c
        ((pdats 3 c).share_full (hp.q c)) (fun b => V c b) (fun w => (hp.A c w).trans (hag c w).symm)
      rw [Pipeline.unscopedBufs_held, Pipeline.unscopedRest_split (launch3 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 3).spec c : sProp 𝕄) = _ from scopedRest3_split c, hp.tbl]
      refine BIBase.Entails.trans ?_ (hp.phiIn c)
      rw [scratch3_eq]
      unfold Rest3
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 3).spec c : sProp 𝕄) = _ from scopedRest3_split c]
      refine BIBase.Entails.trans (hp.phiOut c) ?_
      rw [scratch3_eq]
      unfold Rest3
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 3) (pcfgs (F := F)) a (Ix := Unit) (Name := ℕ) (U := UR sig nD τ) (Lvl := ℕ)
        (launch3 (F := F)).win (launch3 (F := F)).arr_whole c pdats ((pdats 3 c).share_full (hp.q c))
        (fun b => V c b) (fun b => Vx c b) ((pdats 3 c).arrAt · (Pipeline.pin (pcfgs (F := F)) a 3).N) (hp.fin c) (hrest c)
      rw [Pipeline.unscopedBufs_held, Pipeline.unscopedRest_split (launch3 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 3's record over the assembled families, tile 3's components in slot 3. -/
def reg3 (hO : Ok3 Vin) (V Vx : Dev nD → Valuation τ sig (Elt F))
    (hag : ∀ c w, V c (Proc.devRef .tc (Pipeline.arrRef spec3 w)) = Vin c (Pipeline.arrRef spec3 w))
    (hagT : ∀ c j, V c (Proc.devRef .tc (pre3.ref j)) = Vin c (pre3.ref j))
    (hF : ∀ c w, (dat3 Vin hO c).arrAt w (cfgM3 Vin hO).N = Vx c (Pipeline.arrRef spec3 w))
    (hrest : ∀ c b, b ∉ Finset.univ.image (Pipeline.arrRef spec3) → Vx c b = V c b)
    (a0 : (pcfg0 (F := F)).Adm)
    (a1 : (pcfg1 (F := F)).Adm)
    (a2 : (pcfg2 (F := F)).Adm)
    (a4 : (pcfg4 (F := F)).Adm)
    (a5 : (pcfg5 (F := F)).Adm)
    (a6 : (pcfg6 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 a1 a2 (adm3 Vin hO) a4 a5 a6 a7)
      (pdatsOf a0 a1 a2 (adm3 Vin hO) a4 a5 a6 a7 d0 d1 d2 (dat3 Vin hO) d4 d5 d6 d7) () defs₀ Variants.none (fun _ => ∅) (fun _ _ => 0) 3 :=
  reg3G Vin V Vx _ _ hO rfl (fun _ => HEq.rfl) hag hagT hF hrest

/-- The thread state the record is entered from, -/
theorem reg3_pre (hO : Ok3 Vin) (V Vx : Dev nD → Valuation τ sig (Elt F)) (hag) (hagT) (hF) (hrest) (a0) (a1) (a2) (a4) (a5) (a6) (a7) (d0) (d1) (d2) (d4) (d5) (d6) (d7) (c : Dev nD) :
    (reg3 Vin hO V Vx hag hagT hF hrest a0 a1 a2 a4 a5 a6 a7 d0 d1 d2 d4 d5 d6 d7).pre c
      = iprop(StableHlo.held (c : Thread nD τ) (Pipeline.ucRefs τ sig) (V c) ∗ Rr (F := F) c) := rfl
/-- and the one it leaves. -/
theorem reg3_post (hO : Ok3 Vin) (V Vx : Dev nD → Valuation τ sig (Elt F)) (hag) (hagT) (hF) (hrest) (a0) (a1) (a2) (a4) (a5) (a6) (a7) (d0) (d1) (d2) (d4) (d5) (d6) (d7) (c : Dev nD) :
    (reg3 Vin hO V Vx hag hagT hF hrest a0 a1 a2 a4 a5 a6 a7 d0 d1 d2 d4 d5 d6 d7).post c
      = iprop(StableHlo.held (c : Thread nD τ) (Pipeline.ucRefs τ sig) (Vx c) ∗ Rr (F := F) c) := rfl

end Cert.KernelIdeal.Hand

end
-- ==== Proof.R3Agree.lean ====
import proofs.«402893_j78554951844377_2_alg».proof.Proof.KHostT3
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

/-! # Tile 3: what the region reads does not depend on what earlier regions left

The table, the embedding table, the three slices and the (not yet written) result array of tile 3 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree3_tbl : V11 m outs c main_v54 = V11 m outs' c main_v54 := by
  funext (j : S65536.Idx)
  obtain ⟨a, rfl⟩ : ∃ a : Fin 65536, j = ValueIdx.ix1 a := ⟨j 0, ValueIdx.eq_ix1 j⟩
  rw [tbl3_apply m outs c, tbl3_apply m outs' c]

theorem agree3_emb : V11 m outs c main_v34 = V11 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb3_apply m outs c, emb3_apply m outs' c]

theorem agree3_pa : V11 m outs c main_v55 = V11 m outs' c main_v55 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa3_apply m outs c, pa3_apply m outs' c]

theorem agree3_w : V11 m outs c main_v56 = V11 m outs' c main_v56 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w3_apply m outs c, w3_apply m outs' c]

theorem agree3_b : V11 m outs c main_v57 = V11 m outs' c main_v57 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b3_apply m outs c, b3_apply m outs' c]

/-- The result array has not been written when the region is entered: it holds its launch contents. -/
theorem entry3_out : V11 m outs c main_v58 = V5 m c main_v58 :=
  (V11_of m outs c main_v58 (by decide)).trans ((V10_of m outs c main_v58 (by decide)).trans ((V9_of m outs c main_v58 (by decide)).trans ((V8_of m outs c main_v58 (by decide)).trans ((V7_of m outs c main_v58 (by decide)).trans (V6_of m outs c main_v58 (by decide))))))

theorem agree3_out : V11 m outs c main_v58 = V11 m outs' c main_v58 :=
  (entry3_out m outs c).trans (entry3_out m outs' c).symm

end Cert.KernelIdeal.Hand

end
-- ==== Proof.R4Run.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R0Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 4: the kernel body at one grid point

Tile 4's kernel function is tile 0's (the same body, the same payloads and conditions under other names), so its three
runs are tile 0's. -/

/-- The body's first condition: the feature coordinate is 0. -/
abbrev cond4_0 (i : grid4.Coords) : Prop := (Scalar.cmpi .ne (Scalar.extui (Scalar.cmpi .eq (BitVec.ofNat 32 (i 1).val) 0#32)) 0#32) = 1#1
/-- The body's second condition: the feature coordinate is 31. -/
abbrev cond4_1 (i : grid4.Coords) : Prop := k4_cond2 i = 1#1

/-- A MIDDLE feature: the scratch at `acc` ends at `acc + row`. -/
theorem run4_B (c : Dev nD) (i : grid4.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond4_0 i) (hc1 : ¬cond4_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k4_pay2 acc x3)) -∗ K ⟨⟩))
      ⊢ wp frame (wpE (defs₀ (F := F)) Variants.none c none) E (cc4__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run4_A (c : Dev nD) (i : grid4.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond4_0 i) (hc1 : ¬cond4_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k4_pay2 (k4_pay1 (F := F)) x3)) -∗ K ⟨⟩))
      ⊢ wp frame (wpE (defs₀ (F := F)) Variants.none c none) E (cc4__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run4_C (c : Dev nD) (i : grid4.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond4_0 i) (hc1 : cond4_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k4_pay3 (k4_pay2 acc x3) x4 x5 x6)
            ∗ owns (c : Thread nD τ) arg8 fullShare (k4_pay2 acc x3)) -∗ K ⟨⟩))
      ⊢ wp frame (wpE (defs₀ (F := F)) Variants.none c none) E (cc4__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.KernelIdeal.Hand

end
-- ==== Proof.R4Base.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R4Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 4: the pipeline at the table the region reads, its blocks and staging buffers

Everything here is stated at a PARAMETER `V`: the contents of the core's buffers when the region is entered. The
region's prefetched table is read off `V`; under the side condition that every word of it names a row of the embedding
table (`Ok4`) the pipeline is pinned at it, and each window's block at a grid point is a restriction of its array. -/

variable (V : (c : Dev nD) → (b : Ref sig .tc) → Buf (Elt F) ((c : Thread nD τ).loc b))

/-- The table's contents when the region is entered (one device). -/
def tbl4 : pre4.Contents (Elt F) := fun j => V (0 : Dev nD) (pre4.ref j)
/-- On every device the table holds those contents (there is one device). -/
theorem V_pre4 (c : Dev nD) (j : Fin 1) : V c (pre4.ref j) = tbl4 V j := by
  obtain rfl : c = 0 := Subsingleton.elim _ _; rfl
/-- Every block the table names lies inside the embedding table. -/
abbrev Ok4 : Prop := ok4 (F := F) (tbl4 V)
/-- The table as admissible contents, and the pipeline pinned at it. -/
abbrev adm4 (hO : Ok4 V) : (pcfg4 (F := F)).Adm := ⟨tbl4 V, hO⟩
abbrev cfgM4 (hO : Ok4 V) : Pipeline.Cfg sig Λ₀ := cfg4 (adm4 V hO)

/-- Window `w`'s block at point `t`, read off its array as the region finds it. -/
def iblk4 (hO : Ok4 V) (c : Dev nD) (w : Fin (cfgM4 V hO).W) (t : Fin (cfgM4 V hO).N) :
    (((cfgM4 V hO).win w).xblock ((cfgM4 V hO).grid.coords t)).Idx → Elt F ((cfgM4 V hO).win w).elt :=
  (((cfgM4 V hO).win w).blk t).view.read (Elt F) (V c (Pipeline.arrRef spec4 w))

/-- An input window's current staging buffer holds its block at every point, fetched there or not, for any proof
    data whose array is `V`'s and whose body leaves the block in place. -/
theorem before4_0_of (hO : Ok4 V) {c : Dev nD} (dat : Dat τ (Elt F) Unit ℕ (UR sig nD τ) ℕ (cfgM4 V hO) c) (hA : dat.A 0 = V c (Pipeline.arrRef spec4 0))
    (hafter : ∀ t, dat.after 0 t = iblk4 V hO c 0 t) (t : Fin (cfgM4 V hO).N) (d) : dat.before 0 t d = iblk4 V hO c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of (hO : Ok4 V) {c : Dev nD} (dat : Dat τ (Elt F) Unit ℕ (UR sig nD τ) ℕ (cfgM4 V hO) c) (hA : dat.A 1 = V c (Pipeline.arrRef spec4 1))
    (hafter : ∀ t, dat.after 1 t = iblk4 V hO c 1 t) (t : Fin (cfgM4 V hO).N) (d) : dat.before 1 t d = iblk4 V hO c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of (hO : Ok4 V) {c : Dev nD} (dat : Dat τ (Elt F) Unit ℕ (UR sig nD τ) ℕ (cfgM4 V hO) c) (hA : dat.A 2 = V c (Pipeline.arrRef spec4 2))
    (hafter : ∀ t, dat.after 2 t = iblk4 V hO c 2 t) (t : Fin (cfgM4 V hO).N) (d) : dat.before 2 t d = iblk4 V hO c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of (hO : Ok4 V) {c : Dev nD} (dat : Dat τ (Elt F) Unit ℕ (UR sig nD τ) ℕ (cfgM4 V hO) c) (hA : dat.A 3 = V c (Pipeline.arrRef spec4 3))
    (hafter : ∀ t, dat.after 3 t = iblk4 V hO c 3 t) (t : Fin (cfgM4 V hO).N) (d) : dat.before 3 t d = iblk4 V hO c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, as the pipeline passes it, and its wholeness. -/
abbrev ms4_0 (hO : Ok4 V) (t : Fin (cfgM4 V hO).N) : Memref sig .tc .vmem S1x1x128 .f32 := spec4_0.stage ((cfgM4 V hO).slots t 0)
abbrev hs4_0 (hO : Ok4 V) (t : Fin (cfgM4 V hO).N) : (ms4_0 V hO t).IsWhole := hstage4_0 (((cfgM4 V hO).slots t 0).cast nbuf4_0)
abbrev ms4_1 (hO : Ok4 V) (t : Fin (cfgM4 V hO).N) : Memref sig .tc .vmem S1x1x128 .f32 := spec4_1.stage ((cfgM4 V hO).slots t 1)
abbrev hs4_1 (hO : Ok4 V) (t : Fin (cfgM4 V hO).N) : (ms4_1 V hO t).IsWhole := hstage4_1 (((cfgM4 V hO).slots t 1).cast nbuf4_1)
abbrev ms4_2 (hO : Ok4 V) (t : Fin (cfgM4 V hO).N) : Memref sig .tc .vmem S1x1x128 .f32 := spec4_2.stage ((cfgM4 V hO).slots t 2)
abbrev hs4_2 (hO : Ok4 V) (t : Fin (cfgM4 V hO).N) : (ms4_2 V hO t).IsWhole := hstage4_2 (((cfgM4 V hO).slots t 2).cast nbuf4_2)
abbrev ms4_3 (hO : Ok4 V) (t : Fin (cfgM4 V hO).N) : Memref sig .tc .vmem S1x1x1 .f32 := spec4_3.stage ((cfgM4 V hO).slots t 3)
abbrev hs4_3 (hO : Ok4 V) (t : Fin (cfgM4 V hO).N) : (ms4_3 V hO t).IsWhole := hstage4_3 (((cfgM4 V hO).slots t 3).cast nbuf4_3)
abbrev ms4_4 (hO : Ok4 V) (t : Fin (cfgM4 V hO).N) : Memref sig .tc .vmem S1x1x1 .f32 := spec4_4.stage ((cfgM4 V hO).slots t 4)
abbrev hs4_4 (hO : Ok4 V) (t : Fin (cfgM4 V hO).N) : (ms4_4 V hO t).IsWhole := hstage4_4 (((cfgM4 V hO).slots t 4).cast nbuf4_4)
/-- The scratch operand: a whole scoped buffer of the kernel's own. -/
abbrev scM4 : Memref sig .tc .vmem S1x1x128 .f32 := Memref.whole cc4_scratch0
/-- The table as the body is handed it. -/
abbrev tbM4 : Memref sig .tc .smem S65536 .i32 := Memref.whole main_v60

/-- The kernel body at point `t`, on what the pipeline calls it with. -/
abbrev bodyAt4 (a : (pcfg4 (F := F)).Adm) (t : Fin (cfg4 a).N) : Prog (TpuEff nD τ sig (Elt F) Λ₀ .tc) PUnit :=
  cc4__gather_kernel (grid4.coords t) (Memref.whole main_v60) (Memref.isWhole_whole _) (spec4_0.stage ((cfg4 a).slots t 0)) (hstage4_0 (((cfg4 a).slots t 0).cast nbuf4_0)) (spec4_1.stage ((cfg4 a).slots t 1)) (hstage4_1 (((cfg4 a).slots t 1).cast nbuf4_1)) (spec4_2.stage ((cfg4 a).slots t 2)) (hstage4_2 (((cfg4 a).slots t 2).cast nbuf4_2)) (spec4_3.stage ((cfg4 a).slots t 3)) (hstage4_3 (((cfg4 a).slots t 3).cast nbuf4_3)) (spec4_4.stage ((cfg4 a).slots t 4)) (hstage4_4 (((cfg4 a).slots t 4).cast nbuf4_4)) (Memref.whole cc4_scratch0) (Memref.isWhole_whole _)

/-- Off the last feature the result window is idle: the body stores nothing into it. -/
theorem idleAt4_4 (a : (pcfg4 (F := F)).Adm) (i : grid4.Coords) (h : ¬cond4_1 i) : (cfg4 a).idle 4 i = true := by
  show (!(k4_cond2 i == 1#1)) = true
  simp only [Bool.not_eq_true', beq_eq_false_iff_ne, ne_eq]; exact h
/-- On the last feature it is live. -/
theorem liveAt4_4 (a : (pcfg4 (F := F)).Adm) (i : grid4.Coords) (h : cond4_1 i) : (cfg4 a).idle 4 i = false := by
  show (!(k4_cond2 i == 1#1)) = false
  simp only [Bool.not_eq_false', beq_iff_eq]; exact h
/-- The input windows are never idle. -/
theorem liveAt4_0 (a : (pcfg4 (F := F)).Adm) (i : grid4.Coords) : (cfg4 a).idle 0 i = false := rfl
theorem liveAt4_1 (a : (pcfg4 (F := F)).Adm) (i : grid4.Coords) : (cfg4 a).idle 1 i = false := rfl
theorem liveAt4_2 (a : (pcfg4 (F := F)).Adm) (i : grid4.Coords) : (cfg4 a).idle 2 i = false := rfl
theorem liveAt4_3 (a : (pcfg4 (F := F)).Adm) (i : grid4.Coords) : (cfg4 a).idle 3 i = false := rfl

end Cert.KernelIdeal.Hand

end
-- ==== Proof.KHostT4.lean ====
/-
  Tile 4's five operands, entry by entry: what proof/Proof/KHost.lean says of tile 0, for the rows
  `[2048 · 4, 2048 · 4 + 2048)`. The arrays the tile's stretch reads were written before the first kernel region, and
  neither a region (each writes its own result array only) nor an earlier tile's stretch (each writes its own cuts
  only) touches them since.
-/
import proofs.«402893_j78554951844377_2_alg».proof.Proof.Gen.KernelIdeal.Regions
import proofs.«402893_j78554951844377_2_alg».proof.Proof.Spec
import proofs.«402893_j78554951844377_2_alg».proof.Proof.KHost
import Idealize.ShloMosaic.Lib.StableHlo.Run
import Idealize.ShloMosaic.Lib.Pipeline.Value
import Idealize.ShloMosaic.Lib.ValueLayout
import Idealize.ShloMosaic.Lib.ValueIdx

set_option maxRecDepth 1396

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]
variable (m : (ℓ : Loc nD τ sig) → Buf (Elt F) ℓ) (outs : Outs (F := F))

/-! ## Tile 4

Tile 4 (samples `2048 · 4 + r`, `r < 2048`) is entered at `V13 m outs c`: the stretch `hostOps4` cuts the
tile's rows out of the four host arrays (offset `2048 · 4` on the leading axis) and flattens the rows of gathered
indices into the tile's prefetched table, entry `j` of which is therefore row `j / 32`, feature `j % 32`. -/

section Tile4

/-- The arrays written before the first region are, at tile 4's entry, what they were at `V5 m c`: no region and no
    stretch in between writes them. -/
theorem ent4_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W)
    (h12 : r ∉ ([main_v58] : List (Ref sig .tc))) (h13 : r ∉ hostOps4_W) :
    V13 m outs c r = V5 m c r :=
  (V13_of m outs c r h13).trans <|
    (V12_of m outs c r h12).trans <|
    (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 4, 2048 · 4 + 2048)` of `main_v8`, flattened. -/
theorem tbl4_read (j : Fin 65536) :
    StableHlo.after hostOps4 W main_v60 (ValueIdx.ix1 j)
      = StableHlo.after hostOps4 W main_v8
          (ValueIdx.ix2 (⟨2048 * 4 + j.val / 32, by omega⟩ : Fin 16384) (⟨j.val % 32, by omega⟩ : Fin 32)) := by
  dsimp only [hostOps4]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 4 + j.val / 32 = _ + j.val / 32; omega)

/-- The tile's phase-bias rows: the rows `[2048 · 4, 2048 · 4 + 2048)` of `main_v31`. -/
theorem pa4_read (r : Fin 2048) (l : Fin 128) :
    StableHlo.after hostOps4 W main_v61 (ValueIdx.ix3 r 0 l)
      = StableHlo.after hostOps4 W main_v31 (ValueIdx.ix3 (⟨2048 * 4 + r.val, by omega⟩ : Fin 16384) 0 l) := by
  dsimp only [hostOps4]; open StableHlo in after_results_simp
  exact slice3_axis0_apply _ _ _ r 0 l _ (by show 2048 * 4 + r.val = _ + r.val; omega)

/-- The tile's head weights: the same rows of `main_v32`. -/
theorem w4_read (r : Fin 2048) (l : Fin 128) :
    StableHlo.after hostOps4 W main_v62 (ValueIdx.ix3 r 0 l)
      = StableHlo.after hostOps4 W main_v32 (ValueIdx.ix3 (⟨2048 * 4 + r.val, by omega⟩ : Fin 16384) 0 l) := by
  dsimp only [hostOps4]; open StableHlo in after_results_simp
  exact slice3_axis0_apply _ _ _ r 0 l _ (by show 2048 * 4 + r.val = _ + r.val; omega)

/-- The tile's head biases: the same rows of `main_v33`. -/
theorem b4_read (r : Fin 2048) :
    StableHlo.after hostOps4 W main_v63 (ValueIdx.ix3 r 0 0)
      = StableHlo.after hostOps4 W main_v33 (ValueIdx.ix3 (⟨2048 * 4 + r.val, by omega⟩ : Fin 16384) 0 0) := by
  dsimp only [hostOps4]; open StableHlo in after_results_simp
  exact slice3_axis0_apply _ _ _ r 0 0 _ (by show 2048 * 4 + r.val = _ + r.val; omega)

end Stretch

/-- Entry `j` of tile 4's prefetched table is the gathered row number of sample `2048 · 4 + j / 32`, feature `j % 32`. -/
theorem tbl4_apply (c : Dev nD) (j : Fin 65536) :
    V13 m outs c main_v60 (ValueIdx.ix1 j)
      = Spec.gidxOf (m ((c : Thread nD τ).loc main_arg0)) (m ((c : Thread nD τ).loc main_arg1))
          (m ((c : Thread nD τ).loc main_arg2))
          (ValueIdx.ix2 (⟨2048 * 4 + j.val / 32, by omega⟩ : Fin 16384) (⟨j.val % 32, by omega⟩ : Fin 32)) :=
  (tbl4_read (V12 m outs c) j).trans <| (congrFun (ent4_of m outs c main_v8 (by decide) (by decide) (by decide) (by decide) (by decide) (by decide) (by decide) (by decide)) _).trans <| congrFun (V5_gidx m c) _

/-- The embedding table as tile 4 sees it: row `ρ`, lane `l` of the argument. -/
theorem emb4_apply (c : Dev nD) (ρ : Fin 786432) (l : Fin 128) :
    V13 m outs c main_v34 (ValueIdx.ix3 ρ 0 l) = m ((c : Thread nD τ).loc main_arg3) (ValueIdx.ix2 ρ l) :=
  (congrFun (ent4_of m outs c main_v34 (by decide) (by decide) (by decide) (by decide) (by decide) (by decide) (by decide) (by decide)) _).trans <| V5_emb_apply m c ρ l

/-- Row `r` of tile 4's phase-bias operand is sample `2048 · 4 + r`'s phase-bias row. -/
theorem pa4_apply (c : Dev nD) (r : Fin 2048) (l : Fin 128) :
    V13 m outs c main_v61 (ValueIdx.ix3 r 0 l)
      = Spec.paSelOf (m ((c : Thread nD τ).loc main_arg1)) (m ((c : Thread nD τ).loc main_arg4))
          (ValueIdx.ix2 (⟨2048 * 4 + r.val, by omega⟩ : Fin 16384) l) :=
  (pa4_read (V12 m outs c) r l).trans <| (congrFun (ent4_of m outs c main_v31 (by decide) (by decide) (by decide) (by decide) (by decide) (by decide) (by decide) (by decide)) _).trans <| V5_pa_apply m c _ l

/-- Row `r` of tile 4's head-weight operand is sample `2048 · 4 + r`'s head weights. -/
theorem w4_apply (c : Dev nD) (r : Fin 2048) (l : Fin 128) :
    V13 m outs c main_v62 (ValueIdx.ix3 r 0 l)
      = Spec.wSelOf (m ((c : Thread nD τ).loc main_arg1)) (m ((c : Thread nD τ).loc main_arg5))
          (ValueIdx.ix2 (⟨2048 * 4 + r.val, by omega⟩ : Fin 16384) l) :=
  (w4_read (V12 m outs c) r l).trans <| (congrFun (ent4_of m outs c main_v32 (by decide) (by decide) (by decide) (by decide) (by decide) (by decide) (by decide) (by decide)) _).trans <| V5_w_apply m c _ l

/-- Entry `r` of tile 4's head-bias operand is sample `2048 · 4 + r`'s head bias. -/
theorem b4_apply (c : Dev nD) (r : Fin 2048) :
    V13 m outs c main_v63 (ValueIdx.ix3 r 0 0)
      = Spec.bSelOf (m ((c : Thread nD τ).loc main_arg1)) (m ((c : Thread nD τ).loc main_arg6))
          (ValueIdx.ix1 (⟨2048 * 4 + r.val, by omega⟩ : Fin 16384)) :=
  (b4_read (V12 m outs c) r).trans <| (congrFun (ent4_of m outs c main_v33 (by decide) (by decide) (by decide) (by decide) (by decide) (by decide) (by decide) (by decide)) _).trans <| V5_b_apply m c _

end Tile4

end Cert.KernelIdeal.Hand
-- ==== Proof.R4Ok.lean ====
/-
  Tile 4: the table the region reads, and the pipeline's side condition on it from the range fact.

  Region 4 is entered with the buffers at the valuation after the host stretch that cuts tile 4's operands. Its prefetched table then
  holds, at flat position `32·i₀ + i₁`, the gathered row number of sample `2048·4 + i₀`, feature `i₁`. When every gathered
  row number is below 786432 (the range fact), every word of the table is, which is the side condition under which the
  pipeline is pinned at the table.
-/
import proofs.«402893_j78554951844377_2_alg».proof.Proof.Gen.KernelIdeal.Regions
import proofs.«402893_j78554951844377_2_alg».proof.Proof.Spec
import proofs.«402893_j78554951844377_2_alg».proof.Proof.R4Base
import proofs.«402893_j78554951844377_2_alg».proof.Proof.OkTablesT
import proofs.«402893_j78554951844377_2_alg».proof.Proof.KHostT4
import proofs.«402893_j78554951844377_2_alg».proof.Proof.TileLib
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]

/-- The buffers when region 4 is entered: the valuation after the host stretch that cuts tile 4's operands. -/
abbrev V4in (m : (ℓ : Loc nD τ sig) → Buf (Elt F) ℓ) : (c : Dev nD) → (b : Ref sig .tc) → Buf (Elt F) ((c : Thread nD τ).loc b) :=
  fun c b => V13 m (outsL m) c b

variable (m : (ℓ : Loc nD τ sig) → Buf (Elt F) ℓ)

/-- The table word read at grid point `(i₀, i₁)` is the gathered row number of sample `2048·4 + i₀`, feature `i₁`: the
    word sits at flat position `32·i₀ + i₁`, whose quotient and remainder by 32 are `i₀` and `i₁`. -/
theorem tword4_V4in (c : Dev nD) (i : grid4.Coords) :
    tword4 (tbl4 (V4in m)) i
      = Spec.gidxOf (m ((c : Thread nD τ).loc main_arg0)) (m ((c : Thread nD τ).loc main_arg1)) (m ((c : Thread nD τ).loc main_arg2))
          (ValueIdx.ix2 (⟨2048 * 4 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V4in m 0 main_v60 (ValueIdx.ix1 ⟨32 * (i 0).val + (i 1).val, pos_lt4 i⟩) = _
  refine (tbl4_apply m (outsL m) 0 ⟨32 * (i 0).val + (i 1).val, pos_lt4 i⟩).trans ?_
  exact congrArg _ (ix2_congr (by show 2048 * 4 + (32 * (i 0).val + (i 1).val) / 32 = 2048 * 4 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok4_of_inRange (c : Dev nD)
    (hin : Spec.InRange (Spec.gidxOf (m ((c : Thread nD τ).loc main_arg0)) (m ((c : Thread nD τ).loc main_arg1)) (m ((c : Thread nD τ).loc main_arg2)))) :
    Ok4 (V4in m) :=
  ok4_of (tbl4 (V4in m)) fun i => by rw [tword4_V4in m c i]; exact hin _ _

end Cert.KernelIdeal.Hand

end
-- ==== Proof.R4Grid.lean ====
import proofs.«402893_j78554951844377_2_alg».proof.Proof.R4Run
import Idealize.ShloMosaic.Lib.Pipeline.Kit
import Mathlib.Data.Fin.VecNotation

noncomputable section

namespace Cert.KernelIdeal.Hand

open Cert.KernelIdeal Cert.KernelIdeal.Gen
open Idealize.ShloMosaic
open Idealize.ShloMosaic.Pipeline (Cfg Window)

variable {F : FTy → Type} [FloatOps F]

/-! # Tile 4: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride4_0 : grid4.stride 0 = 32 := by decide
/-- The feature coordinate changes at every point. -/
theorem stride4_1 : grid4.stride 1 = 1 := by decide

/-- The sample coordinate of point `t` is `t / 32`: the quotient is below 2048, so reducing it modulo the
    axis's bound changes nothing. -/
theorem coords4_val0 (t : Fin grid4.N) : ((grid4.coords t) 0).val = t.val / 32 := by
  have ht : t.val < 65536 := N_4 ▸ t.isLt
  show t.val / grid4.stride 0 % 2048 = t.val / 32
  rw [stride4_0]; omega

/-- The feature coordinate of point `t` is `t % 32`. -/
theorem coords4_val1 (t : Fin grid4.N) : ((grid4.coords t) 1).val = t.val % 32 := by
  show t.val / grid4.stride 1 % 32 = t.val % 32
  rw [stride4_1, Nat.div_one]

/-- The first condition holds exactly at feature 0: checked at each of the 32 values of the coordinate. -/
theorem cond4_0_iff (i : grid4.Coords) : cond4_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond4_1_iff (i : grid4.Coords) : cond4_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond4_0_first (t : Fin grid4.N) (h : t.val = 0) : cond4_0 (grid4.coords t) := by
  rw [cond4_0_iff, coords4_val1, h]

/-- No feature is both the first and the last. -/
theorem not_both4 (i : grid4.Coords) : cond4_0 i → cond4_1 i → False := by
  rw [cond4_0_iff, cond4_1_iff]; omega

/-- A sample number, made a 32-bit word and read back, is itself. -/
private theorem toNat_ofNat_sample (t : Fin grid4.N) : (BitVec.ofNat 32 ((grid4.coords t) 0).val).toNat = t.val / 32 := by
  have ht : t.val < 65536 := N_4 ▸ t.isLt
  rw [coords4_val0, BitVec.toNat_ofNat, Nat.mod_eq_of_lt (by omega)]

/-- Window 1's block at point `t` is the one of sample `t / 32`. -/
theorem index4_1 (a : (pcfg4 (F := F)).Adm) (t : Fin (cfg4 a).N) : ((cfg4 a).win 1).index t = ![t.val / 32, 0, 0] := by
  show (![(BitVec.ofNat 32 ((grid4.coords t) 0).val).toNat, (0#32).toNat, (0#32).toNat] : Fin 3 → ℕ) = _
  rw [toNat_ofNat_sample]; rfl
/-- Window 2's block at point `t` is the one of sample `t / 32`. -/
theorem index4_2 (a : (pcfg4 (F := F)).Adm) (t : Fin (cfg4 a).N) : ((cfg4 a).win 2).index t = ![t.val / 32, 0, 0] := by
  show (![(BitVec.ofNat 32 ((grid4.coords t) 0).val).toNat, (0#32).toNat, (0#32).toNat] : Fin 3 → ℕ) = _
  rw [toNat_ofNat_sample]; rfl
/-- Window 3's block at point `t` is the one of sample `t / 32`. -/
theorem index4_3 (a : (pcfg4 (F := F)).Adm) (t : Fin (cfg4 a).N) : ((cfg4 a).win 3).index t = ![t.val / 32, 0, 0] := by
  show (![(BitVec.ofNat 32 ((grid4.coords t) 0).val).toNat, (0#32).toNat, (0#32).toNat] : Fin 3 → ℕ) = _
  rw [toNat_ofNat_sample]; rfl
/-- The output window's block at point `t` is the one of sample `t / 32`. -/
theorem index4_4 (a : (pcfg4 (F := F)).Adm) (t : Fin (cfg4 a).N) : ((cfg4 a).win 4).index t = ![t.val / 32, 0, 0] := by
  show (![(BitVec.ofNat 32 ((grid4.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush4_4_iff (a : (pcfg4 (F := F)).Adm) (t : Fin (cfg4 a).N) : ((cfg4 a).win 4).flush t = true ↔ t.val % 32 = 31 := by
  have hN : (cfg4 a).N = 65536 := N_4
  have ht : t.val < 65536 := hN ▸ t.isLt
  have hout : ((cfg4 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index4_4, index4_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg4 a).N := Nat.lt_of_lt_of_eq (by omega : t.val + 1 < 65536) hN.symm
      refine Or.inr ⟨hlt, ?_⟩
      rw [index4_4, index4_4]
      have hne' : (t.val + 1) / 32 ≠ t.val / 32 := by omega
      exact (vec3_ne_iff _ _).mpr hne'

/-- At a sample's last feature the output block is written back. -/
theorem flush4_4 (a : (pcfg4 (F := F)).Adm) (t : Fin (cfg4 a).N) (h : cond4_1 (grid4.coords t)) : ((cfg4 a).win 4).flush t = true := by
  rw [flush4_4_iff, ← coords4_val1]; exact (cond4_1_iff _).mp h

/-- At any other feature the output block stays. -/
theorem noFlush4_4 (a : (pcfg4 (F := F)).Adm) (t : Fin (cfg4 a).N) (h : ¬cond4_1 (grid4.coords t)) : ((cfg4 a).win 4).flush t = false := by
  rw [← Bool.not_eq_true, flush4_4_iff, ← coords4_val1]; exact fun e => h ((cond4_1_iff _).mpr e)

end Cert.KernelIdeal.Hand

end
-- ==== Proof.R4Acc.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R4Base
import proofs.«402893_j78554951844377_2_alg».proof.Proof.R4Grid
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 4: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow4 (hO : Ok4 V) (c : Dev nD) (t : Fin (cfgM4 V hO).N) : Vec F S1x1x128 .f32 := iblk4 V hO c 0 t
abbrev xpa4 (hO : Ok4 V) (c : Dev nD) (t : Fin (cfgM4 V hO).N) : Vec F S1x1x128 .f32 := iblk4 V hO c 1 t
abbrev xw4 (hO : Ok4 V) (c : Dev nD) (t : Fin (cfgM4 V hO).N) : Vec F S1x1x128 .f32 := iblk4 V hO c 2 t
abbrev xb4 (hO : Ok4 V) (c : Dev nD) (t : Fin (cfgM4 V hO).N) : Vec F S1x1x1 .f32 := iblk4 V hO c 3 t

/-- THE ACCUMULATION: the scratch after the body at position `n`. -/
def accAt4 (hO : Ok4 V) (c : Dev nD) : (n : ℕ) → n < (cfgM4 V hO).N → Vec F S1x1x128 .f32
  | 0, hn => k4_pay2 (k4_pay1 (F := F)) (xrow4 V hO c ⟨0, hn⟩)
  | n + 1, hn =>
    if cond4_0 (grid4.coords ⟨n + 1, hn⟩) then k4_pay2 (k4_pay1 (F := F)) (xrow4 V hO c ⟨n + 1, hn⟩)
    else k4_pay2 (accAt4 hO c n (Nat.lt_of_succ_lt hn)) (xrow4 V hO c ⟨n + 1, hn⟩)

/-- At a sample's first feature the scratch restarts from zero. -/
theorem accAt4_A (hO : Ok4 V) (c : Dev nD) (t : Fin (cfgM4 V hO).N) (h0 : cond4_0 (grid4.coords t)) :
    accAt4 V hO c t.val t.isLt = k4_pay2 (k4_pay1 (F := F)) (xrow4 V hO c t) := by
  obtain ⟨n, hn⟩ := t
  cases n with
  | zero => rfl
  | succ n => exact if_pos h0

/-- Elsewhere it adds the row to what the point before left. -/
theorem accAt4_B (hO : Ok4 V) (c : Dev nD) (t : Fin (cfgM4 V hO).N) (h0 : ¬cond4_0 (grid4.coords t)) (hz : t.val ≠ 0) :
    accAt4 V hO c t.val t.isLt = k4_pay2 (accAt4 V hO c (t.val - 1) (by omega)) (xrow4 V hO c t) := by
  obtain ⟨n, hn⟩ := t
  cases n with
  | zero => exact absurd rfl hz
  | succ n => exact if_neg h0

/-- The sample's result as the body computes it at a point (read at the last feature). -/
def outAt4 (hO : Ok4 V) (c : Dev nD) (t : Fin (cfgM4 V hO).N) : Vec F S1x1x1 .f32 :=
  k4_pay3 (accAt4 V hO c t.val t.isLt) (xpa4 V hO c t) (xw4 V hO c t) (xb4 V hO c t)

/-- What rides along unread: the other scoped buffers, the generator register, the table. -/
def Rest4 (c : Dev nD) : sProp 𝕄 :=
  iprop(Pipeline.scopedRestBut (Ix := Unit) (Name := ℕ) (U := UR sig nD τ) (Lvl := ℕ) (Val := Elt F) spec4 c [cc4_scratch0]
    ∗ (∃ r, prngReg c r) ∗ Pipeline.prefHeld (Ix := Unit) (Name := ℕ) (U := UR sig nD τ) (Lvl := ℕ) pre4 c (fun _ => fullShare) (tbl4 V))

/-- The region invariant before position `n`: the scratch at anything before the first point, afterwards at what
    the point before left. -/
def PhiS4 (hO : Ok4 V) (c : Dev nD) : (n : ℕ) → n ≤ (cfgM4 V hO).N → sProp 𝕄
  | 0, _ => iprop((∃ d, owns (c : Thread nD τ) scM4 fullShare d) ∗ Rest4 V c)
  | n + 1, hn => iprop(owns (c : Thread nD τ) scM4 fullShare (accAt4 V hO c n hn) ∗ Rest4 V c)

theorem PhiS4_zero (hO : Ok4 V) (c : Dev nD) (n : ℕ) (h : n ≤ (cfgM4 V hO).N) (hz : n = 0) :
    PhiS4 V hO c n h = iprop((∃ d, owns (c : Thread nD τ) scM4 fullShare d) ∗ Rest4 V c) := by
  subst hz; rfl
theorem PhiS4_succ (hO : Ok4 V) (c : Dev nD) (n : ℕ) (hn : n < (cfgM4 V hO).N) :
    PhiS4 V hO c (n + 1) hn = iprop(owns (c : Thread nD τ) scM4 fullShare (accAt4 V hO c n hn) ∗ Rest4 V c) := rfl
theorem PhiS4_pos (hO : Ok4 V) (c : Dev nD) (n : ℕ) (h : n ≤ (cfgM4 V hO).N) (hz : n ≠ 0) :
    PhiS4 V hO c n h = iprop(owns (c : Thread nD τ) scM4 fullShare (accAt4 V hO c (n - 1) (by omega)) ∗ Rest4 V c) := by
  cases n with
  | zero => exact absurd rfl hz
  | succ n => rfl

/-- The proof data of the tile's pipeline on core `c`: the arrays as the region finds them; after the body each input's
    buffer at its block and the result's at `outAt4`; the invariant `PhiS4`; nothing owed; full shares. -/
def dat4 (hO : Ok4 V) (c : Dev nD) : Dat τ (Elt F) Unit ℕ (UR sig nD τ) ℕ (cfgM4 V hO) c where
  A w := V c (Pipeline.arrRef spec4 w)
  after w t := match w with
    | ⟨0, _⟩ => iblk4 V hO c 0 t
    | ⟨1, _⟩ => iblk4 V hO c 1 t
    | ⟨2, _⟩ => iblk4 V hO c 2 t
    | ⟨3, _⟩ => iblk4 V hO c 3 t
    | ⟨4, _⟩ => outAt4 V hO c t
  Φ t := PhiS4 V hO c t.val (Nat.le_of_lt_succ t.isLt)
  q _ := fullShare
  owed _ := 0

theorem A_eq4 (hO : Ok4 V) (c : Dev nD) (w : Fin (cfgM4 V hO).W) : (dat4 V hO c).A w = V c (Pipeline.arrRef spec4 w) := by
  dsimp only [dat4]
theorem PhiS4_castSucc (hO : Ok4 V) (c : Dev nD) (t : Fin (cfgM4 V hO).N) :
    (dat4 V hO c).Φ t.castSucc = PhiS4 V hO c t.val (Nat.le_of_lt t.isLt) := by
  dsimp only [dat4]; simp only [Fin.coe_castSucc]
theorem after4_0 (hO : Ok4 V) (c : Dev nD) (t : Fin (cfgM4 V hO).N) : (dat4 V hO c).after 0 t = iblk4 V hO c 0 t := by dsimp only [dat4]; try rfl
theorem after4_1 (hO : Ok4 V) (c : Dev nD) (t : Fin (cfgM4 V hO).N) : (dat4 V hO c).after 1 t = iblk4 V hO c 1 t := by dsimp only [dat4]; try rfl
theorem after4_2 (hO : Ok4 V) (c : Dev nD) (t : Fin (cfgM4 V hO).N) : (dat4 V hO c).after 2 t = iblk4 V hO c 2 t := by dsimp only [dat4]; try rfl
theorem after4_3 (hO : Ok4 V) (c : Dev nD) (t : Fin (cfgM4 V hO).N) : (dat4 V hO c).after 3 t = iblk4 V hO c 3 t := by dsimp only [dat4]; try rfl
theorem after4_4 (hO : Ok4 V) (c : Dev nD) (t : Fin (cfgM4 V hO).N) : (dat4 V hO c).after 4 t = outAt4 V hO c t := by dsimp only [dat4]; try rfl

theorem before4_0 (hO : Ok4 V) (c : Dev nD) (t : Fin (cfgM4 V hO).N) (d) : (dat4 V hO c).before 0 t d = iblk4 V hO c 0 t :=
  before4_0_of V hO (dat4 V hO c) (A_eq4 V hO c 0) (after4_0 V hO c) t d
theorem before4_1 (hO : Ok4 V) (c : Dev nD) (t : Fin (cfgM4 V hO).N) (d) : (dat4 V hO c).before 1 t d = iblk4 V hO c 1 t :=
  before4_1_of V hO (dat4 V hO c) (A_eq4 V hO c 1) (after4_1 V hO c) t d
theorem before4_2 (hO : Ok4 V) (c : Dev nD) (t : Fin (cfgM4 V hO).N) (d) : (dat4 V hO c).before 2 t d = iblk4 V hO c 2 t :=
  before4_2_of V hO (dat4 V hO c) (A_eq4 V hO c 2) (after4_2 V hO c) t d
theorem before4_3 (hO : Ok4 V) (c : Dev nD) (t : Fin (cfgM4 V hO).N) (d) : (dat4 V hO c).before 3 t d = iblk4 V hO c 3 t :=
  before4_3_of V hO (dat4 V hO c) (A_eq4 V hO c 3) (after4_3 V hO c) t d

/-- What the body is called with at point `t`, the windows one by one, -/
def bodyPre4 (hO : Ok4 V) (c : Dev nD) (t : Fin (cfgM4 V hO).N) : sProp 𝕄 :=
  iprop((dat4 V hO c).Φ t.castSucc ∗ (dat4 V hO c).owesAt () t.castSucc
    ∗ (∃ d, owns (c : Thread nD τ) (ms4_0 V hO t) fullShare ((dat4 V hO c).before 0 t d))
    ∗ (∃ d, owns (c : Thread nD τ) (ms4_1 V hO t) fullShare ((dat4 V hO c).before 1 t d))
    ∗ (∃ d, owns (c : Thread nD τ) (ms4_2 V hO t) fullShare ((dat4 V hO c).before 2 t d))
    ∗ (∃ d, owns (c : Thread nD τ) (ms4_3 V hO t) fullShare ((dat4 V hO c).before 3 t d))
    ∗ (∃ d, owns (c : Thread nD τ) (ms4_4 V hO t) fullShare ((dat4 V hO c).before 4 t d)))

/-- and what it returns. -/
def bodyPost4 (hO : Ok4 V) (c : Dev nD) (t : Fin (cfgM4 V hO).N) : sProp 𝕄 :=
  iprop((dat4 V hO c).Φ t.succ ∗ (dat4 V hO c).owesAt () t.succ
    ∗ (dat4 V hO c).leavesExact 0 t
    ∗ (dat4 V hO c).leavesExact 1 t
    ∗ (dat4 V hO c).leavesExact 2 t
    ∗ (dat4 V hO c).leavesExact 3 t
    ∗ (dat4 V hO c).leavesExact 4 t)

/-- The windows' idle flags at a point, stated at the pinned configuration. -/
theorem liveAtM4_0 (hO : Ok4 V) (t : Fin (cfgM4 V hO).N) : (cfgM4 V hO).idle 0 ((cfgM4 V hO).grid.coords t) = false := rfl
theorem liveAtM4_1 (hO : Ok4 V) (t : Fin (cfgM4 V hO).N) : (cfgM4 V hO).idle 1 ((cfgM4 V hO).grid.coords t) = false := rfl
theorem liveAtM4_2 (hO : Ok4 V) (t : Fin (cfgM4 V hO).N) : (cfgM4 V hO).idle 2 ((cfgM4 V hO).grid.coords t) = false := rfl
theorem liveAtM4_3 (hO : Ok4 V) (t : Fin (cfgM4 V hO).N) : (cfgM4 V hO).idle 3 ((cfgM4 V hO).grid.coords t) = false := rfl
theorem idleAtM4_4 (hO : Ok4 V) (t : Fin (cfgM4 V hO).N) (h : ¬cond4_1 (grid4.coords t)) :
    (cfgM4 V hO).idle 4 ((cfgM4 V hO).grid.coords t) = true := idleAt4_4 (adm4 V hO) (grid4.coords t) h
theorem liveAtM4_4 (hO : Ok4 V) (t : Fin (cfgM4 V hO).N) (h : cond4_1 (grid4.coords t)) :
    (cfgM4 V hO).idle 4 ((cfgM4 V hO).grid.coords t) = false := liveAt4_4 (adm4 V hO) (grid4.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body4 (hO : Ok4 V) (c : Dev nD) (t : Fin (cfgM4 V hO).N) :
    bodyPre4 V hO c t ⊢ wp frame (wpE (defs₀ (F := F)) Variants.none c none) Set.univ (bodyAt4 (adm4 V hO) t) (fun _ => bodyPost4 V hO c t) := by
  unfold bodyPre4 bodyPost4 bodyAt4
  simp only [before4_0, before4_1, before4_2, before4_3]
  rw [show (dat4 V hO c).owesAt () t.succ = (dat4 V hO c).owesAt () t.castSucc from rfl]
  rw [show (dat4 V hO c).Φ t.succ = PhiS4 V hO c (t.val + 1) t.isLt from rfl, PhiS4_succ]
  rw [show (dat4 V hO c).leavesExact 0 t = owns (c : Thread nD τ) (ms4_0 V hO t) fullShare ((dat4 V hO c).after 0 t) from by
    unfold Dat.leavesExact; rw [liveAtM4_0 V hO t]; try rfl]
  rw [after4_0]
  rw [show (dat4 V hO c).leavesExact 1 t = owns (c : Thread nD τ) (ms4_1 V hO t) fullShare ((dat4 V hO c).after 1 t) from by
    unfold Dat.leavesExact; rw [liveAtM4_1 V hO t]; try rfl]
  rw [after4_1]
  rw [show (dat4 V hO c).leavesExact 2 t = owns (c : Thread nD τ) (ms4_2 V hO t) fullShare ((dat4 V hO c).after 2 t) from by
    unfold Dat.leavesExact; rw [liveAtM4_2 V hO t]; try rfl]
  rw [after4_2]
  rw [show (dat4 V hO c).leavesExact 3 t = owns (c : Thread nD τ) (ms4_3 V hO t) fullShare ((dat4 V hO c).after 3 t) from by
    unfold Dat.leavesExact; rw [liveAtM4_3 V hO t]; try rfl]
  rw [after4_3]
  rw [PhiS4_castSucc]
  by_cases h0 : cond4_0 (grid4.coords t)
  · by_cases h1 : cond4_1 (grid4.coords t)
    · exact absurd h1 (fun h => not_both4 _ h0 h)
    · rw [Dat.leavesExact_idle (dat4 V hO c) 4 t (idleAtM4_4 V hO t h1) (noFlush4_4 (adm4 V hO) t h1)]
      rw [accAt4_A V hO c t h0]
      by_cases hz : t.val = 0
      · rw [PhiS4_zero V hO c _ _ hz]
        iintro ⟨⟨HS, HR⟩, Ho, ⟨%d0, H0⟩, ⟨%d1, H1⟩, ⟨%d2, H2⟩, ⟨%d3, H3⟩, ⟨%d4, H4⟩⟩
        iapply (run4_A c (grid4.coords t) _ _ _ _ _ _ _ _ _ _ _ _ _ _ h0 h1 (xrow4 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS4_pos V hO c _ _ hz]
        iintro ⟨⟨HS, HR⟩, Ho, ⟨%d0, H0⟩, ⟨%d1, H1⟩, ⟨%d2, H2⟩, ⟨%d3, H3⟩, ⟨%d4, H4⟩⟩
        iapply (run4_A c (grid4.coords t) _ _ _ _ _ _ _ _ _ _ _ _ _ _ h0 h1 (xrow4 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond4_0_first t hz)
    rw [PhiS4_pos V hO c _ _ hz, accAt4_B V hO c t h0 hz]
    by_cases h1 : cond4_1 (grid4.coords t)
    · rw [show (dat4 V hO c).leavesExact 4 t = owns (c : Thread nD τ) (ms4_4 V hO t) fullShare ((dat4 V hO c).after 4 t) from by
        unfold Dat.leavesExact; rw [liveAtM4_4 V hO t h1]; try rfl]
      rw [after4_4]
      unfold outAt4
      rw [accAt4_B V hO c t h0 hz]
      iintro ⟨⟨HS, HR⟩, Ho, ⟨%d0, H0⟩, ⟨%d1, H1⟩, ⟨%d2, H2⟩, ⟨%d3, H3⟩, ⟨%d4, H4⟩⟩
      iapply (run4_C c (grid4.coords t) _ _ _ _ _ _ _ _ _ _ _ _ _ _ h0 h1 (xrow4 V hO c t) (xpa4 V hO c t) (xw4 V hO c t) (xb4 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat4 V hO c) 4 t (idleAtM4_4 V hO t h1) (noFlush4_4 (adm4 V hO) t h1)]
      iintro ⟨⟨HS, HR⟩, Ho, ⟨%d0, H0⟩, ⟨%d1, H1⟩, ⟨%d2, H2⟩, ⟨%d3, H3⟩, ⟨%d4, H4⟩⟩
      iapply (run4_B c (grid4.coords t) _ _ _ _ _ _ _ _ _ _ _ _ _ _ h0 h1 (xrow4 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (hO : Ok4 V) (c : Dev nD) :
    BodyObligation (dat4 (F := F) V hO c) (defs₀ (F := F)) Variants.none () Set.univ := fun t => by
  rw [bigSep_W4, bigSep_W4]
  exact sound_body4 V hO c t

end Cert.KernelIdeal.Hand

end
-- ==== Proof.R4Val.lean ====
import proofs.«402893_j78554951844377_2_alg».proof.Proof.R4Acc
import proofs.«402893_j78554951844377_2_alg».proof.Proof.R4Grid
import proofs.«402893_j78554951844377_2_alg».proof.Proof.OkTablesT
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 4: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt4 (t : Fin grid4.N) : t.val / 32 < 2048 := by
  have ht : t.val < 65536 := N_4 ▸ t.isLt
  omega

/-- The last feature of sample `r` is a point of the grid. -/
theorem lastPt_lt4 (r : ℕ) (hr : r < 2048) : 32 * r + 31 < grid4.N := by rw [N_4]; omega

/-- Under the side condition every word the index map of window 0 reads names a row of the embedding table. -/
theorem tword4_lt (pf : pre4.Contents (Elt F)) (h : ok4 pf) (i : grid4.Coords) : (tword4 pf i).toNat < 786432 := by
  obtain ⟨hb, -⟩ := h i
  have h0 := hb 0
  rw [transform4_eq pf i] at h0
  have h0' : ((tword4 pf i).toNat + 1) * 1 ≤ 786432 := h0
  omega

/-- Window 0's block at point `t` is the row the table's word names. -/
theorem index4_0 (a : (pcfg4 (F := F)).Adm) (t : Fin (cfg4 a).N) :
    ((cfg4 a).win 0).index t = ![(tword4 a.1 (grid4.coords t)).toNat, 0, 0] :=
  transform4_eq a.1 (grid4.coords t)

/-- Lane `l` of window 0's block sits in the embedding table at (the named row, 0, l). -/
theorem emb4_0 (a : (pcfg4 (F := F)).Adm) (t : Fin (cfg4 a).N) (l : Fin 128) :
    (((cfg4 a).win 0).blk t).view.emb (ValueIdx.ix3 (0 : Fin 1) (0 : Fin 1) l)
      = ValueIdx.ix3 (⟨(tword4 a.1 (grid4.coords t)).toNat, tword4_lt a.1 a.2 (grid4.coords t)⟩ : Fin 786432) (0 : Fin 1) l := by
  funext d; apply Fin.ext
  match d with
  | ⟨0, _⟩ => show ((cfg4 a).win 0).index t (0 : Fin 3) * 1 + 1 * 0 = (tword4 a.1 (grid4.coords t)).toNat; rw [index4_0]; show (tword4 a.1 (grid4.coords t)).toNat * 1 + 1 * 0 = _; omega
  | ⟨1, _⟩ => show ((cfg4 a).win 0).index t (1 : Fin 3) * 1 + 1 * 0 = 0; rw [index4_0]; rfl
  | ⟨2, _⟩ => show ((cfg4 a).win 0).index t (2 : Fin 3) * 128 + 1 * l.val = l.val; rw [index4_0]; show 0 * 128 + 1 * l.val = l.val; omega

/-- Lane `l` of window 1's block sits in its array at (sample, 0, l). -/
theorem emb4_1 (a : (pcfg4 (F := F)).Adm) (t : Fin (cfg4 a).N) (l : Fin 128) :
    (((cfg4 a).win 1).blk t).view.emb (ValueIdx.ix3 (0 : Fin 1) (0 : Fin 1) l)
      = ValueIdx.ix3 (⟨t.val / 32, sample_lt4 t⟩ : Fin 2048) (0 : Fin 1) l := by
  funext d; apply Fin.ext
  match d with
  | ⟨0, _⟩ => show ((cfg4 a).win 1).index t (0 : Fin 3) * 1 + 1 * 0 = t.val / 32; rw [index4_1]; show t.val / 32 * 1 + 1 * 0 = _; omega
  | ⟨1, _⟩ => show ((cfg4 a).win 1).index t (1 : Fin 3) * 1 + 1 * 0 = 0; rw [index4_1]; rfl
  | ⟨2, _⟩ => show ((cfg4 a).win 1).index t (2 : Fin 3) * 128 + 1 * l.val = l.val; rw [index4_1]; show 0 * 128 + 1 * l.val = l.val; omega

/-- Lane `l` of window 2's block sits in its array at (sample, 0, l). -/
theorem emb4_2 (a : (pcfg4 (F := F)).Adm) (t : Fin (cfg4 a).N) (l : Fin 128) :
    (((cfg4 a).win 2).blk t).view.emb (ValueIdx.ix3 (0 : Fin 1) (0 : Fin 1) l)
      = ValueIdx.ix3 (⟨t.val / 32, sample_lt4 t⟩ : Fin 2048) (0 : Fin 1) l := by
  funext d; apply Fin.ext
  match d with
  | ⟨0, _⟩ => show ((cfg4 a).win 2).index t (0 : Fin 3) * 1 + 1 * 0 = t.val / 32; rw [index4_2]; show t.val / 32 * 1 + 1 * 0 = _; omega
  | ⟨1, _⟩ => show ((cfg4 a).win 2).index t (1 : Fin 3) * 1 + 1 * 0 = 0; rw [index4_2]; rfl
  | ⟨2, _⟩ => show ((cfg4 a).win 2).index t (2 : Fin 3) * 128 + 1 * l.val = l.val; rw [index4_2]; show 0 * 128 + 1 * l.val = l.val; omega

/-- The one element of window 3's block sits in its array at (sample, 0, 0). -/
theorem emb4_3 (a : (pcfg4 (F := F)).Adm) (t : Fin (cfg4 a).N) :
    (((cfg4 a).win 3).blk t).view.emb (ValueIdx.ix3 (0 : Fin 1) (0 : Fin 1) (0 : Fin 1))
      = ValueIdx.ix3 (⟨t.val / 32, sample_lt4 t⟩ : Fin 2048) (0 : Fin 1) (0 : Fin 1) := by
  funext d; apply Fin.ext
  match d with
  | ⟨0, _⟩ => show ((cfg4 a).win 3).index t (0 : Fin 3) * 1 + 1 * 0 = t.val / 32; rw [index4_3]; show t.val / 32 * 1 + 1 * 0 = _; omega
  | ⟨1, _⟩ => show ((cfg4 a).win 3).index t (1 : Fin 3) * 1 + 1 * 0 = 0; rw [index4_3]; rfl
  | ⟨2, _⟩ => show ((cfg4 a).win 3).index t (2 : Fin 3) * 1 + 1 * 0 = 0; rw [index4_3]; rfl

/-- The one element of the result window's block sits in the result array at (sample, 0, 0). -/
theorem emb4_4 (a : (pcfg4 (F := F)).Adm) (t : Fin (cfg4 a).N) :
    (((cfg4 a).win 4).blk t).view.emb (ValueIdx.ix3 (0 : Fin 1) (0 : Fin 1) (0 : Fin 1))
      = ValueIdx.ix3 (⟨t.val / 32, sample_lt4 t⟩ : Fin 2048) (0 : Fin 1) (0 : Fin 1) := by
  funext d; apply Fin.ext
  match d with
  | ⟨0, _⟩ => show ((cfg4 a).win 4).index t (0 : Fin 3) * 1 + 1 * 0 = t.val / 32; rw [index4_4]; show t.val / 32 * 1 + 1 * 0 = _; omega
  | ⟨1, _⟩ => show ((cfg4 a).win 4).index t (1 : Fin 3) * 1 + 1 * 0 = 0; rw [index4_4]; rfl
  | ⟨2, _⟩ => show ((cfg4 a).win 4).index t (2 : Fin 3) * 1 + 1 * 0 = 0; rw [index4_4]; rfl

section AtTable

variable (V : (c : Dev nD) → (b : Ref sig .tc) → Buf (Elt F) ((c : Thread nD τ).loc b))

/-! ## The input blocks at coordinates -/

/-- The row of the embedding table gathered at point `t`: the table's word there. -/
abbrev rho4 (t : Fin grid4.N) : ℕ := (tword4 (tbl4 V) (grid4.coords t)).toNat

/-- It is a row of the table, under the side condition. -/
theorem rho4_lt (hO : Ok4 V) (t : Fin grid4.N) : rho4 V t < 786432 := tword4_lt (tbl4 V) hO (grid4.coords t)

/-- Lane `l` of the gathered row at point `t` is the embedding table at (the named row, 0, l). -/
theorem xrow4_apply (hO : Ok4 V) (c : Dev nD) (t : Fin (cfgM4 V hO).N) (l : Fin 128) :
    xrow4 V hO c t (ValueIdx.ix3 (0 : Fin 1) (0 : Fin 1) l)
      = V c main_v34 (ValueIdx.ix3 (⟨rho4 V t, rho4_lt V hO t⟩ : Fin 786432) (0 : Fin 1) l) := by
  show V c main_v34 ((((cfgM4 V hO).win 0).blk t).view.emb (ValueIdx.ix3 (0 : Fin 1) (0 : Fin 1) l)) = _
  exact congrArg (V c main_v34) (emb4_0 (adm4 V hO) t l)

/-- Lane `l` of the phase-bias block at point `t` is its array at (sample, 0, l). -/
theorem xpa4_apply (hO : Ok4 V) (c : Dev nD) (t : Fin (cfgM4 V hO).N) (l : Fin 128) :
    xpa4 V hO c t (ValueIdx.ix3 (0 : Fin 1) (0 : Fin 1) l)
      = V c main_v61 (ValueIdx.ix3 (⟨t.val / 32, sample_lt4 t⟩ : Fin 2048) (0 : Fin 1) l) := by
  show V c main_v61 ((((cfgM4 V hO).win 1).blk t).view.emb (ValueIdx.ix3 (0 : Fin 1) (0 : Fin 1) l)) = _
  exact congrArg (V c main_v61) (emb4_1 (adm4 V hO) t l)

/-- Lane `l` of the head-weight block at point `t` is its array at (sample, 0, l). -/
theorem xw4_apply (hO : Ok4 V) (c : Dev nD) (t : Fin (cfgM4 V hO).N) (l : Fin 128) :
    xw4 V hO c t (ValueIdx.ix3 (0 : Fin 1) (0 : Fin 1) l)
      = V c main_v62 (ValueIdx.ix3 (⟨t.val / 32, sample_lt4 t⟩ : Fin 2048) (0 : Fin 1) l) := by
  show V c main_v62 ((((cfgM4 V hO).win 2).blk t).view.emb (ValueIdx.ix3 (0 : Fin 1) (0 : Fin 1) l)) = _
  exact congrArg (V c main_v62) (emb4_2 (adm4 V hO) t l)

/-- The head-bias block at point `t` is its array at (sample, 0, 0). -/
theorem xb4_apply (hO : Ok4 V) (c : Dev nD) (t : Fin (cfgM4 V hO).N) :
    xb4 V hO c t (ValueIdx.ix3 (0 : Fin 1) (0 : Fin 1) (0 : Fin 1))
      = V c main_v63 (ValueIdx.ix3 (⟨t.val / 32, sample_lt4 t⟩ : Fin 2048) (0 : Fin 1) (0 : Fin 1)) := by
  show V c main_v63 ((((cfgM4 V hO).win 3).blk t).view.emb (ValueIdx.ix3 (0 : Fin 1) (0 : Fin 1) (0 : Fin 1))) = _
  exact congrArg (V c main_v63) (emb4_3 (adm4 V hO) t)

/-! ## The arrays after the run -/

/-- An input's array is never written: it ends as the region found it. -/
theorem arrAt4_in (hO : Ok4 V) (c : Dev nD) (w : Fin 5) (hw : w ≠ 4) :
    (dat4 V hO c).arrAt w (cfgM4 V hO).N = V c (Pipeline.arrRef spec4 w) := by
  have hin : ((cfgM4 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat4 V hO c).arrAt_in w hin _).trans (A_eq4 V hO c w)

/-- THE RESULT ARRAY of the tile: row `r` holds what the body left in the result block at sample `r`'s last feature. -/
def tileRes4 (hO : Ok4 V) (c : Dev nD) : Buf (Elt F) ((c : Thread nD τ).loc main_v64) :=
  fun (i : S2048x1x1.Idx) => outAt4 V hO c ⟨32 * (i 0).val + 31, lastPt_lt4 (i 0).val (i 0).isLt⟩ (ValueIdx.ix3 (0 : Fin 1) (0 : Fin 1) (0 : Fin 1))

theorem tileRes4_apply (hO : Ok4 V) (c : Dev nD) (r : Fin 2048) :
    tileRes4 V hO c (ValueIdx.ix3 r (0 : Fin 1) (0 : Fin 1))
      = outAt4 V hO c ⟨32 * r.val + 31, lastPt_lt4 r.val r.isLt⟩ (ValueIdx.ix3 (0 : Fin 1) (0 : Fin 1) (0 : Fin 1)) := rfl

/-- The result block read at two names of one point. -/
theorem outAt4_congr (hO : Ok4 V) (c : Dev nD) {t t' : Fin (cfgM4 V hO).N} (h : t.val = t'.val) (j : S1x1x1.Idx) :
    outAt4 V hO c t j = outAt4 V hO c t' j := by
  obtain rfl : t = t' := Fin.ext h
  rfl

/-- What a write-back writes is the written row of `tileRes4`: the point is its sample's last feature `32 (t / 32) + 31`,
    and the block's one element is the row's. -/
theorem flushed4_4_eq (hO : Ok4 V) (c : Dev nD) (t : Fin (cfgM4 V hO).N) (hf : ((cfgM4 V hO).win 4).flush t = true) :
    (dat4 V hO c).flushed 4 t = (((cfgM4 V hO).win 4).blk t).view.read (Elt F) (tileRes4 V hO c) := by
  have h31 : t.val % 32 = 31 := (flush4_4_iff (adm4 V hO) t).mp hf
  show ((cfgM4 V hO).win 4).cut (grid4.coords t) ((dat4 V hO c).after 4 t) = _
  rw [after4_4]
  funext j
  have hj : (((cfgM4 V hO).win 4).xinj (grid4.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM4 V hO).win 4).blk t).view.emb j : S2048x1x1.Idx) (0 : Fin 3)).val + 31 := by
    have h : (j (0 : Fin 3)).val < 1 := (j (0 : Fin 3)).isLt
    show t.val = 32 * (((cfgM4 V hO).win 4).index t (0 : Fin 3) * 1 + 1 * (j (0 : Fin 3)).val) + 31
    rw [index4_4]
    show t.val = 32 * (t.val / 32 * 1 + 1 * (j (0 : Fin 3)).val) + 31
    omega
  show outAt4 V hO c t (((cfgM4 V hO).win 4).xinj (grid4.coords t) j) = tileRes4 V hO c ((((cfgM4 V hO).win 4).blk t).view.emb j)
  rw [hj]
  exact outAt4_congr V hO c hv _

/-- Every row of the result array is some write-back's block: row `r` is the block of point `32 r + 31`. -/
theorem cover4_4 (hO : Ok4 V) (i : S2048x1x1.Idx) :
    ∃ t : Fin (cfgM4 V hO).N, ((cfgM4 V hO).win 4).flush t = true ∧ i ∈ (((cfgM4 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt4 _ h0⟩, (flush4_4_iff (adm4 V hO) _).mpr (by show (32 * (i 0).val + 31) % 32 = 31; omega), ?_⟩
  have he : (((cfgM4 V hO).win 4).blk ⟨32 * (i 0).val + 31, lastPt_lt4 _ h0⟩).view.emb (ValueIdx.ix3 (0 : Fin 1) (0 : Fin 1) (0 : Fin 1)) = i := by
    refine (emb4_4 (adm4 V hO) ⟨32 * (i 0).val + 31, lastPt_lt4 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM4 V hO).win 4).blk ⟨32 * (i 0).val + 31, lastPt_lt4 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes4`. -/
theorem arrAt4_4 (hO : Ok4 V) (c : Dev nD) : (dat4 V hO c).arrAt 4 (cfgM4 V hO).N = tileRes4 V hO c :=
  (dat4 V hO c).arrAt_eq_of_cover 4 (tileRes4 V hO c) (fun t hf => flushed4_4_eq V hO c t hf) (fun i => cover4_4 V hO i)

end AtTable

end Cert.KernelIdeal.Hand

end
-- ==== Proof.R4Seg.lean ====
/-
  Tile 4's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 4's admissible contents and
  proof data is ten small facts (`Pinned4`); they hold of tile 4's own (`pinned_dat4`) and so of any family whose
  component 4 is tile 4's (`Pinned4.of_eq`).
-/
import proofs.«402893_j78554951844377_2_alg».proof.Proof.R4Acc
import proofs.«402893_j78554951844377_2_alg».proof.Proof.Family
import proofs.«402893_j78554951844377_2_alg».proof.Proof.Glue
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 4's contents and proof data -/

variable (Vin : (c : Dev nD) → (b : Ref sig .tc) → Buf (Elt F) ((c : Thread nD τ).loc b))

/-- The scratch operand owned whole at some contents is its buffer held at some contents. -/
theorem scratch4_eq (c : Dev nD) :
    (iprop(∃ d, owns (c : Thread nD τ) scM4 fullShare d) : sProp 𝕄)
      = iprop(∃ f : Buf (Elt F) ((c : Thread nD τ).loc cc4_scratch0), ((c : Thread nD τ).loc cc4_scratch0) ↦{fullShare} f) := by
  simp only [scM4, owns_whole]; try rfl

/-- What the record needs of pipeline 4's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned4 (Vx : Dev nD → Valuation τ sig (Elt F)) (a0 : (pcfgs (F := F) 4).Adm)
    (d0 : (c : Dev nD) → Dat τ (Elt F) Unit ℕ (UR sig nD τ) ℕ ((pcfgs (F := F) 4).at a0) c) : Prop where
  tbl : a0.1 = tbl4 Vin
  q : ∀ (c : Dev nD) w, (d0 c).q w = fullShare
  A : ∀ (c : Dev nD) w, (d0 c).A w = Vin c (Pipeline.arrRef spec4 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM4 fullShare d) ∗ Rest4 Vin c) : sProp 𝕄) ⊢ (d0 c).Φ 0
  phiOut : ∀ c : Dev nD, (d0 c).Φ (Fin.last _) ⊢ (iprop((∃ d, owns (c : Thread nD τ) scM4 fullShare d) ∗ Rest4 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 4).at a0).N = Vx c (Pipeline.arrRef spec4 w)

set_option maxHeartbeats 400000 in
/-- Tile 4's own contents and proof data have them: each field by unfolding the proof data; the last stage of the
    invariant is a later one (the grid has 65536 points), so it holds the scratch at the last point's contents. -/
theorem pinned_dat4 (hO : Ok4 Vin) (Vx : Dev nD → Valuation τ sig (Elt F))
    (hF : ∀ c w, (dat4 Vin hO c).arrAt w (cfgM4 Vin hO).N = Vx c (Pipeline.arrRef spec4 w)) :
    Pinned4 Vin Vx (adm4 Vin hO) (dat4 Vin hO) where
  tbl := rfl
  q c w := rfl
  A c w := A_eq4 Vin hO c w
  owed c t := rfl
  body c := (body_obligation4 Vin hO c).loose
  phiIn c := by
    rw [show (dat4 Vin hO c).Φ 0 = PhiS4 Vin hO c ((0 : Fin ((cfgM4 Vin hO).N + 1)).val) (Nat.le_of_lt_succ (0 : Fin ((cfgM4 Vin hO).N + 1)).isLt) from rfl,
      PhiS4_zero Vin hO c _ _ (Fin.val_zero _)]
  phiOut c := by
    have hN : (Fin.last (cfgM4 Vin hO).N).val ≠ 0 := by
      rw [Fin.val_last, show (cfgM4 Vin hO).N = grid4.N from rfl, N_4]; decide
    show PhiS4 Vin hO c (Fin.last (cfgM4 Vin hO).N).val (Nat.le_of_lt_succ (Fin.last (cfgM4 Vin hO).N).isLt) ⊢ _
    rw [PhiS4_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 4's. -/
theorem Pinned4.of_eq (hO : Ok4 Vin) {Vx : Dev nD → Valuation τ sig (Elt F)} {a0 : (pcfgs (F := F) 4).Adm}
    {d0 : (c : Dev nD) → Dat τ (Elt F) Unit ℕ (UR sig nD τ) ℕ ((pcfgs (F := F) 4).at a0) c}
    (ha : a0 = adm4 Vin hO) (hd : ∀ c, HEq (d0 c) (dat4 Vin hO c)) (h : Pinned4 Vin Vx (adm4 Vin hO) (dat4 Vin hO)) :
    Pinned4 Vin Vx a0 d0 := by
  subst ha
  obtain rfl : d0 = dat4 Vin hO := funext fun c => eq_of_heq (hd c)
  exact h

/-! ## The record -/

set_option backward.isDefEq.respectTransparency.types false in
set_option maxHeartbeats 1600000 in
/-- Tile 4's region over ANY family of pipelines whose component 4 is tile 4's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg4G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok4 Vin) (ha : a 4 = adm4 Vin hO) (hd : ∀ c, HEq (pdats 4 c) (dat4 Vin hO c))
    (hag : ∀ c w, V c (Proc.devRef .tc (Pipeline.arrRef spec4 w)) = Vin c (Pipeline.arrRef spec4 w))
    (hagT : ∀ c j, V c (Proc.devRef .tc (pre4.ref j)) = Vin c (pre4.ref j))
    (hF : ∀ c w, (dat4 Vin hO c).arrAt w (cfgM4 Vin hO).N = Vx c (Pipeline.arrRef spec4 w))
    (hrest : ∀ c b, b ∉ Finset.univ.image (Pipeline.arrRef spec4) → Vx c b = V c b) :
    Pipeline.RegionSeg (pcfgs (F := F)) a pdats () defs₀ Variants.none (fun _ => ∅) (fun _ _ => 0) 4 :=
  have hp : Pinned4 Vin Vx (a 4) (pdats 4) := Pinned4.of_eq Vin hO ha hd (pinned_dat4 Vin hO Vx hF)
  have htbl : ∀ c, (fun k => V c (Proc.devRef .tc ((pcfgs (F := F) 4).pre.ref k))) = (a 4).1 := fun c => by
    rw [hp.tbl]; funext k; exact (hagT c k).trans (V_pre4 Vin c k)
  { win := (launch4 (F := F)).win.to₀
    block_pos := (launch4 (F := F)).block_pos
    stage_whole := (launch4 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 4 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre4 c (fun _ => fullShare) (tbl4 Vin))
    Z := fun c => Pipeline.unscopedRestP (Ix := Unit) (Name := ℕ) (U := UR sig nD τ) (Lvl := ℕ) pre4 spec4 c (fun b => V c b)
    hentry := fun c => by
      rw [Pipeline.ownSems0_none]
      have hsplit := Pipeline.arrays_of_unscopedBufs (p := 4) (pcfgs (F := F)) a pdats (launch4 (F := F)).win (launch4 (F := F)).arr_whole c
        ((pdats 4 c).share_full (hp.q c)) (fun b => V c b) (fun w => (hp.A c w).trans (hag c w).symm)
      rw [Pipeline.unscopedBufs_held, Pipeline.unscopedRest_split (launch4 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 4).spec c : sProp 𝕄) = _ from scopedRest4_split c, hp.tbl]
      refine BIBase.Entails.trans ?_ (hp.phiIn c)
      rw [scratch4_eq]
      unfold Rest4
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 4).spec c : sProp 𝕄) = _ from scopedRest4_split c]
      refine BIBase.Entails.trans (hp.phiOut c) ?_
      rw [scratch4_eq]
      unfold Rest4
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 4) (pcfgs (F := F)) a (Ix := Unit) (Name := ℕ) (U := UR sig nD τ) (Lvl := ℕ)
        (launch4 (F := F)).win (launch4 (F := F)).arr_whole c pdats ((pdats 4 c).share_full (hp.q c))
        (fun b => V c b) (fun b => Vx c b) ((pdats 4 c).arrAt · (Pipeline.pin (pcfgs (F := F)) a 4).N) (hp.fin c) (hrest c)
      rw [Pipeline.unscopedBufs_held, Pipeline.unscopedRest_split (launch4 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 4's record over the assembled families, tile 4's components in slot 4. -/
def reg4 (hO : Ok4 Vin) (V Vx : Dev nD → Valuation τ sig (Elt F))
    (hag : ∀ c w, V c (Proc.devRef .tc (Pipeline.arrRef spec4 w)) = Vin c (Pipeline.arrRef spec4 w))
    (hagT : ∀ c j, V c (Proc.devRef .tc (pre4.ref j)) = Vin c (pre4.ref j))
    (hF : ∀ c w, (dat4 Vin hO c).arrAt w (cfgM4 Vin hO).N = Vx c (Pipeline.arrRef spec4 w))
    (hrest : ∀ c b, b ∉ Finset.univ.image (Pipeline.arrRef spec4) → Vx c b = V c b)
    (a0 : (pcfg0 (F := F)).Adm)
    (a1 : (pcfg1 (F := F)).Adm)
    (a2 : (pcfg2 (F := F)).Adm)
    (a3 : (pcfg3 (F := F)).Adm)
    (a5 : (pcfg5 (F := F)).Adm)
    (a6 : (pcfg6 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 a1 a2 a3 (adm4 Vin hO) a5 a6 a7)
      (pdatsOf a0 a1 a2 a3 (adm4 Vin hO) a5 a6 a7 d0 d1 d2 d3 (dat4 Vin hO) d5 d6 d7) () defs₀ Variants.none (fun _ => ∅) (fun _ _ => 0) 4 :=
  reg4G Vin V Vx _ _ hO rfl (fun _ => HEq.rfl) hag hagT hF hrest

/-- The thread state the record is entered from, -/
theorem reg4_pre (hO : Ok4 Vin) (V Vx : Dev nD → Valuation τ sig (Elt F)) (hag) (hagT) (hF) (hrest) (a0) (a1) (a2) (a3) (a5) (a6) (a7) (d0) (d1) (d2) (d3) (d5) (d6) (d7) (c : Dev nD) :
    (reg4 Vin hO V Vx hag hagT hF hrest a0 a1 a2 a3 a5 a6 a7 d0 d1 d2 d3 d5 d6 d7).pre c
      = iprop(StableHlo.held (c : Thread nD τ) (Pipeline.ucRefs τ sig) (V c) ∗ Rr (F := F) c) := rfl
/-- and the one it leaves. -/
theorem reg4_post (hO : Ok4 Vin) (V Vx : Dev nD → Valuation τ sig (Elt F)) (hag) (hagT) (hF) (hrest) (a0) (a1) (a2) (a3) (a5) (a6) (a7) (d0) (d1) (d2) (d3) (d5) (d6) (d7) (c : Dev nD) :
    (reg4 Vin hO V Vx hag hagT hF hrest a0 a1 a2 a3 a5 a6 a7 d0 d1 d2 d3 d5 d6 d7).post c
      = iprop(StableHlo.held (c : Thread nD τ) (Pipeline.ucRefs τ sig) (Vx c) ∗ Rr (F := F) c) := rfl

end Cert.KernelIdeal.Hand

end
-- ==== Proof.R4Agree.lean ====
import proofs.«402893_j78554951844377_2_alg».proof.Proof.KHostT4
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

/-! # Tile 4: what the region reads does not depend on what earlier regions left

The table, the embedding table, the three slices and the (not yet written) result array of tile 4 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree4_tbl : V13 m outs c main_v60 = V13 m outs' c main_v60 := by
  funext (j : S65536.Idx)
  obtain ⟨a, rfl⟩ : ∃ a : Fin 65536, j = ValueIdx.ix1 a := ⟨j 0, ValueIdx.eq_ix1 j⟩
  rw [tbl4_apply m outs c, tbl4_apply m outs' c]

theorem agree4_emb : V13 m outs c main_v34 = V13 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb4_apply m outs c, emb4_apply m outs' c]

theorem agree4_pa : V13 m outs c main_v61 = V13 m outs' c main_v61 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa4_apply m outs c, pa4_apply m outs' c]

theorem agree4_w : V13 m outs c main_v62 = V13 m outs' c main_v62 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w4_apply m outs c, w4_apply m outs' c]

theorem agree4_b : V13 m outs c main_v63 = V13 m outs' c main_v63 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b4_apply m outs c, b4_apply m outs' c]

/-- The result array has not been written when the region is entered: it holds its launch contents. -/
theorem entry4_out : V13 m outs c main_v64 = V5 m c main_v64 :=
  (V13_of m outs c main_v64 (by decide)).trans ((V12_of m outs c main_v64 (by decide)).trans ((V11_of m outs c main_v64 (by decide)).trans ((V10_of m outs c main_v64 (by decide)).trans ((V9_of m outs c main_v64 (by decide)).trans ((V8_of m outs c main_v64 (by decide)).trans ((V7_of m outs c main_v64 (by decide)).trans (V6_of m outs c main_v64 (by decide))))))))

theorem agree4_out : V13 m outs c main_v64 = V13 m outs' c main_v64 :=
  (entry4_out m outs c).trans (entry4_out m outs' c).symm

end Cert.KernelIdeal.Hand

end
-- ==== Proof.R5Run.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R0Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 5: the kernel body at one grid point

Tile 5's kernel function is tile 0's (the same body, the same payloads and conditions under other names), so its three
runs are tile 0's. -/

/-- The body's first condition: the feature coordinate is 0. -/
abbrev cond5_0 (i : grid5.Coords) : Prop := (Scalar.cmpi .ne (Scalar.extui (Scalar.cmpi .eq (BitVec.ofNat 32 (i 1).val) 0#32)) 0#32) = 1#1
/-- The body's second condition: the feature coordinate is 31. -/
abbrev cond5_1 (i : grid5.Coords) : Prop := k5_cond2 i = 1#1

/-- A MIDDLE feature: the scratch at `acc` ends at `acc + row`. -/
theorem run5_B (c : Dev nD) (i : grid5.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond5_0 i) (hc1 : ¬cond5_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k5_pay2 acc x3)) -∗ K ⟨⟩))
      ⊢ wp frame (wpE (defs₀ (F := F)) Variants.none c none) E (cc5__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run5_A (c : Dev nD) (i : grid5.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond5_0 i) (hc1 : ¬cond5_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k5_pay2 (k5_pay1 (F := F)) x3)) -∗ K ⟨⟩))
      ⊢ wp frame (wpE (defs₀ (F := F)) Variants.none c none) E (cc5__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run5_C (c : Dev nD) (i : grid5.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond5_0 i) (hc1 : cond5_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k5_pay3 (k5_pay2 acc x3) x4 x5 x6)
            ∗ owns (c : Thread nD τ) arg8 fullShare (k5_pay2 acc x3)) -∗ K ⟨⟩))
      ⊢ wp frame (wpE (defs₀ (F := F)) Variants.none c none) E (cc5__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.KernelIdeal.Hand

end
-- ==== Proof.R5Base.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R5Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 5: the pipeline at the table the region reads, its blocks and staging buffers

Everything here is stated at a PARAMETER `V`: the contents of the core's buffers when the region is entered. The
region's prefetched table is read off `V`; under the side condition that every word of it names a row of the embedding
table (`Ok5`) the pipeline is pinned at it, and each window's block at a grid point is a restriction of its array. -/

variable (V : (c : Dev nD) → (b : Ref sig .tc) → Buf (Elt F) ((c : Thread nD τ).loc b))

/-- The table's contents when the region is entered (one device). -/
def tbl5 : pre5.Contents (Elt F) := fun j => V (0 : Dev nD) (pre5.ref j)
/-- On every device the table holds those contents (there is one device). -/
theorem V_pre5 (c : Dev nD) (j : Fin 1) : V c (pre5.ref j) = tbl5 V j := by
  obtain rfl : c = 0 := Subsingleton.elim _ _; rfl
/-- Every block the table names lies inside the embedding table. -/
abbrev Ok5 : Prop := ok5 (F := F) (tbl5 V)
/-- The table as admissible contents, and the pipeline pinned at it. -/
abbrev adm5 (hO : Ok5 V) : (pcfg5 (F := F)).Adm := ⟨tbl5 V, hO⟩
abbrev cfgM5 (hO : Ok5 V) : Pipeline.Cfg sig Λ₀ := cfg5 (adm5 V hO)

/-- Window `w`'s block at point `t`, read off its array as the region finds it. -/
def iblk5 (hO : Ok5 V) (c : Dev nD) (w : Fin (cfgM5 V hO).W) (t : Fin (cfgM5 V hO).N) :
    (((cfgM5 V hO).win w).xblock ((cfgM5 V hO).grid.coords t)).Idx → Elt F ((cfgM5 V hO).win w).elt :=
  (((cfgM5 V hO).win w).blk t).view.read (Elt F) (V c (Pipeline.arrRef spec5 w))

/-- An input window's current staging buffer holds its block at every point, fetched there or not, for any proof
    data whose array is `V`'s and whose body leaves the block in place. -/
theorem before5_0_of (hO : Ok5 V) {c : Dev nD} (dat : Dat τ (Elt F) Unit ℕ (UR sig nD τ) ℕ (cfgM5 V hO) c) (hA : dat.A 0 = V c (Pipeline.arrRef spec5 0))
    (hafter : ∀ t, dat.after 0 t = iblk5 V hO c 0 t) (t : Fin (cfgM5 V hO).N) (d) : dat.before 0 t d = iblk5 V hO c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of (hO : Ok5 V) {c : Dev nD} (dat : Dat τ (Elt F) Unit ℕ (UR sig nD τ) ℕ (cfgM5 V hO) c) (hA : dat.A 1 = V c (Pipeline.arrRef spec5 1))
    (hafter : ∀ t, dat.after 1 t = iblk5 V hO c 1 t) (t : Fin (cfgM5 V hO).N) (d) : dat.before 1 t d = iblk5 V hO c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of (hO : Ok5 V) {c : Dev nD} (dat : Dat τ (Elt F) Unit ℕ (UR sig nD τ) ℕ (cfgM5 V hO) c) (hA : dat.A 2 = V c (Pipeline.arrRef spec5 2))
    (hafter : ∀ t, dat.after 2 t = iblk5 V hO c 2 t) (t : Fin (cfgM5 V hO).N) (d) : dat.before 2 t d = iblk5 V hO c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of (hO : Ok5 V) {c : Dev nD} (dat : Dat τ (Elt F) Unit ℕ (UR sig nD τ) ℕ (cfgM5 V hO) c) (hA : dat.A 3 = V c (Pipeline.arrRef spec5 3))
    (hafter : ∀ t, dat.after 3 t = iblk5 V hO c 3 t) (t : Fin (cfgM5 V hO).N) (d) : dat.before 3 t d = iblk5 V hO c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Each window's current staging memref at point `t`, as the pipeline passes it, and its wholeness. -/
abbrev ms5_0 (hO : Ok5 V) (t : Fin (cfgM5 V hO).N) : Memref sig .tc .vmem S1x1x128 .f32 := spec5_0.stage ((cfgM5 V hO).slots t 0)
abbrev hs5_0 (hO : Ok5 V) (t : Fin (cfgM5 V hO).N) : (ms5_0 V hO t).IsWhole := hstage5_0 (((cfgM5 V hO).slots t 0).cast nbuf5_0)
abbrev ms5_1 (hO : Ok5 V) (t : Fin (cfgM5 V hO).N) : Memref sig .tc .vmem S1x1x128 .f32 := spec5_1.stage ((cfgM5 V hO).slots t 1)
abbrev hs5_1 (hO : Ok5 V) (t : Fin (cfgM5 V hO).N) : (ms5_1 V hO t).IsWhole := hstage5_1 (((cfgM5 V hO).slots t 1).cast nbuf5_1)
abbrev ms5_2 (hO : Ok5 V) (t : Fin (cfgM5 V hO).N) : Memref sig .tc .vmem S1x1x128 .f32 := spec5_2.stage ((cfgM5 V hO).slots t 2)
abbrev hs5_2 (hO : Ok5 V) (t : Fin (cfgM5 V hO).N) : (ms5_2 V hO t).IsWhole := hstage5_2 (((cfgM5 V hO).slots t 2).cast nbuf5_2)
abbrev ms5_3 (hO : Ok5 V) (t : Fin (cfgM5 V hO).N) : Memref sig .tc .vmem S1x1x1 .f32 := spec5_3.stage ((cfgM5 V hO).slots t 3)
abbrev hs5_3 (hO : Ok5 V) (t : Fin (cfgM5 V hO).N) : (ms5_3 V hO t).IsWhole := hstage5_3 (((cfgM5 V hO).slots t 3).cast nbuf5_3)
abbrev ms5_4 (hO : Ok5 V) (t : Fin (cfgM5 V hO).N) : Memref sig .tc .vmem S1x1x1 .f32 := spec5_4.stage ((cfgM5 V hO).slots t 4)
abbrev hs5_4 (hO : Ok5 V) (t : Fin (cfgM5 V hO).N) : (ms5_4 V hO t).IsWhole := hstage5_4 (((cfgM5 V hO).slots t 4).cast nbuf5_4)
/-- The scratch operand: a whole scoped buffer of the kernel's own. -/
abbrev scM5 : Memref sig .tc .vmem S1x1x128 .f32 := Memref.whole cc5_scratch0
/-- The table as the body is handed it. -/
abbrev tbM5 : Memref sig .tc .smem S65536 .i32 := Memref.whole main_v66

/-- The kernel body at point `t`, on what the pipeline calls it with. -/
abbrev bodyAt5 (a : (pcfg5 (F := F)).Adm) (t : Fin (cfg5 a).N) : Prog (TpuEff nD τ sig (Elt F) Λ₀ .tc) PUnit :=
  cc5__gather_kernel (grid5.coords t) (Memref.whole main_v66) (Memref.isWhole_whole _) (spec5_0.stage ((cfg5 a).slots t 0)) (hstage5_0 (((cfg5 a).slots t 0).cast nbuf5_0)) (spec5_1.stage ((cfg5 a).slots t 1)) (hstage5_1 (((cfg5 a).slots t 1).cast nbuf5_1)) (spec5_2.stage ((cfg5 a).slots t 2)) (hstage5_2 (((cfg5 a).slots t 2).cast nbuf5_2)) (spec5_3.stage ((cfg5 a).slots t 3)) (hstage5_3 (((cfg5 a).slots t 3).cast nbuf5_3)) (spec5_4.stage ((cfg5 a).slots t 4)) (hstage5_4 (((cfg5 a).slots t 4).cast nbuf5_4)) (Memref.whole cc5_scratch0) (Memref.isWhole_whole _)

/-- Off the last feature the result window is idle: the body stores nothing into it. -/
theorem idleAt5_4 (a : (pcfg5 (F := F)).Adm) (i : grid5.Coords) (h : ¬cond5_1 i) : (cfg5 a).idle 4 i = true := by
  show (!(k5_cond2 i == 1#1)) = true
  simp only [Bool.not_eq_true', beq_eq_false_iff_ne, ne_eq]; exact h
/-- On the last feature it is live. -/
theorem liveAt5_4 (a : (pcfg5 (F := F)).Adm) (i : grid5.Coords) (h : cond5_1 i) : (cfg5 a).idle 4 i = false := by
  show (!(k5_cond2 i == 1#1)) = false
  simp only [Bool.not_eq_false', beq_iff_eq]; exact h
/-- The input windows are never idle. -/
theorem liveAt5_0 (a : (pcfg5 (F := F)).Adm) (i : grid5.Coords) : (cfg5 a).idle 0 i = false := rfl
theorem liveAt5_1 (a : (pcfg5 (F := F)).Adm) (i : grid5.Coords) : (cfg5 a).idle 1 i = false := rfl
theorem liveAt5_2 (a : (pcfg5 (F := F)).Adm) (i : grid5.Coords) : (cfg5 a).idle 2 i = false := rfl
theorem liveAt5_3 (a : (pcfg5 (F := F)).Adm) (i : grid5.Coords) : (cfg5 a).idle 3 i = false := rfl

end Cert.KernelIdeal.Hand

end
-- ==== Proof.KHostT5.lean ====
/-
  Tile 5's five operands, entry by entry: what proof/Proof/KHost.lean says of tile 0, for the rows
  `[2048 · 5, 2048 · 5 + 2048)`. The arrays the tile's stretch reads were written before the first kernel region, and
  neither a region (each writes its own result array only) nor an earlier tile's stretch (each writes its own cuts
  only) touches them since.
-/
import proofs.«402893_j78554951844377_2_alg».proof.Proof.Gen.KernelIdeal.Regions
import proofs.«402893_j78554951844377_2_alg».proof.Proof.Spec
import proofs.«402893_j78554951844377_2_alg».proof.Proof.KHost
import Idealize.ShloMosaic.Lib.StableHlo.Run
import Idealize.ShloMosaic.Lib.Pipeline.Value
import Idealize.ShloMosaic.Lib.ValueLayout
import Idealize.ShloMosaic.Lib.ValueIdx

set_option maxRecDepth 1396

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]
variable (m : (ℓ : Loc nD τ sig) → Buf (Elt F) ℓ) (outs : Outs (F := F))

/-! ## Tile 5

Tile 5 (samples `2048 · 5 + r`, `r < 2048`) is entered at `V15 m outs c`: the stretch `hostOps5` cuts the
tile's rows out of the four host arrays (offset `2048 · 5` on the leading axis) and flattens the rows of gathered
indices into the tile's prefetched table, entry `j` of which is therefore row `j / 32`, feature `j % 32`. -/

section Tile5

/-- The arrays written before the first region are, at tile 5's entry, what they were at `V5 m c`: no region and no
    stretch in between writes them. -/
theorem ent5_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W)
    (h12 : r ∉ ([main_v58] : List (Ref sig .tc))) (h13 : r ∉ hostOps4_W)
    (h14 : r ∉ ([main_v64] : List (Ref sig .tc))) (h15 : r ∉ hostOps5_W) :
    V15 m outs c r = V5 m c r :=
  (V15_of m outs c r h15).trans <|
    (V14_of m outs c r h14).trans <|
    (V13_of m outs c r h13).trans <|
    (V12_of m outs c r h12).trans <|
    (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 5, 2048 · 5 + 2048)` of `main_v8`, flattened. -/
theorem tbl5_read (j : Fin 65536) :
    StableHlo.after hostOps5 W main_v66 (ValueIdx.ix1 j)
      = StableHlo.after hostOps5 W main_v8
          (ValueIdx.ix2 (⟨2048 * 5 + j.val / 32, by omega⟩ : Fin 16384) (⟨j.val % 32, by omega⟩ : Fin 32)) := by
  dsimp only [hostOps5]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 5 + j.val / 32 = _ + j.val / 32; omega)

/-- The tile's phase-bias rows: the rows `[2048 · 5, 2048 · 5 + 2048)` of `main_v31`. -/
theorem pa5_read (r : Fin 2048) (l : Fin 128) :
    StableHlo.after hostOps5 W main_v67 (ValueIdx.ix3 r 0 l)
      = StableHlo.after hostOps5 W main_v31 (ValueIdx.ix3 (⟨2048 * 5 + r.val, by omega⟩ : Fin 16384) 0 l) := by
  dsimp only [hostOps5]; open StableHlo in after_results_simp
  exact slice3_axis0_apply _ _ _ r 0 l _ (by show 2048 * 5 + r.val = _ + r.val; omega)

/-- The tile's head weights: the same rows of `main_v32`. -/
theorem w5_read (r : Fin 2048) (l : Fin 128) :
    StableHlo.after hostOps5 W main_v68 (ValueIdx.ix3 r 0 l)
      = StableHlo.after hostOps5 W main_v32 (ValueIdx.ix3 (⟨2048 * 5 + r.val, by omega⟩ : Fin 16384) 0 l) := by
  dsimp only [hostOps5]; open StableHlo in after_results_simp
  exact slice3_axis0_apply _ _ _ r 0 l _ (by show 2048 * 5 + r.val = _ + r.val; omega)

/-- The tile's head biases: the same rows of `main_v33`. -/
theorem b5_read (r : Fin 2048) :
    StableHlo.after hostOps5 W main_v69 (ValueIdx.ix3 r 0 0)
      = StableHlo.after hostOps5 W main_v33 (ValueIdx.ix3 (⟨2048 * 5 + r.val, by omega⟩ : Fin 16384) 0 0) := by
  dsimp only [hostOps5]; open StableHlo in after_results_simp
  exact slice3_axis0_apply _ _ _ r 0 0 _ (by show 2048 * 5 + r.val = _ + r.val; omega)

end Stretch

/-- Entry `j` of tile 5's prefetched table is the gathered row number of sample `2048 · 5 + j / 32`, feature `j % 32`. -/
theorem tbl5_apply (c : Dev nD) (j : Fin 65536) :
    V15 m outs c main_v66 (ValueIdx.ix1 j)
      = Spec.gidxOf (m ((c : Thread nD τ).loc main_arg0)) (m ((c : Thread nD τ).loc main_arg1))
          (m ((c : Thread nD τ).loc main_arg2))
          (ValueIdx.ix2 (⟨2048 * 5 + j.val / 32, by omega⟩ : Fin 16384) (⟨j.val % 32, by omega⟩ : Fin 32)) :=
  (tbl5_read (V14 m outs c) j).trans <| (congrFun (ent5_of m outs c main_v8 (by decide) (by decide) (by decide) (by decide) (by decide) (by decide) (by decide) (by decide) (by decide) (by decide)) _).trans <| congrFun (V5_gidx m c) _

/-- The embedding table as tile 5 sees it: row `ρ`, lane `l` of the argument. -/
theorem emb5_apply (c : Dev nD) (ρ : Fin 786432) (l : Fin 128) :
    V15 m outs c main_v34 (ValueIdx.ix3 ρ 0 l) = m ((c : Thread nD τ).loc main_arg3) (ValueIdx.ix2 ρ l) :=
  (congrFun (ent5_of m outs c main_v34 (by decide) (by decide) (by decide) (by decide) (by decide) (by decide) (by decide) (by decide) (by decide) (by decide)) _).trans <| V5_emb_apply m c ρ l

/-- Row `r` of tile 5's phase-bias operand is sample `2048 · 5 + r`'s phase-bias row. -/
theorem pa5_apply (c : Dev nD) (r : Fin 2048) (l : Fin 128) :
    V15 m outs c main_v67 (ValueIdx.ix3 r 0 l)
      = Spec.paSelOf (m ((c : Thread nD τ).loc main_arg1)) (m ((c : Thread nD τ).loc main_arg4))
          (ValueIdx.ix2 (⟨2048 * 5 + r.val, by omega⟩ : Fin 16384) l) :=
  (pa5_read (V14 m outs c) r l).trans <| (congrFun (ent5_of m outs c main_v31 (by decide) (by decide) (by decide) (by decide) (by decide) (by decide) (by decide) (by decide) (by decide) (by decide)) _).trans <| V5_pa_apply m c _ l

/-- Row `r` of tile 5's head-weight operand is sample `2048 · 5 + r`'s head weights. -/
theorem w5_apply (c : Dev nD) (r : Fin 2048) (l : Fin 128) :
    V15 m outs c main_v68 (ValueIdx.ix3 r 0 l)
      = Spec.wSelOf (m ((c : Thread nD τ).loc main_arg1)) (m ((c : Thread nD τ).loc main_arg5))
          (ValueIdx.ix2 (⟨2048 * 5 + r.val, by omega⟩ : Fin 16384) l) :=
  (w5_read (V14 m outs c) r l).trans <| (congrFun (ent5_of m outs c main_v32 (by decide) (by decide) (by decide) (by decide) (by decide) (by decide) (by decide) (by decide) (by decide) (by decide)) _).trans <| V5_w_apply m c _ l

/-- Entry `r` of tile 5's head-bias operand is sample `2048 · 5 + r`'s head bias. -/
theorem b5_apply (c : Dev nD) (r : Fin 2048) :
    V15 m outs c main_v69 (ValueIdx.ix3 r 0 0)
      = Spec.bSelOf (m ((c : Thread nD τ).loc main_arg1)) (m ((c : Thread nD τ).loc main_arg6))
          (ValueIdx.ix1 (⟨2048 * 5 + r.val, by omega⟩ : Fin 16384)) :=
  (b5_read (V14 m outs c) r).trans <| (congrFun (ent5_of m outs c main_v33 (by decide) (by decide) (by decide) (by decide) (by decide) (by decide) (by decide) (by decide) (by decide) (by decide)) _).trans <| V5_b_apply m c _

end Tile5

end Cert.KernelIdeal.Hand
-- ==== Proof.R5Ok.lean ====
/-
  Tile 5: the table the region reads, and the pipeline's side condition on it from the range fact.

  Region 5 is entered with the buffers at the valuation after the host stretch that cuts tile 5's operands. Its prefetched table then
  holds, at flat position `32·i₀ + i₁`, the gathered row number of sample `2048·5 + i₀`, feature `i₁`. When every gathered
  row number is below 786432 (the range fact), every word of the table is, which is the side condition under which the
  pipeline is pinned at the table.
-/
import proofs.«402893_j78554951844377_2_alg».proof.Proof.Gen.KernelIdeal.Regions
import proofs.«402893_j78554951844377_2_alg».proof.Proof.Spec
import proofs.«402893_j78554951844377_2_alg».proof.Proof.R5Base
import proofs.«402893_j78554951844377_2_alg».proof.Proof.OkTablesT
import proofs.«402893_j78554951844377_2_alg».proof.Proof.KHostT5
import proofs.«402893_j78554951844377_2_alg».proof.Proof.TileLib
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]

/-- The buffers when region 5 is entered: the valuation after the host stretch that cuts tile 5's operands. -/
abbrev V5in (m : (ℓ : Loc nD τ sig) → Buf (Elt F) ℓ) : (c : Dev nD) → (b : Ref sig .tc) → Buf (Elt F) ((c : Thread nD τ).loc b) :=
  fun c b => V15 m (outsL m) c b

variable (m : (ℓ : Loc nD τ sig) → Buf (Elt F) ℓ)

/-- The table word read at grid point `(i₀, i₁)` is the gathered row number of sample `2048·5 + i₀`, feature `i₁`: the
    word sits at flat position `32·i₀ + i₁`, whose quotient and remainder by 32 are `i₀` and `i₁`. -/
theorem tword5_V5in (c : Dev nD) (i : grid5.Coords) :
    tword5 (tbl5 (V5in m)) i
      = Spec.gidxOf (m ((c : Thread nD τ).loc main_arg0)) (m ((c : Thread nD τ).loc main_arg1)) (m ((c : Thread nD τ).loc main_arg2))
          (ValueIdx.ix2 (⟨2048 * 5 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V5in m 0 main_v66 (ValueIdx.ix1 ⟨32 * (i 0).val + (i 1).val, pos_lt5 i⟩) = _
  refine (tbl5_apply m (outsL m) 0 ⟨32 * (i 0).val + (i 1).val, pos_lt5 i⟩).trans ?_
  exact congrArg _ (ix2_congr (by show 2048 * 5 + (32 * (i 0).val + (i 1).val) / 32 = 2048 * 5 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok5_of_inRange (c : Dev nD)
    (hin : Spec.InRange (Spec.gidxOf (m ((c : Thread nD τ).loc main_arg0)) (m ((c : Thread nD τ).loc main_arg1)) (m ((c : Thread nD τ).loc main_arg2)))) :
    Ok5 (V5in m) :=
  ok5_of (tbl5 (V5in m)) fun i => by rw [tword5_V5in m c i]; exact hin _ _

end Cert.KernelIdeal.Hand

end
-- ==== Proof.R5Grid.lean ====
import proofs.«402893_j78554951844377_2_alg».proof.Proof.R5Run
import Idealize.ShloMosaic.Lib.Pipeline.Kit
import Mathlib.Data.Fin.VecNotation

noncomputable section

namespace Cert.KernelIdeal.Hand

open Cert.KernelIdeal Cert.KernelIdeal.Gen
open Idealize.ShloMosaic
open Idealize.ShloMosaic.Pipeline (Cfg Window)

variable {F : FTy → Type} [FloatOps F]

/-! # Tile 5: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride5_0 : grid5.stride 0 = 32 := by decide
/-- The feature coordinate changes at every point. -/
theorem stride5_1 : grid5.stride 1 = 1 := by decide

/-- The sample coordinate of point `t` is `t / 32`: the quotient is below 2048, so reducing it modulo the
    axis's bound changes nothing. -/
theorem coords5_val0 (t : Fin grid5.N) : ((grid5.coords t) 0).val = t.val / 32 := by
  have ht : t.val < 65536 := N_5 ▸ t.isLt
  show t.val / grid5.stride 0 % 2048 = t.val / 32
  rw [stride5_0]; omega

/-- The feature coordinate of point `t` is `t % 32`. -/
theorem coords5_val1 (t : Fin grid5.N) : ((grid5.coords t) 1).val = t.val % 32 := by
  show t.val / grid5.stride 1 % 32 = t.val % 32
  rw [stride5_1, Nat.div_one]

/-- The first condition holds exactly at feature 0: checked at each of the 32 values of the coordinate. -/
theorem cond5_0_iff (i : grid5.Coords) : cond5_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond5_1_iff (i : grid5.Coords) : cond5_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond5_0_first (t : Fin grid5.N) (h : t.val = 0) : cond5_0 (grid5.coords t) := by
  rw [cond5_0_iff, coords5_val1, h]

/-- No feature is both the first and the last. -/
theorem not_both5 (i : grid5.Coords) : cond5_0 i → cond5_1 i → False := by
  rw [cond5_0_iff, cond5_1_iff]; omega

/-- A sample number, made a 32-bit word and read back, is itself. -/
private theorem toNat_ofNat_sample (t : Fin grid5.N) : (BitVec.ofNat 32 ((grid5.coords t) 0).val).toNat = t.val / 32 := by
  have ht : t.val < 65536 := N_5 ▸ t.isLt
  rw [coords5_val0, BitVec.toNat_ofNat, Nat.mod_eq_of_lt (by omega)]

/-- Window 1's block at point `t` is the one of sample `t / 32`. -/
theorem index5_1 (a : (pcfg5 (F := F)).Adm) (t : Fin (cfg5 a).N) : ((cfg5 a).win 1).index t = ![t.val / 32, 0, 0] := by
  show (![(BitVec.ofNat 32 ((grid5.coords t) 0).val).toNat, (0#32).toNat, (0#32).toNat] : Fin 3 → ℕ) = _
  rw [toNat_ofNat_sample]; rfl
/-- Window 2's block at point `t` is the one of sample `t / 32`. -/
theorem index5_2 (a : (pcfg5 (F := F)).Adm) (t : Fin (cfg5 a).N) : ((cfg5 a).win 2).index t = ![t.val / 32, 0, 0] := by
  show (![(BitVec.ofNat 32 ((grid5.coords t) 0).val).toNat, (0#32).toNat, (0#32).toNat] : Fin 3 → ℕ) = _
  rw [toNat_ofNat_sample]; rfl
/-- Window 3's block at point `t` is the one of sample `t / 32`. -/
theorem index5_3 (a : (pcfg5 (F := F)).Adm) (t : Fin (cfg5 a).N) : ((cfg5 a).win 3).index t = ![t.val / 32, 0, 0] := by
  show (![(BitVec.ofNat 32 ((grid5.coords t) 0).val).toNat, (0#32).toNat, (0#32).toNat] : Fin 3 → ℕ) = _
  rw [toNat_ofNat_sample]; rfl
/-- The output window's block at point `t` is the one of sample `t / 32`. -/
theorem index5_4 (a : (pcfg5 (F := F)).Adm) (t : Fin (cfg5 a).N) : ((cfg5 a).win 4).index t = ![t.val / 32, 0, 0] := by
  show (![(BitVec.ofNat 32 ((grid5.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush5_4_iff (a : (pcfg5 (F := F)).Adm) (t : Fin (cfg5 a).N) : ((cfg5 a).win 4).flush t = true ↔ t.val % 32 = 31 := by
  have hN : (cfg5 a).N = 65536 := N_5
  have ht : t.val < 65536 := hN ▸ t.isLt
  have hout : ((cfg5 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index5_4, index5_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg5 a).N := Nat.lt_of_lt_of_eq (by omega : t.val + 1 < 65536) hN.symm
      refine Or.inr ⟨hlt, ?_⟩
      rw [index5_4, index5_4]
      have hne' : (t.val + 1) / 32 ≠ t.val / 32 := by omega
      exact (vec3_ne_iff _ _).mpr hne'

/-- At a sample's last feature the output block is written back. -/
theorem flush5_4 (a : (pcfg5 (F := F)).Adm) (t : Fin (cfg5 a).N) (h : cond5_1 (grid5.coords t)) : ((cfg5 a).win 4).flush t = true := by
  rw [flush5_4_iff, ← coords5_val1]; exact (cond5_1_iff _).mp h

/-- At any other feature the output block stays. -/
theorem noFlush5_4 (a : (pcfg5 (F := F)).Adm) (t : Fin (cfg5 a).N) (h : ¬cond5_1 (grid5.coords t)) : ((cfg5 a).win 4).flush t = false := by
  rw [← Bool.not_eq_true, flush5_4_iff, ← coords5_val1]; exact fun e => h ((cond5_1_iff _).mpr e)

end Cert.KernelIdeal.Hand

end
-- ==== Proof.R5Acc.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R5Base
import proofs.«402893_j78554951844377_2_alg».proof.Proof.R5Grid
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 5: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow5 (hO : Ok5 V) (c : Dev nD) (t : Fin (cfgM5 V hO).N) : Vec F S1x1x128 .f32 := iblk5 V hO c 0 t
abbrev xpa5 (hO : Ok5 V) (c : Dev nD) (t : Fin (cfgM5 V hO).N) : Vec F S1x1x128 .f32 := iblk5 V hO c 1 t
abbrev xw5 (hO : Ok5 V) (c : Dev nD) (t : Fin (cfgM5 V hO).N) : Vec F S1x1x128 .f32 := iblk5 V hO c 2 t
abbrev xb5 (hO : Ok5 V) (c : Dev nD) (t : Fin (cfgM5 V hO).N) : Vec F S1x1x1 .f32 := iblk5 V hO c 3 t

/-- THE ACCUMULATION: the scratch after the body at position `n`. -/
def accAt5 (hO : Ok5 V) (c : Dev nD) : (n : ℕ) → n < (cfgM5 V hO).N → Vec F S1x1x128 .f32
  | 0, hn => k5_pay2 (k5_pay1 (F := F)) (xrow5 V hO c ⟨0, hn⟩)
  | n + 1, hn =>
    if cond5_0 (grid5.coords ⟨n + 1, hn⟩) then k5_pay2 (k5_pay1 (F := F)) (xrow5 V hO c ⟨n + 1, hn⟩)
    else k5_pay2 (accAt5 hO c n (Nat.lt_of_succ_lt hn)) (xrow5 V hO c ⟨n + 1, hn⟩)

/-- At a sample's first feature the scratch restarts from zero. -/
theorem accAt5_A (hO : Ok5 V) (c : Dev nD) (t : Fin (cfgM5 V hO).N) (h0 : cond5_0 (grid5.coords t)) :
    accAt5 V hO c t.val t.isLt = k5_pay2 (k5_pay1 (F := F)) (xrow5 V hO c t) := by
  obtain ⟨n, hn⟩ := t
  cases n with
  | zero => rfl
  | succ n => exact if_pos h0

/-- Elsewhere it adds the row to what the point before left. -/
theorem accAt5_B (hO : Ok5 V) (c : Dev nD) (t : Fin (cfgM5 V hO).N) (h0 : ¬cond5_0 (grid5.coords t)) (hz : t.val ≠ 0) :
    accAt5 V hO c t.val t.isLt = k5_pay2 (accAt5 V hO c (t.val - 1) (by omega)) (xrow5 V hO c t) := by
  obtain ⟨n, hn⟩ := t
  cases n with
  | zero => exact absurd rfl hz
  | succ n => exact if_neg h0

/-- The sample's result as the body computes it at a point (read at the last feature). -/
def outAt5 (hO : Ok5 V) (c : Dev nD) (t : Fin (cfgM5 V hO).N) : Vec F S1x1x1 .f32 :=
  k5_pay3 (accAt5 V hO c t.val t.isLt) (xpa5 V hO c t) (xw5 V hO c t) (xb5 V hO c t)

/-- What rides along unread: the other scoped buffers, the generator register, the table. -/
def Rest5 (c : Dev nD) : sProp 𝕄 :=
  iprop(Pipeline.scopedRestBut (Ix := Unit) (Name := ℕ) (U := UR sig nD τ) (Lvl := ℕ) (Val := Elt F) spec5 c [cc5_scratch0]
    ∗ (∃ r, prngReg c r) ∗ Pipeline.prefHeld (Ix := Unit) (Name := ℕ) (U := UR sig nD τ) (Lvl := ℕ) pre5 c (fun _ => fullShare) (tbl5 V))

/-- The region invariant before position `n`: the scratch at anything before the first point, afterwards at what
    the point before left. -/
def PhiS5 (hO : Ok5 V) (c : Dev nD) : (n : ℕ) → n ≤ (cfgM5 V hO).N → sProp 𝕄
  | 0, _ => iprop((∃ d, owns (c : Thread nD τ) scM5 fullShare d) ∗ Rest5 V c)
  | n + 1, hn => iprop(owns (c : Thread nD τ) scM5 fullShare (accAt5 V hO c n hn) ∗ Rest5 V c)

theorem PhiS5_zero (hO : Ok5 V) (c : Dev nD) (n : ℕ) (h : n ≤ (cfgM5 V hO).N) (hz : n = 0) :
    PhiS5 V hO c n h = iprop((∃ d, owns (c : Thread nD τ) scM5 fullShare d) ∗ Rest5 V c) := by
  subst hz; rfl
theorem PhiS5_succ (hO : Ok5 V) (c : Dev nD) (n : ℕ) (hn : n < (cfgM5 V hO).N) :
    PhiS5 V hO c (n + 1) hn = iprop(owns (c : Thread nD τ) scM5 fullShare (accAt5 V hO c n hn) ∗ Rest5 V c) := rfl
theorem PhiS5_pos (hO : Ok5 V) (c : Dev nD) (n : ℕ) (h : n ≤ (cfgM5 V hO).N) (hz : n ≠ 0) :
    PhiS5 V hO c n h = iprop(owns (c : Thread nD τ) scM5 fullShare (accAt5 V hO c (n - 1) (by omega)) ∗ Rest5 V c) := by
  cases n with
  | zero => exact absurd rfl hz
  | succ n => rfl

/-- The proof data of the tile's pipeline on core `c`: the arrays as the region finds them; after the body each input's
    buffer at its block and the result's at `outAt5`; the invariant `PhiS5`; nothing owed; full shares. -/
def dat5 (hO : Ok5 V) (c : Dev nD) : Dat τ (Elt F) Unit ℕ (UR sig nD τ) ℕ (cfgM5 V hO) c where
  A w := V c (Pipeline.arrRef spec5 w)
  after w t := match w with
    | ⟨0, _⟩ => iblk5 V hO c 0 t
    | ⟨1, _⟩ => iblk5 V hO c 1 t
    | ⟨2, _⟩ => iblk5 V hO c 2 t
    | ⟨3, _⟩ => iblk5 V hO c 3 t
    | ⟨4, _⟩ => outAt5 V hO c t
  Φ t := PhiS5 V hO c t.val (Nat.le_of_lt_succ t.isLt)
  q _ := fullShare
  owed _ := 0

theorem A_eq5 (hO : Ok5 V) (c : Dev nD) (w : Fin (cfgM5 V hO).W) : (dat5 V hO c).A w = V c (Pipeline.arrRef spec5 w) := by
  dsimp only [dat5]
theorem PhiS5_castSucc (hO : Ok5 V) (c : Dev nD) (t : Fin (cfgM5 V hO).N) :
    (dat5 V hO c).Φ t.castSucc = PhiS5 V hO c t.val (Nat.le_of_lt t.isLt) := by
  dsimp only [dat5]; simp only [Fin.coe_castSucc]
theorem after5_0 (hO : Ok5 V) (c : Dev nD) (t : Fin (cfgM5 V hO).N) : (dat5 V hO c).after 0 t = iblk5 V hO c 0 t := by dsimp only [dat5]; try rfl
theorem after5_1 (hO : Ok5 V) (c : Dev nD) (t : Fin (cfgM5 V hO).N) : (dat5 V hO c).after 1 t = iblk5 V hO c 1 t := by dsimp only [dat5]; try rfl
theorem after5_2 (hO : Ok5 V) (c : Dev nD) (t : Fin (cfgM5 V hO).N) : (dat5 V hO c).after 2 t = iblk5 V hO c 2 t := by dsimp only [dat5]; try rfl
theorem after5_3 (hO : Ok5 V) (c : Dev nD) (t : Fin (cfgM5 V hO).N) : (dat5 V hO c).after 3 t = iblk5 V hO c 3 t := by dsimp only [dat5]; try rfl
theorem after5_4 (hO : Ok5 V) (c : Dev nD) (t : Fin (cfgM5 V hO).N) : (dat5 V hO c).after 4 t = outAt5 V hO c t := by dsimp only [dat5]; try rfl

theorem before5_0 (hO : Ok5 V) (c : Dev nD) (t : Fin (cfgM5 V hO).N) (d) : (dat5 V hO c).before 0 t d = iblk5 V hO c 0 t :=
  before5_0_of V hO (dat5 V hO c) (A_eq5 V hO c 0) (after5_0 V hO c) t d
theorem before5_1 (hO : Ok5 V) (c : Dev nD) (t : Fin (cfgM5 V hO).N) (d) : (dat5 V hO c).before 1 t d = iblk5 V hO c 1 t :=
  before5_1_of V hO (dat5 V hO c) (A_eq5 V hO c 1) (after5_1 V hO c) t d
theorem before5_2 (hO : Ok5 V) (c : Dev nD) (t : Fin (cfgM5 V hO).N) (d) : (dat5 V hO c).before 2 t d = iblk5 V hO c 2 t :=
  before5_2_of V hO (dat5 V hO c) (A_eq5 V hO c 2) (after5_2 V hO c) t d
theorem before5_3 (hO : Ok5 V) (c : Dev nD) (t : Fin (cfgM5 V hO).N) (d) : (dat5 V hO c).before 3 t d = iblk5 V hO c 3 t :=
  before5_3_of V hO (dat5 V hO c) (A_eq5 V hO c 3) (after5_3 V hO c) t d

/-- What the body is called with at point `t`, the windows one by one, -/
def bodyPre5 (hO : Ok5 V) (c : Dev nD) (t : Fin (cfgM5 V hO).N) : sProp 𝕄 :=
  iprop((dat5 V hO c).Φ t.castSucc ∗ (dat5 V hO c).owesAt () t.castSucc
    ∗ (∃ d, owns (c : Thread nD τ) (ms5_0 V hO t) fullShare ((dat5 V hO c).before 0 t d))
    ∗ (∃ d, owns (c : Thread nD τ) (ms5_1 V hO t) fullShare ((dat5 V hO c).before 1 t d))
    ∗ (∃ d, owns (c : Thread nD τ) (ms5_2 V hO t) fullShare ((dat5 V hO c).before 2 t d))
    ∗ (∃ d, owns (c : Thread nD τ) (ms5_3 V hO t) fullShare ((dat5 V hO c).before 3 t d))
    ∗ (∃ d, owns (c : Thread nD τ) (ms5_4 V hO t) fullShare ((dat5 V hO c).before 4 t d)))

/-- and what it returns. -/
def bodyPost5 (hO : Ok5 V) (c : Dev nD) (t : Fin (cfgM5 V hO).N) : sProp 𝕄 :=
  iprop((dat5 V hO c).Φ t.succ ∗ (dat5 V hO c).owesAt () t.succ
    ∗ (dat5 V hO c).leavesExact 0 t
    ∗ (dat5 V hO c).leavesExact 1 t
    ∗ (dat5 V hO c).leavesExact 2 t
    ∗ (dat5 V hO c).leavesExact 3 t
    ∗ (dat5 V hO c).leavesExact 4 t)

/-- The windows' idle flags at a point, stated at the pinned configuration. -/
theorem liveAtM5_0 (hO : Ok5 V) (t : Fin (cfgM5 V hO).N) : (cfgM5 V hO).idle 0 ((cfgM5 V hO).grid.coords t) = false := rfl
theorem liveAtM5_1 (hO : Ok5 V) (t : Fin (cfgM5 V hO).N) : (cfgM5 V hO).idle 1 ((cfgM5 V hO).grid.coords t) = false := rfl
theorem liveAtM5_2 (hO : Ok5 V) (t : Fin (cfgM5 V hO).N) : (cfgM5 V hO).idle 2 ((cfgM5 V hO).grid.coords t) = false := rfl
theorem liveAtM5_3 (hO : Ok5 V) (t : Fin (cfgM5 V hO).N) : (cfgM5 V hO).idle 3 ((cfgM5 V hO).grid.coords t) = false := rfl
theorem idleAtM5_4 (hO : Ok5 V) (t : Fin (cfgM5 V hO).N) (h : ¬cond5_1 (grid5.coords t)) :
    (cfgM5 V hO).idle 4 ((cfgM5 V hO).grid.coords t) = true := idleAt5_4 (adm5 V hO) (grid5.coords t) h
theorem liveAtM5_4 (hO : Ok5 V) (t : Fin (cfgM5 V hO).N) (h : cond5_1 (grid5.coords t)) :
    (cfgM5 V hO).idle 4 ((cfgM5 V hO).grid.coords t) = false := liveAt5_4 (adm5 V hO) (grid5.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body5 (hO : Ok5 V) (c : Dev nD) (t : Fin (cfgM5 V hO).N) :
    bodyPre5 V hO c t ⊢ wp frame (wpE (defs₀ (F := F)) Variants.none c none) Set.univ (bodyAt5 (adm5 V hO) t) (fun _ => bodyPost5 V hO c t) := by
  unfold bodyPre5 bodyPost5 bodyAt5
  simp only [before5_0, before5_1, before5_2, before5_3]
  rw [show (dat5 V hO c).owesAt () t.succ = (dat5 V hO c).owesAt () t.castSucc from rfl]
  rw [show (dat5 V hO c).Φ t.succ = PhiS5 V hO c (t.val + 1) t.isLt from rfl, PhiS5_succ]
  rw [show (dat5 V hO c).leavesExact 0 t = owns (c : Thread nD τ) (ms5_0 V hO t) fullShare ((dat5 V hO c).after 0 t) from by
    unfold Dat.leavesExact; rw [liveAtM5_0 V hO t]; try rfl]
  rw [after5_0]
  rw [show (dat5 V hO c).leavesExact 1 t = owns (c : Thread nD τ) (ms5_1 V hO t) fullShare ((dat5 V hO c).after 1 t) from by
    unfold Dat.leavesExact; rw [liveAtM5_1 V hO t]; try rfl]
  rw [after5_1]
  rw [show (dat5 V hO c).leavesExact 2 t = owns (c : Thread nD τ) (ms5_2 V hO t) fullShare ((dat5 V hO c).after 2 t) from by
    unfold Dat.leavesExact; rw [liveAtM5_2 V hO t]; try rfl]
  rw [after5_2]
  rw [show (dat5 V hO c).leavesExact 3 t = owns (c : Thread nD τ) (ms5_3 V hO t) fullShare ((dat5 V hO c).after 3 t) from by
    unfold Dat.leavesExact; rw [liveAtM5_3 V hO t]; try rfl]
  rw [after5_3]
  rw [PhiS5_castSucc]
  by_cases h0 : cond5_0 (grid5.coords t)
  · by_cases h1 : cond5_1 (grid5.coords t)
    · exact absurd h1 (fun h => not_both5 _ h0 h)
    · rw [Dat.leavesExact_idle (dat5 V hO c) 4 t (idleAtM5_4 V hO t h1) (noFlush5_4 (adm5 V hO) t h1)]
      rw [accAt5_A V hO c t h0]
      by_cases hz : t.val = 0
      · rw [PhiS5_zero V hO c _ _ hz]
        iintro ⟨⟨HS, HR⟩, Ho, ⟨%d0, H0⟩, ⟨%d1, H1⟩, ⟨%d2, H2⟩, ⟨%d3, H3⟩, ⟨%d4, H4⟩⟩
        iapply (run5_A c (grid5.coords t) _ _ _ _ _ _ _ _ _ _ _ _ _ _ h0 h1 (xrow5 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS5_pos V hO c _ _ hz]
        iintro ⟨⟨HS, HR⟩, Ho, ⟨%d0, H0⟩, ⟨%d1, H1⟩, ⟨%d2, H2⟩, ⟨%d3, H3⟩, ⟨%d4, H4⟩⟩
        iapply (run5_A c (grid5.coords t) _ _ _ _ _ _ _ _ _ _ _ _ _ _ h0 h1 (xrow5 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond5_0_first t hz)
    rw [PhiS5_pos V hO c _ _ hz, accAt5_B V hO c t h0 hz]
    by_cases h1 : cond5_1 (grid5.coords t)
    · rw [show (dat5 V hO c).leavesExact 4 t = owns (c : Thread nD τ) (ms5_4 V hO t) fullShare ((dat5 V hO c).after 4 t) from by
        unfold Dat.leavesExact; rw [liveAtM5_4 V hO t h1]; try rfl]
      rw [after5_4]
      unfold outAt5
      rw [accAt5_B V hO c t h0 hz]
      iintro ⟨⟨HS, HR⟩, Ho, ⟨%d0, H0⟩, ⟨%d1, H1⟩, ⟨%d2, H2⟩, ⟨%d3, H3⟩, ⟨%d4, H4⟩⟩
      iapply (run5_C c (grid5.coords t) _ _ _ _ _ _ _ _ _ _ _ _ _ _ h0 h1 (xrow5 V hO c t) (xpa5 V hO c t) (xw5 V hO c t) (xb5 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat5 V hO c) 4 t (idleAtM5_4 V hO t h1) (noFlush5_4 (adm5 V hO) t h1)]
      iintro ⟨⟨HS, HR⟩, Ho, ⟨%d0, H0⟩, ⟨%d1, H1⟩, ⟨%d2, H2⟩, ⟨%d3, H3⟩, ⟨%d4, H4⟩⟩
      iapply (run5_B c (grid5.coords t) _ _ _ _ _ _ _ _ _ _ _ _ _ _ h0 h1 (xrow5 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (hO : Ok5 V) (c : Dev nD) :
    BodyObligation (dat5 (F := F) V hO c) (defs₀ (F := F)) Variants.none () Set.univ := fun t => by
  rw [bigSep_W5, bigSep_W5]
  exact sound_body5 V hO c t

end Cert.KernelIdeal.Hand

end
-- ==== Proof.R5Val.lean ====
import proofs.«402893_j78554951844377_2_alg».proof.Proof.R5Acc
import proofs.«402893_j78554951844377_2_alg».proof.Proof.R5Grid
import proofs.«402893_j78554951844377_2_alg».proof.Proof.OkTablesT
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 5: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt5 (t : Fin grid5.N) : t.val / 32 < 2048 := by
  have ht : t.val < 65536 := N_5 ▸ t.isLt
  omega

/-- The last feature of sample `r` is a point of the grid. -/
theorem lastPt_lt5 (r : ℕ) (hr : r < 2048) : 32 * r + 31 < grid5.N := by rw [N_5]; omega

/-- Under the side condition every word the index map of window 0 reads names a row of the embedding table. -/
theorem tword5_lt (pf : pre5.Contents (Elt F)) (h : ok5 pf) (i : grid5.Coords) : (tword5 pf i).toNat < 786432 := by
  obtain ⟨hb, -⟩ := h i
  have h0 := hb 0
  rw [transform5_eq pf i] at h0
  have h0' : ((tword5 pf i).toNat + 1) * 1 ≤ 786432 := h0
  omega

/-- Window 0's block at point `t` is the row the table's word names. -/
theorem index5_0 (a : (pcfg5 (F := F)).Adm) (t : Fin (cfg5 a).N) :
    ((cfg5 a).win 0).index t = ![(tword5 a.1 (grid5.coords t)).toNat, 0, 0] :=
  transform5_eq a.1 (grid5.coords t)

/-- Lane `l` of window 0's block sits in the embedding table at (the named row, 0, l). -/
theorem emb5_0 (a : (pcfg5 (F := F)).Adm) (t : Fin (cfg5 a).N) (l : Fin 128) :
    (((cfg5 a).win 0).blk t).view.emb (ValueIdx.ix3 (0 : Fin 1) (0 : Fin 1) l)
      = ValueIdx.ix3 (⟨(tword5 a.1 (grid5.coords t)).toNat, tword5_lt a.1 a.2 (grid5.coords t)⟩ : Fin 786432) (0 : Fin 1) l := by
  funext d; apply Fin.ext
  match d with
  | ⟨0, _⟩ => show ((cfg5 a).win 0).index t (0 : Fin 3) * 1 + 1 * 0 = (tword5 a.1 (grid5.coords t)).toNat; rw [index5_0]; show (tword5 a.1 (grid5.coords t)).toNat * 1 + 1 * 0 = _; omega
  | ⟨1, _⟩ => show ((cfg5 a).win 0).index t (1 : Fin 3) * 1 + 1 * 0 = 0; rw [index5_0]; rfl
  | ⟨2, _⟩ => show ((cfg5 a).win 0).index t (2 : Fin 3) * 128 + 1 * l.val = l.val; rw [index5_0]; show 0 * 128 + 1 * l.val = l.val; omega

/-- Lane `l` of window 1's block sits in its array at (sample, 0, l). -/
theorem emb5_1 (a : (pcfg5 (F := F)).Adm) (t : Fin (cfg5 a).N) (l : Fin 128) :
    (((cfg5 a).win 1).blk t).view.emb (ValueIdx.ix3 (0 : Fin 1) (0 : Fin 1) l)
      = ValueIdx.ix3 (⟨t.val / 32, sample_lt5 t⟩ : Fin 2048) (0 : Fin 1) l := by
  funext d; apply Fin.ext
  match d with
  | ⟨0, _⟩ => show ((cfg5 a).win 1).index t (0 : Fin 3) * 1 + 1 * 0 = t.val / 32; rw [index5_1]; show t.val / 32 * 1 + 1 * 0 = _; omega
  | ⟨1, _⟩ => show ((cfg5 a).win 1).index t (1 : Fin 3) * 1 + 1 * 0 = 0; rw [index5_1]; rfl
  | ⟨2, _⟩ => show ((cfg5 a).win 1).index t (2 : Fin 3) * 128 + 1 * l.val = l.val; rw [index5_1]; show 0 * 128 + 1 * l.val = l.val; omega

/-- Lane `l` of window 2's block sits in its array at (sample, 0, l). -/
theorem emb5_2 (a : (pcfg5 (F := F)).Adm) (t : Fin (cfg5 a).N) (l : Fin 128) :
    (((cfg5 a).win 2).blk t).view.emb (ValueIdx.ix3 (0 : Fin 1) (0 : Fin 1) l)
      = ValueIdx.ix3 (⟨t.val / 32, sample_lt5 t⟩ : Fin 2048) (0 : Fin 1) l := by
  funext d; apply Fin.ext
  match d with
  | ⟨0, _⟩ => show ((cfg5 a).win 2).index t (0 : Fin 3) * 1 + 1 * 0 = t.val / 32; rw [index5_2]; show t.val / 32 * 1 + 1 * 0 = _; omega
  | ⟨1, _⟩ => show ((cfg5 a).win 2).index t (1 : Fin 3) * 1 + 1 * 0 = 0; rw [index5_2]; rfl
  | ⟨2, _⟩ => show ((cfg5 a).win 2).index t (2 : Fin 3) * 128 + 1 * l.val = l.val; rw [index5_2]; show 0 * 128 + 1 * l.val = l.val; omega

/-- The one element of window 3's block sits in its array at (sample, 0, 0). -/
theorem emb5_3 (a : (pcfg5 (F := F)).Adm) (t : Fin (cfg5 a).N) :
    (((cfg5 a).win 3).blk t).view.emb (ValueIdx.ix3 (0 : Fin 1) (0 : Fin 1) (0 : Fin 1))
      = ValueIdx.ix3 (⟨t.val / 32, sample_lt5 t⟩ : Fin 2048) (0 : Fin 1) (0 : Fin 1) := by
  funext d; apply Fin.ext
  match d with
  | ⟨0, _⟩ => show ((cfg5 a).win 3).index t (0 : Fin 3) * 1 + 1 * 0 = t.val / 32; rw [index5_3]; show t.val / 32 * 1 + 1 * 0 = _; omega
  | ⟨1, _⟩ => show ((cfg5 a).win 3).index t (1 : Fin 3) * 1 + 1 * 0 = 0; rw [index5_3]; rfl
  | ⟨2, _⟩ => show ((cfg5 a).win 3).index t (2 : Fin 3) * 1 + 1 * 0 = 0; rw [index5_3]; rfl

/-- The one element of the result window's block sits in the result array at (sample, 0, 0). -/
theorem emb5_4 (a : (pcfg5 (F := F)).Adm) (t : Fin (cfg5 a).N) :
    (((cfg5 a).win 4).blk t).view.emb (ValueIdx.ix3 (0 : Fin 1) (0 : Fin 1) (0 : Fin 1))
      = ValueIdx.ix3 (⟨t.val / 32, sample_lt5 t⟩ : Fin 2048) (0 : Fin 1) (0 : Fin 1) := by
  funext d; apply Fin.ext
  match d with
  | ⟨0, _⟩ => show ((cfg5 a).win 4).index t (0 : Fin 3) * 1 + 1 * 0 = t.val / 32; rw [index5_4]; show t.val / 32 * 1 + 1 * 0 = _; omega
  | ⟨1, _⟩ => show ((cfg5 a).win 4).index t (1 : Fin 3) * 1 + 1 * 0 = 0; rw [index5_4]; rfl
  | ⟨2, _⟩ => show ((cfg5 a).win 4).index t (2 : Fin 3) * 1 + 1 * 0 = 0; rw [index5_4]; rfl

section AtTable

variable (V : (c : Dev nD) → (b : Ref sig .tc) → Buf (Elt F) ((c : Thread nD τ).loc b))

/-! ## The input blocks at coordinates -/

/-- The row of the embedding table gathered at point `t`: the table's word there. -/
abbrev rho5 (t : Fin grid5.N) : ℕ := (tword5 (tbl5 V) (grid5.coords t)).toNat

/-- It is a row of the table, under the side condition. -/
theorem rho5_lt (hO : Ok5 V) (t : Fin grid5.N) : rho5 V t < 786432 := tword5_lt (tbl5 V) hO (grid5.coords t)

/-- Lane `l` of the gathered row at point `t` is the embedding table at (the named row, 0, l). -/
theorem xrow5_apply (hO : Ok5 V) (c : Dev nD) (t : Fin (cfgM5 V hO).N) (l : Fin 128) :
    xrow5 V hO c t (ValueIdx.ix3 (0 : Fin 1) (0 : Fin 1) l)
      = V c main_v34 (ValueIdx.ix3 (⟨rho5 V t, rho5_lt V hO t⟩ : Fin 786432) (0 : Fin 1) l) := by
  show V c main_v34 ((((cfgM5 V hO).win 0).blk t).view.emb (ValueIdx.ix3 (0 : Fin 1) (0 : Fin 1) l)) = _
  exact congrArg (V c main_v34) (emb5_0 (adm5 V hO) t l)

/-- Lane `l` of the phase-bias block at point `t` is its array at (sample, 0, l). -/
theorem xpa5_apply (hO : Ok5 V) (c : Dev nD) (t : Fin (cfgM5 V hO).N) (l : Fin 128) :
    xpa5 V hO c t (ValueIdx.ix3 (0 : Fin 1) (0 : Fin 1) l)
      = V c main_v67 (ValueIdx.ix3 (⟨t.val / 32, sample_lt5 t⟩ : Fin 2048) (0 : Fin 1) l) := by
  show V c main_v67 ((((cfgM5 V hO).win 1).blk t).view.emb (ValueIdx.ix3 (0 : Fin 1) (0 : Fin 1) l)) = _
  exact congrArg (V c main_v67) (emb5_1 (adm5 V hO) t l)

/-- Lane `l` of the head-weight block at point `t` is its array at (sample, 0, l). -/
theorem xw5_apply (hO : Ok5 V) (c : Dev nD) (t : Fin (cfgM5 V hO).N) (l : Fin 128) :
    xw5 V hO c t (ValueIdx.ix3 (0 : Fin 1) (0 : Fin 1) l)
      = V c main_v68 (ValueIdx.ix3 (⟨t.val / 32, sample_lt5 t⟩ : Fin 2048) (0 : Fin 1) l) := by
  show V c main_v68 ((((cfgM5 V hO).win 2).blk t).view.emb (ValueIdx.ix3 (0 : Fin 1) (0 : Fin 1) l)) = _
  exact congrArg (V c main_v68) (emb5_2 (adm5 V hO) t l)

/-- The head-bias block at point `t` is its array at (sample, 0, 0). -/
theorem xb5_apply (hO : Ok5 V) (c : Dev nD) (t : Fin (cfgM5 V hO).N) :
    xb5 V hO c t (ValueIdx.ix3 (0 : Fin 1) (0 : Fin 1) (0 : Fin 1))
      = V c main_v69 (ValueIdx.ix3 (⟨t.val / 32, sample_lt5 t⟩ : Fin 2048) (0 : Fin 1) (0 : Fin 1)) := by
  show V c main_v69 ((((cfgM5 V hO).win 3).blk t).view.emb (ValueIdx.ix3 (0 : Fin 1) (0 : Fin 1) (0 : Fin 1))) = _
  exact congrArg (V c main_v69) (emb5_3 (adm5 V hO) t)

/-! ## The arrays after the run -/

/-- An input's array is never written: it ends as the region found it. -/
theorem arrAt5_in (hO : Ok5 V) (c : Dev nD) (w : Fin 5) (hw : w ≠ 4) :
    (dat5 V hO c).arrAt w (cfgM5 V hO).N = V c (Pipeline.arrRef spec5 w) := by
  have hin : ((cfgM5 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat5 V hO c).arrAt_in w hin _).trans (A_eq5 V hO c w)

/-- THE RESULT ARRAY of the tile: row `r` holds what the body left in the result block at sample `r`'s last feature. -/
def tileRes5 (hO : Ok5 V) (c : Dev nD) : Buf (Elt F) ((c : Thread nD τ).loc main_v70) :=
  fun (i : S2048x1x1.Idx) => outAt5 V hO c ⟨32 * (i 0).val + 31, lastPt_lt5 (i 0).val (i 0).isLt⟩ (ValueIdx.ix3 (0 : Fin 1) (0 : Fin 1) (0 : Fin 1))

theorem tileRes5_apply (hO : Ok5 V) (c : Dev nD) (r : Fin 2048) :
    tileRes5 V hO c (ValueIdx.ix3 r (0 : Fin 1) (0 : Fin 1))
      = outAt5 V hO c ⟨32 * r.val + 31, lastPt_lt5 r.val r.isLt⟩ (ValueIdx.ix3 (0 : Fin 1) (0 : Fin 1) (0 : Fin 1)) := rfl

/-- The result block read at two names of one point. -/
theorem outAt5_congr (hO : Ok5 V) (c : Dev nD) {t t' : Fin (cfgM5 V hO).N} (h : t.val = t'.val) (j : S1x1x1.Idx) :
    outAt5 V hO c t j = outAt5 V hO c t' j := by
  obtain rfl : t = t' := Fin.ext h
  rfl

/-- What a write-back writes is the written row of `tileRes5`: the point is its sample's last feature `32 (t / 32) + 31`,
    and the block's one element is the row's. -/
theorem flushed5_4_eq (hO : Ok5 V) (c : Dev nD) (t : Fin (cfgM5 V hO).N) (hf : ((cfgM5 V hO).win 4).flush t = true) :
    (dat5 V hO c).flushed 4 t = (((cfgM5 V hO).win 4).blk t).view.read (Elt F) (tileRes5 V hO c) := by
  have h31 : t.val % 32 = 31 := (flush5_4_iff (adm5 V hO) t).mp hf
  show ((cfgM5 V hO).win 4).cut (grid5.coords t) ((dat5 V hO c).after 4 t) = _
  rw [after5_4]
  funext j
  have hj : (((cfgM5 V hO).win 4).xinj (grid5.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM5 V hO).win 4).blk t).view.emb j : S2048x1x1.Idx) (0 : Fin 3)).val + 31 := by
    have h : (j (0 : Fin 3)).val < 1 := (j (0 : Fin 3)).isLt
    show t.val = 32 * (((cfgM5 V hO).win 4).index t (0 : Fin 3) * 1 + 1 * (j (0 : Fin 3)).val) + 31
    rw [index5_4]
    show t.val = 32 * (t.val / 32 * 1 + 1 * (j (0 : Fin 3)).val) + 31
    omega
  show outAt5 V hO c t (((cfgM5 V hO).win 4).xinj (grid5.coords t) j) = tileRes5 V hO c ((((cfgM5 V hO).win 4).blk t).view.emb j)
  rw [hj]
  exact outAt5_congr V hO c hv _

/-- Every row of the result array is some write-back's block: row `r` is the block of point `32 r + 31`. -/
theorem cover5_4 (hO : Ok5 V) (i : S2048x1x1.Idx) :
    ∃ t : Fin (cfgM5 V hO).N, ((cfgM5 V hO).win 4).flush t = true ∧ i ∈ (((cfgM5 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt5 _ h0⟩, (flush5_4_iff (adm5 V hO) _).mpr (by show (32 * (i 0).val + 31) % 32 = 31; omega), ?_⟩
  have he : (((cfgM5 V hO).win 4).blk ⟨32 * (i 0).val + 31, lastPt_lt5 _ h0⟩).view.emb (ValueIdx.ix3 (0 : Fin 1) (0 : Fin 1) (0 : Fin 1)) = i := by
    refine (emb5_4 (adm5 V hO) ⟨32 * (i 0).val + 31, lastPt_lt5 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM5 V hO).win 4).blk ⟨32 * (i 0).val + 31, lastPt_lt5 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes5`. -/
theorem arrAt5_4 (hO : Ok5 V) (c : Dev nD) : (dat5 V hO c).arrAt 4 (cfgM5 V hO).N = tileRes5 V hO c :=
  (dat5 V hO c).arrAt_eq_of_cover 4 (tileRes5 V hO c) (fun t hf => flushed5_4_eq V hO c t hf) (fun i => cover5_4 V hO i)

end AtTable

end Cert.KernelIdeal.Hand

end
-- ==== Proof.R5Seg.lean ====
/-
  Tile 5's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 5's admissible contents and
  proof data is ten small facts (`Pinned5`); they hold of tile 5's own (`pinned_dat5`) and so of any family whose
  component 5 is tile 5's (`Pinned5.of_eq`).
-/
import proofs.«402893_j78554951844377_2_alg».proof.Proof.R5Acc
import proofs.«402893_j78554951844377_2_alg».proof.Proof.Family
import proofs.«402893_j78554951844377_2_alg».proof.Proof.Glue
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 5's contents and proof data -/

variable (Vin : (c : Dev nD) → (b : Ref sig .tc) → Buf (Elt F) ((c : Thread nD τ).loc b))

/-- The scratch operand owned whole at some contents is its buffer held at some contents. -/
theorem scratch5_eq (c : Dev nD) :
    (iprop(∃ d, owns (c : Thread nD τ) scM5 fullShare d) : sProp 𝕄)
      = iprop(∃ f : Buf (Elt F) ((c : Thread nD τ).loc cc5_scratch0), ((c : Thread nD τ).loc cc5_scratch0) ↦{fullShare} f) := by
  simp only [scM5, owns_whole]; try rfl

/-- What the record needs of pipeline 5's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned5 (Vx : Dev nD → Valuation τ sig (Elt F)) (a0 : (pcfgs (F := F) 5).Adm)
    (d0 : (c : Dev nD) → Dat τ (Elt F) Unit ℕ (UR sig nD τ) ℕ ((pcfgs (F := F) 5).at a0) c) : Prop where
  tbl : a0.1 = tbl5 Vin
  q : ∀ (c : Dev nD) w, (d0 c).q w = fullShare
  A : ∀ (c : Dev nD) w, (d0 c).A w = Vin c (Pipeline.arrRef spec5 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM5 fullShare d) ∗ Rest5 Vin c) : sProp 𝕄) ⊢ (d0 c).Φ 0
  phiOut : ∀ c : Dev nD, (d0 c).Φ (Fin.last _) ⊢ (iprop((∃ d, owns (c : Thread nD τ) scM5 fullShare d) ∗ Rest5 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 5).at a0).N = Vx c (Pipeline.arrRef spec5 w)

set_option maxHeartbeats 400000 in
/-- Tile 5's own contents and proof data have them: each field by unfolding the proof data; the last stage of the
    invariant is a later one (the grid has 65536 points), so it holds the scratch at the last point's contents. -/
theorem pinned_dat5 (hO : Ok5 Vin) (Vx : Dev nD → Valuation τ sig (Elt F))
    (hF : ∀ c w, (dat5 Vin hO c).arrAt w (cfgM5 Vin hO).N = Vx c (Pipeline.arrRef spec5 w)) :
    Pinned5 Vin Vx (adm5 Vin hO) (dat5 Vin hO) where
  tbl := rfl
  q c w := rfl
  A c w := A_eq5 Vin hO c w
  owed c t := rfl
  body c := (body_obligation5 Vin hO c).loose
  phiIn c := by
    rw [show (dat5 Vin hO c).Φ 0 = PhiS5 Vin hO c ((0 : Fin ((cfgM5 Vin hO).N + 1)).val) (Nat.le_of_lt_succ (0 : Fin ((cfgM5 Vin hO).N + 1)).isLt) from rfl,
      PhiS5_zero Vin hO c _ _ (Fin.val_zero _)]
  phiOut c := by
    have hN : (Fin.last (cfgM5 Vin hO).N).val ≠ 0 := by
      rw [Fin.val_last, show (cfgM5 Vin hO).N = grid5.N from rfl, N_5]; decide
    show PhiS5 Vin hO c (Fin.last (cfgM5 Vin hO).N).val (Nat.le_of_lt_succ (Fin.last (cfgM5 Vin hO).N).isLt) ⊢ _
    rw [PhiS5_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 5's. -/
theorem Pinned5.of_eq (hO : Ok5 Vin) {Vx : Dev nD → Valuation τ sig (Elt F)} {a0 : (pcfgs (F := F) 5).Adm}
    {d0 : (c : Dev nD) → Dat τ (Elt F) Unit ℕ (UR sig nD τ) ℕ ((pcfgs (F := F) 5).at a0) c}
    (ha : a0 = adm5 Vin hO) (hd : ∀ c, HEq (d0 c) (dat5 Vin hO c)) (h : Pinned5 Vin Vx (adm5 Vin hO) (dat5 Vin hO)) :
    Pinned5 Vin Vx a0 d0 := by
  subst ha
  obtain rfl : d0 = dat5 Vin hO := funext fun c => eq_of_heq (hd c)
  exact h

/-! ## The record -/

set_option backward.isDefEq.respectTransparency.types false in
set_option maxHeartbeats 1600000 in
/-- Tile 5's region over ANY family of pipelines whose component 5 is tile 5's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg5G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok5 Vin) (ha : a 5 = adm5 Vin hO) (hd : ∀ c, HEq (pdats 5 c) (dat5 Vin hO c))
    (hag : ∀ c w, V c (Proc.devRef .tc (Pipeline.arrRef spec5 w)) = Vin c (Pipeline.arrRef spec5 w))
    (hagT : ∀ c j, V c (Proc.devRef .tc (pre5.ref j)) = Vin c (pre5.ref j))
    (hF : ∀ c w, (dat5 Vin hO c).arrAt w (cfgM5 Vin hO).N = Vx c (Pipeline.arrRef spec5 w))
    (hrest : ∀ c b, b ∉ Finset.univ.image (Pipeline.arrRef spec5) → Vx c b = V c b) :
    Pipeline.RegionSeg (pcfgs (F := F)) a pdats () defs₀ Variants.none (fun _ => ∅) (fun _ _ => 0) 5 :=
  have hp : Pinned5 Vin Vx (a 5) (pdats 5) := Pinned5.of_eq Vin hO ha hd (pinned_dat5 Vin hO Vx hF)
  have htbl : ∀ c, (fun k => V c (Proc.devRef .tc ((pcfgs (F := F) 5).pre.ref k))) = (a 5).1 := fun c => by
    rw [hp.tbl]; funext k; exact (hagT c k).trans (V_pre5 Vin c k)
  { win := (launch5 (F := F)).win.to₀
    block_pos := (launch5 (F := F)).block_pos
    stage_whole := (launch5 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 5 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre5 c (fun _ => fullShare) (tbl5 Vin))
    Z := fun c => Pipeline.unscopedRestP (Ix := Unit) (Name := ℕ) (U := UR sig nD τ) (Lvl := ℕ) pre5 spec5 c (fun b => V c b)
    hentry := fun c => by
      rw [Pipeline.ownSems0_none]
      have hsplit := Pipeline.arrays_of_unscopedBufs (p := 5) (pcfgs (F := F)) a pdats (launch5 (F := F)).win (launch5 (F := F)).arr_whole c
        ((pdats 5 c).share_full (hp.q c)) (fun b => V c b) (fun w => (hp.A c w).trans (hag c w).symm)
      rw [Pipeline.unscopedBufs_held, Pipeline.unscopedRest_split (launch5 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 5).spec c : sProp 𝕄) = _ from scopedRest5_split c, hp.tbl]
      refine BIBase.Entails.trans ?_ (hp.phiIn c)
      rw [scratch5_eq]
      unfold Rest5
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 5).spec c : sProp 𝕄) = _ from scopedRest5_split c]
      refine BIBase.Entails.trans (hp.phiOut c) ?_
      rw [scratch5_eq]
      unfold Rest5
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 5) (pcfgs (F := F)) a (Ix := Unit) (Name := ℕ) (U := UR sig nD τ) (Lvl := ℕ)
        (launch5 (F := F)).win (launch5 (F := F)).arr_whole c pdats ((pdats 5 c).share_full (hp.q c))
        (fun b => V c b) (fun b => Vx c b) ((pdats 5 c).arrAt · (Pipeline.pin (pcfgs (F := F)) a 5).N) (hp.fin c) (hrest c)
      rw [Pipeline.unscopedBufs_held, Pipeline.unscopedRest_split (launch5 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 5's record over the assembled families, tile 5's components in slot 5. -/
def reg5 (hO : Ok5 Vin) (V Vx : Dev nD → Valuation τ sig (Elt F))
    (hag : ∀ c w, V c (Proc.devRef .tc (Pipeline.arrRef spec5 w)) = Vin c (Pipeline.arrRef spec5 w))
    (hagT : ∀ c j, V c (Proc.devRef .tc (pre5.ref j)) = Vin c (pre5.ref j))
    (hF : ∀ c w, (dat5 Vin hO c).arrAt w (cfgM5 Vin hO).N = Vx c (Pipeline.arrRef spec5 w))
    (hrest : ∀ c b, b ∉ Finset.univ.image (Pipeline.arrRef spec5) → Vx c b = V c b)
    (a0 : (pcfg0 (F := F)).Adm)
    (a1 : (pcfg1 (F := F)).Adm)
    (a2 : (pcfg2 (F := F)).Adm)
    (a3 : (pcfg3 (F := F)).Adm)
    (a4 : (pcfg4 (F := F)).Adm)
    (a6 : (pcfg6 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 a1 a2 a3 a4 (adm5 Vin hO) a6 a7)
      (pdatsOf a0 a1 a2 a3 a4 (adm5 Vin hO) a6 a7 d0 d1 d2 d3 d4 (dat5 Vin hO) d6 d7) () defs₀ Variants.none (fun _ => ∅) (fun _ _ => 0) 5 :=
  reg5G Vin V Vx _ _ hO rfl (fun _ => HEq.rfl) hag hagT hF hrest

/-- The thread state the record is entered from, -/
theorem reg5_pre (hO : Ok5 Vin) (V Vx : Dev nD → Valuation τ sig (Elt F)) (hag) (hagT) (hF) (hrest) (a0) (a1) (a2) (a3) (a4) (a6) (a7) (d0) (d1) (d2) (d3) (d4) (d6) (d7) (c : Dev nD) :
    (reg5 Vin hO V Vx hag hagT hF hrest a0 a1 a2 a3 a4 a6 a7 d0 d1 d2 d3 d4 d6 d7).pre c
      = iprop(StableHlo.held (c : Thread nD τ) (Pipeline.ucRefs τ sig) (V c) ∗ Rr (F := F) c) := rfl
/-- and the one it leaves. -/
theorem reg5_post (hO : Ok5 Vin) (V Vx : Dev nD → Valuation τ sig (Elt F)) (hag) (hagT) (hF) (hrest) (a0) (a1) (a2) (a3) (a4) (a6) (a7) (d0) (d1) (d2) (d3) (d4) (d6) (d7) (c : Dev nD) :
    (reg5 Vin hO V Vx hag hagT hF hrest a0 a1 a2 a3 a4 a6 a7 d0 d1 d2 d3 d4 d6 d7).post c
      = iprop(StableHlo.held (c : Thread nD τ) (Pipeline.ucRefs τ sig) (Vx c) ∗ Rr (F := F) c) := rfl

end Cert.KernelIdeal.Hand

end
-- ==== Proof.R5Agree.lean ====
import proofs.«402893_j78554951844377_2_alg».proof.Proof.KHostT5
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

/-! # Tile 5: what the region reads does not depend on what earlier regions left

The table, the embedding table, the three slices and the (not yet written) result array of tile 5 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree5_tbl : V15 m outs c main_v66 = V15 m outs' c main_v66 := by
  funext (j : S65536.Idx)
  obtain ⟨a, rfl⟩ : ∃ a : Fin 65536, j = ValueIdx.ix1 a := ⟨j 0, ValueIdx.eq_ix1 j⟩
  rw [tbl5_apply m outs c, tbl5_apply m outs' c]

theorem agree5_emb : V15 m outs c main_v34 = V15 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb5_apply m outs c, emb5_apply m outs' c]

theorem agree5_pa : V15 m outs c main_v67 = V15 m outs' c main_v67 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa5_apply m outs c, pa5_apply m outs' c]

theorem agree5_w : V15 m outs c main_v68 = V15 m outs' c main_v68 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w5_apply m outs c, w5_apply m outs' c]

theorem agree5_b : V15 m outs c main_v69 = V15 m outs' c main_v69 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b5_apply m outs c, b5_apply m outs' c]

/-- The result array has not been written when the region is entered: it holds its launch contents. -/
theorem entry5_out : V15 m outs c main_v70 = V5 m c main_v70 :=
  (V15_of m outs c main_v70 (by decide)).trans ((V14_of m outs c main_v70 (by decide)).trans ((V13_of m outs c main_v70 (by decide)).trans ((V12_of m outs c main_v70 (by decide)).trans ((V11_of m outs c main_v70 (by decide)).trans ((V10_of m outs c main_v70 (by decide)).trans ((V9_of m outs c main_v70 (by decide)).trans ((V8_of m outs c main_v70 (by decide)).trans ((V7_of m outs c main_v70 (by decide)).trans (V6_of m outs c main_v70 (by decide))))))))))

theorem agree5_out : V15 m outs c main_v70 = V15 m outs' c main_v70 :=
  (entry5_out m outs c).trans (entry5_out m outs' c).symm

end Cert.KernelIdeal.Hand

end
-- ==== Proof.R6Run.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R0Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 6: the kernel body at one grid point

Tile 6's kernel function is tile 0's (the same body, the same payloads and conditions under other names), so its three
runs are tile 0's. -/

/-- The body's first condition: the feature coordinate is 0. -/
abbrev cond6_0 (i : grid6.Coords) : Prop := (Scalar.cmpi .ne (Scalar.extui (Scalar.cmpi .eq (BitVec.ofNat 32 (i 1).val) 0#32)) 0#32) = 1#1
/-- The body's second condition: the feature coordinate is 31. -/
abbrev cond6_1 (i : grid6.Coords) : Prop := k6_cond2 i = 1#1

/-- A MIDDLE feature: the scratch at `acc` ends at `acc + row`. -/
theorem run6_B (c : Dev nD) (i : grid6.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond6_0 i) (hc1 : ¬cond6_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k6_pay2 acc x3)) -∗ K ⟨⟩))
      ⊢ wp frame (wpE (defs₀ (F := F)) Variants.none c none) E (cc6__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run6_A (c : Dev nD) (i : grid6.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond6_0 i) (hc1 : ¬cond6_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k6_pay2 (k6_pay1 (F := F)) x3)) -∗ K ⟨⟩))
      ⊢ wp frame (wpE (defs₀ (F := F)) Variants.none c none) E (cc6__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run6_C (c : Dev nD) (i : grid6.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond6_0 i) (hc1 : cond6_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k6_pay3 (k6_pay2 acc x3) x4 x5 x6)
            ∗ owns (c : Thread nD τ) arg8 fullShare (k6_pay2 acc x3)) -∗ K ⟨⟩))
      ⊢ wp frame (wpE (defs₀ (F := F)) Variants.none c none) E (cc6__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.KernelIdeal.Hand

end
-- ==== Proof.R6Base.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R6Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 6: the pipeline at the table the region reads, its blocks and staging buffers

Everything here is stated at a PARAMETER `V`: the contents of the core's buffers when the region is entered. The
region's prefetched table is read off `V`; under the side condition that every word of it names a row of the embedding
table (`Ok6`) the pipeline is pinned at it, and each window's block at a grid point is a restriction of its array. -/

variable (V : (c : Dev nD) → (b : Ref sig .tc) → Buf (Elt F) ((c : Thread nD τ).loc b))

/-- The table's contents when the region is entered (one device). -/
def tbl6 : pre6.Contents (Elt F) := fun j => V (0 : Dev nD) (pre6.ref j)
/-- On every device the table holds those contents (there is one device). -/
theorem V_pre6 (c : Dev nD) (j : Fin 1) : V c (pre6.ref j) = tbl6 V j := by
  obtain rfl : c = 0 := Subsingleton.elim _ _; rfl
/-- Every block the table names lies inside the embedding table. -/
abbrev Ok6 : Prop := ok6 (F := F) (tbl6 V)
/-- The table as admissible contents, and the pipeline pinned at it. -/
abbrev adm6 (hO : Ok6 V) : (pcfg6 (F := F)).Adm := ⟨tbl6 V, hO⟩
abbrev cfgM6 (hO : Ok6 V) : Pipeline.Cfg sig Λ₀ := cfg6 (adm6 V hO)

/-- Window `w`'s block at point `t`, read off its array as the region finds it. -/
def iblk6 (hO : Ok6 V) (c : Dev nD) (w : Fin (cfgM6 V hO).W) (t : Fin (cfgM6 V hO).N) :
    (((cfgM6 V hO).win w).xblock ((cfgM6 V hO).grid.coords t)).Idx → Elt F ((cfgM6 V hO).win w).elt :=
  (((cfgM6 V hO).win w).blk t).view.read (Elt F) (V c (Pipeline.arrRef spec6 w))

/-- An input window's current staging buffer holds its block at every point, fetched there or not, for any proof
    data whose array is `V`'s and whose body leaves the block in place. -/
theorem before6_0_of (hO : Ok6 V) {c : Dev nD} (dat : Dat τ (Elt F) Unit ℕ (UR sig nD τ) ℕ (cfgM6 V hO) c) (hA : dat.A 0 = V c (Pipeline.arrRef spec6 0))
    (hafter : ∀ t, dat.after 0 t = iblk6 V hO c 0 t) (t : Fin (cfgM6 V hO).N) (d) : dat.before 0 t d = iblk6 V hO c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of (hO : Ok6 V) {c : Dev nD} (dat : Dat τ (Elt F) Unit ℕ (UR sig nD τ) ℕ (cfgM6 V hO) c) (hA : dat.A 1 = V c (Pipeline.arrRef spec6 1))
    (hafter : ∀ t, dat.after 1 t = iblk6 V hO c 1 t) (t : Fin (cfgM6 V hO).N) (d) : dat.before 1 t d = iblk6 V hO c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of (hO : Ok6 V) {c : Dev nD} (dat : Dat τ (Elt F) Unit ℕ (UR sig nD τ) ℕ (cfgM6 V hO) c) (hA : dat.A 2 = V c (Pipeline.arrRef spec6 2))
    (hafter : ∀ t, dat.after 2 t = iblk6 V hO c 2 t) (t : Fin (cfgM6 V hO).N) (d) : dat.before 2 t d = iblk6 V hO c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of (hO : Ok6 V) {c : Dev nD} (dat : Dat τ (Elt F) Unit ℕ (UR sig nD τ) ℕ (cfgM6 V hO) c) (hA : dat.A 3 = V c (Pipeline.arrRef spec6 3))
    (hafter : ∀ t, dat.after 3 t = iblk6 V hO c 3 t) (t : Fin (cfgM6 V hO).N) (d) : dat.before 3 t d = iblk6 V hO c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Each window's current staging memref at point `t`, as the pipeline passes it, and its wholeness. -/
abbrev ms6_0 (hO : Ok6 V) (t : Fin (cfgM6 V hO).N) : Memref sig .tc .vmem S1x1x128 .f32 := spec6_0.stage ((cfgM6 V hO).slots t 0)
abbrev hs6_0 (hO : Ok6 V) (t : Fin (cfgM6 V hO).N) : (ms6_0 V hO t).IsWhole := hstage6_0 (((cfgM6 V hO).slots t 0).cast nbuf6_0)
abbrev ms6_1 (hO : Ok6 V) (t : Fin (cfgM6 V hO).N) : Memref sig .tc .vmem S1x1x128 .f32 := spec6_1.stage ((cfgM6 V hO).slots t 1)
abbrev hs6_1 (hO : Ok6 V) (t : Fin (cfgM6 V hO).N) : (ms6_1 V hO t).IsWhole := hstage6_1 (((cfgM6 V hO).slots t 1).cast nbuf6_1)
abbrev ms6_2 (hO : Ok6 V) (t : Fin (cfgM6 V hO).N) : Memref sig .tc .vmem S1x1x128 .f32 := spec6_2.stage ((cfgM6 V hO).slots t 2)
abbrev hs6_2 (hO : Ok6 V) (t : Fin (cfgM6 V hO).N) : (ms6_2 V hO t).IsWhole := hstage6_2 (((cfgM6 V hO).slots t 2).cast nbuf6_2)
abbrev ms6_3 (hO : Ok6 V) (t : Fin (cfgM6 V hO).N) : Memref sig .tc .vmem S1x1x1 .f32 := spec6_3.stage ((cfgM6 V hO).slots t 3)
abbrev hs6_3 (hO : Ok6 V) (t : Fin (cfgM6 V hO).N) : (ms6_3 V hO t).IsWhole := hstage6_3 (((cfgM6 V hO).slots t 3).cast nbuf6_3)
abbrev ms6_4 (hO : Ok6 V) (t : Fin (cfgM6 V hO).N) : Memref sig .tc .vmem S1x1x1 .f32 := spec6_4.stage ((cfgM6 V hO).slots t 4)
abbrev hs6_4 (hO : Ok6 V) (t : Fin (cfgM6 V hO).N) : (ms6_4 V hO t).IsWhole := hstage6_4 (((cfgM6 V hO).slots t 4).cast nbuf6_4)
/-- The scratch operand: a whole scoped buffer of the kernel's own. -/
abbrev scM6 : Memref sig .tc .vmem S1x1x128 .f32 := Memref.whole cc6_scratch0
/-- The table as the body is handed it. -/
abbrev tbM6 : Memref sig .tc .smem S65536 .i32 := Memref.whole main_v72

/-- The kernel body at point `t`, on what the pipeline calls it with. -/
abbrev bodyAt6 (a : (pcfg6 (F := F)).Adm) (t : Fin (cfg6 a).N) : Prog (TpuEff nD τ sig (Elt F) Λ₀ .tc) PUnit :=
  cc6__gather_kernel (grid6.coords t) (Memref.whole main_v72) (Memref.isWhole_whole _) (spec6_0.stage ((cfg6 a).slots t 0)) (hstage6_0 (((cfg6 a).slots t 0).cast nbuf6_0)) (spec6_1.stage ((cfg6 a).slots t 1)) (hstage6_1 (((cfg6 a).slots t 1).cast nbuf6_1)) (spec6_2.stage ((cfg6 a).slots t 2)) (hstage6_2 (((cfg6 a).slots t 2).cast nbuf6_2)) (spec6_3.stage ((cfg6 a).slots t 3)) (hstage6_3 (((cfg6 a).slots t 3).cast nbuf6_3)) (spec6_4.stage ((cfg6 a).slots t 4)) (hstage6_4 (((cfg6 a).slots t 4).cast nbuf6_4)) (Memref.whole cc6_scratch0) (Memref.isWhole_whole _)

/-- Off the last feature the result window is idle: the body stores nothing into it. -/
theorem idleAt6_4 (a : (pcfg6 (F := F)).Adm) (i : grid6.Coords) (h : ¬cond6_1 i) : (cfg6 a).idle 4 i = true := by
  show (!(k6_cond2 i == 1#1)) = true
  simp only [Bool.not_eq_true', beq_eq_false_iff_ne, ne_eq]; exact h
/-- On the last feature it is live. -/
theorem liveAt6_4 (a : (pcfg6 (F := F)).Adm) (i : grid6.Coords) (h : cond6_1 i) : (cfg6 a).idle 4 i = false := by
  show (!(k6_cond2 i == 1#1)) = false
  simp only [Bool.not_eq_false', beq_iff_eq]; exact h
/-- The input windows are never idle. -/
theorem liveAt6_0 (a : (pcfg6 (F := F)).Adm) (i : grid6.Coords) : (cfg6 a).idle 0 i = false := rfl
theorem liveAt6_1 (a : (pcfg6 (F := F)).Adm) (i : grid6.Coords) : (cfg6 a).idle 1 i = false := rfl
theorem liveAt6_2 (a : (pcfg6 (F := F)).Adm) (i : grid6.Coords) : (cfg6 a).idle 2 i = false := rfl
theorem liveAt6_3 (a : (pcfg6 (F := F)).Adm) (i : grid6.Coords) : (cfg6 a).idle 3 i = false := rfl

end Cert.KernelIdeal.Hand

end
-- ==== Proof.KHostT6.lean ====
/-
  Tile 6's five operands, entry by entry: what proof/Proof/KHost.lean says of tile 0, for the rows
  `[2048 · 6, 2048 · 6 + 2048)`. The arrays the tile's stretch reads were written before the first kernel region, and
  neither a region (each writes its own result array only) nor an earlier tile's stretch (each writes its own cuts
  only) touches them since.
-/
import proofs.«402893_j78554951844377_2_alg».proof.Proof.Gen.KernelIdeal.Regions
import proofs.«402893_j78554951844377_2_alg».proof.Proof.Spec
import proofs.«402893_j78554951844377_2_alg».proof.Proof.KHost
import Idealize.ShloMosaic.Lib.StableHlo.Run
import Idealize.ShloMosaic.Lib.Pipeline.Value
import Idealize.ShloMosaic.Lib.ValueLayout
import Idealize.ShloMosaic.Lib.ValueIdx

set_option maxRecDepth 1396

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]
variable (m : (ℓ : Loc nD τ sig) → Buf (Elt F) ℓ) (outs : Outs (F := F))

/-! ## Tile 6

Tile 6 (samples `2048 · 6 + r`, `r < 2048`) is entered at `V17 m outs c`: the stretch `hostOps6` cuts the
tile's rows out of the four host arrays (offset `2048 · 6` on the leading axis) and flattens the rows of gathered
indices into the tile's prefetched table, entry `j` of which is therefore row `j / 32`, feature `j % 32`. -/

section Tile6

/-- The arrays written before the first region are, at tile 6's entry, what they were at `V5 m c`: no region and no
    stretch in between writes them. -/
theorem ent6_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W)
    (h12 : r ∉ ([main_v58] : List (Ref sig .tc))) (h13 : r ∉ hostOps4_W)
    (h14 : r ∉ ([main_v64] : List (Ref sig .tc))) (h15 : r ∉ hostOps5_W)
    (h16 : r ∉ ([main_v70] : List (Ref sig .tc))) (h17 : r ∉ hostOps6_W) :
    V17 m outs c r = V5 m c r :=
  (V17_of m outs c r h17).trans <|
    (V16_of m outs c r h16).trans <|
    (V15_of m outs c r h15).trans <|
    (V14_of m outs c r h14).trans <|
    (V13_of m outs c r h13).trans <|
    (V12_of m outs c r h12).trans <|
    (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 6, 2048 · 6 + 2048)` of `main_v8`, flattened. -/
theorem tbl6_read (j : Fin 65536) :
    StableHlo.after hostOps6 W main_v72 (ValueIdx.ix1 j)
      = StableHlo.after hostOps6 W main_v8
          (ValueIdx.ix2 (⟨2048 * 6 + j.val / 32, by omega⟩ : Fin 16384) (⟨j.val % 32, by omega⟩ : Fin 32)) := by
  dsimp only [hostOps6]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 6 + j.val / 32 = _ + j.val / 32; omega)

/-- The tile's phase-bias rows: the rows `[2048 · 6, 2048 · 6 + 2048)` of `main_v31`. -/
theorem pa6_read (r : Fin 2048) (l : Fin 128) :
    StableHlo.after hostOps6 W main_v73 (ValueIdx.ix3 r 0 l)
      = StableHlo.after hostOps6 W main_v31 (ValueIdx.ix3 (⟨2048 * 6 + r.val, by omega⟩ : Fin 16384) 0 l) := by
  dsimp only [hostOps6]; open StableHlo in after_results_simp
  exact slice3_axis0_apply _ _ _ r 0 l _ (by show 2048 * 6 + r.val = _ + r.val; omega)

/-- The tile's head weights: the same rows of `main_v32`. -/
theorem w6_read (r : Fin 2048) (l : Fin 128) :
    StableHlo.after hostOps6 W main_v74 (ValueIdx.ix3 r 0 l)
      = StableHlo.after hostOps6 W main_v32 (ValueIdx.ix3 (⟨2048 * 6 + r.val, by omega⟩ : Fin 16384) 0 l) := by
  dsimp only [hostOps6]; open StableHlo in after_results_simp
  exact slice3_axis0_apply _ _ _ r 0 l _ (by show 2048 * 6 + r.val = _ + r.val; omega)

/-- The tile's head biases: the same rows of `main_v33`. -/
theorem b6_read (r : Fin 2048) :
    StableHlo.after hostOps6 W main_v75 (ValueIdx.ix3 r 0 0)
      = StableHlo.after hostOps6 W main_v33 (ValueIdx.ix3 (⟨2048 * 6 + r.val, by omega⟩ : Fin 16384) 0 0) := by
  dsimp only [hostOps6]; open StableHlo in after_results_simp
  exact slice3_axis0_apply _ _ _ r 0 0 _ (by show 2048 * 6 + r.val = _ + r.val; omega)

end Stretch

/-- Entry `j` of tile 6's prefetched table is the gathered row number of sample `2048 · 6 + j / 32`, feature `j % 32`. -/
theorem tbl6_apply (c : Dev nD) (j : Fin 65536) :
    V17 m outs c main_v72 (ValueIdx.ix1 j)
      = Spec.gidxOf (m ((c : Thread nD τ).loc main_arg0)) (m ((c : Thread nD τ).loc main_arg1))
          (m ((c : Thread nD τ).loc main_arg2))
          (ValueIdx.ix2 (⟨2048 * 6 + j.val / 32, by omega⟩ : Fin 16384) (⟨j.val % 32, by omega⟩ : Fin 32)) :=
  (tbl6_read (V16 m outs c) j).trans <| (congrFun (ent6_of m outs c main_v8 (by decide) (by decide) (by decide) (by decide) (by decide) (by decide) (by decide) (by decide) (by decide) (by decide) (by decide) (by decide)) _).trans <| congrFun (V5_gidx m c) _

/-- The embedding table as tile 6 sees it: row `ρ`, lane `l` of the argument. -/
theorem emb6_apply (c : Dev nD) (ρ : Fin 786432) (l : Fin 128) :
    V17 m outs c main_v34 (ValueIdx.ix3 ρ 0 l) = m ((c : Thread nD τ).loc main_arg3) (ValueIdx.ix2 ρ l) :=
  (congrFun (ent6_of m outs c main_v34 (by decide) (by decide) (by decide) (by decide) (by decide) (by decide) (by decide) (by decide) (by decide) (by decide) (by decide) (by decide)) _).trans <| V5_emb_apply m c ρ l

/-- Row `r` of tile 6's phase-bias operand is sample `2048 · 6 + r`'s phase-bias row. -/
theorem pa6_apply (c : Dev nD) (r : Fin 2048) (l : Fin 128) :
    V17 m outs c main_v73 (ValueIdx.ix3 r 0 l)
      = Spec.paSelOf (m ((c : Thread nD τ).loc main_arg1)) (m ((c : Thread nD τ).loc main_arg4))
          (ValueIdx.ix2 (⟨2048 * 6 + r.val, by omega⟩ : Fin 16384) l) :=
  (pa6_read (V16 m outs c) r l).trans <| (congrFun (ent6_of m outs c main_v31 (by decide) (by decide) (by decide) (by decide) (by decide) (by decide) (by decide) (by decide) (by decide) (by decide) (by decide) (by decide)) _).trans <| V5_pa_apply m c _ l

/-- Row `r` of tile 6's head-weight operand is sample `2048 · 6 + r`'s head weights. -/
theorem w6_apply (c : Dev nD) (r : Fin 2048) (l : Fin 128) :
    V17 m outs c main_v74 (ValueIdx.ix3 r 0 l)
      = Spec.wSelOf (m ((c : Thread nD τ).loc main_arg1)) (m ((c : Thread nD τ).loc main_arg5))
          (ValueIdx.ix2 (⟨2048 * 6 + r.val, by omega⟩ : Fin 16384) l) :=
  (w6_read (V16 m outs c) r l).trans <| (congrFun (ent6_of m outs c main_v32 (by decide) (by decide) (by decide) (by decide) (by decide) (by decide) (by decide) (by decide) (by decide) (by decide) (by decide) (by decide)) _).trans <| V5_w_apply m c _ l

/-- Entry `r` of tile 6's head-bias operand is sample `2048 · 6 + r`'s head bias. -/
theorem b6_apply (c : Dev nD) (r : Fin 2048) :
    V17 m outs c main_v75 (ValueIdx.ix3 r 0 0)
      = Spec.bSelOf (m ((c : Thread nD τ).loc main_arg1)) (m ((c : Thread nD τ).loc main_arg6))
          (ValueIdx.ix1 (⟨2048 * 6 + r.val, by omega⟩ : Fin 16384)) :=
  (b6_read (V16 m outs c) r).trans <| (congrFun (ent6_of m outs c main_v33 (by decide) (by decide) (by decide) (by decide) (by decide) (by decide) (by decide) (by decide) (by decide) (by decide) (by decide) (by decide)) _).trans <| V5_b_apply m c _

end Tile6

end Cert.KernelIdeal.Hand
-- ==== Proof.R6Ok.lean ====
/-
  Tile 6: the table the region reads, and the pipeline's side condition on it from the range fact.

  Region 6 is entered with the buffers at the valuation after the host stretch that cuts tile 6's operands. Its prefetched table then
  holds, at flat position `32·i₀ + i₁`, the gathered row number of sample `2048·6 + i₀`, feature `i₁`. When every gathered
  row number is below 786432 (the range fact), every word of the table is, which is the side condition under which the
  pipeline is pinned at the table.
-/
import proofs.«402893_j78554951844377_2_alg».proof.Proof.Gen.KernelIdeal.Regions
import proofs.«402893_j78554951844377_2_alg».proof.Proof.Spec
import proofs.«402893_j78554951844377_2_alg».proof.Proof.R6Base
import proofs.«402893_j78554951844377_2_alg».proof.Proof.OkTablesT
import proofs.«402893_j78554951844377_2_alg».proof.Proof.KHostT6
import proofs.«402893_j78554951844377_2_alg».proof.Proof.TileLib
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]

/-- The buffers when region 6 is entered: the valuation after the host stretch that cuts tile 6's operands. -/
abbrev V6in (m : (ℓ : Loc nD τ sig) → Buf (Elt F) ℓ) : (c : Dev nD) → (b : Ref sig .tc) → Buf (Elt F) ((c : Thread nD τ).loc b) :=
  fun c b => V17 m (outsL m) c b

variable (m : (ℓ : Loc nD τ sig) → Buf (Elt F) ℓ)

/-- The table word read at grid point `(i₀, i₁)` is the gathered row number of sample `2048·6 + i₀`, feature `i₁`: the
    word sits at flat position `32·i₀ + i₁`, whose quotient and remainder by 32 are `i₀` and `i₁`. -/
theorem tword6_V6in (c : Dev nD) (i : grid6.Coords) :
    tword6 (tbl6 (V6in m)) i
      = Spec.gidxOf (m ((c : Thread nD τ).loc main_arg0)) (m ((c : Thread nD τ).loc main_arg1)) (m ((c : Thread nD τ).loc main_arg2))
          (ValueIdx.ix2 (⟨2048 * 6 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V6in m 0 main_v72 (ValueIdx.ix1 ⟨32 * (i 0).val + (i 1).val, pos_lt6 i⟩) = _
  refine (tbl6_apply m (outsL m) 0 ⟨32 * (i 0).val + (i 1).val, pos_lt6 i⟩).trans ?_
  exact congrArg _ (ix2_congr (by show 2048 * 6 + (32 * (i 0).val + (i 1).val) / 32 = 2048 * 6 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok6_of_inRange (c : Dev nD)
    (hin : Spec.InRange (Spec.gidxOf (m ((c : Thread nD τ).loc main_arg0)) (m ((c : Thread nD τ).loc main_arg1)) (m ((c : Thread nD τ).loc main_arg2)))) :
    Ok6 (V6in m) :=
  ok6_of (tbl6 (V6in m)) fun i => by rw [tword6_V6in m c i]; exact hin _ _

end Cert.KernelIdeal.Hand

end
-- ==== Proof.R6Grid.lean ====
import proofs.«402893_j78554951844377_2_alg».proof.Proof.R6Run
import Idealize.ShloMosaic.Lib.Pipeline.Kit
import Mathlib.Data.Fin.VecNotation

noncomputable section

namespace Cert.KernelIdeal.Hand

open Cert.KernelIdeal Cert.KernelIdeal.Gen
open Idealize.ShloMosaic
open Idealize.ShloMosaic.Pipeline (Cfg Window)

variable {F : FTy → Type} [FloatOps F]

/-! # Tile 6: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride6_0 : grid6.stride 0 = 32 := by decide
/-- The feature coordinate changes at every point. -/
theorem stride6_1 : grid6.stride 1 = 1 := by decide

/-- The sample coordinate of point `t` is `t / 32`: the quotient is below 2048, so reducing it modulo the
    axis's bound changes nothing. -/
theorem coords6_val0 (t : Fin grid6.N) : ((grid6.coords t) 0).val = t.val / 32 := by
  have ht : t.val < 65536 := N_6 ▸ t.isLt
  show t.val / grid6.stride 0 % 2048 = t.val / 32
  rw [stride6_0]; omega

/-- The feature coordinate of point `t` is `t % 32`. -/
theorem coords6_val1 (t : Fin grid6.N) : ((grid6.coords t) 1).val = t.val % 32 := by
  show t.val / grid6.stride 1 % 32 = t.val % 32
  rw [stride6_1, Nat.div_one]

/-- The first condition holds exactly at feature 0: checked at each of the 32 values of the coordinate. -/
theorem cond6_0_iff (i : grid6.Coords) : cond6_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond6_1_iff (i : grid6.Coords) : cond6_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond6_0_first (t : Fin grid6.N) (h : t.val = 0) : cond6_0 (grid6.coords t) := by
  rw [cond6_0_iff, coords6_val1, h]

/-- No feature is both the first and the last. -/
theorem not_both6 (i : grid6.Coords) : cond6_0 i → cond6_1 i → False := by
  rw [cond6_0_iff, cond6_1_iff]; omega

/-- A sample number, made a 32-bit word and read back, is itself. -/
private theorem toNat_ofNat_sample (t : Fin grid6.N) : (BitVec.ofNat 32 ((grid6.coords t) 0).val).toNat = t.val / 32 := by
  have ht : t.val < 65536 := N_6 ▸ t.isLt
  rw [coords6_val0, BitVec.toNat_ofNat, Nat.mod_eq_of_lt (by omega)]

/-- Window 1's block at point `t` is the one of sample `t / 32`. -/
theorem index6_1 (a : (pcfg6 (F := F)).Adm) (t : Fin (cfg6 a).N) : ((cfg6 a).win 1).index t = ![t.val / 32, 0, 0] := by
  show (![(BitVec.ofNat 32 ((grid6.coords t) 0).val).toNat, (0#32).toNat, (0#32).toNat] : Fin 3 → ℕ) = _
  rw [toNat_ofNat_sample]; rfl
/-- Window 2's block at point `t` is the one of sample `t / 32`. -/
theorem index6_2 (a : (pcfg6 (F := F)).Adm) (t : Fin (cfg6 a).N) : ((cfg6 a).win 2).index t = ![t.val / 32, 0, 0] := by
  show (![(BitVec.ofNat 32 ((grid6.coords t) 0).val).toNat, (0#32).toNat, (0#32).toNat] : Fin 3 → ℕ) = _
  rw [toNat_ofNat_sample]; rfl
/-- Window 3's block at point `t` is the one of sample `t / 32`. -/
theorem index6_3 (a : (pcfg6 (F := F)).Adm) (t : Fin (cfg6 a).N) : ((cfg6 a).win 3).index t = ![t.val / 32, 0, 0] := by
  show (![(BitVec.ofNat 32 ((grid6.coords t) 0).val).toNat, (0#32).toNat, (0#32).toNat] : Fin 3 → ℕ) = _
  rw [toNat_ofNat_sample]; rfl
/-- The output window's block at point `t` is the one of sample `t / 32`. -/
theorem index6_4 (a : (pcfg6 (F := F)).Adm) (t : Fin (cfg6 a).N) : ((cfg6 a).win 4).index t = ![t.val / 32, 0, 0] := by
  show (![(BitVec.ofNat 32 ((grid6.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush6_4_iff (a : (pcfg6 (F := F)).Adm) (t : Fin (cfg6 a).N) : ((cfg6 a).win 4).flush t = true ↔ t.val % 32 = 31 := by
  have hN : (cfg6 a).N = 65536 := N_6
  have ht : t.val < 65536 := hN ▸ t.isLt
  have hout : ((cfg6 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index6_4, index6_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg6 a).N := Nat.lt_of_lt_of_eq (by omega : t.val + 1 < 65536) hN.symm
      refine Or.inr ⟨hlt, ?_⟩
      rw [index6_4, index6_4]
      have hne' : (t.val + 1) / 32 ≠ t.val / 32 := by omega
      exact (vec3_ne_iff _ _).mpr hne'

/-- At a sample's last feature the output block is written back. -/
theorem flush6_4 (a : (pcfg6 (F := F)).Adm) (t : Fin (cfg6 a).N) (h : cond6_1 (grid6.coords t)) : ((cfg6 a).win 4).flush t = true := by
  rw [flush6_4_iff, ← coords6_val1]; exact (cond6_1_iff _).mp h

/-- At any other feature the output block stays. -/
theorem noFlush6_4 (a : (pcfg6 (F := F)).Adm) (t : Fin (cfg6 a).N) (h : ¬cond6_1 (grid6.coords t)) : ((cfg6 a).win 4).flush t = false := by
  rw [← Bool.not_eq_true, flush6_4_iff, ← coords6_val1]; exact fun e => h ((cond6_1_iff _).mpr e)

end Cert.KernelIdeal.Hand

end
-- ==== Proof.R6Acc.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R6Base
import proofs.«402893_j78554951844377_2_alg».proof.Proof.R6Grid
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 6: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow6 (hO : Ok6 V) (c : Dev nD) (t : Fin (cfgM6 V hO).N) : Vec F S1x1x128 .f32 := iblk6 V hO c 0 t
abbrev xpa6 (hO : Ok6 V) (c : Dev nD) (t : Fin (cfgM6 V hO).N) : Vec F S1x1x128 .f32 := iblk6 V hO c 1 t
abbrev xw6 (hO : Ok6 V) (c : Dev nD) (t : Fin (cfgM6 V hO).N) : Vec F S1x1x128 .f32 := iblk6 V hO c 2 t
abbrev xb6 (hO : Ok6 V) (c : Dev nD) (t : Fin (cfgM6 V hO).N) : Vec F S1x1x1 .f32 := iblk6 V hO c 3 t

/-- THE ACCUMULATION: the scratch after the body at position `n`. -/
def accAt6 (hO : Ok6 V) (c : Dev nD) : (n : ℕ) → n < (cfgM6 V hO).N → Vec F S1x1x128 .f32
  | 0, hn => k6_pay2 (k6_pay1 (F := F)) (xrow6 V hO c ⟨0, hn⟩)
  | n + 1, hn =>
    if cond6_0 (grid6.coords ⟨n + 1, hn⟩) then k6_pay2 (k6_pay1 (F := F)) (xrow6 V hO c ⟨n + 1, hn⟩)
    else k6_pay2 (accAt6 hO c n (Nat.lt_of_succ_lt hn)) (xrow6 V hO c ⟨n + 1, hn⟩)

/-- At a sample's first feature the scratch restarts from zero. -/
theorem accAt6_A (hO : Ok6 V) (c : Dev nD) (t : Fin (cfgM6 V hO).N) (h0 : cond6_0 (grid6.coords t)) :
    accAt6 V hO c t.val t.isLt = k6_pay2 (k6_pay1 (F := F)) (xrow6 V hO c t) := by
  obtain ⟨n, hn⟩ := t
  cases n with
  | zero => rfl
  | succ n => exact if_pos h0

/-- Elsewhere it adds the row to what the point before left. -/
theorem accAt6_B (hO : Ok6 V) (c : Dev nD) (t : Fin (cfgM6 V hO).N) (h0 : ¬cond6_0 (grid6.coords t)) (hz : t.val ≠ 0) :
    accAt6 V hO c t.val t.isLt = k6_pay2 (accAt6 V hO c (t.val - 1) (by omega)) (xrow6 V hO c t) := by
  obtain ⟨n, hn⟩ := t
  cases n with
  | zero => exact absurd rfl hz
  | succ n => exact if_neg h0

/-- The sample's result as the body computes it at a point (read at the last feature). -/
def outAt6 (hO : Ok6 V) (c : Dev nD) (t : Fin (cfgM6 V hO).N) : Vec F S1x1x1 .f32 :=
  k6_pay3 (accAt6 V hO c t.val t.isLt) (xpa6 V hO c t) (xw6 V hO c t) (xb6 V hO c t)

/-- What rides along unread: the other scoped buffers, the generator register, the table. -/
def Rest6 (c : Dev nD) : sProp 𝕄 :=
  iprop(Pipeline.scopedRestBut (Ix := Unit) (Name := ℕ) (U := UR sig nD τ) (Lvl := ℕ) (Val := Elt F) spec6 c [cc6_scratch0]
    ∗ (∃ r, prngReg c r) ∗ Pipeline.prefHeld (Ix := Unit) (Name := ℕ) (U := UR sig nD τ) (Lvl := ℕ) pre6 c (fun _ => fullShare) (tbl6 V))

/-- The region invariant before position `n`: the scratch at anything before the first point, afterwards at what
    the point before left. -/
def PhiS6 (hO : Ok6 V) (c : Dev nD) : (n : ℕ) → n ≤ (cfgM6 V hO).N → sProp 𝕄
  | 0, _ => iprop((∃ d, owns (c : Thread nD τ) scM6 fullShare d) ∗ Rest6 V c)
  | n + 1, hn => iprop(owns (c : Thread nD τ) scM6 fullShare (accAt6 V hO c n hn) ∗ Rest6 V c)

theorem PhiS6_zero (hO : Ok6 V) (c : Dev nD) (n : ℕ) (h : n ≤ (cfgM6 V hO).N) (hz : n = 0) :
    PhiS6 V hO c n h = iprop((∃ d, owns (c : Thread nD τ) scM6 fullShare d) ∗ Rest6 V c) := by
  subst hz; rfl
theorem PhiS6_succ (hO : Ok6 V) (c : Dev nD) (n : ℕ) (hn : n < (cfgM6 V hO).N) :
    PhiS6 V hO c (n + 1) hn = iprop(owns (c : Thread nD τ) scM6 fullShare (accAt6 V hO c n hn) ∗ Rest6 V c) := rfl
theorem PhiS6_pos (hO : Ok6 V) (c : Dev nD) (n : ℕ) (h : n ≤ (cfgM6 V hO).N) (hz : n ≠ 0) :
    PhiS6 V hO c n h = iprop(owns (c : Thread nD τ) scM6 fullShare (accAt6 V hO c (n - 1) (by omega)) ∗ Rest6 V c) := by
  cases n with
  | zero => exact absurd rfl hz
  | succ n => rfl

/-- The proof data of the tile's pipeline on core `c`: the arrays as the region finds them; after the body each input's
    buffer at its block and the result's at `outAt6`; the invariant `PhiS6`; nothing owed; full shares. -/
def dat6 (hO : Ok6 V) (c : Dev nD) : Dat τ (Elt F) Unit ℕ (UR sig nD τ) ℕ (cfgM6 V hO) c where
  A w := V c (Pipeline.arrRef spec6 w)
  after w t := match w with
    | ⟨0, _⟩ => iblk6 V hO c 0 t
    | ⟨1, _⟩ => iblk6 V hO c 1 t
    | ⟨2, _⟩ => iblk6 V hO c 2 t
    | ⟨3, _⟩ => iblk6 V hO c 3 t
    | ⟨4, _⟩ => outAt6 V hO c t
  Φ t := PhiS6 V hO c t.val (Nat.le_of_lt_succ t.isLt)
  q _ := fullShare
  owed _ := 0

theorem A_eq6 (hO : Ok6 V) (c : Dev nD) (w : Fin (cfgM6 V hO).W) : (dat6 V hO c).A w = V c (Pipeline.arrRef spec6 w) := by
  dsimp only [dat6]
theorem PhiS6_castSucc (hO : Ok6 V) (c : Dev nD) (t : Fin (cfgM6 V hO).N) :
    (dat6 V hO c).Φ t.castSucc = PhiS6 V hO c t.val (Nat.le_of_lt t.isLt) := by
  dsimp only [dat6]; simp only [Fin.coe_castSucc]
theorem after6_0 (hO : Ok6 V) (c : Dev nD) (t : Fin (cfgM6 V hO).N) : (dat6 V hO c).after 0 t = iblk6 V hO c 0 t := by dsimp only [dat6]; try rfl
theorem after6_1 (hO : Ok6 V) (c : Dev nD) (t : Fin (cfgM6 V hO).N) : (dat6 V hO c).after 1 t = iblk6 V hO c 1 t := by dsimp only [dat6]; try rfl
theorem after6_2 (hO : Ok6 V) (c : Dev nD) (t : Fin (cfgM6 V hO).N) : (dat6 V hO c).after 2 t = iblk6 V hO c 2 t := by dsimp only [dat6]; try rfl
theorem after6_3 (hO : Ok6 V) (c : Dev nD) (t : Fin (cfgM6 V hO).N) : (dat6 V hO c).after 3 t = iblk6 V hO c 3 t := by dsimp only [dat6]; try rfl
theorem after6_4 (hO : Ok6 V) (c : Dev nD) (t : Fin (cfgM6 V hO).N) : (dat6 V hO c).after 4 t = outAt6 V hO c t := by dsimp only [dat6]; try rfl

theorem before6_0 (hO : Ok6 V) (c : Dev nD) (t : Fin (cfgM6 V hO).N) (d) : (dat6 V hO c).before 0 t d = iblk6 V hO c 0 t :=
  before6_0_of V hO (dat6 V hO c) (A_eq6 V hO c 0) (after6_0 V hO c) t d
theorem before6_1 (hO : Ok6 V) (c : Dev nD) (t : Fin (cfgM6 V hO).N) (d) : (dat6 V hO c).before 1 t d = iblk6 V hO c 1 t :=
  before6_1_of V hO (dat6 V hO c) (A_eq6 V hO c 1) (after6_1 V hO c) t d
theorem before6_2 (hO : Ok6 V) (c : Dev nD) (t : Fin (cfgM6 V hO).N) (d) : (dat6 V hO c).before 2 t d = iblk6 V hO c 2 t :=
  before6_2_of V hO (dat6 V hO c) (A_eq6 V hO c 2) (after6_2 V hO c) t d
theorem before6_3 (hO : Ok6 V) (c : Dev nD) (t : Fin (cfgM6 V hO).N) (d) : (dat6 V hO c).before 3 t d = iblk6 V hO c 3 t :=
  before6_3_of V hO (dat6 V hO c) (A_eq6 V hO c 3) (after6_3 V hO c) t d

/-- What the body is called with at point `t`, the windows one by one, -/
def bodyPre6 (hO : Ok6 V) (c : Dev nD) (t : Fin (cfgM6 V hO).N) : sProp 𝕄 :=
  iprop((dat6 V hO c).Φ t.castSucc ∗ (dat6 V hO c).owesAt () t.castSucc
    ∗ (∃ d, owns (c : Thread nD τ) (ms6_0 V hO t) fullShare ((dat6 V hO c).before 0 t d))
    ∗ (∃ d, owns (c : Thread nD τ) (ms6_1 V hO t) fullShare ((dat6 V hO c).before 1 t d))
    ∗ (∃ d, owns (c : Thread nD τ) (ms6_2 V hO t) fullShare ((dat6 V hO c).before 2 t d))
    ∗ (∃ d, owns (c : Thread nD τ) (ms6_3 V hO t) fullShare ((dat6 V hO c).before 3 t d))
    ∗ (∃ d, owns (c : Thread nD τ) (ms6_4 V hO t) fullShare ((dat6 V hO c).before 4 t d)))

/-- and what it returns. -/
def bodyPost6 (hO : Ok6 V) (c : Dev nD) (t : Fin (cfgM6 V hO).N) : sProp 𝕄 :=
  iprop((dat6 V hO c).Φ t.succ ∗ (dat6 V hO c).owesAt () t.succ
    ∗ (dat6 V hO c).leavesExact 0 t
    ∗ (dat6 V hO c).leavesExact 1 t
    ∗ (dat6 V hO c).leavesExact 2 t
    ∗ (dat6 V hO c).leavesExact 3 t
    ∗ (dat6 V hO c).leavesExact 4 t)

/-- The windows' idle flags at a point, stated at the pinned configuration. -/
theorem liveAtM6_0 (hO : Ok6 V) (t : Fin (cfgM6 V hO).N) : (cfgM6 V hO).idle 0 ((cfgM6 V hO).grid.coords t) = false := rfl
theorem liveAtM6_1 (hO : Ok6 V) (t : Fin (cfgM6 V hO).N) : (cfgM6 V hO).idle 1 ((cfgM6 V hO).grid.coords t) = false := rfl
theorem liveAtM6_2 (hO : Ok6 V) (t : Fin (cfgM6 V hO).N) : (cfgM6 V hO).idle 2 ((cfgM6 V hO).grid.coords t) = false := rfl
theorem liveAtM6_3 (hO : Ok6 V) (t : Fin (cfgM6 V hO).N) : (cfgM6 V hO).idle 3 ((cfgM6 V hO).grid.coords t) = false := rfl
theorem idleAtM6_4 (hO : Ok6 V) (t : Fin (cfgM6 V hO).N) (h : ¬cond6_1 (grid6.coords t)) :
    (cfgM6 V hO).idle 4 ((cfgM6 V hO).grid.coords t) = true := idleAt6_4 (adm6 V hO) (grid6.coords t) h
theorem liveAtM6_4 (hO : Ok6 V) (t : Fin (cfgM6 V hO).N) (h : cond6_1 (grid6.coords t)) :
    (cfgM6 V hO).idle 4 ((cfgM6 V hO).grid.coords t) = false := liveAt6_4 (adm6 V hO) (grid6.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body6 (hO : Ok6 V) (c : Dev nD) (t : Fin (cfgM6 V hO).N) :
    bodyPre6 V hO c t ⊢ wp frame (wpE (defs₀ (F := F)) Variants.none c none) Set.univ (bodyAt6 (adm6 V hO) t) (fun _ => bodyPost6 V hO c t) := by
  unfold bodyPre6 bodyPost6 bodyAt6
  simp only [before6_0, before6_1, before6_2, before6_3]
  rw [show (dat6 V hO c).owesAt () t.succ = (dat6 V hO c).owesAt () t.castSucc from rfl]
  rw [show (dat6 V hO c).Φ t.succ = PhiS6 V hO c (t.val + 1) t.isLt from rfl, PhiS6_succ]
  rw [show (dat6 V hO c).leavesExact 0 t = owns (c : Thread nD τ) (ms6_0 V hO t) fullShare ((dat6 V hO c).after 0 t) from by
    unfold Dat.leavesExact; rw [liveAtM6_0 V hO t]; try rfl]
  rw [after6_0]
  rw [show (dat6 V hO c).leavesExact 1 t = owns (c : Thread nD τ) (ms6_1 V hO t) fullShare ((dat6 V hO c).after 1 t) from by
    unfold Dat.leavesExact; rw [liveAtM6_1 V hO t]; try rfl]
  rw [after6_1]
  rw [show (dat6 V hO c).leavesExact 2 t = owns (c : Thread nD τ) (ms6_2 V hO t) fullShare ((dat6 V hO c).after 2 t) from by
    unfold Dat.leavesExact; rw [liveAtM6_2 V hO t]; try rfl]
  rw [after6_2]
  rw [show (dat6 V hO c).leavesExact 3 t = owns (c : Thread nD τ) (ms6_3 V hO t) fullShare ((dat6 V hO c).after 3 t) from by
    unfold Dat.leavesExact; rw [liveAtM6_3 V hO t]; try rfl]
  rw [after6_3]
  rw [PhiS6_castSucc]
  by_cases h0 : cond6_0 (grid6.coords t)
  · by_cases h1 : cond6_1 (grid6.coords t)
    · exact absurd h1 (fun h => not_both6 _ h0 h)
    · rw [Dat.leavesExact_idle (dat6 V hO c) 4 t (idleAtM6_4 V hO t h1) (noFlush6_4 (adm6 V hO) t h1)]
      rw [accAt6_A V hO c t h0]
      by_cases hz : t.val = 0
      · rw [PhiS6_zero V hO c _ _ hz]
        iintro ⟨⟨HS, HR⟩, Ho, ⟨%d0, H0⟩, ⟨%d1, H1⟩, ⟨%d2, H2⟩, ⟨%d3, H3⟩, ⟨%d4, H4⟩⟩
        iapply (run6_A c (grid6.coords t) _ _ _ _ _ _ _ _ _ _ _ _ _ _ h0 h1 (xrow6 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS6_pos V hO c _ _ hz]
        iintro ⟨⟨HS, HR⟩, Ho, ⟨%d0, H0⟩, ⟨%d1, H1⟩, ⟨%d2, H2⟩, ⟨%d3, H3⟩, ⟨%d4, H4⟩⟩
        iapply (run6_A c (grid6.coords t) _ _ _ _ _ _ _ _ _ _ _ _ _ _ h0 h1 (xrow6 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond6_0_first t hz)
    rw [PhiS6_pos V hO c _ _ hz, accAt6_B V hO c t h0 hz]
    by_cases h1 : cond6_1 (grid6.coords t)
    · rw [show (dat6 V hO c).leavesExact 4 t = owns (c : Thread nD τ) (ms6_4 V hO t) fullShare ((dat6 V hO c).after 4 t) from by
        unfold Dat.leavesExact; rw [liveAtM6_4 V hO t h1]; try rfl]
      rw [after6_4]
      unfold outAt6
      rw [accAt6_B V hO c t h0 hz]
      iintro ⟨⟨HS, HR⟩, Ho, ⟨%d0, H0⟩, ⟨%d1, H1⟩, ⟨%d2, H2⟩, ⟨%d3, H3⟩, ⟨%d4, H4⟩⟩
      iapply (run6_C c (grid6.coords t) _ _ _ _ _ _ _ _ _ _ _ _ _ _ h0 h1 (xrow6 V hO c t) (xpa6 V hO c t) (xw6 V hO c t) (xb6 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat6 V hO c) 4 t (idleAtM6_4 V hO t h1) (noFlush6_4 (adm6 V hO) t h1)]
      iintro ⟨⟨HS, HR⟩, Ho, ⟨%d0, H0⟩, ⟨%d1, H1⟩, ⟨%d2, H2⟩, ⟨%d3, H3⟩, ⟨%d4, H4⟩⟩
      iapply (run6_B c (grid6.coords t) _ _ _ _ _ _ _ _ _ _ _ _ _ _ h0 h1 (xrow6 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (hO : Ok6 V) (c : Dev nD) :
    BodyObligation (dat6 (F := F) V hO c) (defs₀ (F := F)) Variants.none () Set.univ := fun t => by
  rw [bigSep_W6, bigSep_W6]
  exact sound_body6 V hO c t

end Cert.KernelIdeal.Hand

end
-- ==== Proof.R6Val.lean ====
import proofs.«402893_j78554951844377_2_alg».proof.Proof.R6Acc
import proofs.«402893_j78554951844377_2_alg».proof.Proof.R6Grid
import proofs.«402893_j78554951844377_2_alg».proof.Proof.OkTablesT
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 6: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt6 (t : Fin grid6.N) : t.val / 32 < 2048 := by
  have ht : t.val < 65536 := N_6 ▸ t.isLt
  omega

/-- The last feature of sample `r` is a point of the grid. -/
theorem lastPt_lt6 (r : ℕ) (hr : r < 2048) : 32 * r + 31 < grid6.N := by rw [N_6]; omega

/-- Under the side condition every word the index map of window 0 reads names a row of the embedding table. -/
theorem tword6_lt (pf : pre6.Contents (Elt F)) (h : ok6 pf) (i : grid6.Coords) : (tword6 pf i).toNat < 786432 := by
  obtain ⟨hb, -⟩ := h i
  have h0 := hb 0
  rw [transform6_eq pf i] at h0
  have h0' : ((tword6 pf i).toNat + 1) * 1 ≤ 786432 := h0
  omega

/-- Window 0's block at point `t` is the row the table's word names. -/
theorem index6_0 (a : (pcfg6 (F := F)).Adm) (t : Fin (cfg6 a).N) :
    ((cfg6 a).win 0).index t = ![(tword6 a.1 (grid6.coords t)).toNat, 0, 0] :=
  transform6_eq a.1 (grid6.coords t)

/-- Lane `l` of window 0's block sits in the embedding table at (the named row, 0, l). -/
theorem emb6_0 (a : (pcfg6 (F := F)).Adm) (t : Fin (cfg6 a).N) (l : Fin 128) :
    (((cfg6 a).win 0).blk t).view.emb (ValueIdx.ix3 (0 : Fin 1) (0 : Fin 1) l)
      = ValueIdx.ix3 (⟨(tword6 a.1 (grid6.coords t)).toNat, tword6_lt a.1 a.2 (grid6.coords t)⟩ : Fin 786432) (0 : Fin 1) l := by
  funext d; apply Fin.ext
  match d with
  | ⟨0, _⟩ => show ((cfg6 a).win 0).index t (0 : Fin 3) * 1 + 1 * 0 = (tword6 a.1 (grid6.coords t)).toNat; rw [index6_0]; show (tword6 a.1 (grid6.coords t)).toNat * 1 + 1 * 0 = _; omega
  | ⟨1, _⟩ => show ((cfg6 a).win 0).index t (1 : Fin 3) * 1 + 1 * 0 = 0; rw [index6_0]; rfl
  | ⟨2, _⟩ => show ((cfg6 a).win 0).index t (2 : Fin 3) * 128 + 1 * l.val = l.val; rw [index6_0]; show 0 * 128 + 1 * l.val = l.val; omega

/-- Lane `l` of window 1's block sits in its array at (sample, 0, l). -/
theorem emb6_1 (a : (pcfg6 (F := F)).Adm) (t : Fin (cfg6 a).N) (l : Fin 128) :
    (((cfg6 a).win 1).blk t).view.emb (ValueIdx.ix3 (0 : Fin 1) (0 : Fin 1) l)
      = ValueIdx.ix3 (⟨t.val / 32, sample_lt6 t⟩ : Fin 2048) (0 : Fin 1) l := by
  funext d; apply Fin.ext
  match d with
  | ⟨0, _⟩ => show ((cfg6 a).win 1).index t (0 : Fin 3) * 1 + 1 * 0 = t.val / 32; rw [index6_1]; show t.val / 32 * 1 + 1 * 0 = _; omega
  | ⟨1, _⟩ => show ((cfg6 a).win 1).index t (1 : Fin 3) * 1 + 1 * 0 = 0; rw [index6_1]; rfl
  | ⟨2, _⟩ => show ((cfg6 a).win 1).index t (2 : Fin 3) * 128 + 1 * l.val = l.val; rw [index6_1]; show 0 * 128 + 1 * l.val = l.val; omega

/-- Lane `l` of window 2's block sits in its array at (sample, 0, l). -/
theorem emb6_2 (a : (pcfg6 (F := F)).Adm) (t : Fin (cfg6 a).N) (l : Fin 128) :
    (((cfg6 a).win 2).blk t).view.emb (ValueIdx.ix3 (0 : Fin 1) (0 : Fin 1) l)
      = ValueIdx.ix3 (⟨t.val / 32, sample_lt6 t⟩ : Fin 2048) (0 : Fin 1) l := by
  funext d; apply Fin.ext
  match d with
  | ⟨0, _⟩ => show ((cfg6 a).win 2).index t (0 : Fin 3) * 1 + 1 * 0 = t.val / 32; rw [index6_2]; show t.val / 32 * 1 + 1 * 0 = _; omega
  | ⟨1, _⟩ => show ((cfg6 a).win 2).index t (1 : Fin 3) * 1 + 1 * 0 = 0; rw [index6_2]; rfl
  | ⟨2, _⟩ => show ((cfg6 a).win 2).index t (2 : Fin 3) * 128 + 1 * l.val = l.val; rw [index6_2]; show 0 * 128 + 1 * l.val = l.val; omega

/-- The one element of window 3's block sits in its array at (sample, 0, 0). -/
theorem emb6_3 (a : (pcfg6 (F := F)).Adm) (t : Fin (cfg6 a).N) :
    (((cfg6 a).win 3).blk t).view.emb (ValueIdx.ix3 (0 : Fin 1) (0 : Fin 1) (0 : Fin 1))
      = ValueIdx.ix3 (⟨t.val / 32, sample_lt6 t⟩ : Fin 2048) (0 : Fin 1) (0 : Fin 1) := by
  funext d; apply Fin.ext
  match d with
  | ⟨0, _⟩ => show ((cfg6 a).win 3).index t (0 : Fin 3) * 1 + 1 * 0 = t.val / 32; rw [index6_3]; show t.val / 32 * 1 + 1 * 0 = _; omega
  | ⟨1, _⟩ => show ((cfg6 a).win 3).index t (1 : Fin 3) * 1 + 1 * 0 = 0; rw [index6_3]; rfl
  | ⟨2, _⟩ => show ((cfg6 a).win 3).index t (2 : Fin 3) * 1 + 1 * 0 = 0; rw [index6_3]; rfl

/-- The one element of the result window's block sits in the result array at (sample, 0, 0). -/
theorem emb6_4 (a : (pcfg6 (F := F)).Adm) (t : Fin (cfg6 a).N) :
    (((cfg6 a).win 4).blk t).view.emb (ValueIdx.ix3 (0 : Fin 1) (0 : Fin 1) (0 : Fin 1))
      = ValueIdx.ix3 (⟨t.val / 32, sample_lt6 t⟩ : Fin 2048) (0 : Fin 1) (0 : Fin 1) := by
  funext d; apply Fin.ext
  match d with
  | ⟨0, _⟩ => show ((cfg6 a).win 4).index t (0 : Fin 3) * 1 + 1 * 0 = t.val / 32; rw [index6_4]; show t.val / 32 * 1 + 1 * 0 = _; omega
  | ⟨1, _⟩ => show ((cfg6 a).win 4).index t (1 : Fin 3) * 1 + 1 * 0 = 0; rw [index6_4]; rfl
  | ⟨2, _⟩ => show ((cfg6 a).win 4).index t (2 : Fin 3) * 1 + 1 * 0 = 0; rw [index6_4]; rfl

section AtTable

variable (V : (c : Dev nD) → (b : Ref sig .tc) → Buf (Elt F) ((c : Thread nD τ).loc b))

/-! ## The input blocks at coordinates -/

/-- The row of the embedding table gathered at point `t`: the table's word there. -/
abbrev rho6 (t : Fin grid6.N) : ℕ := (tword6 (tbl6 V) (grid6.coords t)).toNat

/-- It is a row of the table, under the side condition. -/
theorem rho6_lt (hO : Ok6 V) (t : Fin grid6.N) : rho6 V t < 786432 := tword6_lt (tbl6 V) hO (grid6.coords t)

/-- Lane `l` of the gathered row at point `t` is the embedding table at (the named row, 0, l). -/
theorem xrow6_apply (hO : Ok6 V) (c : Dev nD) (t : Fin (cfgM6 V hO).N) (l : Fin 128) :
    xrow6 V hO c t (ValueIdx.ix3 (0 : Fin 1) (0 : Fin 1) l)
      = V c main_v34 (ValueIdx.ix3 (⟨rho6 V t, rho6_lt V hO t⟩ : Fin 786432) (0 : Fin 1) l) := by
  show V c main_v34 ((((cfgM6 V hO).win 0).blk t).view.emb (ValueIdx.ix3 (0 : Fin 1) (0 : Fin 1) l)) = _
  exact congrArg (V c main_v34) (emb6_0 (adm6 V hO) t l)

/-- Lane `l` of the phase-bias block at point `t` is its array at (sample, 0, l). -/
theorem xpa6_apply (hO : Ok6 V) (c : Dev nD) (t : Fin (cfgM6 V hO).N) (l : Fin 128) :
    xpa6 V hO c t (ValueIdx.ix3 (0 : Fin 1) (0 : Fin 1) l)
      = V c main_v73 (ValueIdx.ix3 (⟨t.val / 32, sample_lt6 t⟩ : Fin 2048) (0 : Fin 1) l) := by
  show V c main_v73 ((((cfgM6 V hO).win 1).blk t).view.emb (ValueIdx.ix3 (0 : Fin 1) (0 : Fin 1) l)) = _
  exact congrArg (V c main_v73) (emb6_1 (adm6 V hO) t l)

/-- Lane `l` of the head-weight block at point `t` is its array at (sample, 0, l). -/
theorem xw6_apply (hO : Ok6 V) (c : Dev nD) (t : Fin (cfgM6 V hO).N) (l : Fin 128) :
    xw6 V hO c t (ValueIdx.ix3 (0 : Fin 1) (0 : Fin 1) l)
      = V c main_v74 (ValueIdx.ix3 (⟨t.val / 32, sample_lt6 t⟩ : Fin 2048) (0 : Fin 1) l) := by
  show V c main_v74 ((((cfgM6 V hO).win 2).blk t).view.emb (ValueIdx.ix3 (0 : Fin 1) (0 : Fin 1) l)) = _
  exact congrArg (V c main_v74) (emb6_2 (adm6 V hO) t l)

/-- The head-bias block at point `t` is its array at (sample, 0, 0). -/
theorem xb6_apply (hO : Ok6 V) (c : Dev nD) (t : Fin (cfgM6 V hO).N) :
    xb6 V hO c t (ValueIdx.ix3 (0 : Fin 1) (0 : Fin 1) (0 : Fin 1))
      = V c main_v75 (ValueIdx.ix3 (⟨t.val / 32, sample_lt6 t⟩ : Fin 2048) (0 : Fin 1) (0 : Fin 1)) := by
  show V c main_v75 ((((cfgM6 V hO).win 3).blk t).view.emb (ValueIdx.ix3 (0 : Fin 1) (0 : Fin 1) (0 : Fin 1))) = _
  exact congrArg (V c main_v75) (emb6_3 (adm6 V hO) t)

/-! ## The arrays after the run -/

/-- An input's array is never written: it ends as the region found it. -/
theorem arrAt6_in (hO : Ok6 V) (c : Dev nD) (w : Fin 5) (hw : w ≠ 4) :
    (dat6 V hO c).arrAt w (cfgM6 V hO).N = V c (Pipeline.arrRef spec6 w) := by
  have hin : ((cfgM6 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat6 V hO c).arrAt_in w hin _).trans (A_eq6 V hO c w)

/-- THE RESULT ARRAY of the tile: row `r` holds what the body left in the result block at sample `r`'s last feature. -/
def tileRes6 (hO : Ok6 V) (c : Dev nD) : Buf (Elt F) ((c : Thread nD τ).loc main_v76) :=
  fun (i : S2048x1x1.Idx) => outAt6 V hO c ⟨32 * (i 0).val + 31, lastPt_lt6 (i 0).val (i 0).isLt⟩ (ValueIdx.ix3 (0 : Fin 1) (0 : Fin 1) (0 : Fin 1))

theorem tileRes6_apply (hO : Ok6 V) (c : Dev nD) (r : Fin 2048) :
    tileRes6 V hO c (ValueIdx.ix3 r (0 : Fin 1) (0 : Fin 1))
      = outAt6 V hO c ⟨32 * r.val + 31, lastPt_lt6 r.val r.isLt⟩ (ValueIdx.ix3 (0 : Fin 1) (0 : Fin 1) (0 : Fin 1)) := rfl

/-- The result block read at two names of one point. -/
theorem outAt6_congr (hO : Ok6 V) (c : Dev nD) {t t' : Fin (cfgM6 V hO).N} (h : t.val = t'.val) (j : S1x1x1.Idx) :
    outAt6 V hO c t j = outAt6 V hO c t' j := by
  obtain rfl : t = t' := Fin.ext h
  rfl

/-- What a write-back writes is the written row of `tileRes6`: the point is its sample's last feature `32 (t / 32) + 31`,
    and the block's one element is the row's. -/
theorem flushed6_4_eq (hO : Ok6 V) (c : Dev nD) (t : Fin (cfgM6 V hO).N) (hf : ((cfgM6 V hO).win 4).flush t = true) :
    (dat6 V hO c).flushed 4 t = (((cfgM6 V hO).win 4).blk t).view.read (Elt F) (tileRes6 V hO c) := by
  have h31 : t.val % 32 = 31 := (flush6_4_iff (adm6 V hO) t).mp hf
  show ((cfgM6 V hO).win 4).cut (grid6.coords t) ((dat6 V hO c).after 4 t) = _
  rw [after6_4]
  funext j
  have hj : (((cfgM6 V hO).win 4).xinj (grid6.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM6 V hO).win 4).blk t).view.emb j : S2048x1x1.Idx) (0 : Fin 3)).val + 31 := by
    have h : (j (0 : Fin 3)).val < 1 := (j (0 : Fin 3)).isLt
    show t.val = 32 * (((cfgM6 V hO).win 4).index t (0 : Fin 3) * 1 + 1 * (j (0 : Fin 3)).val) + 31
    rw [index6_4]
    show t.val = 32 * (t.val / 32 * 1 + 1 * (j (0 : Fin 3)).val) + 31
    omega
  show outAt6 V hO c t (((cfgM6 V hO).win 4).xinj (grid6.coords t) j) = tileRes6 V hO c ((((cfgM6 V hO).win 4).blk t).view.emb j)
  rw [hj]
  exact outAt6_congr V hO c hv _

/-- Every row of the result array is some write-back's block: row `r` is the block of point `32 r + 31`. -/
theorem cover6_4 (hO : Ok6 V) (i : S2048x1x1.Idx) :
    ∃ t : Fin (cfgM6 V hO).N, ((cfgM6 V hO).win 4).flush t = true ∧ i ∈ (((cfgM6 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt6 _ h0⟩, (flush6_4_iff (adm6 V hO) _).mpr (by show (32 * (i 0).val + 31) % 32 = 31; omega), ?_⟩
  have he : (((cfgM6 V hO).win 4).blk ⟨32 * (i 0).val + 31, lastPt_lt6 _ h0⟩).view.emb (ValueIdx.ix3 (0 : Fin 1) (0 : Fin 1) (0 : Fin 1)) = i := by
    refine (emb6_4 (adm6 V hO) ⟨32 * (i 0).val + 31, lastPt_lt6 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM6 V hO).win 4).blk ⟨32 * (i 0).val + 31, lastPt_lt6 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes6`. -/
theorem arrAt6_4 (hO : Ok6 V) (c : Dev nD) : (dat6 V hO c).arrAt 4 (cfgM6 V hO).N = tileRes6 V hO c :=
  (dat6 V hO c).arrAt_eq_of_cover 4 (tileRes6 V hO c) (fun t hf => flushed6_4_eq V hO c t hf) (fun i => cover6_4 V hO i)

end AtTable

end Cert.KernelIdeal.Hand

end
-- ==== Proof.R6Seg.lean ====
/-
  Tile 6's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 6's admissible contents and
  proof data is ten small facts (`Pinned6`); they hold of tile 6's own (`pinned_dat6`) and so of any family whose
  component 6 is tile 6's (`Pinned6.of_eq`).
-/
import proofs.«402893_j78554951844377_2_alg».proof.Proof.R6Acc
import proofs.«402893_j78554951844377_2_alg».proof.Proof.Family
import proofs.«402893_j78554951844377_2_alg».proof.Proof.Glue
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 6's contents and proof data -/

variable (Vin : (c : Dev nD) → (b : Ref sig .tc) → Buf (Elt F) ((c : Thread nD τ).loc b))

/-- The scratch operand owned whole at some contents is its buffer held at some contents. -/
theorem scratch6_eq (c : Dev nD) :
    (iprop(∃ d, owns (c : Thread nD τ) scM6 fullShare d) : sProp 𝕄)
      = iprop(∃ f : Buf (Elt F) ((c : Thread nD τ).loc cc6_scratch0), ((c : Thread nD τ).loc cc6_scratch0) ↦{fullShare} f) := by
  simp only [scM6, owns_whole]; try rfl

/-- What the record needs of pipeline 6's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned6 (Vx : Dev nD → Valuation τ sig (Elt F)) (a0 : (pcfgs (F := F) 6).Adm)
    (d0 : (c : Dev nD) → Dat τ (Elt F) Unit ℕ (UR sig nD τ) ℕ ((pcfgs (F := F) 6).at a0) c) : Prop where
  tbl : a0.1 = tbl6 Vin
  q : ∀ (c : Dev nD) w, (d0 c).q w = fullShare
  A : ∀ (c : Dev nD) w, (d0 c).A w = Vin c (Pipeline.arrRef spec6 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM6 fullShare d) ∗ Rest6 Vin c) : sProp 𝕄) ⊢ (d0 c).Φ 0
  phiOut : ∀ c : Dev nD, (d0 c).Φ (Fin.last _) ⊢ (iprop((∃ d, owns (c : Thread nD τ) scM6 fullShare d) ∗ Rest6 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 6).at a0).N = Vx c (Pipeline.arrRef spec6 w)

set_option maxHeartbeats 400000 in
/-- Tile 6's own contents and proof data have them: each field by unfolding the proof data; the last stage of the
    invariant is a later one (the grid has 65536 points), so it holds the scratch at the last point's contents. -/
theorem pinned_dat6 (hO : Ok6 Vin) (Vx : Dev nD → Valuation τ sig (Elt F))
    (hF : ∀ c w, (dat6 Vin hO c).arrAt w (cfgM6 Vin hO).N = Vx c (Pipeline.arrRef spec6 w)) :
    Pinned6 Vin Vx (adm6 Vin hO) (dat6 Vin hO) where
  tbl := rfl
  q c w := rfl
  A c w := A_eq6 Vin hO c w
  owed c t := rfl
  body c := (body_obligation6 Vin hO c).loose
  phiIn c := by
    rw [show (dat6 Vin hO c).Φ 0 = PhiS6 Vin hO c ((0 : Fin ((cfgM6 Vin hO).N + 1)).val) (Nat.le_of_lt_succ (0 : Fin ((cfgM6 Vin hO).N + 1)).isLt) from rfl,
      PhiS6_zero Vin hO c _ _ (Fin.val_zero _)]
  phiOut c := by
    have hN : (Fin.last (cfgM6 Vin hO).N).val ≠ 0 := by
      rw [Fin.val_last, show (cfgM6 Vin hO).N = grid6.N from rfl, N_6]; decide
    show PhiS6 Vin hO c (Fin.last (cfgM6 Vin hO).N).val (Nat.le_of_lt_succ (Fin.last (cfgM6 Vin hO).N).isLt) ⊢ _
    rw [PhiS6_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 6's. -/
theorem Pinned6.of_eq (hO : Ok6 Vin) {Vx : Dev nD → Valuation τ sig (Elt F)} {a0 : (pcfgs (F := F) 6).Adm}
    {d0 : (c : Dev nD) → Dat τ (Elt F) Unit ℕ (UR sig nD τ) ℕ ((pcfgs (F := F) 6).at a0) c}
    (ha : a0 = adm6 Vin hO) (hd : ∀ c, HEq (d0 c) (dat6 Vin hO c)) (h : Pinned6 Vin Vx (adm6 Vin hO) (dat6 Vin hO)) :
    Pinned6 Vin Vx a0 d0 := by
  subst ha
  obtain rfl : d0 = dat6 Vin hO := funext fun c => eq_of_heq (hd c)
  exact h

/-! ## The record -/

set_option backward.isDefEq.respectTransparency.types false in
set_option maxHeartbeats 1600000 in
/-- Tile 6's region over ANY family of pipelines whose component 6 is tile 6's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg6G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok6 Vin) (ha : a 6 = adm6 Vin hO) (hd : ∀ c, HEq (pdats 6 c) (dat6 Vin hO c))
    (hag : ∀ c w, V c (Proc.devRef .tc (Pipeline.arrRef spec6 w)) = Vin c (Pipeline.arrRef spec6 w))
    (hagT : ∀ c j, V c (Proc.devRef .tc (pre6.ref j)) = Vin c (pre6.ref j))
    (hF : ∀ c w, (dat6 Vin hO c).arrAt w (cfgM6 Vin hO).N = Vx c (Pipeline.arrRef spec6 w))
    (hrest : ∀ c b, b ∉ Finset.univ.image (Pipeline.arrRef spec6) → Vx c b = V c b) :
    Pipeline.RegionSeg (pcfgs (F := F)) a pdats () defs₀ Variants.none (fun _ => ∅) (fun _ _ => 0) 6 :=
  have hp : Pinned6 Vin Vx (a 6) (pdats 6) := Pinned6.of_eq Vin hO ha hd (pinned_dat6 Vin hO Vx hF)
  have htbl : ∀ c, (fun k => V c (Proc.devRef .tc ((pcfgs (F := F) 6).pre.ref k))) = (a 6).1 := fun c => by
    rw [hp.tbl]; funext k; exact (hagT c k).trans (V_pre6 Vin c k)
  { win := (launch6 (F := F)).win.to₀
    block_pos := (launch6 (F := F)).block_pos
    stage_whole := (launch6 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 6 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre6 c (fun _ => fullShare) (tbl6 Vin))
    Z := fun c => Pipeline.unscopedRestP (Ix := Unit) (Name := ℕ) (U := UR sig nD τ) (Lvl := ℕ) pre6 spec6 c (fun b => V c b)
    hentry := fun c => by
      rw [Pipeline.ownSems0_none]
      have hsplit := Pipeline.arrays_of_unscopedBufs (p := 6) (pcfgs (F := F)) a pdats (launch6 (F := F)).win (launch6 (F := F)).arr_whole c
        ((pdats 6 c).share_full (hp.q c)) (fun b => V c b) (fun w => (hp.A c w).trans (hag c w).symm)
      rw [Pipeline.unscopedBufs_held, Pipeline.unscopedRest_split (launch6 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 6).spec c : sProp 𝕄) = _ from scopedRest6_split c, hp.tbl]
      refine BIBase.Entails.trans ?_ (hp.phiIn c)
      rw [scratch6_eq]
      unfold Rest6
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 6).spec c : sProp 𝕄) = _ from scopedRest6_split c]
      refine BIBase.Entails.trans (hp.phiOut c) ?_
      rw [scratch6_eq]
      unfold Rest6
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 6) (pcfgs (F := F)) a (Ix := Unit) (Name := ℕ) (U := UR sig nD τ) (Lvl := ℕ)
        (launch6 (F := F)).win (launch6 (F := F)).arr_whole c pdats ((pdats 6 c).share_full (hp.q c))
        (fun b => V c b) (fun b => Vx c b) ((pdats 6 c).arrAt · (Pipeline.pin (pcfgs (F := F)) a 6).N) (hp.fin c) (hrest c)
      rw [Pipeline.unscopedBufs_held, Pipeline.unscopedRest_split (launch6 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 6's record over the assembled families, tile 6's components in slot 6. -/
def reg6 (hO : Ok6 Vin) (V Vx : Dev nD → Valuation τ sig (Elt F))
    (hag : ∀ c w, V c (Proc.devRef .tc (Pipeline.arrRef spec6 w)) = Vin c (Pipeline.arrRef spec6 w))
    (hagT : ∀ c j, V c (Proc.devRef .tc (pre6.ref j)) = Vin c (pre6.ref j))
    (hF : ∀ c w, (dat6 Vin hO c).arrAt w (cfgM6 Vin hO).N = Vx c (Pipeline.arrRef spec6 w))
    (hrest : ∀ c b, b ∉ Finset.univ.image (Pipeline.arrRef spec6) → Vx c b = V c b)
    (a0 : (pcfg0 (F := F)).Adm)
    (a1 : (pcfg1 (F := F)).Adm)
    (a2 : (pcfg2 (F := F)).Adm)
    (a3 : (pcfg3 (F := F)).Adm)
    (a4 : (pcfg4 (F := F)).Adm)
    (a5 : (pcfg5 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d7 : (c : Dev nD) → Dat τ (Elt F) Unit ℕ (UR sig nD τ) ℕ (cfg7 a7) c) :
    Pipeline.RegionSeg (pcfgs (F := F)) (admOf a0 a1 a2 a3 a4 a5 (adm6 Vin hO) a7)
      (pdatsOf a0 a1 a2 a3 a4 a5 (adm6 Vin hO) a7 d0 d1 d2 d3 d4 d5 (dat6 Vin hO) d7) () defs₀ Variants.none (fun _ => ∅) (fun _ _ => 0) 6 :=
  reg6G Vin V Vx _ _ hO rfl (fun _ => HEq.rfl) hag hagT hF hrest

/-- The thread state the record is entered from, -/
theorem reg6_pre (hO : Ok6 Vin) (V Vx : Dev nD → Valuation τ sig (Elt F)) (hag) (hagT) (hF) (hrest) (a0) (a1) (a2) (a3) (a4) (a5) (a7) (d0) (d1) (d2) (d3) (d4) (d5) (d7) (c : Dev nD) :
    (reg6 Vin hO V Vx hag hagT hF hrest a0 a1 a2 a3 a4 a5 a7 d0 d1 d2 d3 d4 d5 d7).pre c
      = iprop(StableHlo.held (c : Thread nD τ) (Pipeline.ucRefs τ sig) (V c) ∗ Rr (F := F) c) := rfl
/-- and the one it leaves. -/
theorem reg6_post (hO : Ok6 Vin) (V Vx : Dev nD → Valuation τ sig (Elt F)) (hag) (hagT) (hF) (hrest) (a0) (a1) (a2) (a3) (a4) (a5) (a7) (d0) (d1) (d2) (d3) (d4) (d5) (d7) (c : Dev nD) :
    (reg6 Vin hO V Vx hag hagT hF hrest a0 a1 a2 a3 a4 a5 a7 d0 d1 d2 d3 d4 d5 d7).post c
      = iprop(StableHlo.held (c : Thread nD τ) (Pipeline.ucRefs τ sig) (Vx c) ∗ Rr (F := F) c) := rfl

end Cert.KernelIdeal.Hand

end
-- ==== Proof.R6Agree.lean ====
import proofs.«402893_j78554951844377_2_alg».proof.Proof.KHostT6
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

/-! # Tile 6: what the region reads does not depend on what earlier regions left

The table, the embedding table, the three slices and the (not yet written) result array of tile 6 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree6_tbl : V17 m outs c main_v72 = V17 m outs' c main_v72 := by
  funext (j : S65536.Idx)
  obtain ⟨a, rfl⟩ : ∃ a : Fin 65536, j = ValueIdx.ix1 a := ⟨j 0, ValueIdx.eq_ix1 j⟩
  rw [tbl6_apply m outs c, tbl6_apply m outs' c]

theorem agree6_emb : V17 m outs c main_v34 = V17 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb6_apply m outs c, emb6_apply m outs' c]

theorem agree6_pa : V17 m outs c main_v73 = V17 m outs' c main_v73 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa6_apply m outs c, pa6_apply m outs' c]

theorem agree6_w : V17 m outs c main_v74 = V17 m outs' c main_v74 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w6_apply m outs c, w6_apply m outs' c]

theorem agree6_b : V17 m outs c main_v75 = V17 m outs' c main_v75 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b6_apply m outs c, b6_apply m outs' c]

/-- The result array has not been written when the region is entered: it holds its launch contents. -/
theorem entry6_out : V17 m outs c main_v76 = V5 m c main_v76 :=
  (V17_of m outs c main_v76 (by decide)).trans ((V16_of m outs c main_v76 (by decide)).trans ((V15_of m outs c main_v76 (by decide)).trans ((V14_of m outs c main_v76 (by decide)).trans ((V13_of m outs c main_v76 (by decide)).trans ((V12_of m outs c main_v76 (by decide)).trans ((V11_of m outs c main_v76 (by decide)).trans ((V10_of m outs c main_v76 (by decide)).trans ((V9_of m outs c main_v76 (by decide)).trans ((V8_of m outs c main_v76 (by decide)).trans ((V7_of m outs c main_v76 (by decide)).trans (V6_of m outs c main_v76 (by decide))))))))))))

theorem agree6_out : V17 m outs c main_v76 = V17 m outs' c main_v76 :=
  (entry6_out m outs c).trans (entry6_out m outs' c).symm

end Cert.KernelIdeal.Hand

end
-- ==== Proof.R7Run.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R0Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 7: the kernel body at one grid point

Tile 7's kernel function is tile 0's (the same body, the same payloads and conditions under other names), so its three
runs are tile 0's. -/

/-- The body's first condition: the feature coordinate is 0. -/
abbrev cond7_0 (i : grid7.Coords) : Prop := (Scalar.cmpi .ne (Scalar.extui (Scalar.cmpi .eq (BitVec.ofNat 32 (i 1).val) 0#32)) 0#32) = 1#1
/-- The body's second condition: the feature coordinate is 31. -/
abbrev cond7_1 (i : grid7.Coords) : Prop := k7_cond2 i = 1#1

/-- A MIDDLE feature: the scratch at `acc` ends at `acc + row`. -/
theorem run7_B (c : Dev nD) (i : grid7.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond7_0 i) (hc1 : ¬cond7_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k7_pay2 acc x3)) -∗ K ⟨⟩))
      ⊢ wp frame (wpE (defs₀ (F := F)) Variants.none c none) E (cc7__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run7_A (c : Dev nD) (i : grid7.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond7_0 i) (hc1 : ¬cond7_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k7_pay2 (k7_pay1 (F := F)) x3)) -∗ K ⟨⟩))
      ⊢ wp frame (wpE (defs₀ (F := F)) Variants.none c none) E (cc7__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run7_C (c : Dev nD) (i : grid7.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond7_0 i) (hc1 : cond7_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k7_pay3 (k7_pay2 acc x3) x4 x5 x6)
            ∗ owns (c : Thread nD τ) arg8 fullShare (k7_pay2 acc x3)) -∗ K ⟨⟩))
      ⊢ wp frame (wpE (defs₀ (F := F)) Variants.none c none) E (cc7__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.KernelIdeal.Hand

end
-- ==== Proof.R7Base.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R7Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 7: the pipeline at the table the region reads, its blocks and staging buffers

Everything here is stated at a PARAMETER `V`: the contents of the core's buffers when the region is entered. The
region's prefetched table is read off `V`; under the side condition that every word of it names a row of the embedding
table (`Ok7`) the pipeline is pinned at it, and each window's block at a grid point is a restriction of its array. -/

variable (V : (c : Dev nD) → (b : Ref sig .tc) → Buf (Elt F) ((c : Thread nD τ).loc b))

/-- The table's contents when the region is entered (one device). -/
def tbl7 : pre7.Contents (Elt F) := fun j => V (0 : Dev nD) (pre7.ref j)
/-- On every device the table holds those contents (there is one device). -/
theorem V_pre7 (c : Dev nD) (j : Fin 1) : V c (pre7.ref j) = tbl7 V j := by
  obtain rfl : c = 0 := Subsingleton.elim _ _; rfl
/-- Every block the table names lies inside the embedding table. -/
abbrev Ok7 : Prop := ok7 (F := F) (tbl7 V)
/-- The table as admissible contents, and the pipeline pinned at it. -/
abbrev adm7 (hO : Ok7 V) : (pcfg7 (F := F)).Adm := ⟨tbl7 V, hO⟩
abbrev cfgM7 (hO : Ok7 V) : Pipeline.Cfg sig Λ₀ := cfg7 (adm7 V hO)

/-- Window `w`'s block at point `t`, read off its array as the region finds it. -/
def iblk7 (hO : Ok7 V) (c : Dev nD) (w : Fin (cfgM7 V hO).W) (t : Fin (cfgM7 V hO).N) :
    (((cfgM7 V hO).win w).xblock ((cfgM7 V hO).grid.coords t)).Idx → Elt F ((cfgM7 V hO).win w).elt :=
  (((cfgM7 V hO).win w).blk t).view.read (Elt F) (V c (Pipeline.arrRef spec7 w))

/-- An input window's current staging buffer holds its block at every point, fetched there or not, for any proof
    data whose array is `V`'s and whose body leaves the block in place. -/
theorem before7_0_of (hO : Ok7 V) {c : Dev nD} (dat : Dat τ (Elt F) Unit ℕ (UR sig nD τ) ℕ (cfgM7 V hO) c) (hA : dat.A 0 = V c (Pipeline.arrRef spec7 0))
    (hafter : ∀ t, dat.after 0 t = iblk7 V hO c 0 t) (t : Fin (cfgM7 V hO).N) (d) : dat.before 0 t d = iblk7 V hO c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of (hO : Ok7 V) {c : Dev nD} (dat : Dat τ (Elt F) Unit ℕ (UR sig nD τ) ℕ (cfgM7 V hO) c) (hA : dat.A 1 = V c (Pipeline.arrRef spec7 1))
    (hafter : ∀ t, dat.after 1 t = iblk7 V hO c 1 t) (t : Fin (cfgM7 V hO).N) (d) : dat.before 1 t d = iblk7 V hO c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of (hO : Ok7 V) {c : Dev nD} (dat : Dat τ (Elt F) Unit ℕ (UR sig nD τ) ℕ (cfgM7 V hO) c) (hA : dat.A 2 = V c (Pipeline.arrRef spec7 2))
    (hafter : ∀ t, dat.after 2 t = iblk7 V hO c 2 t) (t : Fin (cfgM7 V hO).N) (d) : dat.before 2 t d = iblk7 V hO c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of (hO : Ok7 V) {c : Dev nD} (dat : Dat τ (Elt F) Unit ℕ (UR sig nD τ) ℕ (cfgM7 V hO) c) (hA : dat.A 3 = V c (Pipeline.arrRef spec7 3))
    (hafter : ∀ t, dat.after 3 t = iblk7 V hO c 3 t) (t : Fin (cfgM7 V hO).N) (d) : dat.before 3 t d = iblk7 V hO c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Each window's current staging memref at point `t`, as the pipeline passes it, and its wholeness. -/
abbrev ms7_0 (hO : Ok7 V) (t : Fin (cfgM7 V hO).N) : Memref sig .tc .vmem S1x1x128 .f32 := spec7_0.stage ((cfgM7 V hO).slots t 0)
abbrev hs7_0 (hO : Ok7 V) (t : Fin (cfgM7 V hO).N) : (ms7_0 V hO t).IsWhole := hstage7_0 (((cfgM7 V hO).slots t 0).cast nbuf7_0)
abbrev ms7_1 (hO : Ok7 V) (t : Fin (cfgM7 V hO).N) : Memref sig .tc .vmem S1x1x128 .f32 := spec7_1.stage ((cfgM7 V hO).slots t 1)
abbrev hs7_1 (hO : Ok7 V) (t : Fin (cfgM7 V hO).N) : (ms7_1 V hO t).IsWhole := hstage7_1 (((cfgM7 V hO).slots t 1).cast nbuf7_1)
abbrev ms7_2 (hO : Ok7 V) (t : Fin (cfgM7 V hO).N) : Memref sig .tc .vmem S1x1x128 .f32 := spec7_2.stage ((cfgM7 V hO).slots t 2)
abbrev hs7_2 (hO : Ok7 V) (t : Fin (cfgM7 V hO).N) : (ms7_2 V hO t).IsWhole := hstage7_2 (((cfgM7 V hO).slots t 2).cast nbuf7_2)
abbrev ms7_3 (hO : Ok7 V) (t : Fin (cfgM7 V hO).N) : Memref sig .tc .vmem S1x1x1 .f32 := spec7_3.stage ((cfgM7 V hO).slots t 3)
abbrev hs7_3 (hO : Ok7 V) (t : Fin (cfgM7 V hO).N) : (ms7_3 V hO t).IsWhole := hstage7_3 (((cfgM7 V hO).slots t 3).cast nbuf7_3)
abbrev ms7_4 (hO : Ok7 V) (t : Fin (cfgM7 V hO).N) : Memref sig .tc .vmem S1x1x1 .f32 := spec7_4.stage ((cfgM7 V hO).slots t 4)
abbrev hs7_4 (hO : Ok7 V) (t : Fin (cfgM7 V hO).N) : (ms7_4 V hO t).IsWhole := hstage7_4 (((cfgM7 V hO).slots t 4).cast nbuf7_4)
/-- The scratch operand: a whole scoped buffer of the kernel's own. -/
abbrev scM7 : Memref sig .tc .vmem S1x1x128 .f32 := Memref.whole cc7_scratch0
/-- The table as the body is handed it. -/
abbrev tbM7 : Memref sig .tc .smem S65536 .i32 := Memref.whole main_v78

/-- The kernel body at point `t`, on what the pipeline calls it with. -/
abbrev bodyAt7 (a : (pcfg7 (F := F)).Adm) (t : Fin (cfg7 a).N) : Prog (TpuEff nD τ sig (Elt F) Λ₀ .tc) PUnit :=
  cc7__gather_kernel (grid7.coords t) (Memref.whole main_v78) (Memref.isWhole_whole _) (spec7_0.stage ((cfg7 a).slots t 0)) (hstage7_0 (((cfg7 a).slots t 0).cast nbuf7_0)) (spec7_1.stage ((cfg7 a).slots t 1)) (hstage7_1 (((cfg7 a).slots t 1).cast nbuf7_1)) (spec7_2.stage ((cfg7 a).slots t 2)) (hstage7_2 (((cfg7 a).slots t 2).cast nbuf7_2)) (spec7_3.stage ((cfg7 a).slots t 3)) (hstage7_3 (((cfg7 a).slots t 3).cast nbuf7_3)) (spec7_4.stage ((cfg7 a).slots t 4)) (hstage7_4 (((cfg7 a).slots t 4).cast nbuf7_4)) (Memref.whole cc7_scratch0) (Memref.isWhole_whole _)

/-- Off the last feature the result window is idle: the body stores nothing into it. -/
theorem idleAt7_4 (a : (pcfg7 (F := F)).Adm) (i : grid7.Coords) (h : ¬cond7_1 i) : (cfg7 a).idle 4 i = true := by
  show (!(k7_cond2 i == 1#1)) = true
  simp only [Bool.not_eq_true', beq_eq_false_iff_ne, ne_eq]; exact h
/-- On the last feature it is live. -/
theorem liveAt7_4 (a : (pcfg7 (F := F)).Adm) (i : grid7.Coords) (h : cond7_1 i) : (cfg7 a).idle 4 i = false := by
  show (!(k7_cond2 i == 1#1)) = false
  simp only [Bool.not_eq_false', beq_iff_eq]; exact h
/-- The input windows are never idle. -/
theorem liveAt7_0 (a : (pcfg7 (F := F)).Adm) (i : grid7.Coords) : (cfg7 a).idle 0 i = false := rfl
theorem liveAt7_1 (a : (pcfg7 (F := F)).Adm) (i : grid7.Coords) : (cfg7 a).idle 1 i = false := rfl
theorem liveAt7_2 (a : (pcfg7 (F := F)).Adm) (i : grid7.Coords) : (cfg7 a).idle 2 i = false := rfl
theorem liveAt7_3 (a : (pcfg7 (F := F)).Adm) (i : grid7.Coords) : (cfg7 a).idle 3 i = false := rfl

end Cert.KernelIdeal.Hand

end
-- ==== Proof.KHostT7.lean ====
/-
  Tile 7's five operands, entry by entry: what proof/Proof/KHost.lean says of tile 0, for the rows
  `[2048 · 7, 2048 · 7 + 2048)`. The arrays the tile's stretch reads were written before the first kernel region, and
  neither a region (each writes its own result array only) nor an earlier tile's stretch (each writes its own cuts
  only) touches them since.
-/
import proofs.«402893_j78554951844377_2_alg».proof.Proof.Gen.KernelIdeal.Regions
import proofs.«402893_j78554951844377_2_alg».proof.Proof.Spec
import proofs.«402893_j78554951844377_2_alg».proof.Proof.KHost
import Idealize.ShloMosaic.Lib.StableHlo.Run
import Idealize.ShloMosaic.Lib.Pipeline.Value
import Idealize.ShloMosaic.Lib.ValueLayout
import Idealize.ShloMosaic.Lib.ValueIdx

set_option maxRecDepth 1396

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]
variable (m : (ℓ : Loc nD τ sig) → Buf (Elt F) ℓ) (outs : Outs (F := F))

/-! ## Tile 7

Tile 7 (samples `2048 · 7 + r`, `r < 2048`) is entered at `V19 m outs c`: the stretch `hostOps7` cuts the
tile's rows out of the four host arrays (offset `2048 · 7` on the leading axis) and flattens the rows of gathered
indices into the tile's prefetched table, entry `j` of which is therefore row `j / 32`, feature `j % 32`. -/

section Tile7

/-- The arrays written before the first region are, at tile 7's entry, what they were at `V5 m c`: no region and no
    stretch in between writes them. -/
theorem ent7_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W)
    (h12 : r ∉ ([main_v58] : List (Ref sig .tc))) (h13 : r ∉ hostOps4_W)
    (h14 : r ∉ ([main_v64] : List (Ref sig .tc))) (h15 : r ∉ hostOps5_W)
    (h16 : r ∉ ([main_v70] : List (Ref sig .tc))) (h17 : r ∉ hostOps6_W)
    (h18 : r ∉ ([main_v76] : List (Ref sig .tc))) (h19 : r ∉ hostOps7_W) :
    V19 m outs c r = V5 m c r :=
  (V19_of m outs c r h19).trans <|
    (V18_of m outs c r h18).trans <|
    (V17_of m outs c r h17).trans <|
    (V16_of m outs c r h16).trans <|
    (V15_of m outs c r h15).trans <|
    (V14_of m outs c r h14).trans <|
    (V13_of m outs c r h13).trans <|
    (V12_of m outs c r h12).trans <|
    (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 7, 2048 · 7 + 2048)` of `main_v8`, flattened. -/
theorem tbl7_read (j : Fin 65536) :
    StableHlo.after hostOps7 W main_v78 (ValueIdx.ix1 j)
      = StableHlo.after hostOps7 W main_v8
          (ValueIdx.ix2 (⟨2048 * 7 + j.val / 32, by omega⟩ : Fin 16384) (⟨j.val % 32, by omega⟩ : Fin 32)) := by
  dsimp only [hostOps7]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 7 + j.val / 32 = _ + j.val / 32; omega)

/-- The tile's phase-bias rows: the rows `[2048 · 7, 2048 · 7 + 2048)` of `main_v31`. -/
theorem pa7_read (r : Fin 2048) (l : Fin 128) :
    StableHlo.after hostOps7 W main_v79 (ValueIdx.ix3 r 0 l)
      = StableHlo.after hostOps7 W main_v31 (ValueIdx.ix3 (⟨2048 * 7 + r.val, by omega⟩ : Fin 16384) 0 l) := by
  dsimp only [hostOps7]; open StableHlo in after_results_simp
  exact slice3_axis0_apply _ _ _ r 0 l _ (by show 2048 * 7 + r.val = _ + r.val; omega)

/-- The tile's head weights: the same rows of `main_v32`. -/
theorem w7_read (r : Fin 2048) (l : Fin 128) :
    StableHlo.after hostOps7 W main_v80 (ValueIdx.ix3 r 0 l)
      = StableHlo.after hostOps7 W main_v32 (ValueIdx.ix3 (⟨2048 * 7 + r.val, by omega⟩ : Fin 16384) 0 l) := by
  dsimp only [hostOps7]; open StableHlo in after_results_simp
  exact slice3_axis0_apply _ _ _ r 0 l _ (by show 2048 * 7 + r.val = _ + r.val; omega)

/-- The tile's head biases: the same rows of `main_v33`. -/
theorem b7_read (r : Fin 2048) :
    StableHlo.after hostOps7 W main_v81 (ValueIdx.ix3 r 0 0)
      = StableHlo.after hostOps7 W main_v33 (ValueIdx.ix3 (⟨2048 * 7 + r.val, by omega⟩ : Fin 16384) 0 0) := by
  dsimp only [hostOps7]; open StableHlo in after_results_simp
  exact slice3_axis0_apply _ _ _ r 0 0 _ (by show 2048 * 7 + r.val = _ + r.val; omega)

end Stretch

/-- Entry `j` of tile 7's prefetched table is the gathered row number of sample `2048 · 7 + j / 32`, feature `j % 32`. -/
theorem tbl7_apply (c : Dev nD) (j : Fin 65536) :
    V19 m outs c main_v78 (ValueIdx.ix1 j)
      = Spec.gidxOf (m ((c : Thread nD τ).loc main_arg0)) (m ((c : Thread nD τ).loc main_arg1))
          (m ((c : Thread nD τ).loc main_arg2))
          (ValueIdx.ix2 (⟨2048 * 7 + j.val / 32, by omega⟩ : Fin 16384) (⟨j.val % 32, by omega⟩ : Fin 32)) :=
  (tbl7_read (V18 m outs c) j).trans <| (congrFun (ent7_of m outs c main_v8 (by decide) (by decide) (by decide) (by decide) (by decide) (by decide) (by decide) (by decide) (by decide) (by decide) (by decide) (by decide) (by decide) (by decide)) _).trans <| congrFun (V5_gidx m c) _

/-- The embedding table as tile 7 sees it: row `ρ`, lane `l` of the argument. -/
theorem emb7_apply (c : Dev nD) (ρ : Fin 786432) (l : Fin 128) :
    V19 m outs c main_v34 (ValueIdx.ix3 ρ 0 l) = m ((c : Thread nD τ).loc main_arg3) (ValueIdx.ix2 ρ l) :=
  (congrFun (ent7_of m outs c main_v34 (by decide) (by decide) (by decide) (by decide) (by decide) (by decide) (by decide) (by decide) (by decide) (by decide) (by decide) (by decide) (by decide) (by decide)) _).trans <| V5_emb_apply m c ρ l

/-- Row `r` of tile 7's phase-bias operand is sample `2048 · 7 + r`'s phase-bias row. -/
theorem pa7_apply (c : Dev nD) (r : Fin 2048) (l : Fin 128) :
    V19 m outs c main_v79 (ValueIdx.ix3 r 0 l)
      = Spec.paSelOf (m ((c : Thread nD τ).loc main_arg1)) (m ((c : Thread nD τ).loc main_arg4))
          (ValueIdx.ix2 (⟨2048 * 7 + r.val, by omega⟩ : Fin 16384) l) :=
  (pa7_read (V18 m outs c) r l).trans <| (congrFun (ent7_of m outs c main_v31 (by decide) (by decide) (by decide) (by decide) (by decide) (by decide) (by decide) (by decide) (by decide) (by decide) (by decide) (by decide) (by decide) (by decide)) _).trans <| V5_pa_apply m c _ l

/-- Row `r` of tile 7's head-weight operand is sample `2048 · 7 + r`'s head weights. -/
theorem w7_apply (c : Dev nD) (r : Fin 2048) (l : Fin 128) :
    V19 m outs c main_v80 (ValueIdx.ix3 r 0 l)
      = Spec.wSelOf (m ((c : Thread nD τ).loc main_arg1)) (m ((c : Thread nD τ).loc main_arg5))
          (ValueIdx.ix2 (⟨2048 * 7 + r.val, by omega⟩ : Fin 16384) l) :=
  (w7_read (V18 m outs c) r l).trans <| (congrFun (ent7_of m outs c main_v32 (by decide) (by decide) (by decide) (by decide) (by decide) (by decide) (by decide) (by decide) (by decide) (by decide) (by decide) (by decide) (by decide) (by decide)) _).trans <| V5_w_apply m c _ l

/-- Entry `r` of tile 7's head-bias operand is sample `2048 · 7 + r`'s head bias. -/
theorem b7_apply (c : Dev nD) (r : Fin 2048) :
    V19 m outs c main_v81 (ValueIdx.ix3 r 0 0)
      = Spec.bSelOf (m ((c : Thread nD τ).loc main_arg1)) (m ((c : Thread nD τ).loc main_arg6))
          (ValueIdx.ix1 (⟨2048 * 7 + r.val, by omega⟩ : Fin 16384)) :=
  (b7_read (V18 m outs c) r).trans <| (congrFun (ent7_of m outs c main_v33 (by decide) (by decide) (by decide) (by decide) (by decide) (by decide) (by decide) (by decide) (by decide) (by decide) (by decide) (by decide) (by decide) (by decide)) _).trans <| V5_b_apply m c _

end Tile7

end Cert.KernelIdeal.Hand
-- ==== Proof.R7Ok.lean ====
/-
  Tile 7: the table the region reads, and the pipeline's side condition on it from the range fact.

  Region 7 is entered with the buffers at the valuation after the host stretch that cuts tile 7's operands. Its prefetched table then
  holds, at flat position `32·i₀ + i₁`, the gathered row number of sample `2048·7 + i₀`, feature `i₁`. When every gathered
  row number is below 786432 (the range fact), every word of the table is, which is the side condition under which the
  pipeline is pinned at the table.
-/
import proofs.«402893_j78554951844377_2_alg».proof.Proof.Gen.KernelIdeal.Regions
import proofs.«402893_j78554951844377_2_alg».proof.Proof.Spec
import proofs.«402893_j78554951844377_2_alg».proof.Proof.R7Base
import proofs.«402893_j78554951844377_2_alg».proof.Proof.OkTablesT
import proofs.«402893_j78554951844377_2_alg».proof.Proof.KHostT7
import proofs.«402893_j78554951844377_2_alg».proof.Proof.TileLib
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]

/-- The buffers when region 7 is entered: the valuation after the host stretch that cuts tile 7's operands. -/
abbrev V7in (m : (ℓ : Loc nD τ sig) → Buf (Elt F) ℓ) : (c : Dev nD) → (b : Ref sig .tc) → Buf (Elt F) ((c : Thread nD τ).loc b) :=
  fun c b => V19 m (outsL m) c b

variable (m : (ℓ : Loc nD τ sig) → Buf (Elt F) ℓ)

/-- The table word read at grid point `(i₀, i₁)` is the gathered row number of sample `2048·7 + i₀`, feature `i₁`: the
    word sits at flat position `32·i₀ + i₁`, whose quotient and remainder by 32 are `i₀` and `i₁`. -/
theorem tword7_V7in (c : Dev nD) (i : grid7.Coords) :
    tword7 (tbl7 (V7in m)) i
      = Spec.gidxOf (m ((c : Thread nD τ).loc main_arg0)) (m ((c : Thread nD τ).loc main_arg1)) (m ((c : Thread nD τ).loc main_arg2))
          (ValueIdx.ix2 (⟨2048 * 7 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V7in m 0 main_v78 (ValueIdx.ix1 ⟨32 * (i 0).val + (i 1).val, pos_lt7 i⟩) = _
  refine (tbl7_apply m (outsL m) 0 ⟨32 * (i 0).val + (i 1).val, pos_lt7 i⟩).trans ?_
  exact congrArg _ (ix2_congr (by show 2048 * 7 + (32 * (i 0).val + (i 1).val) / 32 = 2048 * 7 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok7_of_inRange (c : Dev nD)
    (hin : Spec.InRange (Spec.gidxOf (m ((c : Thread nD τ).loc main_arg0)) (m ((c : Thread nD τ).loc main_arg1)) (m ((c : Thread nD τ).loc main_arg2)))) :
    Ok7 (V7in m) :=
  ok7_of (tbl7 (V7in m)) fun i => by rw [tword7_V7in m c i]; exact hin _ _

end Cert.KernelIdeal.Hand

end
-- ==== Proof.R7Grid.lean ====
import proofs.«402893_j78554951844377_2_alg».proof.Proof.R7Run
import Idealize.ShloMosaic.Lib.Pipeline.Kit
import Mathlib.Data.Fin.VecNotation

noncomputable section

namespace Cert.KernelIdeal.Hand

open Cert.KernelIdeal Cert.KernelIdeal.Gen
open Idealize.ShloMosaic
open Idealize.ShloMosaic.Pipeline (Cfg Window)

variable {F : FTy → Type} [FloatOps F]

/-! # Tile 7: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride7_0 : grid7.stride 0 = 32 := by decide
/-- The feature coordinate changes at every point. -/
theorem stride7_1 : grid7.stride 1 = 1 := by decide

/-- The sample coordinate of point `t` is `t / 32`: the quotient is below 2048, so reducing it modulo the
    axis's bound changes nothing. -/
theorem coords7_val0 (t : Fin grid7.N) : ((grid7.coords t) 0).val = t.val / 32 := by
  have ht : t.val < 65536 := N_7 ▸ t.isLt
  show t.val / grid7.stride 0 % 2048 = t.val / 32
  rw [stride7_0]; omega

/-- The feature coordinate of point `t` is `t % 32`. -/
theorem coords7_val1 (t : Fin grid7.N) : ((grid7.coords t) 1).val = t.val % 32 := by
  show t.val / grid7.stride 1 % 32 = t.val % 32
  rw [stride7_1, Nat.div_one]

/-- The first condition holds exactly at feature 0: checked at each of the 32 values of the coordinate. -/
theorem cond7_0_iff (i : grid7.Coords) : cond7_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond7_1_iff (i : grid7.Coords) : cond7_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond7_0_first (t : Fin grid7.N) (h : t.val = 0) : cond7_0 (grid7.coords t) := by
  rw [cond7_0_iff, coords7_val1, h]

/-- No feature is both the first and the last. -/
theorem not_both7 (i : grid7.Coords) : cond7_0 i → cond7_1 i → False := by
  rw [cond7_0_iff, cond7_1_iff]; omega

/-- A sample number, made a 32-bit word and read back, is itself. -/
private theorem toNat_ofNat_sample (t : Fin grid7.N) : (BitVec.ofNat 32 ((grid7.coords t) 0).val).toNat = t.val / 32 := by
  have ht : t.val < 65536 := N_7 ▸ t.isLt
  rw [coords7_val0, BitVec.toNat_ofNat, Nat.mod_eq_of_lt (by omega)]

/-- Window 1's block at point `t` is the one of sample `t / 32`. -/
theorem index7_1 (a : (pcfg7 (F := F)).Adm) (t : Fin (cfg7 a).N) : ((cfg7 a).win 1).index t = ![t.val / 32, 0, 0] := by
  show (![(BitVec.ofNat 32 ((grid7.coords t) 0).val).toNat, (0#32).toNat, (0#32).toNat] : Fin 3 → ℕ) = _
  rw [toNat_ofNat_sample]; rfl
/-- Window 2's block at point `t` is the one of sample `t / 32`. -/
theorem index7_2 (a : (pcfg7 (F := F)).Adm) (t : Fin (cfg7 a).N) : ((cfg7 a).win 2).index t = ![t.val / 32, 0, 0] := by
  show (![(BitVec.ofNat 32 ((grid7.coords t) 0).val).toNat, (0#32).toNat, (0#32).toNat] : Fin 3 → ℕ) = _
  rw [toNat_ofNat_sample]; rfl
/-- Window 3's block at point `t` is the one of sample `t / 32`. -/
theorem index7_3 (a : (pcfg7 (F := F)).Adm) (t : Fin (cfg7 a).N) : ((cfg7 a).win 3).index t = ![t.val / 32, 0, 0] := by
  show (![(BitVec.ofNat 32 ((grid7.coords t) 0).val).toNat, (0#32).toNat, (0#32).toNat] : Fin 3 → ℕ) = _
  rw [toNat_ofNat_sample]; rfl
/-- The output window's block at point `t` is the one of sample `t / 32`. -/
theorem index7_4 (a : (pcfg7 (F := F)).Adm) (t : Fin (cfg7 a).N) : ((cfg7 a).win 4).index t = ![t.val / 32, 0, 0] := by
  show (![(BitVec.ofNat 32 ((grid7.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush7_4_iff (a : (pcfg7 (F := F)).Adm) (t : Fin (cfg7 a).N) : ((cfg7 a).win 4).flush t = true ↔ t.val % 32 = 31 := by
  have hN : (cfg7 a).N = 65536 := N_7
  have ht : t.val < 65536 := hN ▸ t.isLt
  have hout : ((cfg7 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index7_4, index7_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg7 a).N := Nat.lt_of_lt_of_eq (by omega : t.val + 1 < 65536) hN.symm
      refine Or.inr ⟨hlt, ?_⟩
      rw [index7_4, index7_4]
      have hne' : (t.val + 1) / 32 ≠ t.val / 32 := by omega
      exact (vec3_ne_iff _ _).mpr hne'

/-- At a sample's last feature the output block is written back. -/
theorem flush7_4 (a : (pcfg7 (F := F)).Adm) (t : Fin (cfg7 a).N) (h : cond7_1 (grid7.coords t)) : ((cfg7 a).win 4).flush t = true := by
  rw [flush7_4_iff, ← coords7_val1]; exact (cond7_1_iff _).mp h

/-- At any other feature the output block stays. -/
theorem noFlush7_4 (a : (pcfg7 (F := F)).Adm) (t : Fin (cfg7 a).N) (h : ¬cond7_1 (grid7.coords t)) : ((cfg7 a).win 4).flush t = false := by
  rw [← Bool.not_eq_true, flush7_4_iff, ← coords7_val1]; exact fun e => h ((cond7_1_iff _).mpr e)

end Cert.KernelIdeal.Hand

end
-- ==== Proof.R7Acc.lean ====
import proofs.«402893_j78554951844377_2_alg».proof.Proof.Gen.KernelIdeal.Launch
import proofs.«402893_j78554951844377_2_alg».proof.Proof.Gen.KernelIdeal.Skeleton
import proofs.«402893_j78554951844377_2_alg».proof.Proof.R7Base
import proofs.«402893_j78554951844377_2_alg».proof.Proof.R7Grid
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 7: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow7 (hO : Ok7 V) (c : Dev nD) (t : Fin (cfgM7 V hO).N) : Vec F S1x1x128 .f32 := iblk7 V hO c 0 t
abbrev xpa7 (hO : Ok7 V) (c : Dev nD) (t : Fin (cfgM7 V hO).N) : Vec F S1x1x128 .f32 := iblk7 V hO c 1 t
abbrev xw7 (hO : Ok7 V) (c : Dev nD) (t : Fin (cfgM7 V hO).N) : Vec F S1x1x128 .f32 := iblk7 V hO c 2 t
abbrev xb7 (hO : Ok7 V) (c : Dev nD) (t : Fin (cfgM7 V hO).N) : Vec F S1x1x1 .f32 := iblk7 V hO c 3 t

/-- THE ACCUMULATION: the scratch after the body at position `n`. -/
def accAt7 (hO : Ok7 V) (c : Dev nD) : (n : ℕ) → n < (cfgM7 V hO).N → Vec F S1x1x128 .f32
  | 0, hn => k7_pay2 (k7_pay1 (F := F)) (xrow7 V hO c ⟨0, hn⟩)
  | n + 1, hn =>
    if cond7_0 (grid7.coords ⟨n + 1, hn⟩) then k7_pay2 (k7_pay1 (F := F)) (xrow7 V hO c ⟨n + 1, hn⟩)
    else k7_pay2 (accAt7 hO c n (Nat.lt_of_succ_lt hn)) (xrow7 V hO c ⟨n + 1, hn⟩)

/-- At a sample's first feature the scratch restarts from zero. -/
theorem accAt7_A (hO : Ok7 V) (c : Dev nD) (t : Fin (cfgM7 V hO).N) (h0 : cond7_0 (grid7.coords t)) :
    accAt7 V hO c t.val t.isLt = k7_pay2 (k7_pay1 (F := F)) (xrow7 V hO c t) := by
  obtain ⟨n, hn⟩ := t
  cases n with
  | zero => rfl
  | succ n => exact if_pos h0

/-- Elsewhere it adds the row to what the point before left. -/
theorem accAt7_B (hO : Ok7 V) (c : Dev nD) (t : Fin (cfgM7 V hO).N) (h0 : ¬cond7_0 (grid7.coords t)) (hz : t.val ≠ 0) :
    accAt7 V hO c t.val t.isLt = k7_pay2 (accAt7 V hO c (t.val - 1) (by omega)) (xrow7 V hO c t) := by
  obtain ⟨n, hn⟩ := t
  cases n with
  | zero => exact absurd rfl hz
  | succ n => exact if_neg h0

/-- The sample's result as the body computes it at a point (read at the last feature). -/
def outAt7 (hO : Ok7 V) (c : Dev nD) (t : Fin (cfgM7 V hO).N) : Vec F S1x1x1 .f32 :=
  k7_pay3 (accAt7 V hO c t.val t.isLt) (xpa7 V hO c t) (xw7 V hO c t) (xb7 V hO c t)

/-- What rides along unread: the other scoped buffers, the generator register, the table. -/
def Rest7 (c : Dev nD) : sProp 𝕄 :=
  iprop(Pipeline.scopedRestBut (Ix := Unit) (Name := ℕ) (U := UR sig nD τ) (Lvl := ℕ) (Val := Elt F) spec7 c [cc7_scratch0]
    ∗ (∃ r, prngReg c r) ∗ Pipeline.prefHeld (Ix := Unit) (Name := ℕ) (U := UR sig nD τ) (Lvl := ℕ) pre7 c (fun _ => fullShare) (tbl7 V))

/-- The region invariant before position `n`: the scratch at anything before the first point, afterwards at what
    the point before left. -/
def PhiS7 (hO : Ok7 V) (c : Dev nD) : (n : ℕ) → n ≤ (cfgM7 V hO).N → sProp 𝕄
  | 0, _ => iprop((∃ d, owns (c : Thread nD τ) scM7 fullShare d) ∗ Rest7 V c)
  | n + 1, hn => iprop(owns (c : Thread nD τ) scM7 fullShare (accAt7 V hO c n hn) ∗ Rest7 V c)

theorem PhiS7_zero (hO : Ok7 V) (c : Dev nD) (n : ℕ) (h : n ≤ (cfgM7 V hO).N) (hz : n = 0) :
    PhiS7 V hO c n h = iprop((∃ d, owns (c : Thread nD τ) scM7 fullShare d) ∗ Rest7 V c) := by
  subst hz; rfl
theorem PhiS7_succ (hO : Ok7 V) (c : Dev nD) (n : ℕ) (hn : n < (cfgM7 V hO).N) :
    PhiS7 V hO c (n + 1) hn = iprop(owns (c : Thread nD τ) scM7 fullShare (accAt7 V hO c n hn) ∗ Rest7 V c) := rfl
theorem PhiS7_pos (hO : Ok7 V) (c : Dev nD) (n : ℕ) (h : n ≤ (cfgM7 V hO).N) (hz : n ≠ 0) :
    PhiS7 V hO c n h = iprop(owns (c : Thread nD τ) scM7 fullShare (accAt7 V hO c (n - 1) (by omega)) ∗ Rest7 V c) := by
  cases n with
  | zero => exact absurd rfl hz
  | succ n => rfl

/-- The proof data of the tile's pipeline on core `c`: the arrays as the region finds them; after the body each input's
    buffer at its block and the result's at `outAt7`; the invariant `PhiS7`; nothing owed; full shares. -/
def dat7 (hO : Ok7 V) (c : Dev nD) : Dat τ (Elt F) Unit ℕ (UR sig nD τ) ℕ (cfgM7 V hO) c where
  A w := V c (Pipeline.arrRef spec7 w)
  after w t := match w with
    | ⟨0, _⟩ => iblk7 V hO c 0 t
    | ⟨1, _⟩ => iblk7 V hO c 1 t
    | ⟨2, _⟩ => iblk7 V hO c 2 t
    | ⟨3, _⟩ => iblk7 V hO c 3 t
    | ⟨4, _⟩ => outAt7 V hO c t
  Φ t := PhiS7 V hO c t.val (Nat.le_of_lt_succ t.isLt)
  q _ := fullShare
  owed _ := 0

theorem A_eq7 (hO : Ok7 V) (c : Dev nD) (w : Fin (cfgM7 V hO).W) : (dat7 V hO c).A w = V c (Pipeline.arrRef spec7 w) := by
  dsimp only [dat7]
theorem PhiS7_castSucc (hO : Ok7 V) (c : Dev nD) (t : Fin (cfgM7 V hO).N) :
    (dat7 V hO c).Φ t.castSucc = PhiS7 V hO c t.val (Nat.le_of_lt t.isLt) := by
  dsimp only [dat7]; simp only [Fin.coe_castSucc]
theorem after7_0 (hO : Ok7 V) (c : Dev nD) (t : Fin (cfgM7 V hO).N) : (dat7 V hO c).after 0 t = iblk7 V hO c 0 t := by dsimp only [dat7]; try rfl
theorem after7_1 (hO : Ok7 V) (c : Dev nD) (t : Fin (cfgM7 V hO).N) : (dat7 V hO c).after 1 t = iblk7 V hO c 1 t := by dsimp only [dat7]; try rfl
theorem after7_2 (hO : Ok7 V) (c : Dev nD) (t : Fin (cfgM7 V hO).N) : (dat7 V hO c).after 2 t = iblk7 V hO c 2 t := by dsimp only [dat7]; try rfl
theorem after7_3 (hO : Ok7 V) (c : Dev nD) (t : Fin (cfgM7 V hO).N) : (dat7 V hO c).after 3 t = iblk7 V hO c 3 t := by dsimp only [dat7]; try rfl
theorem after7_4 (hO : Ok7 V) (c : Dev nD) (t : Fin (cfgM7 V hO).N) : (dat7 V hO c).after 4 t = outAt7 V hO c t := by dsimp only [dat7]; try rfl

theorem before7_0 (hO : Ok7 V) (c : Dev nD) (t : Fin (cfgM7 V hO).N) (d) : (dat7 V hO c).before 0 t d = iblk7 V hO c 0 t :=
  before7_0_of V hO (dat7 V hO c) (A_eq7 V hO c 0) (after7_0 V hO c) t d
theorem before7_1 (hO : Ok7 V) (c : Dev nD) (t : Fin (cfgM7 V hO).N) (d) : (dat7 V hO c).before 1 t d = iblk7 V hO c 1 t :=
  before7_1_of V hO (dat7 V hO c) (A_eq7 V hO c 1) (after7_1 V hO c) t d
theorem before7_2 (hO : Ok7 V) (c : Dev nD) (t : Fin (cfgM7 V hO).N) (d) : (dat7 V hO c).before 2 t d = iblk7 V hO c 2 t :=
  before7_2_of V hO (dat7 V hO c) (A_eq7 V hO c 2) (after7_2 V hO c) t d
theorem before7_3 (hO : Ok7 V) (c : Dev nD) (t : Fin (cfgM7 V hO).N) (d) : (dat7 V hO c).before 3 t d = iblk7 V hO c 3 t :=
  before7_3_of V hO (dat7 V hO c) (A_eq7 V hO c 3) (after7_3 V hO c) t d

/-- What the body is called with at point `t`, the windows one by one, -/
def bodyPre7 (hO : Ok7 V) (c : Dev nD) (t : Fin (cfgM7 V hO).N) : sProp 𝕄 :=
  iprop((dat7 V hO c).Φ t.castSucc ∗ (dat7 V hO c).owesAt () t.castSucc
    ∗ (∃ d, owns (c : Thread nD τ) (ms7_0 V hO t) fullShare ((dat7 V hO c).before 0 t d))
    ∗ (∃ d, owns (c : Thread nD τ) (ms7_1 V hO t) fullShare ((dat7 V hO c).before 1 t d))
    ∗ (∃ d, owns (c : Thread nD τ) (ms7_2 V hO t) fullShare ((dat7 V hO c).before 2 t d))
    ∗ (∃ d, owns (c : Thread nD τ) (ms7_3 V hO t) fullShare ((dat7 V hO c).before 3 t d))
    ∗ (∃ d, owns (c : Thread nD τ) (ms7_4 V hO t) fullShare ((dat7 V hO c).before 4 t d)))

/-- and what it returns. -/
def bodyPost7 (hO : Ok7 V) (c : Dev nD) (t : Fin (cfgM7 V hO).N) : sProp 𝕄 :=
  iprop((dat7 V hO c).Φ t.succ ∗ (dat7 V hO c).owesAt () t.succ
    ∗ (dat7 V hO c).leavesExact 0 t
    ∗ (dat7 V hO c).leavesExact 1 t
    ∗ (dat7 V hO c).leavesExact 2 t
    ∗ (dat7 V hO c).leavesExact 3 t
    ∗ (dat7 V hO c).leavesExact 4 t)

/-- The windows' idle flags at a point, stated at the pinned configuration. -/
theorem liveAtM7_0 (hO : Ok7 V) (t : Fin (cfgM7 V hO).N) : (cfgM7 V hO).idle 0 ((cfgM7 V hO).grid.coords t) = false := rfl
theorem liveAtM7_1 (hO : Ok7 V) (t : Fin (cfgM7 V hO).N) : (cfgM7 V hO).idle 1 ((cfgM7 V hO).grid.coords t) = false := rfl
theorem liveAtM7_2 (hO : Ok7 V) (t : Fin (cfgM7 V hO).N) : (cfgM7 V hO).idle 2 ((cfgM7 V hO).grid.coords t) = false := rfl
theorem liveAtM7_3 (hO : Ok7 V) (t : Fin (cfgM7 V hO).N) : (cfgM7 V hO).idle 3 ((cfgM7 V hO).grid.coords t) = false := rfl
theorem idleAtM7_4 (hO : Ok7 V) (t : Fin (cfgM7 V hO).N) (h : ¬cond7_1 (grid7.coords t)) :
    (cfgM7 V hO).idle 4 ((cfgM7 V hO).grid.coords t) = true := idleAt7_4 (adm7 V hO) (grid7.coords t) h
theorem liveAtM7_4 (hO : Ok7 V) (t : Fin (cfgM7 V hO).N) (h : cond7_1 (grid7.coords t)) :
    (cfgM7 V hO).idle 4 ((cfgM7 V hO).grid.coords t) = false := liveAt7_4 (adm7 V hO) (grid7.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body7 (hO : Ok7 V) (c : Dev nD) (t : Fin (cfgM7 V hO).N) :
    bodyPre7 V hO c t ⊢ wp frame (wpE (defs₀ (F := F)) Variants.none c none) Set.univ (bodyAt7 (adm7 V hO) t) (fun _ => bodyPost7 V hO c t) := by
  unfold bodyPre7 bodyPost7 bodyAt7
  simp only [before7_0, before7_1, before7_2, before7_3]
  rw [show (dat7 V hO c).owesAt () t.succ = (dat7 V hO c).owesAt () t.castSucc from rfl]
  rw [show (dat7 V hO c).Φ t.succ = PhiS7 V hO c (t.val + 1) t.isLt from rfl, PhiS7_succ]
  rw [show (dat7 V hO c).leavesExact 0 t = owns (c : Thread nD τ) (ms7_0 V hO t) fullShare ((dat7 V hO c).after 0 t) from by
    unfold Dat.leavesExact; rw [liveAtM7_0 V hO t]; try rfl]
  rw [after7_0]
  rw [show (dat7 V hO c).leavesExact 1 t = owns (c : Thread nD τ) (ms7_1 V hO t) fullShare ((dat7 V hO c).after 1 t) from by
    unfold Dat.leavesExact; rw [liveAtM7_1 V hO t]; try rfl]
  rw [after7_1]
  rw [show (dat7 V hO c).leavesExact 2 t = owns (c : Thread nD τ) (ms7_2 V hO t) fullShare ((dat7 V hO c).after 2 t) from by
    unfold Dat.leavesExact; rw [liveAtM7_2 V hO t]; try rfl]
  rw [after7_2]
  rw [show (dat7 V hO c).leavesExact 3 t = owns (c : Thread nD τ) (ms7_3 V hO t) fullShare ((dat7 V hO c).after 3 t) from by
    unfold Dat.leavesExact; rw [liveAtM7_3 V hO t]; try rfl]
  rw [after7_3]
  rw [PhiS7_castSucc]
  by_cases h0 : cond7_0 (grid7.coords t)
  · by_cases h1 : cond7_1 (grid7.coords t)
    · exact absurd h1 (fun h => not_both7 _ h0 h)
    · rw [Dat.leavesExact_idle (dat7 V hO c) 4 t (idleAtM7_4 V hO t h1) (noFlush7_4 (adm7 V hO) t h1)]
      rw [accAt7_A V hO c t h0]
      by_cases hz : t.val = 0
      · rw [PhiS7_zero V hO c _ _ hz]
        iintro ⟨⟨HS, HR⟩, Ho, ⟨%d0, H0⟩, ⟨%d1, H1⟩, ⟨%d2, H2⟩, ⟨%d3, H3⟩, ⟨%d4, H4⟩⟩
        iapply (run7_A c (grid7.coords t) _ _ _ _ _ _ _ _ _ _ _ _ _ _ h0 h1 (xrow7 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS7_pos V hO c _ _ hz]
        iintro ⟨⟨HS, HR⟩, Ho, ⟨%d0, H0⟩, ⟨%d1, H1⟩, ⟨%d2, H2⟩, ⟨%d3, H3⟩, ⟨%d4, H4⟩⟩
        iapply (run7_A c (grid7.coords t) _ _ _ _ _ _ _ _ _ _ _ _ _ _ h0 h1 (xrow7 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond7_0_first t hz)
    rw [PhiS7_pos V hO c _ _ hz, accAt7_B V hO c t h0 hz]
    by_cases h1 : cond7_1 (grid7.coords t)
    · rw [show (dat7 V hO c).leavesExact 4 t = owns (c : Thread nD τ) (ms7_4 V hO t) fullShare ((dat7 V hO c).after 4 t) from by
        unfold Dat.leavesExact; rw [liveAtM7_4 V hO t h1]; try rfl]
      rw [after7_4]
      unfold outAt7
      rw [accAt7_B V hO c t h0 hz]
      iintro ⟨⟨HS, HR⟩, Ho, ⟨%d0, H0⟩, ⟨%d1, H1⟩, ⟨%d2, H2⟩, ⟨%d3, H3⟩, ⟨%d4, H4⟩⟩
      iapply (run7_C c (grid7.coords t) _ _ _ _ _ _ _ _ _ _ _ _ _ _ h0 h1 (xrow7 V hO c t) (xpa7 V hO c t) (xw7 V hO c t) (xb7 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat7 V hO c) 4 t (idleAtM7_4 V hO t h1) (noFlush7_4 (adm7 V hO) t h1)]
      iintro ⟨⟨HS, HR⟩, Ho, ⟨%d0, H0⟩, ⟨%d1, H1⟩, ⟨%d2, H2⟩, ⟨%d3, H3⟩, ⟨%d4, H4⟩⟩
      iapply (run7_B c (grid7.coords t) _ _ _ _ _ _ _ _ _ _ _ _ _ _ h0 h1 (xrow7 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation7 (hO : Ok7 V) (c : Dev nD) :
    BodyObligation (dat7 (F := F) V hO c) (defs₀ (F := F)) Variants.none () Set.univ := fun t => by
  rw [bigSep_W7, bigSep_W7]
  exact sound_body7 V hO c t

end Cert.KernelIdeal.Hand

end
-- ==== Proof.R7Val.lean ====
import proofs.«402893_j78554951844377_2_alg».proof.Proof.R7Acc
import proofs.«402893_j78554951844377_2_alg».proof.Proof.R7Grid
import proofs.«402893_j78554951844377_2_alg».proof.Proof.OkTablesT
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 7: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt7 (t : Fin grid7.N) : t.val / 32 < 2048 := by
  have ht : t.val < 65536 := N_7 ▸ t.isLt
  omega

/-- The last feature of sample `r` is a point of the grid. -/
theorem lastPt_lt7 (r : ℕ) (hr : r < 2048) : 32 * r + 31 < grid7.N := by rw [N_7]; omega

/-- Under the side condition every word the index map of window 0 reads names a row of the embedding table. -/
theorem tword7_lt (pf : pre7.Contents (Elt F)) (h : ok7 pf) (i : grid7.Coords) : (tword7 pf i).toNat < 786432 := by
  obtain ⟨hb, -⟩ := h i
  have h0 := hb 0
  rw [transform7_eq pf i] at h0
  have h0' : ((tword7 pf i).toNat + 1) * 1 ≤ 786432 := h0
  omega

/-- Window 0's block at point `t` is the row the table's word names. -/
theorem index7_0 (a : (pcfg7 (F := F)).Adm) (t : Fin (cfg7 a).N) :
    ((cfg7 a).win 0).index t = ![(tword7 a.1 (grid7.coords t)).toNat, 0, 0] :=
  transform7_eq a.1 (grid7.coords t)

/-- Lane `l` of window 0's block sits in the embedding table at (the named row, 0, l). -/
theorem emb7_0 (a : (pcfg7 (F := F)).Adm) (t : Fin (cfg7 a).N) (l : Fin 128) :
    (((cfg7 a).win 0).blk t).view.emb (ValueIdx.ix3 (0 : Fin 1) (0 : Fin 1) l)
      = ValueIdx.ix3 (⟨(tword7 a.1 (grid7.coords t)).toNat, tword7_lt a.1 a.2 (grid7.coords t)⟩ : Fin 786432) (0 : Fin 1) l := by
  funext d; apply Fin.ext
  match d with
  | ⟨0, _⟩ => show ((cfg7 a).win 0).index t (0 : Fin 3) * 1 + 1 * 0 = (tword7 a.1 (grid7.coords t)).toNat; rw [index7_0]; show (tword7 a.1 (grid7.coords t)).toNat * 1 + 1 * 0 = _; omega
  | ⟨1, _⟩ => show ((cfg7 a).win 0).index t (1 : Fin 3) * 1 + 1 * 0 = 0; rw [index7_0]; rfl
  | ⟨2, _⟩ => show ((cfg7 a).win 0).index t (2 : Fin 3) * 128 + 1 * l.val = l.val; rw [index7_0]; show 0 * 128 + 1 * l.val = l.val; omega

/-- Lane `l` of window 1's block sits in its array at (sample, 0, l). -/
theorem emb7_1 (a : (pcfg7 (F := F)).Adm) (t : Fin (cfg7 a).N) (l : Fin 128) :
    (((cfg7 a).win 1).blk t).view.emb (ValueIdx.ix3 (0 : Fin 1) (0 : Fin 1) l)
      = ValueIdx.ix3 (⟨t.val / 32, sample_lt7 t⟩ : Fin 2048) (0 : Fin 1) l := by
  funext d; apply Fin.ext
  match d with
  | ⟨0, _⟩ => show ((cfg7 a).win 1).index t (0 : Fin 3) * 1 + 1 * 0 = t.val / 32; rw [index7_1]; show t.val / 32 * 1 + 1 * 0 = _; omega
  | ⟨1, _⟩ => show ((cfg7 a).win 1).index t (1 : Fin 3) * 1 + 1 * 0 = 0; rw [index7_1]; rfl
  | ⟨2, _⟩ => show ((cfg7 a).win 1).index t (2 : Fin 3) * 128 + 1 * l.val = l.val; rw [index7_1]; show 0 * 128 + 1 * l.val = l.val; omega

/-- Lane `l` of window 2's block sits in its array at (sample, 0, l). -/
theorem emb7_2 (a : (pcfg7 (F := F)).Adm) (t : Fin (cfg7 a).N) (l : Fin 128) :
    (((cfg7 a).win 2).blk t).view.emb (ValueIdx.ix3 (0 : Fin 1) (0 : Fin 1) l)
      = ValueIdx.ix3 (⟨t.val / 32, sample_lt7 t⟩ : Fin 2048) (0 : Fin 1) l := by
  funext d; apply Fin.ext
  match d with
  | ⟨0, _⟩ => show ((cfg7 a).win 2).index t (0 : Fin 3) * 1 + 1 * 0 = t.val / 32; rw [index7_2]; show t.val / 32 * 1 + 1 * 0 = _; omega
  | ⟨1, _⟩ => show ((cfg7 a).win 2).index t (1 : Fin 3) * 1 + 1 * 0 = 0; rw [index7_2]; rfl
  | ⟨2, _⟩ => show ((cfg7 a).win 2).index t (2 : Fin 3) * 128 + 1 * l.val = l.val; rw [index7_2]; show 0 * 128 + 1 * l.val = l.val; omega

/-- The one element of window 3's block sits in its array at (sample, 0, 0). -/
theorem emb7_3 (a : (pcfg7 (F := F)).Adm) (t : Fin (cfg7 a).N) :
    (((cfg7 a).win 3).blk t).view.emb (ValueIdx.ix3 (0 : Fin 1) (0 : Fin 1) (0 : Fin 1))
      = ValueIdx.ix3 (⟨t.val / 32, sample_lt7 t⟩ : Fin 2048) (0 : Fin 1) (0 : Fin 1) := by
  funext d; apply Fin.ext
  match d with
  | ⟨0, _⟩ => show ((cfg7 a).win 3).index t (0 : Fin 3) * 1 + 1 * 0 = t.val / 32; rw [index7_3]; show t.val / 32 * 1 + 1 * 0 = _; omega
  | ⟨1, _⟩ => show ((cfg7 a).win 3).index t (1 : Fin 3) * 1 + 1 * 0 = 0; rw [index7_3]; rfl
  | ⟨2, _⟩ => show ((cfg7 a).win 3).index t (2 : Fin 3) * 1 + 1 * 0 = 0; rw [index7_3]; rfl

/-- The one element of the result window's block sits in the result array at (sample, 0, 0). -/
theorem emb7_4 (a : (pcfg7 (F := F)).Adm) (t : Fin (cfg7 a).N) :
    (((cfg7 a).win 4).blk t).view.emb (ValueIdx.ix3 (0 : Fin 1) (0 : Fin 1) (0 : Fin 1))
      = ValueIdx.ix3 (⟨t.val / 32, sample_lt7 t⟩ : Fin 2048) (0 : Fin 1) (0 : Fin 1) := by
  funext d; apply Fin.ext
  match d with
  | ⟨0, _⟩ => show ((cfg7 a).win 4).index t (0 : Fin 3) * 1 + 1 * 0 = t.val / 32; rw [index7_4]; show t.val / 32 * 1 + 1 * 0 = _; omega
  | ⟨1, _⟩ => show ((cfg7 a).win 4).index t (1 : Fin 3) * 1 + 1 * 0 = 0; rw [index7_4]; rfl
  | ⟨2, _⟩ => show ((cfg7 a).win 4).index t (2 : Fin 3) * 1 + 1 * 0 = 0; rw [index7_4]; rfl

section AtTable

variable (V : (c : Dev nD) → (b : Ref sig .tc) → Buf (Elt F) ((c : Thread nD τ).loc b))

/-! ## The input blocks at coordinates -/

/-- The row of the embedding table gathered at point `t`: the table's word there. -/
abbrev rho7 (t : Fin grid7.N) : ℕ := (tword7 (tbl7 V) (grid7.coords t)).toNat

/-- It is a row of the table, under the side condition. -/
theorem rho7_lt (hO : Ok7 V) (t : Fin grid7.N) : rho7 V t < 786432 := tword7_lt (tbl7 V) hO (grid7.coords t)

/-- Lane `l` of the gathered row at point `t` is the embedding table at (the named row, 0, l). -/
theorem xrow7_apply (hO : Ok7 V) (c : Dev nD) (t : Fin (cfgM7 V hO).N) (l : Fin 128) :
    xrow7 V hO c t (ValueIdx.ix3 (0 : Fin 1) (0 : Fin 1) l)
      = V c main_v34 (ValueIdx.ix3 (⟨rho7 V t, rho7_lt V hO t⟩ : Fin 786432) (0 : Fin 1) l) := by
  show V c main_v34 ((((cfgM7 V hO).win 0).blk t).view.emb (ValueIdx.ix3 (0 : Fin 1) (0 : Fin 1) l)) = _
  exact congrArg (V c main_v34) (emb7_0 (adm7 V hO) t l)

/-- Lane `l` of the phase-bias block at point `t` is its array at (sample, 0, l). -/
theorem xpa7_apply (hO : Ok7 V) (c : Dev nD) (t : Fin (cfgM7 V hO).N) (l : Fin 128) :
    xpa7 V hO c t (ValueIdx.ix3 (0 : Fin 1) (0 : Fin 1) l)
      = V c main_v79 (ValueIdx.ix3 (⟨t.val / 32, sample_lt7 t⟩ : Fin 2048) (0 : Fin 1) l) := by
  show V c main_v79 ((((cfgM7 V hO).win 1).blk t).view.emb (ValueIdx.ix3 (0 : Fin 1) (0 : Fin 1) l)) = _
  exact congrArg (V c main_v79) (emb7_1 (adm7 V hO) t l)

/-- Lane `l` of the head-weight block at point `t` is its array at (sample, 0, l). -/
theorem xw7_apply (hO : Ok7 V) (c : Dev nD) (t : Fin (cfgM7 V hO).N) (l : Fin 128) :
    xw7 V hO c t (ValueIdx.ix3 (0 : Fin 1) (0 : Fin 1) l)
      = V c main_v80 (ValueIdx.ix3 (⟨t.val / 32, sample_lt7 t⟩ : Fin 2048) (0 : Fin 1) l) := by
  show V c main_v80 ((((cfgM7 V hO).win 2).blk t).view.emb (ValueIdx.ix3 (0 : Fin 1) (0 : Fin 1) l)) = _
  exact congrArg (V c main_v80) (emb7_2 (adm7 V hO) t l)

/-- The head-bias block at point `t` is its array at (sample, 0, 0). -/
theorem xb7_apply (hO : Ok7 V) (c : Dev nD) (t : Fin (cfgM7 V hO).N) :
    xb7 V hO c t (ValueIdx.ix3 (0 : Fin 1) (0 : Fin 1) (0 : Fin 1))
      = V c main_v81 (ValueIdx.ix3 (⟨t.val / 32, sample_lt7 t⟩ : Fin 2048) (0 : Fin 1) (0 : Fin 1)) := by
  show V c main_v81 ((((cfgM7 V hO).win 3).blk t).view.emb (ValueIdx.ix3 (0 : Fin 1) (0 : Fin 1) (0 : Fin 1))) = _
  exact congrArg (V c main_v81) (emb7_3 (adm7 V hO) t)

/-! ## The arrays after the run -/

/-- An input's array is never written: it ends as the region found it. -/
theorem arrAt7_in (hO : Ok7 V) (c : Dev nD) (w : Fin 5) (hw : w ≠ 4) :
    (dat7 V hO c).arrAt w (cfgM7 V hO).N = V c (Pipeline.arrRef spec7 w) := by
  have hin : ((cfgM7 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat7 V hO c).arrAt_in w hin _).trans (A_eq7 V hO c w)

/-- THE RESULT ARRAY of the tile: row `r` holds what the body left in the result block at sample `r`'s last feature. -/
def tileRes7 (hO : Ok7 V) (c : Dev nD) : Buf (Elt F) ((c : Thread nD τ).loc main_v82) :=
  fun (i : S2048x1x1.Idx) => outAt7 V hO c ⟨32 * (i 0).val + 31, lastPt_lt7 (i 0).val (i 0).isLt⟩ (ValueIdx.ix3 (0 : Fin 1) (0 : Fin 1) (0 : Fin 1))

theorem tileRes7_apply (hO : Ok7 V) (c : Dev nD) (r : Fin 2048) :
    tileRes7 V hO c (ValueIdx.ix3 r (0 : Fin 1) (0 : Fin 1))
      = outAt7 V hO c ⟨32 * r.val + 31, lastPt_lt7 r.val r.isLt⟩ (ValueIdx.ix3 (0 : Fin 1) (0 : Fin 1) (0 : Fin 1)) := rfl

/-- The result block read at two names of one point. -/
theorem outAt7_congr (hO : Ok7 V) (c : Dev nD) {t t' : Fin (cfgM7 V hO).N} (h : t.val = t'.val) (j : S1x1x1.Idx) :
    outAt7 V hO c t j = outAt7 V hO c t' j := by
  obtain rfl : t = t' := Fin.ext h
  rfl

/-- What a write-back writes is the written row of `tileRes7`: the point is its sample's last feature `32 (t / 32) + 31`,
    and the block's one element is the row's. -/
theorem flushed7_4_eq (hO : Ok7 V) (c : Dev nD) (t : Fin (cfgM7 V hO).N) (hf : ((cfgM7 V hO).win 4).flush t = true) :
    (dat7 V hO c).flushed 4 t = (((cfgM7 V hO).win 4).blk t).view.read (Elt F) (tileRes7 V hO c) := by
  have h31 : t.val % 32 = 31 := (flush7_4_iff (adm7 V hO) t).mp hf
  show ((cfgM7 V hO).win 4).cut (grid7.coords t) ((dat7 V hO c).after 4 t) = _
  rw [after7_4]
  funext j
  have hj : (((cfgM7 V hO).win 4).xinj (grid7.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM7 V hO).win 4).blk t).view.emb j : S2048x1x1.Idx) (0 : Fin 3)).val + 31 := by
    have h : (j (0 : Fin 3)).val < 1 := (j (0 : Fin 3)).isLt
    show t.val = 32 * (((cfgM7 V hO).win 4).index t (0 : Fin 3) * 1 + 1 * (j (0 : Fin 3)).val) + 31
    rw [index7_4]
    show t.val = 32 * (t.val / 32 * 1 + 1 * (j (0 : Fin 3)).val) + 31
    omega
  show outAt7 V hO c t (((cfgM7 V hO).win 4).xinj (grid7.coords t) j) = tileRes7 V hO c ((((cfgM7 V hO).win 4).blk t).view.emb j)
  rw [hj]
  exact outAt7_congr V hO c hv _

/-- Every row of the result array is some write-back's block: row `r` is the block of point `32 r + 31`. -/
theorem cover7_4 (hO : Ok7 V) (i : S2048x1x1.Idx) :
    ∃ t : Fin (cfgM7 V hO).N, ((cfgM7 V hO).win 4).flush t = true ∧ i ∈ (((cfgM7 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt7 _ h0⟩, (flush7_4_iff (adm7 V hO) _).mpr (by show (32 * (i 0).val + 31) % 32 = 31; omega), ?_⟩
  have he : (((cfgM7 V hO).win 4).blk ⟨32 * (i 0).val + 31, lastPt_lt7 _ h0⟩).view.emb (ValueIdx.ix3 (0 : Fin 1) (0 : Fin 1) (0 : Fin 1)) = i := by
    refine (emb7_4 (adm7 V hO) ⟨32 * (i 0).val + 31, lastPt_lt7 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM7 V hO).win 4).blk ⟨32 * (i 0).val + 31, lastPt_lt7 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes7`. -/
theorem arrAt7_4 (hO : Ok7 V) (c : Dev nD) : (dat7 V hO c).arrAt 4 (cfgM7 V hO).N = tileRes7 V hO c :=
  (dat7 V hO c).arrAt_eq_of_cover 4 (tileRes7 V hO c) (fun t hf => flushed7_4_eq V hO c t hf) (fun i => cover7_4 V hO i)

end AtTable

end Cert.KernelIdeal.Hand

end
-- ==== Proof.R7Seg.lean ====
/-
  Tile 7's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 7's admissible contents and
  proof data is ten small facts (`Pinned7`); they hold of tile 7's own (`pinned_dat7`) and so of any family whose
  component 7 is tile 7's (`Pinned7.of_eq`).
-/
import proofs.«402893_j78554951844377_2_alg».proof.Proof.R7Acc
import proofs.«402893_j78554951844377_2_alg».proof.Proof.Family
import proofs.«402893_j78554951844377_2_alg».proof.Proof.Glue
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 7's contents and proof data -/

variable (Vin : (c : Dev nD) → (b : Ref sig .tc) → Buf (Elt F) ((c : Thread nD τ).loc b))

/-- The scratch operand owned whole at some contents is its buffer held at some contents. -/
theorem scratch7_eq (c : Dev nD) :
    (iprop(∃ d, owns (c : Thread nD τ) scM7 fullShare d) : sProp 𝕄)
      = iprop(∃ f : Buf (Elt F) ((c : Thread nD τ).loc cc7_scratch0), ((c : Thread nD τ).loc cc7_scratch0) ↦{fullShare} f) := by
  simp only [scM7, owns_whole]; try rfl

/-- What the record needs of pipeline 7's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned7 (Vx : Dev nD → Valuation τ sig (Elt F)) (a0 : (pcfgs (F := F) 7).Adm)
    (d0 : (c : Dev nD) → Dat τ (Elt F) Unit ℕ (UR sig nD τ) ℕ ((pcfgs (F := F) 7).at a0) c) : Prop where
  tbl : a0.1 = tbl7 Vin
  q : ∀ (c : Dev nD) w, (d0 c).q w = fullShare
  A : ∀ (c : Dev nD) w, (d0 c).A w = Vin c (Pipeline.arrRef spec7 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM7 fullShare d) ∗ Rest7 Vin c) : sProp 𝕄) ⊢ (d0 c).Φ 0
  phiOut : ∀ c : Dev nD, (d0 c).Φ (Fin.last _) ⊢ (iprop((∃ d, owns (c : Thread nD τ) scM7 fullShare d) ∗ Rest7 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 7).at a0).N = Vx c (Pipeline.arrRef spec7 w)

set_option maxHeartbeats 400000 in
/-- Tile 7's own contents and proof data have them: each field by unfolding the proof data; the last stage of the
    invariant is a later one (the grid has 65536 points), so it holds the scratch at the last point's contents. -/
theorem pinned_dat7 (hO : Ok7 Vin) (Vx : Dev nD → Valuation τ sig (Elt F))
    (hF : ∀ c w, (dat7 Vin hO c).arrAt w (cfgM7 Vin hO).N = Vx c (Pipeline.arrRef spec7 w)) :
    Pinned7 Vin Vx (adm7 Vin hO) (dat7 Vin hO) where
  tbl := rfl
  q c w := rfl
  A c w := A_eq7 Vin hO c w
  owed c t := rfl
  body c := (body_obligation7 Vin hO c).loose
  phiIn c := by
    rw [show (dat7 Vin hO c).Φ 0 = PhiS7 Vin hO c ((0 : Fin ((cfgM7 Vin hO).N + 1)).val) (Nat.le_of_lt_succ (0 : Fin ((cfgM7 Vin hO).N + 1)).isLt) from rfl,
      PhiS7_zero Vin hO c _ _ (Fin.val_zero _)]
  phiOut c := by
    have hN : (Fin.last (cfgM7 Vin hO).N).val ≠ 0 := by
      rw [Fin.val_last, show (cfgM7 Vin hO).N = grid7.N from rfl, N_7]; decide
    show PhiS7 Vin hO c (Fin.last (cfgM7 Vin hO).N).val (Nat.le_of_lt_succ (Fin.last (cfgM7 Vin hO).N).isLt) ⊢ _
    rw [PhiS7_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 7's. -/
theorem Pinned7.of_eq (hO : Ok7 Vin) {Vx : Dev nD → Valuation τ sig (Elt F)} {a0 : (pcfgs (F := F) 7).Adm}
    {d0 : (c : Dev nD) → Dat τ (Elt F) Unit ℕ (UR sig nD τ) ℕ ((pcfgs (F := F) 7).at a0) c}
    (ha : a0 = adm7 Vin hO) (hd : ∀ c, HEq (d0 c) (dat7 Vin hO c)) (h : Pinned7 Vin Vx (adm7 Vin hO) (dat7 Vin hO)) :
    Pinned7 Vin Vx a0 d0 := by
  subst ha
  obtain rfl : d0 = dat7 Vin hO := funext fun c => eq_of_heq (hd c)
  exact h

/-! ## The record -/

set_option backward.isDefEq.respectTransparency.types false in
set_option maxHeartbeats 1600000 in
/-- Tile 7's region over ANY family of pipelines whose component 7 is tile 7's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg7G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok7 Vin) (ha : a 7 = adm7 Vin hO) (hd : ∀ c, HEq (pdats 7 c) (dat7 Vin hO c))
    (hag : ∀ c w, V c (Proc.devRef .tc (Pipeline.arrRef spec7 w)) = Vin c (Pipeline.arrRef spec7 w))
    (hagT : ∀ c j, V c (Proc.devRef .tc (pre7.ref j)) = Vin c (pre7.ref j))
    (hF : ∀ c w, (dat7 Vin hO c).arrAt w (cfgM7 Vin hO).N = Vx c (Pipeline.arrRef spec7 w))
    (hrest : ∀ c b, b ∉ Finset.univ.image (Pipeline.arrRef spec7) → Vx c b = V c b) :
    Pipeline.RegionSeg (pcfgs (F := F)) a pdats () defs₀ Variants.none (fun _ => ∅) (fun _ _ => 0) 7 :=
  have hp : Pinned7 Vin Vx (a 7) (pdats 7) := Pinned7.of_eq Vin hO ha hd (pinned_dat7 Vin hO Vx hF)
  have htbl : ∀ c, (fun k => V c (Proc.devRef .tc ((pcfgs (F := F) 7).pre.ref k))) = (a 7).1 := fun c => by
    rw [hp.tbl]; funext k; exact (hagT c k).trans (V_pre7 Vin c k)
  { win := (launch7 (F := F)).win.to₀
    block_pos := (launch7 (F := F)).block_pos
    stage_whole := (launch7 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 7 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre7 c (fun _ => fullShare) (tbl7 Vin))
    Z := fun c => Pipeline.unscopedRestP (Ix := Unit) (Name := ℕ) (U := UR sig nD τ) (Lvl := ℕ) pre7 spec7 c (fun b => V c b)
    hentry := fun c => by
      rw [Pipeline.ownSems0_none]
      have hsplit := Pipeline.arrays_of_unscopedBufs (p := 7) (pcfgs (F := F)) a pdats (launch7 (F := F)).win (launch7 (F := F)).arr_whole c
        ((pdats 7 c).share_full (hp.q c)) (fun b => V c b) (fun w => (hp.A c w).trans (hag c w).symm)
      rw [Pipeline.unscopedBufs_held, Pipeline.unscopedRest_split (launch7 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 7).spec c : sProp 𝕄) = _ from scopedRest7_split c, hp.tbl]
      refine BIBase.Entails.trans ?_ (hp.phiIn c)
      rw [scratch7_eq]
      unfold Rest7
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 7).spec c : sProp 𝕄) = _ from scopedRest7_split c]
      refine BIBase.Entails.trans (hp.phiOut c) ?_
      rw [scratch7_eq]
      unfold Rest7
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 7) (pcfgs (F := F)) a (Ix := Unit) (Name := ℕ) (U := UR sig nD τ) (Lvl := ℕ)
        (launch7 (F := F)).win (launch7 (F := F)).arr_whole c pdats ((pdats 7 c).share_full (hp.q c))
        (fun b => V c b) (fun b => Vx c b) ((pdats 7 c).arrAt · (Pipeline.pin (pcfgs (F := F)) a 7).N) (hp.fin c) (hrest c)
      rw [Pipeline.unscopedBufs_held, Pipeline.unscopedRest_split (launch7 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 7's record over the assembled families, tile 7's components in slot 7. -/
def reg7 (hO : Ok7 Vin) (V Vx : Dev nD → Valuation τ sig (Elt F))
    (hag : ∀ c w, V c (Proc.devRef .tc (Pipeline.arrRef spec7 w)) = Vin c (Pipeline.arrRef spec7 w))
    (hagT : ∀ c j, V c (Proc.devRef .tc (pre7.ref j)) = Vin c (pre7.ref j))
    (hF : ∀ c w, (dat7 Vin hO c).arrAt w (cfgM7 Vin hO).N = Vx c (Pipeline.arrRef spec7 w))
    (hrest : ∀ c b, b ∉ Finset.univ.image (Pipeline.arrRef spec7) → Vx c b = V c b)
    (a0 : (pcfg0 (F := F)).Adm)
    (a1 : (pcfg1 (F := F)).Adm)
    (a2 : (pcfg2 (F := F)).Adm)
    (a3 : (pcfg3 (F := F)).Adm)
    (a4 : (pcfg4 (F := F)).Adm)
    (a5 : (pcfg5 (F := F)).Adm)
    (a6 : (pcfg6 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c) :
    Pipeline.RegionSeg (pcfgs (F := F)) (admOf a0 a1 a2 a3 a4 a5 a6 (adm7 Vin hO))
      (pdatsOf a0 a1 a2 a3 a4 a5 a6 (adm7 Vin hO) d0 d1 d2 d3 d4 d5 d6 (dat7 Vin hO)) () defs₀ Variants.none (fun _ => ∅) (fun _ _ => 0) 7 :=
  reg7G Vin V Vx _ _ hO rfl (fun _ => HEq.rfl) hag hagT hF hrest

/-- The thread state the record is entered from, -/
theorem reg7_pre (hO : Ok7 Vin) (V Vx : Dev nD → Valuation τ sig (Elt F)) (hag) (hagT) (hF) (hrest) (a0) (a1) (a2) (a3) (a4) (a5) (a6) (d0) (d1) (d2) (d3) (d4) (d5) (d6) (c : Dev nD) :
    (reg7 Vin hO V Vx hag hagT hF hrest a0 a1 a2 a3 a4 a5 a6 d0 d1 d2 d3 d4 d5 d6).pre c
      = iprop(StableHlo.held (c : Thread nD τ) (Pipeline.ucRefs τ sig) (V c) ∗ Rr (F := F) c) := rfl
/-- and the one it leaves. -/
theorem reg7_post (hO : Ok7 Vin) (V Vx : Dev nD → Valuation τ sig (Elt F)) (hag) (hagT) (hF) (hrest) (a0) (a1) (a2) (a3) (a4) (a5) (a6) (d0) (d1) (d2) (d3) (d4) (d5) (d6) (c : Dev nD) :
    (reg7 Vin hO V Vx hag hagT hF hrest a0 a1 a2 a3 a4 a5 a6 d0 d1 d2 d3 d4 d5 d6).post c
      = iprop(StableHlo.held (c : Thread nD τ) (Pipeline.ucRefs τ sig) (Vx c) ∗ Rr (F := F) c) := rfl

end Cert.KernelIdeal.Hand

end
-- ==== Proof.R7Agree.lean ====
import proofs.«402893_j78554951844377_2_alg».proof.Proof.KHostT7
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

/-! # Tile 7: what the region reads does not depend on what earlier regions left

The table, the embedding table, the three slices and the (not yet written) result array of tile 7 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree7_tbl : V19 m outs c main_v78 = V19 m outs' c main_v78 := by
  funext (j : S65536.Idx)
  obtain ⟨a, rfl⟩ : ∃ a : Fin 65536, j = ValueIdx.ix1 a := ⟨j 0, ValueIdx.eq_ix1 j⟩
  rw [tbl7_apply m outs c, tbl7_apply m outs' c]

theorem agree7_emb : V19 m outs c main_v34 = V19 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb7_apply m outs c, emb7_apply m outs' c]

theorem agree7_pa : V19 m outs c main_v79 = V19 m outs' c main_v79 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa7_apply m outs c, pa7_apply m outs' c]

theorem agree7_w : V19 m outs c main_v80 = V19 m outs' c main_v80 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w7_apply m outs c, w7_apply m outs' c]

theorem agree7_b : V19 m outs c main_v81 = V19 m outs' c main_v81 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b7_apply m outs c, b7_apply m outs' c]

/-- The result array has not been written when the region is entered: it holds its launch contents. -/
theorem entry7_out : V19 m outs c main_v82 = V5 m c main_v82 :=
  (V19_of m outs c main_v82 (by decide)).trans ((V18_of m outs c main_v82 (by decide)).trans ((V17_of m outs c main_v82 (by decide)).trans ((V16_of m outs c main_v82 (by decide)).trans ((V15_of m outs c main_v82 (by decide)).trans ((V14_of m outs c main_v82 (by decide)).trans ((V13_of m outs c main_v82 (by decide)).trans ((V12_of m outs c main_v82 (by decide)).trans ((V11_of m outs c main_v82 (by decide)).trans ((V10_of m outs c main_v82 (by decide)).trans ((V9_of m outs c main_v82 (by decide)).trans ((V8_of m outs c main_v82 (by decide)).trans ((V7_of m outs c main_v82 (by decide)).trans (V6_of m outs c main_v82 (by decide))))))))))))))

theorem agree7_out : V19 m outs c main_v82 = V19 m outs' c main_v82 :=
  (entry7_out m outs c).trans (entry7_out m outs' c).symm

end Cert.KernelIdeal.Hand

end
-- ==== Proof.Main.lean ====
/-
  THE ASSEMBLY: the eight regions' records, chosen for a launch memory whose gathered row numbers are in range, and
  the run and the frame of @main from them.

  Each tile's proof data are stated at the tile's entry contents computed with the LAUNCH contents standing for what
  the earlier regions left; what a tile reads does not depend on that choice. What region K really leaves in its result
  array is its proof data's array after the run, and the family "what the regions leave" is the launch contents updated
  at the eight result arrays with those. Around region K the true valuations are the frame module's at that family:
  at entry the tile's arrays and table agree with the contents the proof data were stated at; at exit the input arrays
  are as entered, the result array is what the family says, and nothing else changed. With the eight records the launch
  glue gives the run (every unscoped buffer ends at the last valuation) and the frame (the arguments end as launched).
-/
import proofs.«402893_j78554951844377_2_alg».proof.Proof.R0Ok
import proofs.«402893_j78554951844377_2_alg».proof.Proof.R0Val
import proofs.«402893_j78554951844377_2_alg».proof.Proof.R0Seg
import proofs.«402893_j78554951844377_2_alg».proof.Proof.R1Ok
import proofs.«402893_j78554951844377_2_alg».proof.Proof.R1Val
import proofs.«402893_j78554951844377_2_alg».proof.Proof.R1Seg
import proofs.«402893_j78554951844377_2_alg».proof.Proof.R1Agree
import proofs.«402893_j78554951844377_2_alg».proof.Proof.R2Ok
import proofs.«402893_j78554951844377_2_alg».proof.Proof.R2Val
import proofs.«402893_j78554951844377_2_alg».proof.Proof.R2Seg
import proofs.«402893_j78554951844377_2_alg».proof.Proof.R2Agree
import proofs.«402893_j78554951844377_2_alg».proof.Proof.R3Ok
import proofs.«402893_j78554951844377_2_alg».proof.Proof.R3Val
import proofs.«402893_j78554951844377_2_alg».proof.Proof.R3Seg
import proofs.«402893_j78554951844377_2_alg».proof.Proof.R3Agree
import proofs.«402893_j78554951844377_2_alg».proof.Proof.R4Ok
import proofs.«402893_j78554951844377_2_alg».proof.Proof.R4Val
import proofs.«402893_j78554951844377_2_alg».proof.Proof.R4Seg
import proofs.«402893_j78554951844377_2_alg».proof.Proof.R4Agree
import proofs.«402893_j78554951844377_2_alg».proof.Proof.R5Ok
import proofs.«402893_j78554951844377_2_alg».proof.Proof.R5Val
import proofs.«402893_j78554951844377_2_alg».proof.Proof.R5Seg
import proofs.«402893_j78554951844377_2_alg».proof.Proof.R5Agree
import proofs.«402893_j78554951844377_2_alg».proof.Proof.R6Ok
import proofs.«402893_j78554951844377_2_alg».proof.Proof.R6Val
import proofs.«402893_j78554951844377_2_alg».proof.Proof.R6Seg
import proofs.«402893_j78554951844377_2_alg».proof.Proof.R6Agree
import proofs.«402893_j78554951844377_2_alg».proof.Proof.R7Ok
import proofs.«402893_j78554951844377_2_alg».proof.Proof.R7Val
import proofs.«402893_j78554951844377_2_alg».proof.Proof.R7Seg
import proofs.«402893_j78554951844377_2_alg».proof.Proof.R7Agree
import proofs.«402893_j78554951844377_2_alg».proof.Proof.Glue
import proofs.«402893_j78554951844377_2_alg».proof.Proof.Family
import proofs.«402893_j78554951844377_2_alg».proof.Proof.TileLib
import proofs.«402893_j78554951844377_2_alg».proof.Proof.Spec

-- the launch kit's enumerations over the program's references recurse past the default depth
set_option maxRecDepth 1396

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

/-! ## A statement over the five windows, or the one table, from its instances -/

theorem fin5_cases {P : Fin 5 → Prop} (h0 : P 0) (h1 : P 1) (h2 : P 2) (h3 : P 3) (h4 : P 4) : ∀ w, P w
  | 0 => h0 | 1 => h1 | 2 => h2 | 3 => h3 | 4 => h4
  | ⟨_ + 5, h⟩ => absurd h (Nat.not_lt.2 (Nat.le_add_left _ _))

theorem fin1_cases {P : Fin 1 → Prop} (h0 : P 0) : ∀ j, P j
  | 0 => h0
  | ⟨_ + 1, h⟩ => absurd h (Nat.not_lt.2 (Nat.le_add_left _ _))

/-! ## What the regions leave, as one family -/

/-- The family "what the regions leave" from the eight result arrays: at every item, a region's result array holds the
    given contents and every other reference its launch contents. -/
def outsOf (m : (ℓ : Loc nD τ sig) → Buf (Elt F) ℓ)
    (o0 : (c : Dev nD) → Buf (Elt F) ((c : Thread nD τ).loc main_v40))
    (o1 : (c : Dev nD) → Buf (Elt F) ((c : Thread nD τ).loc main_v46))
    (o2 : (c : Dev nD) → Buf (Elt F) ((c : Thread nD τ).loc main_v52))
    (o3 : (c : Dev nD) → Buf (Elt F) ((c : Thread nD τ).loc main_v58))
    (o4 : (c : Dev nD) → Buf (Elt F) ((c : Thread nD τ).loc main_v64))
    (o5 : (c : Dev nD) → Buf (Elt F) ((c : Thread nD τ).loc main_v70))
    (o6 : (c : Dev nD) → Buf (Elt F) ((c : Thread nD τ).loc main_v76))
    (o7 : (c : Dev nD) → Buf (Elt F) ((c : Thread nD τ).loc main_v82)) : Outs (F := F) :=
  fun _ => (Function.update (Function.update (Function.update (Function.update (Function.update (Function.update (Function.update (Function.update (fun r c => m ((c : Thread nD τ).loc r)) main_v40 o0) main_v46 o1) main_v52 o2) main_v58 o3) main_v64 o4) main_v70 o5) main_v76 o6) main_v82 o7)

section
variable (m : (ℓ : Loc nD τ sig) → Buf (Elt F) ℓ)
    (o0 : (c : Dev nD) → Buf (Elt F) ((c : Thread nD τ).loc main_v40))
    (o1 : (c : Dev nD) → Buf (Elt F) ((c : Thread nD τ).loc main_v46))
    (o2 : (c : Dev nD) → Buf (Elt F) ((c : Thread nD τ).loc main_v52))
    (o3 : (c : Dev nD) → Buf (Elt F) ((c : Thread nD τ).loc main_v58))
    (o4 : (c : Dev nD) → Buf (Elt F) ((c : Thread nD τ).loc main_v64))
    (o5 : (c : Dev nD) → Buf (Elt F) ((c : Thread nD τ).loc main_v70))
    (o6 : (c : Dev nD) → Buf (Elt F) ((c : Thread nD τ).loc main_v76))
    (o7 : (c : Dev nD) → Buf (Elt F) ((c : Thread nD τ).loc main_v82))

theorem outsOf_0 (n : ℕ) (c : Dev nD) : outsOf m o0 o1 o2 o3 o4 o5 o6 o7 n main_v40 c = o0 c := by
  unfold outsOf
  rw [Function.update_of_ne (show (main_v40 : Ref sig .tc) ≠ main_v82 by decide),
    Function.update_of_ne (show (main_v40 : Ref sig .tc) ≠ main_v76 by decide),
    Function.update_of_ne (show (main_v40 : Ref sig .tc) ≠ main_v70 by decide),
    Function.update_of_ne (show (main_v40 : Ref sig .tc) ≠ main_v64 by decide),
    Function.update_of_ne (show (main_v40 : Ref sig .tc) ≠ main_v58 by decide),
    Function.update_of_ne (show (main_v40 : Ref sig .tc) ≠ main_v52 by decide),
    Function.update_of_ne (show (main_v40 : Ref sig .tc) ≠ main_v46 by decide),
    Function.update_self]

theorem outsOf_1 (n : ℕ) (c : Dev nD) : outsOf m o0 o1 o2 o3 o4 o5 o6 o7 n main_v46 c = o1 c := by
  unfold outsOf
  rw [Function.update_of_ne (show (main_v46 : Ref sig .tc) ≠ main_v82 by decide),
    Function.update_of_ne (show (main_v46 : Ref sig .tc) ≠ main_v76 by decide),
    Function.update_of_ne (show (main_v46 : Ref sig .tc) ≠ main_v70 by decide),
    Function.update_of_ne (show (main_v46 : Ref sig .tc) ≠ main_v64 by decide),
    Function.update_of_ne (show (main_v46 : Ref sig .tc) ≠ main_v58 by decide),
    Function.update_of_ne (show (main_v46 : Ref sig .tc) ≠ main_v52 by decide),
    Function.update_self]

theorem outsOf_2 (n : ℕ) (c : Dev nD) : outsOf m o0 o1 o2 o3 o4 o5 o6 o7 n main_v52 c = o2 c := by
  unfold outsOf
  rw [Function.update_of_ne (show (main_v52 : Ref sig .tc) ≠ main_v82 by decide),
    Function.update_of_ne (show (main_v52 : Ref sig .tc) ≠ main_v76 by decide),
    Function.update_of_ne (show (main_v52 : Ref sig .tc) ≠ main_v70 by decide),
    Function.update_of_ne (show (main_v52 : Ref sig .tc) ≠ main_v64 by decide),
    Function.update_of_ne (show (main_v52 : Ref sig .tc) ≠ main_v58 by decide),
    Function.update_self]

theorem outsOf_3 (n : ℕ) (c : Dev nD) : outsOf m o0 o1 o2 o3 o4 o5 o6 o7 n main_v58 c = o3 c := by
  unfold outsOf
  rw [Function.update_of_ne (show (main_v58 : Ref sig .tc) ≠ main_v82 by decide),
    Function.update_of_ne (show (main_v58 : Ref sig .tc) ≠ main_v76 by decide),
    Function.update_of_ne (show (main_v58 : Ref sig .tc) ≠ main_v70 by decide),
    Function.update_of_ne (show (main_v58 : Ref sig .tc) ≠ main_v64 by decide),
    Function.update_self]

theorem outsOf_4 (n : ℕ) (c : Dev nD) : outsOf m o0 o1 o2 o3 o4 o5 o6 o7 n main_v64 c = o4 c := by
  unfold outsOf
  rw [Function.update_of_ne (show (main_v64 : Ref sig .tc) ≠ main_v82 by decide),
    Function.update_of_ne (show (main_v64 : Ref sig .tc) ≠ main_v76 by decide),
    Function.update_of_ne (show (main_v64 : Ref sig .tc) ≠ main_v70 by decide),
    Function.update_self]

theorem outsOf_5 (n : ℕ) (c : Dev nD) : outsOf m o0 o1 o2 o3 o4 o5 o6 o7 n main_v70 c = o5 c := by
  unfold outsOf
  rw [Function.update_of_ne (show (main_v70 : Ref sig .tc) ≠ main_v82 by decide),
    Function.update_of_ne (show (main_v70 : Ref sig .tc) ≠ main_v76 by decide),
    Function.update_self]

theorem outsOf_6 (n : ℕ) (c : Dev nD) : outsOf m o0 o1 o2 o3 o4 o5 o6 o7 n main_v76 c = o6 c := by
  unfold outsOf
  rw [Function.update_of_ne (show (main_v76 : Ref sig .tc) ≠ main_v82 by decide),
    Function.update_self]

theorem outsOf_7 (n : ℕ) (c : Dev nD) : outsOf m o0 o1 o2 o3 o4 o5 o6 o7 n main_v82 c = o7 c := by
  unfold outsOf
  rw [Function.update_self]

end

/-! ## Tile 0 against the valuations around region 0 -/

section Tile0
variable (m : (ℓ : Loc nD τ sig) → Buf (Elt F) ℓ) (outs : Outs (F := F))

/-- Outside the region's arrays nothing changes across region 0: only its result array may. -/
theorem hrest_0 (c : Dev nD) (b : Ref sig .tc) (hb : b ∉ Finset.univ.image (Pipeline.arrRef spec0)) :
    V6 m outs c b = V5 m c b :=
  V6_of m outs c b fun h => hb (Finset.mem_image.mpr ⟨4, Finset.mem_univ _, (List.mem_singleton.mp h).symm⟩)

/-- Region 0 is entered at the valuation its proof data are stated at. -/
theorem hag_0 (c : Dev nD) (w : Fin 5) : V5 m c (Proc.devRef .tc (Pipeline.arrRef spec0 w)) = V0in m c (Pipeline.arrRef spec0 w) := rfl
theorem hagT_0 (c : Dev nD) (j : Fin 1) : V5 m c (Proc.devRef .tc (pre0.ref j)) = V0in m c (pre0.ref j) := rfl

/-- Region 0's input arrays after the run are as entered, which is what the exit valuation holds there … -/
theorem hF_0_0 (hO : Ok0 (V0in m)) (c : Dev nD) :
    (dat0 (V0in m) hO c).arrAt (0 : Fin 5) (cfgM0 (V0in m) hO).N = V6 m outs c (Pipeline.arrRef spec0 0) :=
  (arrAt0_in (V0in m) hO c 0 (by decide)).trans (show V0in m c (Pipeline.arrRef spec0 0) = V6 m outs c (Pipeline.arrRef spec0 0) from (V6_of m outs c main_v34 (by decide)).symm)
theorem hF_0_1 (hO : Ok0 (V0in m)) (c : Dev nD) :
    (dat0 (V0in m) hO c).arrAt (1 : Fin 5) (cfgM0 (V0in m) hO).N = V6 m outs c (Pipeline.arrRef spec0 1) :=
  (arrAt0_in (V0in m) hO c 1 (by decide)).trans (show V0in m c (Pipeline.arrRef spec0 1) = V6 m outs c (Pipeline.arrRef spec0 1) from (V6_of m outs c main_v37 (by decide)).symm)
theorem hF_0_2 (hO : Ok0 (V0in m)) (c : Dev nD) :
    (dat0 (V0in m) hO c).arrAt (2 : Fin 5) (cfgM0 (V0in m) hO).N = V6 m outs c (Pipeline.arrRef spec0 2) :=
  (arrAt0_in (V0in m) hO c 2 (by decide)).trans (show V0in m c (Pipeline.arrRef spec0 2) = V6 m outs c (Pipeline.arrRef spec0 2) from (V6_of m outs c main_v38 (by decide)).symm)
theorem hF_0_3 (hO : Ok0 (V0in m)) (c : Dev nD) :
    (dat0 (V0in m) hO c).arrAt (3 : Fin 5) (cfgM0 (V0in m) hO).N = V6 m outs c (Pipeline.arrRef spec0 3) :=
  (arrAt0_in (V0in m) hO c 3 (by decide)).trans (show V0in m c (Pipeline.arrRef spec0 3) = V6 m outs c (Pipeline.arrRef spec0 3) from (V6_of m outs c main_v39 (by decide)).symm)
/-- … and its result array holds what the family says the region leaves. -/
theorem hF_0_4 (hO : Ok0 (V0in m)) (c : Dev nD)
    (ho : outs 6 main_v40 c = (dat0 (V0in m) hO c).arrAt 4 (cfgM0 (V0in m) hO).N) :
    (dat0 (V0in m) hO c).arrAt (4 : Fin 5) (cfgM0 (V0in m) hO).N = V6 m outs c (Pipeline.arrRef spec0 4) := by
  show _ = Function.update (V5 m c) (Proc.devRef .tc main_v40) (outs 6 main_v40 c) (Proc.devRef .tc main_v40)
  rw [Function.update_self]
  exact ho.symm

theorem hF_0 (hO : Ok0 (V0in m)) (c : Dev nD)
    (ho : outs 6 main_v40 c = (dat0 (V0in m) hO c).arrAt 4 (cfgM0 (V0in m) hO).N) :
    ∀ w : Fin 5, (dat0 (V0in m) hO c).arrAt w (cfgM0 (V0in m) hO).N = V6 m outs c (Pipeline.arrRef spec0 w) :=
  fin5_cases (P := fun w => (dat0 (V0in m) hO c).arrAt w (cfgM0 (V0in m) hO).N = V6 m outs c (Pipeline.arrRef spec0 w))
    (hF_0_0 m outs hO c) (hF_0_1 m outs hO c) (hF_0_2 m outs hO c) (hF_0_3 m outs hO c) (hF_0_4 m outs hO c ho)

end Tile0

/-! ## Tile 1 against the valuations around region 1 -/

section Tile1
variable (m : (ℓ : Loc nD τ sig) → Buf (Elt F) ℓ) (outs : Outs (F := F))

/-- Outside the region's arrays nothing changes across region 1: only its result array may. -/
theorem hrest_1 (c : Dev nD) (b : Ref sig .tc) (hb : b ∉ Finset.univ.image (Pipeline.arrRef spec1)) :
    V8 m outs c b = V7 m outs c b :=
  V8_of m outs c b fun h => hb (Finset.mem_image.mpr ⟨4, Finset.mem_univ _, (List.mem_singleton.mp h).symm⟩)

/-- What region 1 reads at entry does not depend on what the earlier regions left: its arrays … -/
theorem hag_1 (c : Dev nD) : ∀ w : Fin 5, V7 m outs c (Proc.devRef .tc (Pipeline.arrRef spec1 w)) = V1in m c (Pipeline.arrRef spec1 w) :=
  fin5_cases (P := fun w => V7 m outs c (Proc.devRef .tc (Pipeline.arrRef spec1 w)) = V1in m c (Pipeline.arrRef spec1 w))
    (show V7 m outs c main_v34 = V7 m (outsL m) c main_v34 from agree1_emb m outs (outsL m) c)
    (show V7 m outs c main_v43 = V7 m (outsL m) c main_v43 from agree1_pa m outs (outsL m) c)
    (show V7 m outs c main_v44 = V7 m (outsL m) c main_v44 from agree1_w m outs (outsL m) c)
    (show V7 m outs c main_v45 = V7 m (outsL m) c main_v45 from agree1_b m outs (outsL m) c)
    (show V7 m outs c main_v46 = V7 m (outsL m) c main_v46 from agree1_out m outs (outsL m) c)
/-- … and its table. -/
theorem hagT_1 (c : Dev nD) : ∀ j : Fin 1, V7 m outs c (Proc.devRef .tc (pre1.ref j)) = V1in m c (pre1.ref j) :=
  fin1_cases (P := fun j => V7 m outs c (Proc.devRef .tc (pre1.ref j)) = V1in m c (pre1.ref j))
    (show V7 m outs c main_v42 = V7 m (outsL m) c main_v42 from agree1_tbl m outs (outsL m) c)

/-- Region 1's input arrays after the run are as entered, which is what the exit valuation holds there … -/
theorem hF_1_0 (hO : Ok1 (V1in m)) (c : Dev nD) :
    (dat1 (V1in m) hO c).arrAt (0 : Fin 5) (cfgM1 (V1in m) hO).N = V8 m outs c (Pipeline.arrRef spec1 0) :=
  (arrAt1_in (V1in m) hO c 0 (by decide)).trans (show V1in m c (Pipeline.arrRef spec1 0) = V8 m outs c (Pipeline.arrRef spec1 0) from
    ((V8_of m outs c main_v34 (by decide)).trans (agree1_emb m outs (outsL m) c)).symm)
theorem hF_1_1 (hO : Ok1 (V1in m)) (c : Dev nD) :
    (dat1 (V1in m) hO c).arrAt (1 : Fin 5) (cfgM1 (V1in m) hO).N = V8 m outs c (Pipeline.arrRef spec1 1) :=
  (arrAt1_in (V1in m) hO c 1 (by decide)).trans (show V1in m c (Pipeline.arrRef spec1 1) = V8 m outs c (Pipeline.arrRef spec1 1) from
    ((V8_of m outs c main_v43 (by decide)).trans (agree1_pa m outs (outsL m) c)).symm)
theorem hF_1_2 (hO : Ok1 (V1in m)) (c : Dev nD) :
    (dat1 (V1in m) hO c).arrAt (2 : Fin 5) (cfgM1 (V1in m) hO).N = V8 m outs c (Pipeline.arrRef spec1 2) :=
  (arrAt1_in (V1in m) hO c 2 (by decide)).trans (show V1in m c (Pipeline.arrRef spec1 2) = V8 m outs c (Pipeline.arrRef spec1 2) from
    ((V8_of m outs c main_v44 (by decide)).trans (agree1_w m outs (outsL m) c)).symm)
theorem hF_1_3 (hO : Ok1 (V1in m)) (c : Dev nD) :
    (dat1 (V1in m) hO c).arrAt (3 : Fin 5) (cfgM1 (V1in m) hO).N = V8 m outs c (Pipeline.arrRef spec1 3) :=
  (arrAt1_in (V1in m) hO c 3 (by decide)).trans (show V1in m c (Pipeline.arrRef spec1 3) = V8 m outs c (Pipeline.arrRef spec1 3) from
    ((V8_of m outs c main_v45 (by decide)).trans (agree1_b m outs (outsL m) c)).symm)
/-- … and its result array holds what the family says the region leaves. -/
theorem hF_1_4 (hO : Ok1 (V1in m)) (c : Dev nD)
    (ho : outs 8 main_v46 c = (dat1 (V1in m) hO c).arrAt 4 (cfgM1 (V1in m) hO).N) :
    (dat1 (V1in m) hO c).arrAt (4 : Fin 5) (cfgM1 (V1in m) hO).N = V8 m outs c (Pipeline.arrRef spec1 4) := by
  show _ = Function.update (V7 m outs c) (Proc.devRef .tc main_v46) (outs 8 main_v46 c) (Proc.devRef .tc main_v46)
  rw [Function.update_self]
  exact ho.symm

theorem hF_1 (hO : Ok1 (V1in m)) (c : Dev nD)
    (ho : outs 8 main_v46 c = (dat1 (V1in m) hO c).arrAt 4 (cfgM1 (V1in m) hO).N) :
    ∀ w : Fin 5, (dat1 (V1in m) hO c).arrAt w (cfgM1 (V1in m) hO).N = V8 m outs c (Pipeline.arrRef spec1 w) :=
  fin5_cases (P := fun w => (dat1 (V1in m) hO c).arrAt w (cfgM1 (V1in m) hO).N = V8 m outs c (Pipeline.arrRef spec1 w))
    (hF_1_0 m outs hO c) (hF_1_1 m outs hO c) (hF_1_2 m outs hO c) (hF_1_3 m outs hO c) (hF_1_4 m outs hO c ho)

end Tile1

/-! ## Tile 2 against the valuations around region 2 -/

section Tile2
variable (m : (ℓ : Loc nD τ sig) → Buf (Elt F) ℓ) (outs : Outs (F := F))

/-- Outside the region's arrays nothing changes across region 2: only its result array may. -/
theorem hrest_2 (c : Dev nD) (b : Ref sig .tc) (hb : b ∉ Finset.univ.image (Pipeline.arrRef spec2)) :
    V10 m outs c b = V9 m outs c b :=
  V10_of m outs c b fun h => hb (Finset.mem_image.mpr ⟨4, Finset.mem_univ _, (List.mem_singleton.mp h).symm⟩)

/-- What region 2 reads at entry does not depend on what the earlier regions left: its arrays … -/
theorem hag_2 (c : Dev nD) : ∀ w : Fin 5, V9 m outs c (Proc.devRef .tc (Pipeline.arrRef spec2 w)) = V2in m c (Pipeline.arrRef spec2 w) :=
  fin5_cases (P := fun w => V9 m outs c (Proc.devRef .tc (Pipeline.arrRef spec2 w)) = V2in m c (Pipeline.arrRef spec2 w))
    (show V9 m outs c main_v34 = V9 m (outsL m) c main_v34 from agree2_emb m outs (outsL m) c)
    (show V9 m outs c main_v49 = V9 m (outsL m) c main_v49 from agree2_pa m outs (outsL m) c)
    (show V9 m outs c main_v50 = V9 m (outsL m) c main_v50 from agree2_w m outs (outsL m) c)
    (show V9 m outs c main_v51 = V9 m (outsL m) c main_v51 from agree2_b m outs (outsL m) c)
    (show V9 m outs c main_v52 = V9 m (outsL m) c main_v52 from agree2_out m outs (outsL m) c)
/-- … and its table. -/
theorem hagT_2 (c : Dev nD) : ∀ j : Fin 1, V9 m outs c (Proc.devRef .tc (pre2.ref j)) = V2in m c (pre2.ref j) :=
  fin1_cases (P := fun j => V9 m outs c (Proc.devRef .tc (pre2.ref j)) = V2in m c (pre2.ref j))
    (show V9 m outs c main_v48 = V9 m (outsL m) c main_v48 from agree2_tbl m outs (outsL m) c)

/-- Region 2's input arrays after the run are as entered, which is what the exit valuation holds there … -/
theorem hF_2_0 (hO : Ok2 (V2in m)) (c : Dev nD) :
    (dat2 (V2in m) hO c).arrAt (0 : Fin 5) (cfgM2 (V2in m) hO).N = V10 m outs c (Pipeline.arrRef spec2 0) :=
  (arrAt2_in (V2in m) hO c 0 (by decide)).trans (show V2in m c (Pipeline.arrRef spec2 0) = V10 m outs c (Pipeline.arrRef spec2 0) from
    ((V10_of m outs c main_v34 (by decide)).trans (agree2_emb m outs (outsL m) c)).symm)
theorem hF_2_1 (hO : Ok2 (V2in m)) (c : Dev nD) :
    (dat2 (V2in m) hO c).arrAt (1 : Fin 5) (cfgM2 (V2in m) hO).N = V10 m outs c (Pipeline.arrRef spec2 1) :=
  (arrAt2_in (V2in m) hO c 1 (by decide)).trans (show V2in m c (Pipeline.arrRef spec2 1) = V10 m outs c (Pipeline.arrRef spec2 1) from
    ((V10_of m outs c main_v49 (by decide)).trans (agree2_pa m outs (outsL m) c)).symm)
theorem hF_2_2 (hO : Ok2 (V2in m)) (c : Dev nD) :
    (dat2 (V2in m) hO c).arrAt (2 : Fin 5) (cfgM2 (V2in m) hO).N = V10 m outs c (Pipeline.arrRef spec2 2) :=
  (arrAt2_in (V2in m) hO c 2 (by decide)).trans (show V2in m c (Pipeline.arrRef spec2 2) = V10 m outs c (Pipeline.arrRef spec2 2) from
    ((V10_of m outs c main_v50 (by decide)).trans (agree2_w m outs (outsL m) c)).symm)
theorem hF_2_3 (hO : Ok2 (V2in m)) (c : Dev nD) :
    (dat2 (V2in m) hO c).arrAt (3 : Fin 5) (cfgM2 (V2in m) hO).N = V10 m outs c (Pipeline.arrRef spec2 3) :=
  (arrAt2_in (V2in m) hO c 3 (by decide)).trans (show V2in m c (Pipeline.arrRef spec2 3) = V10 m outs c (Pipeline.arrRef spec2 3) from
    ((V10_of m outs c main_v51 (by decide)).trans (agree2_b m outs (outsL m) c)).symm)
/-- … and its result array holds what the family says the region leaves. -/
theorem hF_2_4 (hO : Ok2 (V2in m)) (c : Dev nD)
    (ho : outs 10 main_v52 c = (dat2 (V2in m) hO c).arrAt 4 (cfgM2 (V2in m) hO).N) :
    (dat2 (V2in m) hO c).arrAt (4 : Fin 5) (cfgM2 (V2in m) hO).N = V10 m outs c (Pipeline.arrRef spec2 4) := by
  show _ = Function.update (V9 m outs c) (Proc.devRef .tc main_v52) (outs 10 main_v52 c) (Proc.devRef .tc main_v52)
  rw [Function.update_self]
  exact ho.symm

theorem hF_2 (hO : Ok2 (V2in m)) (c : Dev nD)
    (ho : outs 10 main_v52 c = (dat2 (V2in m) hO c).arrAt 4 (cfgM2 (V2in m) hO).N) :
    ∀ w : Fin 5, (dat2 (V2in m) hO c).arrAt w (cfgM2 (V2in m) hO).N = V10 m outs c (Pipeline.arrRef spec2 w) :=
  fin5_cases (P := fun w => (dat2 (V2in m) hO c).arrAt w (cfgM2 (V2in m) hO).N = V10 m outs c (Pipeline.arrRef spec2 w))
    (hF_2_0 m outs hO c) (hF_2_1 m outs hO c) (hF_2_2 m outs hO c) (hF_2_3 m outs hO c) (hF_2_4 m outs hO c ho)

end Tile2

/-! ## Tile 3 against the valuations around region 3 -/

section Tile3
variable (m : (ℓ : Loc nD τ sig) → Buf (Elt F) ℓ) (outs : Outs (F := F))

/-- Outside the region's arrays nothing changes across region 3: only its result array may. -/
theorem hrest_3 (c : Dev nD) (b : Ref sig .tc) (hb : b ∉ Finset.univ.image (Pipeline.arrRef spec3)) :
    V12 m outs c b = V11 m outs c b :=
  V12_of m outs c b fun h => hb (Finset.mem_image.mpr ⟨4, Finset.mem_univ _, (List.mem_singleton.mp h).symm⟩)

/-- What region 3 reads at entry does not depend on what the earlier regions left: its arrays … -/
theorem hag_3 (c : Dev nD) : ∀ w : Fin 5, V11 m outs c (Proc.devRef .tc (Pipeline.arrRef spec3 w)) = V3in m c (Pipeline.arrRef spec3 w) :=
  fin5_cases (P := fun w => V11 m outs c (Proc.devRef .tc (Pipeline.arrRef spec3 w)) = V3in m c (Pipeline.arrRef spec3 w))
    (show V11 m outs c main_v34 = V11 m (outsL m) c main_v34 from agree3_emb m outs (outsL m) c)
    (show V11 m outs c main_v55 = V11 m (outsL m) c main_v55 from agree3_pa m outs (outsL m) c)
    (show V11 m outs c main_v56 = V11 m (outsL m) c main_v56 from agree3_w m outs (outsL m) c)
    (show V11 m outs c main_v57 = V11 m (outsL m) c main_v57 from agree3_b m outs (outsL m) c)
    (show V11 m outs c main_v58 = V11 m (outsL m) c main_v58 from agree3_out m outs (outsL m) c)
/-- … and its table. -/
theorem hagT_3 (c : Dev nD) : ∀ j : Fin 1, V11 m outs c (Proc.devRef .tc (pre3.ref j)) = V3in m c (pre3.ref j) :=
  fin1_cases (P := fun j => V11 m outs c (Proc.devRef .tc (pre3.ref j)) = V3in m c (pre3.ref j))
    (show V11 m outs c main_v54 = V11 m (outsL m) c main_v54 from agree3_tbl m outs (outsL m) c)

/-- Region 3's input arrays after the run are as entered, which is what the exit valuation holds there … -/
theorem hF_3_0 (hO : Ok3 (V3in m)) (c : Dev nD) :
    (dat3 (V3in m) hO c).arrAt (0 : Fin 5) (cfgM3 (V3in m) hO).N = V12 m outs c (Pipeline.arrRef spec3 0) :=
  (arrAt3_in (V3in m) hO c 0 (by decide)).trans (show V3in m c (Pipeline.arrRef spec3 0) = V12 m outs c (Pipeline.arrRef spec3 0) from
    ((V12_of m outs c main_v34 (by decide)).trans (agree3_emb m outs (outsL m) c)).symm)
theorem hF_3_1 (hO : Ok3 (V3in m)) (c : Dev nD) :
    (dat3 (V3in m) hO c).arrAt (1 : Fin 5) (cfgM3 (V3in m) hO).N = V12 m outs c (Pipeline.arrRef spec3 1) :=
  (arrAt3_in (V3in m) hO c 1 (by decide)).trans (show V3in m c (Pipeline.arrRef spec3 1) = V12 m outs c (Pipeline.arrRef spec3 1) from
    ((V12_of m outs c main_v55 (by decide)).trans (agree3_pa m outs (outsL m) c)).symm)
theorem hF_3_2 (hO : Ok3 (V3in m)) (c : Dev nD) :
    (dat3 (V3in m) hO c).arrAt (2 : Fin 5) (cfgM3 (V3in m) hO).N = V12 m outs c (Pipeline.arrRef spec3 2) :=
  (arrAt3_in (V3in m) hO c 2 (by decide)).trans (show V3in m c (Pipeline.arrRef spec3 2) = V12 m outs c (Pipeline.arrRef spec3 2) from
    ((V12_of m outs c main_v56 (by decide)).trans (agree3_w m outs (outsL m) c)).symm)
theorem hF_3_3 (hO : Ok3 (V3in m)) (c : Dev nD) :
    (dat3 (V3in m) hO c).arrAt (3 : Fin 5) (cfgM3 (V3in m) hO).N = V12 m outs c (Pipeline.arrRef spec3 3) :=
  (arrAt3_in (V3in m) hO c 3 (by decide)).trans (show V3in m c (Pipeline.arrRef spec3 3) = V12 m outs c (Pipeline.arrRef spec3 3) from
    ((V12_of m outs c main_v57 (by decide)).trans (agree3_b m outs (outsL m) c)).symm)
/-- … and its result array holds what the family says the region leaves. -/
theorem hF_3_4 (hO : Ok3 (V3in m)) (c : Dev nD)
    (ho : outs 12 main_v58 c = (dat3 (V3in m) hO c).arrAt 4 (cfgM3 (V3in m) hO).N) :
    (dat3 (V3in m) hO c).arrAt (4 : Fin 5) (cfgM3 (V3in m) hO).N = V12 m outs c (Pipeline.arrRef spec3 4) := by
  show _ = Function.update (V11 m outs c) (Proc.devRef .tc main_v58) (outs 12 main_v58 c) (Proc.devRef .tc main_v58)
  rw [Function.update_self]
  exact ho.symm

theorem hF_3 (hO : Ok3 (V3in m)) (c : Dev nD)
    (ho : outs 12 main_v58 c = (dat3 (V3in m) hO c).arrAt 4 (cfgM3 (V3in m) hO).N) :
    ∀ w : Fin 5, (dat3 (V3in m) hO c).arrAt w (cfgM3 (V3in m) hO).N = V12 m outs c (Pipeline.arrRef spec3 w) :=
  fin5_cases (P := fun w => (dat3 (V3in m) hO c).arrAt w (cfgM3 (V3in m) hO).N = V12 m outs c (Pipeline.arrRef spec3 w))
    (hF_3_0 m outs hO c) (hF_3_1 m outs hO c) (hF_3_2 m outs hO c) (hF_3_3 m outs hO c) (hF_3_4 m outs hO c ho)

end Tile3

/-! ## Tile 4 against the valuations around region 4 -/

section Tile4
variable (m : (ℓ : Loc nD τ sig) → Buf (Elt F) ℓ) (outs : Outs (F := F))

/-- Outside the region's arrays nothing changes across region 4: only its result array may. -/
theorem hrest_4 (c : Dev nD) (b : Ref sig .tc) (hb : b ∉ Finset.univ.image (Pipeline.arrRef spec4)) :
    V14 m outs c b = V13 m outs c b :=
  V14_of m outs c b fun h => hb (Finset.mem_image.mpr ⟨4, Finset.mem_univ _, (List.mem_singleton.mp h).symm⟩)

/-- What region 4 reads at entry does not depend on what the earlier regions left: its arrays … -/
theorem hag_4 (c : Dev nD) : ∀ w : Fin 5, V13 m outs c (Proc.devRef .tc (Pipeline.arrRef spec4 w)) = V4in m c (Pipeline.arrRef spec4 w) :=
  fin5_cases (P := fun w => V13 m outs c (Proc.devRef .tc (Pipeline.arrRef spec4 w)) = V4in m c (Pipeline.arrRef spec4 w))
    (show V13 m outs c main_v34 = V13 m (outsL m) c main_v34 from agree4_emb m outs (outsL m) c)
    (show V13 m outs c main_v61 = V13 m (outsL m) c main_v61 from agree4_pa m outs (outsL m) c)
    (show V13 m outs c main_v62 = V13 m (outsL m) c main_v62 from agree4_w m outs (outsL m) c)
    (show V13 m outs c main_v63 = V13 m (outsL m) c main_v63 from agree4_b m outs (outsL m) c)
    (show V13 m outs c main_v64 = V13 m (outsL m) c main_v64 from agree4_out m outs (outsL m) c)
/-- … and its table. -/
theorem hagT_4 (c : Dev nD) : ∀ j : Fin 1, V13 m outs c (Proc.devRef .tc (pre4.ref j)) = V4in m c (pre4.ref j) :=
  fin1_cases (P := fun j => V13 m outs c (Proc.devRef .tc (pre4.ref j)) = V4in m c (pre4.ref j))
    (show V13 m outs c main_v60 = V13 m (outsL m) c main_v60 from agree4_tbl m outs (outsL m) c)

/-- Region 4's input arrays after the run are as entered, which is what the exit valuation holds there … -/
theorem hF_4_0 (hO : Ok4 (V4in m)) (c : Dev nD) :
    (dat4 (V4in m) hO c).arrAt (0 : Fin 5) (cfgM4 (V4in m) hO).N = V14 m outs c (Pipeline.arrRef spec4 0) :=
  (arrAt4_in (V4in m) hO c 0 (by decide)).trans (show V4in m c (Pipeline.arrRef spec4 0) = V14 m outs c (Pipeline.arrRef spec4 0) from
    ((V14_of m outs c main_v34 (by decide)).trans (agree4_emb m outs (outsL m) c)).symm)
theorem hF_4_1 (hO : Ok4 (V4in m)) (c : Dev nD) :
    (dat4 (V4in m) hO c).arrAt (1 : Fin 5) (cfgM4 (V4in m) hO).N = V14 m outs c (Pipeline.arrRef spec4 1) :=
  (arrAt4_in (V4in m) hO c 1 (by decide)).trans (show V4in m c (Pipeline.arrRef spec4 1) = V14 m outs c (Pipeline.arrRef spec4 1) from
    ((V14_of m outs c main_v61 (by decide)).trans (agree4_pa m outs (outsL m) c)).symm)
theorem hF_4_2 (hO : Ok4 (V4in m)) (c : Dev nD) :
    (dat4 (V4in m) hO c).arrAt (2 : Fin 5) (cfgM4 (V4in m) hO).N = V14 m outs c (Pipeline.arrRef spec4 2) :=
  (arrAt4_in (V4in m) hO c 2 (by decide)).trans (show V4in m c (Pipeline.arrRef spec4 2) = V14 m outs c (Pipeline.arrRef spec4 2) from
    ((V14_of m outs c main_v62 (by decide)).trans (agree4_w m outs (outsL m) c)).symm)
theorem hF_4_3 (hO : Ok4 (V4in m)) (c : Dev nD) :
    (dat4 (V4in m) hO c).arrAt (3 : Fin 5) (cfgM4 (V4in m) hO).N = V14 m outs c (Pipeline.arrRef spec4 3) :=
  (arrAt4_in (V4in m) hO c 3 (by decide)).trans (show V4in m c (Pipeline.arrRef spec4 3) = V14 m outs c (Pipeline.arrRef spec4 3) from
    ((V14_of m outs c main_v63 (by decide)).trans (agree4_b m outs (outsL m) c)).symm)
/-- … and its result array holds what the family says the region leaves. -/
theorem hF_4_4 (hO : Ok4 (V4in m)) (c : Dev nD)
    (ho : outs 14 main_v64 c = (dat4 (V4in m) hO c).arrAt 4 (cfgM4 (V4in m) hO).N) :
    (dat4 (V4in m) hO c).arrAt (4 : Fin 5) (cfgM4 (V4in m) hO).N = V14 m outs c (Pipeline.arrRef spec4 4) := by
  show _ = Function.update (V13 m outs c) (Proc.devRef .tc main_v64) (outs 14 main_v64 c) (Proc.devRef .tc main_v64)
  rw [Function.update_self]
  exact ho.symm

theorem hF_4 (hO : Ok4 (V4in m)) (c : Dev nD)
    (ho : outs 14 main_v64 c = (dat4 (V4in m) hO c).arrAt 4 (cfgM4 (V4in m) hO).N) :
    ∀ w : Fin 5, (dat4 (V4in m) hO c).arrAt w (cfgM4 (V4in m) hO).N = V14 m outs c (Pipeline.arrRef spec4 w) :=
  fin5_cases (P := fun w => (dat4 (V4in m) hO c).arrAt w (cfgM4 (V4in m) hO).N = V14 m outs c (Pipeline.arrRef spec4 w))
    (hF_4_0 m outs hO c) (hF_4_1 m outs hO c) (hF_4_2 m outs hO c) (hF_4_3 m outs hO c) (hF_4_4 m outs hO c ho)

end Tile4

/-! ## Tile 5 against the valuations around region 5 -/

section Tile5
variable (m : (ℓ : Loc nD τ sig) → Buf (Elt F) ℓ) (outs : Outs (F := F))

/-- Outside the region's arrays nothing changes across region 5: only its result array may. -/
theorem hrest_5 (c : Dev nD) (b : Ref sig .tc) (hb : b ∉ Finset.univ.image (Pipeline.arrRef spec5)) :
    V16 m outs c b = V15 m outs c b :=
  V16_of m outs c b fun h => hb (Finset.mem_image.mpr ⟨4, Finset.mem_univ _, (List.mem_singleton.mp h).symm⟩)

/-- What region 5 reads at entry does not depend on what the earlier regions left: its arrays … -/
theorem hag_5 (c : Dev nD) : ∀ w : Fin 5, V15 m outs c (Proc.devRef .tc (Pipeline.arrRef spec5 w)) = V5in m c (Pipeline.arrRef spec5 w) :=
  fin5_cases (P := fun w => V15 m outs c (Proc.devRef .tc (Pipeline.arrRef spec5 w)) = V5in m c (Pipeline.arrRef spec5 w))
    (show V15 m outs c main_v34 = V15 m (outsL m) c main_v34 from agree5_emb m outs (outsL m) c)
    (show V15 m outs c main_v67 = V15 m (outsL m) c main_v67 from agree5_pa m outs (outsL m) c)
    (show V15 m outs c main_v68 = V15 m (outsL m) c main_v68 from agree5_w m outs (outsL m) c)
    (show V15 m outs c main_v69 = V15 m (outsL m) c main_v69 from agree5_b m outs (outsL m) c)
    (show V15 m outs c main_v70 = V15 m (outsL m) c main_v70 from agree5_out m outs (outsL m) c)
/-- … and its table. -/
theorem hagT_5 (c : Dev nD) : ∀ j : Fin 1, V15 m outs c (Proc.devRef .tc (pre5.ref j)) = V5in m c (pre5.ref j) :=
  fin1_cases (P := fun j => V15 m outs c (Proc.devRef .tc (pre5.ref j)) = V5in m c (pre5.ref j))
    (show V15 m outs c main_v66 = V15 m (outsL m) c main_v66 from agree5_tbl m outs (outsL m) c)

/-- Region 5's input arrays after the run are as entered, which is what the exit valuation holds there … -/
theorem hF_5_0 (hO : Ok5 (V5in m)) (c : Dev nD) :
    (dat5 (V5in m) hO c).arrAt (0 : Fin 5) (cfgM5 (V5in m) hO).N = V16 m outs c (Pipeline.arrRef spec5 0) :=
  (arrAt5_in (V5in m) hO c 0 (by decide)).trans (show V5in m c (Pipeline.arrRef spec5 0) = V16 m outs c (Pipeline.arrRef spec5 0) from
    ((V16_of m outs c main_v34 (by decide)).trans (agree5_emb m outs (outsL m) c)).symm)
theorem hF_5_1 (hO : Ok5 (V5in m)) (c : Dev nD) :
    (dat5 (V5in m) hO c).arrAt (1 : Fin 5) (cfgM5 (V5in m) hO).N = V16 m outs c (Pipeline.arrRef spec5 1) :=
  (arrAt5_in (V5in m) hO c 1 (by decide)).trans (show V5in m c (Pipeline.arrRef spec5 1) = V16 m outs c (Pipeline.arrRef spec5 1) from
    ((V16_of m outs c main_v67 (by decide)).trans (agree5_pa m outs (outsL m) c)).symm)
theorem hF_5_2 (hO : Ok5 (V5in m)) (c : Dev nD) :
    (dat5 (V5in m) hO c).arrAt (2 : Fin 5) (cfgM5 (V5in m) hO).N = V16 m outs c (Pipeline.arrRef spec5 2) :=
  (arrAt5_in (V5in m) hO c 2 (by decide)).trans (show V5in m c (Pipeline.arrRef spec5 2) = V16 m outs c (Pipeline.arrRef spec5 2) from
    ((V16_of m outs c main_v68 (by decide)).trans (agree5_w m outs (outsL m) c)).symm)
theorem hF_5_3 (hO : Ok5 (V5in m)) (c : Dev nD) :
    (dat5 (V5in m) hO c).arrAt (3 : Fin 5) (cfgM5 (V5in m) hO).N = V16 m outs c (Pipeline.arrRef spec5 3) :=
  (arrAt5_in (V5in m) hO c 3 (by decide)).trans (show V5in m c (Pipeline.arrRef spec5 3) = V16 m outs c (Pipeline.arrRef spec5 3) from
    ((V16_of m outs c main_v69 (by decide)).trans (agree5_b m outs (outsL m) c)).symm)
/-- … and its result array holds what the family says the region leaves. -/
theorem hF_5_4 (hO : Ok5 (V5in m)) (c : Dev nD)
    (ho : outs 16 main_v70 c = (dat5 (V5in m) hO c).arrAt 4 (cfgM5 (V5in m) hO).N) :
    (dat5 (V5in m) hO c).arrAt (4 : Fin 5) (cfgM5 (V5in m) hO).N = V16 m outs c (Pipeline.arrRef spec5 4) := by
  show _ = Function.update (V15 m outs c) (Proc.devRef .tc main_v70) (outs 16 main_v70 c) (Proc.devRef .tc main_v70)
  rw [Function.update_self]
  exact ho.symm

theorem hF_5 (hO : Ok5 (V5in m)) (c : Dev nD)
    (ho : outs 16 main_v70 c = (dat5 (V5in m) hO c).arrAt 4 (cfgM5 (V5in m) hO).N) :
    ∀ w : Fin 5, (dat5 (V5in m) hO c).arrAt w (cfgM5 (V5in m) hO).N = V16 m outs c (Pipeline.arrRef spec5 w) :=
  fin5_cases (P := fun w => (dat5 (V5in m) hO c).arrAt w (cfgM5 (V5in m) hO).N = V16 m outs c (Pipeline.arrRef spec5 w))
    (hF_5_0 m outs hO c) (hF_5_1 m outs hO c) (hF_5_2 m outs hO c) (hF_5_3 m outs hO c) (hF_5_4 m outs hO c ho)

end Tile5

/-! ## Tile 6 against the valuations around region 6 -/

section Tile6
variable (m : (ℓ : Loc nD τ sig) → Buf (Elt F) ℓ) (outs : Outs (F := F))

/-- Outside the region's arrays nothing changes across region 6: only its result array may. -/
theorem hrest_6 (c : Dev nD) (b : Ref sig .tc) (hb : b ∉ Finset.univ.image (Pipeline.arrRef spec6)) :
    V18 m outs c b = V17 m outs c b :=
  V18_of m outs c b fun h => hb (Finset.mem_image.mpr ⟨4, Finset.mem_univ _, (List.mem_singleton.mp h).symm⟩)

/-- What region 6 reads at entry does not depend on what the earlier regions left: its arrays … -/
theorem hag_6 (c : Dev nD) : ∀ w : Fin 5, V17 m outs c (Proc.devRef .tc (Pipeline.arrRef spec6 w)) = V6in m c (Pipeline.arrRef spec6 w) :=
  fin5_cases (P := fun w => V17 m outs c (Proc.devRef .tc (Pipeline.arrRef spec6 w)) = V6in m c (Pipeline.arrRef spec6 w))
    (show V17 m outs c main_v34 = V17 m (outsL m) c main_v34 from agree6_emb m outs (outsL m) c)
    (show V17 m outs c main_v73 = V17 m (outsL m) c main_v73 from agree6_pa m outs (outsL m) c)
    (show V17 m outs c main_v74 = V17 m (outsL m) c main_v74 from agree6_w m outs (outsL m) c)
    (show V17 m outs c main_v75 = V17 m (outsL m) c main_v75 from agree6_b m outs (outsL m) c)
    (show V17 m outs c main_v76 = V17 m (outsL m) c main_v76 from agree6_out m outs (outsL m) c)
/-- … and its table. -/
theorem hagT_6 (c : Dev nD) : ∀ j : Fin 1, V17 m outs c (Proc.devRef .tc (pre6.ref j)) = V6in m c (pre6.ref j) :=
  fin1_cases (P := fun j => V17 m outs c (Proc.devRef .tc (pre6.ref j)) = V6in m c (pre6.ref j))
    (show V17 m outs c main_v72 = V17 m (outsL m) c main_v72 from agree6_tbl m outs (outsL m) c)

/-- Region 6's input arrays after the run are as entered, which is what the exit valuation holds there … -/
theorem hF_6_0 (hO : Ok6 (V6in m)) (c : Dev nD) :
    (dat6 (V6in m) hO c).arrAt (0 : Fin 5) (cfgM6 (V6in m) hO).N = V18 m outs c (Pipeline.arrRef spec6 0) :=
  (arrAt6_in (V6in m) hO c 0 (by decide)).trans (show V6in m c (Pipeline.arrRef spec6 0) = V18 m outs c (Pipeline.arrRef spec6 0) from
    ((V18_of m outs c main_v34 (by decide)).trans (agree6_emb m outs (outsL m) c)).symm)
theorem hF_6_1 (hO : Ok6 (V6in m)) (c : Dev nD) :
    (dat6 (V6in m) hO c).arrAt (1 : Fin 5) (cfgM6 (V6in m) hO).N = V18 m outs c (Pipeline.arrRef spec6 1) :=
  (arrAt6_in (V6in m) hO c 1 (by decide)).trans (show V6in m c (Pipeline.arrRef spec6 1) = V18 m outs c (Pipeline.arrRef spec6 1) from
    ((V18_of m outs c main_v73 (by decide)).trans (agree6_pa m outs (outsL m) c)).symm)
theorem hF_6_2 (hO : Ok6 (V6in m)) (c : Dev nD) :
    (dat6 (V6in m) hO c).arrAt (2 : Fin 5) (cfgM6 (V6in m) hO).N = V18 m outs c (Pipeline.arrRef spec6 2) :=
  (arrAt6_in (V6in m) hO c 2 (by decide)).trans (show V6in m c (Pipeline.arrRef spec6 2) = V18 m outs c (Pipeline.arrRef spec6 2) from
    ((V18_of m outs c main_v74 (by decide)).trans (agree6_w m outs (outsL m) c)).symm)
theorem hF_6_3 (hO : Ok6 (V6in m)) (c : Dev nD) :
    (dat6 (V6in m) hO c).arrAt (3 : Fin 5) (cfgM6 (V6in m) hO).N = V18 m outs c (Pipeline.arrRef spec6 3) :=
  (arrAt6_in (V6in m) hO c 3 (by decide)).trans (show V6in m c (Pipeline.arrRef spec6 3) = V18 m outs c (Pipeline.arrRef spec6 3) from
    ((V18_of m outs c main_v75 (by decide)).trans (agree6_b m outs (outsL m) c)).symm)
/-- … and its result array holds what the family says the region leaves. -/
theorem hF_6_4 (hO : Ok6 (V6in m)) (c : Dev nD)
    (ho : outs 18 main_v76 c = (dat6 (V6in m) hO c).arrAt 4 (cfgM6 (V6in m) hO).N) :
    (dat6 (V6in m) hO c).arrAt (4 : Fin 5) (cfgM6 (V6in m) hO).N = V18 m outs c (Pipeline.arrRef spec6 4) := by
  show _ = Function.update (V17 m outs c) (Proc.devRef .tc main_v76) (outs 18 main_v76 c) (Proc.devRef .tc main_v76)
  rw [Function.update_self]
  exact ho.symm

theorem hF_6 (hO : Ok6 (V6in m)) (c : Dev nD)
    (ho : outs 18 main_v76 c = (dat6 (V6in m) hO c).arrAt 4 (cfgM6 (V6in m) hO).N) :
    ∀ w : Fin 5, (dat6 (V6in m) hO c).arrAt w (cfgM6 (V6in m) hO).N = V18 m outs c (Pipeline.arrRef spec6 w) :=
  fin5_cases (P := fun w => (dat6 (V6in m) hO c).arrAt w (cfgM6 (V6in m) hO).N = V18 m outs c (Pipeline.arrRef spec6 w))
    (hF_6_0 m outs hO c) (hF_6_1 m outs hO c) (hF_6_2 m outs hO c) (hF_6_3 m outs hO c) (hF_6_4 m outs hO c ho)

end Tile6

/-! ## Tile 7 against the valuations around region 7 -/

section Tile7
variable (m : (ℓ : Loc nD τ sig) → Buf (Elt F) ℓ) (outs : Outs (F := F))

/-- Outside the region's arrays nothing changes across region 7: only its result array may. -/
theorem hrest_7 (c : Dev nD) (b : Ref sig .tc) (hb : b ∉ Finset.univ.image (Pipeline.arrRef spec7)) :
    V20 m outs c b = V19 m outs c b :=
  V20_of m outs c b fun h => hb (Finset.mem_image.mpr ⟨4, Finset.mem_univ _, (List.mem_singleton.mp h).symm⟩)

/-- What region 7 reads at entry does not depend on what the earlier regions left: its arrays … -/
theorem hag_7 (c : Dev nD) : ∀ w : Fin 5, V19 m outs c (Proc.devRef .tc (Pipeline.arrRef spec7 w)) = V7in m c (Pipeline.arrRef spec7 w) :=
  fin5_cases (P := fun w => V19 m outs c (Proc.devRef .tc (Pipeline.arrRef spec7 w)) = V7in m c (Pipeline.arrRef spec7 w))
    (show V19 m outs c main_v34 = V19 m (outsL m) c main_v34 from agree7_emb m outs (outsL m) c)
    (show V19 m outs c main_v79 = V19 m (outsL m) c main_v79 from agree7_pa m outs (outsL m) c)
    (show V19 m outs c main_v80 = V19 m (outsL m) c main_v80 from agree7_w m outs (outsL m) c)
    (show V19 m outs c main_v81 = V19 m (outsL m) c main_v81 from agree7_b m outs (outsL m) c)
    (show V19 m outs c main_v82 = V19 m (outsL m) c main_v82 from agree7_out m outs (outsL m) c)
/-- … and its table. -/
theorem hagT_7 (c : Dev nD) : ∀ j : Fin 1, V19 m outs c (Proc.devRef .tc (pre7.ref j)) = V7in m c (pre7.ref j) :=
  fin1_cases (P := fun j => V19 m outs c (Proc.devRef .tc (pre7.ref j)) = V7in m c (pre7.ref j))
    (show V19 m outs c main_v78 = V19 m (outsL m) c main_v78 from agree7_tbl m outs (outsL m) c)

/-- Region 7's input arrays after the run are as entered, which is what the exit valuation holds there … -/
theorem hF_7_0 (hO : Ok7 (V7in m)) (c : Dev nD) :
    (dat7 (V7in m) hO c).arrAt (0 : Fin 5) (cfgM7 (V7in m) hO).N = V20 m outs c (Pipeline.arrRef spec7 0) :=
  (arrAt7_in (V7in m) hO c 0 (by decide)).trans (show V7in m c (Pipeline.arrRef spec7 0) = V20 m outs c (Pipeline.arrRef spec7 0) from
    ((V20_of m outs c main_v34 (by decide)).trans (agree7_emb m outs (outsL m) c)).symm)
theorem hF_7_1 (hO : Ok7 (V7in m)) (c : Dev nD) :
    (dat7 (V7in m) hO c).arrAt (1 : Fin 5) (cfgM7 (V7in m) hO).N = V20 m outs c (Pipeline.arrRef spec7 1) :=
  (arrAt7_in (V7in m) hO c 1 (by decide)).trans (show V7in m c (Pipeline.arrRef spec7 1) = V20 m outs c (Pipeline.arrRef spec7 1) from
    ((V20_of m outs c main_v79 (by decide)).trans (agree7_pa m outs (outsL m) c)).symm)
theorem hF_7_2 (hO : Ok7 (V7in m)) (c : Dev nD) :
    (dat7 (V7in m) hO c).arrAt (2 : Fin 5) (cfgM7 (V7in m) hO).N = V20 m outs c (Pipeline.arrRef spec7 2) :=
  (arrAt7_in (V7in m) hO c 2 (by decide)).trans (show V7in m c (Pipeline.arrRef spec7 2) = V20 m outs c (Pipeline.arrRef spec7 2) from
    ((V20_of m outs c main_v80 (by decide)).trans (agree7_w m outs (outsL m) c)).symm)
theorem hF_7_3 (hO : Ok7 (V7in m)) (c : Dev nD) :
    (dat7 (V7in m) hO c).arrAt (3 : Fin 5) (cfgM7 (V7in m) hO).N = V20 m outs c (Pipeline.arrRef spec7 3) :=
  (arrAt7_in (V7in m) hO c 3 (by decide)).trans (show V7in m c (Pipeline.arrRef spec7 3) = V20 m outs c (Pipeline.arrRef spec7 3) from
    ((V20_of m outs c main_v81 (by decide)).trans (agree7_b m outs (outsL m) c)).symm)
/-- … and its result array holds what the family says the region leaves. -/
theorem hF_7_4 (hO : Ok7 (V7in m)) (c : Dev nD)
    (ho : outs 20 main_v82 c = (dat7 (V7in m) hO c).arrAt 4 (cfgM7 (V7in m) hO).N) :
    (dat7 (V7in m) hO c).arrAt (4 : Fin 5) (cfgM7 (V7in m) hO).N = V20 m outs c (Pipeline.arrRef spec7 4) := by
  show _ = Function.update (V19 m outs c) (Proc.devRef .tc main_v82) (outs 20 main_v82 c) (Proc.devRef .tc main_v82)
  rw [Function.update_self]
  exact ho.symm

theorem hF_7 (hO : Ok7 (V7in m)) (c : Dev nD)
    (ho : outs 20 main_v82 c = (dat7 (V7in m) hO c).arrAt 4 (cfgM7 (V7in m) hO).N) :
    ∀ w : Fin 5, (dat7 (V7in m) hO c).arrAt w (cfgM7 (V7in m) hO).N = V20 m outs c (Pipeline.arrRef spec7 w) :=
  fin5_cases (P := fun w => (dat7 (V7in m) hO c).arrAt w (cfgM7 (V7in m) hO).N = V20 m outs c (Pipeline.arrRef spec7 w))
    (hF_7_0 m outs hO c) (hF_7_1 m outs hO c) (hF_7_2 m outs hO c) (hF_7_3 m outs hO c) (hF_7_4 m outs hO c ho)

end Tile7

/-! ## The choices for a launch memory in range -/

/-- The range fact at core 0 (there is one core): every gathered row number lies inside the embedding table. -/
abbrev HIN (m : (ℓ : Loc nD τ sig) → Buf (Elt F) ℓ) : Prop :=
  Cert.Spec.InRange (Cert.Spec.gidxOf (m (((0 : Dev nD) : Thread nD τ).loc main_arg0)) (m (((0 : Dev nD) : Thread nD τ).loc main_arg1))
    (m (((0 : Dev nD) : Thread nD τ).loc main_arg2)))

section Choices
variable (m : (ℓ : Loc nD τ sig) → Buf (Elt F) ℓ)

/-- Each tile's table satisfies its pipeline's side condition. -/
theorem hO0 (hin : HIN m) : Ok0 (V0in m) := ok0_of_inRange m 0 hin
theorem hO1 (hin : HIN m) : Ok1 (V1in m) := ok1_of_inRange m 0 hin
theorem hO2 (hin : HIN m) : Ok2 (V2in m) := ok2_of_inRange m 0 hin
theorem hO3 (hin : HIN m) : Ok3 (V3in m) := ok3_of_inRange m 0 hin
theorem hO4 (hin : HIN m) : Ok4 (V4in m) := ok4_of_inRange m 0 hin
theorem hO5 (hin : HIN m) : Ok5 (V5in m) := ok5_of_inRange m 0 hin
theorem hO6 (hin : HIN m) : Ok6 (V6in m) := ok6_of_inRange m 0 hin
theorem hO7 (hin : HIN m) : Ok7 (V7in m) := ok7_of_inRange m 0 hin

/-- Each tile's admissible table contents … -/
abbrev A0 (hin : HIN m) : (pcfg0 (F := F)).Adm := adm0 (V0in m) (hO0 m hin)
abbrev A1 (hin : HIN m) : (pcfg1 (F := F)).Adm := adm1 (V1in m) (hO1 m hin)
abbrev A2 (hin : HIN m) : (pcfg2 (F := F)).Adm := adm2 (V2in m) (hO2 m hin)
abbrev A3 (hin : HIN m) : (pcfg3 (F := F)).Adm := adm3 (V3in m) (hO3 m hin)
abbrev A4 (hin : HIN m) : (pcfg4 (F := F)).Adm := adm4 (V4in m) (hO4 m hin)
abbrev A5 (hin : HIN m) : (pcfg5 (F := F)).Adm := adm5 (V5in m) (hO5 m hin)
abbrev A6 (hin : HIN m) : (pcfg6 (F := F)).Adm := adm6 (V6in m) (hO6 m hin)
abbrev A7 (hin : HIN m) : (pcfg7 (F := F)).Adm := adm7 (V7in m) (hO7 m hin)

/-- … its proof data … -/
abbrev D0 (hin : HIN m) : (c : Dev nD) → Dat τ (Elt F) Unit ℕ (UR sig nD τ) ℕ (cfg0 (A0 m hin)) c := dat0 (V0in m) (hO0 m hin)
abbrev D1 (hin : HIN m) : (c : Dev nD) → Dat τ (Elt F) Unit ℕ (UR sig nD τ) ℕ (cfg1 (A1 m hin)) c := dat1 (V1in m) (hO1 m hin)
abbrev D2 (hin : HIN m) : (c : Dev nD) → Dat τ (Elt F) Unit ℕ (UR sig nD τ) ℕ (cfg2 (A2 m hin)) c := dat2 (V2in m) (hO2 m hin)
abbrev D3 (hin : HIN m) : (c : Dev nD) → Dat τ (Elt F) Unit ℕ (UR sig nD τ) ℕ (cfg3 (A3 m hin)) c := dat3 (V3in m) (hO3 m hin)
abbrev D4 (hin : HIN m) : (c : Dev nD) → Dat τ (Elt F) Unit ℕ (UR sig nD τ) ℕ (cfg4 (A4 m hin)) c := dat4 (V4in m) (hO4 m hin)
abbrev D5 (hin : HIN m) : (c : Dev nD) → Dat τ (Elt F) Unit ℕ (UR sig nD τ) ℕ (cfg5 (A5 m hin)) c := dat5 (V5in m) (hO5 m hin)
abbrev D6 (hin : HIN m) : (c : Dev nD) → Dat τ (Elt F) Unit ℕ (UR sig nD τ) ℕ (cfg6 (A6 m hin)) c := dat6 (V6in m) (hO6 m hin)
abbrev D7 (hin : HIN m) : (c : Dev nD) → Dat τ (Elt F) Unit ℕ (UR sig nD τ) ℕ (cfg7 (A7 m hin)) c := dat7 (V7in m) (hO7 m hin)

/-- … and what its region leaves in its result array: the proof data's array after the run. -/
abbrev o0 (hin : HIN m) (c : Dev nD) : Buf (Elt F) ((c : Thread nD τ).loc main_v40) :=
  (dat0 (V0in m) (hO0 m hin) c).arrAt 4 (cfgM0 (V0in m) (hO0 m hin)).N
abbrev o1 (hin : HIN m) (c : Dev nD) : Buf (Elt F) ((c : Thread nD τ).loc main_v46) :=
  (dat1 (V1in m) (hO1 m hin) c).arrAt 4 (cfgM1 (V1in m) (hO1 m hin)).N
abbrev o2 (hin : HIN m) (c : Dev nD) : Buf (Elt F) ((c : Thread nD τ).loc main_v52) :=
  (dat2 (V2in m) (hO2 m hin) c).arrAt 4 (cfgM2 (V2in m) (hO2 m hin)).N
abbrev o3 (hin : HIN m) (c : Dev nD) : Buf (Elt F) ((c : Thread nD τ).loc main_v58) :=
  (dat3 (V3in m) (hO3 m hin) c).arrAt 4 (cfgM3 (V3in m) (hO3 m hin)).N
abbrev o4 (hin : HIN m) (c : Dev nD) : Buf (Elt F) ((c : Thread nD τ).loc main_v64) :=
  (dat4 (V4in m) (hO4 m hin) c).arrAt 4 (cfgM4 (V4in m) (hO4 m hin)).N
abbrev o5 (hin : HIN m) (c : Dev nD) : Buf (Elt F) ((c : Thread nD τ).loc main_v70) :=
  (dat5 (V5in m) (hO5 m hin) c).arrAt 4 (cfgM5 (V5in m) (hO5 m hin)).N
abbrev o6 (hin : HIN m) (c : Dev nD) : Buf (Elt F) ((c : Thread nD τ).loc main_v76) :=
  (dat6 (V6in m) (hO6 m hin) c).arrAt 4 (cfgM6 (V6in m) (hO6 m hin)).N
abbrev o7 (hin : HIN m) (c : Dev nD) : Buf (Elt F) ((c : Thread nD τ).loc main_v82) :=
  (dat7 (V7in m) (hO7 m hin) c).arrAt 4 (cfgM7 (V7in m) (hO7 m hin)).N

/-- What the regions leave. -/
def outsR (hin : HIN m) : Outs (F := F) := outsOf m (o0 m hin) (o1 m hin) (o2 m hin) (o3 m hin) (o4 m hin) (o5 m hin) (o6 m hin) (o7 m hin)

theorem outsR_0 (hin : HIN m) (n : ℕ) (c : Dev nD) : outsR m hin n main_v40 c = o0 m hin c := outsOf_0 m _ _ _ _ _ _ _ _ n c
theorem outsR_1 (hin : HIN m) (n : ℕ) (c : Dev nD) : outsR m hin n main_v46 c = o1 m hin c := outsOf_1 m _ _ _ _ _ _ _ _ n c
theorem outsR_2 (hin : HIN m) (n : ℕ) (c : Dev nD) : outsR m hin n main_v52 c = o2 m hin c := outsOf_2 m _ _ _ _ _ _ _ _ n c
theorem outsR_3 (hin : HIN m) (n : ℕ) (c : Dev nD) : outsR m hin n main_v58 c = o3 m hin c := outsOf_3 m _ _ _ _ _ _ _ _ n c
theorem outsR_4 (hin : HIN m) (n : ℕ) (c : Dev nD) : outsR m hin n main_v64 c = o4 m hin c := outsOf_4 m _ _ _ _ _ _ _ _ n c
theorem outsR_5 (hin : HIN m) (n : ℕ) (c : Dev nD) : outsR m hin n main_v70 c = o5 m hin c := outsOf_5 m _ _ _ _ _ _ _ _ n c
theorem outsR_6 (hin : HIN m) (n : ℕ) (c : Dev nD) : outsR m hin n main_v76 c = o6 m hin c := outsOf_6 m _ _ _ _ _ _ _ _ n c
theorem outsR_7 (hin : HIN m) (n : ℕ) (c : Dev nD) : outsR m hin n main_v82 c = o7 m hin c := outsOf_7 m _ _ _ _ _ _ _ _ n c

/-- The two families. -/
abbrev admF (hin : HIN m) : (p : Fin 8) → (pcfgs (F := F) p).Adm := admOf (A0 m hin) (A1 m hin) (A2 m hin) (A3 m hin) (A4 m hin) (A5 m hin) (A6 m hin) (A7 m hin)
abbrev pdatsF (hin : HIN m) : (p : Fin 8) → (c : Dev nD) → Dat τ (Elt F) Unit ℕ (UR sig nD τ) ℕ (Pipeline.pin (pcfgs (F := F)) (admF m hin) p) c :=
  pdatsOf (A0 m hin) (A1 m hin) (A2 m hin) (A3 m hin) (A4 m hin) (A5 m hin) (A6 m hin) (A7 m hin) (D0 m hin) (D1 m hin) (D2 m hin) (D3 m hin) (D4 m hin) (D5 m hin) (D6 m hin) (D7 m hin)

/-! ## The eight records -/

/-- Region 0's record: entered at the valuation before it, left at the one after it, at the family `outsR`. -/
def R0 (hin : HIN m) : RegionSeg (pcfgs (F := F)) (admF m hin) (pdatsF m hin) () defs₀ Variants.none (fun _ => ∅) (fun _ _ => 0) 0 :=
  reg0 (V0in m) (hO0 m hin) (fun c => V5 m c) (fun c => V6 m (outsR m hin) c) (hag_0 m) (hagT_0 m)
    (fun c => hF_0 m (outsR m hin) (hO0 m hin) c (outsR_0 m hin 6 c)) (fun c => hrest_0 m (outsR m hin) c)
    (A1 m hin) (A2 m hin) (A3 m hin) (A4 m hin) (A5 m hin) (A6 m hin) (A7 m hin) (D1 m hin) (D2 m hin) (D3 m hin) (D4 m hin) (D5 m hin) (D6 m hin) (D7 m hin)

/-- Region 1's record: entered at the valuation before it, left at the one after it, at the family `outsR`. -/
def R1 (hin : HIN m) : RegionSeg (pcfgs (F := F)) (admF m hin) (pdatsF m hin) () defs₀ Variants.none (fun _ => ∅) (fun _ _ => 0) 1 :=
  reg1 (V1in m) (hO1 m hin) (fun c => V7 m (outsR m hin) c) (fun c => V8 m (outsR m hin) c) (fun c => hag_1 m (outsR m hin) c) (fun c => hagT_1 m (outsR m hin) c)
    (fun c => hF_1 m (outsR m hin) (hO1 m hin) c (outsR_1 m hin 8 c)) (fun c => hrest_1 m (outsR m hin) c)
    (A0 m hin) (A2 m hin) (A3 m hin) (A4 m hin) (A5 m hin) (A6 m hin) (A7 m hin) (D0 m hin) (D2 m hin) (D3 m hin) (D4 m hin) (D5 m hin) (D6 m hin) (D7 m hin)

/-- Region 2's record: entered at the valuation before it, left at the one after it, at the family `outsR`. -/
def R2 (hin : HIN m) : RegionSeg (pcfgs (F := F)) (admF m hin) (pdatsF m hin) () defs₀ Variants.none (fun _ => ∅) (fun _ _ => 0) 2 :=
  reg2 (V2in m) (hO2 m hin) (fun c => V9 m (outsR m hin) c) (fun c => V10 m (outsR m hin) c) (fun c => hag_2 m (outsR m hin) c) (fun c => hagT_2 m (outsR m hin) c)
    (fun c => hF_2 m (outsR m hin) (hO2 m hin) c (outsR_2 m hin 10 c)) (fun c => hrest_2 m (outsR m hin) c)
    (A0 m hin) (A1 m hin) (A3 m hin) (A4 m hin) (A5 m hin) (A6 m hin) (A7 m hin) (D0 m hin) (D1 m hin) (D3 m hin) (D4 m hin) (D5 m hin) (D6 m hin) (D7 m hin)

/-- Region 3's record: entered at the valuation before it, left at the one after it, at the family `outsR`. -/
def R3 (hin : HIN m) : RegionSeg (pcfgs (F := F)) (admF m hin) (pdatsF m hin) () defs₀ Variants.none (fun _ => ∅) (fun _ _ => 0) 3 :=
  reg3 (V3in m) (hO3 m hin) (fun c => V11 m (outsR m hin) c) (fun c => V12 m (outsR m hin) c) (fun c => hag_3 m (outsR m hin) c) (fun c => hagT_3 m (outsR m hin) c)
    (fun c => hF_3 m (outsR m hin) (hO3 m hin) c (outsR_3 m hin 12 c)) (fun c => hrest_3 m (outsR m hin) c)
    (A0 m hin) (A1 m hin) (A2 m hin) (A4 m hin) (A5 m hin) (A6 m hin) (A7 m hin) (D0 m hin) (D1 m hin) (D2 m hin) (D4 m hin) (D5 m hin) (D6 m hin) (D7 m hin)

/-- Region 4's record: entered at the valuation before it, left at the one after it, at the family `outsR`. -/
def R4 (hin : HIN m) : RegionSeg (pcfgs (F := F)) (admF m hin) (pdatsF m hin) () defs₀ Variants.none (fun _ => ∅) (fun _ _ => 0) 4 :=
  reg4 (V4in m) (hO4 m hin) (fun c => V13 m (outsR m hin) c) (fun c => V14 m (outsR m hin) c) (fun c => hag_4 m (outsR m hin) c) (fun c => hagT_4 m (outsR m hin) c)
    (fun c => hF_4 m (outsR m hin) (hO4 m hin) c (outsR_4 m hin 14 c)) (fun c => hrest_4 m (outsR m hin) c)
    (A0 m hin) (A1 m hin) (A2 m hin) (A3 m hin) (A5 m hin) (A6 m hin) (A7 m hin) (D0 m hin) (D1 m hin) (D2 m hin) (D3 m hin) (D5 m hin) (D6 m hin) (D7 m hin)

/-- Region 5's record: entered at the valuation before it, left at the one after it, at the family `outsR`. -/
def R5 (hin : HIN m) : RegionSeg (pcfgs (F := F)) (admF m hin) (pdatsF m hin) () defs₀ Variants.none (fun _ => ∅) (fun _ _ => 0) 5 :=
  reg5 (V5in m) (hO5 m hin) (fun c => V15 m (outsR m hin) c) (fun c => V16 m (outsR m hin) c) (fun c => hag_5 m (outsR m hin) c) (fun c => hagT_5 m (outsR m hin) c)
    (fun c => hF_5 m (outsR m hin) (hO5 m hin) c (outsR_5 m hin 16 c)) (fun c => hrest_5 m (outsR m hin) c)
    (A0 m hin) (A1 m hin) (A2 m hin) (A3 m hin) (A4 m hin) (A6 m hin) (A7 m hin) (D0 m hin) (D1 m hin) (D2 m hin) (D3 m hin) (D4 m hin) (D6 m hin) (D7 m hin)

/-- Region 6's record: entered at the valuation before it, left at the one after it, at the family `outsR`. -/
def R6 (hin : HIN m) : RegionSeg (pcfgs (F := F)) (admF m hin) (pdatsF m hin) () defs₀ Variants.none (fun _ => ∅) (fun _ _ => 0) 6 :=
  reg6 (V6in m) (hO6 m hin) (fun c => V17 m (outsR m hin) c) (fun c => V18 m (outsR m hin) c) (fun c => hag_6 m (outsR m hin) c) (fun c => hagT_6 m (outsR m hin) c)
    (fun c => hF_6 m (outsR m hin) (hO6 m hin) c (outsR_6 m hin 18 c)) (fun c => hrest_6 m (outsR m hin) c)
    (A0 m hin) (A1 m hin) (A2 m hin) (A3 m hin) (A4 m hin) (A5 m hin) (A7 m hin) (D0 m hin) (D1 m hin) (D2 m hin) (D3 m hin) (D4 m hin) (D5 m hin) (D7 m hin)

/-- Region 7's record: entered at the valuation before it, left at the one after it, at the family `outsR`. -/
def R7 (hin : HIN m) : RegionSeg (pcfgs (F := F)) (admF m hin) (pdatsF m hin) () defs₀ Variants.none (fun _ => ∅) (fun _ _ => 0) 7 :=
  reg7 (V7in m) (hO7 m hin) (fun c => V19 m (outsR m hin) c) (fun c => V20 m (outsR m hin) c) (fun c => hag_7 m (outsR m hin) c) (fun c => hagT_7 m (outsR m hin) c)
    (fun c => hF_7 m (outsR m hin) (hO7 m hin) c (outsR_7 m hin 20 c)) (fun c => hrest_7 m (outsR m hin) c)
    (A0 m hin) (A1 m hin) (A2 m hin) (A3 m hin) (A4 m hin) (A5 m hin) (A6 m hin) (D0 m hin) (D1 m hin) (D2 m hin) (D3 m hin) (D4 m hin) (D5 m hin) (D6 m hin)

end Choices

/-! ## The run and the frame -/

variable (m : (ℓ : Loc nD τ sig) → Buf (Elt F) ℓ)

/-- THE RUN. From a memory whose gathered row numbers are in range, every weakly fair execution of @main with zero
    counters terminates and every final memory holds, on every core and in every unscoped buffer, the last valuation at
    the family of what the regions leave. -/
theorem run_main (ρ : Dev nD → PrngReg) (hin : HIN m) :
    θ_run defs (onTc (τ := τ) (main (F := F))) ⟨m, fun _ => 0, ρ⟩ (fun r => ∀ c : Dev nD, ∀ b ∈ Pipeline.ucRefs τ sig,
      r.2.mem (((c.tc : Thread nD τ)).1, b) = V21 m (outsR m hin) c b) :=
  run_of_regs m ρ (outsR m hin) (admF m hin) (pdatsF m hin)
    (R0 m hin) (fun _ => .rfl) (fun _ => .rfl)
    (R1 m hin) (fun _ => .rfl) (fun _ => .rfl)
    (R2 m hin) (fun _ => .rfl) (fun _ => .rfl)
    (R3 m hin) (fun _ => .rfl) (fun _ => .rfl)
    (R4 m hin) (fun _ => .rfl) (fun _ => .rfl)
    (R5 m hin) (fun _ => .rfl) (fun _ => .rfl)
    (R6 m hin) (fun _ => .rfl) (fun _ => .rfl)
    (R7 m hin) (fun _ => .rfl) (fun _ => .rfl)

/-- THE FRAME. From such a memory every final memory holds each of the seven argument arrays as launched. -/
theorem frame_main (ρ : Dev nD → PrngReg) (hin : HIN m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_regs m ρ (outsR m hin) (admF m hin) (pdatsF m hin)
    (R0 m hin) (fun _ => .rfl) (fun _ => .rfl)
    (R1 m hin) (fun _ => .rfl) (fun _ => .rfl)
    (R2 m hin) (fun _ => .rfl) (fun _ => .rfl)
    (R3 m hin) (fun _ => .rfl) (fun _ => .rfl)
    (R4 m hin) (fun _ => .rfl) (fun _ => .rfl)
    (R5 m hin) (fun _ => .rfl) (fun _ => .rfl)
    (R6 m hin) (fun _ => .rfl) (fun _ => .rfl)
    (R7 m hin) (fun _ => .rfl) (fun _ => .rfl)

end Cert.KernelIdeal.Hand

end
-- ==== Proof.R0RunBits.lean ====
import proofs.«402893_j78554951844377_2_alg».proof.Proof.Gen.Kernel.Launch
import proofs.«402893_j78554951844377_2_alg».proof.Proof.Gen.Kernel.Skeleton
import Idealize.ShloMosaic.Lib.Pipeline.Value
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 0: the kernel body at one grid point

The body keeps a running lane-wise sum in its scratch: at the first feature of a sample it clears the scratch, at every
feature it adds the gathered row, and at the last feature it also stores the sample's result
`(Σ_l min 1 (max 0 (sum + bias)) · weights) + head bias` into the result block. Three cases of the two conditions are
met on the grid (first feature, a middle one, the last one); in each the body runs to its end and leaves the scratch
(and, in the last, the result block) at the stated payload of what it was handed. -/

/-- The body's first condition: the feature coordinate is 0. -/
abbrev cond0_0 (i : grid0.Coords) : Prop := (Scalar.cmpi .ne (Scalar.extui (Scalar.cmpi .eq (BitVec.ofNat 32 (i 1).val) 0#32)) 0#32) = 1#1
/-- The body's second condition: the feature coordinate is 31. -/
abbrev cond0_1 (i : grid0.Coords) : Prop := k0_cond2 i = 1#1

/-- The whole-block rectangle starts at zero on every axis. -/
theorem hz128 : (![0, 0, 0] : Fin S1x1x128.rank → Nat) = fun _ => 0 := by
  funext a; match a with | ⟨0, _⟩ => rfl | ⟨1, _⟩ => rfl | ⟨2, _⟩ => rfl
theorem hz1 : (![0, 0, 0] : Fin S1x1x1.rank → Nat) = fun _ => 0 := by
  funext a; match a with | ⟨0, _⟩ => rfl | ⟨1, _⟩ => rfl | ⟨2, _⟩ => rfl

set_option maxHeartbeats 1000000 in
/-- A MIDDLE feature (neither condition holds): the scratch at `acc` ends at `acc + row`. -/
theorem run0_B (c : Dev nD) (i : grid0.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond0_0 i) (hc1 : ¬cond0_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k0_pay2 acc x3)) -∗ K ⟨⟩))
      ⊢ wp frame (wpE (defs₀ (F := F)) Variants.none c none) E (cc0__gather_kernel i arg2 harg2 arg3 harg3 arg4 harg4 arg5 harg5 arg6 harg6 arg7 harg7 arg8 harg8) K := by
  simp only [cc0__gather_kernel_eq_skeleton]; unfold cc0__gather_kernel_skel
  unfold owns
  iintro ⟨⟨%f3, %hf3, H3⟩, ⟨%f8, %hf8, H8⟩, Hk⟩
  obtain rfl := harg3.eq_unread hf3; obtain rfl := harg8.eq_unread hf8
  sl_exec (disch := first | exact hc0 | exact hc1)
  sl_step
  iapply Hk
  isplitl [H3]
  · iexists _; isplitr; · ipureintro; exact harg3.read_unread _
    iexact H3
  iexists _; isplitr
  swap; · iexact H8
  ipureintro
  rw [View.read_writes_eq_canon _ _ _ (fun y => ⟨_, List.mem_singleton_self _, View.mem_set_unit_zero hz128 inb_S1x1x128_S1x1x128_0_0_0 y⟩),
    View.canon_unit_zero hz128]
  simp only [View.readAt_eq_ld, harg8.read_unread, harg3.read_unread, View.ld_unit_zero (S := S1x1x128) hz128]

set_option maxHeartbeats 1000000 in
/-- The FIRST feature (the first condition holds, the second does not): whatever the scratch held, it ends at
    `0 + row`. -/
theorem run0_A (c : Dev nD) (i : grid0.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond0_0 i) (hc1 : ¬cond0_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k0_pay2 (k0_pay1 (F := F)) x3)) -∗ K ⟨⟩))
      ⊢ wp frame (wpE (defs₀ (F := F)) Variants.none c none) E (cc0__gather_kernel i arg2 harg2 arg3 harg3 arg4 harg4 arg5 harg5 arg6 harg6 arg7 harg7 arg8 harg8) K := by
  simp only [cc0__gather_kernel_eq_skeleton]; unfold cc0__gather_kernel_skel
  unfold owns
  iintro ⟨⟨%f3, %hf3, H3⟩, ⟨%d8, %f8, -, H8⟩, Hk⟩
  obtain rfl := harg3.eq_unread hf3
  sl_exec (disch := first | exact hc0 | exact hc1)
  sl_step
  iapply Hk
  isplitl [H3]
  · iexists _; isplitr; · ipureintro; exact harg3.read_unread _
    iexact H3
  iexists _; isplitr
  swap; · iexact H8
  ipureintro
  sl_unfold_run_names
  rw [View.read_writes_eq_canon _ _ _ (fun y => ⟨_, List.mem_cons_self, View.mem_set_unit_zero hz128 inb_S1x1x128_S1x1x128_0_0_0 y⟩),
    View.canon_cons_unit_zero hz128]
  simp only [View.readAt_eq_ld, harg3.read_unread, View.ld_unit_zero (S := S1x1x128) hz128, View.readCov_unit_zero (S := S1x1x128) _ hz128]

set_option maxHeartbeats 1000000 in
/-- The LAST feature (the second condition holds, the first does not): the scratch at `acc` ends at `acc + row`, and
    the result block, whatever it held, ends at the sample's result computed from that sum, the bias row, the weight
    row and the head bias. -/
theorem run0_C (c : Dev nD) (i : grid0.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond0_0 i) (hc1 : cond0_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k0_pay3 (k0_pay2 acc x3) x4 x5 x6)
            ∗ owns (c : Thread nD τ) arg8 fullShare (k0_pay2 acc x3)) -∗ K ⟨⟩))
      ⊢ wp frame (wpE (defs₀ (F := F)) Variants.none c none) E (cc0__gather_kernel i arg2 harg2 arg3 harg3 arg4 harg4 arg5 harg5 arg6 harg6 arg7 harg7 arg8 harg8) K := by
  simp only [cc0__gather_kernel_eq_skeleton]; unfold cc0__gather_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5
  obtain rfl := harg6.eq_unread hf6; obtain rfl := harg8.eq_unread hf8
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_run_names
    rw [View.read_writes_eq_canon _ _ _ (fun y => ⟨_, List.mem_singleton_self _, View.mem_set_unit_zero hz1 inb_S1x1x1_S1x1x1_0_0_0 y⟩),
      View.canon_unit_zero hz1]
    simp only [View.readAt_eq_ld, harg3.read_unread, harg4.read_unread, harg5.read_unread, harg6.read_unread, harg8.read_unread,
      View.ld_unit_zero (S := S1x1x128) hz128, View.ld_unit_zero (S := S1x1x1) hz1, View.readCov_unit_zero (S := S1x1x128) _ hz128]
  iexists _; isplitr
  swap; · iexact H8
  ipureintro
  sl_unfold_run_names
  rw [View.read_writes_eq_canon _ _ _ (fun y => ⟨_, List.mem_singleton_self _, View.mem_set_unit_zero hz128 inb_S1x1x128_S1x1x128_0_0_0 y⟩),
    View.canon_unit_zero hz128]
  simp only [View.readAt_eq_ld, harg8.read_unread, harg3.read_unread, View.ld_unit_zero (S := S1x1x128) hz128]

end Cert.Kernel.Hand

end
-- ==== Proof.R0BaseBits.lean ====
import proofs.«402893_j78554951844377_2_alg».proof.Proof.Gen.Kernel.Launch
import proofs.«402893_j78554951844377_2_alg».proof.Proof.Gen.Kernel.Skeleton
import proofs.«402893_j78554951844377_2_alg».proof.Proof.R0RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 0: the pipeline at the table the region reads, its blocks and staging buffers

Everything here is stated at a PARAMETER `V`: the contents of the core's buffers when the region is entered. The
region's prefetched table is read off `V`; under the side condition that every word of it names a row of the embedding
table (`Ok0`) the pipeline is pinned at it, and each window's block at a grid point is a restriction of its array. -/

variable (V : (c : Dev nD) → (b : Ref sig .tc) → Buf (Elt F) ((c : Thread nD τ).loc b))

/-- The table's contents when the region is entered (one device). -/
def tbl0 : pre0.Contents (Elt F) := fun j => V (0 : Dev nD) (pre0.ref j)
/-- On every device the table holds those contents (there is one device). -/
theorem V_pre0 (c : Dev nD) (j : Fin 1) : V c (pre0.ref j) = tbl0 V j := by
  obtain rfl : c = 0 := Subsingleton.elim _ _; rfl
/-- Every block the table names lies inside the embedding table. -/
abbrev Ok0 : Prop := ok0 (F := F) (tbl0 V)
/-- The table as admissible contents, and the pipeline pinned at it. -/
abbrev adm0 (hO : Ok0 V) : (pcfg0 (F := F)).Adm := ⟨tbl0 V, hO⟩
abbrev cfgM0 (hO : Ok0 V) : Pipeline.Cfg sig Λ₀ := cfg0 (adm0 V hO)

/-- Window `w`'s block at point `t`, read off its array as the region finds it. -/
def iblk0 (hO : Ok0 V) (c : Dev nD) (w : Fin (cfgM0 V hO).W) (t : Fin (cfgM0 V hO).N) :
    (((cfgM0 V hO).win w).xblock ((cfgM0 V hO).grid.coords t)).Idx → Elt F ((cfgM0 V hO).win w).elt :=
  (((cfgM0 V hO).win w).blk t).view.read (Elt F) (V c (Pipeline.arrRef spec0 w))

/-- An input window's current staging buffer holds its block at every point, fetched there or not, for any proof
    data whose array is `V`'s and whose body leaves the block in place. -/
theorem before0_0_of (hO : Ok0 V) {c : Dev nD} (dat : Dat τ (Elt F) Unit ℕ (UR sig nD τ) ℕ (cfgM0 V hO) c) (hA : dat.A 0 = V c (Pipeline.arrRef spec0 0))
    (hafter : ∀ t, dat.after 0 t = iblk0 V hO c 0 t) (t : Fin (cfgM0 V hO).N) (d) : dat.before 0 t d = iblk0 V hO c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hO : Ok0 V) {c : Dev nD} (dat : Dat τ (Elt F) Unit ℕ (UR sig nD τ) ℕ (cfgM0 V hO) c) (hA : dat.A 1 = V c (Pipeline.arrRef spec0 1))
    (hafter : ∀ t, dat.after 1 t = iblk0 V hO c 1 t) (t : Fin (cfgM0 V hO).N) (d) : dat.before 1 t d = iblk0 V hO c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hO : Ok0 V) {c : Dev nD} (dat : Dat τ (Elt F) Unit ℕ (UR sig nD τ) ℕ (cfgM0 V hO) c) (hA : dat.A 2 = V c (Pipeline.arrRef spec0 2))
    (hafter : ∀ t, dat.after 2 t = iblk0 V hO c 2 t) (t : Fin (cfgM0 V hO).N) (d) : dat.before 2 t d = iblk0 V hO c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hO : Ok0 V) {c : Dev nD} (dat : Dat τ (Elt F) Unit ℕ (UR sig nD τ) ℕ (cfgM0 V hO) c) (hA : dat.A 3 = V c (Pipeline.arrRef spec0 3))
    (hafter : ∀ t, dat.after 3 t = iblk0 V hO c 3 t) (t : Fin (cfgM0 V hO).N) (d) : dat.before 3 t d = iblk0 V hO c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it, and its wholeness. -/
abbrev ms0_0 (hO : Ok0 V) (t : Fin (cfgM0 V hO).N) : Memref sig .tc .vmem S1x1x128 .f32 := spec0_0.stage ((cfgM0 V hO).slots t 0)
abbrev hs0_0 (hO : Ok0 V) (t : Fin (cfgM0 V hO).N) : (ms0_0 V hO t).IsWhole := hstage0_0 (((cfgM0 V hO).slots t 0).cast nbuf0_0)
abbrev ms0_1 (hO : Ok0 V) (t : Fin (cfgM0 V hO).N) : Memref sig .tc .vmem S1x1x128 .f32 := spec0_1.stage ((cfgM0 V hO).slots t 1)
abbrev hs0_1 (hO : Ok0 V) (t : Fin (cfgM0 V hO).N) : (ms0_1 V hO t).IsWhole := hstage0_1 (((cfgM0 V hO).slots t 1).cast nbuf0_1)
abbrev ms0_2 (hO : Ok0 V) (t : Fin (cfgM0 V hO).N) : Memref sig .tc .vmem S1x1x128 .f32 := spec0_2.stage ((cfgM0 V hO).slots t 2)
abbrev hs0_2 (hO : Ok0 V) (t : Fin (cfgM0 V hO).N) : (ms0_2 V hO t).IsWhole := hstage0_2 (((cfgM0 V hO).slots t 2).cast nbuf0_2)
abbrev ms0_3 (hO : Ok0 V) (t : Fin (cfgM0 V hO).N) : Memref sig .tc .vmem S1x1x1 .f32 := spec0_3.stage ((cfgM0 V hO).slots t 3)
abbrev hs0_3 (hO : Ok0 V) (t : Fin (cfgM0 V hO).N) : (ms0_3 V hO t).IsWhole := hstage0_3 (((cfgM0 V hO).slots t 3).cast nbuf0_3)
abbrev ms0_4 (hO : Ok0 V) (t : Fin (cfgM0 V hO).N) : Memref sig .tc .vmem S1x1x1 .f32 := spec0_4.stage ((cfgM0 V hO).slots t 4)
abbrev hs0_4 (hO : Ok0 V) (t : Fin (cfgM0 V hO).N) : (ms0_4 V hO t).IsWhole := hstage0_4 (((cfgM0 V hO).slots t 4).cast nbuf0_4)
/-- The scratch operand: a whole scoped buffer of the kernel's own. -/
abbrev scM0 : Memref sig .tc .vmem S1x1x128 .f32 := Memref.whole cc0_scratch0
/-- The table as the body is handed it. -/
abbrev tbM0 : Memref sig .tc .smem S65536 .i32 := Memref.whole main_v36

/-- The kernel body at point `t`, on what the pipeline calls it with. -/
abbrev bodyAt0 (a : (pcfg0 (F := F)).Adm) (t : Fin (cfg0 a).N) : Prog (TpuEff nD τ sig (Elt F) Λ₀ .tc) PUnit :=
  cc0__gather_kernel (grid0.coords t) (Memref.whole main_v36) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-- Off the last feature the result window is idle: the body stores nothing into it. -/
theorem idleAt0_4 (a : (pcfg0 (F := F)).Adm) (i : grid0.Coords) (h : ¬cond0_1 i) : (cfg0 a).idle 4 i = true := by
  show (!(k0_cond2 i == 1#1)) = true
  simp only [Bool.not_eq_true', beq_eq_false_iff_ne, ne_eq]; exact h
/-- On the last feature it is live. -/
theorem liveAt0_4 (a : (pcfg0 (F := F)).Adm) (i : grid0.Coords) (h : cond0_1 i) : (cfg0 a).idle 4 i = false := by
  show (!(k0_cond2 i == 1#1)) = false
  simp only [Bool.not_eq_false', beq_iff_eq]; exact h
/-- The input windows are never idle. -/
theorem liveAt0_0 (a : (pcfg0 (F := F)).Adm) (i : grid0.Coords) : (cfg0 a).idle 0 i = false := rfl
theorem liveAt0_1 (a : (pcfg0 (F := F)).Adm) (i : grid0.Coords) : (cfg0 a).idle 1 i = false := rfl
theorem liveAt0_2 (a : (pcfg0 (F := F)).Adm) (i : grid0.Coords) : (cfg0 a).idle 2 i = false := rfl
theorem liveAt0_3 (a : (pcfg0 (F := F)).Adm) (i : grid0.Coords) : (cfg0 a).idle 3 i = false := rfl

end Cert.Kernel.Hand

end
-- ==== Proof.OkTablesBits.lean ====
/-
  The prefetched row tables of tiles 0 to 7 of the word-level program: each tile's grid, table, index map and side condition are
  tile 0's with the tile's own names, and each section below is tile 0's text with those names (the argument is
  the same: the index map reads the table word at flat position 32·i₀ + i₁ and names the block (word, 0, 0), which
  lies inside the [786432, 1, 128] array when the word is below 786432).
-/
import proofs.«402893_j78554951844377_2_alg».proof.Proof.Gen.Kernel
import Idealize.ShloMosaic.Lib.ValueIdx

namespace Cert.Kernel.Hand

open Cert.Kernel Cert.Kernel.Gen Idealize.ShloMosaic Idealize.ShloMosaic.ValueIdx

variable {F : FTy → Type} [FloatOps F]

/-! ## Tile 0 -/

/-- The flat position 32·i₀ + i₁ of grid point (i₀, i₁), i₀ < 2048 and i₁ < 32, is a position of the 65536-word table. -/
theorem pos_lt0 (i : grid0.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword0 (pf : pre0.Contents (Elt F)) (i : grid0.Coords) : BitVec 32 :=
  pf 0 (ValueIdx.ix1 ⟨32 * (i 0).val + (i 1).val, pos_lt0 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform0_eq (pf : pre0.Contents (Elt F)) (i : grid0.Coords) :
    cc0_transform_0 k0_off1_inb numel1_S1 pf i = ![(tword0 pf i).toNat, 0, 0] := by
  have hoff : (k0_off1 i) 0 = 32 * (i 0).val + (i 1).val := congrFun (k0_off1_eq i) 0
  have hidx : (Rect.unit (s := S65536) (k0_off1 i) S1.size (k0_off1_inb i)).emb (Shape.Idx.first (numel1_S1.symm ▸ Nat.one_pos))
      = ValueIdx.ix1 ⟨32 * (i 0).val + (i 1).val, pos_lt0 i⟩ := by
    funext a
    match a with
    | ⟨0, _⟩ =>
      apply Fin.ext
      show (k0_off1 i) 0 + 1 * 0 = 32 * (i 0).val + (i 1).val
      omega
  show ![(pf 0 ((Rect.unit (s := S65536) (k0_off1 i) S1.size (k0_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok0_of (pf : pre0.Contents (Elt F)) (h : ∀ i : grid0.Coords, (tword0 pf i).toNat < 786432) : ok0 pf := by
  intro i
  refine ⟨fun a => ?_, Or.inl rfl⟩
  rw [transform0_eq pf i]
  have hi := h i
  match a with
  | ⟨0, _⟩ =>
    show ((tword0 pf i).toNat + 1) * 1 ≤ 786432
    omega
  | ⟨1, _⟩ => show (0 + 1) * 1 ≤ 1; omega
  | ⟨2, _⟩ => show (0 + 1) * 128 ≤ 128; omega

/-! ## Tile 1 -/

/-- The flat position 32·i₀ + i₁ of grid point (i₀, i₁), i₀ < 2048 and i₁ < 32, is a position of the 65536-word table. -/
theorem pos_lt1 (i : grid1.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword1 (pf : pre1.Contents (Elt F)) (i : grid1.Coords) : BitVec 32 :=
  pf 0 (ValueIdx.ix1 ⟨32 * (i 0).val + (i 1).val, pos_lt1 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform1_eq (pf : pre1.Contents (Elt F)) (i : grid1.Coords) :
    cc1_transform_0 k1_off1_inb numel1_S1 pf i = ![(tword1 pf i).toNat, 0, 0] := by
  have hoff : (k1_off1 i) 0 = 32 * (i 0).val + (i 1).val := congrFun (k1_off1_eq i) 0
  have hidx : (Rect.unit (s := S65536) (k1_off1 i) S1.size (k1_off1_inb i)).emb (Shape.Idx.first (numel1_S1.symm ▸ Nat.one_pos))
      = ValueIdx.ix1 ⟨32 * (i 0).val + (i 1).val, pos_lt1 i⟩ := by
    funext a
    match a with
    | ⟨0, _⟩ =>
      apply Fin.ext
      show (k1_off1 i) 0 + 1 * 0 = 32 * (i 0).val + (i 1).val
      omega
  show ![(pf 0 ((Rect.unit (s := S65536) (k1_off1 i) S1.size (k1_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok1_of (pf : pre1.Contents (Elt F)) (h : ∀ i : grid1.Coords, (tword1 pf i).toNat < 786432) : ok1 pf := by
  intro i
  refine ⟨fun a => ?_, Or.inl rfl⟩
  rw [transform1_eq pf i]
  have hi := h i
  match a with
  | ⟨0, _⟩ =>
    show ((tword1 pf i).toNat + 1) * 1 ≤ 786432
    omega
  | ⟨1, _⟩ => show (0 + 1) * 1 ≤ 1; omega
  | ⟨2, _⟩ => show (0 + 1) * 128 ≤ 128; omega

/-! ## Tile 2 -/

/-- The flat position 32·i₀ + i₁ of grid point (i₀, i₁), i₀ < 2048 and i₁ < 32, is a position of the 65536-word table. -/
theorem pos_lt2 (i : grid2.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword2 (pf : pre2.Contents (Elt F)) (i : grid2.Coords) : BitVec 32 :=
  pf 0 (ValueIdx.ix1 ⟨32 * (i 0).val + (i 1).val, pos_lt2 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform2_eq (pf : pre2.Contents (Elt F)) (i : grid2.Coords) :
    cc2_transform_0 k2_off1_inb numel1_S1 pf i = ![(tword2 pf i).toNat, 0, 0] := by
  have hoff : (k2_off1 i) 0 = 32 * (i 0).val + (i 1).val := congrFun (k2_off1_eq i) 0
  have hidx : (Rect.unit (s := S65536) (k2_off1 i) S1.size (k2_off1_inb i)).emb (Shape.Idx.first (numel1_S1.symm ▸ Nat.one_pos))
      = ValueIdx.ix1 ⟨32 * (i 0).val + (i 1).val, pos_lt2 i⟩ := by
    funext a
    match a with
    | ⟨0, _⟩ =>
      apply Fin.ext
      show (k2_off1 i) 0 + 1 * 0 = 32 * (i 0).val + (i 1).val
      omega
  show ![(pf 0 ((Rect.unit (s := S65536) (k2_off1 i) S1.size (k2_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok2_of (pf : pre2.Contents (Elt F)) (h : ∀ i : grid2.Coords, (tword2 pf i).toNat < 786432) : ok2 pf := by
  intro i
  refine ⟨fun a => ?_, Or.inl rfl⟩
  rw [transform2_eq pf i]
  have hi := h i
  match a with
  | ⟨0, _⟩ =>
    show ((tword2 pf i).toNat + 1) * 1 ≤ 786432
    omega
  | ⟨1, _⟩ => show (0 + 1) * 1 ≤ 1; omega
  | ⟨2, _⟩ => show (0 + 1) * 128 ≤ 128; omega

/-! ## Tile 3 -/

/-- The flat position 32·i₀ + i₁ of grid point (i₀, i₁), i₀ < 2048 and i₁ < 32, is a position of the 65536-word table. -/
theorem pos_lt3 (i : grid3.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword3 (pf : pre3.Contents (Elt F)) (i : grid3.Coords) : BitVec 32 :=
  pf 0 (ValueIdx.ix1 ⟨32 * (i 0).val + (i 1).val, pos_lt3 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform3_eq (pf : pre3.Contents (Elt F)) (i : grid3.Coords) :
    cc3_transform_0 k3_off1_inb numel1_S1 pf i = ![(tword3 pf i).toNat, 0, 0] := by
  have hoff : (k3_off1 i) 0 = 32 * (i 0).val + (i 1).val := congrFun (k3_off1_eq i) 0
  have hidx : (Rect.unit (s := S65536) (k3_off1 i) S1.size (k3_off1_inb i)).emb (Shape.Idx.first (numel1_S1.symm ▸ Nat.one_pos))
      = ValueIdx.ix1 ⟨32 * (i 0).val + (i 1).val, pos_lt3 i⟩ := by
    funext a
    match a with
    | ⟨0, _⟩ =>
      apply Fin.ext
      show (k3_off1 i) 0 + 1 * 0 = 32 * (i 0).val + (i 1).val
      omega
  show ![(pf 0 ((Rect.unit (s := S65536) (k3_off1 i) S1.size (k3_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok3_of (pf : pre3.Contents (Elt F)) (h : ∀ i : grid3.Coords, (tword3 pf i).toNat < 786432) : ok3 pf := by
  intro i
  refine ⟨fun a => ?_, Or.inl rfl⟩
  rw [transform3_eq pf i]
  have hi := h i
  match a with
  | ⟨0, _⟩ =>
    show ((tword3 pf i).toNat + 1) * 1 ≤ 786432
    omega
  | ⟨1, _⟩ => show (0 + 1) * 1 ≤ 1; omega
  | ⟨2, _⟩ => show (0 + 1) * 128 ≤ 128; omega

/-! ## Tile 4 -/

/-- The flat position 32·i₀ + i₁ of grid point (i₀, i₁), i₀ < 2048 and i₁ < 32, is a position of the 65536-word table. -/
theorem pos_lt4 (i : grid4.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword4 (pf : pre4.Contents (Elt F)) (i : grid4.Coords) : BitVec 32 :=
  pf 0 (ValueIdx.ix1 ⟨32 * (i 0).val + (i 1).val, pos_lt4 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform4_eq (pf : pre4.Contents (Elt F)) (i : grid4.Coords) :
    cc4_transform_0 k4_off1_inb numel1_S1 pf i = ![(tword4 pf i).toNat, 0, 0] := by
  have hoff : (k4_off1 i) 0 = 32 * (i 0).val + (i 1).val := congrFun (k4_off1_eq i) 0
  have hidx : (Rect.unit (s := S65536) (k4_off1 i) S1.size (k4_off1_inb i)).emb (Shape.Idx.first (numel1_S1.symm ▸ Nat.one_pos))
      = ValueIdx.ix1 ⟨32 * (i 0).val + (i 1).val, pos_lt4 i⟩ := by
    funext a
    match a with
    | ⟨0, _⟩ =>
      apply Fin.ext
      show (k4_off1 i) 0 + 1 * 0 = 32 * (i 0).val + (i 1).val
      omega
  show ![(pf 0 ((Rect.unit (s := S65536) (k4_off1 i) S1.size (k4_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok4_of (pf : pre4.Contents (Elt F)) (h : ∀ i : grid4.Coords, (tword4 pf i).toNat < 786432) : ok4 pf := by
  intro i
  refine ⟨fun a => ?_, Or.inl rfl⟩
  rw [transform4_eq pf i]
  have hi := h i
  match a with
  | ⟨0, _⟩ =>
    show ((tword4 pf i).toNat + 1) * 1 ≤ 786432
    omega
  | ⟨1, _⟩ => show (0 + 1) * 1 ≤ 1; omega
  | ⟨2, _⟩ => show (0 + 1) * 128 ≤ 128; omega

/-! ## Tile 5 -/

/-- The flat position 32·i₀ + i₁ of grid point (i₀, i₁), i₀ < 2048 and i₁ < 32, is a position of the 65536-word table. -/
theorem pos_lt5 (i : grid5.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword5 (pf : pre5.Contents (Elt F)) (i : grid5.Coords) : BitVec 32 :=
  pf 0 (ValueIdx.ix1 ⟨32 * (i 0).val + (i 1).val, pos_lt5 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform5_eq (pf : pre5.Contents (Elt F)) (i : grid5.Coords) :
    cc5_transform_0 k5_off1_inb numel1_S1 pf i = ![(tword5 pf i).toNat, 0, 0] := by
  have hoff : (k5_off1 i) 0 = 32 * (i 0).val + (i 1).val := congrFun (k5_off1_eq i) 0
  have hidx : (Rect.unit (s := S65536) (k5_off1 i) S1.size (k5_off1_inb i)).emb (Shape.Idx.first (numel1_S1.symm ▸ Nat.one_pos))
      = ValueIdx.ix1 ⟨32 * (i 0).val + (i 1).val, pos_lt5 i⟩ := by
    funext a
    match a with
    | ⟨0, _⟩ =>
      apply Fin.ext
      show (k5_off1 i) 0 + 1 * 0 = 32 * (i 0).val + (i 1).val
      omega
  show ![(pf 0 ((Rect.unit (s := S65536) (k5_off1 i) S1.size (k5_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok5_of (pf : pre5.Contents (Elt F)) (h : ∀ i : grid5.Coords, (tword5 pf i).toNat < 786432) : ok5 pf := by
  intro i
  refine ⟨fun a => ?_, Or.inl rfl⟩
  rw [transform5_eq pf i]
  have hi := h i
  match a with
  | ⟨0, _⟩ =>
    show ((tword5 pf i).toNat + 1) * 1 ≤ 786432
    omega
  | ⟨1, _⟩ => show (0 + 1) * 1 ≤ 1; omega
  | ⟨2, _⟩ => show (0 + 1) * 128 ≤ 128; omega

/-! ## Tile 6 -/

/-- The flat position 32·i₀ + i₁ of grid point (i₀, i₁), i₀ < 2048 and i₁ < 32, is a position of the 65536-word table. -/
theorem pos_lt6 (i : grid6.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword6 (pf : pre6.Contents (Elt F)) (i : grid6.Coords) : BitVec 32 :=
  pf 0 (ValueIdx.ix1 ⟨32 * (i 0).val + (i 1).val, pos_lt6 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform6_eq (pf : pre6.Contents (Elt F)) (i : grid6.Coords) :
    cc6_transform_0 k6_off1_inb numel1_S1 pf i = ![(tword6 pf i).toNat, 0, 0] := by
  have hoff : (k6_off1 i) 0 = 32 * (i 0).val + (i 1).val := congrFun (k6_off1_eq i) 0
  have hidx : (Rect.unit (s := S65536) (k6_off1 i) S1.size (k6_off1_inb i)).emb (Shape.Idx.first (numel1_S1.symm ▸ Nat.one_pos))
      = ValueIdx.ix1 ⟨32 * (i 0).val + (i 1).val, pos_lt6 i⟩ := by
    funext a
    match a with
    | ⟨0, _⟩ =>
      apply Fin.ext
      show (k6_off1 i) 0 + 1 * 0 = 32 * (i 0).val + (i 1).val
      omega
  show ![(pf 0 ((Rect.unit (s := S65536) (k6_off1 i) S1.size (k6_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok6_of (pf : pre6.Contents (Elt F)) (h : ∀ i : grid6.Coords, (tword6 pf i).toNat < 786432) : ok6 pf := by
  intro i
  refine ⟨fun a => ?_, Or.inl rfl⟩
  rw [transform6_eq pf i]
  have hi := h i
  match a with
  | ⟨0, _⟩ =>
    show ((tword6 pf i).toNat + 1) * 1 ≤ 786432
    omega
  | ⟨1, _⟩ => show (0 + 1) * 1 ≤ 1; omega
  | ⟨2, _⟩ => show (0 + 1) * 128 ≤ 128; omega

/-! ## Tile 7 -/

/-- The flat position 32·i₀ + i₁ of grid point (i₀, i₁), i₀ < 2048 and i₁ < 32, is a position of the 65536-word table. -/
theorem pos_lt7 (i : grid7.Coords) : 32 * (i 0).val + (i 1).val < 65536 := by
  have h0 : (i 0).val < 2048 := (i 0).isLt
  have h1 : (i 1).val < 32 := (i 1).isLt
  omega

/-- The table word the index map of window 0 reads at grid point `i`: word 32·i₀ + i₁ of the one prefetched table. -/
def tword7 (pf : pre7.Contents (Elt F)) (i : grid7.Coords) : BitVec 32 :=
  pf 0 (ValueIdx.ix1 ⟨32 * (i 0).val + (i 1).val, pos_lt7 i⟩)

/-- Window 0's index map in closed form: the block (table word, 0, 0). The map loads the table through the unit
    rectangle at the offset the kernel computes, which is 32·i₀ + i₁ (the closed form of the offset chain); the one
    index of a unit rectangle at offset p is p; and the two constant words are 0. -/
theorem transform7_eq (pf : pre7.Contents (Elt F)) (i : grid7.Coords) :
    cc7_transform_0 k7_off1_inb numel1_S1 pf i = ![(tword7 pf i).toNat, 0, 0] := by
  have hoff : (k7_off1 i) 0 = 32 * (i 0).val + (i 1).val := congrFun (k7_off1_eq i) 0
  have hidx : (Rect.unit (s := S65536) (k7_off1 i) S1.size (k7_off1_inb i)).emb (Shape.Idx.first (numel1_S1.symm ▸ Nat.one_pos))
      = ValueIdx.ix1 ⟨32 * (i 0).val + (i 1).val, pos_lt7 i⟩ := by
    funext a
    match a with
    | ⟨0, _⟩ =>
      apply Fin.ext
      show (k7_off1 i) 0 + 1 * 0 = 32 * (i 0).val + (i 1).val
      omega
  show ![(pf 0 ((Rect.unit (s := S65536) (k7_off1 i) S1.size (k7_off1_inb i)).emb (Shape.Idx.first (numel1_S1.symm ▸ Nat.one_pos)))).toNat, 0, 0] = _
  rw [hidx]
  rfl

/-- The pipeline's side condition on the table: if every word the index map reads is below 786432, every block of
    window 0 lies inside the [786432, 1, 128] array (axis 0: w + 1 ≤ 786432; axes 1 and 2: the whole extent), and the
    element type is one word wide. -/
theorem ok7_of (pf : pre7.Contents (Elt F)) (h : ∀ i : grid7.Coords, (tword7 pf i).toNat < 786432) : ok7 pf := by
  intro i
  refine ⟨fun a => ?_, Or.inl rfl⟩
  rw [transform7_eq pf i]
  have hi := h i
  match a with
  | ⟨0, _⟩ =>
    show ((tword7 pf i).toNat + 1) * 1 ≤ 786432
    omega
  | ⟨1, _⟩ => show (0 + 1) * 1 ≤ 1; omega
  | ⟨2, _⟩ => show (0 + 1) * 128 ≤ 128; omega

end Cert.Kernel.Hand
-- ==== Proof.KHostBits.lean ====
/-
  The host stretches of the word-level kernel program, read at an index: the four host arrays before the first kernel
  region and each tile's five operands entry by entry. The word-level program runs the same whole-array operations as
  the idealized one (both are stated for any float instance), so the statements and their proofs are the same;
  proof/Proof/KHost.lean has the account.
-/
import proofs.«402893_j78554951844377_2_alg».proof.Proof.Gen.Kernel.Regions
import proofs.«402893_j78554951844377_2_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 1396

noncomputable section

namespace Cert.Kernel.Hand

open Idealize.ShloMosaic Idealize.ShloMosaic.TcCoe
open Cert.Kernel Cert.Kernel.Gen Idealize.ShloMosaic.ValueIdx

variable {F : FTy → Type} [FloatOps F]
variable (m : (ℓ : Loc nD τ sig) → Buf (Elt F) ℓ) (outs : Outs (F := F))

/-! ## Layout operations read at an index -/

section Layout
variable {α : Type}

/-- A rank-3 array cut along its leading axis from `o` reads, at `(j, b, e)`, the source at `(k, b, e)` with `k = o + j`:
    the offsets on the other two axes are zero. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ValueIdx.ix3 j b e) = X (ValueIdx.ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, b]` array cast to `[a, 1, b]` reads, at `(i, u, j)`, the operand at `(i, j)`: the two row-major positions are
    `(i · 1 + u) · b + j` and `i · b + j`, and `u = 0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ValueIdx.ix3 i u j) = x (ValueIdx.ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1, 1]` reads, at `(i, u, v)`, the operand at `i`. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ValueIdx.ix3 i u v) = x (ValueIdx.ix1 i) :=
  shapeCast_apply x h _ _ (by
    have hu : u.val = 0 := by omega
    have hv : v.val = 0 := by omega
    rw [Shape.rowMajor_val_three, Shape.rowMajor_val_one]
    show i.val = (i.val * 1 + u.val) * 1 + v.val
    omega)

/-- An `[a, b]` array flattened to `[N]` reads, at `j`, the operand at `(i, e)` whenever `j = i · b + e`. -/
theorem shapeCast_ab_flat_apply {a b N : ℕ} (x : (⟨2, ![a, b]⟩ : Shape).Idx → α)
    (h : (⟨2, ![a, b]⟩ : Shape).ShapeCasts ⟨1, ![N]⟩) (j : Fin N) (i : Fin a) (e : Fin b)
    (hj : j.val = i.val * b + e.val) :
    shapeCast ⟨1, ![N]⟩ x h (ValueIdx.ix1 j) = x (ValueIdx.ix2 i e) :=
  shapeCast_apply x h _ _ (by
    rw [Shape.rowMajor_val_two, Shape.rowMajor_val_one]
    show i.val * b + e.val = j.val
    exact hj.symm)

end Layout

/-! ## The integer chain at any contents

Each stretch is a list of whole-array operations; read at its result reference, from any contents `W` of the buffers, it
is the composite of its operations applied to what `W` holds at the stretch's inputs. The composites are the functions
of `Cert.Spec`. -/

section Stretches
variable (W : Valuation τ sig (Elt F))

/-- The first stretch leaves `feature_indices + feature_offsets` (the offsets broadcast along the batch) in `main_v2`. -/
theorem ops0_v2 :
    (StableHlo.after hostOps0 W main_v2 : IVec Spec.S16384x32 32)
      = addi (W main_arg0) (broadcastInDim Spec.S16384x32 ![0, 1] Spec.bcast_S1x32_S16384x32_0_1
          (broadcastInDim Spec.S1x32 ![1] Spec.bcast_S32_S1x32_1 (W main_arg2))) := by
  dsimp only [hostOps0]; open StableHlo in after_results_simp

/-- … and the divisor 10 in `main_c`. -/
theorem ops0_c : (StableHlo.after hostOps0 W main_c : IVec Spec.S_ 32) = constantI Spec.S_ 32 10#32 := by
  dsimp only [hostOps0]; open StableHlo in after_results_simp

/-- The first call of `floor_divide` leaves in `main_v3` the floor quotient of `main_arg1` by the scalar in `main_c`. -/
theorem ops0_1_v3 :
    (StableHlo.after hostOps0_1 W main_v3 : IVec Spec.S16384 32) = Spec.floorDiv (W main_arg1) (W main_c) := by
  dsimp only [hostOps0_1]; open StableHlo in after_results_simp; rfl

/-- The third stretch scales the quotient by 262144, broadcasts it along the features and adds `main_v2`. -/
theorem ops0_2_v8 :
    (StableHlo.after hostOps0_2 W main_v8 : IVec Spec.S16384x32 32)
      = addi (broadcastInDim Spec.S16384x32 ![0, 1] Spec.bcast_S16384x1_S16384x32_0_1
          (muli (broadcastInDim Spec.S16384x1 ![0] Spec.bcast_S16384_S16384x1_0 (W main_v3))
            (broadcastInDim Spec.S16384x1 ![] Spec.bcast_S_S16384x1 (constantI Spec.S_ 32 262144#32)))) (W main_v2) := by
  dsimp only [hostOps0_2]; open StableHlo in after_results_simp

/-- … and leaves the divisor 1 in `main_c_1`. -/
theorem ops0_2_c1 : (StableHlo.after hostOps0_2 W main_c_1 : IVec Spec.S_ 32) = constantI Spec.S_ 32 1#32 := by
  dsimp only [hostOps0_2]; open StableHlo in after_results_simp

/-- The second call of `floor_divide` leaves in `main_v9` the floor quotient of `main_arg1` by the scalar in `main_c_1`. -/
theorem ops0_3_v9 :
    (StableHlo.after hostOps0_3 W main_v9 : IVec Spec.S16384 32) = Spec.floorDiv (W main_arg1) (W main_c_1) := by
  dsimp only [hostOps0_3]; open StableHlo in after_results_simp; rfl

end Stretches

/-! ## The selections and the reshapes at any contents

The long stretch before the first region wraps the two quotients into row numbers of the small tables (a negative
quotient has the table's length added), gathers, and puts the unit axes in. The kernel regions take the three
selections as `[16384, 1, 128]`, `[16384, 1, 128]`, `[16384, 1, 1]` and the embedding table as `[786432, 1, 128]`: a
row-major position does not see a unit axis, so each reads at `(r, 0, l)` what its operand holds at `(r, l)`. -/

section Stretches
variable (W : Valuation τ sig (Elt F))

/-- The long stretch gathers, for each sample, the row of the 3-row table `main_arg4` at the wrapped quotient in `main_v3`. -/
theorem ops0_4_v16 :
    (StableHlo.after hostOps0_4 W main_v16 : FVec F Spec.S16384x128 .f32)
      = Host.gather Spec.gatherPa (W main_arg4) (Spec.wrapIdx 3#32 (W main_v3)) := by
  dsimp only [hostOps0_4]; open StableHlo in after_results_simp; rfl

/-- … the row of the 30-row table `main_arg5` at the wrapped quotient in `main_v9`. -/
theorem ops0_4_v23 :
    (StableHlo.after hostOps0_4 W main_v23 : FVec F Spec.S16384x128 .f32)
      = Host.gather Spec.gatherW (W main_arg5) (Spec.wrapIdx 30#32 (W main_v9)) := by
  dsimp only [hostOps0_4]; open StableHlo in after_results_simp; rfl

/-- … and the entry of the 30 biases `main_arg6` at the same wrapped quotient. -/
theorem ops0_4_v30 :
    (StableHlo.after hostOps0_4 W main_v30 : FVec F Spec.S16384 .f32)
      = Host.gather Spec.gatherB (W main_arg6) (Spec.wrapIdx 30#32 (W main_v9)) := by
  dsimp only [hostOps0_4]; open StableHlo in after_results_simp; rfl

/-- The phase-bias rows with the unit axis in, read through the reshape. -/
theorem ops0_4_v31_read (R : Fin 16384) (u : Fin 1) (l : Fin 128) :
    StableHlo.after hostOps0_4 W main_v31 (ValueIdx.ix3 R u l) = StableHlo.after hostOps0_4 W main_v16 (ValueIdx.ix2 R l) := by
  dsimp only [hostOps0_4]; open StableHlo in after_results_simp
  exact shapeCast_ab_a1b_apply _ _ R u l

/-- The head weights with the unit axis in, read through the reshape. -/
theorem ops0_4_v32_read (R : Fin 16384) (u : Fin 1) (l : Fin 128) :
    StableHlo.after hostOps0_4 W main_v32 (ValueIdx.ix3 R u l) = StableHlo.after hostOps0_4 W main_v23 (ValueIdx.ix2 R l) := by
  dsimp only [hostOps0_4]; open StableHlo in after_results_simp
  exact shapeCast_ab_a1b_apply _ _ R u l

/-- The head biases with the two unit axes in, read through the reshape. -/
theorem ops0_4_v33_read (R : Fin 16384) (u v : Fin 1) :
    StableHlo.after hostOps0_4 W main_v33 (ValueIdx.ix3 R u v) = StableHlo.after hostOps0_4 W main_v30 (ValueIdx.ix1 R) := by
  dsimp only [hostOps0_4]; open StableHlo in after_results_simp
  exact shapeCast_a_a11_apply _ _ R u v

/-- The embedding table with the unit axis in, read through the reshape: the argument itself. -/
theorem ops0_4_v34_read (ρ : Fin 786432) (u : Fin 1) (l : Fin 128) :
    StableHlo.after hostOps0_4 W main_v34 (ValueIdx.ix3 ρ u l) = W main_arg3 (ValueIdx.ix2 ρ l) := by
  dsimp only [hostOps0_4]; open StableHlo in after_results_simp
  exact shapeCast_ab_a1b_apply _ _ ρ u l

end Stretches

/-! ## The gathered row numbers before the first kernel region

`V5 m c` is what core `c`'s buffers hold once the five leading stretches have run from the launch contents `m`. No
stretch writes an argument, so the arguments are read at `m`; chaining the integer composites gives the two
floor quotients and the array of gathered row numbers of `Cert.Spec`. -/

/-- A reference none of the first four stretches writes holds its launch contents before the fifth. -/
theorem V4_launch (c : Dev nD) (r : Ref sig .tc) (h0 : r ∉ hostOps0_W) (h1 : r ∉ hostOps0_1_W) (h2 : r ∉ hostOps0_2_W)
    (h3 : r ∉ hostOps0_3_W) : V4 m c r = m ((c : Thread nD τ).loc r) :=
  (V4_of m c r h3).trans <| (V3_of m c r h2).trans <| (V2_of m c r h1).trans <| V1_of m c r h0

/-- After the first stretch: the shifted feature indices. -/
theorem V1_v2 (c : Dev nD) :
    (V1 m c main_v2 : IVec Spec.S16384x32 32)
      = addi (m ((c : Thread nD τ).loc main_arg0)) (broadcastInDim Spec.S16384x32 ![0, 1] Spec.bcast_S1x32_S16384x32_0_1
          (broadcastInDim Spec.S1x32 ![1] Spec.bcast_S32_S1x32_1 (m ((c : Thread nD τ).loc main_arg2)))) :=
  ops0_v2 (V0 m c)

/-- After the second stretch: `floor(ply / 10)`. -/
theorem V2_v3 (c : Dev nD) :
    (V2 m c main_v3 : IVec Spec.S16384 32)
      = Spec.floorDiv (m ((c : Thread nD τ).loc main_arg1)) (constantI Spec.S_ 32 10#32) := by
  refine (ops0_1_v3 (V1 m c)).trans ?_
  rw [V1_of m c main_arg1 (by decide), show V1 m c main_c = _ from ops0_c (V0 m c)]

/-- After the third stretch: the gathered row numbers. -/
theorem V3_v8 (c : Dev nD) :
    V3 m c main_v8 = Spec.gidxOf (m ((c : Thread nD τ).loc main_arg0)) (m ((c : Thread nD τ).loc main_arg1))
      (m ((c : Thread nD τ).loc main_arg2)) := by
  refine (ops0_2_v8 (V2 m c)).trans ?_
  rw [V2_v3, V2_of m c main_v2 (by decide), V1_v2]
  rfl

/-- After the fourth stretch: `floor(ply / 1)`. -/
theorem V4_v9 (c : Dev nD) :
    (V4 m c main_v9 : IVec Spec.S16384 32)
      = Spec.floorDiv (m ((c : Thread nD τ).loc main_arg1)) (constantI Spec.S_ 32 1#32) := by
  refine (ops0_3_v9 (V3 m c)).trans ?_
  rw [V3_of m c main_arg1 (by decide), V2_of m c main_arg1 (by decide), V1_of m c main_arg1 (by decide),
    show V3 m c main_c_1 = _ from ops0_2_c1 (V2 m c)]

/-- The gathered row numbers, `floor(ply / 10) · 262144 + (feature_indices + feature_offsets)`. -/
theorem V5_gidx (c : Dev nD) :
    V5 m c main_v8 = Spec.gidxOf (m ((c : Thread nD τ).loc main_arg0)) (m ((c : Thread nD τ).loc main_arg1))
      (m ((c : Thread nD τ).loc main_arg2)) :=
  (V5_of m c main_v8 (by decide)).trans <| (V4_of m c main_v8 (by decide)).trans <| V3_v8 m c

/-! ## The float arrays before the first kernel region

The three selections are the gathers of `Cert.Spec` at the two quotients; with the unit axes in, they and the embedding
table are read at `(r, 0, l)`. -/

/-- Each sample's phase-bias row. -/
theorem V5_pa (c : Dev nD) :
    V5 m c main_v16 = Spec.paSelOf (m ((c : Thread nD τ).loc main_arg1)) (m ((c : Thread nD τ).loc main_arg4)) := by
  refine (ops0_4_v16 (V4 m c)).trans ?_
  rw [V4_launch m c main_arg4 (by decide) (by decide) (by decide) (by decide),
    V4_of m c main_v3 (by decide), V3_of m c main_v3 (by decide), V2_v3]
  rfl

/-- Each sample's head weights. -/
theorem V5_w (c : Dev nD) :
    V5 m c main_v23 = Spec.wSelOf (m ((c : Thread nD τ).loc main_arg1)) (m ((c : Thread nD τ).loc main_arg5)) := by
  refine (ops0_4_v23 (V4 m c)).trans ?_
  rw [V4_launch m c main_arg5 (by decide) (by decide) (by decide) (by decide), V4_v9]
  rfl

/-- Each sample's head bias. -/
theorem V5_b (c : Dev nD) :
    V5 m c main_v30 = Spec.bSelOf (m ((c : Thread nD τ).loc main_arg1)) (m ((c : Thread nD τ).loc main_arg6)) := by
  refine (ops0_4_v30 (V4 m c)).trans ?_
  rw [V4_launch m c main_arg6 (by decide) (by decide) (by decide) (by decide), V4_v9]
  rfl

/-- The phase-bias rows with the unit axis put in. -/
theorem V5_pa_apply (c : Dev nD) (R : Fin 16384) (l : Fin 128) :
    V5 m c main_v31 (ValueIdx.ix3 R 0 l)
      = Spec.paSelOf (m ((c : Thread nD τ).loc main_arg1)) (m ((c : Thread nD τ).loc main_arg4)) (ValueIdx.ix2 R l) :=
  (ops0_4_v31_read (V4 m c) R 0 l).trans (congrFun (V5_pa m c) _)

/-- The head weights with the unit axis put in. -/
theorem V5_w_apply (c : Dev nD) (R : Fin 16384) (l : Fin 128) :
    V5 m c main_v32 (ValueIdx.ix3 R 0 l)
      = Spec.wSelOf (m ((c : Thread nD τ).loc main_arg1)) (m ((c : Thread nD τ).loc main_arg5)) (ValueIdx.ix2 R l) :=
  (ops0_4_v32_read (V4 m c) R 0 l).trans (congrFun (V5_w m c) _)

/-- The head biases with the two unit axes put in. -/
theorem V5_b_apply (c : Dev nD) (R : Fin 16384) :
    V5 m c main_v33 (ValueIdx.ix3 R 0 0)
      = Spec.bSelOf (m ((c : Thread nD τ).loc main_arg1)) (m ((c : Thread nD τ).loc main_arg6)) (ValueIdx.ix1 R) :=
  (ops0_4_v33_read (V4 m c) R 0 0).trans (congrFun (V5_b m c) _)

/-- The embedding table with the unit axis put in. -/
theorem V5_emb_apply (c : Dev nD) (ρ : Fin 786432) (l : Fin 128) :
    V5 m c main_v34 (ValueIdx.ix3 ρ 0 l) = m ((c : Thread nD τ).loc main_arg3) (ValueIdx.ix2 ρ l) :=
  (ops0_4_v34_read (V4 m c) ρ 0 l).trans
    (congrFun (V4_launch m c main_arg3 (by decide) (by decide) (by decide) (by decide)) _)

/-! ## Tile 0

Tile 0 (samples `2048 · 0 + r`, `r < 2048`) is entered at `V5 m c`: the stretch `hostOps0_4` cuts the
tile's rows out of the four host arrays (offset `2048 · 0` on the leading axis) and flattens the rows of gathered
indices into the tile's prefetched table, entry `j` of which is therefore row `j / 32`, feature `j % 32`. -/

section Tile0

/-- The arrays written before the first region are, at tile 0's entry, what they were at `V5 m c`: no region and no
    stretch in between writes them. -/
theorem ent0_of (c : Dev nD) (r : Ref sig .tc) : V5 m c r = V5 m c r :=
  rfl

section Stretch
variable (W : Valuation τ sig (Elt F))

/-- The tile's table: the rows `[2048 · 0, 2048 · 0 + 2048)` of `main_v8`, flattened. -/
theorem tbl0_read (j : Fin 65536) :
    StableHlo.after hostOps0_4 W main_v36 (ValueIdx.ix1 j)
      = StableHlo.after hostOps0_4 W main_v8
          (ValueIdx.ix2 (⟨2048 * 0 + j.val / 32, by omega⟩ : Fin 16384) (⟨j.val % 32, by omega⟩ : Fin 32)) := by
  dsimp only [hostOps0_4]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 0 + j.val / 32 = _ + j.val / 32; omega)

/-- The tile's phase-bias rows: the rows `[2048 · 0, 2048 · 0 + 2048)` of `main_v31`. -/
theorem pa0_read (r : Fin 2048) (l : Fin 128) :
    StableHlo.after hostOps0_4 W main_v37 (ValueIdx.ix3 r 0 l)
      = StableHlo.after hostOps0_4 W main_v31 (ValueIdx.ix3 (⟨2048 * 0 + r.val, by omega⟩ : Fin 16384) 0 l) := by
  dsimp only [hostOps0_4]; open StableHlo in after_results_simp
  exact slice3_axis0_apply _ _ _ r 0 l _ (by show 2048 * 0 + r.val = _ + r.val; omega)

/-- The tile's head weights: the same rows of `main_v32`. -/
theorem w0_read (r : Fin 2048) (l : Fin 128) :
    StableHlo.after hostOps0_4 W main_v38 (ValueIdx.ix3 r 0 l)
      = StableHlo.after hostOps0_4 W main_v32 (ValueIdx.ix3 (⟨2048 * 0 + r.val, by omega⟩ : Fin 16384) 0 l) := by
  dsimp only [hostOps0_4]; open StableHlo in after_results_simp
  exact slice3_axis0_apply _ _ _ r 0 l _ (by show 2048 * 0 + r.val = _ + r.val; omega)

/-- The tile's head biases: the same rows of `main_v33`. -/
theorem b0_read (r : Fin 2048) :
    StableHlo.after hostOps0_4 W main_v39 (ValueIdx.ix3 r 0 0)
      = StableHlo.after hostOps0_4 W main_v33 (ValueIdx.ix3 (⟨2048 * 0 + r.val, by omega⟩ : Fin 16384) 0 0) := by
  dsimp only [hostOps0_4]; open StableHlo in after_results_simp
  exact slice3_axis0_apply _ _ _ r 0 0 _ (by show 2048 * 0 + r.val = _ + r.val; omega)

end Stretch

/-- Entry `j` of tile 0's prefetched table is the gathered row number of sample `2048 · 0 + j / 32`, feature `j % 32`. -/
theorem tbl0_apply (c : Dev nD) (j : Fin 65536) :
    V5 m c main_v36 (ValueIdx.ix1 j)
      = Spec.gidxOf (m ((c : Thread nD τ).loc main_arg0)) (m ((c : Thread nD τ).loc main_arg1))
          (m ((c : Thread nD τ).loc main_arg2))
          (ValueIdx.ix2 (⟨2048 * 0 + j.val / 32, by omega⟩ : Fin 16384) (⟨j.val % 32, by omega⟩ : Fin 32)) :=
  (tbl0_read (V4 m c) j).trans <| (congrFun (ent0_of m c main_v8) _).trans <| congrFun (V5_gidx m c) _

/-- The embedding table as tile 0 sees it: row `ρ`, lane `l` of the argument. -/
theorem emb0_apply (c : Dev nD) (ρ : Fin 786432) (l : Fin 128) :
    V5 m c main_v34 (ValueIdx.ix3 ρ 0 l) = m ((c : Thread nD τ).loc main_arg3) (ValueIdx.ix2 ρ l) :=
  (congrFun (ent0_of m c main_v34) _).trans <| V5_emb_apply m c ρ l

/-- Row `r` of tile 0's phase-bias operand is sample `2048 · 0 + r`'s phase-bias row. -/
theorem pa0_apply (c : Dev nD) (r : Fin 2048) (l : Fin 128) :
    V5 m c main_v37 (ValueIdx.ix3 r 0 l)
      = Spec.paSelOf (m ((c : Thread nD τ).loc main_arg1)) (m ((c : Thread nD τ).loc main_arg4))
          (ValueIdx.ix2 (⟨2048 * 0 + r.val, by omega⟩ : Fin 16384) l) :=
  (pa0_read (V4 m c) r l).trans <| (congrFun (ent0_of m c main_v31) _).trans <| V5_pa_apply m c _ l

/-- Row `r` of tile 0's head-weight operand is sample `2048 · 0 + r`'s head weights. -/
theorem w0_apply (c : Dev nD) (r : Fin 2048) (l : Fin 128) :
    V5 m c main_v38 (ValueIdx.ix3 r 0 l)
      = Spec.wSelOf (m ((c : Thread nD τ).loc main_arg1)) (m ((c : Thread nD τ).loc main_arg5))
          (ValueIdx.ix2 (⟨2048 * 0 + r.val, by omega⟩ : Fin 16384) l) :=
  (w0_read (V4 m c) r l).trans <| (congrFun (ent0_of m c main_v32) _).trans <| V5_w_apply m c _ l

/-- Entry `r` of tile 0's head-bias operand is sample `2048 · 0 + r`'s head bias. -/
theorem b0_apply (c : Dev nD) (r : Fin 2048) :
    V5 m c main_v39 (ValueIdx.ix3 r 0 0)
      = Spec.bSelOf (m ((c : Thread nD τ).loc main_arg1)) (m ((c : Thread nD τ).loc main_arg6))
          (ValueIdx.ix1 (⟨2048 * 0 + r.val, by omega⟩ : Fin 16384)) :=
  (b0_read (V4 m c) r).trans <| (congrFun (ent0_of m c main_v33) _).trans <| V5_b_apply m c _

end Tile0

/-! ## Tile 1

Tile 1 (samples `2048 · 1 + r`, `r < 2048`) is entered at `V7 m outs c`: the stretch `hostOps1` cuts the
tile's rows out of the four host arrays (offset `2048 · 1` on the leading axis) and flattens the rows of gathered
indices into the tile's prefetched table, entry `j` of which is therefore row `j / 32`, feature `j % 32`. -/

section Tile1

/-- The arrays written before the first region are, at tile 1's entry, what they were at `V5 m c`: no region and no
    stretch in between writes them. -/
theorem ent1_of (c : Dev nD) (r : Ref sig .tc)
    (h6 : r ∉ ([main_v40] : List (Ref sig .tc))) (h7 : r ∉ hostOps1_W) :
    V7 m outs c r = V5 m c r :=
  (V7_of m outs c r h7).trans <|
    V6_of m outs c r h6

section Stretch
variable (W : Valuation τ sig (Elt F))

/-- The tile's table: the rows `[2048 · 1, 2048 · 1 + 2048)` of `main_v8`, flattened. -/
theorem tbl1_read (j : Fin 65536) :
    StableHlo.after hostOps1 W main_v42 (ValueIdx.ix1 j)
      = StableHlo.after hostOps1 W main_v8
          (ValueIdx.ix2 (⟨2048 * 1 + j.val / 32, by omega⟩ : Fin 16384) (⟨j.val % 32, by omega⟩ : Fin 32)) := by
  dsimp only [hostOps1]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 1 + j.val / 32 = _ + j.val / 32; omega)

/-- The tile's phase-bias rows: the rows `[2048 · 1, 2048 · 1 + 2048)` of `main_v31`. -/
theorem pa1_read (r : Fin 2048) (l : Fin 128) :
    StableHlo.after hostOps1 W main_v43 (ValueIdx.ix3 r 0 l)
      = StableHlo.after hostOps1 W main_v31 (ValueIdx.ix3 (⟨2048 * 1 + r.val, by omega⟩ : Fin 16384) 0 l) := by
  dsimp only [hostOps1]; open StableHlo in after_results_simp
  exact slice3_axis0_apply _ _ _ r 0 l _ (by show 2048 * 1 + r.val = _ + r.val; omega)

/-- The tile's head weights: the same rows of `main_v32`. -/
theorem w1_read (r : Fin 2048) (l : Fin 128) :
    StableHlo.after hostOps1 W main_v44 (ValueIdx.ix3 r 0 l)
      = StableHlo.after hostOps1 W main_v32 (ValueIdx.ix3 (⟨2048 * 1 + r.val, by omega⟩ : Fin 16384) 0 l) := by
  dsimp only [hostOps1]; open StableHlo in after_results_simp
  exact slice3_axis0_apply _ _ _ r 0 l _ (by show 2048 * 1 + r.val = _ + r.val; omega)

/-- The tile's head biases: the same rows of `main_v33`. -/
theorem b1_read (r : Fin 2048) :
    StableHlo.after hostOps1 W main_v45 (ValueIdx.ix3 r 0 0)
      = StableHlo.after hostOps1 W main_v33 (ValueIdx.ix3 (⟨2048 * 1 + r.val, by omega⟩ : Fin 16384) 0 0) := by
  dsimp only [hostOps1]; open StableHlo in after_results_simp
  exact slice3_axis0_apply _ _ _ r 0 0 _ (by show 2048 * 1 + r.val = _ + r.val; omega)

end Stretch

/-- Entry `j` of tile 1's prefetched table is the gathered row number of sample `2048 · 1 + j / 32`, feature `j % 32`. -/
theorem tbl1_apply (c : Dev nD) (j : Fin 65536) :
    V7 m outs c main_v42 (ValueIdx.ix1 j)
      = Spec.gidxOf (m ((c : Thread nD τ).loc main_arg0)) (m ((c : Thread nD τ).loc main_arg1))
          (m ((c : Thread nD τ).loc main_arg2))
          (ValueIdx.ix2 (⟨2048 * 1 + j.val / 32, by omega⟩ : Fin 16384) (⟨j.val % 32, by omega⟩ : Fin 32)) :=
  (tbl1_read (V6 m outs c) j).trans <| (congrFun (ent1_of m outs c main_v8 (by decide) (by decide)) _).trans <| congrFun (V5_gidx m c) _

/-- The embedding table as tile 1 sees it: row `ρ`, lane `l` of the argument. -/
theorem emb1_apply (c : Dev nD) (ρ : Fin 786432) (l : Fin 128) :
    V7 m outs c main_v34 (ValueIdx.ix3 ρ 0 l) = m ((c : Thread nD τ).loc main_arg3) (ValueIdx.ix2 ρ l) :=
  (congrFun (ent1_of m outs c main_v34 (by decide) (by decide)) _).trans <| V5_emb_apply m c ρ l

/-- Row `r` of tile 1's phase-bias operand is sample `2048 · 1 + r`'s phase-bias row. -/
theorem pa1_apply (c : Dev nD) (r : Fin 2048) (l : Fin 128) :
    V7 m outs c main_v43 (ValueIdx.ix3 r 0 l)
      = Spec.paSelOf (m ((c : Thread nD τ).loc main_arg1)) (m ((c : Thread nD τ).loc main_arg4))
          (ValueIdx.ix2 (⟨2048 * 1 + r.val, by omega⟩ : Fin 16384) l) :=
  (pa1_read (V6 m outs c) r l).trans <| (congrFun (ent1_of m outs c main_v31 (by decide) (by decide)) _).trans <| V5_pa_apply m c _ l

/-- Row `r` of tile 1's head-weight operand is sample `2048 · 1 + r`'s head weights. -/
theorem w1_apply (c : Dev nD) (r : Fin 2048) (l : Fin 128) :
    V7 m outs c main_v44 (ValueIdx.ix3 r 0 l)
      = Spec.wSelOf (m ((c : Thread nD τ).loc main_arg1)) (m ((c : Thread nD τ).loc main_arg5))
          (ValueIdx.ix2 (⟨2048 * 1 + r.val, by omega⟩ : Fin 16384) l) :=
  (w1_read (V6 m outs c) r l).trans <| (congrFun (ent1_of m outs c main_v32 (by decide) (by decide)) _).trans <| V5_w_apply m c _ l

/-- Entry `r` of tile 1's head-bias operand is sample `2048 · 1 + r`'s head bias. -/
theorem b1_apply (c : Dev nD) (r : Fin 2048) :
    V7 m outs c main_v45 (ValueIdx.ix3 r 0 0)
      = Spec.bSelOf (m ((c : Thread nD τ).loc main_arg1)) (m ((c : Thread nD τ).loc main_arg6))
          (ValueIdx.ix1 (⟨2048 * 1 + r.val, by omega⟩ : Fin 16384)) :=
  (b1_read (V6 m outs c) r).trans <| (congrFun (ent1_of m outs c main_v33 (by decide) (by decide)) _).trans <| V5_b_apply m c _

end Tile1

/-! ## Tile 2

Tile 2 (samples `2048 · 2 + r`, `r < 2048`) is entered at `V9 m outs c`: the stretch `hostOps2` cuts the
tile's rows out of the four host arrays (offset `2048 · 2` on the leading axis) and flattens the rows of gathered
indices into the tile's prefetched table, entry `j` of which is therefore row `j / 32`, feature `j % 32`. -/

section Tile2

/-- The arrays written before the first region are, at tile 2's entry, what they were at `V5 m c`: no region and no
    stretch in between writes them. -/
theorem ent2_of (c : Dev nD) (r : Ref sig .tc)
    (h6 : r ∉ ([main_v40] : List (Ref sig .tc))) (h7 : r ∉ hostOps1_W) (h8 : r ∉ ([main_v46] : List (Ref sig .tc)))
    (h9 : r ∉ hostOps2_W) :
    V9 m outs c r = V5 m c r :=
  (V9_of m outs c r h9).trans <|
    (V8_of m outs c r h8).trans <|
    (V7_of m outs c r h7).trans <|
    V6_of m outs c r h6

section Stretch
variable (W : Valuation τ sig (Elt F))

/-- The tile's table: the rows `[2048 · 2, 2048 · 2 + 2048)` of `main_v8`, flattened. -/
theorem tbl2_read (j : Fin 65536) :
    StableHlo.after hostOps2 W main_v48 (ValueIdx.ix1 j)
      = StableHlo.after hostOps2 W main_v8
          (ValueIdx.ix2 (⟨2048 * 2 + j.val / 32, by omega⟩ : Fin 16384) (⟨j.val % 32, by omega⟩ : Fin 32)) := by
  dsimp only [hostOps2]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 2 + j.val / 32 = _ + j.val / 32; omega)

/-- The tile's phase-bias rows: the rows `[2048 · 2, 2048 · 2 + 2048)` of `main_v31`. -/
theorem pa2_read (r : Fin 2048) (l : Fin 128) :
    StableHlo.after hostOps2 W main_v49 (ValueIdx.ix3 r 0 l)
      = StableHlo.after hostOps2 W main_v31 (ValueIdx.ix3 (⟨2048 * 2 + r.val, by omega⟩ : Fin 16384) 0 l) := by
  dsimp only [hostOps2]; open StableHlo in after_results_simp
  exact slice3_axis0_apply _ _ _ r 0 l _ (by show 2048 * 2 + r.val = _ + r.val; omega)

/-- The tile's head weights: the same rows of `main_v32`. -/
theorem w2_read (r : Fin 2048) (l : Fin 128) :
    StableHlo.after hostOps2 W main_v50 (ValueIdx.ix3 r 0 l)
      = StableHlo.after hostOps2 W main_v32 (ValueIdx.ix3 (⟨2048 * 2 + r.val, by omega⟩ : Fin 16384) 0 l) := by
  dsimp only [hostOps2]; open StableHlo in after_results_simp
  exact slice3_axis0_apply _ _ _ r 0 l _ (by show 2048 * 2 + r.val = _ + r.val; omega)

/-- The tile's head biases: the same rows of `main_v33`. -/
theorem b2_read (r : Fin 2048) :
    StableHlo.after hostOps2 W main_v51 (ValueIdx.ix3 r 0 0)
      = StableHlo.after hostOps2 W main_v33 (ValueIdx.ix3 (⟨2048 * 2 + r.val, by omega⟩ : Fin 16384) 0 0) := by
  dsimp only [hostOps2]; open StableHlo in after_results_simp
  exact slice3_axis0_apply _ _ _ r 0 0 _ (by show 2048 * 2 + r.val = _ + r.val; omega)

end Stretch

/-- Entry `j` of tile 2's prefetched table is the gathered row number of sample `2048 · 2 + j / 32`, feature `j % 32`. -/
theorem tbl2_apply (c : Dev nD) (j : Fin 65536) :
    V9 m outs c main_v48 (ValueIdx.ix1 j)
      = Spec.gidxOf (m ((c : Thread nD τ).loc main_arg0)) (m ((c : Thread nD τ).loc main_arg1))
          (m ((c : Thread nD τ).loc main_arg2))
          (ValueIdx.ix2 (⟨2048 * 2 + j.val / 32, by omega⟩ : Fin 16384) (⟨j.val % 32, by omega⟩ : Fin 32)) :=
  (tbl2_read (V8 m outs c) j).trans <| (congrFun (ent2_of m outs c main_v8 (by decide) (by decide) (by decide) (by decide)) _).trans <| congrFun (V5_gidx m c) _

/-- The embedding table as tile 2 sees it: row `ρ`, lane `l` of the argument. -/
theorem emb2_apply (c : Dev nD) (ρ : Fin 786432) (l : Fin 128) :
    V9 m outs c main_v34 (ValueIdx.ix3 ρ 0 l) = m ((c : Thread nD τ).loc main_arg3) (ValueIdx.ix2 ρ l) :=
  (congrFun (ent2_of m outs c main_v34 (by decide) (by decide) (by decide) (by decide)) _).trans <| V5_emb_apply m c ρ l

/-- Row `r` of tile 2's phase-bias operand is sample `2048 · 2 + r`'s phase-bias row. -/
theorem pa2_apply (c : Dev nD) (r : Fin 2048) (l : Fin 128) :
    V9 m outs c main_v49 (ValueIdx.ix3 r 0 l)
      = Spec.paSelOf (m ((c : Thread nD τ).loc main_arg1)) (m ((c : Thread nD τ).loc main_arg4))
          (ValueIdx.ix2 (⟨2048 * 2 + r.val, by omega⟩ : Fin 16384) l) :=
  (pa2_read (V8 m outs c) r l).trans <| (congrFun (ent2_of m outs c main_v31 (by decide) (by decide) (by decide) (by decide)) _).trans <| V5_pa_apply m c _ l

/-- Row `r` of tile 2's head-weight operand is sample `2048 · 2 + r`'s head weights. -/
theorem w2_apply (c : Dev nD) (r : Fin 2048) (l : Fin 128) :
    V9 m outs c main_v50 (ValueIdx.ix3 r 0 l)
      = Spec.wSelOf (m ((c : Thread nD τ).loc main_arg1)) (m ((c : Thread nD τ).loc main_arg5))
          (ValueIdx.ix2 (⟨2048 * 2 + r.val, by omega⟩ : Fin 16384) l) :=
  (w2_read (V8 m outs c) r l).trans <| (congrFun (ent2_of m outs c main_v32 (by decide) (by decide) (by decide) (by decide)) _).trans <| V5_w_apply m c _ l

/-- Entry `r` of tile 2's head-bias operand is sample `2048 · 2 + r`'s head bias. -/
theorem b2_apply (c : Dev nD) (r : Fin 2048) :
    V9 m outs c main_v51 (ValueIdx.ix3 r 0 0)
      = Spec.bSelOf (m ((c : Thread nD τ).loc main_arg1)) (m ((c : Thread nD τ).loc main_arg6))
          (ValueIdx.ix1 (⟨2048 * 2 + r.val, by omega⟩ : Fin 16384)) :=
  (b2_read (V8 m outs c) r).trans <| (congrFun (ent2_of m outs c main_v33 (by decide) (by decide) (by decide) (by decide)) _).trans <| V5_b_apply m c _

end Tile2

/-! ## Tile 3

Tile 3 (samples `2048 · 3 + r`, `r < 2048`) is entered at `V11 m outs c`: the stretch `hostOps3` cuts the
tile's rows out of the four host arrays (offset `2048 · 3` on the leading axis) and flattens the rows of gathered
indices into the tile's prefetched table, entry `j` of which is therefore row `j / 32`, feature `j % 32`. -/

section Tile3

/-- The arrays written before the first region are, at tile 3's entry, what they were at `V5 m c`: no region and no
    stretch in between writes them. -/
theorem ent3_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W) :
    V11 m outs c r = V5 m c r :=
  (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 3, 2048 · 3 + 2048)` of `main_v8`, flattened. -/
theorem tbl3_read (j : Fin 65536) :
    StableHlo.after hostOps3 W main_v54 (ValueIdx.ix1 j)
      = StableHlo.after hostOps3 W main_v8
          (ValueIdx.ix2 (⟨2048 * 3 + j.val / 32, by omega⟩ : Fin 16384) (⟨j.val % 32, by omega⟩ : Fin 32)) := by
  dsimp only [hostOps3]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 3 + j.val / 32 = _ + j.val / 32; omega)

/-- The tile's phase-bias rows: the rows `[2048 · 3, 2048 · 3 + 2048)` of `main_v31`. -/
theorem pa3_read (r : Fin 2048) (l : Fin 128) :
    StableHlo.after hostOps3 W main_v55 (ValueIdx.ix3 r 0 l)
      = StableHlo.after hostOps3 W main_v31 (ValueIdx.ix3 (⟨2048 * 3 + r.val, by omega⟩ : Fin 16384) 0 l) := by
  dsimp only [hostOps3]; open StableHlo in after_results_simp
  exact slice3_axis0_apply _ _ _ r 0 l _ (by show 2048 * 3 + r.val = _ + r.val; omega)

/-- The tile's head weights: the same rows of `main_v32`. -/
theorem w3_read (r : Fin 2048) (l : Fin 128) :
    StableHlo.after hostOps3 W main_v56 (ValueIdx.ix3 r 0 l)
      = StableHlo.after hostOps3 W main_v32 (ValueIdx.ix3 (⟨2048 * 3 + r.val, by omega⟩ : Fin 16384) 0 l) := by
  dsimp only [hostOps3]; open StableHlo in after_results_simp
  exact slice3_axis0_apply _ _ _ r 0 l _ (by show 2048 * 3 + r.val = _ + r.val; omega)

/-- The tile's head biases: the same rows of `main_v33`. -/
theorem b3_read (r : Fin 2048) :
    StableHlo.after hostOps3 W main_v57 (ValueIdx.ix3 r 0 0)
      = StableHlo.after hostOps3 W main_v33 (ValueIdx.ix3 (⟨2048 * 3 + r.val, by omega⟩ : Fin 16384) 0 0) := by
  dsimp only [hostOps3]; open StableHlo in after_results_simp
  exact slice3_axis0_apply _ _ _ r 0 0 _ (by show 2048 * 3 + r.val = _ + r.val; omega)

end Stretch

/-- Entry `j` of tile 3's prefetched table is the gathered row number of sample `2048 · 3 + j / 32`, feature `j % 32`. -/
theorem tbl3_apply (c : Dev nD) (j : Fin 65536) :
    V11 m outs c main_v54 (ValueIdx.ix1 j)
      = Spec.gidxOf (m ((c : Thread nD τ).loc main_arg0)) (m ((c : Thread nD τ).loc main_arg1))
          (m ((c : Thread nD τ).loc main_arg2))
          (ValueIdx.ix2 (⟨2048 * 3 + j.val / 32, by omega⟩ : Fin 16384) (⟨j.val % 32, by omega⟩ : Fin 32)) :=
  (tbl3_read (V10 m outs c) j).trans <| (congrFun (ent3_of m outs c main_v8 (by decide) (by decide) (by decide) (by decide) (by decide) (by decide)) _).trans <| congrFun (V5_gidx m c) _

/-- The embedding table as tile 3 sees it: row `ρ`, lane `l` of the argument. -/
theorem emb3_apply (c : Dev nD) (ρ : Fin 786432) (l : Fin 128) :
    V11 m outs c main_v34 (ValueIdx.ix3 ρ 0 l) = m ((c : Thread nD τ).loc main_arg3) (ValueIdx.ix2 ρ l) :=
  (congrFun (ent3_of m outs c main_v34 (by decide) (by decide) (by decide) (by decide) (by decide) (by decide)) _).trans <| V5_emb_apply m c ρ l

/-- Row `r` of tile 3's phase-bias operand is sample `2048 · 3 + r`'s phase-bias row. -/
theorem pa3_apply (c : Dev nD) (r : Fin 2048) (l : Fin 128) :
    V11 m outs c main_v55 (ValueIdx.ix3 r 0 l)
      = Spec.paSelOf (m ((c : Thread nD τ).loc main_arg1)) (m ((c : Thread nD τ).loc main_arg4))
          (ValueIdx.ix2 (⟨2048 * 3 + r.val, by omega⟩ : Fin 16384) l) :=
  (pa3_read (V10 m outs c) r l).trans <| (congrFun (ent3_of m outs c main_v31 (by decide) (by decide) (by decide) (by decide) (by decide) (by decide)) _).trans <| V5_pa_apply m c _ l

/-- Row `r` of tile 3's head-weight operand is sample `2048 · 3 + r`'s head weights. -/
theorem w3_apply (c : Dev nD) (r : Fin 2048) (l : Fin 128) :
    V11 m outs c main_v56 (ValueIdx.ix3 r 0 l)
      = Spec.wSelOf (m ((c : Thread nD τ).loc main_arg1)) (m ((c : Thread nD τ).loc main_arg5))
          (ValueIdx.ix2 (⟨2048 * 3 + r.val, by omega⟩ : Fin 16384) l) :=
  (w3_read (V10 m outs c) r l).trans <| (congrFun (ent3_of m outs c main_v32 (by decide) (by decide) (by decide) (by decide) (by decide) (by decide)) _).trans <| V5_w_apply m c _ l

/-- Entry `r` of tile 3's head-bias operand is sample `2048 · 3 + r`'s head bias. -/
theorem b3_apply (c : Dev nD) (r : Fin 2048) :
    V11 m outs c main_v57 (ValueIdx.ix3 r 0 0)
      = Spec.bSelOf (m ((c : Thread nD τ).loc main_arg1)) (m ((c : Thread nD τ).loc main_arg6))
          (ValueIdx.ix1 (⟨2048 * 3 + r.val, by omega⟩ : Fin 16384)) :=
  (b3_read (V10 m outs c) r).trans <| (congrFun (ent3_of m outs c main_v33 (by decide) (by decide) (by decide) (by decide) (by decide) (by decide)) _).trans <| V5_b_apply m c _

end Tile3

/-! ## Tile 4

Tile 4 (samples `2048 · 4 + r`, `r < 2048`) is entered at `V13 m outs c`: the stretch `hostOps4` cuts the
tile's rows out of the four host arrays (offset `2048 · 4` on the leading axis) and flattens the rows of gathered
indices into the tile's prefetched table, entry `j` of which is therefore row `j / 32`, feature `j % 32`. -/

section Tile4

/-- The arrays written before the first region are, at tile 4's entry, what they were at `V5 m c`: no region and no
    stretch in between writes them. -/
theorem ent4_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W)
    (h12 : r ∉ ([main_v58] : List (Ref sig .tc))) (h13 : r ∉ hostOps4_W) :
    V13 m outs c r = V5 m c r :=
  (V13_of m outs c r h13).trans <|
    (V12_of m outs c r h12).trans <|
    (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 4, 2048 · 4 + 2048)` of `main_v8`, flattened. -/
theorem tbl4_read (j : Fin 65536) :
    StableHlo.after hostOps4 W main_v60 (ValueIdx.ix1 j)
      = StableHlo.after hostOps4 W main_v8
          (ValueIdx.ix2 (⟨2048 * 4 + j.val / 32, by omega⟩ : Fin 16384) (⟨j.val % 32, by omega⟩ : Fin 32)) := by
  dsimp only [hostOps4]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 4 + j.val / 32 = _ + j.val / 32; omega)

/-- The tile's phase-bias rows: the rows `[2048 · 4, 2048 · 4 + 2048)` of `main_v31`. -/
theorem pa4_read (r : Fin 2048) (l : Fin 128) :
    StableHlo.after hostOps4 W main_v61 (ValueIdx.ix3 r 0 l)
      = StableHlo.after hostOps4 W main_v31 (ValueIdx.ix3 (⟨2048 * 4 + r.val, by omega⟩ : Fin 16384) 0 l) := by
  dsimp only [hostOps4]; open StableHlo in after_results_simp
  exact slice3_axis0_apply _ _ _ r 0 l _ (by show 2048 * 4 + r.val = _ + r.val; omega)

/-- The tile's head weights: the same rows of `main_v32`. -/
theorem w4_read (r : Fin 2048) (l : Fin 128) :
    StableHlo.after hostOps4 W main_v62 (ValueIdx.ix3 r 0 l)
      = StableHlo.after hostOps4 W main_v32 (ValueIdx.ix3 (⟨2048 * 4 + r.val, by omega⟩ : Fin 16384) 0 l) := by
  dsimp only [hostOps4]; open StableHlo in after_results_simp
  exact slice3_axis0_apply _ _ _ r 0 l _ (by show 2048 * 4 + r.val = _ + r.val; omega)

/-- The tile's head biases: the same rows of `main_v33`. -/
theorem b4_read (r : Fin 2048) :
    StableHlo.after hostOps4 W main_v63 (ValueIdx.ix3 r 0 0)
      = StableHlo.after hostOps4 W main_v33 (ValueIdx.ix3 (⟨2048 * 4 + r.val, by omega⟩ : Fin 16384) 0 0) := by
  dsimp only [hostOps4]; open StableHlo in after_results_simp
  exact slice3_axis0_apply _ _ _ r 0 0 _ (by show 2048 * 4 + r.val = _ + r.val; omega)

end Stretch

/-- Entry `j` of tile 4's prefetched table is the gathered row number of sample `2048 · 4 + j / 32`, feature `j % 32`. -/
theorem tbl4_apply (c : Dev nD) (j : Fin 65536) :
    V13 m outs c main_v60 (ValueIdx.ix1 j)
      = Spec.gidxOf (m ((c : Thread nD τ).loc main_arg0)) (m ((c : Thread nD τ).loc main_arg1))
          (m ((c : Thread nD τ).loc main_arg2))
          (ValueIdx.ix2 (⟨2048 * 4 + j.val / 32, by omega⟩ : Fin 16384) (⟨j.val % 32, by omega⟩ : Fin 32)) :=
  (tbl4_read (V12 m outs c) j).trans <| (congrFun (ent4_of m outs c main_v8 (by decide) (by decide) (by decide) (by decide) (by decide) (by decide) (by decide) (by decide)) _).trans <| congrFun (V5_gidx m c) _

/-- The embedding table as tile 4 sees it: row `ρ`, lane `l` of the argument. -/
theorem emb4_apply (c : Dev nD) (ρ : Fin 786432) (l : Fin 128) :
    V13 m outs c main_v34 (ValueIdx.ix3 ρ 0 l) = m ((c : Thread nD τ).loc main_arg3) (ValueIdx.ix2 ρ l) :=
  (congrFun (ent4_of m outs c main_v34 (by decide) (by decide) (by decide) (by decide) (by decide) (by decide) (by decide) (by decide)) _).trans <| V5_emb_apply m c ρ l

/-- Row `r` of tile 4's phase-bias operand is sample `2048 · 4 + r`'s phase-bias row. -/
theorem pa4_apply (c : Dev nD) (r : Fin 2048) (l : Fin 128) :
    V13 m outs c main_v61 (ValueIdx.ix3 r 0 l)
      = Spec.paSelOf (m ((c : Thread nD τ).loc main_arg1)) (m ((c : Thread nD τ).loc main_arg4))
          (ValueIdx.ix2 (⟨2048 * 4 + r.val, by omega⟩ : Fin 16384) l) :=
  (pa4_read (V12 m outs c) r l).trans <| (congrFun (ent4_of m outs c main_v31 (by decide) (by decide) (by decide) (by decide) (by decide) (by decide) (by decide) (by decide)) _).trans <| V5_pa_apply m c _ l

/-- Row `r` of tile 4's head-weight operand is sample `2048 · 4 + r`'s head weights. -/
theorem w4_apply (c : Dev nD) (r : Fin 2048) (l : Fin 128) :
    V13 m outs c main_v62 (ValueIdx.ix3 r 0 l)
      = Spec.wSelOf (m ((c : Thread nD τ).loc main_arg1)) (m ((c : Thread nD τ).loc main_arg5))
          (ValueIdx.ix2 (⟨2048 * 4 + r.val, by omega⟩ : Fin 16384) l) :=
  (w4_read (V12 m outs c) r l).trans <| (congrFun (ent4_of m outs c main_v32 (by decide) (by decide) (by decide) (by decide) (by decide) (by decide) (by decide) (by decide)) _).trans <| V5_w_apply m c _ l

/-- Entry `r` of tile 4's head-bias operand is sample `2048 · 4 + r`'s head bias. -/
theorem b4_apply (c : Dev nD) (r : Fin 2048) :
    V13 m outs c main_v63 (ValueIdx.ix3 r 0 0)
      = Spec.bSelOf (m ((c : Thread nD τ).loc main_arg1)) (m ((c : Thread nD τ).loc main_arg6))
          (ValueIdx.ix1 (⟨2048 * 4 + r.val, by omega⟩ : Fin 16384)) :=
  (b4_read (V12 m outs c) r).trans <| (congrFun (ent4_of m outs c main_v33 (by decide) (by decide) (by decide) (by decide) (by decide) (by decide) (by decide) (by decide)) _).trans <| V5_b_apply m c _

end Tile4

/-! ## Tile 5

Tile 5 (samples `2048 · 5 + r`, `r < 2048`) is entered at `V15 m outs c`: the stretch `hostOps5` cuts the
tile's rows out of the four host arrays (offset `2048 · 5` on the leading axis) and flattens the rows of gathered
indices into the tile's prefetched table, entry `j` of which is therefore row `j / 32`, feature `j % 32`. -/

section Tile5

/-- The arrays written before the first region are, at tile 5's entry, what they were at `V5 m c`: no region and no
    stretch in between writes them. -/
theorem ent5_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W)
    (h12 : r ∉ ([main_v58] : List (Ref sig .tc))) (h13 : r ∉ hostOps4_W)
    (h14 : r ∉ ([main_v64] : List (Ref sig .tc))) (h15 : r ∉ hostOps5_W) :
    V15 m outs c r = V5 m c r :=
  (V15_of m outs c r h15).trans <|
    (V14_of m outs c r h14).trans <|
    (V13_of m outs c r h13).trans <|
    (V12_of m outs c r h12).trans <|
    (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 5, 2048 · 5 + 2048)` of `main_v8`, flattened. -/
theorem tbl5_read (j : Fin 65536) :
    StableHlo.after hostOps5 W main_v66 (ValueIdx.ix1 j)
      = StableHlo.after hostOps5 W main_v8
          (ValueIdx.ix2 (⟨2048 * 5 + j.val / 32, by omega⟩ : Fin 16384) (⟨j.val % 32, by omega⟩ : Fin 32)) := by
  dsimp only [hostOps5]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 5 + j.val / 32 = _ + j.val / 32; omega)

/-- The tile's phase-bias rows: the rows `[2048 · 5, 2048 · 5 + 2048)` of `main_v31`. -/
theorem pa5_read (r : Fin 2048) (l : Fin 128) :
    StableHlo.after hostOps5 W main_v67 (ValueIdx.ix3 r 0 l)
      = StableHlo.after hostOps5 W main_v31 (ValueIdx.ix3 (⟨2048 * 5 + r.val, by omega⟩ : Fin 16384) 0 l) := by
  dsimp only [hostOps5]; open StableHlo in after_results_simp
  exact slice3_axis0_apply _ _ _ r 0 l _ (by show 2048 * 5 + r.val = _ + r.val; omega)

/-- The tile's head weights: the same rows of `main_v32`. -/
theorem w5_read (r : Fin 2048) (l : Fin 128) :
    StableHlo.after hostOps5 W main_v68 (ValueIdx.ix3 r 0 l)
      = StableHlo.after hostOps5 W main_v32 (ValueIdx.ix3 (⟨2048 * 5 + r.val, by omega⟩ : Fin 16384) 0 l) := by
  dsimp only [hostOps5]; open StableHlo in after_results_simp
  exact slice3_axis0_apply _ _ _ r 0 l _ (by show 2048 * 5 + r.val = _ + r.val; omega)

/-- The tile's head biases: the same rows of `main_v33`. -/
theorem b5_read (r : Fin 2048) :
    StableHlo.after hostOps5 W main_v69 (ValueIdx.ix3 r 0 0)
      = StableHlo.after hostOps5 W main_v33 (ValueIdx.ix3 (⟨2048 * 5 + r.val, by omega⟩ : Fin 16384) 0 0) := by
  dsimp only [hostOps5]; open StableHlo in after_results_simp
  exact slice3_axis0_apply _ _ _ r 0 0 _ (by show 2048 * 5 + r.val = _ + r.val; omega)

end Stretch

/-- Entry `j` of tile 5's prefetched table is the gathered row number of sample `2048 · 5 + j / 32`, feature `j % 32`. -/
theorem tbl5_apply (c : Dev nD) (j : Fin 65536) :
    V15 m outs c main_v66 (ValueIdx.ix1 j)
      = Spec.gidxOf (m ((c : Thread nD τ).loc main_arg0)) (m ((c : Thread nD τ).loc main_arg1))
          (m ((c : Thread nD τ).loc main_arg2))
          (ValueIdx.ix2 (⟨2048 * 5 + j.val / 32, by omega⟩ : Fin 16384) (⟨j.val % 32, by omega⟩ : Fin 32)) :=
  (tbl5_read (V14 m outs c) j).trans <| (congrFun (ent5_of m outs c main_v8 (by decide) (by decide) (by decide) (by decide) (by decide) (by decide) (by decide) (by decide) (by decide) (by decide)) _).trans <| congrFun (V5_gidx m c) _

/-- The embedding table as tile 5 sees it: row `ρ`, lane `l` of the argument. -/
theorem emb5_apply (c : Dev nD) (ρ : Fin 786432) (l : Fin 128) :
    V15 m outs c main_v34 (ValueIdx.ix3 ρ 0 l) = m ((c : Thread nD τ).loc main_arg3) (ValueIdx.ix2 ρ l) :=
  (congrFun (ent5_of m outs c main_v34 (by decide) (by decide) (by decide) (by decide) (by decide) (by decide) (by decide) (by decide) (by decide) (by decide)) _).trans <| V5_emb_apply m c ρ l

/-- Row `r` of tile 5's phase-bias operand is sample `2048 · 5 + r`'s phase-bias row. -/
theorem pa5_apply (c : Dev nD) (r : Fin 2048) (l : Fin 128) :
    V15 m outs c main_v67 (ValueIdx.ix3 r 0 l)
      = Spec.paSelOf (m ((c : Thread nD τ).loc main_arg1)) (m ((c : Thread nD τ).loc main_arg4))
          (ValueIdx.ix2 (⟨2048 * 5 + r.val, by omega⟩ : Fin 16384) l) :=
  (pa5_read (V14 m outs c) r l).trans <| (congrFun (ent5_of m outs c main_v31 (by decide) (by decide) (by decide) (by decide) (by decide) (by decide) (by decide) (by decide) (by decide) (by decide)) _).trans <| V5_pa_apply m c _ l

/-- Row `r` of tile 5's head-weight operand is sample `2048 · 5 + r`'s head weights. -/
theorem w5_apply (c : Dev nD) (r : Fin 2048) (l : Fin 128) :
    V15 m outs c main_v68 (ValueIdx.ix3 r 0 l)
      = Spec.wSelOf (m ((c : Thread nD τ).loc main_arg1)) (m ((c : Thread nD τ).loc main_arg5))
          (ValueIdx.ix2 (⟨2048 * 5 + r.val, by omega⟩ : Fin 16384) l) :=
  (w5_read (V14 m outs c) r l).trans <| (congrFun (ent5_of m outs c main_v32 (by decide) (by decide) (by decide) (by decide) (by decide) (by decide) (by decide) (by decide) (by decide) (by decide)) _).trans <| V5_w_apply m c _ l

/-- Entry `r` of tile 5's head-bias operand is sample `2048 · 5 + r`'s head bias. -/
theorem b5_apply (c : Dev nD) (r : Fin 2048) :
    V15 m outs c main_v69 (ValueIdx.ix3 r 0 0)
      = Spec.bSelOf (m ((c : Thread nD τ).loc main_arg1)) (m ((c : Thread nD τ).loc main_arg6))
          (ValueIdx.ix1 (⟨2048 * 5 + r.val, by omega⟩ : Fin 16384)) :=
  (b5_read (V14 m outs c) r).trans <| (congrFun (ent5_of m outs c main_v33 (by decide) (by decide) (by decide) (by decide) (by decide) (by decide) (by decide) (by decide) (by decide) (by decide)) _).trans <| V5_b_apply m c _

end Tile5

/-! ## Tile 6

Tile 6 (samples `2048 · 6 + r`, `r < 2048`) is entered at `V17 m outs c`: the stretch `hostOps6` cuts the
tile's rows out of the four host arrays (offset `2048 · 6` on the leading axis) and flattens the rows of gathered
indices into the tile's prefetched table, entry `j` of which is therefore row `j / 32`, feature `j % 32`. -/

section Tile6

/-- The arrays written before the first region are, at tile 6's entry, what they were at `V5 m c`: no region and no
    stretch in between writes them. -/
theorem ent6_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W)
    (h12 : r ∉ ([main_v58] : List (Ref sig .tc))) (h13 : r ∉ hostOps4_W)
    (h14 : r ∉ ([main_v64] : List (Ref sig .tc))) (h15 : r ∉ hostOps5_W)
    (h16 : r ∉ ([main_v70] : List (Ref sig .tc))) (h17 : r ∉ hostOps6_W) :
    V17 m outs c r = V5 m c r :=
  (V17_of m outs c r h17).trans <|
    (V16_of m outs c r h16).trans <|
    (V15_of m outs c r h15).trans <|
    (V14_of m outs c r h14).trans <|
    (V13_of m outs c r h13).trans <|
    (V12_of m outs c r h12).trans <|
    (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 6, 2048 · 6 + 2048)` of `main_v8`, flattened. -/
theorem tbl6_read (j : Fin 65536) :
    StableHlo.after hostOps6 W main_v72 (ValueIdx.ix1 j)
      = StableHlo.after hostOps6 W main_v8
          (ValueIdx.ix2 (⟨2048 * 6 + j.val / 32, by omega⟩ : Fin 16384) (⟨j.val % 32, by omega⟩ : Fin 32)) := by
  dsimp only [hostOps6]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 6 + j.val / 32 = _ + j.val / 32; omega)

/-- The tile's phase-bias rows: the rows `[2048 · 6, 2048 · 6 + 2048)` of `main_v31`. -/
theorem pa6_read (r : Fin 2048) (l : Fin 128) :
    StableHlo.after hostOps6 W main_v73 (ValueIdx.ix3 r 0 l)
      = StableHlo.after hostOps6 W main_v31 (ValueIdx.ix3 (⟨2048 * 6 + r.val, by omega⟩ : Fin 16384) 0 l) := by
  dsimp only [hostOps6]; open StableHlo in after_results_simp
  exact slice3_axis0_apply _ _ _ r 0 l _ (by show 2048 * 6 + r.val = _ + r.val; omega)

/-- The tile's head weights: the same rows of `main_v32`. -/
theorem w6_read (r : Fin 2048) (l : Fin 128) :
    StableHlo.after hostOps6 W main_v74 (ValueIdx.ix3 r 0 l)
      = StableHlo.after hostOps6 W main_v32 (ValueIdx.ix3 (⟨2048 * 6 + r.val, by omega⟩ : Fin 16384) 0 l) := by
  dsimp only [hostOps6]; open StableHlo in after_results_simp
  exact slice3_axis0_apply _ _ _ r 0 l _ (by show 2048 * 6 + r.val = _ + r.val; omega)

/-- The tile's head biases: the same rows of `main_v33`. -/
theorem b6_read (r : Fin 2048) :
    StableHlo.after hostOps6 W main_v75 (ValueIdx.ix3 r 0 0)
      = StableHlo.after hostOps6 W main_v33 (ValueIdx.ix3 (⟨2048 * 6 + r.val, by omega⟩ : Fin 16384) 0 0) := by
  dsimp only [hostOps6]; open StableHlo in after_results_simp
  exact slice3_axis0_apply _ _ _ r 0 0 _ (by show 2048 * 6 + r.val = _ + r.val; omega)

end Stretch

/-- Entry `j` of tile 6's prefetched table is the gathered row number of sample `2048 · 6 + j / 32`, feature `j % 32`. -/
theorem tbl6_apply (c : Dev nD) (j : Fin 65536) :
    V17 m outs c main_v72 (ValueIdx.ix1 j)
      = Spec.gidxOf (m ((c : Thread nD τ).loc main_arg0)) (m ((c : Thread nD τ).loc main_arg1))
          (m ((c : Thread nD τ).loc main_arg2))
          (ValueIdx.ix2 (⟨2048 * 6 + j.val / 32, by omega⟩ : Fin 16384) (⟨j.val % 32, by omega⟩ : Fin 32)) :=
  (tbl6_read (V16 m outs c) j).trans <| (congrFun (ent6_of m outs c main_v8 (by decide) (by decide) (by decide) (by decide) (by decide) (by decide) (by decide) (by decide) (by decide) (by decide) (by decide) (by decide)) _).trans <| congrFun (V5_gidx m c) _

/-- The embedding table as tile 6 sees it: row `ρ`, lane `l` of the argument. -/
theorem emb6_apply (c : Dev nD) (ρ : Fin 786432) (l : Fin 128) :
    V17 m outs c main_v34 (ValueIdx.ix3 ρ 0 l) = m ((c : Thread nD τ).loc main_arg3) (ValueIdx.ix2 ρ l) :=
  (congrFun (ent6_of m outs c main_v34 (by decide) (by decide) (by decide) (by decide) (by decide) (by decide) (by decide) (by decide) (by decide) (by decide) (by decide) (by decide)) _).trans <| V5_emb_apply m c ρ l

/-- Row `r` of tile 6's phase-bias operand is sample `2048 · 6 + r`'s phase-bias row. -/
theorem pa6_apply (c : Dev nD) (r : Fin 2048) (l : Fin 128) :
    V17 m outs c main_v73 (ValueIdx.ix3 r 0 l)
      = Spec.paSelOf (m ((c : Thread nD τ).loc main_arg1)) (m ((c : Thread nD τ).loc main_arg4))
          (ValueIdx.ix2 (⟨2048 * 6 + r.val, by omega⟩ : Fin 16384) l) :=
  (pa6_read (V16 m outs c) r l).trans <| (congrFun (ent6_of m outs c main_v31 (by decide) (by decide) (by decide) (by decide) (by decide) (by decide) (by decide) (by decide) (by decide) (by decide) (by decide) (by decide)) _).trans <| V5_pa_apply m c _ l

/-- Row `r` of tile 6's head-weight operand is sample `2048 · 6 + r`'s head weights. -/
theorem w6_apply (c : Dev nD) (r : Fin 2048) (l : Fin 128) :
    V17 m outs c main_v74 (ValueIdx.ix3 r 0 l)
      = Spec.wSelOf (m ((c : Thread nD τ).loc main_arg1)) (m ((c : Thread nD τ).loc main_arg5))
          (ValueIdx.ix2 (⟨2048 * 6 + r.val, by omega⟩ : Fin 16384) l) :=
  (w6_read (V16 m outs c) r l).trans <| (congrFun (ent6_of m outs c main_v32 (by decide) (by decide) (by decide) (by decide) (by decide) (by decide) (by decide) (by decide) (by decide) (by decide) (by decide) (by decide)) _).trans <| V5_w_apply m c _ l

/-- Entry `r` of tile 6's head-bias operand is sample `2048 · 6 + r`'s head bias. -/
theorem b6_apply (c : Dev nD) (r : Fin 2048) :
    V17 m outs c main_v75 (ValueIdx.ix3 r 0 0)
      = Spec.bSelOf (m ((c : Thread nD τ).loc main_arg1)) (m ((c : Thread nD τ).loc main_arg6))
          (ValueIdx.ix1 (⟨2048 * 6 + r.val, by omega⟩ : Fin 16384)) :=
  (b6_read (V16 m outs c) r).trans <| (congrFun (ent6_of m outs c main_v33 (by decide) (by decide) (by decide) (by decide) (by decide) (by decide) (by decide) (by decide) (by decide) (by decide) (by decide) (by decide)) _).trans <| V5_b_apply m c _

end Tile6

/-! ## Tile 7

Tile 7 (samples `2048 · 7 + r`, `r < 2048`) is entered at `V19 m outs c`: the stretch `hostOps7` cuts the
tile's rows out of the four host arrays (offset `2048 · 7` on the leading axis) and flattens the rows of gathered
indices into the tile's prefetched table, entry `j` of which is therefore row `j / 32`, feature `j % 32`. -/

section Tile7

/-- The arrays written before the first region are, at tile 7's entry, what they were at `V5 m c`: no region and no
    stretch in between writes them. -/
theorem ent7_of (c : Dev nD) (r : Ref sig .tc)
    (h6 : r ∉ ([main_v40] : List (Ref sig .tc))) (h7 : r ∉ hostOps1_W) (h8 : r ∉ ([main_v46] : List (Ref sig .tc)))
    (h9 : r ∉ hostOps2_W) (h10 : r ∉ ([main_v52] : List (Ref sig .tc))) (h11 : r ∉ hostOps3_W)
    (h12 : r ∉ ([main_v58] : List (Ref sig .tc))) (h13 : r ∉ hostOps4_W)
    (h14 : r ∉ ([main_v64] : List (Ref sig .tc))) (h15 : r ∉ hostOps5_W)
    (h16 : r ∉ ([main_v70] : List (Ref sig .tc))) (h17 : r ∉ hostOps6_W)
    (h18 : r ∉ ([main_v76] : List (Ref sig .tc))) (h19 : r ∉ hostOps7_W) :
    V19 m outs c r = V5 m c r :=
  (V19_of m outs c r h19).trans <|
    (V18_of m outs c r h18).trans <|
    (V17_of m outs c r h17).trans <|
    (V16_of m outs c r h16).trans <|
    (V15_of m outs c r h15).trans <|
    (V14_of m outs c r h14).trans <|
    (V13_of m outs c r h13).trans <|
    (V12_of m outs c r h12).trans <|
    (V11_of m outs c r h11).trans <|
    (V10_of m outs c r h10).trans <|
    (V9_of m outs c r h9).trans <|
    (V8_of m outs c r h8).trans <|
    (V7_of m outs c r h7).trans <|
    V6_of m outs c r h6

section Stretch
variable (W : Valuation τ sig (Elt F))

/-- The tile's table: the rows `[2048 · 7, 2048 · 7 + 2048)` of `main_v8`, flattened. -/
theorem tbl7_read (j : Fin 65536) :
    StableHlo.after hostOps7 W main_v78 (ValueIdx.ix1 j)
      = StableHlo.after hostOps7 W main_v8
          (ValueIdx.ix2 (⟨2048 * 7 + j.val / 32, by omega⟩ : Fin 16384) (⟨j.val % 32, by omega⟩ : Fin 32)) := by
  dsimp only [hostOps7]; open StableHlo in after_results_simp
  refine (shapeCast_ab_flat_apply _ _ j (⟨j.val / 32, by omega⟩ : Fin 2048) (⟨j.val % 32, by omega⟩ : Fin 32)
    (by show j.val = j.val / 32 * 32 + j.val % 32; omega)).trans ?_
  exact ValueIdx.slice2_axis0_apply _ _ _ _ _ _ (by show 2048 * 7 + j.val / 32 = _ + j.val / 32; omega)

/-- The tile's phase-bias rows: the rows `[2048 · 7, 2048 · 7 + 2048)` of `main_v31`. -/
theorem pa7_read (r : Fin 2048) (l : Fin 128) :
    StableHlo.after hostOps7 W main_v79 (ValueIdx.ix3 r 0 l)
      = StableHlo.after hostOps7 W main_v31 (ValueIdx.ix3 (⟨2048 * 7 + r.val, by omega⟩ : Fin 16384) 0 l) := by
  dsimp only [hostOps7]; open StableHlo in after_results_simp
  exact slice3_axis0_apply _ _ _ r 0 l _ (by show 2048 * 7 + r.val = _ + r.val; omega)

/-- The tile's head weights: the same rows of `main_v32`. -/
theorem w7_read (r : Fin 2048) (l : Fin 128) :
    StableHlo.after hostOps7 W main_v80 (ValueIdx.ix3 r 0 l)
      = StableHlo.after hostOps7 W main_v32 (ValueIdx.ix3 (⟨2048 * 7 + r.val, by omega⟩ : Fin 16384) 0 l) := by
  dsimp only [hostOps7]; open StableHlo in after_results_simp
  exact slice3_axis0_apply _ _ _ r 0 l _ (by show 2048 * 7 + r.val = _ + r.val; omega)

/-- The tile's head biases: the same rows of `main_v33`. -/
theorem b7_read (r : Fin 2048) :
    StableHlo.after hostOps7 W main_v81 (ValueIdx.ix3 r 0 0)
      = StableHlo.after hostOps7 W main_v33 (ValueIdx.ix3 (⟨2048 * 7 + r.val, by omega⟩ : Fin 16384) 0 0) := by
  dsimp only [hostOps7]; open StableHlo in after_results_simp
  exact slice3_axis0_apply _ _ _ r 0 0 _ (by show 2048 * 7 + r.val = _ + r.val; omega)

end Stretch

/-- Entry `j` of tile 7's prefetched table is the gathered row number of sample `2048 · 7 + j / 32`, feature `j % 32`. -/
theorem tbl7_apply (c : Dev nD) (j : Fin 65536) :
    V19 m outs c main_v78 (ValueIdx.ix1 j)
      = Spec.gidxOf (m ((c : Thread nD τ).loc main_arg0)) (m ((c : Thread nD τ).loc main_arg1))
          (m ((c : Thread nD τ).loc main_arg2))
          (ValueIdx.ix2 (⟨2048 * 7 + j.val / 32, by omega⟩ : Fin 16384) (⟨j.val % 32, by omega⟩ : Fin 32)) :=
  (tbl7_read (V18 m outs c) j).trans <| (congrFun (ent7_of m outs c main_v8 (by decide) (by decide) (by decide) (by decide) (by decide) (by decide) (by decide) (by decide) (by decide) (by decide) (by decide) (by decide) (by decide) (by decide)) _).trans <| congrFun (V5_gidx m c) _

/-- The embedding table as tile 7 sees it: row `ρ`, lane `l` of the argument. -/
theorem emb7_apply (c : Dev nD) (ρ : Fin 786432) (l : Fin 128) :
    V19 m outs c main_v34 (ValueIdx.ix3 ρ 0 l) = m ((c : Thread nD τ).loc main_arg3) (ValueIdx.ix2 ρ l) :=
  (congrFun (ent7_of m outs c main_v34 (by decide) (by decide) (by decide) (by decide) (by decide) (by decide) (by decide) (by decide) (by decide) (by decide) (by decide) (by decide) (by decide) (by decide)) _).trans <| V5_emb_apply m c ρ l

/-- Row `r` of tile 7's phase-bias operand is sample `2048 · 7 + r`'s phase-bias row. -/
theorem pa7_apply (c : Dev nD) (r : Fin 2048) (l : Fin 128) :
    V19 m outs c main_v79 (ValueIdx.ix3 r 0 l)
      = Spec.paSelOf (m ((c : Thread nD τ).loc main_arg1)) (m ((c : Thread nD τ).loc main_arg4))
          (ValueIdx.ix2 (⟨2048 * 7 + r.val, by omega⟩ : Fin 16384) l) :=
  (pa7_read (V18 m outs c) r l).trans <| (congrFun (ent7_of m outs c main_v31 (by decide) (by decide) (by decide) (by decide) (by decide) (by decide) (by decide) (by decide) (by decide) (by decide) (by decide) (by decide) (by decide) (by decide)) _).trans <| V5_pa_apply m c _ l

/-- Row `r` of tile 7's head-weight operand is sample `2048 · 7 + r`'s head weights. -/
theorem w7_apply (c : Dev nD) (r : Fin 2048) (l : Fin 128) :
    V19 m outs c main_v80 (ValueIdx.ix3 r 0 l)
      = Spec.wSelOf (m ((c : Thread nD τ).loc main_arg1)) (m ((c : Thread nD τ).loc main_arg5))
          (ValueIdx.ix2 (⟨2048 * 7 + r.val, by omega⟩ : Fin 16384) l) :=
  (w7_read (V18 m outs c) r l).trans <| (congrFun (ent7_of m outs c main_v32 (by decide) (by decide) (by decide) (by decide) (by decide) (by decide) (by decide) (by decide) (by decide) (by decide) (by decide) (by decide) (by decide) (by decide)) _).trans <| V5_w_apply m c _ l

/-- Entry `r` of tile 7's head-bias operand is sample `2048 · 7 + r`'s head bias. -/
theorem b7_apply (c : Dev nD) (r : Fin 2048) :
    V19 m outs c main_v81 (ValueIdx.ix3 r 0 0)
      = Spec.bSelOf (m ((c : Thread nD τ).loc main_arg1)) (m ((c : Thread nD τ).loc main_arg6))
          (ValueIdx.ix1 (⟨2048 * 7 + r.val, by omega⟩ : Fin 16384)) :=
  (b7_read (V18 m outs c) r).trans <| (congrFun (ent7_of m outs c main_v33 (by decide) (by decide) (by decide) (by decide) (by decide) (by decide) (by decide) (by decide) (by decide) (by decide) (by decide) (by decide) (by decide) (by decide)) _).trans <| V5_b_apply m c _

end Tile7

end Cert.Kernel.Hand
-- ==== Proof.TileLibBits.lean ====
/-
  Small facts shared by the eight tiles: indices built from equal coordinates are equal, and the launch contents read as
  what the kernel regions leave.
-/
import proofs.«402893_j78554951844377_2_alg».proof.Proof.Gen.Kernel.Regions
import Idealize.ShloMosaic.Lib.ValueIdx

noncomputable section

namespace Cert.Kernel.Hand

open Idealize.ShloMosaic Idealize.ShloMosaic.TcCoe
open Cert.Kernel Cert.Kernel.Gen

/-- Two rank-2 indices with the same coordinates are equal. -/
theorem ix2_congr {n0 n1 : ℕ} {a a' : Fin n0} {b b' : Fin n1} (ha : a.val = a'.val) (hb : b.val = b'.val) :
    ValueIdx.ix2 a b = ValueIdx.ix2 a' b' := by
  cases Fin.ext ha; cases Fin.ext hb; rfl

/-- Two rank-3 indices with the same leading coordinate (and the same two others) are equal. -/
theorem ix3_congr {n0 n1 n2 : ℕ} {a a' : Fin n0} (ha : a.val = a'.val) (u : Fin n1) (l : Fin n2) :
    ValueIdx.ix3 a u l = ValueIdx.ix3 a' u l := by
  cases Fin.ext ha; rfl

variable {F : FTy → Type} [FloatOps F]

/-- The launch contents read as a family of "what the kernel regions leave": every reference, at every item, holds what
    memory `m` held at launch. A tile's entry valuation can be stated at this family; that the host arrays the tile reads
    are the same at any family is not claimed here — it is what the lemmas reading those arrays prove, at every family. -/
abbrev outsL (m : (ℓ : Loc nD τ sig) → Buf (Elt F) ℓ) : Outs (F := F) :=
  fun _ r c => m ((c : Thread nD τ).loc r)

end Cert.Kernel.Hand

end
-- ==== Proof.R0OkBits.lean ====
/-
  Tile 0: the table the region reads, and the pipeline's side condition on it from the range fact.

  Region 0 is entered with the buffers at the valuation after the first five host stretches. Its prefetched table then
  holds, at flat position `32·i₀ + i₁`, the gathered row number of sample `2048·0 + i₀`, feature `i₁`. When every gathered
  row number is below 786432 (the range fact), every word of the table is, which is the side condition under which the
  pipeline is pinned at the table.
-/
import proofs.«402893_j78554951844377_2_alg».proof.Proof.Gen.Kernel.Regions
import proofs.«402893_j78554951844377_2_alg».proof.Proof.Spec
import proofs.«402893_j78554951844377_2_alg».proof.Proof.R0BaseBits
import proofs.«402893_j78554951844377_2_alg».proof.Proof.OkTablesBits
import proofs.«402893_j78554951844377_2_alg».proof.Proof.KHostBits
import proofs.«402893_j78554951844377_2_alg».proof.Proof.TileLibBits
import Idealize.ShloMosaic.Lib.ValueIdx

noncomputable section

namespace Cert.Kernel.Hand

open Idealize.ShloMosaic Idealize.ShloMosaic.TcCoe
open Cert.Kernel Cert.Kernel.Gen Idealize.ShloMosaic.ValueIdx

variable {F : FTy → Type} [FloatOps F]

/-- The buffers when region 0 is entered: the valuation after the first five host stretches. -/
abbrev V0in (m : (ℓ : Loc nD τ sig) → Buf (Elt F) ℓ) : (c : Dev nD) → (b : Ref sig .tc) → Buf (Elt F) ((c : Thread nD τ).loc b) :=
  fun c b => V5 m c b

variable (m : (ℓ : Loc nD τ sig) → Buf (Elt F) ℓ)

/-- The table word read at grid point `(i₀, i₁)` is the gathered row number of sample `2048·0 + i₀`, feature `i₁`: the
    word sits at flat position `32·i₀ + i₁`, whose quotient and remainder by 32 are `i₀` and `i₁`. -/
theorem tword0_V0in (c : Dev nD) (i : grid0.Coords) :
    tword0 (tbl0 (V0in m)) i
      = Spec.gidxOf (m ((c : Thread nD τ).loc main_arg0)) (m ((c : Thread nD τ).loc main_arg1)) (m ((c : Thread nD τ).loc main_arg2))
          (ValueIdx.ix2 (⟨2048 * 0 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V0in m 0 main_v36 (ValueIdx.ix1 ⟨32 * (i 0).val + (i 1).val, pos_lt0 i⟩) = _
  refine (tbl0_apply m 0 ⟨32 * (i 0).val + (i 1).val, pos_lt0 i⟩).trans ?_
  exact congrArg _ (ix2_congr (by show 2048 * 0 + (32 * (i 0).val + (i 1).val) / 32 = 2048 * 0 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok0_of_inRange (c : Dev nD)
    (hin : Spec.InRange (Spec.gidxOf (m ((c : Thread nD τ).loc main_arg0)) (m ((c : Thread nD τ).loc main_arg1)) (m ((c : Thread nD τ).loc main_arg2)))) :
    Ok0 (V0in m) :=
  ok0_of (tbl0 (V0in m)) fun i => by rw [tword0_V0in m c i]; exact hin _ _

end Cert.Kernel.Hand

end
-- ==== Proof.R0GridBits.lean ====
import proofs.«402893_j78554951844377_2_alg».proof.Proof.R0RunBits
import Idealize.ShloMosaic.Lib.Pipeline.Kit
import Mathlib.Data.Fin.VecNotation

noncomputable section

namespace Cert.Kernel.Hand

open Cert.Kernel Cert.Kernel.Gen
open Idealize.ShloMosaic
open Idealize.ShloMosaic.Pipeline (Cfg Window)

variable {F : FTy → Type} [FloatOps F]

/-! # Tile 0: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride0_0 : grid0.stride 0 = 32 := by decide
/-- The feature coordinate changes at every point. -/
theorem stride0_1 : grid0.stride 1 = 1 := by decide

/-- The sample coordinate of point `t` is `t / 32`: the quotient is below 2048, so reducing it modulo the
    axis's bound changes nothing. -/
theorem coords0_val0 (t : Fin grid0.N) : ((grid0.coords t) 0).val = t.val / 32 := by
  have ht : t.val < 65536 := N_0 ▸ t.isLt
  show t.val / grid0.stride 0 % 2048 = t.val / 32
  rw [stride0_0]; omega

/-- The feature coordinate of point `t` is `t % 32`. -/
theorem coords0_val1 (t : Fin grid0.N) : ((grid0.coords t) 1).val = t.val % 32 := by
  show t.val / grid0.stride 1 % 32 = t.val % 32
  rw [stride0_1, Nat.div_one]

/-- The first condition holds exactly at feature 0: checked at each of the 32 values of the coordinate. -/
theorem cond0_0_iff (i : grid0.Coords) : cond0_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond0_1_iff (i : grid0.Coords) : cond0_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond0_0_first (t : Fin grid0.N) (h : t.val = 0) : cond0_0 (grid0.coords t) := by
  rw [cond0_0_iff, coords0_val1, h]

/-- No feature is both the first and the last. -/
theorem not_both0 (i : grid0.Coords) : cond0_0 i → cond0_1 i → False := by
  rw [cond0_0_iff, cond0_1_iff]; omega

/-- A sample number, made a 32-bit word and read back, is itself. -/
private theorem toNat_ofNat_sample (t : Fin grid0.N) : (BitVec.ofNat 32 ((grid0.coords t) 0).val).toNat = t.val / 32 := by
  have ht : t.val < 65536 := N_0 ▸ t.isLt
  rw [coords0_val0, BitVec.toNat_ofNat, Nat.mod_eq_of_lt (by omega)]

/-- Window 1's block at point `t` is the one of sample `t / 32`. -/
theorem index0_1 (a : (pcfg0 (F := F)).Adm) (t : Fin (cfg0 a).N) : ((cfg0 a).win 1).index t = ![t.val / 32, 0, 0] := by
  show (![(BitVec.ofNat 32 ((grid0.coords t) 0).val).toNat, (0#32).toNat, (0#32).toNat] : Fin 3 → ℕ) = _
  rw [toNat_ofNat_sample]; rfl
/-- Window 2's block at point `t` is the one of sample `t / 32`. -/
theorem index0_2 (a : (pcfg0 (F := F)).Adm) (t : Fin (cfg0 a).N) : ((cfg0 a).win 2).index t = ![t.val / 32, 0, 0] := by
  show (![(BitVec.ofNat 32 ((grid0.coords t) 0).val).toNat, (0#32).toNat, (0#32).toNat] : Fin 3 → ℕ) = _
  rw [toNat_ofNat_sample]; rfl
/-- Window 3's block at point `t` is the one of sample `t / 32`. -/
theorem index0_3 (a : (pcfg0 (F := F)).Adm) (t : Fin (cfg0 a).N) : ((cfg0 a).win 3).index t = ![t.val / 32, 0, 0] := by
  show (![(BitVec.ofNat 32 ((grid0.coords t) 0).val).toNat, (0#32).toNat, (0#32).toNat] : Fin 3 → ℕ) = _
  rw [toNat_ofNat_sample]; rfl
/-- The output window's block at point `t` is the one of sample `t / 32`. -/
theorem index0_4 (a : (pcfg0 (F := F)).Adm) (t : Fin (cfg0 a).N) : ((cfg0 a).win 4).index t = ![t.val / 32, 0, 0] := by
  show (![(BitVec.ofNat 32 ((grid0.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush0_4_iff (a : (pcfg0 (F := F)).Adm) (t : Fin (cfg0 a).N) : ((cfg0 a).win 4).flush t = true ↔ t.val % 32 = 31 := by
  have hN : (cfg0 a).N = 65536 := N_0
  have ht : t.val < 65536 := hN ▸ t.isLt
  have hout : ((cfg0 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index0_4, index0_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg0 a).N := Nat.lt_of_lt_of_eq (by omega : t.val + 1 < 65536) hN.symm
      refine Or.inr ⟨hlt, ?_⟩
      rw [index0_4, index0_4]
      have hne' : (t.val + 1) / 32 ≠ t.val / 32 := by omega
      exact (vec3_ne_iff _ _).mpr hne'

/-- At a sample's last feature the output block is written back. -/
theorem flush0_4 (a : (pcfg0 (F := F)).Adm) (t : Fin (cfg0 a).N) (h : cond0_1 (grid0.coords t)) : ((cfg0 a).win 4).flush t = true := by
  rw [flush0_4_iff, ← coords0_val1]; exact (cond0_1_iff _).mp h

/-- At any other feature the output block stays. -/
theorem noFlush0_4 (a : (pcfg0 (F := F)).Adm) (t : Fin (cfg0 a).N) (h : ¬cond0_1 (grid0.coords t)) : ((cfg0 a).win 4).flush t = false := by
  rw [← Bool.not_eq_true, flush0_4_iff, ← coords0_val1]; exact fun e => h ((cond0_1_iff _).mpr e)

end Cert.Kernel.Hand

end
-- ==== Proof.R0AccBits.lean ====
import proofs.«402893_j78554951844377_2_alg».proof.Proof.Gen.Kernel.Launch
import proofs.«402893_j78554951844377_2_alg».proof.Proof.Gen.Kernel.Skeleton
import proofs.«402893_j78554951844377_2_alg».proof.Proof.R0BaseBits
import proofs.«402893_j78554951844377_2_alg».proof.Proof.R0GridBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 0: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow0 (hO : Ok0 V) (c : Dev nD) (t : Fin (cfgM0 V hO).N) : Vec F S1x1x128 .f32 := iblk0 V hO c 0 t
abbrev xpa0 (hO : Ok0 V) (c : Dev nD) (t : Fin (cfgM0 V hO).N) : Vec F S1x1x128 .f32 := iblk0 V hO c 1 t
abbrev xw0 (hO : Ok0 V) (c : Dev nD) (t : Fin (cfgM0 V hO).N) : Vec F S1x1x128 .f32 := iblk0 V hO c 2 t
abbrev xb0 (hO : Ok0 V) (c : Dev nD) (t : Fin (cfgM0 V hO).N) : Vec F S1x1x1 .f32 := iblk0 V hO c 3 t

/-- THE ACCUMULATION: the scratch after the body at position `n`. -/
def accAt0 (hO : Ok0 V) (c : Dev nD) : (n : ℕ) → n < (cfgM0 V hO).N → Vec F S1x1x128 .f32
  | 0, hn => k0_pay2 (k0_pay1 (F := F)) (xrow0 V hO c ⟨0, hn⟩)
  | n + 1, hn =>
    if cond0_0 (grid0.coords ⟨n + 1, hn⟩) then k0_pay2 (k0_pay1 (F := F)) (xrow0 V hO c ⟨n + 1, hn⟩)
    else k0_pay2 (accAt0 hO c n (Nat.lt_of_succ_lt hn)) (xrow0 V hO c ⟨n + 1, hn⟩)

/-- At a sample's first feature the scratch restarts from zero. -/
theorem accAt0_A (hO : Ok0 V) (c : Dev nD) (t : Fin (cfgM0 V hO).N) (h0 : cond0_0 (grid0.coords t)) :
    accAt0 V hO c t.val t.isLt = k0_pay2 (k0_pay1 (F := F)) (xrow0 V hO c t) := by
  obtain ⟨n, hn⟩ := t
  cases n with
  | zero => rfl
  | succ n => exact if_pos h0

/-- Elsewhere it adds the row to what the point before left. -/
theorem accAt0_B (hO : Ok0 V) (c : Dev nD) (t : Fin (cfgM0 V hO).N) (h0 : ¬cond0_0 (grid0.coords t)) (hz : t.val ≠ 0) :
    accAt0 V hO c t.val t.isLt = k0_pay2 (accAt0 V hO c (t.val - 1) (by omega)) (xrow0 V hO c t) := by
  obtain ⟨n, hn⟩ := t
  cases n with
  | zero => exact absurd rfl hz
  | succ n => exact if_neg h0

/-- The sample's result as the body computes it at a point (read at the last feature). -/
def outAt0 (hO : Ok0 V) (c : Dev nD) (t : Fin (cfgM0 V hO).N) : Vec F S1x1x1 .f32 :=
  k0_pay3 (accAt0 V hO c t.val t.isLt) (xpa0 V hO c t) (xw0 V hO c t) (xb0 V hO c t)

/-- What rides along unread: the other scoped buffers, the generator register, the table. -/
def Rest0 (c : Dev nD) : sProp 𝕄 :=
  iprop(Pipeline.scopedRestBut (Ix := Unit) (Name := ℕ) (U := UR sig nD τ) (Lvl := ℕ) (Val := Elt F) spec0 c [cc0_scratch0]
    ∗ (∃ r, prngReg c r) ∗ Pipeline.prefHeld (Ix := Unit) (Name := ℕ) (U := UR sig nD τ) (Lvl := ℕ) pre0 c (fun _ => fullShare) (tbl0 V))

/-- The region invariant before position `n`: the scratch at anything before the first point, afterwards at what
    the point before left. -/
def PhiS0 (hO : Ok0 V) (c : Dev nD) : (n : ℕ) → n ≤ (cfgM0 V hO).N → sProp 𝕄
  | 0, _ => iprop((∃ d, owns (c : Thread nD τ) scM0 fullShare d) ∗ Rest0 V c)
  | n + 1, hn => iprop(owns (c : Thread nD τ) scM0 fullShare (accAt0 V hO c n hn) ∗ Rest0 V c)

theorem PhiS0_zero (hO : Ok0 V) (c : Dev nD) (n : ℕ) (h : n ≤ (cfgM0 V hO).N) (hz : n = 0) :
    PhiS0 V hO c n h = iprop((∃ d, owns (c : Thread nD τ) scM0 fullShare d) ∗ Rest0 V c) := by
  subst hz; rfl
theorem PhiS0_succ (hO : Ok0 V) (c : Dev nD) (n : ℕ) (hn : n < (cfgM0 V hO).N) :
    PhiS0 V hO c (n + 1) hn = iprop(owns (c : Thread nD τ) scM0 fullShare (accAt0 V hO c n hn) ∗ Rest0 V c) := rfl
theorem PhiS0_pos (hO : Ok0 V) (c : Dev nD) (n : ℕ) (h : n ≤ (cfgM0 V hO).N) (hz : n ≠ 0) :
    PhiS0 V hO c n h = iprop(owns (c : Thread nD τ) scM0 fullShare (accAt0 V hO c (n - 1) (by omega)) ∗ Rest0 V c) := by
  cases n with
  | zero => exact absurd rfl hz
  | succ n => rfl

/-- The proof data of the tile's pipeline on core `c`: the arrays as the region finds them; after the body each input's
    buffer at its block and the result's at `outAt0`; the invariant `PhiS0`; nothing owed; full shares. -/
def dat0 (hO : Ok0 V) (c : Dev nD) : Dat τ (Elt F) Unit ℕ (UR sig nD τ) ℕ (cfgM0 V hO) c where
  A w := V c (Pipeline.arrRef spec0 w)
  after w t := match w with
    | ⟨0, _⟩ => iblk0 V hO c 0 t
    | ⟨1, _⟩ => iblk0 V hO c 1 t
    | ⟨2, _⟩ => iblk0 V hO c 2 t
    | ⟨3, _⟩ => iblk0 V hO c 3 t
    | ⟨4, _⟩ => outAt0 V hO c t
  Φ t := PhiS0 V hO c t.val (Nat.le_of_lt_succ t.isLt)
  q _ := fullShare
  owed _ := 0

theorem A_eq0 (hO : Ok0 V) (c : Dev nD) (w : Fin (cfgM0 V hO).W) : (dat0 V hO c).A w = V c (Pipeline.arrRef spec0 w) := by
  dsimp only [dat0]
theorem PhiS0_castSucc (hO : Ok0 V) (c : Dev nD) (t : Fin (cfgM0 V hO).N) :
    (dat0 V hO c).Φ t.castSucc = PhiS0 V hO c t.val (Nat.le_of_lt t.isLt) := by
  dsimp only [dat0]; simp only [Fin.coe_castSucc]
theorem after0_0 (hO : Ok0 V) (c : Dev nD) (t : Fin (cfgM0 V hO).N) : (dat0 V hO c).after 0 t = iblk0 V hO c 0 t := by dsimp only [dat0]; try rfl
theorem after0_1 (hO : Ok0 V) (c : Dev nD) (t : Fin (cfgM0 V hO).N) : (dat0 V hO c).after 1 t = iblk0 V hO c 1 t := by dsimp only [dat0]; try rfl
theorem after0_2 (hO : Ok0 V) (c : Dev nD) (t : Fin (cfgM0 V hO).N) : (dat0 V hO c).after 2 t = iblk0 V hO c 2 t := by dsimp only [dat0]; try rfl
theorem after0_3 (hO : Ok0 V) (c : Dev nD) (t : Fin (cfgM0 V hO).N) : (dat0 V hO c).after 3 t = iblk0 V hO c 3 t := by dsimp only [dat0]; try rfl
theorem after0_4 (hO : Ok0 V) (c : Dev nD) (t : Fin (cfgM0 V hO).N) : (dat0 V hO c).after 4 t = outAt0 V hO c t := by dsimp only [dat0]; try rfl

theorem before0_0 (hO : Ok0 V) (c : Dev nD) (t : Fin (cfgM0 V hO).N) (d) : (dat0 V hO c).before 0 t d = iblk0 V hO c 0 t :=
  before0_0_of V hO (dat0 V hO c) (A_eq0 V hO c 0) (after0_0 V hO c) t d
theorem before0_1 (hO : Ok0 V) (c : Dev nD) (t : Fin (cfgM0 V hO).N) (d) : (dat0 V hO c).before 1 t d = iblk0 V hO c 1 t :=
  before0_1_of V hO (dat0 V hO c) (A_eq0 V hO c 1) (after0_1 V hO c) t d
theorem before0_2 (hO : Ok0 V) (c : Dev nD) (t : Fin (cfgM0 V hO).N) (d) : (dat0 V hO c).before 2 t d = iblk0 V hO c 2 t :=
  before0_2_of V hO (dat0 V hO c) (A_eq0 V hO c 2) (after0_2 V hO c) t d
theorem before0_3 (hO : Ok0 V) (c : Dev nD) (t : Fin (cfgM0 V hO).N) (d) : (dat0 V hO c).before 3 t d = iblk0 V hO c 3 t :=
  before0_3_of V hO (dat0 V hO c) (A_eq0 V hO c 3) (after0_3 V hO c) t d

/-- What the body is called with at point `t`, the windows one by one, -/
def bodyPre0 (hO : Ok0 V) (c : Dev nD) (t : Fin (cfgM0 V hO).N) : sProp 𝕄 :=
  iprop((dat0 V hO c).Φ t.castSucc ∗ (dat0 V hO c).owesAt () t.castSucc
    ∗ (∃ d, owns (c : Thread nD τ) (ms0_0 V hO t) fullShare ((dat0 V hO c).before 0 t d))
    ∗ (∃ d, owns (c : Thread nD τ) (ms0_1 V hO t) fullShare ((dat0 V hO c).before 1 t d))
    ∗ (∃ d, owns (c : Thread nD τ) (ms0_2 V hO t) fullShare ((dat0 V hO c).before 2 t d))
    ∗ (∃ d, owns (c : Thread nD τ) (ms0_3 V hO t) fullShare ((dat0 V hO c).before 3 t d))
    ∗ (∃ d, owns (c : Thread nD τ) (ms0_4 V hO t) fullShare ((dat0 V hO c).before 4 t d)))

/-- and what it returns. -/
def bodyPost0 (hO : Ok0 V) (c : Dev nD) (t : Fin (cfgM0 V hO).N) : sProp 𝕄 :=
  iprop((dat0 V hO c).Φ t.succ ∗ (dat0 V hO c).owesAt () t.succ
    ∗ (dat0 V hO c).leavesExact 0 t
    ∗ (dat0 V hO c).leavesExact 1 t
    ∗ (dat0 V hO c).leavesExact 2 t
    ∗ (dat0 V hO c).leavesExact 3 t
    ∗ (dat0 V hO c).leavesExact 4 t)

/-- The windows' idle flags at a point, stated at the pinned configuration. -/
theorem liveAtM0_0 (hO : Ok0 V) (t : Fin (cfgM0 V hO).N) : (cfgM0 V hO).idle 0 ((cfgM0 V hO).grid.coords t) = false := rfl
theorem liveAtM0_1 (hO : Ok0 V) (t : Fin (cfgM0 V hO).N) : (cfgM0 V hO).idle 1 ((cfgM0 V hO).grid.coords t) = false := rfl
theorem liveAtM0_2 (hO : Ok0 V) (t : Fin (cfgM0 V hO).N) : (cfgM0 V hO).idle 2 ((cfgM0 V hO).grid.coords t) = false := rfl
theorem liveAtM0_3 (hO : Ok0 V) (t : Fin (cfgM0 V hO).N) : (cfgM0 V hO).idle 3 ((cfgM0 V hO).grid.coords t) = false := rfl
theorem idleAtM0_4 (hO : Ok0 V) (t : Fin (cfgM0 V hO).N) (h : ¬cond0_1 (grid0.coords t)) :
    (cfgM0 V hO).idle 4 ((cfgM0 V hO).grid.coords t) = true := idleAt0_4 (adm0 V hO) (grid0.coords t) h
theorem liveAtM0_4 (hO : Ok0 V) (t : Fin (cfgM0 V hO).N) (h : cond0_1 (grid0.coords t)) :
    (cfgM0 V hO).idle 4 ((cfgM0 V hO).grid.coords t) = false := liveAt0_4 (adm0 V hO) (grid0.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body0 (hO : Ok0 V) (c : Dev nD) (t : Fin (cfgM0 V hO).N) :
    bodyPre0 V hO c t ⊢ wp frame (wpE (defs₀ (F := F)) Variants.none c none) Set.univ (bodyAt0 (adm0 V hO) t) (fun _ => bodyPost0 V hO c t) := by
  unfold bodyPre0 bodyPost0 bodyAt0
  simp only [before0_0, before0_1, before0_2, before0_3]
  rw [show (dat0 V hO c).owesAt () t.succ = (dat0 V hO c).owesAt () t.castSucc from rfl]
  rw [show (dat0 V hO c).Φ t.succ = PhiS0 V hO c (t.val + 1) t.isLt from rfl, PhiS0_succ]
  rw [show (dat0 V hO c).leavesExact 0 t = owns (c : Thread nD τ) (ms0_0 V hO t) fullShare ((dat0 V hO c).after 0 t) from by
    unfold Dat.leavesExact; rw [liveAtM0_0 V hO t]; try rfl]
  rw [after0_0]
  rw [show (dat0 V hO c).leavesExact 1 t = owns (c : Thread nD τ) (ms0_1 V hO t) fullShare ((dat0 V hO c).after 1 t) from by
    unfold Dat.leavesExact; rw [liveAtM0_1 V hO t]; try rfl]
  rw [after0_1]
  rw [show (dat0 V hO c).leavesExact 2 t = owns (c : Thread nD τ) (ms0_2 V hO t) fullShare ((dat0 V hO c).after 2 t) from by
    unfold Dat.leavesExact; rw [liveAtM0_2 V hO t]; try rfl]
  rw [after0_2]
  rw [show (dat0 V hO c).leavesExact 3 t = owns (c : Thread nD τ) (ms0_3 V hO t) fullShare ((dat0 V hO c).after 3 t) from by
    unfold Dat.leavesExact; rw [liveAtM0_3 V hO t]; try rfl]
  rw [after0_3]
  rw [PhiS0_castSucc]
  by_cases h0 : cond0_0 (grid0.coords t)
  · by_cases h1 : cond0_1 (grid0.coords t)
    · exact absurd h1 (fun h => not_both0 _ h0 h)
    · rw [Dat.leavesExact_idle (dat0 V hO c) 4 t (idleAtM0_4 V hO t h1) (noFlush0_4 (adm0 V hO) t h1)]
      rw [accAt0_A V hO c t h0]
      by_cases hz : t.val = 0
      · rw [PhiS0_zero V hO c _ _ hz]
        iintro ⟨⟨HS, HR⟩, Ho, ⟨%d0, H0⟩, ⟨%d1, H1⟩, ⟨%d2, H2⟩, ⟨%d3, H3⟩, ⟨%d4, H4⟩⟩
        iapply (run0_A c (grid0.coords t) _ _ _ _ _ _ _ _ _ _ _ _ _ _ h0 h1 (xrow0 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS0_pos V hO c _ _ hz]
        iintro ⟨⟨HS, HR⟩, Ho, ⟨%d0, H0⟩, ⟨%d1, H1⟩, ⟨%d2, H2⟩, ⟨%d3, H3⟩, ⟨%d4, H4⟩⟩
        iapply (run0_A c (grid0.coords t) _ _ _ _ _ _ _ _ _ _ _ _ _ _ h0 h1 (xrow0 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond0_0_first t hz)
    rw [PhiS0_pos V hO c _ _ hz, accAt0_B V hO c t h0 hz]
    by_cases h1 : cond0_1 (grid0.coords t)
    · rw [show (dat0 V hO c).leavesExact 4 t = owns (c : Thread nD τ) (ms0_4 V hO t) fullShare ((dat0 V hO c).after 4 t) from by
        unfold Dat.leavesExact; rw [liveAtM0_4 V hO t h1]; try rfl]
      rw [after0_4]
      unfold outAt0
      rw [accAt0_B V hO c t h0 hz]
      iintro ⟨⟨HS, HR⟩, Ho, ⟨%d0, H0⟩, ⟨%d1, H1⟩, ⟨%d2, H2⟩, ⟨%d3, H3⟩, ⟨%d4, H4⟩⟩
      iapply (run0_C c (grid0.coords t) _ _ _ _ _ _ _ _ _ _ _ _ _ _ h0 h1 (xrow0 V hO c t) (xpa0 V hO c t) (xw0 V hO c t) (xb0 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat0 V hO c) 4 t (idleAtM0_4 V hO t h1) (noFlush0_4 (adm0 V hO) t h1)]
      iintro ⟨⟨HS, HR⟩, Ho, ⟨%d0, H0⟩, ⟨%d1, H1⟩, ⟨%d2, H2⟩, ⟨%d3, H3⟩, ⟨%d4, H4⟩⟩
      iapply (run0_B c (grid0.coords t) _ _ _ _ _ _ _ _ _ _ _ _ _ _ h0 h1 (xrow0 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (hO : Ok0 V) (c : Dev nD) :
    BodyObligation (dat0 (F := F) V hO c) (defs₀ (F := F)) Variants.none () Set.univ := fun t => by
  rw [bigSep_W0, bigSep_W0]
  exact sound_body0 V hO c t

end Cert.Kernel.Hand

end
-- ==== Proof.R0ValBits.lean ====
import proofs.«402893_j78554951844377_2_alg».proof.Proof.R0AccBits
import proofs.«402893_j78554951844377_2_alg».proof.Proof.R0GridBits
import proofs.«402893_j78554951844377_2_alg».proof.Proof.OkTablesBits
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 0: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt0 (t : Fin grid0.N) : t.val / 32 < 2048 := by
  have ht : t.val < 65536 := N_0 ▸ t.isLt
  omega

/-- The last feature of sample `r` is a point of the grid. -/
theorem lastPt_lt0 (r : ℕ) (hr : r < 2048) : 32 * r + 31 < grid0.N := by rw [N_0]; omega

/-- Under the side condition every word the index map of window 0 reads names a row of the embedding table. -/
theorem tword0_lt (pf : pre0.Contents (Elt F)) (h : ok0 pf) (i : grid0.Coords) : (tword0 pf i).toNat < 786432 := by
  obtain ⟨hb, -⟩ := h i
  have h0 := hb 0
  rw [transform0_eq pf i] at h0
  have h0' : ((tword0 pf i).toNat + 1) * 1 ≤ 786432 := h0
  omega

/-- Window 0's block at point `t` is the row the table's word names. -/
theorem index0_0 (a : (pcfg0 (F := F)).Adm) (t : Fin (cfg0 a).N) :
    ((cfg0 a).win 0).index t = ![(tword0 a.1 (grid0.coords t)).toNat, 0, 0] :=
  transform0_eq a.1 (grid0.coords t)

/-- Lane `l` of window 0's block sits in the embedding table at (the named row, 0, l). -/
theorem emb0_0 (a : (pcfg0 (F := F)).Adm) (t : Fin (cfg0 a).N) (l : Fin 128) :
    (((cfg0 a).win 0).blk t).view.emb (ValueIdx.ix3 (0 : Fin 1) (0 : Fin 1) l)
      = ValueIdx.ix3 (⟨(tword0 a.1 (grid0.coords t)).toNat, tword0_lt a.1 a.2 (grid0.coords t)⟩ : Fin 786432) (0 : Fin 1) l := by
  funext d; apply Fin.ext
  match d with
  | ⟨0, _⟩ => show ((cfg0 a).win 0).index t (0 : Fin 3) * 1 + 1 * 0 = (tword0 a.1 (grid0.coords t)).toNat; rw [index0_0]; show (tword0 a.1 (grid0.coords t)).toNat * 1 + 1 * 0 = _; omega
  | ⟨1, _⟩ => show ((cfg0 a).win 0).index t (1 : Fin 3) * 1 + 1 * 0 = 0; rw [index0_0]; rfl
  | ⟨2, _⟩ => show ((cfg0 a).win 0).index t (2 : Fin 3) * 128 + 1 * l.val = l.val; rw [index0_0]; show 0 * 128 + 1 * l.val = l.val; omega

/-- Lane `l` of window 1's block sits in its array at (sample, 0, l). -/
theorem emb0_1 (a : (pcfg0 (F := F)).Adm) (t : Fin (cfg0 a).N) (l : Fin 128) :
    (((cfg0 a).win 1).blk t).view.emb (ValueIdx.ix3 (0 : Fin 1) (0 : Fin 1) l)
      = ValueIdx.ix3 (⟨t.val / 32, sample_lt0 t⟩ : Fin 2048) (0 : Fin 1) l := by
  funext d; apply Fin.ext
  match d with
  | ⟨0, _⟩ => show ((cfg0 a).win 1).index t (0 : Fin 3) * 1 + 1 * 0 = t.val / 32; rw [index0_1]; show t.val / 32 * 1 + 1 * 0 = _; omega
  | ⟨1, _⟩ => show ((cfg0 a).win 1).index t (1 : Fin 3) * 1 + 1 * 0 = 0; rw [index0_1]; rfl
  | ⟨2, _⟩ => show ((cfg0 a).win 1).index t (2 : Fin 3) * 128 + 1 * l.val = l.val; rw [index0_1]; show 0 * 128 + 1 * l.val = l.val; omega

/-- Lane `l` of window 2's block sits in its array at (sample, 0, l). -/
theorem emb0_2 (a : (pcfg0 (F := F)).Adm) (t : Fin (cfg0 a).N) (l : Fin 128) :
    (((cfg0 a).win 2).blk t).view.emb (ValueIdx.ix3 (0 : Fin 1) (0 : Fin 1) l)
      = ValueIdx.ix3 (⟨t.val / 32, sample_lt0 t⟩ : Fin 2048) (0 : Fin 1) l := by
  funext d; apply Fin.ext
  match d with
  | ⟨0, _⟩ => show ((cfg0 a).win 2).index t (0 : Fin 3) * 1 + 1 * 0 = t.val / 32; rw [index0_2]; show t.val / 32 * 1 + 1 * 0 = _; omega
  | ⟨1, _⟩ => show ((cfg0 a).win 2).index t (1 : Fin 3) * 1 + 1 * 0 = 0; rw [index0_2]; rfl
  | ⟨2, _⟩ => show ((cfg0 a).win 2).index t (2 : Fin 3) * 128 + 1 * l.val = l.val; rw [index0_2]; show 0 * 128 + 1 * l.val = l.val; omega

/-- The one element of window 3's block sits in its array at (sample, 0, 0). -/
theorem emb0_3 (a : (pcfg0 (F := F)).Adm) (t : Fin (cfg0 a).N) :
    (((cfg0 a).win 3).blk t).view.emb (ValueIdx.ix3 (0 : Fin 1) (0 : Fin 1) (0 : Fin 1))
      = ValueIdx.ix3 (⟨t.val / 32, sample_lt0 t⟩ : Fin 2048) (0 : Fin 1) (0 : Fin 1) := by
  funext d; apply Fin.ext
  match d with
  | ⟨0, _⟩ => show ((cfg0 a).win 3).index t (0 : Fin 3) * 1 + 1 * 0 = t.val / 32; rw [index0_3]; show t.val / 32 * 1 + 1 * 0 = _; omega
  | ⟨1, _⟩ => show ((cfg0 a).win 3).index t (1 : Fin 3) * 1 + 1 * 0 = 0; rw [index0_3]; rfl
  | ⟨2, _⟩ => show ((cfg0 a).win 3).index t (2 : Fin 3) * 1 + 1 * 0 = 0; rw [index0_3]; rfl

/-- The one element of the result window's block sits in the result array at (sample, 0, 0). -/
theorem emb0_4 (a : (pcfg0 (F := F)).Adm) (t : Fin (cfg0 a).N) :
    (((cfg0 a).win 4).blk t).view.emb (ValueIdx.ix3 (0 : Fin 1) (0 : Fin 1) (0 : Fin 1))
      = ValueIdx.ix3 (⟨t.val / 32, sample_lt0 t⟩ : Fin 2048) (0 : Fin 1) (0 : Fin 1) := by
  funext d; apply Fin.ext
  match d with
  | ⟨0, _⟩ => show ((cfg0 a).win 4).index t (0 : Fin 3) * 1 + 1 * 0 = t.val / 32; rw [index0_4]; show t.val / 32 * 1 + 1 * 0 = _; omega
  | ⟨1, _⟩ => show ((cfg0 a).win 4).index t (1 : Fin 3) * 1 + 1 * 0 = 0; rw [index0_4]; rfl
  | ⟨2, _⟩ => show ((cfg0 a).win 4).index t (2 : Fin 3) * 1 + 1 * 0 = 0; rw [index0_4]; rfl

section AtTable

variable (V : (c : Dev nD) → (b : Ref sig .tc) → Buf (Elt F) ((c : Thread nD τ).loc b))

/-! ## The input blocks at coordinates -/

/-- The row of the embedding table gathered at point `t`: the table's word there. -/
abbrev rho0 (t : Fin grid0.N) : ℕ := (tword0 (tbl0 V) (grid0.coords t)).toNat

/-- It is a row of the table, under the side condition. -/
theorem rho0_lt (hO : Ok0 V) (t : Fin grid0.N) : rho0 V t < 786432 := tword0_lt (tbl0 V) hO (grid0.coords t)

/-- Lane `l` of the gathered row at point `t` is the embedding table at (the named row, 0, l). -/
theorem xrow0_apply (hO : Ok0 V) (c : Dev nD) (t : Fin (cfgM0 V hO).N) (l : Fin 128) :
    xrow0 V hO c t (ValueIdx.ix3 (0 : Fin 1) (0 : Fin 1) l)
      = V c main_v34 (ValueIdx.ix3 (⟨rho0 V t, rho0_lt V hO t⟩ : Fin 786432) (0 : Fin 1) l) := by
  show V c main_v34 ((((cfgM0 V hO).win 0).blk t).view.emb (ValueIdx.ix3 (0 : Fin 1) (0 : Fin 1) l)) = _
  exact congrArg (V c main_v34) (emb0_0 (adm0 V hO) t l)

/-- Lane `l` of the phase-bias block at point `t` is its array at (sample, 0, l). -/
theorem xpa0_apply (hO : Ok0 V) (c : Dev nD) (t : Fin (cfgM0 V hO).N) (l : Fin 128) :
    xpa0 V hO c t (ValueIdx.ix3 (0 : Fin 1) (0 : Fin 1) l)
      = V c main_v37 (ValueIdx.ix3 (⟨t.val / 32, sample_lt0 t⟩ : Fin 2048) (0 : Fin 1) l) := by
  show V c main_v37 ((((cfgM0 V hO).win 1).blk t).view.emb (ValueIdx.ix3 (0 : Fin 1) (0 : Fin 1) l)) = _
  exact congrArg (V c main_v37) (emb0_1 (adm0 V hO) t l)

/-- Lane `l` of the head-weight block at point `t` is its array at (sample, 0, l). -/
theorem xw0_apply (hO : Ok0 V) (c : Dev nD) (t : Fin (cfgM0 V hO).N) (l : Fin 128) :
    xw0 V hO c t (ValueIdx.ix3 (0 : Fin 1) (0 : Fin 1) l)
      = V c main_v38 (ValueIdx.ix3 (⟨t.val / 32, sample_lt0 t⟩ : Fin 2048) (0 : Fin 1) l) := by
  show V c main_v38 ((((cfgM0 V hO).win 2).blk t).view.emb (ValueIdx.ix3 (0 : Fin 1) (0 : Fin 1) l)) = _
  exact congrArg (V c main_v38) (emb0_2 (adm0 V hO) t l)

/-- The head-bias block at point `t` is its array at (sample, 0, 0). -/
theorem xb0_apply (hO : Ok0 V) (c : Dev nD) (t : Fin (cfgM0 V hO).N) :
    xb0 V hO c t (ValueIdx.ix3 (0 : Fin 1) (0 : Fin 1) (0 : Fin 1))
      = V c main_v39 (ValueIdx.ix3 (⟨t.val / 32, sample_lt0 t⟩ : Fin 2048) (0 : Fin 1) (0 : Fin 1)) := by
  show V c main_v39 ((((cfgM0 V hO).win 3).blk t).view.emb (ValueIdx.ix3 (0 : Fin 1) (0 : Fin 1) (0 : Fin 1))) = _
  exact congrArg (V c main_v39) (emb0_3 (adm0 V hO) t)

/-! ## The arrays after the run -/

/-- An input's array is never written: it ends as the region found it. -/
theorem arrAt0_in (hO : Ok0 V) (c : Dev nD) (w : Fin 5) (hw : w ≠ 4) :
    (dat0 V hO c).arrAt w (cfgM0 V hO).N = V c (Pipeline.arrRef spec0 w) := by
  have hin : ((cfgM0 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat0 V hO c).arrAt_in w hin _).trans (A_eq0 V hO c w)

/-- THE RESULT ARRAY of the tile: row `r` holds what the body left in the result block at sample `r`'s last feature. -/
def tileRes0 (hO : Ok0 V) (c : Dev nD) : Buf (Elt F) ((c : Thread nD τ).loc main_v40) :=
  fun (i : S2048x1x1.Idx) => outAt0 V hO c ⟨32 * (i 0).val + 31, lastPt_lt0 (i 0).val (i 0).isLt⟩ (ValueIdx.ix3 (0 : Fin 1) (0 : Fin 1) (0 : Fin 1))

theorem tileRes0_apply (hO : Ok0 V) (c : Dev nD) (r : Fin 2048) :
    tileRes0 V hO c (ValueIdx.ix3 r (0 : Fin 1) (0 : Fin 1))
      = outAt0 V hO c ⟨32 * r.val + 31, lastPt_lt0 r.val r.isLt⟩ (ValueIdx.ix3 (0 : Fin 1) (0 : Fin 1) (0 : Fin 1)) := rfl

/-- The result block read at two names of one point. -/
theorem outAt0_congr (hO : Ok0 V) (c : Dev nD) {t t' : Fin (cfgM0 V hO).N} (h : t.val = t'.val) (j : S1x1x1.Idx) :
    outAt0 V hO c t j = outAt0 V hO c t' j := by
  obtain rfl : t = t' := Fin.ext h
  rfl

/-- What a write-back writes is the written row of `tileRes0`: the point is its sample's last feature `32 (t / 32) + 31`,
    and the block's one element is the row's. -/
theorem flushed0_4_eq (hO : Ok0 V) (c : Dev nD) (t : Fin (cfgM0 V hO).N) (hf : ((cfgM0 V hO).win 4).flush t = true) :
    (dat0 V hO c).flushed 4 t = (((cfgM0 V hO).win 4).blk t).view.read (Elt F) (tileRes0 V hO c) := by
  have h31 : t.val % 32 = 31 := (flush0_4_iff (adm0 V hO) t).mp hf
  show ((cfgM0 V hO).win 4).cut (grid0.coords t) ((dat0 V hO c).after 4 t) = _
  rw [after0_4]
  funext j
  have hj : (((cfgM0 V hO).win 4).xinj (grid0.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM0 V hO).win 4).blk t).view.emb j : S2048x1x1.Idx) (0 : Fin 3)).val + 31 := by
    have h : (j (0 : Fin 3)).val < 1 := (j (0 : Fin 3)).isLt
    show t.val = 32 * (((cfgM0 V hO).win 4).index t (0 : Fin 3) * 1 + 1 * (j (0 : Fin 3)).val) + 31
    rw [index0_4]
    show t.val = 32 * (t.val / 32 * 1 + 1 * (j (0 : Fin 3)).val) + 31
    omega
  show outAt0 V hO c t (((cfgM0 V hO).win 4).xinj (grid0.coords t) j) = tileRes0 V hO c ((((cfgM0 V hO).win 4).blk t).view.emb j)
  rw [hj]
  exact outAt0_congr V hO c hv _

/-- Every row of the result array is some write-back's block: row `r` is the block of point `32 r + 31`. -/
theorem cover0_4 (hO : Ok0 V) (i : S2048x1x1.Idx) :
    ∃ t : Fin (cfgM0 V hO).N, ((cfgM0 V hO).win 4).flush t = true ∧ i ∈ (((cfgM0 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt0 _ h0⟩, (flush0_4_iff (adm0 V hO) _).mpr (by show (32 * (i 0).val + 31) % 32 = 31; omega), ?_⟩
  have he : (((cfgM0 V hO).win 4).blk ⟨32 * (i 0).val + 31, lastPt_lt0 _ h0⟩).view.emb (ValueIdx.ix3 (0 : Fin 1) (0 : Fin 1) (0 : Fin 1)) = i := by
    refine (emb0_4 (adm0 V hO) ⟨32 * (i 0).val + 31, lastPt_lt0 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM0 V hO).win 4).blk ⟨32 * (i 0).val + 31, lastPt_lt0 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes0`. -/
theorem arrAt0_4 (hO : Ok0 V) (c : Dev nD) : (dat0 V hO c).arrAt 4 (cfgM0 V hO).N = tileRes0 V hO c :=
  (dat0 V hO c).arrAt_eq_of_cover 4 (tileRes0 V hO c) (fun t hf => flushed0_4_eq V hO c t hf) (fun i => cover0_4 V hO i)

end AtTable

end Cert.Kernel.Hand

end
-- ==== Proof.FamilyBits.lean ====
/-
  The two families the several-region records are stated over, assembled from their eight components, for the
  word-level program: each a match on the pipeline number's literal, so that at a numeral the family IS its component by
  unfolding.
-/
import proofs.«402893_j78554951844377_2_alg».proof.Proof.Gen.Kernel.Launch
import Idealize.ShloMosaic.Lib.Pipeline.Regions

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]

/-- The family of admissible table contents with the given eight components. -/
def admOf (a0 : (pcfg0 (F := F)).Adm) (a1 : (pcfg1 (F := F)).Adm) (a2 : (pcfg2 (F := F)).Adm) (a3 : (pcfg3 (F := F)).Adm) (a4 : (pcfg4 (F := F)).Adm) (a5 : (pcfg5 (F := F)).Adm) (a6 : (pcfg6 (F := F)).Adm) (a7 : (pcfg7 (F := F)).Adm) :
    (p : Fin 8) → (pcfgs (F := F) p).Adm
  | ⟨0, _⟩ => a0
  | ⟨1, _⟩ => a1
  | ⟨2, _⟩ => a2
  | ⟨3, _⟩ => a3
  | ⟨4, _⟩ => a4
  | ⟨5, _⟩ => a5
  | ⟨6, _⟩ => a6
  | ⟨7, _⟩ => a7

/-- The family of proof data with the given eight components, each over its printed configuration at its contents. -/
def pdatsOf (a0 : (pcfg0 (F := F)).Adm) (a1 : (pcfg1 (F := F)).Adm) (a2 : (pcfg2 (F := F)).Adm) (a3 : (pcfg3 (F := F)).Adm) (a4 : (pcfg4 (F := F)).Adm) (a5 : (pcfg5 (F := F)).Adm) (a6 : (pcfg6 (F := F)).Adm) (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    (p : Fin 8) → (c : Dev nD) → Dat τ (Elt F) Unit ℕ (UR sig nD τ) ℕ (Pipeline.pin (pcfgs (F := F)) (admOf a0 a1 a2 a3 a4 a5 a6 a7) p) c
  | ⟨0, _⟩ => d0
  | ⟨1, _⟩ => d1
  | ⟨2, _⟩ => d2
  | ⟨3, _⟩ => d3
  | ⟨4, _⟩ => d4
  | ⟨5, _⟩ => d5
  | ⟨6, _⟩ => d6
  | ⟨7, _⟩ => d7

/-! ## At a numeral a family is its component -/

section
variable (a0 : (pcfg0 (F := F)).Adm) (a1 : (pcfg1 (F := F)).Adm) (a2 : (pcfg2 (F := F)).Adm) (a3 : (pcfg3 (F := F)).Adm) (a4 : (pcfg4 (F := F)).Adm) (a5 : (pcfg5 (F := F)).Adm) (a6 : (pcfg6 (F := F)).Adm) (a7 : (pcfg7 (F := F)).Adm)

theorem admOf_0 : admOf a0 a1 a2 a3 a4 a5 a6 a7 0 = a0 := rfl
theorem admOf_1 : admOf a0 a1 a2 a3 a4 a5 a6 a7 1 = a1 := rfl
theorem admOf_2 : admOf a0 a1 a2 a3 a4 a5 a6 a7 2 = a2 := rfl
theorem admOf_3 : admOf a0 a1 a2 a3 a4 a5 a6 a7 3 = a3 := rfl
theorem admOf_4 : admOf a0 a1 a2 a3 a4 a5 a6 a7 4 = a4 := rfl
theorem admOf_5 : admOf a0 a1 a2 a3 a4 a5 a6 a7 5 = a5 := rfl
theorem admOf_6 : admOf a0 a1 a2 a3 a4 a5 a6 a7 6 = a6 := rfl
theorem admOf_7 : admOf a0 a1 a2 a3 a4 a5 a6 a7 7 = a7 := rfl

variable (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c)

theorem pdatsOf_0 (c : Dev nD) : pdatsOf a0 a1 a2 a3 a4 a5 a6 a7 d0 d1 d2 d3 d4 d5 d6 d7 0 c = d0 c := rfl
theorem pdatsOf_1 (c : Dev nD) : pdatsOf a0 a1 a2 a3 a4 a5 a6 a7 d0 d1 d2 d3 d4 d5 d6 d7 1 c = d1 c := rfl
theorem pdatsOf_2 (c : Dev nD) : pdatsOf a0 a1 a2 a3 a4 a5 a6 a7 d0 d1 d2 d3 d4 d5 d6 d7 2 c = d2 c := rfl
theorem pdatsOf_3 (c : Dev nD) : pdatsOf a0 a1 a2 a3 a4 a5 a6 a7 d0 d1 d2 d3 d4 d5 d6 d7 3 c = d3 c := rfl
theorem pdatsOf_4 (c : Dev nD) : pdatsOf a0 a1 a2 a3 a4 a5 a6 a7 d0 d1 d2 d3 d4 d5 d6 d7 4 c = d4 c := rfl
theorem pdatsOf_5 (c : Dev nD) : pdatsOf a0 a1 a2 a3 a4 a5 a6 a7 d0 d1 d2 d3 d4 d5 d6 d7 5 c = d5 c := rfl
theorem pdatsOf_6 (c : Dev nD) : pdatsOf a0 a1 a2 a3 a4 a5 a6 a7 d0 d1 d2 d3 d4 d5 d6 d7 6 c = d6 c := rfl
theorem pdatsOf_7 (c : Dev nD) : pdatsOf a0 a1 a2 a3 a4 a5 a6 a7 d0 d1 d2 d3 d4 d5 d6 d7 7 c = d7 c := rfl

/-- The components' fields are the family's: the entry contents of pipeline 0's arrays, for one. -/
example (c : Dev nD) : (pdatsOf a0 a1 a2 a3 a4 a5 a6 a7 d0 d1 d2 d3 d4 d5 d6 d7 0 c).A = (d0 c).A := rfl

end

end Cert.Kernel.Hand

end
-- ==== Proof.GlueBits.lean ====
/-
  The launch of the several-region program at the word level, with the choices that do not depend on what the regions
  compute made once: the same resource algebra, launch element and rest state between items as at the ideal values.
  GIVEN the eight regions' records against that rest state, the conditional frame follows for any admissible contents of
  the tables, any proof data and any contents the regions leave.
-/
import proofs.«402893_j78554951844377_2_alg».proof.Proof.Gen.Kernel.Regions
import proofs.«402893_j78554951844377_2_alg».proof.Proof.Gen.Kernel.Launch
import Idealize.ShloMosaic.Lib.Pipeline.Frame
import Idealize.ShloMosaic.Lib.Pipeline.Regions

-- the launch kit's enumerations over the program's references recurse past the default depth
set_option maxRecDepth 1396

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-- What every core carries between two items beside the held buffers: its generator register at some value, and a
    tally that owes nothing at some wait set. -/
abbrev Rr (c : Dev nD) : sProp 𝕄 :=
  iprop((∃ r, prngReg c r) ∗ ∃ W, owes (c : Thread nD τ) (0 : CellTallies nD τ sig Unit) W)

/-- The launch element — the initial rounds state over the pinned pipelines' cells and launch tokens — is owned through
    its embedding, beside per-core ghost resources that are all `emp`. -/
theorem glue_hu0 (a : (p : Fin 8) → (pcfgs (F := F) p).Adm) :
    (ownU (initOf (Pipeline.cells (Pipeline.pin (pcfgs (F := F)) a) (cellOf_inj a)) (Pipeline.launchToks (Pipeline.pin (pcfgs (F := F)) a) (cellOf_inj a))) : sProp 𝕄)
      ⊢ |={Set.univ}=> iprop(BI.own ((emb₁ : Emb (UR sig nD τ) 𝕄) (initOf (Pipeline.cells (Pipeline.pin (pcfgs (F := F)) a) (cellOf_inj a)) (Pipeline.launchToks (Pipeline.pin (pcfgs (F := F)) a) (cellOf_inj a))))
        ∗ bigSep Finset.univ (fun _ : Dev nD => (BI.emp : sProp 𝕄))) := by
  iintro Hu; imodintro
  isplitl [Hu]
  · iapply (show (ownU (initOf (Pipeline.cells (Pipeline.pin (pcfgs (F := F)) a) (cellOf_inj a)) (Pipeline.launchToks (Pipeline.pin (pcfgs (F := F)) a) (cellOf_inj a))) : sProp 𝕄)
        ⊢ BI.own (emb₁ (initOf (Pipeline.cells (Pipeline.pin (pcfgs (F := F)) a) (cellOf_inj a)) (Pipeline.launchToks (Pipeline.pin (pcfgs (F := F)) a) (cellOf_inj a)))) from .rfl)
    iexact Hu
  iapply (show (BI.emp : sProp 𝕄) ⊢ bigSep Finset.univ (fun _ : Dev nD => (BI.emp : sProp 𝕄)) from by rw [BI.bigSep_emp_const])
  iempintro

/-- The launch makes the rest state on every core: each core keeps its register and its zero tally at the empty wait
    set, and drops what else the launch deals it. -/
theorem glue_hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
        ∗ levAts (fun _ : GSem nD τ sig => (∅ : Finset Unit)) (fun _ _ => (0 : ℕ)))
      ⊢ (|={Set.univ}=> bigSep Finset.univ (fun c : Dev nD => Rr (F := F) c) : sProp 𝕄) := by
  refine Pipeline.initEach _ _ fun c => ?_
  iintro ⟨⟨-, HO, -, Hp, -⟩, -⟩
  imodintro
  isplitl [Hp]; · iexists _; iexact Hp
  iexists ∅; iexact HO

/-- At the end the rest state owes nothing. -/
theorem glue_hE8 (c : Dev nD) :
    Rr (F := F) c ⊢ (iprop(∃ W, owes (c : Thread nD τ) (0 : CellTallies nD τ sig Unit) W) : sProp 𝕄) := by
  iintro ⟨-, H⟩
  iexact H

variable (m : (ℓ : Loc nD τ sig) → Buf (Elt F) ℓ)

set_option backward.isDefEq.respectTransparency.types false in
/-- THE FRAME FROM THE REGIONS' RECORDS. Under the same hypotheses every final memory holds each of the seven argument
    arrays as launched. -/
theorem frame_of_regs (ρ : Dev nD → PrngReg) (outs : Outs (F := F)) (a : (p : Fin 8) → (pcfgs (F := F) p).Adm)
    (pdats : (p : Fin 8) → (c : Dev nD) → Dat τ (Elt F) Unit ℕ (UR sig nD τ) ℕ (Pipeline.pin (pcfgs (F := F)) a p) c)
    (R0 : RegionSeg (pcfgs (F := F)) a pdats () defs₀ Variants.none (fun _ => ∅) (fun _ _ => 0) 0)
    (hpre0 : ∀ c : Dev nD, iprop(StableHlo.held (c : Thread nD τ) (Pipeline.ucRefs τ sig) (V5 m c) ∗ Rr c) ⊢ R0.pre c)
    (hpost0 : ∀ c : Dev nD, R0.post c ⊢ iprop(StableHlo.held (c : Thread nD τ) (Pipeline.ucRefs τ sig) (V6 m outs c) ∗ Rr c))
    (R1 : RegionSeg (pcfgs (F := F)) a pdats () defs₀ Variants.none (fun _ => ∅) (fun _ _ => 0) 1)
    (hpre1 : ∀ c : Dev nD, iprop(StableHlo.held (c : Thread nD τ) (Pipeline.ucRefs τ sig) (V7 m outs c) ∗ Rr c) ⊢ R1.pre c)
    (hpost1 : ∀ c : Dev nD, R1.post c ⊢ iprop(StableHlo.held (c : Thread nD τ) (Pipeline.ucRefs τ sig) (V8 m outs c) ∗ Rr c))
    (R2 : RegionSeg (pcfgs (F := F)) a pdats () defs₀ Variants.none (fun _ => ∅) (fun _ _ => 0) 2)
    (hpre2 : ∀ c : Dev nD, iprop(StableHlo.held (c : Thread nD τ) (Pipeline.ucRefs τ sig) (V9 m outs c) ∗ Rr c) ⊢ R2.pre c)
    (hpost2 : ∀ c : Dev nD, R2.post c ⊢ iprop(StableHlo.held (c : Thread nD τ) (Pipeline.ucRefs τ sig) (V10 m outs c) ∗ Rr c))
    (R3 : RegionSeg (pcfgs (F := F)) a pdats () defs₀ Variants.none (fun _ => ∅) (fun _ _ => 0) 3)
    (hpre3 : ∀ c : Dev nD, iprop(StableHlo.held (c : Thread nD τ) (Pipeline.ucRefs τ sig) (V11 m outs c) ∗ Rr c) ⊢ R3.pre c)
    (hpost3 : ∀ c : Dev nD, R3.post c ⊢ iprop(StableHlo.held (c : Thread nD τ) (Pipeline.ucRefs τ sig) (V12 m outs c) ∗ Rr c))
    (R4 : RegionSeg (pcfgs (F := F)) a pdats () defs₀ Variants.none (fun _ => ∅) (fun _ _ => 0) 4)
    (hpre4 : ∀ c : Dev nD, iprop(StableHlo.held (c : Thread nD τ) (Pipeline.ucRefs τ sig) (V13 m outs c) ∗ Rr c) ⊢ R4.pre c)
    (hpost4 : ∀ c : Dev nD, R4.post c ⊢ iprop(StableHlo.held (c : Thread nD τ) (Pipeline.ucRefs τ sig) (V14 m outs c) ∗ Rr c))
    (R5 : RegionSeg (pcfgs (F := F)) a pdats () defs₀ Variants.none (fun _ => ∅) (fun _ _ => 0) 5)
    (hpre5 : ∀ c : Dev nD, iprop(StableHlo.held (c : Thread nD τ) (Pipeline.ucRefs τ sig) (V15 m outs c) ∗ Rr c) ⊢ R5.pre c)
    (hpost5 : ∀ c : Dev nD, R5.post c ⊢ iprop(StableHlo.held (c : Thread nD τ) (Pipeline.ucRefs τ sig) (V16 m outs c) ∗ Rr c))
    (R6 : RegionSeg (pcfgs (F := F)) a pdats () defs₀ Variants.none (fun _ => ∅) (fun _ _ => 0) 6)
    (hpre6 : ∀ c : Dev nD, iprop(StableHlo.held (c : Thread nD τ) (Pipeline.ucRefs τ sig) (V17 m outs c) ∗ Rr c) ⊢ R6.pre c)
    (hpost6 : ∀ c : Dev nD, R6.post c ⊢ iprop(StableHlo.held (c : Thread nD τ) (Pipeline.ucRefs τ sig) (V18 m outs c) ∗ Rr c))
    (R7 : RegionSeg (pcfgs (F := F)) a pdats () defs₀ Variants.none (fun _ => ∅) (fun _ _ => 0) 7)
    (hpre7 : ∀ c : Dev nD, iprop(StableHlo.held (c : Thread nD τ) (Pipeline.ucRefs τ sig) (V19 m outs c) ∗ Rr c) ⊢ R7.pre c)
    (hpost7 : ∀ c : Dev nD, R7.post c ⊢ iprop(StableHlo.held (c : Thread nD τ) (Pipeline.ucRefs τ sig) (V20 m outs c) ∗ Rr c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m emb₁ () Variants.none (fun _ => ∅) (fun _ _ => 0) (fun _ _ => rfl) ρ outs a pdats 0 (fun _ => BI.emp)
    (initOf (Pipeline.cells (Pipeline.pin (pcfgs (F := F)) a) (cellOf_inj a)) (Pipeline.launchToks (Pipeline.pin (pcfgs (F := F)) a) (cellOf_inj a)))
    (glue_hu0 a) (fun _ c => Rr c) (glue_hE0 ρ) glue_hE8 R0 hpre0 hpost0 R1 hpre1 hpost1 R2 hpre2 hpost2 R3 hpre3 hpost3 R4 hpre4 hpost4 R5 hpre5 hpost5 R6 hpre6 hpost6 R7 hpre7 hpost7

end Cert.Kernel.Hand

end
-- ==== Proof.R0SegBits.lean ====
/-
  Tile 0's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 0's admissible contents and
  proof data is ten small facts (`Pinned0`); they hold of tile 0's own (`pinned_dat0`) and so of any family whose
  component 0 is tile 0's (`Pinned0.of_eq`).
-/
import proofs.«402893_j78554951844377_2_alg».proof.Proof.R0AccBits
import proofs.«402893_j78554951844377_2_alg».proof.Proof.FamilyBits
import proofs.«402893_j78554951844377_2_alg».proof.Proof.GlueBits
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 0's contents and proof data -/

variable (Vin : (c : Dev nD) → (b : Ref sig .tc) → Buf (Elt F) ((c : Thread nD τ).loc b))

/-- The scratch operand owned whole at some contents is its buffer held at some contents. -/
theorem scratch0_eq (c : Dev nD) :
    (iprop(∃ d, owns (c : Thread nD τ) scM0 fullShare d) : sProp 𝕄)
      = iprop(∃ f : Buf (Elt F) ((c : Thread nD τ).loc cc0_scratch0), ((c : Thread nD τ).loc cc0_scratch0) ↦{fullShare} f) := by
  simp only [scM0, owns_whole]; try rfl

/-- What the record needs of pipeline 0's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned0 (Vx : Dev nD → Valuation τ sig (Elt F)) (a0 : (pcfgs (F := F) 0).Adm)
    (d0 : (c : Dev nD) → Dat τ (Elt F) Unit ℕ (UR sig nD τ) ℕ ((pcfgs (F := F) 0).at a0) c) : Prop where
  tbl : a0.1 = tbl0 Vin
  q : ∀ (c : Dev nD) w, (d0 c).q w = fullShare
  A : ∀ (c : Dev nD) w, (d0 c).A w = Vin c (Pipeline.arrRef spec0 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM0 fullShare d) ∗ Rest0 Vin c) : sProp 𝕄) ⊢ (d0 c).Φ 0
  phiOut : ∀ c : Dev nD, (d0 c).Φ (Fin.last _) ⊢ (iprop((∃ d, owns (c : Thread nD τ) scM0 fullShare d) ∗ Rest0 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 0).at a0).N = Vx c (Pipeline.arrRef spec0 w)

set_option maxHeartbeats 400000 in
/-- Tile 0's own contents and proof data have them: each field by unfolding the proof data; the last stage of the
    invariant is a later one (the grid has 65536 points), so it holds the scratch at the last point's contents. -/
theorem pinned_dat0 (hO : Ok0 Vin) (Vx : Dev nD → Valuation τ sig (Elt F))
    (hF : ∀ c w, (dat0 Vin hO c).arrAt w (cfgM0 Vin hO).N = Vx c (Pipeline.arrRef spec0 w)) :
    Pinned0 Vin Vx (adm0 Vin hO) (dat0 Vin hO) where
  tbl := rfl
  q c w := rfl
  A c w := A_eq0 Vin hO c w
  owed c t := rfl
  body c := (body_obligation0 Vin hO c).loose
  phiIn c := by
    rw [show (dat0 Vin hO c).Φ 0 = PhiS0 Vin hO c ((0 : Fin ((cfgM0 Vin hO).N + 1)).val) (Nat.le_of_lt_succ (0 : Fin ((cfgM0 Vin hO).N + 1)).isLt) from rfl,
      PhiS0_zero Vin hO c _ _ (Fin.val_zero _)]
  phiOut c := by
    have hN : (Fin.last (cfgM0 Vin hO).N).val ≠ 0 := by
      rw [Fin.val_last, show (cfgM0 Vin hO).N = grid0.N from rfl, N_0]; decide
    show PhiS0 Vin hO c (Fin.last (cfgM0 Vin hO).N).val (Nat.le_of_lt_succ (Fin.last (cfgM0 Vin hO).N).isLt) ⊢ _
    rw [PhiS0_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 0's. -/
theorem Pinned0.of_eq (hO : Ok0 Vin) {Vx : Dev nD → Valuation τ sig (Elt F)} {a0 : (pcfgs (F := F) 0).Adm}
    {d0 : (c : Dev nD) → Dat τ (Elt F) Unit ℕ (UR sig nD τ) ℕ ((pcfgs (F := F) 0).at a0) c}
    (ha : a0 = adm0 Vin hO) (hd : ∀ c, HEq (d0 c) (dat0 Vin hO c)) (h : Pinned0 Vin Vx (adm0 Vin hO) (dat0 Vin hO)) :
    Pinned0 Vin Vx a0 d0 := by
  subst ha
  obtain rfl : d0 = dat0 Vin hO := funext fun c => eq_of_heq (hd c)
  exact h

/-! ## The record -/

set_option backward.isDefEq.respectTransparency.types false in
set_option maxHeartbeats 1600000 in
/-- Tile 0's region over ANY family of pipelines whose component 0 is tile 0's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg0G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok0 Vin) (ha : a 0 = adm0 Vin hO) (hd : ∀ c, HEq (pdats 0 c) (dat0 Vin hO c))
    (hag : ∀ c w, V c (Proc.devRef .tc (Pipeline.arrRef spec0 w)) = Vin c (Pipeline.arrRef spec0 w))
    (hagT : ∀ c j, V c (Proc.devRef .tc (pre0.ref j)) = Vin c (pre0.ref j))
    (hF : ∀ c w, (dat0 Vin hO c).arrAt w (cfgM0 Vin hO).N = Vx c (Pipeline.arrRef spec0 w))
    (hrest : ∀ c b, b ∉ Finset.univ.image (Pipeline.arrRef spec0) → Vx c b = V c b) :
    Pipeline.RegionSeg (pcfgs (F := F)) a pdats () defs₀ Variants.none (fun _ => ∅) (fun _ _ => 0) 0 :=
  have hp : Pinned0 Vin Vx (a 0) (pdats 0) := Pinned0.of_eq Vin hO ha hd (pinned_dat0 Vin hO Vx hF)
  have htbl : ∀ c, (fun k => V c (Proc.devRef .tc ((pcfgs (F := F) 0).pre.ref k))) = (a 0).1 := fun c => by
    rw [hp.tbl]; funext k; exact (hagT c k).trans (V_pre0 Vin c k)
  { win := (launch0 (F := F)).win.to₀
    block_pos := (launch0 (F := F)).block_pos
    stage_whole := (launch0 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 0 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre0 c (fun _ => fullShare) (tbl0 Vin))
    Z := fun c => Pipeline.unscopedRestP (Ix := Unit) (Name := ℕ) (U := UR sig nD τ) (Lvl := ℕ) pre0 spec0 c (fun b => V c b)
    hentry := fun c => by
      rw [Pipeline.ownSems0_none]
      have hsplit := Pipeline.arrays_of_unscopedBufs (p := 0) (pcfgs (F := F)) a pdats (launch0 (F := F)).win (launch0 (F := F)).arr_whole c
        ((pdats 0 c).share_full (hp.q c)) (fun b => V c b) (fun w => (hp.A c w).trans (hag c w).symm)
      rw [Pipeline.unscopedBufs_held, Pipeline.unscopedRest_split (launch0 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 0).spec c : sProp 𝕄) = _ from scopedRest0_split c, hp.tbl]
      refine BIBase.Entails.trans ?_ (hp.phiIn c)
      rw [scratch0_eq]
      unfold Rest0
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 0).spec c : sProp 𝕄) = _ from scopedRest0_split c]
      refine BIBase.Entails.trans (hp.phiOut c) ?_
      rw [scratch0_eq]
      unfold Rest0
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 0) (pcfgs (F := F)) a (Ix := Unit) (Name := ℕ) (U := UR sig nD τ) (Lvl := ℕ)
        (launch0 (F := F)).win (launch0 (F := F)).arr_whole c pdats ((pdats 0 c).share_full (hp.q c))
        (fun b => V c b) (fun b => Vx c b) ((pdats 0 c).arrAt · (Pipeline.pin (pcfgs (F := F)) a 0).N) (hp.fin c) (hrest c)
      rw [Pipeline.unscopedBufs_held, Pipeline.unscopedRest_split (launch0 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 0's record over the assembled families, tile 0's components in slot 0. -/
def reg0 (hO : Ok0 Vin) (V Vx : Dev nD → Valuation τ sig (Elt F))
    (hag : ∀ c w, V c (Proc.devRef .tc (Pipeline.arrRef spec0 w)) = Vin c (Pipeline.arrRef spec0 w))
    (hagT : ∀ c j, V c (Proc.devRef .tc (pre0.ref j)) = Vin c (pre0.ref j))
    (hF : ∀ c w, (dat0 Vin hO c).arrAt w (cfgM0 Vin hO).N = Vx c (Pipeline.arrRef spec0 w))
    (hrest : ∀ c b, b ∉ Finset.univ.image (Pipeline.arrRef spec0) → Vx c b = V c b)
    (a1 : (pcfg1 (F := F)).Adm)
    (a2 : (pcfg2 (F := F)).Adm)
    (a3 : (pcfg3 (F := F)).Adm)
    (a4 : (pcfg4 (F := F)).Adm)
    (a5 : (pcfg5 (F := F)).Adm)
    (a6 : (pcfg6 (F := F)).Adm)
    (a7 : (pcfg7 (F := F)).Adm)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf (adm0 Vin hO) a1 a2 a3 a4 a5 a6 a7)
      (pdatsOf (adm0 Vin hO) a1 a2 a3 a4 a5 a6 a7 (dat0 Vin hO) d1 d2 d3 d4 d5 d6 d7) () defs₀ Variants.none (fun _ => ∅) (fun _ _ => 0) 0 :=
  reg0G Vin V Vx _ _ hO rfl (fun _ => HEq.rfl) hag hagT hF hrest

/-- The thread state the record is entered from, -/
theorem reg0_pre (hO : Ok0 Vin) (V Vx : Dev nD → Valuation τ sig (Elt F)) (hag) (hagT) (hF) (hrest) (a1) (a2) (a3) (a4) (a5) (a6) (a7) (d1) (d2) (d3) (d4) (d5) (d6) (d7) (c : Dev nD) :
    (reg0 Vin hO V Vx hag hagT hF hrest a1 a2 a3 a4 a5 a6 a7 d1 d2 d3 d4 d5 d6 d7).pre c
      = iprop(StableHlo.held (c : Thread nD τ) (Pipeline.ucRefs τ sig) (V c) ∗ Rr (F := F) c) := rfl
/-- and the one it leaves. -/
theorem reg0_post (hO : Ok0 Vin) (V Vx : Dev nD → Valuation τ sig (Elt F)) (hag) (hagT) (hF) (hrest) (a1) (a2) (a3) (a4) (a5) (a6) (a7) (d1) (d2) (d3) (d4) (d5) (d6) (d7) (c : Dev nD) :
    (reg0 Vin hO V Vx hag hagT hF hrest a1 a2 a3 a4 a5 a6 a7 d1 d2 d3 d4 d5 d6 d7).post c
      = iprop(StableHlo.held (c : Thread nD τ) (Pipeline.ucRefs τ sig) (Vx c) ∗ Rr (F := F) c) := rfl

end Cert.Kernel.Hand

end
-- ==== Proof.R1RunBits.lean ====
import proofs.«402893_j78554951844377_2_alg».proof.Proof.Gen.Kernel.Launch
import proofs.«402893_j78554951844377_2_alg».proof.Proof.Gen.Kernel.Skeleton
import proofs.«402893_j78554951844377_2_alg».proof.Proof.R0RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 1: the kernel body at one grid point

Tile 1's kernel function is tile 0's (the same body, the same payloads and conditions under other names), so its three
runs are tile 0's. -/

/-- The body's first condition: the feature coordinate is 0. -/
abbrev cond1_0 (i : grid1.Coords) : Prop := (Scalar.cmpi .ne (Scalar.extui (Scalar.cmpi .eq (BitVec.ofNat 32 (i 1).val) 0#32)) 0#32) = 1#1
/-- The body's second condition: the feature coordinate is 31. -/
abbrev cond1_1 (i : grid1.Coords) : Prop := k1_cond2 i = 1#1

/-- A MIDDLE feature: the scratch at `acc` ends at `acc + row`. -/
theorem run1_B (c : Dev nD) (i : grid1.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond1_0 i) (hc1 : ¬cond1_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k1_pay2 acc x3)) -∗ K ⟨⟩))
      ⊢ wp frame (wpE (defs₀ (F := F)) Variants.none c none) E (cc1__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run1_A (c : Dev nD) (i : grid1.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond1_0 i) (hc1 : ¬cond1_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k1_pay2 (k1_pay1 (F := F)) x3)) -∗ K ⟨⟩))
      ⊢ wp frame (wpE (defs₀ (F := F)) Variants.none c none) E (cc1__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run1_C (c : Dev nD) (i : grid1.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond1_0 i) (hc1 : cond1_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k1_pay3 (k1_pay2 acc x3) x4 x5 x6)
            ∗ owns (c : Thread nD τ) arg8 fullShare (k1_pay2 acc x3)) -∗ K ⟨⟩))
      ⊢ wp frame (wpE (defs₀ (F := F)) Variants.none c none) E (cc1__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.Kernel.Hand

end
-- ==== Proof.R1BaseBits.lean ====
import proofs.«402893_j78554951844377_2_alg».proof.Proof.Gen.Kernel.Launch
import proofs.«402893_j78554951844377_2_alg».proof.Proof.Gen.Kernel.Skeleton
import proofs.«402893_j78554951844377_2_alg».proof.Proof.R1RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 1: the pipeline at the table the region reads, its blocks and staging buffers

Everything here is stated at a PARAMETER `V`: the contents of the core's buffers when the region is entered. The
region's prefetched table is read off `V`; under the side condition that every word of it names a row of the embedding
table (`Ok1`) the pipeline is pinned at it, and each window's block at a grid point is a restriction of its array. -/

variable (V : (c : Dev nD) → (b : Ref sig .tc) → Buf (Elt F) ((c : Thread nD τ).loc b))

/-- The table's contents when the region is entered (one device). -/
def tbl1 : pre1.Contents (Elt F) := fun j => V (0 : Dev nD) (pre1.ref j)
/-- On every device the table holds those contents (there is one device). -/
theorem V_pre1 (c : Dev nD) (j : Fin 1) : V c (pre1.ref j) = tbl1 V j := by
  obtain rfl : c = 0 := Subsingleton.elim _ _; rfl
/-- Every block the table names lies inside the embedding table. -/
abbrev Ok1 : Prop := ok1 (F := F) (tbl1 V)
/-- The table as admissible contents, and the pipeline pinned at it. -/
abbrev adm1 (hO : Ok1 V) : (pcfg1 (F := F)).Adm := ⟨tbl1 V, hO⟩
abbrev cfgM1 (hO : Ok1 V) : Pipeline.Cfg sig Λ₀ := cfg1 (adm1 V hO)

/-- Window `w`'s block at point `t`, read off its array as the region finds it. -/
def iblk1 (hO : Ok1 V) (c : Dev nD) (w : Fin (cfgM1 V hO).W) (t : Fin (cfgM1 V hO).N) :
    (((cfgM1 V hO).win w).xblock ((cfgM1 V hO).grid.coords t)).Idx → Elt F ((cfgM1 V hO).win w).elt :=
  (((cfgM1 V hO).win w).blk t).view.read (Elt F) (V c (Pipeline.arrRef spec1 w))

/-- An input window's current staging buffer holds its block at every point, fetched there or not, for any proof
    data whose array is `V`'s and whose body leaves the block in place. -/
theorem before1_0_of (hO : Ok1 V) {c : Dev nD} (dat : Dat τ (Elt F) Unit ℕ (UR sig nD τ) ℕ (cfgM1 V hO) c) (hA : dat.A 0 = V c (Pipeline.arrRef spec1 0))
    (hafter : ∀ t, dat.after 0 t = iblk1 V hO c 0 t) (t : Fin (cfgM1 V hO).N) (d) : dat.before 0 t d = iblk1 V hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hO : Ok1 V) {c : Dev nD} (dat : Dat τ (Elt F) Unit ℕ (UR sig nD τ) ℕ (cfgM1 V hO) c) (hA : dat.A 1 = V c (Pipeline.arrRef spec1 1))
    (hafter : ∀ t, dat.after 1 t = iblk1 V hO c 1 t) (t : Fin (cfgM1 V hO).N) (d) : dat.before 1 t d = iblk1 V hO c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hO : Ok1 V) {c : Dev nD} (dat : Dat τ (Elt F) Unit ℕ (UR sig nD τ) ℕ (cfgM1 V hO) c) (hA : dat.A 2 = V c (Pipeline.arrRef spec1 2))
    (hafter : ∀ t, dat.after 2 t = iblk1 V hO c 2 t) (t : Fin (cfgM1 V hO).N) (d) : dat.before 2 t d = iblk1 V hO c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hO : Ok1 V) {c : Dev nD} (dat : Dat τ (Elt F) Unit ℕ (UR sig nD τ) ℕ (cfgM1 V hO) c) (hA : dat.A 3 = V c (Pipeline.arrRef spec1 3))
    (hafter : ∀ t, dat.after 3 t = iblk1 V hO c 3 t) (t : Fin (cfgM1 V hO).N) (d) : dat.before 3 t d = iblk1 V hO c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev ms1_0 (hO : Ok1 V) (t : Fin (cfgM1 V hO).N) : Memref sig .tc .vmem S1x1x128 .f32 := spec1_0.stage ((cfgM1 V hO).slots t 0)
abbrev hs1_0 (hO : Ok1 V) (t : Fin (cfgM1 V hO).N) : (ms1_0 V hO t).IsWhole := hstage1_0 (((cfgM1 V hO).slots t 0).cast nbuf1_0)
abbrev ms1_1 (hO : Ok1 V) (t : Fin (cfgM1 V hO).N) : Memref sig .tc .vmem S1x1x128 .f32 := spec1_1.stage ((cfgM1 V hO).slots t 1)
abbrev hs1_1 (hO : Ok1 V) (t : Fin (cfgM1 V hO).N) : (ms1_1 V hO t).IsWhole := hstage1_1 (((cfgM1 V hO).slots t 1).cast nbuf1_1)
abbrev ms1_2 (hO : Ok1 V) (t : Fin (cfgM1 V hO).N) : Memref sig .tc .vmem S1x1x128 .f32 := spec1_2.stage ((cfgM1 V hO).slots t 2)
abbrev hs1_2 (hO : Ok1 V) (t : Fin (cfgM1 V hO).N) : (ms1_2 V hO t).IsWhole := hstage1_2 (((cfgM1 V hO).slots t 2).cast nbuf1_2)
abbrev ms1_3 (hO : Ok1 V) (t : Fin (cfgM1 V hO).N) : Memref sig .tc .vmem S1x1x1 .f32 := spec1_3.stage ((cfgM1 V hO).slots t 3)
abbrev hs1_3 (hO : Ok1 V) (t : Fin (cfgM1 V hO).N) : (ms1_3 V hO t).IsWhole := hstage1_3 (((cfgM1 V hO).slots t 3).cast nbuf1_3)
abbrev ms1_4 (hO : Ok1 V) (t : Fin (cfgM1 V hO).N) : Memref sig .tc .vmem S1x1x1 .f32 := spec1_4.stage ((cfgM1 V hO).slots t 4)
abbrev hs1_4 (hO : Ok1 V) (t : Fin (cfgM1 V hO).N) : (ms1_4 V hO t).IsWhole := hstage1_4 (((cfgM1 V hO).slots t 4).cast nbuf1_4)
/-- The scratch operand: a whole scoped buffer of the kernel's own. -/
abbrev scM1 : Memref sig .tc .vmem S1x1x128 .f32 := Memref.whole cc1_scratch0
/-- The table as the body is handed it. -/
abbrev tbM1 : Memref sig .tc .smem S65536 .i32 := Memref.whole main_v42

/-- The kernel body at point `t`, on what the pipeline calls it with. -/
abbrev bodyAt1 (a : (pcfg1 (F := F)).Adm) (t : Fin (cfg1 a).N) : Prog (TpuEff nD τ sig (Elt F) Λ₀ .tc) PUnit :=
  cc1__gather_kernel (grid1.coords t) (Memref.whole main_v42) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (Memref.whole cc1_scratch0) (Memref.isWhole_whole _)

/-- Off the last feature the result window is idle: the body stores nothing into it. -/
theorem idleAt1_4 (a : (pcfg1 (F := F)).Adm) (i : grid1.Coords) (h : ¬cond1_1 i) : (cfg1 a).idle 4 i = true := by
  show (!(k1_cond2 i == 1#1)) = true
  simp only [Bool.not_eq_true', beq_eq_false_iff_ne, ne_eq]; exact h
/-- On the last feature it is live. -/
theorem liveAt1_4 (a : (pcfg1 (F := F)).Adm) (i : grid1.Coords) (h : cond1_1 i) : (cfg1 a).idle 4 i = false := by
  show (!(k1_cond2 i == 1#1)) = false
  simp only [Bool.not_eq_false', beq_iff_eq]; exact h
/-- The input windows are never idle. -/
theorem liveAt1_0 (a : (pcfg1 (F := F)).Adm) (i : grid1.Coords) : (cfg1 a).idle 0 i = false := rfl
theorem liveAt1_1 (a : (pcfg1 (F := F)).Adm) (i : grid1.Coords) : (cfg1 a).idle 1 i = false := rfl
theorem liveAt1_2 (a : (pcfg1 (F := F)).Adm) (i : grid1.Coords) : (cfg1 a).idle 2 i = false := rfl
theorem liveAt1_3 (a : (pcfg1 (F := F)).Adm) (i : grid1.Coords) : (cfg1 a).idle 3 i = false := rfl

end Cert.Kernel.Hand

end
-- ==== Proof.R1OkBits.lean ====
/-
  Tile 1: the table the region reads, and the pipeline's side condition on it from the range fact.

  Region 1 is entered with the buffers at the valuation after the host stretch that cuts tile 1's operands. Its prefetched table then
  holds, at flat position `32·i₀ + i₁`, the gathered row number of sample `2048·1 + i₀`, feature `i₁`. When every gathered
  row number is below 786432 (the range fact), every word of the table is, which is the side condition under which the
  pipeline is pinned at the table.
-/
import proofs.«402893_j78554951844377_2_alg».proof.Proof.Gen.Kernel.Regions
import proofs.«402893_j78554951844377_2_alg».proof.Proof.Spec
import proofs.«402893_j78554951844377_2_alg».proof.Proof.R1BaseBits
import proofs.«402893_j78554951844377_2_alg».proof.Proof.OkTablesBits
import proofs.«402893_j78554951844377_2_alg».proof.Proof.KHostBits
import proofs.«402893_j78554951844377_2_alg».proof.Proof.TileLibBits
import Idealize.ShloMosaic.Lib.ValueIdx

noncomputable section

namespace Cert.Kernel.Hand

open Idealize.ShloMosaic Idealize.ShloMosaic.TcCoe
open Cert.Kernel Cert.Kernel.Gen Idealize.ShloMosaic.ValueIdx

variable {F : FTy → Type} [FloatOps F]

/-- The buffers when region 1 is entered: the valuation after the host stretch that cuts tile 1's operands. -/
abbrev V1in (m : (ℓ : Loc nD τ sig) → Buf (Elt F) ℓ) : (c : Dev nD) → (b : Ref sig .tc) → Buf (Elt F) ((c : Thread nD τ).loc b) :=
  fun c b => V7 m (outsL m) c b

variable (m : (ℓ : Loc nD τ sig) → Buf (Elt F) ℓ)

/-- The table word read at grid point `(i₀, i₁)` is the gathered row number of sample `2048·1 + i₀`, feature `i₁`: the
    word sits at flat position `32·i₀ + i₁`, whose quotient and remainder by 32 are `i₀` and `i₁`. -/
theorem tword1_V1in (c : Dev nD) (i : grid1.Coords) :
    tword1 (tbl1 (V1in m)) i
      = Spec.gidxOf (m ((c : Thread nD τ).loc main_arg0)) (m ((c : Thread nD τ).loc main_arg1)) (m ((c : Thread nD τ).loc main_arg2))
          (ValueIdx.ix2 (⟨2048 * 1 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V1in m 0 main_v42 (ValueIdx.ix1 ⟨32 * (i 0).val + (i 1).val, pos_lt1 i⟩) = _
  refine (tbl1_apply m (outsL m) 0 ⟨32 * (i 0).val + (i 1).val, pos_lt1 i⟩).trans ?_
  exact congrArg _ (ix2_congr (by show 2048 * 1 + (32 * (i 0).val + (i 1).val) / 32 = 2048 * 1 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok1_of_inRange (c : Dev nD)
    (hin : Spec.InRange (Spec.gidxOf (m ((c : Thread nD τ).loc main_arg0)) (m ((c : Thread nD τ).loc main_arg1)) (m ((c : Thread nD τ).loc main_arg2)))) :
    Ok1 (V1in m) :=
  ok1_of (tbl1 (V1in m)) fun i => by rw [tword1_V1in m c i]; exact hin _ _

end Cert.Kernel.Hand

end
-- ==== Proof.R1GridBits.lean ====
import proofs.«402893_j78554951844377_2_alg».proof.Proof.R1RunBits
import Idealize.ShloMosaic.Lib.Pipeline.Kit
import Mathlib.Data.Fin.VecNotation

noncomputable section

namespace Cert.Kernel.Hand

open Cert.Kernel Cert.Kernel.Gen
open Idealize.ShloMosaic
open Idealize.ShloMosaic.Pipeline (Cfg Window)

variable {F : FTy → Type} [FloatOps F]

/-! # Tile 1: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride1_0 : grid1.stride 0 = 32 := by decide
/-- The feature coordinate changes at every point. -/
theorem stride1_1 : grid1.stride 1 = 1 := by decide

/-- The sample coordinate of point `t` is `t / 32`: the quotient is below 2048, so reducing it modulo the
    axis's bound changes nothing. -/
theorem coords1_val0 (t : Fin grid1.N) : ((grid1.coords t) 0).val = t.val / 32 := by
  have ht : t.val < 65536 := N_1 ▸ t.isLt
  show t.val / grid1.stride 0 % 2048 = t.val / 32
  rw [stride1_0]; omega

/-- The feature coordinate of point `t` is `t % 32`. -/
theorem coords1_val1 (t : Fin grid1.N) : ((grid1.coords t) 1).val = t.val % 32 := by
  show t.val / grid1.stride 1 % 32 = t.val % 32
  rw [stride1_1, Nat.div_one]

/-- The first condition holds exactly at feature 0: checked at each of the 32 values of the coordinate. -/
theorem cond1_0_iff (i : grid1.Coords) : cond1_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond1_1_iff (i : grid1.Coords) : cond1_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond1_0_first (t : Fin grid1.N) (h : t.val = 0) : cond1_0 (grid1.coords t) := by
  rw [cond1_0_iff, coords1_val1, h]

/-- No feature is both the first and the last. -/
theorem not_both1 (i : grid1.Coords) : cond1_0 i → cond1_1 i → False := by
  rw [cond1_0_iff, cond1_1_iff]; omega

/-- A sample number, made a 32-bit word and read back, is itself. -/
private theorem toNat_ofNat_sample (t : Fin grid1.N) : (BitVec.ofNat 32 ((grid1.coords t) 0).val).toNat = t.val / 32 := by
  have ht : t.val < 65536 := N_1 ▸ t.isLt
  rw [coords1_val0, BitVec.toNat_ofNat, Nat.mod_eq_of_lt (by omega)]

/-- Window 1's block at point `t` is the one of sample `t / 32`. -/
theorem index1_1 (a : (pcfg1 (F := F)).Adm) (t : Fin (cfg1 a).N) : ((cfg1 a).win 1).index t = ![t.val / 32, 0, 0] := by
  show (![(BitVec.ofNat 32 ((grid1.coords t) 0).val).toNat, (0#32).toNat, (0#32).toNat] : Fin 3 → ℕ) = _
  rw [toNat_ofNat_sample]; rfl
/-- Window 2's block at point `t` is the one of sample `t / 32`. -/
theorem index1_2 (a : (pcfg1 (F := F)).Adm) (t : Fin (cfg1 a).N) : ((cfg1 a).win 2).index t = ![t.val / 32, 0, 0] := by
  show (![(BitVec.ofNat 32 ((grid1.coords t) 0).val).toNat, (0#32).toNat, (0#32).toNat] : Fin 3 → ℕ) = _
  rw [toNat_ofNat_sample]; rfl
/-- Window 3's block at point `t` is the one of sample `t / 32`. -/
theorem index1_3 (a : (pcfg1 (F := F)).Adm) (t : Fin (cfg1 a).N) : ((cfg1 a).win 3).index t = ![t.val / 32, 0, 0] := by
  show (![(BitVec.ofNat 32 ((grid1.coords t) 0).val).toNat, (0#32).toNat, (0#32).toNat] : Fin 3 → ℕ) = _
  rw [toNat_ofNat_sample]; rfl
/-- The output window's block at point `t` is the one of sample `t / 32`. -/
theorem index1_4 (a : (pcfg1 (F := F)).Adm) (t : Fin (cfg1 a).N) : ((cfg1 a).win 4).index t = ![t.val / 32, 0, 0] := by
  show (![(BitVec.ofNat 32 ((grid1.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush1_4_iff (a : (pcfg1 (F := F)).Adm) (t : Fin (cfg1 a).N) : ((cfg1 a).win 4).flush t = true ↔ t.val % 32 = 31 := by
  have hN : (cfg1 a).N = 65536 := N_1
  have ht : t.val < 65536 := hN ▸ t.isLt
  have hout : ((cfg1 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index1_4, index1_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg1 a).N := Nat.lt_of_lt_of_eq (by omega : t.val + 1 < 65536) hN.symm
      refine Or.inr ⟨hlt, ?_⟩
      rw [index1_4, index1_4]
      have hne' : (t.val + 1) / 32 ≠ t.val / 32 := by omega
      exact (vec3_ne_iff _ _).mpr hne'

/-- At a sample's last feature the output block is written back. -/
theorem flush1_4 (a : (pcfg1 (F := F)).Adm) (t : Fin (cfg1 a).N) (h : cond1_1 (grid1.coords t)) : ((cfg1 a).win 4).flush t = true := by
  rw [flush1_4_iff, ← coords1_val1]; exact (cond1_1_iff _).mp h

/-- At any other feature the output block stays. -/
theorem noFlush1_4 (a : (pcfg1 (F := F)).Adm) (t : Fin (cfg1 a).N) (h : ¬cond1_1 (grid1.coords t)) : ((cfg1 a).win 4).flush t = false := by
  rw [← Bool.not_eq_true, flush1_4_iff, ← coords1_val1]; exact fun e => h ((cond1_1_iff _).mpr e)

end Cert.Kernel.Hand

end
-- ==== Proof.R1AccBits.lean ====
import proofs.«402893_j78554951844377_2_alg».proof.Proof.Gen.Kernel.Launch
import proofs.«402893_j78554951844377_2_alg».proof.Proof.Gen.Kernel.Skeleton
import proofs.«402893_j78554951844377_2_alg».proof.Proof.R1BaseBits
import proofs.«402893_j78554951844377_2_alg».proof.Proof.R1GridBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 1: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow1 (hO : Ok1 V) (c : Dev nD) (t : Fin (cfgM1 V hO).N) : Vec F S1x1x128 .f32 := iblk1 V hO c 0 t
abbrev xpa1 (hO : Ok1 V) (c : Dev nD) (t : Fin (cfgM1 V hO).N) : Vec F S1x1x128 .f32 := iblk1 V hO c 1 t
abbrev xw1 (hO : Ok1 V) (c : Dev nD) (t : Fin (cfgM1 V hO).N) : Vec F S1x1x128 .f32 := iblk1 V hO c 2 t
abbrev xb1 (hO : Ok1 V) (c : Dev nD) (t : Fin (cfgM1 V hO).N) : Vec F S1x1x1 .f32 := iblk1 V hO c 3 t

/-- THE ACCUMULATION: the scratch after the body at position `n`. -/
def accAt1 (hO : Ok1 V) (c : Dev nD) : (n : ℕ) → n < (cfgM1 V hO).N → Vec F S1x1x128 .f32
  | 0, hn => k1_pay2 (k1_pay1 (F := F)) (xrow1 V hO c ⟨0, hn⟩)
  | n + 1, hn =>
    if cond1_0 (grid1.coords ⟨n + 1, hn⟩) then k1_pay2 (k1_pay1 (F := F)) (xrow1 V hO c ⟨n + 1, hn⟩)
    else k1_pay2 (accAt1 hO c n (Nat.lt_of_succ_lt hn)) (xrow1 V hO c ⟨n + 1, hn⟩)

/-- At a sample's first feature the scratch restarts from zero. -/
theorem accAt1_A (hO : Ok1 V) (c : Dev nD) (t : Fin (cfgM1 V hO).N) (h0 : cond1_0 (grid1.coords t)) :
    accAt1 V hO c t.val t.isLt = k1_pay2 (k1_pay1 (F := F)) (xrow1 V hO c t) := by
  obtain ⟨n, hn⟩ := t
  cases n with
  | zero => rfl
  | succ n => exact if_pos h0

/-- Elsewhere it adds the row to what the point before left. -/
theorem accAt1_B (hO : Ok1 V) (c : Dev nD) (t : Fin (cfgM1 V hO).N) (h0 : ¬cond1_0 (grid1.coords t)) (hz : t.val ≠ 0) :
    accAt1 V hO c t.val t.isLt = k1_pay2 (accAt1 V hO c (t.val - 1) (by omega)) (xrow1 V hO c t) := by
  obtain ⟨n, hn⟩ := t
  cases n with
  | zero => exact absurd rfl hz
  | succ n => exact if_neg h0

/-- The sample's result as the body computes it at a point (read at the last feature). -/
def outAt1 (hO : Ok1 V) (c : Dev nD) (t : Fin (cfgM1 V hO).N) : Vec F S1x1x1 .f32 :=
  k1_pay3 (accAt1 V hO c t.val t.isLt) (xpa1 V hO c t) (xw1 V hO c t) (xb1 V hO c t)

/-- What rides along unread: the other scoped buffers, the generator register, the table. -/
def Rest1 (c : Dev nD) : sProp 𝕄 :=
  iprop(Pipeline.scopedRestBut (Ix := Unit) (Name := ℕ) (U := UR sig nD τ) (Lvl := ℕ) (Val := Elt F) spec1 c [cc1_scratch0]
    ∗ (∃ r, prngReg c r) ∗ Pipeline.prefHeld (Ix := Unit) (Name := ℕ) (U := UR sig nD τ) (Lvl := ℕ) pre1 c (fun _ => fullShare) (tbl1 V))

/-- The region invariant before position `n`: the scratch at anything before the first point, afterwards at what
    the point before left. -/
def PhiS1 (hO : Ok1 V) (c : Dev nD) : (n : ℕ) → n ≤ (cfgM1 V hO).N → sProp 𝕄
  | 0, _ => iprop((∃ d, owns (c : Thread nD τ) scM1 fullShare d) ∗ Rest1 V c)
  | n + 1, hn => iprop(owns (c : Thread nD τ) scM1 fullShare (accAt1 V hO c n hn) ∗ Rest1 V c)

theorem PhiS1_zero (hO : Ok1 V) (c : Dev nD) (n : ℕ) (h : n ≤ (cfgM1 V hO).N) (hz : n = 0) :
    PhiS1 V hO c n h = iprop((∃ d, owns (c : Thread nD τ) scM1 fullShare d) ∗ Rest1 V c) := by
  subst hz; rfl
theorem PhiS1_succ (hO : Ok1 V) (c : Dev nD) (n : ℕ) (hn : n < (cfgM1 V hO).N) :
    PhiS1 V hO c (n + 1) hn = iprop(owns (c : Thread nD τ) scM1 fullShare (accAt1 V hO c n hn) ∗ Rest1 V c) := rfl
theorem PhiS1_pos (hO : Ok1 V) (c : Dev nD) (n : ℕ) (h : n ≤ (cfgM1 V hO).N) (hz : n ≠ 0) :
    PhiS1 V hO c n h = iprop(owns (c : Thread nD τ) scM1 fullShare (accAt1 V hO c (n - 1) (by omega)) ∗ Rest1 V c) := by
  cases n with
  | zero => exact absurd rfl hz
  | succ n => rfl

/-- The proof data of the tile's pipeline on core `c`: the arrays as the region finds them; after the body each input's
    buffer at its block and the result's at `outAt1`; the invariant `PhiS1`; nothing owed; full shares. -/
def dat1 (hO : Ok1 V) (c : Dev nD) : Dat τ (Elt F) Unit ℕ (UR sig nD τ) ℕ (cfgM1 V hO) c where
  A w := V c (Pipeline.arrRef spec1 w)
  after w t := match w with
    | ⟨0, _⟩ => iblk1 V hO c 0 t
    | ⟨1, _⟩ => iblk1 V hO c 1 t
    | ⟨2, _⟩ => iblk1 V hO c 2 t
    | ⟨3, _⟩ => iblk1 V hO c 3 t
    | ⟨4, _⟩ => outAt1 V hO c t
  Φ t := PhiS1 V hO c t.val (Nat.le_of_lt_succ t.isLt)
  q _ := fullShare
  owed _ := 0

theorem A_eq1 (hO : Ok1 V) (c : Dev nD) (w : Fin (cfgM1 V hO).W) : (dat1 V hO c).A w = V c (Pipeline.arrRef spec1 w) := by
  dsimp only [dat1]
theorem PhiS1_castSucc (hO : Ok1 V) (c : Dev nD) (t : Fin (cfgM1 V hO).N) :
    (dat1 V hO c).Φ t.castSucc = PhiS1 V hO c t.val (Nat.le_of_lt t.isLt) := by
  dsimp only [dat1]; simp only [Fin.coe_castSucc]
theorem after1_0 (hO : Ok1 V) (c : Dev nD) (t : Fin (cfgM1 V hO).N) : (dat1 V hO c).after 0 t = iblk1 V hO c 0 t := by dsimp only [dat1]; try rfl
theorem after1_1 (hO : Ok1 V) (c : Dev nD) (t : Fin (cfgM1 V hO).N) : (dat1 V hO c).after 1 t = iblk1 V hO c 1 t := by dsimp only [dat1]; try rfl
theorem after1_2 (hO : Ok1 V) (c : Dev nD) (t : Fin (cfgM1 V hO).N) : (dat1 V hO c).after 2 t = iblk1 V hO c 2 t := by dsimp only [dat1]; try rfl
theorem after1_3 (hO : Ok1 V) (c : Dev nD) (t : Fin (cfgM1 V hO).N) : (dat1 V hO c).after 3 t = iblk1 V hO c 3 t := by dsimp only [dat1]; try rfl
theorem after1_4 (hO : Ok1 V) (c : Dev nD) (t : Fin (cfgM1 V hO).N) : (dat1 V hO c).after 4 t = outAt1 V hO c t := by dsimp only [dat1]; try rfl

theorem before1_0 (hO : Ok1 V) (c : Dev nD) (t : Fin (cfgM1 V hO).N) (d) : (dat1 V hO c).before 0 t d = iblk1 V hO c 0 t :=
  before1_0_of V hO (dat1 V hO c) (A_eq1 V hO c 0) (after1_0 V hO c) t d
theorem before1_1 (hO : Ok1 V) (c : Dev nD) (t : Fin (cfgM1 V hO).N) (d) : (dat1 V hO c).before 1 t d = iblk1 V hO c 1 t :=
  before1_1_of V hO (dat1 V hO c) (A_eq1 V hO c 1) (after1_1 V hO c) t d
theorem before1_2 (hO : Ok1 V) (c : Dev nD) (t : Fin (cfgM1 V hO).N) (d) : (dat1 V hO c).before 2 t d = iblk1 V hO c 2 t :=
  before1_2_of V hO (dat1 V hO c) (A_eq1 V hO c 2) (after1_2 V hO c) t d
theorem before1_3 (hO : Ok1 V) (c : Dev nD) (t : Fin (cfgM1 V hO).N) (d) : (dat1 V hO c).before 3 t d = iblk1 V hO c 3 t :=
  before1_3_of V hO (dat1 V hO c) (A_eq1 V hO c 3) (after1_3 V hO c) t d

/-- What the body is called with at point `t`, the windows one by one, -/
def bodyPre1 (hO : Ok1 V) (c : Dev nD) (t : Fin (cfgM1 V hO).N) : sProp 𝕄 :=
  iprop((dat1 V hO c).Φ t.castSucc ∗ (dat1 V hO c).owesAt () t.castSucc
    ∗ (∃ d, owns (c : Thread nD τ) (ms1_0 V hO t) fullShare ((dat1 V hO c).before 0 t d))
    ∗ (∃ d, owns (c : Thread nD τ) (ms1_1 V hO t) fullShare ((dat1 V hO c).before 1 t d))
    ∗ (∃ d, owns (c : Thread nD τ) (ms1_2 V hO t) fullShare ((dat1 V hO c).before 2 t d))
    ∗ (∃ d, owns (c : Thread nD τ) (ms1_3 V hO t) fullShare ((dat1 V hO c).before 3 t d))
    ∗ (∃ d, owns (c : Thread nD τ) (ms1_4 V hO t) fullShare ((dat1 V hO c).before 4 t d)))

/-- and what it returns. -/
def bodyPost1 (hO : Ok1 V) (c : Dev nD) (t : Fin (cfgM1 V hO).N) : sProp 𝕄 :=
  iprop((dat1 V hO c).Φ t.succ ∗ (dat1 V hO c).owesAt () t.succ
    ∗ (dat1 V hO c).leavesExact 0 t
    ∗ (dat1 V hO c).leavesExact 1 t
    ∗ (dat1 V hO c).leavesExact 2 t
    ∗ (dat1 V hO c).leavesExact 3 t
    ∗ (dat1 V hO c).leavesExact 4 t)

/-- The windows' idle flags at a point, stated at the pinned configuration. -/
theorem liveAtM1_0 (hO : Ok1 V) (t : Fin (cfgM1 V hO).N) : (cfgM1 V hO).idle 0 ((cfgM1 V hO).grid.coords t) = false := rfl
theorem liveAtM1_1 (hO : Ok1 V) (t : Fin (cfgM1 V hO).N) : (cfgM1 V hO).idle 1 ((cfgM1 V hO).grid.coords t) = false := rfl
theorem liveAtM1_2 (hO : Ok1 V) (t : Fin (cfgM1 V hO).N) : (cfgM1 V hO).idle 2 ((cfgM1 V hO).grid.coords t) = false := rfl
theorem liveAtM1_3 (hO : Ok1 V) (t : Fin (cfgM1 V hO).N) : (cfgM1 V hO).idle 3 ((cfgM1 V hO).grid.coords t) = false := rfl
theorem idleAtM1_4 (hO : Ok1 V) (t : Fin (cfgM1 V hO).N) (h : ¬cond1_1 (grid1.coords t)) :
    (cfgM1 V hO).idle 4 ((cfgM1 V hO).grid.coords t) = true := idleAt1_4 (adm1 V hO) (grid1.coords t) h
theorem liveAtM1_4 (hO : Ok1 V) (t : Fin (cfgM1 V hO).N) (h : cond1_1 (grid1.coords t)) :
    (cfgM1 V hO).idle 4 ((cfgM1 V hO).grid.coords t) = false := liveAt1_4 (adm1 V hO) (grid1.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body1 (hO : Ok1 V) (c : Dev nD) (t : Fin (cfgM1 V hO).N) :
    bodyPre1 V hO c t ⊢ wp frame (wpE (defs₀ (F := F)) Variants.none c none) Set.univ (bodyAt1 (adm1 V hO) t) (fun _ => bodyPost1 V hO c t) := by
  unfold bodyPre1 bodyPost1 bodyAt1
  simp only [before1_0, before1_1, before1_2, before1_3]
  rw [show (dat1 V hO c).owesAt () t.succ = (dat1 V hO c).owesAt () t.castSucc from rfl]
  rw [show (dat1 V hO c).Φ t.succ = PhiS1 V hO c (t.val + 1) t.isLt from rfl, PhiS1_succ]
  rw [show (dat1 V hO c).leavesExact 0 t = owns (c : Thread nD τ) (ms1_0 V hO t) fullShare ((dat1 V hO c).after 0 t) from by
    unfold Dat.leavesExact; rw [liveAtM1_0 V hO t]; try rfl]
  rw [after1_0]
  rw [show (dat1 V hO c).leavesExact 1 t = owns (c : Thread nD τ) (ms1_1 V hO t) fullShare ((dat1 V hO c).after 1 t) from by
    unfold Dat.leavesExact; rw [liveAtM1_1 V hO t]; try rfl]
  rw [after1_1]
  rw [show (dat1 V hO c).leavesExact 2 t = owns (c : Thread nD τ) (ms1_2 V hO t) fullShare ((dat1 V hO c).after 2 t) from by
    unfold Dat.leavesExact; rw [liveAtM1_2 V hO t]; try rfl]
  rw [after1_2]
  rw [show (dat1 V hO c).leavesExact 3 t = owns (c : Thread nD τ) (ms1_3 V hO t) fullShare ((dat1 V hO c).after 3 t) from by
    unfold Dat.leavesExact; rw [liveAtM1_3 V hO t]; try rfl]
  rw [after1_3]
  rw [PhiS1_castSucc]
  by_cases h0 : cond1_0 (grid1.coords t)
  · by_cases h1 : cond1_1 (grid1.coords t)
    · exact absurd h1 (fun h => not_both1 _ h0 h)
    · rw [Dat.leavesExact_idle (dat1 V hO c) 4 t (idleAtM1_4 V hO t h1) (noFlush1_4 (adm1 V hO) t h1)]
      rw [accAt1_A V hO c t h0]
      by_cases hz : t.val = 0
      · rw [PhiS1_zero V hO c _ _ hz]
        iintro ⟨⟨HS, HR⟩, Ho, ⟨%d0, H0⟩, ⟨%d1, H1⟩, ⟨%d2, H2⟩, ⟨%d3, H3⟩, ⟨%d4, H4⟩⟩
        iapply (run1_A c (grid1.coords t) _ _ _ _ _ _ _ _ _ _ _ _ _ _ h0 h1 (xrow1 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS1_pos V hO c _ _ hz]
        iintro ⟨⟨HS, HR⟩, Ho, ⟨%d0, H0⟩, ⟨%d1, H1⟩, ⟨%d2, H2⟩, ⟨%d3, H3⟩, ⟨%d4, H4⟩⟩
        iapply (run1_A c (grid1.coords t) _ _ _ _ _ _ _ _ _ _ _ _ _ _ h0 h1 (xrow1 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond1_0_first t hz)
    rw [PhiS1_pos V hO c _ _ hz, accAt1_B V hO c t h0 hz]
    by_cases h1 : cond1_1 (grid1.coords t)
    · rw [show (dat1 V hO c).leavesExact 4 t = owns (c : Thread nD τ) (ms1_4 V hO t) fullShare ((dat1 V hO c).after 4 t) from by
        unfold Dat.leavesExact; rw [liveAtM1_4 V hO t h1]; try rfl]
      rw [after1_4]
      unfold outAt1
      rw [accAt1_B V hO c t h0 hz]
      iintro ⟨⟨HS, HR⟩, Ho, ⟨%d0, H0⟩, ⟨%d1, H1⟩, ⟨%d2, H2⟩, ⟨%d3, H3⟩, ⟨%d4, H4⟩⟩
      iapply (run1_C c (grid1.coords t) _ _ _ _ _ _ _ _ _ _ _ _ _ _ h0 h1 (xrow1 V hO c t) (xpa1 V hO c t) (xw1 V hO c t) (xb1 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat1 V hO c) 4 t (idleAtM1_4 V hO t h1) (noFlush1_4 (adm1 V hO) t h1)]
      iintro ⟨⟨HS, HR⟩, Ho, ⟨%d0, H0⟩, ⟨%d1, H1⟩, ⟨%d2, H2⟩, ⟨%d3, H3⟩, ⟨%d4, H4⟩⟩
      iapply (run1_B c (grid1.coords t) _ _ _ _ _ _ _ _ _ _ _ _ _ _ h0 h1 (xrow1 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (hO : Ok1 V) (c : Dev nD) :
    BodyObligation (dat1 (F := F) V hO c) (defs₀ (F := F)) Variants.none () Set.univ := fun t => by
  rw [bigSep_W1, bigSep_W1]
  exact sound_body1 V hO c t

end Cert.Kernel.Hand

end
-- ==== Proof.R1ValBits.lean ====
import proofs.«402893_j78554951844377_2_alg».proof.Proof.R1AccBits
import proofs.«402893_j78554951844377_2_alg».proof.Proof.R1GridBits
import proofs.«402893_j78554951844377_2_alg».proof.Proof.OkTablesBits
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 1: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt1 (t : Fin grid1.N) : t.val / 32 < 2048 := by
  have ht : t.val < 65536 := N_1 ▸ t.isLt
  omega

/-- The last feature of sample `r` is a point of the grid. -/
theorem lastPt_lt1 (r : ℕ) (hr : r < 2048) : 32 * r + 31 < grid1.N := by rw [N_1]; omega

/-- Under the side condition every word the index map of window 0 reads names a row of the embedding table. -/
theorem tword1_lt (pf : pre1.Contents (Elt F)) (h : ok1 pf) (i : grid1.Coords) : (tword1 pf i).toNat < 786432 := by
  obtain ⟨hb, -⟩ := h i
  have h0 := hb 0
  rw [transform1_eq pf i] at h0
  have h0' : ((tword1 pf i).toNat + 1) * 1 ≤ 786432 := h0
  omega

/-- Window 0's block at point `t` is the row the table's word names. -/
theorem index1_0 (a : (pcfg1 (F := F)).Adm) (t : Fin (cfg1 a).N) :
    ((cfg1 a).win 0).index t = ![(tword1 a.1 (grid1.coords t)).toNat, 0, 0] :=
  transform1_eq a.1 (grid1.coords t)

/-- Lane `l` of window 0's block sits in the embedding table at (the named row, 0, l). -/
theorem emb1_0 (a : (pcfg1 (F := F)).Adm) (t : Fin (cfg1 a).N) (l : Fin 128) :
    (((cfg1 a).win 0).blk t).view.emb (ValueIdx.ix3 (0 : Fin 1) (0 : Fin 1) l)
      = ValueIdx.ix3 (⟨(tword1 a.1 (grid1.coords t)).toNat, tword1_lt a.1 a.2 (grid1.coords t)⟩ : Fin 786432) (0 : Fin 1) l := by
  funext d; apply Fin.ext
  match d with
  | ⟨0, _⟩ => show ((cfg1 a).win 0).index t (0 : Fin 3) * 1 + 1 * 0 = (tword1 a.1 (grid1.coords t)).toNat; rw [index1_0]; show (tword1 a.1 (grid1.coords t)).toNat * 1 + 1 * 0 = _; omega
  | ⟨1, _⟩ => show ((cfg1 a).win 0).index t (1 : Fin 3) * 1 + 1 * 0 = 0; rw [index1_0]; rfl
  | ⟨2, _⟩ => show ((cfg1 a).win 0).index t (2 : Fin 3) * 128 + 1 * l.val = l.val; rw [index1_0]; show 0 * 128 + 1 * l.val = l.val; omega

/-- Lane `l` of window 1's block sits in its array at (sample, 0, l). -/
theorem emb1_1 (a : (pcfg1 (F := F)).Adm) (t : Fin (cfg1 a).N) (l : Fin 128) :
    (((cfg1 a).win 1).blk t).view.emb (ValueIdx.ix3 (0 : Fin 1) (0 : Fin 1) l)
      = ValueIdx.ix3 (⟨t.val / 32, sample_lt1 t⟩ : Fin 2048) (0 : Fin 1) l := by
  funext d; apply Fin.ext
  match d with
  | ⟨0, _⟩ => show ((cfg1 a).win 1).index t (0 : Fin 3) * 1 + 1 * 0 = t.val / 32; rw [index1_1]; show t.val / 32 * 1 + 1 * 0 = _; omega
  | ⟨1, _⟩ => show ((cfg1 a).win 1).index t (1 : Fin 3) * 1 + 1 * 0 = 0; rw [index1_1]; rfl
  | ⟨2, _⟩ => show ((cfg1 a).win 1).index t (2 : Fin 3) * 128 + 1 * l.val = l.val; rw [index1_1]; show 0 * 128 + 1 * l.val = l.val; omega

/-- Lane `l` of window 2's block sits in its array at (sample, 0, l). -/
theorem emb1_2 (a : (pcfg1 (F := F)).Adm) (t : Fin (cfg1 a).N) (l : Fin 128) :
    (((cfg1 a).win 2).blk t).view.emb (ValueIdx.ix3 (0 : Fin 1) (0 : Fin 1) l)
      = ValueIdx.ix3 (⟨t.val / 32, sample_lt1 t⟩ : Fin 2048) (0 : Fin 1) l := by
  funext d; apply Fin.ext
  match d with
  | ⟨0, _⟩ => show ((cfg1 a).win 2).index t (0 : Fin 3) * 1 + 1 * 0 = t.val / 32; rw [index1_2]; show t.val / 32 * 1 + 1 * 0 = _; omega
  | ⟨1, _⟩ => show ((cfg1 a).win 2).index t (1 : Fin 3) * 1 + 1 * 0 = 0; rw [index1_2]; rfl
  | ⟨2, _⟩ => show ((cfg1 a).win 2).index t (2 : Fin 3) * 128 + 1 * l.val = l.val; rw [index1_2]; show 0 * 128 + 1 * l.val = l.val; omega

/-- The one element of window 3's block sits in its array at (sample, 0, 0). -/
theorem emb1_3 (a : (pcfg1 (F := F)).Adm) (t : Fin (cfg1 a).N) :
    (((cfg1 a).win 3).blk t).view.emb (ValueIdx.ix3 (0 : Fin 1) (0 : Fin 1) (0 : Fin 1))
      = ValueIdx.ix3 (⟨t.val / 32, sample_lt1 t⟩ : Fin 2048) (0 : Fin 1) (0 : Fin 1) := by
  funext d; apply Fin.ext
  match d with
  | ⟨0, _⟩ => show ((cfg1 a).win 3).index t (0 : Fin 3) * 1 + 1 * 0 = t.val / 32; rw [index1_3]; show t.val / 32 * 1 + 1 * 0 = _; omega
  | ⟨1, _⟩ => show ((cfg1 a).win 3).index t (1 : Fin 3) * 1 + 1 * 0 = 0; rw [index1_3]; rfl
  | ⟨2, _⟩ => show ((cfg1 a).win 3).index t (2 : Fin 3) * 1 + 1 * 0 = 0; rw [index1_3]; rfl

/-- The one element of the result window's block sits in the result array at (sample, 0, 0). -/
theorem emb1_4 (a : (pcfg1 (F := F)).Adm) (t : Fin (cfg1 a).N) :
    (((cfg1 a).win 4).blk t).view.emb (ValueIdx.ix3 (0 : Fin 1) (0 : Fin 1) (0 : Fin 1))
      = ValueIdx.ix3 (⟨t.val / 32, sample_lt1 t⟩ : Fin 2048) (0 : Fin 1) (0 : Fin 1) := by
  funext d; apply Fin.ext
  match d with
  | ⟨0, _⟩ => show ((cfg1 a).win 4).index t (0 : Fin 3) * 1 + 1 * 0 = t.val / 32; rw [index1_4]; show t.val / 32 * 1 + 1 * 0 = _; omega
  | ⟨1, _⟩ => show ((cfg1 a).win 4).index t (1 : Fin 3) * 1 + 1 * 0 = 0; rw [index1_4]; rfl
  | ⟨2, _⟩ => show ((cfg1 a).win 4).index t (2 : Fin 3) * 1 + 1 * 0 = 0; rw [index1_4]; rfl

section AtTable

variable (V : (c : Dev nD) → (b : Ref sig .tc) → Buf (Elt F) ((c : Thread nD τ).loc b))

/-! ## The input blocks at coordinates -/

/-- The row of the embedding table gathered at point `t`: the table's word there. -/
abbrev rho1 (t : Fin grid1.N) : ℕ := (tword1 (tbl1 V) (grid1.coords t)).toNat

/-- It is a row of the table, under the side condition. -/
theorem rho1_lt (hO : Ok1 V) (t : Fin grid1.N) : rho1 V t < 786432 := tword1_lt (tbl1 V) hO (grid1.coords t)

/-- Lane `l` of the gathered row at point `t` is the embedding table at (the named row, 0, l). -/
theorem xrow1_apply (hO : Ok1 V) (c : Dev nD) (t : Fin (cfgM1 V hO).N) (l : Fin 128) :
    xrow1 V hO c t (ValueIdx.ix3 (0 : Fin 1) (0 : Fin 1) l)
      = V c main_v34 (ValueIdx.ix3 (⟨rho1 V t, rho1_lt V hO t⟩ : Fin 786432) (0 : Fin 1) l) := by
  show V c main_v34 ((((cfgM1 V hO).win 0).blk t).view.emb (ValueIdx.ix3 (0 : Fin 1) (0 : Fin 1) l)) = _
  exact congrArg (V c main_v34) (emb1_0 (adm1 V hO) t l)

/-- Lane `l` of the phase-bias block at point `t` is its array at (sample, 0, l). -/
theorem xpa1_apply (hO : Ok1 V) (c : Dev nD) (t : Fin (cfgM1 V hO).N) (l : Fin 128) :
    xpa1 V hO c t (ValueIdx.ix3 (0 : Fin 1) (0 : Fin 1) l)
      = V c main_v43 (ValueIdx.ix3 (⟨t.val / 32, sample_lt1 t⟩ : Fin 2048) (0 : Fin 1) l) := by
  show V c main_v43 ((((cfgM1 V hO).win 1).blk t).view.emb (ValueIdx.ix3 (0 : Fin 1) (0 : Fin 1) l)) = _
  exact congrArg (V c main_v43) (emb1_1 (adm1 V hO) t l)

/-- Lane `l` of the head-weight block at point `t` is its array at (sample, 0, l). -/
theorem xw1_apply (hO : Ok1 V) (c : Dev nD) (t : Fin (cfgM1 V hO).N) (l : Fin 128) :
    xw1 V hO c t (ValueIdx.ix3 (0 : Fin 1) (0 : Fin 1) l)
      = V c main_v44 (ValueIdx.ix3 (⟨t.val / 32, sample_lt1 t⟩ : Fin 2048) (0 : Fin 1) l) := by
  show V c main_v44 ((((cfgM1 V hO).win 2).blk t).view.emb (ValueIdx.ix3 (0 : Fin 1) (0 : Fin 1) l)) = _
  exact congrArg (V c main_v44) (emb1_2 (adm1 V hO) t l)

/-- The head-bias block at point `t` is its array at (sample, 0, 0). -/
theorem xb1_apply (hO : Ok1 V) (c : Dev nD) (t : Fin (cfgM1 V hO).N) :
    xb1 V hO c t (ValueIdx.ix3 (0 : Fin 1) (0 : Fin 1) (0 : Fin 1))
      = V c main_v45 (ValueIdx.ix3 (⟨t.val / 32, sample_lt1 t⟩ : Fin 2048) (0 : Fin 1) (0 : Fin 1)) := by
  show V c main_v45 ((((cfgM1 V hO).win 3).blk t).view.emb (ValueIdx.ix3 (0 : Fin 1) (0 : Fin 1) (0 : Fin 1))) = _
  exact congrArg (V c main_v45) (emb1_3 (adm1 V hO) t)

/-! ## The arrays after the run -/

/-- An input's array is never written: it ends as the region found it. -/
theorem arrAt1_in (hO : Ok1 V) (c : Dev nD) (w : Fin 5) (hw : w ≠ 4) :
    (dat1 V hO c).arrAt w (cfgM1 V hO).N = V c (Pipeline.arrRef spec1 w) := by
  have hin : ((cfgM1 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat1 V hO c).arrAt_in w hin _).trans (A_eq1 V hO c w)

/-- THE RESULT ARRAY of the tile: row `r` holds what the body left in the result block at sample `r`'s last feature. -/
def tileRes1 (hO : Ok1 V) (c : Dev nD) : Buf (Elt F) ((c : Thread nD τ).loc main_v46) :=
  fun (i : S2048x1x1.Idx) => outAt1 V hO c ⟨32 * (i 0).val + 31, lastPt_lt1 (i 0).val (i 0).isLt⟩ (ValueIdx.ix3 (0 : Fin 1) (0 : Fin 1) (0 : Fin 1))

theorem tileRes1_apply (hO : Ok1 V) (c : Dev nD) (r : Fin 2048) :
    tileRes1 V hO c (ValueIdx.ix3 r (0 : Fin 1) (0 : Fin 1))
      = outAt1 V hO c ⟨32 * r.val + 31, lastPt_lt1 r.val r.isLt⟩ (ValueIdx.ix3 (0 : Fin 1) (0 : Fin 1) (0 : Fin 1)) := rfl

/-- The result block read at two names of one point. -/
theorem outAt1_congr (hO : Ok1 V) (c : Dev nD) {t t' : Fin (cfgM1 V hO).N} (h : t.val = t'.val) (j : S1x1x1.Idx) :
    outAt1 V hO c t j = outAt1 V hO c t' j := by
  obtain rfl : t = t' := Fin.ext h
  rfl

/-- What a write-back writes is the written row of `tileRes1`: the point is its sample's last feature `32 (t / 32) + 31`,
    and the block's one element is the row's. -/
theorem flushed1_4_eq (hO : Ok1 V) (c : Dev nD) (t : Fin (cfgM1 V hO).N) (hf : ((cfgM1 V hO).win 4).flush t = true) :
    (dat1 V hO c).flushed 4 t = (((cfgM1 V hO).win 4).blk t).view.read (Elt F) (tileRes1 V hO c) := by
  have h31 : t.val % 32 = 31 := (flush1_4_iff (adm1 V hO) t).mp hf
  show ((cfgM1 V hO).win 4).cut (grid1.coords t) ((dat1 V hO c).after 4 t) = _
  rw [after1_4]
  funext j
  have hj : (((cfgM1 V hO).win 4).xinj (grid1.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM1 V hO).win 4).blk t).view.emb j : S2048x1x1.Idx) (0 : Fin 3)).val + 31 := by
    have h : (j (0 : Fin 3)).val < 1 := (j (0 : Fin 3)).isLt
    show t.val = 32 * (((cfgM1 V hO).win 4).index t (0 : Fin 3) * 1 + 1 * (j (0 : Fin 3)).val) + 31
    rw [index1_4]
    show t.val = 32 * (t.val / 32 * 1 + 1 * (j (0 : Fin 3)).val) + 31
    omega
  show outAt1 V hO c t (((cfgM1 V hO).win 4).xinj (grid1.coords t) j) = tileRes1 V hO c ((((cfgM1 V hO).win 4).blk t).view.emb j)
  rw [hj]
  exact outAt1_congr V hO c hv _

/-- Every row of the result array is some write-back's block: row `r` is the block of point `32 r + 31`. -/
theorem cover1_4 (hO : Ok1 V) (i : S2048x1x1.Idx) :
    ∃ t : Fin (cfgM1 V hO).N, ((cfgM1 V hO).win 4).flush t = true ∧ i ∈ (((cfgM1 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt1 _ h0⟩, (flush1_4_iff (adm1 V hO) _).mpr (by show (32 * (i 0).val + 31) % 32 = 31; omega), ?_⟩
  have he : (((cfgM1 V hO).win 4).blk ⟨32 * (i 0).val + 31, lastPt_lt1 _ h0⟩).view.emb (ValueIdx.ix3 (0 : Fin 1) (0 : Fin 1) (0 : Fin 1)) = i := by
    refine (emb1_4 (adm1 V hO) ⟨32 * (i 0).val + 31, lastPt_lt1 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM1 V hO).win 4).blk ⟨32 * (i 0).val + 31, lastPt_lt1 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes1`. -/
theorem arrAt1_4 (hO : Ok1 V) (c : Dev nD) : (dat1 V hO c).arrAt 4 (cfgM1 V hO).N = tileRes1 V hO c :=
  (dat1 V hO c).arrAt_eq_of_cover 4 (tileRes1 V hO c) (fun t hf => flushed1_4_eq V hO c t hf) (fun i => cover1_4 V hO i)

end AtTable

end Cert.Kernel.Hand

end
-- ==== Proof.R1SegBits.lean ====
/-
  Tile 1's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 1's admissible contents and
  proof data is ten small facts (`Pinned1`); they hold of tile 1's own (`pinned_dat1`) and so of any family whose
  component 1 is tile 1's (`Pinned1.of_eq`).
-/
import proofs.«402893_j78554951844377_2_alg».proof.Proof.R1AccBits
import proofs.«402893_j78554951844377_2_alg».proof.Proof.FamilyBits
import proofs.«402893_j78554951844377_2_alg».proof.Proof.GlueBits
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 1's contents and proof data -/

variable (Vin : (c : Dev nD) → (b : Ref sig .tc) → Buf (Elt F) ((c : Thread nD τ).loc b))

/-- The scratch operand owned whole at some contents is its buffer held at some contents. -/
theorem scratch1_eq (c : Dev nD) :
    (iprop(∃ d, owns (c : Thread nD τ) scM1 fullShare d) : sProp 𝕄)
      = iprop(∃ f : Buf (Elt F) ((c : Thread nD τ).loc cc1_scratch0), ((c : Thread nD τ).loc cc1_scratch0) ↦{fullShare} f) := by
  simp only [scM1, owns_whole]; try rfl

/-- What the record needs of pipeline 1's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned1 (Vx : Dev nD → Valuation τ sig (Elt F)) (a0 : (pcfgs (F := F) 1).Adm)
    (d0 : (c : Dev nD) → Dat τ (Elt F) Unit ℕ (UR sig nD τ) ℕ ((pcfgs (F := F) 1).at a0) c) : Prop where
  tbl : a0.1 = tbl1 Vin
  q : ∀ (c : Dev nD) w, (d0 c).q w = fullShare
  A : ∀ (c : Dev nD) w, (d0 c).A w = Vin c (Pipeline.arrRef spec1 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM1 fullShare d) ∗ Rest1 Vin c) : sProp 𝕄) ⊢ (d0 c).Φ 0
  phiOut : ∀ c : Dev nD, (d0 c).Φ (Fin.last _) ⊢ (iprop((∃ d, owns (c : Thread nD τ) scM1 fullShare d) ∗ Rest1 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 1).at a0).N = Vx c (Pipeline.arrRef spec1 w)

set_option maxHeartbeats 400000 in
/-- Tile 1's own contents and proof data have them: each field by unfolding the proof data; the last stage of the
    invariant is a later one (the grid has 65536 points), so it holds the scratch at the last point's contents. -/
theorem pinned_dat1 (hO : Ok1 Vin) (Vx : Dev nD → Valuation τ sig (Elt F))
    (hF : ∀ c w, (dat1 Vin hO c).arrAt w (cfgM1 Vin hO).N = Vx c (Pipeline.arrRef spec1 w)) :
    Pinned1 Vin Vx (adm1 Vin hO) (dat1 Vin hO) where
  tbl := rfl
  q c w := rfl
  A c w := A_eq1 Vin hO c w
  owed c t := rfl
  body c := (body_obligation1 Vin hO c).loose
  phiIn c := by
    rw [show (dat1 Vin hO c).Φ 0 = PhiS1 Vin hO c ((0 : Fin ((cfgM1 Vin hO).N + 1)).val) (Nat.le_of_lt_succ (0 : Fin ((cfgM1 Vin hO).N + 1)).isLt) from rfl,
      PhiS1_zero Vin hO c _ _ (Fin.val_zero _)]
  phiOut c := by
    have hN : (Fin.last (cfgM1 Vin hO).N).val ≠ 0 := by
      rw [Fin.val_last, show (cfgM1 Vin hO).N = grid1.N from rfl, N_1]; decide
    show PhiS1 Vin hO c (Fin.last (cfgM1 Vin hO).N).val (Nat.le_of_lt_succ (Fin.last (cfgM1 Vin hO).N).isLt) ⊢ _
    rw [PhiS1_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 1's. -/
theorem Pinned1.of_eq (hO : Ok1 Vin) {Vx : Dev nD → Valuation τ sig (Elt F)} {a0 : (pcfgs (F := F) 1).Adm}
    {d0 : (c : Dev nD) → Dat τ (Elt F) Unit ℕ (UR sig nD τ) ℕ ((pcfgs (F := F) 1).at a0) c}
    (ha : a0 = adm1 Vin hO) (hd : ∀ c, HEq (d0 c) (dat1 Vin hO c)) (h : Pinned1 Vin Vx (adm1 Vin hO) (dat1 Vin hO)) :
    Pinned1 Vin Vx a0 d0 := by
  subst ha
  obtain rfl : d0 = dat1 Vin hO := funext fun c => eq_of_heq (hd c)
  exact h

/-! ## The record -/

set_option backward.isDefEq.respectTransparency.types false in
set_option maxHeartbeats 1600000 in
/-- Tile 1's region over ANY family of pipelines whose component 1 is tile 1's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg1G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok1 Vin) (ha : a 1 = adm1 Vin hO) (hd : ∀ c, HEq (pdats 1 c) (dat1 Vin hO c))
    (hag : ∀ c w, V c (Proc.devRef .tc (Pipeline.arrRef spec1 w)) = Vin c (Pipeline.arrRef spec1 w))
    (hagT : ∀ c j, V c (Proc.devRef .tc (pre1.ref j)) = Vin c (pre1.ref j))
    (hF : ∀ c w, (dat1 Vin hO c).arrAt w (cfgM1 Vin hO).N = Vx c (Pipeline.arrRef spec1 w))
    (hrest : ∀ c b, b ∉ Finset.univ.image (Pipeline.arrRef spec1) → Vx c b = V c b) :
    Pipeline.RegionSeg (pcfgs (F := F)) a pdats () defs₀ Variants.none (fun _ => ∅) (fun _ _ => 0) 1 :=
  have hp : Pinned1 Vin Vx (a 1) (pdats 1) := Pinned1.of_eq Vin hO ha hd (pinned_dat1 Vin hO Vx hF)
  have htbl : ∀ c, (fun k => V c (Proc.devRef .tc ((pcfgs (F := F) 1).pre.ref k))) = (a 1).1 := fun c => by
    rw [hp.tbl]; funext k; exact (hagT c k).trans (V_pre1 Vin c k)
  { win := (launch1 (F := F)).win.to₀
    block_pos := (launch1 (F := F)).block_pos
    stage_whole := (launch1 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 1 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre1 c (fun _ => fullShare) (tbl1 Vin))
    Z := fun c => Pipeline.unscopedRestP (Ix := Unit) (Name := ℕ) (U := UR sig nD τ) (Lvl := ℕ) pre1 spec1 c (fun b => V c b)
    hentry := fun c => by
      rw [Pipeline.ownSems0_none]
      have hsplit := Pipeline.arrays_of_unscopedBufs (p := 1) (pcfgs (F := F)) a pdats (launch1 (F := F)).win (launch1 (F := F)).arr_whole c
        ((pdats 1 c).share_full (hp.q c)) (fun b => V c b) (fun w => (hp.A c w).trans (hag c w).symm)
      rw [Pipeline.unscopedBufs_held, Pipeline.unscopedRest_split (launch1 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 1).spec c : sProp 𝕄) = _ from scopedRest1_split c, hp.tbl]
      refine BIBase.Entails.trans ?_ (hp.phiIn c)
      rw [scratch1_eq]
      unfold Rest1
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 1).spec c : sProp 𝕄) = _ from scopedRest1_split c]
      refine BIBase.Entails.trans (hp.phiOut c) ?_
      rw [scratch1_eq]
      unfold Rest1
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 1) (pcfgs (F := F)) a (Ix := Unit) (Name := ℕ) (U := UR sig nD τ) (Lvl := ℕ)
        (launch1 (F := F)).win (launch1 (F := F)).arr_whole c pdats ((pdats 1 c).share_full (hp.q c))
        (fun b => V c b) (fun b => Vx c b) ((pdats 1 c).arrAt · (Pipeline.pin (pcfgs (F := F)) a 1).N) (hp.fin c) (hrest c)
      rw [Pipeline.unscopedBufs_held, Pipeline.unscopedRest_split (launch1 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 1's record over the assembled families, tile 1's components in slot 1. -/
def reg1 (hO : Ok1 Vin) (V Vx : Dev nD → Valuation τ sig (Elt F))
    (hag : ∀ c w, V c (Proc.devRef .tc (Pipeline.arrRef spec1 w)) = Vin c (Pipeline.arrRef spec1 w))
    (hagT : ∀ c j, V c (Proc.devRef .tc (pre1.ref j)) = Vin c (pre1.ref j))
    (hF : ∀ c w, (dat1 Vin hO c).arrAt w (cfgM1 Vin hO).N = Vx c (Pipeline.arrRef spec1 w))
    (hrest : ∀ c b, b ∉ Finset.univ.image (Pipeline.arrRef spec1) → Vx c b = V c b)
    (a0 : (pcfg0 (F := F)).Adm)
    (a2 : (pcfg2 (F := F)).Adm)
    (a3 : (pcfg3 (F := F)).Adm)
    (a4 : (pcfg4 (F := F)).Adm)
    (a5 : (pcfg5 (F := F)).Adm)
    (a6 : (pcfg6 (F := F)).Adm)
    (a7 : (pcfg7 (F := F)).Adm)
    (d0 : (c : Dev nD) → Dat τ (Elt F) Unit ℕ (UR sig nD τ) ℕ (cfg0 a0) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 (adm1 Vin hO) a2 a3 a4 a5 a6 a7)
      (pdatsOf a0 (adm1 Vin hO) a2 a3 a4 a5 a6 a7 d0 (dat1 Vin hO) d2 d3 d4 d5 d6 d7) () defs₀ Variants.none (fun _ => ∅) (fun _ _ => 0) 1 :=
  reg1G Vin V Vx _ _ hO rfl (fun _ => HEq.rfl) hag hagT hF hrest

/-- The thread state the record is entered from, -/
theorem reg1_pre (hO : Ok1 Vin) (V Vx : Dev nD → Valuation τ sig (Elt F)) (hag) (hagT) (hF) (hrest) (a0) (a2) (a3) (a4) (a5) (a6) (a7) (d0) (d2) (d3) (d4) (d5) (d6) (d7) (c : Dev nD) :
    (reg1 Vin hO V Vx hag hagT hF hrest a0 a2 a3 a4 a5 a6 a7 d0 d2 d3 d4 d5 d6 d7).pre c
      = iprop(StableHlo.held (c : Thread nD τ) (Pipeline.ucRefs τ sig) (V c) ∗ Rr (F := F) c) := rfl
/-- and the one it leaves. -/
theorem reg1_post (hO : Ok1 Vin) (V Vx : Dev nD → Valuation τ sig (Elt F)) (hag) (hagT) (hF) (hrest) (a0) (a2) (a3) (a4) (a5) (a6) (a7) (d0) (d2) (d3) (d4) (d5) (d6) (d7) (c : Dev nD) :
    (reg1 Vin hO V Vx hag hagT hF hrest a0 a2 a3 a4 a5 a6 a7 d0 d2 d3 d4 d5 d6 d7).post c
      = iprop(StableHlo.held (c : Thread nD τ) (Pipeline.ucRefs τ sig) (Vx c) ∗ Rr (F := F) c) := rfl

end Cert.Kernel.Hand

end
-- ==== Proof.R1AgreeBits.lean ====
import proofs.«402893_j78554951844377_2_alg».proof.Proof.KHostBits
import Idealize.ShloMosaic.Lib.ValueIdx

noncomputable section

namespace Cert.Kernel.Hand

open Cert.Kernel Cert.Kernel.Gen
open Idealize.ShloMosaic Idealize.ShloMosaic.TcCoe

variable {F : FTy → Type} [FloatOps F]

/-! # Tile 1: what the region reads does not depend on what earlier regions left

The table, the embedding table, the three slices and the (not yet written) result array of tile 1 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree1_tbl : V7 m outs c main_v42 = V7 m outs' c main_v42 := by
  funext (j : S65536.Idx)
  obtain ⟨a, rfl⟩ : ∃ a : Fin 65536, j = ValueIdx.ix1 a := ⟨j 0, ValueIdx.eq_ix1 j⟩
  rw [tbl1_apply m outs c, tbl1_apply m outs' c]

theorem agree1_emb : V7 m outs c main_v34 = V7 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb1_apply m outs c, emb1_apply m outs' c]

theorem agree1_pa : V7 m outs c main_v43 = V7 m outs' c main_v43 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa1_apply m outs c, pa1_apply m outs' c]

theorem agree1_w : V7 m outs c main_v44 = V7 m outs' c main_v44 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w1_apply m outs c, w1_apply m outs' c]

theorem agree1_b : V7 m outs c main_v45 = V7 m outs' c main_v45 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b1_apply m outs c, b1_apply m outs' c]

/-- The result array has not been written when the region is entered: it holds its launch contents. -/
theorem entry1_out : V7 m outs c main_v46 = V5 m c main_v46 :=
  (V7_of m outs c main_v46 (by decide)).trans (V6_of m outs c main_v46 (by decide))

theorem agree1_out : V7 m outs c main_v46 = V7 m outs' c main_v46 :=
  (entry1_out m outs c).trans (entry1_out m outs' c).symm

end Cert.Kernel.Hand

end
-- ==== Proof.R2RunBits.lean ====
import proofs.«402893_j78554951844377_2_alg».proof.Proof.Gen.Kernel.Launch
import proofs.«402893_j78554951844377_2_alg».proof.Proof.Gen.Kernel.Skeleton
import proofs.«402893_j78554951844377_2_alg».proof.Proof.R0RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 2: the kernel body at one grid point

Tile 2's kernel function is tile 0's (the same body, the same payloads and conditions under other names), so its three
runs are tile 0's. -/

/-- The body's first condition: the feature coordinate is 0. -/
abbrev cond2_0 (i : grid2.Coords) : Prop := (Scalar.cmpi .ne (Scalar.extui (Scalar.cmpi .eq (BitVec.ofNat 32 (i 1).val) 0#32)) 0#32) = 1#1
/-- The body's second condition: the feature coordinate is 31. -/
abbrev cond2_1 (i : grid2.Coords) : Prop := k2_cond2 i = 1#1

/-- A MIDDLE feature: the scratch at `acc` ends at `acc + row`. -/
theorem run2_B (c : Dev nD) (i : grid2.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond2_0 i) (hc1 : ¬cond2_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k2_pay2 acc x3)) -∗ K ⟨⟩))
      ⊢ wp frame (wpE (defs₀ (F := F)) Variants.none c none) E (cc2__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run2_A (c : Dev nD) (i : grid2.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond2_0 i) (hc1 : ¬cond2_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k2_pay2 (k2_pay1 (F := F)) x3)) -∗ K ⟨⟩))
      ⊢ wp frame (wpE (defs₀ (F := F)) Variants.none c none) E (cc2__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run2_C (c : Dev nD) (i : grid2.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond2_0 i) (hc1 : cond2_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k2_pay3 (k2_pay2 acc x3) x4 x5 x6)
            ∗ owns (c : Thread nD τ) arg8 fullShare (k2_pay2 acc x3)) -∗ K ⟨⟩))
      ⊢ wp frame (wpE (defs₀ (F := F)) Variants.none c none) E (cc2__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.Kernel.Hand

end
-- ==== Proof.R2BaseBits.lean ====
import proofs.«402893_j78554951844377_2_alg».proof.Proof.Gen.Kernel.Launch
import proofs.«402893_j78554951844377_2_alg».proof.Proof.Gen.Kernel.Skeleton
import proofs.«402893_j78554951844377_2_alg».proof.Proof.R2RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 2: the pipeline at the table the region reads, its blocks and staging buffers

Everything here is stated at a PARAMETER `V`: the contents of the core's buffers when the region is entered. The
region's prefetched table is read off `V`; under the side condition that every word of it names a row of the embedding
table (`Ok2`) the pipeline is pinned at it, and each window's block at a grid point is a restriction of its array. -/

variable (V : (c : Dev nD) → (b : Ref sig .tc) → Buf (Elt F) ((c : Thread nD τ).loc b))

/-- The table's contents when the region is entered (one device). -/
def tbl2 : pre2.Contents (Elt F) := fun j => V (0 : Dev nD) (pre2.ref j)
/-- On every device the table holds those contents (there is one device). -/
theorem V_pre2 (c : Dev nD) (j : Fin 1) : V c (pre2.ref j) = tbl2 V j := by
  obtain rfl : c = 0 := Subsingleton.elim _ _; rfl
/-- Every block the table names lies inside the embedding table. -/
abbrev Ok2 : Prop := ok2 (F := F) (tbl2 V)
/-- The table as admissible contents, and the pipeline pinned at it. -/
abbrev adm2 (hO : Ok2 V) : (pcfg2 (F := F)).Adm := ⟨tbl2 V, hO⟩
abbrev cfgM2 (hO : Ok2 V) : Pipeline.Cfg sig Λ₀ := cfg2 (adm2 V hO)

/-- Window `w`'s block at point `t`, read off its array as the region finds it. -/
def iblk2 (hO : Ok2 V) (c : Dev nD) (w : Fin (cfgM2 V hO).W) (t : Fin (cfgM2 V hO).N) :
    (((cfgM2 V hO).win w).xblock ((cfgM2 V hO).grid.coords t)).Idx → Elt F ((cfgM2 V hO).win w).elt :=
  (((cfgM2 V hO).win w).blk t).view.read (Elt F) (V c (Pipeline.arrRef spec2 w))

/-- An input window's current staging buffer holds its block at every point, fetched there or not, for any proof
    data whose array is `V`'s and whose body leaves the block in place. -/
theorem before2_0_of (hO : Ok2 V) {c : Dev nD} (dat : Dat τ (Elt F) Unit ℕ (UR sig nD τ) ℕ (cfgM2 V hO) c) (hA : dat.A 0 = V c (Pipeline.arrRef spec2 0))
    (hafter : ∀ t, dat.after 0 t = iblk2 V hO c 0 t) (t : Fin (cfgM2 V hO).N) (d) : dat.before 0 t d = iblk2 V hO c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (hO : Ok2 V) {c : Dev nD} (dat : Dat τ (Elt F) Unit ℕ (UR sig nD τ) ℕ (cfgM2 V hO) c) (hA : dat.A 1 = V c (Pipeline.arrRef spec2 1))
    (hafter : ∀ t, dat.after 1 t = iblk2 V hO c 1 t) (t : Fin (cfgM2 V hO).N) (d) : dat.before 1 t d = iblk2 V hO c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of (hO : Ok2 V) {c : Dev nD} (dat : Dat τ (Elt F) Unit ℕ (UR sig nD τ) ℕ (cfgM2 V hO) c) (hA : dat.A 2 = V c (Pipeline.arrRef spec2 2))
    (hafter : ∀ t, dat.after 2 t = iblk2 V hO c 2 t) (t : Fin (cfgM2 V hO).N) (d) : dat.before 2 t d = iblk2 V hO c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of (hO : Ok2 V) {c : Dev nD} (dat : Dat τ (Elt F) Unit ℕ (UR sig nD τ) ℕ (cfgM2 V hO) c) (hA : dat.A 3 = V c (Pipeline.arrRef spec2 3))
    (hafter : ∀ t, dat.after 3 t = iblk2 V hO c 3 t) (t : Fin (cfgM2 V hO).N) (d) : dat.before 3 t d = iblk2 V hO c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, as the pipeline passes it, and its wholeness. -/
abbrev ms2_0 (hO : Ok2 V) (t : Fin (cfgM2 V hO).N) : Memref sig .tc .vmem S1x1x128 .f32 := spec2_0.stage ((cfgM2 V hO).slots t 0)
abbrev hs2_0 (hO : Ok2 V) (t : Fin (cfgM2 V hO).N) : (ms2_0 V hO t).IsWhole := hstage2_0 (((cfgM2 V hO).slots t 0).cast nbuf2_0)
abbrev ms2_1 (hO : Ok2 V) (t : Fin (cfgM2 V hO).N) : Memref sig .tc .vmem S1x1x128 .f32 := spec2_1.stage ((cfgM2 V hO).slots t 1)
abbrev hs2_1 (hO : Ok2 V) (t : Fin (cfgM2 V hO).N) : (ms2_1 V hO t).IsWhole := hstage2_1 (((cfgM2 V hO).slots t 1).cast nbuf2_1)
abbrev ms2_2 (hO : Ok2 V) (t : Fin (cfgM2 V hO).N) : Memref sig .tc .vmem S1x1x128 .f32 := spec2_2.stage ((cfgM2 V hO).slots t 2)
abbrev hs2_2 (hO : Ok2 V) (t : Fin (cfgM2 V hO).N) : (ms2_2 V hO t).IsWhole := hstage2_2 (((cfgM2 V hO).slots t 2).cast nbuf2_2)
abbrev ms2_3 (hO : Ok2 V) (t : Fin (cfgM2 V hO).N) : Memref sig .tc .vmem S1x1x1 .f32 := spec2_3.stage ((cfgM2 V hO).slots t 3)
abbrev hs2_3 (hO : Ok2 V) (t : Fin (cfgM2 V hO).N) : (ms2_3 V hO t).IsWhole := hstage2_3 (((cfgM2 V hO).slots t 3).cast nbuf2_3)
abbrev ms2_4 (hO : Ok2 V) (t : Fin (cfgM2 V hO).N) : Memref sig .tc .vmem S1x1x1 .f32 := spec2_4.stage ((cfgM2 V hO).slots t 4)
abbrev hs2_4 (hO : Ok2 V) (t : Fin (cfgM2 V hO).N) : (ms2_4 V hO t).IsWhole := hstage2_4 (((cfgM2 V hO).slots t 4).cast nbuf2_4)
/-- The scratch operand: a whole scoped buffer of the kernel's own. -/
abbrev scM2 : Memref sig .tc .vmem S1x1x128 .f32 := Memref.whole cc2_scratch0
/-- The table as the body is handed it. -/
abbrev tbM2 : Memref sig .tc .smem S65536 .i32 := Memref.whole main_v48

/-- The kernel body at point `t`, on what the pipeline calls it with. -/
abbrev bodyAt2 (a : (pcfg2 (F := F)).Adm) (t : Fin (cfg2 a).N) : Prog (TpuEff nD τ sig (Elt F) Λ₀ .tc) PUnit :=
  cc2__gather_kernel (grid2.coords t) (Memref.whole main_v48) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (Memref.whole cc2_scratch0) (Memref.isWhole_whole _)

/-- Off the last feature the result window is idle: the body stores nothing into it. -/
theorem idleAt2_4 (a : (pcfg2 (F := F)).Adm) (i : grid2.Coords) (h : ¬cond2_1 i) : (cfg2 a).idle 4 i = true := by
  show (!(k2_cond2 i == 1#1)) = true
  simp only [Bool.not_eq_true', beq_eq_false_iff_ne, ne_eq]; exact h
/-- On the last feature it is live. -/
theorem liveAt2_4 (a : (pcfg2 (F := F)).Adm) (i : grid2.Coords) (h : cond2_1 i) : (cfg2 a).idle 4 i = false := by
  show (!(k2_cond2 i == 1#1)) = false
  simp only [Bool.not_eq_false', beq_iff_eq]; exact h
/-- The input windows are never idle. -/
theorem liveAt2_0 (a : (pcfg2 (F := F)).Adm) (i : grid2.Coords) : (cfg2 a).idle 0 i = false := rfl
theorem liveAt2_1 (a : (pcfg2 (F := F)).Adm) (i : grid2.Coords) : (cfg2 a).idle 1 i = false := rfl
theorem liveAt2_2 (a : (pcfg2 (F := F)).Adm) (i : grid2.Coords) : (cfg2 a).idle 2 i = false := rfl
theorem liveAt2_3 (a : (pcfg2 (F := F)).Adm) (i : grid2.Coords) : (cfg2 a).idle 3 i = false := rfl

end Cert.Kernel.Hand

end
-- ==== Proof.R2OkBits.lean ====
/-
  Tile 2: the table the region reads, and the pipeline's side condition on it from the range fact.

  Region 2 is entered with the buffers at the valuation after the host stretch that cuts tile 2's operands. Its prefetched table then
  holds, at flat position `32·i₀ + i₁`, the gathered row number of sample `2048·2 + i₀`, feature `i₁`. When every gathered
  row number is below 786432 (the range fact), every word of the table is, which is the side condition under which the
  pipeline is pinned at the table.
-/
import proofs.«402893_j78554951844377_2_alg».proof.Proof.Gen.Kernel.Regions
import proofs.«402893_j78554951844377_2_alg».proof.Proof.Spec
import proofs.«402893_j78554951844377_2_alg».proof.Proof.R2BaseBits
import proofs.«402893_j78554951844377_2_alg».proof.Proof.OkTablesBits
import proofs.«402893_j78554951844377_2_alg».proof.Proof.KHostBits
import proofs.«402893_j78554951844377_2_alg».proof.Proof.TileLibBits
import Idealize.ShloMosaic.Lib.ValueIdx

noncomputable section

namespace Cert.Kernel.Hand

open Idealize.ShloMosaic Idealize.ShloMosaic.TcCoe
open Cert.Kernel Cert.Kernel.Gen Idealize.ShloMosaic.ValueIdx

variable {F : FTy → Type} [FloatOps F]

/-- The buffers when region 2 is entered: the valuation after the host stretch that cuts tile 2's operands. -/
abbrev V2in (m : (ℓ : Loc nD τ sig) → Buf (Elt F) ℓ) : (c : Dev nD) → (b : Ref sig .tc) → Buf (Elt F) ((c : Thread nD τ).loc b) :=
  fun c b => V9 m (outsL m) c b

variable (m : (ℓ : Loc nD τ sig) → Buf (Elt F) ℓ)

/-- The table word read at grid point `(i₀, i₁)` is the gathered row number of sample `2048·2 + i₀`, feature `i₁`: the
    word sits at flat position `32·i₀ + i₁`, whose quotient and remainder by 32 are `i₀` and `i₁`. -/
theorem tword2_V2in (c : Dev nD) (i : grid2.Coords) :
    tword2 (tbl2 (V2in m)) i
      = Spec.gidxOf (m ((c : Thread nD τ).loc main_arg0)) (m ((c : Thread nD τ).loc main_arg1)) (m ((c : Thread nD τ).loc main_arg2))
          (ValueIdx.ix2 (⟨2048 * 2 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V2in m 0 main_v48 (ValueIdx.ix1 ⟨32 * (i 0).val + (i 1).val, pos_lt2 i⟩) = _
  refine (tbl2_apply m (outsL m) 0 ⟨32 * (i 0).val + (i 1).val, pos_lt2 i⟩).trans ?_
  exact congrArg _ (ix2_congr (by show 2048 * 2 + (32 * (i 0).val + (i 1).val) / 32 = 2048 * 2 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok2_of_inRange (c : Dev nD)
    (hin : Spec.InRange (Spec.gidxOf (m ((c : Thread nD τ).loc main_arg0)) (m ((c : Thread nD τ).loc main_arg1)) (m ((c : Thread nD τ).loc main_arg2)))) :
    Ok2 (V2in m) :=
  ok2_of (tbl2 (V2in m)) fun i => by rw [tword2_V2in m c i]; exact hin _ _

end Cert.Kernel.Hand

end
-- ==== Proof.R2GridBits.lean ====
import proofs.«402893_j78554951844377_2_alg».proof.Proof.R2RunBits
import Idealize.ShloMosaic.Lib.Pipeline.Kit
import Mathlib.Data.Fin.VecNotation

noncomputable section

namespace Cert.Kernel.Hand

open Cert.Kernel Cert.Kernel.Gen
open Idealize.ShloMosaic
open Idealize.ShloMosaic.Pipeline (Cfg Window)

variable {F : FTy → Type} [FloatOps F]

/-! # Tile 2: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride2_0 : grid2.stride 0 = 32 := by decide
/-- The feature coordinate changes at every point. -/
theorem stride2_1 : grid2.stride 1 = 1 := by decide

/-- The sample coordinate of point `t` is `t / 32`: the quotient is below 2048, so reducing it modulo the
    axis's bound changes nothing. -/
theorem coords2_val0 (t : Fin grid2.N) : ((grid2.coords t) 0).val = t.val / 32 := by
  have ht : t.val < 65536 := N_2 ▸ t.isLt
  show t.val / grid2.stride 0 % 2048 = t.val / 32
  rw [stride2_0]; omega

/-- The feature coordinate of point `t` is `t % 32`. -/
theorem coords2_val1 (t : Fin grid2.N) : ((grid2.coords t) 1).val = t.val % 32 := by
  show t.val / grid2.stride 1 % 32 = t.val % 32
  rw [stride2_1, Nat.div_one]

/-- The first condition holds exactly at feature 0: checked at each of the 32 values of the coordinate. -/
theorem cond2_0_iff (i : grid2.Coords) : cond2_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond2_1_iff (i : grid2.Coords) : cond2_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond2_0_first (t : Fin grid2.N) (h : t.val = 0) : cond2_0 (grid2.coords t) := by
  rw [cond2_0_iff, coords2_val1, h]

/-- No feature is both the first and the last. -/
theorem not_both2 (i : grid2.Coords) : cond2_0 i → cond2_1 i → False := by
  rw [cond2_0_iff, cond2_1_iff]; omega

/-- A sample number, made a 32-bit word and read back, is itself. -/
private theorem toNat_ofNat_sample (t : Fin grid2.N) : (BitVec.ofNat 32 ((grid2.coords t) 0).val).toNat = t.val / 32 := by
  have ht : t.val < 65536 := N_2 ▸ t.isLt
  rw [coords2_val0, BitVec.toNat_ofNat, Nat.mod_eq_of_lt (by omega)]

/-- Window 1's block at point `t` is the one of sample `t / 32`. -/
theorem index2_1 (a : (pcfg2 (F := F)).Adm) (t : Fin (cfg2 a).N) : ((cfg2 a).win 1).index t = ![t.val / 32, 0, 0] := by
  show (![(BitVec.ofNat 32 ((grid2.coords t) 0).val).toNat, (0#32).toNat, (0#32).toNat] : Fin 3 → ℕ) = _
  rw [toNat_ofNat_sample]; rfl
/-- Window 2's block at point `t` is the one of sample `t / 32`. -/
theorem index2_2 (a : (pcfg2 (F := F)).Adm) (t : Fin (cfg2 a).N) : ((cfg2 a).win 2).index t = ![t.val / 32, 0, 0] := by
  show (![(BitVec.ofNat 32 ((grid2.coords t) 0).val).toNat, (0#32).toNat, (0#32).toNat] : Fin 3 → ℕ) = _
  rw [toNat_ofNat_sample]; rfl
/-- Window 3's block at point `t` is the one of sample `t / 32`. -/
theorem index2_3 (a : (pcfg2 (F := F)).Adm) (t : Fin (cfg2 a).N) : ((cfg2 a).win 3).index t = ![t.val / 32, 0, 0] := by
  show (![(BitVec.ofNat 32 ((grid2.coords t) 0).val).toNat, (0#32).toNat, (0#32).toNat] : Fin 3 → ℕ) = _
  rw [toNat_ofNat_sample]; rfl
/-- The output window's block at point `t` is the one of sample `t / 32`. -/
theorem index2_4 (a : (pcfg2 (F := F)).Adm) (t : Fin (cfg2 a).N) : ((cfg2 a).win 4).index t = ![t.val / 32, 0, 0] := by
  show (![(BitVec.ofNat 32 ((grid2.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush2_4_iff (a : (pcfg2 (F := F)).Adm) (t : Fin (cfg2 a).N) : ((cfg2 a).win 4).flush t = true ↔ t.val % 32 = 31 := by
  have hN : (cfg2 a).N = 65536 := N_2
  have ht : t.val < 65536 := hN ▸ t.isLt
  have hout : ((cfg2 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index2_4, index2_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg2 a).N := Nat.lt_of_lt_of_eq (by omega : t.val + 1 < 65536) hN.symm
      refine Or.inr ⟨hlt, ?_⟩
      rw [index2_4, index2_4]
      have hne' : (t.val + 1) / 32 ≠ t.val / 32 := by omega
      exact (vec3_ne_iff _ _).mpr hne'

/-- At a sample's last feature the output block is written back. -/
theorem flush2_4 (a : (pcfg2 (F := F)).Adm) (t : Fin (cfg2 a).N) (h : cond2_1 (grid2.coords t)) : ((cfg2 a).win 4).flush t = true := by
  rw [flush2_4_iff, ← coords2_val1]; exact (cond2_1_iff _).mp h

/-- At any other feature the output block stays. -/
theorem noFlush2_4 (a : (pcfg2 (F := F)).Adm) (t : Fin (cfg2 a).N) (h : ¬cond2_1 (grid2.coords t)) : ((cfg2 a).win 4).flush t = false := by
  rw [← Bool.not_eq_true, flush2_4_iff, ← coords2_val1]; exact fun e => h ((cond2_1_iff _).mpr e)

end Cert.Kernel.Hand

end
-- ==== Proof.R2AccBits.lean ====
import proofs.«402893_j78554951844377_2_alg».proof.Proof.Gen.Kernel.Launch
import proofs.«402893_j78554951844377_2_alg».proof.Proof.Gen.Kernel.Skeleton
import proofs.«402893_j78554951844377_2_alg».proof.Proof.R2BaseBits
import proofs.«402893_j78554951844377_2_alg».proof.Proof.R2GridBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 2: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow2 (hO : Ok2 V) (c : Dev nD) (t : Fin (cfgM2 V hO).N) : Vec F S1x1x128 .f32 := iblk2 V hO c 0 t
abbrev xpa2 (hO : Ok2 V) (c : Dev nD) (t : Fin (cfgM2 V hO).N) : Vec F S1x1x128 .f32 := iblk2 V hO c 1 t
abbrev xw2 (hO : Ok2 V) (c : Dev nD) (t : Fin (cfgM2 V hO).N) : Vec F S1x1x128 .f32 := iblk2 V hO c 2 t
abbrev xb2 (hO : Ok2 V) (c : Dev nD) (t : Fin (cfgM2 V hO).N) : Vec F S1x1x1 .f32 := iblk2 V hO c 3 t

/-- THE ACCUMULATION: the scratch after the body at position `n`. -/
def accAt2 (hO : Ok2 V) (c : Dev nD) : (n : ℕ) → n < (cfgM2 V hO).N → Vec F S1x1x128 .f32
  | 0, hn => k2_pay2 (k2_pay1 (F := F)) (xrow2 V hO c ⟨0, hn⟩)
  | n + 1, hn =>
    if cond2_0 (grid2.coords ⟨n + 1, hn⟩) then k2_pay2 (k2_pay1 (F := F)) (xrow2 V hO c ⟨n + 1, hn⟩)
    else k2_pay2 (accAt2 hO c n (Nat.lt_of_succ_lt hn)) (xrow2 V hO c ⟨n + 1, hn⟩)

/-- At a sample's first feature the scratch restarts from zero. -/
theorem accAt2_A (hO : Ok2 V) (c : Dev nD) (t : Fin (cfgM2 V hO).N) (h0 : cond2_0 (grid2.coords t)) :
    accAt2 V hO c t.val t.isLt = k2_pay2 (k2_pay1 (F := F)) (xrow2 V hO c t) := by
  obtain ⟨n, hn⟩ := t
  cases n with
  | zero => rfl
  | succ n => exact if_pos h0

/-- Elsewhere it adds the row to what the point before left. -/
theorem accAt2_B (hO : Ok2 V) (c : Dev nD) (t : Fin (cfgM2 V hO).N) (h0 : ¬cond2_0 (grid2.coords t)) (hz : t.val ≠ 0) :
    accAt2 V hO c t.val t.isLt = k2_pay2 (accAt2 V hO c (t.val - 1) (by omega)) (xrow2 V hO c t) := by
  obtain ⟨n, hn⟩ := t
  cases n with
  | zero => exact absurd rfl hz
  | succ n => exact if_neg h0

/-- The sample's result as the body computes it at a point (read at the last feature). -/
def outAt2 (hO : Ok2 V) (c : Dev nD) (t : Fin (cfgM2 V hO).N) : Vec F S1x1x1 .f32 :=
  k2_pay3 (accAt2 V hO c t.val t.isLt) (xpa2 V hO c t) (xw2 V hO c t) (xb2 V hO c t)

/-- What rides along unread: the other scoped buffers, the generator register, the table. -/
def Rest2 (c : Dev nD) : sProp 𝕄 :=
  iprop(Pipeline.scopedRestBut (Ix := Unit) (Name := ℕ) (U := UR sig nD τ) (Lvl := ℕ) (Val := Elt F) spec2 c [cc2_scratch0]
    ∗ (∃ r, prngReg c r) ∗ Pipeline.prefHeld (Ix := Unit) (Name := ℕ) (U := UR sig nD τ) (Lvl := ℕ) pre2 c (fun _ => fullShare) (tbl2 V))

/-- The region invariant before position `n`: the scratch at anything before the first point, afterwards at what
    the point before left. -/
def PhiS2 (hO : Ok2 V) (c : Dev nD) : (n : ℕ) → n ≤ (cfgM2 V hO).N → sProp 𝕄
  | 0, _ => iprop((∃ d, owns (c : Thread nD τ) scM2 fullShare d) ∗ Rest2 V c)
  | n + 1, hn => iprop(owns (c : Thread nD τ) scM2 fullShare (accAt2 V hO c n hn) ∗ Rest2 V c)

theorem PhiS2_zero (hO : Ok2 V) (c : Dev nD) (n : ℕ) (h : n ≤ (cfgM2 V hO).N) (hz : n = 0) :
    PhiS2 V hO c n h = iprop((∃ d, owns (c : Thread nD τ) scM2 fullShare d) ∗ Rest2 V c) := by
  subst hz; rfl
theorem PhiS2_succ (hO : Ok2 V) (c : Dev nD) (n : ℕ) (hn : n < (cfgM2 V hO).N) :
    PhiS2 V hO c (n + 1) hn = iprop(owns (c : Thread nD τ) scM2 fullShare (accAt2 V hO c n hn) ∗ Rest2 V c) := rfl
theorem PhiS2_pos (hO : Ok2 V) (c : Dev nD) (n : ℕ) (h : n ≤ (cfgM2 V hO).N) (hz : n ≠ 0) :
    PhiS2 V hO c n h = iprop(owns (c : Thread nD τ) scM2 fullShare (accAt2 V hO c (n - 1) (by omega)) ∗ Rest2 V c) := by
  cases n with
  | zero => exact absurd rfl hz
  | succ n => rfl

/-- The proof data of the tile's pipeline on core `c`: the arrays as the region finds them; after the body each input's
    buffer at its block and the result's at `outAt2`; the invariant `PhiS2`; nothing owed; full shares. -/
def dat2 (hO : Ok2 V) (c : Dev nD) : Dat τ (Elt F) Unit ℕ (UR sig nD τ) ℕ (cfgM2 V hO) c where
  A w := V c (Pipeline.arrRef spec2 w)
  after w t := match w with
    | ⟨0, _⟩ => iblk2 V hO c 0 t
    | ⟨1, _⟩ => iblk2 V hO c 1 t
    | ⟨2, _⟩ => iblk2 V hO c 2 t
    | ⟨3, _⟩ => iblk2 V hO c 3 t
    | ⟨4, _⟩ => outAt2 V hO c t
  Φ t := PhiS2 V hO c t.val (Nat.le_of_lt_succ t.isLt)
  q _ := fullShare
  owed _ := 0

theorem A_eq2 (hO : Ok2 V) (c : Dev nD) (w : Fin (cfgM2 V hO).W) : (dat2 V hO c).A w = V c (Pipeline.arrRef spec2 w) := by
  dsimp only [dat2]
theorem PhiS2_castSucc (hO : Ok2 V) (c : Dev nD) (t : Fin (cfgM2 V hO).N) :
    (dat2 V hO c).Φ t.castSucc = PhiS2 V hO c t.val (Nat.le_of_lt t.isLt) := by
  dsimp only [dat2]; simp only [Fin.coe_castSucc]
theorem after2_0 (hO : Ok2 V) (c : Dev nD) (t : Fin (cfgM2 V hO).N) : (dat2 V hO c).after 0 t = iblk2 V hO c 0 t := by dsimp only [dat2]; try rfl
theorem after2_1 (hO : Ok2 V) (c : Dev nD) (t : Fin (cfgM2 V hO).N) : (dat2 V hO c).after 1 t = iblk2 V hO c 1 t := by dsimp only [dat2]; try rfl
theorem after2_2 (hO : Ok2 V) (c : Dev nD) (t : Fin (cfgM2 V hO).N) : (dat2 V hO c).after 2 t = iblk2 V hO c 2 t := by dsimp only [dat2]; try rfl
theorem after2_3 (hO : Ok2 V) (c : Dev nD) (t : Fin (cfgM2 V hO).N) : (dat2 V hO c).after 3 t = iblk2 V hO c 3 t := by dsimp only [dat2]; try rfl
theorem after2_4 (hO : Ok2 V) (c : Dev nD) (t : Fin (cfgM2 V hO).N) : (dat2 V hO c).after 4 t = outAt2 V hO c t := by dsimp only [dat2]; try rfl

theorem before2_0 (hO : Ok2 V) (c : Dev nD) (t : Fin (cfgM2 V hO).N) (d) : (dat2 V hO c).before 0 t d = iblk2 V hO c 0 t :=
  before2_0_of V hO (dat2 V hO c) (A_eq2 V hO c 0) (after2_0 V hO c) t d
theorem before2_1 (hO : Ok2 V) (c : Dev nD) (t : Fin (cfgM2 V hO).N) (d) : (dat2 V hO c).before 1 t d = iblk2 V hO c 1 t :=
  before2_1_of V hO (dat2 V hO c) (A_eq2 V hO c 1) (after2_1 V hO c) t d
theorem before2_2 (hO : Ok2 V) (c : Dev nD) (t : Fin (cfgM2 V hO).N) (d) : (dat2 V hO c).before 2 t d = iblk2 V hO c 2 t :=
  before2_2_of V hO (dat2 V hO c) (A_eq2 V hO c 2) (after2_2 V hO c) t d
theorem before2_3 (hO : Ok2 V) (c : Dev nD) (t : Fin (cfgM2 V hO).N) (d) : (dat2 V hO c).before 3 t d = iblk2 V hO c 3 t :=
  before2_3_of V hO (dat2 V hO c) (A_eq2 V hO c 3) (after2_3 V hO c) t d

/-- What the body is called with at point `t`, the windows one by one, -/
def bodyPre2 (hO : Ok2 V) (c : Dev nD) (t : Fin (cfgM2 V hO).N) : sProp 𝕄 :=
  iprop((dat2 V hO c).Φ t.castSucc ∗ (dat2 V hO c).owesAt () t.castSucc
    ∗ (∃ d, owns (c : Thread nD τ) (ms2_0 V hO t) fullShare ((dat2 V hO c).before 0 t d))
    ∗ (∃ d, owns (c : Thread nD τ) (ms2_1 V hO t) fullShare ((dat2 V hO c).before 1 t d))
    ∗ (∃ d, owns (c : Thread nD τ) (ms2_2 V hO t) fullShare ((dat2 V hO c).before 2 t d))
    ∗ (∃ d, owns (c : Thread nD τ) (ms2_3 V hO t) fullShare ((dat2 V hO c).before 3 t d))
    ∗ (∃ d, owns (c : Thread nD τ) (ms2_4 V hO t) fullShare ((dat2 V hO c).before 4 t d)))

/-- and what it returns. -/
def bodyPost2 (hO : Ok2 V) (c : Dev nD) (t : Fin (cfgM2 V hO).N) : sProp 𝕄 :=
  iprop((dat2 V hO c).Φ t.succ ∗ (dat2 V hO c).owesAt () t.succ
    ∗ (dat2 V hO c).leavesExact 0 t
    ∗ (dat2 V hO c).leavesExact 1 t
    ∗ (dat2 V hO c).leavesExact 2 t
    ∗ (dat2 V hO c).leavesExact 3 t
    ∗ (dat2 V hO c).leavesExact 4 t)

/-- The windows' idle flags at a point, stated at the pinned configuration. -/
theorem liveAtM2_0 (hO : Ok2 V) (t : Fin (cfgM2 V hO).N) : (cfgM2 V hO).idle 0 ((cfgM2 V hO).grid.coords t) = false := rfl
theorem liveAtM2_1 (hO : Ok2 V) (t : Fin (cfgM2 V hO).N) : (cfgM2 V hO).idle 1 ((cfgM2 V hO).grid.coords t) = false := rfl
theorem liveAtM2_2 (hO : Ok2 V) (t : Fin (cfgM2 V hO).N) : (cfgM2 V hO).idle 2 ((cfgM2 V hO).grid.coords t) = false := rfl
theorem liveAtM2_3 (hO : Ok2 V) (t : Fin (cfgM2 V hO).N) : (cfgM2 V hO).idle 3 ((cfgM2 V hO).grid.coords t) = false := rfl
theorem idleAtM2_4 (hO : Ok2 V) (t : Fin (cfgM2 V hO).N) (h : ¬cond2_1 (grid2.coords t)) :
    (cfgM2 V hO).idle 4 ((cfgM2 V hO).grid.coords t) = true := idleAt2_4 (adm2 V hO) (grid2.coords t) h
theorem liveAtM2_4 (hO : Ok2 V) (t : Fin (cfgM2 V hO).N) (h : cond2_1 (grid2.coords t)) :
    (cfgM2 V hO).idle 4 ((cfgM2 V hO).grid.coords t) = false := liveAt2_4 (adm2 V hO) (grid2.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body2 (hO : Ok2 V) (c : Dev nD) (t : Fin (cfgM2 V hO).N) :
    bodyPre2 V hO c t ⊢ wp frame (wpE (defs₀ (F := F)) Variants.none c none) Set.univ (bodyAt2 (adm2 V hO) t) (fun _ => bodyPost2 V hO c t) := by
  unfold bodyPre2 bodyPost2 bodyAt2
  simp only [before2_0, before2_1, before2_2, before2_3]
  rw [show (dat2 V hO c).owesAt () t.succ = (dat2 V hO c).owesAt () t.castSucc from rfl]
  rw [show (dat2 V hO c).Φ t.succ = PhiS2 V hO c (t.val + 1) t.isLt from rfl, PhiS2_succ]
  rw [show (dat2 V hO c).leavesExact 0 t = owns (c : Thread nD τ) (ms2_0 V hO t) fullShare ((dat2 V hO c).after 0 t) from by
    unfold Dat.leavesExact; rw [liveAtM2_0 V hO t]; try rfl]
  rw [after2_0]
  rw [show (dat2 V hO c).leavesExact 1 t = owns (c : Thread nD τ) (ms2_1 V hO t) fullShare ((dat2 V hO c).after 1 t) from by
    unfold Dat.leavesExact; rw [liveAtM2_1 V hO t]; try rfl]
  rw [after2_1]
  rw [show (dat2 V hO c).leavesExact 2 t = owns (c : Thread nD τ) (ms2_2 V hO t) fullShare ((dat2 V hO c).after 2 t) from by
    unfold Dat.leavesExact; rw [liveAtM2_2 V hO t]; try rfl]
  rw [after2_2]
  rw [show (dat2 V hO c).leavesExact 3 t = owns (c : Thread nD τ) (ms2_3 V hO t) fullShare ((dat2 V hO c).after 3 t) from by
    unfold Dat.leavesExact; rw [liveAtM2_3 V hO t]; try rfl]
  rw [after2_3]
  rw [PhiS2_castSucc]
  by_cases h0 : cond2_0 (grid2.coords t)
  · by_cases h1 : cond2_1 (grid2.coords t)
    · exact absurd h1 (fun h => not_both2 _ h0 h)
    · rw [Dat.leavesExact_idle (dat2 V hO c) 4 t (idleAtM2_4 V hO t h1) (noFlush2_4 (adm2 V hO) t h1)]
      rw [accAt2_A V hO c t h0]
      by_cases hz : t.val = 0
      · rw [PhiS2_zero V hO c _ _ hz]
        iintro ⟨⟨HS, HR⟩, Ho, ⟨%d0, H0⟩, ⟨%d1, H1⟩, ⟨%d2, H2⟩, ⟨%d3, H3⟩, ⟨%d4, H4⟩⟩
        iapply (run2_A c (grid2.coords t) _ _ _ _ _ _ _ _ _ _ _ _ _ _ h0 h1 (xrow2 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS2_pos V hO c _ _ hz]
        iintro ⟨⟨HS, HR⟩, Ho, ⟨%d0, H0⟩, ⟨%d1, H1⟩, ⟨%d2, H2⟩, ⟨%d3, H3⟩, ⟨%d4, H4⟩⟩
        iapply (run2_A c (grid2.coords t) _ _ _ _ _ _ _ _ _ _ _ _ _ _ h0 h1 (xrow2 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond2_0_first t hz)
    rw [PhiS2_pos V hO c _ _ hz, accAt2_B V hO c t h0 hz]
    by_cases h1 : cond2_1 (grid2.coords t)
    · rw [show (dat2 V hO c).leavesExact 4 t = owns (c : Thread nD τ) (ms2_4 V hO t) fullShare ((dat2 V hO c).after 4 t) from by
        unfold Dat.leavesExact; rw [liveAtM2_4 V hO t h1]; try rfl]
      rw [after2_4]
      unfold outAt2
      rw [accAt2_B V hO c t h0 hz]
      iintro ⟨⟨HS, HR⟩, Ho, ⟨%d0, H0⟩, ⟨%d1, H1⟩, ⟨%d2, H2⟩, ⟨%d3, H3⟩, ⟨%d4, H4⟩⟩
      iapply (run2_C c (grid2.coords t) _ _ _ _ _ _ _ _ _ _ _ _ _ _ h0 h1 (xrow2 V hO c t) (xpa2 V hO c t) (xw2 V hO c t) (xb2 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat2 V hO c) 4 t (idleAtM2_4 V hO t h1) (noFlush2_4 (adm2 V hO) t h1)]
      iintro ⟨⟨HS, HR⟩, Ho, ⟨%d0, H0⟩, ⟨%d1, H1⟩, ⟨%d2, H2⟩, ⟨%d3, H3⟩, ⟨%d4, H4⟩⟩
      iapply (run2_B c (grid2.coords t) _ _ _ _ _ _ _ _ _ _ _ _ _ _ h0 h1 (xrow2 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (hO : Ok2 V) (c : Dev nD) :
    BodyObligation (dat2 (F := F) V hO c) (defs₀ (F := F)) Variants.none () Set.univ := fun t => by
  rw [bigSep_W2, bigSep_W2]
  exact sound_body2 V hO c t

end Cert.Kernel.Hand

end
-- ==== Proof.R2ValBits.lean ====
import proofs.«402893_j78554951844377_2_alg».proof.Proof.R2AccBits
import proofs.«402893_j78554951844377_2_alg».proof.Proof.R2GridBits
import proofs.«402893_j78554951844377_2_alg».proof.Proof.OkTablesBits
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 2: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt2 (t : Fin grid2.N) : t.val / 32 < 2048 := by
  have ht : t.val < 65536 := N_2 ▸ t.isLt
  omega

/-- The last feature of sample `r` is a point of the grid. -/
theorem lastPt_lt2 (r : ℕ) (hr : r < 2048) : 32 * r + 31 < grid2.N := by rw [N_2]; omega

/-- Under the side condition every word the index map of window 0 reads names a row of the embedding table. -/
theorem tword2_lt (pf : pre2.Contents (Elt F)) (h : ok2 pf) (i : grid2.Coords) : (tword2 pf i).toNat < 786432 := by
  obtain ⟨hb, -⟩ := h i
  have h0 := hb 0
  rw [transform2_eq pf i] at h0
  have h0' : ((tword2 pf i).toNat + 1) * 1 ≤ 786432 := h0
  omega

/-- Window 0's block at point `t` is the row the table's word names. -/
theorem index2_0 (a : (pcfg2 (F := F)).Adm) (t : Fin (cfg2 a).N) :
    ((cfg2 a).win 0).index t = ![(tword2 a.1 (grid2.coords t)).toNat, 0, 0] :=
  transform2_eq a.1 (grid2.coords t)

/-- Lane `l` of window 0's block sits in the embedding table at (the named row, 0, l). -/
theorem emb2_0 (a : (pcfg2 (F := F)).Adm) (t : Fin (cfg2 a).N) (l : Fin 128) :
    (((cfg2 a).win 0).blk t).view.emb (ValueIdx.ix3 (0 : Fin 1) (0 : Fin 1) l)
      = ValueIdx.ix3 (⟨(tword2 a.1 (grid2.coords t)).toNat, tword2_lt a.1 a.2 (grid2.coords t)⟩ : Fin 786432) (0 : Fin 1) l := by
  funext d; apply Fin.ext
  match d with
  | ⟨0, _⟩ => show ((cfg2 a).win 0).index t (0 : Fin 3) * 1 + 1 * 0 = (tword2 a.1 (grid2.coords t)).toNat; rw [index2_0]; show (tword2 a.1 (grid2.coords t)).toNat * 1 + 1 * 0 = _; omega
  | ⟨1, _⟩ => show ((cfg2 a).win 0).index t (1 : Fin 3) * 1 + 1 * 0 = 0; rw [index2_0]; rfl
  | ⟨2, _⟩ => show ((cfg2 a).win 0).index t (2 : Fin 3) * 128 + 1 * l.val = l.val; rw [index2_0]; show 0 * 128 + 1 * l.val = l.val; omega

/-- Lane `l` of window 1's block sits in its array at (sample, 0, l). -/
theorem emb2_1 (a : (pcfg2 (F := F)).Adm) (t : Fin (cfg2 a).N) (l : Fin 128) :
    (((cfg2 a).win 1).blk t).view.emb (ValueIdx.ix3 (0 : Fin 1) (0 : Fin 1) l)
      = ValueIdx.ix3 (⟨t.val / 32, sample_lt2 t⟩ : Fin 2048) (0 : Fin 1) l := by
  funext d; apply Fin.ext
  match d with
  | ⟨0, _⟩ => show ((cfg2 a).win 1).index t (0 : Fin 3) * 1 + 1 * 0 = t.val / 32; rw [index2_1]; show t.val / 32 * 1 + 1 * 0 = _; omega
  | ⟨1, _⟩ => show ((cfg2 a).win 1).index t (1 : Fin 3) * 1 + 1 * 0 = 0; rw [index2_1]; rfl
  | ⟨2, _⟩ => show ((cfg2 a).win 1).index t (2 : Fin 3) * 128 + 1 * l.val = l.val; rw [index2_1]; show 0 * 128 + 1 * l.val = l.val; omega

/-- Lane `l` of window 2's block sits in its array at (sample, 0, l). -/
theorem emb2_2 (a : (pcfg2 (F := F)).Adm) (t : Fin (cfg2 a).N) (l : Fin 128) :
    (((cfg2 a).win 2).blk t).view.emb (ValueIdx.ix3 (0 : Fin 1) (0 : Fin 1) l)
      = ValueIdx.ix3 (⟨t.val / 32, sample_lt2 t⟩ : Fin 2048) (0 : Fin 1) l := by
  funext d; apply Fin.ext
  match d with
  | ⟨0, _⟩ => show ((cfg2 a).win 2).index t (0 : Fin 3) * 1 + 1 * 0 = t.val / 32; rw [index2_2]; show t.val / 32 * 1 + 1 * 0 = _; omega
  | ⟨1, _⟩ => show ((cfg2 a).win 2).index t (1 : Fin 3) * 1 + 1 * 0 = 0; rw [index2_2]; rfl
  | ⟨2, _⟩ => show ((cfg2 a).win 2).index t (2 : Fin 3) * 128 + 1 * l.val = l.val; rw [index2_2]; show 0 * 128 + 1 * l.val = l.val; omega

/-- The one element of window 3's block sits in its array at (sample, 0, 0). -/
theorem emb2_3 (a : (pcfg2 (F := F)).Adm) (t : Fin (cfg2 a).N) :
    (((cfg2 a).win 3).blk t).view.emb (ValueIdx.ix3 (0 : Fin 1) (0 : Fin 1) (0 : Fin 1))
      = ValueIdx.ix3 (⟨t.val / 32, sample_lt2 t⟩ : Fin 2048) (0 : Fin 1) (0 : Fin 1) := by
  funext d; apply Fin.ext
  match d with
  | ⟨0, _⟩ => show ((cfg2 a).win 3).index t (0 : Fin 3) * 1 + 1 * 0 = t.val / 32; rw [index2_3]; show t.val / 32 * 1 + 1 * 0 = _; omega
  | ⟨1, _⟩ => show ((cfg2 a).win 3).index t (1 : Fin 3) * 1 + 1 * 0 = 0; rw [index2_3]; rfl
  | ⟨2, _⟩ => show ((cfg2 a).win 3).index t (2 : Fin 3) * 1 + 1 * 0 = 0; rw [index2_3]; rfl

/-- The one element of the result window's block sits in the result array at (sample, 0, 0). -/
theorem emb2_4 (a : (pcfg2 (F := F)).Adm) (t : Fin (cfg2 a).N) :
    (((cfg2 a).win 4).blk t).view.emb (ValueIdx.ix3 (0 : Fin 1) (0 : Fin 1) (0 : Fin 1))
      = ValueIdx.ix3 (⟨t.val / 32, sample_lt2 t⟩ : Fin 2048) (0 : Fin 1) (0 : Fin 1) := by
  funext d; apply Fin.ext
  match d with
  | ⟨0, _⟩ => show ((cfg2 a).win 4).index t (0 : Fin 3) * 1 + 1 * 0 = t.val / 32; rw [index2_4]; show t.val / 32 * 1 + 1 * 0 = _; omega
  | ⟨1, _⟩ => show ((cfg2 a).win 4).index t (1 : Fin 3) * 1 + 1 * 0 = 0; rw [index2_4]; rfl
  | ⟨2, _⟩ => show ((cfg2 a).win 4).index t (2 : Fin 3) * 1 + 1 * 0 = 0; rw [index2_4]; rfl

section AtTable

variable (V : (c : Dev nD) → (b : Ref sig .tc) → Buf (Elt F) ((c : Thread nD τ).loc b))

/-! ## The input blocks at coordinates -/

/-- The row of the embedding table gathered at point `t`: the table's word there. -/
abbrev rho2 (t : Fin grid2.N) : ℕ := (tword2 (tbl2 V) (grid2.coords t)).toNat

/-- It is a row of the table, under the side condition. -/
theorem rho2_lt (hO : Ok2 V) (t : Fin grid2.N) : rho2 V t < 786432 := tword2_lt (tbl2 V) hO (grid2.coords t)

/-- Lane `l` of the gathered row at point `t` is the embedding table at (the named row, 0, l). -/
theorem xrow2_apply (hO : Ok2 V) (c : Dev nD) (t : Fin (cfgM2 V hO).N) (l : Fin 128) :
    xrow2 V hO c t (ValueIdx.ix3 (0 : Fin 1) (0 : Fin 1) l)
      = V c main_v34 (ValueIdx.ix3 (⟨rho2 V t, rho2_lt V hO t⟩ : Fin 786432) (0 : Fin 1) l) := by
  show V c main_v34 ((((cfgM2 V hO).win 0).blk t).view.emb (ValueIdx.ix3 (0 : Fin 1) (0 : Fin 1) l)) = _
  exact congrArg (V c main_v34) (emb2_0 (adm2 V hO) t l)

/-- Lane `l` of the phase-bias block at point `t` is its array at (sample, 0, l). -/
theorem xpa2_apply (hO : Ok2 V) (c : Dev nD) (t : Fin (cfgM2 V hO).N) (l : Fin 128) :
    xpa2 V hO c t (ValueIdx.ix3 (0 : Fin 1) (0 : Fin 1) l)
      = V c main_v49 (ValueIdx.ix3 (⟨t.val / 32, sample_lt2 t⟩ : Fin 2048) (0 : Fin 1) l) := by
  show V c main_v49 ((((cfgM2 V hO).win 1).blk t).view.emb (ValueIdx.ix3 (0 : Fin 1) (0 : Fin 1) l)) = _
  exact congrArg (V c main_v49) (emb2_1 (adm2 V hO) t l)

/-- Lane `l` of the head-weight block at point `t` is its array at (sample, 0, l). -/
theorem xw2_apply (hO : Ok2 V) (c : Dev nD) (t : Fin (cfgM2 V hO).N) (l : Fin 128) :
    xw2 V hO c t (ValueIdx.ix3 (0 : Fin 1) (0 : Fin 1) l)
      = V c main_v50 (ValueIdx.ix3 (⟨t.val / 32, sample_lt2 t⟩ : Fin 2048) (0 : Fin 1) l) := by
  show V c main_v50 ((((cfgM2 V hO).win 2).blk t).view.emb (ValueIdx.ix3 (0 : Fin 1) (0 : Fin 1) l)) = _
  exact congrArg (V c main_v50) (emb2_2 (adm2 V hO) t l)

/-- The head-bias block at point `t` is its array at (sample, 0, 0). -/
theorem xb2_apply (hO : Ok2 V) (c : Dev nD) (t : Fin (cfgM2 V hO).N) :
    xb2 V hO c t (ValueIdx.ix3 (0 : Fin 1) (0 : Fin 1) (0 : Fin 1))
      = V c main_v51 (ValueIdx.ix3 (⟨t.val / 32, sample_lt2 t⟩ : Fin 2048) (0 : Fin 1) (0 : Fin 1)) := by
  show V c main_v51 ((((cfgM2 V hO).win 3).blk t).view.emb (ValueIdx.ix3 (0 : Fin 1) (0 : Fin 1) (0 : Fin 1))) = _
  exact congrArg (V c main_v51) (emb2_3 (adm2 V hO) t)

/-! ## The arrays after the run -/

/-- An input's array is never written: it ends as the region found it. -/
theorem arrAt2_in (hO : Ok2 V) (c : Dev nD) (w : Fin 5) (hw : w ≠ 4) :
    (dat2 V hO c).arrAt w (cfgM2 V hO).N = V c (Pipeline.arrRef spec2 w) := by
  have hin : ((cfgM2 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat2 V hO c).arrAt_in w hin _).trans (A_eq2 V hO c w)

/-- THE RESULT ARRAY of the tile: row `r` holds what the body left in the result block at sample `r`'s last feature. -/
def tileRes2 (hO : Ok2 V) (c : Dev nD) : Buf (Elt F) ((c : Thread nD τ).loc main_v52) :=
  fun (i : S2048x1x1.Idx) => outAt2 V hO c ⟨32 * (i 0).val + 31, lastPt_lt2 (i 0).val (i 0).isLt⟩ (ValueIdx.ix3 (0 : Fin 1) (0 : Fin 1) (0 : Fin 1))

theorem tileRes2_apply (hO : Ok2 V) (c : Dev nD) (r : Fin 2048) :
    tileRes2 V hO c (ValueIdx.ix3 r (0 : Fin 1) (0 : Fin 1))
      = outAt2 V hO c ⟨32 * r.val + 31, lastPt_lt2 r.val r.isLt⟩ (ValueIdx.ix3 (0 : Fin 1) (0 : Fin 1) (0 : Fin 1)) := rfl

/-- The result block read at two names of one point. -/
theorem outAt2_congr (hO : Ok2 V) (c : Dev nD) {t t' : Fin (cfgM2 V hO).N} (h : t.val = t'.val) (j : S1x1x1.Idx) :
    outAt2 V hO c t j = outAt2 V hO c t' j := by
  obtain rfl : t = t' := Fin.ext h
  rfl

/-- What a write-back writes is the written row of `tileRes2`: the point is its sample's last feature `32 (t / 32) + 31`,
    and the block's one element is the row's. -/
theorem flushed2_4_eq (hO : Ok2 V) (c : Dev nD) (t : Fin (cfgM2 V hO).N) (hf : ((cfgM2 V hO).win 4).flush t = true) :
    (dat2 V hO c).flushed 4 t = (((cfgM2 V hO).win 4).blk t).view.read (Elt F) (tileRes2 V hO c) := by
  have h31 : t.val % 32 = 31 := (flush2_4_iff (adm2 V hO) t).mp hf
  show ((cfgM2 V hO).win 4).cut (grid2.coords t) ((dat2 V hO c).after 4 t) = _
  rw [after2_4]
  funext j
  have hj : (((cfgM2 V hO).win 4).xinj (grid2.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM2 V hO).win 4).blk t).view.emb j : S2048x1x1.Idx) (0 : Fin 3)).val + 31 := by
    have h : (j (0 : Fin 3)).val < 1 := (j (0 : Fin 3)).isLt
    show t.val = 32 * (((cfgM2 V hO).win 4).index t (0 : Fin 3) * 1 + 1 * (j (0 : Fin 3)).val) + 31
    rw [index2_4]
    show t.val = 32 * (t.val / 32 * 1 + 1 * (j (0 : Fin 3)).val) + 31
    omega
  show outAt2 V hO c t (((cfgM2 V hO).win 4).xinj (grid2.coords t) j) = tileRes2 V hO c ((((cfgM2 V hO).win 4).blk t).view.emb j)
  rw [hj]
  exact outAt2_congr V hO c hv _

/-- Every row of the result array is some write-back's block: row `r` is the block of point `32 r + 31`. -/
theorem cover2_4 (hO : Ok2 V) (i : S2048x1x1.Idx) :
    ∃ t : Fin (cfgM2 V hO).N, ((cfgM2 V hO).win 4).flush t = true ∧ i ∈ (((cfgM2 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt2 _ h0⟩, (flush2_4_iff (adm2 V hO) _).mpr (by show (32 * (i 0).val + 31) % 32 = 31; omega), ?_⟩
  have he : (((cfgM2 V hO).win 4).blk ⟨32 * (i 0).val + 31, lastPt_lt2 _ h0⟩).view.emb (ValueIdx.ix3 (0 : Fin 1) (0 : Fin 1) (0 : Fin 1)) = i := by
    refine (emb2_4 (adm2 V hO) ⟨32 * (i 0).val + 31, lastPt_lt2 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM2 V hO).win 4).blk ⟨32 * (i 0).val + 31, lastPt_lt2 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes2`. -/
theorem arrAt2_4 (hO : Ok2 V) (c : Dev nD) : (dat2 V hO c).arrAt 4 (cfgM2 V hO).N = tileRes2 V hO c :=
  (dat2 V hO c).arrAt_eq_of_cover 4 (tileRes2 V hO c) (fun t hf => flushed2_4_eq V hO c t hf) (fun i => cover2_4 V hO i)

end AtTable

end Cert.Kernel.Hand

end
-- ==== Proof.R2SegBits.lean ====
/-
  Tile 2's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 2's admissible contents and
  proof data is ten small facts (`Pinned2`); they hold of tile 2's own (`pinned_dat2`) and so of any family whose
  component 2 is tile 2's (`Pinned2.of_eq`).
-/
import proofs.«402893_j78554951844377_2_alg».proof.Proof.R2AccBits
import proofs.«402893_j78554951844377_2_alg».proof.Proof.FamilyBits
import proofs.«402893_j78554951844377_2_alg».proof.Proof.GlueBits
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 2's contents and proof data -/

variable (Vin : (c : Dev nD) → (b : Ref sig .tc) → Buf (Elt F) ((c : Thread nD τ).loc b))

/-- The scratch operand owned whole at some contents is its buffer held at some contents. -/
theorem scratch2_eq (c : Dev nD) :
    (iprop(∃ d, owns (c : Thread nD τ) scM2 fullShare d) : sProp 𝕄)
      = iprop(∃ f : Buf (Elt F) ((c : Thread nD τ).loc cc2_scratch0), ((c : Thread nD τ).loc cc2_scratch0) ↦{fullShare} f) := by
  simp only [scM2, owns_whole]; try rfl

/-- What the record needs of pipeline 2's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned2 (Vx : Dev nD → Valuation τ sig (Elt F)) (a0 : (pcfgs (F := F) 2).Adm)
    (d0 : (c : Dev nD) → Dat τ (Elt F) Unit ℕ (UR sig nD τ) ℕ ((pcfgs (F := F) 2).at a0) c) : Prop where
  tbl : a0.1 = tbl2 Vin
  q : ∀ (c : Dev nD) w, (d0 c).q w = fullShare
  A : ∀ (c : Dev nD) w, (d0 c).A w = Vin c (Pipeline.arrRef spec2 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM2 fullShare d) ∗ Rest2 Vin c) : sProp 𝕄) ⊢ (d0 c).Φ 0
  phiOut : ∀ c : Dev nD, (d0 c).Φ (Fin.last _) ⊢ (iprop((∃ d, owns (c : Thread nD τ) scM2 fullShare d) ∗ Rest2 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 2).at a0).N = Vx c (Pipeline.arrRef spec2 w)

set_option maxHeartbeats 400000 in
/-- Tile 2's own contents and proof data have them: each field by unfolding the proof data; the last stage of the
    invariant is a later one (the grid has 65536 points), so it holds the scratch at the last point's contents. -/
theorem pinned_dat2 (hO : Ok2 Vin) (Vx : Dev nD → Valuation τ sig (Elt F))
    (hF : ∀ c w, (dat2 Vin hO c).arrAt w (cfgM2 Vin hO).N = Vx c (Pipeline.arrRef spec2 w)) :
    Pinned2 Vin Vx (adm2 Vin hO) (dat2 Vin hO) where
  tbl := rfl
  q c w := rfl
  A c w := A_eq2 Vin hO c w
  owed c t := rfl
  body c := (body_obligation2 Vin hO c).loose
  phiIn c := by
    rw [show (dat2 Vin hO c).Φ 0 = PhiS2 Vin hO c ((0 : Fin ((cfgM2 Vin hO).N + 1)).val) (Nat.le_of_lt_succ (0 : Fin ((cfgM2 Vin hO).N + 1)).isLt) from rfl,
      PhiS2_zero Vin hO c _ _ (Fin.val_zero _)]
  phiOut c := by
    have hN : (Fin.last (cfgM2 Vin hO).N).val ≠ 0 := by
      rw [Fin.val_last, show (cfgM2 Vin hO).N = grid2.N from rfl, N_2]; decide
    show PhiS2 Vin hO c (Fin.last (cfgM2 Vin hO).N).val (Nat.le_of_lt_succ (Fin.last (cfgM2 Vin hO).N).isLt) ⊢ _
    rw [PhiS2_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 2's. -/
theorem Pinned2.of_eq (hO : Ok2 Vin) {Vx : Dev nD → Valuation τ sig (Elt F)} {a0 : (pcfgs (F := F) 2).Adm}
    {d0 : (c : Dev nD) → Dat τ (Elt F) Unit ℕ (UR sig nD τ) ℕ ((pcfgs (F := F) 2).at a0) c}
    (ha : a0 = adm2 Vin hO) (hd : ∀ c, HEq (d0 c) (dat2 Vin hO c)) (h : Pinned2 Vin Vx (adm2 Vin hO) (dat2 Vin hO)) :
    Pinned2 Vin Vx a0 d0 := by
  subst ha
  obtain rfl : d0 = dat2 Vin hO := funext fun c => eq_of_heq (hd c)
  exact h

/-! ## The record -/

set_option backward.isDefEq.respectTransparency.types false in
set_option maxHeartbeats 1600000 in
/-- Tile 2's region over ANY family of pipelines whose component 2 is tile 2's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg2G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok2 Vin) (ha : a 2 = adm2 Vin hO) (hd : ∀ c, HEq (pdats 2 c) (dat2 Vin hO c))
    (hag : ∀ c w, V c (Proc.devRef .tc (Pipeline.arrRef spec2 w)) = Vin c (Pipeline.arrRef spec2 w))
    (hagT : ∀ c j, V c (Proc.devRef .tc (pre2.ref j)) = Vin c (pre2.ref j))
    (hF : ∀ c w, (dat2 Vin hO c).arrAt w (cfgM2 Vin hO).N = Vx c (Pipeline.arrRef spec2 w))
    (hrest : ∀ c b, b ∉ Finset.univ.image (Pipeline.arrRef spec2) → Vx c b = V c b) :
    Pipeline.RegionSeg (pcfgs (F := F)) a pdats () defs₀ Variants.none (fun _ => ∅) (fun _ _ => 0) 2 :=
  have hp : Pinned2 Vin Vx (a 2) (pdats 2) := Pinned2.of_eq Vin hO ha hd (pinned_dat2 Vin hO Vx hF)
  have htbl : ∀ c, (fun k => V c (Proc.devRef .tc ((pcfgs (F := F) 2).pre.ref k))) = (a 2).1 := fun c => by
    rw [hp.tbl]; funext k; exact (hagT c k).trans (V_pre2 Vin c k)
  { win := (launch2 (F := F)).win.to₀
    block_pos := (launch2 (F := F)).block_pos
    stage_whole := (launch2 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 2 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre2 c (fun _ => fullShare) (tbl2 Vin))
    Z := fun c => Pipeline.unscopedRestP (Ix := Unit) (Name := ℕ) (U := UR sig nD τ) (Lvl := ℕ) pre2 spec2 c (fun b => V c b)
    hentry := fun c => by
      rw [Pipeline.ownSems0_none]
      have hsplit := Pipeline.arrays_of_unscopedBufs (p := 2) (pcfgs (F := F)) a pdats (launch2 (F := F)).win (launch2 (F := F)).arr_whole c
        ((pdats 2 c).share_full (hp.q c)) (fun b => V c b) (fun w => (hp.A c w).trans (hag c w).symm)
      rw [Pipeline.unscopedBufs_held, Pipeline.unscopedRest_split (launch2 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 2).spec c : sProp 𝕄) = _ from scopedRest2_split c, hp.tbl]
      refine BIBase.Entails.trans ?_ (hp.phiIn c)
      rw [scratch2_eq]
      unfold Rest2
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 2).spec c : sProp 𝕄) = _ from scopedRest2_split c]
      refine BIBase.Entails.trans (hp.phiOut c) ?_
      rw [scratch2_eq]
      unfold Rest2
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 2) (pcfgs (F := F)) a (Ix := Unit) (Name := ℕ) (U := UR sig nD τ) (Lvl := ℕ)
        (launch2 (F := F)).win (launch2 (F := F)).arr_whole c pdats ((pdats 2 c).share_full (hp.q c))
        (fun b => V c b) (fun b => Vx c b) ((pdats 2 c).arrAt · (Pipeline.pin (pcfgs (F := F)) a 2).N) (hp.fin c) (hrest c)
      rw [Pipeline.unscopedBufs_held, Pipeline.unscopedRest_split (launch2 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 2's record over the assembled families, tile 2's components in slot 2. -/
def reg2 (hO : Ok2 Vin) (V Vx : Dev nD → Valuation τ sig (Elt F))
    (hag : ∀ c w, V c (Proc.devRef .tc (Pipeline.arrRef spec2 w)) = Vin c (Pipeline.arrRef spec2 w))
    (hagT : ∀ c j, V c (Proc.devRef .tc (pre2.ref j)) = Vin c (pre2.ref j))
    (hF : ∀ c w, (dat2 Vin hO c).arrAt w (cfgM2 Vin hO).N = Vx c (Pipeline.arrRef spec2 w))
    (hrest : ∀ c b, b ∉ Finset.univ.image (Pipeline.arrRef spec2) → Vx c b = V c b)
    (a0 : (pcfg0 (F := F)).Adm)
    (a1 : (pcfg1 (F := F)).Adm)
    (a3 : (pcfg3 (F := F)).Adm)
    (a4 : (pcfg4 (F := F)).Adm)
    (a5 : (pcfg5 (F := F)).Adm)
    (a6 : (pcfg6 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 a1 (adm2 Vin hO) a3 a4 a5 a6 a7)
      (pdatsOf a0 a1 (adm2 Vin hO) a3 a4 a5 a6 a7 d0 d1 (dat2 Vin hO) d3 d4 d5 d6 d7) () defs₀ Variants.none (fun _ => ∅) (fun _ _ => 0) 2 :=
  reg2G Vin V Vx _ _ hO rfl (fun _ => HEq.rfl) hag hagT hF hrest

/-- The thread state the record is entered from, -/
theorem reg2_pre (hO : Ok2 Vin) (V Vx : Dev nD → Valuation τ sig (Elt F)) (hag) (hagT) (hF) (hrest) (a0) (a1) (a3) (a4) (a5) (a6) (a7) (d0) (d1) (d3) (d4) (d5) (d6) (d7) (c : Dev nD) :
    (reg2 Vin hO V Vx hag hagT hF hrest a0 a1 a3 a4 a5 a6 a7 d0 d1 d3 d4 d5 d6 d7).pre c
      = iprop(StableHlo.held (c : Thread nD τ) (Pipeline.ucRefs τ sig) (V c) ∗ Rr (F := F) c) := rfl
/-- and the one it leaves. -/
theorem reg2_post (hO : Ok2 Vin) (V Vx : Dev nD → Valuation τ sig (Elt F)) (hag) (hagT) (hF) (hrest) (a0) (a1) (a3) (a4) (a5) (a6) (a7) (d0) (d1) (d3) (d4) (d5) (d6) (d7) (c : Dev nD) :
    (reg2 Vin hO V Vx hag hagT hF hrest a0 a1 a3 a4 a5 a6 a7 d0 d1 d3 d4 d5 d6 d7).post c
      = iprop(StableHlo.held (c : Thread nD τ) (Pipeline.ucRefs τ sig) (Vx c) ∗ Rr (F := F) c) := rfl

end Cert.Kernel.Hand

end
-- ==== Proof.R2AgreeBits.lean ====
import proofs.«402893_j78554951844377_2_alg».proof.Proof.KHostBits
import Idealize.ShloMosaic.Lib.ValueIdx

noncomputable section

namespace Cert.Kernel.Hand

open Cert.Kernel Cert.Kernel.Gen
open Idealize.ShloMosaic Idealize.ShloMosaic.TcCoe

variable {F : FTy → Type} [FloatOps F]

/-! # Tile 2: what the region reads does not depend on what earlier regions left

The table, the embedding table, the three slices and the (not yet written) result array of tile 2 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree2_tbl : V9 m outs c main_v48 = V9 m outs' c main_v48 := by
  funext (j : S65536.Idx)
  obtain ⟨a, rfl⟩ : ∃ a : Fin 65536, j = ValueIdx.ix1 a := ⟨j 0, ValueIdx.eq_ix1 j⟩
  rw [tbl2_apply m outs c, tbl2_apply m outs' c]

theorem agree2_emb : V9 m outs c main_v34 = V9 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb2_apply m outs c, emb2_apply m outs' c]

theorem agree2_pa : V9 m outs c main_v49 = V9 m outs' c main_v49 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa2_apply m outs c, pa2_apply m outs' c]

theorem agree2_w : V9 m outs c main_v50 = V9 m outs' c main_v50 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w2_apply m outs c, w2_apply m outs' c]

theorem agree2_b : V9 m outs c main_v51 = V9 m outs' c main_v51 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b2_apply m outs c, b2_apply m outs' c]

/-- The result array has not been written when the region is entered: it holds its launch contents. -/
theorem entry2_out : V9 m outs c main_v52 = V5 m c main_v52 :=
  (V9_of m outs c main_v52 (by decide)).trans ((V8_of m outs c main_v52 (by decide)).trans ((V7_of m outs c main_v52 (by decide)).trans (V6_of m outs c main_v52 (by decide))))

theorem agree2_out : V9 m outs c main_v52 = V9 m outs' c main_v52 :=
  (entry2_out m outs c).trans (entry2_out m outs' c).symm

end Cert.Kernel.Hand

end
-- ==== Proof.R3RunBits.lean ====
import proofs.«402893_j78554951844377_2_alg».proof.Proof.Gen.Kernel.Launch
import proofs.«402893_j78554951844377_2_alg».proof.Proof.Gen.Kernel.Skeleton
import proofs.«402893_j78554951844377_2_alg».proof.Proof.R0RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 3: the kernel body at one grid point

Tile 3's kernel function is tile 0's (the same body, the same payloads and conditions under other names), so its three
runs are tile 0's. -/

/-- The body's first condition: the feature coordinate is 0. -/
abbrev cond3_0 (i : grid3.Coords) : Prop := (Scalar.cmpi .ne (Scalar.extui (Scalar.cmpi .eq (BitVec.ofNat 32 (i 1).val) 0#32)) 0#32) = 1#1
/-- The body's second condition: the feature coordinate is 31. -/
abbrev cond3_1 (i : grid3.Coords) : Prop := k3_cond2 i = 1#1

/-- A MIDDLE feature: the scratch at `acc` ends at `acc + row`. -/
theorem run3_B (c : Dev nD) (i : grid3.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond3_0 i) (hc1 : ¬cond3_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k3_pay2 acc x3)) -∗ K ⟨⟩))
      ⊢ wp frame (wpE (defs₀ (F := F)) Variants.none c none) E (cc3__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run3_A (c : Dev nD) (i : grid3.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond3_0 i) (hc1 : ¬cond3_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k3_pay2 (k3_pay1 (F := F)) x3)) -∗ K ⟨⟩))
      ⊢ wp frame (wpE (defs₀ (F := F)) Variants.none c none) E (cc3__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run3_C (c : Dev nD) (i : grid3.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond3_0 i) (hc1 : cond3_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k3_pay3 (k3_pay2 acc x3) x4 x5 x6)
            ∗ owns (c : Thread nD τ) arg8 fullShare (k3_pay2 acc x3)) -∗ K ⟨⟩))
      ⊢ wp frame (wpE (defs₀ (F := F)) Variants.none c none) E (cc3__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.Kernel.Hand

end
-- ==== Proof.R3BaseBits.lean ====
import proofs.«402893_j78554951844377_2_alg».proof.Proof.Gen.Kernel.Launch
import proofs.«402893_j78554951844377_2_alg».proof.Proof.Gen.Kernel.Skeleton
import proofs.«402893_j78554951844377_2_alg».proof.Proof.R3RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 3: the pipeline at the table the region reads, its blocks and staging buffers

Everything here is stated at a PARAMETER `V`: the contents of the core's buffers when the region is entered. The
region's prefetched table is read off `V`; under the side condition that every word of it names a row of the embedding
table (`Ok3`) the pipeline is pinned at it, and each window's block at a grid point is a restriction of its array. -/

variable (V : (c : Dev nD) → (b : Ref sig .tc) → Buf (Elt F) ((c : Thread nD τ).loc b))

/-- The table's contents when the region is entered (one device). -/
def tbl3 : pre3.Contents (Elt F) := fun j => V (0 : Dev nD) (pre3.ref j)
/-- On every device the table holds those contents (there is one device). -/
theorem V_pre3 (c : Dev nD) (j : Fin 1) : V c (pre3.ref j) = tbl3 V j := by
  obtain rfl : c = 0 := Subsingleton.elim _ _; rfl
/-- Every block the table names lies inside the embedding table. -/
abbrev Ok3 : Prop := ok3 (F := F) (tbl3 V)
/-- The table as admissible contents, and the pipeline pinned at it. -/
abbrev adm3 (hO : Ok3 V) : (pcfg3 (F := F)).Adm := ⟨tbl3 V, hO⟩
abbrev cfgM3 (hO : Ok3 V) : Pipeline.Cfg sig Λ₀ := cfg3 (adm3 V hO)

/-- Window `w`'s block at point `t`, read off its array as the region finds it. -/
def iblk3 (hO : Ok3 V) (c : Dev nD) (w : Fin (cfgM3 V hO).W) (t : Fin (cfgM3 V hO).N) :
    (((cfgM3 V hO).win w).xblock ((cfgM3 V hO).grid.coords t)).Idx → Elt F ((cfgM3 V hO).win w).elt :=
  (((cfgM3 V hO).win w).blk t).view.read (Elt F) (V c (Pipeline.arrRef spec3 w))

/-- An input window's current staging buffer holds its block at every point, fetched there or not, for any proof
    data whose array is `V`'s and whose body leaves the block in place. -/
theorem before3_0_of (hO : Ok3 V) {c : Dev nD} (dat : Dat τ (Elt F) Unit ℕ (UR sig nD τ) ℕ (cfgM3 V hO) c) (hA : dat.A 0 = V c (Pipeline.arrRef spec3 0))
    (hafter : ∀ t, dat.after 0 t = iblk3 V hO c 0 t) (t : Fin (cfgM3 V hO).N) (d) : dat.before 0 t d = iblk3 V hO c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (hO : Ok3 V) {c : Dev nD} (dat : Dat τ (Elt F) Unit ℕ (UR sig nD τ) ℕ (cfgM3 V hO) c) (hA : dat.A 1 = V c (Pipeline.arrRef spec3 1))
    (hafter : ∀ t, dat.after 1 t = iblk3 V hO c 1 t) (t : Fin (cfgM3 V hO).N) (d) : dat.before 1 t d = iblk3 V hO c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of (hO : Ok3 V) {c : Dev nD} (dat : Dat τ (Elt F) Unit ℕ (UR sig nD τ) ℕ (cfgM3 V hO) c) (hA : dat.A 2 = V c (Pipeline.arrRef spec3 2))
    (hafter : ∀ t, dat.after 2 t = iblk3 V hO c 2 t) (t : Fin (cfgM3 V hO).N) (d) : dat.before 2 t d = iblk3 V hO c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of (hO : Ok3 V) {c : Dev nD} (dat : Dat τ (Elt F) Unit ℕ (UR sig nD τ) ℕ (cfgM3 V hO) c) (hA : dat.A 3 = V c (Pipeline.arrRef spec3 3))
    (hafter : ∀ t, dat.after 3 t = iblk3 V hO c 3 t) (t : Fin (cfgM3 V hO).N) (d) : dat.before 3 t d = iblk3 V hO c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Each window's current staging memref at point `t`, as the pipeline passes it, and its wholeness. -/
abbrev ms3_0 (hO : Ok3 V) (t : Fin (cfgM3 V hO).N) : Memref sig .tc .vmem S1x1x128 .f32 := spec3_0.stage ((cfgM3 V hO).slots t 0)
abbrev hs3_0 (hO : Ok3 V) (t : Fin (cfgM3 V hO).N) : (ms3_0 V hO t).IsWhole := hstage3_0 (((cfgM3 V hO).slots t 0).cast nbuf3_0)
abbrev ms3_1 (hO : Ok3 V) (t : Fin (cfgM3 V hO).N) : Memref sig .tc .vmem S1x1x128 .f32 := spec3_1.stage ((cfgM3 V hO).slots t 1)
abbrev hs3_1 (hO : Ok3 V) (t : Fin (cfgM3 V hO).N) : (ms3_1 V hO t).IsWhole := hstage3_1 (((cfgM3 V hO).slots t 1).cast nbuf3_1)
abbrev ms3_2 (hO : Ok3 V) (t : Fin (cfgM3 V hO).N) : Memref sig .tc .vmem S1x1x128 .f32 := spec3_2.stage ((cfgM3 V hO).slots t 2)
abbrev hs3_2 (hO : Ok3 V) (t : Fin (cfgM3 V hO).N) : (ms3_2 V hO t).IsWhole := hstage3_2 (((cfgM3 V hO).slots t 2).cast nbuf3_2)
abbrev ms3_3 (hO : Ok3 V) (t : Fin (cfgM3 V hO).N) : Memref sig .tc .vmem S1x1x1 .f32 := spec3_3.stage ((cfgM3 V hO).slots t 3)
abbrev hs3_3 (hO : Ok3 V) (t : Fin (cfgM3 V hO).N) : (ms3_3 V hO t).IsWhole := hstage3_3 (((cfgM3 V hO).slots t 3).cast nbuf3_3)
abbrev ms3_4 (hO : Ok3 V) (t : Fin (cfgM3 V hO).N) : Memref sig .tc .vmem S1x1x1 .f32 := spec3_4.stage ((cfgM3 V hO).slots t 4)
abbrev hs3_4 (hO : Ok3 V) (t : Fin (cfgM3 V hO).N) : (ms3_4 V hO t).IsWhole := hstage3_4 (((cfgM3 V hO).slots t 4).cast nbuf3_4)
/-- The scratch operand: a whole scoped buffer of the kernel's own. -/
abbrev scM3 : Memref sig .tc .vmem S1x1x128 .f32 := Memref.whole cc3_scratch0
/-- The table as the body is handed it. -/
abbrev tbM3 : Memref sig .tc .smem S65536 .i32 := Memref.whole main_v54

/-- The kernel body at point `t`, on what the pipeline calls it with. -/
abbrev bodyAt3 (a : (pcfg3 (F := F)).Adm) (t : Fin (cfg3 a).N) : Prog (TpuEff nD τ sig (Elt F) Λ₀ .tc) PUnit :=
  cc3__gather_kernel (grid3.coords t) (Memref.whole main_v54) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (Memref.whole cc3_scratch0) (Memref.isWhole_whole _)

/-- Off the last feature the result window is idle: the body stores nothing into it. -/
theorem idleAt3_4 (a : (pcfg3 (F := F)).Adm) (i : grid3.Coords) (h : ¬cond3_1 i) : (cfg3 a).idle 4 i = true := by
  show (!(k3_cond2 i == 1#1)) = true
  simp only [Bool.not_eq_true', beq_eq_false_iff_ne, ne_eq]; exact h
/-- On the last feature it is live. -/
theorem liveAt3_4 (a : (pcfg3 (F := F)).Adm) (i : grid3.Coords) (h : cond3_1 i) : (cfg3 a).idle 4 i = false := by
  show (!(k3_cond2 i == 1#1)) = false
  simp only [Bool.not_eq_false', beq_iff_eq]; exact h
/-- The input windows are never idle. -/
theorem liveAt3_0 (a : (pcfg3 (F := F)).Adm) (i : grid3.Coords) : (cfg3 a).idle 0 i = false := rfl
theorem liveAt3_1 (a : (pcfg3 (F := F)).Adm) (i : grid3.Coords) : (cfg3 a).idle 1 i = false := rfl
theorem liveAt3_2 (a : (pcfg3 (F := F)).Adm) (i : grid3.Coords) : (cfg3 a).idle 2 i = false := rfl
theorem liveAt3_3 (a : (pcfg3 (F := F)).Adm) (i : grid3.Coords) : (cfg3 a).idle 3 i = false := rfl

end Cert.Kernel.Hand

end
-- ==== Proof.R3OkBits.lean ====
/-
  Tile 3: the table the region reads, and the pipeline's side condition on it from the range fact.

  Region 3 is entered with the buffers at the valuation after the host stretch that cuts tile 3's operands. Its prefetched table then
  holds, at flat position `32·i₀ + i₁`, the gathered row number of sample `2048·3 + i₀`, feature `i₁`. When every gathered
  row number is below 786432 (the range fact), every word of the table is, which is the side condition under which the
  pipeline is pinned at the table.
-/
import proofs.«402893_j78554951844377_2_alg».proof.Proof.Gen.Kernel.Regions
import proofs.«402893_j78554951844377_2_alg».proof.Proof.Spec
import proofs.«402893_j78554951844377_2_alg».proof.Proof.R3BaseBits
import proofs.«402893_j78554951844377_2_alg».proof.Proof.OkTablesBits
import proofs.«402893_j78554951844377_2_alg».proof.Proof.KHostBits
import proofs.«402893_j78554951844377_2_alg».proof.Proof.TileLibBits
import Idealize.ShloMosaic.Lib.ValueIdx

noncomputable section

namespace Cert.Kernel.Hand

open Idealize.ShloMosaic Idealize.ShloMosaic.TcCoe
open Cert.Kernel Cert.Kernel.Gen Idealize.ShloMosaic.ValueIdx

variable {F : FTy → Type} [FloatOps F]

/-- The buffers when region 3 is entered: the valuation after the host stretch that cuts tile 3's operands. -/
abbrev V3in (m : (ℓ : Loc nD τ sig) → Buf (Elt F) ℓ) : (c : Dev nD) → (b : Ref sig .tc) → Buf (Elt F) ((c : Thread nD τ).loc b) :=
  fun c b => V11 m (outsL m) c b

variable (m : (ℓ : Loc nD τ sig) → Buf (Elt F) ℓ)

/-- The table word read at grid point `(i₀, i₁)` is the gathered row number of sample `2048·3 + i₀`, feature `i₁`: the
    word sits at flat position `32·i₀ + i₁`, whose quotient and remainder by 32 are `i₀` and `i₁`. -/
theorem tword3_V3in (c : Dev nD) (i : grid3.Coords) :
    tword3 (tbl3 (V3in m)) i
      = Spec.gidxOf (m ((c : Thread nD τ).loc main_arg0)) (m ((c : Thread nD τ).loc main_arg1)) (m ((c : Thread nD τ).loc main_arg2))
          (ValueIdx.ix2 (⟨2048 * 3 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V3in m 0 main_v54 (ValueIdx.ix1 ⟨32 * (i 0).val + (i 1).val, pos_lt3 i⟩) = _
  refine (tbl3_apply m (outsL m) 0 ⟨32 * (i 0).val + (i 1).val, pos_lt3 i⟩).trans ?_
  exact congrArg _ (ix2_congr (by show 2048 * 3 + (32 * (i 0).val + (i 1).val) / 32 = 2048 * 3 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok3_of_inRange (c : Dev nD)
    (hin : Spec.InRange (Spec.gidxOf (m ((c : Thread nD τ).loc main_arg0)) (m ((c : Thread nD τ).loc main_arg1)) (m ((c : Thread nD τ).loc main_arg2)))) :
    Ok3 (V3in m) :=
  ok3_of (tbl3 (V3in m)) fun i => by rw [tword3_V3in m c i]; exact hin _ _

end Cert.Kernel.Hand

end
-- ==== Proof.R3GridBits.lean ====
import proofs.«402893_j78554951844377_2_alg».proof.Proof.R3RunBits
import Idealize.ShloMosaic.Lib.Pipeline.Kit
import Mathlib.Data.Fin.VecNotation

noncomputable section

namespace Cert.Kernel.Hand

open Cert.Kernel Cert.Kernel.Gen
open Idealize.ShloMosaic
open Idealize.ShloMosaic.Pipeline (Cfg Window)

variable {F : FTy → Type} [FloatOps F]

/-! # Tile 3: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride3_0 : grid3.stride 0 = 32 := by decide
/-- The feature coordinate changes at every point. -/
theorem stride3_1 : grid3.stride 1 = 1 := by decide

/-- The sample coordinate of point `t` is `t / 32`: the quotient is below 2048, so reducing it modulo the
    axis's bound changes nothing. -/
theorem coords3_val0 (t : Fin grid3.N) : ((grid3.coords t) 0).val = t.val / 32 := by
  have ht : t.val < 65536 := N_3 ▸ t.isLt
  show t.val / grid3.stride 0 % 2048 = t.val / 32
  rw [stride3_0]; omega

/-- The feature coordinate of point `t` is `t % 32`. -/
theorem coords3_val1 (t : Fin grid3.N) : ((grid3.coords t) 1).val = t.val % 32 := by
  show t.val / grid3.stride 1 % 32 = t.val % 32
  rw [stride3_1, Nat.div_one]

/-- The first condition holds exactly at feature 0: checked at each of the 32 values of the coordinate. -/
theorem cond3_0_iff (i : grid3.Coords) : cond3_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond3_1_iff (i : grid3.Coords) : cond3_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond3_0_first (t : Fin grid3.N) (h : t.val = 0) : cond3_0 (grid3.coords t) := by
  rw [cond3_0_iff, coords3_val1, h]

/-- No feature is both the first and the last. -/
theorem not_both3 (i : grid3.Coords) : cond3_0 i → cond3_1 i → False := by
  rw [cond3_0_iff, cond3_1_iff]; omega

/-- A sample number, made a 32-bit word and read back, is itself. -/
private theorem toNat_ofNat_sample (t : Fin grid3.N) : (BitVec.ofNat 32 ((grid3.coords t) 0).val).toNat = t.val / 32 := by
  have ht : t.val < 65536 := N_3 ▸ t.isLt
  rw [coords3_val0, BitVec.toNat_ofNat, Nat.mod_eq_of_lt (by omega)]

/-- Window 1's block at point `t` is the one of sample `t / 32`. -/
theorem index3_1 (a : (pcfg3 (F := F)).Adm) (t : Fin (cfg3 a).N) : ((cfg3 a).win 1).index t = ![t.val / 32, 0, 0] := by
  show (![(BitVec.ofNat 32 ((grid3.coords t) 0).val).toNat, (0#32).toNat, (0#32).toNat] : Fin 3 → ℕ) = _
  rw [toNat_ofNat_sample]; rfl
/-- Window 2's block at point `t` is the one of sample `t / 32`. -/
theorem index3_2 (a : (pcfg3 (F := F)).Adm) (t : Fin (cfg3 a).N) : ((cfg3 a).win 2).index t = ![t.val / 32, 0, 0] := by
  show (![(BitVec.ofNat 32 ((grid3.coords t) 0).val).toNat, (0#32).toNat, (0#32).toNat] : Fin 3 → ℕ) = _
  rw [toNat_ofNat_sample]; rfl
/-- Window 3's block at point `t` is the one of sample `t / 32`. -/
theorem index3_3 (a : (pcfg3 (F := F)).Adm) (t : Fin (cfg3 a).N) : ((cfg3 a).win 3).index t = ![t.val / 32, 0, 0] := by
  show (![(BitVec.ofNat 32 ((grid3.coords t) 0).val).toNat, (0#32).toNat, (0#32).toNat] : Fin 3 → ℕ) = _
  rw [toNat_ofNat_sample]; rfl
/-- The output window's block at point `t` is the one of sample `t / 32`. -/
theorem index3_4 (a : (pcfg3 (F := F)).Adm) (t : Fin (cfg3 a).N) : ((cfg3 a).win 4).index t = ![t.val / 32, 0, 0] := by
  show (![(BitVec.ofNat 32 ((grid3.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush3_4_iff (a : (pcfg3 (F := F)).Adm) (t : Fin (cfg3 a).N) : ((cfg3 a).win 4).flush t = true ↔ t.val % 32 = 31 := by
  have hN : (cfg3 a).N = 65536 := N_3
  have ht : t.val < 65536 := hN ▸ t.isLt
  have hout : ((cfg3 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index3_4, index3_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg3 a).N := Nat.lt_of_lt_of_eq (by omega : t.val + 1 < 65536) hN.symm
      refine Or.inr ⟨hlt, ?_⟩
      rw [index3_4, index3_4]
      have hne' : (t.val + 1) / 32 ≠ t.val / 32 := by omega
      exact (vec3_ne_iff _ _).mpr hne'

/-- At a sample's last feature the output block is written back. -/
theorem flush3_4 (a : (pcfg3 (F := F)).Adm) (t : Fin (cfg3 a).N) (h : cond3_1 (grid3.coords t)) : ((cfg3 a).win 4).flush t = true := by
  rw [flush3_4_iff, ← coords3_val1]; exact (cond3_1_iff _).mp h

/-- At any other feature the output block stays. -/
theorem noFlush3_4 (a : (pcfg3 (F := F)).Adm) (t : Fin (cfg3 a).N) (h : ¬cond3_1 (grid3.coords t)) : ((cfg3 a).win 4).flush t = false := by
  rw [← Bool.not_eq_true, flush3_4_iff, ← coords3_val1]; exact fun e => h ((cond3_1_iff _).mpr e)

end Cert.Kernel.Hand

end
-- ==== Proof.R3AccBits.lean ====
import proofs.«402893_j78554951844377_2_alg».proof.Proof.Gen.Kernel.Launch
import proofs.«402893_j78554951844377_2_alg».proof.Proof.Gen.Kernel.Skeleton
import proofs.«402893_j78554951844377_2_alg».proof.Proof.R3BaseBits
import proofs.«402893_j78554951844377_2_alg».proof.Proof.R3GridBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 3: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow3 (hO : Ok3 V) (c : Dev nD) (t : Fin (cfgM3 V hO).N) : Vec F S1x1x128 .f32 := iblk3 V hO c 0 t
abbrev xpa3 (hO : Ok3 V) (c : Dev nD) (t : Fin (cfgM3 V hO).N) : Vec F S1x1x128 .f32 := iblk3 V hO c 1 t
abbrev xw3 (hO : Ok3 V) (c : Dev nD) (t : Fin (cfgM3 V hO).N) : Vec F S1x1x128 .f32 := iblk3 V hO c 2 t
abbrev xb3 (hO : Ok3 V) (c : Dev nD) (t : Fin (cfgM3 V hO).N) : Vec F S1x1x1 .f32 := iblk3 V hO c 3 t

/-- THE ACCUMULATION: the scratch after the body at position `n`. -/
def accAt3 (hO : Ok3 V) (c : Dev nD) : (n : ℕ) → n < (cfgM3 V hO).N → Vec F S1x1x128 .f32
  | 0, hn => k3_pay2 (k3_pay1 (F := F)) (xrow3 V hO c ⟨0, hn⟩)
  | n + 1, hn =>
    if cond3_0 (grid3.coords ⟨n + 1, hn⟩) then k3_pay2 (k3_pay1 (F := F)) (xrow3 V hO c ⟨n + 1, hn⟩)
    else k3_pay2 (accAt3 hO c n (Nat.lt_of_succ_lt hn)) (xrow3 V hO c ⟨n + 1, hn⟩)

/-- At a sample's first feature the scratch restarts from zero. -/
theorem accAt3_A (hO : Ok3 V) (c : Dev nD) (t : Fin (cfgM3 V hO).N) (h0 : cond3_0 (grid3.coords t)) :
    accAt3 V hO c t.val t.isLt = k3_pay2 (k3_pay1 (F := F)) (xrow3 V hO c t) := by
  obtain ⟨n, hn⟩ := t
  cases n with
  | zero => rfl
  | succ n => exact if_pos h0

/-- Elsewhere it adds the row to what the point before left. -/
theorem accAt3_B (hO : Ok3 V) (c : Dev nD) (t : Fin (cfgM3 V hO).N) (h0 : ¬cond3_0 (grid3.coords t)) (hz : t.val ≠ 0) :
    accAt3 V hO c t.val t.isLt = k3_pay2 (accAt3 V hO c (t.val - 1) (by omega)) (xrow3 V hO c t) := by
  obtain ⟨n, hn⟩ := t
  cases n with
  | zero => exact absurd rfl hz
  | succ n => exact if_neg h0

/-- The sample's result as the body computes it at a point (read at the last feature). -/
def outAt3 (hO : Ok3 V) (c : Dev nD) (t : Fin (cfgM3 V hO).N) : Vec F S1x1x1 .f32 :=
  k3_pay3 (accAt3 V hO c t.val t.isLt) (xpa3 V hO c t) (xw3 V hO c t) (xb3 V hO c t)

/-- What rides along unread: the other scoped buffers, the generator register, the table. -/
def Rest3 (c : Dev nD) : sProp 𝕄 :=
  iprop(Pipeline.scopedRestBut (Ix := Unit) (Name := ℕ) (U := UR sig nD τ) (Lvl := ℕ) (Val := Elt F) spec3 c [cc3_scratch0]
    ∗ (∃ r, prngReg c r) ∗ Pipeline.prefHeld (Ix := Unit) (Name := ℕ) (U := UR sig nD τ) (Lvl := ℕ) pre3 c (fun _ => fullShare) (tbl3 V))

/-- The region invariant before position `n`: the scratch at anything before the first point, afterwards at what
    the point before left. -/
def PhiS3 (hO : Ok3 V) (c : Dev nD) : (n : ℕ) → n ≤ (cfgM3 V hO).N → sProp 𝕄
  | 0, _ => iprop((∃ d, owns (c : Thread nD τ) scM3 fullShare d) ∗ Rest3 V c)
  | n + 1, hn => iprop(owns (c : Thread nD τ) scM3 fullShare (accAt3 V hO c n hn) ∗ Rest3 V c)

theorem PhiS3_zero (hO : Ok3 V) (c : Dev nD) (n : ℕ) (h : n ≤ (cfgM3 V hO).N) (hz : n = 0) :
    PhiS3 V hO c n h = iprop((∃ d, owns (c : Thread nD τ) scM3 fullShare d) ∗ Rest3 V c) := by
  subst hz; rfl
theorem PhiS3_succ (hO : Ok3 V) (c : Dev nD) (n : ℕ) (hn : n < (cfgM3 V hO).N) :
    PhiS3 V hO c (n + 1) hn = iprop(owns (c : Thread nD τ) scM3 fullShare (accAt3 V hO c n hn) ∗ Rest3 V c) := rfl
theorem PhiS3_pos (hO : Ok3 V) (c : Dev nD) (n : ℕ) (h : n ≤ (cfgM3 V hO).N) (hz : n ≠ 0) :
    PhiS3 V hO c n h = iprop(owns (c : Thread nD τ) scM3 fullShare (accAt3 V hO c (n - 1) (by omega)) ∗ Rest3 V c) := by
  cases n with
  | zero => exact absurd rfl hz
  | succ n => rfl

/-- The proof data of the tile's pipeline on core `c`: the arrays as the region finds them; after the body each input's
    buffer at its block and the result's at `outAt3`; the invariant `PhiS3`; nothing owed; full shares. -/
def dat3 (hO : Ok3 V) (c : Dev nD) : Dat τ (Elt F) Unit ℕ (UR sig nD τ) ℕ (cfgM3 V hO) c where
  A w := V c (Pipeline.arrRef spec3 w)
  after w t := match w with
    | ⟨0, _⟩ => iblk3 V hO c 0 t
    | ⟨1, _⟩ => iblk3 V hO c 1 t
    | ⟨2, _⟩ => iblk3 V hO c 2 t
    | ⟨3, _⟩ => iblk3 V hO c 3 t
    | ⟨4, _⟩ => outAt3 V hO c t
  Φ t := PhiS3 V hO c t.val (Nat.le_of_lt_succ t.isLt)
  q _ := fullShare
  owed _ := 0

theorem A_eq3 (hO : Ok3 V) (c : Dev nD) (w : Fin (cfgM3 V hO).W) : (dat3 V hO c).A w = V c (Pipeline.arrRef spec3 w) := by
  dsimp only [dat3]
theorem PhiS3_castSucc (hO : Ok3 V) (c : Dev nD) (t : Fin (cfgM3 V hO).N) :
    (dat3 V hO c).Φ t.castSucc = PhiS3 V hO c t.val (Nat.le_of_lt t.isLt) := by
  dsimp only [dat3]; simp only [Fin.coe_castSucc]
theorem after3_0 (hO : Ok3 V) (c : Dev nD) (t : Fin (cfgM3 V hO).N) : (dat3 V hO c).after 0 t = iblk3 V hO c 0 t := by dsimp only [dat3]; try rfl
theorem after3_1 (hO : Ok3 V) (c : Dev nD) (t : Fin (cfgM3 V hO).N) : (dat3 V hO c).after 1 t = iblk3 V hO c 1 t := by dsimp only [dat3]; try rfl
theorem after3_2 (hO : Ok3 V) (c : Dev nD) (t : Fin (cfgM3 V hO).N) : (dat3 V hO c).after 2 t = iblk3 V hO c 2 t := by dsimp only [dat3]; try rfl
theorem after3_3 (hO : Ok3 V) (c : Dev nD) (t : Fin (cfgM3 V hO).N) : (dat3 V hO c).after 3 t = iblk3 V hO c 3 t := by dsimp only [dat3]; try rfl
theorem after3_4 (hO : Ok3 V) (c : Dev nD) (t : Fin (cfgM3 V hO).N) : (dat3 V hO c).after 4 t = outAt3 V hO c t := by dsimp only [dat3]; try rfl

theorem before3_0 (hO : Ok3 V) (c : Dev nD) (t : Fin (cfgM3 V hO).N) (d) : (dat3 V hO c).before 0 t d = iblk3 V hO c 0 t :=
  before3_0_of V hO (dat3 V hO c) (A_eq3 V hO c 0) (after3_0 V hO c) t d
theorem before3_1 (hO : Ok3 V) (c : Dev nD) (t : Fin (cfgM3 V hO).N) (d) : (dat3 V hO c).before 1 t d = iblk3 V hO c 1 t :=
  before3_1_of V hO (dat3 V hO c) (A_eq3 V hO c 1) (after3_1 V hO c) t d
theorem before3_2 (hO : Ok3 V) (c : Dev nD) (t : Fin (cfgM3 V hO).N) (d) : (dat3 V hO c).before 2 t d = iblk3 V hO c 2 t :=
  before3_2_of V hO (dat3 V hO c) (A_eq3 V hO c 2) (after3_2 V hO c) t d
theorem before3_3 (hO : Ok3 V) (c : Dev nD) (t : Fin (cfgM3 V hO).N) (d) : (dat3 V hO c).before 3 t d = iblk3 V hO c 3 t :=
  before3_3_of V hO (dat3 V hO c) (A_eq3 V hO c 3) (after3_3 V hO c) t d

/-- What the body is called with at point `t`, the windows one by one, -/
def bodyPre3 (hO : Ok3 V) (c : Dev nD) (t : Fin (cfgM3 V hO).N) : sProp 𝕄 :=
  iprop((dat3 V hO c).Φ t.castSucc ∗ (dat3 V hO c).owesAt () t.castSucc
    ∗ (∃ d, owns (c : Thread nD τ) (ms3_0 V hO t) fullShare ((dat3 V hO c).before 0 t d))
    ∗ (∃ d, owns (c : Thread nD τ) (ms3_1 V hO t) fullShare ((dat3 V hO c).before 1 t d))
    ∗ (∃ d, owns (c : Thread nD τ) (ms3_2 V hO t) fullShare ((dat3 V hO c).before 2 t d))
    ∗ (∃ d, owns (c : Thread nD τ) (ms3_3 V hO t) fullShare ((dat3 V hO c).before 3 t d))
    ∗ (∃ d, owns (c : Thread nD τ) (ms3_4 V hO t) fullShare ((dat3 V hO c).before 4 t d)))

/-- and what it returns. -/
def bodyPost3 (hO : Ok3 V) (c : Dev nD) (t : Fin (cfgM3 V hO).N) : sProp 𝕄 :=
  iprop((dat3 V hO c).Φ t.succ ∗ (dat3 V hO c).owesAt () t.succ
    ∗ (dat3 V hO c).leavesExact 0 t
    ∗ (dat3 V hO c).leavesExact 1 t
    ∗ (dat3 V hO c).leavesExact 2 t
    ∗ (dat3 V hO c).leavesExact 3 t
    ∗ (dat3 V hO c).leavesExact 4 t)

/-- The windows' idle flags at a point, stated at the pinned configuration. -/
theorem liveAtM3_0 (hO : Ok3 V) (t : Fin (cfgM3 V hO).N) : (cfgM3 V hO).idle 0 ((cfgM3 V hO).grid.coords t) = false := rfl
theorem liveAtM3_1 (hO : Ok3 V) (t : Fin (cfgM3 V hO).N) : (cfgM3 V hO).idle 1 ((cfgM3 V hO).grid.coords t) = false := rfl
theorem liveAtM3_2 (hO : Ok3 V) (t : Fin (cfgM3 V hO).N) : (cfgM3 V hO).idle 2 ((cfgM3 V hO).grid.coords t) = false := rfl
theorem liveAtM3_3 (hO : Ok3 V) (t : Fin (cfgM3 V hO).N) : (cfgM3 V hO).idle 3 ((cfgM3 V hO).grid.coords t) = false := rfl
theorem idleAtM3_4 (hO : Ok3 V) (t : Fin (cfgM3 V hO).N) (h : ¬cond3_1 (grid3.coords t)) :
    (cfgM3 V hO).idle 4 ((cfgM3 V hO).grid.coords t) = true := idleAt3_4 (adm3 V hO) (grid3.coords t) h
theorem liveAtM3_4 (hO : Ok3 V) (t : Fin (cfgM3 V hO).N) (h : cond3_1 (grid3.coords t)) :
    (cfgM3 V hO).idle 4 ((cfgM3 V hO).grid.coords t) = false := liveAt3_4 (adm3 V hO) (grid3.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body3 (hO : Ok3 V) (c : Dev nD) (t : Fin (cfgM3 V hO).N) :
    bodyPre3 V hO c t ⊢ wp frame (wpE (defs₀ (F := F)) Variants.none c none) Set.univ (bodyAt3 (adm3 V hO) t) (fun _ => bodyPost3 V hO c t) := by
  unfold bodyPre3 bodyPost3 bodyAt3
  simp only [before3_0, before3_1, before3_2, before3_3]
  rw [show (dat3 V hO c).owesAt () t.succ = (dat3 V hO c).owesAt () t.castSucc from rfl]
  rw [show (dat3 V hO c).Φ t.succ = PhiS3 V hO c (t.val + 1) t.isLt from rfl, PhiS3_succ]
  rw [show (dat3 V hO c).leavesExact 0 t = owns (c : Thread nD τ) (ms3_0 V hO t) fullShare ((dat3 V hO c).after 0 t) from by
    unfold Dat.leavesExact; rw [liveAtM3_0 V hO t]; try rfl]
  rw [after3_0]
  rw [show (dat3 V hO c).leavesExact 1 t = owns (c : Thread nD τ) (ms3_1 V hO t) fullShare ((dat3 V hO c).after 1 t) from by
    unfold Dat.leavesExact; rw [liveAtM3_1 V hO t]; try rfl]
  rw [after3_1]
  rw [show (dat3 V hO c).leavesExact 2 t = owns (c : Thread nD τ) (ms3_2 V hO t) fullShare ((dat3 V hO c).after 2 t) from by
    unfold Dat.leavesExact; rw [liveAtM3_2 V hO t]; try rfl]
  rw [after3_2]
  rw [show (dat3 V hO c).leavesExact 3 t = owns (c : Thread nD τ) (ms3_3 V hO t) fullShare ((dat3 V hO c).after 3 t) from by
    unfold Dat.leavesExact; rw [liveAtM3_3 V hO t]; try rfl]
  rw [after3_3]
  rw [PhiS3_castSucc]
  by_cases h0 : cond3_0 (grid3.coords t)
  · by_cases h1 : cond3_1 (grid3.coords t)
    · exact absurd h1 (fun h => not_both3 _ h0 h)
    · rw [Dat.leavesExact_idle (dat3 V hO c) 4 t (idleAtM3_4 V hO t h1) (noFlush3_4 (adm3 V hO) t h1)]
      rw [accAt3_A V hO c t h0]
      by_cases hz : t.val = 0
      · rw [PhiS3_zero V hO c _ _ hz]
        iintro ⟨⟨HS, HR⟩, Ho, ⟨%d0, H0⟩, ⟨%d1, H1⟩, ⟨%d2, H2⟩, ⟨%d3, H3⟩, ⟨%d4, H4⟩⟩
        iapply (run3_A c (grid3.coords t) _ _ _ _ _ _ _ _ _ _ _ _ _ _ h0 h1 (xrow3 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS3_pos V hO c _ _ hz]
        iintro ⟨⟨HS, HR⟩, Ho, ⟨%d0, H0⟩, ⟨%d1, H1⟩, ⟨%d2, H2⟩, ⟨%d3, H3⟩, ⟨%d4, H4⟩⟩
        iapply (run3_A c (grid3.coords t) _ _ _ _ _ _ _ _ _ _ _ _ _ _ h0 h1 (xrow3 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond3_0_first t hz)
    rw [PhiS3_pos V hO c _ _ hz, accAt3_B V hO c t h0 hz]
    by_cases h1 : cond3_1 (grid3.coords t)
    · rw [show (dat3 V hO c).leavesExact 4 t = owns (c : Thread nD τ) (ms3_4 V hO t) fullShare ((dat3 V hO c).after 4 t) from by
        unfold Dat.leavesExact; rw [liveAtM3_4 V hO t h1]; try rfl]
      rw [after3_4]
      unfold outAt3
      rw [accAt3_B V hO c t h0 hz]
      iintro ⟨⟨HS, HR⟩, Ho, ⟨%d0, H0⟩, ⟨%d1, H1⟩, ⟨%d2, H2⟩, ⟨%d3, H3⟩, ⟨%d4, H4⟩⟩
      iapply (run3_C c (grid3.coords t) _ _ _ _ _ _ _ _ _ _ _ _ _ _ h0 h1 (xrow3 V hO c t) (xpa3 V hO c t) (xw3 V hO c t) (xb3 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat3 V hO c) 4 t (idleAtM3_4 V hO t h1) (noFlush3_4 (adm3 V hO) t h1)]
      iintro ⟨⟨HS, HR⟩, Ho, ⟨%d0, H0⟩, ⟨%d1, H1⟩, ⟨%d2, H2⟩, ⟨%d3, H3⟩, ⟨%d4, H4⟩⟩
      iapply (run3_B c (grid3.coords t) _ _ _ _ _ _ _ _ _ _ _ _ _ _ h0 h1 (xrow3 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (hO : Ok3 V) (c : Dev nD) :
    BodyObligation (dat3 (F := F) V hO c) (defs₀ (F := F)) Variants.none () Set.univ := fun t => by
  rw [bigSep_W3, bigSep_W3]
  exact sound_body3 V hO c t

end Cert.Kernel.Hand

end
-- ==== Proof.R3ValBits.lean ====
import proofs.«402893_j78554951844377_2_alg».proof.Proof.R3AccBits
import proofs.«402893_j78554951844377_2_alg».proof.Proof.R3GridBits
import proofs.«402893_j78554951844377_2_alg».proof.Proof.OkTablesBits
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 3: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt3 (t : Fin grid3.N) : t.val / 32 < 2048 := by
  have ht : t.val < 65536 := N_3 ▸ t.isLt
  omega

/-- The last feature of sample `r` is a point of the grid. -/
theorem lastPt_lt3 (r : ℕ) (hr : r < 2048) : 32 * r + 31 < grid3.N := by rw [N_3]; omega

/-- Under the side condition every word the index map of window 0 reads names a row of the embedding table. -/
theorem tword3_lt (pf : pre3.Contents (Elt F)) (h : ok3 pf) (i : grid3.Coords) : (tword3 pf i).toNat < 786432 := by
  obtain ⟨hb, -⟩ := h i
  have h0 := hb 0
  rw [transform3_eq pf i] at h0
  have h0' : ((tword3 pf i).toNat + 1) * 1 ≤ 786432 := h0
  omega

/-- Window 0's block at point `t` is the row the table's word names. -/
theorem index3_0 (a : (pcfg3 (F := F)).Adm) (t : Fin (cfg3 a).N) :
    ((cfg3 a).win 0).index t = ![(tword3 a.1 (grid3.coords t)).toNat, 0, 0] :=
  transform3_eq a.1 (grid3.coords t)

/-- Lane `l` of window 0's block sits in the embedding table at (the named row, 0, l). -/
theorem emb3_0 (a : (pcfg3 (F := F)).Adm) (t : Fin (cfg3 a).N) (l : Fin 128) :
    (((cfg3 a).win 0).blk t).view.emb (ValueIdx.ix3 (0 : Fin 1) (0 : Fin 1) l)
      = ValueIdx.ix3 (⟨(tword3 a.1 (grid3.coords t)).toNat, tword3_lt a.1 a.2 (grid3.coords t)⟩ : Fin 786432) (0 : Fin 1) l := by
  funext d; apply Fin.ext
  match d with
  | ⟨0, _⟩ => show ((cfg3 a).win 0).index t (0 : Fin 3) * 1 + 1 * 0 = (tword3 a.1 (grid3.coords t)).toNat; rw [index3_0]; show (tword3 a.1 (grid3.coords t)).toNat * 1 + 1 * 0 = _; omega
  | ⟨1, _⟩ => show ((cfg3 a).win 0).index t (1 : Fin 3) * 1 + 1 * 0 = 0; rw [index3_0]; rfl
  | ⟨2, _⟩ => show ((cfg3 a).win 0).index t (2 : Fin 3) * 128 + 1 * l.val = l.val; rw [index3_0]; show 0 * 128 + 1 * l.val = l.val; omega

/-- Lane `l` of window 1's block sits in its array at (sample, 0, l). -/
theorem emb3_1 (a : (pcfg3 (F := F)).Adm) (t : Fin (cfg3 a).N) (l : Fin 128) :
    (((cfg3 a).win 1).blk t).view.emb (ValueIdx.ix3 (0 : Fin 1) (0 : Fin 1) l)
      = ValueIdx.ix3 (⟨t.val / 32, sample_lt3 t⟩ : Fin 2048) (0 : Fin 1) l := by
  funext d; apply Fin.ext
  match d with
  | ⟨0, _⟩ => show ((cfg3 a).win 1).index t (0 : Fin 3) * 1 + 1 * 0 = t.val / 32; rw [index3_1]; show t.val / 32 * 1 + 1 * 0 = _; omega
  | ⟨1, _⟩ => show ((cfg3 a).win 1).index t (1 : Fin 3) * 1 + 1 * 0 = 0; rw [index3_1]; rfl
  | ⟨2, _⟩ => show ((cfg3 a).win 1).index t (2 : Fin 3) * 128 + 1 * l.val = l.val; rw [index3_1]; show 0 * 128 + 1 * l.val = l.val; omega

/-- Lane `l` of window 2's block sits in its array at (sample, 0, l). -/
theorem emb3_2 (a : (pcfg3 (F := F)).Adm) (t : Fin (cfg3 a).N) (l : Fin 128) :
    (((cfg3 a).win 2).blk t).view.emb (ValueIdx.ix3 (0 : Fin 1) (0 : Fin 1) l)
      = ValueIdx.ix3 (⟨t.val / 32, sample_lt3 t⟩ : Fin 2048) (0 : Fin 1) l := by
  funext d; apply Fin.ext
  match d with
  | ⟨0, _⟩ => show ((cfg3 a).win 2).index t (0 : Fin 3) * 1 + 1 * 0 = t.val / 32; rw [index3_2]; show t.val / 32 * 1 + 1 * 0 = _; omega
  | ⟨1, _⟩ => show ((cfg3 a).win 2).index t (1 : Fin 3) * 1 + 1 * 0 = 0; rw [index3_2]; rfl
  | ⟨2, _⟩ => show ((cfg3 a).win 2).index t (2 : Fin 3) * 128 + 1 * l.val = l.val; rw [index3_2]; show 0 * 128 + 1 * l.val = l.val; omega

/-- The one element of window 3's block sits in its array at (sample, 0, 0). -/
theorem emb3_3 (a : (pcfg3 (F := F)).Adm) (t : Fin (cfg3 a).N) :
    (((cfg3 a).win 3).blk t).view.emb (ValueIdx.ix3 (0 : Fin 1) (0 : Fin 1) (0 : Fin 1))
      = ValueIdx.ix3 (⟨t.val / 32, sample_lt3 t⟩ : Fin 2048) (0 : Fin 1) (0 : Fin 1) := by
  funext d; apply Fin.ext
  match d with
  | ⟨0, _⟩ => show ((cfg3 a).win 3).index t (0 : Fin 3) * 1 + 1 * 0 = t.val / 32; rw [index3_3]; show t.val / 32 * 1 + 1 * 0 = _; omega
  | ⟨1, _⟩ => show ((cfg3 a).win 3).index t (1 : Fin 3) * 1 + 1 * 0 = 0; rw [index3_3]; rfl
  | ⟨2, _⟩ => show ((cfg3 a).win 3).index t (2 : Fin 3) * 1 + 1 * 0 = 0; rw [index3_3]; rfl

/-- The one element of the result window's block sits in the result array at (sample, 0, 0). -/
theorem emb3_4 (a : (pcfg3 (F := F)).Adm) (t : Fin (cfg3 a).N) :
    (((cfg3 a).win 4).blk t).view.emb (ValueIdx.ix3 (0 : Fin 1) (0 : Fin 1) (0 : Fin 1))
      = ValueIdx.ix3 (⟨t.val / 32, sample_lt3 t⟩ : Fin 2048) (0 : Fin 1) (0 : Fin 1) := by
  funext d; apply Fin.ext
  match d with
  | ⟨0, _⟩ => show ((cfg3 a).win 4).index t (0 : Fin 3) * 1 + 1 * 0 = t.val / 32; rw [index3_4]; show t.val / 32 * 1 + 1 * 0 = _; omega
  | ⟨1, _⟩ => show ((cfg3 a).win 4).index t (1 : Fin 3) * 1 + 1 * 0 = 0; rw [index3_4]; rfl
  | ⟨2, _⟩ => show ((cfg3 a).win 4).index t (2 : Fin 3) * 1 + 1 * 0 = 0; rw [index3_4]; rfl

section AtTable

variable (V : (c : Dev nD) → (b : Ref sig .tc) → Buf (Elt F) ((c : Thread nD τ).loc b))

/-! ## The input blocks at coordinates -/

/-- The row of the embedding table gathered at point `t`: the table's word there. -/
abbrev rho3 (t : Fin grid3.N) : ℕ := (tword3 (tbl3 V) (grid3.coords t)).toNat

/-- It is a row of the table, under the side condition. -/
theorem rho3_lt (hO : Ok3 V) (t : Fin grid3.N) : rho3 V t < 786432 := tword3_lt (tbl3 V) hO (grid3.coords t)

/-- Lane `l` of the gathered row at point `t` is the embedding table at (the named row, 0, l). -/
theorem xrow3_apply (hO : Ok3 V) (c : Dev nD) (t : Fin (cfgM3 V hO).N) (l : Fin 128) :
    xrow3 V hO c t (ValueIdx.ix3 (0 : Fin 1) (0 : Fin 1) l)
      = V c main_v34 (ValueIdx.ix3 (⟨rho3 V t, rho3_lt V hO t⟩ : Fin 786432) (0 : Fin 1) l) := by
  show V c main_v34 ((((cfgM3 V hO).win 0).blk t).view.emb (ValueIdx.ix3 (0 : Fin 1) (0 : Fin 1) l)) = _
  exact congrArg (V c main_v34) (emb3_0 (adm3 V hO) t l)

/-- Lane `l` of the phase-bias block at point `t` is its array at (sample, 0, l). -/
theorem xpa3_apply (hO : Ok3 V) (c : Dev nD) (t : Fin (cfgM3 V hO).N) (l : Fin 128) :
    xpa3 V hO c t (ValueIdx.ix3 (0 : Fin 1) (0 : Fin 1) l)
      = V c main_v55 (ValueIdx.ix3 (⟨t.val / 32, sample_lt3 t⟩ : Fin 2048) (0 : Fin 1) l) := by
  show V c main_v55 ((((cfgM3 V hO).win 1).blk t).view.emb (ValueIdx.ix3 (0 : Fin 1) (0 : Fin 1) l)) = _
  exact congrArg (V c main_v55) (emb3_1 (adm3 V hO) t l)

/-- Lane `l` of the head-weight block at point `t` is its array at (sample, 0, l). -/
theorem xw3_apply (hO : Ok3 V) (c : Dev nD) (t : Fin (cfgM3 V hO).N) (l : Fin 128) :
    xw3 V hO c t (ValueIdx.ix3 (0 : Fin 1) (0 : Fin 1) l)
      = V c main_v56 (ValueIdx.ix3 (⟨t.val / 32, sample_lt3 t⟩ : Fin 2048) (0 : Fin 1) l) := by
  show V c main_v56 ((((cfgM3 V hO).win 2).blk t).view.emb (ValueIdx.ix3 (0 : Fin 1) (0 : Fin 1) l)) = _
  exact congrArg (V c main_v56) (emb3_2 (adm3 V hO) t l)

/-- The head-bias block at point `t` is its array at (sample, 0, 0). -/
theorem xb3_apply (hO : Ok3 V) (c : Dev nD) (t : Fin (cfgM3 V hO).N) :
    xb3 V hO c t (ValueIdx.ix3 (0 : Fin 1) (0 : Fin 1) (0 : Fin 1))
      = V c main_v57 (ValueIdx.ix3 (⟨t.val / 32, sample_lt3 t⟩ : Fin 2048) (0 : Fin 1) (0 : Fin 1)) := by
  show V c main_v57 ((((cfgM3 V hO).win 3).blk t).view.emb (ValueIdx.ix3 (0 : Fin 1) (0 : Fin 1) (0 : Fin 1))) = _
  exact congrArg (V c main_v57) (emb3_3 (adm3 V hO) t)

/-! ## The arrays after the run -/

/-- An input's array is never written: it ends as the region found it. -/
theorem arrAt3_in (hO : Ok3 V) (c : Dev nD) (w : Fin 5) (hw : w ≠ 4) :
    (dat3 V hO c).arrAt w (cfgM3 V hO).N = V c (Pipeline.arrRef spec3 w) := by
  have hin : ((cfgM3 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat3 V hO c).arrAt_in w hin _).trans (A_eq3 V hO c w)

/-- THE RESULT ARRAY of the tile: row `r` holds what the body left in the result block at sample `r`'s last feature. -/
def tileRes3 (hO : Ok3 V) (c : Dev nD) : Buf (Elt F) ((c : Thread nD τ).loc main_v58) :=
  fun (i : S2048x1x1.Idx) => outAt3 V hO c ⟨32 * (i 0).val + 31, lastPt_lt3 (i 0).val (i 0).isLt⟩ (ValueIdx.ix3 (0 : Fin 1) (0 : Fin 1) (0 : Fin 1))

theorem tileRes3_apply (hO : Ok3 V) (c : Dev nD) (r : Fin 2048) :
    tileRes3 V hO c (ValueIdx.ix3 r (0 : Fin 1) (0 : Fin 1))
      = outAt3 V hO c ⟨32 * r.val + 31, lastPt_lt3 r.val r.isLt⟩ (ValueIdx.ix3 (0 : Fin 1) (0 : Fin 1) (0 : Fin 1)) := rfl

/-- The result block read at two names of one point. -/
theorem outAt3_congr (hO : Ok3 V) (c : Dev nD) {t t' : Fin (cfgM3 V hO).N} (h : t.val = t'.val) (j : S1x1x1.Idx) :
    outAt3 V hO c t j = outAt3 V hO c t' j := by
  obtain rfl : t = t' := Fin.ext h
  rfl

/-- What a write-back writes is the written row of `tileRes3`: the point is its sample's last feature `32 (t / 32) + 31`,
    and the block's one element is the row's. -/
theorem flushed3_4_eq (hO : Ok3 V) (c : Dev nD) (t : Fin (cfgM3 V hO).N) (hf : ((cfgM3 V hO).win 4).flush t = true) :
    (dat3 V hO c).flushed 4 t = (((cfgM3 V hO).win 4).blk t).view.read (Elt F) (tileRes3 V hO c) := by
  have h31 : t.val % 32 = 31 := (flush3_4_iff (adm3 V hO) t).mp hf
  show ((cfgM3 V hO).win 4).cut (grid3.coords t) ((dat3 V hO c).after 4 t) = _
  rw [after3_4]
  funext j
  have hj : (((cfgM3 V hO).win 4).xinj (grid3.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM3 V hO).win 4).blk t).view.emb j : S2048x1x1.Idx) (0 : Fin 3)).val + 31 := by
    have h : (j (0 : Fin 3)).val < 1 := (j (0 : Fin 3)).isLt
    show t.val = 32 * (((cfgM3 V hO).win 4).index t (0 : Fin 3) * 1 + 1 * (j (0 : Fin 3)).val) + 31
    rw [index3_4]
    show t.val = 32 * (t.val / 32 * 1 + 1 * (j (0 : Fin 3)).val) + 31
    omega
  show outAt3 V hO c t (((cfgM3 V hO).win 4).xinj (grid3.coords t) j) = tileRes3 V hO c ((((cfgM3 V hO).win 4).blk t).view.emb j)
  rw [hj]
  exact outAt3_congr V hO c hv _

/-- Every row of the result array is some write-back's block: row `r` is the block of point `32 r + 31`. -/
theorem cover3_4 (hO : Ok3 V) (i : S2048x1x1.Idx) :
    ∃ t : Fin (cfgM3 V hO).N, ((cfgM3 V hO).win 4).flush t = true ∧ i ∈ (((cfgM3 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt3 _ h0⟩, (flush3_4_iff (adm3 V hO) _).mpr (by show (32 * (i 0).val + 31) % 32 = 31; omega), ?_⟩
  have he : (((cfgM3 V hO).win 4).blk ⟨32 * (i 0).val + 31, lastPt_lt3 _ h0⟩).view.emb (ValueIdx.ix3 (0 : Fin 1) (0 : Fin 1) (0 : Fin 1)) = i := by
    refine (emb3_4 (adm3 V hO) ⟨32 * (i 0).val + 31, lastPt_lt3 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM3 V hO).win 4).blk ⟨32 * (i 0).val + 31, lastPt_lt3 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes3`. -/
theorem arrAt3_4 (hO : Ok3 V) (c : Dev nD) : (dat3 V hO c).arrAt 4 (cfgM3 V hO).N = tileRes3 V hO c :=
  (dat3 V hO c).arrAt_eq_of_cover 4 (tileRes3 V hO c) (fun t hf => flushed3_4_eq V hO c t hf) (fun i => cover3_4 V hO i)

end AtTable

end Cert.Kernel.Hand

end
-- ==== Proof.R3SegBits.lean ====
/-
  Tile 3's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 3's admissible contents and
  proof data is ten small facts (`Pinned3`); they hold of tile 3's own (`pinned_dat3`) and so of any family whose
  component 3 is tile 3's (`Pinned3.of_eq`).
-/
import proofs.«402893_j78554951844377_2_alg».proof.Proof.R3AccBits
import proofs.«402893_j78554951844377_2_alg».proof.Proof.FamilyBits
import proofs.«402893_j78554951844377_2_alg».proof.Proof.GlueBits
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 3's contents and proof data -/

variable (Vin : (c : Dev nD) → (b : Ref sig .tc) → Buf (Elt F) ((c : Thread nD τ).loc b))

/-- The scratch operand owned whole at some contents is its buffer held at some contents. -/
theorem scratch3_eq (c : Dev nD) :
    (iprop(∃ d, owns (c : Thread nD τ) scM3 fullShare d) : sProp 𝕄)
      = iprop(∃ f : Buf (Elt F) ((c : Thread nD τ).loc cc3_scratch0), ((c : Thread nD τ).loc cc3_scratch0) ↦{fullShare} f) := by
  simp only [scM3, owns_whole]; try rfl

/-- What the record needs of pipeline 3's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned3 (Vx : Dev nD → Valuation τ sig (Elt F)) (a0 : (pcfgs (F := F) 3).Adm)
    (d0 : (c : Dev nD) → Dat τ (Elt F) Unit ℕ (UR sig nD τ) ℕ ((pcfgs (F := F) 3).at a0) c) : Prop where
  tbl : a0.1 = tbl3 Vin
  q : ∀ (c : Dev nD) w, (d0 c).q w = fullShare
  A : ∀ (c : Dev nD) w, (d0 c).A w = Vin c (Pipeline.arrRef spec3 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM3 fullShare d) ∗ Rest3 Vin c) : sProp 𝕄) ⊢ (d0 c).Φ 0
  phiOut : ∀ c : Dev nD, (d0 c).Φ (Fin.last _) ⊢ (iprop((∃ d, owns (c : Thread nD τ) scM3 fullShare d) ∗ Rest3 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 3).at a0).N = Vx c (Pipeline.arrRef spec3 w)

set_option maxHeartbeats 400000 in
/-- Tile 3's own contents and proof data have them: each field by unfolding the proof data; the last stage of the
    invariant is a later one (the grid has 65536 points), so it holds the scratch at the last point's contents. -/
theorem pinned_dat3 (hO : Ok3 Vin) (Vx : Dev nD → Valuation τ sig (Elt F))
    (hF : ∀ c w, (dat3 Vin hO c).arrAt w (cfgM3 Vin hO).N = Vx c (Pipeline.arrRef spec3 w)) :
    Pinned3 Vin Vx (adm3 Vin hO) (dat3 Vin hO) where
  tbl := rfl
  q c w := rfl
  A c w := A_eq3 Vin hO c w
  owed c t := rfl
  body c := (body_obligation3 Vin hO c).loose
  phiIn c := by
    rw [show (dat3 Vin hO c).Φ 0 = PhiS3 Vin hO c ((0 : Fin ((cfgM3 Vin hO).N + 1)).val) (Nat.le_of_lt_succ (0 : Fin ((cfgM3 Vin hO).N + 1)).isLt) from rfl,
      PhiS3_zero Vin hO c _ _ (Fin.val_zero _)]
  phiOut c := by
    have hN : (Fin.last (cfgM3 Vin hO).N).val ≠ 0 := by
      rw [Fin.val_last, show (cfgM3 Vin hO).N = grid3.N from rfl, N_3]; decide
    show PhiS3 Vin hO c (Fin.last (cfgM3 Vin hO).N).val (Nat.le_of_lt_succ (Fin.last (cfgM3 Vin hO).N).isLt) ⊢ _
    rw [PhiS3_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 3's. -/
theorem Pinned3.of_eq (hO : Ok3 Vin) {Vx : Dev nD → Valuation τ sig (Elt F)} {a0 : (pcfgs (F := F) 3).Adm}
    {d0 : (c : Dev nD) → Dat τ (Elt F) Unit ℕ (UR sig nD τ) ℕ ((pcfgs (F := F) 3).at a0) c}
    (ha : a0 = adm3 Vin hO) (hd : ∀ c, HEq (d0 c) (dat3 Vin hO c)) (h : Pinned3 Vin Vx (adm3 Vin hO) (dat3 Vin hO)) :
    Pinned3 Vin Vx a0 d0 := by
  subst ha
  obtain rfl : d0 = dat3 Vin hO := funext fun c => eq_of_heq (hd c)
  exact h

/-! ## The record -/

set_option backward.isDefEq.respectTransparency.types false in
set_option maxHeartbeats 1600000 in
/-- Tile 3's region over ANY family of pipelines whose component 3 is tile 3's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg3G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok3 Vin) (ha : a 3 = adm3 Vin hO) (hd : ∀ c, HEq (pdats 3 c) (dat3 Vin hO c))
    (hag : ∀ c w, V c (Proc.devRef .tc (Pipeline.arrRef spec3 w)) = Vin c (Pipeline.arrRef spec3 w))
    (hagT : ∀ c j, V c (Proc.devRef .tc (pre3.ref j)) = Vin c (pre3.ref j))
    (hF : ∀ c w, (dat3 Vin hO c).arrAt w (cfgM3 Vin hO).N = Vx c (Pipeline.arrRef spec3 w))
    (hrest : ∀ c b, b ∉ Finset.univ.image (Pipeline.arrRef spec3) → Vx c b = V c b) :
    Pipeline.RegionSeg (pcfgs (F := F)) a pdats () defs₀ Variants.none (fun _ => ∅) (fun _ _ => 0) 3 :=
  have hp : Pinned3 Vin Vx (a 3) (pdats 3) := Pinned3.of_eq Vin hO ha hd (pinned_dat3 Vin hO Vx hF)
  have htbl : ∀ c, (fun k => V c (Proc.devRef .tc ((pcfgs (F := F) 3).pre.ref k))) = (a 3).1 := fun c => by
    rw [hp.tbl]; funext k; exact (hagT c k).trans (V_pre3 Vin c k)
  { win := (launch3 (F := F)).win.to₀
    block_pos := (launch3 (F := F)).block_pos
    stage_whole := (launch3 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 3 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre3 c (fun _ => fullShare) (tbl3 Vin))
    Z := fun c => Pipeline.unscopedRestP (Ix := Unit) (Name := ℕ) (U := UR sig nD τ) (Lvl := ℕ) pre3 spec3 c (fun b => V c b)
    hentry := fun c => by
      rw [Pipeline.ownSems0_none]
      have hsplit := Pipeline.arrays_of_unscopedBufs (p := 3) (pcfgs (F := F)) a pdats (launch3 (F := F)).win (launch3 (F := F)).arr_whole c
        ((pdats 3 c).share_full (hp.q c)) (fun b => V c b) (fun w => (hp.A c w).trans (hag c w).symm)
      rw [Pipeline.unscopedBufs_held, Pipeline.unscopedRest_split (launch3 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 3).spec c : sProp 𝕄) = _ from scopedRest3_split c, hp.tbl]
      refine BIBase.Entails.trans ?_ (hp.phiIn c)
      rw [scratch3_eq]
      unfold Rest3
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 3).spec c : sProp 𝕄) = _ from scopedRest3_split c]
      refine BIBase.Entails.trans (hp.phiOut c) ?_
      rw [scratch3_eq]
      unfold Rest3
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 3) (pcfgs (F := F)) a (Ix := Unit) (Name := ℕ) (U := UR sig nD τ) (Lvl := ℕ)
        (launch3 (F := F)).win (launch3 (F := F)).arr_whole c pdats ((pdats 3 c).share_full (hp.q c))
        (fun b => V c b) (fun b => Vx c b) ((pdats 3 c).arrAt · (Pipeline.pin (pcfgs (F := F)) a 3).N) (hp.fin c) (hrest c)
      rw [Pipeline.unscopedBufs_held, Pipeline.unscopedRest_split (launch3 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 3's record over the assembled families, tile 3's components in slot 3. -/
def reg3 (hO : Ok3 Vin) (V Vx : Dev nD → Valuation τ sig (Elt F))
    (hag : ∀ c w, V c (Proc.devRef .tc (Pipeline.arrRef spec3 w)) = Vin c (Pipeline.arrRef spec3 w))
    (hagT : ∀ c j, V c (Proc.devRef .tc (pre3.ref j)) = Vin c (pre3.ref j))
    (hF : ∀ c w, (dat3 Vin hO c).arrAt w (cfgM3 Vin hO).N = Vx c (Pipeline.arrRef spec3 w))
    (hrest : ∀ c b, b ∉ Finset.univ.image (Pipeline.arrRef spec3) → Vx c b = V c b)
    (a0 : (pcfg0 (F := F)).Adm)
    (a1 : (pcfg1 (F := F)).Adm)
    (a2 : (pcfg2 (F := F)).Adm)
    (a4 : (pcfg4 (F := F)).Adm)
    (a5 : (pcfg5 (F := F)).Adm)
    (a6 : (pcfg6 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 a1 a2 (adm3 Vin hO) a4 a5 a6 a7)
      (pdatsOf a0 a1 a2 (adm3 Vin hO) a4 a5 a6 a7 d0 d1 d2 (dat3 Vin hO) d4 d5 d6 d7) () defs₀ Variants.none (fun _ => ∅) (fun _ _ => 0) 3 :=
  reg3G Vin V Vx _ _ hO rfl (fun _ => HEq.rfl) hag hagT hF hrest

/-- The thread state the record is entered from, -/
theorem reg3_pre (hO : Ok3 Vin) (V Vx : Dev nD → Valuation τ sig (Elt F)) (hag) (hagT) (hF) (hrest) (a0) (a1) (a2) (a4) (a5) (a6) (a7) (d0) (d1) (d2) (d4) (d5) (d6) (d7) (c : Dev nD) :
    (reg3 Vin hO V Vx hag hagT hF hrest a0 a1 a2 a4 a5 a6 a7 d0 d1 d2 d4 d5 d6 d7).pre c
      = iprop(StableHlo.held (c : Thread nD τ) (Pipeline.ucRefs τ sig) (V c) ∗ Rr (F := F) c) := rfl
/-- and the one it leaves. -/
theorem reg3_post (hO : Ok3 Vin) (V Vx : Dev nD → Valuation τ sig (Elt F)) (hag) (hagT) (hF) (hrest) (a0) (a1) (a2) (a4) (a5) (a6) (a7) (d0) (d1) (d2) (d4) (d5) (d6) (d7) (c : Dev nD) :
    (reg3 Vin hO V Vx hag hagT hF hrest a0 a1 a2 a4 a5 a6 a7 d0 d1 d2 d4 d5 d6 d7).post c
      = iprop(StableHlo.held (c : Thread nD τ) (Pipeline.ucRefs τ sig) (Vx c) ∗ Rr (F := F) c) := rfl

end Cert.Kernel.Hand

end
-- ==== Proof.R3AgreeBits.lean ====
import proofs.«402893_j78554951844377_2_alg».proof.Proof.KHostBits
import Idealize.ShloMosaic.Lib.ValueIdx

noncomputable section

namespace Cert.Kernel.Hand

open Cert.Kernel Cert.Kernel.Gen
open Idealize.ShloMosaic Idealize.ShloMosaic.TcCoe

variable {F : FTy → Type} [FloatOps F]

/-! # Tile 3: what the region reads does not depend on what earlier regions left

The table, the embedding table, the three slices and the (not yet written) result array of tile 3 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree3_tbl : V11 m outs c main_v54 = V11 m outs' c main_v54 := by
  funext (j : S65536.Idx)
  obtain ⟨a, rfl⟩ : ∃ a : Fin 65536, j = ValueIdx.ix1 a := ⟨j 0, ValueIdx.eq_ix1 j⟩
  rw [tbl3_apply m outs c, tbl3_apply m outs' c]

theorem agree3_emb : V11 m outs c main_v34 = V11 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb3_apply m outs c, emb3_apply m outs' c]

theorem agree3_pa : V11 m outs c main_v55 = V11 m outs' c main_v55 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa3_apply m outs c, pa3_apply m outs' c]

theorem agree3_w : V11 m outs c main_v56 = V11 m outs' c main_v56 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w3_apply m outs c, w3_apply m outs' c]

theorem agree3_b : V11 m outs c main_v57 = V11 m outs' c main_v57 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b3_apply m outs c, b3_apply m outs' c]

/-- The result array has not been written when the region is entered: it holds its launch contents. -/
theorem entry3_out : V11 m outs c main_v58 = V5 m c main_v58 :=
  (V11_of m outs c main_v58 (by decide)).trans ((V10_of m outs c main_v58 (by decide)).trans ((V9_of m outs c main_v58 (by decide)).trans ((V8_of m outs c main_v58 (by decide)).trans ((V7_of m outs c main_v58 (by decide)).trans (V6_of m outs c main_v58 (by decide))))))

theorem agree3_out : V11 m outs c main_v58 = V11 m outs' c main_v58 :=
  (entry3_out m outs c).trans (entry3_out m outs' c).symm

end Cert.Kernel.Hand

end
-- ==== Proof.R4RunBits.lean ====
import proofs.«402893_j78554951844377_2_alg».proof.Proof.Gen.Kernel.Launch
import proofs.«402893_j78554951844377_2_alg».proof.Proof.Gen.Kernel.Skeleton
import proofs.«402893_j78554951844377_2_alg».proof.Proof.R0RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 4: the kernel body at one grid point

Tile 4's kernel function is tile 0's (the same body, the same payloads and conditions under other names), so its three
runs are tile 0's. -/

/-- The body's first condition: the feature coordinate is 0. -/
abbrev cond4_0 (i : grid4.Coords) : Prop := (Scalar.cmpi .ne (Scalar.extui (Scalar.cmpi .eq (BitVec.ofNat 32 (i 1).val) 0#32)) 0#32) = 1#1
/-- The body's second condition: the feature coordinate is 31. -/
abbrev cond4_1 (i : grid4.Coords) : Prop := k4_cond2 i = 1#1

/-- A MIDDLE feature: the scratch at `acc` ends at `acc + row`. -/
theorem run4_B (c : Dev nD) (i : grid4.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond4_0 i) (hc1 : ¬cond4_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k4_pay2 acc x3)) -∗ K ⟨⟩))
      ⊢ wp frame (wpE (defs₀ (F := F)) Variants.none c none) E (cc4__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run4_A (c : Dev nD) (i : grid4.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond4_0 i) (hc1 : ¬cond4_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k4_pay2 (k4_pay1 (F := F)) x3)) -∗ K ⟨⟩))
      ⊢ wp frame (wpE (defs₀ (F := F)) Variants.none c none) E (cc4__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run4_C (c : Dev nD) (i : grid4.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond4_0 i) (hc1 : cond4_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k4_pay3 (k4_pay2 acc x3) x4 x5 x6)
            ∗ owns (c : Thread nD τ) arg8 fullShare (k4_pay2 acc x3)) -∗ K ⟨⟩))
      ⊢ wp frame (wpE (defs₀ (F := F)) Variants.none c none) E (cc4__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.Kernel.Hand

end
-- ==== Proof.R4BaseBits.lean ====
import proofs.«402893_j78554951844377_2_alg».proof.Proof.Gen.Kernel.Launch
import proofs.«402893_j78554951844377_2_alg».proof.Proof.Gen.Kernel.Skeleton
import proofs.«402893_j78554951844377_2_alg».proof.Proof.R4RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 4: the pipeline at the table the region reads, its blocks and staging buffers

Everything here is stated at a PARAMETER `V`: the contents of the core's buffers when the region is entered. The
region's prefetched table is read off `V`; under the side condition that every word of it names a row of the embedding
table (`Ok4`) the pipeline is pinned at it, and each window's block at a grid point is a restriction of its array. -/

variable (V : (c : Dev nD) → (b : Ref sig .tc) → Buf (Elt F) ((c : Thread nD τ).loc b))

/-- The table's contents when the region is entered (one device). -/
def tbl4 : pre4.Contents (Elt F) := fun j => V (0 : Dev nD) (pre4.ref j)
/-- On every device the table holds those contents (there is one device). -/
theorem V_pre4 (c : Dev nD) (j : Fin 1) : V c (pre4.ref j) = tbl4 V j := by
  obtain rfl : c = 0 := Subsingleton.elim _ _; rfl
/-- Every block the table names lies inside the embedding table. -/
abbrev Ok4 : Prop := ok4 (F := F) (tbl4 V)
/-- The table as admissible contents, and the pipeline pinned at it. -/
abbrev adm4 (hO : Ok4 V) : (pcfg4 (F := F)).Adm := ⟨tbl4 V, hO⟩
abbrev cfgM4 (hO : Ok4 V) : Pipeline.Cfg sig Λ₀ := cfg4 (adm4 V hO)

/-- Window `w`'s block at point `t`, read off its array as the region finds it. -/
def iblk4 (hO : Ok4 V) (c : Dev nD) (w : Fin (cfgM4 V hO).W) (t : Fin (cfgM4 V hO).N) :
    (((cfgM4 V hO).win w).xblock ((cfgM4 V hO).grid.coords t)).Idx → Elt F ((cfgM4 V hO).win w).elt :=
  (((cfgM4 V hO).win w).blk t).view.read (Elt F) (V c (Pipeline.arrRef spec4 w))

/-- An input window's current staging buffer holds its block at every point, fetched there or not, for any proof
    data whose array is `V`'s and whose body leaves the block in place. -/
theorem before4_0_of (hO : Ok4 V) {c : Dev nD} (dat : Dat τ (Elt F) Unit ℕ (UR sig nD τ) ℕ (cfgM4 V hO) c) (hA : dat.A 0 = V c (Pipeline.arrRef spec4 0))
    (hafter : ∀ t, dat.after 0 t = iblk4 V hO c 0 t) (t : Fin (cfgM4 V hO).N) (d) : dat.before 0 t d = iblk4 V hO c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of (hO : Ok4 V) {c : Dev nD} (dat : Dat τ (Elt F) Unit ℕ (UR sig nD τ) ℕ (cfgM4 V hO) c) (hA : dat.A 1 = V c (Pipeline.arrRef spec4 1))
    (hafter : ∀ t, dat.after 1 t = iblk4 V hO c 1 t) (t : Fin (cfgM4 V hO).N) (d) : dat.before 1 t d = iblk4 V hO c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of (hO : Ok4 V) {c : Dev nD} (dat : Dat τ (Elt F) Unit ℕ (UR sig nD τ) ℕ (cfgM4 V hO) c) (hA : dat.A 2 = V c (Pipeline.arrRef spec4 2))
    (hafter : ∀ t, dat.after 2 t = iblk4 V hO c 2 t) (t : Fin (cfgM4 V hO).N) (d) : dat.before 2 t d = iblk4 V hO c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of (hO : Ok4 V) {c : Dev nD} (dat : Dat τ (Elt F) Unit ℕ (UR sig nD τ) ℕ (cfgM4 V hO) c) (hA : dat.A 3 = V c (Pipeline.arrRef spec4 3))
    (hafter : ∀ t, dat.after 3 t = iblk4 V hO c 3 t) (t : Fin (cfgM4 V hO).N) (d) : dat.before 3 t d = iblk4 V hO c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, as the pipeline passes it, and its wholeness. -/
abbrev ms4_0 (hO : Ok4 V) (t : Fin (cfgM4 V hO).N) : Memref sig .tc .vmem S1x1x128 .f32 := spec4_0.stage ((cfgM4 V hO).slots t 0)
abbrev hs4_0 (hO : Ok4 V) (t : Fin (cfgM4 V hO).N) : (ms4_0 V hO t).IsWhole := hstage4_0 (((cfgM4 V hO).slots t 0).cast nbuf4_0)
abbrev ms4_1 (hO : Ok4 V) (t : Fin (cfgM4 V hO).N) : Memref sig .tc .vmem S1x1x128 .f32 := spec4_1.stage ((cfgM4 V hO).slots t 1)
abbrev hs4_1 (hO : Ok4 V) (t : Fin (cfgM4 V hO).N) : (ms4_1 V hO t).IsWhole := hstage4_1 (((cfgM4 V hO).slots t 1).cast nbuf4_1)
abbrev ms4_2 (hO : Ok4 V) (t : Fin (cfgM4 V hO).N) : Memref sig .tc .vmem S1x1x128 .f32 := spec4_2.stage ((cfgM4 V hO).slots t 2)
abbrev hs4_2 (hO : Ok4 V) (t : Fin (cfgM4 V hO).N) : (ms4_2 V hO t).IsWhole := hstage4_2 (((cfgM4 V hO).slots t 2).cast nbuf4_2)
abbrev ms4_3 (hO : Ok4 V) (t : Fin (cfgM4 V hO).N) : Memref sig .tc .vmem S1x1x1 .f32 := spec4_3.stage ((cfgM4 V hO).slots t 3)
abbrev hs4_3 (hO : Ok4 V) (t : Fin (cfgM4 V hO).N) : (ms4_3 V hO t).IsWhole := hstage4_3 (((cfgM4 V hO).slots t 3).cast nbuf4_3)
abbrev ms4_4 (hO : Ok4 V) (t : Fin (cfgM4 V hO).N) : Memref sig .tc .vmem S1x1x1 .f32 := spec4_4.stage ((cfgM4 V hO).slots t 4)
abbrev hs4_4 (hO : Ok4 V) (t : Fin (cfgM4 V hO).N) : (ms4_4 V hO t).IsWhole := hstage4_4 (((cfgM4 V hO).slots t 4).cast nbuf4_4)
/-- The scratch operand: a whole scoped buffer of the kernel's own. -/
abbrev scM4 : Memref sig .tc .vmem S1x1x128 .f32 := Memref.whole cc4_scratch0
/-- The table as the body is handed it. -/
abbrev tbM4 : Memref sig .tc .smem S65536 .i32 := Memref.whole main_v60

/-- The kernel body at point `t`, on what the pipeline calls it with. -/
abbrev bodyAt4 (a : (pcfg4 (F := F)).Adm) (t : Fin (cfg4 a).N) : Prog (TpuEff nD τ sig (Elt F) Λ₀ .tc) PUnit :=
  cc4__gather_kernel (grid4.coords t) (Memref.whole main_v60) (Memref.isWhole_whole _) (spec4_0.stage ((cfg4 a).slots t 0)) (hstage4_0 (((cfg4 a).slots t 0).cast nbuf4_0)) (spec4_1.stage ((cfg4 a).slots t 1)) (hstage4_1 (((cfg4 a).slots t 1).cast nbuf4_1)) (spec4_2.stage ((cfg4 a).slots t 2)) (hstage4_2 (((cfg4 a).slots t 2).cast nbuf4_2)) (spec4_3.stage ((cfg4 a).slots t 3)) (hstage4_3 (((cfg4 a).slots t 3).cast nbuf4_3)) (spec4_4.stage ((cfg4 a).slots t 4)) (hstage4_4 (((cfg4 a).slots t 4).cast nbuf4_4)) (Memref.whole cc4_scratch0) (Memref.isWhole_whole _)

/-- Off the last feature the result window is idle: the body stores nothing into it. -/
theorem idleAt4_4 (a : (pcfg4 (F := F)).Adm) (i : grid4.Coords) (h : ¬cond4_1 i) : (cfg4 a).idle 4 i = true := by
  show (!(k4_cond2 i == 1#1)) = true
  simp only [Bool.not_eq_true', beq_eq_false_iff_ne, ne_eq]; exact h
/-- On the last feature it is live. -/
theorem liveAt4_4 (a : (pcfg4 (F := F)).Adm) (i : grid4.Coords) (h : cond4_1 i) : (cfg4 a).idle 4 i = false := by
  show (!(k4_cond2 i == 1#1)) = false
  simp only [Bool.not_eq_false', beq_iff_eq]; exact h
/-- The input windows are never idle. -/
theorem liveAt4_0 (a : (pcfg4 (F := F)).Adm) (i : grid4.Coords) : (cfg4 a).idle 0 i = false := rfl
theorem liveAt4_1 (a : (pcfg4 (F := F)).Adm) (i : grid4.Coords) : (cfg4 a).idle 1 i = false := rfl
theorem liveAt4_2 (a : (pcfg4 (F := F)).Adm) (i : grid4.Coords) : (cfg4 a).idle 2 i = false := rfl
theorem liveAt4_3 (a : (pcfg4 (F := F)).Adm) (i : grid4.Coords) : (cfg4 a).idle 3 i = false := rfl

end Cert.Kernel.Hand

end
-- ==== Proof.R4OkBits.lean ====
/-
  Tile 4: the table the region reads, and the pipeline's side condition on it from the range fact.

  Region 4 is entered with the buffers at the valuation after the host stretch that cuts tile 4's operands. Its prefetched table then
  holds, at flat position `32·i₀ + i₁`, the gathered row number of sample `2048·4 + i₀`, feature `i₁`. When every gathered
  row number is below 786432 (the range fact), every word of the table is, which is the side condition under which the
  pipeline is pinned at the table.
-/
import proofs.«402893_j78554951844377_2_alg».proof.Proof.Gen.Kernel.Regions
import proofs.«402893_j78554951844377_2_alg».proof.Proof.Spec
import proofs.«402893_j78554951844377_2_alg».proof.Proof.R4BaseBits
import proofs.«402893_j78554951844377_2_alg».proof.Proof.OkTablesBits
import proofs.«402893_j78554951844377_2_alg».proof.Proof.KHostBits
import proofs.«402893_j78554951844377_2_alg».proof.Proof.TileLibBits
import Idealize.ShloMosaic.Lib.ValueIdx

noncomputable section

namespace Cert.Kernel.Hand

open Idealize.ShloMosaic Idealize.ShloMosaic.TcCoe
open Cert.Kernel Cert.Kernel.Gen Idealize.ShloMosaic.ValueIdx

variable {F : FTy → Type} [FloatOps F]

/-- The buffers when region 4 is entered: the valuation after the host stretch that cuts tile 4's operands. -/
abbrev V4in (m : (ℓ : Loc nD τ sig) → Buf (Elt F) ℓ) : (c : Dev nD) → (b : Ref sig .tc) → Buf (Elt F) ((c : Thread nD τ).loc b) :=
  fun c b => V13 m (outsL m) c b

variable (m : (ℓ : Loc nD τ sig) → Buf (Elt F) ℓ)

/-- The table word read at grid point `(i₀, i₁)` is the gathered row number of sample `2048·4 + i₀`, feature `i₁`: the
    word sits at flat position `32·i₀ + i₁`, whose quotient and remainder by 32 are `i₀` and `i₁`. -/
theorem tword4_V4in (c : Dev nD) (i : grid4.Coords) :
    tword4 (tbl4 (V4in m)) i
      = Spec.gidxOf (m ((c : Thread nD τ).loc main_arg0)) (m ((c : Thread nD τ).loc main_arg1)) (m ((c : Thread nD τ).loc main_arg2))
          (ValueIdx.ix2 (⟨2048 * 4 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V4in m 0 main_v60 (ValueIdx.ix1 ⟨32 * (i 0).val + (i 1).val, pos_lt4 i⟩) = _
  refine (tbl4_apply m (outsL m) 0 ⟨32 * (i 0).val + (i 1).val, pos_lt4 i⟩).trans ?_
  exact congrArg _ (ix2_congr (by show 2048 * 4 + (32 * (i 0).val + (i 1).val) / 32 = 2048 * 4 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok4_of_inRange (c : Dev nD)
    (hin : Spec.InRange (Spec.gidxOf (m ((c : Thread nD τ).loc main_arg0)) (m ((c : Thread nD τ).loc main_arg1)) (m ((c : Thread nD τ).loc main_arg2)))) :
    Ok4 (V4in m) :=
  ok4_of (tbl4 (V4in m)) fun i => by rw [tword4_V4in m c i]; exact hin _ _

end Cert.Kernel.Hand

end
-- ==== Proof.R4GridBits.lean ====
import proofs.«402893_j78554951844377_2_alg».proof.Proof.R4RunBits
import Idealize.ShloMosaic.Lib.Pipeline.Kit
import Mathlib.Data.Fin.VecNotation

noncomputable section

namespace Cert.Kernel.Hand

open Cert.Kernel Cert.Kernel.Gen
open Idealize.ShloMosaic
open Idealize.ShloMosaic.Pipeline (Cfg Window)

variable {F : FTy → Type} [FloatOps F]

/-! # Tile 4: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride4_0 : grid4.stride 0 = 32 := by decide
/-- The feature coordinate changes at every point. -/
theorem stride4_1 : grid4.stride 1 = 1 := by decide

/-- The sample coordinate of point `t` is `t / 32`: the quotient is below 2048, so reducing it modulo the
    axis's bound changes nothing. -/
theorem coords4_val0 (t : Fin grid4.N) : ((grid4.coords t) 0).val = t.val / 32 := by
  have ht : t.val < 65536 := N_4 ▸ t.isLt
  show t.val / grid4.stride 0 % 2048 = t.val / 32
  rw [stride4_0]; omega

/-- The feature coordinate of point `t` is `t % 32`. -/
theorem coords4_val1 (t : Fin grid4.N) : ((grid4.coords t) 1).val = t.val % 32 := by
  show t.val / grid4.stride 1 % 32 = t.val % 32
  rw [stride4_1, Nat.div_one]

/-- The first condition holds exactly at feature 0: checked at each of the 32 values of the coordinate. -/
theorem cond4_0_iff (i : grid4.Coords) : cond4_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond4_1_iff (i : grid4.Coords) : cond4_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond4_0_first (t : Fin grid4.N) (h : t.val = 0) : cond4_0 (grid4.coords t) := by
  rw [cond4_0_iff, coords4_val1, h]

/-- No feature is both the first and the last. -/
theorem not_both4 (i : grid4.Coords) : cond4_0 i → cond4_1 i → False := by
  rw [cond4_0_iff, cond4_1_iff]; omega

/-- A sample number, made a 32-bit word and read back, is itself. -/
private theorem toNat_ofNat_sample (t : Fin grid4.N) : (BitVec.ofNat 32 ((grid4.coords t) 0).val).toNat = t.val / 32 := by
  have ht : t.val < 65536 := N_4 ▸ t.isLt
  rw [coords4_val0, BitVec.toNat_ofNat, Nat.mod_eq_of_lt (by omega)]

/-- Window 1's block at point `t` is the one of sample `t / 32`. -/
theorem index4_1 (a : (pcfg4 (F := F)).Adm) (t : Fin (cfg4 a).N) : ((cfg4 a).win 1).index t = ![t.val / 32, 0, 0] := by
  show (![(BitVec.ofNat 32 ((grid4.coords t) 0).val).toNat, (0#32).toNat, (0#32).toNat] : Fin 3 → ℕ) = _
  rw [toNat_ofNat_sample]; rfl
/-- Window 2's block at point `t` is the one of sample `t / 32`. -/
theorem index4_2 (a : (pcfg4 (F := F)).Adm) (t : Fin (cfg4 a).N) : ((cfg4 a).win 2).index t = ![t.val / 32, 0, 0] := by
  show (![(BitVec.ofNat 32 ((grid4.coords t) 0).val).toNat, (0#32).toNat, (0#32).toNat] : Fin 3 → ℕ) = _
  rw [toNat_ofNat_sample]; rfl
/-- Window 3's block at point `t` is the one of sample `t / 32`. -/
theorem index4_3 (a : (pcfg4 (F := F)).Adm) (t : Fin (cfg4 a).N) : ((cfg4 a).win 3).index t = ![t.val / 32, 0, 0] := by
  show (![(BitVec.ofNat 32 ((grid4.coords t) 0).val).toNat, (0#32).toNat, (0#32).toNat] : Fin 3 → ℕ) = _
  rw [toNat_ofNat_sample]; rfl
/-- The output window's block at point `t` is the one of sample `t / 32`. -/
theorem index4_4 (a : (pcfg4 (F := F)).Adm) (t : Fin (cfg4 a).N) : ((cfg4 a).win 4).index t = ![t.val / 32, 0, 0] := by
  show (![(BitVec.ofNat 32 ((grid4.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush4_4_iff (a : (pcfg4 (F := F)).Adm) (t : Fin (cfg4 a).N) : ((cfg4 a).win 4).flush t = true ↔ t.val % 32 = 31 := by
  have hN : (cfg4 a).N = 65536 := N_4
  have ht : t.val < 65536 := hN ▸ t.isLt
  have hout : ((cfg4 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index4_4, index4_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg4 a).N := Nat.lt_of_lt_of_eq (by omega : t.val + 1 < 65536) hN.symm
      refine Or.inr ⟨hlt, ?_⟩
      rw [index4_4, index4_4]
      have hne' : (t.val + 1) / 32 ≠ t.val / 32 := by omega
      exact (vec3_ne_iff _ _).mpr hne'

/-- At a sample's last feature the output block is written back. -/
theorem flush4_4 (a : (pcfg4 (F := F)).Adm) (t : Fin (cfg4 a).N) (h : cond4_1 (grid4.coords t)) : ((cfg4 a).win 4).flush t = true := by
  rw [flush4_4_iff, ← coords4_val1]; exact (cond4_1_iff _).mp h

/-- At any other feature the output block stays. -/
theorem noFlush4_4 (a : (pcfg4 (F := F)).Adm) (t : Fin (cfg4 a).N) (h : ¬cond4_1 (grid4.coords t)) : ((cfg4 a).win 4).flush t = false := by
  rw [← Bool.not_eq_true, flush4_4_iff, ← coords4_val1]; exact fun e => h ((cond4_1_iff _).mpr e)

end Cert.Kernel.Hand

end
-- ==== Proof.R4AccBits.lean ====
import proofs.«402893_j78554951844377_2_alg».proof.Proof.Gen.Kernel.Launch
import proofs.«402893_j78554951844377_2_alg».proof.Proof.Gen.Kernel.Skeleton
import proofs.«402893_j78554951844377_2_alg».proof.Proof.R4BaseBits
import proofs.«402893_j78554951844377_2_alg».proof.Proof.R4GridBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 4: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow4 (hO : Ok4 V) (c : Dev nD) (t : Fin (cfgM4 V hO).N) : Vec F S1x1x128 .f32 := iblk4 V hO c 0 t
abbrev xpa4 (hO : Ok4 V) (c : Dev nD) (t : Fin (cfgM4 V hO).N) : Vec F S1x1x128 .f32 := iblk4 V hO c 1 t
abbrev xw4 (hO : Ok4 V) (c : Dev nD) (t : Fin (cfgM4 V hO).N) : Vec F S1x1x128 .f32 := iblk4 V hO c 2 t
abbrev xb4 (hO : Ok4 V) (c : Dev nD) (t : Fin (cfgM4 V hO).N) : Vec F S1x1x1 .f32 := iblk4 V hO c 3 t

/-- THE ACCUMULATION: the scratch after the body at position `n`. -/
def accAt4 (hO : Ok4 V) (c : Dev nD) : (n : ℕ) → n < (cfgM4 V hO).N → Vec F S1x1x128 .f32
  | 0, hn => k4_pay2 (k4_pay1 (F := F)) (xrow4 V hO c ⟨0, hn⟩)
  | n + 1, hn =>
    if cond4_0 (grid4.coords ⟨n + 1, hn⟩) then k4_pay2 (k4_pay1 (F := F)) (xrow4 V hO c ⟨n + 1, hn⟩)
    else k4_pay2 (accAt4 hO c n (Nat.lt_of_succ_lt hn)) (xrow4 V hO c ⟨n + 1, hn⟩)

/-- At a sample's first feature the scratch restarts from zero. -/
theorem accAt4_A (hO : Ok4 V) (c : Dev nD) (t : Fin (cfgM4 V hO).N) (h0 : cond4_0 (grid4.coords t)) :
    accAt4 V hO c t.val t.isLt = k4_pay2 (k4_pay1 (F := F)) (xrow4 V hO c t) := by
  obtain ⟨n, hn⟩ := t
  cases n with
  | zero => rfl
  | succ n => exact if_pos h0

/-- Elsewhere it adds the row to what the point before left. -/
theorem accAt4_B (hO : Ok4 V) (c : Dev nD) (t : Fin (cfgM4 V hO).N) (h0 : ¬cond4_0 (grid4.coords t)) (hz : t.val ≠ 0) :
    accAt4 V hO c t.val t.isLt = k4_pay2 (accAt4 V hO c (t.val - 1) (by omega)) (xrow4 V hO c t) := by
  obtain ⟨n, hn⟩ := t
  cases n with
  | zero => exact absurd rfl hz
  | succ n => exact if_neg h0

/-- The sample's result as the body computes it at a point (read at the last feature). -/
def outAt4 (hO : Ok4 V) (c : Dev nD) (t : Fin (cfgM4 V hO).N) : Vec F S1x1x1 .f32 :=
  k4_pay3 (accAt4 V hO c t.val t.isLt) (xpa4 V hO c t) (xw4 V hO c t) (xb4 V hO c t)

/-- What rides along unread: the other scoped buffers, the generator register, the table. -/
def Rest4 (c : Dev nD) : sProp 𝕄 :=
  iprop(Pipeline.scopedRestBut (Ix := Unit) (Name := ℕ) (U := UR sig nD τ) (Lvl := ℕ) (Val := Elt F) spec4 c [cc4_scratch0]
    ∗ (∃ r, prngReg c r) ∗ Pipeline.prefHeld (Ix := Unit) (Name := ℕ) (U := UR sig nD τ) (Lvl := ℕ) pre4 c (fun _ => fullShare) (tbl4 V))

/-- The region invariant before position `n`: the scratch at anything before the first point, afterwards at what
    the point before left. -/
def PhiS4 (hO : Ok4 V) (c : Dev nD) : (n : ℕ) → n ≤ (cfgM4 V hO).N → sProp 𝕄
  | 0, _ => iprop((∃ d, owns (c : Thread nD τ) scM4 fullShare d) ∗ Rest4 V c)
  | n + 1, hn => iprop(owns (c : Thread nD τ) scM4 fullShare (accAt4 V hO c n hn) ∗ Rest4 V c)

theorem PhiS4_zero (hO : Ok4 V) (c : Dev nD) (n : ℕ) (h : n ≤ (cfgM4 V hO).N) (hz : n = 0) :
    PhiS4 V hO c n h = iprop((∃ d, owns (c : Thread nD τ) scM4 fullShare d) ∗ Rest4 V c) := by
  subst hz; rfl
theorem PhiS4_succ (hO : Ok4 V) (c : Dev nD) (n : ℕ) (hn : n < (cfgM4 V hO).N) :
    PhiS4 V hO c (n + 1) hn = iprop(owns (c : Thread nD τ) scM4 fullShare (accAt4 V hO c n hn) ∗ Rest4 V c) := rfl
theorem PhiS4_pos (hO : Ok4 V) (c : Dev nD) (n : ℕ) (h : n ≤ (cfgM4 V hO).N) (hz : n ≠ 0) :
    PhiS4 V hO c n h = iprop(owns (c : Thread nD τ) scM4 fullShare (accAt4 V hO c (n - 1) (by omega)) ∗ Rest4 V c) := by
  cases n with
  | zero => exact absurd rfl hz
  | succ n => rfl

/-- The proof data of the tile's pipeline on core `c`: the arrays as the region finds them; after the body each input's
    buffer at its block and the result's at `outAt4`; the invariant `PhiS4`; nothing owed; full shares. -/
def dat4 (hO : Ok4 V) (c : Dev nD) : Dat τ (Elt F) Unit ℕ (UR sig nD τ) ℕ (cfgM4 V hO) c where
  A w := V c (Pipeline.arrRef spec4 w)
  after w t := match w with
    | ⟨0, _⟩ => iblk4 V hO c 0 t
    | ⟨1, _⟩ => iblk4 V hO c 1 t
    | ⟨2, _⟩ => iblk4 V hO c 2 t
    | ⟨3, _⟩ => iblk4 V hO c 3 t
    | ⟨4, _⟩ => outAt4 V hO c t
  Φ t := PhiS4 V hO c t.val (Nat.le_of_lt_succ t.isLt)
  q _ := fullShare
  owed _ := 0

theorem A_eq4 (hO : Ok4 V) (c : Dev nD) (w : Fin (cfgM4 V hO).W) : (dat4 V hO c).A w = V c (Pipeline.arrRef spec4 w) := by
  dsimp only [dat4]
theorem PhiS4_castSucc (hO : Ok4 V) (c : Dev nD) (t : Fin (cfgM4 V hO).N) :
    (dat4 V hO c).Φ t.castSucc = PhiS4 V hO c t.val (Nat.le_of_lt t.isLt) := by
  dsimp only [dat4]; simp only [Fin.coe_castSucc]
theorem after4_0 (hO : Ok4 V) (c : Dev nD) (t : Fin (cfgM4 V hO).N) : (dat4 V hO c).after 0 t = iblk4 V hO c 0 t := by dsimp only [dat4]; try rfl
theorem after4_1 (hO : Ok4 V) (c : Dev nD) (t : Fin (cfgM4 V hO).N) : (dat4 V hO c).after 1 t = iblk4 V hO c 1 t := by dsimp only [dat4]; try rfl
theorem after4_2 (hO : Ok4 V) (c : Dev nD) (t : Fin (cfgM4 V hO).N) : (dat4 V hO c).after 2 t = iblk4 V hO c 2 t := by dsimp only [dat4]; try rfl
theorem after4_3 (hO : Ok4 V) (c : Dev nD) (t : Fin (cfgM4 V hO).N) : (dat4 V hO c).after 3 t = iblk4 V hO c 3 t := by dsimp only [dat4]; try rfl
theorem after4_4 (hO : Ok4 V) (c : Dev nD) (t : Fin (cfgM4 V hO).N) : (dat4 V hO c).after 4 t = outAt4 V hO c t := by dsimp only [dat4]; try rfl

theorem before4_0 (hO : Ok4 V) (c : Dev nD) (t : Fin (cfgM4 V hO).N) (d) : (dat4 V hO c).before 0 t d = iblk4 V hO c 0 t :=
  before4_0_of V hO (dat4 V hO c) (A_eq4 V hO c 0) (after4_0 V hO c) t d
theorem before4_1 (hO : Ok4 V) (c : Dev nD) (t : Fin (cfgM4 V hO).N) (d) : (dat4 V hO c).before 1 t d = iblk4 V hO c 1 t :=
  before4_1_of V hO (dat4 V hO c) (A_eq4 V hO c 1) (after4_1 V hO c) t d
theorem before4_2 (hO : Ok4 V) (c : Dev nD) (t : Fin (cfgM4 V hO).N) (d) : (dat4 V hO c).before 2 t d = iblk4 V hO c 2 t :=
  before4_2_of V hO (dat4 V hO c) (A_eq4 V hO c 2) (after4_2 V hO c) t d
theorem before4_3 (hO : Ok4 V) (c : Dev nD) (t : Fin (cfgM4 V hO).N) (d) : (dat4 V hO c).before 3 t d = iblk4 V hO c 3 t :=
  before4_3_of V hO (dat4 V hO c) (A_eq4 V hO c 3) (after4_3 V hO c) t d

/-- What the body is called with at point `t`, the windows one by one, -/
def bodyPre4 (hO : Ok4 V) (c : Dev nD) (t : Fin (cfgM4 V hO).N) : sProp 𝕄 :=
  iprop((dat4 V hO c).Φ t.castSucc ∗ (dat4 V hO c).owesAt () t.castSucc
    ∗ (∃ d, owns (c : Thread nD τ) (ms4_0 V hO t) fullShare ((dat4 V hO c).before 0 t d))
    ∗ (∃ d, owns (c : Thread nD τ) (ms4_1 V hO t) fullShare ((dat4 V hO c).before 1 t d))
    ∗ (∃ d, owns (c : Thread nD τ) (ms4_2 V hO t) fullShare ((dat4 V hO c).before 2 t d))
    ∗ (∃ d, owns (c : Thread nD τ) (ms4_3 V hO t) fullShare ((dat4 V hO c).before 3 t d))
    ∗ (∃ d, owns (c : Thread nD τ) (ms4_4 V hO t) fullShare ((dat4 V hO c).before 4 t d)))

/-- and what it returns. -/
def bodyPost4 (hO : Ok4 V) (c : Dev nD) (t : Fin (cfgM4 V hO).N) : sProp 𝕄 :=
  iprop((dat4 V hO c).Φ t.succ ∗ (dat4 V hO c).owesAt () t.succ
    ∗ (dat4 V hO c).leavesExact 0 t
    ∗ (dat4 V hO c).leavesExact 1 t
    ∗ (dat4 V hO c).leavesExact 2 t
    ∗ (dat4 V hO c).leavesExact 3 t
    ∗ (dat4 V hO c).leavesExact 4 t)

/-- The windows' idle flags at a point, stated at the pinned configuration. -/
theorem liveAtM4_0 (hO : Ok4 V) (t : Fin (cfgM4 V hO).N) : (cfgM4 V hO).idle 0 ((cfgM4 V hO).grid.coords t) = false := rfl
theorem liveAtM4_1 (hO : Ok4 V) (t : Fin (cfgM4 V hO).N) : (cfgM4 V hO).idle 1 ((cfgM4 V hO).grid.coords t) = false := rfl
theorem liveAtM4_2 (hO : Ok4 V) (t : Fin (cfgM4 V hO).N) : (cfgM4 V hO).idle 2 ((cfgM4 V hO).grid.coords t) = false := rfl
theorem liveAtM4_3 (hO : Ok4 V) (t : Fin (cfgM4 V hO).N) : (cfgM4 V hO).idle 3 ((cfgM4 V hO).grid.coords t) = false := rfl
theorem idleAtM4_4 (hO : Ok4 V) (t : Fin (cfgM4 V hO).N) (h : ¬cond4_1 (grid4.coords t)) :
    (cfgM4 V hO).idle 4 ((cfgM4 V hO).grid.coords t) = true := idleAt4_4 (adm4 V hO) (grid4.coords t) h
theorem liveAtM4_4 (hO : Ok4 V) (t : Fin (cfgM4 V hO).N) (h : cond4_1 (grid4.coords t)) :
    (cfgM4 V hO).idle 4 ((cfgM4 V hO).grid.coords t) = false := liveAt4_4 (adm4 V hO) (grid4.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body4 (hO : Ok4 V) (c : Dev nD) (t : Fin (cfgM4 V hO).N) :
    bodyPre4 V hO c t ⊢ wp frame (wpE (defs₀ (F := F)) Variants.none c none) Set.univ (bodyAt4 (adm4 V hO) t) (fun _ => bodyPost4 V hO c t) := by
  unfold bodyPre4 bodyPost4 bodyAt4
  simp only [before4_0, before4_1, before4_2, before4_3]
  rw [show (dat4 V hO c).owesAt () t.succ = (dat4 V hO c).owesAt () t.castSucc from rfl]
  rw [show (dat4 V hO c).Φ t.succ = PhiS4 V hO c (t.val + 1) t.isLt from rfl, PhiS4_succ]
  rw [show (dat4 V hO c).leavesExact 0 t = owns (c : Thread nD τ) (ms4_0 V hO t) fullShare ((dat4 V hO c).after 0 t) from by
    unfold Dat.leavesExact; rw [liveAtM4_0 V hO t]; try rfl]
  rw [after4_0]
  rw [show (dat4 V hO c).leavesExact 1 t = owns (c : Thread nD τ) (ms4_1 V hO t) fullShare ((dat4 V hO c).after 1 t) from by
    unfold Dat.leavesExact; rw [liveAtM4_1 V hO t]; try rfl]
  rw [after4_1]
  rw [show (dat4 V hO c).leavesExact 2 t = owns (c : Thread nD τ) (ms4_2 V hO t) fullShare ((dat4 V hO c).after 2 t) from by
    unfold Dat.leavesExact; rw [liveAtM4_2 V hO t]; try rfl]
  rw [after4_2]
  rw [show (dat4 V hO c).leavesExact 3 t = owns (c : Thread nD τ) (ms4_3 V hO t) fullShare ((dat4 V hO c).after 3 t) from by
    unfold Dat.leavesExact; rw [liveAtM4_3 V hO t]; try rfl]
  rw [after4_3]
  rw [PhiS4_castSucc]
  by_cases h0 : cond4_0 (grid4.coords t)
  · by_cases h1 : cond4_1 (grid4.coords t)
    · exact absurd h1 (fun h => not_both4 _ h0 h)
    · rw [Dat.leavesExact_idle (dat4 V hO c) 4 t (idleAtM4_4 V hO t h1) (noFlush4_4 (adm4 V hO) t h1)]
      rw [accAt4_A V hO c t h0]
      by_cases hz : t.val = 0
      · rw [PhiS4_zero V hO c _ _ hz]
        iintro ⟨⟨HS, HR⟩, Ho, ⟨%d0, H0⟩, ⟨%d1, H1⟩, ⟨%d2, H2⟩, ⟨%d3, H3⟩, ⟨%d4, H4⟩⟩
        iapply (run4_A c (grid4.coords t) _ _ _ _ _ _ _ _ _ _ _ _ _ _ h0 h1 (xrow4 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS4_pos V hO c _ _ hz]
        iintro ⟨⟨HS, HR⟩, Ho, ⟨%d0, H0⟩, ⟨%d1, H1⟩, ⟨%d2, H2⟩, ⟨%d3, H3⟩, ⟨%d4, H4⟩⟩
        iapply (run4_A c (grid4.coords t) _ _ _ _ _ _ _ _ _ _ _ _ _ _ h0 h1 (xrow4 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond4_0_first t hz)
    rw [PhiS4_pos V hO c _ _ hz, accAt4_B V hO c t h0 hz]
    by_cases h1 : cond4_1 (grid4.coords t)
    · rw [show (dat4 V hO c).leavesExact 4 t = owns (c : Thread nD τ) (ms4_4 V hO t) fullShare ((dat4 V hO c).after 4 t) from by
        unfold Dat.leavesExact; rw [liveAtM4_4 V hO t h1]; try rfl]
      rw [after4_4]
      unfold outAt4
      rw [accAt4_B V hO c t h0 hz]
      iintro ⟨⟨HS, HR⟩, Ho, ⟨%d0, H0⟩, ⟨%d1, H1⟩, ⟨%d2, H2⟩, ⟨%d3, H3⟩, ⟨%d4, H4⟩⟩
      iapply (run4_C c (grid4.coords t) _ _ _ _ _ _ _ _ _ _ _ _ _ _ h0 h1 (xrow4 V hO c t) (xpa4 V hO c t) (xw4 V hO c t) (xb4 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat4 V hO c) 4 t (idleAtM4_4 V hO t h1) (noFlush4_4 (adm4 V hO) t h1)]
      iintro ⟨⟨HS, HR⟩, Ho, ⟨%d0, H0⟩, ⟨%d1, H1⟩, ⟨%d2, H2⟩, ⟨%d3, H3⟩, ⟨%d4, H4⟩⟩
      iapply (run4_B c (grid4.coords t) _ _ _ _ _ _ _ _ _ _ _ _ _ _ h0 h1 (xrow4 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (hO : Ok4 V) (c : Dev nD) :
    BodyObligation (dat4 (F := F) V hO c) (defs₀ (F := F)) Variants.none () Set.univ := fun t => by
  rw [bigSep_W4, bigSep_W4]
  exact sound_body4 V hO c t

end Cert.Kernel.Hand

end
-- ==== Proof.R4ValBits.lean ====
import proofs.«402893_j78554951844377_2_alg».proof.Proof.R4AccBits
import proofs.«402893_j78554951844377_2_alg».proof.Proof.R4GridBits
import proofs.«402893_j78554951844377_2_alg».proof.Proof.OkTablesBits
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 4: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt4 (t : Fin grid4.N) : t.val / 32 < 2048 := by
  have ht : t.val < 65536 := N_4 ▸ t.isLt
  omega

/-- The last feature of sample `r` is a point of the grid. -/
theorem lastPt_lt4 (r : ℕ) (hr : r < 2048) : 32 * r + 31 < grid4.N := by rw [N_4]; omega

/-- Under the side condition every word the index map of window 0 reads names a row of the embedding table. -/
theorem tword4_lt (pf : pre4.Contents (Elt F)) (h : ok4 pf) (i : grid4.Coords) : (tword4 pf i).toNat < 786432 := by
  obtain ⟨hb, -⟩ := h i
  have h0 := hb 0
  rw [transform4_eq pf i] at h0
  have h0' : ((tword4 pf i).toNat + 1) * 1 ≤ 786432 := h0
  omega

/-- Window 0's block at point `t` is the row the table's word names. -/
theorem index4_0 (a : (pcfg4 (F := F)).Adm) (t : Fin (cfg4 a).N) :
    ((cfg4 a).win 0).index t = ![(tword4 a.1 (grid4.coords t)).toNat, 0, 0] :=
  transform4_eq a.1 (grid4.coords t)

/-- Lane `l` of window 0's block sits in the embedding table at (the named row, 0, l). -/
theorem emb4_0 (a : (pcfg4 (F := F)).Adm) (t : Fin (cfg4 a).N) (l : Fin 128) :
    (((cfg4 a).win 0).blk t).view.emb (ValueIdx.ix3 (0 : Fin 1) (0 : Fin 1) l)
      = ValueIdx.ix3 (⟨(tword4 a.1 (grid4.coords t)).toNat, tword4_lt a.1 a.2 (grid4.coords t)⟩ : Fin 786432) (0 : Fin 1) l := by
  funext d; apply Fin.ext
  match d with
  | ⟨0, _⟩ => show ((cfg4 a).win 0).index t (0 : Fin 3) * 1 + 1 * 0 = (tword4 a.1 (grid4.coords t)).toNat; rw [index4_0]; show (tword4 a.1 (grid4.coords t)).toNat * 1 + 1 * 0 = _; omega
  | ⟨1, _⟩ => show ((cfg4 a).win 0).index t (1 : Fin 3) * 1 + 1 * 0 = 0; rw [index4_0]; rfl
  | ⟨2, _⟩ => show ((cfg4 a).win 0).index t (2 : Fin 3) * 128 + 1 * l.val = l.val; rw [index4_0]; show 0 * 128 + 1 * l.val = l.val; omega

/-- Lane `l` of window 1's block sits in its array at (sample, 0, l). -/
theorem emb4_1 (a : (pcfg4 (F := F)).Adm) (t : Fin (cfg4 a).N) (l : Fin 128) :
    (((cfg4 a).win 1).blk t).view.emb (ValueIdx.ix3 (0 : Fin 1) (0 : Fin 1) l)
      = ValueIdx.ix3 (⟨t.val / 32, sample_lt4 t⟩ : Fin 2048) (0 : Fin 1) l := by
  funext d; apply Fin.ext
  match d with
  | ⟨0, _⟩ => show ((cfg4 a).win 1).index t (0 : Fin 3) * 1 + 1 * 0 = t.val / 32; rw [index4_1]; show t.val / 32 * 1 + 1 * 0 = _; omega
  | ⟨1, _⟩ => show ((cfg4 a).win 1).index t (1 : Fin 3) * 1 + 1 * 0 = 0; rw [index4_1]; rfl
  | ⟨2, _⟩ => show ((cfg4 a).win 1).index t (2 : Fin 3) * 128 + 1 * l.val = l.val; rw [index4_1]; show 0 * 128 + 1 * l.val = l.val; omega

/-- Lane `l` of window 2's block sits in its array at (sample, 0, l). -/
theorem emb4_2 (a : (pcfg4 (F := F)).Adm) (t : Fin (cfg4 a).N) (l : Fin 128) :
    (((cfg4 a).win 2).blk t).view.emb (ValueIdx.ix3 (0 : Fin 1) (0 : Fin 1) l)
      = ValueIdx.ix3 (⟨t.val / 32, sample_lt4 t⟩ : Fin 2048) (0 : Fin 1) l := by
  funext d; apply Fin.ext
  match d with
  | ⟨0, _⟩ => show ((cfg4 a).win 2).index t (0 : Fin 3) * 1 + 1 * 0 = t.val / 32; rw [index4_2]; show t.val / 32 * 1 + 1 * 0 = _; omega
  | ⟨1, _⟩ => show ((cfg4 a).win 2).index t (1 : Fin 3) * 1 + 1 * 0 = 0; rw [index4_2]; rfl
  | ⟨2, _⟩ => show ((cfg4 a).win 2).index t (2 : Fin 3) * 128 + 1 * l.val = l.val; rw [index4_2]; show 0 * 128 + 1 * l.val = l.val; omega

/-- The one element of window 3's block sits in its array at (sample, 0, 0). -/
theorem emb4_3 (a : (pcfg4 (F := F)).Adm) (t : Fin (cfg4 a).N) :
    (((cfg4 a).win 3).blk t).view.emb (ValueIdx.ix3 (0 : Fin 1) (0 : Fin 1) (0 : Fin 1))
      = ValueIdx.ix3 (⟨t.val / 32, sample_lt4 t⟩ : Fin 2048) (0 : Fin 1) (0 : Fin 1) := by
  funext d; apply Fin.ext
  match d with
  | ⟨0, _⟩ => show ((cfg4 a).win 3).index t (0 : Fin 3) * 1 + 1 * 0 = t.val / 32; rw [index4_3]; show t.val / 32 * 1 + 1 * 0 = _; omega
  | ⟨1, _⟩ => show ((cfg4 a).win 3).index t (1 : Fin 3) * 1 + 1 * 0 = 0; rw [index4_3]; rfl
  | ⟨2, _⟩ => show ((cfg4 a).win 3).index t (2 : Fin 3) * 1 + 1 * 0 = 0; rw [index4_3]; rfl

/-- The one element of the result window's block sits in the result array at (sample, 0, 0). -/
theorem emb4_4 (a : (pcfg4 (F := F)).Adm) (t : Fin (cfg4 a).N) :
    (((cfg4 a).win 4).blk t).view.emb (ValueIdx.ix3 (0 : Fin 1) (0 : Fin 1) (0 : Fin 1))
      = ValueIdx.ix3 (⟨t.val / 32, sample_lt4 t⟩ : Fin 2048) (0 : Fin 1) (0 : Fin 1) := by
  funext d; apply Fin.ext
  match d with
  | ⟨0, _⟩ => show ((cfg4 a).win 4).index t (0 : Fin 3) * 1 + 1 * 0 = t.val / 32; rw [index4_4]; show t.val / 32 * 1 + 1 * 0 = _; omega
  | ⟨1, _⟩ => show ((cfg4 a).win 4).index t (1 : Fin 3) * 1 + 1 * 0 = 0; rw [index4_4]; rfl
  | ⟨2, _⟩ => show ((cfg4 a).win 4).index t (2 : Fin 3) * 1 + 1 * 0 = 0; rw [index4_4]; rfl

section AtTable

variable (V : (c : Dev nD) → (b : Ref sig .tc) → Buf (Elt F) ((c : Thread nD τ).loc b))

/-! ## The input blocks at coordinates -/

/-- The row of the embedding table gathered at point `t`: the table's word there. -/
abbrev rho4 (t : Fin grid4.N) : ℕ := (tword4 (tbl4 V) (grid4.coords t)).toNat

/-- It is a row of the table, under the side condition. -/
theorem rho4_lt (hO : Ok4 V) (t : Fin grid4.N) : rho4 V t < 786432 := tword4_lt (tbl4 V) hO (grid4.coords t)

/-- Lane `l` of the gathered row at point `t` is the embedding table at (the named row, 0, l). -/
theorem xrow4_apply (hO : Ok4 V) (c : Dev nD) (t : Fin (cfgM4 V hO).N) (l : Fin 128) :
    xrow4 V hO c t (ValueIdx.ix3 (0 : Fin 1) (0 : Fin 1) l)
      = V c main_v34 (ValueIdx.ix3 (⟨rho4 V t, rho4_lt V hO t⟩ : Fin 786432) (0 : Fin 1) l) := by
  show V c main_v34 ((((cfgM4 V hO).win 0).blk t).view.emb (ValueIdx.ix3 (0 : Fin 1) (0 : Fin 1) l)) = _
  exact congrArg (V c main_v34) (emb4_0 (adm4 V hO) t l)

/-- Lane `l` of the phase-bias block at point `t` is its array at (sample, 0, l). -/
theorem xpa4_apply (hO : Ok4 V) (c : Dev nD) (t : Fin (cfgM4 V hO).N) (l : Fin 128) :
    xpa4 V hO c t (ValueIdx.ix3 (0 : Fin 1) (0 : Fin 1) l)
      = V c main_v61 (ValueIdx.ix3 (⟨t.val / 32, sample_lt4 t⟩ : Fin 2048) (0 : Fin 1) l) := by
  show V c main_v61 ((((cfgM4 V hO).win 1).blk t).view.emb (ValueIdx.ix3 (0 : Fin 1) (0 : Fin 1) l)) = _
  exact congrArg (V c main_v61) (emb4_1 (adm4 V hO) t l)

/-- Lane `l` of the head-weight block at point `t` is its array at (sample, 0, l). -/
theorem xw4_apply (hO : Ok4 V) (c : Dev nD) (t : Fin (cfgM4 V hO).N) (l : Fin 128) :
    xw4 V hO c t (ValueIdx.ix3 (0 : Fin 1) (0 : Fin 1) l)
      = V c main_v62 (ValueIdx.ix3 (⟨t.val / 32, sample_lt4 t⟩ : Fin 2048) (0 : Fin 1) l) := by
  show V c main_v62 ((((cfgM4 V hO).win 2).blk t).view.emb (ValueIdx.ix3 (0 : Fin 1) (0 : Fin 1) l)) = _
  exact congrArg (V c main_v62) (emb4_2 (adm4 V hO) t l)

/-- The head-bias block at point `t` is its array at (sample, 0, 0). -/
theorem xb4_apply (hO : Ok4 V) (c : Dev nD) (t : Fin (cfgM4 V hO).N) :
    xb4 V hO c t (ValueIdx.ix3 (0 : Fin 1) (0 : Fin 1) (0 : Fin 1))
      = V c main_v63 (ValueIdx.ix3 (⟨t.val / 32, sample_lt4 t⟩ : Fin 2048) (0 : Fin 1) (0 : Fin 1)) := by
  show V c main_v63 ((((cfgM4 V hO).win 3).blk t).view.emb (ValueIdx.ix3 (0 : Fin 1) (0 : Fin 1) (0 : Fin 1))) = _
  exact congrArg (V c main_v63) (emb4_3 (adm4 V hO) t)

/-! ## The arrays after the run -/

/-- An input's array is never written: it ends as the region found it. -/
theorem arrAt4_in (hO : Ok4 V) (c : Dev nD) (w : Fin 5) (hw : w ≠ 4) :
    (dat4 V hO c).arrAt w (cfgM4 V hO).N = V c (Pipeline.arrRef spec4 w) := by
  have hin : ((cfgM4 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat4 V hO c).arrAt_in w hin _).trans (A_eq4 V hO c w)

/-- THE RESULT ARRAY of the tile: row `r` holds what the body left in the result block at sample `r`'s last feature. -/
def tileRes4 (hO : Ok4 V) (c : Dev nD) : Buf (Elt F) ((c : Thread nD τ).loc main_v64) :=
  fun (i : S2048x1x1.Idx) => outAt4 V hO c ⟨32 * (i 0).val + 31, lastPt_lt4 (i 0).val (i 0).isLt⟩ (ValueIdx.ix3 (0 : Fin 1) (0 : Fin 1) (0 : Fin 1))

theorem tileRes4_apply (hO : Ok4 V) (c : Dev nD) (r : Fin 2048) :
    tileRes4 V hO c (ValueIdx.ix3 r (0 : Fin 1) (0 : Fin 1))
      = outAt4 V hO c ⟨32 * r.val + 31, lastPt_lt4 r.val r.isLt⟩ (ValueIdx.ix3 (0 : Fin 1) (0 : Fin 1) (0 : Fin 1)) := rfl

/-- The result block read at two names of one point. -/
theorem outAt4_congr (hO : Ok4 V) (c : Dev nD) {t t' : Fin (cfgM4 V hO).N} (h : t.val = t'.val) (j : S1x1x1.Idx) :
    outAt4 V hO c t j = outAt4 V hO c t' j := by
  obtain rfl : t = t' := Fin.ext h
  rfl

/-- What a write-back writes is the written row of `tileRes4`: the point is its sample's last feature `32 (t / 32) + 31`,
    and the block's one element is the row's. -/
theorem flushed4_4_eq (hO : Ok4 V) (c : Dev nD) (t : Fin (cfgM4 V hO).N) (hf : ((cfgM4 V hO).win 4).flush t = true) :
    (dat4 V hO c).flushed 4 t = (((cfgM4 V hO).win 4).blk t).view.read (Elt F) (tileRes4 V hO c) := by
  have h31 : t.val % 32 = 31 := (flush4_4_iff (adm4 V hO) t).mp hf
  show ((cfgM4 V hO).win 4).cut (grid4.coords t) ((dat4 V hO c).after 4 t) = _
  rw [after4_4]
  funext j
  have hj : (((cfgM4 V hO).win 4).xinj (grid4.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM4 V hO).win 4).blk t).view.emb j : S2048x1x1.Idx) (0 : Fin 3)).val + 31 := by
    have h : (j (0 : Fin 3)).val < 1 := (j (0 : Fin 3)).isLt
    show t.val = 32 * (((cfgM4 V hO).win 4).index t (0 : Fin 3) * 1 + 1 * (j (0 : Fin 3)).val) + 31
    rw [index4_4]
    show t.val = 32 * (t.val / 32 * 1 + 1 * (j (0 : Fin 3)).val) + 31
    omega
  show outAt4 V hO c t (((cfgM4 V hO).win 4).xinj (grid4.coords t) j) = tileRes4 V hO c ((((cfgM4 V hO).win 4).blk t).view.emb j)
  rw [hj]
  exact outAt4_congr V hO c hv _

/-- Every row of the result array is some write-back's block: row `r` is the block of point `32 r + 31`. -/
theorem cover4_4 (hO : Ok4 V) (i : S2048x1x1.Idx) :
    ∃ t : Fin (cfgM4 V hO).N, ((cfgM4 V hO).win 4).flush t = true ∧ i ∈ (((cfgM4 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt4 _ h0⟩, (flush4_4_iff (adm4 V hO) _).mpr (by show (32 * (i 0).val + 31) % 32 = 31; omega), ?_⟩
  have he : (((cfgM4 V hO).win 4).blk ⟨32 * (i 0).val + 31, lastPt_lt4 _ h0⟩).view.emb (ValueIdx.ix3 (0 : Fin 1) (0 : Fin 1) (0 : Fin 1)) = i := by
    refine (emb4_4 (adm4 V hO) ⟨32 * (i 0).val + 31, lastPt_lt4 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM4 V hO).win 4).blk ⟨32 * (i 0).val + 31, lastPt_lt4 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes4`. -/
theorem arrAt4_4 (hO : Ok4 V) (c : Dev nD) : (dat4 V hO c).arrAt 4 (cfgM4 V hO).N = tileRes4 V hO c :=
  (dat4 V hO c).arrAt_eq_of_cover 4 (tileRes4 V hO c) (fun t hf => flushed4_4_eq V hO c t hf) (fun i => cover4_4 V hO i)

end AtTable

end Cert.Kernel.Hand

end
-- ==== Proof.R4SegBits.lean ====
/-
  Tile 4's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 4's admissible contents and
  proof data is ten small facts (`Pinned4`); they hold of tile 4's own (`pinned_dat4`) and so of any family whose
  component 4 is tile 4's (`Pinned4.of_eq`).
-/
import proofs.«402893_j78554951844377_2_alg».proof.Proof.R4AccBits
import proofs.«402893_j78554951844377_2_alg».proof.Proof.FamilyBits
import proofs.«402893_j78554951844377_2_alg».proof.Proof.GlueBits
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 4's contents and proof data -/

variable (Vin : (c : Dev nD) → (b : Ref sig .tc) → Buf (Elt F) ((c : Thread nD τ).loc b))

/-- The scratch operand owned whole at some contents is its buffer held at some contents. -/
theorem scratch4_eq (c : Dev nD) :
    (iprop(∃ d, owns (c : Thread nD τ) scM4 fullShare d) : sProp 𝕄)
      = iprop(∃ f : Buf (Elt F) ((c : Thread nD τ).loc cc4_scratch0), ((c : Thread nD τ).loc cc4_scratch0) ↦{fullShare} f) := by
  simp only [scM4, owns_whole]; try rfl

/-- What the record needs of pipeline 4's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned4 (Vx : Dev nD → Valuation τ sig (Elt F)) (a0 : (pcfgs (F := F) 4).Adm)
    (d0 : (c : Dev nD) → Dat τ (Elt F) Unit ℕ (UR sig nD τ) ℕ ((pcfgs (F := F) 4).at a0) c) : Prop where
  tbl : a0.1 = tbl4 Vin
  q : ∀ (c : Dev nD) w, (d0 c).q w = fullShare
  A : ∀ (c : Dev nD) w, (d0 c).A w = Vin c (Pipeline.arrRef spec4 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM4 fullShare d) ∗ Rest4 Vin c) : sProp 𝕄) ⊢ (d0 c).Φ 0
  phiOut : ∀ c : Dev nD, (d0 c).Φ (Fin.last _) ⊢ (iprop((∃ d, owns (c : Thread nD τ) scM4 fullShare d) ∗ Rest4 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 4).at a0).N = Vx c (Pipeline.arrRef spec4 w)

set_option maxHeartbeats 400000 in
/-- Tile 4's own contents and proof data have them: each field by unfolding the proof data; the last stage of the
    invariant is a later one (the grid has 65536 points), so it holds the scratch at the last point's contents. -/
theorem pinned_dat4 (hO : Ok4 Vin) (Vx : Dev nD → Valuation τ sig (Elt F))
    (hF : ∀ c w, (dat4 Vin hO c).arrAt w (cfgM4 Vin hO).N = Vx c (Pipeline.arrRef spec4 w)) :
    Pinned4 Vin Vx (adm4 Vin hO) (dat4 Vin hO) where
  tbl := rfl
  q c w := rfl
  A c w := A_eq4 Vin hO c w
  owed c t := rfl
  body c := (body_obligation4 Vin hO c).loose
  phiIn c := by
    rw [show (dat4 Vin hO c).Φ 0 = PhiS4 Vin hO c ((0 : Fin ((cfgM4 Vin hO).N + 1)).val) (Nat.le_of_lt_succ (0 : Fin ((cfgM4 Vin hO).N + 1)).isLt) from rfl,
      PhiS4_zero Vin hO c _ _ (Fin.val_zero _)]
  phiOut c := by
    have hN : (Fin.last (cfgM4 Vin hO).N).val ≠ 0 := by
      rw [Fin.val_last, show (cfgM4 Vin hO).N = grid4.N from rfl, N_4]; decide
    show PhiS4 Vin hO c (Fin.last (cfgM4 Vin hO).N).val (Nat.le_of_lt_succ (Fin.last (cfgM4 Vin hO).N).isLt) ⊢ _
    rw [PhiS4_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 4's. -/
theorem Pinned4.of_eq (hO : Ok4 Vin) {Vx : Dev nD → Valuation τ sig (Elt F)} {a0 : (pcfgs (F := F) 4).Adm}
    {d0 : (c : Dev nD) → Dat τ (Elt F) Unit ℕ (UR sig nD τ) ℕ ((pcfgs (F := F) 4).at a0) c}
    (ha : a0 = adm4 Vin hO) (hd : ∀ c, HEq (d0 c) (dat4 Vin hO c)) (h : Pinned4 Vin Vx (adm4 Vin hO) (dat4 Vin hO)) :
    Pinned4 Vin Vx a0 d0 := by
  subst ha
  obtain rfl : d0 = dat4 Vin hO := funext fun c => eq_of_heq (hd c)
  exact h

/-! ## The record -/

set_option backward.isDefEq.respectTransparency.types false in
set_option maxHeartbeats 1600000 in
/-- Tile 4's region over ANY family of pipelines whose component 4 is tile 4's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg4G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok4 Vin) (ha : a 4 = adm4 Vin hO) (hd : ∀ c, HEq (pdats 4 c) (dat4 Vin hO c))
    (hag : ∀ c w, V c (Proc.devRef .tc (Pipeline.arrRef spec4 w)) = Vin c (Pipeline.arrRef spec4 w))
    (hagT : ∀ c j, V c (Proc.devRef .tc (pre4.ref j)) = Vin c (pre4.ref j))
    (hF : ∀ c w, (dat4 Vin hO c).arrAt w (cfgM4 Vin hO).N = Vx c (Pipeline.arrRef spec4 w))
    (hrest : ∀ c b, b ∉ Finset.univ.image (Pipeline.arrRef spec4) → Vx c b = V c b) :
    Pipeline.RegionSeg (pcfgs (F := F)) a pdats () defs₀ Variants.none (fun _ => ∅) (fun _ _ => 0) 4 :=
  have hp : Pinned4 Vin Vx (a 4) (pdats 4) := Pinned4.of_eq Vin hO ha hd (pinned_dat4 Vin hO Vx hF)
  have htbl : ∀ c, (fun k => V c (Proc.devRef .tc ((pcfgs (F := F) 4).pre.ref k))) = (a 4).1 := fun c => by
    rw [hp.tbl]; funext k; exact (hagT c k).trans (V_pre4 Vin c k)
  { win := (launch4 (F := F)).win.to₀
    block_pos := (launch4 (F := F)).block_pos
    stage_whole := (launch4 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 4 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre4 c (fun _ => fullShare) (tbl4 Vin))
    Z := fun c => Pipeline.unscopedRestP (Ix := Unit) (Name := ℕ) (U := UR sig nD τ) (Lvl := ℕ) pre4 spec4 c (fun b => V c b)
    hentry := fun c => by
      rw [Pipeline.ownSems0_none]
      have hsplit := Pipeline.arrays_of_unscopedBufs (p := 4) (pcfgs (F := F)) a pdats (launch4 (F := F)).win (launch4 (F := F)).arr_whole c
        ((pdats 4 c).share_full (hp.q c)) (fun b => V c b) (fun w => (hp.A c w).trans (hag c w).symm)
      rw [Pipeline.unscopedBufs_held, Pipeline.unscopedRest_split (launch4 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 4).spec c : sProp 𝕄) = _ from scopedRest4_split c, hp.tbl]
      refine BIBase.Entails.trans ?_ (hp.phiIn c)
      rw [scratch4_eq]
      unfold Rest4
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 4).spec c : sProp 𝕄) = _ from scopedRest4_split c]
      refine BIBase.Entails.trans (hp.phiOut c) ?_
      rw [scratch4_eq]
      unfold Rest4
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 4) (pcfgs (F := F)) a (Ix := Unit) (Name := ℕ) (U := UR sig nD τ) (Lvl := ℕ)
        (launch4 (F := F)).win (launch4 (F := F)).arr_whole c pdats ((pdats 4 c).share_full (hp.q c))
        (fun b => V c b) (fun b => Vx c b) ((pdats 4 c).arrAt · (Pipeline.pin (pcfgs (F := F)) a 4).N) (hp.fin c) (hrest c)
      rw [Pipeline.unscopedBufs_held, Pipeline.unscopedRest_split (launch4 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 4's record over the assembled families, tile 4's components in slot 4. -/
def reg4 (hO : Ok4 Vin) (V Vx : Dev nD → Valuation τ sig (Elt F))
    (hag : ∀ c w, V c (Proc.devRef .tc (Pipeline.arrRef spec4 w)) = Vin c (Pipeline.arrRef spec4 w))
    (hagT : ∀ c j, V c (Proc.devRef .tc (pre4.ref j)) = Vin c (pre4.ref j))
    (hF : ∀ c w, (dat4 Vin hO c).arrAt w (cfgM4 Vin hO).N = Vx c (Pipeline.arrRef spec4 w))
    (hrest : ∀ c b, b ∉ Finset.univ.image (Pipeline.arrRef spec4) → Vx c b = V c b)
    (a0 : (pcfg0 (F := F)).Adm)
    (a1 : (pcfg1 (F := F)).Adm)
    (a2 : (pcfg2 (F := F)).Adm)
    (a3 : (pcfg3 (F := F)).Adm)
    (a5 : (pcfg5 (F := F)).Adm)
    (a6 : (pcfg6 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d5 : (c : Dev nD) → Dat τ (Elt F) Unit ℕ (UR sig nD τ) ℕ (cfg5 a5) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 a1 a2 a3 (adm4 Vin hO) a5 a6 a7)
      (pdatsOf a0 a1 a2 a3 (adm4 Vin hO) a5 a6 a7 d0 d1 d2 d3 (dat4 Vin hO) d5 d6 d7) () defs₀ Variants.none (fun _ => ∅) (fun _ _ => 0) 4 :=
  reg4G Vin V Vx _ _ hO rfl (fun _ => HEq.rfl) hag hagT hF hrest

/-- The thread state the record is entered from, -/
theorem reg4_pre (hO : Ok4 Vin) (V Vx : Dev nD → Valuation τ sig (Elt F)) (hag) (hagT) (hF) (hrest) (a0) (a1) (a2) (a3) (a5) (a6) (a7) (d0) (d1) (d2) (d3) (d5) (d6) (d7) (c : Dev nD) :
    (reg4 Vin hO V Vx hag hagT hF hrest a0 a1 a2 a3 a5 a6 a7 d0 d1 d2 d3 d5 d6 d7).pre c
      = iprop(StableHlo.held (c : Thread nD τ) (Pipeline.ucRefs τ sig) (V c) ∗ Rr (F := F) c) := rfl
/-- and the one it leaves. -/
theorem reg4_post (hO : Ok4 Vin) (V Vx : Dev nD → Valuation τ sig (Elt F)) (hag) (hagT) (hF) (hrest) (a0) (a1) (a2) (a3) (a5) (a6) (a7) (d0) (d1) (d2) (d3) (d5) (d6) (d7) (c : Dev nD) :
    (reg4 Vin hO V Vx hag hagT hF hrest a0 a1 a2 a3 a5 a6 a7 d0 d1 d2 d3 d5 d6 d7).post c
      = iprop(StableHlo.held (c : Thread nD τ) (Pipeline.ucRefs τ sig) (Vx c) ∗ Rr (F := F) c) := rfl

end Cert.Kernel.Hand

end
-- ==== Proof.R4AgreeBits.lean ====
import proofs.«402893_j78554951844377_2_alg».proof.Proof.KHostBits
import Idealize.ShloMosaic.Lib.ValueIdx

noncomputable section

namespace Cert.Kernel.Hand

open Cert.Kernel Cert.Kernel.Gen
open Idealize.ShloMosaic Idealize.ShloMosaic.TcCoe

variable {F : FTy → Type} [FloatOps F]

/-! # Tile 4: what the region reads does not depend on what earlier regions left

The table, the embedding table, the three slices and the (not yet written) result array of tile 4 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree4_tbl : V13 m outs c main_v60 = V13 m outs' c main_v60 := by
  funext (j : S65536.Idx)
  obtain ⟨a, rfl⟩ : ∃ a : Fin 65536, j = ValueIdx.ix1 a := ⟨j 0, ValueIdx.eq_ix1 j⟩
  rw [tbl4_apply m outs c, tbl4_apply m outs' c]

theorem agree4_emb : V13 m outs c main_v34 = V13 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb4_apply m outs c, emb4_apply m outs' c]

theorem agree4_pa : V13 m outs c main_v61 = V13 m outs' c main_v61 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa4_apply m outs c, pa4_apply m outs' c]

theorem agree4_w : V13 m outs c main_v62 = V13 m outs' c main_v62 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w4_apply m outs c, w4_apply m outs' c]

theorem agree4_b : V13 m outs c main_v63 = V13 m outs' c main_v63 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b4_apply m outs c, b4_apply m outs' c]

/-- The result array has not been written when the region is entered: it holds its launch contents. -/
theorem entry4_out : V13 m outs c main_v64 = V5 m c main_v64 :=
  (V13_of m outs c main_v64 (by decide)).trans ((V12_of m outs c main_v64 (by decide)).trans ((V11_of m outs c main_v64 (by decide)).trans ((V10_of m outs c main_v64 (by decide)).trans ((V9_of m outs c main_v64 (by decide)).trans ((V8_of m outs c main_v64 (by decide)).trans ((V7_of m outs c main_v64 (by decide)).trans (V6_of m outs c main_v64 (by decide))))))))

theorem agree4_out : V13 m outs c main_v64 = V13 m outs' c main_v64 :=
  (entry4_out m outs c).trans (entry4_out m outs' c).symm

end Cert.Kernel.Hand

end
-- ==== Proof.R5RunBits.lean ====
import proofs.«402893_j78554951844377_2_alg».proof.Proof.Gen.Kernel.Launch
import proofs.«402893_j78554951844377_2_alg».proof.Proof.Gen.Kernel.Skeleton
import proofs.«402893_j78554951844377_2_alg».proof.Proof.R0RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 5: the kernel body at one grid point

Tile 5's kernel function is tile 0's (the same body, the same payloads and conditions under other names), so its three
runs are tile 0's. -/

/-- The body's first condition: the feature coordinate is 0. -/
abbrev cond5_0 (i : grid5.Coords) : Prop := (Scalar.cmpi .ne (Scalar.extui (Scalar.cmpi .eq (BitVec.ofNat 32 (i 1).val) 0#32)) 0#32) = 1#1
/-- The body's second condition: the feature coordinate is 31. -/
abbrev cond5_1 (i : grid5.Coords) : Prop := k5_cond2 i = 1#1

/-- A MIDDLE feature: the scratch at `acc` ends at `acc + row`. -/
theorem run5_B (c : Dev nD) (i : grid5.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond5_0 i) (hc1 : ¬cond5_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k5_pay2 acc x3)) -∗ K ⟨⟩))
      ⊢ wp frame (wpE (defs₀ (F := F)) Variants.none c none) E (cc5__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run5_A (c : Dev nD) (i : grid5.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond5_0 i) (hc1 : ¬cond5_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k5_pay2 (k5_pay1 (F := F)) x3)) -∗ K ⟨⟩))
      ⊢ wp frame (wpE (defs₀ (F := F)) Variants.none c none) E (cc5__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run5_C (c : Dev nD) (i : grid5.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond5_0 i) (hc1 : cond5_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k5_pay3 (k5_pay2 acc x3) x4 x5 x6)
            ∗ owns (c : Thread nD τ) arg8 fullShare (k5_pay2 acc x3)) -∗ K ⟨⟩))
      ⊢ wp frame (wpE (defs₀ (F := F)) Variants.none c none) E (cc5__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.Kernel.Hand

end
-- ==== Proof.R5BaseBits.lean ====
import proofs.«402893_j78554951844377_2_alg».proof.Proof.Gen.Kernel.Launch
import proofs.«402893_j78554951844377_2_alg».proof.Proof.Gen.Kernel.Skeleton
import proofs.«402893_j78554951844377_2_alg».proof.Proof.R5RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 5: the pipeline at the table the region reads, its blocks and staging buffers

Everything here is stated at a PARAMETER `V`: the contents of the core's buffers when the region is entered. The
region's prefetched table is read off `V`; under the side condition that every word of it names a row of the embedding
table (`Ok5`) the pipeline is pinned at it, and each window's block at a grid point is a restriction of its array. -/

variable (V : (c : Dev nD) → (b : Ref sig .tc) → Buf (Elt F) ((c : Thread nD τ).loc b))

/-- The table's contents when the region is entered (one device). -/
def tbl5 : pre5.Contents (Elt F) := fun j => V (0 : Dev nD) (pre5.ref j)
/-- On every device the table holds those contents (there is one device). -/
theorem V_pre5 (c : Dev nD) (j : Fin 1) : V c (pre5.ref j) = tbl5 V j := by
  obtain rfl : c = 0 := Subsingleton.elim _ _; rfl
/-- Every block the table names lies inside the embedding table. -/
abbrev Ok5 : Prop := ok5 (F := F) (tbl5 V)
/-- The table as admissible contents, and the pipeline pinned at it. -/
abbrev adm5 (hO : Ok5 V) : (pcfg5 (F := F)).Adm := ⟨tbl5 V, hO⟩
abbrev cfgM5 (hO : Ok5 V) : Pipeline.Cfg sig Λ₀ := cfg5 (adm5 V hO)

/-- Window `w`'s block at point `t`, read off its array as the region finds it. -/
def iblk5 (hO : Ok5 V) (c : Dev nD) (w : Fin (cfgM5 V hO).W) (t : Fin (cfgM5 V hO).N) :
    (((cfgM5 V hO).win w).xblock ((cfgM5 V hO).grid.coords t)).Idx → Elt F ((cfgM5 V hO).win w).elt :=
  (((cfgM5 V hO).win w).blk t).view.read (Elt F) (V c (Pipeline.arrRef spec5 w))

/-- An input window's current staging buffer holds its block at every point, fetched there or not, for any proof
    data whose array is `V`'s and whose body leaves the block in place. -/
theorem before5_0_of (hO : Ok5 V) {c : Dev nD} (dat : Dat τ (Elt F) Unit ℕ (UR sig nD τ) ℕ (cfgM5 V hO) c) (hA : dat.A 0 = V c (Pipeline.arrRef spec5 0))
    (hafter : ∀ t, dat.after 0 t = iblk5 V hO c 0 t) (t : Fin (cfgM5 V hO).N) (d) : dat.before 0 t d = iblk5 V hO c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of (hO : Ok5 V) {c : Dev nD} (dat : Dat τ (Elt F) Unit ℕ (UR sig nD τ) ℕ (cfgM5 V hO) c) (hA : dat.A 1 = V c (Pipeline.arrRef spec5 1))
    (hafter : ∀ t, dat.after 1 t = iblk5 V hO c 1 t) (t : Fin (cfgM5 V hO).N) (d) : dat.before 1 t d = iblk5 V hO c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of (hO : Ok5 V) {c : Dev nD} (dat : Dat τ (Elt F) Unit ℕ (UR sig nD τ) ℕ (cfgM5 V hO) c) (hA : dat.A 2 = V c (Pipeline.arrRef spec5 2))
    (hafter : ∀ t, dat.after 2 t = iblk5 V hO c 2 t) (t : Fin (cfgM5 V hO).N) (d) : dat.before 2 t d = iblk5 V hO c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of (hO : Ok5 V) {c : Dev nD} (dat : Dat τ (Elt F) Unit ℕ (UR sig nD τ) ℕ (cfgM5 V hO) c) (hA : dat.A 3 = V c (Pipeline.arrRef spec5 3))
    (hafter : ∀ t, dat.after 3 t = iblk5 V hO c 3 t) (t : Fin (cfgM5 V hO).N) (d) : dat.before 3 t d = iblk5 V hO c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Each window's current staging memref at point `t`, as the pipeline passes it, and its wholeness. -/
abbrev ms5_0 (hO : Ok5 V) (t : Fin (cfgM5 V hO).N) : Memref sig .tc .vmem S1x1x128 .f32 := spec5_0.stage ((cfgM5 V hO).slots t 0)
abbrev hs5_0 (hO : Ok5 V) (t : Fin (cfgM5 V hO).N) : (ms5_0 V hO t).IsWhole := hstage5_0 (((cfgM5 V hO).slots t 0).cast nbuf5_0)
abbrev ms5_1 (hO : Ok5 V) (t : Fin (cfgM5 V hO).N) : Memref sig .tc .vmem S1x1x128 .f32 := spec5_1.stage ((cfgM5 V hO).slots t 1)
abbrev hs5_1 (hO : Ok5 V) (t : Fin (cfgM5 V hO).N) : (ms5_1 V hO t).IsWhole := hstage5_1 (((cfgM5 V hO).slots t 1).cast nbuf5_1)
abbrev ms5_2 (hO : Ok5 V) (t : Fin (cfgM5 V hO).N) : Memref sig .tc .vmem S1x1x128 .f32 := spec5_2.stage ((cfgM5 V hO).slots t 2)
abbrev hs5_2 (hO : Ok5 V) (t : Fin (cfgM5 V hO).N) : (ms5_2 V hO t).IsWhole := hstage5_2 (((cfgM5 V hO).slots t 2).cast nbuf5_2)
abbrev ms5_3 (hO : Ok5 V) (t : Fin (cfgM5 V hO).N) : Memref sig .tc .vmem S1x1x1 .f32 := spec5_3.stage ((cfgM5 V hO).slots t 3)
abbrev hs5_3 (hO : Ok5 V) (t : Fin (cfgM5 V hO).N) : (ms5_3 V hO t).IsWhole := hstage5_3 (((cfgM5 V hO).slots t 3).cast nbuf5_3)
abbrev ms5_4 (hO : Ok5 V) (t : Fin (cfgM5 V hO).N) : Memref sig .tc .vmem S1x1x1 .f32 := spec5_4.stage ((cfgM5 V hO).slots t 4)
abbrev hs5_4 (hO : Ok5 V) (t : Fin (cfgM5 V hO).N) : (ms5_4 V hO t).IsWhole := hstage5_4 (((cfgM5 V hO).slots t 4).cast nbuf5_4)
/-- The scratch operand: a whole scoped buffer of the kernel's own. -/
abbrev scM5 : Memref sig .tc .vmem S1x1x128 .f32 := Memref.whole cc5_scratch0
/-- The table as the body is handed it. -/
abbrev tbM5 : Memref sig .tc .smem S65536 .i32 := Memref.whole main_v66

/-- The kernel body at point `t`, on what the pipeline calls it with. -/
abbrev bodyAt5 (a : (pcfg5 (F := F)).Adm) (t : Fin (cfg5 a).N) : Prog (TpuEff nD τ sig (Elt F) Λ₀ .tc) PUnit :=
  cc5__gather_kernel (grid5.coords t) (Memref.whole main_v66) (Memref.isWhole_whole _) (spec5_0.stage ((cfg5 a).slots t 0)) (hstage5_0 (((cfg5 a).slots t 0).cast nbuf5_0)) (spec5_1.stage ((cfg5 a).slots t 1)) (hstage5_1 (((cfg5 a).slots t 1).cast nbuf5_1)) (spec5_2.stage ((cfg5 a).slots t 2)) (hstage5_2 (((cfg5 a).slots t 2).cast nbuf5_2)) (spec5_3.stage ((cfg5 a).slots t 3)) (hstage5_3 (((cfg5 a).slots t 3).cast nbuf5_3)) (spec5_4.stage ((cfg5 a).slots t 4)) (hstage5_4 (((cfg5 a).slots t 4).cast nbuf5_4)) (Memref.whole cc5_scratch0) (Memref.isWhole_whole _)

/-- Off the last feature the result window is idle: the body stores nothing into it. -/
theorem idleAt5_4 (a : (pcfg5 (F := F)).Adm) (i : grid5.Coords) (h : ¬cond5_1 i) : (cfg5 a).idle 4 i = true := by
  show (!(k5_cond2 i == 1#1)) = true
  simp only [Bool.not_eq_true', beq_eq_false_iff_ne, ne_eq]; exact h
/-- On the last feature it is live. -/
theorem liveAt5_4 (a : (pcfg5 (F := F)).Adm) (i : grid5.Coords) (h : cond5_1 i) : (cfg5 a).idle 4 i = false := by
  show (!(k5_cond2 i == 1#1)) = false
  simp only [Bool.not_eq_false', beq_iff_eq]; exact h
/-- The input windows are never idle. -/
theorem liveAt5_0 (a : (pcfg5 (F := F)).Adm) (i : grid5.Coords) : (cfg5 a).idle 0 i = false := rfl
theorem liveAt5_1 (a : (pcfg5 (F := F)).Adm) (i : grid5.Coords) : (cfg5 a).idle 1 i = false := rfl
theorem liveAt5_2 (a : (pcfg5 (F := F)).Adm) (i : grid5.Coords) : (cfg5 a).idle 2 i = false := rfl
theorem liveAt5_3 (a : (pcfg5 (F := F)).Adm) (i : grid5.Coords) : (cfg5 a).idle 3 i = false := rfl

end Cert.Kernel.Hand

end
-- ==== Proof.R5OkBits.lean ====
/-
  Tile 5: the table the region reads, and the pipeline's side condition on it from the range fact.

  Region 5 is entered with the buffers at the valuation after the host stretch that cuts tile 5's operands. Its prefetched table then
  holds, at flat position `32·i₀ + i₁`, the gathered row number of sample `2048·5 + i₀`, feature `i₁`. When every gathered
  row number is below 786432 (the range fact), every word of the table is, which is the side condition under which the
  pipeline is pinned at the table.
-/
import proofs.«402893_j78554951844377_2_alg».proof.Proof.Gen.Kernel.Regions
import proofs.«402893_j78554951844377_2_alg».proof.Proof.Spec
import proofs.«402893_j78554951844377_2_alg».proof.Proof.R5BaseBits
import proofs.«402893_j78554951844377_2_alg».proof.Proof.OkTablesBits
import proofs.«402893_j78554951844377_2_alg».proof.Proof.KHostBits
import proofs.«402893_j78554951844377_2_alg».proof.Proof.TileLibBits
import Idealize.ShloMosaic.Lib.ValueIdx

noncomputable section

namespace Cert.Kernel.Hand

open Idealize.ShloMosaic Idealize.ShloMosaic.TcCoe
open Cert.Kernel Cert.Kernel.Gen Idealize.ShloMosaic.ValueIdx

variable {F : FTy → Type} [FloatOps F]

/-- The buffers when region 5 is entered: the valuation after the host stretch that cuts tile 5's operands. -/
abbrev V5in (m : (ℓ : Loc nD τ sig) → Buf (Elt F) ℓ) : (c : Dev nD) → (b : Ref sig .tc) → Buf (Elt F) ((c : Thread nD τ).loc b) :=
  fun c b => V15 m (outsL m) c b

variable (m : (ℓ : Loc nD τ sig) → Buf (Elt F) ℓ)

/-- The table word read at grid point `(i₀, i₁)` is the gathered row number of sample `2048·5 + i₀`, feature `i₁`: the
    word sits at flat position `32·i₀ + i₁`, whose quotient and remainder by 32 are `i₀` and `i₁`. -/
theorem tword5_V5in (c : Dev nD) (i : grid5.Coords) :
    tword5 (tbl5 (V5in m)) i
      = Spec.gidxOf (m ((c : Thread nD τ).loc main_arg0)) (m ((c : Thread nD τ).loc main_arg1)) (m ((c : Thread nD τ).loc main_arg2))
          (ValueIdx.ix2 (⟨2048 * 5 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V5in m 0 main_v66 (ValueIdx.ix1 ⟨32 * (i 0).val + (i 1).val, pos_lt5 i⟩) = _
  refine (tbl5_apply m (outsL m) 0 ⟨32 * (i 0).val + (i 1).val, pos_lt5 i⟩).trans ?_
  exact congrArg _ (ix2_congr (by show 2048 * 5 + (32 * (i 0).val + (i 1).val) / 32 = 2048 * 5 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok5_of_inRange (c : Dev nD)
    (hin : Spec.InRange (Spec.gidxOf (m ((c : Thread nD τ).loc main_arg0)) (m ((c : Thread nD τ).loc main_arg1)) (m ((c : Thread nD τ).loc main_arg2)))) :
    Ok5 (V5in m) :=
  ok5_of (tbl5 (V5in m)) fun i => by rw [tword5_V5in m c i]; exact hin _ _

end Cert.Kernel.Hand

end
-- ==== Proof.R5GridBits.lean ====
import proofs.«402893_j78554951844377_2_alg».proof.Proof.R5RunBits
import Idealize.ShloMosaic.Lib.Pipeline.Kit
import Mathlib.Data.Fin.VecNotation

noncomputable section

namespace Cert.Kernel.Hand

open Cert.Kernel Cert.Kernel.Gen
open Idealize.ShloMosaic
open Idealize.ShloMosaic.Pipeline (Cfg Window)

variable {F : FTy → Type} [FloatOps F]

/-! # Tile 5: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride5_0 : grid5.stride 0 = 32 := by decide
/-- The feature coordinate changes at every point. -/
theorem stride5_1 : grid5.stride 1 = 1 := by decide

/-- The sample coordinate of point `t` is `t / 32`: the quotient is below 2048, so reducing it modulo the
    axis's bound changes nothing. -/
theorem coords5_val0 (t : Fin grid5.N) : ((grid5.coords t) 0).val = t.val / 32 := by
  have ht : t.val < 65536 := N_5 ▸ t.isLt
  show t.val / grid5.stride 0 % 2048 = t.val / 32
  rw [stride5_0]; omega

/-- The feature coordinate of point `t` is `t % 32`. -/
theorem coords5_val1 (t : Fin grid5.N) : ((grid5.coords t) 1).val = t.val % 32 := by
  show t.val / grid5.stride 1 % 32 = t.val % 32
  rw [stride5_1, Nat.div_one]

/-- The first condition holds exactly at feature 0: checked at each of the 32 values of the coordinate. -/
theorem cond5_0_iff (i : grid5.Coords) : cond5_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond5_1_iff (i : grid5.Coords) : cond5_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond5_0_first (t : Fin grid5.N) (h : t.val = 0) : cond5_0 (grid5.coords t) := by
  rw [cond5_0_iff, coords5_val1, h]

/-- No feature is both the first and the last. -/
theorem not_both5 (i : grid5.Coords) : cond5_0 i → cond5_1 i → False := by
  rw [cond5_0_iff, cond5_1_iff]; omega

/-- A sample number, made a 32-bit word and read back, is itself. -/
private theorem toNat_ofNat_sample (t : Fin grid5.N) : (BitVec.ofNat 32 ((grid5.coords t) 0).val).toNat = t.val / 32 := by
  have ht : t.val < 65536 := N_5 ▸ t.isLt
  rw [coords5_val0, BitVec.toNat_ofNat, Nat.mod_eq_of_lt (by omega)]

/-- Window 1's block at point `t` is the one of sample `t / 32`. -/
theorem index5_1 (a : (pcfg5 (F := F)).Adm) (t : Fin (cfg5 a).N) : ((cfg5 a).win 1).index t = ![t.val / 32, 0, 0] := by
  show (![(BitVec.ofNat 32 ((grid5.coords t) 0).val).toNat, (0#32).toNat, (0#32).toNat] : Fin 3 → ℕ) = _
  rw [toNat_ofNat_sample]; rfl
/-- Window 2's block at point `t` is the one of sample `t / 32`. -/
theorem index5_2 (a : (pcfg5 (F := F)).Adm) (t : Fin (cfg5 a).N) : ((cfg5 a).win 2).index t = ![t.val / 32, 0, 0] := by
  show (![(BitVec.ofNat 32 ((grid5.coords t) 0).val).toNat, (0#32).toNat, (0#32).toNat] : Fin 3 → ℕ) = _
  rw [toNat_ofNat_sample]; rfl
/-- Window 3's block at point `t` is the one of sample `t / 32`. -/
theorem index5_3 (a : (pcfg5 (F := F)).Adm) (t : Fin (cfg5 a).N) : ((cfg5 a).win 3).index t = ![t.val / 32, 0, 0] := by
  show (![(BitVec.ofNat 32 ((grid5.coords t) 0).val).toNat, (0#32).toNat, (0#32).toNat] : Fin 3 → ℕ) = _
  rw [toNat_ofNat_sample]; rfl
/-- The output window's block at point `t` is the one of sample `t / 32`. -/
theorem index5_4 (a : (pcfg5 (F := F)).Adm) (t : Fin (cfg5 a).N) : ((cfg5 a).win 4).index t = ![t.val / 32, 0, 0] := by
  show (![(BitVec.ofNat 32 ((grid5.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush5_4_iff (a : (pcfg5 (F := F)).Adm) (t : Fin (cfg5 a).N) : ((cfg5 a).win 4).flush t = true ↔ t.val % 32 = 31 := by
  have hN : (cfg5 a).N = 65536 := N_5
  have ht : t.val < 65536 := hN ▸ t.isLt
  have hout : ((cfg5 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index5_4, index5_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg5 a).N := Nat.lt_of_lt_of_eq (by omega : t.val + 1 < 65536) hN.symm
      refine Or.inr ⟨hlt, ?_⟩
      rw [index5_4, index5_4]
      have hne' : (t.val + 1) / 32 ≠ t.val / 32 := by omega
      exact (vec3_ne_iff _ _).mpr hne'

/-- At a sample's last feature the output block is written back. -/
theorem flush5_4 (a : (pcfg5 (F := F)).Adm) (t : Fin (cfg5 a).N) (h : cond5_1 (grid5.coords t)) : ((cfg5 a).win 4).flush t = true := by
  rw [flush5_4_iff, ← coords5_val1]; exact (cond5_1_iff _).mp h

/-- At any other feature the output block stays. -/
theorem noFlush5_4 (a : (pcfg5 (F := F)).Adm) (t : Fin (cfg5 a).N) (h : ¬cond5_1 (grid5.coords t)) : ((cfg5 a).win 4).flush t = false := by
  rw [← Bool.not_eq_true, flush5_4_iff, ← coords5_val1]; exact fun e => h ((cond5_1_iff _).mpr e)

end Cert.Kernel.Hand

end
-- ==== Proof.R5AccBits.lean ====
import proofs.«402893_j78554951844377_2_alg».proof.Proof.Gen.Kernel.Launch
import proofs.«402893_j78554951844377_2_alg».proof.Proof.Gen.Kernel.Skeleton
import proofs.«402893_j78554951844377_2_alg».proof.Proof.R5BaseBits
import proofs.«402893_j78554951844377_2_alg».proof.Proof.R5GridBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 5: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow5 (hO : Ok5 V) (c : Dev nD) (t : Fin (cfgM5 V hO).N) : Vec F S1x1x128 .f32 := iblk5 V hO c 0 t
abbrev xpa5 (hO : Ok5 V) (c : Dev nD) (t : Fin (cfgM5 V hO).N) : Vec F S1x1x128 .f32 := iblk5 V hO c 1 t
abbrev xw5 (hO : Ok5 V) (c : Dev nD) (t : Fin (cfgM5 V hO).N) : Vec F S1x1x128 .f32 := iblk5 V hO c 2 t
abbrev xb5 (hO : Ok5 V) (c : Dev nD) (t : Fin (cfgM5 V hO).N) : Vec F S1x1x1 .f32 := iblk5 V hO c 3 t

/-- THE ACCUMULATION: the scratch after the body at position `n`. -/
def accAt5 (hO : Ok5 V) (c : Dev nD) : (n : ℕ) → n < (cfgM5 V hO).N → Vec F S1x1x128 .f32
  | 0, hn => k5_pay2 (k5_pay1 (F := F)) (xrow5 V hO c ⟨0, hn⟩)
  | n + 1, hn =>
    if cond5_0 (grid5.coords ⟨n + 1, hn⟩) then k5_pay2 (k5_pay1 (F := F)) (xrow5 V hO c ⟨n + 1, hn⟩)
    else k5_pay2 (accAt5 hO c n (Nat.lt_of_succ_lt hn)) (xrow5 V hO c ⟨n + 1, hn⟩)

/-- At a sample's first feature the scratch restarts from zero. -/
theorem accAt5_A (hO : Ok5 V) (c : Dev nD) (t : Fin (cfgM5 V hO).N) (h0 : cond5_0 (grid5.coords t)) :
    accAt5 V hO c t.val t.isLt = k5_pay2 (k5_pay1 (F := F)) (xrow5 V hO c t) := by
  obtain ⟨n, hn⟩ := t
  cases n with
  | zero => rfl
  | succ n => exact if_pos h0

/-- Elsewhere it adds the row to what the point before left. -/
theorem accAt5_B (hO : Ok5 V) (c : Dev nD) (t : Fin (cfgM5 V hO).N) (h0 : ¬cond5_0 (grid5.coords t)) (hz : t.val ≠ 0) :
    accAt5 V hO c t.val t.isLt = k5_pay2 (accAt5 V hO c (t.val - 1) (by omega)) (xrow5 V hO c t) := by
  obtain ⟨n, hn⟩ := t
  cases n with
  | zero => exact absurd rfl hz
  | succ n => exact if_neg h0

/-- The sample's result as the body computes it at a point (read at the last feature). -/
def outAt5 (hO : Ok5 V) (c : Dev nD) (t : Fin (cfgM5 V hO).N) : Vec F S1x1x1 .f32 :=
  k5_pay3 (accAt5 V hO c t.val t.isLt) (xpa5 V hO c t) (xw5 V hO c t) (xb5 V hO c t)

/-- What rides along unread: the other scoped buffers, the generator register, the table. -/
def Rest5 (c : Dev nD) : sProp 𝕄 :=
  iprop(Pipeline.scopedRestBut (Ix := Unit) (Name := ℕ) (U := UR sig nD τ) (Lvl := ℕ) (Val := Elt F) spec5 c [cc5_scratch0]
    ∗ (∃ r, prngReg c r) ∗ Pipeline.prefHeld (Ix := Unit) (Name := ℕ) (U := UR sig nD τ) (Lvl := ℕ) pre5 c (fun _ => fullShare) (tbl5 V))

/-- The region invariant before position `n`: the scratch at anything before the first point, afterwards at what
    the point before left. -/
def PhiS5 (hO : Ok5 V) (c : Dev nD) : (n : ℕ) → n ≤ (cfgM5 V hO).N → sProp 𝕄
  | 0, _ => iprop((∃ d, owns (c : Thread nD τ) scM5 fullShare d) ∗ Rest5 V c)
  | n + 1, hn => iprop(owns (c : Thread nD τ) scM5 fullShare (accAt5 V hO c n hn) ∗ Rest5 V c)

theorem PhiS5_zero (hO : Ok5 V) (c : Dev nD) (n : ℕ) (h : n ≤ (cfgM5 V hO).N) (hz : n = 0) :
    PhiS5 V hO c n h = iprop((∃ d, owns (c : Thread nD τ) scM5 fullShare d) ∗ Rest5 V c) := by
  subst hz; rfl
theorem PhiS5_succ (hO : Ok5 V) (c : Dev nD) (n : ℕ) (hn : n < (cfgM5 V hO).N) :
    PhiS5 V hO c (n + 1) hn = iprop(owns (c : Thread nD τ) scM5 fullShare (accAt5 V hO c n hn) ∗ Rest5 V c) := rfl
theorem PhiS5_pos (hO : Ok5 V) (c : Dev nD) (n : ℕ) (h : n ≤ (cfgM5 V hO).N) (hz : n ≠ 0) :
    PhiS5 V hO c n h = iprop(owns (c : Thread nD τ) scM5 fullShare (accAt5 V hO c (n - 1) (by omega)) ∗ Rest5 V c) := by
  cases n with
  | zero => exact absurd rfl hz
  | succ n => rfl

/-- The proof data of the tile's pipeline on core `c`: the arrays as the region finds them; after the body each input's
    buffer at its block and the result's at `outAt5`; the invariant `PhiS5`; nothing owed; full shares. -/
def dat5 (hO : Ok5 V) (c : Dev nD) : Dat τ (Elt F) Unit ℕ (UR sig nD τ) ℕ (cfgM5 V hO) c where
  A w := V c (Pipeline.arrRef spec5 w)
  after w t := match w with
    | ⟨0, _⟩ => iblk5 V hO c 0 t
    | ⟨1, _⟩ => iblk5 V hO c 1 t
    | ⟨2, _⟩ => iblk5 V hO c 2 t
    | ⟨3, _⟩ => iblk5 V hO c 3 t
    | ⟨4, _⟩ => outAt5 V hO c t
  Φ t := PhiS5 V hO c t.val (Nat.le_of_lt_succ t.isLt)
  q _ := fullShare
  owed _ := 0

theorem A_eq5 (hO : Ok5 V) (c : Dev nD) (w : Fin (cfgM5 V hO).W) : (dat5 V hO c).A w = V c (Pipeline.arrRef spec5 w) := by
  dsimp only [dat5]
theorem PhiS5_castSucc (hO : Ok5 V) (c : Dev nD) (t : Fin (cfgM5 V hO).N) :
    (dat5 V hO c).Φ t.castSucc = PhiS5 V hO c t.val (Nat.le_of_lt t.isLt) := by
  dsimp only [dat5]; simp only [Fin.coe_castSucc]
theorem after5_0 (hO : Ok5 V) (c : Dev nD) (t : Fin (cfgM5 V hO).N) : (dat5 V hO c).after 0 t = iblk5 V hO c 0 t := by dsimp only [dat5]; try rfl
theorem after5_1 (hO : Ok5 V) (c : Dev nD) (t : Fin (cfgM5 V hO).N) : (dat5 V hO c).after 1 t = iblk5 V hO c 1 t := by dsimp only [dat5]; try rfl
theorem after5_2 (hO : Ok5 V) (c : Dev nD) (t : Fin (cfgM5 V hO).N) : (dat5 V hO c).after 2 t = iblk5 V hO c 2 t := by dsimp only [dat5]; try rfl
theorem after5_3 (hO : Ok5 V) (c : Dev nD) (t : Fin (cfgM5 V hO).N) : (dat5 V hO c).after 3 t = iblk5 V hO c 3 t := by dsimp only [dat5]; try rfl
theorem after5_4 (hO : Ok5 V) (c : Dev nD) (t : Fin (cfgM5 V hO).N) : (dat5 V hO c).after 4 t = outAt5 V hO c t := by dsimp only [dat5]; try rfl

theorem before5_0 (hO : Ok5 V) (c : Dev nD) (t : Fin (cfgM5 V hO).N) (d) : (dat5 V hO c).before 0 t d = iblk5 V hO c 0 t :=
  before5_0_of V hO (dat5 V hO c) (A_eq5 V hO c 0) (after5_0 V hO c) t d
theorem before5_1 (hO : Ok5 V) (c : Dev nD) (t : Fin (cfgM5 V hO).N) (d) : (dat5 V hO c).before 1 t d = iblk5 V hO c 1 t :=
  before5_1_of V hO (dat5 V hO c) (A_eq5 V hO c 1) (after5_1 V hO c) t d
theorem before5_2 (hO : Ok5 V) (c : Dev nD) (t : Fin (cfgM5 V hO).N) (d) : (dat5 V hO c).before 2 t d = iblk5 V hO c 2 t :=
  before5_2_of V hO (dat5 V hO c) (A_eq5 V hO c 2) (after5_2 V hO c) t d
theorem before5_3 (hO : Ok5 V) (c : Dev nD) (t : Fin (cfgM5 V hO).N) (d) : (dat5 V hO c).before 3 t d = iblk5 V hO c 3 t :=
  before5_3_of V hO (dat5 V hO c) (A_eq5 V hO c 3) (after5_3 V hO c) t d

/-- What the body is called with at point `t`, the windows one by one, -/
def bodyPre5 (hO : Ok5 V) (c : Dev nD) (t : Fin (cfgM5 V hO).N) : sProp 𝕄 :=
  iprop((dat5 V hO c).Φ t.castSucc ∗ (dat5 V hO c).owesAt () t.castSucc
    ∗ (∃ d, owns (c : Thread nD τ) (ms5_0 V hO t) fullShare ((dat5 V hO c).before 0 t d))
    ∗ (∃ d, owns (c : Thread nD τ) (ms5_1 V hO t) fullShare ((dat5 V hO c).before 1 t d))
    ∗ (∃ d, owns (c : Thread nD τ) (ms5_2 V hO t) fullShare ((dat5 V hO c).before 2 t d))
    ∗ (∃ d, owns (c : Thread nD τ) (ms5_3 V hO t) fullShare ((dat5 V hO c).before 3 t d))
    ∗ (∃ d, owns (c : Thread nD τ) (ms5_4 V hO t) fullShare ((dat5 V hO c).before 4 t d)))

/-- and what it returns. -/
def bodyPost5 (hO : Ok5 V) (c : Dev nD) (t : Fin (cfgM5 V hO).N) : sProp 𝕄 :=
  iprop((dat5 V hO c).Φ t.succ ∗ (dat5 V hO c).owesAt () t.succ
    ∗ (dat5 V hO c).leavesExact 0 t
    ∗ (dat5 V hO c).leavesExact 1 t
    ∗ (dat5 V hO c).leavesExact 2 t
    ∗ (dat5 V hO c).leavesExact 3 t
    ∗ (dat5 V hO c).leavesExact 4 t)

/-- The windows' idle flags at a point, stated at the pinned configuration. -/
theorem liveAtM5_0 (hO : Ok5 V) (t : Fin (cfgM5 V hO).N) : (cfgM5 V hO).idle 0 ((cfgM5 V hO).grid.coords t) = false := rfl
theorem liveAtM5_1 (hO : Ok5 V) (t : Fin (cfgM5 V hO).N) : (cfgM5 V hO).idle 1 ((cfgM5 V hO).grid.coords t) = false := rfl
theorem liveAtM5_2 (hO : Ok5 V) (t : Fin (cfgM5 V hO).N) : (cfgM5 V hO).idle 2 ((cfgM5 V hO).grid.coords t) = false := rfl
theorem liveAtM5_3 (hO : Ok5 V) (t : Fin (cfgM5 V hO).N) : (cfgM5 V hO).idle 3 ((cfgM5 V hO).grid.coords t) = false := rfl
theorem idleAtM5_4 (hO : Ok5 V) (t : Fin (cfgM5 V hO).N) (h : ¬cond5_1 (grid5.coords t)) :
    (cfgM5 V hO).idle 4 ((cfgM5 V hO).grid.coords t) = true := idleAt5_4 (adm5 V hO) (grid5.coords t) h
theorem liveAtM5_4 (hO : Ok5 V) (t : Fin (cfgM5 V hO).N) (h : cond5_1 (grid5.coords t)) :
    (cfgM5 V hO).idle 4 ((cfgM5 V hO).grid.coords t) = false := liveAt5_4 (adm5 V hO) (grid5.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body5 (hO : Ok5 V) (c : Dev nD) (t : Fin (cfgM5 V hO).N) :
    bodyPre5 V hO c t ⊢ wp frame (wpE (defs₀ (F := F)) Variants.none c none) Set.univ (bodyAt5 (adm5 V hO) t) (fun _ => bodyPost5 V hO c t) := by
  unfold bodyPre5 bodyPost5 bodyAt5
  simp only [before5_0, before5_1, before5_2, before5_3]
  rw [show (dat5 V hO c).owesAt () t.succ = (dat5 V hO c).owesAt () t.castSucc from rfl]
  rw [show (dat5 V hO c).Φ t.succ = PhiS5 V hO c (t.val + 1) t.isLt from rfl, PhiS5_succ]
  rw [show (dat5 V hO c).leavesExact 0 t = owns (c : Thread nD τ) (ms5_0 V hO t) fullShare ((dat5 V hO c).after 0 t) from by
    unfold Dat.leavesExact; rw [liveAtM5_0 V hO t]; try rfl]
  rw [after5_0]
  rw [show (dat5 V hO c).leavesExact 1 t = owns (c : Thread nD τ) (ms5_1 V hO t) fullShare ((dat5 V hO c).after 1 t) from by
    unfold Dat.leavesExact; rw [liveAtM5_1 V hO t]; try rfl]
  rw [after5_1]
  rw [show (dat5 V hO c).leavesExact 2 t = owns (c : Thread nD τ) (ms5_2 V hO t) fullShare ((dat5 V hO c).after 2 t) from by
    unfold Dat.leavesExact; rw [liveAtM5_2 V hO t]; try rfl]
  rw [after5_2]
  rw [show (dat5 V hO c).leavesExact 3 t = owns (c : Thread nD τ) (ms5_3 V hO t) fullShare ((dat5 V hO c).after 3 t) from by
    unfold Dat.leavesExact; rw [liveAtM5_3 V hO t]; try rfl]
  rw [after5_3]
  rw [PhiS5_castSucc]
  by_cases h0 : cond5_0 (grid5.coords t)
  · by_cases h1 : cond5_1 (grid5.coords t)
    · exact absurd h1 (fun h => not_both5 _ h0 h)
    · rw [Dat.leavesExact_idle (dat5 V hO c) 4 t (idleAtM5_4 V hO t h1) (noFlush5_4 (adm5 V hO) t h1)]
      rw [accAt5_A V hO c t h0]
      by_cases hz : t.val = 0
      · rw [PhiS5_zero V hO c _ _ hz]
        iintro ⟨⟨HS, HR⟩, Ho, ⟨%d0, H0⟩, ⟨%d1, H1⟩, ⟨%d2, H2⟩, ⟨%d3, H3⟩, ⟨%d4, H4⟩⟩
        iapply (run5_A c (grid5.coords t) _ _ _ _ _ _ _ _ _ _ _ _ _ _ h0 h1 (xrow5 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS5_pos V hO c _ _ hz]
        iintro ⟨⟨HS, HR⟩, Ho, ⟨%d0, H0⟩, ⟨%d1, H1⟩, ⟨%d2, H2⟩, ⟨%d3, H3⟩, ⟨%d4, H4⟩⟩
        iapply (run5_A c (grid5.coords t) _ _ _ _ _ _ _ _ _ _ _ _ _ _ h0 h1 (xrow5 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond5_0_first t hz)
    rw [PhiS5_pos V hO c _ _ hz, accAt5_B V hO c t h0 hz]
    by_cases h1 : cond5_1 (grid5.coords t)
    · rw [show (dat5 V hO c).leavesExact 4 t = owns (c : Thread nD τ) (ms5_4 V hO t) fullShare ((dat5 V hO c).after 4 t) from by
        unfold Dat.leavesExact; rw [liveAtM5_4 V hO t h1]; try rfl]
      rw [after5_4]
      unfold outAt5
      rw [accAt5_B V hO c t h0 hz]
      iintro ⟨⟨HS, HR⟩, Ho, ⟨%d0, H0⟩, ⟨%d1, H1⟩, ⟨%d2, H2⟩, ⟨%d3, H3⟩, ⟨%d4, H4⟩⟩
      iapply (run5_C c (grid5.coords t) _ _ _ _ _ _ _ _ _ _ _ _ _ _ h0 h1 (xrow5 V hO c t) (xpa5 V hO c t) (xw5 V hO c t) (xb5 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat5 V hO c) 4 t (idleAtM5_4 V hO t h1) (noFlush5_4 (adm5 V hO) t h1)]
      iintro ⟨⟨HS, HR⟩, Ho, ⟨%d0, H0⟩, ⟨%d1, H1⟩, ⟨%d2, H2⟩, ⟨%d3, H3⟩, ⟨%d4, H4⟩⟩
      iapply (run5_B c (grid5.coords t) _ _ _ _ _ _ _ _ _ _ _ _ _ _ h0 h1 (xrow5 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (hO : Ok5 V) (c : Dev nD) :
    BodyObligation (dat5 (F := F) V hO c) (defs₀ (F := F)) Variants.none () Set.univ := fun t => by
  rw [bigSep_W5, bigSep_W5]
  exact sound_body5 V hO c t

end Cert.Kernel.Hand

end
-- ==== Proof.R5ValBits.lean ====
import proofs.«402893_j78554951844377_2_alg».proof.Proof.R5AccBits
import proofs.«402893_j78554951844377_2_alg».proof.Proof.R5GridBits
import proofs.«402893_j78554951844377_2_alg».proof.Proof.OkTablesBits
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 5: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt5 (t : Fin grid5.N) : t.val / 32 < 2048 := by
  have ht : t.val < 65536 := N_5 ▸ t.isLt
  omega

/-- The last feature of sample `r` is a point of the grid. -/
theorem lastPt_lt5 (r : ℕ) (hr : r < 2048) : 32 * r + 31 < grid5.N := by rw [N_5]; omega

/-- Under the side condition every word the index map of window 0 reads names a row of the embedding table. -/
theorem tword5_lt (pf : pre5.Contents (Elt F)) (h : ok5 pf) (i : grid5.Coords) : (tword5 pf i).toNat < 786432 := by
  obtain ⟨hb, -⟩ := h i
  have h0 := hb 0
  rw [transform5_eq pf i] at h0
  have h0' : ((tword5 pf i).toNat + 1) * 1 ≤ 786432 := h0
  omega

/-- Window 0's block at point `t` is the row the table's word names. -/
theorem index5_0 (a : (pcfg5 (F := F)).Adm) (t : Fin (cfg5 a).N) :
    ((cfg5 a).win 0).index t = ![(tword5 a.1 (grid5.coords t)).toNat, 0, 0] :=
  transform5_eq a.1 (grid5.coords t)

/-- Lane `l` of window 0's block sits in the embedding table at (the named row, 0, l). -/
theorem emb5_0 (a : (pcfg5 (F := F)).Adm) (t : Fin (cfg5 a).N) (l : Fin 128) :
    (((cfg5 a).win 0).blk t).view.emb (ValueIdx.ix3 (0 : Fin 1) (0 : Fin 1) l)
      = ValueIdx.ix3 (⟨(tword5 a.1 (grid5.coords t)).toNat, tword5_lt a.1 a.2 (grid5.coords t)⟩ : Fin 786432) (0 : Fin 1) l := by
  funext d; apply Fin.ext
  match d with
  | ⟨0, _⟩ => show ((cfg5 a).win 0).index t (0 : Fin 3) * 1 + 1 * 0 = (tword5 a.1 (grid5.coords t)).toNat; rw [index5_0]; show (tword5 a.1 (grid5.coords t)).toNat * 1 + 1 * 0 = _; omega
  | ⟨1, _⟩ => show ((cfg5 a).win 0).index t (1 : Fin 3) * 1 + 1 * 0 = 0; rw [index5_0]; rfl
  | ⟨2, _⟩ => show ((cfg5 a).win 0).index t (2 : Fin 3) * 128 + 1 * l.val = l.val; rw [index5_0]; show 0 * 128 + 1 * l.val = l.val; omega

/-- Lane `l` of window 1's block sits in its array at (sample, 0, l). -/
theorem emb5_1 (a : (pcfg5 (F := F)).Adm) (t : Fin (cfg5 a).N) (l : Fin 128) :
    (((cfg5 a).win 1).blk t).view.emb (ValueIdx.ix3 (0 : Fin 1) (0 : Fin 1) l)
      = ValueIdx.ix3 (⟨t.val / 32, sample_lt5 t⟩ : Fin 2048) (0 : Fin 1) l := by
  funext d; apply Fin.ext
  match d with
  | ⟨0, _⟩ => show ((cfg5 a).win 1).index t (0 : Fin 3) * 1 + 1 * 0 = t.val / 32; rw [index5_1]; show t.val / 32 * 1 + 1 * 0 = _; omega
  | ⟨1, _⟩ => show ((cfg5 a).win 1).index t (1 : Fin 3) * 1 + 1 * 0 = 0; rw [index5_1]; rfl
  | ⟨2, _⟩ => show ((cfg5 a).win 1).index t (2 : Fin 3) * 128 + 1 * l.val = l.val; rw [index5_1]; show 0 * 128 + 1 * l.val = l.val; omega

/-- Lane `l` of window 2's block sits in its array at (sample, 0, l). -/
theorem emb5_2 (a : (pcfg5 (F := F)).Adm) (t : Fin (cfg5 a).N) (l : Fin 128) :
    (((cfg5 a).win 2).blk t).view.emb (ValueIdx.ix3 (0 : Fin 1) (0 : Fin 1) l)
      = ValueIdx.ix3 (⟨t.val / 32, sample_lt5 t⟩ : Fin 2048) (0 : Fin 1) l := by
  funext d; apply Fin.ext
  match d with
  | ⟨0, _⟩ => show ((cfg5 a).win 2).index t (0 : Fin 3) * 1 + 1 * 0 = t.val / 32; rw [index5_2]; show t.val / 32 * 1 + 1 * 0 = _; omega
  | ⟨1, _⟩ => show ((cfg5 a).win 2).index t (1 : Fin 3) * 1 + 1 * 0 = 0; rw [index5_2]; rfl
  | ⟨2, _⟩ => show ((cfg5 a).win 2).index t (2 : Fin 3) * 128 + 1 * l.val = l.val; rw [index5_2]; show 0 * 128 + 1 * l.val = l.val; omega

/-- The one element of window 3's block sits in its array at (sample, 0, 0). -/
theorem emb5_3 (a : (pcfg5 (F := F)).Adm) (t : Fin (cfg5 a).N) :
    (((cfg5 a).win 3).blk t).view.emb (ValueIdx.ix3 (0 : Fin 1) (0 : Fin 1) (0 : Fin 1))
      = ValueIdx.ix3 (⟨t.val / 32, sample_lt5 t⟩ : Fin 2048) (0 : Fin 1) (0 : Fin 1) := by
  funext d; apply Fin.ext
  match d with
  | ⟨0, _⟩ => show ((cfg5 a).win 3).index t (0 : Fin 3) * 1 + 1 * 0 = t.val / 32; rw [index5_3]; show t.val / 32 * 1 + 1 * 0 = _; omega
  | ⟨1, _⟩ => show ((cfg5 a).win 3).index t (1 : Fin 3) * 1 + 1 * 0 = 0; rw [index5_3]; rfl
  | ⟨2, _⟩ => show ((cfg5 a).win 3).index t (2 : Fin 3) * 1 + 1 * 0 = 0; rw [index5_3]; rfl

/-- The one element of the result window's block sits in the result array at (sample, 0, 0). -/
theorem emb5_4 (a : (pcfg5 (F := F)).Adm) (t : Fin (cfg5 a).N) :
    (((cfg5 a).win 4).blk t).view.emb (ValueIdx.ix3 (0 : Fin 1) (0 : Fin 1) (0 : Fin 1))
      = ValueIdx.ix3 (⟨t.val / 32, sample_lt5 t⟩ : Fin 2048) (0 : Fin 1) (0 : Fin 1) := by
  funext d; apply Fin.ext
  match d with
  | ⟨0, _⟩ => show ((cfg5 a).win 4).index t (0 : Fin 3) * 1 + 1 * 0 = t.val / 32; rw [index5_4]; show t.val / 32 * 1 + 1 * 0 = _; omega
  | ⟨1, _⟩ => show ((cfg5 a).win 4).index t (1 : Fin 3) * 1 + 1 * 0 = 0; rw [index5_4]; rfl
  | ⟨2, _⟩ => show ((cfg5 a).win 4).index t (2 : Fin 3) * 1 + 1 * 0 = 0; rw [index5_4]; rfl

section AtTable

variable (V : (c : Dev nD) → (b : Ref sig .tc) → Buf (Elt F) ((c : Thread nD τ).loc b))

/-! ## The input blocks at coordinates -/

/-- The row of the embedding table gathered at point `t`: the table's word there. -/
abbrev rho5 (t : Fin grid5.N) : ℕ := (tword5 (tbl5 V) (grid5.coords t)).toNat

/-- It is a row of the table, under the side condition. -/
theorem rho5_lt (hO : Ok5 V) (t : Fin grid5.N) : rho5 V t < 786432 := tword5_lt (tbl5 V) hO (grid5.coords t)

/-- Lane `l` of the gathered row at point `t` is the embedding table at (the named row, 0, l). -/
theorem xrow5_apply (hO : Ok5 V) (c : Dev nD) (t : Fin (cfgM5 V hO).N) (l : Fin 128) :
    xrow5 V hO c t (ValueIdx.ix3 (0 : Fin 1) (0 : Fin 1) l)
      = V c main_v34 (ValueIdx.ix3 (⟨rho5 V t, rho5_lt V hO t⟩ : Fin 786432) (0 : Fin 1) l) := by
  show V c main_v34 ((((cfgM5 V hO).win 0).blk t).view.emb (ValueIdx.ix3 (0 : Fin 1) (0 : Fin 1) l)) = _
  exact congrArg (V c main_v34) (emb5_0 (adm5 V hO) t l)

/-- Lane `l` of the phase-bias block at point `t` is its array at (sample, 0, l). -/
theorem xpa5_apply (hO : Ok5 V) (c : Dev nD) (t : Fin (cfgM5 V hO).N) (l : Fin 128) :
    xpa5 V hO c t (ValueIdx.ix3 (0 : Fin 1) (0 : Fin 1) l)
      = V c main_v67 (ValueIdx.ix3 (⟨t.val / 32, sample_lt5 t⟩ : Fin 2048) (0 : Fin 1) l) := by
  show V c main_v67 ((((cfgM5 V hO).win 1).blk t).view.emb (ValueIdx.ix3 (0 : Fin 1) (0 : Fin 1) l)) = _
  exact congrArg (V c main_v67) (emb5_1 (adm5 V hO) t l)

/-- Lane `l` of the head-weight block at point `t` is its array at (sample, 0, l). -/
theorem xw5_apply (hO : Ok5 V) (c : Dev nD) (t : Fin (cfgM5 V hO).N) (l : Fin 128) :
    xw5 V hO c t (ValueIdx.ix3 (0 : Fin 1) (0 : Fin 1) l)
      = V c main_v68 (ValueIdx.ix3 (⟨t.val / 32, sample_lt5 t⟩ : Fin 2048) (0 : Fin 1) l) := by
  show V c main_v68 ((((cfgM5 V hO).win 2).blk t).view.emb (ValueIdx.ix3 (0 : Fin 1) (0 : Fin 1) l)) = _
  exact congrArg (V c main_v68) (emb5_2 (adm5 V hO) t l)

/-- The head-bias block at point `t` is its array at (sample, 0, 0). -/
theorem xb5_apply (hO : Ok5 V) (c : Dev nD) (t : Fin (cfgM5 V hO).N) :
    xb5 V hO c t (ValueIdx.ix3 (0 : Fin 1) (0 : Fin 1) (0 : Fin 1))
      = V c main_v69 (ValueIdx.ix3 (⟨t.val / 32, sample_lt5 t⟩ : Fin 2048) (0 : Fin 1) (0 : Fin 1)) := by
  show V c main_v69 ((((cfgM5 V hO).win 3).blk t).view.emb (ValueIdx.ix3 (0 : Fin 1) (0 : Fin 1) (0 : Fin 1))) = _
  exact congrArg (V c main_v69) (emb5_3 (adm5 V hO) t)

/-! ## The arrays after the run -/

/-- An input's array is never written: it ends as the region found it. -/
theorem arrAt5_in (hO : Ok5 V) (c : Dev nD) (w : Fin 5) (hw : w ≠ 4) :
    (dat5 V hO c).arrAt w (cfgM5 V hO).N = V c (Pipeline.arrRef spec5 w) := by
  have hin : ((cfgM5 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat5 V hO c).arrAt_in w hin _).trans (A_eq5 V hO c w)

/-- THE RESULT ARRAY of the tile: row `r` holds what the body left in the result block at sample `r`'s last feature. -/
def tileRes5 (hO : Ok5 V) (c : Dev nD) : Buf (Elt F) ((c : Thread nD τ).loc main_v70) :=
  fun (i : S2048x1x1.Idx) => outAt5 V hO c ⟨32 * (i 0).val + 31, lastPt_lt5 (i 0).val (i 0).isLt⟩ (ValueIdx.ix3 (0 : Fin 1) (0 : Fin 1) (0 : Fin 1))

theorem tileRes5_apply (hO : Ok5 V) (c : Dev nD) (r : Fin 2048) :
    tileRes5 V hO c (ValueIdx.ix3 r (0 : Fin 1) (0 : Fin 1))
      = outAt5 V hO c ⟨32 * r.val + 31, lastPt_lt5 r.val r.isLt⟩ (ValueIdx.ix3 (0 : Fin 1) (0 : Fin 1) (0 : Fin 1)) := rfl

/-- The result block read at two names of one point. -/
theorem outAt5_congr (hO : Ok5 V) (c : Dev nD) {t t' : Fin (cfgM5 V hO).N} (h : t.val = t'.val) (j : S1x1x1.Idx) :
    outAt5 V hO c t j = outAt5 V hO c t' j := by
  obtain rfl : t = t' := Fin.ext h
  rfl

/-- What a write-back writes is the written row of `tileRes5`: the point is its sample's last feature `32 (t / 32) + 31`,
    and the block's one element is the row's. -/
theorem flushed5_4_eq (hO : Ok5 V) (c : Dev nD) (t : Fin (cfgM5 V hO).N) (hf : ((cfgM5 V hO).win 4).flush t = true) :
    (dat5 V hO c).flushed 4 t = (((cfgM5 V hO).win 4).blk t).view.read (Elt F) (tileRes5 V hO c) := by
  have h31 : t.val % 32 = 31 := (flush5_4_iff (adm5 V hO) t).mp hf
  show ((cfgM5 V hO).win 4).cut (grid5.coords t) ((dat5 V hO c).after 4 t) = _
  rw [after5_4]
  funext j
  have hj : (((cfgM5 V hO).win 4).xinj (grid5.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM5 V hO).win 4).blk t).view.emb j : S2048x1x1.Idx) (0 : Fin 3)).val + 31 := by
    have h : (j (0 : Fin 3)).val < 1 := (j (0 : Fin 3)).isLt
    show t.val = 32 * (((cfgM5 V hO).win 4).index t (0 : Fin 3) * 1 + 1 * (j (0 : Fin 3)).val) + 31
    rw [index5_4]
    show t.val = 32 * (t.val / 32 * 1 + 1 * (j (0 : Fin 3)).val) + 31
    omega
  show outAt5 V hO c t (((cfgM5 V hO).win 4).xinj (grid5.coords t) j) = tileRes5 V hO c ((((cfgM5 V hO).win 4).blk t).view.emb j)
  rw [hj]
  exact outAt5_congr V hO c hv _

/-- Every row of the result array is some write-back's block: row `r` is the block of point `32 r + 31`. -/
theorem cover5_4 (hO : Ok5 V) (i : S2048x1x1.Idx) :
    ∃ t : Fin (cfgM5 V hO).N, ((cfgM5 V hO).win 4).flush t = true ∧ i ∈ (((cfgM5 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt5 _ h0⟩, (flush5_4_iff (adm5 V hO) _).mpr (by show (32 * (i 0).val + 31) % 32 = 31; omega), ?_⟩
  have he : (((cfgM5 V hO).win 4).blk ⟨32 * (i 0).val + 31, lastPt_lt5 _ h0⟩).view.emb (ValueIdx.ix3 (0 : Fin 1) (0 : Fin 1) (0 : Fin 1)) = i := by
    refine (emb5_4 (adm5 V hO) ⟨32 * (i 0).val + 31, lastPt_lt5 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM5 V hO).win 4).blk ⟨32 * (i 0).val + 31, lastPt_lt5 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes5`. -/
theorem arrAt5_4 (hO : Ok5 V) (c : Dev nD) : (dat5 V hO c).arrAt 4 (cfgM5 V hO).N = tileRes5 V hO c :=
  (dat5 V hO c).arrAt_eq_of_cover 4 (tileRes5 V hO c) (fun t hf => flushed5_4_eq V hO c t hf) (fun i => cover5_4 V hO i)

end AtTable

end Cert.Kernel.Hand

end
-- ==== Proof.R5SegBits.lean ====
/-
  Tile 5's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 5's admissible contents and
  proof data is ten small facts (`Pinned5`); they hold of tile 5's own (`pinned_dat5`) and so of any family whose
  component 5 is tile 5's (`Pinned5.of_eq`).
-/
import proofs.«402893_j78554951844377_2_alg».proof.Proof.R5AccBits
import proofs.«402893_j78554951844377_2_alg».proof.Proof.FamilyBits
import proofs.«402893_j78554951844377_2_alg».proof.Proof.GlueBits
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 5's contents and proof data -/

variable (Vin : (c : Dev nD) → (b : Ref sig .tc) → Buf (Elt F) ((c : Thread nD τ).loc b))

/-- The scratch operand owned whole at some contents is its buffer held at some contents. -/
theorem scratch5_eq (c : Dev nD) :
    (iprop(∃ d, owns (c : Thread nD τ) scM5 fullShare d) : sProp 𝕄)
      = iprop(∃ f : Buf (Elt F) ((c : Thread nD τ).loc cc5_scratch0), ((c : Thread nD τ).loc cc5_scratch0) ↦{fullShare} f) := by
  simp only [scM5, owns_whole]; try rfl

/-- What the record needs of pipeline 5's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned5 (Vx : Dev nD → Valuation τ sig (Elt F)) (a0 : (pcfgs (F := F) 5).Adm)
    (d0 : (c : Dev nD) → Dat τ (Elt F) Unit ℕ (UR sig nD τ) ℕ ((pcfgs (F := F) 5).at a0) c) : Prop where
  tbl : a0.1 = tbl5 Vin
  q : ∀ (c : Dev nD) w, (d0 c).q w = fullShare
  A : ∀ (c : Dev nD) w, (d0 c).A w = Vin c (Pipeline.arrRef spec5 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM5 fullShare d) ∗ Rest5 Vin c) : sProp 𝕄) ⊢ (d0 c).Φ 0
  phiOut : ∀ c : Dev nD, (d0 c).Φ (Fin.last _) ⊢ (iprop((∃ d, owns (c : Thread nD τ) scM5 fullShare d) ∗ Rest5 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 5).at a0).N = Vx c (Pipeline.arrRef spec5 w)

set_option maxHeartbeats 400000 in
/-- Tile 5's own contents and proof data have them: each field by unfolding the proof data; the last stage of the
    invariant is a later one (the grid has 65536 points), so it holds the scratch at the last point's contents. -/
theorem pinned_dat5 (hO : Ok5 Vin) (Vx : Dev nD → Valuation τ sig (Elt F))
    (hF : ∀ c w, (dat5 Vin hO c).arrAt w (cfgM5 Vin hO).N = Vx c (Pipeline.arrRef spec5 w)) :
    Pinned5 Vin Vx (adm5 Vin hO) (dat5 Vin hO) where
  tbl := rfl
  q c w := rfl
  A c w := A_eq5 Vin hO c w
  owed c t := rfl
  body c := (body_obligation5 Vin hO c).loose
  phiIn c := by
    rw [show (dat5 Vin hO c).Φ 0 = PhiS5 Vin hO c ((0 : Fin ((cfgM5 Vin hO).N + 1)).val) (Nat.le_of_lt_succ (0 : Fin ((cfgM5 Vin hO).N + 1)).isLt) from rfl,
      PhiS5_zero Vin hO c _ _ (Fin.val_zero _)]
  phiOut c := by
    have hN : (Fin.last (cfgM5 Vin hO).N).val ≠ 0 := by
      rw [Fin.val_last, show (cfgM5 Vin hO).N = grid5.N from rfl, N_5]; decide
    show PhiS5 Vin hO c (Fin.last (cfgM5 Vin hO).N).val (Nat.le_of_lt_succ (Fin.last (cfgM5 Vin hO).N).isLt) ⊢ _
    rw [PhiS5_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 5's. -/
theorem Pinned5.of_eq (hO : Ok5 Vin) {Vx : Dev nD → Valuation τ sig (Elt F)} {a0 : (pcfgs (F := F) 5).Adm}
    {d0 : (c : Dev nD) → Dat τ (Elt F) Unit ℕ (UR sig nD τ) ℕ ((pcfgs (F := F) 5).at a0) c}
    (ha : a0 = adm5 Vin hO) (hd : ∀ c, HEq (d0 c) (dat5 Vin hO c)) (h : Pinned5 Vin Vx (adm5 Vin hO) (dat5 Vin hO)) :
    Pinned5 Vin Vx a0 d0 := by
  subst ha
  obtain rfl : d0 = dat5 Vin hO := funext fun c => eq_of_heq (hd c)
  exact h

/-! ## The record -/

set_option backward.isDefEq.respectTransparency.types false in
set_option maxHeartbeats 1600000 in
/-- Tile 5's region over ANY family of pipelines whose component 5 is tile 5's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg5G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok5 Vin) (ha : a 5 = adm5 Vin hO) (hd : ∀ c, HEq (pdats 5 c) (dat5 Vin hO c))
    (hag : ∀ c w, V c (Proc.devRef .tc (Pipeline.arrRef spec5 w)) = Vin c (Pipeline.arrRef spec5 w))
    (hagT : ∀ c j, V c (Proc.devRef .tc (pre5.ref j)) = Vin c (pre5.ref j))
    (hF : ∀ c w, (dat5 Vin hO c).arrAt w (cfgM5 Vin hO).N = Vx c (Pipeline.arrRef spec5 w))
    (hrest : ∀ c b, b ∉ Finset.univ.image (Pipeline.arrRef spec5) → Vx c b = V c b) :
    Pipeline.RegionSeg (pcfgs (F := F)) a pdats () defs₀ Variants.none (fun _ => ∅) (fun _ _ => 0) 5 :=
  have hp : Pinned5 Vin Vx (a 5) (pdats 5) := Pinned5.of_eq Vin hO ha hd (pinned_dat5 Vin hO Vx hF)
  have htbl : ∀ c, (fun k => V c (Proc.devRef .tc ((pcfgs (F := F) 5).pre.ref k))) = (a 5).1 := fun c => by
    rw [hp.tbl]; funext k; exact (hagT c k).trans (V_pre5 Vin c k)
  { win := (launch5 (F := F)).win.to₀
    block_pos := (launch5 (F := F)).block_pos
    stage_whole := (launch5 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 5 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre5 c (fun _ => fullShare) (tbl5 Vin))
    Z := fun c => Pipeline.unscopedRestP (Ix := Unit) (Name := ℕ) (U := UR sig nD τ) (Lvl := ℕ) pre5 spec5 c (fun b => V c b)
    hentry := fun c => by
      rw [Pipeline.ownSems0_none]
      have hsplit := Pipeline.arrays_of_unscopedBufs (p := 5) (pcfgs (F := F)) a pdats (launch5 (F := F)).win (launch5 (F := F)).arr_whole c
        ((pdats 5 c).share_full (hp.q c)) (fun b => V c b) (fun w => (hp.A c w).trans (hag c w).symm)
      rw [Pipeline.unscopedBufs_held, Pipeline.unscopedRest_split (launch5 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 5).spec c : sProp 𝕄) = _ from scopedRest5_split c, hp.tbl]
      refine BIBase.Entails.trans ?_ (hp.phiIn c)
      rw [scratch5_eq]
      unfold Rest5
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 5).spec c : sProp 𝕄) = _ from scopedRest5_split c]
      refine BIBase.Entails.trans (hp.phiOut c) ?_
      rw [scratch5_eq]
      unfold Rest5
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 5) (pcfgs (F := F)) a (Ix := Unit) (Name := ℕ) (U := UR sig nD τ) (Lvl := ℕ)
        (launch5 (F := F)).win (launch5 (F := F)).arr_whole c pdats ((pdats 5 c).share_full (hp.q c))
        (fun b => V c b) (fun b => Vx c b) ((pdats 5 c).arrAt · (Pipeline.pin (pcfgs (F := F)) a 5).N) (hp.fin c) (hrest c)
      rw [Pipeline.unscopedBufs_held, Pipeline.unscopedRest_split (launch5 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 5's record over the assembled families, tile 5's components in slot 5. -/
def reg5 (hO : Ok5 Vin) (V Vx : Dev nD → Valuation τ sig (Elt F))
    (hag : ∀ c w, V c (Proc.devRef .tc (Pipeline.arrRef spec5 w)) = Vin c (Pipeline.arrRef spec5 w))
    (hagT : ∀ c j, V c (Proc.devRef .tc (pre5.ref j)) = Vin c (pre5.ref j))
    (hF : ∀ c w, (dat5 Vin hO c).arrAt w (cfgM5 Vin hO).N = Vx c (Pipeline.arrRef spec5 w))
    (hrest : ∀ c b, b ∉ Finset.univ.image (Pipeline.arrRef spec5) → Vx c b = V c b)
    (a0 : (pcfg0 (F := F)).Adm)
    (a1 : (pcfg1 (F := F)).Adm)
    (a2 : (pcfg2 (F := F)).Adm)
    (a3 : (pcfg3 (F := F)).Adm)
    (a4 : (pcfg4 (F := F)).Adm)
    (a6 : (pcfg6 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d6 : (c : Dev nD) → Dat τ (Elt F) Unit ℕ (UR sig nD τ) ℕ (cfg6 a6) c)
    (d7 : (c : Dev nD) → Dat τ (Elt F) Unit ℕ (UR sig nD τ) ℕ (cfg7 a7) c) :
    Pipeline.RegionSeg (pcfgs (F := F)) (admOf a0 a1 a2 a3 a4 (adm5 Vin hO) a6 a7)
      (pdatsOf a0 a1 a2 a3 a4 (adm5 Vin hO) a6 a7 d0 d1 d2 d3 d4 (dat5 Vin hO) d6 d7) () defs₀ Variants.none (fun _ => ∅) (fun _ _ => 0) 5 :=
  reg5G Vin V Vx _ _ hO rfl (fun _ => HEq.rfl) hag hagT hF hrest

/-- The thread state the record is entered from, -/
theorem reg5_pre (hO : Ok5 Vin) (V Vx : Dev nD → Valuation τ sig (Elt F)) (hag) (hagT) (hF) (hrest) (a0) (a1) (a2) (a3) (a4) (a6) (a7) (d0) (d1) (d2) (d3) (d4) (d6) (d7) (c : Dev nD) :
    (reg5 Vin hO V Vx hag hagT hF hrest a0 a1 a2 a3 a4 a6 a7 d0 d1 d2 d3 d4 d6 d7).pre c
      = iprop(StableHlo.held (c : Thread nD τ) (Pipeline.ucRefs τ sig) (V c) ∗ Rr (F := F) c) := rfl
/-- and the one it leaves. -/
theorem reg5_post (hO : Ok5 Vin) (V Vx : Dev nD → Valuation τ sig (Elt F)) (hag) (hagT) (hF) (hrest) (a0) (a1) (a2) (a3) (a4) (a6) (a7) (d0) (d1) (d2) (d3) (d4) (d6) (d7) (c : Dev nD) :
    (reg5 Vin hO V Vx hag hagT hF hrest a0 a1 a2 a3 a4 a6 a7 d0 d1 d2 d3 d4 d6 d7).post c
      = iprop(StableHlo.held (c : Thread nD τ) (Pipeline.ucRefs τ sig) (Vx c) ∗ Rr (F := F) c) := rfl

end Cert.Kernel.Hand

end
-- ==== Proof.R5AgreeBits.lean ====
import proofs.«402893_j78554951844377_2_alg».proof.Proof.KHostBits
import Idealize.ShloMosaic.Lib.ValueIdx

noncomputable section

namespace Cert.Kernel.Hand

open Cert.Kernel Cert.Kernel.Gen
open Idealize.ShloMosaic Idealize.ShloMosaic.TcCoe

variable {F : FTy → Type} [FloatOps F]

/-! # Tile 5: what the region reads does not depend on what earlier regions left

The table, the embedding table, the three slices and the (not yet written) result array of tile 5 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree5_tbl : V15 m outs c main_v66 = V15 m outs' c main_v66 := by
  funext (j : S65536.Idx)
  obtain ⟨a, rfl⟩ : ∃ a : Fin 65536, j = ValueIdx.ix1 a := ⟨j 0, ValueIdx.eq_ix1 j⟩
  rw [tbl5_apply m outs c, tbl5_apply m outs' c]

theorem agree5_emb : V15 m outs c main_v34 = V15 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb5_apply m outs c, emb5_apply m outs' c]

theorem agree5_pa : V15 m outs c main_v67 = V15 m outs' c main_v67 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa5_apply m outs c, pa5_apply m outs' c]

theorem agree5_w : V15 m outs c main_v68 = V15 m outs' c main_v68 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w5_apply m outs c, w5_apply m outs' c]

theorem agree5_b : V15 m outs c main_v69 = V15 m outs' c main_v69 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b5_apply m outs c, b5_apply m outs' c]

/-- The result array has not been written when the region is entered: it holds its launch contents. -/
theorem entry5_out : V15 m outs c main_v70 = V5 m c main_v70 :=
  (V15_of m outs c main_v70 (by decide)).trans ((V14_of m outs c main_v70 (by decide)).trans ((V13_of m outs c main_v70 (by decide)).trans ((V12_of m outs c main_v70 (by decide)).trans ((V11_of m outs c main_v70 (by decide)).trans ((V10_of m outs c main_v70 (by decide)).trans ((V9_of m outs c main_v70 (by decide)).trans ((V8_of m outs c main_v70 (by decide)).trans ((V7_of m outs c main_v70 (by decide)).trans (V6_of m outs c main_v70 (by decide))))))))))

theorem agree5_out : V15 m outs c main_v70 = V15 m outs' c main_v70 :=
  (entry5_out m outs c).trans (entry5_out m outs' c).symm

end Cert.Kernel.Hand

end
-- ==== Proof.R6RunBits.lean ====
import proofs.«402893_j78554951844377_2_alg».proof.Proof.Gen.Kernel.Launch
import proofs.«402893_j78554951844377_2_alg».proof.Proof.Gen.Kernel.Skeleton
import proofs.«402893_j78554951844377_2_alg».proof.Proof.R0RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 6: the kernel body at one grid point

Tile 6's kernel function is tile 0's (the same body, the same payloads and conditions under other names), so its three
runs are tile 0's. -/

/-- The body's first condition: the feature coordinate is 0. -/
abbrev cond6_0 (i : grid6.Coords) : Prop := (Scalar.cmpi .ne (Scalar.extui (Scalar.cmpi .eq (BitVec.ofNat 32 (i 1).val) 0#32)) 0#32) = 1#1
/-- The body's second condition: the feature coordinate is 31. -/
abbrev cond6_1 (i : grid6.Coords) : Prop := k6_cond2 i = 1#1

/-- A MIDDLE feature: the scratch at `acc` ends at `acc + row`. -/
theorem run6_B (c : Dev nD) (i : grid6.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond6_0 i) (hc1 : ¬cond6_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k6_pay2 acc x3)) -∗ K ⟨⟩))
      ⊢ wp frame (wpE (defs₀ (F := F)) Variants.none c none) E (cc6__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run6_A (c : Dev nD) (i : grid6.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond6_0 i) (hc1 : ¬cond6_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k6_pay2 (k6_pay1 (F := F)) x3)) -∗ K ⟨⟩))
      ⊢ wp frame (wpE (defs₀ (F := F)) Variants.none c none) E (cc6__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run6_C (c : Dev nD) (i : grid6.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond6_0 i) (hc1 : cond6_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k6_pay3 (k6_pay2 acc x3) x4 x5 x6)
            ∗ owns (c : Thread nD τ) arg8 fullShare (k6_pay2 acc x3)) -∗ K ⟨⟩))
      ⊢ wp frame (wpE (defs₀ (F := F)) Variants.none c none) E (cc6__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.Kernel.Hand

end
-- ==== Proof.R6BaseBits.lean ====
import proofs.«402893_j78554951844377_2_alg».proof.Proof.Gen.Kernel.Launch
import proofs.«402893_j78554951844377_2_alg».proof.Proof.Gen.Kernel.Skeleton
import proofs.«402893_j78554951844377_2_alg».proof.Proof.R6RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 6: the pipeline at the table the region reads, its blocks and staging buffers

Everything here is stated at a PARAMETER `V`: the contents of the core's buffers when the region is entered. The
region's prefetched table is read off `V`; under the side condition that every word of it names a row of the embedding
table (`Ok6`) the pipeline is pinned at it, and each window's block at a grid point is a restriction of its array. -/

variable (V : (c : Dev nD) → (b : Ref sig .tc) → Buf (Elt F) ((c : Thread nD τ).loc b))

/-- The table's contents when the region is entered (one device). -/
def tbl6 : pre6.Contents (Elt F) := fun j => V (0 : Dev nD) (pre6.ref j)
/-- On every device the table holds those contents (there is one device). -/
theorem V_pre6 (c : Dev nD) (j : Fin 1) : V c (pre6.ref j) = tbl6 V j := by
  obtain rfl : c = 0 := Subsingleton.elim _ _; rfl
/-- Every block the table names lies inside the embedding table. -/
abbrev Ok6 : Prop := ok6 (F := F) (tbl6 V)
/-- The table as admissible contents, and the pipeline pinned at it. -/
abbrev adm6 (hO : Ok6 V) : (pcfg6 (F := F)).Adm := ⟨tbl6 V, hO⟩
abbrev cfgM6 (hO : Ok6 V) : Pipeline.Cfg sig Λ₀ := cfg6 (adm6 V hO)

/-- Window `w`'s block at point `t`, read off its array as the region finds it. -/
def iblk6 (hO : Ok6 V) (c : Dev nD) (w : Fin (cfgM6 V hO).W) (t : Fin (cfgM6 V hO).N) :
    (((cfgM6 V hO).win w).xblock ((cfgM6 V hO).grid.coords t)).Idx → Elt F ((cfgM6 V hO).win w).elt :=
  (((cfgM6 V hO).win w).blk t).view.read (Elt F) (V c (Pipeline.arrRef spec6 w))

/-- An input window's current staging buffer holds its block at every point, fetched there or not, for any proof
    data whose array is `V`'s and whose body leaves the block in place. -/
theorem before6_0_of (hO : Ok6 V) {c : Dev nD} (dat : Dat τ (Elt F) Unit ℕ (UR sig nD τ) ℕ (cfgM6 V hO) c) (hA : dat.A 0 = V c (Pipeline.arrRef spec6 0))
    (hafter : ∀ t, dat.after 0 t = iblk6 V hO c 0 t) (t : Fin (cfgM6 V hO).N) (d) : dat.before 0 t d = iblk6 V hO c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of (hO : Ok6 V) {c : Dev nD} (dat : Dat τ (Elt F) Unit ℕ (UR sig nD τ) ℕ (cfgM6 V hO) c) (hA : dat.A 1 = V c (Pipeline.arrRef spec6 1))
    (hafter : ∀ t, dat.after 1 t = iblk6 V hO c 1 t) (t : Fin (cfgM6 V hO).N) (d) : dat.before 1 t d = iblk6 V hO c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of (hO : Ok6 V) {c : Dev nD} (dat : Dat τ (Elt F) Unit ℕ (UR sig nD τ) ℕ (cfgM6 V hO) c) (hA : dat.A 2 = V c (Pipeline.arrRef spec6 2))
    (hafter : ∀ t, dat.after 2 t = iblk6 V hO c 2 t) (t : Fin (cfgM6 V hO).N) (d) : dat.before 2 t d = iblk6 V hO c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of (hO : Ok6 V) {c : Dev nD} (dat : Dat τ (Elt F) Unit ℕ (UR sig nD τ) ℕ (cfgM6 V hO) c) (hA : dat.A 3 = V c (Pipeline.arrRef spec6 3))
    (hafter : ∀ t, dat.after 3 t = iblk6 V hO c 3 t) (t : Fin (cfgM6 V hO).N) (d) : dat.before 3 t d = iblk6 V hO c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Each window's current staging memref at point `t`, as the pipeline passes it, and its wholeness. -/
abbrev ms6_0 (hO : Ok6 V) (t : Fin (cfgM6 V hO).N) : Memref sig .tc .vmem S1x1x128 .f32 := spec6_0.stage ((cfgM6 V hO).slots t 0)
abbrev hs6_0 (hO : Ok6 V) (t : Fin (cfgM6 V hO).N) : (ms6_0 V hO t).IsWhole := hstage6_0 (((cfgM6 V hO).slots t 0).cast nbuf6_0)
abbrev ms6_1 (hO : Ok6 V) (t : Fin (cfgM6 V hO).N) : Memref sig .tc .vmem S1x1x128 .f32 := spec6_1.stage ((cfgM6 V hO).slots t 1)
abbrev hs6_1 (hO : Ok6 V) (t : Fin (cfgM6 V hO).N) : (ms6_1 V hO t).IsWhole := hstage6_1 (((cfgM6 V hO).slots t 1).cast nbuf6_1)
abbrev ms6_2 (hO : Ok6 V) (t : Fin (cfgM6 V hO).N) : Memref sig .tc .vmem S1x1x128 .f32 := spec6_2.stage ((cfgM6 V hO).slots t 2)
abbrev hs6_2 (hO : Ok6 V) (t : Fin (cfgM6 V hO).N) : (ms6_2 V hO t).IsWhole := hstage6_2 (((cfgM6 V hO).slots t 2).cast nbuf6_2)
abbrev ms6_3 (hO : Ok6 V) (t : Fin (cfgM6 V hO).N) : Memref sig .tc .vmem S1x1x1 .f32 := spec6_3.stage ((cfgM6 V hO).slots t 3)
abbrev hs6_3 (hO : Ok6 V) (t : Fin (cfgM6 V hO).N) : (ms6_3 V hO t).IsWhole := hstage6_3 (((cfgM6 V hO).slots t 3).cast nbuf6_3)
abbrev ms6_4 (hO : Ok6 V) (t : Fin (cfgM6 V hO).N) : Memref sig .tc .vmem S1x1x1 .f32 := spec6_4.stage ((cfgM6 V hO).slots t 4)
abbrev hs6_4 (hO : Ok6 V) (t : Fin (cfgM6 V hO).N) : (ms6_4 V hO t).IsWhole := hstage6_4 (((cfgM6 V hO).slots t 4).cast nbuf6_4)
/-- The scratch operand: a whole scoped buffer of the kernel's own. -/
abbrev scM6 : Memref sig .tc .vmem S1x1x128 .f32 := Memref.whole cc6_scratch0
/-- The table as the body is handed it. -/
abbrev tbM6 : Memref sig .tc .smem S65536 .i32 := Memref.whole main_v72

/-- The kernel body at point `t`, on what the pipeline calls it with. -/
abbrev bodyAt6 (a : (pcfg6 (F := F)).Adm) (t : Fin (cfg6 a).N) : Prog (TpuEff nD τ sig (Elt F) Λ₀ .tc) PUnit :=
  cc6__gather_kernel (grid6.coords t) (Memref.whole main_v72) (Memref.isWhole_whole _) (spec6_0.stage ((cfg6 a).slots t 0)) (hstage6_0 (((cfg6 a).slots t 0).cast nbuf6_0)) (spec6_1.stage ((cfg6 a).slots t 1)) (hstage6_1 (((cfg6 a).slots t 1).cast nbuf6_1)) (spec6_2.stage ((cfg6 a).slots t 2)) (hstage6_2 (((cfg6 a).slots t 2).cast nbuf6_2)) (spec6_3.stage ((cfg6 a).slots t 3)) (hstage6_3 (((cfg6 a).slots t 3).cast nbuf6_3)) (spec6_4.stage ((cfg6 a).slots t 4)) (hstage6_4 (((cfg6 a).slots t 4).cast nbuf6_4)) (Memref.whole cc6_scratch0) (Memref.isWhole_whole _)

/-- Off the last feature the result window is idle: the body stores nothing into it. -/
theorem idleAt6_4 (a : (pcfg6 (F := F)).Adm) (i : grid6.Coords) (h : ¬cond6_1 i) : (cfg6 a).idle 4 i = true := by
  show (!(k6_cond2 i == 1#1)) = true
  simp only [Bool.not_eq_true', beq_eq_false_iff_ne, ne_eq]; exact h
/-- On the last feature it is live. -/
theorem liveAt6_4 (a : (pcfg6 (F := F)).Adm) (i : grid6.Coords) (h : cond6_1 i) : (cfg6 a).idle 4 i = false := by
  show (!(k6_cond2 i == 1#1)) = false
  simp only [Bool.not_eq_false', beq_iff_eq]; exact h
/-- The input windows are never idle. -/
theorem liveAt6_0 (a : (pcfg6 (F := F)).Adm) (i : grid6.Coords) : (cfg6 a).idle 0 i = false := rfl
theorem liveAt6_1 (a : (pcfg6 (F := F)).Adm) (i : grid6.Coords) : (cfg6 a).idle 1 i = false := rfl
theorem liveAt6_2 (a : (pcfg6 (F := F)).Adm) (i : grid6.Coords) : (cfg6 a).idle 2 i = false := rfl
theorem liveAt6_3 (a : (pcfg6 (F := F)).Adm) (i : grid6.Coords) : (cfg6 a).idle 3 i = false := rfl

end Cert.Kernel.Hand

end
-- ==== Proof.R6OkBits.lean ====
/-
  Tile 6: the table the region reads, and the pipeline's side condition on it from the range fact.

  Region 6 is entered with the buffers at the valuation after the host stretch that cuts tile 6's operands. Its prefetched table then
  holds, at flat position `32·i₀ + i₁`, the gathered row number of sample `2048·6 + i₀`, feature `i₁`. When every gathered
  row number is below 786432 (the range fact), every word of the table is, which is the side condition under which the
  pipeline is pinned at the table.
-/
import proofs.«402893_j78554951844377_2_alg».proof.Proof.Gen.Kernel.Regions
import proofs.«402893_j78554951844377_2_alg».proof.Proof.Spec
import proofs.«402893_j78554951844377_2_alg».proof.Proof.R6BaseBits
import proofs.«402893_j78554951844377_2_alg».proof.Proof.OkTablesBits
import proofs.«402893_j78554951844377_2_alg».proof.Proof.KHostBits
import proofs.«402893_j78554951844377_2_alg».proof.Proof.TileLibBits
import Idealize.ShloMosaic.Lib.ValueIdx

noncomputable section

namespace Cert.Kernel.Hand

open Idealize.ShloMosaic Idealize.ShloMosaic.TcCoe
open Cert.Kernel Cert.Kernel.Gen Idealize.ShloMosaic.ValueIdx

variable {F : FTy → Type} [FloatOps F]

/-- The buffers when region 6 is entered: the valuation after the host stretch that cuts tile 6's operands. -/
abbrev V6in (m : (ℓ : Loc nD τ sig) → Buf (Elt F) ℓ) : (c : Dev nD) → (b : Ref sig .tc) → Buf (Elt F) ((c : Thread nD τ).loc b) :=
  fun c b => V17 m (outsL m) c b

variable (m : (ℓ : Loc nD τ sig) → Buf (Elt F) ℓ)

/-- The table word read at grid point `(i₀, i₁)` is the gathered row number of sample `2048·6 + i₀`, feature `i₁`: the
    word sits at flat position `32·i₀ + i₁`, whose quotient and remainder by 32 are `i₀` and `i₁`. -/
theorem tword6_V6in (c : Dev nD) (i : grid6.Coords) :
    tword6 (tbl6 (V6in m)) i
      = Spec.gidxOf (m ((c : Thread nD τ).loc main_arg0)) (m ((c : Thread nD τ).loc main_arg1)) (m ((c : Thread nD τ).loc main_arg2))
          (ValueIdx.ix2 (⟨2048 * 6 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V6in m 0 main_v72 (ValueIdx.ix1 ⟨32 * (i 0).val + (i 1).val, pos_lt6 i⟩) = _
  refine (tbl6_apply m (outsL m) 0 ⟨32 * (i 0).val + (i 1).val, pos_lt6 i⟩).trans ?_
  exact congrArg _ (ix2_congr (by show 2048 * 6 + (32 * (i 0).val + (i 1).val) / 32 = 2048 * 6 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok6_of_inRange (c : Dev nD)
    (hin : Spec.InRange (Spec.gidxOf (m ((c : Thread nD τ).loc main_arg0)) (m ((c : Thread nD τ).loc main_arg1)) (m ((c : Thread nD τ).loc main_arg2)))) :
    Ok6 (V6in m) :=
  ok6_of (tbl6 (V6in m)) fun i => by rw [tword6_V6in m c i]; exact hin _ _

end Cert.Kernel.Hand

end
-- ==== Proof.R6GridBits.lean ====
import proofs.«402893_j78554951844377_2_alg».proof.Proof.R6RunBits
import Idealize.ShloMosaic.Lib.Pipeline.Kit
import Mathlib.Data.Fin.VecNotation

noncomputable section

namespace Cert.Kernel.Hand

open Cert.Kernel Cert.Kernel.Gen
open Idealize.ShloMosaic
open Idealize.ShloMosaic.Pipeline (Cfg Window)

variable {F : FTy → Type} [FloatOps F]

/-! # Tile 6: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride6_0 : grid6.stride 0 = 32 := by decide
/-- The feature coordinate changes at every point. -/
theorem stride6_1 : grid6.stride 1 = 1 := by decide

/-- The sample coordinate of point `t` is `t / 32`: the quotient is below 2048, so reducing it modulo the
    axis's bound changes nothing. -/
theorem coords6_val0 (t : Fin grid6.N) : ((grid6.coords t) 0).val = t.val / 32 := by
  have ht : t.val < 65536 := N_6 ▸ t.isLt
  show t.val / grid6.stride 0 % 2048 = t.val / 32
  rw [stride6_0]; omega

/-- The feature coordinate of point `t` is `t % 32`. -/
theorem coords6_val1 (t : Fin grid6.N) : ((grid6.coords t) 1).val = t.val % 32 := by
  show t.val / grid6.stride 1 % 32 = t.val % 32
  rw [stride6_1, Nat.div_one]

/-- The first condition holds exactly at feature 0: checked at each of the 32 values of the coordinate. -/
theorem cond6_0_iff (i : grid6.Coords) : cond6_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond6_1_iff (i : grid6.Coords) : cond6_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond6_0_first (t : Fin grid6.N) (h : t.val = 0) : cond6_0 (grid6.coords t) := by
  rw [cond6_0_iff, coords6_val1, h]

/-- No feature is both the first and the last. -/
theorem not_both6 (i : grid6.Coords) : cond6_0 i → cond6_1 i → False := by
  rw [cond6_0_iff, cond6_1_iff]; omega

/-- A sample number, made a 32-bit word and read back, is itself. -/
private theorem toNat_ofNat_sample (t : Fin grid6.N) : (BitVec.ofNat 32 ((grid6.coords t) 0).val).toNat = t.val / 32 := by
  have ht : t.val < 65536 := N_6 ▸ t.isLt
  rw [coords6_val0, BitVec.toNat_ofNat, Nat.mod_eq_of_lt (by omega)]

/-- Window 1's block at point `t` is the one of sample `t / 32`. -/
theorem index6_1 (a : (pcfg6 (F := F)).Adm) (t : Fin (cfg6 a).N) : ((cfg6 a).win 1).index t = ![t.val / 32, 0, 0] := by
  show (![(BitVec.ofNat 32 ((grid6.coords t) 0).val).toNat, (0#32).toNat, (0#32).toNat] : Fin 3 → ℕ) = _
  rw [toNat_ofNat_sample]; rfl
/-- Window 2's block at point `t` is the one of sample `t / 32`. -/
theorem index6_2 (a : (pcfg6 (F := F)).Adm) (t : Fin (cfg6 a).N) : ((cfg6 a).win 2).index t = ![t.val / 32, 0, 0] := by
  show (![(BitVec.ofNat 32 ((grid6.coords t) 0).val).toNat, (0#32).toNat, (0#32).toNat] : Fin 3 → ℕ) = _
  rw [toNat_ofNat_sample]; rfl
/-- Window 3's block at point `t` is the one of sample `t / 32`. -/
theorem index6_3 (a : (pcfg6 (F := F)).Adm) (t : Fin (cfg6 a).N) : ((cfg6 a).win 3).index t = ![t.val / 32, 0, 0] := by
  show (![(BitVec.ofNat 32 ((grid6.coords t) 0).val).toNat, (0#32).toNat, (0#32).toNat] : Fin 3 → ℕ) = _
  rw [toNat_ofNat_sample]; rfl
/-- The output window's block at point `t` is the one of sample `t / 32`. -/
theorem index6_4 (a : (pcfg6 (F := F)).Adm) (t : Fin (cfg6 a).N) : ((cfg6 a).win 4).index t = ![t.val / 32, 0, 0] := by
  show (![(BitVec.ofNat 32 ((grid6.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush6_4_iff (a : (pcfg6 (F := F)).Adm) (t : Fin (cfg6 a).N) : ((cfg6 a).win 4).flush t = true ↔ t.val % 32 = 31 := by
  have hN : (cfg6 a).N = 65536 := N_6
  have ht : t.val < 65536 := hN ▸ t.isLt
  have hout : ((cfg6 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index6_4, index6_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg6 a).N := Nat.lt_of_lt_of_eq (by omega : t.val + 1 < 65536) hN.symm
      refine Or.inr ⟨hlt, ?_⟩
      rw [index6_4, index6_4]
      have hne' : (t.val + 1) / 32 ≠ t.val / 32 := by omega
      exact (vec3_ne_iff _ _).mpr hne'

/-- At a sample's last feature the output block is written back. -/
theorem flush6_4 (a : (pcfg6 (F := F)).Adm) (t : Fin (cfg6 a).N) (h : cond6_1 (grid6.coords t)) : ((cfg6 a).win 4).flush t = true := by
  rw [flush6_4_iff, ← coords6_val1]; exact (cond6_1_iff _).mp h

/-- At any other feature the output block stays. -/
theorem noFlush6_4 (a : (pcfg6 (F := F)).Adm) (t : Fin (cfg6 a).N) (h : ¬cond6_1 (grid6.coords t)) : ((cfg6 a).win 4).flush t = false := by
  rw [← Bool.not_eq_true, flush6_4_iff, ← coords6_val1]; exact fun e => h ((cond6_1_iff _).mpr e)

end Cert.Kernel.Hand

end
-- ==== Proof.R6AccBits.lean ====
import proofs.«402893_j78554951844377_2_alg».proof.Proof.Gen.Kernel.Launch
import proofs.«402893_j78554951844377_2_alg».proof.Proof.Gen.Kernel.Skeleton
import proofs.«402893_j78554951844377_2_alg».proof.Proof.R6BaseBits
import proofs.«402893_j78554951844377_2_alg».proof.Proof.R6GridBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 6: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow6 (hO : Ok6 V) (c : Dev nD) (t : Fin (cfgM6 V hO).N) : Vec F S1x1x128 .f32 := iblk6 V hO c 0 t
abbrev xpa6 (hO : Ok6 V) (c : Dev nD) (t : Fin (cfgM6 V hO).N) : Vec F S1x1x128 .f32 := iblk6 V hO c 1 t
abbrev xw6 (hO : Ok6 V) (c : Dev nD) (t : Fin (cfgM6 V hO).N) : Vec F S1x1x128 .f32 := iblk6 V hO c 2 t
abbrev xb6 (hO : Ok6 V) (c : Dev nD) (t : Fin (cfgM6 V hO).N) : Vec F S1x1x1 .f32 := iblk6 V hO c 3 t

/-- THE ACCUMULATION: the scratch after the body at position `n`. -/
def accAt6 (hO : Ok6 V) (c : Dev nD) : (n : ℕ) → n < (cfgM6 V hO).N → Vec F S1x1x128 .f32
  | 0, hn => k6_pay2 (k6_pay1 (F := F)) (xrow6 V hO c ⟨0, hn⟩)
  | n + 1, hn =>
    if cond6_0 (grid6.coords ⟨n + 1, hn⟩) then k6_pay2 (k6_pay1 (F := F)) (xrow6 V hO c ⟨n + 1, hn⟩)
    else k6_pay2 (accAt6 hO c n (Nat.lt_of_succ_lt hn)) (xrow6 V hO c ⟨n + 1, hn⟩)

/-- At a sample's first feature the scratch restarts from zero. -/
theorem accAt6_A (hO : Ok6 V) (c : Dev nD) (t : Fin (cfgM6 V hO).N) (h0 : cond6_0 (grid6.coords t)) :
    accAt6 V hO c t.val t.isLt = k6_pay2 (k6_pay1 (F := F)) (xrow6 V hO c t) := by
  obtain ⟨n, hn⟩ := t
  cases n with
  | zero => rfl
  | succ n => exact if_pos h0

/-- Elsewhere it adds the row to what the point before left. -/
theorem accAt6_B (hO : Ok6 V) (c : Dev nD) (t : Fin (cfgM6 V hO).N) (h0 : ¬cond6_0 (grid6.coords t)) (hz : t.val ≠ 0) :
    accAt6 V hO c t.val t.isLt = k6_pay2 (accAt6 V hO c (t.val - 1) (by omega)) (xrow6 V hO c t) := by
  obtain ⟨n, hn⟩ := t
  cases n with
  | zero => exact absurd rfl hz
  | succ n => exact if_neg h0

/-- The sample's result as the body computes it at a point (read at the last feature). -/
def outAt6 (hO : Ok6 V) (c : Dev nD) (t : Fin (cfgM6 V hO).N) : Vec F S1x1x1 .f32 :=
  k6_pay3 (accAt6 V hO c t.val t.isLt) (xpa6 V hO c t) (xw6 V hO c t) (xb6 V hO c t)

/-- What rides along unread: the other scoped buffers, the generator register, the table. -/
def Rest6 (c : Dev nD) : sProp 𝕄 :=
  iprop(Pipeline.scopedRestBut (Ix := Unit) (Name := ℕ) (U := UR sig nD τ) (Lvl := ℕ) (Val := Elt F) spec6 c [cc6_scratch0]
    ∗ (∃ r, prngReg c r) ∗ Pipeline.prefHeld (Ix := Unit) (Name := ℕ) (U := UR sig nD τ) (Lvl := ℕ) pre6 c (fun _ => fullShare) (tbl6 V))

/-- The region invariant before position `n`: the scratch at anything before the first point, afterwards at what
    the point before left. -/
def PhiS6 (hO : Ok6 V) (c : Dev nD) : (n : ℕ) → n ≤ (cfgM6 V hO).N → sProp 𝕄
  | 0, _ => iprop((∃ d, owns (c : Thread nD τ) scM6 fullShare d) ∗ Rest6 V c)
  | n + 1, hn => iprop(owns (c : Thread nD τ) scM6 fullShare (accAt6 V hO c n hn) ∗ Rest6 V c)

theorem PhiS6_zero (hO : Ok6 V) (c : Dev nD) (n : ℕ) (h : n ≤ (cfgM6 V hO).N) (hz : n = 0) :
    PhiS6 V hO c n h = iprop((∃ d, owns (c : Thread nD τ) scM6 fullShare d) ∗ Rest6 V c) := by
  subst hz; rfl
theorem PhiS6_succ (hO : Ok6 V) (c : Dev nD) (n : ℕ) (hn : n < (cfgM6 V hO).N) :
    PhiS6 V hO c (n + 1) hn = iprop(owns (c : Thread nD τ) scM6 fullShare (accAt6 V hO c n hn) ∗ Rest6 V c) := rfl
theorem PhiS6_pos (hO : Ok6 V) (c : Dev nD) (n : ℕ) (h : n ≤ (cfgM6 V hO).N) (hz : n ≠ 0) :
    PhiS6 V hO c n h = iprop(owns (c : Thread nD τ) scM6 fullShare (accAt6 V hO c (n - 1) (by omega)) ∗ Rest6 V c) := by
  cases n with
  | zero => exact absurd rfl hz
  | succ n => rfl

/-- The proof data of the tile's pipeline on core `c`: the arrays as the region finds them; after the body each input's
    buffer at its block and the result's at `outAt6`; the invariant `PhiS6`; nothing owed; full shares. -/
def dat6 (hO : Ok6 V) (c : Dev nD) : Dat τ (Elt F) Unit ℕ (UR sig nD τ) ℕ (cfgM6 V hO) c where
  A w := V c (Pipeline.arrRef spec6 w)
  after w t := match w with
    | ⟨0, _⟩ => iblk6 V hO c 0 t
    | ⟨1, _⟩ => iblk6 V hO c 1 t
    | ⟨2, _⟩ => iblk6 V hO c 2 t
    | ⟨3, _⟩ => iblk6 V hO c 3 t
    | ⟨4, _⟩ => outAt6 V hO c t
  Φ t := PhiS6 V hO c t.val (Nat.le_of_lt_succ t.isLt)
  q _ := fullShare
  owed _ := 0

theorem A_eq6 (hO : Ok6 V) (c : Dev nD) (w : Fin (cfgM6 V hO).W) : (dat6 V hO c).A w = V c (Pipeline.arrRef spec6 w) := by
  dsimp only [dat6]
theorem PhiS6_castSucc (hO : Ok6 V) (c : Dev nD) (t : Fin (cfgM6 V hO).N) :
    (dat6 V hO c).Φ t.castSucc = PhiS6 V hO c t.val (Nat.le_of_lt t.isLt) := by
  dsimp only [dat6]; simp only [Fin.coe_castSucc]
theorem after6_0 (hO : Ok6 V) (c : Dev nD) (t : Fin (cfgM6 V hO).N) : (dat6 V hO c).after 0 t = iblk6 V hO c 0 t := by dsimp only [dat6]; try rfl
theorem after6_1 (hO : Ok6 V) (c : Dev nD) (t : Fin (cfgM6 V hO).N) : (dat6 V hO c).after 1 t = iblk6 V hO c 1 t := by dsimp only [dat6]; try rfl
theorem after6_2 (hO : Ok6 V) (c : Dev nD) (t : Fin (cfgM6 V hO).N) : (dat6 V hO c).after 2 t = iblk6 V hO c 2 t := by dsimp only [dat6]; try rfl
theorem after6_3 (hO : Ok6 V) (c : Dev nD) (t : Fin (cfgM6 V hO).N) : (dat6 V hO c).after 3 t = iblk6 V hO c 3 t := by dsimp only [dat6]; try rfl
theorem after6_4 (hO : Ok6 V) (c : Dev nD) (t : Fin (cfgM6 V hO).N) : (dat6 V hO c).after 4 t = outAt6 V hO c t := by dsimp only [dat6]; try rfl

theorem before6_0 (hO : Ok6 V) (c : Dev nD) (t : Fin (cfgM6 V hO).N) (d) : (dat6 V hO c).before 0 t d = iblk6 V hO c 0 t :=
  before6_0_of V hO (dat6 V hO c) (A_eq6 V hO c 0) (after6_0 V hO c) t d
theorem before6_1 (hO : Ok6 V) (c : Dev nD) (t : Fin (cfgM6 V hO).N) (d) : (dat6 V hO c).before 1 t d = iblk6 V hO c 1 t :=
  before6_1_of V hO (dat6 V hO c) (A_eq6 V hO c 1) (after6_1 V hO c) t d
theorem before6_2 (hO : Ok6 V) (c : Dev nD) (t : Fin (cfgM6 V hO).N) (d) : (dat6 V hO c).before 2 t d = iblk6 V hO c 2 t :=
  before6_2_of V hO (dat6 V hO c) (A_eq6 V hO c 2) (after6_2 V hO c) t d
theorem before6_3 (hO : Ok6 V) (c : Dev nD) (t : Fin (cfgM6 V hO).N) (d) : (dat6 V hO c).before 3 t d = iblk6 V hO c 3 t :=
  before6_3_of V hO (dat6 V hO c) (A_eq6 V hO c 3) (after6_3 V hO c) t d

/-- What the body is called with at point `t`, the windows one by one, -/
def bodyPre6 (hO : Ok6 V) (c : Dev nD) (t : Fin (cfgM6 V hO).N) : sProp 𝕄 :=
  iprop((dat6 V hO c).Φ t.castSucc ∗ (dat6 V hO c).owesAt () t.castSucc
    ∗ (∃ d, owns (c : Thread nD τ) (ms6_0 V hO t) fullShare ((dat6 V hO c).before 0 t d))
    ∗ (∃ d, owns (c : Thread nD τ) (ms6_1 V hO t) fullShare ((dat6 V hO c).before 1 t d))
    ∗ (∃ d, owns (c : Thread nD τ) (ms6_2 V hO t) fullShare ((dat6 V hO c).before 2 t d))
    ∗ (∃ d, owns (c : Thread nD τ) (ms6_3 V hO t) fullShare ((dat6 V hO c).before 3 t d))
    ∗ (∃ d, owns (c : Thread nD τ) (ms6_4 V hO t) fullShare ((dat6 V hO c).before 4 t d)))

/-- and what it returns. -/
def bodyPost6 (hO : Ok6 V) (c : Dev nD) (t : Fin (cfgM6 V hO).N) : sProp 𝕄 :=
  iprop((dat6 V hO c).Φ t.succ ∗ (dat6 V hO c).owesAt () t.succ
    ∗ (dat6 V hO c).leavesExact 0 t
    ∗ (dat6 V hO c).leavesExact 1 t
    ∗ (dat6 V hO c).leavesExact 2 t
    ∗ (dat6 V hO c).leavesExact 3 t
    ∗ (dat6 V hO c).leavesExact 4 t)

/-- The windows' idle flags at a point, stated at the pinned configuration. -/
theorem liveAtM6_0 (hO : Ok6 V) (t : Fin (cfgM6 V hO).N) : (cfgM6 V hO).idle 0 ((cfgM6 V hO).grid.coords t) = false := rfl
theorem liveAtM6_1 (hO : Ok6 V) (t : Fin (cfgM6 V hO).N) : (cfgM6 V hO).idle 1 ((cfgM6 V hO).grid.coords t) = false := rfl
theorem liveAtM6_2 (hO : Ok6 V) (t : Fin (cfgM6 V hO).N) : (cfgM6 V hO).idle 2 ((cfgM6 V hO).grid.coords t) = false := rfl
theorem liveAtM6_3 (hO : Ok6 V) (t : Fin (cfgM6 V hO).N) : (cfgM6 V hO).idle 3 ((cfgM6 V hO).grid.coords t) = false := rfl
theorem idleAtM6_4 (hO : Ok6 V) (t : Fin (cfgM6 V hO).N) (h : ¬cond6_1 (grid6.coords t)) :
    (cfgM6 V hO).idle 4 ((cfgM6 V hO).grid.coords t) = true := idleAt6_4 (adm6 V hO) (grid6.coords t) h
theorem liveAtM6_4 (hO : Ok6 V) (t : Fin (cfgM6 V hO).N) (h : cond6_1 (grid6.coords t)) :
    (cfgM6 V hO).idle 4 ((cfgM6 V hO).grid.coords t) = false := liveAt6_4 (adm6 V hO) (grid6.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body6 (hO : Ok6 V) (c : Dev nD) (t : Fin (cfgM6 V hO).N) :
    bodyPre6 V hO c t ⊢ wp frame (wpE (defs₀ (F := F)) Variants.none c none) Set.univ (bodyAt6 (adm6 V hO) t) (fun _ => bodyPost6 V hO c t) := by
  unfold bodyPre6 bodyPost6 bodyAt6
  simp only [before6_0, before6_1, before6_2, before6_3]
  rw [show (dat6 V hO c).owesAt () t.succ = (dat6 V hO c).owesAt () t.castSucc from rfl]
  rw [show (dat6 V hO c).Φ t.succ = PhiS6 V hO c (t.val + 1) t.isLt from rfl, PhiS6_succ]
  rw [show (dat6 V hO c).leavesExact 0 t = owns (c : Thread nD τ) (ms6_0 V hO t) fullShare ((dat6 V hO c).after 0 t) from by
    unfold Dat.leavesExact; rw [liveAtM6_0 V hO t]; try rfl]
  rw [after6_0]
  rw [show (dat6 V hO c).leavesExact 1 t = owns (c : Thread nD τ) (ms6_1 V hO t) fullShare ((dat6 V hO c).after 1 t) from by
    unfold Dat.leavesExact; rw [liveAtM6_1 V hO t]; try rfl]
  rw [after6_1]
  rw [show (dat6 V hO c).leavesExact 2 t = owns (c : Thread nD τ) (ms6_2 V hO t) fullShare ((dat6 V hO c).after 2 t) from by
    unfold Dat.leavesExact; rw [liveAtM6_2 V hO t]; try rfl]
  rw [after6_2]
  rw [show (dat6 V hO c).leavesExact 3 t = owns (c : Thread nD τ) (ms6_3 V hO t) fullShare ((dat6 V hO c).after 3 t) from by
    unfold Dat.leavesExact; rw [liveAtM6_3 V hO t]; try rfl]
  rw [after6_3]
  rw [PhiS6_castSucc]
  by_cases h0 : cond6_0 (grid6.coords t)
  · by_cases h1 : cond6_1 (grid6.coords t)
    · exact absurd h1 (fun h => not_both6 _ h0 h)
    · rw [Dat.leavesExact_idle (dat6 V hO c) 4 t (idleAtM6_4 V hO t h1) (noFlush6_4 (adm6 V hO) t h1)]
      rw [accAt6_A V hO c t h0]
      by_cases hz : t.val = 0
      · rw [PhiS6_zero V hO c _ _ hz]
        iintro ⟨⟨HS, HR⟩, Ho, ⟨%d0, H0⟩, ⟨%d1, H1⟩, ⟨%d2, H2⟩, ⟨%d3, H3⟩, ⟨%d4, H4⟩⟩
        iapply (run6_A c (grid6.coords t) _ _ _ _ _ _ _ _ _ _ _ _ _ _ h0 h1 (xrow6 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS6_pos V hO c _ _ hz]
        iintro ⟨⟨HS, HR⟩, Ho, ⟨%d0, H0⟩, ⟨%d1, H1⟩, ⟨%d2, H2⟩, ⟨%d3, H3⟩, ⟨%d4, H4⟩⟩
        iapply (run6_A c (grid6.coords t) _ _ _ _ _ _ _ _ _ _ _ _ _ _ h0 h1 (xrow6 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond6_0_first t hz)
    rw [PhiS6_pos V hO c _ _ hz, accAt6_B V hO c t h0 hz]
    by_cases h1 : cond6_1 (grid6.coords t)
    · rw [show (dat6 V hO c).leavesExact 4 t = owns (c : Thread nD τ) (ms6_4 V hO t) fullShare ((dat6 V hO c).after 4 t) from by
        unfold Dat.leavesExact; rw [liveAtM6_4 V hO t h1]; try rfl]
      rw [after6_4]
      unfold outAt6
      rw [accAt6_B V hO c t h0 hz]
      iintro ⟨⟨HS, HR⟩, Ho, ⟨%d0, H0⟩, ⟨%d1, H1⟩, ⟨%d2, H2⟩, ⟨%d3, H3⟩, ⟨%d4, H4⟩⟩
      iapply (run6_C c (grid6.coords t) _ _ _ _ _ _ _ _ _ _ _ _ _ _ h0 h1 (xrow6 V hO c t) (xpa6 V hO c t) (xw6 V hO c t) (xb6 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat6 V hO c) 4 t (idleAtM6_4 V hO t h1) (noFlush6_4 (adm6 V hO) t h1)]
      iintro ⟨⟨HS, HR⟩, Ho, ⟨%d0, H0⟩, ⟨%d1, H1⟩, ⟨%d2, H2⟩, ⟨%d3, H3⟩, ⟨%d4, H4⟩⟩
      iapply (run6_B c (grid6.coords t) _ _ _ _ _ _ _ _ _ _ _ _ _ _ h0 h1 (xrow6 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (hO : Ok6 V) (c : Dev nD) :
    BodyObligation (dat6 (F := F) V hO c) (defs₀ (F := F)) Variants.none () Set.univ := fun t => by
  rw [bigSep_W6, bigSep_W6]
  exact sound_body6 V hO c t

end Cert.Kernel.Hand

end
-- ==== Proof.R6ValBits.lean ====
import proofs.«402893_j78554951844377_2_alg».proof.Proof.R6AccBits
import proofs.«402893_j78554951844377_2_alg».proof.Proof.R6GridBits
import proofs.«402893_j78554951844377_2_alg».proof.Proof.OkTablesBits
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 6: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt6 (t : Fin grid6.N) : t.val / 32 < 2048 := by
  have ht : t.val < 65536 := N_6 ▸ t.isLt
  omega

/-- The last feature of sample `r` is a point of the grid. -/
theorem lastPt_lt6 (r : ℕ) (hr : r < 2048) : 32 * r + 31 < grid6.N := by rw [N_6]; omega

/-- Under the side condition every word the index map of window 0 reads names a row of the embedding table. -/
theorem tword6_lt (pf : pre6.Contents (Elt F)) (h : ok6 pf) (i : grid6.Coords) : (tword6 pf i).toNat < 786432 := by
  obtain ⟨hb, -⟩ := h i
  have h0 := hb 0
  rw [transform6_eq pf i] at h0
  have h0' : ((tword6 pf i).toNat + 1) * 1 ≤ 786432 := h0
  omega

/-- Window 0's block at point `t` is the row the table's word names. -/
theorem index6_0 (a : (pcfg6 (F := F)).Adm) (t : Fin (cfg6 a).N) :
    ((cfg6 a).win 0).index t = ![(tword6 a.1 (grid6.coords t)).toNat, 0, 0] :=
  transform6_eq a.1 (grid6.coords t)

/-- Lane `l` of window 0's block sits in the embedding table at (the named row, 0, l). -/
theorem emb6_0 (a : (pcfg6 (F := F)).Adm) (t : Fin (cfg6 a).N) (l : Fin 128) :
    (((cfg6 a).win 0).blk t).view.emb (ValueIdx.ix3 (0 : Fin 1) (0 : Fin 1) l)
      = ValueIdx.ix3 (⟨(tword6 a.1 (grid6.coords t)).toNat, tword6_lt a.1 a.2 (grid6.coords t)⟩ : Fin 786432) (0 : Fin 1) l := by
  funext d; apply Fin.ext
  match d with
  | ⟨0, _⟩ => show ((cfg6 a).win 0).index t (0 : Fin 3) * 1 + 1 * 0 = (tword6 a.1 (grid6.coords t)).toNat; rw [index6_0]; show (tword6 a.1 (grid6.coords t)).toNat * 1 + 1 * 0 = _; omega
  | ⟨1, _⟩ => show ((cfg6 a).win 0).index t (1 : Fin 3) * 1 + 1 * 0 = 0; rw [index6_0]; rfl
  | ⟨2, _⟩ => show ((cfg6 a).win 0).index t (2 : Fin 3) * 128 + 1 * l.val = l.val; rw [index6_0]; show 0 * 128 + 1 * l.val = l.val; omega

/-- Lane `l` of window 1's block sits in its array at (sample, 0, l). -/
theorem emb6_1 (a : (pcfg6 (F := F)).Adm) (t : Fin (cfg6 a).N) (l : Fin 128) :
    (((cfg6 a).win 1).blk t).view.emb (ValueIdx.ix3 (0 : Fin 1) (0 : Fin 1) l)
      = ValueIdx.ix3 (⟨t.val / 32, sample_lt6 t⟩ : Fin 2048) (0 : Fin 1) l := by
  funext d; apply Fin.ext
  match d with
  | ⟨0, _⟩ => show ((cfg6 a).win 1).index t (0 : Fin 3) * 1 + 1 * 0 = t.val / 32; rw [index6_1]; show t.val / 32 * 1 + 1 * 0 = _; omega
  | ⟨1, _⟩ => show ((cfg6 a).win 1).index t (1 : Fin 3) * 1 + 1 * 0 = 0; rw [index6_1]; rfl
  | ⟨2, _⟩ => show ((cfg6 a).win 1).index t (2 : Fin 3) * 128 + 1 * l.val = l.val; rw [index6_1]; show 0 * 128 + 1 * l.val = l.val; omega

/-- Lane `l` of window 2's block sits in its array at (sample, 0, l). -/
theorem emb6_2 (a : (pcfg6 (F := F)).Adm) (t : Fin (cfg6 a).N) (l : Fin 128) :
    (((cfg6 a).win 2).blk t).view.emb (ValueIdx.ix3 (0 : Fin 1) (0 : Fin 1) l)
      = ValueIdx.ix3 (⟨t.val / 32, sample_lt6 t⟩ : Fin 2048) (0 : Fin 1) l := by
  funext d; apply Fin.ext
  match d with
  | ⟨0, _⟩ => show ((cfg6 a).win 2).index t (0 : Fin 3) * 1 + 1 * 0 = t.val / 32; rw [index6_2]; show t.val / 32 * 1 + 1 * 0 = _; omega
  | ⟨1, _⟩ => show ((cfg6 a).win 2).index t (1 : Fin 3) * 1 + 1 * 0 = 0; rw [index6_2]; rfl
  | ⟨2, _⟩ => show ((cfg6 a).win 2).index t (2 : Fin 3) * 128 + 1 * l.val = l.val; rw [index6_2]; show 0 * 128 + 1 * l.val = l.val; omega

/-- The one element of window 3's block sits in its array at (sample, 0, 0). -/
theorem emb6_3 (a : (pcfg6 (F := F)).Adm) (t : Fin (cfg6 a).N) :
    (((cfg6 a).win 3).blk t).view.emb (ValueIdx.ix3 (0 : Fin 1) (0 : Fin 1) (0 : Fin 1))
      = ValueIdx.ix3 (⟨t.val / 32, sample_lt6 t⟩ : Fin 2048) (0 : Fin 1) (0 : Fin 1) := by
  funext d; apply Fin.ext
  match d with
  | ⟨0, _⟩ => show ((cfg6 a).win 3).index t (0 : Fin 3) * 1 + 1 * 0 = t.val / 32; rw [index6_3]; show t.val / 32 * 1 + 1 * 0 = _; omega
  | ⟨1, _⟩ => show ((cfg6 a).win 3).index t (1 : Fin 3) * 1 + 1 * 0 = 0; rw [index6_3]; rfl
  | ⟨2, _⟩ => show ((cfg6 a).win 3).index t (2 : Fin 3) * 1 + 1 * 0 = 0; rw [index6_3]; rfl

/-- The one element of the result window's block sits in the result array at (sample, 0, 0). -/
theorem emb6_4 (a : (pcfg6 (F := F)).Adm) (t : Fin (cfg6 a).N) :
    (((cfg6 a).win 4).blk t).view.emb (ValueIdx.ix3 (0 : Fin 1) (0 : Fin 1) (0 : Fin 1))
      = ValueIdx.ix3 (⟨t.val / 32, sample_lt6 t⟩ : Fin 2048) (0 : Fin 1) (0 : Fin 1) := by
  funext d; apply Fin.ext
  match d with
  | ⟨0, _⟩ => show ((cfg6 a).win 4).index t (0 : Fin 3) * 1 + 1 * 0 = t.val / 32; rw [index6_4]; show t.val / 32 * 1 + 1 * 0 = _; omega
  | ⟨1, _⟩ => show ((cfg6 a).win 4).index t (1 : Fin 3) * 1 + 1 * 0 = 0; rw [index6_4]; rfl
  | ⟨2, _⟩ => show ((cfg6 a).win 4).index t (2 : Fin 3) * 1 + 1 * 0 = 0; rw [index6_4]; rfl

section AtTable

variable (V : (c : Dev nD) → (b : Ref sig .tc) → Buf (Elt F) ((c : Thread nD τ).loc b))

/-! ## The input blocks at coordinates -/

/-- The row of the embedding table gathered at point `t`: the table's word there. -/
abbrev rho6 (t : Fin grid6.N) : ℕ := (tword6 (tbl6 V) (grid6.coords t)).toNat

/-- It is a row of the table, under the side condition. -/
theorem rho6_lt (hO : Ok6 V) (t : Fin grid6.N) : rho6 V t < 786432 := tword6_lt (tbl6 V) hO (grid6.coords t)

/-- Lane `l` of the gathered row at point `t` is the embedding table at (the named row, 0, l). -/
theorem xrow6_apply (hO : Ok6 V) (c : Dev nD) (t : Fin (cfgM6 V hO).N) (l : Fin 128) :
    xrow6 V hO c t (ValueIdx.ix3 (0 : Fin 1) (0 : Fin 1) l)
      = V c main_v34 (ValueIdx.ix3 (⟨rho6 V t, rho6_lt V hO t⟩ : Fin 786432) (0 : Fin 1) l) := by
  show V c main_v34 ((((cfgM6 V hO).win 0).blk t).view.emb (ValueIdx.ix3 (0 : Fin 1) (0 : Fin 1) l)) = _
  exact congrArg (V c main_v34) (emb6_0 (adm6 V hO) t l)

/-- Lane `l` of the phase-bias block at point `t` is its array at (sample, 0, l). -/
theorem xpa6_apply (hO : Ok6 V) (c : Dev nD) (t : Fin (cfgM6 V hO).N) (l : Fin 128) :
    xpa6 V hO c t (ValueIdx.ix3 (0 : Fin 1) (0 : Fin 1) l)
      = V c main_v73 (ValueIdx.ix3 (⟨t.val / 32, sample_lt6 t⟩ : Fin 2048) (0 : Fin 1) l) := by
  show V c main_v73 ((((cfgM6 V hO).win 1).blk t).view.emb (ValueIdx.ix3 (0 : Fin 1) (0 : Fin 1) l)) = _
  exact congrArg (V c main_v73) (emb6_1 (adm6 V hO) t l)

/-- Lane `l` of the head-weight block at point `t` is its array at (sample, 0, l). -/
theorem xw6_apply (hO : Ok6 V) (c : Dev nD) (t : Fin (cfgM6 V hO).N) (l : Fin 128) :
    xw6 V hO c t (ValueIdx.ix3 (0 : Fin 1) (0 : Fin 1) l)
      = V c main_v74 (ValueIdx.ix3 (⟨t.val / 32, sample_lt6 t⟩ : Fin 2048) (0 : Fin 1) l) := by
  show V c main_v74 ((((cfgM6 V hO).win 2).blk t).view.emb (ValueIdx.ix3 (0 : Fin 1) (0 : Fin 1) l)) = _
  exact congrArg (V c main_v74) (emb6_2 (adm6 V hO) t l)

/-- The head-bias block at point `t` is its array at (sample, 0, 0). -/
theorem xb6_apply (hO : Ok6 V) (c : Dev nD) (t : Fin (cfgM6 V hO).N) :
    xb6 V hO c t (ValueIdx.ix3 (0 : Fin 1) (0 : Fin 1) (0 : Fin 1))
      = V c main_v75 (ValueIdx.ix3 (⟨t.val / 32, sample_lt6 t⟩ : Fin 2048) (0 : Fin 1) (0 : Fin 1)) := by
  show V c main_v75 ((((cfgM6 V hO).win 3).blk t).view.emb (ValueIdx.ix3 (0 : Fin 1) (0 : Fin 1) (0 : Fin 1))) = _
  exact congrArg (V c main_v75) (emb6_3 (adm6 V hO) t)

/-! ## The arrays after the run -/

/-- An input's array is never written: it ends as the region found it. -/
theorem arrAt6_in (hO : Ok6 V) (c : Dev nD) (w : Fin 5) (hw : w ≠ 4) :
    (dat6 V hO c).arrAt w (cfgM6 V hO).N = V c (Pipeline.arrRef spec6 w) := by
  have hin : ((cfgM6 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat6 V hO c).arrAt_in w hin _).trans (A_eq6 V hO c w)

/-- THE RESULT ARRAY of the tile: row `r` holds what the body left in the result block at sample `r`'s last feature. -/
def tileRes6 (hO : Ok6 V) (c : Dev nD) : Buf (Elt F) ((c : Thread nD τ).loc main_v76) :=
  fun (i : S2048x1x1.Idx) => outAt6 V hO c ⟨32 * (i 0).val + 31, lastPt_lt6 (i 0).val (i 0).isLt⟩ (ValueIdx.ix3 (0 : Fin 1) (0 : Fin 1) (0 : Fin 1))

theorem tileRes6_apply (hO : Ok6 V) (c : Dev nD) (r : Fin 2048) :
    tileRes6 V hO c (ValueIdx.ix3 r (0 : Fin 1) (0 : Fin 1))
      = outAt6 V hO c ⟨32 * r.val + 31, lastPt_lt6 r.val r.isLt⟩ (ValueIdx.ix3 (0 : Fin 1) (0 : Fin 1) (0 : Fin 1)) := rfl

/-- The result block read at two names of one point. -/
theorem outAt6_congr (hO : Ok6 V) (c : Dev nD) {t t' : Fin (cfgM6 V hO).N} (h : t.val = t'.val) (j : S1x1x1.Idx) :
    outAt6 V hO c t j = outAt6 V hO c t' j := by
  obtain rfl : t = t' := Fin.ext h
  rfl

/-- What a write-back writes is the written row of `tileRes6`: the point is its sample's last feature `32 (t / 32) + 31`,
    and the block's one element is the row's. -/
theorem flushed6_4_eq (hO : Ok6 V) (c : Dev nD) (t : Fin (cfgM6 V hO).N) (hf : ((cfgM6 V hO).win 4).flush t = true) :
    (dat6 V hO c).flushed 4 t = (((cfgM6 V hO).win 4).blk t).view.read (Elt F) (tileRes6 V hO c) := by
  have h31 : t.val % 32 = 31 := (flush6_4_iff (adm6 V hO) t).mp hf
  show ((cfgM6 V hO).win 4).cut (grid6.coords t) ((dat6 V hO c).after 4 t) = _
  rw [after6_4]
  funext j
  have hj : (((cfgM6 V hO).win 4).xinj (grid6.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM6 V hO).win 4).blk t).view.emb j : S2048x1x1.Idx) (0 : Fin 3)).val + 31 := by
    have h : (j (0 : Fin 3)).val < 1 := (j (0 : Fin 3)).isLt
    show t.val = 32 * (((cfgM6 V hO).win 4).index t (0 : Fin 3) * 1 + 1 * (j (0 : Fin 3)).val) + 31
    rw [index6_4]
    show t.val = 32 * (t.val / 32 * 1 + 1 * (j (0 : Fin 3)).val) + 31
    omega
  show outAt6 V hO c t (((cfgM6 V hO).win 4).xinj (grid6.coords t) j) = tileRes6 V hO c ((((cfgM6 V hO).win 4).blk t).view.emb j)
  rw [hj]
  exact outAt6_congr V hO c hv _

/-- Every row of the result array is some write-back's block: row `r` is the block of point `32 r + 31`. -/
theorem cover6_4 (hO : Ok6 V) (i : S2048x1x1.Idx) :
    ∃ t : Fin (cfgM6 V hO).N, ((cfgM6 V hO).win 4).flush t = true ∧ i ∈ (((cfgM6 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt6 _ h0⟩, (flush6_4_iff (adm6 V hO) _).mpr (by show (32 * (i 0).val + 31) % 32 = 31; omega), ?_⟩
  have he : (((cfgM6 V hO).win 4).blk ⟨32 * (i 0).val + 31, lastPt_lt6 _ h0⟩).view.emb (ValueIdx.ix3 (0 : Fin 1) (0 : Fin 1) (0 : Fin 1)) = i := by
    refine (emb6_4 (adm6 V hO) ⟨32 * (i 0).val + 31, lastPt_lt6 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM6 V hO).win 4).blk ⟨32 * (i 0).val + 31, lastPt_lt6 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes6`. -/
theorem arrAt6_4 (hO : Ok6 V) (c : Dev nD) : (dat6 V hO c).arrAt 4 (cfgM6 V hO).N = tileRes6 V hO c :=
  (dat6 V hO c).arrAt_eq_of_cover 4 (tileRes6 V hO c) (fun t hf => flushed6_4_eq V hO c t hf) (fun i => cover6_4 V hO i)

end AtTable

end Cert.Kernel.Hand

end
-- ==== Proof.R6SegBits.lean ====
/-
  Tile 6's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 6's admissible contents and
  proof data is ten small facts (`Pinned6`); they hold of tile 6's own (`pinned_dat6`) and so of any family whose
  component 6 is tile 6's (`Pinned6.of_eq`).
-/
import proofs.«402893_j78554951844377_2_alg».proof.Proof.R6AccBits
import proofs.«402893_j78554951844377_2_alg».proof.Proof.FamilyBits
import proofs.«402893_j78554951844377_2_alg».proof.Proof.GlueBits
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 6's contents and proof data -/

variable (Vin : (c : Dev nD) → (b : Ref sig .tc) → Buf (Elt F) ((c : Thread nD τ).loc b))

/-- The scratch operand owned whole at some contents is its buffer held at some contents. -/
theorem scratch6_eq (c : Dev nD) :
    (iprop(∃ d, owns (c : Thread nD τ) scM6 fullShare d) : sProp 𝕄)
      = iprop(∃ f : Buf (Elt F) ((c : Thread nD τ).loc cc6_scratch0), ((c : Thread nD τ).loc cc6_scratch0) ↦{fullShare} f) := by
  simp only [scM6, owns_whole]; try rfl

/-- What the record needs of pipeline 6's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned6 (Vx : Dev nD → Valuation τ sig (Elt F)) (a0 : (pcfgs (F := F) 6).Adm)
    (d0 : (c : Dev nD) → Dat τ (Elt F) Unit ℕ (UR sig nD τ) ℕ ((pcfgs (F := F) 6).at a0) c) : Prop where
  tbl : a0.1 = tbl6 Vin
  q : ∀ (c : Dev nD) w, (d0 c).q w = fullShare
  A : ∀ (c : Dev nD) w, (d0 c).A w = Vin c (Pipeline.arrRef spec6 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM6 fullShare d) ∗ Rest6 Vin c) : sProp 𝕄) ⊢ (d0 c).Φ 0
  phiOut : ∀ c : Dev nD, (d0 c).Φ (Fin.last _) ⊢ (iprop((∃ d, owns (c : Thread nD τ) scM6 fullShare d) ∗ Rest6 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 6).at a0).N = Vx c (Pipeline.arrRef spec6 w)

set_option maxHeartbeats 400000 in
/-- Tile 6's own contents and proof data have them: each field by unfolding the proof data; the last stage of the
    invariant is a later one (the grid has 65536 points), so it holds the scratch at the last point's contents. -/
theorem pinned_dat6 (hO : Ok6 Vin) (Vx : Dev nD → Valuation τ sig (Elt F))
    (hF : ∀ c w, (dat6 Vin hO c).arrAt w (cfgM6 Vin hO).N = Vx c (Pipeline.arrRef spec6 w)) :
    Pinned6 Vin Vx (adm6 Vin hO) (dat6 Vin hO) where
  tbl := rfl
  q c w := rfl
  A c w := A_eq6 Vin hO c w
  owed c t := rfl
  body c := (body_obligation6 Vin hO c).loose
  phiIn c := by
    rw [show (dat6 Vin hO c).Φ 0 = PhiS6 Vin hO c ((0 : Fin ((cfgM6 Vin hO).N + 1)).val) (Nat.le_of_lt_succ (0 : Fin ((cfgM6 Vin hO).N + 1)).isLt) from rfl,
      PhiS6_zero Vin hO c _ _ (Fin.val_zero _)]
  phiOut c := by
    have hN : (Fin.last (cfgM6 Vin hO).N).val ≠ 0 := by
      rw [Fin.val_last, show (cfgM6 Vin hO).N = grid6.N from rfl, N_6]; decide
    show PhiS6 Vin hO c (Fin.last (cfgM6 Vin hO).N).val (Nat.le_of_lt_succ (Fin.last (cfgM6 Vin hO).N).isLt) ⊢ _
    rw [PhiS6_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 6's. -/
theorem Pinned6.of_eq (hO : Ok6 Vin) {Vx : Dev nD → Valuation τ sig (Elt F)} {a0 : (pcfgs (F := F) 6).Adm}
    {d0 : (c : Dev nD) → Dat τ (Elt F) Unit ℕ (UR sig nD τ) ℕ ((pcfgs (F := F) 6).at a0) c}
    (ha : a0 = adm6 Vin hO) (hd : ∀ c, HEq (d0 c) (dat6 Vin hO c)) (h : Pinned6 Vin Vx (adm6 Vin hO) (dat6 Vin hO)) :
    Pinned6 Vin Vx a0 d0 := by
  subst ha
  obtain rfl : d0 = dat6 Vin hO := funext fun c => eq_of_heq (hd c)
  exact h

/-! ## The record -/

set_option backward.isDefEq.respectTransparency.types false in
set_option maxHeartbeats 1600000 in
/-- Tile 6's region over ANY family of pipelines whose component 6 is tile 6's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg6G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok6 Vin) (ha : a 6 = adm6 Vin hO) (hd : ∀ c, HEq (pdats 6 c) (dat6 Vin hO c))
    (hag : ∀ c w, V c (Proc.devRef .tc (Pipeline.arrRef spec6 w)) = Vin c (Pipeline.arrRef spec6 w))
    (hagT : ∀ c j, V c (Proc.devRef .tc (pre6.ref j)) = Vin c (pre6.ref j))
    (hF : ∀ c w, (dat6 Vin hO c).arrAt w (cfgM6 Vin hO).N = Vx c (Pipeline.arrRef spec6 w))
    (hrest : ∀ c b, b ∉ Finset.univ.image (Pipeline.arrRef spec6) → Vx c b = V c b) :
    Pipeline.RegionSeg (pcfgs (F := F)) a pdats () defs₀ Variants.none (fun _ => ∅) (fun _ _ => 0) 6 :=
  have hp : Pinned6 Vin Vx (a 6) (pdats 6) := Pinned6.of_eq Vin hO ha hd (pinned_dat6 Vin hO Vx hF)
  have htbl : ∀ c, (fun k => V c (Proc.devRef .tc ((pcfgs (F := F) 6).pre.ref k))) = (a 6).1 := fun c => by
    rw [hp.tbl]; funext k; exact (hagT c k).trans (V_pre6 Vin c k)
  { win := (launch6 (F := F)).win.to₀
    block_pos := (launch6 (F := F)).block_pos
    stage_whole := (launch6 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 6 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre6 c (fun _ => fullShare) (tbl6 Vin))
    Z := fun c => Pipeline.unscopedRestP (Ix := Unit) (Name := ℕ) (U := UR sig nD τ) (Lvl := ℕ) pre6 spec6 c (fun b => V c b)
    hentry := fun c => by
      rw [Pipeline.ownSems0_none]
      have hsplit := Pipeline.arrays_of_unscopedBufs (p := 6) (pcfgs (F := F)) a pdats (launch6 (F := F)).win (launch6 (F := F)).arr_whole c
        ((pdats 6 c).share_full (hp.q c)) (fun b => V c b) (fun w => (hp.A c w).trans (hag c w).symm)
      rw [Pipeline.unscopedBufs_held, Pipeline.unscopedRest_split (launch6 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 6).spec c : sProp 𝕄) = _ from scopedRest6_split c, hp.tbl]
      refine BIBase.Entails.trans ?_ (hp.phiIn c)
      rw [scratch6_eq]
      unfold Rest6
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 6).spec c : sProp 𝕄) = _ from scopedRest6_split c]
      refine BIBase.Entails.trans (hp.phiOut c) ?_
      rw [scratch6_eq]
      unfold Rest6
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 6) (pcfgs (F := F)) a (Ix := Unit) (Name := ℕ) (U := UR sig nD τ) (Lvl := ℕ)
        (launch6 (F := F)).win (launch6 (F := F)).arr_whole c pdats ((pdats 6 c).share_full (hp.q c))
        (fun b => V c b) (fun b => Vx c b) ((pdats 6 c).arrAt · (Pipeline.pin (pcfgs (F := F)) a 6).N) (hp.fin c) (hrest c)
      rw [Pipeline.unscopedBufs_held, Pipeline.unscopedRest_split (launch6 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 6's record over the assembled families, tile 6's components in slot 6. -/
def reg6 (hO : Ok6 Vin) (V Vx : Dev nD → Valuation τ sig (Elt F))
    (hag : ∀ c w, V c (Proc.devRef .tc (Pipeline.arrRef spec6 w)) = Vin c (Pipeline.arrRef spec6 w))
    (hagT : ∀ c j, V c (Proc.devRef .tc (pre6.ref j)) = Vin c (pre6.ref j))
    (hF : ∀ c w, (dat6 Vin hO c).arrAt w (cfgM6 Vin hO).N = Vx c (Pipeline.arrRef spec6 w))
    (hrest : ∀ c b, b ∉ Finset.univ.image (Pipeline.arrRef spec6) → Vx c b = V c b)
    (a0 : (pcfg0 (F := F)).Adm)
    (a1 : (pcfg1 (F := F)).Adm)
    (a2 : (pcfg2 (F := F)).Adm)
    (a3 : (pcfg3 (F := F)).Adm)
    (a4 : (pcfg4 (F := F)).Adm)
    (a5 : (pcfg5 (F := F)).Adm)
    (a7 : (pcfg7 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d7 : (c : Dev nD) → Dat τ (Elt F) Unit ℕ (UR sig nD τ) ℕ (cfg7 a7) c) :
    Pipeline.RegionSeg (pcfgs (F := F)) (admOf a0 a1 a2 a3 a4 a5 (adm6 Vin hO) a7)
      (pdatsOf a0 a1 a2 a3 a4 a5 (adm6 Vin hO) a7 d0 d1 d2 d3 d4 d5 (dat6 Vin hO) d7) () defs₀ Variants.none (fun _ => ∅) (fun _ _ => 0) 6 :=
  reg6G Vin V Vx _ _ hO rfl (fun _ => HEq.rfl) hag hagT hF hrest

/-- The thread state the record is entered from, -/
theorem reg6_pre (hO : Ok6 Vin) (V Vx : Dev nD → Valuation τ sig (Elt F)) (hag) (hagT) (hF) (hrest) (a0) (a1) (a2) (a3) (a4) (a5) (a7) (d0) (d1) (d2) (d3) (d4) (d5) (d7) (c : Dev nD) :
    (reg6 Vin hO V Vx hag hagT hF hrest a0 a1 a2 a3 a4 a5 a7 d0 d1 d2 d3 d4 d5 d7).pre c
      = iprop(StableHlo.held (c : Thread nD τ) (Pipeline.ucRefs τ sig) (V c) ∗ Rr (F := F) c) := rfl
/-- and the one it leaves. -/
theorem reg6_post (hO : Ok6 Vin) (V Vx : Dev nD → Valuation τ sig (Elt F)) (hag) (hagT) (hF) (hrest) (a0) (a1) (a2) (a3) (a4) (a5) (a7) (d0) (d1) (d2) (d3) (d4) (d5) (d7) (c : Dev nD) :
    (reg6 Vin hO V Vx hag hagT hF hrest a0 a1 a2 a3 a4 a5 a7 d0 d1 d2 d3 d4 d5 d7).post c
      = iprop(StableHlo.held (c : Thread nD τ) (Pipeline.ucRefs τ sig) (Vx c) ∗ Rr (F := F) c) := rfl

end Cert.Kernel.Hand

end
-- ==== Proof.R6AgreeBits.lean ====
import proofs.«402893_j78554951844377_2_alg».proof.Proof.KHostBits
import Idealize.ShloMosaic.Lib.ValueIdx

noncomputable section

namespace Cert.Kernel.Hand

open Cert.Kernel Cert.Kernel.Gen
open Idealize.ShloMosaic Idealize.ShloMosaic.TcCoe

variable {F : FTy → Type} [FloatOps F]

/-! # Tile 6: what the region reads does not depend on what earlier regions left

The table, the embedding table, the three slices and the (not yet written) result array of tile 6 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree6_tbl : V17 m outs c main_v72 = V17 m outs' c main_v72 := by
  funext (j : S65536.Idx)
  obtain ⟨a, rfl⟩ : ∃ a : Fin 65536, j = ValueIdx.ix1 a := ⟨j 0, ValueIdx.eq_ix1 j⟩
  rw [tbl6_apply m outs c, tbl6_apply m outs' c]

theorem agree6_emb : V17 m outs c main_v34 = V17 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb6_apply m outs c, emb6_apply m outs' c]

theorem agree6_pa : V17 m outs c main_v73 = V17 m outs' c main_v73 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa6_apply m outs c, pa6_apply m outs' c]

theorem agree6_w : V17 m outs c main_v74 = V17 m outs' c main_v74 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w6_apply m outs c, w6_apply m outs' c]

theorem agree6_b : V17 m outs c main_v75 = V17 m outs' c main_v75 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b6_apply m outs c, b6_apply m outs' c]

/-- The result array has not been written when the region is entered: it holds its launch contents. -/
theorem entry6_out : V17 m outs c main_v76 = V5 m c main_v76 :=
  (V17_of m outs c main_v76 (by decide)).trans ((V16_of m outs c main_v76 (by decide)).trans ((V15_of m outs c main_v76 (by decide)).trans ((V14_of m outs c main_v76 (by decide)).trans ((V13_of m outs c main_v76 (by decide)).trans ((V12_of m outs c main_v76 (by decide)).trans ((V11_of m outs c main_v76 (by decide)).trans ((V10_of m outs c main_v76 (by decide)).trans ((V9_of m outs c main_v76 (by decide)).trans ((V8_of m outs c main_v76 (by decide)).trans ((V7_of m outs c main_v76 (by decide)).trans (V6_of m outs c main_v76 (by decide))))))))))))

theorem agree6_out : V17 m outs c main_v76 = V17 m outs' c main_v76 :=
  (entry6_out m outs c).trans (entry6_out m outs' c).symm

end Cert.Kernel.Hand

end
-- ==== Proof.R7RunBits.lean ====
import proofs.«402893_j78554951844377_2_alg».proof.Proof.Gen.Kernel.Launch
import proofs.«402893_j78554951844377_2_alg».proof.Proof.Gen.Kernel.Skeleton
import proofs.«402893_j78554951844377_2_alg».proof.Proof.R0RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 7: the kernel body at one grid point

Tile 7's kernel function is tile 0's (the same body, the same payloads and conditions under other names), so its three
runs are tile 0's. -/

/-- The body's first condition: the feature coordinate is 0. -/
abbrev cond7_0 (i : grid7.Coords) : Prop := (Scalar.cmpi .ne (Scalar.extui (Scalar.cmpi .eq (BitVec.ofNat 32 (i 1).val) 0#32)) 0#32) = 1#1
/-- The body's second condition: the feature coordinate is 31. -/
abbrev cond7_1 (i : grid7.Coords) : Prop := k7_cond2 i = 1#1

/-- A MIDDLE feature: the scratch at `acc` ends at `acc + row`. -/
theorem run7_B (c : Dev nD) (i : grid7.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond7_0 i) (hc1 : ¬cond7_1 i)
    (x3 : Vec F S1x1x128 .f32) (acc : Vec F S1x1x128 .f32) (E : Set ℕ) (K : PUnit → sProp 𝕄) :
    iprop(owns (c : Thread nD τ) arg3 fullShare x3 ∗ owns (c : Thread nD τ) arg8 fullShare acc
        ∗ (iprop(owns (c : Thread nD τ) arg3 fullShare x3 ∗ owns (c : Thread nD τ) arg8 fullShare (k7_pay2 acc x3)) -∗ K ⟨⟩))
      ⊢ wp frame (wpE (defs₀ (F := F)) Variants.none c none) E (cc7__gather_kernel i arg2 harg2 arg3 harg3 arg4 harg4 arg5 harg5 arg6 harg6 arg7 harg7 arg8 harg8) K :=
  run0_B c i arg2 harg2 arg3 harg3 arg4 harg4 arg5 harg5 arg6 harg6 arg7 harg7 arg8 harg8 hc0 hc1 x3 acc E K

/-- The FIRST feature: whatever the scratch held, it ends at `0 + row`. -/
theorem run7_A (c : Dev nD) (i : grid7.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : cond7_0 i) (hc1 : ¬cond7_1 i)
    (x3 : Vec F S1x1x128 .f32) (E : Set ℕ) (K : PUnit → sProp 𝕄) :
    iprop(owns (c : Thread nD τ) arg3 fullShare x3 ∗ (∃ d, owns (c : Thread nD τ) arg8 fullShare d)
        ∗ (iprop(owns (c : Thread nD τ) arg3 fullShare x3 ∗ owns (c : Thread nD τ) arg8 fullShare (k7_pay2 (k7_pay1 (F := F)) x3)) -∗ K ⟨⟩))
      ⊢ wp frame (wpE (defs₀ (F := F)) Variants.none c none) E (cc7__gather_kernel i arg2 harg2 arg3 harg3 arg4 harg4 arg5 harg5 arg6 harg6 arg7 harg7 arg8 harg8) K :=
  run0_A c i arg2 harg2 arg3 harg3 arg4 harg4 arg5 harg5 arg6 harg6 arg7 harg7 arg8 harg8 hc0 hc1 x3 E K

/-- The LAST feature: the scratch at `acc` ends at `acc + row`, and the result block at the sample's result. -/
theorem run7_C (c : Dev nD) (i : grid7.Coords) (arg2 : Memref sig .tc .smem S65536 .i32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x128 .f32) (harg8 : arg8.IsWhole)
    (hc0 : ¬cond7_0 i) (hc1 : cond7_1 i)
    (x3 x4 x5 : Vec F S1x1x128 .f32) (x6 : Vec F S1x1x1 .f32) (acc : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare acc
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k7_pay3 (k7_pay2 acc x3) x4 x5 x6)
            ∗ owns (c : Thread nD τ) arg8 fullShare (k7_pay2 acc x3)) -∗ K ⟨⟩))
      ⊢ wp frame (wpE (defs₀ (F := F)) Variants.none c none) E (cc7__gather_kernel i arg2 harg2 arg3 harg3 arg4 harg4 arg5 harg5 arg6 harg6 arg7 harg7 arg8 harg8) K :=
  run0_C c i arg2 harg2 arg3 harg3 arg4 harg4 arg5 harg5 arg6 harg6 arg7 harg7 arg8 harg8 hc0 hc1 x3 x4 x5 x6 acc E K

end Cert.Kernel.Hand

end
-- ==== Proof.R7BaseBits.lean ====
import proofs.«402893_j78554951844377_2_alg».proof.Proof.Gen.Kernel.Launch
import proofs.«402893_j78554951844377_2_alg».proof.Proof.Gen.Kernel.Skeleton
import proofs.«402893_j78554951844377_2_alg».proof.Proof.R7RunBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 7: the pipeline at the table the region reads, its blocks and staging buffers

Everything here is stated at a PARAMETER `V`: the contents of the core's buffers when the region is entered. The
region's prefetched table is read off `V`; under the side condition that every word of it names a row of the embedding
table (`Ok7`) the pipeline is pinned at it, and each window's block at a grid point is a restriction of its array. -/

variable (V : (c : Dev nD) → (b : Ref sig .tc) → Buf (Elt F) ((c : Thread nD τ).loc b))

/-- The table's contents when the region is entered (one device). -/
def tbl7 : pre7.Contents (Elt F) := fun j => V (0 : Dev nD) (pre7.ref j)
/-- On every device the table holds those contents (there is one device). -/
theorem V_pre7 (c : Dev nD) (j : Fin 1) : V c (pre7.ref j) = tbl7 V j := by
  obtain rfl : c = 0 := Subsingleton.elim _ _; rfl
/-- Every block the table names lies inside the embedding table. -/
abbrev Ok7 : Prop := ok7 (F := F) (tbl7 V)
/-- The table as admissible contents, and the pipeline pinned at it. -/
abbrev adm7 (hO : Ok7 V) : (pcfg7 (F := F)).Adm := ⟨tbl7 V, hO⟩
abbrev cfgM7 (hO : Ok7 V) : Pipeline.Cfg sig Λ₀ := cfg7 (adm7 V hO)

/-- Window `w`'s block at point `t`, read off its array as the region finds it. -/
def iblk7 (hO : Ok7 V) (c : Dev nD) (w : Fin (cfgM7 V hO).W) (t : Fin (cfgM7 V hO).N) :
    (((cfgM7 V hO).win w).xblock ((cfgM7 V hO).grid.coords t)).Idx → Elt F ((cfgM7 V hO).win w).elt :=
  (((cfgM7 V hO).win w).blk t).view.read (Elt F) (V c (Pipeline.arrRef spec7 w))

/-- An input window's current staging buffer holds its block at every point, fetched there or not, for any proof
    data whose array is `V`'s and whose body leaves the block in place. -/
theorem before7_0_of (hO : Ok7 V) {c : Dev nD} (dat : Dat τ (Elt F) Unit ℕ (UR sig nD τ) ℕ (cfgM7 V hO) c) (hA : dat.A 0 = V c (Pipeline.arrRef spec7 0))
    (hafter : ∀ t, dat.after 0 t = iblk7 V hO c 0 t) (t : Fin (cfgM7 V hO).N) (d) : dat.before 0 t d = iblk7 V hO c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of (hO : Ok7 V) {c : Dev nD} (dat : Dat τ (Elt F) Unit ℕ (UR sig nD τ) ℕ (cfgM7 V hO) c) (hA : dat.A 1 = V c (Pipeline.arrRef spec7 1))
    (hafter : ∀ t, dat.after 1 t = iblk7 V hO c 1 t) (t : Fin (cfgM7 V hO).N) (d) : dat.before 1 t d = iblk7 V hO c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of (hO : Ok7 V) {c : Dev nD} (dat : Dat τ (Elt F) Unit ℕ (UR sig nD τ) ℕ (cfgM7 V hO) c) (hA : dat.A 2 = V c (Pipeline.arrRef spec7 2))
    (hafter : ∀ t, dat.after 2 t = iblk7 V hO c 2 t) (t : Fin (cfgM7 V hO).N) (d) : dat.before 2 t d = iblk7 V hO c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of (hO : Ok7 V) {c : Dev nD} (dat : Dat τ (Elt F) Unit ℕ (UR sig nD τ) ℕ (cfgM7 V hO) c) (hA : dat.A 3 = V c (Pipeline.arrRef spec7 3))
    (hafter : ∀ t, dat.after 3 t = iblk7 V hO c 3 t) (t : Fin (cfgM7 V hO).N) (d) : dat.before 3 t d = iblk7 V hO c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Each window's current staging memref at point `t`, as the pipeline passes it, and its wholeness. -/
abbrev ms7_0 (hO : Ok7 V) (t : Fin (cfgM7 V hO).N) : Memref sig .tc .vmem S1x1x128 .f32 := spec7_0.stage ((cfgM7 V hO).slots t 0)
abbrev hs7_0 (hO : Ok7 V) (t : Fin (cfgM7 V hO).N) : (ms7_0 V hO t).IsWhole := hstage7_0 (((cfgM7 V hO).slots t 0).cast nbuf7_0)
abbrev ms7_1 (hO : Ok7 V) (t : Fin (cfgM7 V hO).N) : Memref sig .tc .vmem S1x1x128 .f32 := spec7_1.stage ((cfgM7 V hO).slots t 1)
abbrev hs7_1 (hO : Ok7 V) (t : Fin (cfgM7 V hO).N) : (ms7_1 V hO t).IsWhole := hstage7_1 (((cfgM7 V hO).slots t 1).cast nbuf7_1)
abbrev ms7_2 (hO : Ok7 V) (t : Fin (cfgM7 V hO).N) : Memref sig .tc .vmem S1x1x128 .f32 := spec7_2.stage ((cfgM7 V hO).slots t 2)
abbrev hs7_2 (hO : Ok7 V) (t : Fin (cfgM7 V hO).N) : (ms7_2 V hO t).IsWhole := hstage7_2 (((cfgM7 V hO).slots t 2).cast nbuf7_2)
abbrev ms7_3 (hO : Ok7 V) (t : Fin (cfgM7 V hO).N) : Memref sig .tc .vmem S1x1x1 .f32 := spec7_3.stage ((cfgM7 V hO).slots t 3)
abbrev hs7_3 (hO : Ok7 V) (t : Fin (cfgM7 V hO).N) : (ms7_3 V hO t).IsWhole := hstage7_3 (((cfgM7 V hO).slots t 3).cast nbuf7_3)
abbrev ms7_4 (hO : Ok7 V) (t : Fin (cfgM7 V hO).N) : Memref sig .tc .vmem S1x1x1 .f32 := spec7_4.stage ((cfgM7 V hO).slots t 4)
abbrev hs7_4 (hO : Ok7 V) (t : Fin (cfgM7 V hO).N) : (ms7_4 V hO t).IsWhole := hstage7_4 (((cfgM7 V hO).slots t 4).cast nbuf7_4)
/-- The scratch operand: a whole scoped buffer of the kernel's own. -/
abbrev scM7 : Memref sig .tc .vmem S1x1x128 .f32 := Memref.whole cc7_scratch0
/-- The table as the body is handed it. -/
abbrev tbM7 : Memref sig .tc .smem S65536 .i32 := Memref.whole main_v78

/-- The kernel body at point `t`, on what the pipeline calls it with. -/
abbrev bodyAt7 (a : (pcfg7 (F := F)).Adm) (t : Fin (cfg7 a).N) : Prog (TpuEff nD τ sig (Elt F) Λ₀ .tc) PUnit :=
  cc7__gather_kernel (grid7.coords t) (Memref.whole main_v78) (Memref.isWhole_whole _) (spec7_0.stage ((cfg7 a).slots t 0)) (hstage7_0 (((cfg7 a).slots t 0).cast nbuf7_0)) (spec7_1.stage ((cfg7 a).slots t 1)) (hstage7_1 (((cfg7 a).slots t 1).cast nbuf7_1)) (spec7_2.stage ((cfg7 a).slots t 2)) (hstage7_2 (((cfg7 a).slots t 2).cast nbuf7_2)) (spec7_3.stage ((cfg7 a).slots t 3)) (hstage7_3 (((cfg7 a).slots t 3).cast nbuf7_3)) (spec7_4.stage ((cfg7 a).slots t 4)) (hstage7_4 (((cfg7 a).slots t 4).cast nbuf7_4)) (Memref.whole cc7_scratch0) (Memref.isWhole_whole _)

/-- Off the last feature the result window is idle: the body stores nothing into it. -/
theorem idleAt7_4 (a : (pcfg7 (F := F)).Adm) (i : grid7.Coords) (h : ¬cond7_1 i) : (cfg7 a).idle 4 i = true := by
  show (!(k7_cond2 i == 1#1)) = true
  simp only [Bool.not_eq_true', beq_eq_false_iff_ne, ne_eq]; exact h
/-- On the last feature it is live. -/
theorem liveAt7_4 (a : (pcfg7 (F := F)).Adm) (i : grid7.Coords) (h : cond7_1 i) : (cfg7 a).idle 4 i = false := by
  show (!(k7_cond2 i == 1#1)) = false
  simp only [Bool.not_eq_false', beq_iff_eq]; exact h
/-- The input windows are never idle. -/
theorem liveAt7_0 (a : (pcfg7 (F := F)).Adm) (i : grid7.Coords) : (cfg7 a).idle 0 i = false := rfl
theorem liveAt7_1 (a : (pcfg7 (F := F)).Adm) (i : grid7.Coords) : (cfg7 a).idle 1 i = false := rfl
theorem liveAt7_2 (a : (pcfg7 (F := F)).Adm) (i : grid7.Coords) : (cfg7 a).idle 2 i = false := rfl
theorem liveAt7_3 (a : (pcfg7 (F := F)).Adm) (i : grid7.Coords) : (cfg7 a).idle 3 i = false := rfl

end Cert.Kernel.Hand

end
-- ==== Proof.R7OkBits.lean ====
/-
  Tile 7: the table the region reads, and the pipeline's side condition on it from the range fact.

  Region 7 is entered with the buffers at the valuation after the host stretch that cuts tile 7's operands. Its prefetched table then
  holds, at flat position `32·i₀ + i₁`, the gathered row number of sample `2048·7 + i₀`, feature `i₁`. When every gathered
  row number is below 786432 (the range fact), every word of the table is, which is the side condition under which the
  pipeline is pinned at the table.
-/
import proofs.«402893_j78554951844377_2_alg».proof.Proof.Gen.Kernel.Regions
import proofs.«402893_j78554951844377_2_alg».proof.Proof.Spec
import proofs.«402893_j78554951844377_2_alg».proof.Proof.R7BaseBits
import proofs.«402893_j78554951844377_2_alg».proof.Proof.OkTablesBits
import proofs.«402893_j78554951844377_2_alg».proof.Proof.KHostBits
import proofs.«402893_j78554951844377_2_alg».proof.Proof.TileLibBits
import Idealize.ShloMosaic.Lib.ValueIdx

noncomputable section

namespace Cert.Kernel.Hand

open Idealize.ShloMosaic Idealize.ShloMosaic.TcCoe
open Cert.Kernel Cert.Kernel.Gen Idealize.ShloMosaic.ValueIdx

variable {F : FTy → Type} [FloatOps F]

/-- The buffers when region 7 is entered: the valuation after the host stretch that cuts tile 7's operands. -/
abbrev V7in (m : (ℓ : Loc nD τ sig) → Buf (Elt F) ℓ) : (c : Dev nD) → (b : Ref sig .tc) → Buf (Elt F) ((c : Thread nD τ).loc b) :=
  fun c b => V19 m (outsL m) c b

variable (m : (ℓ : Loc nD τ sig) → Buf (Elt F) ℓ)

/-- The table word read at grid point `(i₀, i₁)` is the gathered row number of sample `2048·7 + i₀`, feature `i₁`: the
    word sits at flat position `32·i₀ + i₁`, whose quotient and remainder by 32 are `i₀` and `i₁`. -/
theorem tword7_V7in (c : Dev nD) (i : grid7.Coords) :
    tword7 (tbl7 (V7in m)) i
      = Spec.gidxOf (m ((c : Thread nD τ).loc main_arg0)) (m ((c : Thread nD τ).loc main_arg1)) (m ((c : Thread nD τ).loc main_arg2))
          (ValueIdx.ix2 (⟨2048 * 7 + (i 0).val, by have h0 : (i 0).val < 2048 := (i 0).isLt; omega⟩ : Fin 16384)
            (⟨(i 1).val, (i 1).isLt⟩ : Fin 32)) := by
  obtain rfl : c = 0 := Subsingleton.elim _ _
  have h0 : (i 0).val < 2048 := (i 0).isLt
  have h1 : (i 1).val < 32 := (i 1).isLt
  show V7in m 0 main_v78 (ValueIdx.ix1 ⟨32 * (i 0).val + (i 1).val, pos_lt7 i⟩) = _
  refine (tbl7_apply m (outsL m) 0 ⟨32 * (i 0).val + (i 1).val, pos_lt7 i⟩).trans ?_
  exact congrArg _ (ix2_congr (by show 2048 * 7 + (32 * (i 0).val + (i 1).val) / 32 = 2048 * 7 + (i 0).val; omega)
    (by show (32 * (i 0).val + (i 1).val) % 32 = (i 1).val; omega))

/-- Under the range fact the table satisfies the pipeline's side condition: every word it holds is a gathered row
    number, hence below 786432. (There is one device, so the range fact may be given at any core `c`.) -/
theorem ok7_of_inRange (c : Dev nD)
    (hin : Spec.InRange (Spec.gidxOf (m ((c : Thread nD τ).loc main_arg0)) (m ((c : Thread nD τ).loc main_arg1)) (m ((c : Thread nD τ).loc main_arg2)))) :
    Ok7 (V7in m) :=
  ok7_of (tbl7 (V7in m)) fun i => by rw [tword7_V7in m c i]; exact hin _ _

end Cert.Kernel.Hand

end
-- ==== Proof.R7GridBits.lean ====
import proofs.«402893_j78554951844377_2_alg».proof.Proof.R7RunBits
import Idealize.ShloMosaic.Lib.Pipeline.Kit
import Mathlib.Data.Fin.VecNotation

noncomputable section

namespace Cert.Kernel.Hand

open Cert.Kernel Cert.Kernel.Gen
open Idealize.ShloMosaic
open Idealize.ShloMosaic.Pipeline (Cfg Window)

variable {F : FTy → Type} [FloatOps F]

/-! # Tile 7: the arithmetic of its grid

The grid has 2048 · 32 points, run row-major with the feature axis fastest: point `t` is sample `t / 32`, feature
`t % 32`. The body's two conditions read only the feature coordinate (it is 0, it is 31). Windows 1 to 4 take the
block whose leading index is the sample, so an output block is complete, and written back, exactly at the sample's
last feature. -/

/-- Each value of the sample coordinate is shared by 32 consecutive points. -/
theorem stride7_0 : grid7.stride 0 = 32 := by decide
/-- The feature coordinate changes at every point. -/
theorem stride7_1 : grid7.stride 1 = 1 := by decide

/-- The sample coordinate of point `t` is `t / 32`: the quotient is below 2048, so reducing it modulo the
    axis's bound changes nothing. -/
theorem coords7_val0 (t : Fin grid7.N) : ((grid7.coords t) 0).val = t.val / 32 := by
  have ht : t.val < 65536 := N_7 ▸ t.isLt
  show t.val / grid7.stride 0 % 2048 = t.val / 32
  rw [stride7_0]; omega

/-- The feature coordinate of point `t` is `t % 32`. -/
theorem coords7_val1 (t : Fin grid7.N) : ((grid7.coords t) 1).val = t.val % 32 := by
  show t.val / grid7.stride 1 % 32 = t.val % 32
  rw [stride7_1, Nat.div_one]

/-- The first condition holds exactly at feature 0: checked at each of the 32 values of the coordinate. -/
theorem cond7_0_iff (i : grid7.Coords) : cond7_0 i ↔ (i 1).val = 0 := by
  have h : ∀ j : Fin 32, (Scalar.cmpi .ne (Scalar.extui (Scalar.cmpi .eq (BitVec.ofNat 32 j.val) 0#32)) 0#32) = 1#1 ↔ j.val = 0 := by decide
  exact h (i 1)

/-- The second condition holds exactly at feature 31: checked at each of the 32 values of the coordinate. -/
theorem cond7_1_iff (i : grid7.Coords) : cond7_1 i ↔ (i 1).val = 31 := by
  have h : ∀ j : Fin 32, (Scalar.cmpi .ne (Scalar.extui (Scalar.cmpi .eq (BitVec.ofNat 32 j.val) 31#32)) 0#32) = 1#1 ↔ j.val = 31 := by decide
  exact h (i 1)

/-- The first point is a first feature. -/
theorem cond7_0_first (t : Fin grid7.N) (h : t.val = 0) : cond7_0 (grid7.coords t) := by
  rw [cond7_0_iff, coords7_val1, h]

/-- No feature is both the first and the last. -/
theorem not_both7 (i : grid7.Coords) : cond7_0 i → cond7_1 i → False := by
  rw [cond7_0_iff, cond7_1_iff]; omega

/-- A sample number, made a 32-bit word and read back, is itself. -/
private theorem toNat_ofNat_sample (t : Fin grid7.N) : (BitVec.ofNat 32 ((grid7.coords t) 0).val).toNat = t.val / 32 := by
  have ht : t.val < 65536 := N_7 ▸ t.isLt
  rw [coords7_val0, BitVec.toNat_ofNat, Nat.mod_eq_of_lt (by omega)]

/-- Window 1's block at point `t` is the one of sample `t / 32`. -/
theorem index7_1 (a : (pcfg7 (F := F)).Adm) (t : Fin (cfg7 a).N) : ((cfg7 a).win 1).index t = ![t.val / 32, 0, 0] := by
  show (![(BitVec.ofNat 32 ((grid7.coords t) 0).val).toNat, (0#32).toNat, (0#32).toNat] : Fin 3 → ℕ) = _
  rw [toNat_ofNat_sample]; rfl
/-- Window 2's block at point `t` is the one of sample `t / 32`. -/
theorem index7_2 (a : (pcfg7 (F := F)).Adm) (t : Fin (cfg7 a).N) : ((cfg7 a).win 2).index t = ![t.val / 32, 0, 0] := by
  show (![(BitVec.ofNat 32 ((grid7.coords t) 0).val).toNat, (0#32).toNat, (0#32).toNat] : Fin 3 → ℕ) = _
  rw [toNat_ofNat_sample]; rfl
/-- Window 3's block at point `t` is the one of sample `t / 32`. -/
theorem index7_3 (a : (pcfg7 (F := F)).Adm) (t : Fin (cfg7 a).N) : ((cfg7 a).win 3).index t = ![t.val / 32, 0, 0] := by
  show (![(BitVec.ofNat 32 ((grid7.coords t) 0).val).toNat, (0#32).toNat, (0#32).toNat] : Fin 3 → ℕ) = _
  rw [toNat_ofNat_sample]; rfl
/-- The output window's block at point `t` is the one of sample `t / 32`. -/
theorem index7_4 (a : (pcfg7 (F := F)).Adm) (t : Fin (cfg7 a).N) : ((cfg7 a).win 4).index t = ![t.val / 32, 0, 0] := by
  show (![(BitVec.ofNat 32 ((grid7.coords t) 0).val).toNat, (0#32).toNat, (0#32).toNat] : Fin 3 → ℕ) = _
  rw [toNat_ofNat_sample]; rfl

/-- Two block indices with the same trailing zeros differ exactly when their leading entries do. -/
private theorem vec3_ne_iff (m n : ℕ) : (![m, 0, 0] : Fin 3 → ℕ) ≠ ![n, 0, 0] ↔ m ≠ n :=
  ⟨fun h e => h (e ▸ rfl), fun h e => h (congrFun e 0)⟩

/-- The output block is written back exactly at a sample's last feature: the last point of the grid is one (65535 is
    31 modulo 32), and the next point's sample `(t + 1) / 32` differs from `t / 32` exactly when `t % 32 = 31`. -/
theorem flush7_4_iff (a : (pcfg7 (F := F)).Adm) (t : Fin (cfg7 a).N) : ((cfg7 a).win 4).flush t = true ↔ t.val % 32 = 31 := by
  have hN : (cfg7 a).N = 65536 := N_7
  have ht : t.val < 65536 := hN ▸ t.isLt
  have hout : ((cfg7 a).win 4).isOut = true := rfl
  unfold Window.flush
  rw [hout, Bool.true_and, Bool.or_eq_true, decide_eq_true_eq, decide_eq_true_eq]
  constructor
  · rintro (h | ⟨h, hne⟩)
    · have h' : t.val + 1 = 65536 := h.trans hN
      omega
    · rw [index7_4, index7_4] at hne
      have hne' : (t.val + 1) / 32 ≠ t.val / 32 := (vec3_ne_iff _ _).mp hne
      omega
  · intro h31
    by_cases hl : t.val + 1 = 65536
    · exact Or.inl (hl.trans hN.symm)
    · have hlt : t.val + 1 < (cfg7 a).N := Nat.lt_of_lt_of_eq (by omega : t.val + 1 < 65536) hN.symm
      refine Or.inr ⟨hlt, ?_⟩
      rw [index7_4, index7_4]
      have hne' : (t.val + 1) / 32 ≠ t.val / 32 := by omega
      exact (vec3_ne_iff _ _).mpr hne'

/-- At a sample's last feature the output block is written back. -/
theorem flush7_4 (a : (pcfg7 (F := F)).Adm) (t : Fin (cfg7 a).N) (h : cond7_1 (grid7.coords t)) : ((cfg7 a).win 4).flush t = true := by
  rw [flush7_4_iff, ← coords7_val1]; exact (cond7_1_iff _).mp h

/-- At any other feature the output block stays. -/
theorem noFlush7_4 (a : (pcfg7 (F := F)).Adm) (t : Fin (cfg7 a).N) (h : ¬cond7_1 (grid7.coords t)) : ((cfg7 a).win 4).flush t = false := by
  rw [← Bool.not_eq_true, flush7_4_iff, ← coords7_val1]; exact fun e => h ((cond7_1_iff _).mpr e)

end Cert.Kernel.Hand

end
-- ==== Proof.R7AccBits.lean ====
import proofs.«402893_j78554951844377_2_alg».proof.Proof.Gen.Kernel.Launch
import proofs.«402893_j78554951844377_2_alg».proof.Proof.Gen.Kernel.Skeleton
import proofs.«402893_j78554951844377_2_alg».proof.Proof.R7BaseBits
import proofs.«402893_j78554951844377_2_alg».proof.Proof.R7GridBits
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Tile 7: what the scratch and the result block hold point by point, and the body obligation

After the body at point `n` the scratch holds the running lane-wise sum of the current sample's gathered rows: at a
sample's first feature `0 + row`, afterwards what the point before left plus the row. At a sample's last feature the
result block receives the sample's result computed from that sum. The region's invariant carries the scratch at
exactly those contents from point to point, beside the table and everything else scoped. -/

variable (V : (c : Dev nD) → (b : Ref sig .tc) → Buf (Elt F) ((c : Thread nD τ).loc b))

/-- The four input blocks at a point, at their literal vector types. -/
abbrev xrow7 (hO : Ok7 V) (c : Dev nD) (t : Fin (cfgM7 V hO).N) : Vec F S1x1x128 .f32 := iblk7 V hO c 0 t
abbrev xpa7 (hO : Ok7 V) (c : Dev nD) (t : Fin (cfgM7 V hO).N) : Vec F S1x1x128 .f32 := iblk7 V hO c 1 t
abbrev xw7 (hO : Ok7 V) (c : Dev nD) (t : Fin (cfgM7 V hO).N) : Vec F S1x1x128 .f32 := iblk7 V hO c 2 t
abbrev xb7 (hO : Ok7 V) (c : Dev nD) (t : Fin (cfgM7 V hO).N) : Vec F S1x1x1 .f32 := iblk7 V hO c 3 t

/-- THE ACCUMULATION: the scratch after the body at position `n`. -/
def accAt7 (hO : Ok7 V) (c : Dev nD) : (n : ℕ) → n < (cfgM7 V hO).N → Vec F S1x1x128 .f32
  | 0, hn => k7_pay2 (k7_pay1 (F := F)) (xrow7 V hO c ⟨0, hn⟩)
  | n + 1, hn =>
    if cond7_0 (grid7.coords ⟨n + 1, hn⟩) then k7_pay2 (k7_pay1 (F := F)) (xrow7 V hO c ⟨n + 1, hn⟩)
    else k7_pay2 (accAt7 hO c n (Nat.lt_of_succ_lt hn)) (xrow7 V hO c ⟨n + 1, hn⟩)

/-- At a sample's first feature the scratch restarts from zero. -/
theorem accAt7_A (hO : Ok7 V) (c : Dev nD) (t : Fin (cfgM7 V hO).N) (h0 : cond7_0 (grid7.coords t)) :
    accAt7 V hO c t.val t.isLt = k7_pay2 (k7_pay1 (F := F)) (xrow7 V hO c t) := by
  obtain ⟨n, hn⟩ := t
  cases n with
  | zero => rfl
  | succ n => exact if_pos h0

/-- Elsewhere it adds the row to what the point before left. -/
theorem accAt7_B (hO : Ok7 V) (c : Dev nD) (t : Fin (cfgM7 V hO).N) (h0 : ¬cond7_0 (grid7.coords t)) (hz : t.val ≠ 0) :
    accAt7 V hO c t.val t.isLt = k7_pay2 (accAt7 V hO c (t.val - 1) (by omega)) (xrow7 V hO c t) := by
  obtain ⟨n, hn⟩ := t
  cases n with
  | zero => exact absurd rfl hz
  | succ n => exact if_neg h0

/-- The sample's result as the body computes it at a point (read at the last feature). -/
def outAt7 (hO : Ok7 V) (c : Dev nD) (t : Fin (cfgM7 V hO).N) : Vec F S1x1x1 .f32 :=
  k7_pay3 (accAt7 V hO c t.val t.isLt) (xpa7 V hO c t) (xw7 V hO c t) (xb7 V hO c t)

/-- What rides along unread: the other scoped buffers, the generator register, the table. -/
def Rest7 (c : Dev nD) : sProp 𝕄 :=
  iprop(Pipeline.scopedRestBut (Ix := Unit) (Name := ℕ) (U := UR sig nD τ) (Lvl := ℕ) (Val := Elt F) spec7 c [cc7_scratch0]
    ∗ (∃ r, prngReg c r) ∗ Pipeline.prefHeld (Ix := Unit) (Name := ℕ) (U := UR sig nD τ) (Lvl := ℕ) pre7 c (fun _ => fullShare) (tbl7 V))

/-- The region invariant before position `n`: the scratch at anything before the first point, afterwards at what
    the point before left. -/
def PhiS7 (hO : Ok7 V) (c : Dev nD) : (n : ℕ) → n ≤ (cfgM7 V hO).N → sProp 𝕄
  | 0, _ => iprop((∃ d, owns (c : Thread nD τ) scM7 fullShare d) ∗ Rest7 V c)
  | n + 1, hn => iprop(owns (c : Thread nD τ) scM7 fullShare (accAt7 V hO c n hn) ∗ Rest7 V c)

theorem PhiS7_zero (hO : Ok7 V) (c : Dev nD) (n : ℕ) (h : n ≤ (cfgM7 V hO).N) (hz : n = 0) :
    PhiS7 V hO c n h = iprop((∃ d, owns (c : Thread nD τ) scM7 fullShare d) ∗ Rest7 V c) := by
  subst hz; rfl
theorem PhiS7_succ (hO : Ok7 V) (c : Dev nD) (n : ℕ) (hn : n < (cfgM7 V hO).N) :
    PhiS7 V hO c (n + 1) hn = iprop(owns (c : Thread nD τ) scM7 fullShare (accAt7 V hO c n hn) ∗ Rest7 V c) := rfl
theorem PhiS7_pos (hO : Ok7 V) (c : Dev nD) (n : ℕ) (h : n ≤ (cfgM7 V hO).N) (hz : n ≠ 0) :
    PhiS7 V hO c n h = iprop(owns (c : Thread nD τ) scM7 fullShare (accAt7 V hO c (n - 1) (by omega)) ∗ Rest7 V c) := by
  cases n with
  | zero => exact absurd rfl hz
  | succ n => rfl

/-- The proof data of the tile's pipeline on core `c`: the arrays as the region finds them; after the body each input's
    buffer at its block and the result's at `outAt7`; the invariant `PhiS7`; nothing owed; full shares. -/
def dat7 (hO : Ok7 V) (c : Dev nD) : Dat τ (Elt F) Unit ℕ (UR sig nD τ) ℕ (cfgM7 V hO) c where
  A w := V c (Pipeline.arrRef spec7 w)
  after w t := match w with
    | ⟨0, _⟩ => iblk7 V hO c 0 t
    | ⟨1, _⟩ => iblk7 V hO c 1 t
    | ⟨2, _⟩ => iblk7 V hO c 2 t
    | ⟨3, _⟩ => iblk7 V hO c 3 t
    | ⟨4, _⟩ => outAt7 V hO c t
  Φ t := PhiS7 V hO c t.val (Nat.le_of_lt_succ t.isLt)
  q _ := fullShare
  owed _ := 0

theorem A_eq7 (hO : Ok7 V) (c : Dev nD) (w : Fin (cfgM7 V hO).W) : (dat7 V hO c).A w = V c (Pipeline.arrRef spec7 w) := by
  dsimp only [dat7]
theorem PhiS7_castSucc (hO : Ok7 V) (c : Dev nD) (t : Fin (cfgM7 V hO).N) :
    (dat7 V hO c).Φ t.castSucc = PhiS7 V hO c t.val (Nat.le_of_lt t.isLt) := by
  dsimp only [dat7]; simp only [Fin.coe_castSucc]
theorem after7_0 (hO : Ok7 V) (c : Dev nD) (t : Fin (cfgM7 V hO).N) : (dat7 V hO c).after 0 t = iblk7 V hO c 0 t := by dsimp only [dat7]; try rfl
theorem after7_1 (hO : Ok7 V) (c : Dev nD) (t : Fin (cfgM7 V hO).N) : (dat7 V hO c).after 1 t = iblk7 V hO c 1 t := by dsimp only [dat7]; try rfl
theorem after7_2 (hO : Ok7 V) (c : Dev nD) (t : Fin (cfgM7 V hO).N) : (dat7 V hO c).after 2 t = iblk7 V hO c 2 t := by dsimp only [dat7]; try rfl
theorem after7_3 (hO : Ok7 V) (c : Dev nD) (t : Fin (cfgM7 V hO).N) : (dat7 V hO c).after 3 t = iblk7 V hO c 3 t := by dsimp only [dat7]; try rfl
theorem after7_4 (hO : Ok7 V) (c : Dev nD) (t : Fin (cfgM7 V hO).N) : (dat7 V hO c).after 4 t = outAt7 V hO c t := by dsimp only [dat7]; try rfl

theorem before7_0 (hO : Ok7 V) (c : Dev nD) (t : Fin (cfgM7 V hO).N) (d) : (dat7 V hO c).before 0 t d = iblk7 V hO c 0 t :=
  before7_0_of V hO (dat7 V hO c) (A_eq7 V hO c 0) (after7_0 V hO c) t d
theorem before7_1 (hO : Ok7 V) (c : Dev nD) (t : Fin (cfgM7 V hO).N) (d) : (dat7 V hO c).before 1 t d = iblk7 V hO c 1 t :=
  before7_1_of V hO (dat7 V hO c) (A_eq7 V hO c 1) (after7_1 V hO c) t d
theorem before7_2 (hO : Ok7 V) (c : Dev nD) (t : Fin (cfgM7 V hO).N) (d) : (dat7 V hO c).before 2 t d = iblk7 V hO c 2 t :=
  before7_2_of V hO (dat7 V hO c) (A_eq7 V hO c 2) (after7_2 V hO c) t d
theorem before7_3 (hO : Ok7 V) (c : Dev nD) (t : Fin (cfgM7 V hO).N) (d) : (dat7 V hO c).before 3 t d = iblk7 V hO c 3 t :=
  before7_3_of V hO (dat7 V hO c) (A_eq7 V hO c 3) (after7_3 V hO c) t d

/-- What the body is called with at point `t`, the windows one by one, -/
def bodyPre7 (hO : Ok7 V) (c : Dev nD) (t : Fin (cfgM7 V hO).N) : sProp 𝕄 :=
  iprop((dat7 V hO c).Φ t.castSucc ∗ (dat7 V hO c).owesAt () t.castSucc
    ∗ (∃ d, owns (c : Thread nD τ) (ms7_0 V hO t) fullShare ((dat7 V hO c).before 0 t d))
    ∗ (∃ d, owns (c : Thread nD τ) (ms7_1 V hO t) fullShare ((dat7 V hO c).before 1 t d))
    ∗ (∃ d, owns (c : Thread nD τ) (ms7_2 V hO t) fullShare ((dat7 V hO c).before 2 t d))
    ∗ (∃ d, owns (c : Thread nD τ) (ms7_3 V hO t) fullShare ((dat7 V hO c).before 3 t d))
    ∗ (∃ d, owns (c : Thread nD τ) (ms7_4 V hO t) fullShare ((dat7 V hO c).before 4 t d)))

/-- and what it returns. -/
def bodyPost7 (hO : Ok7 V) (c : Dev nD) (t : Fin (cfgM7 V hO).N) : sProp 𝕄 :=
  iprop((dat7 V hO c).Φ t.succ ∗ (dat7 V hO c).owesAt () t.succ
    ∗ (dat7 V hO c).leavesExact 0 t
    ∗ (dat7 V hO c).leavesExact 1 t
    ∗ (dat7 V hO c).leavesExact 2 t
    ∗ (dat7 V hO c).leavesExact 3 t
    ∗ (dat7 V hO c).leavesExact 4 t)

/-- The windows' idle flags at a point, stated at the pinned configuration. -/
theorem liveAtM7_0 (hO : Ok7 V) (t : Fin (cfgM7 V hO).N) : (cfgM7 V hO).idle 0 ((cfgM7 V hO).grid.coords t) = false := rfl
theorem liveAtM7_1 (hO : Ok7 V) (t : Fin (cfgM7 V hO).N) : (cfgM7 V hO).idle 1 ((cfgM7 V hO).grid.coords t) = false := rfl
theorem liveAtM7_2 (hO : Ok7 V) (t : Fin (cfgM7 V hO).N) : (cfgM7 V hO).idle 2 ((cfgM7 V hO).grid.coords t) = false := rfl
theorem liveAtM7_3 (hO : Ok7 V) (t : Fin (cfgM7 V hO).N) : (cfgM7 V hO).idle 3 ((cfgM7 V hO).grid.coords t) = false := rfl
theorem idleAtM7_4 (hO : Ok7 V) (t : Fin (cfgM7 V hO).N) (h : ¬cond7_1 (grid7.coords t)) :
    (cfgM7 V hO).idle 4 ((cfgM7 V hO).grid.coords t) = true := idleAt7_4 (adm7 V hO) (grid7.coords t) h
theorem liveAtM7_4 (hO : Ok7 V) (t : Fin (cfgM7 V hO).N) (h : cond7_1 (grid7.coords t)) :
    (cfgM7 V hO).idle 4 ((cfgM7 V hO).grid.coords t) = false := liveAt7_4 (adm7 V hO) (grid7.coords t) h

set_option maxHeartbeats 4800000 in
/-- The body at any point: the inputs' buffers hold their blocks; which of the three cases the point is in decides the run;
    the invariant hands the body the scratch at what the point before left (at anything at the first point) and takes it
    back at this point's contents; the result window is handed back untouched off the last feature. -/
theorem sound_body7 (hO : Ok7 V) (c : Dev nD) (t : Fin (cfgM7 V hO).N) :
    bodyPre7 V hO c t ⊢ wp frame (wpE (defs₀ (F := F)) Variants.none c none) Set.univ (bodyAt7 (adm7 V hO) t) (fun _ => bodyPost7 V hO c t) := by
  unfold bodyPre7 bodyPost7 bodyAt7
  simp only [before7_0, before7_1, before7_2, before7_3]
  rw [show (dat7 V hO c).owesAt () t.succ = (dat7 V hO c).owesAt () t.castSucc from rfl]
  rw [show (dat7 V hO c).Φ t.succ = PhiS7 V hO c (t.val + 1) t.isLt from rfl, PhiS7_succ]
  rw [show (dat7 V hO c).leavesExact 0 t = owns (c : Thread nD τ) (ms7_0 V hO t) fullShare ((dat7 V hO c).after 0 t) from by
    unfold Dat.leavesExact; rw [liveAtM7_0 V hO t]; try rfl]
  rw [after7_0]
  rw [show (dat7 V hO c).leavesExact 1 t = owns (c : Thread nD τ) (ms7_1 V hO t) fullShare ((dat7 V hO c).after 1 t) from by
    unfold Dat.leavesExact; rw [liveAtM7_1 V hO t]; try rfl]
  rw [after7_1]
  rw [show (dat7 V hO c).leavesExact 2 t = owns (c : Thread nD τ) (ms7_2 V hO t) fullShare ((dat7 V hO c).after 2 t) from by
    unfold Dat.leavesExact; rw [liveAtM7_2 V hO t]; try rfl]
  rw [after7_2]
  rw [show (dat7 V hO c).leavesExact 3 t = owns (c : Thread nD τ) (ms7_3 V hO t) fullShare ((dat7 V hO c).after 3 t) from by
    unfold Dat.leavesExact; rw [liveAtM7_3 V hO t]; try rfl]
  rw [after7_3]
  rw [PhiS7_castSucc]
  by_cases h0 : cond7_0 (grid7.coords t)
  · by_cases h1 : cond7_1 (grid7.coords t)
    · exact absurd h1 (fun h => not_both7 _ h0 h)
    · rw [Dat.leavesExact_idle (dat7 V hO c) 4 t (idleAtM7_4 V hO t h1) (noFlush7_4 (adm7 V hO) t h1)]
      rw [accAt7_A V hO c t h0]
      by_cases hz : t.val = 0
      · rw [PhiS7_zero V hO c _ _ hz]
        iintro ⟨⟨HS, HR⟩, Ho, ⟨%d0, H0⟩, ⟨%d1, H1⟩, ⟨%d2, H2⟩, ⟨%d3, H3⟩, ⟨%d4, H4⟩⟩
        iapply (run7_A c (grid7.coords t) _ _ _ _ _ _ _ _ _ _ _ _ _ _ h0 h1 (xrow7 V hO c t) Set.univ _)
        isplitl [H0]; · iexact H0
        isplitl [HS]; · iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
      · rw [PhiS7_pos V hO c _ _ hz]
        iintro ⟨⟨HS, HR⟩, Ho, ⟨%d0, H0⟩, ⟨%d1, H1⟩, ⟨%d2, H2⟩, ⟨%d3, H3⟩, ⟨%d4, H4⟩⟩
        iapply (run7_A c (grid7.coords t) _ _ _ _ _ _ _ _ _ _ _ _ _ _ h0 h1 (xrow7 V hO c t) Set.univ _)
        isplitl [H0]; · iexact H0
        isplitl [HS]; · iexists _; iexact HS
        iintro ⟨H0, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (cond7_0_first t hz)
    rw [PhiS7_pos V hO c _ _ hz, accAt7_B V hO c t h0 hz]
    by_cases h1 : cond7_1 (grid7.coords t)
    · rw [show (dat7 V hO c).leavesExact 4 t = owns (c : Thread nD τ) (ms7_4 V hO t) fullShare ((dat7 V hO c).after 4 t) from by
        unfold Dat.leavesExact; rw [liveAtM7_4 V hO t h1]; try rfl]
      rw [after7_4]
      unfold outAt7
      rw [accAt7_B V hO c t h0 hz]
      iintro ⟨⟨HS, HR⟩, Ho, ⟨%d0, H0⟩, ⟨%d1, H1⟩, ⟨%d2, H2⟩, ⟨%d3, H3⟩, ⟨%d4, H4⟩⟩
      iapply (run7_C c (grid7.coords t) _ _ _ _ _ _ _ _ _ _ _ _ _ _ h0 h1 (xrow7 V hO c t) (xpa7 V hO c t) (xw7 V hO c t) (xb7 V hO c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · rw [Dat.leavesExact_idle (dat7 V hO c) 4 t (idleAtM7_4 V hO t h1) (noFlush7_4 (adm7 V hO) t h1)]
      iintro ⟨⟨HS, HR⟩, Ho, ⟨%d0, H0⟩, ⟨%d1, H1⟩, ⟨%d2, H2⟩, ⟨%d3, H3⟩, ⟨%d4, H4⟩⟩
      iapply (run7_B c (grid7.coords t) _ _ _ _ _ _ _ _ _ _ _ _ _ _ h0 h1 (xrow7 V hO c t) _ Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation7 (hO : Ok7 V) (c : Dev nD) :
    BodyObligation (dat7 (F := F) V hO c) (defs₀ (F := F)) Variants.none () Set.univ := fun t => by
  rw [bigSep_W7, bigSep_W7]
  exact sound_body7 V hO c t

end Cert.Kernel.Hand

end
-- ==== Proof.R7ValBits.lean ====
import proofs.«402893_j78554951844377_2_alg».proof.Proof.R7AccBits
import proofs.«402893_j78554951844377_2_alg».proof.Proof.R7GridBits
import proofs.«402893_j78554951844377_2_alg».proof.Proof.OkTablesBits
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # Tile 7: what the region leaves in its result array, and its input blocks at coordinates

A block of a window is one row of its array: the block index on the leading axis, the whole extent on the others. So
an element of a block sits in the array at (block index, 0, lane). The result window's block is written back at a
sample's last feature, point `32 r + 31` for sample `r`; these 2048 blocks are the 2048 rows of the result array,
so after the run row `r` holds what the body left at point `32 r + 31`. -/

/-! ## The pipeline's blocks at any admissible table -/

/-- A point's sample number is below 2048. -/
theorem sample_lt7 (t : Fin grid7.N) : t.val / 32 < 2048 := by
  have ht : t.val < 65536 := N_7 ▸ t.isLt
  omega

/-- The last feature of sample `r` is a point of the grid. -/
theorem lastPt_lt7 (r : ℕ) (hr : r < 2048) : 32 * r + 31 < grid7.N := by rw [N_7]; omega

/-- Under the side condition every word the index map of window 0 reads names a row of the embedding table. -/
theorem tword7_lt (pf : pre7.Contents (Elt F)) (h : ok7 pf) (i : grid7.Coords) : (tword7 pf i).toNat < 786432 := by
  obtain ⟨hb, -⟩ := h i
  have h0 := hb 0
  rw [transform7_eq pf i] at h0
  have h0' : ((tword7 pf i).toNat + 1) * 1 ≤ 786432 := h0
  omega

/-- Window 0's block at point `t` is the row the table's word names. -/
theorem index7_0 (a : (pcfg7 (F := F)).Adm) (t : Fin (cfg7 a).N) :
    ((cfg7 a).win 0).index t = ![(tword7 a.1 (grid7.coords t)).toNat, 0, 0] :=
  transform7_eq a.1 (grid7.coords t)

/-- Lane `l` of window 0's block sits in the embedding table at (the named row, 0, l). -/
theorem emb7_0 (a : (pcfg7 (F := F)).Adm) (t : Fin (cfg7 a).N) (l : Fin 128) :
    (((cfg7 a).win 0).blk t).view.emb (ValueIdx.ix3 (0 : Fin 1) (0 : Fin 1) l)
      = ValueIdx.ix3 (⟨(tword7 a.1 (grid7.coords t)).toNat, tword7_lt a.1 a.2 (grid7.coords t)⟩ : Fin 786432) (0 : Fin 1) l := by
  funext d; apply Fin.ext
  match d with
  | ⟨0, _⟩ => show ((cfg7 a).win 0).index t (0 : Fin 3) * 1 + 1 * 0 = (tword7 a.1 (grid7.coords t)).toNat; rw [index7_0]; show (tword7 a.1 (grid7.coords t)).toNat * 1 + 1 * 0 = _; omega
  | ⟨1, _⟩ => show ((cfg7 a).win 0).index t (1 : Fin 3) * 1 + 1 * 0 = 0; rw [index7_0]; rfl
  | ⟨2, _⟩ => show ((cfg7 a).win 0).index t (2 : Fin 3) * 128 + 1 * l.val = l.val; rw [index7_0]; show 0 * 128 + 1 * l.val = l.val; omega

/-- Lane `l` of window 1's block sits in its array at (sample, 0, l). -/
theorem emb7_1 (a : (pcfg7 (F := F)).Adm) (t : Fin (cfg7 a).N) (l : Fin 128) :
    (((cfg7 a).win 1).blk t).view.emb (ValueIdx.ix3 (0 : Fin 1) (0 : Fin 1) l)
      = ValueIdx.ix3 (⟨t.val / 32, sample_lt7 t⟩ : Fin 2048) (0 : Fin 1) l := by
  funext d; apply Fin.ext
  match d with
  | ⟨0, _⟩ => show ((cfg7 a).win 1).index t (0 : Fin 3) * 1 + 1 * 0 = t.val / 32; rw [index7_1]; show t.val / 32 * 1 + 1 * 0 = _; omega
  | ⟨1, _⟩ => show ((cfg7 a).win 1).index t (1 : Fin 3) * 1 + 1 * 0 = 0; rw [index7_1]; rfl
  | ⟨2, _⟩ => show ((cfg7 a).win 1).index t (2 : Fin 3) * 128 + 1 * l.val = l.val; rw [index7_1]; show 0 * 128 + 1 * l.val = l.val; omega

/-- Lane `l` of window 2's block sits in its array at (sample, 0, l). -/
theorem emb7_2 (a : (pcfg7 (F := F)).Adm) (t : Fin (cfg7 a).N) (l : Fin 128) :
    (((cfg7 a).win 2).blk t).view.emb (ValueIdx.ix3 (0 : Fin 1) (0 : Fin 1) l)
      = ValueIdx.ix3 (⟨t.val / 32, sample_lt7 t⟩ : Fin 2048) (0 : Fin 1) l := by
  funext d; apply Fin.ext
  match d with
  | ⟨0, _⟩ => show ((cfg7 a).win 2).index t (0 : Fin 3) * 1 + 1 * 0 = t.val / 32; rw [index7_2]; show t.val / 32 * 1 + 1 * 0 = _; omega
  | ⟨1, _⟩ => show ((cfg7 a).win 2).index t (1 : Fin 3) * 1 + 1 * 0 = 0; rw [index7_2]; rfl
  | ⟨2, _⟩ => show ((cfg7 a).win 2).index t (2 : Fin 3) * 128 + 1 * l.val = l.val; rw [index7_2]; show 0 * 128 + 1 * l.val = l.val; omega

/-- The one element of window 3's block sits in its array at (sample, 0, 0). -/
theorem emb7_3 (a : (pcfg7 (F := F)).Adm) (t : Fin (cfg7 a).N) :
    (((cfg7 a).win 3).blk t).view.emb (ValueIdx.ix3 (0 : Fin 1) (0 : Fin 1) (0 : Fin 1))
      = ValueIdx.ix3 (⟨t.val / 32, sample_lt7 t⟩ : Fin 2048) (0 : Fin 1) (0 : Fin 1) := by
  funext d; apply Fin.ext
  match d with
  | ⟨0, _⟩ => show ((cfg7 a).win 3).index t (0 : Fin 3) * 1 + 1 * 0 = t.val / 32; rw [index7_3]; show t.val / 32 * 1 + 1 * 0 = _; omega
  | ⟨1, _⟩ => show ((cfg7 a).win 3).index t (1 : Fin 3) * 1 + 1 * 0 = 0; rw [index7_3]; rfl
  | ⟨2, _⟩ => show ((cfg7 a).win 3).index t (2 : Fin 3) * 1 + 1 * 0 = 0; rw [index7_3]; rfl

/-- The one element of the result window's block sits in the result array at (sample, 0, 0). -/
theorem emb7_4 (a : (pcfg7 (F := F)).Adm) (t : Fin (cfg7 a).N) :
    (((cfg7 a).win 4).blk t).view.emb (ValueIdx.ix3 (0 : Fin 1) (0 : Fin 1) (0 : Fin 1))
      = ValueIdx.ix3 (⟨t.val / 32, sample_lt7 t⟩ : Fin 2048) (0 : Fin 1) (0 : Fin 1) := by
  funext d; apply Fin.ext
  match d with
  | ⟨0, _⟩ => show ((cfg7 a).win 4).index t (0 : Fin 3) * 1 + 1 * 0 = t.val / 32; rw [index7_4]; show t.val / 32 * 1 + 1 * 0 = _; omega
  | ⟨1, _⟩ => show ((cfg7 a).win 4).index t (1 : Fin 3) * 1 + 1 * 0 = 0; rw [index7_4]; rfl
  | ⟨2, _⟩ => show ((cfg7 a).win 4).index t (2 : Fin 3) * 1 + 1 * 0 = 0; rw [index7_4]; rfl

section AtTable

variable (V : (c : Dev nD) → (b : Ref sig .tc) → Buf (Elt F) ((c : Thread nD τ).loc b))

/-! ## The input blocks at coordinates -/

/-- The row of the embedding table gathered at point `t`: the table's word there. -/
abbrev rho7 (t : Fin grid7.N) : ℕ := (tword7 (tbl7 V) (grid7.coords t)).toNat

/-- It is a row of the table, under the side condition. -/
theorem rho7_lt (hO : Ok7 V) (t : Fin grid7.N) : rho7 V t < 786432 := tword7_lt (tbl7 V) hO (grid7.coords t)

/-- Lane `l` of the gathered row at point `t` is the embedding table at (the named row, 0, l). -/
theorem xrow7_apply (hO : Ok7 V) (c : Dev nD) (t : Fin (cfgM7 V hO).N) (l : Fin 128) :
    xrow7 V hO c t (ValueIdx.ix3 (0 : Fin 1) (0 : Fin 1) l)
      = V c main_v34 (ValueIdx.ix3 (⟨rho7 V t, rho7_lt V hO t⟩ : Fin 786432) (0 : Fin 1) l) := by
  show V c main_v34 ((((cfgM7 V hO).win 0).blk t).view.emb (ValueIdx.ix3 (0 : Fin 1) (0 : Fin 1) l)) = _
  exact congrArg (V c main_v34) (emb7_0 (adm7 V hO) t l)

/-- Lane `l` of the phase-bias block at point `t` is its array at (sample, 0, l). -/
theorem xpa7_apply (hO : Ok7 V) (c : Dev nD) (t : Fin (cfgM7 V hO).N) (l : Fin 128) :
    xpa7 V hO c t (ValueIdx.ix3 (0 : Fin 1) (0 : Fin 1) l)
      = V c main_v79 (ValueIdx.ix3 (⟨t.val / 32, sample_lt7 t⟩ : Fin 2048) (0 : Fin 1) l) := by
  show V c main_v79 ((((cfgM7 V hO).win 1).blk t).view.emb (ValueIdx.ix3 (0 : Fin 1) (0 : Fin 1) l)) = _
  exact congrArg (V c main_v79) (emb7_1 (adm7 V hO) t l)

/-- Lane `l` of the head-weight block at point `t` is its array at (sample, 0, l). -/
theorem xw7_apply (hO : Ok7 V) (c : Dev nD) (t : Fin (cfgM7 V hO).N) (l : Fin 128) :
    xw7 V hO c t (ValueIdx.ix3 (0 : Fin 1) (0 : Fin 1) l)
      = V c main_v80 (ValueIdx.ix3 (⟨t.val / 32, sample_lt7 t⟩ : Fin 2048) (0 : Fin 1) l) := by
  show V c main_v80 ((((cfgM7 V hO).win 2).blk t).view.emb (ValueIdx.ix3 (0 : Fin 1) (0 : Fin 1) l)) = _
  exact congrArg (V c main_v80) (emb7_2 (adm7 V hO) t l)

/-- The head-bias block at point `t` is its array at (sample, 0, 0). -/
theorem xb7_apply (hO : Ok7 V) (c : Dev nD) (t : Fin (cfgM7 V hO).N) :
    xb7 V hO c t (ValueIdx.ix3 (0 : Fin 1) (0 : Fin 1) (0 : Fin 1))
      = V c main_v81 (ValueIdx.ix3 (⟨t.val / 32, sample_lt7 t⟩ : Fin 2048) (0 : Fin 1) (0 : Fin 1)) := by
  show V c main_v81 ((((cfgM7 V hO).win 3).blk t).view.emb (ValueIdx.ix3 (0 : Fin 1) (0 : Fin 1) (0 : Fin 1))) = _
  exact congrArg (V c main_v81) (emb7_3 (adm7 V hO) t)

/-! ## The arrays after the run -/

/-- An input's array is never written: it ends as the region found it. -/
theorem arrAt7_in (hO : Ok7 V) (c : Dev nD) (w : Fin 5) (hw : w ≠ 4) :
    (dat7 V hO c).arrAt w (cfgM7 V hO).N = V c (Pipeline.arrRef spec7 w) := by
  have hin : ((cfgM7 V hO).win w).isOut = false := by
    match w with
    | ⟨0, _⟩ => rfl
    | ⟨1, _⟩ => rfl
    | ⟨2, _⟩ => rfl
    | ⟨3, _⟩ => rfl
    | ⟨4, _⟩ => exact absurd rfl hw
  exact ((dat7 V hO c).arrAt_in w hin _).trans (A_eq7 V hO c w)

/-- THE RESULT ARRAY of the tile: row `r` holds what the body left in the result block at sample `r`'s last feature. -/
def tileRes7 (hO : Ok7 V) (c : Dev nD) : Buf (Elt F) ((c : Thread nD τ).loc main_v82) :=
  fun (i : S2048x1x1.Idx) => outAt7 V hO c ⟨32 * (i 0).val + 31, lastPt_lt7 (i 0).val (i 0).isLt⟩ (ValueIdx.ix3 (0 : Fin 1) (0 : Fin 1) (0 : Fin 1))

theorem tileRes7_apply (hO : Ok7 V) (c : Dev nD) (r : Fin 2048) :
    tileRes7 V hO c (ValueIdx.ix3 r (0 : Fin 1) (0 : Fin 1))
      = outAt7 V hO c ⟨32 * r.val + 31, lastPt_lt7 r.val r.isLt⟩ (ValueIdx.ix3 (0 : Fin 1) (0 : Fin 1) (0 : Fin 1)) := rfl

/-- The result block read at two names of one point. -/
theorem outAt7_congr (hO : Ok7 V) (c : Dev nD) {t t' : Fin (cfgM7 V hO).N} (h : t.val = t'.val) (j : S1x1x1.Idx) :
    outAt7 V hO c t j = outAt7 V hO c t' j := by
  obtain rfl : t = t' := Fin.ext h
  rfl

/-- What a write-back writes is the written row of `tileRes7`: the point is its sample's last feature `32 (t / 32) + 31`,
    and the block's one element is the row's. -/
theorem flushed7_4_eq (hO : Ok7 V) (c : Dev nD) (t : Fin (cfgM7 V hO).N) (hf : ((cfgM7 V hO).win 4).flush t = true) :
    (dat7 V hO c).flushed 4 t = (((cfgM7 V hO).win 4).blk t).view.read (Elt F) (tileRes7 V hO c) := by
  have h31 : t.val % 32 = 31 := (flush7_4_iff (adm7 V hO) t).mp hf
  show ((cfgM7 V hO).win 4).cut (grid7.coords t) ((dat7 V hO c).after 4 t) = _
  rw [after7_4]
  funext j
  have hj : (((cfgM7 V hO).win 4).xinj (grid7.coords t) j : S1x1x1.Idx) = ValueIdx.ix3 (0 : Fin 1) (0 : Fin 1) (0 : Fin 1) := by
    funext d; apply Fin.ext
    match d with
    | ⟨0, _⟩ => have h : (j (0 : Fin 3)).val < 1 := (j (0 : Fin 3)).isLt; show (j (0 : Fin 3)).val = 0; omega
    | ⟨1, _⟩ => have h : (j (1 : Fin 3)).val < 1 := (j (1 : Fin 3)).isLt; show (j (1 : Fin 3)).val = 0; omega
    | ⟨2, _⟩ => have h : (j (2 : Fin 3)).val < 1 := (j (2 : Fin 3)).isLt; show (j (2 : Fin 3)).val = 0; omega
  have hv : t.val = 32 * (((((cfgM7 V hO).win 4).blk t).view.emb j : S2048x1x1.Idx) (0 : Fin 3)).val + 31 := by
    have h : (j (0 : Fin 3)).val < 1 := (j (0 : Fin 3)).isLt
    show t.val = 32 * (((cfgM7 V hO).win 4).index t (0 : Fin 3) * 1 + 1 * (j (0 : Fin 3)).val) + 31
    rw [index7_4]
    show t.val = 32 * (t.val / 32 * 1 + 1 * (j (0 : Fin 3)).val) + 31
    omega
  show outAt7 V hO c t (((cfgM7 V hO).win 4).xinj (grid7.coords t) j) = tileRes7 V hO c ((((cfgM7 V hO).win 4).blk t).view.emb j)
  rw [hj]
  exact outAt7_congr V hO c hv _

/-- Every row of the result array is some write-back's block: row `r` is the block of point `32 r + 31`. -/
theorem cover7_4 (hO : Ok7 V) (i : S2048x1x1.Idx) :
    ∃ t : Fin (cfgM7 V hO).N, ((cfgM7 V hO).win 4).flush t = true ∧ i ∈ (((cfgM7 V hO).win 4).blk t).view.set := by
  have h0 : (i 0).val < 2048 := (i 0).isLt
  have h1 : (i 1).val < 1 := (i 1).isLt
  have h2 : (i 2).val < 1 := (i 2).isLt
  refine ⟨⟨32 * (i 0).val + 31, lastPt_lt7 _ h0⟩, (flush7_4_iff (adm7 V hO) _).mpr (by show (32 * (i 0).val + 31) % 32 = 31; omega), ?_⟩
  have he : (((cfgM7 V hO).win 4).blk ⟨32 * (i 0).val + 31, lastPt_lt7 _ h0⟩).view.emb (ValueIdx.ix3 (0 : Fin 1) (0 : Fin 1) (0 : Fin 1)) = i := by
    refine (emb7_4 (adm7 V hO) ⟨32 * (i 0).val + 31, lastPt_lt7 _ h0⟩).trans ?_
    funext d; apply Fin.ext
    match d with
    | ⟨0, _⟩ => show (32 * (i 0).val + 31) / 32 = (i 0).val; omega
    | ⟨1, _⟩ => show 0 = (i 1).val; omega
    | ⟨2, _⟩ => show 0 = (i 2).val; omega
  have hm := (((cfgM7 V hO).win 4).blk ⟨32 * (i 0).val + 31, lastPt_lt7 _ h0⟩).view.emb_mem_set (ValueIdx.ix3 (0 : Fin 1) (0 : Fin 1) (0 : Fin 1))
  rw [he] at hm
  exact hm

/-- THE RESULT ARRAY AFTER THE RUN: the write-backs' blocks are the array's rows, so it ends holding `tileRes7`. -/
theorem arrAt7_4 (hO : Ok7 V) (c : Dev nD) : (dat7 V hO c).arrAt 4 (cfgM7 V hO).N = tileRes7 V hO c :=
  (dat7 V hO c).arrAt_eq_of_cover 4 (tileRes7 V hO c) (fun t hf => flushed7_4_eq V hO c t hf) (fun i => cover7_4 V hO i)

end AtTable

end Cert.Kernel.Hand

end
-- ==== Proof.R7SegBits.lean ====
/-
  Tile 7's kernel region as a segment of @main.

  A region's record says how the region is entered from a thread state and what it leaves. Here the thread state
  holds every unscoped buffer of the core at a valuation, beside the generator register at some state and the core
  owing nothing (`Rr`). Entering, the five windows' arrays are split out of the unscoped buffers at the contents the proof
  data start from; what is left of the unscoped buffers is the prefetched table, held whole at the contents the
  pipeline is pinned at, and the rest, which bypasses the region. The table and the generator register enter the
  region's invariant, where the invariant's first stage wants them beside the scratch buffer at any contents and the
  other scoped buffers; the last stage gives them back (the scratch at its last contents, forgotten). Leaving, the
  table and the rest make the unscoped rest again, and with the arrays at their final contents they are every
  unscoped buffer at the exit valuation, which has the arrays at those contents and agrees with the entry valuation
  elsewhere.

  The proof data are stated at contents `Vin` that agree with the true entry valuation `V` on the five arrays and on the
  table; nothing else of `V` is read.

  The record is typed over the whole family of pipelines. What it needs of pipeline 7's admissible contents and
  proof data is ten small facts (`Pinned7`); they hold of tile 7's own (`pinned_dat7`) and so of any family whose
  component 7 is tile 7's (`Pinned7.of_eq`).
-/
import proofs.«402893_j78554951844377_2_alg».proof.Proof.R7AccBits
import proofs.«402893_j78554951844377_2_alg».proof.Proof.FamilyBits
import proofs.«402893_j78554951844377_2_alg».proof.Proof.GlueBits
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the record needs of pipeline 7's contents and proof data -/

variable (Vin : (c : Dev nD) → (b : Ref sig .tc) → Buf (Elt F) ((c : Thread nD τ).loc b))

/-- The scratch operand owned whole at some contents is its buffer held at some contents. -/
theorem scratch7_eq (c : Dev nD) :
    (iprop(∃ d, owns (c : Thread nD τ) scM7 fullShare d) : sProp 𝕄)
      = iprop(∃ f : Buf (Elt F) ((c : Thread nD τ).loc cc7_scratch0), ((c : Thread nD τ).loc cc7_scratch0) ↦{fullShare} f) := by
  simp only [scM7, owns_whole]; try rfl

/-- What the record needs of pipeline 7's admissible table contents `a0` and proof data `d0`: the table is `Vin`'s; every
    array is held at the full share, starts at `Vin`'s contents and ends at `Vx`'s; nothing is owed at any point; the body
    obligation holds; the invariant's first stage follows from the scratch at any contents beside what rides along, and
    its last stage gives those back. -/
structure Pinned7 (Vx : Dev nD → Valuation τ sig (Elt F)) (a0 : (pcfgs (F := F) 7).Adm)
    (d0 : (c : Dev nD) → Dat τ (Elt F) Unit ℕ (UR sig nD τ) ℕ ((pcfgs (F := F) 7).at a0) c) : Prop where
  tbl : a0.1 = tbl7 Vin
  q : ∀ (c : Dev nD) w, (d0 c).q w = fullShare
  A : ∀ (c : Dev nD) w, (d0 c).A w = Vin c (Pipeline.arrRef spec7 w)
  owed : ∀ (c : Dev nD) t, (d0 c).owed t = 0
  body : ∀ c : Dev nD, Pipeline.BodyObligationLoose (d0 c) (defs₀ (F := F)) Variants.none () Set.univ
  phiIn : ∀ c : Dev nD, (iprop((∃ d, owns (c : Thread nD τ) scM7 fullShare d) ∗ Rest7 Vin c) : sProp 𝕄) ⊢ (d0 c).Φ 0
  phiOut : ∀ c : Dev nD, (d0 c).Φ (Fin.last _) ⊢ (iprop((∃ d, owns (c : Thread nD τ) scM7 fullShare d) ∗ Rest7 Vin c) : sProp 𝕄)
  owesIn : ∀ (c : Dev nD) W, (owes (c : Thread nD τ) (0 : CellTallies nD τ sig Unit) W : sProp 𝕄) ⊢ (d0 c).owesAt () 0
  owesOut : ∀ c : Dev nD, (d0 c).owesAt () (Fin.last _) ⊢ (iprop(∃ W, owes (c : Thread nD τ) (0 : CellTallies nD τ sig Unit) W) : sProp 𝕄)
  fin : ∀ (c : Dev nD) w, (d0 c).arrAt w ((pcfgs (F := F) 7).at a0).N = Vx c (Pipeline.arrRef spec7 w)

set_option maxHeartbeats 400000 in
/-- Tile 7's own contents and proof data have them: each field by unfolding the proof data; the last stage of the
    invariant is a later one (the grid has 65536 points), so it holds the scratch at the last point's contents. -/
theorem pinned_dat7 (hO : Ok7 Vin) (Vx : Dev nD → Valuation τ sig (Elt F))
    (hF : ∀ c w, (dat7 Vin hO c).arrAt w (cfgM7 Vin hO).N = Vx c (Pipeline.arrRef spec7 w)) :
    Pinned7 Vin Vx (adm7 Vin hO) (dat7 Vin hO) where
  tbl := rfl
  q c w := rfl
  A c w := A_eq7 Vin hO c w
  owed c t := rfl
  body c := (body_obligation7 Vin hO c).loose
  phiIn c := by
    rw [show (dat7 Vin hO c).Φ 0 = PhiS7 Vin hO c ((0 : Fin ((cfgM7 Vin hO).N + 1)).val) (Nat.le_of_lt_succ (0 : Fin ((cfgM7 Vin hO).N + 1)).isLt) from rfl,
      PhiS7_zero Vin hO c _ _ (Fin.val_zero _)]
  phiOut c := by
    have hN : (Fin.last (cfgM7 Vin hO).N).val ≠ 0 := by
      rw [Fin.val_last, show (cfgM7 Vin hO).N = grid7.N from rfl, N_7]; decide
    show PhiS7 Vin hO c (Fin.last (cfgM7 Vin hO).N).val (Nat.le_of_lt_succ (Fin.last (cfgM7 Vin hO).N).isLt) ⊢ _
    rw [PhiS7_pos Vin hO c _ _ hN]
    iintro ⟨HS, HR⟩
    isplitl [HS]; · iexists _; iexact HS
    iexact HR
  owesIn c W := by
    unfold Pipeline.Dat.owesAt Pipeline.owesWithin
    iintro HO; iexists W; isplitr; · ipureintro; exact fun _ _ => Or.inl trivial
    iexact HO
  owesOut c := by
    unfold Pipeline.Dat.owesAt Pipeline.owesWithin
    iintro ⟨%W, -, HO⟩; iexists W; iexact HO
  fin c w := hF c w

/-- They pass to any contents and proof data equal to tile 7's. -/
theorem Pinned7.of_eq (hO : Ok7 Vin) {Vx : Dev nD → Valuation τ sig (Elt F)} {a0 : (pcfgs (F := F) 7).Adm}
    {d0 : (c : Dev nD) → Dat τ (Elt F) Unit ℕ (UR sig nD τ) ℕ ((pcfgs (F := F) 7).at a0) c}
    (ha : a0 = adm7 Vin hO) (hd : ∀ c, HEq (d0 c) (dat7 Vin hO c)) (h : Pinned7 Vin Vx (adm7 Vin hO) (dat7 Vin hO)) :
    Pinned7 Vin Vx a0 d0 := by
  subst ha
  obtain rfl : d0 = dat7 Vin hO := funext fun c => eq_of_heq (hd c)
  exact h

/-! ## The record -/

set_option backward.isDefEq.respectTransparency.types false in
set_option maxHeartbeats 1600000 in
/-- Tile 7's region over ANY family of pipelines whose component 7 is tile 7's (`ha`, `hd`), entered from every
    unscoped buffer at `V` and left at `Vx`. `V` agrees with the proof data's `Vin` on the five arrays (`hag`) and on
    the table (`hagT`); `Vx` has the arrays at their final contents (`hF`) and is `V` elsewhere (`hrest`). Into the
    invariant go the generator register and the table; out come both; the unscoped buffers that are neither an
    array nor the table bypass the region. Nothing is owed; the kernel has no semaphore of its own. -/
def reg7G (V Vx : Dev nD → Valuation τ sig (Elt F))
    (a : (p : Fin 8) → (pcfgs (F := F) p).Adm)
    (pdats : (p : Fin 8) → (c : Dev nD) → Dat τ (Elt F) Unit ℕ (UR sig nD τ) ℕ (Pipeline.pin (pcfgs (F := F)) a p) c)
    (hO : Ok7 Vin) (ha : a 7 = adm7 Vin hO) (hd : ∀ c, HEq (pdats 7 c) (dat7 Vin hO c))
    (hag : ∀ c w, V c (Proc.devRef .tc (Pipeline.arrRef spec7 w)) = Vin c (Pipeline.arrRef spec7 w))
    (hagT : ∀ c j, V c (Proc.devRef .tc (pre7.ref j)) = Vin c (pre7.ref j))
    (hF : ∀ c w, (dat7 Vin hO c).arrAt w (cfgM7 Vin hO).N = Vx c (Pipeline.arrRef spec7 w))
    (hrest : ∀ c b, b ∉ Finset.univ.image (Pipeline.arrRef spec7) → Vx c b = V c b) :
    Pipeline.RegionSeg (pcfgs (F := F)) a pdats () defs₀ Variants.none (fun _ => ∅) (fun _ _ => 0) 7 :=
  have hp : Pinned7 Vin Vx (a 7) (pdats 7) := Pinned7.of_eq Vin hO ha hd (pinned_dat7 Vin hO Vx hF)
  have htbl : ∀ c, (fun k => V c (Proc.devRef .tc ((pcfgs (F := F) 7).pre.ref k))) = (a 7).1 := fun c => by
    rw [hp.tbl]; funext k; exact (hagT c k).trans (V_pre7 Vin c k)
  { win := (launch7 (F := F)).win.to₀
    block_pos := (launch7 (F := F)).block_pos
    stage_whole := (launch7 (F := F)).stage_whole
    K := PEmpty
    osem := fun k => k.elim
    ho := Pipeline.OwnSemFacts.none _
    hbody := fun c => hp.body c
    hwaits := Pipeline.hwaits_of_owed_zero _ _ _ _ (fun _ => ∅) (fun _ _ => 0) 7 hp.owed
    pre := fun c => iprop(StableHlo.held (c : Thread nD τ) (Pipeline.ucRefs τ sig) (V c) ∗ Rr (F := F) c)
    post := fun c => iprop(StableHlo.held (c : Thread nD τ) (Pipeline.ucRefs τ sig) (Vx c) ∗ Rr (F := F) c)
    X := fun c => iprop(∃ r, prngReg c r)
    Y := fun c => iprop((∃ r, prngReg c r) ∗ Pipeline.prefHeld (Ix := Unit) (Name := ℕ) (U := UR sig nD τ) (Lvl := ℕ) pre7 c (fun _ => fullShare) (tbl7 Vin))
    Z := fun c => Pipeline.unscopedRestP (Ix := Unit) (Name := ℕ) (U := UR sig nD τ) (Lvl := ℕ) pre7 spec7 c (fun b => V c b)
    hentry := fun c => by
      rw [Pipeline.ownSems0_none]
      have hsplit := Pipeline.arrays_of_unscopedBufs (p := 7) (pcfgs (F := F)) a pdats (launch7 (F := F)).win (launch7 (F := F)).arr_whole c
        ((pdats 7 c).share_full (hp.q c)) (fun b => V c b) (fun w => (hp.A c w).trans (hag c w).symm)
      rw [Pipeline.unscopedBufs_held, Pipeline.unscopedRest_split (launch7 (F := F)).pre c] at hsplit
      rw [htbl c] at hsplit
      iintro ⟨⟨Hub, Hp, HO⟩, -, -⟩
      ihave H := hsplit $$ Hub
      icases H with ⟨Ha, Ht, Hrest⟩
      imodintro
      isplitl [Ha]; · iexact Ha
      isplitl [Ht]; · iexact Ht
      isplitl [HO]
      · icases HO with ⟨%W, HO⟩
        iapply (hp.owesIn c W); iexact HO
      isplitl [Hp]; · iexact Hp
      iexact Hrest
    hin := fun c => by
      rw [show (Pipeline.scopedRest (Pipeline.pin (pcfgs (F := F)) a 7).spec c : sProp 𝕄) = _ from scopedRest7_split c, hp.tbl]
      refine BIBase.Entails.trans ?_ (hp.phiIn c)
      rw [scratch7_eq]
      unfold Rest7
      iintro ⟨Hp, Ht, Hs, Hr⟩
      isplitl [Hs]; · iexact Hs
      isplitl [Hr]; · iexact Hr
      isplitl [Hp]; · iexact Hp
      iexact Ht
    hout := fun c => by
      rw [Pipeline.ownSems0_none, show (Pipeline.scopedRest (Pipeline.pin (pcfgs (F := F)) a 7).spec c : sProp 𝕄) = _ from scopedRest7_split c]
      refine BIBase.Entails.trans (hp.phiOut c) ?_
      rw [scratch7_eq]
      unfold Rest7
      iintro ⟨Hs, Hr, Hp, Ht⟩
      isplitl [Hp Ht]
      · isplitl [Hp]; · iexact Hp
        iexact Ht
      isplitr; · iempintro
      isplitl [Hs]; · iexact Hs
      iexact Hr
    hexit := fun c => by
      have hjoin := Pipeline.unscopedBufs_of_arrays (p := 7) (pcfgs (F := F)) a (Ix := Unit) (Name := ℕ) (U := UR sig nD τ) (Lvl := ℕ)
        (launch7 (F := F)).win (launch7 (F := F)).arr_whole c pdats ((pdats 7 c).share_full (hp.q c))
        (fun b => V c b) (fun b => Vx c b) ((pdats 7 c).arrAt · (Pipeline.pin (pcfgs (F := F)) a 7).N) (hp.fin c) (hrest c)
      rw [Pipeline.unscopedBufs_held, Pipeline.unscopedRest_split (launch7 (F := F)).pre c, htbl c, hp.tbl] at hjoin
      iintro ⟨Ha, HO, ⟨Hp, Ht⟩, Hrest⟩
      imodintro
      isplitl [Ha Ht Hrest]
      · iapply hjoin
        isplitl [Ha]; · iexact Ha
        isplitl [Ht]; · iexact Ht
        iexact Hrest
      isplitl [Hp]; · iexact Hp
      iapply (hp.owesOut c); iexact HO }

/-- Tile 7's record over the assembled families, tile 7's components in slot 7. -/
def reg7 (hO : Ok7 Vin) (V Vx : Dev nD → Valuation τ sig (Elt F))
    (hag : ∀ c w, V c (Proc.devRef .tc (Pipeline.arrRef spec7 w)) = Vin c (Pipeline.arrRef spec7 w))
    (hagT : ∀ c j, V c (Proc.devRef .tc (pre7.ref j)) = Vin c (pre7.ref j))
    (hF : ∀ c w, (dat7 Vin hO c).arrAt w (cfgM7 Vin hO).N = Vx c (Pipeline.arrRef spec7 w))
    (hrest : ∀ c b, b ∉ Finset.univ.image (Pipeline.arrRef spec7) → Vx c b = V c b)
    (a0 : (pcfg0 (F := F)).Adm)
    (a1 : (pcfg1 (F := F)).Adm)
    (a2 : (pcfg2 (F := F)).Adm)
    (a3 : (pcfg3 (F := F)).Adm)
    (a4 : (pcfg4 (F := F)).Adm)
    (a5 : (pcfg5 (F := F)).Adm)
    (a6 : (pcfg6 (F := F)).Adm)
    (d0 : (c : Dev nD) → Dat τ (Elt F) Unit ℕ (UR sig nD τ) ℕ (cfg0 a0) c)
    (d1 : (c : Dev nD) → Dat τ (Elt F) Unit ℕ (UR sig nD τ) ℕ (cfg1 a1) c)
    (d2 : (c : Dev nD) → Dat τ (Elt F) Unit ℕ (UR sig nD τ) ℕ (cfg2 a2) c)
    (d3 : (c : Dev nD) → Dat τ (Elt F) Unit ℕ (UR sig nD τ) ℕ (cfg3 a3) c)
    (d4 : (c : Dev nD) → Dat τ (Elt F) Unit ℕ (UR sig nD τ) ℕ (cfg4 a4) c)
    (d5 : (c : Dev nD) → Dat τ (Elt F) Unit ℕ (UR sig nD τ) ℕ (cfg5 a5) c)
    (d6 : (c : Dev nD) → Dat τ (Elt F) Unit ℕ (UR sig nD τ) ℕ (cfg6 a6) c) :
    Pipeline.RegionSeg (pcfgs (F := F)) (admOf a0 a1 a2 a3 a4 a5 a6 (adm7 Vin hO))
      (pdatsOf a0 a1 a2 a3 a4 a5 a6 (adm7 Vin hO) d0 d1 d2 d3 d4 d5 d6 (dat7 Vin hO)) () defs₀ Variants.none (fun _ => ∅) (fun _ _ => 0) 7 :=
  reg7G Vin V Vx _ _ hO rfl (fun _ => HEq.rfl) hag hagT hF hrest

/-- The thread state the record is entered from, -/
theorem reg7_pre (hO : Ok7 Vin) (V Vx : Dev nD → Valuation τ sig (Elt F)) (hag) (hagT) (hF) (hrest) (a0) (a1) (a2) (a3) (a4) (a5) (a6) (d0) (d1) (d2) (d3) (d4) (d5) (d6) (c : Dev nD) :
    (reg7 Vin hO V Vx hag hagT hF hrest a0 a1 a2 a3 a4 a5 a6 d0 d1 d2 d3 d4 d5 d6).pre c
      = iprop(StableHlo.held (c : Thread nD τ) (Pipeline.ucRefs τ sig) (V c) ∗ Rr (F := F) c) := rfl
/-- and the one it leaves. -/
theorem reg7_post (hO : Ok7 Vin) (V Vx : Dev nD → Valuation τ sig (Elt F)) (hag) (hagT) (hF) (hrest) (a0) (a1) (a2) (a3) (a4) (a5) (a6) (d0) (d1) (d2) (d3) (d4) (d5) (d6) (c : Dev nD) :
    (reg7 Vin hO V Vx hag hagT hF hrest a0 a1 a2 a3 a4 a5 a6 d0 d1 d2 d3 d4 d5 d6).post c
      = iprop(StableHlo.held (c : Thread nD τ) (Pipeline.ucRefs τ sig) (Vx c) ∗ Rr (F := F) c) := rfl

end Cert.Kernel.Hand

end
-- ==== Proof.R7AgreeBits.lean ====
import proofs.«402893_j78554951844377_2_alg».proof.Proof.KHostBits
import Idealize.ShloMosaic.Lib.ValueIdx

noncomputable section

namespace Cert.Kernel.Hand

open Cert.Kernel Cert.Kernel.Gen
open Idealize.ShloMosaic Idealize.ShloMosaic.TcCoe

variable {F : FTy → Type} [FloatOps F]

/-! # Tile 7: what the region reads does not depend on what earlier regions left

The table, the embedding table, the three slices and the (not yet written) result array of tile 7 hold, when its
region is entered, contents computed from the arguments alone: whatever the earlier regions left in their own result
arrays, each of these buffers reads the same at every index. -/

variable (m : (ℓ : Loc nD τ sig) → Buf (Elt F) ℓ) (outs outs' : Outs (F := F)) (c : Dev nD)

theorem agree7_tbl : V19 m outs c main_v78 = V19 m outs' c main_v78 := by
  funext (j : S65536.Idx)
  obtain ⟨a, rfl⟩ : ∃ a : Fin 65536, j = ValueIdx.ix1 a := ⟨j 0, ValueIdx.eq_ix1 j⟩
  rw [tbl7_apply m outs c, tbl7_apply m outs' c]

theorem agree7_emb : V19 m outs c main_v34 = V19 m outs' c main_v34 := by
  funext (j : S786432x1x128.Idx)
  obtain ⟨r, z, l, rfl⟩ : ∃ (r : Fin 786432) (z : Fin 1) (l : Fin 128), j = ValueIdx.ix3 r z l := ⟨j 0, j 1, j 2, ValueIdx.eq_ix3 j⟩
  obtain rfl : z = 0 := Subsingleton.elim _ _
  rw [emb7_apply m outs c, emb7_apply m outs' c]

theorem agree7_pa : V19 m outs c main_v79 = V19 m outs' c main_v79 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [pa7_apply m outs c, pa7_apply m outs' c]

theorem agree7_w : V19 m outs c main_v80 = V19 m outs' c main_v80 := by
  funext (j : S2048x1x128.Idx)
  obtain ⟨r, z, l, rfl⟩ : ∃ (r : Fin 2048) (z : Fin 1) (l : Fin 128), j = ValueIdx.ix3 r z l := ⟨j 0, j 1, j 2, ValueIdx.eq_ix3 j⟩
  obtain rfl : z = 0 := Subsingleton.elim _ _
  rw [w7_apply m outs c, w7_apply m outs' c]

theorem agree7_b : V19 m outs c main_v81 = V19 m outs' c main_v81 := by
  funext (j : S2048x1x1.Idx)
  obtain ⟨r, z, l, rfl⟩ : ∃ (r : Fin 2048) (z : Fin 1) (l : Fin 1), j = ValueIdx.ix3 r z l := ⟨j 0, j 1, j 2, ValueIdx.eq_ix3 j⟩
  obtain rfl : z = 0 := Subsingleton.elim _ _
  obtain rfl : l = 0 := Subsingleton.elim _ _
  rw [b7_apply m outs c, b7_apply m outs' c]

/-- The result array has not been written when the region is entered: it holds its launch contents. -/
theorem entry7_out : V19 m outs c main_v82 = V5 m c main_v82 :=
  (V19_of m outs c main_v82 (by decide)).trans ((V18_of m outs c main_v82 (by decide)).trans ((V17_of m outs c main_v82 (by decide)).trans ((V16_of m outs c main_v82 (by decide)).trans ((V15_of m outs c main_v82 (by decide)).trans ((V14_of m outs c main_v82 (by decide)).trans ((V13_of m outs c main_v82 (by decide)).trans ((V12_of m outs c main_v82 (by decide)).trans ((V11_of m outs c main_v82 (by decide)).trans ((V10_of m outs c main_v82 (by decide)).trans ((V9_of m outs c main_v82 (by decide)).trans ((V8_of m outs c main_v82 (by decide)).trans ((V7_of m outs c main_v82 (by decide)).trans (V6_of m outs c main_v82 (by decide))))))))))))))

theorem agree7_out : V19 m outs c main_v82 = V19 m outs' c main_v82 :=
  (entry7_out m outs c).trans (entry7_out m outs' c).symm

end Cert.Kernel.Hand

end
-- ==== Proof.MainBits.lean ====
/-
  THE ASSEMBLY: the eight regions' records, chosen for a launch memory whose gathered row numbers are in range, and
  the run and the frame of @main from them.

  Each tile's proof data are stated at the tile's entry contents computed with the LAUNCH contents standing for what
  the earlier regions left; what a tile reads does not depend on that choice. What region K really leaves in its result
  array is its proof data's array after the run, and the family "what the regions leave" is the launch contents updated
  at the eight result arrays with those. Around region K the true valuations are the frame module's at that family:
  at entry the tile's arrays and table agree with the contents the proof data were stated at; at exit the input arrays
  are as entered, the result array is what the family says, and nothing else changed. With the eight records the launch
  glue gives the run (every unscoped buffer ends at the last valuation) and the frame (the arguments end as launched).
-/
import proofs.«402893_j78554951844377_2_alg».proof.Proof.R0OkBits
import proofs.«402893_j78554951844377_2_alg».proof.Proof.R0ValBits
import proofs.«402893_j78554951844377_2_alg».proof.Proof.R0SegBits
import proofs.«402893_j78554951844377_2_alg».proof.Proof.R1OkBits
import proofs.«402893_j78554951844377_2_alg».proof.Proof.R1ValBits
import proofs.«402893_j78554951844377_2_alg».proof.Proof.R1SegBits
import proofs.«402893_j78554951844377_2_alg».proof.Proof.R1AgreeBits
import proofs.«402893_j78554951844377_2_alg».proof.Proof.R2OkBits
import proofs.«402893_j78554951844377_2_alg».proof.Proof.R2ValBits
import proofs.«402893_j78554951844377_2_alg».proof.Proof.R2SegBits
import proofs.«402893_j78554951844377_2_alg».proof.Proof.R2AgreeBits
import proofs.«402893_j78554951844377_2_alg».proof.Proof.R3OkBits
import proofs.«402893_j78554951844377_2_alg».proof.Proof.R3ValBits
import proofs.«402893_j78554951844377_2_alg».proof.Proof.R3SegBits
import proofs.«402893_j78554951844377_2_alg».proof.Proof.R3AgreeBits
import proofs.«402893_j78554951844377_2_alg».proof.Proof.R4OkBits
import proofs.«402893_j78554951844377_2_alg».proof.Proof.R4ValBits
import proofs.«402893_j78554951844377_2_alg».proof.Proof.R4SegBits
import proofs.«402893_j78554951844377_2_alg».proof.Proof.R4AgreeBits
import proofs.«402893_j78554951844377_2_alg».proof.Proof.R5OkBits
import proofs.«402893_j78554951844377_2_alg».proof.Proof.R5ValBits
import proofs.«402893_j78554951844377_2_alg».proof.Proof.R5SegBits
import proofs.«402893_j78554951844377_2_alg».proof.Proof.R5AgreeBits
import proofs.«402893_j78554951844377_2_alg».proof.Proof.R6OkBits
import proofs.«402893_j78554951844377_2_alg».proof.Proof.R6ValBits
import proofs.«402893_j78554951844377_2_alg».proof.Proof.R6SegBits
import proofs.«402893_j78554951844377_2_alg».proof.Proof.R6AgreeBits
import proofs.«402893_j78554951844377_2_alg».proof.Proof.R7OkBits
import proofs.«402893_j78554951844377_2_alg».proof.Proof.R7ValBits
import proofs.«402893_j78554951844377_2_alg».proof.Proof.R7SegBits
import proofs.«402893_j78554951844377_2_alg».proof.Proof.R7AgreeBits
import proofs.«402893_j78554951844377_2_alg».proof.Proof.GlueBits
import proofs.«402893_j78554951844377_2_alg».proof.Proof.FamilyBits
import proofs.«402893_j78554951844377_2_alg».proof.Proof.TileLibBits
import proofs.«402893_j78554951844377_2_alg».proof.Proof.Spec

-- the launch kit's enumerations over the program's references recurse past the default depth
set_option maxRecDepth 1396

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

/-! ## A statement over the five windows, or the one table, from its instances -/

theorem fin5_cases {P : Fin 5 → Prop} (h0 : P 0) (h1 : P 1) (h2 : P 2) (h3 : P 3) (h4 : P 4) : ∀ w, P w
  | 0 => h0 | 1 => h1 | 2 => h2 | 3 => h3 | 4 => h4
  | ⟨_ + 5, h⟩ => absurd h (Nat.not_lt.2 (Nat.le_add_left _ _))

theorem fin1_cases {P : Fin 1 → Prop} (h0 : P 0) : ∀ j, P j
  | 0 => h0
  | ⟨_ + 1, h⟩ => absurd h (Nat.not_lt.2 (Nat.le_add_left _ _))

/-! ## What the regions leave, as one family -/

/-- The family "what the regions leave" from the eight result arrays: at every item, a region's result array holds the
    given contents and every other reference its launch contents. -/
def outsOf (m : (ℓ : Loc nD τ sig) → Buf (Elt F) ℓ)
    (o0 : (c : Dev nD) → Buf (Elt F) ((c : Thread nD τ).loc main_v40))
    (o1 : (c : Dev nD) → Buf (Elt F) ((c : Thread nD τ).loc main_v46))
    (o2 : (c : Dev nD) → Buf (Elt F) ((c : Thread nD τ).loc main_v52))
    (o3 : (c : Dev nD) → Buf (Elt F) ((c : Thread nD τ).loc main_v58))
    (o4 : (c : Dev nD) → Buf (Elt F) ((c : Thread nD τ).loc main_v64))
    (o5 : (c : Dev nD) → Buf (Elt F) ((c : Thread nD τ).loc main_v70))
    (o6 : (c : Dev nD) → Buf (Elt F) ((c : Thread nD τ).loc main_v76))
    (o7 : (c : Dev nD) → Buf (Elt F) ((c : Thread nD τ).loc main_v82)) : Outs (F := F) :=
  fun _ => (Function.update (Function.update (Function.update (Function.update (Function.update (Function.update (Function.update (Function.update (fun r c => m ((c : Thread nD τ).loc r)) main_v40 o0) main_v46 o1) main_v52 o2) main_v58 o3) main_v64 o4) main_v70 o5) main_v76 o6) main_v82 o7)

section
variable (m : (ℓ : Loc nD τ sig) → Buf (Elt F) ℓ)
    (o0 : (c : Dev nD) → Buf (Elt F) ((c : Thread nD τ).loc main_v40))
    (o1 : (c : Dev nD) → Buf (Elt F) ((c : Thread nD τ).loc main_v46))
    (o2 : (c : Dev nD) → Buf (Elt F) ((c : Thread nD τ).loc main_v52))
    (o3 : (c : Dev nD) → Buf (Elt F) ((c : Thread nD τ).loc main_v58))
    (o4 : (c : Dev nD) → Buf (Elt F) ((c : Thread nD τ).loc main_v64))
    (o5 : (c : Dev nD) → Buf (Elt F) ((c : Thread nD τ).loc main_v70))
    (o6 : (c : Dev nD) → Buf (Elt F) ((c : Thread nD τ).loc main_v76))
    (o7 : (c : Dev nD) → Buf (Elt F) ((c : Thread nD τ).loc main_v82))

theorem outsOf_0 (n : ℕ) (c : Dev nD) : outsOf m o0 o1 o2 o3 o4 o5 o6 o7 n main_v40 c = o0 c := by
  unfold outsOf
  rw [Function.update_of_ne (show (main_v40 : Ref sig .tc) ≠ main_v82 by decide),
    Function.update_of_ne (show (main_v40 : Ref sig .tc) ≠ main_v76 by decide),
    Function.update_of_ne (show (main_v40 : Ref sig .tc) ≠ main_v70 by decide),
    Function.update_of_ne (show (main_v40 : Ref sig .tc) ≠ main_v64 by decide),
    Function.update_of_ne (show (main_v40 : Ref sig .tc) ≠ main_v58 by decide),
    Function.update_of_ne (show (main_v40 : Ref sig .tc) ≠ main_v52 by decide),
    Function.update_of_ne (show (main_v40 : Ref sig .tc) ≠ main_v46 by decide),
    Function.update_self]

theorem outsOf_1 (n : ℕ) (c : Dev nD) : outsOf m o0 o1 o2 o3 o4 o5 o6 o7 n main_v46 c = o1 c := by
  unfold outsOf
  rw [Function.update_of_ne (show (main_v46 : Ref sig .tc) ≠ main_v82 by decide),
    Function.update_of_ne (show (main_v46 : Ref sig .tc) ≠ main_v76 by decide),
    Function.update_of_ne (show (main_v46 : Ref sig .tc) ≠ main_v70 by decide),
    Function.update_of_ne (show (main_v46 : Ref sig .tc) ≠ main_v64 by decide),
    Function.update_of_ne (show (main_v46 : Ref sig .tc) ≠ main_v58 by decide),
    Function.update_of_ne (show (main_v46 : Ref sig .tc) ≠ main_v52 by decide),
    Function.update_self]

theorem outsOf_2 (n : ℕ) (c : Dev nD) : outsOf m o0 o1 o2 o3 o4 o5 o6 o7 n main_v52 c = o2 c := by
  unfold outsOf
  rw [Function.update_of_ne (show (main_v52 : Ref sig .tc) ≠ main_v82 by decide),
    Function.update_of_ne (show (main_v52 : Ref sig .tc) ≠ main_v76 by decide),
    Function.update_of_ne (show (main_v52 : Ref sig .tc) ≠ main_v70 by decide),
    Function.update_of_ne (show (main_v52 : Ref sig .tc) ≠ main_v64 by decide),
    Function.update_of_ne (show (main_v52 : Ref sig .tc) ≠ main_v58 by decide),
    Function.update_self]

theorem outsOf_3 (n : ℕ) (c : Dev nD) : outsOf m o0 o1 o2 o3 o4 o5 o6 o7 n main_v58 c = o3 c := by
  unfold outsOf
  rw [Function.update_of_ne (show (main_v58 : Ref sig .tc) ≠ main_v82 by decide),
    Function.update_of_ne (show (main_v58 : Ref sig .tc) ≠ main_v76 by decide),
    Function.update_of_ne (show (main_v58 : Ref sig .tc) ≠ main_v70 by decide),
    Function.update_of_ne (show (main_v58 : Ref sig .tc) ≠ main_v64 by decide),
    Function.update_self]

theorem outsOf_4 (n : ℕ) (c : Dev nD) : outsOf m o0 o1 o2 o3 o4 o5 o6 o7 n main_v64 c = o4 c := by
  unfold outsOf
  rw [Function.update_of_ne (show (main_v64 : Ref sig .tc) ≠ main_v82 by decide),
    Function.update_of_ne (show (main_v64 : Ref sig .tc) ≠ main_v76 by decide),
    Function.update_of_ne (show (main_v64 : Ref sig .tc) ≠ main_v70 by decide),
    Function.update_self]

theorem outsOf_5 (n : ℕ) (c : Dev nD) : outsOf m o0 o1 o2 o3 o4 o5 o6 o7 n main_v70 c = o5 c := by
  unfold outsOf
  rw [Function.update_of_ne (show (main_v70 : Ref sig .tc) ≠ main_v82 by decide),
    Function.update_of_ne (show (main_v70 : Ref sig .tc) ≠ main_v76 by decide),
    Function.update_self]

theorem outsOf_6 (n : ℕ) (c : Dev nD) : outsOf m o0 o1 o2 o3 o4 o5 o6 o7 n main_v76 c = o6 c := by
  unfold outsOf
  rw [Function.update_of_ne (show (main_v76 : Ref sig .tc) ≠ main_v82 by decide),
    Function.update_self]

theorem outsOf_7 (n : ℕ) (c : Dev nD) : outsOf m o0 o1 o2 o3 o4 o5 o6 o7 n main_v82 c = o7 c := by
  unfold outsOf
  rw [Function.update_self]

end

/-! ## Tile 0 against the valuations around region 0 -/

section Tile0
variable (m : (ℓ : Loc nD τ sig) → Buf (Elt F) ℓ) (outs : Outs (F := F))

/-- Outside the region's arrays nothing changes across region 0: only its result array may. -/
theorem hrest_0 (c : Dev nD) (b : Ref sig .tc) (hb : b ∉ Finset.univ.image (Pipeline.arrRef spec0)) :
    V6 m outs c b = V5 m c b :=
  V6_of m outs c b fun h => hb (Finset.mem_image.mpr ⟨4, Finset.mem_univ _, (List.mem_singleton.mp h).symm⟩)

/-- Region 0 is entered at the valuation its proof data are stated at. -/
theorem hag_0 (c : Dev nD) (w : Fin 5) : V5 m c (Proc.devRef .tc (Pipeline.arrRef spec0 w)) = V0in m c (Pipeline.arrRef spec0 w) := rfl
theorem hagT_0 (c : Dev nD) (j : Fin 1) : V5 m c (Proc.devRef .tc (pre0.ref j)) = V0in m c (pre0.ref j) := rfl

/-- Region 0's input arrays after the run are as entered, which is what the exit valuation holds there … -/
theorem hF_0_0 (hO : Ok0 (V0in m)) (c : Dev nD) :
    (dat0 (V0in m) hO c).arrAt (0 : Fin 5) (cfgM0 (V0in m) hO).N = V6 m outs c (Pipeline.arrRef spec0 0) :=
  (arrAt0_in (V0in m) hO c 0 (by decide)).trans (show V0in m c (Pipeline.arrRef spec0 0) = V6 m outs c (Pipeline.arrRef spec0 0) from (V6_of m outs c main_v34 (by decide)).symm)
theorem hF_0_1 (hO : Ok0 (V0in m)) (c : Dev nD) :
    (dat0 (V0in m) hO c).arrAt (1 : Fin 5) (cfgM0 (V0in m) hO).N = V6 m outs c (Pipeline.arrRef spec0 1) :=
  (arrAt0_in (V0in m) hO c 1 (by decide)).trans (show V0in m c (Pipeline.arrRef spec0 1) = V6 m outs c (Pipeline.arrRef spec0 1) from (V6_of m outs c main_v37 (by decide)).symm)
theorem hF_0_2 (hO : Ok0 (V0in m)) (c : Dev nD) :
    (dat0 (V0in m) hO c).arrAt (2 : Fin 5) (cfgM0 (V0in m) hO).N = V6 m outs c (Pipeline.arrRef spec0 2) :=
  (arrAt0_in (V0in m) hO c 2 (by decide)).trans (show V0in m c (Pipeline.arrRef spec0 2) = V6 m outs c (Pipeline.arrRef spec0 2) from (V6_of m outs c main_v38 (by decide)).symm)
theorem hF_0_3 (hO : Ok0 (V0in m)) (c : Dev nD) :
    (dat0 (V0in m) hO c).arrAt (3 : Fin 5) (cfgM0 (V0in m) hO).N = V6 m outs c (Pipeline.arrRef spec0 3) :=
  (arrAt0_in (V0in m) hO c 3 (by decide)).trans (show V0in m c (Pipeline.arrRef spec0 3) = V6 m outs c (Pipeline.arrRef spec0 3) from (V6_of m outs c main_v39 (by decide)).symm)
/-- … and its result array holds what the family says the region leaves. -/
theorem hF_0_4 (hO : Ok0 (V0in m)) (c : Dev nD)
    (ho : outs 6 main_v40 c = (dat0 (V0in m) hO c).arrAt 4 (cfgM0 (V0in m) hO).N) :
    (dat0 (V0in m) hO c).arrAt (4 : Fin 5) (cfgM0 (V0in m) hO).N = V6 m outs c (Pipeline.arrRef spec0 4) := by
  show _ = Function.update (V5 m c) (Proc.devRef .tc main_v40) (outs 6 main_v40 c) (Proc.devRef .tc main_v40)
  rw [Function.update_self]
  exact ho.symm

theorem hF_0 (hO : Ok0 (V0in m)) (c : Dev nD)
    (ho : outs 6 main_v40 c = (dat0 (V0in m) hO c).arrAt 4 (cfgM0 (V0in m) hO).N) :
    ∀ w : Fin 5, (dat0 (V0in m) hO c).arrAt w (cfgM0 (V0in m) hO).N = V6 m outs c (Pipeline.arrRef spec0 w) :=
  fin5_cases (P := fun w => (dat0 (V0in m) hO c).arrAt w (cfgM0 (V0in m) hO).N = V6 m outs c (Pipeline.arrRef spec0 w))
    (hF_0_0 m outs hO c) (hF_0_1 m outs hO c) (hF_0_2 m outs hO c) (hF_0_3 m outs hO c) (hF_0_4 m outs hO c ho)

end Tile0

/-! ## Tile 1 against the valuations around region 1 -/

section Tile1
variable (m : (ℓ : Loc nD τ sig) → Buf (Elt F) ℓ) (outs : Outs (F := F))

/-- Outside the region's arrays nothing changes across region 1: only its result array may. -/
theorem hrest_1 (c : Dev nD) (b : Ref sig .tc) (hb : b ∉ Finset.univ.image (Pipeline.arrRef spec1)) :
    V8 m outs c b = V7 m outs c b :=
  V8_of m outs c b fun h => hb (Finset.mem_image.mpr ⟨4, Finset.mem_univ _, (List.mem_singleton.mp h).symm⟩)

/-- What region 1 reads at entry does not depend on what the earlier regions left: its arrays … -/
theorem hag_1 (c : Dev nD) : ∀ w : Fin 5, V7 m outs c (Proc.devRef .tc (Pipeline.arrRef spec1 w)) = V1in m c (Pipeline.arrRef spec1 w) :=
  fin5_cases (P := fun w => V7 m outs c (Proc.devRef .tc (Pipeline.arrRef spec1 w)) = V1in m c (Pipeline.arrRef spec1 w))
    (show V7 m outs c main_v34 = V7 m (outsL m) c main_v34 from agree1_emb m outs (outsL m) c)
    (show V7 m outs c main_v43 = V7 m (outsL m) c main_v43 from agree1_pa m outs (outsL m) c)
    (show V7 m outs c main_v44 = V7 m (outsL m) c main_v44 from agree1_w m outs (outsL m) c)
    (show V7 m outs c main_v45 = V7 m (outsL m) c main_v45 from agree1_b m outs (outsL m) c)
    (show V7 m outs c main_v46 = V7 m (outsL m) c main_v46 from agree1_out m outs (outsL m) c)
/-- … and its table. -/
theorem hagT_1 (c : Dev nD) : ∀ j : Fin 1, V7 m outs c (Proc.devRef .tc (pre1.ref j)) = V1in m c (pre1.ref j) :=
  fin1_cases (P := fun j => V7 m outs c (Proc.devRef .tc (pre1.ref j)) = V1in m c (pre1.ref j))
    (show V7 m outs c main_v42 = V7 m (outsL m) c main_v42 from agree1_tbl m outs (outsL m) c)

/-- Region 1's input arrays after the run are as entered, which is what the exit valuation holds there … -/
theorem hF_1_0 (hO : Ok1 (V1in m)) (c : Dev nD) :
    (dat1 (V1in m) hO c).arrAt (0 : Fin 5) (cfgM1 (V1in m) hO).N = V8 m outs c (Pipeline.arrRef spec1 0) :=
  (arrAt1_in (V1in m) hO c 0 (by decide)).trans (show V1in m c (Pipeline.arrRef spec1 0) = V8 m outs c (Pipeline.arrRef spec1 0) from
    ((V8_of m outs c main_v34 (by decide)).trans (agree1_emb m outs (outsL m) c)).symm)
theorem hF_1_1 (hO : Ok1 (V1in m)) (c : Dev nD) :
    (dat1 (V1in m) hO c).arrAt (1 : Fin 5) (cfgM1 (V1in m) hO).N = V8 m outs c (Pipeline.arrRef spec1 1) :=
  (arrAt1_in (V1in m) hO c 1 (by decide)).trans (show V1in m c (Pipeline.arrRef spec1 1) = V8 m outs c (Pipeline.arrRef spec1 1) from
    ((V8_of m outs c main_v43 (by decide)).trans (agree1_pa m outs (outsL m) c)).symm)
theorem hF_1_2 (hO : Ok1 (V1in m)) (c : Dev nD) :
    (dat1 (V1in m) hO c).arrAt (2 : Fin 5) (cfgM1 (V1in m) hO).N = V8 m outs c (Pipeline.arrRef spec1 2) :=
  (arrAt1_in (V1in m) hO c 2 (by decide)).trans (show V1in m c (Pipeline.arrRef spec1 2) = V8 m outs c (Pipeline.arrRef spec1 2) from
    ((V8_of m outs c main_v44 (by decide)).trans (agree1_w m outs (outsL m) c)).symm)
theorem hF_1_3 (hO : Ok1 (V1in m)) (c : Dev nD) :
    (dat1 (V1in m) hO c).arrAt (3 : Fin 5) (cfgM1 (V1in m) hO).N = V8 m outs c (Pipeline.arrRef spec1 3) :=
  (arrAt1_in (V1in m) hO c 3 (by decide)).trans (show V1in m c (Pipeline.arrRef spec1 3) = V8 m outs c (Pipeline.arrRef spec1 3) from
    ((V8_of m outs c main_v45 (by decide)).trans (agree1_b m outs (outsL m) c)).symm)
/-- … and its result array holds what the family says the region leaves. -/
theorem hF_1_4 (hO : Ok1 (V1in m)) (c : Dev nD)
    (ho : outs 8 main_v46 c = (dat1 (V1in m) hO c).arrAt 4 (cfgM1 (V1in m) hO).N) :
    (dat1 (V1in m) hO c).arrAt (4 : Fin 5) (cfgM1 (V1in m) hO).N = V8 m outs c (Pipeline.arrRef spec1 4) := by
  show _ = Function.update (V7 m outs c) (Proc.devRef .tc main_v46) (outs 8 main_v46 c) (Proc.devRef .tc main_v46)
  rw [Function.update_self]
  exact ho.symm

theorem hF_1 (hO : Ok1 (V1in m)) (c : Dev nD)
    (ho : outs 8 main_v46 c = (dat1 (V1in m) hO c).arrAt 4 (cfgM1 (V1in m) hO).N) :
    ∀ w : Fin 5, (dat1 (V1in m) hO c).arrAt w (cfgM1 (V1in m) hO).N = V8 m outs c (Pipeline.arrRef spec1 w) :=
  fin5_cases (P := fun w => (dat1 (V1in m) hO c).arrAt w (cfgM1 (V1in m) hO).N = V8 m outs c (Pipeline.arrRef spec1 w))
    (hF_1_0 m outs hO c) (hF_1_1 m outs hO c) (hF_1_2 m outs hO c) (hF_1_3 m outs hO c) (hF_1_4 m outs hO c ho)

end Tile1

/-! ## Tile 2 against the valuations around region 2 -/

section Tile2
variable (m : (ℓ : Loc nD τ sig) → Buf (Elt F) ℓ) (outs : Outs (F := F))

/-- Outside the region's arrays nothing changes across region 2: only its result array may. -/
theorem hrest_2 (c : Dev nD) (b : Ref sig .tc) (hb : b ∉ Finset.univ.image (Pipeline.arrRef spec2)) :
    V10 m outs c b = V9 m outs c b :=
  V10_of m outs c b fun h => hb (Finset.mem_image.mpr ⟨4, Finset.mem_univ _, (List.mem_singleton.mp h).symm⟩)

/-- What region 2 reads at entry does not depend on what the earlier regions left: its arrays … -/
theorem hag_2 (c : Dev nD) : ∀ w : Fin 5, V9 m outs c (Proc.devRef .tc (Pipeline.arrRef spec2 w)) = V2in m c (Pipeline.arrRef spec2 w) :=
  fin5_cases (P := fun w => V9 m outs c (Proc.devRef .tc (Pipeline.arrRef spec2 w)) = V2in m c (Pipeline.arrRef spec2 w))
    (show V9 m outs c main_v34 = V9 m (outsL m) c main_v34 from agree2_emb m outs (outsL m) c)
    (show V9 m outs c main_v49 = V9 m (outsL m) c main_v49 from agree2_pa m outs (outsL m) c)
    (show V9 m outs c main_v50 = V9 m (outsL m) c main_v50 from agree2_w m outs (outsL m) c)
    (show V9 m outs c main_v51 = V9 m (outsL m) c main_v51 from agree2_b m outs (outsL m) c)
    (show V9 m outs c main_v52 = V9 m (outsL m) c main_v52 from agree2_out m outs (outsL m) c)
/-- … and its table. -/
theorem hagT_2 (c : Dev nD) : ∀ j : Fin 1, V9 m outs c (Proc.devRef .tc (pre2.ref j)) = V2in m c (pre2.ref j) :=
  fin1_cases (P := fun j => V9 m outs c (Proc.devRef .tc (pre2.ref j)) = V2in m c (pre2.ref j))
    (show V9 m outs c main_v48 = V9 m (outsL m) c main_v48 from agree2_tbl m outs (outsL m) c)

/-- Region 2's input arrays after the run are as entered, which is what the exit valuation holds there … -/
theorem hF_2_0 (hO : Ok2 (V2in m)) (c : Dev nD) :
    (dat2 (V2in m) hO c).arrAt (0 : Fin 5) (cfgM2 (V2in m) hO).N = V10 m outs c (Pipeline.arrRef spec2 0) :=
  (arrAt2_in (V2in m) hO c 0 (by decide)).trans (show V2in m c (Pipeline.arrRef spec2 0) = V10 m outs c (Pipeline.arrRef spec2 0) from
    ((V10_of m outs c main_v34 (by decide)).trans (agree2_emb m outs (outsL m) c)).symm)
theorem hF_2_1 (hO : Ok2 (V2in m)) (c : Dev nD) :
    (dat2 (V2in m) hO c).arrAt (1 : Fin 5) (cfgM2 (V2in m) hO).N = V10 m outs c (Pipeline.arrRef spec2 1) :=
  (arrAt2_in (V2in m) hO c 1 (by decide)).trans (show V2in m c (Pipeline.arrRef spec2 1) = V10 m outs c (Pipeline.arrRef spec2 1) from
    ((V10_of m outs c main_v49 (by decide)).trans (agree2_pa m outs (outsL m) c)).symm)
theorem hF_2_2 (hO : Ok2 (V2in m)) (c : Dev nD) :
    (dat2 (V2in m) hO c).arrAt (2 : Fin 5) (cfgM2 (V2in m) hO).N = V10 m outs c (Pipeline.arrRef spec2 2) :=
  (arrAt2_in (V2in m) hO c 2 (by decide)).trans (show V2in m c (Pipeline.arrRef spec2 2) = V10 m outs c (Pipeline.arrRef spec2 2) from
    ((V10_of m outs c main_v50 (by decide)).trans (agree2_w m outs (outsL m) c)).symm)
theorem hF_2_3 (hO : Ok2 (V2in m)) (c : Dev nD) :
    (dat2 (V2in m) hO c).arrAt (3 : Fin 5) (cfgM2 (V2in m) hO).N = V10 m outs c (Pipeline.arrRef spec2 3) :=
  (arrAt2_in (V2in m) hO c 3 (by decide)).trans (show V2in m c (Pipeline.arrRef spec2 3) = V10 m outs c (Pipeline.arrRef spec2 3) from
    ((V10_of m outs c main_v51 (by decide)).trans (agree2_b m outs (outsL m) c)).symm)
/-- … and its result array holds what the family says the region leaves. -/
theorem hF_2_4 (hO : Ok2 (V2in m)) (c : Dev nD)
    (ho : outs 10 main_v52 c = (dat2 (V2in m) hO c).arrAt 4 (cfgM2 (V2in m) hO).N) :
    (dat2 (V2in m) hO c).arrAt (4 : Fin 5) (cfgM2 (V2in m) hO).N = V10 m outs c (Pipeline.arrRef spec2 4) := by
  show _ = Function.update (V9 m outs c) (Proc.devRef .tc main_v52) (outs 10 main_v52 c) (Proc.devRef .tc main_v52)
  rw [Function.update_self]
  exact ho.symm

theorem hF_2 (hO : Ok2 (V2in m)) (c : Dev nD)
    (ho : outs 10 main_v52 c = (dat2 (V2in m) hO c).arrAt 4 (cfgM2 (V2in m) hO).N) :
    ∀ w : Fin 5, (dat2 (V2in m) hO c).arrAt w (cfgM2 (V2in m) hO).N = V10 m outs c (Pipeline.arrRef spec2 w) :=
  fin5_cases (P := fun w => (dat2 (V2in m) hO c).arrAt w (cfgM2 (V2in m) hO).N = V10 m outs c (Pipeline.arrRef spec2 w))
    (hF_2_0 m outs hO c) (hF_2_1 m outs hO c) (hF_2_2 m outs hO c) (hF_2_3 m outs hO c) (hF_2_4 m outs hO c ho)

end Tile2

/-! ## Tile 3 against the valuations around region 3 -/

section Tile3
variable (m : (ℓ : Loc nD τ sig) → Buf (Elt F) ℓ) (outs : Outs (F := F))

/-- Outside the region's arrays nothing changes across region 3: only its result array may. -/
theorem hrest_3 (c : Dev nD) (b : Ref sig .tc) (hb : b ∉ Finset.univ.image (Pipeline.arrRef spec3)) :
    V12 m outs c b = V11 m outs c b :=
  V12_of m outs c b fun h => hb (Finset.mem_image.mpr ⟨4, Finset.mem_univ _, (List.mem_singleton.mp h).symm⟩)

/-- What region 3 reads at entry does not depend on what the earlier regions left: its arrays … -/
theorem hag_3 (c : Dev nD) : ∀ w : Fin 5, V11 m outs c (Proc.devRef .tc (Pipeline.arrRef spec3 w)) = V3in m c (Pipeline.arrRef spec3 w) :=
  fin5_cases (P := fun w => V11 m outs c (Proc.devRef .tc (Pipeline.arrRef spec3 w)) = V3in m c (Pipeline.arrRef spec3 w))
    (show V11 m outs c main_v34 = V11 m (outsL m) c main_v34 from agree3_emb m outs (outsL m) c)
    (show V11 m outs c main_v55 = V11 m (outsL m) c main_v55 from agree3_pa m outs (outsL m) c)
    (show V11 m outs c main_v56 = V11 m (outsL m) c main_v56 from agree3_w m outs (outsL m) c)
    (show V11 m outs c main_v57 = V11 m (outsL m) c main_v57 from agree3_b m outs (outsL m) c)
    (show V11 m outs c main_v58 = V11 m (outsL m) c main_v58 from agree3_out m outs (outsL m) c)
/-- … and its table. -/
theorem hagT_3 (c : Dev nD) : ∀ j : Fin 1, V11 m outs c (Proc.devRef .tc (pre3.ref j)) = V3in m c (pre3.ref j) :=
  fin1_cases (P := fun j => V11 m outs c (Proc.devRef .tc (pre3.ref j)) = V3in m c (pre3.ref j))
    (show V11 m outs c main_v54 = V11 m (outsL m) c main_v54 from agree3_tbl m outs (outsL m) c)

/-- Region 3's input arrays after the run are as entered, which is what the exit valuation holds there … -/
theorem hF_3_0 (hO : Ok3 (V3in m)) (c : Dev nD) :
    (dat3 (V3in m) hO c).arrAt (0 : Fin 5) (cfgM3 (V3in m) hO).N = V12 m outs c (Pipeline.arrRef spec3 0) :=
  (arrAt3_in (V3in m) hO c 0 (by decide)).trans (show V3in m c (Pipeline.arrRef spec3 0) = V12 m outs c (Pipeline.arrRef spec3 0) from
    ((V12_of m outs c main_v34 (by decide)).trans (agree3_emb m outs (outsL m) c)).symm)
theorem hF_3_1 (hO : Ok3 (V3in m)) (c : Dev nD) :
    (dat3 (V3in m) hO c).arrAt (1 : Fin 5) (cfgM3 (V3in m) hO).N = V12 m outs c (Pipeline.arrRef spec3 1) :=
  (arrAt3_in (V3in m) hO c 1 (by decide)).trans (show V3in m c (Pipeline.arrRef spec3 1) = V12 m outs c (Pipeline.arrRef spec3 1) from
    ((V12_of m outs c main_v55 (by decide)).trans (agree3_pa m outs (outsL m) c)).symm)
theorem hF_3_2 (hO : Ok3 (V3in m)) (c : Dev nD) :
    (dat3 (V3in m) hO c).arrAt (2 : Fin 5) (cfgM3 (V3in m) hO).N = V12 m outs c (Pipeline.arrRef spec3 2) :=
  (arrAt3_in (V3in m) hO c 2 (by decide)).trans (show V3in m c (Pipeline.arrRef spec3 2) = V12 m outs c (Pipeline.arrRef spec3 2) from
    ((V12_of m outs c main_v56 (by decide)).trans (agree3_w m outs (outsL m) c)).symm)
theorem hF_3_3 (hO : Ok3 (V3in m)) (c : Dev nD) :
    (dat3 (V3in m) hO c).arrAt (3 : Fin 5) (cfgM3 (V3in m) hO).N = V12 m outs c (Pipeline.arrRef spec3 3) :=
  (arrAt3_in (V3in m) hO c 3 (by decide)).trans (show V3in m c (Pipeline.arrRef spec3 3) = V12 m outs c (Pipeline.arrRef spec3 3) from
    ((V12_of m outs c main_v57 (by decide)).trans (agree3_b m outs (outsL m) c)).symm)
/-- … and its result array holds what the family says the region leaves. -/
theorem hF_3_4 (hO : Ok3 (V3in m)) (c : Dev nD)
    (ho : outs 12 main_v58 c = (dat3 (V3in m) hO c).arrAt 4 (cfgM3 (V3in m) hO).N) :
    (dat3 (V3in m) hO c).arrAt (4 : Fin 5) (cfgM3 (V3in m) hO).N = V12 m outs c (Pipeline.arrRef spec3 4) := by
  show _ = Function.update (V11 m outs c) (Proc.devRef .tc main_v58) (outs 12 main_v58 c) (Proc.devRef .tc main_v58)
  rw [Function.update_self]
  exact ho.symm

theorem hF_3 (hO : Ok3 (V3in m)) (c : Dev nD)
    (ho : outs 12 main_v58 c = (dat3 (V3in m) hO c).arrAt 4 (cfgM3 (V3in m) hO).N) :
    ∀ w : Fin 5, (dat3 (V3in m) hO c).arrAt w (cfgM3 (V3in m) hO).N = V12 m outs c (Pipeline.arrRef spec3 w) :=
  fin5_cases (P := fun w => (dat3 (V3in m) hO c).arrAt w (cfgM3 (V3in m) hO).N = V12 m outs c (Pipeline.arrRef spec3 w))
    (hF_3_0 m outs hO c) (hF_3_1 m outs hO c) (hF_3_2 m outs hO c) (hF_3_3 m outs hO c) (hF_3_4 m outs hO c ho)

end Tile3

/-! ## Tile 4 against the valuations around region 4 -/

section Tile4
variable (m : (ℓ : Loc nD τ sig) → Buf (Elt F) ℓ) (outs : Outs (F := F))

/-- Outside the region's arrays nothing changes across region 4: only its result array may. -/
theorem hrest_4 (c : Dev nD) (b : Ref sig .tc) (hb : b ∉ Finset.univ.image (Pipeline.arrRef spec4)) :
    V14 m outs c b = V13 m outs c b :=
  V14_of m outs c b fun h => hb (Finset.mem_image.mpr ⟨4, Finset.mem_univ _, (List.mem_singleton.mp h).symm⟩)

/-- What region 4 reads at entry does not depend on what the earlier regions left: its arrays … -/
theorem hag_4 (c : Dev nD) : ∀ w : Fin 5, V13 m outs c (Proc.devRef .tc (Pipeline.arrRef spec4 w)) = V4in m c (Pipeline.arrRef spec4 w) :=
  fin5_cases (P := fun w => V13 m outs c (Proc.devRef .tc (Pipeline.arrRef spec4 w)) = V4in m c (Pipeline.arrRef spec4 w))
    (show V13 m outs c main_v34 = V13 m (outsL m) c main_v34 from agree4_emb m outs (outsL m) c)
    (show V13 m outs c main_v61 = V13 m (outsL m) c main_v61 from agree4_pa m outs (outsL m) c)
    (show V13 m outs c main_v62 = V13 m (outsL m) c main_v62 from agree4_w m outs (outsL m) c)
    (show V13 m outs c main_v63 = V13 m (outsL m) c main_v63 from agree4_b m outs (outsL m) c)
    (show V13 m outs c main_v64 = V13 m (outsL m) c main_v64 from agree4_out m outs (outsL m) c)
/-- … and its table. -/
theorem hagT_4 (c : Dev nD) : ∀ j : Fin 1, V13 m outs c (Proc.devRef .tc (pre4.ref j)) = V4in m c (pre4.ref j) :=
  fin1_cases (P := fun j => V13 m outs c (Proc.devRef .tc (pre4.ref j)) = V4in m c (pre4.ref j))
    (show V13 m outs c main_v60 = V13 m (outsL m) c main_v60 from agree4_tbl m outs (outsL m) c)

/-- Region 4's input arrays after the run are as entered, which is what the exit valuation holds there … -/
theorem hF_4_0 (hO : Ok4 (V4in m)) (c : Dev nD) :
    (dat4 (V4in m) hO c).arrAt (0 : Fin 5) (cfgM4 (V4in m) hO).N = V14 m outs c (Pipeline.arrRef spec4 0) :=
  (arrAt4_in (V4in m) hO c 0 (by decide)).trans (show V4in m c (Pipeline.arrRef spec4 0) = V14 m outs c (Pipeline.arrRef spec4 0) from
    ((V14_of m outs c main_v34 (by decide)).trans (agree4_emb m outs (outsL m) c)).symm)
theorem hF_4_1 (hO : Ok4 (V4in m)) (c : Dev nD) :
    (dat4 (V4in m) hO c).arrAt (1 : Fin 5) (cfgM4 (V4in m) hO).N = V14 m outs c (Pipeline.arrRef spec4 1) :=
  (arrAt4_in (V4in m) hO c 1 (by decide)).trans (show V4in m c (Pipeline.arrRef spec4 1) = V14 m outs c (Pipeline.arrRef spec4 1) from
    ((V14_of m outs c main_v61 (by decide)).trans (agree4_pa m outs (outsL m) c)).symm)
theorem hF_4_2 (hO : Ok4 (V4in m)) (c : Dev nD) :
    (dat4 (V4in m) hO c).arrAt (2 : Fin 5) (cfgM4 (V4in m) hO).N = V14 m outs c (Pipeline.arrRef spec4 2) :=
  (arrAt4_in (V4in m) hO c 2 (by decide)).trans (show V4in m c (Pipeline.arrRef spec4 2) = V14 m outs c (Pipeline.arrRef spec4 2) from
    ((V14_of m outs c main_v62 (by decide)).trans (agree4_w m outs (outsL m) c)).symm)
theorem hF_4_3 (hO : Ok4 (V4in m)) (c : Dev nD) :
    (dat4 (V4in m) hO c).arrAt (3 : Fin 5) (cfgM4 (V4in m) hO).N = V14 m outs c (Pipeline.arrRef spec4 3) :=
  (arrAt4_in (V4in m) hO c 3 (by decide)).trans (show V4in m c (Pipeline.arrRef spec4 3) = V14 m outs c (Pipeline.arrRef spec4 3) from
    ((V14_of m outs c main_v63 (by decide)).trans (agree4_b m outs (outsL m) c)).symm)
/-- … and its result array holds what the family says the region leaves. -/
theorem hF_4_4 (hO : Ok4 (V4in m)) (c : Dev nD)
    (ho : outs 14 main_v64 c = (dat4 (V4in m) hO c).arrAt 4 (cfgM4 (V4in m) hO).N) :
    (dat4 (V4in m) hO c).arrAt (4 : Fin 5) (cfgM4 (V4in m) hO).N = V14 m outs c (Pipeline.arrRef spec4 4) := by
  show _ = Function.update (V13 m outs c) (Proc.devRef .tc main_v64) (outs 14 main_v64 c) (Proc.devRef .tc main_v64)
  rw [Function.update_self]
  exact ho.symm

theorem hF_4 (hO : Ok4 (V4in m)) (c : Dev nD)
    (ho : outs 14 main_v64 c = (dat4 (V4in m) hO c).arrAt 4 (cfgM4 (V4in m) hO).N) :
    ∀ w : Fin 5, (dat4 (V4in m) hO c).arrAt w (cfgM4 (V4in m) hO).N = V14 m outs c (Pipeline.arrRef spec4 w) :=
  fin5_cases (P := fun w => (dat4 (V4in m) hO c).arrAt w (cfgM4 (V4in m) hO).N = V14 m outs c (Pipeline.arrRef spec4 w))
    (hF_4_0 m outs hO c) (hF_4_1 m outs hO c) (hF_4_2 m outs hO c) (hF_4_3 m outs hO c) (hF_4_4 m outs hO c ho)

end Tile4

/-! ## Tile 5 against the valuations around region 5 -/

section Tile5
variable (m : (ℓ : Loc nD τ sig) → Buf (Elt F) ℓ) (outs : Outs (F := F))

/-- Outside the region's arrays nothing changes across region 5: only its result array may. -/
theorem hrest_5 (c : Dev nD) (b : Ref sig .tc) (hb : b ∉ Finset.univ.image (Pipeline.arrRef spec5)) :
    V16 m outs c b = V15 m outs c b :=
  V16_of m outs c b fun h => hb (Finset.mem_image.mpr ⟨4, Finset.mem_univ _, (List.mem_singleton.mp h).symm⟩)

/-- What region 5 reads at entry does not depend on what the earlier regions left: its arrays … -/
theorem hag_5 (c : Dev nD) : ∀ w : Fin 5, V15 m outs c (Proc.devRef .tc (Pipeline.arrRef spec5 w)) = V5in m c (Pipeline.arrRef spec5 w) :=
  fin5_cases (P := fun w => V15 m outs c (Proc.devRef .tc (Pipeline.arrRef spec5 w)) = V5in m c (Pipeline.arrRef spec5 w))
    (show V15 m outs c main_v34 = V15 m (outsL m) c main_v34 from agree5_emb m outs (outsL m) c)
    (show V15 m outs c main_v67 = V15 m (outsL m) c main_v67 from agree5_pa m outs (outsL m) c)
    (show V15 m outs c main_v68 = V15 m (outsL m) c main_v68 from agree5_w m outs (outsL m) c)
    (show V15 m outs c main_v69 = V15 m (outsL m) c main_v69 from agree5_b m outs (outsL m) c)
    (show V15 m outs c main_v70 = V15 m (outsL m) c main_v70 from agree5_out m outs (outsL m) c)
/-- … and its table. -/
theorem hagT_5 (c : Dev nD) : ∀ j : Fin 1, V15 m outs c (Proc.devRef .tc (pre5.ref j)) = V5in m c (pre5.ref j) :=
  fin1_cases (P := fun j => V15 m outs c (Proc.devRef .tc (pre5.ref j)) = V5in m c (pre5.ref j))
    (show V15 m outs c main_v66 = V15 m (outsL m) c main_v66 from agree5_tbl m outs (outsL m) c)

/-- Region 5's input arrays after the run are as entered, which is what the exit valuation holds there … -/
theorem hF_5_0 (hO : Ok5 (V5in m)) (c : Dev nD) :
    (dat5 (V5in m) hO c).arrAt (0 : Fin 5) (cfgM5 (V5in m) hO).N = V16 m outs c (Pipeline.arrRef spec5 0) :=
  (arrAt5_in (V5in m) hO c 0 (by decide)).trans (show V5in m c (Pipeline.arrRef spec5 0) = V16 m outs c (Pipeline.arrRef spec5 0) from
    ((V16_of m outs c main_v34 (by decide)).trans (agree5_emb m outs (outsL m) c)).symm)
theorem hF_5_1 (hO : Ok5 (V5in m)) (c : Dev nD) :
    (dat5 (V5in m) hO c).arrAt (1 : Fin 5) (cfgM5 (V5in m) hO).N = V16 m outs c (Pipeline.arrRef spec5 1) :=
  (arrAt5_in (V5in m) hO c 1 (by decide)).trans (show V5in m c (Pipeline.arrRef spec5 1) = V16 m outs c (Pipeline.arrRef spec5 1) from
    ((V16_of m outs c main_v67 (by decide)).trans (agree5_pa m outs (outsL m) c)).symm)
theorem hF_5_2 (hO : Ok5 (V5in m)) (c : Dev nD) :
    (dat5 (V5in m) hO c).arrAt (2 : Fin 5) (cfgM5 (V5in m) hO).N = V16 m outs c (Pipeline.arrRef spec5 2) :=
  (arrAt5_in (V5in m) hO c 2 (by decide)).trans (show V5in m c (Pipeline.arrRef spec5 2) = V16 m outs c (Pipeline.arrRef spec5 2) from
    ((V16_of m outs c main_v68 (by decide)).trans (agree5_w m outs (outsL m) c)).symm)
theorem hF_5_3 (hO : Ok5 (V5in m)) (c : Dev nD) :
    (dat5 (V5in m) hO c).arrAt (3 : Fin 5) (cfgM5 (V5in m) hO).N = V16 m outs c (Pipeline.arrRef spec5 3) :=
  (arrAt5_in (V5in m) hO c 3 (by decide)).trans (show V5in m c (Pipeline.arrRef spec5 3) = V16 m outs c (Pipeline.arrRef spec5 3) from
    ((V16_of m outs c main_v69 (by decide)).trans (agree5_b m outs (outsL m) c)).symm)
/-- … and its result array holds what the family says the region leaves. -/
theorem hF_5_4 (hO : Ok5 (V5in m)) (c : Dev nD)
    (ho : outs 16 main_v70 c = (dat5 (V5in m) hO c).arrAt 4 (cfgM5 (V5in m) hO).N) :
    (dat5 (V5in m) hO c).arrAt (4 : Fin 5) (cfgM5 (V5in m) hO).N = V16 m outs c (Pipeline.arrRef spec5 4) := by
  show _ = Function.update (V15 m outs c) (Proc.devRef .tc main_v70) (outs 16 main_v70 c) (Proc.devRef .tc main_v70)
  rw [Function.update_self]
  exact ho.symm

theorem hF_5 (hO : Ok5 (V5in m)) (c : Dev nD)
    (ho : outs 16 main_v70 c = (dat5 (V5in m) hO c).arrAt 4 (cfgM5 (V5in m) hO).N) :
    ∀ w : Fin 5, (dat5 (V5in m) hO c).arrAt w (cfgM5 (V5in m) hO).N = V16 m outs c (Pipeline.arrRef spec5 w) :=
  fin5_cases (P := fun w => (dat5 (V5in m) hO c).arrAt w (cfgM5 (V5in m) hO).N = V16 m outs c (Pipeline.arrRef spec5 w))
    (hF_5_0 m outs hO c) (hF_5_1 m outs hO c) (hF_5_2 m outs hO c) (hF_5_3 m outs hO c) (hF_5_4 m outs hO c ho)

end Tile5

/-! ## Tile 6 against the valuations around region 6 -/

section Tile6
variable (m : (ℓ : Loc nD τ sig) → Buf (Elt F) ℓ) (outs : Outs (F := F))

/-- Outside the region's arrays nothing changes across region 6: only its result array may. -/
theorem hrest_6 (c : Dev nD) (b : Ref sig .tc) (hb : b ∉ Finset.univ.image (Pipeline.arrRef spec6)) :
    V18 m outs c b = V17 m outs c b :=
  V18_of m outs c b fun h => hb (Finset.mem_image.mpr ⟨4, Finset.mem_univ _, (List.mem_singleton.mp h).symm⟩)

/-- What region 6 reads at entry does not depend on what the earlier regions left: its arrays … -/
theorem hag_6 (c : Dev nD) : ∀ w : Fin 5, V17 m outs c (Proc.devRef .tc (Pipeline.arrRef spec6 w)) = V6in m c (Pipeline.arrRef spec6 w) :=
  fin5_cases (P := fun w => V17 m outs c (Proc.devRef .tc (Pipeline.arrRef spec6 w)) = V6in m c (Pipeline.arrRef spec6 w))
    (show V17 m outs c main_v34 = V17 m (outsL m) c main_v34 from agree6_emb m outs (outsL m) c)
    (show V17 m outs c main_v73 = V17 m (outsL m) c main_v73 from agree6_pa m outs (outsL m) c)
    (show V17 m outs c main_v74 = V17 m (outsL m) c main_v74 from agree6_w m outs (outsL m) c)
    (show V17 m outs c main_v75 = V17 m (outsL m) c main_v75 from agree6_b m outs (outsL m) c)
    (show V17 m outs c main_v76 = V17 m (outsL m) c main_v76 from agree6_out m outs (outsL m) c)
/-- … and its table. -/
theorem hagT_6 (c : Dev nD) : ∀ j : Fin 1, V17 m outs c (Proc.devRef .tc (pre6.ref j)) = V6in m c (pre6.ref j) :=
  fin1_cases (P := fun j => V17 m outs c (Proc.devRef .tc (pre6.ref j)) = V6in m c (pre6.ref j))
    (show V17 m outs c main_v72 = V17 m (outsL m) c main_v72 from agree6_tbl m outs (outsL m) c)

/-- Region 6's input arrays after the run are as entered, which is what the exit valuation holds there … -/
theorem hF_6_0 (hO : Ok6 (V6in m)) (c : Dev nD) :
    (dat6 (V6in m) hO c).arrAt (0 : Fin 5) (cfgM6 (V6in m) hO).N = V18 m outs c (Pipeline.arrRef spec6 0) :=
  (arrAt6_in (V6in m) hO c 0 (by decide)).trans (show V6in m c (Pipeline.arrRef spec6 0) = V18 m outs c (Pipeline.arrRef spec6 0) from
    ((V18_of m outs c main_v34 (by decide)).trans (agree6_emb m outs (outsL m) c)).symm)
theorem hF_6_1 (hO : Ok6 (V6in m)) (c : Dev nD) :
    (dat6 (V6in m) hO c).arrAt (1 : Fin 5) (cfgM6 (V6in m) hO).N = V18 m outs c (Pipeline.arrRef spec6 1) :=
  (arrAt6_in (V6in m) hO c 1 (by decide)).trans (show V6in m c (Pipeline.arrRef spec6 1) = V18 m outs c (Pipeline.arrRef spec6 1) from
    ((V18_of m outs c main_v73 (by decide)).trans (agree6_pa m outs (outsL m) c)).symm)
theorem hF_6_2 (hO : Ok6 (V6in m)) (c : Dev nD) :
    (dat6 (V6in m) hO c).arrAt (2 : Fin 5) (cfgM6 (V6in m) hO).N = V18 m outs c (Pipeline.arrRef spec6 2) :=
  (arrAt6_in (V6in m) hO c 2 (by decide)).trans (show V6in m c (Pipeline.arrRef spec6 2) = V18 m outs c (Pipeline.arrRef spec6 2) from
    ((V18_of m outs c main_v74 (by decide)).trans (agree6_w m outs (outsL m) c)).symm)
theorem hF_6_3 (hO : Ok6 (V6in m)) (c : Dev nD) :
    (dat6 (V6in m) hO c).arrAt (3 : Fin 5) (cfgM6 (V6in m) hO).N = V18 m outs c (Pipeline.arrRef spec6 3) :=
  (arrAt6_in (V6in m) hO c 3 (by decide)).trans (show V6in m c (Pipeline.arrRef spec6 3) = V18 m outs c (Pipeline.arrRef spec6 3) from
    ((V18_of m outs c main_v75 (by decide)).trans (agree6_b m outs (outsL m) c)).symm)
/-- … and its result array holds what the family says the region leaves. -/
theorem hF_6_4 (hO : Ok6 (V6in m)) (c : Dev nD)
    (ho : outs 18 main_v76 c = (dat6 (V6in m) hO c).arrAt 4 (cfgM6 (V6in m) hO).N) :
    (dat6 (V6in m) hO c).arrAt (4 : Fin 5) (cfgM6 (V6in m) hO).N = V18 m outs c (Pipeline.arrRef spec6 4) := by
  show _ = Function.update (V17 m outs c) (Proc.devRef .tc main_v76) (outs 18 main_v76 c) (Proc.devRef .tc main_v76)
  rw [Function.update_self]
  exact ho.symm

theorem hF_6 (hO : Ok6 (V6in m)) (c : Dev nD)
    (ho : outs 18 main_v76 c = (dat6 (V6in m) hO c).arrAt 4 (cfgM6 (V6in m) hO).N) :
    ∀ w : Fin 5, (dat6 (V6in m) hO c).arrAt w (cfgM6 (V6in m) hO).N = V18 m outs c (Pipeline.arrRef spec6 w) :=
  fin5_cases (P := fun w => (dat6 (V6in m) hO c).arrAt w (cfgM6 (V6in m) hO).N = V18 m outs c (Pipeline.arrRef spec6 w))
    (hF_6_0 m outs hO c) (hF_6_1 m outs hO c) (hF_6_2 m outs hO c) (hF_6_3 m outs hO c) (hF_6_4 m outs hO c ho)

end Tile6

/-! ## Tile 7 against the valuations around region 7 -/

section Tile7
variable (m : (ℓ : Loc nD τ sig) → Buf (Elt F) ℓ) (outs : Outs (F := F))

/-- Outside the region's arrays nothing changes across region 7: only its result array may. -/
theorem hrest_7 (c : Dev nD) (b : Ref sig .tc) (hb : b ∉ Finset.univ.image (Pipeline.arrRef spec7)) :
    V20 m outs c b = V19 m outs c b :=
  V20_of m outs c b fun h => hb (Finset.mem_image.mpr ⟨4, Finset.mem_univ _, (List.mem_singleton.mp h).symm⟩)

/-- What region 7 reads at entry does not depend on what the earlier regions left: its arrays … -/
theorem hag_7 (c : Dev nD) : ∀ w : Fin 5, V19 m outs c (Proc.devRef .tc (Pipeline.arrRef spec7 w)) = V7in m c (Pipeline.arrRef spec7 w) :=
  fin5_cases (P := fun w => V19 m outs c (Proc.devRef .tc (Pipeline.arrRef spec7 w)) = V7in m c (Pipeline.arrRef spec7 w))
    (show V19 m outs c main_v34 = V19 m (outsL m) c main_v34 from agree7_emb m outs (outsL m) c)
    (show V19 m outs c main_v79 = V19 m (outsL m) c main_v79 from agree7_pa m outs (outsL m) c)
    (show V19 m outs c main_v80 = V19 m (outsL m) c main_v80 from agree7_w m outs (outsL m) c)
    (show V19 m outs c main_v81 = V19 m (outsL m) c main_v81 from agree7_b m outs (outsL m) c)
    (show V19 m outs c main_v82 = V19 m (outsL m) c main_v82 from agree7_out m outs (outsL m) c)
/-- … and its table. -/
theorem hagT_7 (c : Dev nD) : ∀ j : Fin 1, V19 m outs c (Proc.devRef .tc (pre7.ref j)) = V7in m c (pre7.ref j) :=
  fin1_cases (P := fun j => V19 m outs c (Proc.devRef .tc (pre7.ref j)) = V7in m c (pre7.ref j))
    (show V19 m outs c main_v78 = V19 m (outsL m) c main_v78 from agree7_tbl m outs (outsL m) c)

/-- Region 7's input arrays after the run are as entered, which is what the exit valuation holds there … -/
theorem hF_7_0 (hO : Ok7 (V7in m)) (c : Dev nD) :
    (dat7 (V7in m) hO c).arrAt (0 : Fin 5) (cfgM7 (V7in m) hO).N = V20 m outs c (Pipeline.arrRef spec7 0) :=
  (arrAt7_in (V7in m) hO c 0 (by decide)).trans (show V7in m c (Pipeline.arrRef spec7 0) = V20 m outs c (Pipeline.arrRef spec7 0) from
    ((V20_of m outs c main_v34 (by decide)).trans (agree7_emb m outs (outsL m) c)).symm)
theorem hF_7_1 (hO : Ok7 (V7in m)) (c : Dev nD) :
    (dat7 (V7in m) hO c).arrAt (1 : Fin 5) (cfgM7 (V7in m) hO).N = V20 m outs c (Pipeline.arrRef spec7 1) :=
  (arrAt7_in (V7in m) hO c 1 (by decide)).trans (show V7in m c (Pipeline.arrRef spec7 1) = V20 m outs c (Pipeline.arrRef spec7 1) from
    ((V20_of m outs c main_v79 (by decide)).trans (agree7_pa m outs (outsL m) c)).symm)
theorem hF_7_2 (hO : Ok7 (V7in m)) (c : Dev nD) :
    (dat7 (V7in m) hO c).arrAt (2 : Fin 5) (cfgM7 (V7in m) hO).N = V20 m outs c (Pipeline.arrRef spec7 2) :=
  (arrAt7_in (V7in m) hO c 2 (by decide)).trans (show V7in m c (Pipeline.arrRef spec7 2) = V20 m outs c (Pipeline.arrRef spec7 2) from
    ((V20_of m outs c main_v80 (by decide)).trans (agree7_w m outs (outsL m) c)).symm)
theorem hF_7_3 (hO : Ok7 (V7in m)) (c : Dev nD) :
    (dat7 (V7in m) hO c).arrAt (3 : Fin 5) (cfgM7 (V7in m) hO).N = V20 m outs c (Pipeline.arrRef spec7 3) :=
  (arrAt7_in (V7in m) hO c 3 (by decide)).trans (show V7in m c (Pipeline.arrRef spec7 3) = V20 m outs c (Pipeline.arrRef spec7 3) from
    ((V20_of m outs c main_v81 (by decide)).trans (agree7_b m outs (outsL m) c)).symm)
/-- … and its result array holds what the family says the region leaves. -/
theorem hF_7_4 (hO : Ok7 (V7in m)) (c : Dev nD)
    (ho : outs 20 main_v82 c = (dat7 (V7in m) hO c).arrAt 4 (cfgM7 (V7in m) hO).N) :
    (dat7 (V7in m) hO c).arrAt (4 : Fin 5) (cfgM7 (V7in m) hO).N = V20 m outs c (Pipeline.arrRef spec7 4) := by
  show _ = Function.update (V19 m outs c) (Proc.devRef .tc main_v82) (outs 20 main_v82 c) (Proc.devRef .tc main_v82)
  rw [Function.update_self]
  exact ho.symm

theorem hF_7 (hO : Ok7 (V7in m)) (c : Dev nD)
    (ho : outs 20 main_v82 c = (dat7 (V7in m) hO c).arrAt 4 (cfgM7 (V7in m) hO).N) :
    ∀ w : Fin 5, (dat7 (V7in m) hO c).arrAt w (cfgM7 (V7in m) hO).N = V20 m outs c (Pipeline.arrRef spec7 w) :=
  fin5_cases (P := fun w => (dat7 (V7in m) hO c).arrAt w (cfgM7 (V7in m) hO).N = V20 m outs c (Pipeline.arrRef spec7 w))
    (hF_7_0 m outs hO c) (hF_7_1 m outs hO c) (hF_7_2 m outs hO c) (hF_7_3 m outs hO c) (hF_7_4 m outs hO c ho)

end Tile7

/-! ## The choices for a launch memory in range -/

/-- The range fact at core 0 (there is one core): every gathered row number lies inside the embedding table. -/
abbrev HIN (m : (ℓ : Loc nD τ sig) → Buf (Elt F) ℓ) : Prop :=
  Cert.Spec.InRange (Cert.Spec.gidxOf (m (((0 : Dev nD) : Thread nD τ).loc main_arg0)) (m (((0 : Dev nD) : Thread nD τ).loc main_arg1))
    (m (((0 : Dev nD) : Thread nD τ).loc main_arg2)))

section Choices
variable (m : (ℓ : Loc nD τ sig) → Buf (Elt F) ℓ)

/-- Each tile's table satisfies its pipeline's side condition. -/
theorem hO0 (hin : HIN m) : Ok0 (V0in m) := ok0_of_inRange m 0 hin
theorem hO1 (hin : HIN m) : Ok1 (V1in m) := ok1_of_inRange m 0 hin
theorem hO2 (hin : HIN m) : Ok2 (V2in m) := ok2_of_inRange m 0 hin
theorem hO3 (hin : HIN m) : Ok3 (V3in m) := ok3_of_inRange m 0 hin
theorem hO4 (hin : HIN m) : Ok4 (V4in m) := ok4_of_inRange m 0 hin
theorem hO5 (hin : HIN m) : Ok5 (V5in m) := ok5_of_inRange m 0 hin
theorem hO6 (hin : HIN m) : Ok6 (V6in m) := ok6_of_inRange m 0 hin
theorem hO7 (hin : HIN m) : Ok7 (V7in m) := ok7_of_inRange m 0 hin

/-- Each tile's admissible table contents … -/
abbrev A0 (hin : HIN m) : (pcfg0 (F := F)).Adm := adm0 (V0in m) (hO0 m hin)
abbrev A1 (hin : HIN m) : (pcfg1 (F := F)).Adm := adm1 (V1in m) (hO1 m hin)
abbrev A2 (hin : HIN m) : (pcfg2 (F := F)).Adm := adm2 (V2in m) (hO2 m hin)
abbrev A3 (hin : HIN m) : (pcfg3 (F := F)).Adm := adm3 (V3in m) (hO3 m hin)
abbrev A4 (hin : HIN m) : (pcfg4 (F := F)).Adm := adm4 (V4in m) (hO4 m hin)
abbrev A5 (hin : HIN m) : (pcfg5 (F := F)).Adm := adm5 (V5in m) (hO5 m hin)
abbrev A6 (hin : HIN m) : (pcfg6 (F := F)).Adm := adm6 (V6in m) (hO6 m hin)
abbrev A7 (hin : HIN m) : (pcfg7 (F := F)).Adm := adm7 (V7in m) (hO7 m hin)

/-- … its proof data … -/
abbrev D0 (hin : HIN m) : (c : Dev nD) → Dat τ (Elt F) Unit ℕ (UR sig nD τ) ℕ (cfg0 (A0 m hin)) c := dat0 (V0in m) (hO0 m hin)
abbrev D1 (hin : HIN m) : (c : Dev nD) → Dat τ (Elt F) Unit ℕ (UR sig nD τ) ℕ (cfg1 (A1 m hin)) c := dat1 (V1in m) (hO1 m hin)
abbrev D2 (hin : HIN m) : (c : Dev nD) → Dat τ (Elt F) Unit ℕ (UR sig nD τ) ℕ (cfg2 (A2 m hin)) c := dat2 (V2in m) (hO2 m hin)
abbrev D3 (hin : HIN m) : (c : Dev nD) → Dat τ (Elt F) Unit ℕ (UR sig nD τ) ℕ (cfg3 (A3 m hin)) c := dat3 (V3in m) (hO3 m hin)
abbrev D4 (hin : HIN m) : (c : Dev nD) → Dat τ (Elt F) Unit ℕ (UR sig nD τ) ℕ (cfg4 (A4 m hin)) c := dat4 (V4in m) (hO4 m hin)
abbrev D5 (hin : HIN m) : (c : Dev nD) → Dat τ (Elt F) Unit ℕ (UR sig nD τ) ℕ (cfg5 (A5 m hin)) c := dat5 (V5in m) (hO5 m hin)
abbrev D6 (hin : HIN m) : (c : Dev nD) → Dat τ (Elt F) Unit ℕ (UR sig nD τ) ℕ (cfg6 (A6 m hin)) c := dat6 (V6in m) (hO6 m hin)
abbrev D7 (hin : HIN m) : (c : Dev nD) → Dat τ (Elt F) Unit ℕ (UR sig nD τ) ℕ (cfg7 (A7 m hin)) c := dat7 (V7in m) (hO7 m hin)

/-- … and what its region leaves in its result array: the proof data's array after the run. -/
abbrev o0 (hin : HIN m) (c : Dev nD) : Buf (Elt F) ((c : Thread nD τ).loc main_v40) :=
  (dat0 (V0in m) (hO0 m hin) c).arrAt 4 (cfgM0 (V0in m) (hO0 m hin)).N
abbrev o1 (hin : HIN m) (c : Dev nD) : Buf (Elt F) ((c : Thread nD τ).loc main_v46) :=
  (dat1 (V1in m) (hO1 m hin) c).arrAt 4 (cfgM1 (V1in m) (hO1 m hin)).N
abbrev o2 (hin : HIN m) (c : Dev nD) : Buf (Elt F) ((c : Thread nD τ).loc main_v52) :=
  (dat2 (V2in m) (hO2 m hin) c).arrAt 4 (cfgM2 (V2in m) (hO2 m hin)).N
abbrev o3 (hin : HIN m) (c : Dev nD) : Buf (Elt F) ((c : Thread nD τ).loc main_v58) :=
  (dat3 (V3in m) (hO3 m hin) c).arrAt 4 (cfgM3 (V3in m) (hO3 m hin)).N
abbrev o4 (hin : HIN m) (c : Dev nD) : Buf (Elt F) ((c : Thread nD τ).loc main_v64) :=
  (dat4 (V4in m) (hO4 m hin) c).arrAt 4 (cfgM4 (V4in m) (hO4 m hin)).N
abbrev o5 (hin : HIN m) (c : Dev nD) : Buf (Elt F) ((c : Thread nD τ).loc main_v70) :=
  (dat5 (V5in m) (hO5 m hin) c).arrAt 4 (cfgM5 (V5in m) (hO5 m hin)).N
abbrev o6 (hin : HIN m) (c : Dev nD) : Buf (Elt F) ((c : Thread nD τ).loc main_v76) :=
  (dat6 (V6in m) (hO6 m hin) c).arrAt 4 (cfgM6 (V6in m) (hO6 m hin)).N
abbrev o7 (hin : HIN m) (c : Dev nD) : Buf (Elt F) ((c : Thread nD τ).loc main_v82) :=
  (dat7 (V7in m) (hO7 m hin) c).arrAt 4 (cfgM7 (V7in m) (hO7 m hin)).N

/-- What the regions leave. -/
def outsR (hin : HIN m) : Outs (F := F) := outsOf m (o0 m hin) (o1 m hin) (o2 m hin) (o3 m hin) (o4 m hin) (o5 m hin) (o6 m hin) (o7 m hin)

theorem outsR_0 (hin : HIN m) (n : ℕ) (c : Dev nD) : outsR m hin n main_v40 c = o0 m hin c := outsOf_0 m _ _ _ _ _ _ _ _ n c
theorem outsR_1 (hin : HIN m) (n : ℕ) (c : Dev nD) : outsR m hin n main_v46 c = o1 m hin c := outsOf_1 m _ _ _ _ _ _ _ _ n c
theorem outsR_2 (hin : HIN m) (n : ℕ) (c : Dev nD) : outsR m hin n main_v52 c = o2 m hin c := outsOf_2 m _ _ _ _ _ _ _ _ n c
theorem outsR_3 (hin : HIN m) (n : ℕ) (c : Dev nD) : outsR m hin n main_v58 c = o3 m hin c := outsOf_3 m _ _ _ _ _ _ _ _ n c
theorem outsR_4 (hin : HIN m) (n : ℕ) (c : Dev nD) : outsR m hin n main_v64 c = o4 m hin c := outsOf_4 m _ _ _ _ _ _ _ _ n c
theorem outsR_5 (hin : HIN m) (n : ℕ) (c : Dev nD) : outsR m hin n main_v70 c = o5 m hin c := outsOf_5 m _ _ _ _ _ _ _ _ n c
theorem outsR_6 (hin : HIN m) (n : ℕ) (c : Dev nD) : outsR m hin n main_v76 c = o6 m hin c := outsOf_6 m _ _ _ _ _ _ _ _ n c
theorem outsR_7 (hin : HIN m) (n : ℕ) (c : Dev nD) : outsR m hin n main_v82 c = o7 m hin c := outsOf_7 m _ _ _ _ _ _ _ _ n c

/-- The two families. -/
abbrev admF (hin : HIN m) : (p : Fin 8) → (pcfgs (F := F) p).Adm := admOf (A0 m hin) (A1 m hin) (A2 m hin) (A3 m hin) (A4 m hin) (A5 m hin) (A6 m hin) (A7 m hin)
abbrev pdatsF (hin : HIN m) : (p : Fin 8) → (c : Dev nD) → Dat τ (Elt F) Unit ℕ (UR sig nD τ) ℕ (Pipeline.pin (pcfgs (F := F)) (admF m hin) p) c :=
  pdatsOf (A0 m hin) (A1 m hin) (A2 m hin) (A3 m hin) (A4 m hin) (A5 m hin) (A6 m hin) (A7 m hin) (D0 m hin) (D1 m hin) (D2 m hin) (D3 m hin) (D4 m hin) (D5 m hin) (D6 m hin) (D7 m hin)

/-! ## The eight records -/

/-- Region 0's record: entered at the valuation before it, left at the one after it, at the family `outsR`. -/
def R0 (hin : HIN m) : RegionSeg (pcfgs (F := F)) (admF m hin) (pdatsF m hin) () defs₀ Variants.none (fun _ => ∅) (fun _ _ => 0) 0 :=
  reg0 (V0in m) (hO0 m hin) (fun c => V5 m c) (fun c => V6 m (outsR m hin) c) (hag_0 m) (hagT_0 m)
    (fun c => hF_0 m (outsR m hin) (hO0 m hin) c (outsR_0 m hin 6 c)) (fun c => hrest_0 m (outsR m hin) c)
    (A1 m hin) (A2 m hin) (A3 m hin) (A4 m hin) (A5 m hin) (A6 m hin) (A7 m hin) (D1 m hin) (D2 m hin) (D3 m hin) (D4 m hin) (D5 m hin) (D6 m hin) (D7 m hin)

/-- Region 1's record: entered at the valuation before it, left at the one after it, at the family `outsR`. -/
def R1 (hin : HIN m) : RegionSeg (pcfgs (F := F)) (admF m hin) (pdatsF m hin) () defs₀ Variants.none (fun _ => ∅) (fun _ _ => 0) 1 :=
  reg1 (V1in m) (hO1 m hin) (fun c => V7 m (outsR m hin) c) (fun c => V8 m (outsR m hin) c) (fun c => hag_1 m (outsR m hin) c) (fun c => hagT_1 m (outsR m hin) c)
    (fun c => hF_1 m (outsR m hin) (hO1 m hin) c (outsR_1 m hin 8 c)) (fun c => hrest_1 m (outsR m hin) c)
    (A0 m hin) (A2 m hin) (A3 m hin) (A4 m hin) (A5 m hin) (A6 m hin) (A7 m hin) (D0 m hin) (D2 m hin) (D3 m hin) (D4 m hin) (D5 m hin) (D6 m hin) (D7 m hin)

/-- Region 2's record: entered at the valuation before it, left at the one after it, at the family `outsR`. -/
def R2 (hin : HIN m) : RegionSeg (pcfgs (F := F)) (admF m hin) (pdatsF m hin) () defs₀ Variants.none (fun _ => ∅) (fun _ _ => 0) 2 :=
  reg2 (V2in m) (hO2 m hin) (fun c => V9 m (outsR m hin) c) (fun c => V10 m (outsR m hin) c) (fun c => hag_2 m (outsR m hin) c) (fun c => hagT_2 m (outsR m hin) c)
    (fun c => hF_2 m (outsR m hin) (hO2 m hin) c (outsR_2 m hin 10 c)) (fun c => hrest_2 m (outsR m hin) c)
    (A0 m hin) (A1 m hin) (A3 m hin) (A4 m hin) (A5 m hin) (A6 m hin) (A7 m hin) (D0 m hin) (D1 m hin) (D3 m hin) (D4 m hin) (D5 m hin) (D6 m hin) (D7 m hin)

/-- Region 3's record: entered at the valuation before it, left at the one after it, at the family `outsR`. -/
def R3 (hin : HIN m) : RegionSeg (pcfgs (F := F)) (admF m hin) (pdatsF m hin) () defs₀ Variants.none (fun _ => ∅) (fun _ _ => 0) 3 :=
  reg3 (V3in m) (hO3 m hin) (fun c => V11 m (outsR m hin) c) (fun c => V12 m (outsR m hin) c) (fun c => hag_3 m (outsR m hin) c) (fun c => hagT_3 m (outsR m hin) c)
    (fun c => hF_3 m (outsR m hin) (hO3 m hin) c (outsR_3 m hin 12 c)) (fun c => hrest_3 m (outsR m hin) c)
    (A0 m hin) (A1 m hin) (A2 m hin) (A4 m hin) (A5 m hin) (A6 m hin) (A7 m hin) (D0 m hin) (D1 m hin) (D2 m hin) (D4 m hin) (D5 m hin) (D6 m hin) (D7 m hin)

/-- Region 4's record: entered at the valuation before it, left at the one after it, at the family `outsR`. -/
def R4 (hin : HIN m) : RegionSeg (pcfgs (F := F)) (admF m hin) (pdatsF m hin) () defs₀ Variants.none (fun _ => ∅) (fun _ _ => 0) 4 :=
  reg4 (V4in m) (hO4 m hin) (fun c => V13 m (outsR m hin) c) (fun c => V14 m (outsR m hin) c) (fun c => hag_4 m (outsR m hin) c) (fun c => hagT_4 m (outsR m hin) c)
    (fun c => hF_4 m (outsR m hin) (hO4 m hin) c (outsR_4 m hin 14 c)) (fun c => hrest_4 m (outsR m hin) c)
    (A0 m hin) (A1 m hin) (A2 m hin) (A3 m hin) (A5 m hin) (A6 m hin) (A7 m hin) (D0 m hin) (D1 m hin) (D2 m hin) (D3 m hin) (D5 m hin) (D6 m hin) (D7 m hin)

/-- Region 5's record: entered at the valuation before it, left at the one after it, at the family `outsR`. -/
def R5 (hin : HIN m) : RegionSeg (pcfgs (F := F)) (admF m hin) (pdatsF m hin) () defs₀ Variants.none (fun _ => ∅) (fun _ _ => 0) 5 :=
  reg5 (V5in m) (hO5 m hin) (fun c => V15 m (outsR m hin) c) (fun c => V16 m (outsR m hin) c) (fun c => hag_5 m (outsR m hin) c) (fun c => hagT_5 m (outsR m hin) c)
    (fun c => hF_5 m (outsR m hin) (hO5 m hin) c (outsR_5 m hin 16 c)) (fun c => hrest_5 m (outsR m hin) c)
    (A0 m hin) (A1 m hin) (A2 m hin) (A3 m hin) (A4 m hin) (A6 m hin) (A7 m hin) (D0 m hin) (D1 m hin) (D2 m hin) (D3 m hin) (D4 m hin) (D6 m hin) (D7 m hin)

/-- Region 6's record: entered at the valuation before it, left at the one after it, at the family `outsR`. -/
def R6 (hin : HIN m) : RegionSeg (pcfgs (F := F)) (admF m hin) (pdatsF m hin) () defs₀ Variants.none (fun _ => ∅) (fun _ _ => 0) 6 :=
  reg6 (V6in m) (hO6 m hin) (fun c => V17 m (outsR m hin) c) (fun c => V18 m (outsR m hin) c) (fun c => hag_6 m (outsR m hin) c) (fun c => hagT_6 m (outsR m hin) c)
    (fun c => hF_6 m (outsR m hin) (hO6 m hin) c (outsR_6 m hin 18 c)) (fun c => hrest_6 m (outsR m hin) c)
    (A0 m hin) (A1 m hin) (A2 m hin) (A3 m hin) (A4 m hin) (A5 m hin) (A7 m hin) (D0 m hin) (D1 m hin) (D2 m hin) (D3 m hin) (D4 m hin) (D5 m hin) (D7 m hin)

/-- Region 7's record: entered at the valuation before it, left at the one after it, at the family `outsR`. -/
def R7 (hin : HIN m) : RegionSeg (pcfgs (F := F)) (admF m hin) (pdatsF m hin) () defs₀ Variants.none (fun _ => ∅) (fun _ _ => 0) 7 :=
  reg7 (V7in m) (hO7 m hin) (fun c => V19 m (outsR m hin) c) (fun c => V20 m (outsR m hin) c) (fun c => hag_7 m (outsR m hin) c) (fun c => hagT_7 m (outsR m hin) c)
    (fun c => hF_7 m (outsR m hin) (hO7 m hin) c (outsR_7 m hin 20 c)) (fun c => hrest_7 m (outsR m hin) c)
    (A0 m hin) (A1 m hin) (A2 m hin) (A3 m hin) (A4 m hin) (A5 m hin) (A6 m hin) (D0 m hin) (D1 m hin) (D2 m hin) (D3 m hin) (D4 m hin) (D5 m hin) (D6 m hin)

end Choices

/-! ## The run and the frame -/

variable (m : (ℓ : Loc nD τ sig) → Buf (Elt F) ℓ)

/-- THE FRAME. From such a memory every final memory holds each of the seven argument arrays as launched. -/
theorem frame_main (ρ : Dev nD → PrngReg) (hin : HIN m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_regs m ρ (outsR m hin) (admF m hin) (pdatsF m hin)
    (R0 m hin) (fun _ => .rfl) (fun _ => .rfl)
    (R1 m hin) (fun _ => .rfl) (fun _ => .rfl)
    (R2 m hin) (fun _ => .rfl) (fun _ => .rfl)
    (R3 m hin) (fun _ => .rfl) (fun _ => .rfl)
    (R4 m hin) (fun _ => .rfl) (fun _ => .rfl)
    (R5 m hin) (fun _ => .rfl) (fun _ => .rfl)
    (R6 m hin) (fun _ => .rfl) (fun _ => .rfl)
    (R7 m hin) (fun _ => .rfl) (fun _ => .rfl)

end Cert.Kernel.Hand

end
-- ==== Proof.KRowValue.lean ====
/-
  The kernel's arithmetic for ONE sample, at the ideal values, against the function both programs compute.

  The kernel body carries three pure values. The first is the zero row it clears the accumulator with. The second adds
  one gathered row to the accumulator, lane by lane (the shape casts around it are identities). The third takes the
  accumulated row `acc`, the sample's phase-bias row `pa`, its head weights `w` and its head bias `b`, and gives
  `(Σ_l min 1 (max 0 (acc_l + pa_l)) · w_l) + b`: the lane sum is a finite sum over the 128 lanes.

  Over a sample's 32 rows the body computes `acc = ((0 + e_0) + e_1) + … + e_31 = Σ_f e_f`, lane by lane, so when the rows
  are the table's rows `emb[rowOf gidx r f]` the accumulator is `Spec.embSum` at the sample, the clip and the product are
  `Spec.weighted`'s own operations read at an index, and the stored value is `Spec.G` at `(r, 0)`. Only the
  commutative-monoid laws of addition on the extended reals are used.
-/
import proofs.«402893_j78554951844377_2_alg».proof.Proof.Gen.KernelIdeal.Skeleton
import proofs.«402893_j78554951844377_2_alg».proof.Proof.Spec
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section
open scoped BigOperators
namespace Cert.KernelIdeal.Hand
open Idealize.ShloMosaic
open Cert.KernelIdeal Cert.KernelIdeal.Gen

/-! ## The first two payloads at an index -/

/-- The cleared accumulator is zero in every lane: the splat of the zero word, through an identity shape cast. -/
theorem pay1_apply (j : S1x1x128.Idx) : k0_pay1 (F := Ideal) j = 0 := by
  show shapeCast S1x1x128 (broadcast S1x1x128 (Scalar.ofBits (F := Ideal) .f32 0x00000000#32)) _ j = 0
  rw [shapeCast_self]
  exact Ideal.ofBits_zero_f32

/-- One accumulation step adds the row to the accumulator, lane by lane: both shape casts are identities. -/
theorem pay2_apply (acc x : Vec Ideal S1x1x128 .f32) (j : S1x1x128.Idx) : k0_pay2 (F := Ideal) acc x j = acc j + x j := by
  show shapeCast S1x1x128 (addf (F := Ideal) acc (shapeCast S1x1x128 x _)) _ j = _
  rw [shapeCast_self, shapeCast_self]
  rfl

/-! ## The fold over one sample's 32 rows -/

/-- The body's fold over one sample's 32 rows: the cleared accumulator plus row 0, then one row more at each step. -/
def foldRows (e : Fin 32 → Vec Ideal S1x1x128 .f32) : (n : ℕ) → n < 32 → Vec Ideal S1x1x128 .f32
  | 0, _ => k0_pay2 (k0_pay1 (F := Ideal)) (e 0)
  | n + 1, h => k0_pay2 (foldRows e n (Nat.lt_of_succ_lt h)) (e ⟨n + 1, h⟩)

/-- After step `n` the accumulator holds, at every index, the sum of rows 0 to `n`: by induction, from `0 + x = x` and
    the sum over `Fin (n + 2)` split at its last term. -/
theorem foldRows_eq (e : Fin 32 → Vec Ideal S1x1x128 .f32) (j : S1x1x128.Idx) :
    ∀ (n : ℕ) (h : n < 32), foldRows e n h j = ∑ f : Fin (n + 1), e ⟨f.val, by omega⟩ j := by
  intro n
  induction n with
  | zero =>
    intro h
    show k0_pay2 (k0_pay1 (F := Ideal)) (e 0) j = _
    rw [pay2_apply, pay1_apply, zero_add, Fin.sum_univ_one]
    rfl
  | succ n ih =>
    intro h
    show k0_pay2 (foldRows e n (Nat.lt_of_succ_lt h)) (e ⟨n + 1, h⟩) j = _
    rw [pay2_apply, ih, Fin.sum_univ_castSucc (n := n + 1)]
    rfl

/-- After the last step a lane of the accumulator is the sum of the 32 rows' lanes. -/
theorem foldRows_last (e : Fin 32 → Vec Ideal S1x1x128 .f32) (l : Fin 128) :
    foldRows e 31 (by decide) (ValueIdx.ix3 0 0 l) = ∑ f : Fin 32, e f (ValueIdx.ix3 0 0 l) :=
  foldRows_eq e _ 31 (by decide)

/-! ## The third payload: the sample's result -/

/-- The sum over the lane axis of a `[1, 1, 128]` vector, from the zero word, read at its one index: the finite sum of
    the 128 lanes (the inserted coordinate lands on the lane axis). -/
theorem laneSum_apply (v : FVec Ideal S1x1x128 .f32) (h : Shape.Reduces S1x1x128 [2] S1x1) (hφ : FKind.Formats .f32)
    (hacc : (0x00000000#32 : BitVec 32) = 0x00000000#32) :
    multiReduction (F := Ideal) .add [2] S1x1 v 0x00000000#32 h hφ hacc (ValueIdx.ix2 0 0)
      = ∑ k : Fin 128, v (ValueIdx.ix3 0 0 k) := by
  refine (Ideal.multiReduction_add_single v 0x00000000#32 h hφ hacc (ValueIdx.ix2 0 0)).trans ?_
  show ∑ k : Fin 128, v (h.lift (ValueIdx.ix2 0 0) k) = _
  refine Finset.sum_congr rfl fun k _ => congrArg v (funext fun c => Fin.ext ?_)
  match c with
  | ⟨0, _⟩ => rfl
  | ⟨1, _⟩ => rfl
  | ⟨2, _⟩ => rfl

/-- THE SAMPLE'S RESULT. When the 32 rows are the table's rows for sample `r` and `pa`, `w`, `b` are the sample's rows of the
    three selections, the stored value is `Spec.G` at `(r, 0)`: the accumulator's lanes are `Spec.embSum`'s, the clip and the
    product read lane by lane are `Spec.weighted`'s, the lane sum is the sum over the 128 lanes, and the bias is added. -/
theorem row_value (gidx : IVec Cert.Spec.S16384x32 32) (emb : FVec Ideal Cert.Spec.S786432x128 .f32)
    (paS wS : FVec Ideal Cert.Spec.S16384x128 .f32) (bS : FVec Ideal Cert.Spec.S16384 .f32) (r : Fin 16384)
    (e : Fin 32 → Vec Ideal S1x1x128 .f32)
    (he : ∀ (f : Fin 32) (l : Fin 128), e f (ValueIdx.ix3 0 0 l) = emb (ValueIdx.ix2 (Cert.Spec.rowOf gidx r f) l))
    (pa w : Vec Ideal S1x1x128 .f32) (hpa : ∀ l : Fin 128, pa (ValueIdx.ix3 0 0 l) = paS (ValueIdx.ix2 r l))
    (hw : ∀ l : Fin 128, w (ValueIdx.ix3 0 0 l) = wS (ValueIdx.ix2 r l))
    (b : Vec Ideal S1x1x1 .f32) (hb : b (ValueIdx.ix3 0 0 0) = bS (ValueIdx.ix1 r)) :
    k0_pay3 (F := Ideal) (foldRows e 31 (by decide)) pa w b (ValueIdx.ix3 0 0 0)
      = Cert.Spec.G gidx emb paS wS bS (ValueIdx.ix2 r 0) := by
  have hacc : ∀ l : Fin 128, foldRows e 31 (by decide) (ValueIdx.ix3 0 0 l)
      = Cert.Spec.embSum gidx emb (ValueIdx.ix2 r l) := by
    intro l
    rw [foldRows_last]
    show _ = ∑ f : Fin 32, emb (ValueIdx.ix2 (Cert.Spec.rowOf gidx r f) l)
    exact Finset.sum_congr rfl fun f _ => he f l
  unfold k0_pay3
  simp only [shapeCast_self]
  rw [ValueIdx.addf_apply, ValueIdx.shapeCast_ab_1ab_apply, laneSum_apply, hb]
  show (∑ k : Fin 128, _) + _ = (∑ l : Fin 128, Cert.Spec.weighted gidx emb paS wS (ValueIdx.ix2 r l)) + bS (ValueIdx.ix1 r)
  congr 1
  refine Finset.sum_congr rfl fun k _ => ?_
  show min (Ideal.ofBits .f32 0x3F800000#32) (max (Ideal.ofBits .f32 0x00000000#32)
      (foldRows e 31 (by decide) (ValueIdx.ix3 0 0 k) + pa (ValueIdx.ix3 0 0 k))) * w (ValueIdx.ix3 0 0 k)
    = min (Ideal.ofBits .f32 0x3F800000#32) (max (Ideal.ofBits .f32 0x00000000#32)
      (Cert.Spec.embSum gidx emb (ValueIdx.ix2 r k) + paS (ValueIdx.ix2 r k))) * wS (ValueIdx.ix2 r k)
  rw [hacc, hpa, hw]

/-! ## The other tiles' payloads are the same functions

Tiles 1 to 7 carry payloads with the same bodies over the same shapes; each is the first tile's, by unfolding. -/
theorem k1_pay1_eq : @k1_pay1 Ideal _ = @k0_pay1 Ideal _ := rfl
theorem k1_pay2_eq : @k1_pay2 Ideal _ = @k0_pay2 Ideal _ := rfl
theorem k1_pay3_eq : @k1_pay3 Ideal _ = @k0_pay3 Ideal _ := rfl
theorem k2_pay1_eq : @k2_pay1 Ideal _ = @k0_pay1 Ideal _ := rfl
theorem k2_pay2_eq : @k2_pay2 Ideal _ = @k0_pay2 Ideal _ := rfl
theorem k2_pay3_eq : @k2_pay3 Ideal _ = @k0_pay3 Ideal _ := rfl
theorem k3_pay1_eq : @k3_pay1 Ideal _ = @k0_pay1 Ideal _ := rfl
theorem k3_pay2_eq : @k3_pay2 Ideal _ = @k0_pay2 Ideal _ := rfl
theorem k3_pay3_eq : @k3_pay3 Ideal _ = @k0_pay3 Ideal _ := rfl
theorem k4_pay1_eq : @k4_pay1 Ideal _ = @k0_pay1 Ideal _ := rfl
theorem k4_pay2_eq : @k4_pay2 Ideal _ = @k0_pay2 Ideal _ := rfl
theorem k4_pay3_eq : @k4_pay3 Ideal _ = @k0_pay3 Ideal _ := rfl
theorem k5_pay1_eq : @k5_pay1 Ideal _ = @k0_pay1 Ideal _ := rfl
theorem k5_pay2_eq : @k5_pay2 Ideal _ = @k0_pay2 Ideal _ := rfl
theorem k5_pay3_eq : @k5_pay3 Ideal _ = @k0_pay3 Ideal _ := rfl
theorem k6_pay1_eq : @k6_pay1 Ideal _ = @k0_pay1 Ideal _ := rfl
theorem k6_pay2_eq : @k6_pay2 Ideal _ = @k0_pay2 Ideal _ := rfl
theorem k6_pay3_eq : @k6_pay3 Ideal _ = @k0_pay3 Ideal _ := rfl
theorem k7_pay1_eq : @k7_pay1 Ideal _ = @k0_pay1 Ideal _ := rfl
theorem k7_pay2_eq : @k7_pay2 Ideal _ = @k0_pay2 Ideal _ := rfl
theorem k7_pay3_eq : @k7_pay3 Ideal _ = @k0_pay3 Ideal _ := rfl

end Cert.KernelIdeal.Hand

end
-- ==== Proof.R0Tile.lean ====
/-
  Tile 0: the result array of the first kernel region, read at a sample, is the specification's value there.

  Point `32·r + f` of the region's grid is sample `r`, feature `f`. Within a sample the scratch accumulates the gathered
  rows feature by feature, restarting at feature 0; at feature 31 the body stores the sample's result, computed from the
  scratch and the sample's rows of the three selections. The gathered row at a point is the embedding row the table word
  names; under the range fact that word, read unsigned, is the specification's row number.
-/
import proofs.«402893_j78554951844377_2_alg».proof.Proof.Gen.KernelIdeal.Regions
import proofs.«402893_j78554951844377_2_alg».proof.Proof.Spec
import proofs.«402893_j78554951844377_2_alg».proof.Proof.R0Base
import proofs.«402893_j78554951844377_2_alg».proof.Proof.R0Grid
import proofs.«402893_j78554951844377_2_alg».proof.Proof.R0Acc
import proofs.«402893_j78554951844377_2_alg».proof.Proof.R0Val
import proofs.«402893_j78554951844377_2_alg».proof.Proof.R0Ok
import proofs.«402893_j78554951844377_2_alg».proof.Proof.OkTables
import proofs.«402893_j78554951844377_2_alg».proof.Proof.KHost
import proofs.«402893_j78554951844377_2_alg».proof.Proof.KRowValue
import proofs.«402893_j78554951844377_2_alg».proof.Proof.TileLib
import Idealize.ShloMosaic.PureOps.Ideal
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

section Generic
variable {F : FTy → Type} [FloatOps F]

variable (V : (c : Dev nD) → (b : Ref sig .tc) → Buf (Elt F) ((c : Thread nD τ).loc b))

/-- The scratch contents depend on the position only through its value. -/
theorem accAt0_congr (hO : Ok0 V) (c : Dev nD) {n n' : ℕ} (h : n = n') (hn : n < (cfgM0 V hO).N) (hn' : n' < (cfgM0 V hO).N) :
    accAt0 V hO c n hn = accAt0 V hO c n' hn' := by
  subst h; rfl

/-- The grid point of sample `r`, feature `f`: position `32·r + f`. -/
abbrev pt0 (hO : Ok0 V) (r : Fin 2048) (f : ℕ) (hf : f < 32) : Fin (cfgM0 V hO).N :=
  ⟨32 * r.val + f, by have := r.isLt; have hN : (cfgM0 V hO).N = 65536 := N_0; omega⟩

end Generic

section AtIdeal

variable (V : (c : Dev nD) → (b : Ref sig .tc) → Buf (Elt Ideal) ((c : Thread nD τ).loc b))

/-- Within sample `r` the scratch after feature `f` is the fold of the sample's rows 0 to `f`: at feature 0 the body restarts
    the scratch from zero plus the row (the first condition holds exactly there), and at feature `f + 1` it adds the row to
    what feature `f` left. -/
theorem acc_fold0 (hO : Ok0 V) (c : Dev nD) (r : Fin 2048) : ∀ (f : ℕ) (hf : f < 32),
    accAt0 V hO c (32 * r.val + f) (pt0 V hO r f hf).isLt
      = foldRows (fun g : Fin 32 => xrow0 V hO c (pt0 V hO r g.val g.isLt)) f hf := by
  intro f
  induction f with
  | zero =>
    intro hf
    exact accAt0_A V hO c (pt0 V hO r 0 hf)
      ((cond0_0_iff _).mpr (by rw [coords0_val1]; show (32 * r.val + 0) % 32 = 0; omega))
  | succ f ih =>
    intro hf
    have hB := accAt0_B V hO c (pt0 V hO r (f + 1) hf)
      (fun h => by
        have h' := (cond0_0_iff _).mp h
        rw [coords0_val1] at h'
        have h'' : (32 * r.val + (f + 1)) % 32 = 0 := h'
        omega)
      (by show 32 * r.val + (f + 1) ≠ 0; omega)
    refine hB.trans ?_
    show k0_pay2 (accAt0 V hO c (32 * r.val + (f + 1) - 1) _) (xrow0 V hO c (pt0 V hO r (f + 1) hf))
      = k0_pay2 (foldRows (fun g : Fin 32 => xrow0 V hO c (pt0 V hO r g.val g.isLt)) f (Nat.lt_of_succ_lt hf))
          (xrow0 V hO c (pt0 V hO r (f + 1) hf))
    rw [accAt0_congr V hO c (show 32 * r.val + (f + 1) - 1 = 32 * r.val + f by omega) _ (pt0 V hO r f (Nat.lt_of_succ_lt hf)).isLt,
      ih (Nat.lt_of_succ_lt hf)]

variable (m : (ℓ : Loc nD τ sig) → Buf (Elt Ideal) ℓ)

/-- TILE 0's VALUE. The result array of region 0 at sample `r` of the tile is the specification's result for sample
    `2048·0 + r`: it is what the body stored at the sample's last feature, computed from the fold of the sample's 32 rows
    — each the embedding row the table names, which under the range fact is the specification's row — and from the
    sample's rows of the three selections. -/
theorem tile0_value (c : Dev nD) (hO : Ok0 (V0in m))
    (hin : Spec.InRange (Spec.gidxOf (m ((c : Thread nD τ).loc main_arg0)) (m ((c : Thread nD τ).loc main_arg1)) (m ((c : Thread nD τ).loc main_arg2))))
    (r : Fin 2048) :
    tileRes0 (V0in m) hO c (ValueIdx.ix3 r 0 0)
      = Spec.G (Spec.gidxOf (m ((c : Thread nD τ).loc main_arg0)) (m ((c : Thread nD τ).loc main_arg1)) (m ((c : Thread nD τ).loc main_arg2)))
          (m ((c : Thread nD τ).loc main_arg3))
          (Spec.paSelOf (m ((c : Thread nD τ).loc main_arg1)) (m ((c : Thread nD τ).loc main_arg4)))
          (Spec.wSelOf (m ((c : Thread nD τ).loc main_arg1)) (m ((c : Thread nD τ).loc main_arg5)))
          (Spec.bSelOf (m ((c : Thread nD τ).loc main_arg1)) (m ((c : Thread nD τ).loc main_arg6)))
          (ValueIdx.ix2 (⟨2048 * 0 + r.val, by have := r.isLt; omega⟩ : Fin 16384) 0) := by
  have hr := r.isLt
  refine (tileRes0_apply (V0in m) hO c r).trans ?_
  show k0_pay3 (accAt0 (V0in m) hO c (32 * r.val + 31) (pt0 (V0in m) hO r 31 (by decide)).isLt)
      (xpa0 (V0in m) hO c (pt0 (V0in m) hO r 31 (by decide))) (xw0 (V0in m) hO c (pt0 (V0in m) hO r 31 (by decide)))
      (xb0 (V0in m) hO c (pt0 (V0in m) hO r 31 (by decide))) (ValueIdx.ix3 0 0 0) = _
  rw [acc_fold0 (V0in m) hO c r 31 (by decide)]
  refine row_value _ _ _ _ _ (⟨2048 * 0 + r.val, by omega⟩ : Fin 16384)
    (fun g : Fin 32 => xrow0 (V0in m) hO c (pt0 (V0in m) hO r g.val g.isLt)) ?_ _ _ ?_ ?_ _ ?_
  · -- the rows: the embedding row the table word names; the word is the gathered row number, below 786432
    intro f l
    refine (xrow0_apply (V0in m) hO c _ l).trans ?_
    refine (emb0_apply m c _ l).trans ?_
    refine congrArg _ (ix2_congr ?_ rfl)
    show (tword0 (tbl0 (V0in m)) (grid0.coords (pt0 (V0in m) hO r f.val f.isLt))).toNat
      = ((Spec.gidxOf (m ((c : Thread nD τ).loc main_arg0)) (m ((c : Thread nD τ).loc main_arg1)) (m ((c : Thread nD τ).loc main_arg2)))
          (ValueIdx.ix2 (⟨2048 * 0 + r.val, by omega⟩ : Fin 16384) f)).toNat % 786432
    rw [tword0_V0in m c, Nat.mod_eq_of_lt (hin _ _)]
    have hf := f.isLt
    refine congrArg BitVec.toNat (congrArg _ (ix2_congr ?_ ?_))
    · show 2048 * 0 + ((grid0.coords (pt0 (V0in m) hO r f.val f.isLt)) 0).val = 2048 * 0 + r.val
      rw [coords0_val0]
      show 2048 * 0 + (32 * r.val + f.val) / 32 = 2048 * 0 + r.val
      omega
    · show ((grid0.coords (pt0 (V0in m) hO r f.val f.isLt)) 1).val = f.val
      rw [coords0_val1]
      show (32 * r.val + f.val) % 32 = f.val
      omega
  · -- the phase-bias row of the sample: the last feature's point has sample coordinate r
    intro l
    exact (xpa0_apply (V0in m) hO c _ l).trans <|
      (congrArg (V5 m c main_v37) (ix3_congr (a' := r) (by show (32 * r.val + 31) / 32 = r.val; omega) 0 l)).trans <|
      pa0_apply m c r l
  · intro l
    exact (xw0_apply (V0in m) hO c _ l).trans <|
      (congrArg (V5 m c main_v38) (ix3_congr (a' := r) (by show (32 * r.val + 31) / 32 = r.val; omega) 0 l)).trans <|
      w0_apply m c r l
  · exact (xb0_apply (V0in m) hO c _).trans <|
      (congrArg (V5 m c main_v39) (ix3_congr (a' := r) (by show (32 * r.val + 31) / 32 = r.val; omega) 0 0)).trans <|
      b0_apply m c r

end AtIdeal

end Cert.KernelIdeal.Hand

end
-- ==== Proof.R1Tile.lean ====
/-
  Tile 1: the result array of kernel region 1 (regions counted from 0), read at a sample, is the specification's value there.

  Point `32·r + f` of the region's grid is sample `r`, feature `f`. Within a sample the scratch accumulates the gathered
  rows feature by feature, restarting at feature 0; at feature 31 the body stores the sample's result, computed from the
  scratch and the sample's rows of the three selections. The gathered row at a point is the embedding row the table word
  names; under the range fact that word, read unsigned, is the specification's row number. This tile's three payload
  functions (cleared scratch, accumulation step, result step) are the same functions as tile 0's, over which the fold
  of a sample's rows and the sample's value are stated.
-/
import proofs.«402893_j78554951844377_2_alg».proof.Proof.Gen.KernelIdeal.Regions
import proofs.«402893_j78554951844377_2_alg».proof.Proof.Spec
import proofs.«402893_j78554951844377_2_alg».proof.Proof.R1Base
import proofs.«402893_j78554951844377_2_alg».proof.Proof.R1Grid
import proofs.«402893_j78554951844377_2_alg».proof.Proof.R1Acc
import proofs.«402893_j78554951844377_2_alg».proof.Proof.R1Val
import proofs.«402893_j78554951844377_2_alg».proof.Proof.R1Ok
import proofs.«402893_j78554951844377_2_alg».proof.Proof.OkTablesT
import proofs.«402893_j78554951844377_2_alg».proof.Proof.KHostT1
import proofs.«402893_j78554951844377_2_alg».proof.Proof.KRowValue
import proofs.«402893_j78554951844377_2_alg».proof.Proof.TileLib
import Idealize.ShloMosaic.PureOps.Ideal
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

section Generic
variable {F : FTy → Type} [FloatOps F]

variable (V : (c : Dev nD) → (b : Ref sig .tc) → Buf (Elt F) ((c : Thread nD τ).loc b))

/-- The scratch contents depend on the position only through its value. -/
theorem accAt1_congr (hO : Ok1 V) (c : Dev nD) {n n' : ℕ} (h : n = n') (hn : n < (cfgM1 V hO).N) (hn' : n' < (cfgM1 V hO).N) :
    accAt1 V hO c n hn = accAt1 V hO c n' hn' := by
  subst h; rfl

/-- The grid point of sample `r`, feature `f`: position `32·r + f`. -/
abbrev pt1 (hO : Ok1 V) (r : Fin 2048) (f : ℕ) (hf : f < 32) : Fin (cfgM1 V hO).N :=
  ⟨32 * r.val + f, by have := r.isLt; have hN : (cfgM1 V hO).N = 65536 := N_1; omega⟩

end Generic

section AtIdeal

variable (V : (c : Dev nD) → (b : Ref sig .tc) → Buf (Elt Ideal) ((c : Thread nD τ).loc b))

/-- Within sample `r` the scratch after feature `f` is the fold of the sample's rows 0 to `f`: at feature 0 the body restarts
    the scratch from zero plus the row (the first condition holds exactly there), and at feature `f + 1` it adds the row to
    what feature `f` left. -/
theorem acc_fold1 (hO : Ok1 V) (c : Dev nD) (r : Fin 2048) : ∀ (f : ℕ) (hf : f < 32),
    accAt1 V hO c (32 * r.val + f) (pt1 V hO r f hf).isLt
      = foldRows (fun g : Fin 32 => xrow1 V hO c (pt1 V hO r g.val g.isLt)) f hf := by
  intro f
  induction f with
  | zero =>
    intro hf
    refine (accAt1_A V hO c (pt1 V hO r 0 hf)
      ((cond1_0_iff _).mpr (by rw [coords1_val1]; show (32 * r.val + 0) % 32 = 0; omega))).trans ?_
    -- this tile's cleared scratch and accumulation step are tile 0's functions
    rw [k1_pay1_eq, k1_pay2_eq]
    rfl
  | succ f ih =>
    intro hf
    have hB := accAt1_B V hO c (pt1 V hO r (f + 1) hf)
      (fun h => by
        have h' := (cond1_0_iff _).mp h
        rw [coords1_val1] at h'
        have h'' : (32 * r.val + (f + 1)) % 32 = 0 := h'
        omega)
      (by show 32 * r.val + (f + 1) ≠ 0; omega)
    refine hB.trans ?_
    -- this tile's accumulation step is tile 0's function
    rw [k1_pay2_eq]
    show k0_pay2 (accAt1 V hO c (32 * r.val + (f + 1) - 1) _) (xrow1 V hO c (pt1 V hO r (f + 1) hf))
      = k0_pay2 (foldRows (fun g : Fin 32 => xrow1 V hO c (pt1 V hO r g.val g.isLt)) f (Nat.lt_of_succ_lt hf))
          (xrow1 V hO c (pt1 V hO r (f + 1) hf))
    rw [accAt1_congr V hO c (show 32 * r.val + (f + 1) - 1 = 32 * r.val + f by omega) _ (pt1 V hO r f (Nat.lt_of_succ_lt hf)).isLt,
      ih (Nat.lt_of_succ_lt hf)]

/-- THE VALUE, at any entry contents. Let the region be entered with the buffers at `V`, and suppose `V` holds: in the table,
    at the word a grid point reads, the gathered row number of the point's sample and feature; in the embedding operand, the
    embedding table; in the three row operands, the tile's rows of the three selections. Then, under the range fact, the result
    array at sample `r` of the tile is the specification's result for sample `2048·1 + r`: it is what the body stored at the
    sample's last feature, computed from the fold of the sample's 32 rows — each the embedding row the table names, which
    under the range fact is the specification's row — and from the sample's rows of the three selections. -/
theorem tile1_value_of (hO : Ok1 V) (c : Dev nD)
    (gidx : IVec Spec.S16384x32 32) (emb : FVec Ideal Spec.S786432x128 .f32)
    (paS wS : FVec Ideal Spec.S16384x128 .f32) (bS : FVec Ideal Spec.S16384 .f32)
    (htw : ∀ i : grid1.Coords, tword1 (tbl1 V) i
      = gidx (ValueIdx.ix2 (⟨2048 * 1 + (i 0).val, by have h0 : (i 0).val < 2048 := (i 0).isLt; omega⟩ : Fin 16384)
          (⟨(i 1).val, (i 1).isLt⟩ : Fin 32)))
    (hemb : ∀ (ρ : Fin 786432) (l : Fin 128), V c main_v34 (ValueIdx.ix3 ρ 0 l) = emb (ValueIdx.ix2 ρ l))
    (hpaV : ∀ (r : Fin 2048) (l : Fin 128), V c main_v43 (ValueIdx.ix3 r 0 l)
      = paS (ValueIdx.ix2 (⟨2048 * 1 + r.val, by have := r.isLt; omega⟩ : Fin 16384) l))
    (hwV : ∀ (r : Fin 2048) (l : Fin 128), V c main_v44 (ValueIdx.ix3 r 0 l)
      = wS (ValueIdx.ix2 (⟨2048 * 1 + r.val, by have := r.isLt; omega⟩ : Fin 16384) l))
    (hbV : ∀ r : Fin 2048, V c main_v45 (ValueIdx.ix3 r 0 0)
      = bS (ValueIdx.ix1 (⟨2048 * 1 + r.val, by have := r.isLt; omega⟩ : Fin 16384)))
    (hin : Spec.InRange gidx) (r : Fin 2048) :
    tileRes1 V hO c (ValueIdx.ix3 r 0 0)
      = Spec.G gidx emb paS wS bS (ValueIdx.ix2 (⟨2048 * 1 + r.val, by have := r.isLt; omega⟩ : Fin 16384) 0) := by
  have hr := r.isLt
  refine (tileRes1_apply V hO c r).trans ?_
  show k1_pay3 (accAt1 V hO c (32 * r.val + 31) (pt1 V hO r 31 (by decide)).isLt)
      (xpa1 V hO c (pt1 V hO r 31 (by decide))) (xw1 V hO c (pt1 V hO r 31 (by decide)))
      (xb1 V hO c (pt1 V hO r 31 (by decide))) (ValueIdx.ix3 0 0 0) = _
  -- this tile's result step is tile 0's function; the scratch it reads is the fold of the sample's rows
  rw [k1_pay3_eq, acc_fold1 V hO c r 31 (by decide)]
  refine row_value _ _ _ _ _ (⟨2048 * 1 + r.val, by omega⟩ : Fin 16384)
    (fun g : Fin 32 => xrow1 V hO c (pt1 V hO r g.val g.isLt)) ?_ _ _ ?_ ?_ _ ?_
  · -- the rows: the embedding row the table word names; the word is the gathered row number, below 786432
    intro f l
    refine (xrow1_apply V hO c _ l).trans ?_
    refine (hemb _ l).trans ?_
    refine congrArg _ (ix2_congr ?_ rfl)
    show (tword1 (tbl1 V) (grid1.coords (pt1 V hO r f.val f.isLt))).toNat
      = (gidx (ValueIdx.ix2 (⟨2048 * 1 + r.val, by omega⟩ : Fin 16384) f)).toNat % 786432
    rw [htw, Nat.mod_eq_of_lt (hin _ _)]
    have hf := f.isLt
    refine congrArg BitVec.toNat (congrArg _ (ix2_congr ?_ ?_))
    · show 2048 * 1 + ((grid1.coords (pt1 V hO r f.val f.isLt)) 0).val = 2048 * 1 + r.val
      rw [coords1_val0]
      show 2048 * 1 + (32 * r.val + f.val) / 32 = 2048 * 1 + r.val
      omega
    · show ((grid1.coords (pt1 V hO r f.val f.isLt)) 1).val = f.val
      rw [coords1_val1]
      show (32 * r.val + f.val) % 32 = f.val
      omega
  · -- the phase-bias row of the sample: the last feature's point has sample coordinate r
    intro l
    exact (xpa1_apply V hO c _ l).trans <|
      (congrArg (V c main_v43) (ix3_congr (a' := r) (by show (32 * r.val + 31) / 32 = r.val; omega) 0 l)).trans <|
      hpaV r l
  · intro l
    exact (xw1_apply V hO c _ l).trans <|
      (congrArg (V c main_v44) (ix3_congr (a' := r) (by show (32 * r.val + 31) / 32 = r.val; omega) 0 l)).trans <|
      hwV r l
  · exact (xb1_apply V hO c _).trans <|
      (congrArg (V c main_v45) (ix3_congr (a' := r) (by show (32 * r.val + 31) / 32 = r.val; omega) 0 0)).trans <|
      hbV r

variable (m : (ℓ : Loc nD τ sig) → Buf (Elt Ideal) ℓ)

/-- TILE 1's VALUE. The result array of region 1 at sample `r` of the tile is the specification's result for sample
    `2048·1 + r`: the entry contents of the run hold what the general statement asks (the table, the embedding operand and
    the three row operands, each read at an index), so it applies. -/
theorem tile1_value (c : Dev nD) (hO : Ok1 (V1in m))
    (hin : Spec.InRange (Spec.gidxOf (m ((c : Thread nD τ).loc main_arg0)) (m ((c : Thread nD τ).loc main_arg1)) (m ((c : Thread nD τ).loc main_arg2))))
    (r : Fin 2048) :
    tileRes1 (V1in m) hO c (ValueIdx.ix3 r 0 0)
      = Spec.G (Spec.gidxOf (m ((c : Thread nD τ).loc main_arg0)) (m ((c : Thread nD τ).loc main_arg1)) (m ((c : Thread nD τ).loc main_arg2)))
          (m ((c : Thread nD τ).loc main_arg3))
          (Spec.paSelOf (m ((c : Thread nD τ).loc main_arg1)) (m ((c : Thread nD τ).loc main_arg4)))
          (Spec.wSelOf (m ((c : Thread nD τ).loc main_arg1)) (m ((c : Thread nD τ).loc main_arg5)))
          (Spec.bSelOf (m ((c : Thread nD τ).loc main_arg1)) (m ((c : Thread nD τ).loc main_arg6)))
          (ValueIdx.ix2 (⟨2048 * 1 + r.val, by have := r.isLt; omega⟩ : Fin 16384) 0) :=
  tile1_value_of (V1in m) hO c _ _ _ _ _ (tword1_V1in m c) (emb1_apply m (outsL m) c) (pa1_apply m (outsL m) c)
    (w1_apply m (outsL m) c) (b1_apply m (outsL m) c) hin r

end AtIdeal

end Cert.KernelIdeal.Hand

end
-- ==== Proof.R2Tile.lean ====
/-
  Tile 2: the result array of kernel region 2 (regions counted from 0), read at a sample, is the specification's value there.

  Point `32·r + f` of the region's grid is sample `r`, feature `f`. Within a sample the scratch accumulates the gathered
  rows feature by feature, restarting at feature 0; at feature 31 the body stores the sample's result, computed from the
  scratch and the sample's rows of the three selections. The gathered row at a point is the embedding row the table word
  names; under the range fact that word, read unsigned, is the specification's row number. This tile's three payload
  functions (cleared scratch, accumulation step, result step) are the same functions as tile 0's, over which the fold
  of a sample's rows and the sample's value are stated.
-/
import proofs.«402893_j78554951844377_2_alg».proof.Proof.Gen.KernelIdeal.Regions
import proofs.«402893_j78554951844377_2_alg».proof.Proof.Spec
import proofs.«402893_j78554951844377_2_alg».proof.Proof.R2Base
import proofs.«402893_j78554951844377_2_alg».proof.Proof.R2Grid
import proofs.«402893_j78554951844377_2_alg».proof.Proof.R2Acc
import proofs.«402893_j78554951844377_2_alg».proof.Proof.R2Val
import proofs.«402893_j78554951844377_2_alg».proof.Proof.R2Ok
import proofs.«402893_j78554951844377_2_alg».proof.Proof.OkTablesT
import proofs.«402893_j78554951844377_2_alg».proof.Proof.KHostT2
import proofs.«402893_j78554951844377_2_alg».proof.Proof.KRowValue
import proofs.«402893_j78554951844377_2_alg».proof.Proof.TileLib
import Idealize.ShloMosaic.PureOps.Ideal
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

section Generic
variable {F : FTy → Type} [FloatOps F]

variable (V : (c : Dev nD) → (b : Ref sig .tc) → Buf (Elt F) ((c : Thread nD τ).loc b))

/-- The scratch contents depend on the position only through its value. -/
theorem accAt2_congr (hO : Ok2 V) (c : Dev nD) {n n' : ℕ} (h : n = n') (hn : n < (cfgM2 V hO).N) (hn' : n' < (cfgM2 V hO).N) :
    accAt2 V hO c n hn = accAt2 V hO c n' hn' := by
  subst h; rfl

/-- The grid point of sample `r`, feature `f`: position `32·r + f`. -/
abbrev pt2 (hO : Ok2 V) (r : Fin 2048) (f : ℕ) (hf : f < 32) : Fin (cfgM2 V hO).N :=
  ⟨32 * r.val + f, by have := r.isLt; have hN : (cfgM2 V hO).N = 65536 := N_2; omega⟩

end Generic

section AtIdeal

variable (V : (c : Dev nD) → (b : Ref sig .tc) → Buf (Elt Ideal) ((c : Thread nD τ).loc b))

/-- Within sample `r` the scratch after feature `f` is the fold of the sample's rows 0 to `f`: at feature 0 the body restarts
    the scratch from zero plus the row (the first condition holds exactly there), and at feature `f + 1` it adds the row to
    what feature `f` left. -/
theorem acc_fold2 (hO : Ok2 V) (c : Dev nD) (r : Fin 2048) : ∀ (f : ℕ) (hf : f < 32),
    accAt2 V hO c (32 * r.val + f) (pt2 V hO r f hf).isLt
      = foldRows (fun g : Fin 32 => xrow2 V hO c (pt2 V hO r g.val g.isLt)) f hf := by
  intro f
  induction f with
  | zero =>
    intro hf
    refine (accAt2_A V hO c (pt2 V hO r 0 hf)
      ((cond2_0_iff _).mpr (by rw [coords2_val1]; show (32 * r.val + 0) % 32 = 0; omega))).trans ?_
    -- this tile's cleared scratch and accumulation step are tile 0's functions
    rw [k2_pay1_eq, k2_pay2_eq]
    rfl
  | succ f ih =>
    intro hf
    have hB := accAt2_B V hO c (pt2 V hO r (f + 1) hf)
      (fun h => by
        have h' := (cond2_0_iff _).mp h
        rw [coords2_val1] at h'
        have h'' : (32 * r.val + (f + 1)) % 32 = 0 := h'
        omega)
      (by show 32 * r.val + (f + 1) ≠ 0; omega)
    refine hB.trans ?_
    -- this tile's accumulation step is tile 0's function
    rw [k2_pay2_eq]
    show k0_pay2 (accAt2 V hO c (32 * r.val + (f + 1) - 1) _) (xrow2 V hO c (pt2 V hO r (f + 1) hf))
      = k0_pay2 (foldRows (fun g : Fin 32 => xrow2 V hO c (pt2 V hO r g.val g.isLt)) f (Nat.lt_of_succ_lt hf))
          (xrow2 V hO c (pt2 V hO r (f + 1) hf))
    rw [accAt2_congr V hO c (show 32 * r.val + (f + 1) - 1 = 32 * r.val + f by omega) _ (pt2 V hO r f (Nat.lt_of_succ_lt hf)).isLt,
      ih (Nat.lt_of_succ_lt hf)]

/-- THE VALUE, at any entry contents. Let the region be entered with the buffers at `V`, and suppose `V` holds: in the table,
    at the word a grid point reads, the gathered row number of the point's sample and feature; in the embedding operand, the
    embedding table; in the three row operands, the tile's rows of the three selections. Then, under the range fact, the result
    array at sample `r` of the tile is the specification's result for sample `2048·2 + r`: it is what the body stored at the
    sample's last feature, computed from the fold of the sample's 32 rows — each the embedding row the table names, which
    under the range fact is the specification's row — and from the sample's rows of the three selections. -/
theorem tile2_value_of (hO : Ok2 V) (c : Dev nD)
    (gidx : IVec Spec.S16384x32 32) (emb : FVec Ideal Spec.S786432x128 .f32)
    (paS wS : FVec Ideal Spec.S16384x128 .f32) (bS : FVec Ideal Spec.S16384 .f32)
    (htw : ∀ i : grid2.Coords, tword2 (tbl2 V) i
      = gidx (ValueIdx.ix2 (⟨2048 * 2 + (i 0).val, by have h0 : (i 0).val < 2048 := (i 0).isLt; omega⟩ : Fin 16384)
          (⟨(i 1).val, (i 1).isLt⟩ : Fin 32)))
    (hemb : ∀ (ρ : Fin 786432) (l : Fin 128), V c main_v34 (ValueIdx.ix3 ρ 0 l) = emb (ValueIdx.ix2 ρ l))
    (hpaV : ∀ (r : Fin 2048) (l : Fin 128), V c main_v49 (ValueIdx.ix3 r 0 l)
      = paS (ValueIdx.ix2 (⟨2048 * 2 + r.val, by have := r.isLt; omega⟩ : Fin 16384) l))
    (hwV : ∀ (r : Fin 2048) (l : Fin 128), V c main_v50 (ValueIdx.ix3 r 0 l)
      = wS (ValueIdx.ix2 (⟨2048 * 2 + r.val, by have := r.isLt; omega⟩ : Fin 16384) l))
    (hbV : ∀ r : Fin 2048, V c main_v51 (ValueIdx.ix3 r 0 0)
      = bS (ValueIdx.ix1 (⟨2048 * 2 + r.val, by have := r.isLt; omega⟩ : Fin 16384)))
    (hin : Spec.InRange gidx) (r : Fin 2048) :
    tileRes2 V hO c (ValueIdx.ix3 r 0 0)
      = Spec.G gidx emb paS wS bS (ValueIdx.ix2 (⟨2048 * 2 + r.val, by have := r.isLt; omega⟩ : Fin 16384) 0) := by
  have hr := r.isLt
  refine (tileRes2_apply V hO c r).trans ?_
  show k2_pay3 (accAt2 V hO c (32 * r.val + 31) (pt2 V hO r 31 (by decide)).isLt)
      (xpa2 V hO c (pt2 V hO r 31 (by decide))) (xw2 V hO c (pt2 V hO r 31 (by decide)))
      (xb2 V hO c (pt2 V hO r 31 (by decide))) (ValueIdx.ix3 0 0 0) = _
  -- this tile's result step is tile 0's function; the scratch it reads is the fold of the sample's rows
  rw [k2_pay3_eq, acc_fold2 V hO c r 31 (by decide)]
  refine row_value _ _ _ _ _ (⟨2048 * 2 + r.val, by omega⟩ : Fin 16384)
    (fun g : Fin 32 => xrow2 V hO c (pt2 V hO r g.val g.isLt)) ?_ _ _ ?_ ?_ _ ?_
  · -- the rows: the embedding row the table word names; the word is the gathered row number, below 786432
    intro f l
    refine (xrow2_apply V hO c _ l).trans ?_
    refine (hemb _ l).trans ?_
    refine congrArg _ (ix2_congr ?_ rfl)
    show (tword2 (tbl2 V) (grid2.coords (pt2 V hO r f.val f.isLt))).toNat
      = (gidx (ValueIdx.ix2 (⟨2048 * 2 + r.val, by omega⟩ : Fin 16384) f)).toNat % 786432
    rw [htw, Nat.mod_eq_of_lt (hin _ _)]
    have hf := f.isLt
    refine congrArg BitVec.toNat (congrArg _ (ix2_congr ?_ ?_))
    · show 2048 * 2 + ((grid2.coords (pt2 V hO r f.val f.isLt)) 0).val = 2048 * 2 + r.val
      rw [coords2_val0]
      show 2048 * 2 + (32 * r.val + f.val) / 32 = 2048 * 2 + r.val
      omega
    · show ((grid2.coords (pt2 V hO r f.val f.isLt)) 1).val = f.val
      rw [coords2_val1]
      show (32 * r.val + f.val) % 32 = f.val
      omega
  · -- the phase-bias row of the sample: the last feature's point has sample coordinate r
    intro l
    exact (xpa2_apply V hO c _ l).trans <|
      (congrArg (V c main_v49) (ix3_congr (a' := r) (by show (32 * r.val + 31) / 32 = r.val; omega) 0 l)).trans <|
      hpaV r l
  · intro l
    exact (xw2_apply V hO c _ l).trans <|
      (congrArg (V c main_v50) (ix3_congr (a' := r) (by show (32 * r.val + 31) / 32 = r.val; omega) 0 l)).trans <|
      hwV r l
  · exact (xb2_apply V hO c _).trans <|
      (congrArg (V c main_v51) (ix3_congr (a' := r) (by show (32 * r.val + 31) / 32 = r.val; omega) 0 0)).trans <|
      hbV r

variable (m : (ℓ : Loc nD τ sig) → Buf (Elt Ideal) ℓ)

/-- TILE 2's VALUE. The result array of region 2 at sample `r` of the tile is the specification's result for sample
    `2048·2 + r`: the entry contents of the run hold what the general statement asks (the table, the embedding operand and
    the three row operands, each read at an index), so it applies. -/
theorem tile2_value (c : Dev nD) (hO : Ok2 (V2in m))
    (hin : Spec.InRange (Spec.gidxOf (m ((c : Thread nD τ).loc main_arg0)) (m ((c : Thread nD τ).loc main_arg1)) (m ((c : Thread nD τ).loc main_arg2))))
    (r : Fin 2048) :
    tileRes2 (V2in m) hO c (ValueIdx.ix3 r 0 0)
      = Spec.G (Spec.gidxOf (m ((c : Thread nD τ).loc main_arg0)) (m ((c : Thread nD τ).loc main_arg1)) (m ((c : Thread nD τ).loc main_arg2)))
          (m ((c : Thread nD τ).loc main_arg3))
          (Spec.paSelOf (m ((c : Thread nD τ).loc main_arg1)) (m ((c : Thread nD τ).loc main_arg4)))
          (Spec.wSelOf (m ((c : Thread nD τ).loc main_arg1)) (m ((c : Thread nD τ).loc main_arg5)))
          (Spec.bSelOf (m ((c : Thread nD τ).loc main_arg1)) (m ((c : Thread nD τ).loc main_arg6)))
          (ValueIdx.ix2 (⟨2048 * 2 + r.val, by have := r.isLt; omega⟩ : Fin 16384) 0) :=
  tile2_value_of (V2in m) hO c _ _ _ _ _ (tword2_V2in m c) (emb2_apply m (outsL m) c) (pa2_apply m (outsL m) c)
    (w2_apply m (outsL m) c) (b2_apply m (outsL m) c) hin r

end AtIdeal

end Cert.KernelIdeal.Hand

end
-- ==== Proof.R3Tile.lean ====
/-
  Tile 3: the result array of kernel region 3 (regions counted from 0), read at a sample, is the specification's value there.

  Point `32·r + f` of the region's grid is sample `r`, feature `f`. Within a sample the scratch accumulates the gathered
  rows feature by feature, restarting at feature 0; at feature 31 the body stores the sample's result, computed from the
  scratch and the sample's rows of the three selections. The gathered row at a point is the embedding row the table word
  names; under the range fact that word, read unsigned, is the specification's row number. This tile's three payload
  functions (cleared scratch, accumulation step, result step) are the same functions as tile 0's, over which the fold
  of a sample's rows and the sample's value are stated.
-/
import proofs.«402893_j78554951844377_2_alg».proof.Proof.Gen.KernelIdeal.Regions
import proofs.«402893_j78554951844377_2_alg».proof.Proof.Spec
import proofs.«402893_j78554951844377_2_alg».proof.Proof.R3Base
import proofs.«402893_j78554951844377_2_alg».proof.Proof.R3Grid
import proofs.«402893_j78554951844377_2_alg».proof.Proof.R3Acc
import proofs.«402893_j78554951844377_2_alg».proof.Proof.R3Val
import proofs.«402893_j78554951844377_2_alg».proof.Proof.R3Ok
import proofs.«402893_j78554951844377_2_alg».proof.Proof.OkTablesT
import proofs.«402893_j78554951844377_2_alg».proof.Proof.KHostT3
import proofs.«402893_j78554951844377_2_alg».proof.Proof.KRowValue
import proofs.«402893_j78554951844377_2_alg».proof.Proof.TileLib
import Idealize.ShloMosaic.PureOps.Ideal
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

section Generic
variable {F : FTy → Type} [FloatOps F]

variable (V : (c : Dev nD) → (b : Ref sig .tc) → Buf (Elt F) ((c : Thread nD τ).loc b))

/-- The scratch contents depend on the position only through its value. -/
theorem accAt3_congr (hO : Ok3 V) (c : Dev nD) {n n' : ℕ} (h : n = n') (hn : n < (cfgM3 V hO).N) (hn' : n' < (cfgM3 V hO).N) :
    accAt3 V hO c n hn = accAt3 V hO c n' hn' := by
  subst h; rfl

/-- The grid point of sample `r`, feature `f`: position `32·r + f`. -/
abbrev pt3 (hO : Ok3 V) (r : Fin 2048) (f : ℕ) (hf : f < 32) : Fin (cfgM3 V hO).N :=
  ⟨32 * r.val + f, by have := r.isLt; have hN : (cfgM3 V hO).N = 65536 := N_3; omega⟩

end Generic

section AtIdeal

variable (V : (c : Dev nD) → (b : Ref sig .tc) → Buf (Elt Ideal) ((c : Thread nD τ).loc b))

/-- Within sample `r` the scratch after feature `f` is the fold of the sample's rows 0 to `f`: at feature 0 the body restarts
    the scratch from zero plus the row (the first condition holds exactly there), and at feature `f + 1` it adds the row to
    what feature `f` left. -/
theorem acc_fold3 (hO : Ok3 V) (c : Dev nD) (r : Fin 2048) : ∀ (f : ℕ) (hf : f < 32),
    accAt3 V hO c (32 * r.val + f) (pt3 V hO r f hf).isLt
      = foldRows (fun g : Fin 32 => xrow3 V hO c (pt3 V hO r g.val g.isLt)) f hf := by
  intro f
  induction f with
  | zero =>
    intro hf
    refine (accAt3_A V hO c (pt3 V hO r 0 hf)
      ((cond3_0_iff _).mpr (by rw [coords3_val1]; show (32 * r.val + 0) % 32 = 0; omega))).trans ?_
    -- this tile's cleared scratch and accumulation step are tile 0's functions
    rw [k3_pay1_eq, k3_pay2_eq]
    rfl
  | succ f ih =>
    intro hf
    have hB := accAt3_B V hO c (pt3 V hO r (f + 1) hf)
      (fun h => by
        have h' := (cond3_0_iff _).mp h
        rw [coords3_val1] at h'
        have h'' : (32 * r.val + (f + 1)) % 32 = 0 := h'
        omega)
      (by show 32 * r.val + (f + 1) ≠ 0; omega)
    refine hB.trans ?_
    -- this tile's accumulation step is tile 0's function
    rw [k3_pay2_eq]
    show k0_pay2 (accAt3 V hO c (32 * r.val + (f + 1) - 1) _) (xrow3 V hO c (pt3 V hO r (f + 1) hf))
      = k0_pay2 (foldRows (fun g : Fin 32 => xrow3 V hO c (pt3 V hO r g.val g.isLt)) f (Nat.lt_of_succ_lt hf))
          (xrow3 V hO c (pt3 V hO r (f + 1) hf))
    rw [accAt3_congr V hO c (show 32 * r.val + (f + 1) - 1 = 32 * r.val + f by omega) _ (pt3 V hO r f (Nat.lt_of_succ_lt hf)).isLt,
      ih (Nat.lt_of_succ_lt hf)]

/-- THE VALUE, at any entry contents. Let the region be entered with the buffers at `V`, and suppose `V` holds: in the table,
    at the word a grid point reads, the gathered row number of the point's sample and feature; in the embedding operand, the
    embedding table; in the three row operands, the tile's rows of the three selections. Then, under the range fact, the result
    array at sample `r` of the tile is the specification's result for sample `2048·3 + r`: it is what the body stored at the
    sample's last feature, computed from the fold of the sample's 32 rows — each the embedding row the table names, which
    under the range fact is the specification's row — and from the sample's rows of the three selections. -/
theorem tile3_value_of (hO : Ok3 V) (c : Dev nD)
    (gidx : IVec Spec.S16384x32 32) (emb : FVec Ideal Spec.S786432x128 .f32)
    (paS wS : FVec Ideal Spec.S16384x128 .f32) (bS : FVec Ideal Spec.S16384 .f32)
    (htw : ∀ i : grid3.Coords, tword3 (tbl3 V) i
      = gidx (ValueIdx.ix2 (⟨2048 * 3 + (i 0).val, by have h0 : (i 0).val < 2048 := (i 0).isLt; omega⟩ : Fin 16384)
          (⟨(i 1).val, (i 1).isLt⟩ : Fin 32)))
    (hemb : ∀ (ρ : Fin 786432) (l : Fin 128), V c main_v34 (ValueIdx.ix3 ρ 0 l) = emb (ValueIdx.ix2 ρ l))
    (hpaV : ∀ (r : Fin 2048) (l : Fin 128), V c main_v55 (ValueIdx.ix3 r 0 l)
      = paS (ValueIdx.ix2 (⟨2048 * 3 + r.val, by have := r.isLt; omega⟩ : Fin 16384) l))
    (hwV : ∀ (r : Fin 2048) (l : Fin 128), V c main_v56 (ValueIdx.ix3 r 0 l)
      = wS (ValueIdx.ix2 (⟨2048 * 3 + r.val, by have := r.isLt; omega⟩ : Fin 16384) l))
    (hbV : ∀ r : Fin 2048, V c main_v57 (ValueIdx.ix3 r 0 0)
      = bS (ValueIdx.ix1 (⟨2048 * 3 + r.val, by have := r.isLt; omega⟩ : Fin 16384)))
    (hin : Spec.InRange gidx) (r : Fin 2048) :
    tileRes3 V hO c (ValueIdx.ix3 r 0 0)
      = Spec.G gidx emb paS wS bS (ValueIdx.ix2 (⟨2048 * 3 + r.val, by have := r.isLt; omega⟩ : Fin 16384) 0) := by
  have hr := r.isLt
  refine (tileRes3_apply V hO c r).trans ?_
  show k3_pay3 (accAt3 V hO c (32 * r.val + 31) (pt3 V hO r 31 (by decide)).isLt)
      (xpa3 V hO c (pt3 V hO r 31 (by decide))) (xw3 V hO c (pt3 V hO r 31 (by decide)))
      (xb3 V hO c (pt3 V hO r 31 (by decide))) (ValueIdx.ix3 0 0 0) = _
  -- this tile's result step is tile 0's function; the scratch it reads is the fold of the sample's rows
  rw [k3_pay3_eq, acc_fold3 V hO c r 31 (by decide)]
  refine row_value _ _ _ _ _ (⟨2048 * 3 + r.val, by omega⟩ : Fin 16384)
    (fun g : Fin 32 => xrow3 V hO c (pt3 V hO r g.val g.isLt)) ?_ _ _ ?_ ?_ _ ?_
  · -- the rows: the embedding row the table word names; the word is the gathered row number, below 786432
    intro f l
    refine (xrow3_apply V hO c _ l).trans ?_
    refine (hemb _ l).trans ?_
    refine congrArg _ (ix2_congr ?_ rfl)
    show (tword3 (tbl3 V) (grid3.coords (pt3 V hO r f.val f.isLt))).toNat
      = (gidx (ValueIdx.ix2 (⟨2048 * 3 + r.val, by omega⟩ : Fin 16384) f)).toNat % 786432
    rw [htw, Nat.mod_eq_of_lt (hin _ _)]
    have hf := f.isLt
    refine congrArg BitVec.toNat (congrArg _ (ix2_congr ?_ ?_))
    · show 2048 * 3 + ((grid3.coords (pt3 V hO r f.val f.isLt)) 0).val = 2048 * 3 + r.val
      rw [coords3_val0]
      show 2048 * 3 + (32 * r.val + f.val) / 32 = 2048 * 3 + r.val
      omega
    · show ((grid3.coords (pt3 V hO r f.val f.isLt)) 1).val = f.val
      rw [coords3_val1]
      show (32 * r.val + f.val) % 32 = f.val
      omega
  · -- the phase-bias row of the sample: the last feature's point has sample coordinate r
    intro l
    exact (xpa3_apply V hO c _ l).trans <|
      (congrArg (V c main_v55) (ix3_congr (a' := r) (by show (32 * r.val + 31) / 32 = r.val; omega) 0 l)).trans <|
      hpaV r l
  · intro l
    exact (xw3_apply V hO c _ l).trans <|
      (congrArg (V c main_v56) (ix3_congr (a' := r) (by show (32 * r.val + 31) / 32 = r.val; omega) 0 l)).trans <|
      hwV r l
  · exact (xb3_apply V hO c _).trans <|
      (congrArg (V c main_v57) (ix3_congr (a' := r) (by show (32 * r.val + 31) / 32 = r.val; omega) 0 0)).trans <|
      hbV r

variable (m : (ℓ : Loc nD τ sig) → Buf (Elt Ideal) ℓ)

/-- TILE 3's VALUE. The result array of region 3 at sample `r` of the tile is the specification's result for sample
    `2048·3 + r`: the entry contents of the run hold what the general statement asks (the table, the embedding operand and
    the three row operands, each read at an index), so it applies. -/
theorem tile3_value (c : Dev nD) (hO : Ok3 (V3in m))
    (hin : Spec.InRange (Spec.gidxOf (m ((c : Thread nD τ).loc main_arg0)) (m ((c : Thread nD τ).loc main_arg1)) (m ((c : Thread nD τ).loc main_arg2))))
    (r : Fin 2048) :
    tileRes3 (V3in m) hO c (ValueIdx.ix3 r 0 0)
      = Spec.G (Spec.gidxOf (m ((c : Thread nD τ).loc main_arg0)) (m ((c : Thread nD τ).loc main_arg1)) (m ((c : Thread nD τ).loc main_arg2)))
          (m ((c : Thread nD τ).loc main_arg3))
          (Spec.paSelOf (m ((c : Thread nD τ).loc main_arg1)) (m ((c : Thread nD τ).loc main_arg4)))
          (Spec.wSelOf (m ((c : Thread nD τ).loc main_arg1)) (m ((c : Thread nD τ).loc main_arg5)))
          (Spec.bSelOf (m ((c : Thread nD τ).loc main_arg1)) (m ((c : Thread nD τ).loc main_arg6)))
          (ValueIdx.ix2 (⟨2048 * 3 + r.val, by have := r.isLt; omega⟩ : Fin 16384) 0) :=
  tile3_value_of (V3in m) hO c _ _ _ _ _ (tword3_V3in m c) (emb3_apply m (outsL m) c) (pa3_apply m (outsL m) c)
    (w3_apply m (outsL m) c) (b3_apply m (outsL m) c) hin r

end AtIdeal

end Cert.KernelIdeal.Hand

end
-- ==== Proof.R4Tile.lean ====
/-
  Tile 4: the result array of kernel region 4 (regions counted from 0), read at a sample, is the specification's value there.

  Point `32·r + f` of the region's grid is sample `r`, feature `f`. Within a sample the scratch accumulates the gathered
  rows feature by feature, restarting at feature 0; at feature 31 the body stores the sample's result, computed from the
  scratch and the sample's rows of the three selections. The gathered row at a point is the embedding row the table word
  names; under the range fact that word, read unsigned, is the specification's row number. This tile's three payload
  functions (cleared scratch, accumulation step, result step) are the same functions as tile 0's, over which the fold
  of a sample's rows and the sample's value are stated.
-/
import proofs.«402893_j78554951844377_2_alg».proof.Proof.Gen.KernelIdeal.Regions
import proofs.«402893_j78554951844377_2_alg».proof.Proof.Spec
import proofs.«402893_j78554951844377_2_alg».proof.Proof.R4Base
import proofs.«402893_j78554951844377_2_alg».proof.Proof.R4Grid
import proofs.«402893_j78554951844377_2_alg».proof.Proof.R4Acc
import proofs.«402893_j78554951844377_2_alg».proof.Proof.R4Val
import proofs.«402893_j78554951844377_2_alg».proof.Proof.R4Ok
import proofs.«402893_j78554951844377_2_alg».proof.Proof.OkTablesT
import proofs.«402893_j78554951844377_2_alg».proof.Proof.KHostT4
import proofs.«402893_j78554951844377_2_alg».proof.Proof.KRowValue
import proofs.«402893_j78554951844377_2_alg».proof.Proof.TileLib
import Idealize.ShloMosaic.PureOps.Ideal
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

section Generic
variable {F : FTy → Type} [FloatOps F]

variable (V : (c : Dev nD) → (b : Ref sig .tc) → Buf (Elt F) ((c : Thread nD τ).loc b))

/-- The scratch contents depend on the position only through its value. -/
theorem accAt4_congr (hO : Ok4 V) (c : Dev nD) {n n' : ℕ} (h : n = n') (hn : n < (cfgM4 V hO).N) (hn' : n' < (cfgM4 V hO).N) :
    accAt4 V hO c n hn = accAt4 V hO c n' hn' := by
  subst h; rfl

/-- The grid point of sample `r`, feature `f`: position `32·r + f`. -/
abbrev pt4 (hO : Ok4 V) (r : Fin 2048) (f : ℕ) (hf : f < 32) : Fin (cfgM4 V hO).N :=
  ⟨32 * r.val + f, by have := r.isLt; have hN : (cfgM4 V hO).N = 65536 := N_4; omega⟩

end Generic

section AtIdeal

variable (V : (c : Dev nD) → (b : Ref sig .tc) → Buf (Elt Ideal) ((c : Thread nD τ).loc b))

/-- Within sample `r` the scratch after feature `f` is the fold of the sample's rows 0 to `f`: at feature 0 the body restarts
    the scratch from zero plus the row (the first condition holds exactly there), and at feature `f + 1` it adds the row to
    what feature `f` left. -/
theorem acc_fold4 (hO : Ok4 V) (c : Dev nD) (r : Fin 2048) : ∀ (f : ℕ) (hf : f < 32),
    accAt4 V hO c (32 * r.val + f) (pt4 V hO r f hf).isLt
      = foldRows (fun g : Fin 32 => xrow4 V hO c (pt4 V hO r g.val g.isLt)) f hf := by
  intro f
  induction f with
  | zero =>
    intro hf
    refine (accAt4_A V hO c (pt4 V hO r 0 hf)
      ((cond4_0_iff _).mpr (by rw [coords4_val1]; show (32 * r.val + 0) % 32 = 0; omega))).trans ?_
    -- this tile's cleared scratch and accumulation step are tile 0's functions
    rw [k4_pay1_eq, k4_pay2_eq]
    rfl
  | succ f ih =>
    intro hf
    have hB := accAt4_B V hO c (pt4 V hO r (f + 1) hf)
      (fun h => by
        have h' := (cond4_0_iff _).mp h
        rw [coords4_val1] at h'
        have h'' : (32 * r.val + (f + 1)) % 32 = 0 := h'
        omega)
      (by show 32 * r.val + (f + 1) ≠ 0; omega)
    refine hB.trans ?_
    -- this tile's accumulation step is tile 0's function
    rw [k4_pay2_eq]
    show k0_pay2 (accAt4 V hO c (32 * r.val + (f + 1) - 1) _) (xrow4 V hO c (pt4 V hO r (f + 1) hf))
      = k0_pay2 (foldRows (fun g : Fin 32 => xrow4 V hO c (pt4 V hO r g.val g.isLt)) f (Nat.lt_of_succ_lt hf))
          (xrow4 V hO c (pt4 V hO r (f + 1) hf))
    rw [accAt4_congr V hO c (show 32 * r.val + (f + 1) - 1 = 32 * r.val + f by omega) _ (pt4 V hO r f (Nat.lt_of_succ_lt hf)).isLt,
      ih (Nat.lt_of_succ_lt hf)]

/-- THE VALUE, at any entry contents. Let the region be entered with the buffers at `V`, and suppose `V` holds: in the table,
    at the word a grid point reads, the gathered row number of the point's sample and feature; in the embedding operand, the
    embedding table; in the three row operands, the tile's rows of the three selections. Then, under the range fact, the result
    array at sample `r` of the tile is the specification's result for sample `2048·4 + r`: it is what the body stored at the
    sample's last feature, computed from the fold of the sample's 32 rows — each the embedding row the table names, which
    under the range fact is the specification's row — and from the sample's rows of the three selections. -/
theorem tile4_value_of (hO : Ok4 V) (c : Dev nD)
    (gidx : IVec Spec.S16384x32 32) (emb : FVec Ideal Spec.S786432x128 .f32)
    (paS wS : FVec Ideal Spec.S16384x128 .f32) (bS : FVec Ideal Spec.S16384 .f32)
    (htw : ∀ i : grid4.Coords, tword4 (tbl4 V) i
      = gidx (ValueIdx.ix2 (⟨2048 * 4 + (i 0).val, by have h0 : (i 0).val < 2048 := (i 0).isLt; omega⟩ : Fin 16384)
          (⟨(i 1).val, (i 1).isLt⟩ : Fin 32)))
    (hemb : ∀ (ρ : Fin 786432) (l : Fin 128), V c main_v34 (ValueIdx.ix3 ρ 0 l) = emb (ValueIdx.ix2 ρ l))
    (hpaV : ∀ (r : Fin 2048) (l : Fin 128), V c main_v61 (ValueIdx.ix3 r 0 l)
      = paS (ValueIdx.ix2 (⟨2048 * 4 + r.val, by have := r.isLt; omega⟩ : Fin 16384) l))
    (hwV : ∀ (r : Fin 2048) (l : Fin 128), V c main_v62 (ValueIdx.ix3 r 0 l)
      = wS (ValueIdx.ix2 (⟨2048 * 4 + r.val, by have := r.isLt; omega⟩ : Fin 16384) l))
    (hbV : ∀ r : Fin 2048, V c main_v63 (ValueIdx.ix3 r 0 0)
      = bS (ValueIdx.ix1 (⟨2048 * 4 + r.val, by have := r.isLt; omega⟩ : Fin 16384)))
    (hin : Spec.InRange gidx) (r : Fin 2048) :
    tileRes4 V hO c (ValueIdx.ix3 r 0 0)
      = Spec.G gidx emb paS wS bS (ValueIdx.ix2 (⟨2048 * 4 + r.val, by have := r.isLt; omega⟩ : Fin 16384) 0) := by
  have hr := r.isLt
  refine (tileRes4_apply V hO c r).trans ?_
  show k4_pay3 (accAt4 V hO c (32 * r.val + 31) (pt4 V hO r 31 (by decide)).isLt)
      (xpa4 V hO c (pt4 V hO r 31 (by decide))) (xw4 V hO c (pt4 V hO r 31 (by decide)))
      (xb4 V hO c (pt4 V hO r 31 (by decide))) (ValueIdx.ix3 0 0 0) = _
  -- this tile's result step is tile 0's function; the scratch it reads is the fold of the sample's rows
  rw [k4_pay3_eq, acc_fold4 V hO c r 31 (by decide)]
  refine row_value _ _ _ _ _ (⟨2048 * 4 + r.val, by omega⟩ : Fin 16384)
    (fun g : Fin 32 => xrow4 V hO c (pt4 V hO r g.val g.isLt)) ?_ _ _ ?_ ?_ _ ?_
  · -- the rows: the embedding row the table word names; the word is the gathered row number, below 786432
    intro f l
    refine (xrow4_apply V hO c _ l).trans ?_
    refine (hemb _ l).trans ?_
    refine congrArg _ (ix2_congr ?_ rfl)
    show (tword4 (tbl4 V) (grid4.coords (pt4 V hO r f.val f.isLt))).toNat
      = (gidx (ValueIdx.ix2 (⟨2048 * 4 + r.val, by omega⟩ : Fin 16384) f)).toNat % 786432
    rw [htw, Nat.mod_eq_of_lt (hin _ _)]
    have hf := f.isLt
    refine congrArg BitVec.toNat (congrArg _ (ix2_congr ?_ ?_))
    · show 2048 * 4 + ((grid4.coords (pt4 V hO r f.val f.isLt)) 0).val = 2048 * 4 + r.val
      rw [coords4_val0]
      show 2048 * 4 + (32 * r.val + f.val) / 32 = 2048 * 4 + r.val
      omega
    · show ((grid4.coords (pt4 V hO r f.val f.isLt)) 1).val = f.val
      rw [coords4_val1]
      show (32 * r.val + f.val) % 32 = f.val
      omega
  · -- the phase-bias row of the sample: the last feature's point has sample coordinate r
    intro l
    exact (xpa4_apply V hO c _ l).trans <|
      (congrArg (V c main_v61) (ix3_congr (a' := r) (by show (32 * r.val + 31) / 32 = r.val; omega) 0 l)).trans <|
      hpaV r l
  · intro l
    exact (xw4_apply V hO c _ l).trans <|
      (congrArg (V c main_v62) (ix3_congr (a' := r) (by show (32 * r.val + 31) / 32 = r.val; omega) 0 l)).trans <|
      hwV r l
  · exact (xb4_apply V hO c _).trans <|
      (congrArg (V c main_v63) (ix3_congr (a' := r) (by show (32 * r.val + 31) / 32 = r.val; omega) 0 0)).trans <|
      hbV r

variable (m : (ℓ : Loc nD τ sig) → Buf (Elt Ideal) ℓ)

/-- TILE 4's VALUE. The result array of region 4 at sample `r` of the tile is the specification's result for sample
    `2048·4 + r`: the entry contents of the run hold what the general statement asks (the table, the embedding operand and
    the three row operands, each read at an index), so it applies. -/
theorem tile4_value (c : Dev nD) (hO : Ok4 (V4in m))
    (hin : Spec.InRange (Spec.gidxOf (m ((c : Thread nD τ).loc main_arg0)) (m ((c : Thread nD τ).loc main_arg1)) (m ((c : Thread nD τ).loc main_arg2))))
    (r : Fin 2048) :
    tileRes4 (V4in m) hO c (ValueIdx.ix3 r 0 0)
      = Spec.G (Spec.gidxOf (m ((c : Thread nD τ).loc main_arg0)) (m ((c : Thread nD τ).loc main_arg1)) (m ((c : Thread nD τ).loc main_arg2)))
          (m ((c : Thread nD τ).loc main_arg3))
          (Spec.paSelOf (m ((c : Thread nD τ).loc main_arg1)) (m ((c : Thread nD τ).loc main_arg4)))
          (Spec.wSelOf (m ((c : Thread nD τ).loc main_arg1)) (m ((c : Thread nD τ).loc main_arg5)))
          (Spec.bSelOf (m ((c : Thread nD τ).loc main_arg1)) (m ((c : Thread nD τ).loc main_arg6)))
          (ValueIdx.ix2 (⟨2048 * 4 + r.val, by have := r.isLt; omega⟩ : Fin 16384) 0) :=
  tile4_value_of (V4in m) hO c _ _ _ _ _ (tword4_V4in m c) (emb4_apply m (outsL m) c) (pa4_apply m (outsL m) c)
    (w4_apply m (outsL m) c) (b4_apply m (outsL m) c) hin r

end AtIdeal

end Cert.KernelIdeal.Hand

end
-- ==== Proof.R5Tile.lean ====
/-
  Tile 5: the result array of kernel region 5 (regions counted from 0), read at a sample, is the specification's value there.

  Point `32·r + f` of the region's grid is sample `r`, feature `f`. Within a sample the scratch accumulates the gathered
  rows feature by feature, restarting at feature 0; at feature 31 the body stores the sample's result, computed from the
  scratch and the sample's rows of the three selections. The gathered row at a point is the embedding row the table word
  names; under the range fact that word, read unsigned, is the specification's row number. This tile's three payload
  functions (cleared scratch, accumulation step, result step) are the same functions as tile 0's, over which the fold
  of a sample's rows and the sample's value are stated.
-/
import proofs.«402893_j78554951844377_2_alg».proof.Proof.Gen.KernelIdeal.Regions
import proofs.«402893_j78554951844377_2_alg».proof.Proof.Spec
import proofs.«402893_j78554951844377_2_alg».proof.Proof.R5Base
import proofs.«402893_j78554951844377_2_alg».proof.Proof.R5Grid
import proofs.«402893_j78554951844377_2_alg».proof.Proof.R5Acc
import proofs.«402893_j78554951844377_2_alg».proof.Proof.R5Val
import proofs.«402893_j78554951844377_2_alg».proof.Proof.R5Ok
import proofs.«402893_j78554951844377_2_alg».proof.Proof.OkTablesT
import proofs.«402893_j78554951844377_2_alg».proof.Proof.KHostT5
import proofs.«402893_j78554951844377_2_alg».proof.Proof.KRowValue
import proofs.«402893_j78554951844377_2_alg».proof.Proof.TileLib
import Idealize.ShloMosaic.PureOps.Ideal
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

section Generic
variable {F : FTy → Type} [FloatOps F]

variable (V : (c : Dev nD) → (b : Ref sig .tc) → Buf (Elt F) ((c : Thread nD τ).loc b))

/-- The scratch contents depend on the position only through its value. -/
theorem accAt5_congr (hO : Ok5 V) (c : Dev nD) {n n' : ℕ} (h : n = n') (hn : n < (cfgM5 V hO).N) (hn' : n' < (cfgM5 V hO).N) :
    accAt5 V hO c n hn = accAt5 V hO c n' hn' := by
  subst h; rfl

/-- The grid point of sample `r`, feature `f`: position `32·r + f`. -/
abbrev pt5 (hO : Ok5 V) (r : Fin 2048) (f : ℕ) (hf : f < 32) : Fin (cfgM5 V hO).N :=
  ⟨32 * r.val + f, by have := r.isLt; have hN : (cfgM5 V hO).N = 65536 := N_5; omega⟩

end Generic

section AtIdeal

variable (V : (c : Dev nD) → (b : Ref sig .tc) → Buf (Elt Ideal) ((c : Thread nD τ).loc b))

/-- Within sample `r` the scratch after feature `f` is the fold of the sample's rows 0 to `f`: at feature 0 the body restarts
    the scratch from zero plus the row (the first condition holds exactly there), and at feature `f + 1` it adds the row to
    what feature `f` left. -/
theorem acc_fold5 (hO : Ok5 V) (c : Dev nD) (r : Fin 2048) : ∀ (f : ℕ) (hf : f < 32),
    accAt5 V hO c (32 * r.val + f) (pt5 V hO r f hf).isLt
      = foldRows (fun g : Fin 32 => xrow5 V hO c (pt5 V hO r g.val g.isLt)) f hf := by
  intro f
  induction f with
  | zero =>
    intro hf
    refine (accAt5_A V hO c (pt5 V hO r 0 hf)
      ((cond5_0_iff _).mpr (by rw [coords5_val1]; show (32 * r.val + 0) % 32 = 0; omega))).trans ?_
    -- this tile's cleared scratch and accumulation step are tile 0's functions
    rw [k5_pay1_eq, k5_pay2_eq]
    rfl
  | succ f ih =>
    intro hf
    have hB := accAt5_B V hO c (pt5 V hO r (f + 1) hf)
      (fun h => by
        have h' := (cond5_0_iff _).mp h
        rw [coords5_val1] at h'
        have h'' : (32 * r.val + (f + 1)) % 32 = 0 := h'
        omega)
      (by show 32 * r.val + (f + 1) ≠ 0; omega)
    refine hB.trans ?_
    -- this tile's accumulation step is tile 0's function
    rw [k5_pay2_eq]
    show k0_pay2 (accAt5 V hO c (32 * r.val + (f + 1) - 1) _) (xrow5 V hO c (pt5 V hO r (f + 1) hf))
      = k0_pay2 (foldRows (fun g : Fin 32 => xrow5 V hO c (pt5 V hO r g.val g.isLt)) f (Nat.lt_of_succ_lt hf))
          (xrow5 V hO c (pt5 V hO r (f + 1) hf))
    rw [accAt5_congr V hO c (show 32 * r.val + (f + 1) - 1 = 32 * r.val + f by omega) _ (pt5 V hO r f (Nat.lt_of_succ_lt hf)).isLt,
      ih (Nat.lt_of_succ_lt hf)]

/-- THE VALUE, at any entry contents. Let the region be entered with the buffers at `V`, and suppose `V` holds: in the table,
    at the word a grid point reads, the gathered row number of the point's sample and feature; in the embedding operand, the
    embedding table; in the three row operands, the tile's rows of the three selections. Then, under the range fact, the result
    array at sample `r` of the tile is the specification's result for sample `2048·5 + r`: it is what the body stored at the
    sample's last feature, computed from the fold of the sample's 32 rows — each the embedding row the table names, which
    under the range fact is the specification's row — and from the sample's rows of the three selections. -/
theorem tile5_value_of (hO : Ok5 V) (c : Dev nD)
    (gidx : IVec Spec.S16384x32 32) (emb : FVec Ideal Spec.S786432x128 .f32)
    (paS wS : FVec Ideal Spec.S16384x128 .f32) (bS : FVec Ideal Spec.S16384 .f32)
    (htw : ∀ i : grid5.Coords, tword5 (tbl5 V) i
      = gidx (ValueIdx.ix2 (⟨2048 * 5 + (i 0).val, by have h0 : (i 0).val < 2048 := (i 0).isLt; omega⟩ : Fin 16384)
          (⟨(i 1).val, (i 1).isLt⟩ : Fin 32)))
    (hemb : ∀ (ρ : Fin 786432) (l : Fin 128), V c main_v34 (ValueIdx.ix3 ρ 0 l) = emb (ValueIdx.ix2 ρ l))
    (hpaV : ∀ (r : Fin 2048) (l : Fin 128), V c main_v67 (ValueIdx.ix3 r 0 l)
      = paS (ValueIdx.ix2 (⟨2048 * 5 + r.val, by have := r.isLt; omega⟩ : Fin 16384) l))
    (hwV : ∀ (r : Fin 2048) (l : Fin 128), V c main_v68 (ValueIdx.ix3 r 0 l)
      = wS (ValueIdx.ix2 (⟨2048 * 5 + r.val, by have := r.isLt; omega⟩ : Fin 16384) l))
    (hbV : ∀ r : Fin 2048, V c main_v69 (ValueIdx.ix3 r 0 0)
      = bS (ValueIdx.ix1 (⟨2048 * 5 + r.val, by have := r.isLt; omega⟩ : Fin 16384)))
    (hin : Spec.InRange gidx) (r : Fin 2048) :
    tileRes5 V hO c (ValueIdx.ix3 r 0 0)
      = Spec.G gidx emb paS wS bS (ValueIdx.ix2 (⟨2048 * 5 + r.val, by have := r.isLt; omega⟩ : Fin 16384) 0) := by
  have hr := r.isLt
  refine (tileRes5_apply V hO c r).trans ?_
  show k5_pay3 (accAt5 V hO c (32 * r.val + 31) (pt5 V hO r 31 (by decide)).isLt)
      (xpa5 V hO c (pt5 V hO r 31 (by decide))) (xw5 V hO c (pt5 V hO r 31 (by decide)))
      (xb5 V hO c (pt5 V hO r 31 (by decide))) (ValueIdx.ix3 0 0 0) = _
  -- this tile's result step is tile 0's function; the scratch it reads is the fold of the sample's rows
  rw [k5_pay3_eq, acc_fold5 V hO c r 31 (by decide)]
  refine row_value _ _ _ _ _ (⟨2048 * 5 + r.val, by omega⟩ : Fin 16384)
    (fun g : Fin 32 => xrow5 V hO c (pt5 V hO r g.val g.isLt)) ?_ _ _ ?_ ?_ _ ?_
  · -- the rows: the embedding row the table word names; the word is the gathered row number, below 786432
    intro f l
    refine (xrow5_apply V hO c _ l).trans ?_
    refine (hemb _ l).trans ?_
    refine congrArg _ (ix2_congr ?_ rfl)
    show (tword5 (tbl5 V) (grid5.coords (pt5 V hO r f.val f.isLt))).toNat
      = (gidx (ValueIdx.ix2 (⟨2048 * 5 + r.val, by omega⟩ : Fin 16384) f)).toNat % 786432
    rw [htw, Nat.mod_eq_of_lt (hin _ _)]
    have hf := f.isLt
    refine congrArg BitVec.toNat (congrArg _ (ix2_congr ?_ ?_))
    · show 2048 * 5 + ((grid5.coords (pt5 V hO r f.val f.isLt)) 0).val = 2048 * 5 + r.val
      rw [coords5_val0]
      show 2048 * 5 + (32 * r.val + f.val) / 32 = 2048 * 5 + r.val
      omega
    · show ((grid5.coords (pt5 V hO r f.val f.isLt)) 1).val = f.val
      rw [coords5_val1]
      show (32 * r.val + f.val) % 32 = f.val
      omega
  · -- the phase-bias row of the sample: the last feature's point has sample coordinate r
    intro l
    exact (xpa5_apply V hO c _ l).trans <|
      (congrArg (V c main_v67) (ix3_congr (a' := r) (by show (32 * r.val + 31) / 32 = r.val; omega) 0 l)).trans <|
      hpaV r l
  · intro l
    exact (xw5_apply V hO c _ l).trans <|
      (congrArg (V c main_v68) (ix3_congr (a' := r) (by show (32 * r.val + 31) / 32 = r.val; omega) 0 l)).trans <|
      hwV r l
  · exact (xb5_apply V hO c _).trans <|
      (congrArg (V c main_v69) (ix3_congr (a' := r) (by show (32 * r.val + 31) / 32 = r.val; omega) 0 0)).trans <|
      hbV r

variable (m : (ℓ : Loc nD τ sig) → Buf (Elt Ideal) ℓ)

/-- TILE 5's VALUE. The result array of region 5 at sample `r` of the tile is the specification's result for sample
    `2048·5 + r`: the entry contents of the run hold what the general statement asks (the table, the embedding operand and
    the three row operands, each read at an index), so it applies. -/
theorem tile5_value (c : Dev nD) (hO : Ok5 (V5in m))
    (hin : Spec.InRange (Spec.gidxOf (m ((c : Thread nD τ).loc main_arg0)) (m ((c : Thread nD τ).loc main_arg1)) (m ((c : Thread nD τ).loc main_arg2))))
    (r : Fin 2048) :
    tileRes5 (V5in m) hO c (ValueIdx.ix3 r 0 0)
      = Spec.G (Spec.gidxOf (m ((c : Thread nD τ).loc main_arg0)) (m ((c : Thread nD τ).loc main_arg1)) (m ((c : Thread nD τ).loc main_arg2)))
          (m ((c : Thread nD τ).loc main_arg3))
          (Spec.paSelOf (m ((c : Thread nD τ).loc main_arg1)) (m ((c : Thread nD τ).loc main_arg4)))
          (Spec.wSelOf (m ((c : Thread nD τ).loc main_arg1)) (m ((c : Thread nD τ).loc main_arg5)))
          (Spec.bSelOf (m ((c : Thread nD τ).loc main_arg1)) (m ((c : Thread nD τ).loc main_arg6)))
          (ValueIdx.ix2 (⟨2048 * 5 + r.val, by have := r.isLt; omega⟩ : Fin 16384) 0) :=
  tile5_value_of (V5in m) hO c _ _ _ _ _ (tword5_V5in m c) (emb5_apply m (outsL m) c) (pa5_apply m (outsL m) c)
    (w5_apply m (outsL m) c) (b5_apply m (outsL m) c) hin r

end AtIdeal

end Cert.KernelIdeal.Hand

end
-- ==== Proof.R6Tile.lean ====
/-
  Tile 6: the result array of kernel region 6 (regions counted from 0), read at a sample, is the specification's value there.

  Point `32·r + f` of the region's grid is sample `r`, feature `f`. Within a sample the scratch accumulates the gathered
  rows feature by feature, restarting at feature 0; at feature 31 the body stores the sample's result, computed from the
  scratch and the sample's rows of the three selections. The gathered row at a point is the embedding row the table word
  names; under the range fact that word, read unsigned, is the specification's row number. This tile's three payload
  functions (cleared scratch, accumulation step, result step) are the same functions as tile 0's, over which the fold
  of a sample's rows and the sample's value are stated.
-/
import proofs.«402893_j78554951844377_2_alg».proof.Proof.Gen.KernelIdeal.Regions
import proofs.«402893_j78554951844377_2_alg».proof.Proof.Spec
import proofs.«402893_j78554951844377_2_alg».proof.Proof.R6Base
import proofs.«402893_j78554951844377_2_alg».proof.Proof.R6Grid
import proofs.«402893_j78554951844377_2_alg».proof.Proof.R6Acc
import proofs.«402893_j78554951844377_2_alg».proof.Proof.R6Val
import proofs.«402893_j78554951844377_2_alg».proof.Proof.R6Ok
import proofs.«402893_j78554951844377_2_alg».proof.Proof.OkTablesT
import proofs.«402893_j78554951844377_2_alg».proof.Proof.KHostT6
import proofs.«402893_j78554951844377_2_alg».proof.Proof.KRowValue
import proofs.«402893_j78554951844377_2_alg».proof.Proof.TileLib
import Idealize.ShloMosaic.PureOps.Ideal
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

section Generic
variable {F : FTy → Type} [FloatOps F]

variable (V : (c : Dev nD) → (b : Ref sig .tc) → Buf (Elt F) ((c : Thread nD τ).loc b))

/-- The scratch contents depend on the position only through its value. -/
theorem accAt6_congr (hO : Ok6 V) (c : Dev nD) {n n' : ℕ} (h : n = n') (hn : n < (cfgM6 V hO).N) (hn' : n' < (cfgM6 V hO).N) :
    accAt6 V hO c n hn = accAt6 V hO c n' hn' := by
  subst h; rfl

/-- The grid point of sample `r`, feature `f`: position `32·r + f`. -/
abbrev pt6 (hO : Ok6 V) (r : Fin 2048) (f : ℕ) (hf : f < 32) : Fin (cfgM6 V hO).N :=
  ⟨32 * r.val + f, by have := r.isLt; have hN : (cfgM6 V hO).N = 65536 := N_6; omega⟩

end Generic

section AtIdeal

variable (V : (c : Dev nD) → (b : Ref sig .tc) → Buf (Elt Ideal) ((c : Thread nD τ).loc b))

/-- Within sample `r` the scratch after feature `f` is the fold of the sample's rows 0 to `f`: at feature 0 the body restarts
    the scratch from zero plus the row (the first condition holds exactly there), and at feature `f + 1` it adds the row to
    what feature `f` left. -/
theorem acc_fold6 (hO : Ok6 V) (c : Dev nD) (r : Fin 2048) : ∀ (f : ℕ) (hf : f < 32),
    accAt6 V hO c (32 * r.val + f) (pt6 V hO r f hf).isLt
      = foldRows (fun g : Fin 32 => xrow6 V hO c (pt6 V hO r g.val g.isLt)) f hf := by
  intro f
  induction f with
  | zero =>
    intro hf
    refine (accAt6_A V hO c (pt6 V hO r 0 hf)
      ((cond6_0_iff _).mpr (by rw [coords6_val1]; show (32 * r.val + 0) % 32 = 0; omega))).trans ?_
    -- this tile's cleared scratch and accumulation step are tile 0's functions
    rw [k6_pay1_eq, k6_pay2_eq]
    rfl
  | succ f ih =>
    intro hf
    have hB := accAt6_B V hO c (pt6 V hO r (f + 1) hf)
      (fun h => by
        have h' := (cond6_0_iff _).mp h
        rw [coords6_val1] at h'
        have h'' : (32 * r.val + (f + 1)) % 32 = 0 := h'
        omega)
      (by show 32 * r.val + (f + 1) ≠ 0; omega)
    refine hB.trans ?_
    -- this tile's accumulation step is tile 0's function
    rw [k6_pay2_eq]
    show k0_pay2 (accAt6 V hO c (32 * r.val + (f + 1) - 1) _) (xrow6 V hO c (pt6 V hO r (f + 1) hf))
      = k0_pay2 (foldRows (fun g : Fin 32 => xrow6 V hO c (pt6 V hO r g.val g.isLt)) f (Nat.lt_of_succ_lt hf))
          (xrow6 V hO c (pt6 V hO r (f + 1) hf))
    rw [accAt6_congr V hO c (show 32 * r.val + (f + 1) - 1 = 32 * r.val + f by omega) _ (pt6 V hO r f (Nat.lt_of_succ_lt hf)).isLt,
      ih (Nat.lt_of_succ_lt hf)]

/-- THE VALUE, at any entry contents. Let the region be entered with the buffers at `V`, and suppose `V` holds: in the table,
    at the word a grid point reads, the gathered row number of the point's sample and feature; in the embedding operand, the
    embedding table; in the three row operands, the tile's rows of the three selections. Then, under the range fact, the result
    array at sample `r` of the tile is the specification's result for sample `2048·6 + r`: it is what the body stored at the
    sample's last feature, computed from the fold of the sample's 32 rows — each the embedding row the table names, which
    under the range fact is the specification's row — and from the sample's rows of the three selections. -/
theorem tile6_value_of (hO : Ok6 V) (c : Dev nD)
    (gidx : IVec Spec.S16384x32 32) (emb : FVec Ideal Spec.S786432x128 .f32)
    (paS wS : FVec Ideal Spec.S16384x128 .f32) (bS : FVec Ideal Spec.S16384 .f32)
    (htw : ∀ i : grid6.Coords, tword6 (tbl6 V) i
      = gidx (ValueIdx.ix2 (⟨2048 * 6 + (i 0).val, by have h0 : (i 0).val < 2048 := (i 0).isLt; omega⟩ : Fin 16384)
          (⟨(i 1).val, (i 1).isLt⟩ : Fin 32)))
    (hemb : ∀ (ρ : Fin 786432) (l : Fin 128), V c main_v34 (ValueIdx.ix3 ρ 0 l) = emb (ValueIdx.ix2 ρ l))
    (hpaV : ∀ (r : Fin 2048) (l : Fin 128), V c main_v73 (ValueIdx.ix3 r 0 l)
      = paS (ValueIdx.ix2 (⟨2048 * 6 + r.val, by have := r.isLt; omega⟩ : Fin 16384) l))
    (hwV : ∀ (r : Fin 2048) (l : Fin 128), V c main_v74 (ValueIdx.ix3 r 0 l)
      = wS (ValueIdx.ix2 (⟨2048 * 6 + r.val, by have := r.isLt; omega⟩ : Fin 16384) l))
    (hbV : ∀ r : Fin 2048, V c main_v75 (ValueIdx.ix3 r 0 0)
      = bS (ValueIdx.ix1 (⟨2048 * 6 + r.val, by have := r.isLt; omega⟩ : Fin 16384)))
    (hin : Spec.InRange gidx) (r : Fin 2048) :
    tileRes6 V hO c (ValueIdx.ix3 r 0 0)
      = Spec.G gidx emb paS wS bS (ValueIdx.ix2 (⟨2048 * 6 + r.val, by have := r.isLt; omega⟩ : Fin 16384) 0) := by
  have hr := r.isLt
  refine (tileRes6_apply V hO c r).trans ?_
  show k6_pay3 (accAt6 V hO c (32 * r.val + 31) (pt6 V hO r 31 (by decide)).isLt)
      (xpa6 V hO c (pt6 V hO r 31 (by decide))) (xw6 V hO c (pt6 V hO r 31 (by decide)))
      (xb6 V hO c (pt6 V hO r 31 (by decide))) (ValueIdx.ix3 0 0 0) = _
  -- this tile's result step is tile 0's function; the scratch it reads is the fold of the sample's rows
  rw [k6_pay3_eq, acc_fold6 V hO c r 31 (by decide)]
  refine row_value _ _ _ _ _ (⟨2048 * 6 + r.val, by omega⟩ : Fin 16384)
    (fun g : Fin 32 => xrow6 V hO c (pt6 V hO r g.val g.isLt)) ?_ _ _ ?_ ?_ _ ?_
  · -- the rows: the embedding row the table word names; the word is the gathered row number, below 786432
    intro f l
    refine (xrow6_apply V hO c _ l).trans ?_
    refine (hemb _ l).trans ?_
    refine congrArg _ (ix2_congr ?_ rfl)
    show (tword6 (tbl6 V) (grid6.coords (pt6 V hO r f.val f.isLt))).toNat
      = (gidx (ValueIdx.ix2 (⟨2048 * 6 + r.val, by omega⟩ : Fin 16384) f)).toNat % 786432
    rw [htw, Nat.mod_eq_of_lt (hin _ _)]
    have hf := f.isLt
    refine congrArg BitVec.toNat (congrArg _ (ix2_congr ?_ ?_))
    · show 2048 * 6 + ((grid6.coords (pt6 V hO r f.val f.isLt)) 0).val = 2048 * 6 + r.val
      rw [coords6_val0]
      show 2048 * 6 + (32 * r.val + f.val) / 32 = 2048 * 6 + r.val
      omega
    · show ((grid6.coords (pt6 V hO r f.val f.isLt)) 1).val = f.val
      rw [coords6_val1]
      show (32 * r.val + f.val) % 32 = f.val
      omega
  · -- the phase-bias row of the sample: the last feature's point has sample coordinate r
    intro l
    exact (xpa6_apply V hO c _ l).trans <|
      (congrArg (V c main_v73) (ix3_congr (a' := r) (by show (32 * r.val + 31) / 32 = r.val; omega) 0 l)).trans <|
      hpaV r l
  · intro l
    exact (xw6_apply V hO c _ l).trans <|
      (congrArg (V c main_v74) (ix3_congr (a' := r) (by show (32 * r.val + 31) / 32 = r.val; omega) 0 l)).trans <|
      hwV r l
  · exact (xb6_apply V hO c _).trans <|
      (congrArg (V c main_v75) (ix3_congr (a' := r) (by show (32 * r.val + 31) / 32 = r.val; omega) 0 0)).trans <|
      hbV r

variable (m : (ℓ : Loc nD τ sig) → Buf (Elt Ideal) ℓ)

/-- TILE 6's VALUE. The result array of region 6 at sample `r` of the tile is the specification's result for sample
    `2048·6 + r`: the entry contents of the run hold what the general statement asks (the table, the embedding operand and
    the three row operands, each read at an index), so it applies. -/
theorem tile6_value (c : Dev nD) (hO : Ok6 (V6in m))
    (hin : Spec.InRange (Spec.gidxOf (m ((c : Thread nD τ).loc main_arg0)) (m ((c : Thread nD τ).loc main_arg1)) (m ((c : Thread nD τ).loc main_arg2))))
    (r : Fin 2048) :
    tileRes6 (V6in m) hO c (ValueIdx.ix3 r 0 0)
      = Spec.G (Spec.gidxOf (m ((c : Thread nD τ).loc main_arg0)) (m ((c : Thread nD τ).loc main_arg1)) (m ((c : Thread nD τ).loc main_arg2)))
          (m ((c : Thread nD τ).loc main_arg3))
          (Spec.paSelOf (m ((c : Thread nD τ).loc main_arg1)) (m ((c : Thread nD τ).loc main_arg4)))
          (Spec.wSelOf (m ((c : Thread nD τ).loc main_arg1)) (m ((c : Thread nD τ).loc main_arg5)))
          (Spec.bSelOf (m ((c : Thread nD τ).loc main_arg1)) (m ((c : Thread nD τ).loc main_arg6)))
          (ValueIdx.ix2 (⟨2048 * 6 + r.val, by have := r.isLt; omega⟩ : Fin 16384) 0) :=
  tile6_value_of (V6in m) hO c _ _ _ _ _ (tword6_V6in m c) (emb6_apply m (outsL m) c) (pa6_apply m (outsL m) c)
    (w6_apply m (outsL m) c) (b6_apply m (outsL m) c) hin r

end AtIdeal

end Cert.KernelIdeal.Hand

end
-- ==== Proof.R7Tile.lean ====
/-
  Tile 7: the result array of kernel region 7 (regions counted from 0), read at a sample, is the specification's value there.

  Point `32·r + f` of the region's grid is sample `r`, feature `f`. Within a sample the scratch accumulates the gathered
  rows feature by feature, restarting at feature 0; at feature 31 the body stores the sample's result, computed from the
  scratch and the sample's rows of the three selections. The gathered row at a point is the embedding row the table word
  names; under the range fact that word, read unsigned, is the specification's row number. This tile's three payload
  functions (cleared scratch, accumulation step, result step) are the same functions as tile 0's, over which the fold
  of a sample's rows and the sample's value are stated.
-/
import proofs.«402893_j78554951844377_2_alg».proof.Proof.Gen.KernelIdeal.Regions
import proofs.«402893_j78554951844377_2_alg».proof.Proof.Spec
import proofs.«402893_j78554951844377_2_alg».proof.Proof.R7Base
import proofs.«402893_j78554951844377_2_alg».proof.Proof.R7Grid
import proofs.«402893_j78554951844377_2_alg».proof.Proof.R7Acc
import proofs.«402893_j78554951844377_2_alg».proof.Proof.R7Val
import proofs.«402893_j78554951844377_2_alg».proof.Proof.R7Ok
import proofs.«402893_j78554951844377_2_alg».proof.Proof.OkTablesT
import proofs.«402893_j78554951844377_2_alg».proof.Proof.KHostT7
import proofs.«402893_j78554951844377_2_alg».proof.Proof.KRowValue
import proofs.«402893_j78554951844377_2_alg».proof.Proof.TileLib
import Idealize.ShloMosaic.PureOps.Ideal
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

section Generic
variable {F : FTy → Type} [FloatOps F]

variable (V : (c : Dev nD) → (b : Ref sig .tc) → Buf (Elt F) ((c : Thread nD τ).loc b))

/-- The scratch contents depend on the position only through its value. -/
theorem accAt7_congr (hO : Ok7 V) (c : Dev nD) {n n' : ℕ} (h : n = n') (hn : n < (cfgM7 V hO).N) (hn' : n' < (cfgM7 V hO).N) :
    accAt7 V hO c n hn = accAt7 V hO c n' hn' := by
  subst h; rfl

/-- The grid point of sample `r`, feature `f`: position `32·r + f`. -/
abbrev pt7 (hO : Ok7 V) (r : Fin 2048) (f : ℕ) (hf : f < 32) : Fin (cfgM7 V hO).N :=
  ⟨32 * r.val + f, by have := r.isLt; have hN : (cfgM7 V hO).N = 65536 := N_7; omega⟩

end Generic

section AtIdeal

variable (V : (c : Dev nD) → (b : Ref sig .tc) → Buf (Elt Ideal) ((c : Thread nD τ).loc b))

/-- Within sample `r` the scratch after feature `f` is the fold of the sample's rows 0 to `f`: at feature 0 the body restarts
    the scratch from zero plus the row (the first condition holds exactly there), and at feature `f + 1` it adds the row to
    what feature `f` left. -/
theorem acc_fold7 (hO : Ok7 V) (c : Dev nD) (r : Fin 2048) : ∀ (f : ℕ) (hf : f < 32),
    accAt7 V hO c (32 * r.val + f) (pt7 V hO r f hf).isLt
      = foldRows (fun g : Fin 32 => xrow7 V hO c (pt7 V hO r g.val g.isLt)) f hf := by
  intro f
  induction f with
  | zero =>
    intro hf
    refine (accAt7_A V hO c (pt7 V hO r 0 hf)
      ((cond7_0_iff _).mpr (by rw [coords7_val1]; show (32 * r.val + 0) % 32 = 0; omega))).trans ?_
    -- this tile's cleared scratch and accumulation step are tile 0's functions
    rw [k7_pay1_eq, k7_pay2_eq]
    rfl
  | succ f ih =>
    intro hf
    have hB := accAt7_B V hO c (pt7 V hO r (f + 1) hf)
      (fun h => by
        have h' := (cond7_0_iff _).mp h
        rw [coords7_val1] at h'
        have h'' : (32 * r.val + (f + 1)) % 32 = 0 := h'
        omega)
      (by show 32 * r.val + (f + 1) ≠ 0; omega)
    refine hB.trans ?_
    -- this tile's accumulation step is tile 0's function
    rw [k7_pay2_eq]
    show k0_pay2 (accAt7 V hO c (32 * r.val + (f + 1) - 1) _) (xrow7 V hO c (pt7 V hO r (f + 1) hf))
      = k0_pay2 (foldRows (fun g : Fin 32 => xrow7 V hO c (pt7 V hO r g.val g.isLt)) f (Nat.lt_of_succ_lt hf))
          (xrow7 V hO c (pt7 V hO r (f + 1) hf))
    rw [accAt7_congr V hO c (show 32 * r.val + (f + 1) - 1 = 32 * r.val + f by omega) _ (pt7 V hO r f (Nat.lt_of_succ_lt hf)).isLt,
      ih (Nat.lt_of_succ_lt hf)]

/-- THE VALUE, at any entry contents. Let the region be entered with the buffers at `V`, and suppose `V` holds: in the table,
    at the word a grid point reads, the gathered row number of the point's sample and feature; in the embedding operand, the
    embedding table; in the three row operands, the tile's rows of the three selections. Then, under the range fact, the result
    array at sample `r` of the tile is the specification's result for sample `2048·7 + r`: it is what the body stored at the
    sample's last feature, computed from the fold of the sample's 32 rows — each the embedding row the table names, which
    under the range fact is the specification's row — and from the sample's rows of the three selections. -/
theorem tile7_value_of (hO : Ok7 V) (c : Dev nD)
    (gidx : IVec Spec.S16384x32 32) (emb : FVec Ideal Spec.S786432x128 .f32)
    (paS wS : FVec Ideal Spec.S16384x128 .f32) (bS : FVec Ideal Spec.S16384 .f32)
    (htw : ∀ i : grid7.Coords, tword7 (tbl7 V) i
      = gidx (ValueIdx.ix2 (⟨2048 * 7 + (i 0).val, by have h0 : (i 0).val < 2048 := (i 0).isLt; omega⟩ : Fin 16384)
          (⟨(i 1).val, (i 1).isLt⟩ : Fin 32)))
    (hemb : ∀ (ρ : Fin 786432) (l : Fin 128), V c main_v34 (ValueIdx.ix3 ρ 0 l) = emb (ValueIdx.ix2 ρ l))
    (hpaV : ∀ (r : Fin 2048) (l : Fin 128), V c main_v79 (ValueIdx.ix3 r 0 l)
      = paS (ValueIdx.ix2 (⟨2048 * 7 + r.val, by have := r.isLt; omega⟩ : Fin 16384) l))
    (hwV : ∀ (r : Fin 2048) (l : Fin 128), V c main_v80 (ValueIdx.ix3 r 0 l)
      = wS (ValueIdx.ix2 (⟨2048 * 7 + r.val, by have := r.isLt; omega⟩ : Fin 16384) l))
    (hbV : ∀ r : Fin 2048, V c main_v81 (ValueIdx.ix3 r 0 0)
      = bS (ValueIdx.ix1 (⟨2048 * 7 + r.val, by have := r.isLt; omega⟩ : Fin 16384)))
    (hin : Spec.InRange gidx) (r : Fin 2048) :
    tileRes7 V hO c (ValueIdx.ix3 r 0 0)
      = Spec.G gidx emb paS wS bS (ValueIdx.ix2 (⟨2048 * 7 + r.val, by have := r.isLt; omega⟩ : Fin 16384) 0) := by
  have hr := r.isLt
  refine (tileRes7_apply V hO c r).trans ?_
  show k7_pay3 (accAt7 V hO c (32 * r.val + 31) (pt7 V hO r 31 (by decide)).isLt)
      (xpa7 V hO c (pt7 V hO r 31 (by decide))) (xw7 V hO c (pt7 V hO r 31 (by decide)))
      (xb7 V hO c (pt7 V hO r 31 (by decide))) (ValueIdx.ix3 0 0 0) = _
  -- this tile's result step is tile 0's function; the scratch it reads is the fold of the sample's rows
  rw [k7_pay3_eq, acc_fold7 V hO c r 31 (by decide)]
  refine row_value _ _ _ _ _ (⟨2048 * 7 + r.val, by omega⟩ : Fin 16384)
    (fun g : Fin 32 => xrow7 V hO c (pt7 V hO r g.val g.isLt)) ?_ _ _ ?_ ?_ _ ?_
  · -- the rows: the embedding row the table word names; the word is the gathered row number, below 786432
    intro f l
    refine (xrow7_apply V hO c _ l).trans ?_
    refine (hemb _ l).trans ?_
    refine congrArg _ (ix2_congr ?_ rfl)
    show (tword7 (tbl7 V) (grid7.coords (pt7 V hO r f.val f.isLt))).toNat
      = (gidx (ValueIdx.ix2 (⟨2048 * 7 + r.val, by omega⟩ : Fin 16384) f)).toNat % 786432
    rw [htw, Nat.mod_eq_of_lt (hin _ _)]
    have hf := f.isLt
    refine congrArg BitVec.toNat (congrArg _ (ix2_congr ?_ ?_))
    · show 2048 * 7 + ((grid7.coords (pt7 V hO r f.val f.isLt)) 0).val = 2048 * 7 + r.val
      rw [coords7_val0]
      show 2048 * 7 + (32 * r.val + f.val) / 32 = 2048 * 7 + r.val
      omega
    · show ((grid7.coords (pt7 V hO r f.val f.isLt)) 1).val = f.val
      rw [coords7_val1]
      show (32 * r.val + f.val) % 32 = f.val
      omega
  · -- the phase-bias row of the sample: the last feature's point has sample coordinate r
    intro l
    exact (xpa7_apply V hO c _ l).trans <|
      (congrArg (V c main_v79) (ix3_congr (a' := r) (by show (32 * r.val + 31) / 32 = r.val; omega) 0 l)).trans <|
      hpaV r l
  · intro l
    exact (xw7_apply V hO c _ l).trans <|
      (congrArg (V c main_v80) (ix3_congr (a' := r) (by show (32 * r.val + 31) / 32 = r.val; omega) 0 l)).trans <|
      hwV r l
  · exact (xb7_apply V hO c _).trans <|
      (congrArg (V c main_v81) (ix3_congr (a' := r) (by show (32 * r.val + 31) / 32 = r.val; omega) 0 0)).trans <|
      hbV r

variable (m : (ℓ : Loc nD τ sig) → Buf (Elt Ideal) ℓ)

/-- TILE 7's VALUE. The result array of region 7 at sample `r` of the tile is the specification's result for sample
    `2048·7 + r`: the entry contents of the run hold what the general statement asks (the table, the embedding operand and
    the three row operands, each read at an index), so it applies. -/
theorem tile7_value (c : Dev nD) (hO : Ok7 (V7in m))
    (hin : Spec.InRange (Spec.gidxOf (m ((c : Thread nD τ).loc main_arg0)) (m ((c : Thread nD τ).loc main_arg1)) (m ((c : Thread nD τ).loc main_arg2))))
    (r : Fin 2048) :
    tileRes7 (V7in m) hO c (ValueIdx.ix3 r 0 0)
      = Spec.G (Spec.gidxOf (m ((c : Thread nD τ).loc main_arg0)) (m ((c : Thread nD τ).loc main_arg1)) (m ((c : Thread nD τ).loc main_arg2)))
          (m ((c : Thread nD τ).loc main_arg3))
          (Spec.paSelOf (m ((c : Thread nD τ).loc main_arg1)) (m ((c : Thread nD τ).loc main_arg4)))
          (Spec.wSelOf (m ((c : Thread nD τ).loc main_arg1)) (m ((c : Thread nD τ).loc main_arg5)))
          (Spec.bSelOf (m ((c : Thread nD τ).loc main_arg1)) (m ((c : Thread nD τ).loc main_arg6)))
          (ValueIdx.ix2 (⟨2048 * 7 + r.val, by have := r.isLt; omega⟩ : Fin 16384) 0) :=
  tile7_value_of (V7in m) hO c _ _ _ _ _ (tword7_V7in m c) (emb7_apply m (outsL m) c) (pa7_apply m (outsL m) c)
    (w7_apply m (outsL m) c) (b7_apply m (outsL m) c) hin r

end AtIdeal

end Cert.KernelIdeal.Hand

end
-- ==== Proof.KTail.lean ====
/-
  The last host stretch of the kernel program, read at an index.

  The program runs eight kernel regions, one per tile of 2048 samples; region `k` leaves an array of 2048 × 1 × 1 floats
  in its own result buffer. The closing host stretch lays the eight arrays end to end along the sample axis
  (16384 × 1 × 1) and merges the two trailing unit axes into one (16384 × 1): that array is the program's result.

  Stated here: what each of the eight result buffers holds just before the closing stretch (what its region left, since
  nothing in between writes it), and the result at sample `b` — what region `b / 2048` left at offset `b % 2048`.
-/
import proofs.«402893_j78554951844377_2_alg».proof.Proof.Gen.KernelIdeal.Regions
import Idealize.ShloMosaic.Lib.Pipeline.Value
import Idealize.ShloMosaic.Lib.StableHlo.Run
import Idealize.ShloMosaic.Lib.ValueIdx

noncomputable section

namespace Cert.KernelIdeal.Hand

open Idealize.ShloMosaic Idealize.ShloMosaic.TcCoe
open Cert.KernelIdeal Cert.KernelIdeal.Gen Idealize.ShloMosaic.ValueIdx

variable {F : FTy → Type} [FloatOps F]

/-- The contents kernel region `k` (`k = 0, …, 7`) leaves in its result buffer on core `c`: an array of 2048 × 1 × 1
    floats, one per sample of the region's tile. -/
def tileOut (outs : Outs (F := F)) (c : Dev nD) : Fin 8 → FVec F S2048x1x1 .f32
  | ⟨0, _⟩ => outs 6 main_v40 c
  | ⟨1, _⟩ => outs 8 main_v46 c
  | ⟨2, _⟩ => outs 10 main_v52 c
  | ⟨3, _⟩ => outs 12 main_v58 c
  | ⟨4, _⟩ => outs 14 main_v64 c
  | ⟨5, _⟩ => outs 16 main_v70 c
  | ⟨6, _⟩ => outs 18 main_v76 c
  | ⟨7, _⟩ => outs 20 main_v82 c

variable (m : (ℓ : Loc nD τ sig) → Buf (Elt F) ℓ) (outs : Outs (F := F)) (c : Dev nD)

/-! ## The eight result buffers before the closing stretch

Region `k` writes its result buffer at item `5 + 2k`; the later items are host stretches that compute the later tiles'
operands and later regions that write their own result buffers, none of which is region `k`'s. So the buffer still
holds what region `k` left when the closing stretch starts. -/

/-- Region 7's result buffer was written last. -/
theorem V20_tile7 : V20 m outs c main_v82 = tileOut outs c 7 :=
  Function.update_self ..

/-- Region 6's result buffer: one host stretch and one region later, unchanged. -/
theorem V20_tile6 : V20 m outs c main_v76 = tileOut outs c 6 :=
  (V20_of m outs c main_v76 (by decide)).trans <| (V19_of m outs c main_v76 (by decide)).trans <| Function.update_self ..

/-- Region 5's result buffer: two host stretches and two regions later, unchanged. -/
theorem V20_tile5 : V20 m outs c main_v70 = tileOut outs c 5 :=
  (V20_of m outs c main_v70 (by decide)).trans <| (V19_of m outs c main_v70 (by decide)).trans <|
  (V18_of m outs c main_v70 (by decide)).trans <| (V17_of m outs c main_v70 (by decide)).trans <| Function.update_self ..

/-- Region 4's result buffer: three host stretches and three regions later, unchanged. -/
theorem V20_tile4 : V20 m outs c main_v64 = tileOut outs c 4 :=
  (V20_of m outs c main_v64 (by decide)).trans <| (V19_of m outs c main_v64 (by decide)).trans <|
  (V18_of m outs c main_v64 (by decide)).trans <| (V17_of m outs c main_v64 (by decide)).trans <|
  (V16_of m outs c main_v64 (by decide)).trans <| (V15_of m outs c main_v64 (by decide)).trans <| Function.update_self ..

/-- Region 3's result buffer: four host stretches and four regions later, unchanged. -/
theorem V20_tile3 : V20 m outs c main_v58 = tileOut outs c 3 :=
  (V20_of m outs c main_v58 (by decide)).trans <| (V19_of m outs c main_v58 (by decide)).trans <|
  (V18_of m outs c main_v58 (by decide)).trans <| (V17_of m outs c main_v58 (by decide)).trans <|
  (V16_of m outs c main_v58 (by decide)).trans <| (V15_of m outs c main_v58 (by decide)).trans <|
  (V14_of m outs c main_v58 (by decide)).trans <| (V13_of m outs c main_v58 (by decide)).trans <| Function.update_self ..

/-- Region 2's result buffer: five host stretches and five regions later, unchanged. -/
theorem V20_tile2 : V20 m outs c main_v52 = tileOut outs c 2 :=
  (V20_of m outs c main_v52 (by decide)).trans <| (V19_of m outs c main_v52 (by decide)).trans <|
  (V18_of m outs c main_v52 (by decide)).trans <| (V17_of m outs c main_v52 (by decide)).trans <|
  (V16_of m outs c main_v52 (by decide)).trans <| (V15_of m outs c main_v52 (by decide)).trans <|
  (V14_of m outs c main_v52 (by decide)).trans <| (V13_of m outs c main_v52 (by decide)).trans <|
  (V12_of m outs c main_v52 (by decide)).trans <| (V11_of m outs c main_v52 (by decide)).trans <| Function.update_self ..

/-- Region 1's result buffer: six host stretches and six regions later, unchanged. -/
theorem V20_tile1 : V20 m outs c main_v46 = tileOut outs c 1 :=
  (V20_of m outs c main_v46 (by decide)).trans <| (V19_of m outs c main_v46 (by decide)).trans <|
  (V18_of m outs c main_v46 (by decide)).trans <| (V17_of m outs c main_v46 (by decide)).trans <|
  (V16_of m outs c main_v46 (by decide)).trans <| (V15_of m outs c main_v46 (by decide)).trans <|
  (V14_of m outs c main_v46 (by decide)).trans <| (V13_of m outs c main_v46 (by decide)).trans <|
  (V12_of m outs c main_v46 (by decide)).trans <| (V11_of m outs c main_v46 (by decide)).trans <|
  (V10_of m outs c main_v46 (by decide)).trans <| (V9_of m outs c main_v46 (by decide)).trans <| Function.update_self ..

/-- Region 0's result buffer: seven host stretches and seven regions later, unchanged. -/
theorem V20_tile0 : V20 m outs c main_v40 = tileOut outs c 0 :=
  (V20_of m outs c main_v40 (by decide)).trans <| (V19_of m outs c main_v40 (by decide)).trans <|
  (V18_of m outs c main_v40 (by decide)).trans <| (V17_of m outs c main_v40 (by decide)).trans <|
  (V16_of m outs c main_v40 (by decide)).trans <| (V15_of m outs c main_v40 (by decide)).trans <|
  (V14_of m outs c main_v40 (by decide)).trans <| (V13_of m outs c main_v40 (by decide)).trans <|
  (V12_of m outs c main_v40 (by decide)).trans <| (V11_of m outs c main_v40 (by decide)).trans <|
  (V10_of m outs c main_v40 (by decide)).trans <| (V9_of m outs c main_v40 (by decide)).trans <|
  (V8_of m outs c main_v40 (by decide)).trans <| (V7_of m outs c main_v40 (by decide)).trans <| Function.update_self ..

/-! ## The result -/

/-- The whole result: the eight regions' arrays laid end to end along the sample axis, then the two trailing unit axes
    merged into one. (The closing host stretch is a concatenation of the eight result buffers followed by a reshape; each
    operand buffer holds what its region left, by the eight lemmas above.) -/
theorem V21_result :
    V21 m outs c main_v84 = shapeCast S16384x1
      (concatenate S16384x1x1 0 (List.ofFn fun n : Fin 8 => (⟨S2048x1x1, tileOut outs c n⟩ : (s : Shape) × (s.Idx → F .f32)))
        concatenates_S2048x1x1_S2048x1x1_S2048x1x1_S2048x1x1_S2048x1x1_S2048x1x1_S2048x1x1_S2048x1x1_S16384x1x1_d0)
      shapeCasts_S16384x1x1_S16384x1 := by
  show StableHlo.after hostOps8 (V20 m outs c) (Proc.devRef .tc main_v84) = _
  after_results
  show (fun i => shapeCast S16384x1
      (concatenate S16384x1x1 0
        [⟨S2048x1x1, V20 m outs c main_v40⟩, ⟨S2048x1x1, V20 m outs c main_v46⟩, ⟨S2048x1x1, V20 m outs c main_v52⟩,
          ⟨S2048x1x1, V20 m outs c main_v58⟩, ⟨S2048x1x1, V20 m outs c main_v64⟩, ⟨S2048x1x1, V20 m outs c main_v70⟩,
          ⟨S2048x1x1, V20 m outs c main_v76⟩, ⟨S2048x1x1, V20 m outs c main_v82⟩]
        concatenates_S2048x1x1_S2048x1x1_S2048x1x1_S2048x1x1_S2048x1x1_S2048x1x1_S2048x1x1_S2048x1x1_S16384x1x1_d0)
      shapeCasts_S16384x1x1_S16384x1 i) = _
  rw [V20_tile0, V20_tile1, V20_tile2, V20_tile3, V20_tile4, V20_tile5, V20_tile6, V20_tile7]
  rfl

/-- The result read at sample `b`: sample `b` lies in tile `b / 2048` at offset `b % 2048`, so it is what region
    `b / 2048` left at that offset. (The reshape keeps the row-major position, which in both shapes is `b` itself; the
    concatenation of eight pieces of extent 2048 along the sample axis reads piece `b / 2048` at `b % 2048`, the two unit
    coordinates unchanged.) -/
theorem result_apply (b : Fin 16384) :
    V21 m outs c main_v84 (ValueIdx.ix2 b 0)
      = tileOut outs c ⟨b.val / 2048, by have := b.isLt; omega⟩
          (ValueIdx.ix3 ⟨b.val % 2048, Nat.mod_lt _ (by decide)⟩ 0 0) := by
  have hk : (S16384x1x1.rowMajor (ValueIdx.ix3 b 0 0)).val = (S16384x1.rowMajor (ValueIdx.ix2 b 0)).val := by
    rw [Shape.rowMajor_val_three, Shape.rowMajor_val_two]
    show (b.val * 1 + 0) * 1 + 0 = b.val * 1 + 0
    omega
  rw [V21_result, shapeCast_apply _ _ (ValueIdx.ix2 b 0) (ValueIdx.ix3 b 0 0) hk]
  refine concatenate_ofFn_apply (t := S16384x1x1) (s₁ := S2048x1x1) (0 : Fin 3) (tileOut outs c) _ rfl 2048 rfl
    (ValueIdx.ix3 b 0 0) ⟨b.val / 2048, by have := b.isLt; omega⟩ rfl _ rfl ?_
  intro a ha
  match a with
  | ⟨0, _⟩ => exact absurd rfl ha
  | ⟨1, _⟩ => rfl
  | ⟨2, _⟩ => rfl

end Cert.KernelIdeal.Hand

end
-- ==== Proof.MainValue.lean ====
import proofs.«402893_j78554951844377_2_alg».proof.Proof.Main
import proofs.«402893_j78554951844377_2_alg».proof.Proof.R0Val
import proofs.«402893_j78554951844377_2_alg».proof.Proof.R1Val
import proofs.«402893_j78554951844377_2_alg».proof.Proof.R2Val
import proofs.«402893_j78554951844377_2_alg».proof.Proof.R3Val
import proofs.«402893_j78554951844377_2_alg».proof.Proof.R4Val
import proofs.«402893_j78554951844377_2_alg».proof.Proof.R5Val
import proofs.«402893_j78554951844377_2_alg».proof.Proof.R6Val
import proofs.«402893_j78554951844377_2_alg».proof.Proof.R7Val
import proofs.«402893_j78554951844377_2_alg».proof.Proof.R0Tile
import proofs.«402893_j78554951844377_2_alg».proof.Proof.R1Tile
import proofs.«402893_j78554951844377_2_alg».proof.Proof.R2Tile
import proofs.«402893_j78554951844377_2_alg».proof.Proof.R3Tile
import proofs.«402893_j78554951844377_2_alg».proof.Proof.R4Tile
import proofs.«402893_j78554951844377_2_alg».proof.Proof.R5Tile
import proofs.«402893_j78554951844377_2_alg».proof.Proof.R6Tile
import proofs.«402893_j78554951844377_2_alg».proof.Proof.R7Tile
import proofs.«402893_j78554951844377_2_alg».proof.Proof.R0Ok
import proofs.«402893_j78554951844377_2_alg».proof.Proof.R1Ok
import proofs.«402893_j78554951844377_2_alg».proof.Proof.R2Ok
import proofs.«402893_j78554951844377_2_alg».proof.Proof.R3Ok
import proofs.«402893_j78554951844377_2_alg».proof.Proof.R4Ok
import proofs.«402893_j78554951844377_2_alg».proof.Proof.R5Ok
import proofs.«402893_j78554951844377_2_alg».proof.Proof.R6Ok
import proofs.«402893_j78554951844377_2_alg».proof.Proof.R7Ok
import proofs.«402893_j78554951844377_2_alg».proof.Proof.KTail
import proofs.«402893_j78554951844377_2_alg».proof.Proof.TileLib
import proofs.«402893_j78554951844377_2_alg».proof.Proof.Spec
import Idealize.ShloMosaic.Lib.ValueIdx

noncomputable section

namespace Cert.KernelIdeal.Hand

open Idealize.ShloMosaic Idealize.ShloMosaic.TcCoe
open Cert.KernelIdeal Cert.KernelIdeal.Gen

/-! # The idealized kernel program's result is the specified function of its arguments

The program's result array is the eight tiles' result arrays laid end to end. Tile `k` ends holding, at offset `r`,
what its region wrote back at the last feature of its sample `r`; that value is the specification's result for sample
`2048 k + r`. So the result at sample `b` is the specification's at `b`. -/

/-- Tile 0: what region 0 leaves at offset `r` of its result buffer is the specified result of sample `2048 · 0 + r`. -/
theorem tileOut_0 (m : (ℓ : Loc nD τ sig) → Buf (Elt Ideal) ℓ) (hin : HIN m) (r : Fin 2048) :
    tileOut (outsR m hin) (0 : Dev nD) ⟨0, by decide⟩ (ValueIdx.ix3 r (0 : Fin 1) (0 : Fin 1))
      = Spec.G (Spec.gidxOf (m (((0 : Dev nD) : Thread nD τ).loc main_arg0)) (m (((0 : Dev nD) : Thread nD τ).loc main_arg1)) (m (((0 : Dev nD) : Thread nD τ).loc main_arg2))) (m (((0 : Dev nD) : Thread nD τ).loc main_arg3)) (Spec.paSelOf (m (((0 : Dev nD) : Thread nD τ).loc main_arg1)) (m (((0 : Dev nD) : Thread nD τ).loc main_arg4))) (Spec.wSelOf (m (((0 : Dev nD) : Thread nD τ).loc main_arg1)) (m (((0 : Dev nD) : Thread nD τ).loc main_arg5))) (Spec.bSelOf (m (((0 : Dev nD) : Thread nD τ).loc main_arg1)) (m (((0 : Dev nD) : Thread nD τ).loc main_arg6))) (ValueIdx.ix2 (⟨2048 * 0 + r.val, by have := r.isLt; omega⟩ : Fin 16384) (0 : Fin 1)) := by
  show outsR m hin 6 main_v40 (0 : Dev nD) (ValueIdx.ix3 r (0 : Fin 1) (0 : Fin 1)) = _
  refine (congrFun ((outsR_0 m hin 6 (0 : Dev nD)).trans (arrAt0_4 (V0in m) (hO0 m hin) (0 : Dev nD))) (ValueIdx.ix3 r (0 : Fin 1) (0 : Fin 1))).trans ?_
  exact tile0_value m (0 : Dev nD) (hO0 m hin) hin r

/-- Tile 1: what region 1 leaves at offset `r` of its result buffer is the specified result of sample `2048 · 1 + r`. -/
theorem tileOut_1 (m : (ℓ : Loc nD τ sig) → Buf (Elt Ideal) ℓ) (hin : HIN m) (r : Fin 2048) :
    tileOut (outsR m hin) (0 : Dev nD) ⟨1, by decide⟩ (ValueIdx.ix3 r (0 : Fin 1) (0 : Fin 1))
      = Spec.G (Spec.gidxOf (m (((0 : Dev nD) : Thread nD τ).loc main_arg0)) (m (((0 : Dev nD) : Thread nD τ).loc main_arg1)) (m (((0 : Dev nD) : Thread nD τ).loc main_arg2))) (m (((0 : Dev nD) : Thread nD τ).loc main_arg3)) (Spec.paSelOf (m (((0 : Dev nD) : Thread nD τ).loc main_arg1)) (m (((0 : Dev nD) : Thread nD τ).loc main_arg4))) (Spec.wSelOf (m (((0 : Dev nD) : Thread nD τ).loc main_arg1)) (m (((0 : Dev nD) : Thread nD τ).loc main_arg5))) (Spec.bSelOf (m (((0 : Dev nD) : Thread nD τ).loc main_arg1)) (m (((0 : Dev nD) : Thread nD τ).loc main_arg6))) (ValueIdx.ix2 (⟨2048 * 1 + r.val, by have := r.isLt; omega⟩ : Fin 16384) (0 : Fin 1)) := by
  show outsR m hin 8 main_v46 (0 : Dev nD) (ValueIdx.ix3 r (0 : Fin 1) (0 : Fin 1)) = _
  refine (congrFun ((outsR_1 m hin 8 (0 : Dev nD)).trans (arrAt1_4 (V1in m) (hO1 m hin) (0 : Dev nD))) (ValueIdx.ix3 r (0 : Fin 1) (0 : Fin 1))).trans ?_
  exact tile1_value m (0 : Dev nD) (hO1 m hin) hin r

/-- Tile 2: what region 2 leaves at offset `r` of its result buffer is the specified result of sample `2048 · 2 + r`. -/
theorem tileOut_2 (m : (ℓ : Loc nD τ sig) → Buf (Elt Ideal) ℓ) (hin : HIN m) (r : Fin 2048) :
    tileOut (outsR m hin) (0 : Dev nD) ⟨2, by decide⟩ (ValueIdx.ix3 r (0 : Fin 1) (0 : Fin 1))
      = Spec.G (Spec.gidxOf (m (((0 : Dev nD) : Thread nD τ).loc main_arg0)) (m (((0 : Dev nD) : Thread nD τ).loc main_arg1)) (m (((0 : Dev nD) : Thread nD τ).loc main_arg2))) (m (((0 : Dev nD) : Thread nD τ).loc main_arg3)) (Spec.paSelOf (m (((0 : Dev nD) : Thread nD τ).loc main_arg1)) (m (((0 : Dev nD) : Thread nD τ).loc main_arg4))) (Spec.wSelOf (m (((0 : Dev nD) : Thread nD τ).loc main_arg1)) (m (((0 : Dev nD) : Thread nD τ).loc main_arg5))) (Spec.bSelOf (m (((0 : Dev nD) : Thread nD τ).loc main_arg1)) (m (((0 : Dev nD) : Thread nD τ).loc main_arg6))) (ValueIdx.ix2 (⟨2048 * 2 + r.val, by have := r.isLt; omega⟩ : Fin 16384) (0 : Fin 1)) := by
  show outsR m hin 10 main_v52 (0 : Dev nD) (ValueIdx.ix3 r (0 : Fin 1) (0 : Fin 1)) = _
  refine (congrFun ((outsR_2 m hin 10 (0 : Dev nD)).trans (arrAt2_4 (V2in m) (hO2 m hin) (0 : Dev nD))) (ValueIdx.ix3 r (0 : Fin 1) (0 : Fin 1))).trans ?_
  exact tile2_value m (0 : Dev nD) (hO2 m hin) hin r

/-- Tile 3: what region 3 leaves at offset `r` of its result buffer is the specified result of sample `2048 · 3 + r`. -/
theorem tileOut_3 (m : (ℓ : Loc nD τ sig) → Buf (Elt Ideal) ℓ) (hin : HIN m) (r : Fin 2048) :
    tileOut (outsR m hin) (0 : Dev nD) ⟨3, by decide⟩ (ValueIdx.ix3 r (0 : Fin 1) (0 : Fin 1))
      = Spec.G (Spec.gidxOf (m (((0 : Dev nD) : Thread nD τ).loc main_arg0)) (m (((0 : Dev nD) : Thread nD τ).loc main_arg1)) (m (((0 : Dev nD) : Thread nD τ).loc main_arg2))) (m (((0 : Dev nD) : Thread nD τ).loc main_arg3)) (Spec.paSelOf (m (((0 : Dev nD) : Thread nD τ).loc main_arg1)) (m (((0 : Dev nD) : Thread nD τ).loc main_arg4))) (Spec.wSelOf (m (((0 : Dev nD) : Thread nD τ).loc main_arg1)) (m (((0 : Dev nD) : Thread nD τ).loc main_arg5))) (Spec.bSelOf (m (((0 : Dev nD) : Thread nD τ).loc main_arg1)) (m (((0 : Dev nD) : Thread nD τ).loc main_arg6))) (ValueIdx.ix2 (⟨2048 * 3 + r.val, by have := r.isLt; omega⟩ : Fin 16384) (0 : Fin 1)) := by
  show outsR m hin 12 main_v58 (0 : Dev nD) (ValueIdx.ix3 r (0 : Fin 1) (0 : Fin 1)) = _
  refine (congrFun ((outsR_3 m hin 12 (0 : Dev nD)).trans (arrAt3_4 (V3in m) (hO3 m hin) (0 : Dev nD))) (ValueIdx.ix3 r (0 : Fin 1) (0 : Fin 1))).trans ?_
  exact tile3_value m (0 : Dev nD) (hO3 m hin) hin r

/-- Tile 4: what region 4 leaves at offset `r` of its result buffer is the specified result of sample `2048 · 4 + r`. -/
theorem tileOut_4 (m : (ℓ : Loc nD τ sig) → Buf (Elt Ideal) ℓ) (hin : HIN m) (r : Fin 2048) :
    tileOut (outsR m hin) (0 : Dev nD) ⟨4, by decide⟩ (ValueIdx.ix3 r (0 : Fin 1) (0 : Fin 1))
      = Spec.G (Spec.gidxOf (m (((0 : Dev nD) : Thread nD τ).loc main_arg0)) (m (((0 : Dev nD) : Thread nD τ).loc main_arg1)) (m (((0 : Dev nD) : Thread nD τ).loc main_arg2))) (m (((0 : Dev nD) : Thread nD τ).loc main_arg3)) (Spec.paSelOf (m (((0 : Dev nD) : Thread nD τ).loc main_arg1)) (m (((0 : Dev nD) : Thread nD τ).loc main_arg4))) (Spec.wSelOf (m (((0 : Dev nD) : Thread nD τ).loc main_arg1)) (m (((0 : Dev nD) : Thread nD τ).loc main_arg5))) (Spec.bSelOf (m (((0 : Dev nD) : Thread nD τ).loc main_arg1)) (m (((0 : Dev nD) : Thread nD τ).loc main_arg6))) (ValueIdx.ix2 (⟨2048 * 4 + r.val, by have := r.isLt; omega⟩ : Fin 16384) (0 : Fin 1)) := by
  show outsR m hin 14 main_v64 (0 : Dev nD) (ValueIdx.ix3 r (0 : Fin 1) (0 : Fin 1)) = _
  refine (congrFun ((outsR_4 m hin 14 (0 : Dev nD)).trans (arrAt4_4 (V4in m) (hO4 m hin) (0 : Dev nD))) (ValueIdx.ix3 r (0 : Fin 1) (0 : Fin 1))).trans ?_
  exact tile4_value m (0 : Dev nD) (hO4 m hin) hin r

/-- Tile 5: what region 5 leaves at offset `r` of its result buffer is the specified result of sample `2048 · 5 + r`. -/
theorem tileOut_5 (m : (ℓ : Loc nD τ sig) → Buf (Elt Ideal) ℓ) (hin : HIN m) (r : Fin 2048) :
    tileOut (outsR m hin) (0 : Dev nD) ⟨5, by decide⟩ (ValueIdx.ix3 r (0 : Fin 1) (0 : Fin 1))
      = Spec.G (Spec.gidxOf (m (((0 : Dev nD) : Thread nD τ).loc main_arg0)) (m (((0 : Dev nD) : Thread nD τ).loc main_arg1)) (m (((0 : Dev nD) : Thread nD τ).loc main_arg2))) (m (((0 : Dev nD) : Thread nD τ).loc main_arg3)) (Spec.paSelOf (m (((0 : Dev nD) : Thread nD τ).loc main_arg1)) (m (((0 : Dev nD) : Thread nD τ).loc main_arg4))) (Spec.wSelOf (m (((0 : Dev nD) : Thread nD τ).loc main_arg1)) (m (((0 : Dev nD) : Thread nD τ).loc main_arg5))) (Spec.bSelOf (m (((0 : Dev nD) : Thread nD τ).loc main_arg1)) (m (((0 : Dev nD) : Thread nD τ).loc main_arg6))) (ValueIdx.ix2 (⟨2048 * 5 + r.val, by have := r.isLt; omega⟩ : Fin 16384) (0 : Fin 1)) := by
  show outsR m hin 16 main_v70 (0 : Dev nD) (ValueIdx.ix3 r (0 : Fin 1) (0 : Fin 1)) = _
  refine (congrFun ((outsR_5 m hin 16 (0 : Dev nD)).trans (arrAt5_4 (V5in m) (hO5 m hin) (0 : Dev nD))) (ValueIdx.ix3 r (0 : Fin 1) (0 : Fin 1))).trans ?_
  exact tile5_value m (0 : Dev nD) (hO5 m hin) hin r

/-- Tile 6: what region 6 leaves at offset `r` of its result buffer is the specified result of sample `2048 · 6 + r`. -/
theorem tileOut_6 (m : (ℓ : Loc nD τ sig) → Buf (Elt Ideal) ℓ) (hin : HIN m) (r : Fin 2048) :
    tileOut (outsR m hin) (0 : Dev nD) ⟨6, by decide⟩ (ValueIdx.ix3 r (0 : Fin 1) (0 : Fin 1))
      = Spec.G (Spec.gidxOf (m (((0 : Dev nD) : Thread nD τ).loc main_arg0)) (m (((0 : Dev nD) : Thread nD τ).loc main_arg1)) (m (((0 : Dev nD) : Thread nD τ).loc main_arg2))) (m (((0 : Dev nD) : Thread nD τ).loc main_arg3)) (Spec.paSelOf (m (((0 : Dev nD) : Thread nD τ).loc main_arg1)) (m (((0 : Dev nD) : Thread nD τ).loc main_arg4))) (Spec.wSelOf (m (((0 : Dev nD) : Thread nD τ).loc main_arg1)) (m (((0 : Dev nD) : Thread nD τ).loc main_arg5))) (Spec.bSelOf (m (((0 : Dev nD) : Thread nD τ).loc main_arg1)) (m (((0 : Dev nD) : Thread nD τ).loc main_arg6))) (ValueIdx.ix2 (⟨2048 * 6 + r.val, by have := r.isLt; omega⟩ : Fin 16384) (0 : Fin 1)) := by
  show outsR m hin 18 main_v76 (0 : Dev nD) (ValueIdx.ix3 r (0 : Fin 1) (0 : Fin 1)) = _
  refine (congrFun ((outsR_6 m hin 18 (0 : Dev nD)).trans (arrAt6_4 (V6in m) (hO6 m hin) (0 : Dev nD))) (ValueIdx.ix3 r (0 : Fin 1) (0 : Fin 1))).trans ?_
  exact tile6_value m (0 : Dev nD) (hO6 m hin) hin r

/-- Tile 7: what region 7 leaves at offset `r` of its result buffer is the specified result of sample `2048 · 7 + r`. -/
theorem tileOut_7 (m : (ℓ : Loc nD τ sig) → Buf (Elt Ideal) ℓ) (hin : HIN m) (r : Fin 2048) :
    tileOut (outsR m hin) (0 : Dev nD) ⟨7, by decide⟩ (ValueIdx.ix3 r (0 : Fin 1) (0 : Fin 1))
      = Spec.G (Spec.gidxOf (m (((0 : Dev nD) : Thread nD τ).loc main_arg0)) (m (((0 : Dev nD) : Thread nD τ).loc main_arg1)) (m (((0 : Dev nD) : Thread nD τ).loc main_arg2))) (m (((0 : Dev nD) : Thread nD τ).loc main_arg3)) (Spec.paSelOf (m (((0 : Dev nD) : Thread nD τ).loc main_arg1)) (m (((0 : Dev nD) : Thread nD τ).loc main_arg4))) (Spec.wSelOf (m (((0 : Dev nD) : Thread nD τ).loc main_arg1)) (m (((0 : Dev nD) : Thread nD τ).loc main_arg5))) (Spec.bSelOf (m (((0 : Dev nD) : Thread nD τ).loc main_arg1)) (m (((0 : Dev nD) : Thread nD τ).loc main_arg6))) (ValueIdx.ix2 (⟨2048 * 7 + r.val, by have := r.isLt; omega⟩ : Fin 16384) (0 : Fin 1)) := by
  show outsR m hin 20 main_v82 (0 : Dev nD) (ValueIdx.ix3 r (0 : Fin 1) (0 : Fin 1)) = _
  refine (congrFun ((outsR_7 m hin 20 (0 : Dev nD)).trans (arrAt7_4 (V7in m) (hO7 m hin) (0 : Dev nD))) (ValueIdx.ix3 r (0 : Fin 1) (0 : Fin 1))).trans ?_
  exact tile7_value m (0 : Dev nD) (hO7 m hin) hin r

/-- Every tile at once: region `k`'s result buffer at offset `r` holds the specified result of sample `2048 k + r`. -/
theorem tileOut_all (m : (ℓ : Loc nD τ sig) → Buf (Elt Ideal) ℓ) (hin : HIN m) (k : Fin 8) (r : Fin 2048) :
    tileOut (outsR m hin) (0 : Dev nD) k (ValueIdx.ix3 r (0 : Fin 1) (0 : Fin 1))
      = Spec.G (Spec.gidxOf (m (((0 : Dev nD) : Thread nD τ).loc main_arg0)) (m (((0 : Dev nD) : Thread nD τ).loc main_arg1)) (m (((0 : Dev nD) : Thread nD τ).loc main_arg2))) (m (((0 : Dev nD) : Thread nD τ).loc main_arg3)) (Spec.paSelOf (m (((0 : Dev nD) : Thread nD τ).loc main_arg1)) (m (((0 : Dev nD) : Thread nD τ).loc main_arg4))) (Spec.wSelOf (m (((0 : Dev nD) : Thread nD τ).loc main_arg1)) (m (((0 : Dev nD) : Thread nD τ).loc main_arg5))) (Spec.bSelOf (m (((0 : Dev nD) : Thread nD τ).loc main_arg1)) (m (((0 : Dev nD) : Thread nD τ).loc main_arg6))) (ValueIdx.ix2 (⟨2048 * k.val + r.val, by have := r.isLt; have := k.isLt; omega⟩ : Fin 16384) (0 : Fin 1)) := by
  match k with
  | ⟨0, _⟩ => exact tileOut_0 m hin r
  | ⟨1, _⟩ => exact tileOut_1 m hin r
  | ⟨2, _⟩ => exact tileOut_2 m hin r
  | ⟨3, _⟩ => exact tileOut_3 m hin r
  | ⟨4, _⟩ => exact tileOut_4 m hin r
  | ⟨5, _⟩ => exact tileOut_5 m hin r
  | ⟨6, _⟩ => exact tileOut_6 m hin r
  | ⟨7, _⟩ => exact tileOut_7 m hin r

/-- THE RESULT of the idealized kernel program: sample `b` lies in tile `b / 2048` at offset `b % 2048`; the closing
    host stretch reads that tile's result buffer there; the tile left the specified result of sample
    `2048 (b / 2048) + b % 2048 = b`. -/
theorem result_eq (m : (ℓ : Loc nD τ sig) → Buf (Elt Ideal) ℓ) (hin : HIN m) (c : Dev nD) :
    V21 m (outsR m hin) c main_v84 = Spec.G (Spec.gidxOf (m ((c : Thread nD τ).loc main_arg0)) (m ((c : Thread nD τ).loc main_arg1)) (m ((c : Thread nD τ).loc main_arg2))) (m ((c : Thread nD τ).loc main_arg3)) (Spec.paSelOf (m ((c : Thread nD τ).loc main_arg1)) (m ((c : Thread nD τ).loc main_arg4))) (Spec.wSelOf (m ((c : Thread nD τ).loc main_arg1)) (m ((c : Thread nD τ).loc main_arg5))) (Spec.bSelOf (m ((c : Thread nD τ).loc main_arg1)) (m ((c : Thread nD τ).loc main_arg6))) := by
  obtain rfl : c = 0 := Subsingleton.elim _ _
  funext i
  obtain ⟨b, z, rfl⟩ : ∃ (b : Fin 16384) (z : Fin 1), i = ValueIdx.ix2 b z := ⟨i 0, i 1, ValueIdx.eq_ix2 i⟩
  obtain rfl : z = 0 := Subsingleton.elim _ _
  have hb : b.val < 16384 := b.isLt
  refine (result_apply m (outsR m hin) (0 : Dev nD) b).trans ?_
  refine (tileOut_all m hin ⟨b.val / 2048, by omega⟩ ⟨b.val % 2048, Nat.mod_lt _ (by decide)⟩).trans ?_
  exact congrArg _ (ix2_congr (by show 2048 * (b.val / 2048) + b.val % 2048 = b.val; omega) rfl)

end Cert.KernelIdeal.Hand

end
-- ==== Proof.RefTerm.lean ====
/-
  The reference program's result as ONE term of its arguments' contents, after the integer chain it shares with the
  kernel: the operations of the program from the gather of the embedding rows on, composed in the order the program
  lists them, each with the program's own function term and side conditions.

  From the gathered row numbers `gidx`, the embedding table `emb`, the selected phase-bias rows `pa`, head weights `w`
  and head biases `bs`:  the row numbers are wrapped (a negative one has the table's height added), the rows are
  gathered under the mask "0 ≤ row ≤ 786431" (a masked-out row reads as NaN), the 32 rows of a sample are summed,
  `pa` is added, the sum is clipped to [0, 1], multiplied by `w`, summed over the 128 lanes, and `bs` is added.
-/
import proofs.«402893_j78554951844377_2_alg».proof.ReferenceIdeal
import proofs.«402893_j78554951844377_2_alg».proof.Proof.Gen.ReferenceIdeal

noncomputable section

namespace Cert.RefTerm

open Idealize.ShloMosaic
open Cert.ReferenceIdeal Cert.ReferenceIdeal.Facts₀

/-- The reference's result over the gathered row numbers and the three selections: the body of the row gather
    (`t_…` are its values, in its order), then the program's own operations from the sum over the 32 features on
    (`v…` carry the program's numbering; `k_…` are the clip's values). -/
noncomputable def refOut {F : FTy → Type} [FloatOps F] (gidx : IVec S16384x32 32) (emb : FVec F S786432x128 .f32)
    (pa w : FVec F S16384x128 .f32) (bs : FVec F S16384 .f32) : FVec F S16384x1 .f32 :=
  -- the row gather: wrap a negative row number, mask the rows out of range, gather, NaN where masked out
  let t_c : IVec S_ 32 := constantI S_ 32 0#32
  let t_v0 : IVec S16384x32 32 := broadcastInDim S16384x32 ![] bcast_S_S16384x32 t_c
  let t_v1 : IVec S16384x32 1 := cmpi .slt gidx t_v0
  let t_c_0 : IVec S_ 32 := constantI S_ 32 786432#32
  let t_v2 : IVec S16384x32 32 := broadcastInDim S16384x32 ![] bcast_S_S16384x32 t_c_0
  let t_v3 : IVec S16384x32 32 := addi gidx t_v2
  let t_v4 : IVec S16384x32 32 := select t_v1 t_v3 gidx
  let t_v5 : IVec S16384x32x1 32 := broadcastInDim S16384x32x1 ![0, 1] bcast_S16384x32_S16384x32x1_0_1 t_v4
  let t_c_1 : IVec S1 32 := constantI S1 32 786431#32
  let t_c_2 : IVec S_ 32 := constantI S_ 32 0#32
  let t_v6 : IVec S16384x32x1 32 := broadcastInDim S16384x32x1 ![] bcast_S_S16384x32x1 t_c_2
  let t_v7 : IVec S16384x32x1 1 := cmpi .sge t_v5 t_v6
  let t_v8 : IVec S1x1x1 32 := broadcastInDim S1x1x1 ![2] bcast_S1_S1x1x1_2 t_c_1
  let t_v9 : IVec S16384x32x1 32 := broadcastInDim S16384x32x1 ![0, 1, 2] bcast_S1x1x1_S16384x32x1_0_1_2 t_v8
  let t_v10 : IVec S16384x32x1 1 := cmpi .sle t_v5 t_v9
  let t_v11 : IVec S16384x32x1 1 := andi t_v7 t_v10
  let t_c_3 : IVec S_ 1 := constantI S_ 1 1#1
  let t_v12 : IVec S16384x32 1 := (fun x v => Host.reduce IntOp.andi x v reducesTo_S16384x32x1_S16384x32_d2 h_S_) t_v11 t_c_3
  let t_v13 : FVec F S16384x32x128 .f32 :=
    (fun x i => Host.gather gather_S786432x128_S16384x32x1_S16384x32x128_2_0_n_n_0_2_1128 x i) emb t_v5
  let t_v14 : IVec S16384x32x128 1 := broadcastInDim S16384x32x128 ![0, 1] bcast_S16384x32_S16384x32x128_0_1 t_v12
  let t_cst : FVec F S_ .f32 := constant S_ .f32 0x7FC00000#32
  let t_v15 : FVec F S16384x32x128 .f32 := broadcastInDim S16384x32x128 ![] bcast_S_S16384x32x128 t_cst
  let v9 : FVec F S16384x32x128 .f32 := select t_v14 t_v13 t_v15
  -- the sum over the 32 features, from zero
  let cst : FVec F S_ .f32 := constant S_ .f32 0x00000000#32
  let v10 : FVec F S16384x128 .f32 := (fun x v => Host.reduceAdd x v reducesTo_S16384x32x128_S16384x128_d1 h_S_) v9 cst
  -- the phase bias added
  let v18 : FVec F S16384x128 .f32 := addf v10 pa
  -- the clip to [0, 1]: the maximum with 0, then the minimum with 1
  let cst_3 : FVec F S_ .f32 := constant S_ .f32 0x00000000#32
  let cst_4 : FVec F S_ .f32 := constant S_ .f32 0x3F800000#32
  let k_v0 : FVec F S_ .f32 := id cst_3
  let k_v1 : FVec F S16384x128 .f32 := broadcastInDim S16384x128 ![] bcast_S_S16384x128 k_v0
  let k_v2 : FVec F S16384x128 .f32 := maximumf k_v1 v18
  let k_v3 : FVec F S_ .f32 := id cst_4
  let k_v4 : FVec F S16384x128 .f32 := broadcastInDim S16384x128 ![] bcast_S_S16384x128 k_v3
  let v19 : FVec F S16384x128 .f32 := minimumf k_v4 k_v2
  -- the head weights, the sum over the 128 lanes from zero, as a column
  let v28 : FVec F S16384x128 .f32 := mulf v19 w
  let cst_8 : FVec F S_ .f32 := constant S_ .f32 0x00000000#32
  let v29 : FVec F S16384 .f32 := (fun x v => Host.reduceAdd x v reducesTo_S16384x128_S16384_d1 h_S_) v28 cst_8
  let v30 : FVec F S16384x1 .f32 := broadcastInDim S16384x1 ![0] bcast_S16384_S16384x1_0 v29
  -- the head bias as a column, added
  let v38 : FVec F S16384x1 .f32 := broadcastInDim S16384x1 ![0] bcast_S16384_S16384x1_0 bs
  addf v30 v38

end Cert.RefTerm

end
-- ==== Proof.RefRun.lean ====
/-
  The reference program's run, read back: @main is a straight line of 112 host operations once its outlined
  functions (the floor division, the two selections, the row gather, the clip) are unfolded at their calls, each
  over the buffers of its own call; every weakly fair execution of such a line terminates with each buffer at the
  fold of the operations over the launch contents.  At the result buffer that fold is the composed term of
  RefTerm.lean over the integer chain of Spec.lean (the row numbers, the phase-bias rows, the head weights and the
  head biases, each spelled there by the program's own operations); at the argument buffers it is what was there.
-/
import proofs.«402893_j78554951844377_2_alg».proof.ReferenceIdeal
import proofs.«402893_j78554951844377_2_alg».proof.Proof.Gen.ReferenceIdeal
import proofs.«402893_j78554951844377_2_alg».proof.Proof.Spec
import proofs.«402893_j78554951844377_2_alg».proof.Proof.RefTerm
import Idealize.ShloMosaic.Lib.StableHlo.Run

set_option Elab.async false

noncomputable section

namespace Cert.ReferenceIdeal.HandRun

open Cert.ReferenceIdeal Cert.ReferenceIdeal.Facts₀ Idealize.ShloMosaic Idealize.ShloMosaic.TcCoe Idealize.SL.Sem
open Idealize.ShloMosaic.StableHlo

variable {F : FTy → Type} [FloatOps F]

/-- @main's 112 operations in order, each outlined function's operations in the place of its call, over that
    call's buffers: the feature words' sum (3), the divisor 10, the floor division (16 and the selection), the row
    numbers (6), the row gather (23, the selection among them), the sum over the features and the phase-bias
    selection (12), the clip's bounds (2) and the clip (6), the divisor 1, the floor division again (17), the
    head-weight selection, product and lane sum (13), the head-bias selection and the final sum (11). -/
abbrev ops : List (HloOp τ sig (Elt F)) :=
  [
    StableHlo.unary main_arg2 main_v0 (broadcastInDim S1x32 ![1] bcast_S32_S1x32_1 : (⟨S32, .i32⟩ : BufTy).Contents (Elt F) → (⟨S1x32, .i32⟩ : BufTy).Contents (Elt F)),
    StableHlo.unary main_v0 main_v1 (broadcastInDim S16384x32 ![0, 1] bcast_S1x32_S16384x32_0_1 : (⟨S1x32, .i32⟩ : BufTy).Contents (Elt F) → (⟨S16384x32, .i32⟩ : BufTy).Contents (Elt F)),
    StableHlo.binary main_arg0 main_v1 main_v2 (addi : (⟨S16384x32, .i32⟩ : BufTy).Contents (Elt F) → (⟨S16384x32, .i32⟩ : BufTy).Contents (Elt F) → (⟨S16384x32, .i32⟩ : BufTy).Contents (Elt F)),
    StableHlo.nullary main_c (constantI S_ 32 10#32),
    StableHlo.TRef.unary (.of main_c : StableHlo.TRef sig ⟨S_, .i32⟩) main_call0.v0 id,
    StableHlo.TRef.unary main_call0.v0 main_call0.v1 (broadcastInDim S16384 ![] bcast_S_S16384),
    StableHlo.TRef.binary (.of main_arg1 : StableHlo.TRef sig ⟨S16384, .i32⟩) main_call0.v1 main_call0.v2 Host.divsi,
    StableHlo.TRef.unary (.of main_arg1 : StableHlo.TRef sig ⟨S16384, .i32⟩) main_call0.v3 signi,
    StableHlo.TRef.unary main_call0.v0 main_call0.v4 signi,
    StableHlo.TRef.unary main_call0.v4 main_call0.v5 (broadcastInDim S16384 ![] bcast_S_S16384),
    StableHlo.TRef.binary main_call0.v3 main_call0.v5 main_call0.v6 (cmpi .ne),
    StableHlo.TRef.unary main_call0.v0 main_call0.v7 (broadcastInDim S16384 ![] bcast_S_S16384),
    StableHlo.TRef.binary (.of main_arg1 : StableHlo.TRef sig ⟨S16384, .i32⟩) main_call0.v7 main_call0.v8 Host.remsi,
    StableHlo.TRef.nullary main_call0.c (constantI S_ 32 0#32),
    StableHlo.TRef.unary main_call0.c main_call0.v9 (broadcastInDim S16384 ![] bcast_S_S16384),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S16384 ![] bcast_S_S16384),
    StableHlo.TRef.binary main_call0.v2 main_call0.v12 main_call0.v13 subi,
    StableHlo.TRef.ternary main_call0.v11 main_call0.v13 main_call0.v2 main_call0.call0.v0 select,
    StableHlo.unary main_v3 main_v4 (broadcastInDim S16384x1 ![0] bcast_S16384_S16384x1_0 : (⟨S16384, .i32⟩ : BufTy).Contents (Elt F) → (⟨S16384x1, .i32⟩ : BufTy).Contents (Elt F)),
    StableHlo.nullary main_c_0 (constantI S_ 32 262144#32),
    StableHlo.unary main_c_0 main_v5 (broadcastInDim S16384x1 ![] bcast_S_S16384x1 : (⟨S_, .i32⟩ : BufTy).Contents (Elt F) → (⟨S16384x1, .i32⟩ : BufTy).Contents (Elt F)),
    StableHlo.binary main_v4 main_v5 main_v6 (muli : (⟨S16384x1, .i32⟩ : BufTy).Contents (Elt F) → (⟨S16384x1, .i32⟩ : BufTy).Contents (Elt F) → (⟨S16384x1, .i32⟩ : BufTy).Contents (Elt F)),
    StableHlo.unary main_v6 main_v7 (broadcastInDim S16384x32 ![0, 1] bcast_S16384x1_S16384x32_0_1 : (⟨S16384x1, .i32⟩ : BufTy).Contents (Elt F) → (⟨S16384x32, .i32⟩ : BufTy).Contents (Elt F)),
    StableHlo.binary main_v7 main_v2 main_v8 (addi : (⟨S16384x32, .i32⟩ : BufTy).Contents (Elt F) → (⟨S16384x32, .i32⟩ : BufTy).Contents (Elt F) → (⟨S16384x32, .i32⟩ : BufTy).Contents (Elt F)),
    StableHlo.TRef.nullary main_call1.c (constantI S_ 32 0#32),
    StableHlo.TRef.unary main_call1.c main_call1.v0 (broadcastInDim S16384x32 ![] bcast_S_S16384x32),
    StableHlo.TRef.binary (.of main_v8 : StableHlo.TRef sig ⟨S16384x32, .i32⟩) main_call1.v0 main_call1.v1 (cmpi .slt),
    StableHlo.TRef.nullary main_call1.c_0 (constantI S_ 32 786432#32),
    StableHlo.TRef.unary main_call1.c_0 main_call1.v2 (broadcastInDim S16384x32 ![] bcast_S_S16384x32),
    StableHlo.TRef.binary (.of main_v8 : StableHlo.TRef sig ⟨S16384x32, .i32⟩) main_call1.v2 main_call1.v3 addi,
    StableHlo.TRef.ternary main_call1.v1 main_call1.v3 (.of main_v8 : StableHlo.TRef sig ⟨S16384x32, .i32⟩) main_call1.call0.v0 select,
    StableHlo.TRef.unary main_call1.call0.v0 main_call1.v5 (broadcastInDim S16384x32x1 ![0, 1] bcast_S16384x32_S16384x32x1_0_1),
    StableHlo.TRef.nullary main_call1.c_1 (constantI S1 32 786431#32),
    StableHlo.TRef.nullary main_call1.c_2 (constantI S_ 32 0#32),
    StableHlo.TRef.unary main_call1.c_2 main_call1.v6 (broadcastInDim S16384x32x1 ![] bcast_S_S16384x32x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S16384x32x1 ![0, 1, 2] bcast_S1x1x1_S16384x32x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x32x1_S16384x32_d2 h_S_),
    StableHlo.TRef.binary (.of main_arg3 : StableHlo.TRef sig ⟨S786432x128, .f32⟩) main_call1.v5 main_call1.v13 (fun x i => Host.gather gather_S786432x128_S16384x32x1_S16384x32x128_2_0_n_n_0_2_1128 x i),
    StableHlo.TRef.unary main_call1.v12 main_call1.v14 (broadcastInDim S16384x32x128 ![0, 1] bcast_S16384x32_S16384x32x128_0_1),
    StableHlo.TRef.nullary main_call1.cst (constant S_ .f32 0x7FC00000#32),
    StableHlo.TRef.unary main_call1.cst main_call1.v15 (broadcastInDim S16384x32x128 ![] bcast_S_S16384x32x128),
    StableHlo.TRef.ternary main_call1.v14 main_call1.v13 main_call1.v15 main_call1.v16 select,
    StableHlo.nullary main_cst (constant S_ .f32 0x00000000#32),
    StableHlo.binary main_v9 main_cst main_v10 ((fun x v => Host.reduceAdd x v reducesTo_S16384x32x128_S16384x128_d1 h_S_) : (⟨S16384x32x128, .f32⟩ : BufTy).Contents (Elt F) → (⟨S_, .f32⟩ : BufTy).Contents (Elt F) → (⟨S16384x128, .f32⟩ : BufTy).Contents (Elt F)),
    StableHlo.nullary main_c_1 (constantI S_ 32 0#32),
    StableHlo.unary main_c_1 main_v11 (broadcastInDim S16384 ![] bcast_S_S16384 : (⟨S_, .i32⟩ : BufTy).Contents (Elt F) → (⟨S16384, .i32⟩ : BufTy).Contents (Elt F)),
    StableHlo.binary main_v3 main_v11 main_v12 (cmpi .slt : (⟨S16384, .i32⟩ : BufTy).Contents (Elt F) → (⟨S16384, .i32⟩ : BufTy).Contents (Elt F) → (⟨S16384, .i1⟩ : BufTy).Contents (Elt F)),
    StableHlo.nullary main_c_2 (constantI S_ 32 3#32),
    StableHlo.unary main_c_2 main_v13 (broadcastInDim S16384 ![] bcast_S_S16384 : (⟨S_, .i32⟩ : BufTy).Contents (Elt F) → (⟨S16384, .i32⟩ : BufTy).Contents (Elt F)),
    StableHlo.binary main_v3 main_v13 main_v14 (addi : (⟨S16384, .i32⟩ : BufTy).Contents (Elt F) → (⟨S16384, .i32⟩ : BufTy).Contents (Elt F) → (⟨S16384, .i32⟩ : BufTy).Contents (Elt F)),
    StableHlo.ternary main_v12 main_v14 main_v3 main_v15 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v15 main_v16 (broadcastInDim S16384x1 ![0] bcast_S16384_S16384x1_0 : (⟨S16384, .i32⟩ : BufTy).Contents (Elt F) → (⟨S16384x1, .i32⟩ : BufTy).Contents (Elt F)),
    StableHlo.binary main_arg4 main_v16 main_v17 ((fun x i => Host.gather gather_S3x128_S16384x1_S16384x128_1_0_n_n_0_1_1128 x i) : (⟨S3x128, .f32⟩ : BufTy).Contents (Elt F) → (⟨S16384x1, .i32⟩ : BufTy).Contents (Elt F) → (⟨S16384x128, .f32⟩ : BufTy).Contents (Elt F)),
    StableHlo.binary main_v10 main_v17 main_v18 (addf : (⟨S16384x128, .f32⟩ : BufTy).Contents (Elt F) → (⟨S16384x128, .f32⟩ : BufTy).Contents (Elt F) → (⟨S16384x128, .f32⟩ : BufTy).Contents (Elt F)),
    StableHlo.nullary main_cst_3 (constant S_ .f32 0x00000000#32),
    StableHlo.nullary main_cst_4 (constant S_ .f32 0x3F800000#32),
    StableHlo.TRef.unary (.of main_cst_3 : StableHlo.TRef sig ⟨S_, .f32⟩) main_call2.v0 id,
    StableHlo.TRef.unary main_call2.v0 main_call2.v1 (broadcastInDim S16384x128 ![] bcast_S_S16384x128),
    StableHlo.TRef.binary main_call2.v1 (.of main_v18 : StableHlo.TRef sig ⟨S16384x128, .f32⟩) main_call2.v2 maximumf,
    StableHlo.TRef.unary (.of main_cst_4 : StableHlo.TRef sig ⟨S_, .f32⟩) main_call2.v3 id,
    StableHlo.TRef.unary main_call2.v3 main_call2.v4 (broadcastInDim S16384x128 ![] bcast_S_S16384x128),
    StableHlo.TRef.binary main_call2.v4 main_call2.v2 main_call2.v5 minimumf,
    StableHlo.nullary main_c_5 (constantI S_ 32 1#32),
    StableHlo.TRef.unary (.of main_c_5 : StableHlo.TRef sig ⟨S_, .i32⟩) main_call3.v0 id,
    StableHlo.TRef.unary main_call3.v0 main_call3.v1 (broadcastInDim S16384 ![] bcast_S_S16384),
    StableHlo.TRef.binary (.of main_arg1 : StableHlo.TRef sig ⟨S16384, .i32⟩) main_call3.v1 main_call3.v2 Host.divsi,
    StableHlo.TRef.unary (.of main_arg1 : StableHlo.TRef sig ⟨S16384, .i32⟩) main_call3.v3 signi,
    StableHlo.TRef.unary main_call3.v0 main_call3.v4 signi,
    StableHlo.TRef.unary main_call3.v4 main_call3.v5 (broadcastInDim S16384 ![] bcast_S_S16384),
    StableHlo.TRef.binary main_call3.v3 main_call3.v5 main_call3.v6 (cmpi .ne),
    StableHlo.TRef.unary main_call3.v0 main_call3.v7 (broadcastInDim S16384 ![] bcast_S_S16384),
    StableHlo.TRef.binary (.of main_arg1 : StableHlo.TRef sig ⟨S16384, .i32⟩) main_call3.v7 main_call3.v8 Host.remsi,
    StableHlo.TRef.nullary main_call3.c (constantI S_ 32 0#32),
    StableHlo.TRef.unary main_call3.c main_call3.v9 (broadcastInDim S16384 ![] bcast_S_S16384),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S16384 ![] bcast_S_S16384),
    StableHlo.TRef.binary main_call3.v2 main_call3.v12 main_call3.v13 subi,
    StableHlo.TRef.ternary main_call3.v11 main_call3.v13 main_call3.v2 main_call3.call0.v0 select,
    StableHlo.nullary main_c_6 (constantI S_ 32 0#32),
    StableHlo.unary main_c_6 main_v21 (broadcastInDim S16384 ![] bcast_S_S16384 : (⟨S_, .i32⟩ : BufTy).Contents (Elt F) → (⟨S16384, .i32⟩ : BufTy).Contents (Elt F)),
    StableHlo.binary main_v20 main_v21 main_v22 (cmpi .slt : (⟨S16384, .i32⟩ : BufTy).Contents (Elt F) → (⟨S16384, .i32⟩ : BufTy).Contents (Elt F) → (⟨S16384, .i1⟩ : BufTy).Contents (Elt F)),
    StableHlo.nullary main_c_7 (constantI S_ 32 30#32),
    StableHlo.unary main_c_7 main_v23 (broadcastInDim S16384 ![] bcast_S_S16384 : (⟨S_, .i32⟩ : BufTy).Contents (Elt F) → (⟨S16384, .i32⟩ : BufTy).Contents (Elt F)),
    StableHlo.binary main_v20 main_v23 main_v24 (addi : (⟨S16384, .i32⟩ : BufTy).Contents (Elt F) → (⟨S16384, .i32⟩ : BufTy).Contents (Elt F) → (⟨S16384, .i32⟩ : BufTy).Contents (Elt F)),
    StableHlo.ternary main_v22 main_v24 main_v20 main_v25 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v25 main_v26 (broadcastInDim S16384x1 ![0] bcast_S16384_S16384x1_0 : (⟨S16384, .i32⟩ : BufTy).Contents (Elt F) → (⟨S16384x1, .i32⟩ : BufTy).Contents (Elt F)),
    StableHlo.binary main_arg5 main_v26 main_v27 ((fun x i => Host.gather gather_S30x128_S16384x1_S16384x128_1_0_n_n_0_1_1128 x i) : (⟨S30x128, .f32⟩ : BufTy).Contents (Elt F) → (⟨S16384x1, .i32⟩ : BufTy).Contents (Elt F) → (⟨S16384x128, .f32⟩ : BufTy).Contents (Elt F)),
    StableHlo.binary main_v19 main_v27 main_v28 (mulf : (⟨S16384x128, .f32⟩ : BufTy).Contents (Elt F) → (⟨S16384x128, .f32⟩ : BufTy).Contents (Elt F) → (⟨S16384x128, .f32⟩ : BufTy).Contents (Elt F)),
    StableHlo.nullary main_cst_8 (constant S_ .f32 0x00000000#32),
    StableHlo.binary main_v28 main_cst_8 main_v29 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v29 main_v30 (broadcastInDim S16384x1 ![0] bcast_S16384_S16384x1_0 : (⟨S16384, .f32⟩ : BufTy).Contents (Elt F) → (⟨S16384x1, .f32⟩ : BufTy).Contents (Elt F)),
    StableHlo.nullary main_c_9 (constantI S_ 32 0#32),
    StableHlo.unary main_c_9 main_v31 (broadcastInDim S16384 ![] bcast_S_S16384 : (⟨S_, .i32⟩ : BufTy).Contents (Elt F) → (⟨S16384, .i32⟩ : BufTy).Contents (Elt F)),
    StableHlo.binary main_v20 main_v31 main_v32 (cmpi .slt : (⟨S16384, .i32⟩ : BufTy).Contents (Elt F) → (⟨S16384, .i32⟩ : BufTy).Contents (Elt F) → (⟨S16384, .i1⟩ : BufTy).Contents (Elt F)),
    StableHlo.nullary main_c_10 (constantI S_ 32 30#32),
    StableHlo.unary main_c_10 main_v33 (broadcastInDim S16384 ![] bcast_S_S16384 : (⟨S_, .i32⟩ : BufTy).Contents (Elt F) → (⟨S16384, .i32⟩ : BufTy).Contents (Elt F)),
    StableHlo.binary main_v20 main_v33 main_v34 (addi : (⟨S16384, .i32⟩ : BufTy).Contents (Elt F) → (⟨S16384, .i32⟩ : BufTy).Contents (Elt F) → (⟨S16384, .i32⟩ : BufTy).Contents (Elt F)),
    StableHlo.ternary main_v32 main_v34 main_v20 main_v35 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v35 main_v36 (broadcastInDim S16384x1 ![0] bcast_S16384_S16384x1_0 : (⟨S16384, .i32⟩ : BufTy).Contents (Elt F) → (⟨S16384x1, .i32⟩ : BufTy).Contents (Elt F)),
    StableHlo.binary main_arg6 main_v36 main_v37 ((fun x i => Host.gather gather_S30_S16384x1_S16384_n_0_n_n_0_1_1 x i) : (⟨S30, .f32⟩ : BufTy).Contents (Elt F) → (⟨S16384x1, .i32⟩ : BufTy).Contents (Elt F) → (⟨S16384, .f32⟩ : BufTy).Contents (Elt F)),
    StableHlo.unary main_v37 main_v38 (broadcastInDim S16384x1 ![0] bcast_S16384_S16384x1_0 : (⟨S16384, .f32⟩ : BufTy).Contents (Elt F) → (⟨S16384x1, .f32⟩ : BufTy).Contents (Elt F)),
    StableHlo.binary main_v30 main_v38 main_v39 (addf : (⟨S16384x1, .f32⟩ : BufTy).Contents (Elt F) → (⟨S16384x1, .f32⟩ : BufTy).Contents (Elt F) → (⟨S16384x1, .f32⟩ : BufTy).Contents (Elt F)) ]

set_option maxRecDepth 8192 in
/-- @main is that straight line: a call is its function's body over the call's buffers, a record's field is the
    buffer it names, and sequencing grafts what follows onto each step, all by computation. -/
theorem main_eq (c : Dev nD) : main (F := F) c = seq ops := by
  rfl

/-- No TensorCore buffer and no semaphore of this signature is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    unary_bufs_sub .., unary_bufs_sub .., binary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., nullary_bufs_sub .., unary_bufs_sub .., unary_bufs_sub ..,
    binary_bufs_sub .., unary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub ..⟩

/-- The feature words' sum, the divisor 10, the floor division and the row numbers: operations 1 to 27. -/
abbrev seg1 : List (HloOp τ sig (Elt F)) :=
  [
    StableHlo.unary main_arg2 main_v0 (broadcastInDim S1x32 ![1] bcast_S32_S1x32_1 : (⟨S32, .i32⟩ : BufTy).Contents (Elt F) → (⟨S1x32, .i32⟩ : BufTy).Contents (Elt F)),
    StableHlo.unary main_v0 main_v1 (broadcastInDim S16384x32 ![0, 1] bcast_S1x32_S16384x32_0_1 : (⟨S1x32, .i32⟩ : BufTy).Contents (Elt F) → (⟨S16384x32, .i32⟩ : BufTy).Contents (Elt F)),
    StableHlo.binary main_arg0 main_v1 main_v2 (addi : (⟨S16384x32, .i32⟩ : BufTy).Contents (Elt F) → (⟨S16384x32, .i32⟩ : BufTy).Contents (Elt F) → (⟨S16384x32, .i32⟩ : BufTy).Contents (Elt F)),
    StableHlo.nullary main_c (constantI S_ 32 10#32),
    StableHlo.TRef.unary (.of main_c : StableHlo.TRef sig ⟨S_, .i32⟩) main_call0.v0 id,
    StableHlo.TRef.unary main_call0.v0 main_call0.v1 (broadcastInDim S16384 ![] bcast_S_S16384),
    StableHlo.TRef.binary (.of main_arg1 : StableHlo.TRef sig ⟨S16384, .i32⟩) main_call0.v1 main_call0.v2 Host.divsi,
    StableHlo.TRef.unary (.of main_arg1 : StableHlo.TRef sig ⟨S16384, .i32⟩) main_call0.v3 signi,
    StableHlo.TRef.unary main_call0.v0 main_call0.v4 signi,
    StableHlo.TRef.unary main_call0.v4 main_call0.v5 (broadcastInDim S16384 ![] bcast_S_S16384),
    StableHlo.TRef.binary main_call0.v3 main_call0.v5 main_call0.v6 (cmpi .ne),
    StableHlo.TRef.unary main_call0.v0 main_call0.v7 (broadcastInDim S16384 ![] bcast_S_S16384),
    StableHlo.TRef.binary (.of main_arg1 : StableHlo.TRef sig ⟨S16384, .i32⟩) main_call0.v7 main_call0.v8 Host.remsi,
    StableHlo.TRef.nullary main_call0.c (constantI S_ 32 0#32),
    StableHlo.TRef.unary main_call0.c main_call0.v9 (broadcastInDim S16384 ![] bcast_S_S16384),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S16384 ![] bcast_S_S16384),
    StableHlo.TRef.binary main_call0.v2 main_call0.v12 main_call0.v13 subi,
    StableHlo.TRef.ternary main_call0.v11 main_call0.v13 main_call0.v2 main_call0.call0.v0 select,
    StableHlo.unary main_v3 main_v4 (broadcastInDim S16384x1 ![0] bcast_S16384_S16384x1_0 : (⟨S16384, .i32⟩ : BufTy).Contents (Elt F) → (⟨S16384x1, .i32⟩ : BufTy).Contents (Elt F)),
    StableHlo.nullary main_c_0 (constantI S_ 32 262144#32),
    StableHlo.unary main_c_0 main_v5 (broadcastInDim S16384x1 ![] bcast_S_S16384x1 : (⟨S_, .i32⟩ : BufTy).Contents (Elt F) → (⟨S16384x1, .i32⟩ : BufTy).Contents (Elt F)),
    StableHlo.binary main_v4 main_v5 main_v6 (muli : (⟨S16384x1, .i32⟩ : BufTy).Contents (Elt F) → (⟨S16384x1, .i32⟩ : BufTy).Contents (Elt F) → (⟨S16384x1, .i32⟩ : BufTy).Contents (Elt F)),
    StableHlo.unary main_v6 main_v7 (broadcastInDim S16384x32 ![0, 1] bcast_S16384x1_S16384x32_0_1 : (⟨S16384x1, .i32⟩ : BufTy).Contents (Elt F) → (⟨S16384x32, .i32⟩ : BufTy).Contents (Elt F)),
    StableHlo.binary main_v7 main_v2 main_v8 (addi : (⟨S16384x32, .i32⟩ : BufTy).Contents (Elt F) → (⟨S16384x32, .i32⟩ : BufTy).Contents (Elt F) → (⟨S16384x32, .i32⟩ : BufTy).Contents (Elt F)) ]

/-- The row gather (the wrap of a negative row number, the range mask, the gather, NaN where masked out): operations 28 to 50. -/
abbrev seg2 : List (HloOp τ sig (Elt F)) :=
  [
    StableHlo.TRef.nullary main_call1.c (constantI S_ 32 0#32),
    StableHlo.TRef.unary main_call1.c main_call1.v0 (broadcastInDim S16384x32 ![] bcast_S_S16384x32),
    StableHlo.TRef.binary (.of main_v8 : StableHlo.TRef sig ⟨S16384x32, .i32⟩) main_call1.v0 main_call1.v1 (cmpi .slt),
    StableHlo.TRef.nullary main_call1.c_0 (constantI S_ 32 786432#32),
    StableHlo.TRef.unary main_call1.c_0 main_call1.v2 (broadcastInDim S16384x32 ![] bcast_S_S16384x32),
    StableHlo.TRef.binary (.of main_v8 : StableHlo.TRef sig ⟨S16384x32, .i32⟩) main_call1.v2 main_call1.v3 addi,
    StableHlo.TRef.ternary main_call1.v1 main_call1.v3 (.of main_v8 : StableHlo.TRef sig ⟨S16384x32, .i32⟩) main_call1.call0.v0 select,
    StableHlo.TRef.unary main_call1.call0.v0 main_call1.v5 (broadcastInDim S16384x32x1 ![0, 1] bcast_S16384x32_S16384x32x1_0_1),
    StableHlo.TRef.nullary main_call1.c_1 (constantI S1 32 786431#32),
    StableHlo.TRef.nullary main_call1.c_2 (constantI S_ 32 0#32),
    StableHlo.TRef.unary main_call1.c_2 main_call1.v6 (broadcastInDim S16384x32x1 ![] bcast_S_S16384x32x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S16384x32x1 ![0, 1, 2] bcast_S1x1x1_S16384x32x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x32x1_S16384x32_d2 h_S_),
    StableHlo.TRef.binary (.of main_arg3 : StableHlo.TRef sig ⟨S786432x128, .f32⟩) main_call1.v5 main_call1.v13 (fun x i => Host.gather gather_S786432x128_S16384x32x1_S16384x32x128_2_0_n_n_0_2_1128 x i),
    StableHlo.TRef.unary main_call1.v12 main_call1.v14 (broadcastInDim S16384x32x128 ![0, 1] bcast_S16384x32_S16384x32x128_0_1),
    StableHlo.TRef.nullary main_call1.cst (constant S_ .f32 0x7FC00000#32),
    StableHlo.TRef.unary main_call1.cst main_call1.v15 (broadcastInDim S16384x32x128 ![] bcast_S_S16384x32x128),
    StableHlo.TRef.ternary main_call1.v14 main_call1.v13 main_call1.v15 main_call1.v16 select ]

/-- The sum over the 32 features, the phase-bias selection and sum, the clip's bounds and the clip: operations 51 to 70. -/
abbrev seg3 : List (HloOp τ sig (Elt F)) :=
  [
    StableHlo.nullary main_cst (constant S_ .f32 0x00000000#32),
    StableHlo.binary main_v9 main_cst main_v10 ((fun x v => Host.reduceAdd x v reducesTo_S16384x32x128_S16384x128_d1 h_S_) : (⟨S16384x32x128, .f32⟩ : BufTy).Contents (Elt F) → (⟨S_, .f32⟩ : BufTy).Contents (Elt F) → (⟨S16384x128, .f32⟩ : BufTy).Contents (Elt F)),
    StableHlo.nullary main_c_1 (constantI S_ 32 0#32),
    StableHlo.unary main_c_1 main_v11 (broadcastInDim S16384 ![] bcast_S_S16384 : (⟨S_, .i32⟩ : BufTy).Contents (Elt F) → (⟨S16384, .i32⟩ : BufTy).Contents (Elt F)),
    StableHlo.binary main_v3 main_v11 main_v12 (cmpi .slt : (⟨S16384, .i32⟩ : BufTy).Contents (Elt F) → (⟨S16384, .i32⟩ : BufTy).Contents (Elt F) → (⟨S16384, .i1⟩ : BufTy).Contents (Elt F)),
    StableHlo.nullary main_c_2 (constantI S_ 32 3#32),
    StableHlo.unary main_c_2 main_v13 (broadcastInDim S16384 ![] bcast_S_S16384 : (⟨S_, .i32⟩ : BufTy).Contents (Elt F) → (⟨S16384, .i32⟩ : BufTy).Contents (Elt F)),
    StableHlo.binary main_v3 main_v13 main_v14 (addi : (⟨S16384, .i32⟩ : BufTy).Contents (Elt F) → (⟨S16384, .i32⟩ : BufTy).Contents (Elt F) → (⟨S16384, .i32⟩ : BufTy).Contents (Elt F)),
    StableHlo.ternary main_v12 main_v14 main_v3 main_v15 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v15 main_v16 (broadcastInDim S16384x1 ![0] bcast_S16384_S16384x1_0 : (⟨S16384, .i32⟩ : BufTy).Contents (Elt F) → (⟨S16384x1, .i32⟩ : BufTy).Contents (Elt F)),
    StableHlo.binary main_arg4 main_v16 main_v17 ((fun x i => Host.gather gather_S3x128_S16384x1_S16384x128_1_0_n_n_0_1_1128 x i) : (⟨S3x128, .f32⟩ : BufTy).Contents (Elt F) → (⟨S16384x1, .i32⟩ : BufTy).Contents (Elt F) → (⟨S16384x128, .f32⟩ : BufTy).Contents (Elt F)),
    StableHlo.binary main_v10 main_v17 main_v18 (addf : (⟨S16384x128, .f32⟩ : BufTy).Contents (Elt F) → (⟨S16384x128, .f32⟩ : BufTy).Contents (Elt F) → (⟨S16384x128, .f32⟩ : BufTy).Contents (Elt F)),
    StableHlo.nullary main_cst_3 (constant S_ .f32 0x00000000#32),
    StableHlo.nullary main_cst_4 (constant S_ .f32 0x3F800000#32),
    StableHlo.TRef.unary (.of main_cst_3 : StableHlo.TRef sig ⟨S_, .f32⟩) main_call2.v0 id,
    StableHlo.TRef.unary main_call2.v0 main_call2.v1 (broadcastInDim S16384x128 ![] bcast_S_S16384x128),
    StableHlo.TRef.binary main_call2.v1 (.of main_v18 : StableHlo.TRef sig ⟨S16384x128, .f32⟩) main_call2.v2 maximumf,
    StableHlo.TRef.unary (.of main_cst_4 : StableHlo.TRef sig ⟨S_, .f32⟩) main_call2.v3 id,
    StableHlo.TRef.unary main_call2.v3 main_call2.v4 (broadcastInDim S16384x128 ![] bcast_S_S16384x128),
    StableHlo.TRef.binary main_call2.v4 main_call2.v2 main_call2.v5 minimumf ]

/-- The divisor 1 and the floor division by it: operations 71 to 88. -/
abbrev seg4 : List (HloOp τ sig (Elt F)) :=
  [
    StableHlo.nullary main_c_5 (constantI S_ 32 1#32),
    StableHlo.TRef.unary (.of main_c_5 : StableHlo.TRef sig ⟨S_, .i32⟩) main_call3.v0 id,
    StableHlo.TRef.unary main_call3.v0 main_call3.v1 (broadcastInDim S16384 ![] bcast_S_S16384),
    StableHlo.TRef.binary (.of main_arg1 : StableHlo.TRef sig ⟨S16384, .i32⟩) main_call3.v1 main_call3.v2 Host.divsi,
    StableHlo.TRef.unary (.of main_arg1 : StableHlo.TRef sig ⟨S16384, .i32⟩) main_call3.v3 signi,
    StableHlo.TRef.unary main_call3.v0 main_call3.v4 signi,
    StableHlo.TRef.unary main_call3.v4 main_call3.v5 (broadcastInDim S16384 ![] bcast_S_S16384),
    StableHlo.TRef.binary main_call3.v3 main_call3.v5 main_call3.v6 (cmpi .ne),
    StableHlo.TRef.unary main_call3.v0 main_call3.v7 (broadcastInDim S16384 ![] bcast_S_S16384),
    StableHlo.TRef.binary (.of main_arg1 : StableHlo.TRef sig ⟨S16384, .i32⟩) main_call3.v7 main_call3.v8 Host.remsi,
    StableHlo.TRef.nullary main_call3.c (constantI S_ 32 0#32),
    StableHlo.TRef.unary main_call3.c main_call3.v9 (broadcastInDim S16384 ![] bcast_S_S16384),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S16384 ![] bcast_S_S16384),
    StableHlo.TRef.binary main_call3.v2 main_call3.v12 main_call3.v13 subi,
    StableHlo.TRef.ternary main_call3.v11 main_call3.v13 main_call3.v2 main_call3.call0.v0 select ]

/-- The head-weight selection, the product, the sum over the 128 lanes, as a column: operations 89 to 101. -/
abbrev seg5 : List (HloOp τ sig (Elt F)) :=
  [
    StableHlo.nullary main_c_6 (constantI S_ 32 0#32),
    StableHlo.unary main_c_6 main_v21 (broadcastInDim S16384 ![] bcast_S_S16384 : (⟨S_, .i32⟩ : BufTy).Contents (Elt F) → (⟨S16384, .i32⟩ : BufTy).Contents (Elt F)),
    StableHlo.binary main_v20 main_v21 main_v22 (cmpi .slt : (⟨S16384, .i32⟩ : BufTy).Contents (Elt F) → (⟨S16384, .i32⟩ : BufTy).Contents (Elt F) → (⟨S16384, .i1⟩ : BufTy).Contents (Elt F)),
    StableHlo.nullary main_c_7 (constantI S_ 32 30#32),
    StableHlo.unary main_c_7 main_v23 (broadcastInDim S16384 ![] bcast_S_S16384 : (⟨S_, .i32⟩ : BufTy).Contents (Elt F) → (⟨S16384, .i32⟩ : BufTy).Contents (Elt F)),
    StableHlo.binary main_v20 main_v23 main_v24 (addi : (⟨S16384, .i32⟩ : BufTy).Contents (Elt F) → (⟨S16384, .i32⟩ : BufTy).Contents (Elt F) → (⟨S16384, .i32⟩ : BufTy).Contents (Elt F)),
    StableHlo.ternary main_v22 main_v24 main_v20 main_v25 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v25 main_v26 (broadcastInDim S16384x1 ![0] bcast_S16384_S16384x1_0 : (⟨S16384, .i32⟩ : BufTy).Contents (Elt F) → (⟨S16384x1, .i32⟩ : BufTy).Contents (Elt F)),
    StableHlo.binary main_arg5 main_v26 main_v27 ((fun x i => Host.gather gather_S30x128_S16384x1_S16384x128_1_0_n_n_0_1_1128 x i) : (⟨S30x128, .f32⟩ : BufTy).Contents (Elt F) → (⟨S16384x1, .i32⟩ : BufTy).Contents (Elt F) → (⟨S16384x128, .f32⟩ : BufTy).Contents (Elt F)),
    StableHlo.binary main_v19 main_v27 main_v28 (mulf : (⟨S16384x128, .f32⟩ : BufTy).Contents (Elt F) → (⟨S16384x128, .f32⟩ : BufTy).Contents (Elt F) → (⟨S16384x128, .f32⟩ : BufTy).Contents (Elt F)),
    StableHlo.nullary main_cst_8 (constant S_ .f32 0x00000000#32),
    StableHlo.binary main_v28 main_cst_8 main_v29 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v29 main_v30 (broadcastInDim S16384x1 ![0] bcast_S16384_S16384x1_0 : (⟨S16384, .f32⟩ : BufTy).Contents (Elt F) → (⟨S16384x1, .f32⟩ : BufTy).Contents (Elt F)) ]

/-- The head-bias selection, as a column, and the final sum: operations 102 to 112. -/
abbrev seg6 : List (HloOp τ sig (Elt F)) :=
  [
    StableHlo.nullary main_c_9 (constantI S_ 32 0#32),
    StableHlo.unary main_c_9 main_v31 (broadcastInDim S16384 ![] bcast_S_S16384 : (⟨S_, .i32⟩ : BufTy).Contents (Elt F) → (⟨S16384, .i32⟩ : BufTy).Contents (Elt F)),
    StableHlo.binary main_v20 main_v31 main_v32 (cmpi .slt : (⟨S16384, .i32⟩ : BufTy).Contents (Elt F) → (⟨S16384, .i32⟩ : BufTy).Contents (Elt F) → (⟨S16384, .i1⟩ : BufTy).Contents (Elt F)),
    StableHlo.nullary main_c_10 (constantI S_ 32 30#32),
    StableHlo.unary main_c_10 main_v33 (broadcastInDim S16384 ![] bcast_S_S16384 : (⟨S_, .i32⟩ : BufTy).Contents (Elt F) → (⟨S16384, .i32⟩ : BufTy).Contents (Elt F)),
    StableHlo.binary main_v20 main_v33 main_v34 (addi : (⟨S16384, .i32⟩ : BufTy).Contents (Elt F) → (⟨S16384, .i32⟩ : BufTy).Contents (Elt F) → (⟨S16384, .i32⟩ : BufTy).Contents (Elt F)),
    StableHlo.ternary main_v32 main_v34 main_v20 main_v35 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v35 main_v36 (broadcastInDim S16384x1 ![0] bcast_S16384_S16384x1_0 : (⟨S16384, .i32⟩ : BufTy).Contents (Elt F) → (⟨S16384x1, .i32⟩ : BufTy).Contents (Elt F)),
    StableHlo.binary main_arg6 main_v36 main_v37 ((fun x i => Host.gather gather_S30_S16384x1_S16384_n_0_n_n_0_1_1 x i) : (⟨S30, .f32⟩ : BufTy).Contents (Elt F) → (⟨S16384x1, .i32⟩ : BufTy).Contents (Elt F) → (⟨S16384, .f32⟩ : BufTy).Contents (Elt F)),
    StableHlo.unary main_v37 main_v38 (broadcastInDim S16384x1 ![0] bcast_S16384_S16384x1_0 : (⟨S16384, .f32⟩ : BufTy).Contents (Elt F) → (⟨S16384x1, .f32⟩ : BufTy).Contents (Elt F)),
    StableHlo.binary main_v30 main_v38 main_v39 (addf : (⟨S16384x1, .f32⟩ : BufTy).Contents (Elt F) → (⟨S16384x1, .f32⟩ : BufTy).Contents (Elt F) → (⟨S16384x1, .f32⟩ : BufTy).Contents (Elt F)) ]

/-! ## The line in six stretches, and the pure stages between them -/

/-- The fold of a line run after another is the fold of the second from the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The row gather as a function of the table and the row numbers: a negative row number has the table's height
    added, the rows are gathered, and a row outside `[0, 786431]` reads as NaN. -/
def takeOf (emb : FVec F S786432x128 .f32) (gidx : IVec S16384x32 32) : FVec F S16384x32x128 .f32 :=
  let t_c : IVec S_ 32 := constantI S_ 32 0#32
  let t_v0 : IVec S16384x32 32 := broadcastInDim S16384x32 ![] bcast_S_S16384x32 t_c
  let t_v1 : IVec S16384x32 1 := cmpi .slt gidx t_v0
  let t_c_0 : IVec S_ 32 := constantI S_ 32 786432#32
  let t_v2 : IVec S16384x32 32 := broadcastInDim S16384x32 ![] bcast_S_S16384x32 t_c_0
  let t_v3 : IVec S16384x32 32 := addi gidx t_v2
  let t_v4 : IVec S16384x32 32 := select t_v1 t_v3 gidx
  let t_v5 : IVec S16384x32x1 32 := broadcastInDim S16384x32x1 ![0, 1] bcast_S16384x32_S16384x32x1_0_1 t_v4
  let t_c_1 : IVec S1 32 := constantI S1 32 786431#32
  let t_c_2 : IVec S_ 32 := constantI S_ 32 0#32
  let t_v6 : IVec S16384x32x1 32 := broadcastInDim S16384x32x1 ![] bcast_S_S16384x32x1 t_c_2
  let t_v7 : IVec S16384x32x1 1 := cmpi .sge t_v5 t_v6
  let t_v8 : IVec S1x1x1 32 := broadcastInDim S1x1x1 ![2] bcast_S1_S1x1x1_2 t_c_1
  let t_v9 : IVec S16384x32x1 32 := broadcastInDim S16384x32x1 ![0, 1, 2] bcast_S1x1x1_S16384x32x1_0_1_2 t_v8
  let t_v10 : IVec S16384x32x1 1 := cmpi .sle t_v5 t_v9
  let t_v11 : IVec S16384x32x1 1 := andi t_v7 t_v10
  let t_c_3 : IVec S_ 1 := constantI S_ 1 1#1
  let t_v12 : IVec S16384x32 1 := (fun x v => Host.reduce IntOp.andi x v reducesTo_S16384x32x1_S16384x32_d2 h_S_) t_v11 t_c_3
  let t_v13 : FVec F S16384x32x128 .f32 :=
    (fun x i => Host.gather gather_S786432x128_S16384x32x1_S16384x32x128_2_0_n_n_0_2_1128 x i) emb t_v5
  let t_v14 : IVec S16384x32x128 1 := broadcastInDim S16384x32x128 ![0, 1] bcast_S16384x32_S16384x32x128_0_1 t_v12
  let t_cst : FVec F S_ .f32 := constant S_ .f32 0x7FC00000#32
  let t_v15 : FVec F S16384x32x128 .f32 := broadcastInDim S16384x32x128 ![] bcast_S_S16384x32x128 t_cst
  select t_v14 t_v13 t_v15

/-- The gathered rows summed over the 32 features from zero, the phase bias added, the sum clipped to [0, 1]. -/
def clipOf (rows : FVec F S16384x32x128 .f32) (pa : FVec F S16384x128 .f32) : FVec F S16384x128 .f32 :=
  let cst : FVec F S_ .f32 := constant S_ .f32 0x00000000#32
  let v10 : FVec F S16384x128 .f32 := (fun x v => Host.reduceAdd x v reducesTo_S16384x32x128_S16384x128_d1 h_S_) rows cst
  let v18 : FVec F S16384x128 .f32 := addf v10 pa
  let cst_3 : FVec F S_ .f32 := constant S_ .f32 0x00000000#32
  let cst_4 : FVec F S_ .f32 := constant S_ .f32 0x3F800000#32
  let k_v0 : FVec F S_ .f32 := id cst_3
  let k_v1 : FVec F S16384x128 .f32 := broadcastInDim S16384x128 ![] bcast_S_S16384x128 k_v0
  let k_v2 : FVec F S16384x128 .f32 := maximumf k_v1 v18
  let k_v3 : FVec F S_ .f32 := id cst_4
  let k_v4 : FVec F S16384x128 .f32 := broadcastInDim S16384x128 ![] bcast_S_S16384x128 k_v3
  minimumf k_v4 k_v2

/-- The clipped activation times the head weights, summed over the 128 lanes from zero, as a column. -/
def laneOf (act w : FVec F S16384x128 .f32) : FVec F S16384x1 .f32 :=
  let v28 : FVec F S16384x128 .f32 := mulf act w
  let cst_8 : FVec F S_ .f32 := constant S_ .f32 0x00000000#32
  let v29 : FVec F S16384 .f32 := (fun x v => Host.reduceAdd x v reducesTo_S16384x128_S16384_d1 h_S_) v28 cst_8
  broadcastInDim S16384x1 ![0] bcast_S16384_S16384x1_0 v29

/-- The reference's term is those stages composed, the head bias added as a column. -/
theorem refOut_eq (gidx : IVec S16384x32 32) (emb : FVec F S786432x128 .f32) (pa w : FVec F S16384x128 .f32)
    (bs : FVec F S16384 .f32) :
    Cert.RefTerm.refOut gidx emb pa w bs
      = addf (laneOf (clipOf (takeOf emb gidx) pa) w) (broadcastInDim S16384x1 ![0] bcast_S16384_S16384x1_0 bs) := rfl

section Stages

variable (V : Valuation τ sig (Elt F))

/-! What each stretch leaves at the buffers read after it: its own result as a stage of Spec.lean or of this module
    over what the stretch found (stated first over named contents, then at the valuation's own), and every buffer it
    does not write as it was. -/

/-- The row numbers, by the operations Spec.lean spells. -/
theorem s1_v8_gen (x0 : IVec S16384x32 32) (x1 : IVec S16384 32) (x2 : IVec S32 32)
    (h0 : V (main_arg0 : DevRef τ sig) = x0) (h1 : V (main_arg1 : DevRef τ sig) = x1) (h2 : V (main_arg2 : DevRef τ sig) = x2) :
    after seg1 V (main_v8 : DevRef τ sig) = Cert.Spec.gidxOf x0 x1 x2 := by
  after_results_simp
  simp only [TRef.toBuf, TRef.ofBuf, cast_eq, h0, h1, h2]
  rfl
theorem s1_v8 : after seg1 V (main_v8 : DevRef τ sig) = Cert.Spec.gidxOf (V (main_arg0 : DevRef τ sig)) (V (main_arg1 : DevRef τ sig)) (V (main_arg2 : DevRef τ sig)) :=
  s1_v8_gen V _ _ _ rfl rfl rfl
/-- The floor division by 10. -/
theorem s1_v3_gen (x1 : IVec S16384 32)
    (h0 : V (main_arg1 : DevRef τ sig) = x1) :
    after seg1 V (main_v3 : DevRef τ sig) = Cert.Spec.floorDiv x1 (constantI S_ 32 10#32) := by
  after_results_simp
  simp only [TRef.toBuf, TRef.ofBuf, cast_eq, h0]
  rfl
theorem s1_v3 : after seg1 V (main_v3 : DevRef τ sig) = Cert.Spec.floorDiv (V (main_arg1 : DevRef τ sig)) (constantI S_ 32 10#32) :=
  s1_v3_gen V _ rfl
theorem s1_arg0 : after seg1 V (main_arg0 : DevRef τ sig) = V (main_arg0 : DevRef τ sig) := by after_results_simp
theorem s1_arg1 : after seg1 V (main_arg1 : DevRef τ sig) = V (main_arg1 : DevRef τ sig) := by after_results_simp
theorem s1_arg2 : after seg1 V (main_arg2 : DevRef τ sig) = V (main_arg2 : DevRef τ sig) := by after_results_simp
theorem s1_arg3 : after seg1 V (main_arg3 : DevRef τ sig) = V (main_arg3 : DevRef τ sig) := by after_results_simp
theorem s1_arg4 : after seg1 V (main_arg4 : DevRef τ sig) = V (main_arg4 : DevRef τ sig) := by after_results_simp
theorem s1_arg5 : after seg1 V (main_arg5 : DevRef τ sig) = V (main_arg5 : DevRef τ sig) := by after_results_simp
theorem s1_arg6 : after seg1 V (main_arg6 : DevRef τ sig) = V (main_arg6 : DevRef τ sig) := by after_results_simp
/-- The gathered rows. -/
theorem s2_v9_gen (emb : FVec F S786432x128 .f32) (g : IVec S16384x32 32)
    (h0 : V (main_arg3 : DevRef τ sig) = emb) (h1 : V (main_v8 : DevRef τ sig) = g) :
    after seg2 V (main_v9 : DevRef τ sig) = takeOf emb g := by
  after_results_simp
  simp only [TRef.toBuf, TRef.ofBuf, cast_eq, h0, h1]
  rfl
theorem s2_v9 : after seg2 V (main_v9 : DevRef τ sig) = takeOf (V (main_arg3 : DevRef τ sig)) (V (main_v8 : DevRef τ sig)) :=
  s2_v9_gen V _ _ rfl rfl
theorem s2_v3 : after seg2 V (main_v3 : DevRef τ sig) = V (main_v3 : DevRef τ sig) := by after_results_simp
theorem s2_arg0 : after seg2 V (main_arg0 : DevRef τ sig) = V (main_arg0 : DevRef τ sig) := by after_results_simp
theorem s2_arg1 : after seg2 V (main_arg1 : DevRef τ sig) = V (main_arg1 : DevRef τ sig) := by after_results_simp
theorem s2_arg2 : after seg2 V (main_arg2 : DevRef τ sig) = V (main_arg2 : DevRef τ sig) := by after_results_simp
theorem s2_arg3 : after seg2 V (main_arg3 : DevRef τ sig) = V (main_arg3 : DevRef τ sig) := by after_results_simp
theorem s2_arg4 : after seg2 V (main_arg4 : DevRef τ sig) = V (main_arg4 : DevRef τ sig) := by after_results_simp
theorem s2_arg5 : after seg2 V (main_arg5 : DevRef τ sig) = V (main_arg5 : DevRef τ sig) := by after_results_simp
theorem s2_arg6 : after seg2 V (main_arg6 : DevRef τ sig) = V (main_arg6 : DevRef τ sig) := by after_results_simp
/-- The clipped activation, the phase-bias rows selected at the wrapped quotient. -/
theorem s3_v19_gen (rows : FVec F S16384x32x128 .f32) (t4 : FVec F S3x128 .f32) (q : IVec S16384 32)
    (h0 : V (main_v9 : DevRef τ sig) = rows) (h1 : V (main_arg4 : DevRef τ sig) = t4) (h2 : V (main_v3 : DevRef τ sig) = q) :
    after seg3 V (main_v19 : DevRef τ sig) = clipOf rows (Host.gather Cert.Spec.gatherPa t4 (Cert.Spec.wrapIdx 3#32 q)) := by
  after_results_simp
  simp only [TRef.toBuf, TRef.ofBuf, cast_eq, h0, h1, h2]
  rfl
theorem s3_v19 : after seg3 V (main_v19 : DevRef τ sig) = clipOf (V (main_v9 : DevRef τ sig)) (Host.gather Cert.Spec.gatherPa (V (main_arg4 : DevRef τ sig)) (Cert.Spec.wrapIdx 3#32 (V (main_v3 : DevRef τ sig)))) :=
  s3_v19_gen V _ _ _ rfl rfl rfl
theorem s3_arg0 : after seg3 V (main_arg0 : DevRef τ sig) = V (main_arg0 : DevRef τ sig) := by after_results_simp
theorem s3_arg1 : after seg3 V (main_arg1 : DevRef τ sig) = V (main_arg1 : DevRef τ sig) := by after_results_simp
theorem s3_arg2 : after seg3 V (main_arg2 : DevRef τ sig) = V (main_arg2 : DevRef τ sig) := by after_results_simp
theorem s3_arg3 : after seg3 V (main_arg3 : DevRef τ sig) = V (main_arg3 : DevRef τ sig) := by after_results_simp
theorem s3_arg4 : after seg3 V (main_arg4 : DevRef τ sig) = V (main_arg4 : DevRef τ sig) := by after_results_simp
theorem s3_arg5 : after seg3 V (main_arg5 : DevRef τ sig) = V (main_arg5 : DevRef τ sig) := by after_results_simp
theorem s3_arg6 : after seg3 V (main_arg6 : DevRef τ sig) = V (main_arg6 : DevRef τ sig) := by after_results_simp
/-- The floor division by 1. -/
theorem s4_v20_gen (x1 : IVec S16384 32)
    (h0 : V (main_arg1 : DevRef τ sig) = x1) :
    after seg4 V (main_v20 : DevRef τ sig) = Cert.Spec.floorDiv x1 (constantI S_ 32 1#32) := by
  after_results_simp
  simp only [TRef.toBuf, TRef.ofBuf, cast_eq, h0]
  rfl
theorem s4_v20 : after seg4 V (main_v20 : DevRef τ sig) = Cert.Spec.floorDiv (V (main_arg1 : DevRef τ sig)) (constantI S_ 32 1#32) :=
  s4_v20_gen V _ rfl
theorem s4_v19 : after seg4 V (main_v19 : DevRef τ sig) = V (main_v19 : DevRef τ sig) := by after_results_simp
theorem s4_arg0 : after seg4 V (main_arg0 : DevRef τ sig) = V (main_arg0 : DevRef τ sig) := by after_results_simp
theorem s4_arg1 : after seg4 V (main_arg1 : DevRef τ sig) = V (main_arg1 : DevRef τ sig) := by after_results_simp
theorem s4_arg2 : after seg4 V (main_arg2 : DevRef τ sig) = V (main_arg2 : DevRef τ sig) := by after_results_simp
theorem s4_arg3 : after seg4 V (main_arg3 : DevRef τ sig) = V (main_arg3 : DevRef τ sig) := by after_results_simp
theorem s4_arg4 : after seg4 V (main_arg4 : DevRef τ sig) = V (main_arg4 : DevRef τ sig) := by after_results_simp
theorem s4_arg5 : after seg4 V (main_arg5 : DevRef τ sig) = V (main_arg5 : DevRef τ sig) := by after_results_simp
theorem s4_arg6 : after seg4 V (main_arg6 : DevRef τ sig) = V (main_arg6 : DevRef τ sig) := by after_results_simp
/-- The weighted lane sums as a column, the head weights selected at the wrapped quotient. -/
theorem s5_v30_gen (act : FVec F S16384x128 .f32) (t5 : FVec F S30x128 .f32) (q : IVec S16384 32)
    (h0 : V (main_v19 : DevRef τ sig) = act) (h1 : V (main_arg5 : DevRef τ sig) = t5) (h2 : V (main_v20 : DevRef τ sig) = q) :
    after seg5 V (main_v30 : DevRef τ sig) = laneOf act (Host.gather Cert.Spec.gatherW t5 (Cert.Spec.wrapIdx 30#32 q)) := by
  after_results_simp
  simp only [TRef.toBuf, TRef.ofBuf, cast_eq, h0, h1, h2]
  rfl
theorem s5_v30 : after seg5 V (main_v30 : DevRef τ sig) = laneOf (V (main_v19 : DevRef τ sig)) (Host.gather Cert.Spec.gatherW (V (main_arg5 : DevRef τ sig)) (Cert.Spec.wrapIdx 30#32 (V (main_v20 : DevRef τ sig)))) :=
  s5_v30_gen V _ _ _ rfl rfl rfl
theorem s5_v20 : after seg5 V (main_v20 : DevRef τ sig) = V (main_v20 : DevRef τ sig) := by after_results_simp
theorem s5_arg0 : after seg5 V (main_arg0 : DevRef τ sig) = V (main_arg0 : DevRef τ sig) := by after_results_simp
theorem s5_arg1 : after seg5 V (main_arg1 : DevRef τ sig) = V (main_arg1 : DevRef τ sig) := by after_results_simp
theorem s5_arg2 : after seg5 V (main_arg2 : DevRef τ sig) = V (main_arg2 : DevRef τ sig) := by after_results_simp
theorem s5_arg3 : after seg5 V (main_arg3 : DevRef τ sig) = V (main_arg3 : DevRef τ sig) := by after_results_simp
theorem s5_arg4 : after seg5 V (main_arg4 : DevRef τ sig) = V (main_arg4 : DevRef τ sig) := by after_results_simp
theorem s5_arg5 : after seg5 V (main_arg5 : DevRef τ sig) = V (main_arg5 : DevRef τ sig) := by after_results_simp
theorem s5_arg6 : after seg5 V (main_arg6 : DevRef τ sig) = V (main_arg6 : DevRef τ sig) := by after_results_simp
/-- The result, the head biases selected at the wrapped quotient. -/
theorem s6_v39_gen (col : FVec F S16384x1 .f32) (t6 : FVec F S30 .f32) (q : IVec S16384 32)
    (h0 : V (main_v30 : DevRef τ sig) = col) (h1 : V (main_arg6 : DevRef τ sig) = t6) (h2 : V (main_v20 : DevRef τ sig) = q) :
    after seg6 V (main_v39 : DevRef τ sig) = addf col (broadcastInDim S16384x1 ![0] bcast_S16384_S16384x1_0 (Host.gather Cert.Spec.gatherB t6 (Cert.Spec.wrapIdx 30#32 q))) := by
  after_results_simp
  simp only [TRef.toBuf, TRef.ofBuf, cast_eq, h0, h1, h2]
  rfl
theorem s6_v39 : after seg6 V (main_v39 : DevRef τ sig) = addf (V (main_v30 : DevRef τ sig)) (broadcastInDim S16384x1 ![0] bcast_S16384_S16384x1_0 (Host.gather Cert.Spec.gatherB (V (main_arg6 : DevRef τ sig)) (Cert.Spec.wrapIdx 30#32 (V (main_v20 : DevRef τ sig))))) :=
  s6_v39_gen V _ _ _ rfl rfl rfl
theorem s6_arg0 : after seg6 V (main_arg0 : DevRef τ sig) = V (main_arg0 : DevRef τ sig) := by after_results_simp
theorem s6_arg1 : after seg6 V (main_arg1 : DevRef τ sig) = V (main_arg1 : DevRef τ sig) := by after_results_simp
theorem s6_arg2 : after seg6 V (main_arg2 : DevRef τ sig) = V (main_arg2 : DevRef τ sig) := by after_results_simp
theorem s6_arg3 : after seg6 V (main_arg3 : DevRef τ sig) = V (main_arg3 : DevRef τ sig) := by after_results_simp
theorem s6_arg4 : after seg6 V (main_arg4 : DevRef τ sig) = V (main_arg4 : DevRef τ sig) := by after_results_simp
theorem s6_arg5 : after seg6 V (main_arg5 : DevRef τ sig) = V (main_arg5 : DevRef τ sig) := by after_results_simp
theorem s6_arg6 : after seg6 V (main_arg6 : DevRef τ sig) = V (main_arg6 : DevRef τ sig) := by after_results_simp

end Stages

/-! ## What the whole line leaves at the result and at the arguments -/

section Values

variable (V : Valuation τ sig (Elt F))

/-- The line is its six stretches in order. -/
theorem ops_eq : (ops : List (HloOp τ sig (Elt F))) = seg1 ++ (seg2 ++ (seg3 ++ (seg4 ++ (seg5 ++ seg6)))) := rfl

/-- The fold at the result buffer: the stretches' stages composed are the term of RefTerm.lean over the row
    numbers, the phase-bias rows, the head weights and the head biases as Spec.lean spells them. -/
theorem out_eq :
    after ops V (main_v39 : DevRef τ sig)
      = Cert.RefTerm.refOut
          (Cert.Spec.gidxOf (V (main_arg0 : DevRef τ sig)) (V (main_arg1 : DevRef τ sig)) (V (main_arg2 : DevRef τ sig)))
          (V (main_arg3 : DevRef τ sig))
          (Cert.Spec.paSelOf (V (main_arg1 : DevRef τ sig)) (V (main_arg4 : DevRef τ sig)))
          (Cert.Spec.wSelOf (V (main_arg1 : DevRef τ sig)) (V (main_arg5 : DevRef τ sig)))
          (Cert.Spec.bSelOf (V (main_arg1 : DevRef τ sig)) (V (main_arg6 : DevRef τ sig))) := by
  rw [ops_eq, after_append, after_append, after_append, after_append, after_append]
  rw [s6_v39, s5_v30, s5_v20, s5_arg6, s4_v19, s4_v20, s4_arg5, s4_arg6, s3_v19, s3_arg1, s3_arg5, s3_arg6,
    s2_v9, s2_arg4, s2_v3, s2_arg1, s2_arg5, s2_arg6, s1_v8, s1_v3, s1_arg3, s1_arg4, s1_arg1, s1_arg5, s1_arg6,
    refOut_eq]
  rfl

/-- No operation writes an argument's buffer. -/
theorem arg0_eq : after ops V (main_arg0 : DevRef τ sig) = V (main_arg0 : DevRef τ sig) := by
  rw [ops_eq, after_append, after_append, after_append, after_append, after_append, s6_arg0, s5_arg0, s4_arg0, s3_arg0, s2_arg0, s1_arg0]
theorem arg1_eq : after ops V (main_arg1 : DevRef τ sig) = V (main_arg1 : DevRef τ sig) := by
  rw [ops_eq, after_append, after_append, after_append, after_append, after_append, s6_arg1, s5_arg1, s4_arg1, s3_arg1, s2_arg1, s1_arg1]
theorem arg2_eq : after ops V (main_arg2 : DevRef τ sig) = V (main_arg2 : DevRef τ sig) := by
  rw [ops_eq, after_append, after_append, after_append, after_append, after_append, s6_arg2, s5_arg2, s4_arg2, s3_arg2, s2_arg2, s1_arg2]
theorem arg3_eq : after ops V (main_arg3 : DevRef τ sig) = V (main_arg3 : DevRef τ sig) := by
  rw [ops_eq, after_append, after_append, after_append, after_append, after_append, s6_arg3, s5_arg3, s4_arg3, s3_arg3, s2_arg3, s1_arg3]
theorem arg4_eq : after ops V (main_arg4 : DevRef τ sig) = V (main_arg4 : DevRef τ sig) := by
  rw [ops_eq, after_append, after_append, after_append, after_append, after_append, s6_arg4, s5_arg4, s4_arg4, s3_arg4, s2_arg4, s1_arg4]
theorem arg5_eq : after ops V (main_arg5 : DevRef τ sig) = V (main_arg5 : DevRef τ sig) := by
  rw [ops_eq, after_append, after_append, after_append, after_append, after_append, s6_arg5, s5_arg5, s4_arg5, s3_arg5, s2_arg5, s1_arg5]
theorem arg6_eq : after ops V (main_arg6 : DevRef τ sig) = V (main_arg6 : DevRef τ sig) := by
  rw [ops_eq, after_append, after_append, after_append, after_append, after_append, s6_arg6, s5_arg6, s4_arg6, s3_arg6, s2_arg6, s1_arg6]

end Values

/-! ## The run -/

/-- On every device, for any float values, from any memory with zero counters: every weakly fair execution of
    @main terminates with the result buffer at the composed term of the arguments' launch contents — RefTerm.lean's
    over the row numbers, phase-bias rows, head weights and head biases of Spec.lean — and the seven arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v39)
        = Cert.RefTerm.refOut (Cert.Spec.gidxOf (m ((c.tc : Thread nD τ).loc main_arg0)) (m ((c.tc : Thread nD τ).loc main_arg1)) (m ((c.tc : Thread nD τ).loc main_arg2)))
            (m ((c.tc : Thread nD τ).loc main_arg3))
            (Cert.Spec.paSelOf (m ((c.tc : Thread nD τ).loc main_arg1)) (m ((c.tc : Thread nD τ).loc main_arg4)))
            (Cert.Spec.wSelOf (m ((c.tc : Thread nD τ).loc main_arg1)) (m ((c.tc : Thread nD τ).loc main_arg5)))
            (Cert.Spec.bSelOf (m ((c.tc : Thread nD τ).loc main_arg1)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v39).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.HandRun

end
-- ==== Proof.RefValue.lean ====
/-
  The reference's result at the ideal values is the function `Spec.G`, for row numbers inside the table.

  Every row number read as a signed word lies in [0, 786432): its sign bit is clear, so the wrap of a negative index
  keeps it, the range test "0 ≤ row ≤ 786431" holds at every (sample, feature) pair, and the masked select never takes its
  NaN branch. The gather's start index is clamped into [0, 786431], which changes nothing in range, so the gathered
  element at (b, f, l) is `emb[gidx[b, f], l]`. A host sum at the ideal values is its initial value plus the finite sum
  over the reduced axis; both initial values are the zero word, the extended real 0. So the sum over the 32 features is
  `Spec.embSum`, what follows it is `Spec.weighted` term for term, and the sum over the 128 lanes plus the bias column is
  `Spec.G`. Only the commutative-monoid laws of addition on the extended reals are used; no float need be finite.
-/
import proofs.«402893_j78554951844377_2_alg».proof.Proof.Spec
import proofs.«402893_j78554951844377_2_alg».proof.Proof.RefTerm
import Idealize.ShloMosaic.PureOps
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section
open scoped BigOperators
namespace Cert.RefValue
open Idealize.ShloMosaic Idealize.ShloMosaic.ValueIdx

/-! ## Words: a 32-bit word below 786432 read as a signed integer

Such a word is below 2³¹, so its sign bit is clear and its signed reading is its unsigned one. -/

/-- It is not negative: the signed test "x < 0" gives the bit 0. -/
theorem slt_zero_of_lt (x : BitVec 32) (h : x.toNat < 786432) : IntOp.cmpi .slt x 0#32 = 0#1 := by
  have hm : x.msb = false := by
    rw [BitVec.msb_eq_false_iff_two_mul_lt]; omega
  have hn : ¬ ((x.toNat : Int) < 0) := by omega
  simp [IntOp.cmpi, BitVec.slt, BitVec.toInt_eq_msb_cond, hm, hn]

/-- The signed test "x ≥ 0" gives the bit 1. -/
theorem sge_zero_of_lt (x : BitVec 32) (h : x.toNat < 786432) : IntOp.cmpi .sge x 0#32 = 1#1 := by
  have hm : x.msb = false := by
    rw [BitVec.msb_eq_false_iff_two_mul_lt]; omega
  simp [IntOp.cmpi, BitVec.sle, BitVec.toInt_eq_msb_cond, hm]

/-- The signed test "x ≤ 786431" gives the bit 1. -/
theorem sle_max_of_lt (x : BitVec 32) (h : x.toNat < 786432) : IntOp.cmpi .sle x 786431#32 = 1#1 := by
  have hm : x.msb = false := by
    rw [BitVec.msb_eq_false_iff_two_mul_lt]; omega
  have hx : x.toInt = (x.toNat : Int) := by simp [BitVec.toInt_eq_msb_cond, hm]
  have hc : (786431#32 : BitVec 32).toInt = 786431 := by decide
  have hle : x.toInt ≤ (786431#32 : BitVec 32).toInt := by rw [hx, hc]; omega
  simp only [IntOp.cmpi, BitVec.sle, hle, decide_true]
  rfl

/-- Its signed reading, as a natural number, is its unsigned reading. -/
theorem toInt_toNat_of_lt (x : BitVec 32) (h : x.toNat < 786432) : x.toInt.toNat = x.toNat := by
  have hm : x.msb = false := by
    rw [BitVec.msb_eq_false_iff_two_mul_lt]; omega
  simp [BitVec.toInt_eq_msb_cond, hm]

/-! ## A gather of ROWS of a rank-2 operand, read at an index

What `x[idx]` along axis 0 of a table `x : [N, L]` at an integer array `idx : [R, C]` lowers to: offset axis `[2]`,
collapsed axis `[0]`, start index map `[0]`, slice sizes `[1, L]`, the index vector on axis 2 of the indices as
`[R, C, 1]`. Result element `(r, c, l)` is `x` at row `idx[r, c, 0]`, read signed and clamped into `[0, N − 1]`, lane `l`. -/

section RowTake
variable {α : Type}

/-- A rank-3 index's coordinates are below the three extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- Those dimension numbers for an operand `[N, L]`, start indices `[R, C, 1]` and result `[R, C, L]`. -/
abbrev rowDims (N L R C : Nat)
    (wf : GatherDims.WF ⟨2, ![N, L]⟩ ⟨3, ![R, C, 1]⟩ ⟨3, ![R, C, L]⟩ [2] [0] [] [0] [] 2 ![1, L]) :
    GatherDims ⟨2, ![N, L]⟩ ⟨3, ![R, C, 1]⟩ ⟨3, ![R, C, L]⟩ where
  offsetDims := [2]
  collapsedSliceDims := [0]
  operandBatchingDims := []
  startIndicesBatchingDims := []
  startIndexMap := [0]
  indexVectorDim := 2
  sliceSizes := ![1, L]
  wf := wf

/-- The start-indices index `[r, c, 0]` of result index `(r, c, l)`. -/
abbrev rowIdx {R C L : Nat} (y : (⟨3, ![R, C, L]⟩ : Shape).Idx) : (⟨3, ![R, C, 1]⟩ : Shape).Idx :=
  fun a => match a with
    | ⟨0, _⟩ => ⟨(y 0).val, idx3_lt0 y⟩ | ⟨1, _⟩ => ⟨(y 1).val, idx3_lt1 y⟩ | ⟨2, _⟩ => ⟨0, Nat.one_pos⟩

/-- THE GATHER READ AT `(r, c, l)`: on the row axis the operand index is the clamped start (no batching axis, and the
    collapsed axis carries no offset); on the lane axis the start is 0 (the map does not name it) and the offset is the
    result's coordinate on its one offset axis. -/
theorem gather_rows_apply {N L R C w : Nat} (hN : 0 < N)
    (wf : GatherDims.WF ⟨2, ![N, L]⟩ ⟨3, ![R, C, 1]⟩ ⟨3, ![R, C, L]⟩ [2] [0] [] [0] [] 2 ![1, L])
    (x : (⟨2, ![N, L]⟩ : Shape).Idx → α) (idx : IVec ⟨3, ![R, C, 1]⟩ w) (y : (⟨3, ![R, C, L]⟩ : Shape).Idx) :
    Host.gather (rowDims N L R C wf) x idx y
      = x (ix2 ⟨min (idx (rowIdx y)).toInt.toNat (N - 1), by omega⟩ ⟨(y 2).val, idx3_lt2 y⟩) := by
  unfold Host.gather
  congr 1
  funext a
  refine Fin.ext ?_
  match a with
  | ⟨0, _⟩ =>
    show (rowDims N L R C wf).start y idx 0 + (rowDims N L R C wf).batchCoord y 0 + (rowDims N L R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N L R C wf).startIndexMap from List.mem_singleton.mpr rfl)]
    have hsi : (rowDims N L R C wf).siIdx y ⟨List.idxOf (0 : Fin 2) (rowDims N L R C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  | ⟨1, _⟩ =>
    show (rowDims N L R C wf).start y idx 1 + (rowDims N L R C wf).batchCoord y 1 + (rowDims N L R C wf).offCoord y 1 = (y 2).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

end RowTake

/-! ## The stages of the reference's row gather, named

The reference's result is one nested term; its inner stages are named here so that each can be read at an index on its own,
and the result is restated over them (`refOut_eq`, by unfolding). -/

section Stages
open Cert.ReferenceIdeal Cert.ReferenceIdeal.Facts₀

/-- The gather's start indices: the row numbers with 786432 added where negative, as a `[16384, 32, 1]` column. -/
def startIdx (gidx : IVec S16384x32 32) : IVec S16384x32x1 32 :=
  broadcastInDim S16384x32x1 ![0, 1] bcast_S16384x32_S16384x32x1_0_1
    (select (cmpi .slt gidx (broadcastInDim S16384x32 ![] bcast_S_S16384x32 (constantI S_ 32 0#32)))
      (addi gidx (broadcastInDim S16384x32 ![] bcast_S_S16384x32 (constantI S_ 32 786432#32))) gidx)

/-- The range mask: per (sample, feature), the conjunction over the index vector's one component of "0 ≤ start ≤ 786431". -/
def inBounds (gidx : IVec S16384x32 32) : IVec S16384x32 1 :=
  Host.reduce IntOp.andi
    (andi (cmpi .sge (startIdx gidx) (broadcastInDim S16384x32x1 ![] bcast_S_S16384x32x1 (constantI S_ 32 0#32)))
      (cmpi .sle (startIdx gidx) (broadcastInDim S16384x32x1 ![0, 1, 2] bcast_S1x1x1_S16384x32x1_0_1_2
        (broadcastInDim S1x1x1 ![2] bcast_S1_S1x1x1_2 (constantI S1 32 786431#32)))))
    (constantI S_ 1 1#1) reducesTo_S16384x32x1_S16384x32_d2 h_S_

/-- The gathered rows, NaN where the mask is clear. -/
def taken (gidx : IVec S16384x32 32) (emb : FVec Ideal S786432x128 .f32) : FVec Ideal S16384x32x128 .f32 :=
  select (broadcastInDim S16384x32x128 ![0, 1] bcast_S16384x32_S16384x32x128_0_1 (inBounds gidx))
    (Host.gather gather_S786432x128_S16384x32x1_S16384x32x128_2_0_n_n_0_2_1128 emb (startIdx gidx))
    (broadcastInDim S16384x32x128 ![] bcast_S_S16384x32x128 (constant (F := Ideal) S_ .f32 0x7FC00000#32))

/-- The sum of a sample's 32 gathered rows, from zero. -/
def rowSum (gidx : IVec S16384x32 32) (emb : FVec Ideal S786432x128 .f32) : FVec Ideal S16384x128 .f32 :=
  Host.reduceAdd (taken gidx emb) (constant (F := Ideal) S_ .f32 0x00000000#32) reducesTo_S16384x32x128_S16384x128_d1 h_S_

/-- The reference's result over the named stages: the same term, its bindings unfolded (the clip's two format
    conversions are identities). -/
theorem refOut_eq (gidx : IVec S16384x32 32) (emb : FVec Ideal S786432x128 .f32) (pa w : FVec Ideal S16384x128 .f32)
    (bs : FVec Ideal S16384 .f32) :
    Cert.RefTerm.refOut (F := Ideal) gidx emb pa w bs
      = addf (broadcastInDim S16384x1 ![0] bcast_S16384_S16384x1_0
          (Host.reduceAdd
            (mulf (minimumf (broadcastInDim S16384x128 ![] bcast_S_S16384x128 (constant (F := Ideal) S_ .f32 0x3F800000#32))
              (maximumf (broadcastInDim S16384x128 ![] bcast_S_S16384x128 (constant (F := Ideal) S_ .f32 0x00000000#32))
                (addf (rowSum gidx emb) pa))) w)
            (constant (F := Ideal) S_ .f32 0x00000000#32) reducesTo_S16384x128_S16384_d1 h_S_))
        (broadcastInDim S16384x1 ![0] bcast_S16384_S16384x1_0 bs) := rfl

end Stages

/-! ## The stages read at an index, for row numbers in range -/

section Reads
open Cert.ReferenceIdeal Cert.ReferenceIdeal.Facts₀

/-- A start index is the row number itself: the word is not negative, so the wrap's select keeps it. -/
theorem startIdx_apply (gidx : IVec S16384x32 32) (h : Cert.Spec.InRange gidx) (y : S16384x32x1.Idx) :
    startIdx gidx y = gidx (ix2 ⟨(y 0).val, idx3_lt0 y⟩ ⟨(y 1).val, idx3_lt1 y⟩) := by
  unfold startIdx
  rw [broadcastInDim_apply _ _ _ y (ix2 ⟨(y 0).val, idx3_lt0 y⟩ ⟨(y 1).val, idx3_lt1 y⟩)
    (by intro a; match a with | ⟨0, _⟩ => rfl | ⟨1, _⟩ => rfl)]
  rw [select_apply]
  show Scalar.select (IntOp.cmpi .slt (gidx _) 0#32) _ _ = _
  rw [slt_zero_of_lt _ (h _ _), select_zero]

/-- A conjunction of one-bit words that are all 1, from 1, is 1, over any list. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = 1#1 by decide]
    exact ih

/-- The range mask is set everywhere: both tests hold at every start index, and the conjunction starts from 1. -/
theorem inBounds_apply (gidx : IVec S16384x32 32) (h : Cert.Spec.InRange gidx) (j : S16384x32.Idx) :
    inBounds gidx j = 1#1 := by
  unfold inBounds
  rw [Host.reduce_eq_foldl]
  refine foldl_andi_one _ (fun i => ?_) _
  show IntOp.andi (IntOp.cmpi .sge (startIdx gidx i) 0#32) (IntOp.cmpi .sle (startIdx gidx i) 786431#32) = 1#1
  rw [startIdx_apply gidx h, sge_zero_of_lt _ (h _ _), sle_max_of_lt _ (h _ _)]
  decide

/-- The gathered element at (b, f, l) is `emb[gidx[b, f], l]`: the mask is set, so the select takes the gather; the
    start index is the row number, whose signed reading is its unsigned one, below 786432, so the clamp into
    [0, 786431] and the reduction modulo 786432 both leave it. -/
theorem taken_apply (gidx : IVec S16384x32 32) (emb : FVec Ideal S786432x128 .f32) (h : Cert.Spec.InRange gidx)
    (b : Fin 16384) (f : Fin 32) (l : Fin 128) :
    taken gidx emb (ix3 b f l) = emb (ix2 (Cert.Spec.rowOf gidx b f) l) := by
  unfold taken
  rw [select_apply,
    broadcastInDim_apply _ _ _ (ix3 b f l) (ix2 b f) (by intro a; match a with | ⟨0, _⟩ => rfl | ⟨1, _⟩ => rfl),
    inBounds_apply gidx h, select_one]
  show Host.gather (rowDims 786432 128 16384 32 gather_S786432x128_S16384x32x1_S16384x32x128_2_0_n_n_0_2_1128_wf) emb
    (startIdx gidx) (ix3 b f l) = _
  rw [gather_rows_apply (by decide)]
  have hb := h b f
  have hs : startIdx gidx (rowIdx (ix3 b f l)) = gidx (ix2 b f) := startIdx_apply gidx h _
  refine congrArg emb (funext fun a => Fin.ext ?_)
  match a with
  | ⟨0, _⟩ =>
    show min (startIdx gidx (rowIdx (ix3 b f l))).toInt.toNat (786432 - 1) = (gidx (ix2 b f)).toNat % 786432
    rw [hs, toInt_toNat_of_lt _ hb, Nat.mod_eq_of_lt hb]; omega
  | ⟨1, _⟩ => rfl

/-- The two sums' shape facts in the form that names the inserted coordinate. -/
theorem red32 : Shape.Reduces S16384x32x128 [1] S16384x128 := by decide
theorem red128 : Shape.Reduces S16384x128 [1] S16384 := by decide

/-- The sum over the 32 features is `Spec.embSum`: zero plus the sum over the feature axis, whose term at f is the
    gathered element at (b, f, l). -/
theorem rowSum_eq (gidx : IVec S16384x32 32) (emb : FVec Ideal S786432x128 .f32) (h : Cert.Spec.InRange gidx) :
    rowSum gidx emb = Cert.Spec.embSum gidx emb := by
  funext j
  show Ideal.hostReduceAdd reducesTo_S16384x32x128_S16384x128_d1 (taken gidx emb) (Ideal.ofBits .f32 0x00000000#32) j = _
  rw [Ideal.hostReduceAdd_single _ red32, Ideal.ofBits_zero_f32, zero_add]
  unfold Cert.Spec.embSum
  show ∑ k : Fin 32, taken gidx emb (red32.lift j k) = _
  refine Finset.sum_congr rfl fun k _ => ?_
  have hl : red32.lift j k = ix3 ⟨(j 0).val, idx2_lt0 j⟩ k ⟨(j 1).val, idx2_lt1 j⟩ := by
    funext c; refine Fin.ext ?_
    match c with
    | ⟨0, _⟩ => rfl
    | ⟨1, _⟩ => rfl
    | ⟨2, _⟩ => rfl
  rw [hl, taken_apply gidx emb h]

end Reads

/-! ## The reference's value -/

/-- THE REFERENCE'S VALUE. With the feature sum identified, the clip and the multiplication are `Spec.weighted`'s own
    operations; the lane sum is zero plus the sum over the 128 lanes, read at the sample's row through the column
    broadcast, and the bias column reads the sample's bias. -/
theorem refOut_eq_G (gidx : IVec Cert.Spec.S16384x32 32) (emb : FVec Ideal Cert.Spec.S786432x128 .f32)
    (pa w : FVec Ideal Cert.Spec.S16384x128 .f32) (bs : FVec Ideal Cert.Spec.S16384 .f32) (h : Cert.Spec.InRange gidx) :
    Cert.RefTerm.refOut (F := Ideal) gidx emb pa w bs = Cert.Spec.G gidx emb pa w bs := by
  rw [show Cert.RefTerm.refOut (F := Ideal) gidx emb pa w bs = _ from refOut_eq gidx emb pa w bs, rowSum_eq gidx emb h]
  funext i
  rw [addf_apply,
    broadcastInDim_apply _ _ _ i (ix1 ⟨(i 0).val, idx2_lt0 i⟩) (by intro a; match a with | ⟨0, _⟩ => rfl),
    broadcastInDim_apply _ _ _ i (ix1 ⟨(i 0).val, idx2_lt0 i⟩) (by intro a; match a with | ⟨0, _⟩ => rfl)]
  show Ideal.hostReduceAdd Cert.ReferenceIdeal.Facts₀.reducesTo_S16384x128_S16384_d1 (Cert.Spec.weighted gidx emb pa w)
    (Ideal.ofBits .f32 0x00000000#32) _ + _ = _
  rw [Ideal.hostReduceAdd_single _ red128, Ideal.ofBits_zero_f32, zero_add]
  unfold Cert.Spec.G
  show (∑ k : Fin 128, Cert.Spec.weighted gidx emb pa w (red128.lift (ix1 ⟨(i 0).val, idx2_lt0 i⟩) k)) + _ = _
  congr 1
  refine Finset.sum_congr rfl fun k _ => ?_
  refine congrArg _ (funext fun c => Fin.ext ?_)
  match c with
  | ⟨0, _⟩ => rfl
  | ⟨1, _⟩ => rfl

end Cert.RefValue

end
-- ==== Proof.lean ====
/-
  The proof of `Cert.Claim`: the Pallas kernel of a gather-accumulate-project layer against its jnp reference.

  Both programs compute, for each of 16384 samples, the lane-wise sum of the 32 embedding rows its feature words select,
  plus a phase bias row, clipped to [0, 1], weighted lane by lane by the sample's head, summed over the 128 lanes, plus
  the head's bias (`Cert.Spec.G`). The kernel does it in eight tiles of 2048 samples, one pallas_call each: a grid point
  per (sample, feature) fetches the row the prefetched index table names and adds it into a scratch accumulator; the
  last feature of a sample finishes it. The reference gathers all rows at once and reduces.

  The claims hold under the precondition that every gathered row number lies inside the embedding table: outside it the
  reference's gather has no defined row and the kernel's block index leaves the array. From it (`PreRange`) each tile's
  table satisfies its pipeline's side condition; the eight regions then run (`Main`: the several-region launch over one
  record per region, each region's scratch carried from point to point at the running sum), the arguments end as
  launched, and the result array is `Spec.G` of the arguments (`MainValue`). The reference's run is read off its
  operation list (`RefRun`) and its value is `Spec.G` too (`RefValue`). Sums are only re-associated: no finiteness of
  the float inputs is used.
-/
import proofs.«402893_j78554951844377_2_alg».proof.Defs
import proofs.«402893_j78554951844377_2_alg».proof.Proof.Gen.Kernel
import proofs.«402893_j78554951844377_2_alg».proof.Proof.Gen.KernelIdeal
import proofs.«402893_j78554951844377_2_alg».proof.Proof.Gen.ReferenceIdeal
import proofs.«402893_j78554951844377_2_alg».proof.Proof.Gen.Pre_finite_inputs
import proofs.«402893_j78554951844377_2_alg».proof.Proof.PreRange
import proofs.«402893_j78554951844377_2_alg».proof.Proof.Main
import proofs.«402893_j78554951844377_2_alg».proof.Proof.MainBits
import proofs.«402893_j78554951844377_2_alg».proof.Proof.MainValue
import proofs.«402893_j78554951844377_2_alg».proof.Proof.RefRun
import proofs.«402893_j78554951844377_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ hpre =>
  Cert.Kernel.Hand.frame_main m ρ (Cert.PreRange.inRange_of_pre _ _ _ _ _ _ _ (hpre 0))

/-- So does the idealized kernel. -/
theorem frame_ki : Cert.frame_KernelIdeal := fun m ρ hpre =>
  Cert.KernelIdeal.Hand.frame_main m ρ (Cert.PreRange.inRange_of_pre _ _ _ _ _ _ _ (hpre 0))

/-- The reference is host operations only: its run, the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both idealized programs end with `Spec.G` of them. -/
theorem algebraic : Cert.algebraic_KernelIdeal_ReferenceIdeal := by
  intro m ρ m' ρ' hpre hagree
  have hin := Cert.PreRange.inRange_of_pre _ _ _ _ _ _ _ (hpre 0)
  refine ⟨fun c => Cert.Spec.G
      (Cert.Spec.gidxOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (Cert.Spec.paSelOf (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
      (Cert.Spec.wSelOf (m ((c.tc : Thread Cert.KernelIdeal.nD Cert.KernelIdeal.τ).loc Cert.KernelIdeal.main_arg1)) (m ((c.tc : Thread Cert.KernelIdeal.nD Cert.KernelIdeal.τ).loc Cert.KernelIdeal.main_arg5)))
      (Cert.Spec.bSelOf (m ((c.tc : Thread Cert.KernelIdeal.nD Cert.KernelIdeal.τ).loc Cert.KernelIdeal.main_arg1)) (m ((c.tc : Thread Cert.KernelIdeal.nD Cert.KernelIdeal.τ).loc Cert.KernelIdeal.main_arg6))), ?_, ?_⟩
  · refine (θ_run Cert.KernelIdeal.defs _ _).mono (fun r h c => ?_) (Cert.KernelIdeal.Hand.run_main m ρ hin)
    open Cert.KernelIdeal Cert.KernelIdeal.Gen Cert.KernelIdeal.Hand in
    exact ⟨(h c _ main_v84_mem).trans (result_eq m hin c),
      (h c _ main_arg0_mem).trans (V21_main_arg0 m _ c), (h c _ main_arg1_mem).trans (V21_main_arg1 m _ c),
      (h c _ main_arg2_mem).trans (V21_main_arg2 m _ c), (h c _ main_arg3_mem).trans (V21_main_arg3 m _ c),
      (h c _ main_arg4_mem).trans (V21_main_arg4 m _ c), (h c _ main_arg5_mem).trans (V21_main_arg5 m _ c),
      (h c _ main_arg6_mem).trans (V21_main_arg6 m _ c)⟩
  · refine (θ_run Cert.ReferenceIdeal.defs _ _).mono (fun r h c => ⟨(h c).1.trans ?_, (h c).2⟩)
      (Cert.ReferenceIdeal.HandRun.run (F := Ideal) m' ρ')
    obtain rfl : c = 0 := Subsingleton.elim _ _
    rw [(hagree 0).1, (hagree 0).2.1, (hagree 0).2.2.1, (hagree 0).2.2.2.1, (hagree 0).2.2.2.2.1, (hagree 0).2.2.2.2.2.1, (hagree 0).2.2.2.2.2.2]
    exact Cert.RefValue.refOut_eq_G _ _ _ _ _ hin

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
